-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x4 : Shape := ⟨2, ![10000, 4]⟩
abbrev S10000x3 : Shape := ⟨2, ![10000, 3]⟩
abbrev S2x320000 : Shape := ⟨2, ![2, 320000]⟩
abbrev S10000 : Shape := ⟨1, ![10000]⟩
abbrev S8x128 : Shape := ⟨2, ![8, 128]⟩
abbrev S128 : Shape := ⟨1, ![128]⟩
abbrev S128x128 : Shape := ⟨2, ![128, 128]⟩
abbrev S256x128 : Shape := ⟨2, ![256, 128]⟩
abbrev S128x16 : Shape := ⟨2, ![128, 16]⟩
abbrev S16 : Shape := ⟨1, ![16]⟩
abbrev S_ : Shape := ⟨0, ![]⟩

class Facts : Prop where
  bcast_S_S10000x4 : S_.BroadcastsInDim S10000x4 (![] : Fin 0 → Fin S10000x4.rank)
  reducesTo_S10000x4_S_d0_1 : S10000x4.ReducesTo [0, 1] S_
  h_S_ : 0 < S_.numel
  bcast_S_S10000x3 : S_.BroadcastsInDim S10000x3 (![] : Fin 0 → Fin S10000x3.rank)
  reducesTo_S10000x3_S_d0_1 : S10000x3.ReducesTo [0, 1] S_
  bcast_S_S8x128 : S_.BroadcastsInDim S8x128 (![] : Fin 0 → Fin S8x128.rank)
  reducesTo_S8x128_S_d0_1 : S8x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S2x320000 : S_.BroadcastsInDim S2x320000 (![] : Fin 0 → Fin S2x320000.rank)
  reducesTo_S2x320000_S_d0_1 : S2x320000.ReducesTo [0, 1] S_

variable [Facts]

def fn_part8 {F : FTy → Type} [FloatOps F] (main_v132 : IVec S_ 1) (main_v135 : IVec S_ 1) : IVec S_ 1 :=
  let main_v136 : IVec S_ 1 := andi main_v132 main_v135
  main_v136

def fn_part7 {F : FTy → Type} [FloatOps F] (main_arg2 : IVec S2x320000 32) (main_arg27 : FVec F S16 .f32) (main_v118 : IVec S_ 1) (main_v119 : FVec F S128x16 .f32) : IVec S_ 1 :=
  let main_cst_46 : FVec F S_ .f32 := constant S_ .f32 0x7F800000#32
  let main_v120 : FVec F S128x16 .f32 := broadcastInDim S128x16 ![] bcast_S_S128x16 main_cst_46
  let main_v121 : IVec S128x16 1 := cmpf .olt main_v119 main_v120
  let main_c_47 : IVec S_ 1 := constantI S_ 1 1#1
  let main_v122 : IVec S_ 1 := (fun x v => Host.reduce IntOp.andi x v reducesTo_S128x16_S_d0_1 h_S_) main_v121 main_c_47
  let main_v123 : IVec S_ 1 := andi main_v118 main_v122
  let main_v124 : FVec F S16 .f32 := Host.absf main_arg27
  let main_cst_48 : FVec F S_ .f32 := constant S_ .f32 0x7F800000#32
  let main_v125 : FVec F S16 .f32 := broadcastInDim S16 ![] bcast_S_S16 main_cst_48
  let main_v126 : IVec S16 1 := cmpf .olt main_v124 main_v125
  let main_c_49 : IVec S_ 1 := constantI S_ 1 1#1
  let main_v127 : IVec S_ 1 := (fun x v => Host.reduce IntOp.andi x v reducesTo_S16_S_d0 h_S_) main_v126 main_c_49
  let main_v128 : IVec S_ 1 := andi main_v123 main_v127
  let main_c_50 : IVec S_ 32 := constantI S_ 32 0#32
  let main_v129 : IVec S2x320000 32 := broadcastInDim S2x320000 ![] bcast_S_S2x320000 main_c_50
  let main_v130 : IVec S2x320000 1 := cmpi .sge main_arg2 main_v129
  let main_c_51 : IVec S_ 1 := constantI S_ 1 1#1
  let main_v131 : IVec S_ 1 := (fun x v => Host.reduce IntOp.andi x v reducesTo_S2x320000_S_d0_1 h_S_) main_v130 main_c_51
  let main_v132 : IVec S_ 1 := andi main_v128 main_v131
  let main_c_52 : IVec S_ 32 := constantI S_ 32 10000#32
  let main_v133 : IVec S2x320000 32 := broadcastInDim S2x320000 ![] bcast_S_S2x320000 main_c_52
  let main_v134 : IVec S2x320000 1 := cmpi .slt main_arg2 main_v133
  let main_c_53 : IVec S_ 1 := constantI S_ 1 1#1
  let main_v135 : IVec S_ 1 := (fun x v => Host.reduce IntOp.andi x v reducesTo_S2x320000_S_d0_1 h_S_) main_v134 main_c_53
  fn_part8 (F := F) main_v132 main_v135

def fn_part6 {F : FTy → Type} [FloatOps F] (main_arg2 : IVec S2x320000 32) (main_arg23 : FVec F S128 .f32) (main_arg24 : FVec F S128x128 .f32) (main_arg25 : FVec F S128 .f32) (main_arg26 : FVec F S128x16 .f32) (main_arg27 : FVec F S16 .f32) (main_v98 : IVec S_ 1) (main_v101 : IVec S256x128 1) (main_c_39 : IVec S_ 1) : IVec S_ 1 :=
  let main_v102 : IVec S_ 1 := (fun x v => Host.reduce IntOp.andi x v reducesTo_S256x128_S_d0_1 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x128 .f32 := Host.absf main_arg24
  let main_cst_42 : FVec F S_ .f32 := constant S_ .f32 0x7F800000#32
  let main_v110 : FVec F S128x128 .f32 := broadcastInDim S128x128 ![] bcast_S_S128x128 main_cst_42
  let main_v111 : IVec S128x128 1 := cmpf .olt main_v109 main_v110
  let main_c_43 : IVec S_ 1 := constantI S_ 1 1#1
  let main_v112 : IVec S_ 1 := (fun x v => Host.reduce IntOp.andi x v reducesTo_S128x128_S_d0_1 h_S_) main_v111 main_c_43
  let main_v113 : IVec S_ 1 := andi main_v108 main_v112
  let main_v114 : FVec F S128 .f32 := Host.absf main_arg25
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x16 .f32 := Host.absf main_arg26
  fn_part7 (F := F) main_arg2 main_arg27 main_v118 main_v119

def fn_part5 {F : FTy → Type} [FloatOps F] (main_arg2 : IVec S2x320000 32) (main_arg20 : FVec F S128x128 .f32) (main_arg21 : FVec F S128 .f32) (main_arg22 : FVec F S256x128 .f32) (main_arg23 : FVec F S128 .f32) (main_arg24 : FVec F S128x128 .f32) (main_arg25 : FVec F S128 .f32) (main_arg26 : FVec F S128x16 .f32) (main_arg27 : FVec F S16 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg20
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S256x128 .f32 := Host.absf main_arg22
  let main_cst_38 : FVec F S_ .f32 := constant S_ .f32 0x7F800000#32
  let main_v100 : FVec F S256x128 .f32 := broadcastInDim S256x128 ![] bcast_S_S256x128 main_cst_38
  let main_v101 : IVec S256x128 1 := cmpf .olt main_v99 main_v100
  let main_c_39 : IVec S_ 1 := constantI S_ 1 1#1
  fn_part6 (F := F) main_arg2 main_arg23 main_arg24 main_arg25 main_arg26 main_arg27 main_v98 main_v101 main_c_39

def fn_part4 {F : FTy → Type} [FloatOps F] (main_arg2 : IVec S2x320000 32) (main_arg16 : FVec F S256x128 .f32) (main_arg17 : FVec F S128 .f32) (main_arg18 : FVec F S128x128 .f32) (main_arg19 : FVec F S128 .f32) (main_arg20 : FVec F S128x128 .f32) (main_arg21 : FVec F S128 .f32) (main_arg22 : FVec F S256x128 .f32) (main_arg23 : FVec F S128 .f32) (main_arg24 : FVec F S128x128 .f32) (main_arg25 : FVec F S128 .f32) (main_arg26 : FVec F S128x16 .f32) (main_arg27 : FVec F S16 .f32) (main_v63 : IVec S_ 1) (main_v67 : IVec S_ 1) : IVec S_ 1 :=
  let main_v68 : IVec S_ 1 := andi main_v63 main_v67
  let main_v69 : FVec F S256x128 .f32 := Host.absf main_arg16
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg2 main_arg20 main_arg21 main_arg22 main_arg23 main_arg24 main_arg25 main_arg26 main_arg27 main_v83 main_v84 main_cst_32

def fn_part3 {F : FTy → Type} [FloatOps F] (main_arg2 : IVec S2x320000 32) (main_arg13 : FVec F S128 .f32) (main_arg14 : FVec F S128x128 .f32) (main_arg15 : FVec F S128 .f32) (main_arg16 : FVec F S256x128 .f32) (main_arg17 : FVec F S128 .f32) (main_arg18 : FVec F S128x128 .f32) (main_arg19 : FVec F S128 .f32) (main_arg20 : FVec F S128x128 .f32) (main_arg21 : FVec F S128 .f32) (main_arg22 : FVec F S256x128 .f32) (main_arg23 : FVec F S128 .f32) (main_arg24 : FVec F S128x128 .f32) (main_arg25 : FVec F S128 .f32) (main_arg26 : FVec F S128x16 .f32) (main_arg27 : FVec F S16 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg16 main_arg17 main_arg18 main_arg19 main_arg20 main_arg21 main_arg22 main_arg23 main_arg24 main_arg25 main_arg26 main_arg27 main_v63 main_v67

def fn_part2 {F : FTy → Type} [FloatOps F] (main_arg2 : IVec S2x320000 32) (main_arg9 : FVec F S128 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) (main_arg16 : FVec F S256x128 .f32) (main_arg17 : FVec F S128 .f32) (main_arg18 : FVec F S128x128 .f32) (main_arg19 : FVec F S128 .f32) (main_arg20 : FVec F S128x128 .f32) (main_arg21 : FVec F S128 .f32) (main_arg22 : FVec F S256x128 .f32) (main_arg23 : FVec F S128 .f32) (main_arg24 : FVec F S128x128 .f32) (main_arg25 : FVec F S128 .f32) (main_arg26 : FVec F S128x16 .f32) (main_arg27 : FVec F S16 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg2 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg2 : IVec S2x320000 32) (main_arg6 : FVec F S128x128 .f32) (main_arg7 : FVec F S128 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) (main_arg16 : FVec F S256x128 .f32) (main_arg17 : FVec F S128 .f32) (main_arg18 : FVec F S128x128 .f32) (main_arg19 : FVec F S128 .f32) (main_arg20 : FVec F S128x128 .f32) (main_arg21 : FVec F S128 .f32) (main_arg22 : FVec F S256x128 .f32) (main_arg23 : FVec F S128 .f32) (main_arg24 : FVec F S128x128 .f32) (main_arg25 : FVec F S128 .f32) (main_arg26 : FVec F S128x16 .f32) (main_arg27 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S10000x4 .f32) (main_arg1 : FVec F S10000x3 .f32) (main_arg2 : IVec S2x320000 32) (main_arg3 : IVec S10000 32) (main_arg4 : FVec F S8x128 .f32) (main_arg5 : FVec F S128 .f32) (main_arg6 : FVec F S128x128 .f32) (main_arg7 : FVec F S128 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) (main_arg16 : FVec F S256x128 .f32) (main_arg17 : FVec F S128 .f32) (main_arg18 : FVec F S128x128 .f32) (main_arg19 : FVec F S128 .f32) (main_arg20 : FVec F S128x128 .f32) (main_arg21 : FVec F S128 .f32) (main_arg22 : FVec F S256x128 .f32) (main_arg23 : FVec F S128 .f32) (main_arg24 : FVec F S128x128 .f32) (main_arg25 : FVec F S128 .f32) (main_arg26 : FVec F S128x16 .f32) (main_arg27 : FVec F S16 .f32) : IVec S_ 1 :=
  let main_v0 : FVec F S10000x4 .f32 := Host.absf main_arg0
  let main_cst : FVec F S_ .f32 := constant S_ .f32 0x7F800000#32
  let main_v1 : FVec F S10000x4 .f32 := broadcastInDim S10000x4 ![] bcast_S_S10000x4 main_cst
  let main_v2 : IVec S10000x4 1 := cmpf .olt main_v0 main_v1
  let main_c : IVec S_ 1 := constantI S_ 1 1#1
  let main_v3 : IVec S_ 1 := (fun x v => Host.reduce IntOp.andi x v reducesTo_S10000x4_S_d0_1 h_S_) main_v2 main_c
  let main_v4 : FVec F S10000x3 .f32 := Host.absf main_arg1
  let main_cst_0 : FVec F S_ .f32 := constant S_ .f32 0x7F800000#32
  let main_v5 : FVec F S10000x3 .f32 := broadcastInDim S10000x3 ![] bcast_S_S10000x3 main_cst_0
  let main_v6 : IVec S10000x3 1 := cmpf .olt main_v4 main_v5
  let main_c_1 : IVec S_ 1 := constantI S_ 1 1#1
  let main_v7 : IVec S_ 1 := (fun x v => Host.reduce IntOp.andi x v reducesTo_S10000x3_S_d0_1 h_S_) main_v6 main_c_1
  let main_v8 : IVec S_ 1 := andi main_v3 main_v7
  let main_v9 : FVec F S8x128 .f32 := Host.absf main_arg4
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S10000x4 : Shape := ⟨2, ![10000, 4]⟩
abbrev S10000x3 : Shape := ⟨2, ![10000, 3]⟩
abbrev S2x320000 : Shape := ⟨2, ![2, 320000]⟩
abbrev S10000 : Shape := ⟨1, ![10000]⟩
abbrev S8x128 : Shape := ⟨2, ![8, 128]⟩
abbrev S128 : Shape := ⟨1, ![128]⟩
abbrev S128x128 : Shape := ⟨2, ![128, 128]⟩
abbrev S256x128 : Shape := ⟨2, ![256, 128]⟩
abbrev S128x16 : Shape := ⟨2, ![128, 16]⟩
abbrev S16 : Shape := ⟨1, ![16]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1250 : Shape := ⟨1, ![1250]⟩
abbrev S1250x1 : Shape := ⟨2, ![1250, 1]⟩
abbrev S1x128 : Shape := ⟨2, ![1, 128]⟩
abbrev S10240x4 : Shape := ⟨2, ![10240, 4]⟩
abbrev S2x10240x128 : Shape := ⟨3, ![2, 10240, 128]⟩
abbrev S256x1 : Shape := ⟨2, ![256, 1]⟩
abbrev S1x10240x128 : Shape := ⟨3, ![1, 10240, 128]⟩
abbrev S10240x128 : Shape := ⟨2, ![10240, 128]⟩
abbrev S256x4 : Shape := ⟨2, ![256, 4]⟩
abbrev S256 : Shape := ⟨1, ![256]⟩
abbrev S1 : Shape := ⟨1, ![1]⟩
abbrev S256x1024 : Shape := ⟨2, ![256, 1024]⟩
abbrev S1024x4 : Shape := ⟨2, ![1024, 4]⟩
abbrev S256x8 : Shape := ⟨2, ![256, 8]⟩
abbrev S1024x128 : Shape := ⟨2, ![1024, 128]⟩
abbrev S10000x128 : Shape := ⟨2, ![10000, 128]⟩
abbrev S256x256 : Shape := ⟨2, ![256, 256]⟩
abbrev S1x16 : Shape := ⟨2, ![1, 16]⟩
abbrev S2x10240x16 : Shape := ⟨3, ![2, 10240, 16]⟩
abbrev S1x10240x16 : Shape := ⟨3, ![1, 10240, 16]⟩
abbrev S10240x16 : Shape := ⟨2, ![10240, 16]⟩
abbrev S256x16 : Shape := ⟨2, ![256, 16]⟩
abbrev S1024x16 : Shape := ⟨2, ![1024, 16]⟩
abbrev S10000x16 : Shape := ⟨2, ![10000, 16]⟩

abbrev nBuf : Space → Nat
  | .hbm => 154
  | .vmem => 60
  | .smem => 2
  | _ => 0

abbrev hbmTy0_0 (i : Nat) : BufTy := match i % 128 with
  | 0 => ⟨S10000x4, .f32⟩
  | 1 => ⟨S10000x3, .f32⟩
  | 2 => ⟨S2x320000, .i32⟩
  | 3 => ⟨S10000, .i32⟩
  | 4 => ⟨S8x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S256x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S256x128, .f32⟩
  | 17 => ⟨S128, .f32⟩
  | 18 => ⟨S128x128, .f32⟩
  | 19 => ⟨S128, .f32⟩
  | 20 => ⟨S128x128, .f32⟩
  | 21 => ⟨S128, .f32⟩
  | 22 => ⟨S256x128, .f32⟩
  | 23 => ⟨S128, .f32⟩
  | 24 => ⟨S128x128, .f32⟩
  | 25 => ⟨S128, .f32⟩
  | 26 => ⟨S128x16, .f32⟩
  | 27 => ⟨S16, .f32⟩
  | 28 => ⟨S1x320000, .i32⟩
  | 29 => ⟨S320000, .i32⟩
  | 30 => ⟨S1x320000, .i32⟩
  | 31 => ⟨S320000, .i32⟩
  | 32 => ⟨S320000, .i32⟩
  | 33 => ⟨S320000, .i32⟩
  | 34 => ⟨S320000, .i32⟩
  | 35 => ⟨S_, .i32⟩
  | 36 => ⟨S320000, .i32⟩
  | 37 => ⟨S320000, .i1⟩
  | 38 => ⟨S_, .i32⟩
  | 39 => ⟨S320000, .i32⟩
  | 40 => ⟨S320000, .i32⟩
  | 41 => ⟨S320000, .i32⟩
  | 42 => ⟨S320000x1, .i32⟩
  | 43 => ⟨S320000, .i32⟩
  | 44 => ⟨S_, .i32⟩
  | 45 => ⟨S320000, .i32⟩
  | 46 => ⟨S320000, .i1⟩
  | 47 => ⟨S_, .i32⟩
  | 48 => ⟨S320000, .i32⟩
  | 49 => ⟨S320000, .i32⟩
  | 50 => ⟨S320000, .i32⟩
  | 51 => ⟨S320000x1, .i32⟩
  | 52 => ⟨S320000, .i32⟩
  | 53 => ⟨S1250, .i32⟩
  | 54 => ⟨S_, .i32⟩
  | 55 => ⟨S1250, .i32⟩
  | 56 => ⟨S1250, .i32⟩
  | 57 => ⟨S_, .i32⟩
  | 58 => ⟨S1250, .i32⟩
  | 59 => ⟨S1250, .i32⟩
  | 60 => ⟨S_, .i32⟩
  | 61 => ⟨S1250, .i32⟩
  | 62 => ⟨S1250, .i1⟩
  | 63 => ⟨S_, .i32⟩
  | 64 => ⟨S1250, .i32⟩
  | 65 => ⟨S1250, .i32⟩
  | 66 => ⟨S1250, .i32⟩
  | 67 => ⟨S1250x1, .i32⟩
  | 68 => ⟨S1250, .i32⟩
  | 69 => ⟨S_, .i32⟩
  | 70 => ⟨S_, .i32⟩
  | 71 => ⟨S1250, .i32⟩
  | 72 => ⟨S1250, .i32⟩
  | 73 => ⟨S1250, .i32⟩
  | 74 => ⟨S_, .i32⟩
  | 75 => ⟨S1250, .i32⟩
  | 76 => ⟨S1250, .i1⟩
  | 77 => ⟨S1250, .i32⟩
  | 78 => ⟨S1250, .i32⟩
  | 79 => ⟨S_, .i32⟩
  | 80 => ⟨S1250, .i32⟩
  | 81 => ⟨S1250, .i1⟩
  | 82 => ⟨S1250, .i1⟩
  | 83 => ⟨S_, .i32⟩
  | 84 => ⟨S1250, .i32⟩
  | 85 => ⟨S1250, .i32⟩
  | 86 => ⟨S_, .i32⟩
  | 87 => ⟨S1250, .i32⟩
  | 88 => ⟨S1250, .i1⟩
  | 89 => ⟨S_, .i32⟩
  | 90 => ⟨S1250, .i32⟩
  | 91 => ⟨S1250, .i32⟩
  | 92 => ⟨S1250, .i32⟩
  | 93 => ⟨S1250x1, .i32⟩
  | 94 => ⟨S1250, .i32⟩
  | 95 => ⟨S_, .i32⟩
  | 96 => ⟨S_, .i32⟩
  | 97 => ⟨S1250, .i32⟩
  | 98 => ⟨S1250, .i32⟩
  | 99 => ⟨S1250, .i32⟩
  | 100 => ⟨S_, .i32⟩
  | 101 => ⟨S1250, .i32⟩
  | 102 => ⟨S1250, .i1⟩
  | 103 => ⟨S1250, .i32⟩
  | 104 => ⟨S1250, .i32⟩
  | 105 => ⟨S_, .i32⟩
  | 106 => ⟨S1250, .i32⟩
  | 107 => ⟨S1250, .i1⟩
  | 108 => ⟨S1250, .i1⟩
  | 109 => ⟨S_, .i32⟩
  | 110 => ⟨S1250, .i32⟩
  | 111 => ⟨S1250, .i32⟩
  | 112 => ⟨S320000x1, .i32⟩
  | 113 => ⟨S320000x1, .i32⟩
  | 114 => ⟨S1x128, .f32⟩
  | 115 => ⟨S1x128, .f32⟩
  | 116 => ⟨S1x128, .f32⟩
  | 117 => ⟨S_, .i32⟩
  | 118 => ⟨S_, .f32⟩
  | 119 => ⟨S10240x4, .f32⟩
  | 120 => ⟨S2x10240x128, .f32⟩
  | 121 => ⟨S_, .f32⟩
  | 122 => ⟨S10240x128, .f32⟩
  | 123 => ⟨S10000x128, .f32⟩
  | 124 => ⟨S1x128, .f32⟩
  | 125 => ⟨S1x128, .f32⟩
  | 126 => ⟨S1x128, .f32⟩
  | 127 => ⟨S_, .i32⟩
  | _ => ⟨S10000x4, .f32⟩

abbrev hbmTy0_1 (i : Nat) : BufTy := match i % 128 with
  | 0 => ⟨S_, .f32⟩
  | 1 => ⟨S10240x128, .f32⟩
  | 2 => ⟨S2x10240x128, .f32⟩
  | 3 => ⟨S_, .f32⟩
  | 4 => ⟨S10240x128, .f32⟩
  | 5 => ⟨S10000x128, .f32⟩
  | 6 => ⟨S1x128, .f32⟩
  | 7 => ⟨S1x128, .f32⟩
  | 8 => ⟨S1x128, .f32⟩
  | 9 => ⟨S_, .i32⟩
  | 10 => ⟨S_, .f32⟩
  | 11 => ⟨S10240x128, .f32⟩
  | 12 => ⟨S2x10240x128, .f32⟩
  | 13 => ⟨S_, .f32⟩
  | 14 => ⟨S10240x128, .f32⟩
  | 15 => ⟨S10000x128, .f32⟩
  | 16 => ⟨S1x128, .f32⟩
  | 17 => ⟨S1x128, .f32⟩
  | 18 => ⟨S1x16, .f32⟩
  | 19 => ⟨S_, .i32⟩
  | 20 => ⟨S_, .f32⟩
  | 21 => ⟨S10240x128, .f32⟩
  | 22 => ⟨S2x10240x16, .f32⟩
  | 23 => ⟨S_, .f32⟩
  | 24 => ⟨S10240x16, .f32⟩
  | 25 => ⟨S10000x16, .f32⟩
  | _ => ⟨S10000x4, .f32⟩

abbrev hbmTy (i : Nat) : BufTy := match i / 128 with
  | 0 => hbmTy0_0 i
  | 1 => hbmTy0_1 i
  | _ => ⟨S10000x4, .f32⟩

abbrev bufTy : (tb : Table) → Fin (tcTables nBuf tb) → BufTy
  | .hbm, ⟨i, _⟩ => hbmTy i
  | .local _ .vmem, ⟨0, _⟩ => ⟨S256x1, .i32⟩
  | .local _ .vmem, ⟨1, _⟩ => ⟨S256x1, .i32⟩
  | .local _ .vmem, ⟨2, _⟩ => ⟨S256x1, .i32⟩
  | .local _ .vmem, ⟨3, _⟩ => ⟨S256x1, .i32⟩
  | .local _ .vmem, ⟨4, _⟩ => ⟨S10240x4, .f32⟩
  | .local _ .vmem, ⟨5, _⟩ => ⟨S8x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S1x10240x128, .f32⟩
  | .local _ .vmem, ⟨12, _⟩ => ⟨S1x10240x128, .f32⟩
  | .local _ .vmem, ⟨13, _⟩ => ⟨S10240x128, .f32⟩
  | .local _ .vmem, ⟨14, _⟩ => ⟨S256x4, .f32⟩
  | .local _ .vmem, ⟨15, _⟩ => ⟨S256x1, .i32⟩
  | .local _ .vmem, ⟨16, _⟩ => ⟨S256x1, .i32⟩
  | .local _ .vmem, ⟨17, _⟩ => ⟨S256x1, .i32⟩
  | .local _ .vmem, ⟨18, _⟩ => ⟨S256x1, .i32⟩
  | .local _ .vmem, ⟨19, _⟩ => ⟨S10240x128, .f32⟩
  | .local _ .vmem, ⟨20, _⟩ => ⟨S256x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S1x10240x128, .f32⟩
  | .local _ .vmem, ⟨27, _⟩ => ⟨S1x10240x128, .f32⟩
  | .local _ .vmem, ⟨28, _⟩ => ⟨S10240x128, .f32⟩
  | .local _ .vmem, ⟨29, _⟩ => ⟨S256x128, .f32⟩
  | .local _ .vmem, ⟨30, _⟩ => ⟨S256x1, .i32⟩
  | .local _ .vmem, ⟨31, _⟩ => ⟨S256x1, .i32⟩
  | .local _ .vmem, ⟨32, _⟩ => ⟨S256x1, .i32⟩
  | .local _ .vmem, ⟨33, _⟩ => ⟨S256x1, .i32⟩
  | .local _ .vmem, ⟨34, _⟩ => ⟨S10240x128, .f32⟩
  | .local _ .vmem, ⟨35, _⟩ => ⟨S256x128, .f32⟩
  | .local _ .vmem, ⟨36, _⟩ => ⟨S1x128, .f32⟩
  | .local _ .vmem, ⟨37, _⟩ => ⟨S128x128, .f32⟩
  | .local _ .vmem, ⟨38, _⟩ => ⟨S1x128, .f32⟩
  | .local _ .vmem, ⟨39, _⟩ => ⟨S128x128, .f32⟩
  | .local _ .vmem, ⟨40, _⟩ => ⟨S1x128, .f32⟩
  | .local _ .vmem, ⟨41, _⟩ => ⟨S1x10240x128, .f32⟩
  | .local _ .vmem, ⟨42, _⟩ => ⟨S1x10240x128, .f32⟩
  | .local _ .vmem, ⟨43, _⟩ => ⟨S10240x128, .f32⟩
  | .local _ .vmem, ⟨44, _⟩ => ⟨S256x128, .f32⟩
  | .local _ .vmem, ⟨45, _⟩ => ⟨S256x1, .i32⟩
  | .local _ .vmem, ⟨46, _⟩ => ⟨S256x1, .i32⟩
  | .local _ .vmem, ⟨47, _⟩ => ⟨S256x1, .i32⟩
  | .local _ .vmem, ⟨48, _⟩ => ⟨S256x1, .i32⟩
  | .local _ .vmem, ⟨49, _⟩ => ⟨S10240x128, .f32⟩
  | .local _ .vmem, ⟨50, _⟩ => ⟨S256x128, .f32⟩
  | .local _ .vmem, ⟨51, _⟩ => ⟨S1x128, .f32⟩
  | .local _ .vmem, ⟨52, _⟩ => ⟨S128x128, .f32⟩
  | .local _ .vmem, ⟨53, _⟩ => ⟨S1x128, .f32⟩
  | .local _ .vmem, ⟨54, _⟩ => ⟨S128x16, .f32⟩
  | .local _ .vmem, ⟨55, _⟩ => ⟨S1x16, .f32⟩
  | .local _ .vmem, ⟨56, _⟩ => ⟨S1x10240x16, .f32⟩
  | .local _ .vmem, ⟨57, _⟩ => ⟨S1x10240x16, .f32⟩
  | .local _ .vmem, ⟨58, _⟩ => ⟨S10240x16, .f32⟩
  | .local _ .vmem, ⟨59, _⟩ => ⟨S256x128, .f32⟩
  | .local _ .smem, ⟨0, _⟩ => ⟨S1250, .i32⟩
  | .local _ .smem, ⟨1, _⟩ => ⟨S1250, .i32⟩
  | _, _ => ⟨S10000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_call0_v0 : Ref sig .tc := ⟨.hbm, 32, rfl⟩
abbrev main_call0_v1_0 : Ref sig .tc := ⟨.hbm, 33, rfl⟩
abbrev main_v4 : Ref sig .tc := ⟨.hbm, 34, rfl⟩
abbrev main_c : Ref sig .tc := ⟨.hbm, 35, rfl⟩
abbrev main_v5 : Ref sig .tc := ⟨.hbm, 36, rfl⟩
abbrev main_v6 : Ref sig .tc := ⟨.hbm, 37, rfl⟩
abbrev main_c_0 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_c_1 : Ref sig .tc := ⟨.hbm, 44, rfl⟩
abbrev main_v12 : Ref sig .tc := ⟨.hbm, 45, rfl⟩
abbrev main_v13 : Ref sig .tc := ⟨.hbm, 46, rfl⟩
abbrev main_c_2 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_c_3 : Ref sig .tc := ⟨.hbm, 54, rfl⟩
abbrev main_v20 : Ref sig .tc := ⟨.hbm, 55, rfl⟩
abbrev main_v21 : Ref sig .tc := ⟨.hbm, 56, rfl⟩
abbrev main_c_4 : Ref sig .tc := ⟨.hbm, 57, rfl⟩
abbrev main_v22 : Ref sig .tc := ⟨.hbm, 58, rfl⟩
abbrev main_v23 : Ref sig .tc := ⟨.hbm, 59, rfl⟩
abbrev main_c_5 : Ref sig .tc := ⟨.hbm, 60, rfl⟩
abbrev main_v24 : Ref sig .tc := ⟨.hbm, 61, rfl⟩
abbrev main_v25 : Ref sig .tc := ⟨.hbm, 62, rfl⟩
abbrev main_c_6 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_c_7 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_c : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_c_0 : Ref sig .tc := ⟨.hbm, 83, rfl⟩
abbrev main_call1_v12 : Ref sig .tc := ⟨.hbm, 84, rfl⟩
abbrev main_call1_v13 : Ref sig .tc := ⟨.hbm, 85, rfl⟩
abbrev main_c_8 : Ref sig .tc := ⟨.hbm, 86, rfl⟩
abbrev main_v32 : Ref sig .tc := ⟨.hbm, 87, rfl⟩
abbrev main_v33 : Ref sig .tc := ⟨.hbm, 88, rfl⟩
abbrev main_c_9 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_c_10 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_v5 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_c : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_c_0 : Ref sig .tc := ⟨.hbm, 109, rfl⟩
abbrev main_call2_v12 : Ref sig .tc := ⟨.hbm, 110, rfl⟩
abbrev main_call2_v13 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_c_11 : Ref sig .tc := ⟨.hbm, 117, rfl⟩
abbrev main_call3_v0 : Ref sig .tc := ⟨.hbm, 118, rfl⟩
abbrev main_v45 : Ref sig .tc := ⟨.hbm, 119, rfl⟩
abbrev main_v46 : Ref sig .tc := ⟨.hbm, 120, rfl⟩
abbrev main_cst : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_c_12 : Ref sig .tc := ⟨.hbm, 127, rfl⟩
abbrev main_call4_v0 : Ref sig .tc := ⟨.hbm, 128, rfl⟩
abbrev main_v52 : Ref sig .tc := ⟨.hbm, 129, rfl⟩
abbrev main_v53 : Ref sig .tc := ⟨.hbm, 130, rfl⟩
abbrev main_cst_13 : Ref sig .tc := ⟨.hbm, 131, rfl⟩
abbrev main_v54 : Ref sig .tc := ⟨.hbm, 132, rfl⟩
abbrev main_v55 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_c_14 : Ref sig .tc := ⟨.hbm, 137, rfl⟩
abbrev main_call5_v0 : Ref sig .tc := ⟨.hbm, 138, rfl⟩
abbrev main_v59 : Ref sig .tc := ⟨.hbm, 139, rfl⟩
abbrev main_v60 : Ref sig .tc := ⟨.hbm, 140, rfl⟩
abbrev main_cst_15 : Ref sig .tc := ⟨.hbm, 141, rfl⟩
abbrev main_v61 : Ref sig .tc := ⟨.hbm, 142, rfl⟩
abbrev main_v62 : Ref sig .tc := ⟨.hbm, 143, rfl⟩
abbrev main_v63 : Ref sig .tc := ⟨.hbm, 144, rfl⟩
abbrev main_v64 : Ref sig .tc := ⟨.hbm, 145, rfl⟩
abbrev main_v65 : Ref sig .tc := ⟨.hbm, 146, rfl⟩
abbrev main_c_16 : Ref sig .tc := ⟨.hbm, 147, rfl⟩
abbrev main_call6_v0 : Ref sig .tc := ⟨.hbm, 148, rfl⟩
abbrev main_v66 : Ref sig .tc := ⟨.hbm, 149, rfl⟩
abbrev main_v67 : Ref sig .tc := ⟨.hbm, 150, rfl⟩
abbrev main_cst_17 : Ref sig .tc := ⟨.hbm, 151, rfl⟩
abbrev main_v68 : Ref sig .tc := ⟨.hbm, 152, rfl⟩
abbrev main_v69 : Ref sig .tc := ⟨.hbm, 153, rfl⟩
abbrev main_v31 : Ref sig .tc := ⟨.smem, 0, rfl⟩
abbrev main_v39 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc1_scratch0 : Ref sig .tc := ⟨.vmem, 28, rfl⟩
abbrev cc1_scratch1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg8_0 : Ref sig .tc := ⟨.vmem, 40, rfl⟩
abbrev cc2_stg9_0 : Ref sig .tc := ⟨.vmem, 41, rfl⟩
abbrev cc2_stg9_1 : Ref sig .tc := ⟨.vmem, 42, rfl⟩
abbrev cc2_scratch0 : Ref sig .tc := ⟨.vmem, 43, rfl⟩
abbrev cc2_scratch1 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg1_1 : Ref sig .tc := ⟨.vmem, 48, rfl⟩
abbrev cc3_stg2_0 : Ref sig .tc := ⟨.vmem, 49, rfl⟩
abbrev cc3_stg3_0 : Ref sig .tc := ⟨.vmem, 50, rfl⟩
abbrev cc3_stg4_0 : Ref sig .tc := ⟨.vmem, 51, rfl⟩
abbrev cc3_stg5_0 : Ref sig .tc := ⟨.vmem, 52, rfl⟩
abbrev cc3_stg6_0 : Ref sig .tc := ⟨.vmem, 53, rfl⟩
abbrev cc3_stg7_0 : Ref sig .tc := ⟨.vmem, 54, rfl⟩
abbrev cc3_stg8_0 : Ref sig .tc := ⟨.vmem, 55, rfl⟩
abbrev cc3_stg9_0 : Ref sig .tc := ⟨.vmem, 56, rfl⟩
abbrev cc3_stg9_1 : Ref sig .tc := ⟨.vmem, 57, rfl⟩
abbrev cc3_scratch0 : Ref sig .tc := ⟨.vmem, 58, rfl⟩
abbrev cc3_scratch1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem9_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem3_0 : DmaSem sig := 44
abbrev cc3_sem4_0 : DmaSem sig := 45
abbrev cc3_sem5_0 : DmaSem sig := 46
abbrev cc3_sem6_0 : DmaSem sig := 47
abbrev cc3_sem7_0 : DmaSem sig := 48
abbrev cc3_sem8_0 : DmaSem sig := 49
abbrev cc3_sem9_0 : DmaSem sig := 50
abbrev cc3_sem9_1 : DmaSem sig := 51

abbrev nD : Nat := 1
abbrev τ : Topo := Topo.v7x

variable {F : FTy → Type} [FloatOps F]

abbrev grid0 : Pipeline.Grid := ⟨2, ![2, 625], ![false, false]⟩

abbrev pre0 : Pipeline.Prefetch sig := ⟨2, ![main_v31.idx, main_v39.idx], fun | 0 => main_v31.names | 1 => main_v39.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c625_i32 : BitVec 32 := 625#32
  let v0 : BitVec 32 := Scalar.muli arg0 c625_i32
  let arg1 : BitVec 32 := BitVec.ofNat 32 (i 1).val
  let v1 : BitVec 32 := Scalar.addi v0 arg1
  let v9 : Index := Scalar.indexCast v1
  ![v9.toNat]
def k0_cond22 (i : grid0.Coords) : BitVec 1 :=
  let arg1 : BitVec 32 := BitVec.ofNat 32 (i 1).val
  let c624_i32 : BitVec 32 := 624#32
  let v263 : BitVec 1 := Scalar.cmpi .eq arg1 c624_i32
  let v264 : BitVec 32 := Scalar.extui v263
  let c0_i32_99 : BitVec 32 := 0#32
  let v265 : BitVec 1 := Scalar.cmpi .ne v264 c0_i32_99
  v265

def cc0_transform_0 (i : grid0.Coords) : Fin 2 → Nat :=
  let arg0 : BitVec 32 := BitVec.ofNat 32 (i 0).val
  let arg1 : BitVec 32 := BitVec.ofNat 32 (i 1).val
  let c625_i32 : BitVec 32 := 625#32
  let v0 : BitVec 32 := Scalar.muli arg0 c625_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c625_i32 : BitVec 32 := 625#32
  let v0 : BitVec 32 := Scalar.muli arg0 c625_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S10240x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x10240x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨2, ![2, 625], ![false, false]⟩

abbrev pre1 : Pipeline.Prefetch sig := ⟨2, ![main_v31.idx, main_v39.idx], fun | 0 => main_v31.names | 1 => main_v39.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let c625_i32 : BitVec 32 := 625#32
  let v0 : BitVec 32 := Scalar.muli arg0 c625_i32
  let arg1 : BitVec 32 := BitVec.ofNat 32 (i 1).val
  let v1 : BitVec 32 := Scalar.addi v0 arg1
  let v9 : Index := Scalar.indexCast v1
  ![v9.toNat]
def k1_cond22 (i : grid1.Coords) : BitVec 1 :=
  let arg1 : BitVec 32 := BitVec.ofNat 32 (i 1).val
  let c624_i32 : BitVec 32 := 624#32
  let v263 : BitVec 1 := Scalar.cmpi .eq arg1 c624_i32
  let v264 : BitVec 32 := Scalar.extui v263
  let c0_i32_99 : BitVec 32 := 0#32
  let v265 : BitVec 1 := Scalar.cmpi .ne v264 c0_i32_99
  v265

def cc1_transform_0 (i : grid1.Coords) : Fin 2 → Nat :=
  let arg0 : BitVec 32 := BitVec.ofNat 32 (i 0).val
  let arg1 : BitVec 32 := BitVec.ofNat 32 (i 1).val
  let c625_i32 : BitVec 32 := 625#32
  let v0 : BitVec 32 := Scalar.muli arg0 c625_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c625_i32 : BitVec 32 := 625#32
  let v0 : BitVec 32 := Scalar.muli arg0 c625_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S10240x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S1x10240x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev grid2 : Pipeline.Grid := ⟨2, ![2, 625], ![false, false]⟩

abbrev pre2 : Pipeline.Prefetch sig := ⟨2, ![main_v31.idx, main_v39.idx], fun | 0 => main_v31.names | 1 => main_v39.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) : Fin 1 → Nat :=
  let arg0 : BitVec 32 := BitVec.ofNat 32 (i 0).val
  let c625_i32 : BitVec 32 := 625#32
  let v0 : BitVec 32 := Scalar.muli arg0 c625_i32
  let arg1 : BitVec 32 := BitVec.ofNat 32 (i 1).val
  let v1 : BitVec 32 := Scalar.addi v0 arg1
  let v9 : Index := Scalar.indexCast v1
  ![v9.toNat]
def k2_cond22 (i : grid2.Coords) : BitVec 1 :=
  let arg1 : BitVec 32 := BitVec.ofNat 32 (i 1).val
  let c624_i32 : BitVec 32 := 624#32
  let v263 : BitVec 1 := Scalar.cmpi .eq arg1 c624_i32
  let v264 : BitVec 32 := Scalar.extui v263
  let c0_i32_99 : BitVec 32 := 0#32
  let v265 : BitVec 1 := Scalar.cmpi .ne v264 c0_i32_99
  v265

def cc2_transform_0 (i : grid2.Coords) : Fin 2 → Nat :=
  let arg0 : BitVec 32 := BitVec.ofNat 32 (i 0).val
  let arg1 : BitVec 32 := BitVec.ofNat 32 (i 1).val
  let c625_i32 : BitVec 32 := 625#32
  let v0 : BitVec 32 := Scalar.muli arg0 c625_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c625_i32 : BitVec 32 := 625#32
  let v0 : BitVec 32 := Scalar.muli arg0 c625_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S256x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S256x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S10240x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 2 → Memref sig .tc .vmem S1x10240x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false]

abbrev grid3 : Pipeline.Grid := ⟨2, ![2, 625], ![false, false]⟩

abbrev pre3 : Pipeline.Prefetch sig := ⟨2, ![main_v31.idx, main_v39.idx], fun | 0 => main_v31.names | 1 => main_v39.names | ⟨_ + 2, h⟩ => absurd h (Nat.not_lt.2 (Nat.le_add_left _ _)), fun | 0 => rfl | 1 => rfl | ⟨_ + 2, h⟩ => absurd h (Nat.not_lt.2 (Nat.le_add_left _ _))⟩

def k3_off1 (i : grid3.Coords) : Fin 1 → Nat :=
  let arg0 : BitVec 32 := BitVec.ofNat 32 (i 0).val
  let c625_i32 : BitVec 32 := 625#32
  let v0 : BitVec 32 := Scalar.muli arg0 c625_i32
  let arg1 : BitVec 32 := BitVec.ofNat 32 (i 1).val
  let v1 : BitVec 32 := Scalar.addi v0 arg1
  let v9 : Index := Scalar.indexCast v1
  ![v9.toNat]
def k3_cond22 (i : grid3.Coords) : BitVec 1 :=
  let arg1 : BitVec 32 := BitVec.ofNat 32 (i 1).val
  let c624_i32 : BitVec 32 := 624#32
  let v263 : BitVec 1 := Scalar.cmpi .eq arg1 c624_i32
  let v264 : BitVec 32 := Scalar.extui v263
  let c0_i32_99 : BitVec 32 := 0#32
  let v265 : BitVec 1 := Scalar.cmpi .ne v264 c0_i32_99
  v265

def cc3_transform_0 (i : grid3.Coords) : Fin 2 → Nat :=
  let arg0 : BitVec 32 := BitVec.ofNat 32 (i 0).val
  let arg1 : BitVec 32 := BitVec.ofNat 32 (i 1).val
  let c625_i32 : BitVec 32 := 625#32
  let v0 : BitVec 32 := Scalar.muli arg0 c625_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let c625_i32 : BitVec 32 := 625#32
  let v0 : BitVec 32 := Scalar.muli arg0 c625_i32
  let v1 : BitVec 32 := Scalar.addi v0 arg1
  let c0_i32 : BitVec 32 := 0#32
  let c0_i32_0 : BitVec 32 := 0#32
  ![v1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S256x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S256x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S10240x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S256x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S128x16 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S1x16 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 2 → Memref sig .tc .vmem S1x10240x16 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, false]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S1250 : S_.BroadcastsInDim S1250 (![] : Fin 0 → Fin S1250.rank)
  bcast_S1250_S1250x1_0 : S1250.BroadcastsInDim S1250x1 (![0] : Fin 1 → Fin S1250x1.rank)
  shapeCasts_S320000_S320000x1 : S320000.ShapeCasts S320000x1
  shapeCasts_S128_S1x128 : S128.ShapeCasts S1x128
  pads_S10000x4_S10240x4_02400_000 : S10000x4.Pads (![0, 0] : Fin 2 → Nat) ![240, 0] ![0, 0] S10240x4
  h_S_ : 0 < S_.numel
  inb_S10240x128_S10240x128_0_0 : ∀ a, (![0, 0] : Fin 2 → Nat) a + S10240x128.size a ≤ S10240x128.size a
  h_S10240x128 : 0 < S10240x128.numel
  shapeCasts_S10240x128_S10240x128 : S10240x128.ShapeCasts S10240x128
  inb_S256x1_S256x1_0_0 : ∀ a, (![0, 0] : Fin 2 → Nat) a + S256x1.size a ≤ S256x1.size a
  h_S256x1 : 0 < S256x1.numel
  shapeCasts_S256x1_S256 : S256x1.ShapeCasts S256
  numel1_S1 : S1.numel = 1
  shapeCasts_S256_S256x1 : S256.ShapeCasts S256x1
  iota_S256x1024_d1_w32 : S256x1024.Iotas .tc 32 [1]
  broadcasts_S256x1_S256x1024 : S256x1.Broadcasts S256x1024
  natLt_1_32 : 1 < 32
  inb_S10240x4_S1024x4_0_0 : ∀ a, (![0, 0] : Fin 2 → Nat) a + S1024x4.size a ≤ S10240x4.size a
  h_S1024x4 : 0 < S1024x4.numel
  shapeCasts_S1024x4_S1024x4 : S1024x4.ShapeCasts S1024x4
  inb_S10240x4_S1024x4_1024_0 : ∀ a, (![1024, 0] : Fin 2 → Nat) a + S1024x4.size a ≤ S10240x4.size a
  inb_S10240x4_S1024x4_2048_0 : ∀ a, (![2048, 0] : Fin 2 → Nat) a + S1024x4.size a ≤ S10240x4.size a
  inb_S10240x4_S1024x4_3072_0 : ∀ a, (![3072, 0] : Fin 2 → Nat) a + S1024x4.size a ≤ S10240x4.size a
  inb_S10240x4_S1024x4_4096_0 : ∀ a, (![4096, 0] : Fin 2 → Nat) a + S1024x4.size a ≤ S10240x4.size a
  inb_S10240x4_S1024x4_5120_0 : ∀ a, (![5120, 0] : Fin 2 → Nat) a + S1024x4.size a ≤ S10240x4.size a
  inb_S10240x4_S1024x4_6144_0 : ∀ a, (![6144, 0] : Fin 2 → Nat) a + S1024x4.size a ≤ S10240x4.size a
  inb_S10240x4_S1024x4_7168_0 : ∀ a, (![7168, 0] : Fin 2 → Nat) a + S1024x4.size a ≤ S10240x4.size a
  inb_S10240x4_S1024x4_8192_0 : ∀ a, (![8192, 0] : Fin 2 → Nat) a + S1024x4.size a ≤ S10240x4.size a
  inb_S10240x4_S1024x4_9216_0 : ∀ a, (![9216, 0] : Fin 2 → Nat) a + S1024x4.size a ≤ S10240x4.size a
  inb_S256x4_S256x4_0_0 : ∀ a, (![0, 0] : Fin 2 → Nat) a + S256x4.size a ≤ S256x4.size a
  h_S256x4 : 0 < S256x4.numel
  shapeCasts_S256x4_S256x4 : S256x4.ShapeCasts S256x4
  concatenates_S256x4_S256x4_S256x8_d1 : Shape.Concatenates [S256x4, S256x4] S256x8 1
  inb_S8x128_S8x128_0_0 : ∀ a, (![0, 0] : Fin 2 → Nat) a + S8x128.size a ≤ S8x128.size a
  h_S8x128 : 0 < S8x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S128x128_S128x128_0_0 : ∀ a, (![0, 0] : Fin 2 → Nat) a + S128x128.size a ≤ S128x128.size a
  h_S128x128 : 0 < S128x128.numel
  inb_S10240x128_S1024x128_0_0 : ∀ a, (![0, 0] : Fin 2 → Nat) a + S1024x128.size a ≤ S10240x128.size a
  h_S1024x128 : 0 < S1024x128.numel
  shapeCasts_S1024x128_S1024x128 : S1024x128.ShapeCasts S1024x128
  inb_S10240x128_S1024x128_1024_0 : ∀ a, (![1024, 0] : Fin 2 → Nat) a + S1024x128.size a ≤ S10240x128.size a
  inb_S10240x128_S1024x128_2048_0 : ∀ a, (![2048, 0] : Fin 2 → Nat) a + S1024x128.size a ≤ S10240x128.size a
  inb_S10240x128_S1024x128_3072_0 : ∀ a, (![3072, 0] : Fin 2 → Nat) a + S1024x128.size a ≤ S10240x128.size a
  inb_S10240x128_S1024x128_4096_0 : ∀ a, (![4096, 0] : Fin 2 → Nat) a + S1024x128.size a ≤ S10240x128.size a
  inb_S10240x128_S1024x128_5120_0 : ∀ a, (![5120, 0] : Fin 2 → Nat) a + S1024x128.size a ≤ S10240x128.size a
  inb_S10240x128_S1024x128_6144_0 : ∀ a, (![6144, 0] : Fin 2 → Nat) a + S1024x128.size a ≤ S10240x128.size a
  inb_S10240x128_S1024x128_7168_0 : ∀ a, (![7168, 0] : Fin 2 → Nat) a + S1024x128.size a ≤ S10240x128.size a
  inb_S10240x128_S1024x128_8192_0 : ∀ a, (![8192, 0] : Fin 2 → Nat) a + S1024x128.size a ≤ S10240x128.size a
  inb_S10240x128_S1024x128_9216_0 : ∀ a, (![9216, 0] : Fin 2 → Nat) a + S1024x128.size a ≤ S10240x128.size a
  inb_S1x10240x128_S1x10240x128_0_0_0 : ∀ a, (![0, 0, 0] : Fin 3 → Nat) a + S1x10240x128.size a ≤ S1x10240x128.size a
  h_S1x10240x128 : 0 < S1x10240x128.numel
  shapeCasts_S1x10240x128_S10240x128 : S1x10240x128.ShapeCasts S10240x128
  shapeCasts_S10240x128_S1x10240x128 : S10240x128.ShapeCasts S1x10240x128
  reducesTo_S2x10240x128_S10240x128_d0 : S2x10240x128.ReducesTo [0] S10240x128
  slices_S10240x128_S10000x128_0_0 : S10240x128.Slices ![0, 0] S10000x128
  pads_S10000x128_S10240x128_02400_000 : S10000x128.Pads (![0, 0] : Fin 2 → Nat) ![240, 0] ![0, 0] S10240x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  concatenates_S256x128_S256x128_S256x256_d1 : Shape.Concatenates [S256x128, S256x128] S256x256 1
  shapeCasts_S16_S1x16 : S16.ShapeCasts S1x16
  inb_S10240x16_S10240x16_0_0 : ∀ a, (![0, 0] : Fin 2 → Nat) a + S10240x16.size a ≤ S10240x16.size a
  h_S10240x16 : 0 < S10240x16.numel
  shapeCasts_S10240x16_S10240x16 : S10240x16.ShapeCasts S10240x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S256x16 : S1x16.Broadcasts S256x16
  inb_S10240x16_S1024x16_0_0 : ∀ a, (![0, 0] : Fin 2 → Nat) a + S1024x16.size a ≤ S10240x16.size a
  h_S1024x16 : 0 < S1024x16.numel
  shapeCasts_S1024x16_S1024x16 : S1024x16.ShapeCasts S1024x16
  inb_S10240x16_S1024x16_1024_0 : ∀ a, (![1024, 0] : Fin 2 → Nat) a + S1024x16.size a ≤ S10240x16.size a
  inb_S10240x16_S1024x16_2048_0 : ∀ a, (![2048, 0] : Fin 2 → Nat) a + S1024x16.size a ≤ S10240x16.size a
  inb_S10240x16_S1024x16_3072_0 : ∀ a, (![3072, 0] : Fin 2 → Nat) a + S1024x16.size a ≤ S10240x16.size a
  inb_S10240x16_S1024x16_4096_0 : ∀ a, (![4096, 0] : Fin 2 → Nat) a + S1024x16.size a ≤ S10240x16.size a
  inb_S10240x16_S1024x16_5120_0 : ∀ a, (![5120, 0] : Fin 2 → Nat) a + S1024x16.size a ≤ S10240x16.size a
  inb_S10240x16_S1024x16_6144_0 : ∀ a, (![6144, 0] : Fin 2 → Nat) a + S1024x16.size a ≤ S10240x16.size a
  inb_S10240x16_S1024x16_7168_0 : ∀ a, (![7168, 0] : Fin 2 → Nat) a + S1024x16.size a ≤ S10240x16.size a
  inb_S10240x16_S1024x16_8192_0 : ∀ a, (![8192, 0] : Fin 2 → Nat) a + S1024x16.size a ≤ S10240x16.size a
  inb_S10240x16_S1024x16_9216_0 : ∀ a, (![9216, 0] : Fin 2 → Nat) a + S1024x16.size a ≤ S10240x16.size a
  inb_S1x10240x16_S1x10240x16_0_0_0 : ∀ a, (![0, 0, 0] : Fin 3 → Nat) a + S1x10240x16.size a ≤ S1x10240x16.size a
  h_S1x10240x16 : 0 < S1x10240x16.numel
  shapeCasts_S1x10240x16_S10240x16 : S1x10240x16.ShapeCasts S10240x16
  shapeCasts_S10240x16_S1x10240x16 : S10240x16.ShapeCasts S1x10240x16
  reducesTo_S2x10240x16_S10240x16_d0 : S2x10240x16.ReducesTo [0] S10240x16
  slices_S10240x16_S10000x16_0_0 : S10240x16.Slices ![0, 0] S10000x16
  gather_S320000_S320000x1_S320000_n_0_n_n_0_1_1_wf : GatherDims.WF S320000 S320000x1 S320000 [] [0] [] [0] [] 1 ![1]
  gather_S320000_S1250x1_S1250_n_0_n_n_0_1_1_wf : GatherDims.WF S320000 S1250x1 S1250 [] [0] [] [0] [] 1 ![1]
  dot_S256x1024_S1024x4_S256x4_1_0_0_1_n_n_wf : DotDims.WF S256x1024 S1024x4 S256x4 [1] [0] [0] [1] [] []
  dot_S256x8_S8x128_S256x128_1_0_0_1_n_n_wf : DotDims.WF S256x8 S8x128 S256x128 [1] [0] [0] [1] [] []
  dot_S256x128_S128x128_S256x128_1_0_0_1_n_n_wf : DotDims.WF S256x128 S128x128 S256x128 [1] [0] [0] [1] [] []
  dot_S256x1024_S256x128_S1024x128_0_0_1_1_n_n_wf : DotDims.WF S256x1024 S256x128 S1024x128 [0] [0] [1] [1] [] []
  dot_S256x1024_S1024x128_S256x128_1_0_0_1_n_n_wf : DotDims.WF S256x1024 S1024x128 S256x128 [1] [0] [0] [1] [] []
  dot_S256x256_S256x128_S256x128_1_0_0_1_n_n_wf : DotDims.WF S256x256 S256x128 S256x128 [1] [0] [0] [1] [] []
  dot_S256x128_S128x16_S256x16_1_0_0_1_n_n_wf : DotDims.WF S256x128 S128x16 S256x16 [1] [0] [0] [1] [] []
  dot_S256x1024_S256x16_S1024x16_0_0_1_1_n_n_wf : DotDims.WF S256x1024 S256x16 S1024x16 [0] [0] [1] [1] [] []
  hrank0 : 0 < grid0.rank
  k0_off1_inb : ∀ i : grid0.Coords, ∀ a, (k0_off1 i) a + S1.size a ≤ S1250.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S320000x1.size a
  hwx0_0 : ∀ i : grid0.Coords, EltTy.bits .i32 = 32 ∨ (Rect.block (s := S320000x1) S256x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S320000x1.size a
  hwx0_1 : ∀ i : grid0.Coords, EltTy.bits .i32 = 32 ∨ (Rect.block (s := S320000x1) S256x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10240x4.size a ≤ S10240x4.size a
  hwx0_2 : ∀ i : grid0.Coords, EltTy.bits .f32 = 32 ∨ (Rect.block (s := S10240x4) S10240x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x10240x128.size a ≤ S2x10240x128.size a
  hwx0_9 : ∀ i : grid0.Coords, EltTy.bits .f32 = 32 ∨ (Rect.block (s := S2x10240x128) S1x10240x128.size (cc0_transform_9 i) (hinb0_9 i)).WholeWords (EltTy.packing .f32)
  hrank1 : 0 < grid1.rank
  k1_off1_inb : ∀ i : grid1.Coords, ∀ a, (k1_off1 i) a + S1.size a ≤ S1250.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1.size a ≤ S320000x1.size a
  hwx1_0 : ∀ i : grid1.Coords, EltTy.bits .i32 = 32 ∨ (Rect.block (s := S320000x1) S256x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S320000x1.size a
  hwx1_1 : ∀ i : grid1.Coords, EltTy.bits .i32 = 32 ∨ (Rect.block (s := S320000x1) S256x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10240x128.size a ≤ S10240x128.size a
  hwx1_2 : ∀ i : grid1.Coords, EltTy.bits .f32 = 32 ∨ (Rect.block (s := S10240x128) S10240x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x10240x128.size a ≤ S2x10240x128.size a
  hwx1_9 : ∀ i : grid1.Coords, EltTy.bits .f32 = 32 ∨ (Rect.block (s := S2x10240x128) S1x10240x128.size (cc1_transform_9 i) (hinb1_9 i)).WholeWords (EltTy.packing .f32)
  hrank2 : 0 < grid2.rank
  k2_off1_inb : ∀ i : grid2.Coords, ∀ a, (k2_off1 i) a + S1.size a ≤ S1250.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1.size a ≤ S320000x1.size a
  hwx2_0 : ∀ i : grid2.Coords, EltTy.bits .i32 = 32 ∨ (Rect.block (s := S320000x1) S256x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1.size a ≤ S320000x1.size a
  hwx2_1 : ∀ i : grid2.Coords, EltTy.bits .i32 = 32 ∨ (Rect.block (s := S320000x1) S256x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10240x128.size a ≤ S10240x128.size a
  hwx2_2 : ∀ i : grid2.Coords, EltTy.bits .f32 = 32 ∨ (Rect.block (s := S10240x128) S10240x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1x10240x128.size a ≤ S2x10240x128.size a
  hwx2_9 : ∀ i : grid2.Coords, EltTy.bits .f32 = 32 ∨ (Rect.block (s := S2x10240x128) S1x10240x128.size (cc2_transform_9 i) (hinb2_9 i)).WholeWords (EltTy.packing .f32)
  hrank3 : 0 < grid3.rank
  k3_off1_inb : ∀ i : grid3.Coords, ∀ a, (k3_off1 i) a + S1.size a ≤ S1250.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x1.size a ≤ S320000x1.size a
  hwx3_0 : ∀ i : grid3.Coords, EltTy.bits .i32 = 32 ∨ (Rect.block (s := S320000x1) S256x1.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x1.size a ≤ S320000x1.size a
  hwx3_1 : ∀ i : grid3.Coords, EltTy.bits .i32 = 32 ∨ (Rect.block (s := S320000x1) S256x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S10240x128.size a ≤ S10240x128.size a
  hwx3_2 : ∀ i : grid3.Coords, EltTy.bits .f32 = 32 ∨ (Rect.block (s := S10240x128) S10240x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S256x128.size a
  hwx3_3 : ∀ i : grid3.Coords, EltTy.bits .f32 = 32 ∨ (Rect.block (s := S256x128) S256x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x16.size a ≤ S128x16.size a
  hwx3_7 : ∀ i : grid3.Coords, EltTy.bits .f32 = 32 ∨ (Rect.block (s := S128x16) S128x16.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x16.size a ≤ S1x16.size a
  hwx3_8 : ∀ i : grid3.Coords, EltTy.bits .f32 = 32 ∨ (Rect.block (s := S1x16) S1x16.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1x10240x16.size a ≤ S2x10240x16.size a
  hwx3_9 : ∀ i : grid3.Coords, EltTy.bits .f32 = 32 ∨ (Rect.block (s := S2x10240x16) S1x10240x16.size (cc3_transform_9 i) (hinb3_9 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S320000_S320000x1_S320000_n_0_n_n_0_1_1 : GatherDims S320000 S320000x1 S320000 where
  offsetDims := []
  collapsedSliceDims := [0]
  operandBatchingDims := []
  startIndicesBatchingDims := []
  startIndexMap := [0]
  indexVectorDim := 1
  sliceSizes := ![1]
  wf := gather_S320000_S320000x1_S320000_n_0_n_n_0_1_1_wf
def gather_S320000_S1250x1_S1250_n_0_n_n_0_1_1 : GatherDims S320000 S1250x1 S1250 where
  offsetDims := []
  collapsedSliceDims := [0]
  operandBatchingDims := []
  startIndicesBatchingDims := []
  startIndexMap := [0]
  indexVectorDim := 1
  sliceSizes := ![1]
  wf := gather_S320000_S1250x1_S1250_n_0_n_n_0_1_1_wf
def dot_S256x1024_S1024x4_S256x4_1_0_0_1_n_n : DotDims S256x1024 S1024x4 S256x4 where
  lhsContracting := [1]
  rhsContracting := [0]
  lhsNonContracting := [0]
  rhsNonContracting := [1]
  lhsBatch := []
  rhsBatch := []
  wf := dot_S256x1024_S1024x4_S256x4_1_0_0_1_n_n_wf
def dot_S256x8_S8x128_S256x128_1_0_0_1_n_n : DotDims S256x8 S8x128 S256x128 where
  lhsContracting := [1]
  rhsContracting := [0]
  lhsNonContracting := [0]
  rhsNonContracting := [1]
  lhsBatch := []
  rhsBatch := []
  wf := dot_S256x8_S8x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x1024_S256x128_S1024x128_0_0_1_1_n_n : DotDims S256x1024 S256x128 S1024x128 where
  lhsContracting := [0]
  rhsContracting := [0]
  lhsNonContracting := [1]
  rhsNonContracting := [1]
  lhsBatch := []
  rhsBatch := []
  wf := dot_S256x1024_S256x128_S1024x128_0_0_1_1_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x16_S256x16_1_0_0_1_n_n : DotDims S256x128 S128x16 S256x16 where
  lhsContracting := [1]
  rhsContracting := [0]
  lhsNonContracting := [0]
  rhsNonContracting := [1]
  lhsBatch := []
  rhsBatch := []
  wf := dot_S256x128_S128x16_S256x16_1_0_0_1_n_n_wf
def dot_S256x1024_S256x16_S1024x16_0_0_1_1_n_n : DotDims S256x1024 S256x16 S1024x16 where
  lhsContracting := [0]
  rhsContracting := [0]
  lhsNonContracting := [1]
  rhsNonContracting := [1]
  lhsBatch := []
  rhsBatch := []
  wf := dot_S256x1024_S256x16_S1024x16_0_0_1_1_n_n_wf

abbrev spec0_0 : Pipeline.WinSpec sig grid0.rank :=
  Pipeline.WinSpec.ofSpec (Memref.whole main_v40) S256x1.size reads0_0 false false 2 stage0_0 sem0_0 nbuf0_0 hstage0_0

abbrev spec0_1 : Pipeline.WinSpec sig grid0.rank :=
  Pipeline.WinSpec.ofSpec (Memref.whole main_v41) S256x1.size reads0_1 false false 2 stage0_1 sem0_1 nbuf0_1 hstage0_1

abbrev spec0_2 : Pipeline.WinSpec sig grid0.rank :=
  Pipeline.WinSpec.ofSpec (Memref.whole main_v45) S10240x4.size reads0_2 false true 1 stage0_2 sem0_2 nbuf0_2 hstage0_2

abbrev spec0_3 : Pipeline.WinSpec sig grid0.rank :=
  Pipeline.WinSpec.ofSpec (Memref.whole main_arg4) S8x128.size reads0_3 false true 1 stage0_3 sem0_3 nbuf0_3 hstage0_3

abbrev spec0_4 : Pipeline.WinSpec sig grid0.rank :=
  Pipeline.WinSpec.ofSpec (Memref.whole main_v42) S1x128.size reads0_4 false true 1 stage0_4 sem0_4 nbuf0_4 hstage0_4

abbrev spec0_5 : Pipeline.WinSpec sig grid0.rank :=
  Pipeline.WinSpec.ofSpec (Memref.whole main_arg6) S128x128.size reads0_5 false true 1 stage0_5 sem0_5 nbuf0_5 hstage0_5

abbrev spec0_6 : Pipeline.WinSpec sig grid0.rank :=
  Pipeline.WinSpec.ofSpec (Memref.whole main_v43) S1x128.size reads0_6 false true 1 stage0_6 sem0_6 nbuf0_6 hstage0_6

abbrev spec0_7 : Pipeline.WinSpec sig grid0.rank :=
  Pipeline.WinSpec.ofSpec (Memref.whole main_arg8) S128x128.size reads0_7 false true 1 stage0_7 sem0_7 nbuf0_7 hstage0_7

abbrev spec0_8 : Pipeline.WinSpec sig grid0.rank :=
  Pipeline.WinSpec.ofSpec (Memref.whole main_v44) S1x128.size reads0_8 false true 1 stage0_8 sem0_8 nbuf0_8 hstage0_8

abbrev spec0_9 : Pipeline.WinSpec sig grid0.rank :=
  Pipeline.WinSpec.ofSpec (Memref.whole main_v46) S1x10240x128.size reads0_9 true false 2 stage0_9 sem0_9 nbuf0_9 hstage0_9

abbrev spec0 : Fin 10 → Pipeline.WinSpec sig grid0.rank := fun | 0 => spec0_0 | 1 => spec0_1 | 2 => spec0_2 | 3 => spec0_3 | 4 => spec0_4 | 5 => spec0_5 | 6 => spec0_6 | 7 => spec0_7 | 8 => spec0_8 | 9 => spec0_9 | ⟨_ + 10, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | 9 => nbuf0_9 | ⟨_ + 10, h⟩ => absurd h (Nat.not_lt.2 (Nat.le_add_left _ _))
abbrev ix0 (pf : pre0.Contents (Elt F)) : (w : Fin 10) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | 7 => cc0_transform_7 | 8 => cc0_transform_8 | 9 => cc0_transform_9 | ⟨_ + 10, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | 8 => hreads0_8 | 9 => hreads0_9 | ⟨_ + 10, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | 8 => hinb0_8 | 9 => hinb0_9 | ⟨_ + 10, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | 8 => hwx0_8 | 9 => hwx0_9 | ⟨_ + 10, h⟩ => absurd h (Nat.not_lt.2 (Nat.le_add_left _ _))
abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond22 i == 1#1) | ⟨_ + 10, h⟩ => absurd h (Nat.not_lt.2 (Nat.le_add_left _ _))

abbrev spec1_0 : Pipeline.WinSpec sig grid1.rank :=
  Pipeline.WinSpec.ofSpec (Memref.whole main_v40) S256x1.size reads1_0 false false 2 stage1_0 sem1_0 nbuf1_0 hstage1_0

abbrev spec1_1 : Pipeline.WinSpec sig grid1.rank :=
  Pipeline.WinSpec.ofSpec (Memref.whole main_v41) S256x1.size reads1_1 false false 2 stage1_1 sem1_1 nbuf1_1 hstage1_1

abbrev spec1_2 : Pipeline.WinSpec sig grid1.rank :=
  Pipeline.WinSpec.ofSpec (Memref.whole main_v52) S10240x128.size reads1_2 false true 1 stage1_2 sem1_2 nbuf1_2 hstage1_2

abbrev spec1_3 : Pipeline.WinSpec sig grid1.rank :=
  Pipeline.WinSpec.ofSpec (Memref.whole main_arg10) S256x128.size reads1_3 false true 1 stage1_3 sem1_3 nbuf1_3 hstage1_3

abbrev spec1_4 : Pipeline.WinSpec sig grid1.rank :=
  Pipeline.WinSpec.ofSpec (Memref.whole main_v49) S1x128.size reads1_4 false true 1 stage1_4 sem1_4 nbuf1_4 hstage1_4

abbrev spec1_5 : Pipeline.WinSpec sig grid1.rank :=
  Pipeline.WinSpec.ofSpec (Memref.whole main_arg12) S128x128.size reads1_5 false true 1 stage1_5 sem1_5 nbuf1_5 hstage1_5

abbrev spec1_6 : Pipeline.WinSpec sig grid1.rank :=
  Pipeline.WinSpec.ofSpec (Memref.whole main_v50) S1x128.size reads1_6 false true 1 stage1_6 sem1_6 nbuf1_6 hstage1_6

abbrev spec1_7 : Pipeline.WinSpec sig grid1.rank :=
  Pipeline.WinSpec.ofSpec (Memref.whole main_arg14) S128x128.size reads1_7 false true 1 stage1_7 sem1_7 nbuf1_7 hstage1_7

abbrev spec1_8 : Pipeline.WinSpec sig grid1.rank :=
  Pipeline.WinSpec.ofSpec (Memref.whole main_v51) S1x128.size reads1_8 false true 1 stage1_8 sem1_8 nbuf1_8 hstage1_8

abbrev spec1_9 : Pipeline.WinSpec sig grid1.rank :=
  Pipeline.WinSpec.ofSpec (Memref.whole main_v53) S1x10240x128.size reads1_9 true false 2 stage1_9 sem1_9 nbuf1_9 hstage1_9

abbrev spec1 : Fin 10 → Pipeline.WinSpec sig grid1.rank := fun | 0 => spec1_0 | 1 => spec1_1 | 2 => spec1_2 | 3 => spec1_3 | 4 => spec1_4 | 5 => spec1_5 | 6 => spec1_6 | 7 => spec1_7 | 8 => spec1_8 | 9 => spec1_9 | ⟨_ + 10, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | 5 => nbuf1_5 | 6 => nbuf1_6 | 7 => nbuf1_7 | 8 => nbuf1_8 | 9 => nbuf1_9 | ⟨_ + 10, h⟩ => absurd h (Nat.not_lt.2 (Nat.le_add_left _ _))
abbrev ix1 (pf : pre1.Contents (Elt F)) : (w : Fin 10) → grid1.Coords → Fin (spec1 w).shape.rank → Nat := fun | 0 => cc1_transform_0 | 1 => cc1_transform_1 | 2 => cc1_transform_2 | 3 => cc1_transform_3 | 4 => cc1_transform_4 | 5 => cc1_transform_5 | 6 => cc1_transform_6 | 7 => cc1_transform_7 | 8 => cc1_transform_8 | 9 => cc1_transform_9 | ⟨_ + 10, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | 3 => hreads1_3 | 4 => hreads1_4 | 5 => hreads1_5 | 6 => hreads1_6 | 7 => hreads1_7 | 8 => hreads1_8 | 9 => hreads1_9 | ⟨_ + 10, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | 3 => hinb1_3 | 4 => hinb1_4 | 5 => hinb1_5 | 6 => hinb1_6 | 7 => hinb1_7 | 8 => hinb1_8 | 9 => hinb1_9 | ⟨_ + 10, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | 3 => hwx1_3 | 4 => hwx1_4 | 5 => hwx1_5 | 6 => hwx1_6 | 7 => hwx1_7 | 8 => hwx1_8 | 9 => hwx1_9 | ⟨_ + 10, h⟩ => absurd h (Nat.not_lt.2 (Nat.le_add_left _ _))
abbrev idle1 : Fin 10 → grid1.Coords → Bool := fun | 0 => fun _ => false | 1 => fun _ => false | 2 => fun _ => false | 3 => fun _ => false | 4 => fun _ => false | 5 => fun _ => false | 6 => fun _ => false | 7 => fun _ => false | 8 => fun _ => false | 9 => fun i => !(k1_cond22 i == 1#1) | ⟨_ + 10, h⟩ => absurd h (Nat.not_lt.2 (Nat.le_add_left _ _))

abbrev spec2_0 : Pipeline.WinSpec sig grid2.rank :=
  Pipeline.WinSpec.ofSpec (Memref.whole main_v40) S256x1.size reads2_0 false false 2 stage2_0 sem2_0 nbuf2_0 hstage2_0

abbrev spec2_1 : Pipeline.WinSpec sig grid2.rank :=
  Pipeline.WinSpec.ofSpec (Memref.whole main_v41) S256x1.size reads2_1 false false 2 stage2_1 sem2_1 nbuf2_1 hstage2_1

abbrev spec2_2 : Pipeline.WinSpec sig grid2.rank :=
  Pipeline.WinSpec.ofSpec (Memref.whole main_v59) S10240x128.size reads2_2 false true 1 stage2_2 sem2_2 nbuf2_2 hstage2_2

abbrev spec2_3 : Pipeline.WinSpec sig grid2.rank :=
  Pipeline.WinSpec.ofSpec (Memref.whole main_arg16) S256x128.size reads2_3 false true 1 stage2_3 sem2_3 nbuf2_3 hstage2_3

abbrev spec2_4 : Pipeline.WinSpec sig grid2.rank :=
  Pipeline.WinSpec.ofSpec (Memref.whole main_v56) S1x128.size reads2_4 false true 1 stage2_4 sem2_4 nbuf2_4 hstage2_4

abbrev spec2_5 : Pipeline.WinSpec sig grid2.rank :=
  Pipeline.WinSpec.ofSpec (Memref.whole main_arg18) S128x128.size reads2_5 false true 1 stage2_5 sem2_5 nbuf2_5 hstage2_5

abbrev spec2_6 : Pipeline.WinSpec sig grid2.rank :=
  Pipeline.WinSpec.ofSpec (Memref.whole main_v57) S1x128.size reads2_6 false true 1 stage2_6 sem2_6 nbuf2_6 hstage2_6

abbrev spec2_7 : Pipeline.WinSpec sig grid2.rank :=
  Pipeline.WinSpec.ofSpec (Memref.whole main_arg20) S128x128.size reads2_7 false true 1 stage2_7 sem2_7 nbuf2_7 hstage2_7

abbrev spec2_8 : Pipeline.WinSpec sig grid2.rank :=
  Pipeline.WinSpec.ofSpec (Memref.whole main_v58) S1x128.size reads2_8 false true 1 stage2_8 sem2_8 nbuf2_8 hstage2_8

abbrev spec2_9 : Pipeline.WinSpec sig grid2.rank :=
  Pipeline.WinSpec.ofSpec (Memref.whole main_v60) S1x10240x128.size reads2_9 true false 2 stage2_9 sem2_9 nbuf2_9 hstage2_9

abbrev spec2 : Fin 10 → Pipeline.WinSpec sig grid2.rank := fun | 0 => spec2_0 | 1 => spec2_1 | 2 => spec2_2 | 3 => spec2_3 | 4 => spec2_4 | 5 => spec2_5 | 6 => spec2_6 | 7 => spec2_7 | 8 => spec2_8 | 9 => spec2_9 | ⟨_ + 10, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | 3 => nbuf2_3 | 4 => nbuf2_4 | 5 => nbuf2_5 | 6 => nbuf2_6 | 7 => nbuf2_7 | 8 => nbuf2_8 | 9 => nbuf2_9 | ⟨_ + 10, h⟩ => absurd h (Nat.not_lt.2 (Nat.le_add_left _ _))
abbrev ix2 (pf : pre2.Contents (Elt F)) : (w : Fin 10) → grid2.Coords → Fin (spec2 w).shape.rank → Nat := fun | 0 => cc2_transform_0 | 1 => cc2_transform_1 | 2 => cc2_transform_2 | 3 => cc2_transform_3 | 4 => cc2_transform_4 | 5 => cc2_transform_5 | 6 => cc2_transform_6 | 7 => cc2_transform_7 | 8 => cc2_transform_8 | 9 => cc2_transform_9 | ⟨_ + 10, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 | 1 => hreads2_1 | 2 => hreads2_2 | 3 => hreads2_3 | 4 => hreads2_4 | 5 => hreads2_5 | 6 => hreads2_6 | 7 => hreads2_7 | 8 => hreads2_8 | 9 => hreads2_9 | ⟨_ + 10, h⟩ => absurd h (Nat.not_lt.2 (Nat.le_add_left _ _))
def ok2 (_ : pre2.Contents (Elt F)) : Prop :=
  True
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun _ _ => fun | 0 => hinb2_0 | 1 => hinb2_1 | 2 => hinb2_2 | 3 => hinb2_3 | 4 => hinb2_4 | 5 => hinb2_5 | 6 => hinb2_6 | 7 => hinb2_7 | 8 => hinb2_8 | 9 => hinb2_9 | ⟨_ + 10, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun _ _ => fun | 0 => hwx2_0 | 1 => hwx2_1 | 2 => hwx2_2 | 3 => hwx2_3 | 4 => hwx2_4 | 5 => hwx2_5 | 6 => hwx2_6 | 7 => hwx2_7 | 8 => hwx2_8 | 9 => hwx2_9 | ⟨_ + 10, h⟩ => absurd h (Nat.not_lt.2 (Nat.le_add_left _ _))
abbrev idle2 : Fin 10 → grid2.Coords → Bool := fun | 0 => fun _ => false | 1 => fun _ => false | 2 => fun _ => false | 3 => fun _ => false | 4 => fun _ => false | 5 => fun _ => false | 6 => fun _ => false | 7 => fun _ => false | 8 => fun _ => false | 9 => fun i => !(k2_cond22 i == 1#1) | ⟨_ + 10, h⟩ => absurd h (Nat.not_lt.2 (Nat.le_add_left _ _))

abbrev spec3_0 : Pipeline.WinSpec sig grid3.rank :=
  Pipeline.WinSpec.ofSpec (Memref.whole main_v40) S256x1.size reads3_0 false false 2 stage3_0 sem3_0 nbuf3_0 hstage3_0

abbrev spec3_1 : Pipeline.WinSpec sig grid3.rank :=
  Pipeline.WinSpec.ofSpec (Memref.whole main_v41) S256x1.size reads3_1 false false 2 stage3_1 sem3_1 nbuf3_1 hstage3_1

abbrev spec3_2 : Pipeline.WinSpec sig grid3.rank :=
  Pipeline.WinSpec.ofSpec (Memref.whole main_v66) S10240x128.size reads3_2 false true 1 stage3_2 sem3_2 nbuf3_2 hstage3_2

abbrev spec3_3 : Pipeline.WinSpec sig grid3.rank :=
  Pipeline.WinSpec.ofSpec (Memref.whole main_arg22) S256x128.size reads3_3 false true 1 stage3_3 sem3_3 nbuf3_3 hstage3_3

abbrev spec3_4 : Pipeline.WinSpec sig grid3.rank :=
  Pipeline.WinSpec.ofSpec (Memref.whole main_v63) S1x128.size reads3_4 false true 1 stage3_4 sem3_4 nbuf3_4 hstage3_4

abbrev spec3_5 : Pipeline.WinSpec sig grid3.rank :=
  Pipeline.WinSpec.ofSpec (Memref.whole main_arg24) S128x128.size reads3_5 false true 1 stage3_5 sem3_5 nbuf3_5 hstage3_5

abbrev spec3_6 : Pipeline.WinSpec sig grid3.rank :=
  Pipeline.WinSpec.ofSpec (Memref.whole main_v64) S1x128.size reads3_6 false true 1 stage3_6 sem3_6 nbuf3_6 hstage3_6

abbrev spec3_7 : Pipeline.WinSpec sig grid3.rank :=
  Pipeline.WinSpec.ofSpec (Memref.whole main_arg26) S128x16.size reads3_7 false true 1 stage3_7 sem3_7 nbuf3_7 hstage3_7

abbrev spec3_8 : Pipeline.WinSpec sig grid3.rank :=
  Pipeline.WinSpec.ofSpec (Memref.whole main_v65) S1x16.size reads3_8 false true 1 stage3_8 sem3_8 nbuf3_8 hstage3_8

abbrev spec3_9 : Pipeline.WinSpec sig grid3.rank :=
  Pipeline.WinSpec.ofSpec (Memref.whole main_v67) S1x10240x16.size reads3_9 true false 2 stage3_9 sem3_9 nbuf3_9 hstage3_9

abbrev spec3 : Fin 10 → Pipeline.WinSpec sig grid3.rank := fun | 0 => spec3_0 | 1 => spec3_1 | 2 => spec3_2 | 3 => spec3_3 | 4 => spec3_4 | 5 => spec3_5 | 6 => spec3_6 | 7 => spec3_7 | 8 => spec3_8 | 9 => spec3_9 | ⟨_ + 10, h⟩ => absurd h (Nat.not_lt.2 (Nat.le_add_left _ _))
theorem hcount3 : ∀ w, grid3.bufCount (spec3 w).reads (spec3 w).sync = (spec3 w).nbuf := fun | 0 => nbuf3_0 | 1 => nbuf3_1 | 2 => nbuf3_2 | 3 => nbuf3_3 | 4 => nbuf3_4 | 5 => nbuf3_5 | 6 => nbuf3_6 | 7 => nbuf3_7 | 8 => nbuf3_8 | 9 => nbuf3_9 | ⟨_ + 10, h⟩ => absurd h (Nat.not_lt.2 (Nat.le_add_left _ _))
abbrev ix3 (pf : pre3.Contents (Elt F)) : (w : Fin 10) → grid3.Coords → Fin (spec3 w).shape.rank → Nat := fun | 0 => cc3_transform_0 | 1 => cc3_transform_1 | 2 => cc3_transform_2 | 3 => cc3_transform_3 | 4 => cc3_transform_4 | 5 => cc3_transform_5 | 6 => cc3_transform_6 | 7 => cc3_transform_7 | 8 => cc3_transform_8 | 9 => cc3_transform_9 | ⟨_ + 10, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 | 1 => hreads3_1 | 2 => hreads3_2 | 3 => hreads3_3 | 4 => hreads3_4 | 5 => hreads3_5 | 6 => hreads3_6 | 7 => hreads3_7 | 8 => hreads3_8 | 9 => hreads3_9 | ⟨_ + 10, h⟩ => absurd h (Nat.not_lt.2 (Nat.le_add_left _ _))
def ok3 (_ : pre3.Contents (Elt F)) : Prop :=
  True
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun _ _ => fun | 0 => hinb3_0 | 1 => hinb3_1 | 2 => hinb3_2 | 3 => hinb3_3 | 4 => hinb3_4 | 5 => hinb3_5 | 6 => hinb3_6 | 7 => hinb3_7 | 8 => hinb3_8 | 9 => hinb3_9 | ⟨_ + 10, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun _ _ => fun | 0 => hwx3_0 | 1 => hwx3_1 | 2 => hwx3_2 | 3 => hwx3_3 | 4 => hwx3_4 | 5 => hwx3_5 | 6 => hwx3_6 | 7 => hwx3_7 | 8 => hwx3_8 | 9 => hwx3_9 | ⟨_ + 10, h⟩ => absurd h (Nat.not_lt.2 (Nat.le_add_left _ _))
abbrev idle3 : Fin 10 → grid3.Coords → Bool := fun | 0 => fun _ => false | 1 => fun _ => false | 2 => fun _ => false | 3 => fun _ => false | 4 => fun _ => false | 5 => fun _ => false | 6 => fun _ => false | 7 => fun _ => false | 8 => fun _ => false | 9 => fun i => !(k3_cond22 i == 1#1) | ⟨_ + 10, h⟩ => absurd h (Nat.not_lt.2 (Nat.le_add_left _ _))

class Facts : Prop extends Facts₀ where
  harr0 : ∀ w, (spec0 w).arr.IsWhole
  harr1 : ∀ w, (spec1 w).arr.IsWhole
  harr2 : ∀ w, (spec2 w).arr.IsWhole
  harr3 : ∀ w, (spec3 w).arr.IsWhole

variable [Facts]
-- ==== ReferenceIdeal.lean ====
abbrev S10000x4 : Shape := ⟨2, ![10000, 4]⟩
abbrev S10000x3 : Shape := ⟨2, ![10000, 3]⟩
abbrev S2x320000 : Shape := ⟨2, ![2, 320000]⟩
abbrev S10000 : Shape := ⟨1, ![10000]⟩
abbrev S8x128 : Shape := ⟨2, ![8, 128]⟩
abbrev S128 : Shape := ⟨1, ![128]⟩
abbrev S128x128 : Shape := ⟨2, ![128, 128]⟩
abbrev S256x128 : Shape := ⟨2, ![256, 128]⟩
abbrev S128x16 : Shape := ⟨2, ![128, 16]⟩
abbrev S16 : Shape := ⟨1, ![16]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x4 : Shape := ⟨2, ![320000, 4]⟩
abbrev S320000x8 : Shape := ⟨2, ![320000, 8]⟩
abbrev S320000x128 : Shape := ⟨2, ![320000, 128]⟩
abbrev S1x128 : Shape := ⟨2, ![1, 128]⟩
abbrev S10000x128 : Shape := ⟨2, ![10000, 128]⟩
abbrev S320000x256 : Shape := ⟨2, ![320000, 256]⟩
abbrev S320000x16 : Shape := ⟨2, ![320000, 16]⟩
abbrev S1x16 : Shape := ⟨2, ![1, 16]⟩
abbrev S10000x16 : Shape := ⟨2, ![10000, 16]⟩

abbrev nBuf : Space → Nat
  | .hbm => 200
  | .vmem => 0
  | .smem => 0
  | _ => 0

abbrev hbmTy0_0 (i : Nat) : BufTy := match i % 128 with
  | 0 => ⟨S10000x4, .f32⟩
  | 1 => ⟨S10000x3, .f32⟩
  | 2 => ⟨S2x320000, .i32⟩
  | 3 => ⟨S10000, .i32⟩
  | 4 => ⟨S8x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S256x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S256x128, .f32⟩
  | 17 => ⟨S128, .f32⟩
  | 18 => ⟨S128x128, .f32⟩
  | 19 => ⟨S128, .f32⟩
  | 20 => ⟨S128x128, .f32⟩
  | 21 => ⟨S128, .f32⟩
  | 22 => ⟨S256x128, .f32⟩
  | 23 => ⟨S128, .f32⟩
  | 24 => ⟨S128x128, .f32⟩
  | 25 => ⟨S128, .f32⟩
  | 26 => ⟨S128x16, .f32⟩
  | 27 => ⟨S16, .f32⟩
  | 28 => ⟨S1x320000, .i32⟩
  | 29 => ⟨S320000, .i32⟩
  | 30 => ⟨S1x320000, .i32⟩
  | 31 => ⟨S320000, .i32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S320000x4, .f32⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S320000x4, .f32⟩
  | 50 => ⟨S320000x4, .f32⟩
  | 51 => ⟨S320000x8, .f32⟩
  | 52 => ⟨S320000x128, .f32⟩
  | 53 => ⟨S1x128, .f32⟩
  | 54 => ⟨S320000x128, .f32⟩
  | 55 => ⟨S320000x128, .f32⟩
  | 56 => ⟨S_, .f32⟩
  | 57 => ⟨S320000x128, .f32⟩
  | 58 => ⟨S320000x128, .f32⟩
  | 59 => ⟨S320000x128, .f32⟩
  | 60 => ⟨S1x128, .f32⟩
  | 61 => ⟨S320000x128, .f32⟩
  | 62 => ⟨S320000x128, .f32⟩
  | 63 => ⟨S_, .f32⟩
  | 64 => ⟨S320000x128, .f32⟩
  | 65 => ⟨S320000x128, .f32⟩
  | 66 => ⟨S320000x128, .f32⟩
  | 67 => ⟨S1x128, .f32⟩
  | 68 => ⟨S320000x128, .f32⟩
  | 69 => ⟨S320000x128, .f32⟩
  | 70 => ⟨S_, .f32⟩
  | 71 => ⟨S10000x128, .f32⟩
  | 72 => ⟨S320000x1, .i32⟩
  | 73 => ⟨S10000x128, .f32⟩
  | 74 => ⟨S_, .i32⟩
  | 75 => ⟨S320000, .i32⟩
  | 76 => ⟨S320000, .i1⟩
  | 77 => ⟨S_, .i32⟩
  | 78 => ⟨S320000, .i32⟩
  | 79 => ⟨S320000, .i32⟩
  | 80 => ⟨S320000, .i32⟩
  | 81 => ⟨S320000x1, .i32⟩
  | 82 => ⟨S320000x128, .f32⟩
  | 83 => ⟨S_, .i32⟩
  | 84 => ⟨S320000, .i32⟩
  | 85 => ⟨S320000, .i1⟩
  | 86 => ⟨S_, .i32⟩
  | 87 => ⟨S320000, .i32⟩
  | 88 => ⟨S320000, .i32⟩
  | 89 => ⟨S320000, .i32⟩
  | 90 => ⟨S320000x1, .i32⟩
  | 91 => ⟨S320000x128, .f32⟩
  | 92 => ⟨S320000x128, .f32⟩
  | 93 => ⟨S320000x256, .f32⟩
  | 94 => ⟨S320000x128, .f32⟩
  | 95 => ⟨S1x128, .f32⟩
  | 96 => ⟨S320000x128, .f32⟩
  | 97 => ⟨S320000x128, .f32⟩
  | 98 => ⟨S_, .f32⟩
  | 99 => ⟨S320000x128, .f32⟩
  | 100 => ⟨S320000x128, .f32⟩
  | 101 => ⟨S320000x128, .f32⟩
  | 102 => ⟨S1x128, .f32⟩
  | 103 => ⟨S320000x128, .f32⟩
  | 104 => ⟨S320000x128, .f32⟩
  | 105 => ⟨S_, .f32⟩
  | 106 => ⟨S320000x128, .f32⟩
  | 107 => ⟨S320000x128, .f32⟩
  | 108 => ⟨S320000x128, .f32⟩
  | 109 => ⟨S1x128, .f32⟩
  | 110 => ⟨S320000x128, .f32⟩
  | 111 => ⟨S320000x128, .f32⟩
  | 112 => ⟨S_, .f32⟩
  | 113 => ⟨S10000x128, .f32⟩
  | 114 => ⟨S320000x1, .i32⟩
  | 115 => ⟨S10000x128, .f32⟩
  | 116 => ⟨S_, .i32⟩
  | 117 => ⟨S320000, .i32⟩
  | 118 => ⟨S320000, .i1⟩
  | 119 => ⟨S_, .i32⟩
  | 120 => ⟨S320000, .i32⟩
  | 121 => ⟨S320000, .i32⟩
  | 122 => ⟨S320000, .i32⟩
  | 123 => ⟨S320000x1, .i32⟩
  | 124 => ⟨S320000x128, .f32⟩
  | 125 => ⟨S_, .i32⟩
  | 126 => ⟨S320000, .i32⟩
  | 127 => ⟨S320000, .i1⟩
  | _ => ⟨S10000x4, .f32⟩

abbrev hbmTy0_1 (i : Nat) : BufTy := match i % 128 with
  | 0 => ⟨S_, .i32⟩
  | 1 => ⟨S320000, .i32⟩
  | 2 => ⟨S320000, .i32⟩
  | 3 => ⟨S320000, .i32⟩
  | 4 => ⟨S320000x1, .i32⟩
  | 5 => ⟨S320000x128, .f32⟩
  | 6 => ⟨S320000x128, .f32⟩
  | 7 => ⟨S320000x256, .f32⟩
  | 8 => ⟨S320000x128, .f32⟩
  | 9 => ⟨S1x128, .f32⟩
  | 10 => ⟨S320000x128, .f32⟩
  | 11 => ⟨S320000x128, .f32⟩
  | 12 => ⟨S_, .f32⟩
  | 13 => ⟨S320000x128, .f32⟩
  | 14 => ⟨S320000x128, .f32⟩
  | 15 => ⟨S320000x128, .f32⟩
  | 16 => ⟨S1x128, .f32⟩
  | 17 => ⟨S320000x128, .f32⟩
  | 18 => ⟨S320000x128, .f32⟩
  | 19 => ⟨S_, .f32⟩
  | 20 => ⟨S320000x128, .f32⟩
  | 21 => ⟨S320000x128, .f32⟩
  | 22 => ⟨S320000x128, .f32⟩
  | 23 => ⟨S1x128, .f32⟩
  | 24 => ⟨S320000x128, .f32⟩
  | 25 => ⟨S320000x128, .f32⟩
  | 26 => ⟨S_, .f32⟩
  | 27 => ⟨S10000x128, .f32⟩
  | 28 => ⟨S320000x1, .i32⟩
  | 29 => ⟨S10000x128, .f32⟩
  | 30 => ⟨S_, .i32⟩
  | 31 => ⟨S320000, .i32⟩
  | 32 => ⟨S320000, .i1⟩
  | 33 => ⟨S_, .i32⟩
  | 34 => ⟨S320000, .i32⟩
  | 35 => ⟨S320000, .i32⟩
  | 36 => ⟨S320000, .i32⟩
  | 37 => ⟨S320000x1, .i32⟩
  | 38 => ⟨S320000x128, .f32⟩
  | 39 => ⟨S_, .i32⟩
  | 40 => ⟨S320000, .i32⟩
  | 41 => ⟨S320000, .i1⟩
  | 42 => ⟨S_, .i32⟩
  | 43 => ⟨S320000, .i32⟩
  | 44 => ⟨S320000, .i32⟩
  | 45 => ⟨S320000, .i32⟩
  | 46 => ⟨S320000x1, .i32⟩
  | 47 => ⟨S320000x128, .f32⟩
  | 48 => ⟨S320000x128, .f32⟩
  | 49 => ⟨S320000x256, .f32⟩
  | 50 => ⟨S320000x128, .f32⟩
  | 51 => ⟨S1x128, .f32⟩
  | 52 => ⟨S320000x128, .f32⟩
  | 53 => ⟨S320000x128, .f32⟩
  | 54 => ⟨S_, .f32⟩
  | 55 => ⟨S320000x128, .f32⟩
  | 56 => ⟨S320000x128, .f32⟩
  | 57 => ⟨S320000x128, .f32⟩
  | 58 => ⟨S1x128, .f32⟩
  | 59 => ⟨S320000x128, .f32⟩
  | 60 => ⟨S320000x128, .f32⟩
  | 61 => ⟨S_, .f32⟩
  | 62 => ⟨S320000x128, .f32⟩
  | 63 => ⟨S320000x128, .f32⟩
  | 64 => ⟨S320000x16, .f32⟩
  | 65 => ⟨S1x16, .f32⟩
  | 66 => ⟨S320000x16, .f32⟩
  | 67 => ⟨S320000x16, .f32⟩
  | 68 => ⟨S_, .f32⟩
  | 69 => ⟨S10000x16, .f32⟩
  | 70 => ⟨S320000x1, .i32⟩
  | 71 => ⟨S10000x16, .f32⟩
  | _ => ⟨S10000x4, .f32⟩

abbrev hbmTy (i : Nat) : BufTy := match i / 128 with
  | 0 => hbmTy0_0 i
  | 1 => hbmTy0_1 i
  | _ => ⟨S10000x4, .f32⟩

abbrev bufTy : (tb : Table) → Fin (tcTables nBuf tb) → BufTy
  | .hbm, ⟨i, _⟩ => hbmTy i
  | _, _ => ⟨S10000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_c : Ref sig .tc := ⟨.hbm, 32, rfl⟩
abbrev main_v4 : Ref sig .tc := ⟨.hbm, 33, rfl⟩
abbrev main_v5 : Ref sig .tc := ⟨.hbm, 34, rfl⟩
abbrev main_c_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_c_1 : Ref sig .tc := ⟨.hbm, 41, rfl⟩
abbrev main_v11 : Ref sig .tc := ⟨.hbm, 42, rfl⟩
abbrev main_v12 : Ref sig .tc := ⟨.hbm, 43, rfl⟩
abbrev main_c_2 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_call0_cst : Ref sig .tc := ⟨.hbm, 56, rfl⟩
abbrev main_call0_v0 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_call1_cst : Ref sig .tc := ⟨.hbm, 63, rfl⟩
abbrev main_call1_v0 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_c_3 : Ref sig .tc := ⟨.hbm, 74, rfl⟩
abbrev main_v37 : Ref sig .tc := ⟨.hbm, 75, rfl⟩
abbrev main_v38 : Ref sig .tc := ⟨.hbm, 76, rfl⟩
abbrev main_c_4 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_c_5 : Ref sig .tc := ⟨.hbm, 83, rfl⟩
abbrev main_v44 : Ref sig .tc := ⟨.hbm, 84, rfl⟩
abbrev main_v45 : Ref sig .tc := ⟨.hbm, 85, rfl⟩
abbrev main_c_6 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_call2_cst : Ref sig .tc := ⟨.hbm, 98, rfl⟩
abbrev main_call2_v0 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_call3_cst : Ref sig .tc := ⟨.hbm, 105, rfl⟩
abbrev main_call3_v0 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_7 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_c_8 : Ref sig .tc := ⟨.hbm, 116, rfl⟩
abbrev main_v70 : Ref sig .tc := ⟨.hbm, 117, rfl⟩
abbrev main_v71 : Ref sig .tc := ⟨.hbm, 118, rfl⟩
abbrev main_c_9 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_c_10 : Ref sig .tc := ⟨.hbm, 125, rfl⟩
abbrev main_v77 : Ref sig .tc := ⟨.hbm, 126, rfl⟩
abbrev main_v78 : Ref sig .tc := ⟨.hbm, 127, rfl⟩
abbrev main_c_11 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_call4_cst : Ref sig .tc := ⟨.hbm, 140, rfl⟩
abbrev main_call4_v0 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_call5_cst : Ref sig .tc := ⟨.hbm, 147, rfl⟩
abbrev main_call5_v0 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_cst_12 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_c_13 : Ref sig .tc := ⟨.hbm, 158, rfl⟩
abbrev main_v103 : Ref sig .tc := ⟨.hbm, 159, rfl⟩
abbrev main_v104 : Ref sig .tc := ⟨.hbm, 160, rfl⟩
abbrev main_c_14 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_c_15 : Ref sig .tc := ⟨.hbm, 167, rfl⟩
abbrev main_v110 : Ref sig .tc := ⟨.hbm, 168, rfl⟩
abbrev main_v111 : Ref sig .tc := ⟨.hbm, 169, rfl⟩
abbrev main_c_16 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_call6_cst : Ref sig .tc := ⟨.hbm, 182, rfl⟩
abbrev main_call6_v0 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_call7_cst : Ref sig .tc := ⟨.hbm, 189, rfl⟩
abbrev main_call7_v0 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_cst_17 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x4_S320000x4_S320000x8_d1 : Shape.Concatenates [S320000x4, S320000x4] S320000x8 1
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  bcast_S_S10000x128 : S_.BroadcastsInDim S10000x128 (![] : Fin 0 → Fin S10000x128.rank)
  concatenates_S320000x128_S320000x128_S320000x256_d1 : Shape.Concatenates [S320000x128, S320000x128] S320000x256 1
  bcast_S16_S1x16_1 : S16.BroadcastsInDim S1x16 (![1] : Fin 1 → Fin S1x16.rank)
  bcast_S1x16_S320000x16_0_1 : S1x16.BroadcastsInDim S320000x16 (![0, 1] : Fin 2 → Fin S320000x16.rank)
  bcast_S_S10000x16 : S_.BroadcastsInDim S10000x16 (![] : Fin 0 → Fin S10000x16.rank)
  gather_S10000x4_S320000x1_S320000x4_1_0_n_n_0_1_14_wf : GatherDims.WF S10000x4 S320000x1 S320000x4 [1] [0] [] [0] [] 1 ![1, 4]
  dot_S320000x8_S8x128_S320000x128_1_0_0_1_n_n_wf : DotDims.WF S320000x8 S8x128 S320000x128 [1] [0] [0] [1] [] []
  dot_S320000x128_S128x128_S320000x128_1_0_0_1_n_n_wf : DotDims.WF S320000x128 S128x128 S320000x128 [1] [0] [0] [1] [] []
  scatter_S10000x128_S320000x1_S320000x128_1_0_0_1_wf : ScatterDims.WF S10000x128 S320000x1 S320000x128 [1] [0] [0] 1
  gather_S10000x128_S320000x1_S320000x128_1_0_n_n_0_1_1128_wf : GatherDims.WF S10000x128 S320000x1 S320000x128 [1] [0] [] [0] [] 1 ![1, 128]
  dot_S320000x256_S256x128_S320000x128_1_0_0_1_n_n_wf : DotDims.WF S320000x256 S256x128 S320000x128 [1] [0] [0] [1] [] []
  dot_S320000x128_S128x16_S320000x16_1_0_0_1_n_n_wf : DotDims.WF S320000x128 S128x16 S320000x16 [1] [0] [0] [1] [] []
  scatter_S10000x16_S320000x1_S320000x16_1_0_0_1_wf : ScatterDims.WF S10000x16 S320000x1 S320000x16 [1] [0] [0] 1

variable [Facts₀]

def gather_S10000x4_S320000x1_S320000x4_1_0_n_n_0_1_14 : GatherDims S10000x4 S320000x1 S320000x4 where
  offsetDims := [1]
  collapsedSliceDims := [0]
  operandBatchingDims := []
  startIndicesBatchingDims := []
  startIndexMap := [0]
  indexVectorDim := 1
  sliceSizes := ![1, 4]
  wf := gather_S10000x4_S320000x1_S320000x4_1_0_n_n_0_1_14_wf
def dot_S320000x8_S8x128_S320000x128_1_0_0_1_n_n : DotDims S320000x8 S8x128 S320000x128 where
  lhsContracting := [1]
  rhsContracting := [0]
  lhsNonContracting := [0]
  rhsNonContracting := [1]
  lhsBatch := []
  rhsBatch := []
  wf := dot_S320000x8_S8x128_S320000x128_1_0_0_1_n_n_wf
def dot_S320000x128_S128x128_S320000x128_1_0_0_1_n_n : DotDims S320000x128 S128x128 S320000x128 where
  lhsContracting := [1]
  rhsContracting := [0]
  lhsNonContracting := [0]
  rhsNonContracting := [1]
  lhsBatch := []
  rhsBatch := []
  wf := dot_S320000x128_S128x128_S320000x128_1_0_0_1_n_n_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x256_S256x128_S320000x128_1_0_0_1_n_n : DotDims S320000x256 S256x128 S320000x128 where
  lhsContracting := [1]
  rhsContracting := [0]
  lhsNonContracting := [0]
  rhsNonContracting := [1]
  lhsBatch := []
  rhsBatch := []
  wf := dot_S320000x256_S256x128_S320000x128_1_0_0_1_n_n_wf
def dot_S320000x128_S128x16_S320000x16_1_0_0_1_n_n : DotDims S320000x128 S128x16 S320000x16 where
  lhsContracting := [1]
  rhsContracting := [0]
  lhsNonContracting := [0]
  rhsNonContracting := [1]
  lhsBatch := []
  rhsBatch := []
  wf := dot_S320000x128_S128x16_S320000x16_1_0_0_1_n_n_wf
def scatter_S10000x16_S320000x1_S320000x16_1_0_0_1 : ScatterDims S10000x16 S320000x1 S320000x16 where
  updateWindowDims := [1]
  insertedWindowDims := [0]
  scatterDimsToOperandDims := [0]
  indexVectorDim := 1
  wf := scatter_S10000x16_S320000x1_S320000x16_1_0_0_1_wf

class Facts : Prop extends Facts₀ where

variable [Facts]
-- ==== Proof.FrameDefsK.lean ====
import proofs.«414286_j65627100283289_3_alg».proof.Proof.Gen.Kernel.Regions
import Idealize.ShloMosaic.Lib.Pipeline.Kit
import Idealize.ShloMosaic.Lib.Pipeline.Frame

/-!
# What rides between the items of the program

The program's items (host stretches and kernel regions) are chained over thread states; beside the unscoped buffers a
core carries only its random-generator register, at some state, and the record that it owes nothing. No core waits
for another, so no level is assigned.
-/

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- No level is assigned: no core owes another anything. -/
abbrev Lz : GSem nD τ sig → Finset Unit := fun _ => ∅
abbrev lvz : GSem nD τ sig → Unit → ℕ := fun _ _ => 0

/-- Beside the buffers: the generator register at some state, the core owing nothing. -/
abbrev Rest (c : Dev nD) : sProp 𝕄 :=
  iprop((∃ r, prngReg c r) ∗ ∃ W, owes (c : Thread nD τ) (0 : CellTallies nD τ sig Unit) W)

end Cert.Kernel.Gen

end
-- ==== Proof.FrameK.lean ====
import proofs.«414286_j65627100283289_3_alg».proof.Proof.FrameDefsK
import proofs.«414286_j65627100283289_3_alg».proof.Proof.RunK
import Idealize.ShloMosaic.Lib.Pipeline.Kit
import Idealize.ShloMosaic.Lib.Pipeline.Frame

/-!
# The program's run from its four regions

Given, for each of the four kernel regions, its segment record — entered from the thread state the host operations
before it leave, left at the one the host operations after it start from — every weakly fair execution of the
program terminates, faults nowhere, and ends with every argument array as launched and the result's buffer at what
the last host stretch computes from the last region's output. The host stretches, their chaining with the
regions and the launch are the generated conditional run's; what is chosen here is the algebra the regions are
stated in, the launch element, and what rides between the items.
-/

set_option maxRecDepth 1376

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (Pipeline.UD sig nD τ) ℕ

set_option backward.isDefEq.respectTransparency.types false in
theorem run_of_regions (m : (ℓ : Loc nD τ sig) → Buf (Elt F) ℓ) (ρ : Dev nD → PrngReg) (outs : Outs (F := F))
    (a : (p : Fin 4) → (pcfgs (F := F) p).Adm)
    (pdats : (p : Fin 4) → (c : Dev nD) → Dat τ (Elt F) Unit ℕ (Pipeline.UD sig nD τ) ℕ (Pipeline.pin (pcfgs (F := F)) a p) c)
    (R0 : RegionSeg (pcfgs (F := F)) a pdats () defs₀ Variants.none Lz lvz 0)
    (hpre0 : ∀ c : Dev nD, iprop(StableHlo.held (c : Thread nD τ) (Pipeline.ucRefs τ sig) (V8 m c) ∗ Rest c) ⊢ R0.pre c)
    (hpost0 : ∀ c : Dev nD, R0.post c ⊢ iprop(StableHlo.held (c : Thread nD τ) (Pipeline.ucRefs τ sig) (V9 m outs c) ∗ Rest c))
    (R1 : RegionSeg (pcfgs (F := F)) a pdats () defs₀ Variants.none Lz lvz 1)
    (hpre1 : ∀ c : Dev nD, iprop(StableHlo.held (c : Thread nD τ) (Pipeline.ucRefs τ sig) (V11 m outs c) ∗ Rest c) ⊢ R1.pre c)
    (hpost1 : ∀ c : Dev nD, R1.post c ⊢ iprop(StableHlo.held (c : Thread nD τ) (Pipeline.ucRefs τ sig) (V12 m outs c) ∗ Rest c))
    (R2 : RegionSeg (pcfgs (F := F)) a pdats () defs₀ Variants.none Lz lvz 2)
    (hpre2 : ∀ c : Dev nD, iprop(StableHlo.held (c : Thread nD τ) (Pipeline.ucRefs τ sig) (V14 m outs c) ∗ Rest c) ⊢ R2.pre c)
    (hpost2 : ∀ c : Dev nD, R2.post c ⊢ iprop(StableHlo.held (c : Thread nD τ) (Pipeline.ucRefs τ sig) (V15 m outs c) ∗ Rest c))
    (R3 : RegionSeg (pcfgs (F := F)) a pdats () defs₀ Variants.none Lz lvz 3)
    (hpre3 : ∀ c : Dev nD, iprop(StableHlo.held (c : Thread nD τ) (Pipeline.ucRefs τ sig) (V17 m outs c) ∗ Rest c) ⊢ R3.pre c)
    (hpost3 : ∀ c : Dev nD, R3.post c ⊢ iprop(StableHlo.held (c : Thread nD τ) (Pipeline.ucRefs τ sig) (V18 m outs c) ∗ Rest c)) :
    θ_run defs (onTc (τ := τ) (main (F := F))) ⟨m, fun _ => 0, ρ⟩ (fun r => ∀ c : Dev nD,
      r.2.mem ((c.tc : Thread nD τ).loc main_v69) = V19 m outs c main_v69
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  run_cond m (embL) () Variants.none Lz lvz (fun _ _ => rfl) ρ outs a pdats (fun _ => 0) (fun _ => iprop(emp))
      (initOf (Pipeline.cells (Pipeline.pin (pcfgs (F := F)) a) (cellOf_inj a)) (Pipeline.launchToks (Pipeline.pin (pcfgs (F := F)) a) (cellOf_inj a)), 1)
      (by
        iintro Hu
        ihave H := (ownU_pair _ _) $$ Hu
        icases H with ⟨HP, -⟩
        imodintro
        isplitl [HP]; · iexact HP
        iapply (show (BI.emp : sProp 𝕄) ⊢ bigSep Finset.univ (fun _ : Dev nD => (BI.emp : sProp 𝕄)) from by rw [BI.bigSep_emp_const])
        iempintro)
      (fun _ c => Rest c)
      (by
        have hstep : ∀ c : Dev nD, iprop(unscopedSems0 c ∗ owes (c : Thread nD τ) (0 : CellTallies nD τ sig Unit) ∅ ∗ Pipeline.launchCred (fun _ => (0 : CellTallies nD τ sig Unit)) c ∗ prngReg c (ρ c) ∗ iprop(emp)) ⊢ (Rest c : sProp 𝕄) := fun c => by
          iintro ⟨-, HO, -, Hp, -⟩
          isplitl [Hp]; · iexists _; iexact Hp
          iexists ∅; iexact HO
        have hbig : (bigSep Finset.univ fun c : Dev nD => iprop(unscopedSems0 c ∗ owes (c : Thread nD τ) (0 : CellTallies nD τ sig Unit) ∅ ∗ Pipeline.launchCred (fun _ => (0 : CellTallies nD τ sig Unit)) c ∗ prngReg c (ρ c) ∗ iprop(emp)))
            ⊢ (bigSep Finset.univ (fun c : Dev nD => Rest c) : sProp 𝕄) := bigSep_mono (fun c _ => hstep c)
        iintro ⟨H, -⟩
        imodintro
        ihave H' := hbig $$ H
        iexact H')
      (fun c => by iintro ⟨-, HO⟩; iexact HO)
      R0 hpre0 hpost0 R1 hpre1 hpost1 R2 hpre2 hpost2 R3 hpre3 hpost3

end Cert.Kernel.Gen

end
-- ==== Proof.OutsK.lean ====
import proofs.«414286_j65627100283289_3_alg».proof.Proof.Gen.Kernel.Regions

/-!
# What the four regions leave, as one family

The program's buffers between its items are written over ONE family `outs` of unknown contents, read only at the four
regions' output arrays. This module builds that family from four given arrays, reads it back at each of them, and
records that the buffers a region is entered from depend on the family only through the EARLIER regions' arrays —
so the four arrays can be chosen one after the other, each from the buffers the one before leaves.
-/

set_option maxRecDepth 1376

noncomputable section

namespace Cert.Kernel.Gen

open Idealize.ShloMosaic Idealize.ShloMosaic.TcCoe
open Idealize.SL.Sem

variable {F : FTy → Type} [FloatOps F]

/-- An array's contents on every core. -/
abbrev ArrOn (r : Ref sig .tc) : Type := (c : Dev nD) → Buf (Elt F) ((c : Thread nD τ).loc r)

/-- The family that holds the four given arrays at the four regions' output arrays (and, elsewhere, `d`). -/
def outsOf (u0 : ArrOn (F := F) main_v46) (u1 : ArrOn (F := F) main_v53) (u2 : ArrOn (F := F) main_v60)
    (u3 : ArrOn (F := F) main_v67) (d : Outs (F := F)) : Outs (F := F) :=
  fun J r c =>
    if h : r = main_v46 then h ▸ u0 c
    else if h : r = main_v53 then h ▸ u1 c
    else if h : r = main_v60 then h ▸ u2 c
    else if h : r = main_v67 then h ▸ u3 c
    else d J r c

variable (u0 : ArrOn (F := F) main_v46) (u1 : ArrOn (F := F) main_v53) (u2 : ArrOn (F := F) main_v60)
  (u3 : ArrOn (F := F) main_v67) (d : Outs (F := F))

theorem outsOf_v46 (J : ℕ) (c : Dev nD) : outsOf u0 u1 u2 u3 d J main_v46 c = u0 c := by
  unfold outsOf; rw [dif_pos rfl]
theorem outsOf_v53 (J : ℕ) (c : Dev nD) : outsOf u0 u1 u2 u3 d J main_v53 c = u1 c := by
  unfold outsOf; rw [dif_neg (by decide), dif_pos rfl]
theorem outsOf_v60 (J : ℕ) (c : Dev nD) : outsOf u0 u1 u2 u3 d J main_v60 c = u2 c := by
  unfold outsOf; rw [dif_neg (by decide), dif_neg (by decide), dif_pos rfl]
theorem outsOf_v67 (J : ℕ) (c : Dev nD) : outsOf u0 u1 u2 u3 d J main_v67 c = u3 c := by
  unfold outsOf; rw [dif_neg (by decide), dif_neg (by decide), dif_neg (by decide), dif_pos rfl]

variable (m : (ℓ : Loc nD τ sig) → Buf (Elt F) ℓ)

/-- The buffers region 1 is entered from depend on the family only at region 0's array. -/
theorem V11_congr (o o' : Outs (F := F)) (c : Dev nD) (h0 : o 9 main_v46 c = o' 9 main_v46 c) : V11 m o c = V11 m o' c := by
  show StableHlo.after hostOps1_1 (StableHlo.after hostOps1 (Function.update (V8 m c) main_v46 (o 9 main_v46 c))) = _
  rw [h0]
/-- Those of region 2, only at regions 0 and 1's. -/
theorem V14_congr (o o' : Outs (F := F)) (c : Dev nD) (h0 : o 9 main_v46 c = o' 9 main_v46 c)
    (h1 : o 12 main_v53 c = o' 12 main_v53 c) : V14 m o c = V14 m o' c := by
  show StableHlo.after hostOps2_1 (StableHlo.after hostOps2 (Function.update (V11 m o c) main_v53 (o 12 main_v53 c))) = _
  rw [h1, V11_congr m o o' c h0]
/-- Those of region 3, only at regions 0, 1 and 2's. -/
theorem V17_congr (o o' : Outs (F := F)) (c : Dev nD) (h0 : o 9 main_v46 c = o' 9 main_v46 c)
    (h1 : o 12 main_v53 c = o' 12 main_v53 c) (h2 : o 15 main_v60 c = o' 15 main_v60 c) : V17 m o c = V17 m o' c := by
  show StableHlo.after hostOps3_1 (StableHlo.after hostOps3 (Function.update (V14 m o c) main_v60 (o 15 main_v60 c))) = _
  rw [h2, V14_congr m o o' c h0 h1]

end Cert.Kernel.Gen

end
-- ==== Proof.BodyK0.lean ====
import proofs.«414286_j65627100283289_3_alg».proof.Proof.Gen.Kernel.Skeleton
import proofs.«414286_j65627100283289_3_alg».proof.Proof.Gen.Kernel.Launch
import Idealize.ShloMosaic.Lib.Pipeline.Frame
import Idealize.ShloMosaic.Lib.Pipeline.FrameBody
import Idealize.ShloMosaic.Lib.Tactic

/-!
# Region 0's body at one grid point

The body of one EdgeConv layer's kernel on whole staging memrefs, at any grid point `i = (core, tile)`: from the two
chunk-range tables, the tile's source and target columns, the padded node table, the layer's six parameter blocks,
the accumulator as the tile before left it and the two other written buffers at any contents, the body runs to its
end, faults nowhere, hands the eleven buffers it only reads back as they were, and leaves the accumulator, the
target-row scratch and the output's staging buffer at contents that are FUNCTIONS of what it was handed. Those three
functions are not transcribed: they are what the run finds, each conditional taken both ways and its two outcomes
merged under its condition (the reset at the core's first tile, the ten chunk gates of the target-row gather, the
ten of the scatter, the write-out at the core's last tile).
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- What the body leaves in the accumulator (`.1`), in the target-row scratch (`.2.1`) and in the output's staging
    buffer (`.2.2.1`), with the proof that it runs to the continuation holding exactly that. -/
noncomputable def bodyRun0 (c : Dev nD) (i : grid0.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x4 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x4 .f32) (harg15 : arg15.IsWhole)
    (x2 : Vec F S1250 .i32) (x3 : Vec F S1250 .i32) (x4 : Vec F S256x1 .i32) (x5 : Vec F S256x1 .i32) (x6 : Vec F S10240x4 .f32) (x7 : Vec F S8x128 .f32) (x8 : Vec F S1x128 .f32) (x9 : Vec F S128x128 .f32) (x10 : Vec F S1x128 .f32) (x11 : Vec F S128x128 .f32) (x12 : Vec F S1x128 .f32) (x14 : Vec F S10240x128 .f32)
    (f13 : BufTy.Contents (Elt F) arg13.view.ty) (f15 : BufTy.Contents (Elt F) arg15.view.ty) :
    Σ' (g14 : BufTy.Contents (Elt F) arg14.view.ty) (g15 : BufTy.Contents (Elt F) arg15.view.ty),
      { g13 : BufTy.Contents (Elt F) arg13.view.ty //
        ∀ (E : Set ℕ) (K : PUnit → sProp 𝕄),
          iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ (arg13.view.loc (c : Thread nD τ) ↦[arg13.view.set]{fullShare} f13)
            ∗ owns (c : Thread nD τ) arg14 fullShare x14
            ∗ (arg15.view.loc (c : Thread nD τ) ↦[arg15.view.set]{fullShare} f15)
            ∗ (iprop(owns (c : Thread nD τ) arg2 fullShare x2
              ∗ owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ owns (c : Thread nD τ) arg11 fullShare x11
              ∗ owns (c : Thread nD τ) arg12 fullShare x12
              ∗ (arg13.view.loc (c : Thread nD τ) ↦[arg13.view.set]{fullShare} g13)
              ∗ (arg14.view.loc (c : Thread nD τ) ↦[arg14.view.set]{fullShare} g14)
              ∗ (arg15.view.loc (c : Thread nD τ) ↦[arg15.view.set]{fullShare} g15)) -∗ K ⟨⟩))
          ⊢ wp frame (wpE (defs₀ (F := F)) Variants.none c none) E (cc0__edgeconv_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0__edgeconv_kernel_eq_skeleton]; unfold cc0__edgeconv_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, H13, ⟨%f14, %hf14, H14⟩, H15, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg14.eq_unread hf14
    sl_exec!
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexact H13
    isplitl [H14]; · iexact H14
    iexact H15

end Cert.Kernel.Gen

end
-- ==== Proof.GateWord.lean ====
import Idealize.ShloMosaic.PureOps

/-!
# The chunk gate as a comparison of integers

The kernel enters a chunk's one-hot product only when the chunk's number lies between the tile's two table words,
`lo ≤ c ≤ hi`; it computes that test on 32-bit words as `ne (extui (andi (sle lo c) (sge hi c))) 0`. This word is 1
exactly when the two signed comparisons hold.
-/

namespace Cert.Spec

open Idealize.ShloMosaic

/-- The gate's word, as the kernel computes it from the two table words and the chunk's number. -/
def gateWord (lo hi c : BitVec 32) : BitVec 1 :=
  Scalar.cmpi .ne (Scalar.extui (Scalar.andi (Scalar.cmpi .sle lo c) (Scalar.cmpi .sge hi c))) 0#32

private theorem gate_bool (b1 b2 : Bool) :
    BitVec.ofBool (((BitVec.ofBool b1 &&& BitVec.ofBool b2).setWidth 32) != 0#32) = 1#1 ↔ (b1 = true ∧ b2 = true) := by
  cases b1 <;> cases b2 <;> decide

/-- The gate is open exactly when the chunk's number lies between the two words, read as signed integers. -/
theorem gateWord_eq_one_iff (lo hi c : BitVec 32) :
    gateWord lo hi c = 1#1 ↔ lo.toInt ≤ c.toInt ∧ c.toInt ≤ hi.toInt := by
  unfold gateWord Scalar.cmpi Scalar.extui Scalar.andi IntOp.cmpi IntOp.andi
  simp only []
  rw [gate_bool, BitVec.sle_iff_toInt_le, BitVec.sle_iff_toInt_le]

end Cert.Spec
-- ==== Proof.LibGatedRmw.lean ====
/-
  A gated read-modify-write of one rectangle of a buffer, on the raw contents and on what they read.

  A body that says "if the gate word is 1, load rectangle R of the buffer, compute a payload from what was loaded and
  store it back through R" leaves the buffer at `gatedRmw`: the old contents with one write under the gate, the old
  contents otherwise. What that reads is `gatedVal` of what the old contents read: under the gate the old value with
  its part on R replaced by the payload of its own part on R, the old value otherwise. No view and no raw contents are
  left on the value side. A store that covers the whole buffer (the rectangle at zero offsets of the buffer's own
  sizes) leaves the payload of the old value.
-/
import Idealize.ShloMosaic.Lib.Pipeline.Frame
import Idealize.ShloMosaic.Lib.Pipeline.FrameBody
import Idealize.ShloMosaic.Lib.Pipeline.Value
import Idealize.ShloMosaic.Lib.Writes

noncomputable section

namespace Idealize.ShloMosaic.GatedRmw

open Idealize.ShloMosaic

variable {sig : RefSig} {κ : Kind} {sp : Space} {s : Shape} {e : EltTy} {Val : EltTy → Type}

/-- One write through `R` reads as the old value with its part on `R` replaced by the payload. -/
theorem read_writes_singleton (v : View sig κ sp s e) (f : v.ty.Contents Val) (R : Rect s) (w : R.shape.Idx → Val e) :
    v.read Val (v.writes Val f [⟨R, w⟩]) = R.overlay (v.read Val f) w := by
  funext y
  by_cases hy : y ∈ R.set
  · obtain ⟨x, rfl⟩ := R.exists_idx_of_mem hy
    rw [show R.idx x = R.emb x from rfl, View.read_writes_cons_emb, Rect.overlay_emb]
  · have hy' : y ∉ Finset.univ.map R.emb := by rwa [Rect.map_emb_univ]
    rw [View.writes_cons, View.read_slice_write_of_not_mem R _ _ _ hy', View.writes_nil, Rect.overlay_of_not_mem _ _ _ hy]

/-- The raw contents after a read-modify-write of `R` under the gate `g`. -/
def gatedRmw (v : View sig κ sp s e) (g : BitVec 1) (R : Rect s)
    (pay : (R.shape.Idx → Val e) → (R.shape.Idx → Val e)) (G : v.ty.Contents Val) : v.ty.Contents Val :=
  if _hc : g = 1#1 then v.writes Val G [⟨R, pay (v.readAt Val R.toLoadRect G)⟩] else G

/-- The value after a read-modify-write of `R` under the gate `g`. -/
def gatedVal (g : BitVec 1) (R : Rect s) (pay : (R.shape.Idx → Val e) → (R.shape.Idx → Val e))
    (A : s.Idx → Val e) : s.Idx → Val e :=
  if g = 1#1 then R.overlay A (pay (View.ld A R)) else A

/-- What the raw contents after a gated read-modify-write read. -/
theorem read_gatedRmw (v : View sig κ sp s e) (g : BitVec 1) (R : Rect s)
    (pay : (R.shape.Idx → Val e) → (R.shape.Idx → Val e)) (G : v.ty.Contents Val) :
    v.read Val (gatedRmw v g R pay G) = gatedVal g R pay (v.read Val G) := by
  unfold gatedRmw gatedVal
  by_cases h : g = 1#1
  · rw [dif_pos h, if_pos h, read_writes_singleton, View.readAt_eq_ld]
  · rw [dif_neg h, if_neg h]

theorem gatedVal_pos {g : BitVec 1} (h : g = 1#1) (R : Rect s) (pay : (R.shape.Idx → Val e) → (R.shape.Idx → Val e))
    (A : s.Idx → Val e) : gatedVal g R pay A = R.overlay A (pay (View.ld A R)) := if_pos h

theorem gatedVal_neg {g : BitVec 1} (h : ¬ g = 1#1) (R : Rect s) (pay : (R.shape.Idx → Val e) → (R.shape.Idx → Val e))
    (A : s.Idx → Val e) : gatedVal g R pay A = A := if_neg h

/-- Under the rectangle the gated value is the payload of the old value's part there; -/
theorem gatedVal_emb {g : BitVec 1} (h : g = 1#1) (R : Rect s) (pay : (R.shape.Idx → Val e) → (R.shape.Idx → Val e))
    (A : s.Idx → Val e) (x : R.shape.Idx) : gatedVal g R pay A (R.emb x) = pay (View.ld A R) x := by
  rw [gatedVal_pos h, Rect.overlay_emb]

/-- off it, the old value, whatever the gate. -/
theorem gatedVal_of_not_mem (g : BitVec 1) (R : Rect s) (pay : (R.shape.Idx → Val e) → (R.shape.Idx → Val e))
    (A : s.Idx → Val e) {y : s.Idx} (hy : y ∉ R.set) : gatedVal g R pay A y = A y := by
  unfold gatedVal
  split
  · exact Rect.overlay_of_not_mem _ _ _ hy
  · rfl

/-- The same through the whole-shape rectangle, however its zero offsets are spelt: the payload of the old value. -/
theorem gatedVal_whole {off : Fin s.rank → Nat} (h0 : off = fun _ => 0) (inb : ∀ a, off a + s.size a ≤ s.size a)
    (g : BitVec 1) (pay : ((Rect.unit off s.size inb).shape.Idx → Val e) → ((Rect.unit off s.size inb).shape.Idx → Val e))
    (A : s.Idx → Val e) :
    gatedVal g (Rect.unit off s.size inb) pay A = if g = 1#1 then pay A else A := by
  unfold gatedVal
  split
  · funext y
    have hy := View.mem_set_unit_zero h0 inb y
    obtain ⟨x, rfl⟩ := (Rect.unit off s.size inb).exists_idx_of_mem hy
    rw [show (Rect.unit off s.size inb).idx x = (Rect.unit off s.size inb).emb x from rfl, Rect.overlay_emb,
      View.ld_unit_zero h0 inb A]
    subst h0
    show pay A x = pay A ((Rect.whole s).emb x)
    rw [Rect.emb_whole_apply]
  · rfl

end Idealize.ShloMosaic.GatedRmw

end
-- ==== Proof.StepDefsK0.lean ====
import proofs.«414286_j65627100283289_3_alg».proof.Proof.Gen.Kernel.Skeleton
import proofs.«414286_j65627100283289_3_alg».proof.Proof.GateWord
import proofs.«414286_j65627100283289_3_alg».proof.Proof.LibGatedRmw
import Idealize.ShloMosaic.Lib.Pipeline.FrameBody

/-!
# Region 0's body as functions of the values it is handed

What one run of the body at grid point `i = (core, tile)` leaves in the accumulator, written without a memref and without
any buffer's old raw contents: from the two chunk-range tables, the tile's source and target columns, the padded node
table, the six parameter blocks and the accumulator as the tile before left it.

* the two table words of the tile, `lo` and `hi`, and from them the ten gate words `lo ≤ k ≤ hi`;
* the target rows' gather `xi0`: zero, then for each chunk `k` of 1024 nodes, under its gate, the one-hot product of
  the target column against the chunk's rows added on;
* the source rows' gather `xj0`: the ten one-hot products added up, no gate;
* the perceptron's hidden row `hid0` and the messages `msg0`;
* the accumulator: reset to zero at the core's first tile, then for each chunk under its gate the chunk's rows replaced
  by themselves plus the transposed one-hot product with the messages.

Each step is spelt through the generated payload that computes it, so that the body's run and these functions meet
name by name.
-/

noncomputable section

namespace Cert.Kernel.Gen

open Idealize.ShloMosaic Idealize.ShloMosaic.GatedRmw

variable {F : FTy → Type} [FloatOps F]

/-- The tile's entry of the first table: the least chunk its targets fall in. -/
def loW0 (i : grid0.Coords) (x2 : Vec F S1250 .i32) : BitVec 32 :=
  View.ld x2 (Rect.unit (s := S1250) (k0_off1 i) S1.size (k0_off1_inb i))
    (Shape.Idx.first (lt_of_lt_of_eq Nat.one_pos numel1_S1.symm))

/-- The tile's entry of the second table: the greatest chunk its targets fall in. -/
def hiW0 (i : grid0.Coords) (x3 : Vec F S1250 .i32) : BitVec 32 :=
  View.ld x3 (Rect.unit (s := S1250) (k0_off1 i) S1.size (k0_off1_inb i))
    (Shape.Idx.first (lt_of_lt_of_eq Nat.one_pos numel1_S1.symm))

/-- The word "this is the core's first tile". -/
def firstW0 (i : grid0.Coords) : BitVec 1 :=
  Scalar.cmpi .ne (Scalar.extui (Scalar.cmpi .eq (BitVec.ofNat 32 (i 1).val) 0#32)) 0#32

/-- One gated step of the target rows' gather: under the gate the step's payload of the rows so far. -/
def xiStep0 (g : BitVec 1) (pay : Vec F S256x4 .f32 → FVec F S256x4 .f32) (X : Vec F S256x4 .f32) : Vec F S256x4 .f32 :=
  if g = 1#1 then pay X else X

/-- The target rows the tile gathers: zero, then chunk by chunk under the gates. -/
def xi0 (i : grid0.Coords) (x2 x3 : Vec F S1250 .i32) (x5 : Vec F S256x1 .i32) (x6 : Vec F S10240x4 .f32) :
    Vec F S256x4 .f32 :=
  (xiStep0 (Cert.Spec.gateWord (loW0 i x2) (hiW0 i x3) 9#32) (k0_pay22 (k0_pay3 x5) (View.ld x6 (Rect.unit (s := S10240x4) ![9216, 0] S1024x4.size inb_S10240x4_S1024x4_9216_0)))
      (xiStep0 (Cert.Spec.gateWord (loW0 i x2) (hiW0 i x3) 8#32) (k0_pay21 (k0_pay3 x5) (View.ld x6 (Rect.unit (s := S10240x4) ![8192, 0] S1024x4.size inb_S10240x4_S1024x4_8192_0)))
      (xiStep0 (Cert.Spec.gateWord (loW0 i x2) (hiW0 i x3) 7#32) (k0_pay20 (k0_pay3 x5) (View.ld x6 (Rect.unit (s := S10240x4) ![7168, 0] S1024x4.size inb_S10240x4_S1024x4_7168_0)))
      (xiStep0 (Cert.Spec.gateWord (loW0 i x2) (hiW0 i x3) 6#32) (k0_pay19 (k0_pay3 x5) (View.ld x6 (Rect.unit (s := S10240x4) ![6144, 0] S1024x4.size inb_S10240x4_S1024x4_6144_0)))
      (xiStep0 (Cert.Spec.gateWord (loW0 i x2) (hiW0 i x3) 5#32) (k0_pay18 (k0_pay3 x5) (View.ld x6 (Rect.unit (s := S10240x4) ![5120, 0] S1024x4.size inb_S10240x4_S1024x4_5120_0)))
      (xiStep0 (Cert.Spec.gateWord (loW0 i x2) (hiW0 i x3) 4#32) (k0_pay17 (k0_pay3 x5) (View.ld x6 (Rect.unit (s := S10240x4) ![4096, 0] S1024x4.size inb_S10240x4_S1024x4_4096_0)))
      (xiStep0 (Cert.Spec.gateWord (loW0 i x2) (hiW0 i x3) 3#32) (k0_pay16 (k0_pay3 x5) (View.ld x6 (Rect.unit (s := S10240x4) ![3072, 0] S1024x4.size inb_S10240x4_S1024x4_3072_0)))
      (xiStep0 (Cert.Spec.gateWord (loW0 i x2) (hiW0 i x3) 2#32) (k0_pay15 (k0_pay3 x5) (View.ld x6 (Rect.unit (s := S10240x4) ![2048, 0] S1024x4.size inb_S10240x4_S1024x4_2048_0)))
      (xiStep0 (Cert.Spec.gateWord (loW0 i x2) (hiW0 i x3) 1#32) (k0_pay14 (k0_pay3 x5) (View.ld x6 (Rect.unit (s := S10240x4) ![1024, 0] S1024x4.size inb_S10240x4_S1024x4_1024_0)))
      (xiStep0 (Cert.Spec.gateWord (loW0 i x2) (hiW0 i x3) 0#32) (k0_pay13 (k0_pay3 x5) (View.ld x6 (Rect.unit (s := S10240x4) ![0, 0] S1024x4.size inb_S10240x4_S1024x4_0_0)))
      (k0_pay12 (F := F))))))))))))

/-- The source rows the tile gathers: every chunk's one-hot product, added up. -/
def xj0 (x4 : Vec F S256x1 .i32) (x6 : Vec F S10240x4 .f32) : FVec F S256x4 .f32 :=
  k0_pay11
    (k0_pay9 (k0_pay4 x4)
      (k0_pay7 (k0_pay4 x4) (k0_pay5 x4 (View.ld x6 (Rect.unit (s := S10240x4) ![0, 0] S1024x4.size inb_S10240x4_S1024x4_0_0)) (View.ld x6 (Rect.unit (s := S10240x4) ![1024, 0] S1024x4.size inb_S10240x4_S1024x4_1024_0))) (k0_pay6 x4)
        (iota Kind.tc S256x1024 32 [1] iota_S256x1024_d1_w32) (2048#32)
        (View.ld x6 (Rect.unit (s := S10240x4) ![2048, 0] S1024x4.size inb_S10240x4_S1024x4_2048_0)) (View.ld x6 (Rect.unit (s := S10240x4) ![3072, 0] S1024x4.size inb_S10240x4_S1024x4_3072_0)) (View.ld x6 (Rect.unit (s := S10240x4) ![4096, 0] S1024x4.size inb_S10240x4_S1024x4_4096_0)))
      (k0_pay8 (k0_pay4 x4) (View.ld x6 (Rect.unit (s := S10240x4) ![5120, 0] S1024x4.size inb_S10240x4_S1024x4_5120_0)))
      (View.ld x6 (Rect.unit (s := S10240x4) ![6144, 0] S1024x4.size inb_S10240x4_S1024x4_6144_0)) (View.ld x6 (Rect.unit (s := S10240x4) ![7168, 0] S1024x4.size inb_S10240x4_S1024x4_7168_0)) (View.ld x6 (Rect.unit (s := S10240x4) ![8192, 0] S1024x4.size inb_S10240x4_S1024x4_8192_0)))
    (k0_pay10 (k0_pay4 x4))
    (View.ld x6 (Rect.unit (s := S10240x4) ![9216, 0] S1024x4.size inb_S10240x4_S1024x4_9216_0))

/-- The perceptron's first hidden row of every edge of the tile. -/
def hid0 (i : grid0.Coords) (x2 x3 : Vec F S1250 .i32) (x4 x5 : Vec F S256x1 .i32) (x6 : Vec F S10240x4 .f32)
    (x7 : Vec F S8x128 .f32) (x8 : Vec F S1x128 .f32) : FVec F S256x128 .f32 :=
  k0_pay23 (xj0 x4 x6) (xi0 i x2 x3 x5 x6) x7 x8

/-- The message of every edge of the tile. -/
def msg0 (i : grid0.Coords) (x2 x3 : Vec F S1250 .i32) (x4 x5 : Vec F S256x1 .i32) (x6 : Vec F S10240x4 .f32)
    (x7 : Vec F S8x128 .f32) (x8 : Vec F S1x128 .f32) (x9 : Vec F S128x128 .f32) (x10 : Vec F S1x128 .f32)
    (x11 : Vec F S128x128 .f32) (x12 : Vec F S1x128 .f32) : FVec F S256x128 .f32 :=
  k0_pay24 (hid0 i x2 x3 x4 x5 x6 x7 x8) (FloatOps.ofBits FTy.f32 0#32) x9 x10 x11 x12

/-- The accumulator the chunk steps start from: zero at the core's first tile, else what the tile before left. -/
def accReset0 (i : grid0.Coords) (x14 : Vec F S10240x128 .f32) : Vec F S10240x128 .f32 :=
  if firstW0 i = 1#1 then k0_pay2 else x14

/-- One gated chunk step of the scatter: under the gate the chunk's rows replaced by the step's payload of them. -/
def accStep0 (g : BitVec 1) (R : Rect S10240x128) (pay : (R.shape.Idx → Elt F .f32) → (R.shape.Idx → Elt F .f32))
    (A : Vec F S10240x128 .f32) : Vec F S10240x128 .f32 :=
  gatedVal g R pay A

/-- The accumulator after the body at point `i`. -/
def stepAcc0 (i : grid0.Coords) (x2 x3 : Vec F S1250 .i32) (x4 x5 : Vec F S256x1 .i32) (x6 : Vec F S10240x4 .f32)
    (x7 : Vec F S8x128 .f32) (x8 : Vec F S1x128 .f32) (x9 : Vec F S128x128 .f32) (x10 : Vec F S1x128 .f32)
    (x11 : Vec F S128x128 .f32) (x12 : Vec F S1x128 .f32) (x14 : Vec F S10240x128 .f32) : Vec F S10240x128 .f32 :=
  (accStep0 (Cert.Spec.gateWord (loW0 i x2) (hiW0 i x3) 9#32) (Rect.unit (s := S10240x128) ![9216, 0] S1024x128.size inb_S10240x128_S1024x128_9216_0)
      (k0_pay34 (k0_pay3 x5) (msg0 i x2 x3 x4 x5 x6 x7 x8 x9 x10 x11 x12))
      (accStep0 (Cert.Spec.gateWord (loW0 i x2) (hiW0 i x3) 8#32) (Rect.unit (s := S10240x128) ![8192, 0] S1024x128.size inb_S10240x128_S1024x128_8192_0)
      (k0_pay33 (k0_pay3 x5) (msg0 i x2 x3 x4 x5 x6 x7 x8 x9 x10 x11 x12))
      (accStep0 (Cert.Spec.gateWord (loW0 i x2) (hiW0 i x3) 7#32) (Rect.unit (s := S10240x128) ![7168, 0] S1024x128.size inb_S10240x128_S1024x128_7168_0)
      (k0_pay32 (k0_pay3 x5) (msg0 i x2 x3 x4 x5 x6 x7 x8 x9 x10 x11 x12))
      (accStep0 (Cert.Spec.gateWord (loW0 i x2) (hiW0 i x3) 6#32) (Rect.unit (s := S10240x128) ![6144, 0] S1024x128.size inb_S10240x128_S1024x128_6144_0)
      (k0_pay31 (k0_pay3 x5) (msg0 i x2 x3 x4 x5 x6 x7 x8 x9 x10 x11 x12))
      (accStep0 (Cert.Spec.gateWord (loW0 i x2) (hiW0 i x3) 5#32) (Rect.unit (s := S10240x128) ![5120, 0] S1024x128.size inb_S10240x128_S1024x128_5120_0)
      (k0_pay30 (k0_pay3 x5) (msg0 i x2 x3 x4 x5 x6 x7 x8 x9 x10 x11 x12))
      (accStep0 (Cert.Spec.gateWord (loW0 i x2) (hiW0 i x3) 4#32) (Rect.unit (s := S10240x128) ![4096, 0] S1024x128.size inb_S10240x128_S1024x128_4096_0)
      (k0_pay29 (k0_pay3 x5) (msg0 i x2 x3 x4 x5 x6 x7 x8 x9 x10 x11 x12))
      (accStep0 (Cert.Spec.gateWord (loW0 i x2) (hiW0 i x3) 3#32) (Rect.unit (s := S10240x128) ![3072, 0] S1024x128.size inb_S10240x128_S1024x128_3072_0)
      (k0_pay28 (k0_pay3 x5) (msg0 i x2 x3 x4 x5 x6 x7 x8 x9 x10 x11 x12))
      (accStep0 (Cert.Spec.gateWord (loW0 i x2) (hiW0 i x3) 2#32) (Rect.unit (s := S10240x128) ![2048, 0] S1024x128.size inb_S10240x128_S1024x128_2048_0)
      (k0_pay27 (k0_pay3 x5) (hid0 i x2 x3 x4 x5 x6 x7 x8) (FloatOps.ofBits FTy.f32 0#32) x9 x10 x11 x12)
      (accStep0 (Cert.Spec.gateWord (loW0 i x2) (hiW0 i x3) 1#32) (Rect.unit (s := S10240x128) ![1024, 0] S1024x128.size inb_S10240x128_S1024x128_1024_0)
      (k0_pay26 (k0_pay3 x5) (hid0 i x2 x3 x4 x5 x6 x7 x8) (FloatOps.ofBits FTy.f32 0#32) x9 x10 x11 x12)
      (accStep0 (Cert.Spec.gateWord (loW0 i x2) (hiW0 i x3) 0#32) (Rect.unit (s := S10240x128) ![0, 0] S1024x128.size inb_S10240x128_S1024x128_0_0)
      (k0_pay25 (k0_pay3 x5) (hid0 i x2 x3 x4 x5 x6 x7 x8) (FloatOps.ofBits FTy.f32 0#32) x9 x10 x11 x12)
      (accReset0 i x14)))))))))))

end Cert.Kernel.Gen

end
-- ==== Proof.StepK0.lean ====
import proofs.«414286_j65627100283289_3_alg».proof.Proof.BodyK0
import proofs.«414286_j65627100283289_3_alg».proof.Proof.StepDefsK0
import Idealize.ShloMosaic.Lib.Pipeline.Frame
import Idealize.ShloMosaic.Lib.Pipeline.FrameBody
import Idealize.ShloMosaic.Lib.Pipeline.Value
import Idealize.ShloMosaic.Lib.Writes

/-!
# What region 0's body leaves, as the functions of `StepDefsI0`

The run of the body found, for the accumulator, ten nested conditionals: under chunk `k`'s gate the contents so far with
chunk `k`'s rows overwritten by a payload of those same rows as loaded from the contents so far, else the contents so
far; at the bottom the reset under the first tile's condition. Each level is one gated read-modify-write of one
rectangle, and the found term IS that nest, by unfolding. What a gated read-modify-write reads is the gated step on
what the contents before read, so reading the nest gives the same nest on VALUES, each level now mentioning the level
below once: the accumulator step of `StepDefsI0`, once the run's names for the table words, the gates, the gathered
rows, the hidden row and the messages are rewritten as those functions. The target-row scratch is the same story with
the whole buffer as its one rectangle, which is why its old contents never show: every store covers it. The output's
staging buffer is stored once, whole, under the last tile's condition, with the accumulator read back whole.
-/

noncomputable section

namespace Cert.Kernel.Gen

open Idealize.ShloMosaic Idealize.ShloMosaic.TcCoe Idealize.ShloMosaic.GatedRmw

variable {F : FTy → Type} [FloatOps F]

/-! ## The run's contents, level by level, as gated read-modify-writes -/

set_option maxRecDepth 65536 in
/-- The accumulator's raw contents the run found are ten gated read-modify-writes over the reset. -/
theorem acc_raw0 (c : Dev nD) (i : grid0.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x4 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x4 .f32) (harg15 : arg15.IsWhole) (x2 : Vec F S1250 .i32) (x3 : Vec F S1250 .i32) (x4 : Vec F S256x1 .i32) (x5 : Vec F S256x1 .i32) (x6 : Vec F S10240x4 .f32) (x7 : Vec F S8x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    (bodyRun0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).1 = (gatedRmw arg14.view (bodyRun0.sl.v187 c i arg2 harg2 arg3 harg3 x2 x3) (Rect.unit (s := S10240x128) ![9216, 0] S1024x128.size inb_S10240x128_S1024x128_9216_0)
      (fun v => k0_pay34 (bodyRun0.sl.r_2 c arg5 harg5 x5) (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun0.sl.v182 c i arg2 harg2 arg3 harg3 x2 x3) (Rect.unit (s := S10240x128) ![8192, 0] S1024x128.size inb_S10240x128_S1024x128_8192_0)
      (fun v => k0_pay33 (bodyRun0.sl.r_2 c arg5 harg5 x5) (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun0.sl.v177 c i arg2 harg2 arg3 harg3 x2 x3) (Rect.unit (s := S10240x128) ![7168, 0] S1024x128.size inb_S10240x128_S1024x128_7168_0)
      (fun v => k0_pay32 (bodyRun0.sl.r_2 c arg5 harg5 x5) (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun0.sl.v172 c i arg2 harg2 arg3 harg3 x2 x3) (Rect.unit (s := S10240x128) ![6144, 0] S1024x128.size inb_S10240x128_S1024x128_6144_0)
      (fun v => k0_pay31 (bodyRun0.sl.r_2 c arg5 harg5 x5) (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun0.sl.v167 c i arg2 harg2 arg3 harg3 x2 x3) (Rect.unit (s := S10240x128) ![5120, 0] S1024x128.size inb_S10240x128_S1024x128_5120_0)
      (fun v => k0_pay30 (bodyRun0.sl.r_2 c arg5 harg5 x5) (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun0.sl.v162 c i arg2 harg2 arg3 harg3 x2 x3) (Rect.unit (s := S10240x128) ![4096, 0] S1024x128.size inb_S10240x128_S1024x128_4096_0)
      (fun v => k0_pay29 (bodyRun0.sl.r_2 c arg5 harg5 x5) (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun0.sl.v157 c i arg2 harg2 arg3 harg3 x2 x3) (Rect.unit (s := S10240x128) ![3072, 0] S1024x128.size inb_S10240x128_S1024x128_3072_0)
      (fun v => k0_pay28 (bodyRun0.sl.r_2 c arg5 harg5 x5) (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun0.sl.v152 c i arg2 harg2 arg3 harg3 x2 x3) (Rect.unit (s := S10240x128) ![2048, 0] S1024x128.size inb_S10240x128_S1024x128_2048_0)
      (fun v => k0_pay27 (bodyRun0.sl.r_2 c arg5 harg5 x5) (bodyRun0.sl.r_11 c i arg2 harg2 arg3 harg3 arg4 harg4 arg5 harg5 arg6 harg6 arg7 harg7 arg8 harg8 arg15 x2 x3 x4 x5 x6 x7 x8 f15) bodyRun0.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (gatedRmw arg14.view (bodyRun0.sl.v147 c i arg2 harg2 arg3 harg3 x2 x3) (Rect.unit (s := S10240x128) ![1024, 0] S1024x128.size inb_S10240x128_S1024x128_1024_0)
      (fun v => k0_pay26 (bodyRun0.sl.r_2 c arg5 harg5 x5) (bodyRun0.sl.r_11 c i arg2 harg2 arg3 harg3 arg4 harg4 arg5 harg5 arg6 harg6 arg7 harg7 arg8 harg8 arg15 x2 x3 x4 x5 x6 x7 x8 f15) bodyRun0.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (gatedRmw arg14.view (bodyRun0.sl.v142 c i arg2 harg2 arg3 harg3 x2 x3) (Rect.unit (s := S10240x128) ![0, 0] S1024x128.size inb_S10240x128_S1024x128_0_0)
      (fun v => k0_pay25 (bodyRun0.sl.r_2 c arg5 harg5 x5) (bodyRun0.sl.r_11 c i arg2 harg2 arg3 harg3 arg4 harg4 arg5 harg5 arg6 harg6 arg7 harg7 arg8 harg8 arg15 x2 x3 x4 x5 x6 x7 x8 f15) bodyRun0.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (if _hc : bodyRun0.sl.v4 i = 1#1 then arg14.view.writes (Elt F) (harg14.unread x14) [⟨(Rect.unit (s := S10240x128) ![0, 0] S10240x128.size inb_S10240x128_S10240x128_0_0), k0_pay2⟩] else harg14.unread x14))))))))))) := rfl

set_option maxRecDepth 65536 in
/-- The target-row scratch as the hidden layer's load reads it: nine gated read-modify-writes over the first. -/
theorem xi_raw0 (c : Dev nD) (i : grid0.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x4 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x4 .f32) (harg15 : arg15.IsWhole) (x2 : Vec F S1250 .i32) (x3 : Vec F S1250 .i32) (x4 : Vec F S256x1 .i32) (x5 : Vec F S256x1 .i32) (x6 : Vec F S10240x4 .f32) (x7 : Vec F S8x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    (bodyRun0.sl.v188 c i arg2 harg2 arg3 harg3 arg5 harg5 arg6 harg6 arg15 x2 x3 x5 x6 f15) = View.readAt (Elt F) arg15.view (Rect.unit (s := S256x4) ![0, 0] S256x4.size inb_S256x4_S256x4_0_0).toLoadRect (gatedRmw arg15.view (bodyRun0.sl.v187 c i arg2 harg2 arg3 harg3 x2 x3) (Rect.unit (s := S256x4) ![0, 0] S256x4.size inb_S256x4_S256x4_0_0)
      (fun v => k0_pay22 (bodyRun0.sl.r_2 c arg5 harg5 x5) (View.readAt (Elt F) arg6.view (Rect.unit (s := S10240x4) ![9216, 0] S1024x4.size inb_S10240x4_S1024x4_9216_0).toLoadRect (harg6.unread x6)) v)
      (gatedRmw arg15.view (bodyRun0.sl.v182 c i arg2 harg2 arg3 harg3 x2 x3) (Rect.unit (s := S256x4) ![0, 0] S256x4.size inb_S256x4_S256x4_0_0)
      (fun v => k0_pay21 (bodyRun0.sl.r_2 c arg5 harg5 x5) (View.readAt (Elt F) arg6.view (Rect.unit (s := S10240x4) ![8192, 0] S1024x4.size inb_S10240x4_S1024x4_8192_0).toLoadRect (harg6.unread x6)) v)
      (gatedRmw arg15.view (bodyRun0.sl.v177 c i arg2 harg2 arg3 harg3 x2 x3) (Rect.unit (s := S256x4) ![0, 0] S256x4.size inb_S256x4_S256x4_0_0)
      (fun v => k0_pay20 (bodyRun0.sl.r_2 c arg5 harg5 x5) (View.readAt (Elt F) arg6.view (Rect.unit (s := S10240x4) ![7168, 0] S1024x4.size inb_S10240x4_S1024x4_7168_0).toLoadRect (harg6.unread x6)) v)
      (gatedRmw arg15.view (bodyRun0.sl.v172 c i arg2 harg2 arg3 harg3 x2 x3) (Rect.unit (s := S256x4) ![0, 0] S256x4.size inb_S256x4_S256x4_0_0)
      (fun v => k0_pay19 (bodyRun0.sl.r_2 c arg5 harg5 x5) (View.readAt (Elt F) arg6.view (Rect.unit (s := S10240x4) ![6144, 0] S1024x4.size inb_S10240x4_S1024x4_6144_0).toLoadRect (harg6.unread x6)) v)
      (gatedRmw arg15.view (bodyRun0.sl.v167 c i arg2 harg2 arg3 harg3 x2 x3) (Rect.unit (s := S256x4) ![0, 0] S256x4.size inb_S256x4_S256x4_0_0)
      (fun v => k0_pay18 (bodyRun0.sl.r_2 c arg5 harg5 x5) (View.readAt (Elt F) arg6.view (Rect.unit (s := S10240x4) ![5120, 0] S1024x4.size inb_S10240x4_S1024x4_5120_0).toLoadRect (harg6.unread x6)) v)
      (gatedRmw arg15.view (bodyRun0.sl.v162 c i arg2 harg2 arg3 harg3 x2 x3) (Rect.unit (s := S256x4) ![0, 0] S256x4.size inb_S256x4_S256x4_0_0)
      (fun v => k0_pay17 (bodyRun0.sl.r_2 c arg5 harg5 x5) (View.readAt (Elt F) arg6.view (Rect.unit (s := S10240x4) ![4096, 0] S1024x4.size inb_S10240x4_S1024x4_4096_0).toLoadRect (harg6.unread x6)) v)
      (gatedRmw arg15.view (bodyRun0.sl.v157 c i arg2 harg2 arg3 harg3 x2 x3) (Rect.unit (s := S256x4) ![0, 0] S256x4.size inb_S256x4_S256x4_0_0)
      (fun v => k0_pay16 (bodyRun0.sl.r_2 c arg5 harg5 x5) (View.readAt (Elt F) arg6.view (Rect.unit (s := S10240x4) ![3072, 0] S1024x4.size inb_S10240x4_S1024x4_3072_0).toLoadRect (harg6.unread x6)) v)
      (gatedRmw arg15.view (bodyRun0.sl.v152 c i arg2 harg2 arg3 harg3 x2 x3) (Rect.unit (s := S256x4) ![0, 0] S256x4.size inb_S256x4_S256x4_0_0)
      (fun v => k0_pay15 (bodyRun0.sl.r_2 c arg5 harg5 x5) (View.readAt (Elt F) arg6.view (Rect.unit (s := S10240x4) ![2048, 0] S1024x4.size inb_S10240x4_S1024x4_2048_0).toLoadRect (harg6.unread x6)) v)
      (gatedRmw arg15.view (bodyRun0.sl.v147 c i arg2 harg2 arg3 harg3 x2 x3) (Rect.unit (s := S256x4) ![0, 0] S256x4.size inb_S256x4_S256x4_0_0)
      (fun v => k0_pay14 (bodyRun0.sl.r_2 c arg5 harg5 x5) (View.readAt (Elt F) arg6.view (Rect.unit (s := S10240x4) ![1024, 0] S1024x4.size inb_S10240x4_S1024x4_1024_0).toLoadRect (harg6.unread x6)) v)
      (if _hc : (bodyRun0.sl.v142 c i arg2 harg2 arg3 harg3 x2 x3) = 1#1 then arg15.view.writes (Elt F) f15 (⟨(Rect.unit (s := S256x4) ![0, 0] S256x4.size inb_S256x4_S256x4_0_0), k0_pay13 (bodyRun0.sl.r_2 c arg5 harg5 x5) (View.readAt (Elt F) arg6.view (Rect.unit (s := S10240x4) ![0, 0] S1024x4.size inb_S10240x4_S1024x4_0_0).toLoadRect (harg6.unread x6)) (bodyRun0.sl.v277 arg15)⟩ :: bodyRun0.sl.H15_1) else arg15.view.writes (Elt F) f15 bodyRun0.sl.H15_1)))))))))) := rfl

set_option maxRecDepth 65536 in
/-- The write-out's load of the whole accumulator reads the same raw contents. -/
theorem v266_raw0 (c : Dev nD) (i : grid0.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x4 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x4 .f32) (harg15 : arg15.IsWhole) (x2 : Vec F S1250 .i32) (x3 : Vec F S1250 .i32) (x4 : Vec F S256x1 .i32) (x5 : Vec F S256x1 .i32) (x6 : Vec F S10240x4 .f32) (x7 : Vec F S8x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    (bodyRun0.sl.v266 c i arg2 harg2 arg3 harg3 arg4 harg4 arg5 harg5 arg6 harg6 arg7 harg7 arg8 harg8 arg9 harg9 arg10 harg10 arg11 harg11 arg12 harg12 arg14 harg14 arg15 x2 x3 x4 x5 x6 x7 x8 x9 x10 x11 x12 x14 f15) = View.readAt (Elt F) arg14.view (Rect.unit (s := S10240x128) ![0, 0] S10240x128.size inb_S10240x128_S10240x128_0_0).toLoadRect (gatedRmw arg14.view (bodyRun0.sl.v187 c i arg2 harg2 arg3 harg3 x2 x3) (Rect.unit (s := S10240x128) ![9216, 0] S1024x128.size inb_S10240x128_S1024x128_9216_0)
      (fun v => k0_pay34 (bodyRun0.sl.r_2 c arg5 harg5 x5) (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun0.sl.v182 c i arg2 harg2 arg3 harg3 x2 x3) (Rect.unit (s := S10240x128) ![8192, 0] S1024x128.size inb_S10240x128_S1024x128_8192_0)
      (fun v => k0_pay33 (bodyRun0.sl.r_2 c arg5 harg5 x5) (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun0.sl.v177 c i arg2 harg2 arg3 harg3 x2 x3) (Rect.unit (s := S10240x128) ![7168, 0] S1024x128.size inb_S10240x128_S1024x128_7168_0)
      (fun v => k0_pay32 (bodyRun0.sl.r_2 c arg5 harg5 x5) (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun0.sl.v172 c i arg2 harg2 arg3 harg3 x2 x3) (Rect.unit (s := S10240x128) ![6144, 0] S1024x128.size inb_S10240x128_S1024x128_6144_0)
      (fun v => k0_pay31 (bodyRun0.sl.r_2 c arg5 harg5 x5) (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun0.sl.v167 c i arg2 harg2 arg3 harg3 x2 x3) (Rect.unit (s := S10240x128) ![5120, 0] S1024x128.size inb_S10240x128_S1024x128_5120_0)
      (fun v => k0_pay30 (bodyRun0.sl.r_2 c arg5 harg5 x5) (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun0.sl.v162 c i arg2 harg2 arg3 harg3 x2 x3) (Rect.unit (s := S10240x128) ![4096, 0] S1024x128.size inb_S10240x128_S1024x128_4096_0)
      (fun v => k0_pay29 (bodyRun0.sl.r_2 c arg5 harg5 x5) (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun0.sl.v157 c i arg2 harg2 arg3 harg3 x2 x3) (Rect.unit (s := S10240x128) ![3072, 0] S1024x128.size inb_S10240x128_S1024x128_3072_0)
      (fun v => k0_pay28 (bodyRun0.sl.r_2 c arg5 harg5 x5) (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun0.sl.v152 c i arg2 harg2 arg3 harg3 x2 x3) (Rect.unit (s := S10240x128) ![2048, 0] S1024x128.size inb_S10240x128_S1024x128_2048_0)
      (fun v => k0_pay27 (bodyRun0.sl.r_2 c arg5 harg5 x5) (bodyRun0.sl.r_11 c i arg2 harg2 arg3 harg3 arg4 harg4 arg5 harg5 arg6 harg6 arg7 harg7 arg8 harg8 arg15 x2 x3 x4 x5 x6 x7 x8 f15) bodyRun0.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (gatedRmw arg14.view (bodyRun0.sl.v147 c i arg2 harg2 arg3 harg3 x2 x3) (Rect.unit (s := S10240x128) ![1024, 0] S1024x128.size inb_S10240x128_S1024x128_1024_0)
      (fun v => k0_pay26 (bodyRun0.sl.r_2 c arg5 harg5 x5) (bodyRun0.sl.r_11 c i arg2 harg2 arg3 harg3 arg4 harg4 arg5 harg5 arg6 harg6 arg7 harg7 arg8 harg8 arg15 x2 x3 x4 x5 x6 x7 x8 f15) bodyRun0.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (gatedRmw arg14.view (bodyRun0.sl.v142 c i arg2 harg2 arg3 harg3 x2 x3) (Rect.unit (s := S10240x128) ![0, 0] S1024x128.size inb_S10240x128_S1024x128_0_0)
      (fun v => k0_pay25 (bodyRun0.sl.r_2 c arg5 harg5 x5) (bodyRun0.sl.r_11 c i arg2 harg2 arg3 harg3 arg4 harg4 arg5 harg5 arg6 harg6 arg7 harg7 arg8 harg8 arg15 x2 x3 x4 x5 x6 x7 x8 f15) bodyRun0.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (if _hc : bodyRun0.sl.v4 i = 1#1 then arg14.view.writes (Elt F) (harg14.unread x14) [⟨(Rect.unit (s := S10240x128) ![0, 0] S10240x128.size inb_S10240x128_S10240x128_0_0), k0_pay2⟩] else harg14.unread x14))))))))))) := rfl

set_option maxRecDepth 65536 in
/-- The output's staging buffer: one whole store under the last tile's condition. -/
theorem out_raw0 (c : Dev nD) (i : grid0.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x4 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x4 .f32) (harg15 : arg15.IsWhole) (x2 : Vec F S1250 .i32) (x3 : Vec F S1250 .i32) (x4 : Vec F S256x1 .i32) (x5 : Vec F S256x1 .i32) (x6 : Vec F S10240x4 .f32) (x7 : Vec F S8x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    (bodyRun0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).2.2.1 = (if _hc : k0_cond22 i = 1#1 then arg13.view.writes (Elt F) f13 [⟨(Rect.unit (s := S1x10240x128) ![0, 0, 0] S1x10240x128.size inb_S1x10240x128_S1x10240x128_0_0_0), k0_pay1 (bodyRun0.sl.v266 c i arg2 harg2 arg3 harg3 arg4 harg4 arg5 harg5 arg6 harg6 arg7 harg7 arg8 harg8 arg9 harg9 arg10 harg10 arg11 harg11 arg12 harg12 arg14 harg14 arg15 x2 x3 x4 x5 x6 x7 x8 x9 x10 x11 x12 x14 f15)⟩] else f13) := rfl

/-! ## Loads off whole buffers, and the run's names as the functions of `StepDefsI0` -/

/-- A load off a whole buffer held at the raw contents of `X` reads `X` through the rectangle. -/
private theorem readAt_unread_ld0 {sp : Space} {s : Shape} {e : EltTy} (m : Memref sig .tc sp s e) (h : m.IsWhole)
    (X : s.Idx → Elt F e) (R : Rect s) : View.readAt (Elt F) m.view R.toLoadRect (h.unread X) = View.ld X R := by
  rw [View.readAt_eq_ld, h.read_unread]

private theorem ld_w_col0 {Val : EltTy → Type} {e : EltTy} (X : S256x1.Idx → Val e) : View.ld X (Rect.unit (s := S256x1) ![0, 0] S256x1.size inb_S256x1_S256x1_0_0) = X :=
  View.ld_unit_zero (by funext j; fin_cases j <;> rfl) _ X
private theorem ld_w_wA0 {Val : EltTy → Type} {e : EltTy} (X : S8x128.Idx → Val e) : View.ld X (Rect.unit (s := S8x128) ![0, 0] S8x128.size inb_S8x128_S8x128_0_0) = X :=
  View.ld_unit_zero (by funext j; fin_cases j <;> rfl) _ X
private theorem ld_w_bias0 {Val : EltTy → Type} {e : EltTy} (X : S1x128.Idx → Val e) : View.ld X (Rect.unit (s := S1x128) ![0, 0] S1x128.size inb_S1x128_S1x128_0_0) = X :=
  View.ld_unit_zero (by funext j; fin_cases j <;> rfl) _ X
private theorem ld_w_wB0 {Val : EltTy → Type} {e : EltTy} (X : S128x128.Idx → Val e) : View.ld X (Rect.unit (s := S128x128) ![0, 0] S128x128.size inb_S128x128_S128x128_0_0) = X :=
  View.ld_unit_zero (by funext j; fin_cases j <;> rfl) _ X
private theorem ld_w_rows0 {Val : EltTy → Type} {e : EltTy} (X : S256x4.Idx → Val e) : View.ld X (Rect.unit (s := S256x4) ![0, 0] S256x4.size inb_S256x4_S256x4_0_0) = X :=
  View.ld_unit_zero (by funext j; fin_cases j <;> rfl) _ X
private theorem ld_w_acc0 {Val : EltTy → Type} {e : EltTy} (X : S10240x128.Idx → Val e) : View.ld X (Rect.unit (s := S10240x128) ![0, 0] S10240x128.size inb_S10240x128_S10240x128_0_0) = X :=
  View.ld_unit_zero (by funext j; fin_cases j <;> rfl) _ X

/-- A store through the whole-shape rectangle, last, leaves its payload. -/
private theorem read_writes_cons_whole0 {sp : Space} {s : Shape} {e : EltTy} (v : View sig .tc sp s e)
    (f : v.ty.Contents (Elt F)) {off : Fin s.rank → Nat} (h0 : off = fun _ => 0) (inb : ∀ a, off a + s.size a ≤ s.size a)
    (w : (Rect.unit off s.size inb).shape.Idx → Elt F e) (L : List (View.Piece (Elt F) s e)) :
    v.read (Elt F) (v.writes (Elt F) f (⟨Rect.unit off s.size inb, w⟩ :: L)) = w := by
  subst h0
  funext y
  have e1 := View.read_writes_cons_emb v f (Rect.whole s) w L y
  rw [Rect.emb_whole_apply] at e1
  exact e1

private theorem lo_eq0 (c : Dev nD) (i : grid0.Coords) (arg2 : Memref sig .tc .smem S1250 .i32) (harg2 : arg2.IsWhole)
    (x2 : Vec F S1250 .i32) : bodyRun0.sl.r c i arg2 harg2 x2 = loW0 i x2 := by
  unfold bodyRun0.sl.r loW0
  rw [readAt_unread_ld0]

private theorem hi_eq0 (c : Dev nD) (i : grid0.Coords) (arg3 : Memref sig .tc .smem S1250 .i32) (harg3 : arg3.IsWhole)
    (x3 : Vec F S1250 .i32) : bodyRun0.sl.r_1 c i arg3 harg3 x3 = hiW0 i x3 := by
  unfold bodyRun0.sl.r_1 hiW0
  rw [readAt_unread_ld0]

private theorem gate0_0 (c : Dev nD) (i : grid0.Coords) (arg2 : Memref sig .tc .smem S1250 .i32) (harg2 : arg2.IsWhole) (arg3 : Memref sig .tc .smem S1250 .i32) (harg3 : arg3.IsWhole) (x2 x3 : Vec F S1250 .i32) :
    bodyRun0.sl.v142 c i arg2 harg2 arg3 harg3 x2 x3 = Cert.Spec.gateWord (loW0 i x2) (hiW0 i x3) 0#32 := by
  unfold bodyRun0.sl.v142 bodyRun0.sl.v141 bodyRun0.sl.v140 bodyRun0.sl.v138 bodyRun0.sl.v139
  rw [lo_eq0, hi_eq0]; rfl
private theorem gate0_1 (c : Dev nD) (i : grid0.Coords) (arg2 : Memref sig .tc .smem S1250 .i32) (harg2 : arg2.IsWhole) (arg3 : Memref sig .tc .smem S1250 .i32) (harg3 : arg3.IsWhole) (x2 x3 : Vec F S1250 .i32) :
    bodyRun0.sl.v147 c i arg2 harg2 arg3 harg3 x2 x3 = Cert.Spec.gateWord (loW0 i x2) (hiW0 i x3) 1#32 := by
  unfold bodyRun0.sl.v147 bodyRun0.sl.v146 bodyRun0.sl.v145 bodyRun0.sl.v143 bodyRun0.sl.v144
  rw [lo_eq0, hi_eq0]; rfl
private theorem gate0_2 (c : Dev nD) (i : grid0.Coords) (arg2 : Memref sig .tc .smem S1250 .i32) (harg2 : arg2.IsWhole) (arg3 : Memref sig .tc .smem S1250 .i32) (harg3 : arg3.IsWhole) (x2 x3 : Vec F S1250 .i32) :
    bodyRun0.sl.v152 c i arg2 harg2 arg3 harg3 x2 x3 = Cert.Spec.gateWord (loW0 i x2) (hiW0 i x3) 2#32 := by
  unfold bodyRun0.sl.v152 bodyRun0.sl.v151 bodyRun0.sl.v150 bodyRun0.sl.v148 bodyRun0.sl.v149
  rw [lo_eq0, hi_eq0]; rfl
private theorem gate0_3 (c : Dev nD) (i : grid0.Coords) (arg2 : Memref sig .tc .smem S1250 .i32) (harg2 : arg2.IsWhole) (arg3 : Memref sig .tc .smem S1250 .i32) (harg3 : arg3.IsWhole) (x2 x3 : Vec F S1250 .i32) :
    bodyRun0.sl.v157 c i arg2 harg2 arg3 harg3 x2 x3 = Cert.Spec.gateWord (loW0 i x2) (hiW0 i x3) 3#32 := by
  unfold bodyRun0.sl.v157 bodyRun0.sl.v156 bodyRun0.sl.v155 bodyRun0.sl.v153 bodyRun0.sl.v154
  rw [lo_eq0, hi_eq0]; rfl
private theorem gate0_4 (c : Dev nD) (i : grid0.Coords) (arg2 : Memref sig .tc .smem S1250 .i32) (harg2 : arg2.IsWhole) (arg3 : Memref sig .tc .smem S1250 .i32) (harg3 : arg3.IsWhole) (x2 x3 : Vec F S1250 .i32) :
    bodyRun0.sl.v162 c i arg2 harg2 arg3 harg3 x2 x3 = Cert.Spec.gateWord (loW0 i x2) (hiW0 i x3) 4#32 := by
  unfold bodyRun0.sl.v162 bodyRun0.sl.v161 bodyRun0.sl.v160 bodyRun0.sl.v158 bodyRun0.sl.v159
  rw [lo_eq0, hi_eq0]; rfl
private theorem gate0_5 (c : Dev nD) (i : grid0.Coords) (arg2 : Memref sig .tc .smem S1250 .i32) (harg2 : arg2.IsWhole) (arg3 : Memref sig .tc .smem S1250 .i32) (harg3 : arg3.IsWhole) (x2 x3 : Vec F S1250 .i32) :
    bodyRun0.sl.v167 c i arg2 harg2 arg3 harg3 x2 x3 = Cert.Spec.gateWord (loW0 i x2) (hiW0 i x3) 5#32 := by
  unfold bodyRun0.sl.v167 bodyRun0.sl.v166 bodyRun0.sl.v165 bodyRun0.sl.v163 bodyRun0.sl.v164
  rw [lo_eq0, hi_eq0]; rfl
private theorem gate0_6 (c : Dev nD) (i : grid0.Coords) (arg2 : Memref sig .tc .smem S1250 .i32) (harg2 : arg2.IsWhole) (arg3 : Memref sig .tc .smem S1250 .i32) (harg3 : arg3.IsWhole) (x2 x3 : Vec F S1250 .i32) :
    bodyRun0.sl.v172 c i arg2 harg2 arg3 harg3 x2 x3 = Cert.Spec.gateWord (loW0 i x2) (hiW0 i x3) 6#32 := by
  unfold bodyRun0.sl.v172 bodyRun0.sl.v171 bodyRun0.sl.v170 bodyRun0.sl.v168 bodyRun0.sl.v169
  rw [lo_eq0, hi_eq0]; rfl
private theorem gate0_7 (c : Dev nD) (i : grid0.Coords) (arg2 : Memref sig .tc .smem S1250 .i32) (harg2 : arg2.IsWhole) (arg3 : Memref sig .tc .smem S1250 .i32) (harg3 : arg3.IsWhole) (x2 x3 : Vec F S1250 .i32) :
    bodyRun0.sl.v177 c i arg2 harg2 arg3 harg3 x2 x3 = Cert.Spec.gateWord (loW0 i x2) (hiW0 i x3) 7#32 := by
  unfold bodyRun0.sl.v177 bodyRun0.sl.v176 bodyRun0.sl.v175 bodyRun0.sl.v173 bodyRun0.sl.v174
  rw [lo_eq0, hi_eq0]; rfl
private theorem gate0_8 (c : Dev nD) (i : grid0.Coords) (arg2 : Memref sig .tc .smem S1250 .i32) (harg2 : arg2.IsWhole) (arg3 : Memref sig .tc .smem S1250 .i32) (harg3 : arg3.IsWhole) (x2 x3 : Vec F S1250 .i32) :
    bodyRun0.sl.v182 c i arg2 harg2 arg3 harg3 x2 x3 = Cert.Spec.gateWord (loW0 i x2) (hiW0 i x3) 8#32 := by
  unfold bodyRun0.sl.v182 bodyRun0.sl.v181 bodyRun0.sl.v180 bodyRun0.sl.v178 bodyRun0.sl.v179
  rw [lo_eq0, hi_eq0]; rfl
private theorem gate0_9 (c : Dev nD) (i : grid0.Coords) (arg2 : Memref sig .tc .smem S1250 .i32) (harg2 : arg2.IsWhole) (arg3 : Memref sig .tc .smem S1250 .i32) (harg3 : arg3.IsWhole) (x2 x3 : Vec F S1250 .i32) :
    bodyRun0.sl.v187 c i arg2 harg2 arg3 harg3 x2 x3 = Cert.Spec.gateWord (loW0 i x2) (hiW0 i x3) 9#32 := by
  unfold bodyRun0.sl.v187 bodyRun0.sl.v186 bodyRun0.sl.v185 bodyRun0.sl.v183 bodyRun0.sl.v184
  rw [lo_eq0, hi_eq0]; rfl

private theorem first_eq0 (i : grid0.Coords) : bodyRun0.sl.v4 i = firstW0 i := rfl

private theorem r2_eq0 (c : Dev nD) (arg5 : Memref sig .tc .vmem S256x1 .i32) (harg5 : arg5.IsWhole) (x5 : Vec F S256x1 .i32) :
    bodyRun0.sl.r_2 c arg5 harg5 x5 = k0_pay3 x5 := by
  unfold bodyRun0.sl.r_2
  rw [readAt_unread_ld0, ld_w_col0]

private theorem xj_eq0 (c : Dev nD) (arg4 : Memref sig .tc .vmem S256x1 .i32) (harg4 : arg4.IsWhole)
    (arg6 : Memref sig .tc .vmem S10240x4 .f32) (harg6 : arg6.IsWhole) (x4 : Vec F S256x1 .i32) (x6 : Vec F S10240x4 .f32) :
    bodyRun0.sl.r_10 c arg4 harg4 arg6 harg6 x4 x6 = xj0 x4 x6 := by
  unfold bodyRun0.sl.r_10 bodyRun0.sl.r_9 bodyRun0.sl.r_8 bodyRun0.sl.r_7 bodyRun0.sl.r_6 bodyRun0.sl.r_5 bodyRun0.sl.r_4
    bodyRun0.sl.r_3 bodyRun0.sl.v39 xj0
  simp only [readAt_unread_ld0]
  rw [ld_w_col0 x4]

private theorem v277_eq0 (arg15 : Memref sig .tc .vmem S256x4 .f32) :
    bodyRun0.sl.v277 (F := F) arg15 = k0_pay12 := by
  unfold bodyRun0.sl.v277 bodyRun0.sl.H15_1
  exact View.readCov_unit_zero _ (by funext j; fin_cases j <;> rfl) _ _

/-- The first gated step of the target rows' gather, whose store the run listed with the zero fill. -/
private theorem read_xi_first0 (arg15 : Memref sig .tc .vmem S256x4 .f32) (g : BitVec 1)
    (f15 : BufTy.Contents (Elt F) arg15.view.ty) (w : ((Rect.unit (s := S256x4) ![0, 0] S256x4.size inb_S256x4_S256x4_0_0).shape.Idx → Elt F .f32) → ((Rect.unit (s := S256x4) ![0, 0] S256x4.size inb_S256x4_S256x4_0_0).shape.Idx → Elt F .f32)) :
    arg15.view.read (Elt F) (if _hc : g = 1#1 then arg15.view.writes (Elt F) f15 (⟨(Rect.unit (s := S256x4) ![0, 0] S256x4.size inb_S256x4_S256x4_0_0), w (bodyRun0.sl.v277 arg15)⟩ :: bodyRun0.sl.H15_1) else arg15.view.writes (Elt F) f15 bodyRun0.sl.H15_1)
      = xiStep0 g w k0_pay12 := by
  unfold xiStep0
  by_cases h : g = 1#1
  · rw [dif_pos h, if_pos h, read_writes_cons_whole0 _ _ (by funext j; fin_cases j <;> rfl), v277_eq0]
  · rw [dif_neg h, if_neg h]
    unfold bodyRun0.sl.H15_1
    rw [read_writes_cons_whole0 _ _ (by funext j; fin_cases j <;> rfl)]

/-- A later gated step of it. -/
private theorem read_xi_step0 (arg15 : Memref sig .tc .vmem S256x4 .f32) (g : BitVec 1)
    (w : ((Rect.unit (s := S256x4) ![0, 0] S256x4.size inb_S256x4_S256x4_0_0).shape.Idx → Elt F .f32) → ((Rect.unit (s := S256x4) ![0, 0] S256x4.size inb_S256x4_S256x4_0_0).shape.Idx → Elt F .f32)) (D : BufTy.Contents (Elt F) arg15.view.ty) :
    arg15.view.read (Elt F) (gatedRmw arg15.view g (Rect.unit (s := S256x4) ![0, 0] S256x4.size inb_S256x4_S256x4_0_0) w D) = xiStep0 g w (arg15.view.read (Elt F) D) := by
  rw [read_gatedRmw, gatedVal_whole (by funext j; fin_cases j <;> rfl)]
  rfl

theorem xi_eq0 (c : Dev nD) (i : grid0.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x4 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x4 .f32) (harg15 : arg15.IsWhole) (x2 : Vec F S1250 .i32) (x3 : Vec F S1250 .i32) (x4 : Vec F S256x1 .i32) (x5 : Vec F S256x1 .i32) (x6 : Vec F S10240x4 .f32) (x7 : Vec F S8x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) : (bodyRun0.sl.v188 c i arg2 harg2 arg3 harg3 arg5 harg5 arg6 harg6 arg15 x2 x3 x5 x6 f15) = xi0 i x2 x3 x5 x6 := by
  rw [xi_raw0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, View.readAt_eq_ld, ld_w_rows0]
  rw [read_xi_step0, read_xi_step0, read_xi_step0, read_xi_step0, read_xi_step0, read_xi_step0, read_xi_step0, read_xi_step0, read_xi_step0, read_xi_first0]
  simp only [gate0_0, gate0_1, gate0_2, gate0_3, gate0_4, gate0_5, gate0_6, gate0_7, gate0_8, gate0_9, r2_eq0, readAt_unread_ld0]
  rfl

theorem hid_eq0 (c : Dev nD) (i : grid0.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x4 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x4 .f32) (harg15 : arg15.IsWhole) (x2 : Vec F S1250 .i32) (x3 : Vec F S1250 .i32) (x4 : Vec F S256x1 .i32) (x5 : Vec F S256x1 .i32) (x6 : Vec F S10240x4 .f32) (x7 : Vec F S8x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) : (bodyRun0.sl.r_11 c i arg2 harg2 arg3 harg3 arg4 harg4 arg5 harg5 arg6 harg6 arg7 harg7 arg8 harg8 arg15 x2 x3 x4 x5 x6 x7 x8 f15) = hid0 i x2 x3 x4 x5 x6 x7 x8 := by
  unfold bodyRun0.sl.r_11 hid0
  rw [xi_eq0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, xj_eq0, readAt_unread_ld0, readAt_unread_ld0, ld_w_wA0 x7, ld_w_bias0 x8]

theorem msg_eq0 (c : Dev nD) (i : grid0.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x4 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x4 .f32) (harg15 : arg15.IsWhole) (x2 : Vec F S1250 .i32) (x3 : Vec F S1250 .i32) (x4 : Vec F S256x1 .i32) (x5 : Vec F S256x1 .i32) (x6 : Vec F S10240x4 .f32) (x7 : Vec F S8x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) : (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) = msg0 i x2 x3 x4 x5 x6 x7 x8 x9 x10 x11 x12 := by
  unfold bodyRun0.sl.r_12 msg0
  rw [hid_eq0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15]
  simp only [readAt_unread_ld0]
  rw [ld_w_wB0 x9, ld_w_bias0 x10, ld_w_wB0 x11, ld_w_bias0 x12]
  rfl

private theorem read_accBase0 (i : grid0.Coords) (arg14 : Memref sig .tc .vmem S10240x128 .f32) (harg14 : arg14.IsWhole)
    (x14 : Vec F S10240x128 .f32) :
    arg14.view.read (Elt F) (if _hc : bodyRun0.sl.v4 i = 1#1 then arg14.view.writes (Elt F) (harg14.unread x14) [⟨(Rect.unit (s := S10240x128) ![0, 0] S10240x128.size inb_S10240x128_S10240x128_0_0), k0_pay2⟩] else harg14.unread x14) = accReset0 i x14 := by
  unfold accReset0
  rw [first_eq0]
  by_cases h : firstW0 i = 1#1
  · rw [dif_pos h, if_pos h, read_writes_cons_whole0 _ _ (by funext j; fin_cases j <;> rfl)]
  · rw [dif_neg h, if_neg h, harg14.read_unread]

/-! ## The four facts -/

/-- The accumulator the body leaves reads `stepAcc0` of what the body was handed. -/
theorem bodyRun0_acc (c : Dev nD) (i : grid0.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x4 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x4 .f32) (harg15 : arg15.IsWhole) (x2 : Vec F S1250 .i32) (x3 : Vec F S1250 .i32) (x4 : Vec F S256x1 .i32) (x5 : Vec F S256x1 .i32) (x6 : Vec F S10240x4 .f32) (x7 : Vec F S8x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    arg14.view.read (Elt F) (bodyRun0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).1 = stepAcc0 i x2 x3 x4 x5 x6 x7 x8 x9 x10 x11 x12 x14 := by
  rw [acc_raw0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15]
  simp only [read_gatedRmw]
  rw [read_accBase0]
  simp only [gate0_0, gate0_1, gate0_2, gate0_3, gate0_4, gate0_5, gate0_6, gate0_7, gate0_8, gate0_9, r2_eq0, hid_eq0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, msg_eq0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, readAt_unread_ld0]
  rw [ld_w_wB0 x9, ld_w_bias0 x10, ld_w_wB0 x11, ld_w_bias0 x12]
  rfl

/-- At the core's last tile the output's staging buffer holds the accumulator the body leaves, as a [1, 10240, 128] array. -/
theorem bodyRun0_out_flush (c : Dev nD) (i : grid0.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x4 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x4 .f32) (harg15 : arg15.IsWhole) (x2 : Vec F S1250 .i32) (x3 : Vec F S1250 .i32) (x4 : Vec F S256x1 .i32) (x5 : Vec F S256x1 .i32) (x6 : Vec F S10240x4 .f32) (x7 : Vec F S8x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) (h : k0_cond22 i = 1#1) :
    arg13.view.read (Elt F) (bodyRun0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).2.2.1 = k0_pay1 (stepAcc0 i x2 x3 x4 x5 x6 x7 x8 x9 x10 x11 x12 x14) := by
  rw [out_raw0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, dif_pos h, read_writes_cons_whole0 _ _ (by funext j; fin_cases j <;> rfl), v266_raw0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15,
    View.readAt_eq_ld, ld_w_acc0, ← acc_raw0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, bodyRun0_acc c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15]

/-- At any other tile the body leaves it as it was. -/
theorem bodyRun0_out_idle (c : Dev nD) (i : grid0.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x4 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x4 .f32) (harg15 : arg15.IsWhole) (x2 : Vec F S1250 .i32) (x3 : Vec F S1250 .i32) (x4 : Vec F S256x1 .i32) (x5 : Vec F S256x1 .i32) (x6 : Vec F S10240x4 .f32) (x7 : Vec F S8x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) (h : ¬ k0_cond22 i = 1#1) :
    (bodyRun0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).2.2.1 = f13 := by
  rw [out_raw0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, dif_neg h]

/-- At a core's first tile the accumulator is reset before anything reads it: what the tile before left does not matter. -/
theorem stepAcc0_first (i : grid0.Coords) (h : (i 1).val = 0) (x2 x3 : Vec F S1250 .i32) (x4 x5 : Vec F S256x1 .i32)
    (x6 : Vec F S10240x4 .f32) (x7 : Vec F S8x128 .f32) (x8 : Vec F S1x128 .f32) (x9 : Vec F S128x128 .f32)
    (x10 : Vec F S1x128 .f32) (x11 : Vec F S128x128 .f32) (x12 : Vec F S1x128 .f32) (x14 x14' : Vec F S10240x128 .f32) :
    stepAcc0 i x2 x3 x4 x5 x6 x7 x8 x9 x10 x11 x12 x14 = stepAcc0 i x2 x3 x4 x5 x6 x7 x8 x9 x10 x11 x12 x14' := by
  have hf : firstW0 i = 1#1 := by
    unfold firstW0
    rw [h]
    rfl
  have e : ∀ x : Vec F S10240x128 .f32, accReset0 i x = k0_pay2 := fun x => if_pos hf
  unfold stepAcc0
  rw [e x14, e x14']

end Cert.Kernel.Gen

end
-- ==== Proof.RegionDataK0.lean ====
import proofs.«414286_j65627100283289_3_alg».proof.Proof.Gen.Kernel.Launch
import proofs.«414286_j65627100283289_3_alg».proof.Proof.Gen.Kernel.Skeleton
import proofs.«414286_j65627100283289_3_alg».proof.Proof.BodyK0
import proofs.«414286_j65627100283289_3_alg».proof.Proof.StepDefsK0
import proofs.«414286_j65627100283289_3_alg».proof.Proof.StepK0
import Idealize.ShloMosaic.Lib.Pipeline.Frame
import Idealize.ShloMosaic.Lib.Pipeline.FrameBody
import Idealize.ShloMosaic.Lib.Tactic

/-!
# Region 0's proof data and body obligation

Region 0 is the first EdgeConv layer's kernel: a grid of 2 cores × 625 tiles, two prefetched tables (each tile's lowest
and highest target chunk), ten windows (the tile's source and target columns, the padded node table, six parameter
blocks, and one output block per core) and two scratch buffers: the accumulator, carried from tile to tile within a
core, and the target rows, overwritten at every tile.

The proof data name what every staging buffer holds after the body at every point: an input its block; the output the
accumulator after the point, in the output's shape (read only at a core's last tile, where the block is written back;
at every other tile the body leaves the output's buffer as it found it). The invariant carries the accumulator at the
contents `accAt0 n`, the fold of the body's step `stepAcc0` over the points before `n`; the step at a core's first
tile does not read what it finds, so the fold's start is immaterial. The body's own run and the facts about what it
leaves come from the body's modules.

-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 0 (custom_call 0, pipeline 0): its proof data at the entry contents `V` and the tables' contents `a` -/

section Region0

-- the TensorCore's buffer contents when the region is entered, and the admissible contents of the two prefetched tables
variable (V : (c : Dev nD) → (b : Ref sig .tc) → Buf (Elt F) ((c : Thread nD τ).loc b))
variable (a : (pcfg0 (F := F)).Adm)

/-! ## The schedule: the staging memrefs at a point, and the body as the pipeline calls it -/

/-- Each window's current staging memref at point `t`, spelled as the pipeline passes it, and its wholeness. The index
    maps do not read the tables, so nothing here evaluates `a`. -/
abbrev ms0_0 (t : Fin (cfg0 a).N) := spec0_0.stage ((cfg0 a).slots t 0)
abbrev hs0_0 (t : Fin (cfg0 a).N) : (ms0_0 a t).IsWhole := hstage0_0 (((cfg0 a).slots t 0).cast nbuf0_0)
abbrev ms0_1 (t : Fin (cfg0 a).N) := spec0_1.stage ((cfg0 a).slots t 1)
abbrev hs0_1 (t : Fin (cfg0 a).N) : (ms0_1 a t).IsWhole := hstage0_1 (((cfg0 a).slots t 1).cast nbuf0_1)
abbrev ms0_2 (t : Fin (cfg0 a).N) := spec0_2.stage ((cfg0 a).slots t 2)
abbrev hs0_2 (t : Fin (cfg0 a).N) : (ms0_2 a t).IsWhole := hstage0_2 (((cfg0 a).slots t 2).cast nbuf0_2)
abbrev ms0_3 (t : Fin (cfg0 a).N) := spec0_3.stage ((cfg0 a).slots t 3)
abbrev hs0_3 (t : Fin (cfg0 a).N) : (ms0_3 a t).IsWhole := hstage0_3 (((cfg0 a).slots t 3).cast nbuf0_3)
abbrev ms0_4 (t : Fin (cfg0 a).N) := spec0_4.stage ((cfg0 a).slots t 4)
abbrev hs0_4 (t : Fin (cfg0 a).N) : (ms0_4 a t).IsWhole := hstage0_4 (((cfg0 a).slots t 4).cast nbuf0_4)
abbrev ms0_5 (t : Fin (cfg0 a).N) := spec0_5.stage ((cfg0 a).slots t 5)
abbrev hs0_5 (t : Fin (cfg0 a).N) : (ms0_5 a t).IsWhole := hstage0_5 (((cfg0 a).slots t 5).cast nbuf0_5)
abbrev ms0_6 (t : Fin (cfg0 a).N) := spec0_6.stage ((cfg0 a).slots t 6)
abbrev hs0_6 (t : Fin (cfg0 a).N) : (ms0_6 a t).IsWhole := hstage0_6 (((cfg0 a).slots t 6).cast nbuf0_6)
abbrev ms0_7 (t : Fin (cfg0 a).N) := spec0_7.stage ((cfg0 a).slots t 7)
abbrev hs0_7 (t : Fin (cfg0 a).N) : (ms0_7 a t).IsWhole := hstage0_7 (((cfg0 a).slots t 7).cast nbuf0_7)
abbrev ms0_8 (t : Fin (cfg0 a).N) := spec0_8.stage ((cfg0 a).slots t 8)
abbrev hs0_8 (t : Fin (cfg0 a).N) : (ms0_8 a t).IsWhole := hstage0_8 (((cfg0 a).slots t 8).cast nbuf0_8)
abbrev ms0_9 (t : Fin (cfg0 a).N) := spec0_9.stage ((cfg0 a).slots t 9)
abbrev hs0_9 (t : Fin (cfg0 a).N) : (ms0_9 a t).IsWhole := hstage0_9 (((cfg0 a).slots t 9).cast nbuf0_9)

/-- The body at point `t`: the two tables whole, the ten windows' current staging memrefs, the two scratch buffers whole. -/
abbrev bodyAt0 (t : Fin (cfg0 a).N) :=
  cc0__edgeconv_kernel (F := F) (grid0.coords t) (Memref.whole main_v31) (Memref.isWhole_whole _) (Memref.whole main_v39) (Memref.isWhole_whole _)
    (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (ms0_8 a t) (hs0_8 a t) (ms0_9 a t) (hs0_9 a t)
    (Memref.whole cc0_scratch0) (Memref.isWhole_whole _) (Memref.whole cc0_scratch1) (Memref.isWhole_whole _)

/-- It is what the body table runs at the pipeline's argument for the point. -/
theorem bodyAt0_eq (t : Fin (cfg0 a).N) :
    defs₀ (F := F) .tc (cfg0 a).body ((cfg0 a).bodyArgs t ((cfg0 a).slots t)) = bodyAt0 a t := rfl

/-- The output window is written back exactly where the body's last conditional fires: elsewhere no write-back. -/
theorem wbClosed0_9 : ∀ t : Fin grid0.N, k0_cond22 (grid0.coords t) = 1#1 ∨
    (t.val + 1 = grid0.N || decide (∃ h : t.val + 1 < grid0.N, cc0_transform_9 (grid0.coords ⟨t.val + 1, h⟩) ≠ cc0_transform_9 (grid0.coords t))) = false := by
  decide +kernel

theorem flushNot0_9 (t : Fin (cfg0 a).N) (h : ¬ k0_cond22 (grid0.coords t) = 1#1) : ((cfg0 a).win (9 : Fin 10)).flush t = false := by
  have := (wbClosed0_9 t).resolve_left h
  show (true && _) = false
  rw [Bool.true_and]; exact this

/-- Where the conditional fires the window is live, elsewhere idle. -/
theorem idleLive0_9 (t : Fin (cfg0 a).N) (h : k0_cond22 (grid0.coords t) = 1#1) : (cfg0 a).idle (9 : Fin 10) ((cfg0 a).grid.coords t) = false := by
  show (!(k0_cond22 (grid0.coords t) == 1#1)) = false
  rw [h]; rfl
theorem idleNot0_9 (t : Fin (cfg0 a).N) (h : ¬ k0_cond22 (grid0.coords t) = 1#1) : (cfg0 a).idle (9 : Fin 10) ((cfg0 a).grid.coords t) = true := by
  show (!(k0_cond22 (grid0.coords t) == 1#1)) = true
  rw [Bool.not_eq_true', beq_eq_false_iff_ne]; exact h

/-- At the first point of the grid the tile coordinate is zero. -/
theorem coords0_first (t : Fin (cfg0 a).N) (h : t.val = 0) : ((grid0.coords t) 1).val = 0 := by
  obtain ⟨n, hn⟩ := t
  simp only at h; subst h
  exact (by decide +kernel : ((grid0.coords (⟨0, by decide⟩ : Fin grid0.N)) 1).val = 0)

/-! ## The windows' blocks -/

/-- Window `w`'s block at point `t`, read off its array as the region finds it (`V`). -/
def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

/-- An input window's current staging buffer holds its block at every point, fetched there or not, for ANY proof data
    whose array is `V`'s and whose body leaves the block in place: unfetched, the block index has not moved. -/
theorem before0_0_of {c : Dev nD} (dat : Dat τ (Elt F) Unit ℕ (Pipeline.UD sig nD τ) ℕ (cfg0 a) c) (hA : dat.A (0 : Fin 10) = V c (Pipeline.arrRef spec0 (0 : Fin 10)))
    (hafter : ∀ t, dat.after (0 : Fin 10) t = iblk0 V a c (0 : Fin 10) t) (t : Fin (cfg0 a).N) (d) : dat.before (0 : Fin 10) t d = iblk0 V a c (0 : Fin 10) t := by
  have hblk : ∀ t, dat.blockOf (0 : Fin 10) t = iblk0 V a c (0 : Fin 10) t := fun t => by unfold Dat.blockOf iblk0; rw [hA]
  have hkeep : ∀ t, ((cfg0 a).win (0 : Fin 10)).cut ((cfg0 a).grid.coords t) (dat.after (0 : Fin 10) t) = dat.blockOf (0 : Fin 10) t := fun t => by
    rw [hafter, hblk]
  rw [dat.before_in_eq_fetched (0 : Fin 10) rfl (fun _ => rfl) (fun _ _ _ => rfl) hkeep t d]
  show ((cfg0 a).win (0 : Fin 10)).fill _ d (dat.blockOf (0 : Fin 10) t) = _
  rw [hblk]; rfl
theorem before0_1_of {c : Dev nD} (dat : Dat τ (Elt F) Unit ℕ (Pipeline.UD sig nD τ) ℕ (cfg0 a) c) (hA : dat.A (1 : Fin 10) = V c (Pipeline.arrRef spec0 (1 : Fin 10)))
    (hafter : ∀ t, dat.after (1 : Fin 10) t = iblk0 V a c (1 : Fin 10) t) (t : Fin (cfg0 a).N) (d) : dat.before (1 : Fin 10) t d = iblk0 V a c (1 : Fin 10) t := by
  have hblk : ∀ t, dat.blockOf (1 : Fin 10) t = iblk0 V a c (1 : Fin 10) t := fun t => by unfold Dat.blockOf iblk0; rw [hA]
  have hkeep : ∀ t, ((cfg0 a).win (1 : Fin 10)).cut ((cfg0 a).grid.coords t) (dat.after (1 : Fin 10) t) = dat.blockOf (1 : Fin 10) t := fun t => by
    rw [hafter, hblk]
  rw [dat.before_in_eq_fetched (1 : Fin 10) rfl (fun _ => rfl) (fun _ _ _ => rfl) hkeep t d]
  show ((cfg0 a).win (1 : Fin 10)).fill _ d (dat.blockOf (1 : Fin 10) t) = _
  rw [hblk]; rfl
theorem before0_2_of {c : Dev nD} (dat : Dat τ (Elt F) Unit ℕ (Pipeline.UD sig nD τ) ℕ (cfg0 a) c) (hA : dat.A (2 : Fin 10) = V c (Pipeline.arrRef spec0 (2 : Fin 10)))
    (hafter : ∀ t, dat.after (2 : Fin 10) t = iblk0 V a c (2 : Fin 10) t) (t : Fin (cfg0 a).N) (d) : dat.before (2 : Fin 10) t d = iblk0 V a c (2 : Fin 10) t := by
  have hblk : ∀ t, dat.blockOf (2 : Fin 10) t = iblk0 V a c (2 : Fin 10) t := fun t => by unfold Dat.blockOf iblk0; rw [hA]
  have hkeep : ∀ t, ((cfg0 a).win (2 : Fin 10)).cut ((cfg0 a).grid.coords t) (dat.after (2 : Fin 10) t) = dat.blockOf (2 : Fin 10) t := fun t => by
    rw [hafter, hblk]
  rw [dat.before_in_eq_fetched (2 : Fin 10) rfl (fun _ => rfl) (fun _ _ _ => rfl) hkeep t d]
  show ((cfg0 a).win (2 : Fin 10)).fill _ d (dat.blockOf (2 : Fin 10) t) = _
  rw [hblk]; rfl
theorem before0_3_of {c : Dev nD} (dat : Dat τ (Elt F) Unit ℕ (Pipeline.UD sig nD τ) ℕ (cfg0 a) c) (hA : dat.A (3 : Fin 10) = V c (Pipeline.arrRef spec0 (3 : Fin 10)))
    (hafter : ∀ t, dat.after (3 : Fin 10) t = iblk0 V a c (3 : Fin 10) t) (t : Fin (cfg0 a).N) (d) : dat.before (3 : Fin 10) t d = iblk0 V a c (3 : Fin 10) t := by
  have hblk : ∀ t, dat.blockOf (3 : Fin 10) t = iblk0 V a c (3 : Fin 10) t := fun t => by unfold Dat.blockOf iblk0; rw [hA]
  have hkeep : ∀ t, ((cfg0 a).win (3 : Fin 10)).cut ((cfg0 a).grid.coords t) (dat.after (3 : Fin 10) t) = dat.blockOf (3 : Fin 10) t := fun t => by
    rw [hafter, hblk]
  rw [dat.before_in_eq_fetched (3 : Fin 10) rfl (fun _ => rfl) (fun _ _ _ => rfl) hkeep t d]
  show ((cfg0 a).win (3 : Fin 10)).fill _ d (dat.blockOf (3 : Fin 10) t) = _
  rw [hblk]; rfl
theorem before0_4_of {c : Dev nD} (dat : Dat τ (Elt F) Unit ℕ (Pipeline.UD sig nD τ) ℕ (cfg0 a) c) (hA : dat.A (4 : Fin 10) = V c (Pipeline.arrRef spec0 (4 : Fin 10)))
    (hafter : ∀ t, dat.after (4 : Fin 10) t = iblk0 V a c (4 : Fin 10) t) (t : Fin (cfg0 a).N) (d) : dat.before (4 : Fin 10) t d = iblk0 V a c (4 : Fin 10) t := by
  have hblk : ∀ t, dat.blockOf (4 : Fin 10) t = iblk0 V a c (4 : Fin 10) t := fun t => by unfold Dat.blockOf iblk0; rw [hA]
  have hkeep : ∀ t, ((cfg0 a).win (4 : Fin 10)).cut ((cfg0 a).grid.coords t) (dat.after (4 : Fin 10) t) = dat.blockOf (4 : Fin 10) t := fun t => by
    rw [hafter, hblk]
  rw [dat.before_in_eq_fetched (4 : Fin 10) rfl (fun _ => rfl) (fun _ _ _ => rfl) hkeep t d]
  show ((cfg0 a).win (4 : Fin 10)).fill _ d (dat.blockOf (4 : Fin 10) t) = _
  rw [hblk]; rfl
theorem before0_5_of {c : Dev nD} (dat : Dat τ (Elt F) Unit ℕ (Pipeline.UD sig nD τ) ℕ (cfg0 a) c) (hA : dat.A (5 : Fin 10) = V c (Pipeline.arrRef spec0 (5 : Fin 10)))
    (hafter : ∀ t, dat.after (5 : Fin 10) t = iblk0 V a c (5 : Fin 10) t) (t : Fin (cfg0 a).N) (d) : dat.before (5 : Fin 10) t d = iblk0 V a c (5 : Fin 10) t := by
  have hblk : ∀ t, dat.blockOf (5 : Fin 10) t = iblk0 V a c (5 : Fin 10) t := fun t => by unfold Dat.blockOf iblk0; rw [hA]
  have hkeep : ∀ t, ((cfg0 a).win (5 : Fin 10)).cut ((cfg0 a).grid.coords t) (dat.after (5 : Fin 10) t) = dat.blockOf (5 : Fin 10) t := fun t => by
    rw [hafter, hblk]
  rw [dat.before_in_eq_fetched (5 : Fin 10) rfl (fun _ => rfl) (fun _ _ _ => rfl) hkeep t d]
  show ((cfg0 a).win (5 : Fin 10)).fill _ d (dat.blockOf (5 : Fin 10) t) = _
  rw [hblk]; rfl
theorem before0_6_of {c : Dev nD} (dat : Dat τ (Elt F) Unit ℕ (Pipeline.UD sig nD τ) ℕ (cfg0 a) c) (hA : dat.A (6 : Fin 10) = V c (Pipeline.arrRef spec0 (6 : Fin 10)))
    (hafter : ∀ t, dat.after (6 : Fin 10) t = iblk0 V a c (6 : Fin 10) t) (t : Fin (cfg0 a).N) (d) : dat.before (6 : Fin 10) t d = iblk0 V a c (6 : Fin 10) t := by
  have hblk : ∀ t, dat.blockOf (6 : Fin 10) t = iblk0 V a c (6 : Fin 10) t := fun t => by unfold Dat.blockOf iblk0; rw [hA]
  have hkeep : ∀ t, ((cfg0 a).win (6 : Fin 10)).cut ((cfg0 a).grid.coords t) (dat.after (6 : Fin 10) t) = dat.blockOf (6 : Fin 10) t := fun t => by
    rw [hafter, hblk]
  rw [dat.before_in_eq_fetched (6 : Fin 10) rfl (fun _ => rfl) (fun _ _ _ => rfl) hkeep t d]
  show ((cfg0 a).win (6 : Fin 10)).fill _ d (dat.blockOf (6 : Fin 10) t) = _
  rw [hblk]; rfl
theorem before0_7_of {c : Dev nD} (dat : Dat τ (Elt F) Unit ℕ (Pipeline.UD sig nD τ) ℕ (cfg0 a) c) (hA : dat.A (7 : Fin 10) = V c (Pipeline.arrRef spec0 (7 : Fin 10)))
    (hafter : ∀ t, dat.after (7 : Fin 10) t = iblk0 V a c (7 : Fin 10) t) (t : Fin (cfg0 a).N) (d) : dat.before (7 : Fin 10) t d = iblk0 V a c (7 : Fin 10) t := by
  have hblk : ∀ t, dat.blockOf (7 : Fin 10) t = iblk0 V a c (7 : Fin 10) t := fun t => by unfold Dat.blockOf iblk0; rw [hA]
  have hkeep : ∀ t, ((cfg0 a).win (7 : Fin 10)).cut ((cfg0 a).grid.coords t) (dat.after (7 : Fin 10) t) = dat.blockOf (7 : Fin 10) t := fun t => by
    rw [hafter, hblk]
  rw [dat.before_in_eq_fetched (7 : Fin 10) rfl (fun _ => rfl) (fun _ _ _ => rfl) hkeep t d]
  show ((cfg0 a).win (7 : Fin 10)).fill _ d (dat.blockOf (7 : Fin 10) t) = _
  rw [hblk]; rfl
theorem before0_8_of {c : Dev nD} (dat : Dat τ (Elt F) Unit ℕ (Pipeline.UD sig nD τ) ℕ (cfg0 a) c) (hA : dat.A (8 : Fin 10) = V c (Pipeline.arrRef spec0 (8 : Fin 10)))
    (hafter : ∀ t, dat.after (8 : Fin 10) t = iblk0 V a c (8 : Fin 10) t) (t : Fin (cfg0 a).N) (d) : dat.before (8 : Fin 10) t d = iblk0 V a c (8 : Fin 10) t := by
  have hblk : ∀ t, dat.blockOf (8 : Fin 10) t = iblk0 V a c (8 : Fin 10) t := fun t => by unfold Dat.blockOf iblk0; rw [hA]
  have hkeep : ∀ t, ((cfg0 a).win (8 : Fin 10)).cut ((cfg0 a).grid.coords t) (dat.after (8 : Fin 10) t) = dat.blockOf (8 : Fin 10) t := fun t => by
    rw [hafter, hblk]
  rw [dat.before_in_eq_fetched (8 : Fin 10) rfl (fun _ => rfl) (fun _ _ _ => rfl) hkeep t d]
  show ((cfg0 a).win (8 : Fin 10)).fill _ d (dat.blockOf (8 : Fin 10) t) = _
  rw [hblk]; rfl

/-! ## The accumulator, point by point -/

/-- The two tables' contents as the body reads them. -/
abbrev tab0_0 : Vec F S1250 .i32 := a.1 0
abbrev tab0_1 : Vec F S1250 .i32 := a.1 1

/-- The accumulator before point `n` (after point `n - 1`): anything before the first point, then one body step per
    point over the point's blocks and what the point before left. -/
def accAt0 (c : Dev nD) : ℕ → Vec F S10240x128 .f32
  | 0 => (Memref.whole cc0_scratch0).view.read (Elt F) (V c cc0_scratch0)
  | n + 1 =>
    if h : n < (cfg0 a).N then
      stepAcc0 (grid0.coords ⟨n, h⟩) (tab0_0 a) (tab0_1 a) (iblk0 V a c (0 : Fin 10) ⟨n, h⟩) (iblk0 V a c (1 : Fin 10) ⟨n, h⟩) (iblk0 V a c (2 : Fin 10) ⟨n, h⟩) (iblk0 V a c (3 : Fin 10) ⟨n, h⟩) (iblk0 V a c (4 : Fin 10) ⟨n, h⟩) (iblk0 V a c (5 : Fin 10) ⟨n, h⟩) (iblk0 V a c (6 : Fin 10) ⟨n, h⟩) (iblk0 V a c (7 : Fin 10) ⟨n, h⟩) (iblk0 V a c (8 : Fin 10) ⟨n, h⟩) (accAt0 c n)
    else accAt0 c n

theorem accAt0_succ (c : Dev nD) (t : Fin (cfg0 a).N) :
    accAt0 V a c (t.val + 1)
      = stepAcc0 (grid0.coords t) (tab0_0 a) (tab0_1 a) (iblk0 V a c (0 : Fin 10) t) (iblk0 V a c (1 : Fin 10) t) (iblk0 V a c (2 : Fin 10) t) (iblk0 V a c (3 : Fin 10) t) (iblk0 V a c (4 : Fin 10) t) (iblk0 V a c (5 : Fin 10) t) (iblk0 V a c (6 : Fin 10) t) (iblk0 V a c (7 : Fin 10) t) (iblk0 V a c (8 : Fin 10) t) (accAt0 V a c t.val) := by
  obtain ⟨n, hn⟩ := t
  exact dif_pos hn

/-! ## The invariant and the proof data -/

/-- The invariant before point `n`: the two tables held whole at `a`; the accumulator scratch at some contents, which
    after the first point are `accAt0 n`; the target-row scratch at anything; every other scoped buffer that is no
    staging buffer, unopened; the generator register at some state. -/
def Phi0 (c : Dev nD) (n : ℕ) : sProp 𝕄 :=
  iprop(Pipeline.prefHeld pre0 c (fun _ => fullShare) a.1
    ∗ (∃ x14 : Vec F S10240x128 .f32, ⌜n ≠ 0 → x14 = accAt0 V a c n⌝ ∗ owns (c : Thread nD τ) (Memref.whole cc0_scratch0) fullShare x14)
    ∗ (∃ d, owns (c : Thread nD τ) (Memref.whole cc0_scratch1) fullShare d)
    ∗ Pipeline.scopedRestBut spec0 c [cc0_scratch0, cc0_scratch1]
    ∗ (∃ r, prngReg c r))

/-- The proof data of pipeline 0 on core `c`: the arrays as the region finds them (`V`); after the body at point `t` each
    input's buffer at its block and the output's at the accumulator after the point, cast to the output's shape (read only
    where the block is written back); the invariant `Phi0`; nothing owed; full shares. -/
def dat0 (c : Dev nD) : Dat τ (Elt F) Unit ℕ (Pipeline.UD sig nD τ) ℕ (cfg0 a) c where
  A w := V c (Pipeline.arrRef spec0 w)
  after w t := match w with
    | ⟨0, _⟩ => iblk0 V a c (0 : Fin 10) t
    | ⟨1, _⟩ => iblk0 V a c (1 : Fin 10) t
    | ⟨2, _⟩ => iblk0 V a c (2 : Fin 10) t
    | ⟨3, _⟩ => iblk0 V a c (3 : Fin 10) t
    | ⟨4, _⟩ => iblk0 V a c (4 : Fin 10) t
    | ⟨5, _⟩ => iblk0 V a c (5 : Fin 10) t
    | ⟨6, _⟩ => iblk0 V a c (6 : Fin 10) t
    | ⟨7, _⟩ => iblk0 V a c (7 : Fin 10) t
    | ⟨8, _⟩ => iblk0 V a c (8 : Fin 10) t
    | ⟨9, _⟩ => k0_pay1 (accAt0 V a c (t.val + 1))
  Φ t := Phi0 V a c t.val
  q _ := fullShare
  owed _ := 0

theorem A_eq0 (c : Dev nD) (w : Fin (cfg0 a).W) : (dat0 V a c).A w = V c (Pipeline.arrRef spec0 w) := by
  dsimp only [dat0]

theorem after0_0 (c : Dev nD) (t : Fin (cfg0 a).N) : (dat0 V a c).after (0 : Fin 10) t = iblk0 V a c (0 : Fin 10) t := by dsimp only [dat0]
theorem after0_1 (c : Dev nD) (t : Fin (cfg0 a).N) : (dat0 V a c).after (1 : Fin 10) t = iblk0 V a c (1 : Fin 10) t := by dsimp only [dat0]
theorem after0_2 (c : Dev nD) (t : Fin (cfg0 a).N) : (dat0 V a c).after (2 : Fin 10) t = iblk0 V a c (2 : Fin 10) t := by dsimp only [dat0]
theorem after0_3 (c : Dev nD) (t : Fin (cfg0 a).N) : (dat0 V a c).after (3 : Fin 10) t = iblk0 V a c (3 : Fin 10) t := by dsimp only [dat0]
theorem after0_4 (c : Dev nD) (t : Fin (cfg0 a).N) : (dat0 V a c).after (4 : Fin 10) t = iblk0 V a c (4 : Fin 10) t := by dsimp only [dat0]
theorem after0_5 (c : Dev nD) (t : Fin (cfg0 a).N) : (dat0 V a c).after (5 : Fin 10) t = iblk0 V a c (5 : Fin 10) t := by dsimp only [dat0]
theorem after0_6 (c : Dev nD) (t : Fin (cfg0 a).N) : (dat0 V a c).after (6 : Fin 10) t = iblk0 V a c (6 : Fin 10) t := by dsimp only [dat0]
theorem after0_7 (c : Dev nD) (t : Fin (cfg0 a).N) : (dat0 V a c).after (7 : Fin 10) t = iblk0 V a c (7 : Fin 10) t := by dsimp only [dat0]
theorem after0_8 (c : Dev nD) (t : Fin (cfg0 a).N) : (dat0 V a c).after (8 : Fin 10) t = iblk0 V a c (8 : Fin 10) t := by dsimp only [dat0]
theorem after0_9 (c : Dev nD) (t : Fin (cfg0 a).N) : (dat0 V a c).after (9 : Fin 10) t = k0_pay1 (accAt0 V a c (t.val + 1)) := by dsimp only [dat0]

theorem before0_0 (c : Dev nD) (t : Fin (cfg0 a).N) (d) : (dat0 V a c).before (0 : Fin 10) t d = iblk0 V a c (0 : Fin 10) t :=
  before0_0_of V a (dat0 V a c) (A_eq0 V a c (0 : Fin 10)) (after0_0 V a c) t d
theorem before0_1 (c : Dev nD) (t : Fin (cfg0 a).N) (d) : (dat0 V a c).before (1 : Fin 10) t d = iblk0 V a c (1 : Fin 10) t :=
  before0_1_of V a (dat0 V a c) (A_eq0 V a c (1 : Fin 10)) (after0_1 V a c) t d
theorem before0_2 (c : Dev nD) (t : Fin (cfg0 a).N) (d) : (dat0 V a c).before (2 : Fin 10) t d = iblk0 V a c (2 : Fin 10) t :=
  before0_2_of V a (dat0 V a c) (A_eq0 V a c (2 : Fin 10)) (after0_2 V a c) t d
theorem before0_3 (c : Dev nD) (t : Fin (cfg0 a).N) (d) : (dat0 V a c).before (3 : Fin 10) t d = iblk0 V a c (3 : Fin 10) t :=
  before0_3_of V a (dat0 V a c) (A_eq0 V a c (3 : Fin 10)) (after0_3 V a c) t d
theorem before0_4 (c : Dev nD) (t : Fin (cfg0 a).N) (d) : (dat0 V a c).before (4 : Fin 10) t d = iblk0 V a c (4 : Fin 10) t :=
  before0_4_of V a (dat0 V a c) (A_eq0 V a c (4 : Fin 10)) (after0_4 V a c) t d
theorem before0_5 (c : Dev nD) (t : Fin (cfg0 a).N) (d) : (dat0 V a c).before (5 : Fin 10) t d = iblk0 V a c (5 : Fin 10) t :=
  before0_5_of V a (dat0 V a c) (A_eq0 V a c (5 : Fin 10)) (after0_5 V a c) t d
theorem before0_6 (c : Dev nD) (t : Fin (cfg0 a).N) (d) : (dat0 V a c).before (6 : Fin 10) t d = iblk0 V a c (6 : Fin 10) t :=
  before0_6_of V a (dat0 V a c) (A_eq0 V a c (6 : Fin 10)) (after0_6 V a c) t d
theorem before0_7 (c : Dev nD) (t : Fin (cfg0 a).N) (d) : (dat0 V a c).before (7 : Fin 10) t d = iblk0 V a c (7 : Fin 10) t :=
  before0_7_of V a (dat0 V a c) (A_eq0 V a c (7 : Fin 10)) (after0_7 V a c) t d
theorem before0_8 (c : Dev nD) (t : Fin (cfg0 a).N) (d) : (dat0 V a c).before (8 : Fin 10) t d = iblk0 V a c (8 : Fin 10) t :=
  before0_8_of V a (dat0 V a c) (A_eq0 V a c (8 : Fin 10)) (after0_8 V a c) t d

theorem Phi0_castSucc (c : Dev nD) (t : Fin (cfg0 a).N) : (dat0 V a c).Φ t.castSucc = Phi0 V a c t.val := by
  dsimp only [dat0]; simp only [Fin.coe_castSucc]
theorem Phi0_succ (c : Dev nD) (t : Fin (cfg0 a).N) : (dat0 V a c).Φ t.succ = Phi0 V a c (t.val + 1) := by
  dsimp only [dat0]; simp only [Fin.val_succ]

/-! ## The body's run at a point -/

/-- The body's run at point `t`: the tables, the point's staging memrefs and blocks, the two scratch buffers; over the
    accumulator's contents `x14` and the raw contents `f13`, `f15` of the two buffers it is handed at anything. -/
abbrev run0 (c : Dev nD) (t : Fin (cfg0 a).N) (x14 : Vec F S10240x128 .f32)
    (f13 : BufTy.Contents (Elt F) (ms0_9 a t).view.ty) (f15 : BufTy.Contents (Elt F) (Memref.whole cc0_scratch1 : Memref sig .tc _ _ _).view.ty) :=
  bodyRun0 (F := F) c (grid0.coords t) (Memref.whole main_v31) (Memref.isWhole_whole _) (Memref.whole main_v39) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (ms0_8 a t) (hs0_8 a t) (ms0_9 a t) (hs0_9 a t) (Memref.whole cc0_scratch0) (Memref.isWhole_whole _) (Memref.whole cc0_scratch1) (Memref.isWhole_whole _) (tab0_0 a) (tab0_1 a) (iblk0 V a c (0 : Fin 10) t) (iblk0 V a c (1 : Fin 10) t) (iblk0 V a c (2 : Fin 10) t) (iblk0 V a c (3 : Fin 10) t) (iblk0 V a c (4 : Fin 10) t) (iblk0 V a c (5 : Fin 10) t) (iblk0 V a c (6 : Fin 10) t) (iblk0 V a c (7 : Fin 10) t) (iblk0 V a c (8 : Fin 10) t) x14 f13 f15

/-- One step from what the invariant knows of the accumulator lands on the next named contents: at the first point the
    step does not read what it finds. -/
theorem acc0_step (c : Dev nD) (t : Fin (cfg0 a).N) (x14 : Vec F S10240x128 .f32)
    (hx : t.val ≠ 0 → x14 = accAt0 V a c t.val) :
    stepAcc0 (grid0.coords t) (tab0_0 a) (tab0_1 a) (iblk0 V a c (0 : Fin 10) t) (iblk0 V a c (1 : Fin 10) t) (iblk0 V a c (2 : Fin 10) t) (iblk0 V a c (3 : Fin 10) t) (iblk0 V a c (4 : Fin 10) t) (iblk0 V a c (5 : Fin 10) t) (iblk0 V a c (6 : Fin 10) t) (iblk0 V a c (7 : Fin 10) t) (iblk0 V a c (8 : Fin 10) t) x14 = accAt0 V a c (t.val + 1) := by
  rw [accAt0_succ]
  by_cases h0 : t.val = 0
  · exact stepAcc0_first _ (coords0_first a t h0) _ _ _ _ _ _ _ _ _ _ _ _ _
  · rw [hx h0]

/-- What the body leaves in the output's staging buffer is what the obligation asks of it: where the block is written
    back, the accumulator after the point in the output's shape; elsewhere, the buffer as it was found. -/
theorem leaves0_9 (c : Dev nD) (t : Fin (cfg0 a).N) (x14 : Vec F S10240x128 .f32)
    (hx : t.val ≠ 0 → x14 = accAt0 V a c t.val) (d9) (f13 : BufTy.Contents (Elt F) (ms0_9 a t).view.ty)
    (hf13 : (ms0_9 a t).view.read (Elt F) f13 = (dat0 V a c).before (9 : Fin 10) t d9) (f15) :
    ((ms0_9 a t).view.loc (c : Thread nD τ) ↦[(ms0_9 a t).view.set]{fullShare} (run0 V a c t x14 f13 f15).2.2.1 : sProp 𝕄)
      ⊢ (dat0 V a c).leavesExact (9 : Fin 10) t := by
  by_cases hc : k0_cond22 (grid0.coords t) = 1#1
  · have hlive : (dat0 V a c).leavesExact (9 : Fin 10) t = owns (c : Thread nD τ) (ms0_9 a t) fullShare ((dat0 V a c).after (9 : Fin 10) t) := by
      unfold Dat.leavesExact; rw [idleLive0_9 a t hc]
    rw [hlive, after0_9]
    unfold owns
    iintro H; iexists _; isplitr
    swap; · iexact H
    ipureintro
    exact (bodyRun0_out_flush _ _ _ _ _ _ _ _ _ _ _ _ _ _ _ _ _ _ _ _ _ _ _ _ _ _ _ _ _ _ _ _ _ _ _ _ _ _ _ _ _ _ _ _ hc).trans (congrArg k0_pay1 (acc0_step V a c t x14 hx))
  · rw [Dat.leavesExact_idle _ (9 : Fin 10) t (idleNot0_9 a t hc) (flushNot0_9 a t hc),
      show (run0 V a c t x14 f13 f15).2.2.1 = f13 from bodyRun0_out_idle _ _ _ _ _ _ _ _ _ _ _ _ _ _ _ _ _ _ _ _ _ _ _ _ _ _ _ _ _ _ _ _ _ _ _ _ _ _ _ _ _ _ _ _ hc]
    unfold owns
    iintro H; iexists d9, f13; isplitr
    · ipureintro; exact hf13
    iexact H

/-- Owning a memref at contents `X` is holding its elements at some raw contents that read `X`. -/
theorem owns_open0 (c : Dev nD) {sp : Space} {sh : Shape} {e : EltTy} (M : Memref sig .tc sp sh e) (X : sh.Idx → Elt F e) :
    (owns (c : Thread nD τ) M fullShare X : sProp 𝕄)
      ⊢ iprop(∃ f, ⌜M.view.read (Elt F) f = X⌝ ∗ (M.view.loc (c : Thread nD τ) ↦[M.view.set]{fullShare} f)) := by
  unfold owns; exact .rfl

/-- The tables held whole are the body's two table arguments owned at their contents. -/
theorem prefHeld0_eq (c : Dev nD) :
    (Pipeline.prefHeld pre0 c (fun _ => fullShare) a.1 : sProp 𝕄)
      = iprop(owns (c : Thread nD τ) (Memref.whole main_v31) fullShare (tab0_0 a) ∗ owns (c : Thread nD τ) (Memref.whole main_v39) fullShare (tab0_1 a)) := by
  unfold Pipeline.prefHeld
  rw [bigSep_univ_eq_bigSepL [(0 : Fin 2), (1 : Fin 2)] (by decide) (by decide), owns_whole, owns_whole]
  rfl

/-! ## The body obligation, at a generic point -/

/-- What the body is called with at point `t` (the windows one by one), -/
def bodyPre0 (c : Dev nD) (t : Fin (cfg0 a).N) : sProp 𝕄 :=
  iprop((dat0 V a c).Φ t.castSucc ∗ (dat0 V a c).owesAt () t.castSucc
    ∗ (∃ d, owns (c : Thread nD τ) (ms0_0 a t) fullShare ((dat0 V a c).before (0 : Fin 10) t d))
    ∗ (∃ d, owns (c : Thread nD τ) (ms0_1 a t) fullShare ((dat0 V a c).before (1 : Fin 10) t d))
    ∗ (∃ d, owns (c : Thread nD τ) (ms0_2 a t) fullShare ((dat0 V a c).before (2 : Fin 10) t d))
    ∗ (∃ d, owns (c : Thread nD τ) (ms0_3 a t) fullShare ((dat0 V a c).before (3 : Fin 10) t d))
    ∗ (∃ d, owns (c : Thread nD τ) (ms0_4 a t) fullShare ((dat0 V a c).before (4 : Fin 10) t d))
    ∗ (∃ d, owns (c : Thread nD τ) (ms0_5 a t) fullShare ((dat0 V a c).before (5 : Fin 10) t d))
    ∗ (∃ d, owns (c : Thread nD τ) (ms0_6 a t) fullShare ((dat0 V a c).before (6 : Fin 10) t d))
    ∗ (∃ d, owns (c : Thread nD τ) (ms0_7 a t) fullShare ((dat0 V a c).before (7 : Fin 10) t d))
    ∗ (∃ d, owns (c : Thread nD τ) (ms0_8 a t) fullShare ((dat0 V a c).before (8 : Fin 10) t d))
    ∗ (∃ d, owns (c : Thread nD τ) (ms0_9 a t) fullShare ((dat0 V a c).before (9 : Fin 10) t d)))

/-- and what it returns: each input's buffer at its block; the output's as the obligation states it, live or idle. -/
def bodyPost0 (c : Dev nD) (t : Fin (cfg0 a).N) : sProp 𝕄 :=
  iprop((dat0 V a c).Φ t.succ ∗ (dat0 V a c).owesAt () t.succ
    ∗ owns (c : Thread nD τ) (ms0_0 a t) fullShare ((dat0 V a c).after (0 : Fin 10) t)
    ∗ owns (c : Thread nD τ) (ms0_1 a t) fullShare ((dat0 V a c).after (1 : Fin 10) t)
    ∗ owns (c : Thread nD τ) (ms0_2 a t) fullShare ((dat0 V a c).after (2 : Fin 10) t)
    ∗ owns (c : Thread nD τ) (ms0_3 a t) fullShare ((dat0 V a c).after (3 : Fin 10) t)
    ∗ owns (c : Thread nD τ) (ms0_4 a t) fullShare ((dat0 V a c).after (4 : Fin 10) t)
    ∗ owns (c : Thread nD τ) (ms0_5 a t) fullShare ((dat0 V a c).after (5 : Fin 10) t)
    ∗ owns (c : Thread nD τ) (ms0_6 a t) fullShare ((dat0 V a c).after (6 : Fin 10) t)
    ∗ owns (c : Thread nD τ) (ms0_7 a t) fullShare ((dat0 V a c).after (7 : Fin 10) t)
    ∗ owns (c : Thread nD τ) (ms0_8 a t) fullShare ((dat0 V a c).after (8 : Fin 10) t)
    ∗ (dat0 V a c).leavesExact (9 : Fin 10) t)

set_option maxHeartbeats 1600000 in
/-- The body at any point. The invariant hands it the two tables, the accumulator (at the named contents after the
    first point) and the target-row scratch; each input's memref holds its block; the output's holds anything. The run
    applies; the accumulator comes back one step on, the inputs and tables as they were, the output's buffer as the
    obligation states it; the core's `owes` passes through unread. -/
theorem sound_body0 (c : Dev nD) (t : Fin (cfg0 a).N) :
    bodyPre0 V a c t ⊢ wp frame (wpE (defs₀ (F := F)) Variants.none c none) Set.univ (bodyAt0 a t) (fun _ => bodyPost0 V a c t) := by
  unfold bodyPre0 bodyPost0
  simp only [before0_0, before0_1, before0_2, before0_3, before0_4, before0_5, before0_6, before0_7, before0_8]
  rw [Phi0_castSucc, Phi0_succ, show (dat0 V a c).owesAt () t.succ = (dat0 V a c).owesAt () t.castSucc from rfl,
    after0_0, after0_1, after0_2, after0_3, after0_4, after0_5, after0_6, after0_7, after0_8]
  unfold Phi0
  rw [prefHeld0_eq]
  iintro ⟨⟨⟨HT0, HT1⟩, ⟨%x14, %hx14, H14⟩, ⟨%d15, H15⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave H9' := (owns_open0 c (ms0_9 a t) _) $$ H9
  icases H9' with ⟨%f13, %hf13, H13⟩
  ihave H15' := (owns_open0 c (Memref.whole cc0_scratch1) _) $$ H15
  icases H15' with ⟨%f15, -, H15⟩
  iapply ((run0 V a c t x14 f13 f15).2.2.2 Set.univ _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H13]; · iexact H13
  isplitl [H14]; · iexact H14
  isplitl [H15]; · iexact H15
  iintro ⟨HT0, HT1, H0, H1, H2, H3, H4, H5, H6, H7, H8, H13, H14, H15⟩
  isplitl [HT0 HT1 H14 H15 HR Hg]
  · isplitl [HT0 HT1]
    · isplitl [HT0]; · iexact HT0
      iexact HT1
    isplitl [H14]
    · iexists _; isplitr; · ipureintro; exact fun _ => rfl
      unfold owns; iexists _; isplitr
      swap; · iexact H14
      ipureintro
      exact (bodyRun0_acc _ _ _ _ _ _ _ _ _ _ _ _ _ _ _ _ _ _ _ _ _ _ _ _ _ _ _ _ _ _ _ _ _ _ _ _ _ _ _ _ _ _ _ _).trans (acc0_step V a c t x14 hx14)
    isplitl [H15]
    · iexists _; unfold owns; iexists _; isplitr
      swap; · iexact H15
      ipureintro; rfl
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (leaves0_9 V a c t x14 hx14 d9 f13 hf13 f15)
  iexact H13

/-- The library's body obligation, at every point. -/
theorem body_obligation0 (c : Dev nD) : BodyObligation (dat0 (F := F) V a c) (defs₀ (F := F)) Variants.none () Set.univ := fun t => by
  rw [bigSep_W0, bigSep_W0]
  exact sound_body0 V a c t

end Region0

end Cert.Kernel.Gen

end
-- ==== Proof.RegionK0.lean ====
import proofs.«414286_j65627100283289_3_alg».proof.Proof.RegionDataK0
import proofs.«414286_j65627100283289_3_alg».proof.Proof.Gen.Kernel.Regions
import proofs.«414286_j65627100283289_3_alg».proof.Proof.FrameDefsK
import Idealize.ShloMosaic.Lib.Pipeline.RegionsLoop
import Idealize.ShloMosaic.Lib.Pipeline.FrameSuffix

/-!
# Region 0 as a segment of the program

On entry the region's arrays and its two tables are separated from the other unscoped buffers; the tables, the scoped
buffers that are no staging buffer and the generator register make the invariant before the first point. On exit the
invariant gives them back and the arrays are joined with the other buffers again, the output's array at what the
write-backs made of it. Nothing is owed at any point and the kernel has no semaphore of its own.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 0 as a segment of the program -/

section Seg0

variable (m : (ℓ : Loc nD τ sig) → Buf (Elt F) ℓ) (outs : Outs (F := F))

/-- The unscoped buffers' contents on core `c` when region 0 is entered, and when it is left. -/
abbrev Win0 : Dev nD → Valuation τ sig (Elt F) := fun c => V8 m c
abbrev Wout0 : Dev nD → Valuation τ sig (Elt F) := fun c => V9 m outs c
/-- The contents of the TensorCore's buffers when region 0 is entered, that is, after the host operations that precede it. -/
abbrev Vin0 : (c : Dev nD) → (b : Ref sig .tc) → Buf (Elt F) ((c : Thread nD τ).loc b) := fun c b => V8 m c b
/-- Their contents when the region is left: as entered, except the output's array, which holds what the region leaves in it. -/
abbrev Vout0 : (c : Dev nD) → (b : Ref sig .tc) → Buf (Elt F) ((c : Thread nD τ).loc b) := fun c b => V9 m outs c b

-- the tables' contents of all four pipelines, the family of proof data, and what ties region 0's members to this module
variable (a : (p : Fin 4) → (pcfgs (F := F) p).Adm)
variable (pdats : (p : Fin 4) → (c : Dev nD) → Dat τ (Elt F) Unit ℕ (Pipeline.UD sig nD τ) ℕ (Pipeline.pin (pcfgs (F := F)) a p) c)
-- the family's member at region 0 is this module's proof data, at the entry contents and region 0's tables
variable (hd0 : ∀ c, pdats 0 c = dat0 (Vin0 m) (a 0) c)
-- the tables' admissible contents are what the tables hold when the region is entered
variable (hpf0 : ∀ c : Dev nD, (fun k => Vin0 m c (pre0.ref k)) = (a 0).1)
-- what the region leaves in its output's array is what its write-backs make of it
variable (houts0 : ∀ c : Dev nD, outs 9 main_v46 c = (dat0 (Vin0 m) (a 0) c).arrAt (9 : Fin 10) (cfg0 (a 0)).N)

/-- The invariant with the two scratch buffers as plain points-tos. -/
theorem Phi0_eq (V : (c : Dev nD) → (b : Ref sig .tc) → Buf (Elt F) ((c : Thread nD τ).loc b)) (a0 : (pcfg0 (F := F)).Adm) (c : Dev nD) (n : ℕ) :
    Phi0 V a0 c n = iprop(Pipeline.prefHeld pre0 c (fun _ => fullShare) a0.1
      ∗ (∃ x14 : Vec F S10240x128 .f32, ⌜n ≠ 0 → x14 = accAt0 V a0 c n⌝ ∗ (((c : Thread nD τ).loc cc0_scratch0) ↦{fullShare} x14))
      ∗ (∃ d : Buf (Elt F) ((c : Thread nD τ).loc cc0_scratch1), ((c : Thread nD τ).loc cc0_scratch1) ↦{fullShare} d)
      ∗ Pipeline.scopedRestBut spec0 c [cc0_scratch0, cc0_scratch1]
      ∗ (∃ r, prngReg c r)) := by
  unfold Phi0; simp only [owns_whole]

/-- Entering: the tables, the scoped rest and the generator register make the invariant before the first point. -/
theorem hin0 (V : (c : Dev nD) → (b : Ref sig .tc) → Buf (Elt F) ((c : Thread nD τ).loc b)) (a0 : (pcfg0 (F := F)).Adm) (c : Dev nD) :
    iprop((∃ r, prngReg c r) ∗ Pipeline.prefHeld pre0 c (fun _ => fullShare) a0.1 ∗ Pipeline.scopedRest spec0 c)
      ⊢ (Phi0 V a0 c 0 : sProp 𝕄) := by
  rw [Phi0_eq, scopedRest0_split]
  iintro ⟨Hg, Hpf, ⟨⟨%f0, H0⟩, H1⟩, HR⟩
  isplitl [Hpf]; · iexact Hpf
  isplitl [H0]
  · iexists f0; isplitr; · ipureintro; exact fun h => absurd rfl h
    iexact H0
  isplitl [H1]; · iexact H1
  isplitl [HR]; · iexact HR
  iexact Hg

/-- Leaving: the invariant gives the register and the tables back, and the scoped rest with the scratch at anything. -/
theorem hout0 (V : (c : Dev nD) → (b : Ref sig .tc) → Buf (Elt F) ((c : Thread nD τ).loc b)) (a0 : (pcfg0 (F := F)).Adm) (c : Dev nD) (n : ℕ) :
    (Phi0 V a0 c n : sProp 𝕄)
      ⊢ iprop(((∃ r, prngReg c r) ∗ Pipeline.prefHeld pre0 c (fun _ => fullShare) a0.1) ∗ Pipeline.scopedRest spec0 c) := by
  rw [Phi0_eq, scopedRest0_split]
  iintro ⟨Hpf, ⟨%x14, -, H0⟩, H1, HR, Hg⟩
  isplitl [Hg Hpf]
  · isplitl [Hg]; · iexact Hg
    iexact Hpf
  isplitl [H0 H1]
  · isplitl [H0]; · iexists x14; iexact H0
    iexact H1
  iexact HR

/-- Every window but the last is an input, and no input's array is the output's. -/
theorem inputs0 : ∀ w : Fin 10, w ≠ (9 : Fin 10) → (spec0 w).isOut = false ∧ Pipeline.arrRef spec0 w ∉ ([main_v46] : List (Ref sig .tc)) := by
  decide

/-- At the region's exit each of its arrays holds what the pipeline leaves: an input its entry contents, the output what
    its write-backs make of it, which is the region's unknown `outs 9 main_v46`. -/
theorem hF0 (c : Dev nD) (houts0 : outs 9 main_v46 c = (dat0 (Vin0 m) (a 0) c).arrAt (9 : Fin 10) (cfg0 (a 0)).N) :
    ∀ w : Fin 10, (dat0 (Vin0 m) (a 0) c).arrAt w (cfg0 (a 0)).N = Vout0 m outs c (Pipeline.arrRef spec0 w) := by
  intro w
  by_cases hw : w = (9 : Fin 10)
  · subst hw
    refine houts0.symm.trans ?_
    show _ = Function.update (Win0 m c) _ _ _
    rw [Function.update_self]
  · obtain ⟨hin, hne⟩ := inputs0 w hw
    exact ((dat0 (Vin0 m) (a 0) c).arrAt_in w hin _).trans ((A_eq0 (Vin0 m) (a 0) c w).trans (V9_of m outs c _ hne).symm)

/-- Every buffer that is no array of the region is left as entered. -/
theorem hrest0 (c : Dev nD) : ∀ b, b ∉ Finset.univ.image (Pipeline.arrRef spec0) → Vout0 m outs c b = Vin0 m c b := fun b hb =>
  V9_of m outs c b fun hmem => hb (Finset.mem_image.mpr ⟨(9 : Fin 10), Finset.mem_univ _, (List.mem_singleton.mp hmem).symm⟩)

include hd0 hpf0 houts0 in
-- the entry and exit lemmas speak of the pinned configuration `pin pcs a p`, which is the printed configuration
-- `cfg0 a` by the definitions of both
set_option backward.isDefEq.respectTransparency.types false in
/-- REGION 0 as a segment. It is entered holding every unscoped buffer at its contents after the preceding host
    operations, together with the rest state (the generator register, nothing owed); it is left holding the same, the
    output's array now at the region's unknown. On entry the region's arrays and its two tables are separated from the
    other unscoped buffers, and on exit they are joined again; the generator register and the tables pass through the
    invariant; nothing is owed at any point; the kernel has no semaphore of its own. -/
def reg0 : Pipeline.RegionSeg (pcfgs (F := F)) a pdats () defs₀ Variants.none Lz lvz 0 where
  win := winFacts0.to₀
  block_pos := block_pos0
  stage_whole := stage_whole0
  K := PEmpty
  osem k := k.elim
  ho := Pipeline.OwnSemFacts.none _
  hbody c := by rw [hd0 c]; exact (body_obligation0 (Vin0 m) (a 0) c).loose
  hwaits := Pipeline.hwaits_of_owed_zero _ _ _ _ Lz lvz 0 fun c t => by rw [hd0 c]; rfl
  pre c := iprop(StableHlo.held (c : Thread nD τ) (Pipeline.ucRefs τ sig) (Win0 m c) ∗ Rest c)
  post c := iprop(StableHlo.held (c : Thread nD τ) (Pipeline.ucRefs τ sig) (Wout0 m outs c) ∗ Rest c)
  X c := iprop(∃ r, prngReg c r)
  Y c := iprop((∃ r, prngReg c r) ∗ Pipeline.prefHeld pre0 c (fun _ => fullShare) (a 0).1)
  Z c := Pipeline.unscopedRestP (Ix := Unit) (Name := ℕ) (U := Pipeline.UD sig nD τ) (Lvl := ℕ) pre0 spec0 c (Vin0 m c)
  hentry c := by
    rw [Pipeline.ownSems0_none]
    have hsplit := Pipeline.arrays_of_unscopedBufs (p := 0) (pcfgs (F := F)) a pdats winFacts0 arr_whole0 c
      ((pdats 0 c).share_full fun w => by rw [hd0 c]; rfl) (Vin0 m c) fun w => by rw [hd0 c]; rfl
    rw [Pipeline.unscopedBufs_held, Pipeline.unscopedRest_split (win := (Pipeline.pin (pcfgs (F := F)) a 0).spec) (pre := pre0) preFacts0 c (Vin0 m c), hpf0 c] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · rw [hd0 c]
      unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hd0 c, show (dat0 (Vin0 m) (a 0) c).Φ 0 = Phi0 (Vin0 m) (a 0) c 0 from by dsimp only [dat0]; simp only [Fin.val_zero]]
    exact hin0 (Vin0 m) (a 0) c
  hout c := by
    rw [hd0 c, Pipeline.ownSems0_none, show (dat0 (Vin0 m) (a 0) c).Φ (Fin.last (Pipeline.pin (pcfgs (F := F)) a 0).N) = Phi0 (Vin0 m) (a 0) c (Pipeline.pin (pcfgs (F := F)) a 0).N from by dsimp only [dat0]; simp only [Fin.val_last]]
    iintro H
    ihave H' := (hout0 (Vin0 m) (a 0) c _) $$ H
    icases H' with ⟨HY, HS⟩
    isplitl [HY]; · iexact HY
    isplitr; · iempintro
    iexact HS
  hexit c := by
    have hjoin := Pipeline.unscopedBufs_of_arrays (p := 0) (pcfgs (F := F)) a (Ix := Unit) (Name := ℕ) (U := Pipeline.UD sig nD τ) (Lvl := ℕ)
      winFacts0 arr_whole0 c pdats ((pdats 0 c).share_full fun w => by rw [hd0 c]; rfl)
      (Vin0 m c) (Vout0 m outs c) ((pdats 0 c).arrAt · (cfg0 (a 0)).N)
      (by rw [hd0 c]; exact hF0 m outs a c (houts0 c)) (hrest0 m outs c)
    rw [Pipeline.unscopedBufs_held, Pipeline.unscopedRest_split (win := (Pipeline.pin (pcfgs (F := F)) a 0).spec) (pre := pre0) preFacts0 c (Vin0 m c), hpf0 c] at hjoin
    iintro ⟨Ha, HO, ⟨HY, Hpf⟩, Hrest⟩
    imodintro
    isplitl [Ha Hpf Hrest]
    · iapply hjoin
      isplitl [Ha]; · iexact Ha
      isplitl [Hpf]; · iexact Hpf
      iexact Hrest
    isplitl [HY]; · iexact HY
    rw [hd0 c]
    unfold Pipeline.Dat.owesAt Pipeline.owesWithin
    icases HO with ⟨%W, -, HO⟩; iexists W; iexact HO

/-- The record is entered from, and left at, the program's thread states around region 0, as they stand. -/
theorem hpre0 (c : Dev nD) :
    iprop(StableHlo.held (c : Thread nD τ) (Pipeline.ucRefs τ sig) (Win0 m c) ∗ Rest (F := F) c)
      ⊢ (reg0 m outs a pdats hd0 hpf0 houts0).pre c := .rfl
theorem hpost0 (c : Dev nD) :
    (reg0 m outs a pdats hd0 hpf0 houts0).post c
      ⊢ iprop(StableHlo.held (c : Thread nD τ) (Pipeline.ucRefs τ sig) (Wout0 m outs c) ∗ Rest (F := F) c) := .rfl

end Seg0

end Cert.Kernel.Gen

end
-- ==== Proof.BodyK1.lean ====
import proofs.«414286_j65627100283289_3_alg».proof.Proof.Gen.Kernel.Skeleton
import proofs.«414286_j65627100283289_3_alg».proof.Proof.Gen.Kernel.Launch
import Idealize.ShloMosaic.Lib.Pipeline.Frame
import Idealize.ShloMosaic.Lib.Pipeline.FrameBody
import Idealize.ShloMosaic.Lib.Tactic

/-!
# Region 1's body at one grid point

The body of one EdgeConv layer's kernel on whole staging memrefs, at any grid point `i = (core, tile)`: from the two
chunk-range tables, the tile's source and target columns, the padded node table, the layer's six parameter blocks,
the accumulator as the tile before left it and the two other written buffers at any contents, the body runs to its
end, faults nowhere, hands the eleven buffers it only reads back as they were, and leaves the accumulator, the
target-row scratch and the output's staging buffer at contents that are FUNCTIONS of what it was handed. Those three
functions are not transcribed: they are what the run finds, each conditional taken both ways and its two outcomes
merged under its condition (the reset at the core's first tile, the ten chunk gates of the target-row gather, the
ten of the scatter, the write-out at the core's last tile).
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- What the body leaves in the accumulator (`.1`), in the target-row scratch (`.2.1`) and in the output's staging
    buffer (`.2.2.1`), with the proof that it runs to the continuation holding exactly that. -/
noncomputable def bodyRun1 (c : Dev nD) (i : grid1.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole)
    (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32)
    (f13 : BufTy.Contents (Elt F) arg13.view.ty) (f15 : BufTy.Contents (Elt F) arg15.view.ty) :
    Σ' (g14 : BufTy.Contents (Elt F) arg14.view.ty) (g15 : BufTy.Contents (Elt F) arg15.view.ty),
      { g13 : BufTy.Contents (Elt F) arg13.view.ty //
        ∀ (E : Set ℕ) (K : PUnit → sProp 𝕄),
          iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ (arg13.view.loc (c : Thread nD τ) ↦[arg13.view.set]{fullShare} f13)
            ∗ owns (c : Thread nD τ) arg14 fullShare x14
            ∗ (arg15.view.loc (c : Thread nD τ) ↦[arg15.view.set]{fullShare} f15)
            ∗ (iprop(owns (c : Thread nD τ) arg2 fullShare x2
              ∗ owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ owns (c : Thread nD τ) arg11 fullShare x11
              ∗ owns (c : Thread nD τ) arg12 fullShare x12
              ∗ (arg13.view.loc (c : Thread nD τ) ↦[arg13.view.set]{fullShare} g13)
              ∗ (arg14.view.loc (c : Thread nD τ) ↦[arg14.view.set]{fullShare} g14)
              ∗ (arg15.view.loc (c : Thread nD τ) ↦[arg15.view.set]{fullShare} g15)) -∗ K ⟨⟩))
          ⊢ wp frame (wpE (defs₀ (F := F)) Variants.none c none) E (cc1__edgeconv_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc1__edgeconv_kernel_eq_skeleton]; unfold cc1__edgeconv_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, H13, ⟨%f14, %hf14, H14⟩, H15, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg14.eq_unread hf14
    sl_exec!
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexact H13
    isplitl [H14]; · iexact H14
    iexact H15

end Cert.Kernel.Gen

end
-- ==== Proof.StepDefsK1.lean ====
import proofs.«414286_j65627100283289_3_alg».proof.Proof.Gen.Kernel.Skeleton
import proofs.«414286_j65627100283289_3_alg».proof.Proof.GateWord
import proofs.«414286_j65627100283289_3_alg».proof.Proof.LibGatedRmw
import Idealize.ShloMosaic.Lib.Pipeline.FrameBody

/-!
# Region 1's body as functions of the values it is handed

What one run of the body at grid point `i = (core, tile)` leaves in the accumulator, written without a memref and without
any buffer's old raw contents: from the two chunk-range tables, the tile's source and target columns, the padded node
table, the six parameter blocks and the accumulator as the tile before left it.

* the two table words of the tile, `lo` and `hi`, and from them the ten gate words `lo ≤ k ≤ hi`;
* the target rows' gather `xi1`: zero, then for each chunk `k` of 1024 nodes, under its gate, the one-hot product of
  the target column against the chunk's rows added on;
* the source rows' gather `xj1`: the ten one-hot products added up, no gate;
* the perceptron's hidden row `hid1` and the messages `msg1`;
* the accumulator: reset to zero at the core's first tile, then for each chunk under its gate the chunk's rows replaced
  by themselves plus the transposed one-hot product with the messages.

Each step is spelt through the generated payload that computes it, so that the body's run and these functions meet
name by name.
-/

noncomputable section

namespace Cert.Kernel.Gen

open Idealize.ShloMosaic Idealize.ShloMosaic.GatedRmw

variable {F : FTy → Type} [FloatOps F]

/-- The tile's entry of the first table: the least chunk its targets fall in. -/
def loW1 (i : grid1.Coords) (x2 : Vec F S1250 .i32) : BitVec 32 :=
  View.ld x2 (Rect.unit (s := S1250) (k1_off1 i) S1.size (k1_off1_inb i))
    (Shape.Idx.first (lt_of_lt_of_eq Nat.one_pos numel1_S1.symm))

/-- The tile's entry of the second table: the greatest chunk its targets fall in. -/
def hiW1 (i : grid1.Coords) (x3 : Vec F S1250 .i32) : BitVec 32 :=
  View.ld x3 (Rect.unit (s := S1250) (k1_off1 i) S1.size (k1_off1_inb i))
    (Shape.Idx.first (lt_of_lt_of_eq Nat.one_pos numel1_S1.symm))

/-- The word "this is the core's first tile". -/
def firstW1 (i : grid1.Coords) : BitVec 1 :=
  Scalar.cmpi .ne (Scalar.extui (Scalar.cmpi .eq (BitVec.ofNat 32 (i 1).val) 0#32)) 0#32

/-- One gated step of the target rows' gather: under the gate the step's payload of the rows so far. -/
def xiStep1 (g : BitVec 1) (pay : Vec F S256x128 .f32 → FVec F S256x128 .f32) (X : Vec F S256x128 .f32) : Vec F S256x128 .f32 :=
  if g = 1#1 then pay X else X

/-- The target rows the tile gathers: zero, then chunk by chunk under the gates. -/
def xi1 (i : grid1.Coords) (x2 x3 : Vec F S1250 .i32) (x5 : Vec F S256x1 .i32) (x6 : Vec F S10240x128 .f32) :
    Vec F S256x128 .f32 :=
  (xiStep1 (Cert.Spec.gateWord (loW1 i x2) (hiW1 i x3) 9#32) (k1_pay22 (k1_pay3 x5) (View.ld x6 (Rect.unit (s := S10240x128) ![9216, 0] S1024x128.size inb_S10240x128_S1024x128_9216_0)))
      (xiStep1 (Cert.Spec.gateWord (loW1 i x2) (hiW1 i x3) 8#32) (k1_pay21 (k1_pay3 x5) (View.ld x6 (Rect.unit (s := S10240x128) ![8192, 0] S1024x128.size inb_S10240x128_S1024x128_8192_0)))
      (xiStep1 (Cert.Spec.gateWord (loW1 i x2) (hiW1 i x3) 7#32) (k1_pay20 (k1_pay3 x5) (View.ld x6 (Rect.unit (s := S10240x128) ![7168, 0] S1024x128.size inb_S10240x128_S1024x128_7168_0)))
      (xiStep1 (Cert.Spec.gateWord (loW1 i x2) (hiW1 i x3) 6#32) (k1_pay19 (k1_pay3 x5) (View.ld x6 (Rect.unit (s := S10240x128) ![6144, 0] S1024x128.size inb_S10240x128_S1024x128_6144_0)))
      (xiStep1 (Cert.Spec.gateWord (loW1 i x2) (hiW1 i x3) 5#32) (k1_pay18 (k1_pay3 x5) (View.ld x6 (Rect.unit (s := S10240x128) ![5120, 0] S1024x128.size inb_S10240x128_S1024x128_5120_0)))
      (xiStep1 (Cert.Spec.gateWord (loW1 i x2) (hiW1 i x3) 4#32) (k1_pay17 (k1_pay3 x5) (View.ld x6 (Rect.unit (s := S10240x128) ![4096, 0] S1024x128.size inb_S10240x128_S1024x128_4096_0)))
      (xiStep1 (Cert.Spec.gateWord (loW1 i x2) (hiW1 i x3) 3#32) (k1_pay16 (k1_pay3 x5) (View.ld x6 (Rect.unit (s := S10240x128) ![3072, 0] S1024x128.size inb_S10240x128_S1024x128_3072_0)))
      (xiStep1 (Cert.Spec.gateWord (loW1 i x2) (hiW1 i x3) 2#32) (k1_pay15 (k1_pay3 x5) (View.ld x6 (Rect.unit (s := S10240x128) ![2048, 0] S1024x128.size inb_S10240x128_S1024x128_2048_0)))
      (xiStep1 (Cert.Spec.gateWord (loW1 i x2) (hiW1 i x3) 1#32) (k1_pay14 (k1_pay3 x5) (View.ld x6 (Rect.unit (s := S10240x128) ![1024, 0] S1024x128.size inb_S10240x128_S1024x128_1024_0)))
      (xiStep1 (Cert.Spec.gateWord (loW1 i x2) (hiW1 i x3) 0#32) (k1_pay13 (k1_pay3 x5) (View.ld x6 (Rect.unit (s := S10240x128) ![0, 0] S1024x128.size inb_S10240x128_S1024x128_0_0)))
      (k1_pay12 (F := F))))))))))))

/-- The source rows the tile gathers: every chunk's one-hot product, added up. -/
def xj1 (x4 : Vec F S256x1 .i32) (x6 : Vec F S10240x128 .f32) : FVec F S256x128 .f32 :=
  k1_pay11
    (k1_pay9 (k1_pay4 x4)
      (k1_pay7 (k1_pay4 x4) (k1_pay5 x4 (View.ld x6 (Rect.unit (s := S10240x128) ![0, 0] S1024x128.size inb_S10240x128_S1024x128_0_0)) (View.ld x6 (Rect.unit (s := S10240x128) ![1024, 0] S1024x128.size inb_S10240x128_S1024x128_1024_0))) (k1_pay6 x4)
        (iota Kind.tc S256x1024 32 [1] iota_S256x1024_d1_w32) (2048#32)
        (View.ld x6 (Rect.unit (s := S10240x128) ![2048, 0] S1024x128.size inb_S10240x128_S1024x128_2048_0)) (View.ld x6 (Rect.unit (s := S10240x128) ![3072, 0] S1024x128.size inb_S10240x128_S1024x128_3072_0)) (View.ld x6 (Rect.unit (s := S10240x128) ![4096, 0] S1024x128.size inb_S10240x128_S1024x128_4096_0)))
      (k1_pay8 (k1_pay4 x4) (View.ld x6 (Rect.unit (s := S10240x128) ![5120, 0] S1024x128.size inb_S10240x128_S1024x128_5120_0)))
      (View.ld x6 (Rect.unit (s := S10240x128) ![6144, 0] S1024x128.size inb_S10240x128_S1024x128_6144_0)) (View.ld x6 (Rect.unit (s := S10240x128) ![7168, 0] S1024x128.size inb_S10240x128_S1024x128_7168_0)) (View.ld x6 (Rect.unit (s := S10240x128) ![8192, 0] S1024x128.size inb_S10240x128_S1024x128_8192_0)))
    (k1_pay10 (k1_pay4 x4))
    (View.ld x6 (Rect.unit (s := S10240x128) ![9216, 0] S1024x128.size inb_S10240x128_S1024x128_9216_0))

/-- The perceptron's first hidden row of every edge of the tile. -/
def hid1 (i : grid1.Coords) (x2 x3 : Vec F S1250 .i32) (x4 x5 : Vec F S256x1 .i32) (x6 : Vec F S10240x128 .f32)
    (x7 : Vec F S256x128 .f32) (x8 : Vec F S1x128 .f32) : FVec F S256x128 .f32 :=
  k1_pay23 (xj1 x4 x6) (xi1 i x2 x3 x5 x6) x7 x8

/-- The message of every edge of the tile. -/
def msg1 (i : grid1.Coords) (x2 x3 : Vec F S1250 .i32) (x4 x5 : Vec F S256x1 .i32) (x6 : Vec F S10240x128 .f32)
    (x7 : Vec F S256x128 .f32) (x8 : Vec F S1x128 .f32) (x9 : Vec F S128x128 .f32) (x10 : Vec F S1x128 .f32)
    (x11 : Vec F S128x128 .f32) (x12 : Vec F S1x128 .f32) : FVec F S256x128 .f32 :=
  k1_pay24 (hid1 i x2 x3 x4 x5 x6 x7 x8) (FloatOps.ofBits FTy.f32 0#32) x9 x10 x11 x12

/-- The accumulator the chunk steps start from: zero at the core's first tile, else what the tile before left. -/
def accReset1 (i : grid1.Coords) (x14 : Vec F S10240x128 .f32) : Vec F S10240x128 .f32 :=
  if firstW1 i = 1#1 then k1_pay2 else x14

/-- One gated chunk step of the scatter: under the gate the chunk's rows replaced by the step's payload of them. -/
def accStep1 (g : BitVec 1) (R : Rect S10240x128) (pay : (R.shape.Idx → Elt F .f32) → (R.shape.Idx → Elt F .f32))
    (A : Vec F S10240x128 .f32) : Vec F S10240x128 .f32 :=
  gatedVal g R pay A

/-- The accumulator after the body at point `i`. -/
def stepAcc1 (i : grid1.Coords) (x2 x3 : Vec F S1250 .i32) (x4 x5 : Vec F S256x1 .i32) (x6 : Vec F S10240x128 .f32)
    (x7 : Vec F S256x128 .f32) (x8 : Vec F S1x128 .f32) (x9 : Vec F S128x128 .f32) (x10 : Vec F S1x128 .f32)
    (x11 : Vec F S128x128 .f32) (x12 : Vec F S1x128 .f32) (x14 : Vec F S10240x128 .f32) : Vec F S10240x128 .f32 :=
  (accStep1 (Cert.Spec.gateWord (loW1 i x2) (hiW1 i x3) 9#32) (Rect.unit (s := S10240x128) ![9216, 0] S1024x128.size inb_S10240x128_S1024x128_9216_0)
      (k1_pay34 (k1_pay3 x5) (msg1 i x2 x3 x4 x5 x6 x7 x8 x9 x10 x11 x12))
      (accStep1 (Cert.Spec.gateWord (loW1 i x2) (hiW1 i x3) 8#32) (Rect.unit (s := S10240x128) ![8192, 0] S1024x128.size inb_S10240x128_S1024x128_8192_0)
      (k1_pay33 (k1_pay3 x5) (msg1 i x2 x3 x4 x5 x6 x7 x8 x9 x10 x11 x12))
      (accStep1 (Cert.Spec.gateWord (loW1 i x2) (hiW1 i x3) 7#32) (Rect.unit (s := S10240x128) ![7168, 0] S1024x128.size inb_S10240x128_S1024x128_7168_0)
      (k1_pay32 (k1_pay3 x5) (msg1 i x2 x3 x4 x5 x6 x7 x8 x9 x10 x11 x12))
      (accStep1 (Cert.Spec.gateWord (loW1 i x2) (hiW1 i x3) 6#32) (Rect.unit (s := S10240x128) ![6144, 0] S1024x128.size inb_S10240x128_S1024x128_6144_0)
      (k1_pay31 (k1_pay3 x5) (msg1 i x2 x3 x4 x5 x6 x7 x8 x9 x10 x11 x12))
      (accStep1 (Cert.Spec.gateWord (loW1 i x2) (hiW1 i x3) 5#32) (Rect.unit (s := S10240x128) ![5120, 0] S1024x128.size inb_S10240x128_S1024x128_5120_0)
      (k1_pay30 (k1_pay3 x5) (msg1 i x2 x3 x4 x5 x6 x7 x8 x9 x10 x11 x12))
      (accStep1 (Cert.Spec.gateWord (loW1 i x2) (hiW1 i x3) 4#32) (Rect.unit (s := S10240x128) ![4096, 0] S1024x128.size inb_S10240x128_S1024x128_4096_0)
      (k1_pay29 (k1_pay3 x5) (msg1 i x2 x3 x4 x5 x6 x7 x8 x9 x10 x11 x12))
      (accStep1 (Cert.Spec.gateWord (loW1 i x2) (hiW1 i x3) 3#32) (Rect.unit (s := S10240x128) ![3072, 0] S1024x128.size inb_S10240x128_S1024x128_3072_0)
      (k1_pay28 (k1_pay3 x5) (msg1 i x2 x3 x4 x5 x6 x7 x8 x9 x10 x11 x12))
      (accStep1 (Cert.Spec.gateWord (loW1 i x2) (hiW1 i x3) 2#32) (Rect.unit (s := S10240x128) ![2048, 0] S1024x128.size inb_S10240x128_S1024x128_2048_0)
      (k1_pay27 (k1_pay3 x5) (hid1 i x2 x3 x4 x5 x6 x7 x8) (FloatOps.ofBits FTy.f32 0#32) x9 x10 x11 x12)
      (accStep1 (Cert.Spec.gateWord (loW1 i x2) (hiW1 i x3) 1#32) (Rect.unit (s := S10240x128) ![1024, 0] S1024x128.size inb_S10240x128_S1024x128_1024_0)
      (k1_pay26 (k1_pay3 x5) (hid1 i x2 x3 x4 x5 x6 x7 x8) (FloatOps.ofBits FTy.f32 0#32) x9 x10 x11 x12)
      (accStep1 (Cert.Spec.gateWord (loW1 i x2) (hiW1 i x3) 0#32) (Rect.unit (s := S10240x128) ![0, 0] S1024x128.size inb_S10240x128_S1024x128_0_0)
      (k1_pay25 (k1_pay3 x5) (hid1 i x2 x3 x4 x5 x6 x7 x8) (FloatOps.ofBits FTy.f32 0#32) x9 x10 x11 x12)
      (accReset1 i x14)))))))))))

end Cert.Kernel.Gen

end
-- ==== Proof.StepK1.lean ====
import proofs.«414286_j65627100283289_3_alg».proof.Proof.BodyK1
import proofs.«414286_j65627100283289_3_alg».proof.Proof.StepDefsK1
import Idealize.ShloMosaic.Lib.Pipeline.Frame
import Idealize.ShloMosaic.Lib.Pipeline.FrameBody
import Idealize.ShloMosaic.Lib.Pipeline.Value
import Idealize.ShloMosaic.Lib.Writes

/-!
# What region 1's body leaves, as the functions of `StepDefsI0`

The run of the body found, for the accumulator, ten nested conditionals: under chunk `k`'s gate the contents so far with
chunk `k`'s rows overwritten by a payload of those same rows as loaded from the contents so far, else the contents so
far; at the bottom the reset under the first tile's condition. Each level is one gated read-modify-write of one
rectangle, and the found term IS that nest, by unfolding. What a gated read-modify-write reads is the gated step on
what the contents before read, so reading the nest gives the same nest on VALUES, each level now mentioning the level
below once: the accumulator step of `StepDefsI0`, once the run's names for the table words, the gates, the gathered
rows, the hidden row and the messages are rewritten as those functions. The target-row scratch is the same story with
the whole buffer as its one rectangle, which is why its old contents never show: every store covers it. The output's
staging buffer is stored once, whole, under the last tile's condition, with the accumulator read back whole.
-/

noncomputable section

namespace Cert.Kernel.Gen

open Idealize.ShloMosaic Idealize.ShloMosaic.TcCoe Idealize.ShloMosaic.GatedRmw

variable {F : FTy → Type} [FloatOps F]

/-! ## The run's contents, level by level, as gated read-modify-writes -/

set_option maxRecDepth 65536 in
/-- The accumulator's raw contents the run found are ten gated read-modify-writes over the reset. -/
theorem acc_raw1 (c : Dev nD) (i : grid1.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    (bodyRun1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).1 = (gatedRmw arg14.view (bodyRun1.sl.v187 c i arg2 harg2 arg3 harg3 x2 x3) (Rect.unit (s := S10240x128) ![9216, 0] S1024x128.size inb_S10240x128_S1024x128_9216_0)
      (fun v => k1_pay34 (bodyRun1.sl.r_2 c arg5 harg5 x5) (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun1.sl.v182 c i arg2 harg2 arg3 harg3 x2 x3) (Rect.unit (s := S10240x128) ![8192, 0] S1024x128.size inb_S10240x128_S1024x128_8192_0)
      (fun v => k1_pay33 (bodyRun1.sl.r_2 c arg5 harg5 x5) (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun1.sl.v177 c i arg2 harg2 arg3 harg3 x2 x3) (Rect.unit (s := S10240x128) ![7168, 0] S1024x128.size inb_S10240x128_S1024x128_7168_0)
      (fun v => k1_pay32 (bodyRun1.sl.r_2 c arg5 harg5 x5) (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun1.sl.v172 c i arg2 harg2 arg3 harg3 x2 x3) (Rect.unit (s := S10240x128) ![6144, 0] S1024x128.size inb_S10240x128_S1024x128_6144_0)
      (fun v => k1_pay31 (bodyRun1.sl.r_2 c arg5 harg5 x5) (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun1.sl.v167 c i arg2 harg2 arg3 harg3 x2 x3) (Rect.unit (s := S10240x128) ![5120, 0] S1024x128.size inb_S10240x128_S1024x128_5120_0)
      (fun v => k1_pay30 (bodyRun1.sl.r_2 c arg5 harg5 x5) (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun1.sl.v162 c i arg2 harg2 arg3 harg3 x2 x3) (Rect.unit (s := S10240x128) ![4096, 0] S1024x128.size inb_S10240x128_S1024x128_4096_0)
      (fun v => k1_pay29 (bodyRun1.sl.r_2 c arg5 harg5 x5) (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun1.sl.v157 c i arg2 harg2 arg3 harg3 x2 x3) (Rect.unit (s := S10240x128) ![3072, 0] S1024x128.size inb_S10240x128_S1024x128_3072_0)
      (fun v => k1_pay28 (bodyRun1.sl.r_2 c arg5 harg5 x5) (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun1.sl.v152 c i arg2 harg2 arg3 harg3 x2 x3) (Rect.unit (s := S10240x128) ![2048, 0] S1024x128.size inb_S10240x128_S1024x128_2048_0)
      (fun v => k1_pay27 (bodyRun1.sl.r_2 c arg5 harg5 x5) (bodyRun1.sl.r_11 c i arg2 harg2 arg3 harg3 arg4 harg4 arg5 harg5 arg6 harg6 arg7 harg7 arg8 harg8 arg15 x2 x3 x4 x5 x6 x7 x8 f15) bodyRun1.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (gatedRmw arg14.view (bodyRun1.sl.v147 c i arg2 harg2 arg3 harg3 x2 x3) (Rect.unit (s := S10240x128) ![1024, 0] S1024x128.size inb_S10240x128_S1024x128_1024_0)
      (fun v => k1_pay26 (bodyRun1.sl.r_2 c arg5 harg5 x5) (bodyRun1.sl.r_11 c i arg2 harg2 arg3 harg3 arg4 harg4 arg5 harg5 arg6 harg6 arg7 harg7 arg8 harg8 arg15 x2 x3 x4 x5 x6 x7 x8 f15) bodyRun1.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (gatedRmw arg14.view (bodyRun1.sl.v142 c i arg2 harg2 arg3 harg3 x2 x3) (Rect.unit (s := S10240x128) ![0, 0] S1024x128.size inb_S10240x128_S1024x128_0_0)
      (fun v => k1_pay25 (bodyRun1.sl.r_2 c arg5 harg5 x5) (bodyRun1.sl.r_11 c i arg2 harg2 arg3 harg3 arg4 harg4 arg5 harg5 arg6 harg6 arg7 harg7 arg8 harg8 arg15 x2 x3 x4 x5 x6 x7 x8 f15) bodyRun1.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (if _hc : bodyRun1.sl.v4 i = 1#1 then arg14.view.writes (Elt F) (harg14.unread x14) [⟨(Rect.unit (s := S10240x128) ![0, 0] S10240x128.size inb_S10240x128_S10240x128_0_0), k1_pay2⟩] else harg14.unread x14))))))))))) := rfl

set_option maxRecDepth 65536 in
/-- The target-row scratch as the hidden layer's load reads it: nine gated read-modify-writes over the first. -/
theorem xi_raw1 (c : Dev nD) (i : grid1.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    (bodyRun1.sl.v188 c i arg2 harg2 arg3 harg3 arg5 harg5 arg6 harg6 arg15 x2 x3 x5 x6 f15) = View.readAt (Elt F) arg15.view (Rect.unit (s := S256x128) ![0, 0] S256x128.size inb_S256x128_S256x128_0_0).toLoadRect (gatedRmw arg15.view (bodyRun1.sl.v187 c i arg2 harg2 arg3 harg3 x2 x3) (Rect.unit (s := S256x128) ![0, 0] S256x128.size inb_S256x128_S256x128_0_0)
      (fun v => k1_pay22 (bodyRun1.sl.r_2 c arg5 harg5 x5) (View.readAt (Elt F) arg6.view (Rect.unit (s := S10240x128) ![9216, 0] S1024x128.size inb_S10240x128_S1024x128_9216_0).toLoadRect (harg6.unread x6)) v)
      (gatedRmw arg15.view (bodyRun1.sl.v182 c i arg2 harg2 arg3 harg3 x2 x3) (Rect.unit (s := S256x128) ![0, 0] S256x128.size inb_S256x128_S256x128_0_0)
      (fun v => k1_pay21 (bodyRun1.sl.r_2 c arg5 harg5 x5) (View.readAt (Elt F) arg6.view (Rect.unit (s := S10240x128) ![8192, 0] S1024x128.size inb_S10240x128_S1024x128_8192_0).toLoadRect (harg6.unread x6)) v)
      (gatedRmw arg15.view (bodyRun1.sl.v177 c i arg2 harg2 arg3 harg3 x2 x3) (Rect.unit (s := S256x128) ![0, 0] S256x128.size inb_S256x128_S256x128_0_0)
      (fun v => k1_pay20 (bodyRun1.sl.r_2 c arg5 harg5 x5) (View.readAt (Elt F) arg6.view (Rect.unit (s := S10240x128) ![7168, 0] S1024x128.size inb_S10240x128_S1024x128_7168_0).toLoadRect (harg6.unread x6)) v)
      (gatedRmw arg15.view (bodyRun1.sl.v172 c i arg2 harg2 arg3 harg3 x2 x3) (Rect.unit (s := S256x128) ![0, 0] S256x128.size inb_S256x128_S256x128_0_0)
      (fun v => k1_pay19 (bodyRun1.sl.r_2 c arg5 harg5 x5) (View.readAt (Elt F) arg6.view (Rect.unit (s := S10240x128) ![6144, 0] S1024x128.size inb_S10240x128_S1024x128_6144_0).toLoadRect (harg6.unread x6)) v)
      (gatedRmw arg15.view (bodyRun1.sl.v167 c i arg2 harg2 arg3 harg3 x2 x3) (Rect.unit (s := S256x128) ![0, 0] S256x128.size inb_S256x128_S256x128_0_0)
      (fun v => k1_pay18 (bodyRun1.sl.r_2 c arg5 harg5 x5) (View.readAt (Elt F) arg6.view (Rect.unit (s := S10240x128) ![5120, 0] S1024x128.size inb_S10240x128_S1024x128_5120_0).toLoadRect (harg6.unread x6)) v)
      (gatedRmw arg15.view (bodyRun1.sl.v162 c i arg2 harg2 arg3 harg3 x2 x3) (Rect.unit (s := S256x128) ![0, 0] S256x128.size inb_S256x128_S256x128_0_0)
      (fun v => k1_pay17 (bodyRun1.sl.r_2 c arg5 harg5 x5) (View.readAt (Elt F) arg6.view (Rect.unit (s := S10240x128) ![4096, 0] S1024x128.size inb_S10240x128_S1024x128_4096_0).toLoadRect (harg6.unread x6)) v)
      (gatedRmw arg15.view (bodyRun1.sl.v157 c i arg2 harg2 arg3 harg3 x2 x3) (Rect.unit (s := S256x128) ![0, 0] S256x128.size inb_S256x128_S256x128_0_0)
      (fun v => k1_pay16 (bodyRun1.sl.r_2 c arg5 harg5 x5) (View.readAt (Elt F) arg6.view (Rect.unit (s := S10240x128) ![3072, 0] S1024x128.size inb_S10240x128_S1024x128_3072_0).toLoadRect (harg6.unread x6)) v)
      (gatedRmw arg15.view (bodyRun1.sl.v152 c i arg2 harg2 arg3 harg3 x2 x3) (Rect.unit (s := S256x128) ![0, 0] S256x128.size inb_S256x128_S256x128_0_0)
      (fun v => k1_pay15 (bodyRun1.sl.r_2 c arg5 harg5 x5) (View.readAt (Elt F) arg6.view (Rect.unit (s := S10240x128) ![2048, 0] S1024x128.size inb_S10240x128_S1024x128_2048_0).toLoadRect (harg6.unread x6)) v)
      (gatedRmw arg15.view (bodyRun1.sl.v147 c i arg2 harg2 arg3 harg3 x2 x3) (Rect.unit (s := S256x128) ![0, 0] S256x128.size inb_S256x128_S256x128_0_0)
      (fun v => k1_pay14 (bodyRun1.sl.r_2 c arg5 harg5 x5) (View.readAt (Elt F) arg6.view (Rect.unit (s := S10240x128) ![1024, 0] S1024x128.size inb_S10240x128_S1024x128_1024_0).toLoadRect (harg6.unread x6)) v)
      (if _hc : (bodyRun1.sl.v142 c i arg2 harg2 arg3 harg3 x2 x3) = 1#1 then arg15.view.writes (Elt F) f15 (⟨(Rect.unit (s := S256x128) ![0, 0] S256x128.size inb_S256x128_S256x128_0_0), k1_pay13 (bodyRun1.sl.r_2 c arg5 harg5 x5) (View.readAt (Elt F) arg6.view (Rect.unit (s := S10240x128) ![0, 0] S1024x128.size inb_S10240x128_S1024x128_0_0).toLoadRect (harg6.unread x6)) (bodyRun1.sl.v277 arg15)⟩ :: bodyRun1.sl.H15_1) else arg15.view.writes (Elt F) f15 bodyRun1.sl.H15_1)))))))))) := rfl

set_option maxRecDepth 65536 in
/-- The write-out's load of the whole accumulator reads the same raw contents. -/
theorem v266_raw1 (c : Dev nD) (i : grid1.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    (bodyRun1.sl.v266 c i arg2 harg2 arg3 harg3 arg4 harg4 arg5 harg5 arg6 harg6 arg7 harg7 arg8 harg8 arg9 harg9 arg10 harg10 arg11 harg11 arg12 harg12 arg14 harg14 arg15 x2 x3 x4 x5 x6 x7 x8 x9 x10 x11 x12 x14 f15) = View.readAt (Elt F) arg14.view (Rect.unit (s := S10240x128) ![0, 0] S10240x128.size inb_S10240x128_S10240x128_0_0).toLoadRect (gatedRmw arg14.view (bodyRun1.sl.v187 c i arg2 harg2 arg3 harg3 x2 x3) (Rect.unit (s := S10240x128) ![9216, 0] S1024x128.size inb_S10240x128_S1024x128_9216_0)
      (fun v => k1_pay34 (bodyRun1.sl.r_2 c arg5 harg5 x5) (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun1.sl.v182 c i arg2 harg2 arg3 harg3 x2 x3) (Rect.unit (s := S10240x128) ![8192, 0] S1024x128.size inb_S10240x128_S1024x128_8192_0)
      (fun v => k1_pay33 (bodyRun1.sl.r_2 c arg5 harg5 x5) (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun1.sl.v177 c i arg2 harg2 arg3 harg3 x2 x3) (Rect.unit (s := S10240x128) ![7168, 0] S1024x128.size inb_S10240x128_S1024x128_7168_0)
      (fun v => k1_pay32 (bodyRun1.sl.r_2 c arg5 harg5 x5) (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun1.sl.v172 c i arg2 harg2 arg3 harg3 x2 x3) (Rect.unit (s := S10240x128) ![6144, 0] S1024x128.size inb_S10240x128_S1024x128_6144_0)
      (fun v => k1_pay31 (bodyRun1.sl.r_2 c arg5 harg5 x5) (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun1.sl.v167 c i arg2 harg2 arg3 harg3 x2 x3) (Rect.unit (s := S10240x128) ![5120, 0] S1024x128.size inb_S10240x128_S1024x128_5120_0)
      (fun v => k1_pay30 (bodyRun1.sl.r_2 c arg5 harg5 x5) (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun1.sl.v162 c i arg2 harg2 arg3 harg3 x2 x3) (Rect.unit (s := S10240x128) ![4096, 0] S1024x128.size inb_S10240x128_S1024x128_4096_0)
      (fun v => k1_pay29 (bodyRun1.sl.r_2 c arg5 harg5 x5) (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun1.sl.v157 c i arg2 harg2 arg3 harg3 x2 x3) (Rect.unit (s := S10240x128) ![3072, 0] S1024x128.size inb_S10240x128_S1024x128_3072_0)
      (fun v => k1_pay28 (bodyRun1.sl.r_2 c arg5 harg5 x5) (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun1.sl.v152 c i arg2 harg2 arg3 harg3 x2 x3) (Rect.unit (s := S10240x128) ![2048, 0] S1024x128.size inb_S10240x128_S1024x128_2048_0)
      (fun v => k1_pay27 (bodyRun1.sl.r_2 c arg5 harg5 x5) (bodyRun1.sl.r_11 c i arg2 harg2 arg3 harg3 arg4 harg4 arg5 harg5 arg6 harg6 arg7 harg7 arg8 harg8 arg15 x2 x3 x4 x5 x6 x7 x8 f15) bodyRun1.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (gatedRmw arg14.view (bodyRun1.sl.v147 c i arg2 harg2 arg3 harg3 x2 x3) (Rect.unit (s := S10240x128) ![1024, 0] S1024x128.size inb_S10240x128_S1024x128_1024_0)
      (fun v => k1_pay26 (bodyRun1.sl.r_2 c arg5 harg5 x5) (bodyRun1.sl.r_11 c i arg2 harg2 arg3 harg3 arg4 harg4 arg5 harg5 arg6 harg6 arg7 harg7 arg8 harg8 arg15 x2 x3 x4 x5 x6 x7 x8 f15) bodyRun1.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (gatedRmw arg14.view (bodyRun1.sl.v142 c i arg2 harg2 arg3 harg3 x2 x3) (Rect.unit (s := S10240x128) ![0, 0] S1024x128.size inb_S10240x128_S1024x128_0_0)
      (fun v => k1_pay25 (bodyRun1.sl.r_2 c arg5 harg5 x5) (bodyRun1.sl.r_11 c i arg2 harg2 arg3 harg3 arg4 harg4 arg5 harg5 arg6 harg6 arg7 harg7 arg8 harg8 arg15 x2 x3 x4 x5 x6 x7 x8 f15) bodyRun1.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (if _hc : bodyRun1.sl.v4 i = 1#1 then arg14.view.writes (Elt F) (harg14.unread x14) [⟨(Rect.unit (s := S10240x128) ![0, 0] S10240x128.size inb_S10240x128_S10240x128_0_0), k1_pay2⟩] else harg14.unread x14))))))))))) := rfl

set_option maxRecDepth 65536 in
/-- The output's staging buffer: one whole store under the last tile's condition. -/
theorem out_raw1 (c : Dev nD) (i : grid1.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    (bodyRun1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).2.2.1 = (if _hc : k1_cond22 i = 1#1 then arg13.view.writes (Elt F) f13 [⟨(Rect.unit (s := S1x10240x128) ![0, 0, 0] S1x10240x128.size inb_S1x10240x128_S1x10240x128_0_0_0), k1_pay1 (bodyRun1.sl.v266 c i arg2 harg2 arg3 harg3 arg4 harg4 arg5 harg5 arg6 harg6 arg7 harg7 arg8 harg8 arg9 harg9 arg10 harg10 arg11 harg11 arg12 harg12 arg14 harg14 arg15 x2 x3 x4 x5 x6 x7 x8 x9 x10 x11 x12 x14 f15)⟩] else f13) := rfl

/-! ## Loads off whole buffers, and the run's names as the functions of `StepDefsI0` -/

/-- A load off a whole buffer held at the raw contents of `X` reads `X` through the rectangle. -/
private theorem readAt_unread_ld1 {sp : Space} {s : Shape} {e : EltTy} (m : Memref sig .tc sp s e) (h : m.IsWhole)
    (X : s.Idx → Elt F e) (R : Rect s) : View.readAt (Elt F) m.view R.toLoadRect (h.unread X) = View.ld X R := by
  rw [View.readAt_eq_ld, h.read_unread]

private theorem ld_w_col1 {Val : EltTy → Type} {e : EltTy} (X : S256x1.Idx → Val e) : View.ld X (Rect.unit (s := S256x1) ![0, 0] S256x1.size inb_S256x1_S256x1_0_0) = X :=
  View.ld_unit_zero (by funext j; fin_cases j <;> rfl) _ X
private theorem ld_w_wA1 {Val : EltTy → Type} {e : EltTy} (X : S256x128.Idx → Val e) : View.ld X (Rect.unit (s := S256x128) ![0, 0] S256x128.size inb_S256x128_S256x128_0_0) = X :=
  View.ld_unit_zero (by funext j; fin_cases j <;> rfl) _ X
private theorem ld_w_bias1 {Val : EltTy → Type} {e : EltTy} (X : S1x128.Idx → Val e) : View.ld X (Rect.unit (s := S1x128) ![0, 0] S1x128.size inb_S1x128_S1x128_0_0) = X :=
  View.ld_unit_zero (by funext j; fin_cases j <;> rfl) _ X
private theorem ld_w_wB1 {Val : EltTy → Type} {e : EltTy} (X : S128x128.Idx → Val e) : View.ld X (Rect.unit (s := S128x128) ![0, 0] S128x128.size inb_S128x128_S128x128_0_0) = X :=
  View.ld_unit_zero (by funext j; fin_cases j <;> rfl) _ X
private theorem ld_w_rows1 {Val : EltTy → Type} {e : EltTy} (X : S256x128.Idx → Val e) : View.ld X (Rect.unit (s := S256x128) ![0, 0] S256x128.size inb_S256x128_S256x128_0_0) = X :=
  View.ld_unit_zero (by funext j; fin_cases j <;> rfl) _ X
private theorem ld_w_acc1 {Val : EltTy → Type} {e : EltTy} (X : S10240x128.Idx → Val e) : View.ld X (Rect.unit (s := S10240x128) ![0, 0] S10240x128.size inb_S10240x128_S10240x128_0_0) = X :=
  View.ld_unit_zero (by funext j; fin_cases j <;> rfl) _ X

/-- A store through the whole-shape rectangle, last, leaves its payload. -/
private theorem read_writes_cons_whole1 {sp : Space} {s : Shape} {e : EltTy} (v : View sig .tc sp s e)
    (f : v.ty.Contents (Elt F)) {off : Fin s.rank → Nat} (h0 : off = fun _ => 0) (inb : ∀ a, off a + s.size a ≤ s.size a)
    (w : (Rect.unit off s.size inb).shape.Idx → Elt F e) (L : List (View.Piece (Elt F) s e)) :
    v.read (Elt F) (v.writes (Elt F) f (⟨Rect.unit off s.size inb, w⟩ :: L)) = w := by
  subst h0
  funext y
  have e1 := View.read_writes_cons_emb v f (Rect.whole s) w L y
  rw [Rect.emb_whole_apply] at e1
  exact e1

private theorem lo_eq1 (c : Dev nD) (i : grid1.Coords) (arg2 : Memref sig .tc .smem S1250 .i32) (harg2 : arg2.IsWhole)
    (x2 : Vec F S1250 .i32) : bodyRun1.sl.r c i arg2 harg2 x2 = loW1 i x2 := by
  unfold bodyRun1.sl.r loW1
  rw [readAt_unread_ld1]

private theorem hi_eq1 (c : Dev nD) (i : grid1.Coords) (arg3 : Memref sig .tc .smem S1250 .i32) (harg3 : arg3.IsWhole)
    (x3 : Vec F S1250 .i32) : bodyRun1.sl.r_1 c i arg3 harg3 x3 = hiW1 i x3 := by
  unfold bodyRun1.sl.r_1 hiW1
  rw [readAt_unread_ld1]

private theorem gate1_0 (c : Dev nD) (i : grid1.Coords) (arg2 : Memref sig .tc .smem S1250 .i32) (harg2 : arg2.IsWhole) (arg3 : Memref sig .tc .smem S1250 .i32) (harg3 : arg3.IsWhole) (x2 x3 : Vec F S1250 .i32) :
    bodyRun1.sl.v142 c i arg2 harg2 arg3 harg3 x2 x3 = Cert.Spec.gateWord (loW1 i x2) (hiW1 i x3) 0#32 := by
  unfold bodyRun1.sl.v142 bodyRun1.sl.v141 bodyRun1.sl.v140 bodyRun1.sl.v138 bodyRun1.sl.v139
  rw [lo_eq1, hi_eq1]; rfl
private theorem gate1_1 (c : Dev nD) (i : grid1.Coords) (arg2 : Memref sig .tc .smem S1250 .i32) (harg2 : arg2.IsWhole) (arg3 : Memref sig .tc .smem S1250 .i32) (harg3 : arg3.IsWhole) (x2 x3 : Vec F S1250 .i32) :
    bodyRun1.sl.v147 c i arg2 harg2 arg3 harg3 x2 x3 = Cert.Spec.gateWord (loW1 i x2) (hiW1 i x3) 1#32 := by
  unfold bodyRun1.sl.v147 bodyRun1.sl.v146 bodyRun1.sl.v145 bodyRun1.sl.v143 bodyRun1.sl.v144
  rw [lo_eq1, hi_eq1]; rfl
private theorem gate1_2 (c : Dev nD) (i : grid1.Coords) (arg2 : Memref sig .tc .smem S1250 .i32) (harg2 : arg2.IsWhole) (arg3 : Memref sig .tc .smem S1250 .i32) (harg3 : arg3.IsWhole) (x2 x3 : Vec F S1250 .i32) :
    bodyRun1.sl.v152 c i arg2 harg2 arg3 harg3 x2 x3 = Cert.Spec.gateWord (loW1 i x2) (hiW1 i x3) 2#32 := by
  unfold bodyRun1.sl.v152 bodyRun1.sl.v151 bodyRun1.sl.v150 bodyRun1.sl.v148 bodyRun1.sl.v149
  rw [lo_eq1, hi_eq1]; rfl
private theorem gate1_3 (c : Dev nD) (i : grid1.Coords) (arg2 : Memref sig .tc .smem S1250 .i32) (harg2 : arg2.IsWhole) (arg3 : Memref sig .tc .smem S1250 .i32) (harg3 : arg3.IsWhole) (x2 x3 : Vec F S1250 .i32) :
    bodyRun1.sl.v157 c i arg2 harg2 arg3 harg3 x2 x3 = Cert.Spec.gateWord (loW1 i x2) (hiW1 i x3) 3#32 := by
  unfold bodyRun1.sl.v157 bodyRun1.sl.v156 bodyRun1.sl.v155 bodyRun1.sl.v153 bodyRun1.sl.v154
  rw [lo_eq1, hi_eq1]; rfl
private theorem gate1_4 (c : Dev nD) (i : grid1.Coords) (arg2 : Memref sig .tc .smem S1250 .i32) (harg2 : arg2.IsWhole) (arg3 : Memref sig .tc .smem S1250 .i32) (harg3 : arg3.IsWhole) (x2 x3 : Vec F S1250 .i32) :
    bodyRun1.sl.v162 c i arg2 harg2 arg3 harg3 x2 x3 = Cert.Spec.gateWord (loW1 i x2) (hiW1 i x3) 4#32 := by
  unfold bodyRun1.sl.v162 bodyRun1.sl.v161 bodyRun1.sl.v160 bodyRun1.sl.v158 bodyRun1.sl.v159
  rw [lo_eq1, hi_eq1]; rfl
private theorem gate1_5 (c : Dev nD) (i : grid1.Coords) (arg2 : Memref sig .tc .smem S1250 .i32) (harg2 : arg2.IsWhole) (arg3 : Memref sig .tc .smem S1250 .i32) (harg3 : arg3.IsWhole) (x2 x3 : Vec F S1250 .i32) :
    bodyRun1.sl.v167 c i arg2 harg2 arg3 harg3 x2 x3 = Cert.Spec.gateWord (loW1 i x2) (hiW1 i x3) 5#32 := by
  unfold bodyRun1.sl.v167 bodyRun1.sl.v166 bodyRun1.sl.v165 bodyRun1.sl.v163 bodyRun1.sl.v164
  rw [lo_eq1, hi_eq1]; rfl
private theorem gate1_6 (c : Dev nD) (i : grid1.Coords) (arg2 : Memref sig .tc .smem S1250 .i32) (harg2 : arg2.IsWhole) (arg3 : Memref sig .tc .smem S1250 .i32) (harg3 : arg3.IsWhole) (x2 x3 : Vec F S1250 .i32) :
    bodyRun1.sl.v172 c i arg2 harg2 arg3 harg3 x2 x3 = Cert.Spec.gateWord (loW1 i x2) (hiW1 i x3) 6#32 := by
  unfold bodyRun1.sl.v172 bodyRun1.sl.v171 bodyRun1.sl.v170 bodyRun1.sl.v168 bodyRun1.sl.v169
  rw [lo_eq1, hi_eq1]; rfl
private theorem gate1_7 (c : Dev nD) (i : grid1.Coords) (arg2 : Memref sig .tc .smem S1250 .i32) (harg2 : arg2.IsWhole) (arg3 : Memref sig .tc .smem S1250 .i32) (harg3 : arg3.IsWhole) (x2 x3 : Vec F S1250 .i32) :
    bodyRun1.sl.v177 c i arg2 harg2 arg3 harg3 x2 x3 = Cert.Spec.gateWord (loW1 i x2) (hiW1 i x3) 7#32 := by
  unfold bodyRun1.sl.v177 bodyRun1.sl.v176 bodyRun1.sl.v175 bodyRun1.sl.v173 bodyRun1.sl.v174
  rw [lo_eq1, hi_eq1]; rfl
private theorem gate1_8 (c : Dev nD) (i : grid1.Coords) (arg2 : Memref sig .tc .smem S1250 .i32) (harg2 : arg2.IsWhole) (arg3 : Memref sig .tc .smem S1250 .i32) (harg3 : arg3.IsWhole) (x2 x3 : Vec F S1250 .i32) :
    bodyRun1.sl.v182 c i arg2 harg2 arg3 harg3 x2 x3 = Cert.Spec.gateWord (loW1 i x2) (hiW1 i x3) 8#32 := by
  unfold bodyRun1.sl.v182 bodyRun1.sl.v181 bodyRun1.sl.v180 bodyRun1.sl.v178 bodyRun1.sl.v179
  rw [lo_eq1, hi_eq1]; rfl
private theorem gate1_9 (c : Dev nD) (i : grid1.Coords) (arg2 : Memref sig .tc .smem S1250 .i32) (harg2 : arg2.IsWhole) (arg3 : Memref sig .tc .smem S1250 .i32) (harg3 : arg3.IsWhole) (x2 x3 : Vec F S1250 .i32) :
    bodyRun1.sl.v187 c i arg2 harg2 arg3 harg3 x2 x3 = Cert.Spec.gateWord (loW1 i x2) (hiW1 i x3) 9#32 := by
  unfold bodyRun1.sl.v187 bodyRun1.sl.v186 bodyRun1.sl.v185 bodyRun1.sl.v183 bodyRun1.sl.v184
  rw [lo_eq1, hi_eq1]; rfl

private theorem first_eq1 (i : grid1.Coords) : bodyRun1.sl.v4 i = firstW1 i := rfl

private theorem r2_eq1 (c : Dev nD) (arg5 : Memref sig .tc .vmem S256x1 .i32) (harg5 : arg5.IsWhole) (x5 : Vec F S256x1 .i32) :
    bodyRun1.sl.r_2 c arg5 harg5 x5 = k1_pay3 x5 := by
  unfold bodyRun1.sl.r_2
  rw [readAt_unread_ld1, ld_w_col1]

private theorem xj_eq1 (c : Dev nD) (arg4 : Memref sig .tc .vmem S256x1 .i32) (harg4 : arg4.IsWhole)
    (arg6 : Memref sig .tc .vmem S10240x128 .f32) (harg6 : arg6.IsWhole) (x4 : Vec F S256x1 .i32) (x6 : Vec F S10240x128 .f32) :
    bodyRun1.sl.r_10 c arg4 harg4 arg6 harg6 x4 x6 = xj1 x4 x6 := by
  unfold bodyRun1.sl.r_10 bodyRun1.sl.r_9 bodyRun1.sl.r_8 bodyRun1.sl.r_7 bodyRun1.sl.r_6 bodyRun1.sl.r_5 bodyRun1.sl.r_4
    bodyRun1.sl.r_3 bodyRun1.sl.v39 xj1
  simp only [readAt_unread_ld1]
  rw [ld_w_col1 x4]

private theorem v277_eq1 (arg15 : Memref sig .tc .vmem S256x128 .f32) :
    bodyRun1.sl.v277 (F := F) arg15 = k1_pay12 := by
  unfold bodyRun1.sl.v277 bodyRun1.sl.H15_1
  exact View.readCov_unit_zero _ (by funext j; fin_cases j <;> rfl) _ _

/-- The first gated step of the target rows' gather, whose store the run listed with the zero fill. -/
private theorem read_xi_first1 (arg15 : Memref sig .tc .vmem S256x128 .f32) (g : BitVec 1)
    (f15 : BufTy.Contents (Elt F) arg15.view.ty) (w : ((Rect.unit (s := S256x128) ![0, 0] S256x128.size inb_S256x128_S256x128_0_0).shape.Idx → Elt F .f32) → ((Rect.unit (s := S256x128) ![0, 0] S256x128.size inb_S256x128_S256x128_0_0).shape.Idx → Elt F .f32)) :
    arg15.view.read (Elt F) (if _hc : g = 1#1 then arg15.view.writes (Elt F) f15 (⟨(Rect.unit (s := S256x128) ![0, 0] S256x128.size inb_S256x128_S256x128_0_0), w (bodyRun1.sl.v277 arg15)⟩ :: bodyRun1.sl.H15_1) else arg15.view.writes (Elt F) f15 bodyRun1.sl.H15_1)
      = xiStep1 g w k1_pay12 := by
  unfold xiStep1
  by_cases h : g = 1#1
  · rw [dif_pos h, if_pos h, read_writes_cons_whole1 _ _ (by funext j; fin_cases j <;> rfl), v277_eq1]
  · rw [dif_neg h, if_neg h]
    unfold bodyRun1.sl.H15_1
    rw [read_writes_cons_whole1 _ _ (by funext j; fin_cases j <;> rfl)]

/-- A later gated step of it. -/
private theorem read_xi_step1 (arg15 : Memref sig .tc .vmem S256x128 .f32) (g : BitVec 1)
    (w : ((Rect.unit (s := S256x128) ![0, 0] S256x128.size inb_S256x128_S256x128_0_0).shape.Idx → Elt F .f32) → ((Rect.unit (s := S256x128) ![0, 0] S256x128.size inb_S256x128_S256x128_0_0).shape.Idx → Elt F .f32)) (D : BufTy.Contents (Elt F) arg15.view.ty) :
    arg15.view.read (Elt F) (gatedRmw arg15.view g (Rect.unit (s := S256x128) ![0, 0] S256x128.size inb_S256x128_S256x128_0_0) w D) = xiStep1 g w (arg15.view.read (Elt F) D) := by
  rw [read_gatedRmw, gatedVal_whole (by funext j; fin_cases j <;> rfl)]
  rfl

theorem xi_eq1 (c : Dev nD) (i : grid1.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) : (bodyRun1.sl.v188 c i arg2 harg2 arg3 harg3 arg5 harg5 arg6 harg6 arg15 x2 x3 x5 x6 f15) = xi1 i x2 x3 x5 x6 := by
  rw [xi_raw1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, View.readAt_eq_ld, ld_w_rows1]
  rw [read_xi_step1, read_xi_step1, read_xi_step1, read_xi_step1, read_xi_step1, read_xi_step1, read_xi_step1, read_xi_step1, read_xi_step1, read_xi_first1]
  simp only [gate1_0, gate1_1, gate1_2, gate1_3, gate1_4, gate1_5, gate1_6, gate1_7, gate1_8, gate1_9, r2_eq1, readAt_unread_ld1]
  rfl

theorem hid_eq1 (c : Dev nD) (i : grid1.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) : (bodyRun1.sl.r_11 c i arg2 harg2 arg3 harg3 arg4 harg4 arg5 harg5 arg6 harg6 arg7 harg7 arg8 harg8 arg15 x2 x3 x4 x5 x6 x7 x8 f15) = hid1 i x2 x3 x4 x5 x6 x7 x8 := by
  unfold bodyRun1.sl.r_11 hid1
  rw [xi_eq1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, xj_eq1, readAt_unread_ld1, readAt_unread_ld1, ld_w_wA1 x7, ld_w_bias1 x8]

theorem msg_eq1 (c : Dev nD) (i : grid1.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) : (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) = msg1 i x2 x3 x4 x5 x6 x7 x8 x9 x10 x11 x12 := by
  unfold bodyRun1.sl.r_12 msg1
  rw [hid_eq1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15]
  simp only [readAt_unread_ld1]
  rw [ld_w_wB1 x9, ld_w_bias1 x10, ld_w_wB1 x11, ld_w_bias1 x12]
  rfl

private theorem read_accBase1 (i : grid1.Coords) (arg14 : Memref sig .tc .vmem S10240x128 .f32) (harg14 : arg14.IsWhole)
    (x14 : Vec F S10240x128 .f32) :
    arg14.view.read (Elt F) (if _hc : bodyRun1.sl.v4 i = 1#1 then arg14.view.writes (Elt F) (harg14.unread x14) [⟨(Rect.unit (s := S10240x128) ![0, 0] S10240x128.size inb_S10240x128_S10240x128_0_0), k1_pay2⟩] else harg14.unread x14) = accReset1 i x14 := by
  unfold accReset1
  rw [first_eq1]
  by_cases h : firstW1 i = 1#1
  · rw [dif_pos h, if_pos h, read_writes_cons_whole1 _ _ (by funext j; fin_cases j <;> rfl)]
  · rw [dif_neg h, if_neg h, harg14.read_unread]

/-! ## The four facts -/

/-- The accumulator the body leaves reads `stepAcc1` of what the body was handed. -/
theorem bodyRun1_acc (c : Dev nD) (i : grid1.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    arg14.view.read (Elt F) (bodyRun1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).1 = stepAcc1 i x2 x3 x4 x5 x6 x7 x8 x9 x10 x11 x12 x14 := by
  rw [acc_raw1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15]
  simp only [read_gatedRmw]
  rw [read_accBase1]
  simp only [gate1_0, gate1_1, gate1_2, gate1_3, gate1_4, gate1_5, gate1_6, gate1_7, gate1_8, gate1_9, r2_eq1, hid_eq1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, msg_eq1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, readAt_unread_ld1]
  rw [ld_w_wB1 x9, ld_w_bias1 x10, ld_w_wB1 x11, ld_w_bias1 x12]
  rfl

/-- At the core's last tile the output's staging buffer holds the accumulator the body leaves, as a [1, 10240, 128] array. -/
theorem bodyRun1_out_flush (c : Dev nD) (i : grid1.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) (h : k1_cond22 i = 1#1) :
    arg13.view.read (Elt F) (bodyRun1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).2.2.1 = k1_pay1 (stepAcc1 i x2 x3 x4 x5 x6 x7 x8 x9 x10 x11 x12 x14) := by
  rw [out_raw1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, dif_pos h, read_writes_cons_whole1 _ _ (by funext j; fin_cases j <;> rfl), v266_raw1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15,
    View.readAt_eq_ld, ld_w_acc1, ← acc_raw1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, bodyRun1_acc c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15]

/-- At any other tile the body leaves it as it was. -/
theorem bodyRun1_out_idle (c : Dev nD) (i : grid1.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) (h : ¬ k1_cond22 i = 1#1) :
    (bodyRun1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).2.2.1 = f13 := by
  rw [out_raw1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, dif_neg h]

/-- At a core's first tile the accumulator is reset before anything reads it: what the tile before left does not matter. -/
theorem stepAcc1_first (i : grid1.Coords) (h : (i 1).val = 0) (x2 x3 : Vec F S1250 .i32) (x4 x5 : Vec F S256x1 .i32)
    (x6 : Vec F S10240x128 .f32) (x7 : Vec F S256x128 .f32) (x8 : Vec F S1x128 .f32) (x9 : Vec F S128x128 .f32)
    (x10 : Vec F S1x128 .f32) (x11 : Vec F S128x128 .f32) (x12 : Vec F S1x128 .f32) (x14 x14' : Vec F S10240x128 .f32) :
    stepAcc1 i x2 x3 x4 x5 x6 x7 x8 x9 x10 x11 x12 x14 = stepAcc1 i x2 x3 x4 x5 x6 x7 x8 x9 x10 x11 x12 x14' := by
  have hf : firstW1 i = 1#1 := by
    unfold firstW1
    rw [h]
    rfl
  have e : ∀ x : Vec F S10240x128 .f32, accReset1 i x = k1_pay2 := fun x => if_pos hf
  unfold stepAcc1
  rw [e x14, e x14']

end Cert.Kernel.Gen

end
-- ==== Proof.RegionDataK1.lean ====
import proofs.«414286_j65627100283289_3_alg».proof.Proof.Gen.Kernel.Launch
import proofs.«414286_j65627100283289_3_alg».proof.Proof.Gen.Kernel.Skeleton
import proofs.«414286_j65627100283289_3_alg».proof.Proof.BodyK1
import proofs.«414286_j65627100283289_3_alg».proof.Proof.StepDefsK1
import proofs.«414286_j65627100283289_3_alg».proof.Proof.StepK1
import Idealize.ShloMosaic.Lib.Pipeline.Frame
import Idealize.ShloMosaic.Lib.Pipeline.FrameBody
import Idealize.ShloMosaic.Lib.Tactic

/-!
# Region 1's proof data and body obligation

Region 1 is the first EdgeConv layer's kernel: a grid of 2 cores × 625 tiles, two prefetched tables (each tile's lowest
and highest target chunk), ten windows (the tile's source and target columns, the padded node table, six parameter
blocks, and one output block per core) and two scratch buffers: the accumulator, carried from tile to tile within a
core, and the target rows, overwritten at every tile.

The proof data name what every staging buffer holds after the body at every point: an input its block; the output the
accumulator after the point, in the output's shape (read only at a core's last tile, where the block is written back;
at every other tile the body leaves the output's buffer as it found it). The invariant carries the accumulator at the
contents `accAt1 n`, the fold of the body's step `stepAcc1` over the points before `n`; the step at a core's first
tile does not read what it finds, so the fold's start is immaterial. The body's own run and the facts about what it
leaves come from the body's modules.

-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 1 (custom_call 0, pipeline 0): its proof data at the entry contents `V` and the tables' contents `a` -/

section Region1

-- the TensorCore's buffer contents when the region is entered, and the admissible contents of the two prefetched tables
variable (V : (c : Dev nD) → (b : Ref sig .tc) → Buf (Elt F) ((c : Thread nD τ).loc b))
variable (a : (pcfg1 (F := F)).Adm)

/-! ## The schedule: the staging memrefs at a point, and the body as the pipeline calls it -/

/-- Each window's current staging memref at point `t`, spelled as the pipeline passes it, and its wholeness. The index
    maps do not read the tables, so nothing here evaluates `a`. -/
abbrev ms1_0 (t : Fin (cfg1 a).N) := spec1_0.stage ((cfg1 a).slots t 0)
abbrev hs1_0 (t : Fin (cfg1 a).N) : (ms1_0 a t).IsWhole := hstage1_0 (((cfg1 a).slots t 0).cast nbuf1_0)
abbrev ms1_1 (t : Fin (cfg1 a).N) := spec1_1.stage ((cfg1 a).slots t 1)
abbrev hs1_1 (t : Fin (cfg1 a).N) : (ms1_1 a t).IsWhole := hstage1_1 (((cfg1 a).slots t 1).cast nbuf1_1)
abbrev ms1_2 (t : Fin (cfg1 a).N) := spec1_2.stage ((cfg1 a).slots t 2)
abbrev hs1_2 (t : Fin (cfg1 a).N) : (ms1_2 a t).IsWhole := hstage1_2 (((cfg1 a).slots t 2).cast nbuf1_2)
abbrev ms1_3 (t : Fin (cfg1 a).N) := spec1_3.stage ((cfg1 a).slots t 3)
abbrev hs1_3 (t : Fin (cfg1 a).N) : (ms1_3 a t).IsWhole := hstage1_3 (((cfg1 a).slots t 3).cast nbuf1_3)
abbrev ms1_4 (t : Fin (cfg1 a).N) := spec1_4.stage ((cfg1 a).slots t 4)
abbrev hs1_4 (t : Fin (cfg1 a).N) : (ms1_4 a t).IsWhole := hstage1_4 (((cfg1 a).slots t 4).cast nbuf1_4)
abbrev ms1_5 (t : Fin (cfg1 a).N) := spec1_5.stage ((cfg1 a).slots t 5)
abbrev hs1_5 (t : Fin (cfg1 a).N) : (ms1_5 a t).IsWhole := hstage1_5 (((cfg1 a).slots t 5).cast nbuf1_5)
abbrev ms1_6 (t : Fin (cfg1 a).N) := spec1_6.stage ((cfg1 a).slots t 6)
abbrev hs1_6 (t : Fin (cfg1 a).N) : (ms1_6 a t).IsWhole := hstage1_6 (((cfg1 a).slots t 6).cast nbuf1_6)
abbrev ms1_7 (t : Fin (cfg1 a).N) := spec1_7.stage ((cfg1 a).slots t 7)
abbrev hs1_7 (t : Fin (cfg1 a).N) : (ms1_7 a t).IsWhole := hstage1_7 (((cfg1 a).slots t 7).cast nbuf1_7)
abbrev ms1_8 (t : Fin (cfg1 a).N) := spec1_8.stage ((cfg1 a).slots t 8)
abbrev hs1_8 (t : Fin (cfg1 a).N) : (ms1_8 a t).IsWhole := hstage1_8 (((cfg1 a).slots t 8).cast nbuf1_8)
abbrev ms1_9 (t : Fin (cfg1 a).N) := spec1_9.stage ((cfg1 a).slots t 9)
abbrev hs1_9 (t : Fin (cfg1 a).N) : (ms1_9 a t).IsWhole := hstage1_9 (((cfg1 a).slots t 9).cast nbuf1_9)

/-- The body at point `t`: the two tables whole, the ten windows' current staging memrefs, the two scratch buffers whole. -/
abbrev bodyAt1 (t : Fin (cfg1 a).N) :=
  cc1__edgeconv_kernel (F := F) (grid1.coords t) (Memref.whole main_v31) (Memref.isWhole_whole _) (Memref.whole main_v39) (Memref.isWhole_whole _)
    (ms1_0 a t) (hs1_0 a t) (ms1_1 a t) (hs1_1 a t) (ms1_2 a t) (hs1_2 a t) (ms1_3 a t) (hs1_3 a t) (ms1_4 a t) (hs1_4 a t) (ms1_5 a t) (hs1_5 a t) (ms1_6 a t) (hs1_6 a t) (ms1_7 a t) (hs1_7 a t) (ms1_8 a t) (hs1_8 a t) (ms1_9 a t) (hs1_9 a t)
    (Memref.whole cc1_scratch0) (Memref.isWhole_whole _) (Memref.whole cc1_scratch1) (Memref.isWhole_whole _)

/-- It is what the body table runs at the pipeline's argument for the point. -/
theorem bodyAt1_eq (t : Fin (cfg1 a).N) :
    defs₀ (F := F) .tc (cfg1 a).body ((cfg1 a).bodyArgs t ((cfg1 a).slots t)) = bodyAt1 a t := rfl

/-- The output window is written back exactly where the body's last conditional fires: elsewhere no write-back. -/
theorem wbClosed1_9 : ∀ t : Fin grid1.N, k1_cond22 (grid1.coords t) = 1#1 ∨
    (t.val + 1 = grid1.N || decide (∃ h : t.val + 1 < grid1.N, cc1_transform_9 (grid1.coords ⟨t.val + 1, h⟩) ≠ cc1_transform_9 (grid1.coords t))) = false := by
  decide +kernel

theorem flushNot1_9 (t : Fin (cfg1 a).N) (h : ¬ k1_cond22 (grid1.coords t) = 1#1) : ((cfg1 a).win (9 : Fin 10)).flush t = false := by
  have := (wbClosed1_9 t).resolve_left h
  show (true && _) = false
  rw [Bool.true_and]; exact this

/-- Where the conditional fires the window is live, elsewhere idle. -/
theorem idleLive1_9 (t : Fin (cfg1 a).N) (h : k1_cond22 (grid1.coords t) = 1#1) : (cfg1 a).idle (9 : Fin 10) ((cfg1 a).grid.coords t) = false := by
  show (!(k1_cond22 (grid1.coords t) == 1#1)) = false
  rw [h]; rfl
theorem idleNot1_9 (t : Fin (cfg1 a).N) (h : ¬ k1_cond22 (grid1.coords t) = 1#1) : (cfg1 a).idle (9 : Fin 10) ((cfg1 a).grid.coords t) = true := by
  show (!(k1_cond22 (grid1.coords t) == 1#1)) = true
  rw [Bool.not_eq_true', beq_eq_false_iff_ne]; exact h

/-- At the first point of the grid the tile coordinate is zero. -/
theorem coords1_first (t : Fin (cfg1 a).N) (h : t.val = 0) : ((grid1.coords t) 1).val = 0 := by
  obtain ⟨n, hn⟩ := t
  simp only at h; subst h
  exact (by decide +kernel : ((grid1.coords (⟨0, by decide⟩ : Fin grid1.N)) 1).val = 0)

/-! ## The windows' blocks -/

/-- Window `w`'s block at point `t`, read off its array as the region finds it (`V`). -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- An input window's current staging buffer holds its block at every point, fetched there or not, for ANY proof data
    whose array is `V`'s and whose body leaves the block in place: unfetched, the block index has not moved. -/
theorem before1_0_of {c : Dev nD} (dat : Dat τ (Elt F) Unit ℕ (Pipeline.UD sig nD τ) ℕ (cfg1 a) c) (hA : dat.A (0 : Fin 10) = V c (Pipeline.arrRef spec1 (0 : Fin 10)))
    (hafter : ∀ t, dat.after (0 : Fin 10) t = iblk1 V a c (0 : Fin 10) t) (t : Fin (cfg1 a).N) (d) : dat.before (0 : Fin 10) t d = iblk1 V a c (0 : Fin 10) t := by
  have hblk : ∀ t, dat.blockOf (0 : Fin 10) t = iblk1 V a c (0 : Fin 10) t := fun t => by unfold Dat.blockOf iblk1; rw [hA]
  have hkeep : ∀ t, ((cfg1 a).win (0 : Fin 10)).cut ((cfg1 a).grid.coords t) (dat.after (0 : Fin 10) t) = dat.blockOf (0 : Fin 10) t := fun t => by
    rw [hafter, hblk]
  rw [dat.before_in_eq_fetched (0 : Fin 10) rfl (fun _ => rfl) (fun _ _ _ => rfl) hkeep t d]
  show ((cfg1 a).win (0 : Fin 10)).fill _ d (dat.blockOf (0 : Fin 10) t) = _
  rw [hblk]; rfl
theorem before1_1_of {c : Dev nD} (dat : Dat τ (Elt F) Unit ℕ (Pipeline.UD sig nD τ) ℕ (cfg1 a) c) (hA : dat.A (1 : Fin 10) = V c (Pipeline.arrRef spec1 (1 : Fin 10)))
    (hafter : ∀ t, dat.after (1 : Fin 10) t = iblk1 V a c (1 : Fin 10) t) (t : Fin (cfg1 a).N) (d) : dat.before (1 : Fin 10) t d = iblk1 V a c (1 : Fin 10) t := by
  have hblk : ∀ t, dat.blockOf (1 : Fin 10) t = iblk1 V a c (1 : Fin 10) t := fun t => by unfold Dat.blockOf iblk1; rw [hA]
  have hkeep : ∀ t, ((cfg1 a).win (1 : Fin 10)).cut ((cfg1 a).grid.coords t) (dat.after (1 : Fin 10) t) = dat.blockOf (1 : Fin 10) t := fun t => by
    rw [hafter, hblk]
  rw [dat.before_in_eq_fetched (1 : Fin 10) rfl (fun _ => rfl) (fun _ _ _ => rfl) hkeep t d]
  show ((cfg1 a).win (1 : Fin 10)).fill _ d (dat.blockOf (1 : Fin 10) t) = _
  rw [hblk]; rfl
theorem before1_2_of {c : Dev nD} (dat : Dat τ (Elt F) Unit ℕ (Pipeline.UD sig nD τ) ℕ (cfg1 a) c) (hA : dat.A (2 : Fin 10) = V c (Pipeline.arrRef spec1 (2 : Fin 10)))
    (hafter : ∀ t, dat.after (2 : Fin 10) t = iblk1 V a c (2 : Fin 10) t) (t : Fin (cfg1 a).N) (d) : dat.before (2 : Fin 10) t d = iblk1 V a c (2 : Fin 10) t := by
  have hblk : ∀ t, dat.blockOf (2 : Fin 10) t = iblk1 V a c (2 : Fin 10) t := fun t => by unfold Dat.blockOf iblk1; rw [hA]
  have hkeep : ∀ t, ((cfg1 a).win (2 : Fin 10)).cut ((cfg1 a).grid.coords t) (dat.after (2 : Fin 10) t) = dat.blockOf (2 : Fin 10) t := fun t => by
    rw [hafter, hblk]
  rw [dat.before_in_eq_fetched (2 : Fin 10) rfl (fun _ => rfl) (fun _ _ _ => rfl) hkeep t d]
  show ((cfg1 a).win (2 : Fin 10)).fill _ d (dat.blockOf (2 : Fin 10) t) = _
  rw [hblk]; rfl
theorem before1_3_of {c : Dev nD} (dat : Dat τ (Elt F) Unit ℕ (Pipeline.UD sig nD τ) ℕ (cfg1 a) c) (hA : dat.A (3 : Fin 10) = V c (Pipeline.arrRef spec1 (3 : Fin 10)))
    (hafter : ∀ t, dat.after (3 : Fin 10) t = iblk1 V a c (3 : Fin 10) t) (t : Fin (cfg1 a).N) (d) : dat.before (3 : Fin 10) t d = iblk1 V a c (3 : Fin 10) t := by
  have hblk : ∀ t, dat.blockOf (3 : Fin 10) t = iblk1 V a c (3 : Fin 10) t := fun t => by unfold Dat.blockOf iblk1; rw [hA]
  have hkeep : ∀ t, ((cfg1 a).win (3 : Fin 10)).cut ((cfg1 a).grid.coords t) (dat.after (3 : Fin 10) t) = dat.blockOf (3 : Fin 10) t := fun t => by
    rw [hafter, hblk]
  rw [dat.before_in_eq_fetched (3 : Fin 10) rfl (fun _ => rfl) (fun _ _ _ => rfl) hkeep t d]
  show ((cfg1 a).win (3 : Fin 10)).fill _ d (dat.blockOf (3 : Fin 10) t) = _
  rw [hblk]; rfl
theorem before1_4_of {c : Dev nD} (dat : Dat τ (Elt F) Unit ℕ (Pipeline.UD sig nD τ) ℕ (cfg1 a) c) (hA : dat.A (4 : Fin 10) = V c (Pipeline.arrRef spec1 (4 : Fin 10)))
    (hafter : ∀ t, dat.after (4 : Fin 10) t = iblk1 V a c (4 : Fin 10) t) (t : Fin (cfg1 a).N) (d) : dat.before (4 : Fin 10) t d = iblk1 V a c (4 : Fin 10) t := by
  have hblk : ∀ t, dat.blockOf (4 : Fin 10) t = iblk1 V a c (4 : Fin 10) t := fun t => by unfold Dat.blockOf iblk1; rw [hA]
  have hkeep : ∀ t, ((cfg1 a).win (4 : Fin 10)).cut ((cfg1 a).grid.coords t) (dat.after (4 : Fin 10) t) = dat.blockOf (4 : Fin 10) t := fun t => by
    rw [hafter, hblk]
  rw [dat.before_in_eq_fetched (4 : Fin 10) rfl (fun _ => rfl) (fun _ _ _ => rfl) hkeep t d]
  show ((cfg1 a).win (4 : Fin 10)).fill _ d (dat.blockOf (4 : Fin 10) t) = _
  rw [hblk]; rfl
theorem before1_5_of {c : Dev nD} (dat : Dat τ (Elt F) Unit ℕ (Pipeline.UD sig nD τ) ℕ (cfg1 a) c) (hA : dat.A (5 : Fin 10) = V c (Pipeline.arrRef spec1 (5 : Fin 10)))
    (hafter : ∀ t, dat.after (5 : Fin 10) t = iblk1 V a c (5 : Fin 10) t) (t : Fin (cfg1 a).N) (d) : dat.before (5 : Fin 10) t d = iblk1 V a c (5 : Fin 10) t := by
  have hblk : ∀ t, dat.blockOf (5 : Fin 10) t = iblk1 V a c (5 : Fin 10) t := fun t => by unfold Dat.blockOf iblk1; rw [hA]
  have hkeep : ∀ t, ((cfg1 a).win (5 : Fin 10)).cut ((cfg1 a).grid.coords t) (dat.after (5 : Fin 10) t) = dat.blockOf (5 : Fin 10) t := fun t => by
    rw [hafter, hblk]
  rw [dat.before_in_eq_fetched (5 : Fin 10) rfl (fun _ => rfl) (fun _ _ _ => rfl) hkeep t d]
  show ((cfg1 a).win (5 : Fin 10)).fill _ d (dat.blockOf (5 : Fin 10) t) = _
  rw [hblk]; rfl
theorem before1_6_of {c : Dev nD} (dat : Dat τ (Elt F) Unit ℕ (Pipeline.UD sig nD τ) ℕ (cfg1 a) c) (hA : dat.A (6 : Fin 10) = V c (Pipeline.arrRef spec1 (6 : Fin 10)))
    (hafter : ∀ t, dat.after (6 : Fin 10) t = iblk1 V a c (6 : Fin 10) t) (t : Fin (cfg1 a).N) (d) : dat.before (6 : Fin 10) t d = iblk1 V a c (6 : Fin 10) t := by
  have hblk : ∀ t, dat.blockOf (6 : Fin 10) t = iblk1 V a c (6 : Fin 10) t := fun t => by unfold Dat.blockOf iblk1; rw [hA]
  have hkeep : ∀ t, ((cfg1 a).win (6 : Fin 10)).cut ((cfg1 a).grid.coords t) (dat.after (6 : Fin 10) t) = dat.blockOf (6 : Fin 10) t := fun t => by
    rw [hafter, hblk]
  rw [dat.before_in_eq_fetched (6 : Fin 10) rfl (fun _ => rfl) (fun _ _ _ => rfl) hkeep t d]
  show ((cfg1 a).win (6 : Fin 10)).fill _ d (dat.blockOf (6 : Fin 10) t) = _
  rw [hblk]; rfl
theorem before1_7_of {c : Dev nD} (dat : Dat τ (Elt F) Unit ℕ (Pipeline.UD sig nD τ) ℕ (cfg1 a) c) (hA : dat.A (7 : Fin 10) = V c (Pipeline.arrRef spec1 (7 : Fin 10)))
    (hafter : ∀ t, dat.after (7 : Fin 10) t = iblk1 V a c (7 : Fin 10) t) (t : Fin (cfg1 a).N) (d) : dat.before (7 : Fin 10) t d = iblk1 V a c (7 : Fin 10) t := by
  have hblk : ∀ t, dat.blockOf (7 : Fin 10) t = iblk1 V a c (7 : Fin 10) t := fun t => by unfold Dat.blockOf iblk1; rw [hA]
  have hkeep : ∀ t, ((cfg1 a).win (7 : Fin 10)).cut ((cfg1 a).grid.coords t) (dat.after (7 : Fin 10) t) = dat.blockOf (7 : Fin 10) t := fun t => by
    rw [hafter, hblk]
  rw [dat.before_in_eq_fetched (7 : Fin 10) rfl (fun _ => rfl) (fun _ _ _ => rfl) hkeep t d]
  show ((cfg1 a).win (7 : Fin 10)).fill _ d (dat.blockOf (7 : Fin 10) t) = _
  rw [hblk]; rfl
theorem before1_8_of {c : Dev nD} (dat : Dat τ (Elt F) Unit ℕ (Pipeline.UD sig nD τ) ℕ (cfg1 a) c) (hA : dat.A (8 : Fin 10) = V c (Pipeline.arrRef spec1 (8 : Fin 10)))
    (hafter : ∀ t, dat.after (8 : Fin 10) t = iblk1 V a c (8 : Fin 10) t) (t : Fin (cfg1 a).N) (d) : dat.before (8 : Fin 10) t d = iblk1 V a c (8 : Fin 10) t := by
  have hblk : ∀ t, dat.blockOf (8 : Fin 10) t = iblk1 V a c (8 : Fin 10) t := fun t => by unfold Dat.blockOf iblk1; rw [hA]
  have hkeep : ∀ t, ((cfg1 a).win (8 : Fin 10)).cut ((cfg1 a).grid.coords t) (dat.after (8 : Fin 10) t) = dat.blockOf (8 : Fin 10) t := fun t => by
    rw [hafter, hblk]
  rw [dat.before_in_eq_fetched (8 : Fin 10) rfl (fun _ => rfl) (fun _ _ _ => rfl) hkeep t d]
  show ((cfg1 a).win (8 : Fin 10)).fill _ d (dat.blockOf (8 : Fin 10) t) = _
  rw [hblk]; rfl

/-! ## The accumulator, point by point -/

/-- The two tables' contents as the body reads them. -/
abbrev tab1_0 : Vec F S1250 .i32 := a.1 0
abbrev tab1_1 : Vec F S1250 .i32 := a.1 1

/-- The accumulator before point `n` (after point `n - 1`): anything before the first point, then one body step per
    point over the point's blocks and what the point before left. -/
def accAt1 (c : Dev nD) : ℕ → Vec F S10240x128 .f32
  | 0 => (Memref.whole cc1_scratch0).view.read (Elt F) (V c cc1_scratch0)
  | n + 1 =>
    if h : n < (cfg1 a).N then
      stepAcc1 (grid1.coords ⟨n, h⟩) (tab1_0 a) (tab1_1 a) (iblk1 V a c (0 : Fin 10) ⟨n, h⟩) (iblk1 V a c (1 : Fin 10) ⟨n, h⟩) (iblk1 V a c (2 : Fin 10) ⟨n, h⟩) (iblk1 V a c (3 : Fin 10) ⟨n, h⟩) (iblk1 V a c (4 : Fin 10) ⟨n, h⟩) (iblk1 V a c (5 : Fin 10) ⟨n, h⟩) (iblk1 V a c (6 : Fin 10) ⟨n, h⟩) (iblk1 V a c (7 : Fin 10) ⟨n, h⟩) (iblk1 V a c (8 : Fin 10) ⟨n, h⟩) (accAt1 c n)
    else accAt1 c n

theorem accAt1_succ (c : Dev nD) (t : Fin (cfg1 a).N) :
    accAt1 V a c (t.val + 1)
      = stepAcc1 (grid1.coords t) (tab1_0 a) (tab1_1 a) (iblk1 V a c (0 : Fin 10) t) (iblk1 V a c (1 : Fin 10) t) (iblk1 V a c (2 : Fin 10) t) (iblk1 V a c (3 : Fin 10) t) (iblk1 V a c (4 : Fin 10) t) (iblk1 V a c (5 : Fin 10) t) (iblk1 V a c (6 : Fin 10) t) (iblk1 V a c (7 : Fin 10) t) (iblk1 V a c (8 : Fin 10) t) (accAt1 V a c t.val) := by
  obtain ⟨n, hn⟩ := t
  exact dif_pos hn

/-! ## The invariant and the proof data -/

/-- The invariant before point `n`: the two tables held whole at `a`; the accumulator scratch at some contents, which
    after the first point are `accAt1 n`; the target-row scratch at anything; every other scoped buffer that is no
    staging buffer, unopened; the generator register at some state. -/
def Phi1 (c : Dev nD) (n : ℕ) : sProp 𝕄 :=
  iprop(Pipeline.prefHeld pre1 c (fun _ => fullShare) a.1
    ∗ (∃ x14 : Vec F S10240x128 .f32, ⌜n ≠ 0 → x14 = accAt1 V a c n⌝ ∗ owns (c : Thread nD τ) (Memref.whole cc1_scratch0) fullShare x14)
    ∗ (∃ d, owns (c : Thread nD τ) (Memref.whole cc1_scratch1) fullShare d)
    ∗ Pipeline.scopedRestBut spec1 c [cc1_scratch0, cc1_scratch1]
    ∗ (∃ r, prngReg c r))

/-- The proof data of pipeline 0 on core `c`: the arrays as the region finds them (`V`); after the body at point `t` each
    input's buffer at its block and the output's at the accumulator after the point, cast to the output's shape (read only
    where the block is written back); the invariant `Phi1`; nothing owed; full shares. -/
def dat1 (c : Dev nD) : Dat τ (Elt F) Unit ℕ (Pipeline.UD sig nD τ) ℕ (cfg1 a) c where
  A w := V c (Pipeline.arrRef spec1 w)
  after w t := match w with
    | ⟨0, _⟩ => iblk1 V a c (0 : Fin 10) t
    | ⟨1, _⟩ => iblk1 V a c (1 : Fin 10) t
    | ⟨2, _⟩ => iblk1 V a c (2 : Fin 10) t
    | ⟨3, _⟩ => iblk1 V a c (3 : Fin 10) t
    | ⟨4, _⟩ => iblk1 V a c (4 : Fin 10) t
    | ⟨5, _⟩ => iblk1 V a c (5 : Fin 10) t
    | ⟨6, _⟩ => iblk1 V a c (6 : Fin 10) t
    | ⟨7, _⟩ => iblk1 V a c (7 : Fin 10) t
    | ⟨8, _⟩ => iblk1 V a c (8 : Fin 10) t
    | ⟨9, _⟩ => k1_pay1 (accAt1 V a c (t.val + 1))
  Φ t := Phi1 V a c t.val
  q _ := fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after (0 : Fin 10) t = iblk1 V a c (0 : Fin 10) t := by dsimp only [dat1]
theorem after1_1 (c : Dev nD) (t : Fin (cfg1 a).N) : (dat1 V a c).after (1 : Fin 10) t = iblk1 V a c (1 : Fin 10) t := by dsimp only [dat1]
theorem after1_2 (c : Dev nD) (t : Fin (cfg1 a).N) : (dat1 V a c).after (2 : Fin 10) t = iblk1 V a c (2 : Fin 10) t := by dsimp only [dat1]
theorem after1_3 (c : Dev nD) (t : Fin (cfg1 a).N) : (dat1 V a c).after (3 : Fin 10) t = iblk1 V a c (3 : Fin 10) t := by dsimp only [dat1]
theorem after1_4 (c : Dev nD) (t : Fin (cfg1 a).N) : (dat1 V a c).after (4 : Fin 10) t = iblk1 V a c (4 : Fin 10) t := by dsimp only [dat1]
theorem after1_5 (c : Dev nD) (t : Fin (cfg1 a).N) : (dat1 V a c).after (5 : Fin 10) t = iblk1 V a c (5 : Fin 10) t := by dsimp only [dat1]
theorem after1_6 (c : Dev nD) (t : Fin (cfg1 a).N) : (dat1 V a c).after (6 : Fin 10) t = iblk1 V a c (6 : Fin 10) t := by dsimp only [dat1]
theorem after1_7 (c : Dev nD) (t : Fin (cfg1 a).N) : (dat1 V a c).after (7 : Fin 10) t = iblk1 V a c (7 : Fin 10) t := by dsimp only [dat1]
theorem after1_8 (c : Dev nD) (t : Fin (cfg1 a).N) : (dat1 V a c).after (8 : Fin 10) t = iblk1 V a c (8 : Fin 10) t := by dsimp only [dat1]
theorem after1_9 (c : Dev nD) (t : Fin (cfg1 a).N) : (dat1 V a c).after (9 : Fin 10) t = k1_pay1 (accAt1 V a c (t.val + 1)) := by dsimp only [dat1]

theorem before1_0 (c : Dev nD) (t : Fin (cfg1 a).N) (d) : (dat1 V a c).before (0 : Fin 10) t d = iblk1 V a c (0 : Fin 10) t :=
  before1_0_of V a (dat1 V a c) (A_eq1 V a c (0 : Fin 10)) (after1_0 V a c) t d
theorem before1_1 (c : Dev nD) (t : Fin (cfg1 a).N) (d) : (dat1 V a c).before (1 : Fin 10) t d = iblk1 V a c (1 : Fin 10) t :=
  before1_1_of V a (dat1 V a c) (A_eq1 V a c (1 : Fin 10)) (after1_1 V a c) t d
theorem before1_2 (c : Dev nD) (t : Fin (cfg1 a).N) (d) : (dat1 V a c).before (2 : Fin 10) t d = iblk1 V a c (2 : Fin 10) t :=
  before1_2_of V a (dat1 V a c) (A_eq1 V a c (2 : Fin 10)) (after1_2 V a c) t d
theorem before1_3 (c : Dev nD) (t : Fin (cfg1 a).N) (d) : (dat1 V a c).before (3 : Fin 10) t d = iblk1 V a c (3 : Fin 10) t :=
  before1_3_of V a (dat1 V a c) (A_eq1 V a c (3 : Fin 10)) (after1_3 V a c) t d
theorem before1_4 (c : Dev nD) (t : Fin (cfg1 a).N) (d) : (dat1 V a c).before (4 : Fin 10) t d = iblk1 V a c (4 : Fin 10) t :=
  before1_4_of V a (dat1 V a c) (A_eq1 V a c (4 : Fin 10)) (after1_4 V a c) t d
theorem before1_5 (c : Dev nD) (t : Fin (cfg1 a).N) (d) : (dat1 V a c).before (5 : Fin 10) t d = iblk1 V a c (5 : Fin 10) t :=
  before1_5_of V a (dat1 V a c) (A_eq1 V a c (5 : Fin 10)) (after1_5 V a c) t d
theorem before1_6 (c : Dev nD) (t : Fin (cfg1 a).N) (d) : (dat1 V a c).before (6 : Fin 10) t d = iblk1 V a c (6 : Fin 10) t :=
  before1_6_of V a (dat1 V a c) (A_eq1 V a c (6 : Fin 10)) (after1_6 V a c) t d
theorem before1_7 (c : Dev nD) (t : Fin (cfg1 a).N) (d) : (dat1 V a c).before (7 : Fin 10) t d = iblk1 V a c (7 : Fin 10) t :=
  before1_7_of V a (dat1 V a c) (A_eq1 V a c (7 : Fin 10)) (after1_7 V a c) t d
theorem before1_8 (c : Dev nD) (t : Fin (cfg1 a).N) (d) : (dat1 V a c).before (8 : Fin 10) t d = iblk1 V a c (8 : Fin 10) t :=
  before1_8_of V a (dat1 V a c) (A_eq1 V a c (8 : Fin 10)) (after1_8 V a c) t d

theorem Phi1_castSucc (c : Dev nD) (t : Fin (cfg1 a).N) : (dat1 V a c).Φ t.castSucc = Phi1 V a c t.val := by
  dsimp only [dat1]; simp only [Fin.coe_castSucc]
theorem Phi1_succ (c : Dev nD) (t : Fin (cfg1 a).N) : (dat1 V a c).Φ t.succ = Phi1 V a c (t.val + 1) := by
  dsimp only [dat1]; simp only [Fin.val_succ]

/-! ## The body's run at a point -/

/-- The body's run at point `t`: the tables, the point's staging memrefs and blocks, the two scratch buffers; over the
    accumulator's contents `x14` and the raw contents `f13`, `f15` of the two buffers it is handed at anything. -/
abbrev run1 (c : Dev nD) (t : Fin (cfg1 a).N) (x14 : Vec F S10240x128 .f32)
    (f13 : BufTy.Contents (Elt F) (ms1_9 a t).view.ty) (f15 : BufTy.Contents (Elt F) (Memref.whole cc1_scratch1 : Memref sig .tc _ _ _).view.ty) :=
  bodyRun1 (F := F) c (grid1.coords t) (Memref.whole main_v31) (Memref.isWhole_whole _) (Memref.whole main_v39) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (ms1_6 a t) (hs1_6 a t) (ms1_7 a t) (hs1_7 a t) (ms1_8 a t) (hs1_8 a t) (ms1_9 a t) (hs1_9 a t) (Memref.whole cc1_scratch0) (Memref.isWhole_whole _) (Memref.whole cc1_scratch1) (Memref.isWhole_whole _) (tab1_0 a) (tab1_1 a) (iblk1 V a c (0 : Fin 10) t) (iblk1 V a c (1 : Fin 10) t) (iblk1 V a c (2 : Fin 10) t) (iblk1 V a c (3 : Fin 10) t) (iblk1 V a c (4 : Fin 10) t) (iblk1 V a c (5 : Fin 10) t) (iblk1 V a c (6 : Fin 10) t) (iblk1 V a c (7 : Fin 10) t) (iblk1 V a c (8 : Fin 10) t) x14 f13 f15

/-- One step from what the invariant knows of the accumulator lands on the next named contents: at the first point the
    step does not read what it finds. -/
theorem acc1_step (c : Dev nD) (t : Fin (cfg1 a).N) (x14 : Vec F S10240x128 .f32)
    (hx : t.val ≠ 0 → x14 = accAt1 V a c t.val) :
    stepAcc1 (grid1.coords t) (tab1_0 a) (tab1_1 a) (iblk1 V a c (0 : Fin 10) t) (iblk1 V a c (1 : Fin 10) t) (iblk1 V a c (2 : Fin 10) t) (iblk1 V a c (3 : Fin 10) t) (iblk1 V a c (4 : Fin 10) t) (iblk1 V a c (5 : Fin 10) t) (iblk1 V a c (6 : Fin 10) t) (iblk1 V a c (7 : Fin 10) t) (iblk1 V a c (8 : Fin 10) t) x14 = accAt1 V a c (t.val + 1) := by
  rw [accAt1_succ]
  by_cases h0 : t.val = 0
  · exact stepAcc1_first _ (coords1_first a t h0) _ _ _ _ _ _ _ _ _ _ _ _ _
  · rw [hx h0]

/-- What the body leaves in the output's staging buffer is what the obligation asks of it: where the block is written
    back, the accumulator after the point in the output's shape; elsewhere, the buffer as it was found. -/
theorem leaves1_9 (c : Dev nD) (t : Fin (cfg1 a).N) (x14 : Vec F S10240x128 .f32)
    (hx : t.val ≠ 0 → x14 = accAt1 V a c t.val) (d9) (f13 : BufTy.Contents (Elt F) (ms1_9 a t).view.ty)
    (hf13 : (ms1_9 a t).view.read (Elt F) f13 = (dat1 V a c).before (9 : Fin 10) t d9) (f15) :
    ((ms1_9 a t).view.loc (c : Thread nD τ) ↦[(ms1_9 a t).view.set]{fullShare} (run1 V a c t x14 f13 f15).2.2.1 : sProp 𝕄)
      ⊢ (dat1 V a c).leavesExact (9 : Fin 10) t := by
  by_cases hc : k1_cond22 (grid1.coords t) = 1#1
  · have hlive : (dat1 V a c).leavesExact (9 : Fin 10) t = owns (c : Thread nD τ) (ms1_9 a t) fullShare ((dat1 V a c).after (9 : Fin 10) t) := by
      unfold Dat.leavesExact; rw [idleLive1_9 a t hc]
    rw [hlive, after1_9]
    unfold owns
    iintro H; iexists _; isplitr
    swap; · iexact H
    ipureintro
    exact (bodyRun1_out_flush _ _ _ _ _ _ _ _ _ _ _ _ _ _ _ _ _ _ _ _ _ _ _ _ _ _ _ _ _ _ _ _ _ _ _ _ _ _ _ _ _ _ _ _ hc).trans (congrArg k1_pay1 (acc1_step V a c t x14 hx))
  · rw [Dat.leavesExact_idle _ (9 : Fin 10) t (idleNot1_9 a t hc) (flushNot1_9 a t hc),
      show (run1 V a c t x14 f13 f15).2.2.1 = f13 from bodyRun1_out_idle _ _ _ _ _ _ _ _ _ _ _ _ _ _ _ _ _ _ _ _ _ _ _ _ _ _ _ _ _ _ _ _ _ _ _ _ _ _ _ _ _ _ _ _ hc]
    unfold owns
    iintro H; iexists d9, f13; isplitr
    · ipureintro; exact hf13
    iexact H

/-- Owning a memref at contents `X` is holding its elements at some raw contents that read `X`. -/
theorem owns_open1 (c : Dev nD) {sp : Space} {sh : Shape} {e : EltTy} (M : Memref sig .tc sp sh e) (X : sh.Idx → Elt F e) :
    (owns (c : Thread nD τ) M fullShare X : sProp 𝕄)
      ⊢ iprop(∃ f, ⌜M.view.read (Elt F) f = X⌝ ∗ (M.view.loc (c : Thread nD τ) ↦[M.view.set]{fullShare} f)) := by
  unfold owns; exact .rfl

/-- The tables held whole are the body's two table arguments owned at their contents. -/
theorem prefHeld1_eq (c : Dev nD) :
    (Pipeline.prefHeld pre1 c (fun _ => fullShare) a.1 : sProp 𝕄)
      = iprop(owns (c : Thread nD τ) (Memref.whole main_v31) fullShare (tab1_0 a) ∗ owns (c : Thread nD τ) (Memref.whole main_v39) fullShare (tab1_1 a)) := by
  unfold Pipeline.prefHeld
  rw [bigSep_univ_eq_bigSepL [(0 : Fin 2), (1 : Fin 2)] (by decide) (by decide), owns_whole, owns_whole]
  rfl

/-! ## The body obligation, at a generic point -/

/-- What the body is called with at point `t` (the windows one by one), -/
def bodyPre1 (c : Dev nD) (t : Fin (cfg1 a).N) : sProp 𝕄 :=
  iprop((dat1 V a c).Φ t.castSucc ∗ (dat1 V a c).owesAt () t.castSucc
    ∗ (∃ d, owns (c : Thread nD τ) (ms1_0 a t) fullShare ((dat1 V a c).before (0 : Fin 10) t d))
    ∗ (∃ d, owns (c : Thread nD τ) (ms1_1 a t) fullShare ((dat1 V a c).before (1 : Fin 10) t d))
    ∗ (∃ d, owns (c : Thread nD τ) (ms1_2 a t) fullShare ((dat1 V a c).before (2 : Fin 10) t d))
    ∗ (∃ d, owns (c : Thread nD τ) (ms1_3 a t) fullShare ((dat1 V a c).before (3 : Fin 10) t d))
    ∗ (∃ d, owns (c : Thread nD τ) (ms1_4 a t) fullShare ((dat1 V a c).before (4 : Fin 10) t d))
    ∗ (∃ d, owns (c : Thread nD τ) (ms1_5 a t) fullShare ((dat1 V a c).before (5 : Fin 10) t d))
    ∗ (∃ d, owns (c : Thread nD τ) (ms1_6 a t) fullShare ((dat1 V a c).before (6 : Fin 10) t d))
    ∗ (∃ d, owns (c : Thread nD τ) (ms1_7 a t) fullShare ((dat1 V a c).before (7 : Fin 10) t d))
    ∗ (∃ d, owns (c : Thread nD τ) (ms1_8 a t) fullShare ((dat1 V a c).before (8 : Fin 10) t d))
    ∗ (∃ d, owns (c : Thread nD τ) (ms1_9 a t) fullShare ((dat1 V a c).before (9 : Fin 10) t d)))

/-- and what it returns: each input's buffer at its block; the output's as the obligation states it, live or idle. -/
def bodyPost1 (c : Dev nD) (t : Fin (cfg1 a).N) : sProp 𝕄 :=
  iprop((dat1 V a c).Φ t.succ ∗ (dat1 V a c).owesAt () t.succ
    ∗ owns (c : Thread nD τ) (ms1_0 a t) fullShare ((dat1 V a c).after (0 : Fin 10) t)
    ∗ owns (c : Thread nD τ) (ms1_1 a t) fullShare ((dat1 V a c).after (1 : Fin 10) t)
    ∗ owns (c : Thread nD τ) (ms1_2 a t) fullShare ((dat1 V a c).after (2 : Fin 10) t)
    ∗ owns (c : Thread nD τ) (ms1_3 a t) fullShare ((dat1 V a c).after (3 : Fin 10) t)
    ∗ owns (c : Thread nD τ) (ms1_4 a t) fullShare ((dat1 V a c).after (4 : Fin 10) t)
    ∗ owns (c : Thread nD τ) (ms1_5 a t) fullShare ((dat1 V a c).after (5 : Fin 10) t)
    ∗ owns (c : Thread nD τ) (ms1_6 a t) fullShare ((dat1 V a c).after (6 : Fin 10) t)
    ∗ owns (c : Thread nD τ) (ms1_7 a t) fullShare ((dat1 V a c).after (7 : Fin 10) t)
    ∗ owns (c : Thread nD τ) (ms1_8 a t) fullShare ((dat1 V a c).after (8 : Fin 10) t)
    ∗ (dat1 V a c).leavesExact (9 : Fin 10) t)

set_option maxHeartbeats 1600000 in
/-- The body at any point. The invariant hands it the two tables, the accumulator (at the named contents after the
    first point) and the target-row scratch; each input's memref holds its block; the output's holds anything. The run
    applies; the accumulator comes back one step on, the inputs and tables as they were, the output's buffer as the
    obligation states it; the core's `owes` passes through unread. -/
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1
  simp only [before1_0, before1_1, before1_2, before1_3, before1_4, before1_5, before1_6, before1_7, before1_8]
  rw [Phi1_castSucc, Phi1_succ, show (dat1 V a c).owesAt () t.succ = (dat1 V a c).owesAt () t.castSucc from rfl,
    after1_0, after1_1, after1_2, after1_3, after1_4, after1_5, after1_6, after1_7, after1_8]
  unfold Phi1
  rw [prefHeld1_eq]
  iintro ⟨⟨⟨HT0, HT1⟩, ⟨%x14, %hx14, H14⟩, ⟨%d15, H15⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave H9' := (owns_open1 c (ms1_9 a t) _) $$ H9
  icases H9' with ⟨%f13, %hf13, H13⟩
  ihave H15' := (owns_open1 c (Memref.whole cc1_scratch1) _) $$ H15
  icases H15' with ⟨%f15, -, H15⟩
  iapply ((run1 V a c t x14 f13 f15).2.2.2 Set.univ _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H13]; · iexact H13
  isplitl [H14]; · iexact H14
  isplitl [H15]; · iexact H15
  iintro ⟨HT0, HT1, H0, H1, H2, H3, H4, H5, H6, H7, H8, H13, H14, H15⟩
  isplitl [HT0 HT1 H14 H15 HR Hg]
  · isplitl [HT0 HT1]
    · isplitl [HT0]; · iexact HT0
      iexact HT1
    isplitl [H14]
    · iexists _; isplitr; · ipureintro; exact fun _ => rfl
      unfold owns; iexists _; isplitr
      swap; · iexact H14
      ipureintro
      exact (bodyRun1_acc _ _ _ _ _ _ _ _ _ _ _ _ _ _ _ _ _ _ _ _ _ _ _ _ _ _ _ _ _ _ _ _ _ _ _ _ _ _ _ _ _ _ _ _).trans (acc1_step V a c t x14 hx14)
    isplitl [H15]
    · iexists _; unfold owns; iexists _; isplitr
      swap; · iexact H15
      ipureintro; rfl
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (leaves1_9 V a c t x14 hx14 d9 f13 hf13 f15)
  iexact H13

/-- The library's body obligation, at every point. -/
theorem body_obligation1 (c : Dev nD) : BodyObligation (dat1 (F := F) V a c) (defs₀ (F := F)) Variants.none () Set.univ := fun t => by
  rw [bigSep_W1, bigSep_W1]
  exact sound_body1 V a c t

end Region1

end Cert.Kernel.Gen

end
-- ==== Proof.RegionK1.lean ====
import proofs.«414286_j65627100283289_3_alg».proof.Proof.RegionDataK1
import proofs.«414286_j65627100283289_3_alg».proof.Proof.Gen.Kernel.Regions
import proofs.«414286_j65627100283289_3_alg».proof.Proof.FrameDefsK
import Idealize.ShloMosaic.Lib.Pipeline.RegionsLoop
import Idealize.ShloMosaic.Lib.Pipeline.FrameSuffix

/-!
# Region 1 as a segment of the program

On entry the region's arrays and its two tables are separated from the other unscoped buffers; the tables, the scoped
buffers that are no staging buffer and the generator register make the invariant before the first point. On exit the
invariant gives them back and the arrays are joined with the other buffers again, the output's array at what the
write-backs made of it. Nothing is owed at any point and the kernel has no semaphore of its own.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 1 as a segment of the program -/

section Seg1

variable (m : (ℓ : Loc nD τ sig) → Buf (Elt F) ℓ) (outs : Outs (F := F))

/-- The unscoped buffers' contents on core `c` when region 1 is entered, and when it is left. -/
abbrev Win1 : Dev nD → Valuation τ sig (Elt F) := fun c => V11 m outs c
abbrev Wout1 : Dev nD → Valuation τ sig (Elt F) := fun c => V12 m outs c
/-- The contents of the TensorCore's buffers when region 1 is entered, that is, after the host operations that precede it. -/
abbrev Vin1 : (c : Dev nD) → (b : Ref sig .tc) → Buf (Elt F) ((c : Thread nD τ).loc b) := fun c b => V11 m outs c b
/-- Their contents when the region is left: as entered, except the output's array, which holds what the region leaves in it. -/
abbrev Vout1 : (c : Dev nD) → (b : Ref sig .tc) → Buf (Elt F) ((c : Thread nD τ).loc b) := fun c b => V12 m outs c b

-- the tables' contents of all four pipelines, the family of proof data, and what ties region 1's members to this module
variable (a : (p : Fin 4) → (pcfgs (F := F) p).Adm)
variable (pdats : (p : Fin 4) → (c : Dev nD) → Dat τ (Elt F) Unit ℕ (Pipeline.UD sig nD τ) ℕ (Pipeline.pin (pcfgs (F := F)) a p) c)
-- the family's member at region 1 is this module's proof data, at the entry contents and region 1's tables
variable (hd1 : ∀ c, pdats 1 c = dat1 (Vin1 m outs) (a 1) c)
-- the tables' admissible contents are what the tables hold when the region is entered
variable (hpf1 : ∀ c : Dev nD, (fun k => Vin1 m outs c (pre1.ref k)) = (a 1).1)
-- what the region leaves in its output's array is what its write-backs make of it
variable (houts1 : ∀ c : Dev nD, outs 12 main_v53 c = (dat1 (Vin1 m outs) (a 1) c).arrAt (9 : Fin 10) (cfg1 (a 1)).N)

/-- The invariant with the two scratch buffers as plain points-tos. -/
theorem Phi1_eq (V : (c : Dev nD) → (b : Ref sig .tc) → Buf (Elt F) ((c : Thread nD τ).loc b)) (a0 : (pcfg1 (F := F)).Adm) (c : Dev nD) (n : ℕ) :
    Phi1 V a0 c n = iprop(Pipeline.prefHeld pre1 c (fun _ => fullShare) a0.1
      ∗ (∃ x14 : Vec F S10240x128 .f32, ⌜n ≠ 0 → x14 = accAt1 V a0 c n⌝ ∗ (((c : Thread nD τ).loc cc1_scratch0) ↦{fullShare} x14))
      ∗ (∃ d : Buf (Elt F) ((c : Thread nD τ).loc cc1_scratch1), ((c : Thread nD τ).loc cc1_scratch1) ↦{fullShare} d)
      ∗ Pipeline.scopedRestBut spec1 c [cc1_scratch0, cc1_scratch1]
      ∗ (∃ r, prngReg c r)) := by
  unfold Phi1; simp only [owns_whole]

/-- Entering: the tables, the scoped rest and the generator register make the invariant before the first point. -/
theorem hin1 (V : (c : Dev nD) → (b : Ref sig .tc) → Buf (Elt F) ((c : Thread nD τ).loc b)) (a0 : (pcfg1 (F := F)).Adm) (c : Dev nD) :
    iprop((∃ r, prngReg c r) ∗ Pipeline.prefHeld pre1 c (fun _ => fullShare) a0.1 ∗ Pipeline.scopedRest spec1 c)
      ⊢ (Phi1 V a0 c 0 : sProp 𝕄) := by
  rw [Phi1_eq, scopedRest1_split]
  iintro ⟨Hg, Hpf, ⟨⟨%f0, H0⟩, H1⟩, HR⟩
  isplitl [Hpf]; · iexact Hpf
  isplitl [H0]
  · iexists f0; isplitr; · ipureintro; exact fun h => absurd rfl h
    iexact H0
  isplitl [H1]; · iexact H1
  isplitl [HR]; · iexact HR
  iexact Hg

/-- Leaving: the invariant gives the register and the tables back, and the scoped rest with the scratch at anything. -/
theorem hout1 (V : (c : Dev nD) → (b : Ref sig .tc) → Buf (Elt F) ((c : Thread nD τ).loc b)) (a0 : (pcfg1 (F := F)).Adm) (c : Dev nD) (n : ℕ) :
    (Phi1 V a0 c n : sProp 𝕄)
      ⊢ iprop(((∃ r, prngReg c r) ∗ Pipeline.prefHeld pre1 c (fun _ => fullShare) a0.1) ∗ Pipeline.scopedRest spec1 c) := by
  rw [Phi1_eq, scopedRest1_split]
  iintro ⟨Hpf, ⟨%x14, -, H0⟩, H1, HR, Hg⟩
  isplitl [Hg Hpf]
  · isplitl [Hg]; · iexact Hg
    iexact Hpf
  isplitl [H0 H1]
  · isplitl [H0]; · iexists x14; iexact H0
    iexact H1
  iexact HR

/-- Every window but the last is an input, and no input's array is the output's. -/
theorem inputs1 : ∀ w : Fin 10, w ≠ (9 : Fin 10) → (spec1 w).isOut = false ∧ Pipeline.arrRef spec1 w ∉ ([main_v53] : List (Ref sig .tc)) := by
  decide

/-- At the region's exit each of its arrays holds what the pipeline leaves: an input its entry contents, the output what
    its write-backs make of it, which is the region's unknown `outs 12 main_v53`. -/
theorem hF1 (c : Dev nD) (houts1 : outs 12 main_v53 c = (dat1 (Vin1 m outs) (a 1) c).arrAt (9 : Fin 10) (cfg1 (a 1)).N) :
    ∀ w : Fin 10, (dat1 (Vin1 m outs) (a 1) c).arrAt w (cfg1 (a 1)).N = Vout1 m outs c (Pipeline.arrRef spec1 w) := by
  intro w
  by_cases hw : w = (9 : Fin 10)
  · subst hw
    refine houts1.symm.trans ?_
    show _ = Function.update (Win1 m outs c) _ _ _
    rw [Function.update_self]
  · obtain ⟨hin, hne⟩ := inputs1 w hw
    exact ((dat1 (Vin1 m outs) (a 1) c).arrAt_in w hin _).trans ((A_eq1 (Vin1 m outs) (a 1) c w).trans (V12_of m outs c _ hne).symm)

/-- Every buffer that is no array of the region is left as entered. -/
theorem hrest1 (c : Dev nD) : ∀ b, b ∉ Finset.univ.image (Pipeline.arrRef spec1) → Vout1 m outs c b = Vin1 m outs c b := fun b hb =>
  V12_of m outs c b fun hmem => hb (Finset.mem_image.mpr ⟨(9 : Fin 10), Finset.mem_univ _, (List.mem_singleton.mp hmem).symm⟩)

include hd1 hpf1 houts1 in
-- the entry and exit lemmas speak of the pinned configuration `pin pcs a p`, which is the printed configuration
-- `cfg1 a` by the definitions of both
set_option backward.isDefEq.respectTransparency.types false in
/-- REGION 1 as a segment. It is entered holding every unscoped buffer at its contents after the preceding host
    operations, together with the rest state (the generator register, nothing owed); it is left holding the same, the
    output's array now at the region's unknown. On entry the region's arrays and its two tables are separated from the
    other unscoped buffers, and on exit they are joined again; the generator register and the tables pass through the
    invariant; nothing is owed at any point; the kernel has no semaphore of its own. -/
def reg1 : Pipeline.RegionSeg (pcfgs (F := F)) a pdats () defs₀ Variants.none Lz lvz 1 where
  win := winFacts1.to₀
  block_pos := block_pos1
  stage_whole := stage_whole1
  K := PEmpty
  osem k := k.elim
  ho := Pipeline.OwnSemFacts.none _
  hbody c := by rw [hd1 c]; exact (body_obligation1 (Vin1 m outs) (a 1) c).loose
  hwaits := Pipeline.hwaits_of_owed_zero _ _ _ _ Lz lvz 1 fun c t => by rw [hd1 c]; rfl
  pre c := iprop(StableHlo.held (c : Thread nD τ) (Pipeline.ucRefs τ sig) (Win1 m outs c) ∗ Rest c)
  post c := iprop(StableHlo.held (c : Thread nD τ) (Pipeline.ucRefs τ sig) (Wout1 m outs c) ∗ Rest c)
  X c := iprop(∃ r, prngReg c r)
  Y c := iprop((∃ r, prngReg c r) ∗ Pipeline.prefHeld pre1 c (fun _ => fullShare) (a 1).1)
  Z c := Pipeline.unscopedRestP (Ix := Unit) (Name := ℕ) (U := Pipeline.UD sig nD τ) (Lvl := ℕ) pre1 spec1 c (Vin1 m outs c)
  hentry c := by
    rw [Pipeline.ownSems0_none]
    have hsplit := Pipeline.arrays_of_unscopedBufs (p := 1) (pcfgs (F := F)) a pdats winFacts1 arr_whole1 c
      ((pdats 1 c).share_full fun w => by rw [hd1 c]; rfl) (Vin1 m outs c) fun w => by rw [hd1 c]; rfl
    rw [Pipeline.unscopedBufs_held, Pipeline.unscopedRest_split (win := (Pipeline.pin (pcfgs (F := F)) a 1).spec) (pre := pre1) preFacts1 c (Vin1 m outs c), hpf1 c] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · rw [hd1 c]
      unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hd1 c, show (dat1 (Vin1 m outs) (a 1) c).Φ 0 = Phi1 (Vin1 m outs) (a 1) c 0 from by dsimp only [dat1]; simp only [Fin.val_zero]]
    exact hin1 (Vin1 m outs) (a 1) c
  hout c := by
    rw [hd1 c, Pipeline.ownSems0_none, show (dat1 (Vin1 m outs) (a 1) c).Φ (Fin.last (Pipeline.pin (pcfgs (F := F)) a 1).N) = Phi1 (Vin1 m outs) (a 1) c (Pipeline.pin (pcfgs (F := F)) a 1).N from by dsimp only [dat1]; simp only [Fin.val_last]]
    iintro H
    ihave H' := (hout1 (Vin1 m outs) (a 1) c _) $$ H
    icases H' with ⟨HY, HS⟩
    isplitl [HY]; · iexact HY
    isplitr; · iempintro
    iexact HS
  hexit c := by
    have hjoin := Pipeline.unscopedBufs_of_arrays (p := 1) (pcfgs (F := F)) a (Ix := Unit) (Name := ℕ) (U := Pipeline.UD sig nD τ) (Lvl := ℕ)
      winFacts1 arr_whole1 c pdats ((pdats 1 c).share_full fun w => by rw [hd1 c]; rfl)
      (Vin1 m outs c) (Vout1 m outs c) ((pdats 1 c).arrAt · (cfg1 (a 1)).N)
      (by rw [hd1 c]; exact hF1 m outs a c (houts1 c)) (hrest1 m outs c)
    rw [Pipeline.unscopedBufs_held, Pipeline.unscopedRest_split (win := (Pipeline.pin (pcfgs (F := F)) a 1).spec) (pre := pre1) preFacts1 c (Vin1 m outs c), hpf1 c] at hjoin
    iintro ⟨Ha, HO, ⟨HY, Hpf⟩, Hrest⟩
    imodintro
    isplitl [Ha Hpf Hrest]
    · iapply hjoin
      isplitl [Ha]; · iexact Ha
      isplitl [Hpf]; · iexact Hpf
      iexact Hrest
    isplitl [HY]; · iexact HY
    rw [hd1 c]
    unfold Pipeline.Dat.owesAt Pipeline.owesWithin
    icases HO with ⟨%W, -, HO⟩; iexists W; iexact HO

/-- The record is entered from, and left at, the program's thread states around region 1, as they stand. -/
theorem hpre1 (c : Dev nD) :
    iprop(StableHlo.held (c : Thread nD τ) (Pipeline.ucRefs τ sig) (Win1 m outs c) ∗ Rest (F := F) c)
      ⊢ (reg1 m outs a pdats hd1 hpf1 houts1).pre c := .rfl
theorem hpost1 (c : Dev nD) :
    (reg1 m outs a pdats hd1 hpf1 houts1).post c
      ⊢ iprop(StableHlo.held (c : Thread nD τ) (Pipeline.ucRefs τ sig) (Wout1 m outs c) ∗ Rest (F := F) c) := .rfl

end Seg1

end Cert.Kernel.Gen

end
-- ==== Proof.BodyK2.lean ====
import proofs.«414286_j65627100283289_3_alg».proof.Proof.Gen.Kernel.Skeleton
import proofs.«414286_j65627100283289_3_alg».proof.Proof.Gen.Kernel.Launch
import Idealize.ShloMosaic.Lib.Pipeline.Frame
import Idealize.ShloMosaic.Lib.Pipeline.FrameBody
import Idealize.ShloMosaic.Lib.Tactic

/-!
# Region 2's body at one grid point

The body of one EdgeConv layer's kernel on whole staging memrefs, at any grid point `i = (core, tile)`: from the two
chunk-range tables, the tile's source and target columns, the padded node table, the layer's six parameter blocks,
the accumulator as the tile before left it and the two other written buffers at any contents, the body runs to its
end, faults nowhere, hands the eleven buffers it only reads back as they were, and leaves the accumulator, the
target-row scratch and the output's staging buffer at contents that are FUNCTIONS of what it was handed. Those three
functions are not transcribed: they are what the run finds, each conditional taken both ways and its two outcomes
merged under its condition (the reset at the core's first tile, the ten chunk gates of the target-row gather, the
ten of the scatter, the write-out at the core's last tile).
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- What the body leaves in the accumulator (`.1`), in the target-row scratch (`.2.1`) and in the output's staging
    buffer (`.2.2.1`), with the proof that it runs to the continuation holding exactly that. -/
noncomputable def bodyRun2 (c : Dev nD) (i : grid2.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole)
    (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32)
    (f13 : BufTy.Contents (Elt F) arg13.view.ty) (f15 : BufTy.Contents (Elt F) arg15.view.ty) :
    Σ' (g14 : BufTy.Contents (Elt F) arg14.view.ty) (g15 : BufTy.Contents (Elt F) arg15.view.ty),
      { g13 : BufTy.Contents (Elt F) arg13.view.ty //
        ∀ (E : Set ℕ) (K : PUnit → sProp 𝕄),
          iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ (arg13.view.loc (c : Thread nD τ) ↦[arg13.view.set]{fullShare} f13)
            ∗ owns (c : Thread nD τ) arg14 fullShare x14
            ∗ (arg15.view.loc (c : Thread nD τ) ↦[arg15.view.set]{fullShare} f15)
            ∗ (iprop(owns (c : Thread nD τ) arg2 fullShare x2
              ∗ owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ owns (c : Thread nD τ) arg11 fullShare x11
              ∗ owns (c : Thread nD τ) arg12 fullShare x12
              ∗ (arg13.view.loc (c : Thread nD τ) ↦[arg13.view.set]{fullShare} g13)
              ∗ (arg14.view.loc (c : Thread nD τ) ↦[arg14.view.set]{fullShare} g14)
              ∗ (arg15.view.loc (c : Thread nD τ) ↦[arg15.view.set]{fullShare} g15)) -∗ K ⟨⟩))
          ⊢ wp frame (wpE (defs₀ (F := F)) Variants.none c none) E (cc2__edgeconv_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc2__edgeconv_kernel_eq_skeleton]; unfold cc2__edgeconv_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, H13, ⟨%f14, %hf14, H14⟩, H15, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg14.eq_unread hf14
    sl_exec!
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexact H13
    isplitl [H14]; · iexact H14
    iexact H15

end Cert.Kernel.Gen

end
-- ==== Proof.StepDefsK2.lean ====
import proofs.«414286_j65627100283289_3_alg».proof.Proof.Gen.Kernel.Skeleton
import proofs.«414286_j65627100283289_3_alg».proof.Proof.GateWord
import proofs.«414286_j65627100283289_3_alg».proof.Proof.LibGatedRmw
import Idealize.ShloMosaic.Lib.Pipeline.FrameBody

/-!
# Region 2's body as functions of the values it is handed

What one run of the body at grid point `i = (core, tile)` leaves in the accumulator, written without a memref and without
any buffer's old raw contents: from the two chunk-range tables, the tile's source and target columns, the padded node
table, the six parameter blocks and the accumulator as the tile before left it.

* the two table words of the tile, `lo` and `hi`, and from them the ten gate words `lo ≤ k ≤ hi`;
* the target rows' gather `xi2`: zero, then for each chunk `k` of 1024 nodes, under its gate, the one-hot product of
  the target column against the chunk's rows added on;
* the source rows' gather `xj2`: the ten one-hot products added up, no gate;
* the perceptron's hidden row `hid2` and the messages `msg2`;
* the accumulator: reset to zero at the core's first tile, then for each chunk under its gate the chunk's rows replaced
  by themselves plus the transposed one-hot product with the messages.

Each step is spelt through the generated payload that computes it, so that the body's run and these functions meet
name by name.
-/

noncomputable section

namespace Cert.Kernel.Gen

open Idealize.ShloMosaic Idealize.ShloMosaic.GatedRmw

variable {F : FTy → Type} [FloatOps F]

/-- The tile's entry of the first table: the least chunk its targets fall in. -/
def loW2 (i : grid2.Coords) (x2 : Vec F S1250 .i32) : BitVec 32 :=
  View.ld x2 (Rect.unit (s := S1250) (k2_off1 i) S1.size (k2_off1_inb i))
    (Shape.Idx.first (lt_of_lt_of_eq Nat.one_pos numel1_S1.symm))

/-- The tile's entry of the second table: the greatest chunk its targets fall in. -/
def hiW2 (i : grid2.Coords) (x3 : Vec F S1250 .i32) : BitVec 32 :=
  View.ld x3 (Rect.unit (s := S1250) (k2_off1 i) S1.size (k2_off1_inb i))
    (Shape.Idx.first (lt_of_lt_of_eq Nat.one_pos numel1_S1.symm))

/-- The word "this is the core's first tile". -/
def firstW2 (i : grid2.Coords) : BitVec 1 :=
  Scalar.cmpi .ne (Scalar.extui (Scalar.cmpi .eq (BitVec.ofNat 32 (i 1).val) 0#32)) 0#32

/-- One gated step of the target rows' gather: under the gate the step's payload of the rows so far. -/
def xiStep2 (g : BitVec 1) (pay : Vec F S256x128 .f32 → FVec F S256x128 .f32) (X : Vec F S256x128 .f32) : Vec F S256x128 .f32 :=
  if g = 1#1 then pay X else X

/-- The target rows the tile gathers: zero, then chunk by chunk under the gates. -/
def xi2 (i : grid2.Coords) (x2 x3 : Vec F S1250 .i32) (x5 : Vec F S256x1 .i32) (x6 : Vec F S10240x128 .f32) :
    Vec F S256x128 .f32 :=
  (xiStep2 (Cert.Spec.gateWord (loW2 i x2) (hiW2 i x3) 9#32) (k2_pay22 (k2_pay3 x5) (View.ld x6 (Rect.unit (s := S10240x128) ![9216, 0] S1024x128.size inb_S10240x128_S1024x128_9216_0)))
      (xiStep2 (Cert.Spec.gateWord (loW2 i x2) (hiW2 i x3) 8#32) (k2_pay21 (k2_pay3 x5) (View.ld x6 (Rect.unit (s := S10240x128) ![8192, 0] S1024x128.size inb_S10240x128_S1024x128_8192_0)))
      (xiStep2 (Cert.Spec.gateWord (loW2 i x2) (hiW2 i x3) 7#32) (k2_pay20 (k2_pay3 x5) (View.ld x6 (Rect.unit (s := S10240x128) ![7168, 0] S1024x128.size inb_S10240x128_S1024x128_7168_0)))
      (xiStep2 (Cert.Spec.gateWord (loW2 i x2) (hiW2 i x3) 6#32) (k2_pay19 (k2_pay3 x5) (View.ld x6 (Rect.unit (s := S10240x128) ![6144, 0] S1024x128.size inb_S10240x128_S1024x128_6144_0)))
      (xiStep2 (Cert.Spec.gateWord (loW2 i x2) (hiW2 i x3) 5#32) (k2_pay18 (k2_pay3 x5) (View.ld x6 (Rect.unit (s := S10240x128) ![5120, 0] S1024x128.size inb_S10240x128_S1024x128_5120_0)))
      (xiStep2 (Cert.Spec.gateWord (loW2 i x2) (hiW2 i x3) 4#32) (k2_pay17 (k2_pay3 x5) (View.ld x6 (Rect.unit (s := S10240x128) ![4096, 0] S1024x128.size inb_S10240x128_S1024x128_4096_0)))
      (xiStep2 (Cert.Spec.gateWord (loW2 i x2) (hiW2 i x3) 3#32) (k2_pay16 (k2_pay3 x5) (View.ld x6 (Rect.unit (s := S10240x128) ![3072, 0] S1024x128.size inb_S10240x128_S1024x128_3072_0)))
      (xiStep2 (Cert.Spec.gateWord (loW2 i x2) (hiW2 i x3) 2#32) (k2_pay15 (k2_pay3 x5) (View.ld x6 (Rect.unit (s := S10240x128) ![2048, 0] S1024x128.size inb_S10240x128_S1024x128_2048_0)))
      (xiStep2 (Cert.Spec.gateWord (loW2 i x2) (hiW2 i x3) 1#32) (k2_pay14 (k2_pay3 x5) (View.ld x6 (Rect.unit (s := S10240x128) ![1024, 0] S1024x128.size inb_S10240x128_S1024x128_1024_0)))
      (xiStep2 (Cert.Spec.gateWord (loW2 i x2) (hiW2 i x3) 0#32) (k2_pay13 (k2_pay3 x5) (View.ld x6 (Rect.unit (s := S10240x128) ![0, 0] S1024x128.size inb_S10240x128_S1024x128_0_0)))
      (k2_pay12 (F := F))))))))))))

/-- The source rows the tile gathers: every chunk's one-hot product, added up. -/
def xj2 (x4 : Vec F S256x1 .i32) (x6 : Vec F S10240x128 .f32) : FVec F S256x128 .f32 :=
  k2_pay11
    (k2_pay9 (k2_pay4 x4)
      (k2_pay7 (k2_pay4 x4) (k2_pay5 x4 (View.ld x6 (Rect.unit (s := S10240x128) ![0, 0] S1024x128.size inb_S10240x128_S1024x128_0_0)) (View.ld x6 (Rect.unit (s := S10240x128) ![1024, 0] S1024x128.size inb_S10240x128_S1024x128_1024_0))) (k2_pay6 x4)
        (iota Kind.tc S256x1024 32 [1] iota_S256x1024_d1_w32) (2048#32)
        (View.ld x6 (Rect.unit (s := S10240x128) ![2048, 0] S1024x128.size inb_S10240x128_S1024x128_2048_0)) (View.ld x6 (Rect.unit (s := S10240x128) ![3072, 0] S1024x128.size inb_S10240x128_S1024x128_3072_0)) (View.ld x6 (Rect.unit (s := S10240x128) ![4096, 0] S1024x128.size inb_S10240x128_S1024x128_4096_0)))
      (k2_pay8 (k2_pay4 x4) (View.ld x6 (Rect.unit (s := S10240x128) ![5120, 0] S1024x128.size inb_S10240x128_S1024x128_5120_0)))
      (View.ld x6 (Rect.unit (s := S10240x128) ![6144, 0] S1024x128.size inb_S10240x128_S1024x128_6144_0)) (View.ld x6 (Rect.unit (s := S10240x128) ![7168, 0] S1024x128.size inb_S10240x128_S1024x128_7168_0)) (View.ld x6 (Rect.unit (s := S10240x128) ![8192, 0] S1024x128.size inb_S10240x128_S1024x128_8192_0)))
    (k2_pay10 (k2_pay4 x4))
    (View.ld x6 (Rect.unit (s := S10240x128) ![9216, 0] S1024x128.size inb_S10240x128_S1024x128_9216_0))

/-- The perceptron's first hidden row of every edge of the tile. -/
def hid2 (i : grid2.Coords) (x2 x3 : Vec F S1250 .i32) (x4 x5 : Vec F S256x1 .i32) (x6 : Vec F S10240x128 .f32)
    (x7 : Vec F S256x128 .f32) (x8 : Vec F S1x128 .f32) : FVec F S256x128 .f32 :=
  k2_pay23 (xj2 x4 x6) (xi2 i x2 x3 x5 x6) x7 x8

/-- The message of every edge of the tile. -/
def msg2 (i : grid2.Coords) (x2 x3 : Vec F S1250 .i32) (x4 x5 : Vec F S256x1 .i32) (x6 : Vec F S10240x128 .f32)
    (x7 : Vec F S256x128 .f32) (x8 : Vec F S1x128 .f32) (x9 : Vec F S128x128 .f32) (x10 : Vec F S1x128 .f32)
    (x11 : Vec F S128x128 .f32) (x12 : Vec F S1x128 .f32) : FVec F S256x128 .f32 :=
  k2_pay24 (hid2 i x2 x3 x4 x5 x6 x7 x8) (FloatOps.ofBits FTy.f32 0#32) x9 x10 x11 x12

/-- The accumulator the chunk steps start from: zero at the core's first tile, else what the tile before left. -/
def accReset2 (i : grid2.Coords) (x14 : Vec F S10240x128 .f32) : Vec F S10240x128 .f32 :=
  if firstW2 i = 1#1 then k2_pay2 else x14

/-- One gated chunk step of the scatter: under the gate the chunk's rows replaced by the step's payload of them. -/
def accStep2 (g : BitVec 1) (R : Rect S10240x128) (pay : (R.shape.Idx → Elt F .f32) → (R.shape.Idx → Elt F .f32))
    (A : Vec F S10240x128 .f32) : Vec F S10240x128 .f32 :=
  gatedVal g R pay A

/-- The accumulator after the body at point `i`. -/
def stepAcc2 (i : grid2.Coords) (x2 x3 : Vec F S1250 .i32) (x4 x5 : Vec F S256x1 .i32) (x6 : Vec F S10240x128 .f32)
    (x7 : Vec F S256x128 .f32) (x8 : Vec F S1x128 .f32) (x9 : Vec F S128x128 .f32) (x10 : Vec F S1x128 .f32)
    (x11 : Vec F S128x128 .f32) (x12 : Vec F S1x128 .f32) (x14 : Vec F S10240x128 .f32) : Vec F S10240x128 .f32 :=
  (accStep2 (Cert.Spec.gateWord (loW2 i x2) (hiW2 i x3) 9#32) (Rect.unit (s := S10240x128) ![9216, 0] S1024x128.size inb_S10240x128_S1024x128_9216_0)
      (k2_pay34 (k2_pay3 x5) (msg2 i x2 x3 x4 x5 x6 x7 x8 x9 x10 x11 x12))
      (accStep2 (Cert.Spec.gateWord (loW2 i x2) (hiW2 i x3) 8#32) (Rect.unit (s := S10240x128) ![8192, 0] S1024x128.size inb_S10240x128_S1024x128_8192_0)
      (k2_pay33 (k2_pay3 x5) (msg2 i x2 x3 x4 x5 x6 x7 x8 x9 x10 x11 x12))
      (accStep2 (Cert.Spec.gateWord (loW2 i x2) (hiW2 i x3) 7#32) (Rect.unit (s := S10240x128) ![7168, 0] S1024x128.size inb_S10240x128_S1024x128_7168_0)
      (k2_pay32 (k2_pay3 x5) (msg2 i x2 x3 x4 x5 x6 x7 x8 x9 x10 x11 x12))
      (accStep2 (Cert.Spec.gateWord (loW2 i x2) (hiW2 i x3) 6#32) (Rect.unit (s := S10240x128) ![6144, 0] S1024x128.size inb_S10240x128_S1024x128_6144_0)
      (k2_pay31 (k2_pay3 x5) (msg2 i x2 x3 x4 x5 x6 x7 x8 x9 x10 x11 x12))
      (accStep2 (Cert.Spec.gateWord (loW2 i x2) (hiW2 i x3) 5#32) (Rect.unit (s := S10240x128) ![5120, 0] S1024x128.size inb_S10240x128_S1024x128_5120_0)
      (k2_pay30 (k2_pay3 x5) (msg2 i x2 x3 x4 x5 x6 x7 x8 x9 x10 x11 x12))
      (accStep2 (Cert.Spec.gateWord (loW2 i x2) (hiW2 i x3) 4#32) (Rect.unit (s := S10240x128) ![4096, 0] S1024x128.size inb_S10240x128_S1024x128_4096_0)
      (k2_pay29 (k2_pay3 x5) (msg2 i x2 x3 x4 x5 x6 x7 x8 x9 x10 x11 x12))
      (accStep2 (Cert.Spec.gateWord (loW2 i x2) (hiW2 i x3) 3#32) (Rect.unit (s := S10240x128) ![3072, 0] S1024x128.size inb_S10240x128_S1024x128_3072_0)
      (k2_pay28 (k2_pay3 x5) (msg2 i x2 x3 x4 x5 x6 x7 x8 x9 x10 x11 x12))
      (accStep2 (Cert.Spec.gateWord (loW2 i x2) (hiW2 i x3) 2#32) (Rect.unit (s := S10240x128) ![2048, 0] S1024x128.size inb_S10240x128_S1024x128_2048_0)
      (k2_pay27 (k2_pay3 x5) (hid2 i x2 x3 x4 x5 x6 x7 x8) (FloatOps.ofBits FTy.f32 0#32) x9 x10 x11 x12)
      (accStep2 (Cert.Spec.gateWord (loW2 i x2) (hiW2 i x3) 1#32) (Rect.unit (s := S10240x128) ![1024, 0] S1024x128.size inb_S10240x128_S1024x128_1024_0)
      (k2_pay26 (k2_pay3 x5) (hid2 i x2 x3 x4 x5 x6 x7 x8) (FloatOps.ofBits FTy.f32 0#32) x9 x10 x11 x12)
      (accStep2 (Cert.Spec.gateWord (loW2 i x2) (hiW2 i x3) 0#32) (Rect.unit (s := S10240x128) ![0, 0] S1024x128.size inb_S10240x128_S1024x128_0_0)
      (k2_pay25 (k2_pay3 x5) (hid2 i x2 x3 x4 x5 x6 x7 x8) (FloatOps.ofBits FTy.f32 0#32) x9 x10 x11 x12)
      (accReset2 i x14)))))))))))

end Cert.Kernel.Gen

end
-- ==== Proof.StepK2.lean ====
import proofs.«414286_j65627100283289_3_alg».proof.Proof.BodyK2
import proofs.«414286_j65627100283289_3_alg».proof.Proof.StepDefsK2
import Idealize.ShloMosaic.Lib.Pipeline.Frame
import Idealize.ShloMosaic.Lib.Pipeline.FrameBody
import Idealize.ShloMosaic.Lib.Pipeline.Value
import Idealize.ShloMosaic.Lib.Writes

/-!
# What region 2's body leaves, as the functions of `StepDefsI0`

The run of the body found, for the accumulator, ten nested conditionals: under chunk `k`'s gate the contents so far with
chunk `k`'s rows overwritten by a payload of those same rows as loaded from the contents so far, else the contents so
far; at the bottom the reset under the first tile's condition. Each level is one gated read-modify-write of one
rectangle, and the found term IS that nest, by unfolding. What a gated read-modify-write reads is the gated step on
what the contents before read, so reading the nest gives the same nest on VALUES, each level now mentioning the level
below once: the accumulator step of `StepDefsI0`, once the run's names for the table words, the gates, the gathered
rows, the hidden row and the messages are rewritten as those functions. The target-row scratch is the same story with
the whole buffer as its one rectangle, which is why its old contents never show: every store covers it. The output's
staging buffer is stored once, whole, under the last tile's condition, with the accumulator read back whole.
-/

noncomputable section

namespace Cert.Kernel.Gen

open Idealize.ShloMosaic Idealize.ShloMosaic.TcCoe Idealize.ShloMosaic.GatedRmw

variable {F : FTy → Type} [FloatOps F]

/-! ## The run's contents, level by level, as gated read-modify-writes -/

set_option maxRecDepth 65536 in
/-- The accumulator's raw contents the run found are ten gated read-modify-writes over the reset. -/
theorem acc_raw2 (c : Dev nD) (i : grid2.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    (bodyRun2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).1 = (gatedRmw arg14.view (bodyRun2.sl.v187 c i arg2 harg2 arg3 harg3 x2 x3) (Rect.unit (s := S10240x128) ![9216, 0] S1024x128.size inb_S10240x128_S1024x128_9216_0)
      (fun v => k2_pay34 (bodyRun2.sl.r_2 c arg5 harg5 x5) (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun2.sl.v182 c i arg2 harg2 arg3 harg3 x2 x3) (Rect.unit (s := S10240x128) ![8192, 0] S1024x128.size inb_S10240x128_S1024x128_8192_0)
      (fun v => k2_pay33 (bodyRun2.sl.r_2 c arg5 harg5 x5) (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun2.sl.v177 c i arg2 harg2 arg3 harg3 x2 x3) (Rect.unit (s := S10240x128) ![7168, 0] S1024x128.size inb_S10240x128_S1024x128_7168_0)
      (fun v => k2_pay32 (bodyRun2.sl.r_2 c arg5 harg5 x5) (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun2.sl.v172 c i arg2 harg2 arg3 harg3 x2 x3) (Rect.unit (s := S10240x128) ![6144, 0] S1024x128.size inb_S10240x128_S1024x128_6144_0)
      (fun v => k2_pay31 (bodyRun2.sl.r_2 c arg5 harg5 x5) (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun2.sl.v167 c i arg2 harg2 arg3 harg3 x2 x3) (Rect.unit (s := S10240x128) ![5120, 0] S1024x128.size inb_S10240x128_S1024x128_5120_0)
      (fun v => k2_pay30 (bodyRun2.sl.r_2 c arg5 harg5 x5) (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun2.sl.v162 c i arg2 harg2 arg3 harg3 x2 x3) (Rect.unit (s := S10240x128) ![4096, 0] S1024x128.size inb_S10240x128_S1024x128_4096_0)
      (fun v => k2_pay29 (bodyRun2.sl.r_2 c arg5 harg5 x5) (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun2.sl.v157 c i arg2 harg2 arg3 harg3 x2 x3) (Rect.unit (s := S10240x128) ![3072, 0] S1024x128.size inb_S10240x128_S1024x128_3072_0)
      (fun v => k2_pay28 (bodyRun2.sl.r_2 c arg5 harg5 x5) (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun2.sl.v152 c i arg2 harg2 arg3 harg3 x2 x3) (Rect.unit (s := S10240x128) ![2048, 0] S1024x128.size inb_S10240x128_S1024x128_2048_0)
      (fun v => k2_pay27 (bodyRun2.sl.r_2 c arg5 harg5 x5) (bodyRun2.sl.r_11 c i arg2 harg2 arg3 harg3 arg4 harg4 arg5 harg5 arg6 harg6 arg7 harg7 arg8 harg8 arg15 x2 x3 x4 x5 x6 x7 x8 f15) bodyRun2.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (gatedRmw arg14.view (bodyRun2.sl.v147 c i arg2 harg2 arg3 harg3 x2 x3) (Rect.unit (s := S10240x128) ![1024, 0] S1024x128.size inb_S10240x128_S1024x128_1024_0)
      (fun v => k2_pay26 (bodyRun2.sl.r_2 c arg5 harg5 x5) (bodyRun2.sl.r_11 c i arg2 harg2 arg3 harg3 arg4 harg4 arg5 harg5 arg6 harg6 arg7 harg7 arg8 harg8 arg15 x2 x3 x4 x5 x6 x7 x8 f15) bodyRun2.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (gatedRmw arg14.view (bodyRun2.sl.v142 c i arg2 harg2 arg3 harg3 x2 x3) (Rect.unit (s := S10240x128) ![0, 0] S1024x128.size inb_S10240x128_S1024x128_0_0)
      (fun v => k2_pay25 (bodyRun2.sl.r_2 c arg5 harg5 x5) (bodyRun2.sl.r_11 c i arg2 harg2 arg3 harg3 arg4 harg4 arg5 harg5 arg6 harg6 arg7 harg7 arg8 harg8 arg15 x2 x3 x4 x5 x6 x7 x8 f15) bodyRun2.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (if _hc : bodyRun2.sl.v4 i = 1#1 then arg14.view.writes (Elt F) (harg14.unread x14) [⟨(Rect.unit (s := S10240x128) ![0, 0] S10240x128.size inb_S10240x128_S10240x128_0_0), k2_pay2⟩] else harg14.unread x14))))))))))) := rfl

set_option maxRecDepth 65536 in
/-- The target-row scratch as the hidden layer's load reads it: nine gated read-modify-writes over the first. -/
theorem xi_raw2 (c : Dev nD) (i : grid2.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    (bodyRun2.sl.v188 c i arg2 harg2 arg3 harg3 arg5 harg5 arg6 harg6 arg15 x2 x3 x5 x6 f15) = View.readAt (Elt F) arg15.view (Rect.unit (s := S256x128) ![0, 0] S256x128.size inb_S256x128_S256x128_0_0).toLoadRect (gatedRmw arg15.view (bodyRun2.sl.v187 c i arg2 harg2 arg3 harg3 x2 x3) (Rect.unit (s := S256x128) ![0, 0] S256x128.size inb_S256x128_S256x128_0_0)
      (fun v => k2_pay22 (bodyRun2.sl.r_2 c arg5 harg5 x5) (View.readAt (Elt F) arg6.view (Rect.unit (s := S10240x128) ![9216, 0] S1024x128.size inb_S10240x128_S1024x128_9216_0).toLoadRect (harg6.unread x6)) v)
      (gatedRmw arg15.view (bodyRun2.sl.v182 c i arg2 harg2 arg3 harg3 x2 x3) (Rect.unit (s := S256x128) ![0, 0] S256x128.size inb_S256x128_S256x128_0_0)
      (fun v => k2_pay21 (bodyRun2.sl.r_2 c arg5 harg5 x5) (View.readAt (Elt F) arg6.view (Rect.unit (s := S10240x128) ![8192, 0] S1024x128.size inb_S10240x128_S1024x128_8192_0).toLoadRect (harg6.unread x6)) v)
      (gatedRmw arg15.view (bodyRun2.sl.v177 c i arg2 harg2 arg3 harg3 x2 x3) (Rect.unit (s := S256x128) ![0, 0] S256x128.size inb_S256x128_S256x128_0_0)
      (fun v => k2_pay20 (bodyRun2.sl.r_2 c arg5 harg5 x5) (View.readAt (Elt F) arg6.view (Rect.unit (s := S10240x128) ![7168, 0] S1024x128.size inb_S10240x128_S1024x128_7168_0).toLoadRect (harg6.unread x6)) v)
      (gatedRmw arg15.view (bodyRun2.sl.v172 c i arg2 harg2 arg3 harg3 x2 x3) (Rect.unit (s := S256x128) ![0, 0] S256x128.size inb_S256x128_S256x128_0_0)
      (fun v => k2_pay19 (bodyRun2.sl.r_2 c arg5 harg5 x5) (View.readAt (Elt F) arg6.view (Rect.unit (s := S10240x128) ![6144, 0] S1024x128.size inb_S10240x128_S1024x128_6144_0).toLoadRect (harg6.unread x6)) v)
      (gatedRmw arg15.view (bodyRun2.sl.v167 c i arg2 harg2 arg3 harg3 x2 x3) (Rect.unit (s := S256x128) ![0, 0] S256x128.size inb_S256x128_S256x128_0_0)
      (fun v => k2_pay18 (bodyRun2.sl.r_2 c arg5 harg5 x5) (View.readAt (Elt F) arg6.view (Rect.unit (s := S10240x128) ![5120, 0] S1024x128.size inb_S10240x128_S1024x128_5120_0).toLoadRect (harg6.unread x6)) v)
      (gatedRmw arg15.view (bodyRun2.sl.v162 c i arg2 harg2 arg3 harg3 x2 x3) (Rect.unit (s := S256x128) ![0, 0] S256x128.size inb_S256x128_S256x128_0_0)
      (fun v => k2_pay17 (bodyRun2.sl.r_2 c arg5 harg5 x5) (View.readAt (Elt F) arg6.view (Rect.unit (s := S10240x128) ![4096, 0] S1024x128.size inb_S10240x128_S1024x128_4096_0).toLoadRect (harg6.unread x6)) v)
      (gatedRmw arg15.view (bodyRun2.sl.v157 c i arg2 harg2 arg3 harg3 x2 x3) (Rect.unit (s := S256x128) ![0, 0] S256x128.size inb_S256x128_S256x128_0_0)
      (fun v => k2_pay16 (bodyRun2.sl.r_2 c arg5 harg5 x5) (View.readAt (Elt F) arg6.view (Rect.unit (s := S10240x128) ![3072, 0] S1024x128.size inb_S10240x128_S1024x128_3072_0).toLoadRect (harg6.unread x6)) v)
      (gatedRmw arg15.view (bodyRun2.sl.v152 c i arg2 harg2 arg3 harg3 x2 x3) (Rect.unit (s := S256x128) ![0, 0] S256x128.size inb_S256x128_S256x128_0_0)
      (fun v => k2_pay15 (bodyRun2.sl.r_2 c arg5 harg5 x5) (View.readAt (Elt F) arg6.view (Rect.unit (s := S10240x128) ![2048, 0] S1024x128.size inb_S10240x128_S1024x128_2048_0).toLoadRect (harg6.unread x6)) v)
      (gatedRmw arg15.view (bodyRun2.sl.v147 c i arg2 harg2 arg3 harg3 x2 x3) (Rect.unit (s := S256x128) ![0, 0] S256x128.size inb_S256x128_S256x128_0_0)
      (fun v => k2_pay14 (bodyRun2.sl.r_2 c arg5 harg5 x5) (View.readAt (Elt F) arg6.view (Rect.unit (s := S10240x128) ![1024, 0] S1024x128.size inb_S10240x128_S1024x128_1024_0).toLoadRect (harg6.unread x6)) v)
      (if _hc : (bodyRun2.sl.v142 c i arg2 harg2 arg3 harg3 x2 x3) = 1#1 then arg15.view.writes (Elt F) f15 (⟨(Rect.unit (s := S256x128) ![0, 0] S256x128.size inb_S256x128_S256x128_0_0), k2_pay13 (bodyRun2.sl.r_2 c arg5 harg5 x5) (View.readAt (Elt F) arg6.view (Rect.unit (s := S10240x128) ![0, 0] S1024x128.size inb_S10240x128_S1024x128_0_0).toLoadRect (harg6.unread x6)) (bodyRun2.sl.v277 arg15)⟩ :: bodyRun2.sl.H15_1) else arg15.view.writes (Elt F) f15 bodyRun2.sl.H15_1)))))))))) := rfl

set_option maxRecDepth 65536 in
/-- The write-out's load of the whole accumulator reads the same raw contents. -/
theorem v266_raw2 (c : Dev nD) (i : grid2.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    (bodyRun2.sl.v266 c i arg2 harg2 arg3 harg3 arg4 harg4 arg5 harg5 arg6 harg6 arg7 harg7 arg8 harg8 arg9 harg9 arg10 harg10 arg11 harg11 arg12 harg12 arg14 harg14 arg15 x2 x3 x4 x5 x6 x7 x8 x9 x10 x11 x12 x14 f15) = View.readAt (Elt F) arg14.view (Rect.unit (s := S10240x128) ![0, 0] S10240x128.size inb_S10240x128_S10240x128_0_0).toLoadRect (gatedRmw arg14.view (bodyRun2.sl.v187 c i arg2 harg2 arg3 harg3 x2 x3) (Rect.unit (s := S10240x128) ![9216, 0] S1024x128.size inb_S10240x128_S1024x128_9216_0)
      (fun v => k2_pay34 (bodyRun2.sl.r_2 c arg5 harg5 x5) (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun2.sl.v182 c i arg2 harg2 arg3 harg3 x2 x3) (Rect.unit (s := S10240x128) ![8192, 0] S1024x128.size inb_S10240x128_S1024x128_8192_0)
      (fun v => k2_pay33 (bodyRun2.sl.r_2 c arg5 harg5 x5) (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun2.sl.v177 c i arg2 harg2 arg3 harg3 x2 x3) (Rect.unit (s := S10240x128) ![7168, 0] S1024x128.size inb_S10240x128_S1024x128_7168_0)
      (fun v => k2_pay32 (bodyRun2.sl.r_2 c arg5 harg5 x5) (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun2.sl.v172 c i arg2 harg2 arg3 harg3 x2 x3) (Rect.unit (s := S10240x128) ![6144, 0] S1024x128.size inb_S10240x128_S1024x128_6144_0)
      (fun v => k2_pay31 (bodyRun2.sl.r_2 c arg5 harg5 x5) (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun2.sl.v167 c i arg2 harg2 arg3 harg3 x2 x3) (Rect.unit (s := S10240x128) ![5120, 0] S1024x128.size inb_S10240x128_S1024x128_5120_0)
      (fun v => k2_pay30 (bodyRun2.sl.r_2 c arg5 harg5 x5) (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun2.sl.v162 c i arg2 harg2 arg3 harg3 x2 x3) (Rect.unit (s := S10240x128) ![4096, 0] S1024x128.size inb_S10240x128_S1024x128_4096_0)
      (fun v => k2_pay29 (bodyRun2.sl.r_2 c arg5 harg5 x5) (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun2.sl.v157 c i arg2 harg2 arg3 harg3 x2 x3) (Rect.unit (s := S10240x128) ![3072, 0] S1024x128.size inb_S10240x128_S1024x128_3072_0)
      (fun v => k2_pay28 (bodyRun2.sl.r_2 c arg5 harg5 x5) (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun2.sl.v152 c i arg2 harg2 arg3 harg3 x2 x3) (Rect.unit (s := S10240x128) ![2048, 0] S1024x128.size inb_S10240x128_S1024x128_2048_0)
      (fun v => k2_pay27 (bodyRun2.sl.r_2 c arg5 harg5 x5) (bodyRun2.sl.r_11 c i arg2 harg2 arg3 harg3 arg4 harg4 arg5 harg5 arg6 harg6 arg7 harg7 arg8 harg8 arg15 x2 x3 x4 x5 x6 x7 x8 f15) bodyRun2.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (gatedRmw arg14.view (bodyRun2.sl.v147 c i arg2 harg2 arg3 harg3 x2 x3) (Rect.unit (s := S10240x128) ![1024, 0] S1024x128.size inb_S10240x128_S1024x128_1024_0)
      (fun v => k2_pay26 (bodyRun2.sl.r_2 c arg5 harg5 x5) (bodyRun2.sl.r_11 c i arg2 harg2 arg3 harg3 arg4 harg4 arg5 harg5 arg6 harg6 arg7 harg7 arg8 harg8 arg15 x2 x3 x4 x5 x6 x7 x8 f15) bodyRun2.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (gatedRmw arg14.view (bodyRun2.sl.v142 c i arg2 harg2 arg3 harg3 x2 x3) (Rect.unit (s := S10240x128) ![0, 0] S1024x128.size inb_S10240x128_S1024x128_0_0)
      (fun v => k2_pay25 (bodyRun2.sl.r_2 c arg5 harg5 x5) (bodyRun2.sl.r_11 c i arg2 harg2 arg3 harg3 arg4 harg4 arg5 harg5 arg6 harg6 arg7 harg7 arg8 harg8 arg15 x2 x3 x4 x5 x6 x7 x8 f15) bodyRun2.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (if _hc : bodyRun2.sl.v4 i = 1#1 then arg14.view.writes (Elt F) (harg14.unread x14) [⟨(Rect.unit (s := S10240x128) ![0, 0] S10240x128.size inb_S10240x128_S10240x128_0_0), k2_pay2⟩] else harg14.unread x14))))))))))) := rfl

set_option maxRecDepth 65536 in
/-- The output's staging buffer: one whole store under the last tile's condition. -/
theorem out_raw2 (c : Dev nD) (i : grid2.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    (bodyRun2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).2.2.1 = (if _hc : k2_cond22 i = 1#1 then arg13.view.writes (Elt F) f13 [⟨(Rect.unit (s := S1x10240x128) ![0, 0, 0] S1x10240x128.size inb_S1x10240x128_S1x10240x128_0_0_0), k2_pay1 (bodyRun2.sl.v266 c i arg2 harg2 arg3 harg3 arg4 harg4 arg5 harg5 arg6 harg6 arg7 harg7 arg8 harg8 arg9 harg9 arg10 harg10 arg11 harg11 arg12 harg12 arg14 harg14 arg15 x2 x3 x4 x5 x6 x7 x8 x9 x10 x11 x12 x14 f15)⟩] else f13) := rfl

/-! ## Loads off whole buffers, and the run's names as the functions of `StepDefsI0` -/

/-- A load off a whole buffer held at the raw contents of `X` reads `X` through the rectangle. -/
private theorem readAt_unread_ld2 {sp : Space} {s : Shape} {e : EltTy} (m : Memref sig .tc sp s e) (h : m.IsWhole)
    (X : s.Idx → Elt F e) (R : Rect s) : View.readAt (Elt F) m.view R.toLoadRect (h.unread X) = View.ld X R := by
  rw [View.readAt_eq_ld, h.read_unread]

private theorem ld_w_col2 {Val : EltTy → Type} {e : EltTy} (X : S256x1.Idx → Val e) : View.ld X (Rect.unit (s := S256x1) ![0, 0] S256x1.size inb_S256x1_S256x1_0_0) = X :=
  View.ld_unit_zero (by funext j; fin_cases j <;> rfl) _ X
private theorem ld_w_wA2 {Val : EltTy → Type} {e : EltTy} (X : S256x128.Idx → Val e) : View.ld X (Rect.unit (s := S256x128) ![0, 0] S256x128.size inb_S256x128_S256x128_0_0) = X :=
  View.ld_unit_zero (by funext j; fin_cases j <;> rfl) _ X
private theorem ld_w_bias2 {Val : EltTy → Type} {e : EltTy} (X : S1x128.Idx → Val e) : View.ld X (Rect.unit (s := S1x128) ![0, 0] S1x128.size inb_S1x128_S1x128_0_0) = X :=
  View.ld_unit_zero (by funext j; fin_cases j <;> rfl) _ X
private theorem ld_w_wB2 {Val : EltTy → Type} {e : EltTy} (X : S128x128.Idx → Val e) : View.ld X (Rect.unit (s := S128x128) ![0, 0] S128x128.size inb_S128x128_S128x128_0_0) = X :=
  View.ld_unit_zero (by funext j; fin_cases j <;> rfl) _ X
private theorem ld_w_rows2 {Val : EltTy → Type} {e : EltTy} (X : S256x128.Idx → Val e) : View.ld X (Rect.unit (s := S256x128) ![0, 0] S256x128.size inb_S256x128_S256x128_0_0) = X :=
  View.ld_unit_zero (by funext j; fin_cases j <;> rfl) _ X
private theorem ld_w_acc2 {Val : EltTy → Type} {e : EltTy} (X : S10240x128.Idx → Val e) : View.ld X (Rect.unit (s := S10240x128) ![0, 0] S10240x128.size inb_S10240x128_S10240x128_0_0) = X :=
  View.ld_unit_zero (by funext j; fin_cases j <;> rfl) _ X

/-- A store through the whole-shape rectangle, last, leaves its payload. -/
private theorem read_writes_cons_whole2 {sp : Space} {s : Shape} {e : EltTy} (v : View sig .tc sp s e)
    (f : v.ty.Contents (Elt F)) {off : Fin s.rank → Nat} (h0 : off = fun _ => 0) (inb : ∀ a, off a + s.size a ≤ s.size a)
    (w : (Rect.unit off s.size inb).shape.Idx → Elt F e) (L : List (View.Piece (Elt F) s e)) :
    v.read (Elt F) (v.writes (Elt F) f (⟨Rect.unit off s.size inb, w⟩ :: L)) = w := by
  subst h0
  funext y
  have e1 := View.read_writes_cons_emb v f (Rect.whole s) w L y
  rw [Rect.emb_whole_apply] at e1
  exact e1

private theorem lo_eq2 (c : Dev nD) (i : grid2.Coords) (arg2 : Memref sig .tc .smem S1250 .i32) (harg2 : arg2.IsWhole)
    (x2 : Vec F S1250 .i32) : bodyRun2.sl.r c i arg2 harg2 x2 = loW2 i x2 := by
  unfold bodyRun2.sl.r loW2
  rw [readAt_unread_ld2]

private theorem hi_eq2 (c : Dev nD) (i : grid2.Coords) (arg3 : Memref sig .tc .smem S1250 .i32) (harg3 : arg3.IsWhole)
    (x3 : Vec F S1250 .i32) : bodyRun2.sl.r_1 c i arg3 harg3 x3 = hiW2 i x3 := by
  unfold bodyRun2.sl.r_1 hiW2
  rw [readAt_unread_ld2]

private theorem gate2_0 (c : Dev nD) (i : grid2.Coords) (arg2 : Memref sig .tc .smem S1250 .i32) (harg2 : arg2.IsWhole) (arg3 : Memref sig .tc .smem S1250 .i32) (harg3 : arg3.IsWhole) (x2 x3 : Vec F S1250 .i32) :
    bodyRun2.sl.v142 c i arg2 harg2 arg3 harg3 x2 x3 = Cert.Spec.gateWord (loW2 i x2) (hiW2 i x3) 0#32 := by
  unfold bodyRun2.sl.v142 bodyRun2.sl.v141 bodyRun2.sl.v140 bodyRun2.sl.v138 bodyRun2.sl.v139
  rw [lo_eq2, hi_eq2]; rfl
private theorem gate2_1 (c : Dev nD) (i : grid2.Coords) (arg2 : Memref sig .tc .smem S1250 .i32) (harg2 : arg2.IsWhole) (arg3 : Memref sig .tc .smem S1250 .i32) (harg3 : arg3.IsWhole) (x2 x3 : Vec F S1250 .i32) :
    bodyRun2.sl.v147 c i arg2 harg2 arg3 harg3 x2 x3 = Cert.Spec.gateWord (loW2 i x2) (hiW2 i x3) 1#32 := by
  unfold bodyRun2.sl.v147 bodyRun2.sl.v146 bodyRun2.sl.v145 bodyRun2.sl.v143 bodyRun2.sl.v144
  rw [lo_eq2, hi_eq2]; rfl
private theorem gate2_2 (c : Dev nD) (i : grid2.Coords) (arg2 : Memref sig .tc .smem S1250 .i32) (harg2 : arg2.IsWhole) (arg3 : Memref sig .tc .smem S1250 .i32) (harg3 : arg3.IsWhole) (x2 x3 : Vec F S1250 .i32) :
    bodyRun2.sl.v152 c i arg2 harg2 arg3 harg3 x2 x3 = Cert.Spec.gateWord (loW2 i x2) (hiW2 i x3) 2#32 := by
  unfold bodyRun2.sl.v152 bodyRun2.sl.v151 bodyRun2.sl.v150 bodyRun2.sl.v148 bodyRun2.sl.v149
  rw [lo_eq2, hi_eq2]; rfl
private theorem gate2_3 (c : Dev nD) (i : grid2.Coords) (arg2 : Memref sig .tc .smem S1250 .i32) (harg2 : arg2.IsWhole) (arg3 : Memref sig .tc .smem S1250 .i32) (harg3 : arg3.IsWhole) (x2 x3 : Vec F S1250 .i32) :
    bodyRun2.sl.v157 c i arg2 harg2 arg3 harg3 x2 x3 = Cert.Spec.gateWord (loW2 i x2) (hiW2 i x3) 3#32 := by
  unfold bodyRun2.sl.v157 bodyRun2.sl.v156 bodyRun2.sl.v155 bodyRun2.sl.v153 bodyRun2.sl.v154
  rw [lo_eq2, hi_eq2]; rfl
private theorem gate2_4 (c : Dev nD) (i : grid2.Coords) (arg2 : Memref sig .tc .smem S1250 .i32) (harg2 : arg2.IsWhole) (arg3 : Memref sig .tc .smem S1250 .i32) (harg3 : arg3.IsWhole) (x2 x3 : Vec F S1250 .i32) :
    bodyRun2.sl.v162 c i arg2 harg2 arg3 harg3 x2 x3 = Cert.Spec.gateWord (loW2 i x2) (hiW2 i x3) 4#32 := by
  unfold bodyRun2.sl.v162 bodyRun2.sl.v161 bodyRun2.sl.v160 bodyRun2.sl.v158 bodyRun2.sl.v159
  rw [lo_eq2, hi_eq2]; rfl
private theorem gate2_5 (c : Dev nD) (i : grid2.Coords) (arg2 : Memref sig .tc .smem S1250 .i32) (harg2 : arg2.IsWhole) (arg3 : Memref sig .tc .smem S1250 .i32) (harg3 : arg3.IsWhole) (x2 x3 : Vec F S1250 .i32) :
    bodyRun2.sl.v167 c i arg2 harg2 arg3 harg3 x2 x3 = Cert.Spec.gateWord (loW2 i x2) (hiW2 i x3) 5#32 := by
  unfold bodyRun2.sl.v167 bodyRun2.sl.v166 bodyRun2.sl.v165 bodyRun2.sl.v163 bodyRun2.sl.v164
  rw [lo_eq2, hi_eq2]; rfl
private theorem gate2_6 (c : Dev nD) (i : grid2.Coords) (arg2 : Memref sig .tc .smem S1250 .i32) (harg2 : arg2.IsWhole) (arg3 : Memref sig .tc .smem S1250 .i32) (harg3 : arg3.IsWhole) (x2 x3 : Vec F S1250 .i32) :
    bodyRun2.sl.v172 c i arg2 harg2 arg3 harg3 x2 x3 = Cert.Spec.gateWord (loW2 i x2) (hiW2 i x3) 6#32 := by
  unfold bodyRun2.sl.v172 bodyRun2.sl.v171 bodyRun2.sl.v170 bodyRun2.sl.v168 bodyRun2.sl.v169
  rw [lo_eq2, hi_eq2]; rfl
private theorem gate2_7 (c : Dev nD) (i : grid2.Coords) (arg2 : Memref sig .tc .smem S1250 .i32) (harg2 : arg2.IsWhole) (arg3 : Memref sig .tc .smem S1250 .i32) (harg3 : arg3.IsWhole) (x2 x3 : Vec F S1250 .i32) :
    bodyRun2.sl.v177 c i arg2 harg2 arg3 harg3 x2 x3 = Cert.Spec.gateWord (loW2 i x2) (hiW2 i x3) 7#32 := by
  unfold bodyRun2.sl.v177 bodyRun2.sl.v176 bodyRun2.sl.v175 bodyRun2.sl.v173 bodyRun2.sl.v174
  rw [lo_eq2, hi_eq2]; rfl
private theorem gate2_8 (c : Dev nD) (i : grid2.Coords) (arg2 : Memref sig .tc .smem S1250 .i32) (harg2 : arg2.IsWhole) (arg3 : Memref sig .tc .smem S1250 .i32) (harg3 : arg3.IsWhole) (x2 x3 : Vec F S1250 .i32) :
    bodyRun2.sl.v182 c i arg2 harg2 arg3 harg3 x2 x3 = Cert.Spec.gateWord (loW2 i x2) (hiW2 i x3) 8#32 := by
  unfold bodyRun2.sl.v182 bodyRun2.sl.v181 bodyRun2.sl.v180 bodyRun2.sl.v178 bodyRun2.sl.v179
  rw [lo_eq2, hi_eq2]; rfl
private theorem gate2_9 (c : Dev nD) (i : grid2.Coords) (arg2 : Memref sig .tc .smem S1250 .i32) (harg2 : arg2.IsWhole) (arg3 : Memref sig .tc .smem S1250 .i32) (harg3 : arg3.IsWhole) (x2 x3 : Vec F S1250 .i32) :
    bodyRun2.sl.v187 c i arg2 harg2 arg3 harg3 x2 x3 = Cert.Spec.gateWord (loW2 i x2) (hiW2 i x3) 9#32 := by
  unfold bodyRun2.sl.v187 bodyRun2.sl.v186 bodyRun2.sl.v185 bodyRun2.sl.v183 bodyRun2.sl.v184
  rw [lo_eq2, hi_eq2]; rfl

private theorem first_eq2 (i : grid2.Coords) : bodyRun2.sl.v4 i = firstW2 i := rfl

private theorem r2_eq2 (c : Dev nD) (arg5 : Memref sig .tc .vmem S256x1 .i32) (harg5 : arg5.IsWhole) (x5 : Vec F S256x1 .i32) :
    bodyRun2.sl.r_2 c arg5 harg5 x5 = k2_pay3 x5 := by
  unfold bodyRun2.sl.r_2
  rw [readAt_unread_ld2, ld_w_col2]

private theorem xj_eq2 (c : Dev nD) (arg4 : Memref sig .tc .vmem S256x1 .i32) (harg4 : arg4.IsWhole)
    (arg6 : Memref sig .tc .vmem S10240x128 .f32) (harg6 : arg6.IsWhole) (x4 : Vec F S256x1 .i32) (x6 : Vec F S10240x128 .f32) :
    bodyRun2.sl.r_10 c arg4 harg4 arg6 harg6 x4 x6 = xj2 x4 x6 := by
  unfold bodyRun2.sl.r_10 bodyRun2.sl.r_9 bodyRun2.sl.r_8 bodyRun2.sl.r_7 bodyRun2.sl.r_6 bodyRun2.sl.r_5 bodyRun2.sl.r_4
    bodyRun2.sl.r_3 bodyRun2.sl.v39 xj2
  simp only [readAt_unread_ld2]
  rw [ld_w_col2 x4]

private theorem v277_eq2 (arg15 : Memref sig .tc .vmem S256x128 .f32) :
    bodyRun2.sl.v277 (F := F) arg15 = k2_pay12 := by
  unfold bodyRun2.sl.v277 bodyRun2.sl.H15_1
  exact View.readCov_unit_zero _ (by funext j; fin_cases j <;> rfl) _ _

/-- The first gated step of the target rows' gather, whose store the run listed with the zero fill. -/
private theorem read_xi_first2 (arg15 : Memref sig .tc .vmem S256x128 .f32) (g : BitVec 1)
    (f15 : BufTy.Contents (Elt F) arg15.view.ty) (w : ((Rect.unit (s := S256x128) ![0, 0] S256x128.size inb_S256x128_S256x128_0_0).shape.Idx → Elt F .f32) → ((Rect.unit (s := S256x128) ![0, 0] S256x128.size inb_S256x128_S256x128_0_0).shape.Idx → Elt F .f32)) :
    arg15.view.read (Elt F) (if _hc : g = 1#1 then arg15.view.writes (Elt F) f15 (⟨(Rect.unit (s := S256x128) ![0, 0] S256x128.size inb_S256x128_S256x128_0_0), w (bodyRun2.sl.v277 arg15)⟩ :: bodyRun2.sl.H15_1) else arg15.view.writes (Elt F) f15 bodyRun2.sl.H15_1)
      = xiStep2 g w k2_pay12 := by
  unfold xiStep2
  by_cases h : g = 1#1
  · rw [dif_pos h, if_pos h, read_writes_cons_whole2 _ _ (by funext j; fin_cases j <;> rfl), v277_eq2]
  · rw [dif_neg h, if_neg h]
    unfold bodyRun2.sl.H15_1
    rw [read_writes_cons_whole2 _ _ (by funext j; fin_cases j <;> rfl)]

/-- A later gated step of it. -/
private theorem read_xi_step2 (arg15 : Memref sig .tc .vmem S256x128 .f32) (g : BitVec 1)
    (w : ((Rect.unit (s := S256x128) ![0, 0] S256x128.size inb_S256x128_S256x128_0_0).shape.Idx → Elt F .f32) → ((Rect.unit (s := S256x128) ![0, 0] S256x128.size inb_S256x128_S256x128_0_0).shape.Idx → Elt F .f32)) (D : BufTy.Contents (Elt F) arg15.view.ty) :
    arg15.view.read (Elt F) (gatedRmw arg15.view g (Rect.unit (s := S256x128) ![0, 0] S256x128.size inb_S256x128_S256x128_0_0) w D) = xiStep2 g w (arg15.view.read (Elt F) D) := by
  rw [read_gatedRmw, gatedVal_whole (by funext j; fin_cases j <;> rfl)]
  rfl

theorem xi_eq2 (c : Dev nD) (i : grid2.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) : (bodyRun2.sl.v188 c i arg2 harg2 arg3 harg3 arg5 harg5 arg6 harg6 arg15 x2 x3 x5 x6 f15) = xi2 i x2 x3 x5 x6 := by
  rw [xi_raw2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, View.readAt_eq_ld, ld_w_rows2]
  rw [read_xi_step2, read_xi_step2, read_xi_step2, read_xi_step2, read_xi_step2, read_xi_step2, read_xi_step2, read_xi_step2, read_xi_step2, read_xi_first2]
  simp only [gate2_0, gate2_1, gate2_2, gate2_3, gate2_4, gate2_5, gate2_6, gate2_7, gate2_8, gate2_9, r2_eq2, readAt_unread_ld2]
  rfl

theorem hid_eq2 (c : Dev nD) (i : grid2.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) : (bodyRun2.sl.r_11 c i arg2 harg2 arg3 harg3 arg4 harg4 arg5 harg5 arg6 harg6 arg7 harg7 arg8 harg8 arg15 x2 x3 x4 x5 x6 x7 x8 f15) = hid2 i x2 x3 x4 x5 x6 x7 x8 := by
  unfold bodyRun2.sl.r_11 hid2
  rw [xi_eq2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, xj_eq2, readAt_unread_ld2, readAt_unread_ld2, ld_w_wA2 x7, ld_w_bias2 x8]

theorem msg_eq2 (c : Dev nD) (i : grid2.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) : (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) = msg2 i x2 x3 x4 x5 x6 x7 x8 x9 x10 x11 x12 := by
  unfold bodyRun2.sl.r_12 msg2
  rw [hid_eq2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15]
  simp only [readAt_unread_ld2]
  rw [ld_w_wB2 x9, ld_w_bias2 x10, ld_w_wB2 x11, ld_w_bias2 x12]
  rfl

private theorem read_accBase2 (i : grid2.Coords) (arg14 : Memref sig .tc .vmem S10240x128 .f32) (harg14 : arg14.IsWhole)
    (x14 : Vec F S10240x128 .f32) :
    arg14.view.read (Elt F) (if _hc : bodyRun2.sl.v4 i = 1#1 then arg14.view.writes (Elt F) (harg14.unread x14) [⟨(Rect.unit (s := S10240x128) ![0, 0] S10240x128.size inb_S10240x128_S10240x128_0_0), k2_pay2⟩] else harg14.unread x14) = accReset2 i x14 := by
  unfold accReset2
  rw [first_eq2]
  by_cases h : firstW2 i = 1#1
  · rw [dif_pos h, if_pos h, read_writes_cons_whole2 _ _ (by funext j; fin_cases j <;> rfl)]
  · rw [dif_neg h, if_neg h, harg14.read_unread]

/-! ## The four facts -/

/-- The accumulator the body leaves reads `stepAcc2` of what the body was handed. -/
theorem bodyRun2_acc (c : Dev nD) (i : grid2.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    arg14.view.read (Elt F) (bodyRun2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).1 = stepAcc2 i x2 x3 x4 x5 x6 x7 x8 x9 x10 x11 x12 x14 := by
  rw [acc_raw2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15]
  simp only [read_gatedRmw]
  rw [read_accBase2]
  simp only [gate2_0, gate2_1, gate2_2, gate2_3, gate2_4, gate2_5, gate2_6, gate2_7, gate2_8, gate2_9, r2_eq2, hid_eq2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, msg_eq2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, readAt_unread_ld2]
  rw [ld_w_wB2 x9, ld_w_bias2 x10, ld_w_wB2 x11, ld_w_bias2 x12]
  rfl

/-- At the core's last tile the output's staging buffer holds the accumulator the body leaves, as a [1, 10240, 128] array. -/
theorem bodyRun2_out_flush (c : Dev nD) (i : grid2.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) (h : k2_cond22 i = 1#1) :
    arg13.view.read (Elt F) (bodyRun2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).2.2.1 = k2_pay1 (stepAcc2 i x2 x3 x4 x5 x6 x7 x8 x9 x10 x11 x12 x14) := by
  rw [out_raw2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, dif_pos h, read_writes_cons_whole2 _ _ (by funext j; fin_cases j <;> rfl), v266_raw2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15,
    View.readAt_eq_ld, ld_w_acc2, ← acc_raw2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, bodyRun2_acc c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15]

/-- At any other tile the body leaves it as it was. -/
theorem bodyRun2_out_idle (c : Dev nD) (i : grid2.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) (h : ¬ k2_cond22 i = 1#1) :
    (bodyRun2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).2.2.1 = f13 := by
  rw [out_raw2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, dif_neg h]

/-- At a core's first tile the accumulator is reset before anything reads it: what the tile before left does not matter. -/
theorem stepAcc2_first (i : grid2.Coords) (h : (i 1).val = 0) (x2 x3 : Vec F S1250 .i32) (x4 x5 : Vec F S256x1 .i32)
    (x6 : Vec F S10240x128 .f32) (x7 : Vec F S256x128 .f32) (x8 : Vec F S1x128 .f32) (x9 : Vec F S128x128 .f32)
    (x10 : Vec F S1x128 .f32) (x11 : Vec F S128x128 .f32) (x12 : Vec F S1x128 .f32) (x14 x14' : Vec F S10240x128 .f32) :
    stepAcc2 i x2 x3 x4 x5 x6 x7 x8 x9 x10 x11 x12 x14 = stepAcc2 i x2 x3 x4 x5 x6 x7 x8 x9 x10 x11 x12 x14' := by
  have hf : firstW2 i = 1#1 := by
    unfold firstW2
    rw [h]
    rfl
  have e : ∀ x : Vec F S10240x128 .f32, accReset2 i x = k2_pay2 := fun x => if_pos hf
  unfold stepAcc2
  rw [e x14, e x14']

end Cert.Kernel.Gen

end
-- ==== Proof.RegionDataK2.lean ====
import proofs.«414286_j65627100283289_3_alg».proof.Proof.Gen.Kernel.Launch
import proofs.«414286_j65627100283289_3_alg».proof.Proof.Gen.Kernel.Skeleton
import proofs.«414286_j65627100283289_3_alg».proof.Proof.BodyK2
import proofs.«414286_j65627100283289_3_alg».proof.Proof.StepDefsK2
import proofs.«414286_j65627100283289_3_alg».proof.Proof.StepK2
import Idealize.ShloMosaic.Lib.Pipeline.Frame
import Idealize.ShloMosaic.Lib.Pipeline.FrameBody
import Idealize.ShloMosaic.Lib.Tactic

/-!
# Region 2's proof data and body obligation

Region 2 is the first EdgeConv layer's kernel: a grid of 2 cores × 625 tiles, two prefetched tables (each tile's lowest
and highest target chunk), ten windows (the tile's source and target columns, the padded node table, six parameter
blocks, and one output block per core) and two scratch buffers: the accumulator, carried from tile to tile within a
core, and the target rows, overwritten at every tile.

The proof data name what every staging buffer holds after the body at every point: an input its block; the output the
accumulator after the point, in the output's shape (read only at a core's last tile, where the block is written back;
at every other tile the body leaves the output's buffer as it found it). The invariant carries the accumulator at the
contents `accAt2 n`, the fold of the body's step `stepAcc2` over the points before `n`; the step at a core's first
tile does not read what it finds, so the fold's start is immaterial. The body's own run and the facts about what it
leaves come from the body's modules.

-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 2 (custom_call 0, pipeline 0): its proof data at the entry contents `V` and the tables' contents `a` -/

section Region2

-- the TensorCore's buffer contents when the region is entered, and the admissible contents of the two prefetched tables
variable (V : (c : Dev nD) → (b : Ref sig .tc) → Buf (Elt F) ((c : Thread nD τ).loc b))
variable (a : (pcfg2 (F := F)).Adm)

/-! ## The schedule: the staging memrefs at a point, and the body as the pipeline calls it -/

/-- Each window's current staging memref at point `t`, spelled as the pipeline passes it, and its wholeness. The index
    maps do not read the tables, so nothing here evaluates `a`. -/
abbrev ms2_0 (t : Fin (cfg2 a).N) := spec2_0.stage ((cfg2 a).slots t 0)
abbrev hs2_0 (t : Fin (cfg2 a).N) : (ms2_0 a t).IsWhole := hstage2_0 (((cfg2 a).slots t 0).cast nbuf2_0)
abbrev ms2_1 (t : Fin (cfg2 a).N) := spec2_1.stage ((cfg2 a).slots t 1)
abbrev hs2_1 (t : Fin (cfg2 a).N) : (ms2_1 a t).IsWhole := hstage2_1 (((cfg2 a).slots t 1).cast nbuf2_1)
abbrev ms2_2 (t : Fin (cfg2 a).N) := spec2_2.stage ((cfg2 a).slots t 2)
abbrev hs2_2 (t : Fin (cfg2 a).N) : (ms2_2 a t).IsWhole := hstage2_2 (((cfg2 a).slots t 2).cast nbuf2_2)
abbrev ms2_3 (t : Fin (cfg2 a).N) := spec2_3.stage ((cfg2 a).slots t 3)
abbrev hs2_3 (t : Fin (cfg2 a).N) : (ms2_3 a t).IsWhole := hstage2_3 (((cfg2 a).slots t 3).cast nbuf2_3)
abbrev ms2_4 (t : Fin (cfg2 a).N) := spec2_4.stage ((cfg2 a).slots t 4)
abbrev hs2_4 (t : Fin (cfg2 a).N) : (ms2_4 a t).IsWhole := hstage2_4 (((cfg2 a).slots t 4).cast nbuf2_4)
abbrev ms2_5 (t : Fin (cfg2 a).N) := spec2_5.stage ((cfg2 a).slots t 5)
abbrev hs2_5 (t : Fin (cfg2 a).N) : (ms2_5 a t).IsWhole := hstage2_5 (((cfg2 a).slots t 5).cast nbuf2_5)
abbrev ms2_6 (t : Fin (cfg2 a).N) := spec2_6.stage ((cfg2 a).slots t 6)
abbrev hs2_6 (t : Fin (cfg2 a).N) : (ms2_6 a t).IsWhole := hstage2_6 (((cfg2 a).slots t 6).cast nbuf2_6)
abbrev ms2_7 (t : Fin (cfg2 a).N) := spec2_7.stage ((cfg2 a).slots t 7)
abbrev hs2_7 (t : Fin (cfg2 a).N) : (ms2_7 a t).IsWhole := hstage2_7 (((cfg2 a).slots t 7).cast nbuf2_7)
abbrev ms2_8 (t : Fin (cfg2 a).N) := spec2_8.stage ((cfg2 a).slots t 8)
abbrev hs2_8 (t : Fin (cfg2 a).N) : (ms2_8 a t).IsWhole := hstage2_8 (((cfg2 a).slots t 8).cast nbuf2_8)
abbrev ms2_9 (t : Fin (cfg2 a).N) := spec2_9.stage ((cfg2 a).slots t 9)
abbrev hs2_9 (t : Fin (cfg2 a).N) : (ms2_9 a t).IsWhole := hstage2_9 (((cfg2 a).slots t 9).cast nbuf2_9)

/-- The body at point `t`: the two tables whole, the ten windows' current staging memrefs, the two scratch buffers whole. -/
abbrev bodyAt2 (t : Fin (cfg2 a).N) :=
  cc2__edgeconv_kernel (F := F) (grid2.coords t) (Memref.whole main_v31) (Memref.isWhole_whole _) (Memref.whole main_v39) (Memref.isWhole_whole _)
    (ms2_0 a t) (hs2_0 a t) (ms2_1 a t) (hs2_1 a t) (ms2_2 a t) (hs2_2 a t) (ms2_3 a t) (hs2_3 a t) (ms2_4 a t) (hs2_4 a t) (ms2_5 a t) (hs2_5 a t) (ms2_6 a t) (hs2_6 a t) (ms2_7 a t) (hs2_7 a t) (ms2_8 a t) (hs2_8 a t) (ms2_9 a t) (hs2_9 a t)
    (Memref.whole cc2_scratch0) (Memref.isWhole_whole _) (Memref.whole cc2_scratch1) (Memref.isWhole_whole _)

/-- It is what the body table runs at the pipeline's argument for the point. -/
theorem bodyAt2_eq (t : Fin (cfg2 a).N) :
    defs₀ (F := F) .tc (cfg2 a).body ((cfg2 a).bodyArgs t ((cfg2 a).slots t)) = bodyAt2 a t := rfl

/-- The output window is written back exactly where the body's last conditional fires: elsewhere no write-back. -/
theorem wbClosed2_9 : ∀ t : Fin grid2.N, k2_cond22 (grid2.coords t) = 1#1 ∨
    (t.val + 1 = grid2.N || decide (∃ h : t.val + 1 < grid2.N, cc2_transform_9 (grid2.coords ⟨t.val + 1, h⟩) ≠ cc2_transform_9 (grid2.coords t))) = false := by
  decide +kernel

theorem flushNot2_9 (t : Fin (cfg2 a).N) (h : ¬ k2_cond22 (grid2.coords t) = 1#1) : ((cfg2 a).win (9 : Fin 10)).flush t = false := by
  have := (wbClosed2_9 t).resolve_left h
  show (true && _) = false
  rw [Bool.true_and]; exact this

/-- Where the conditional fires the window is live, elsewhere idle. -/
theorem idleLive2_9 (t : Fin (cfg2 a).N) (h : k2_cond22 (grid2.coords t) = 1#1) : (cfg2 a).idle (9 : Fin 10) ((cfg2 a).grid.coords t) = false := by
  show (!(k2_cond22 (grid2.coords t) == 1#1)) = false
  rw [h]; rfl
theorem idleNot2_9 (t : Fin (cfg2 a).N) (h : ¬ k2_cond22 (grid2.coords t) = 1#1) : (cfg2 a).idle (9 : Fin 10) ((cfg2 a).grid.coords t) = true := by
  show (!(k2_cond22 (grid2.coords t) == 1#1)) = true
  rw [Bool.not_eq_true', beq_eq_false_iff_ne]; exact h

/-- At the first point of the grid the tile coordinate is zero. -/
theorem coords2_first (t : Fin (cfg2 a).N) (h : t.val = 0) : ((grid2.coords t) 1).val = 0 := by
  obtain ⟨n, hn⟩ := t
  simp only at h; subst h
  exact (by decide +kernel : ((grid2.coords (⟨0, by decide⟩ : Fin grid2.N)) 1).val = 0)

/-! ## The windows' blocks -/

/-- Window `w`'s block at point `t`, read off its array as the region finds it (`V`). -/
def iblk2 (c : Dev nD) (w : Fin (cfg2 a).W) (t : Fin (cfg2 a).N) : (((cfg2 a).win w).xblock ((cfg2 a).grid.coords t)).Idx → Elt F ((cfg2 a).win w).elt :=
  (((cfg2 a).win w).blk t).view.read (Elt F) (V c (Pipeline.arrRef spec2 w))

/-- An input window's current staging buffer holds its block at every point, fetched there or not, for ANY proof data
    whose array is `V`'s and whose body leaves the block in place: unfetched, the block index has not moved. -/
theorem before2_0_of {c : Dev nD} (dat : Dat τ (Elt F) Unit ℕ (Pipeline.UD sig nD τ) ℕ (cfg2 a) c) (hA : dat.A (0 : Fin 10) = V c (Pipeline.arrRef spec2 (0 : Fin 10)))
    (hafter : ∀ t, dat.after (0 : Fin 10) t = iblk2 V a c (0 : Fin 10) t) (t : Fin (cfg2 a).N) (d) : dat.before (0 : Fin 10) t d = iblk2 V a c (0 : Fin 10) t := by
  have hblk : ∀ t, dat.blockOf (0 : Fin 10) t = iblk2 V a c (0 : Fin 10) t := fun t => by unfold Dat.blockOf iblk2; rw [hA]
  have hkeep : ∀ t, ((cfg2 a).win (0 : Fin 10)).cut ((cfg2 a).grid.coords t) (dat.after (0 : Fin 10) t) = dat.blockOf (0 : Fin 10) t := fun t => by
    rw [hafter, hblk]
  rw [dat.before_in_eq_fetched (0 : Fin 10) rfl (fun _ => rfl) (fun _ _ _ => rfl) hkeep t d]
  show ((cfg2 a).win (0 : Fin 10)).fill _ d (dat.blockOf (0 : Fin 10) t) = _
  rw [hblk]; rfl
theorem before2_1_of {c : Dev nD} (dat : Dat τ (Elt F) Unit ℕ (Pipeline.UD sig nD τ) ℕ (cfg2 a) c) (hA : dat.A (1 : Fin 10) = V c (Pipeline.arrRef spec2 (1 : Fin 10)))
    (hafter : ∀ t, dat.after (1 : Fin 10) t = iblk2 V a c (1 : Fin 10) t) (t : Fin (cfg2 a).N) (d) : dat.before (1 : Fin 10) t d = iblk2 V a c (1 : Fin 10) t := by
  have hblk : ∀ t, dat.blockOf (1 : Fin 10) t = iblk2 V a c (1 : Fin 10) t := fun t => by unfold Dat.blockOf iblk2; rw [hA]
  have hkeep : ∀ t, ((cfg2 a).win (1 : Fin 10)).cut ((cfg2 a).grid.coords t) (dat.after (1 : Fin 10) t) = dat.blockOf (1 : Fin 10) t := fun t => by
    rw [hafter, hblk]
  rw [dat.before_in_eq_fetched (1 : Fin 10) rfl (fun _ => rfl) (fun _ _ _ => rfl) hkeep t d]
  show ((cfg2 a).win (1 : Fin 10)).fill _ d (dat.blockOf (1 : Fin 10) t) = _
  rw [hblk]; rfl
theorem before2_2_of {c : Dev nD} (dat : Dat τ (Elt F) Unit ℕ (Pipeline.UD sig nD τ) ℕ (cfg2 a) c) (hA : dat.A (2 : Fin 10) = V c (Pipeline.arrRef spec2 (2 : Fin 10)))
    (hafter : ∀ t, dat.after (2 : Fin 10) t = iblk2 V a c (2 : Fin 10) t) (t : Fin (cfg2 a).N) (d) : dat.before (2 : Fin 10) t d = iblk2 V a c (2 : Fin 10) t := by
  have hblk : ∀ t, dat.blockOf (2 : Fin 10) t = iblk2 V a c (2 : Fin 10) t := fun t => by unfold Dat.blockOf iblk2; rw [hA]
  have hkeep : ∀ t, ((cfg2 a).win (2 : Fin 10)).cut ((cfg2 a).grid.coords t) (dat.after (2 : Fin 10) t) = dat.blockOf (2 : Fin 10) t := fun t => by
    rw [hafter, hblk]
  rw [dat.before_in_eq_fetched (2 : Fin 10) rfl (fun _ => rfl) (fun _ _ _ => rfl) hkeep t d]
  show ((cfg2 a).win (2 : Fin 10)).fill _ d (dat.blockOf (2 : Fin 10) t) = _
  rw [hblk]; rfl
theorem before2_3_of {c : Dev nD} (dat : Dat τ (Elt F) Unit ℕ (Pipeline.UD sig nD τ) ℕ (cfg2 a) c) (hA : dat.A (3 : Fin 10) = V c (Pipeline.arrRef spec2 (3 : Fin 10)))
    (hafter : ∀ t, dat.after (3 : Fin 10) t = iblk2 V a c (3 : Fin 10) t) (t : Fin (cfg2 a).N) (d) : dat.before (3 : Fin 10) t d = iblk2 V a c (3 : Fin 10) t := by
  have hblk : ∀ t, dat.blockOf (3 : Fin 10) t = iblk2 V a c (3 : Fin 10) t := fun t => by unfold Dat.blockOf iblk2; rw [hA]
  have hkeep : ∀ t, ((cfg2 a).win (3 : Fin 10)).cut ((cfg2 a).grid.coords t) (dat.after (3 : Fin 10) t) = dat.blockOf (3 : Fin 10) t := fun t => by
    rw [hafter, hblk]
  rw [dat.before_in_eq_fetched (3 : Fin 10) rfl (fun _ => rfl) (fun _ _ _ => rfl) hkeep t d]
  show ((cfg2 a).win (3 : Fin 10)).fill _ d (dat.blockOf (3 : Fin 10) t) = _
  rw [hblk]; rfl
theorem before2_4_of {c : Dev nD} (dat : Dat τ (Elt F) Unit ℕ (Pipeline.UD sig nD τ) ℕ (cfg2 a) c) (hA : dat.A (4 : Fin 10) = V c (Pipeline.arrRef spec2 (4 : Fin 10)))
    (hafter : ∀ t, dat.after (4 : Fin 10) t = iblk2 V a c (4 : Fin 10) t) (t : Fin (cfg2 a).N) (d) : dat.before (4 : Fin 10) t d = iblk2 V a c (4 : Fin 10) t := by
  have hblk : ∀ t, dat.blockOf (4 : Fin 10) t = iblk2 V a c (4 : Fin 10) t := fun t => by unfold Dat.blockOf iblk2; rw [hA]
  have hkeep : ∀ t, ((cfg2 a).win (4 : Fin 10)).cut ((cfg2 a).grid.coords t) (dat.after (4 : Fin 10) t) = dat.blockOf (4 : Fin 10) t := fun t => by
    rw [hafter, hblk]
  rw [dat.before_in_eq_fetched (4 : Fin 10) rfl (fun _ => rfl) (fun _ _ _ => rfl) hkeep t d]
  show ((cfg2 a).win (4 : Fin 10)).fill _ d (dat.blockOf (4 : Fin 10) t) = _
  rw [hblk]; rfl
theorem before2_5_of {c : Dev nD} (dat : Dat τ (Elt F) Unit ℕ (Pipeline.UD sig nD τ) ℕ (cfg2 a) c) (hA : dat.A (5 : Fin 10) = V c (Pipeline.arrRef spec2 (5 : Fin 10)))
    (hafter : ∀ t, dat.after (5 : Fin 10) t = iblk2 V a c (5 : Fin 10) t) (t : Fin (cfg2 a).N) (d) : dat.before (5 : Fin 10) t d = iblk2 V a c (5 : Fin 10) t := by
  have hblk : ∀ t, dat.blockOf (5 : Fin 10) t = iblk2 V a c (5 : Fin 10) t := fun t => by unfold Dat.blockOf iblk2; rw [hA]
  have hkeep : ∀ t, ((cfg2 a).win (5 : Fin 10)).cut ((cfg2 a).grid.coords t) (dat.after (5 : Fin 10) t) = dat.blockOf (5 : Fin 10) t := fun t => by
    rw [hafter, hblk]
  rw [dat.before_in_eq_fetched (5 : Fin 10) rfl (fun _ => rfl) (fun _ _ _ => rfl) hkeep t d]
  show ((cfg2 a).win (5 : Fin 10)).fill _ d (dat.blockOf (5 : Fin 10) t) = _
  rw [hblk]; rfl
theorem before2_6_of {c : Dev nD} (dat : Dat τ (Elt F) Unit ℕ (Pipeline.UD sig nD τ) ℕ (cfg2 a) c) (hA : dat.A (6 : Fin 10) = V c (Pipeline.arrRef spec2 (6 : Fin 10)))
    (hafter : ∀ t, dat.after (6 : Fin 10) t = iblk2 V a c (6 : Fin 10) t) (t : Fin (cfg2 a).N) (d) : dat.before (6 : Fin 10) t d = iblk2 V a c (6 : Fin 10) t := by
  have hblk : ∀ t, dat.blockOf (6 : Fin 10) t = iblk2 V a c (6 : Fin 10) t := fun t => by unfold Dat.blockOf iblk2; rw [hA]
  have hkeep : ∀ t, ((cfg2 a).win (6 : Fin 10)).cut ((cfg2 a).grid.coords t) (dat.after (6 : Fin 10) t) = dat.blockOf (6 : Fin 10) t := fun t => by
    rw [hafter, hblk]
  rw [dat.before_in_eq_fetched (6 : Fin 10) rfl (fun _ => rfl) (fun _ _ _ => rfl) hkeep t d]
  show ((cfg2 a).win (6 : Fin 10)).fill _ d (dat.blockOf (6 : Fin 10) t) = _
  rw [hblk]; rfl
theorem before2_7_of {c : Dev nD} (dat : Dat τ (Elt F) Unit ℕ (Pipeline.UD sig nD τ) ℕ (cfg2 a) c) (hA : dat.A (7 : Fin 10) = V c (Pipeline.arrRef spec2 (7 : Fin 10)))
    (hafter : ∀ t, dat.after (7 : Fin 10) t = iblk2 V a c (7 : Fin 10) t) (t : Fin (cfg2 a).N) (d) : dat.before (7 : Fin 10) t d = iblk2 V a c (7 : Fin 10) t := by
  have hblk : ∀ t, dat.blockOf (7 : Fin 10) t = iblk2 V a c (7 : Fin 10) t := fun t => by unfold Dat.blockOf iblk2; rw [hA]
  have hkeep : ∀ t, ((cfg2 a).win (7 : Fin 10)).cut ((cfg2 a).grid.coords t) (dat.after (7 : Fin 10) t) = dat.blockOf (7 : Fin 10) t := fun t => by
    rw [hafter, hblk]
  rw [dat.before_in_eq_fetched (7 : Fin 10) rfl (fun _ => rfl) (fun _ _ _ => rfl) hkeep t d]
  show ((cfg2 a).win (7 : Fin 10)).fill _ d (dat.blockOf (7 : Fin 10) t) = _
  rw [hblk]; rfl
theorem before2_8_of {c : Dev nD} (dat : Dat τ (Elt F) Unit ℕ (Pipeline.UD sig nD τ) ℕ (cfg2 a) c) (hA : dat.A (8 : Fin 10) = V c (Pipeline.arrRef spec2 (8 : Fin 10)))
    (hafter : ∀ t, dat.after (8 : Fin 10) t = iblk2 V a c (8 : Fin 10) t) (t : Fin (cfg2 a).N) (d) : dat.before (8 : Fin 10) t d = iblk2 V a c (8 : Fin 10) t := by
  have hblk : ∀ t, dat.blockOf (8 : Fin 10) t = iblk2 V a c (8 : Fin 10) t := fun t => by unfold Dat.blockOf iblk2; rw [hA]
  have hkeep : ∀ t, ((cfg2 a).win (8 : Fin 10)).cut ((cfg2 a).grid.coords t) (dat.after (8 : Fin 10) t) = dat.blockOf (8 : Fin 10) t := fun t => by
    rw [hafter, hblk]
  rw [dat.before_in_eq_fetched (8 : Fin 10) rfl (fun _ => rfl) (fun _ _ _ => rfl) hkeep t d]
  show ((cfg2 a).win (8 : Fin 10)).fill _ d (dat.blockOf (8 : Fin 10) t) = _
  rw [hblk]; rfl

/-! ## The accumulator, point by point -/

/-- The two tables' contents as the body reads them. -/
abbrev tab2_0 : Vec F S1250 .i32 := a.1 0
abbrev tab2_1 : Vec F S1250 .i32 := a.1 1

/-- The accumulator before point `n` (after point `n - 1`): anything before the first point, then one body step per
    point over the point's blocks and what the point before left. -/
def accAt2 (c : Dev nD) : ℕ → Vec F S10240x128 .f32
  | 0 => (Memref.whole cc2_scratch0).view.read (Elt F) (V c cc2_scratch0)
  | n + 1 =>
    if h : n < (cfg2 a).N then
      stepAcc2 (grid2.coords ⟨n, h⟩) (tab2_0 a) (tab2_1 a) (iblk2 V a c (0 : Fin 10) ⟨n, h⟩) (iblk2 V a c (1 : Fin 10) ⟨n, h⟩) (iblk2 V a c (2 : Fin 10) ⟨n, h⟩) (iblk2 V a c (3 : Fin 10) ⟨n, h⟩) (iblk2 V a c (4 : Fin 10) ⟨n, h⟩) (iblk2 V a c (5 : Fin 10) ⟨n, h⟩) (iblk2 V a c (6 : Fin 10) ⟨n, h⟩) (iblk2 V a c (7 : Fin 10) ⟨n, h⟩) (iblk2 V a c (8 : Fin 10) ⟨n, h⟩) (accAt2 c n)
    else accAt2 c n

theorem accAt2_succ (c : Dev nD) (t : Fin (cfg2 a).N) :
    accAt2 V a c (t.val + 1)
      = stepAcc2 (grid2.coords t) (tab2_0 a) (tab2_1 a) (iblk2 V a c (0 : Fin 10) t) (iblk2 V a c (1 : Fin 10) t) (iblk2 V a c (2 : Fin 10) t) (iblk2 V a c (3 : Fin 10) t) (iblk2 V a c (4 : Fin 10) t) (iblk2 V a c (5 : Fin 10) t) (iblk2 V a c (6 : Fin 10) t) (iblk2 V a c (7 : Fin 10) t) (iblk2 V a c (8 : Fin 10) t) (accAt2 V a c t.val) := by
  obtain ⟨n, hn⟩ := t
  exact dif_pos hn

/-! ## The invariant and the proof data -/

/-- The invariant before point `n`: the two tables held whole at `a`; the accumulator scratch at some contents, which
    after the first point are `accAt2 n`; the target-row scratch at anything; every other scoped buffer that is no
    staging buffer, unopened; the generator register at some state. -/
def Phi2 (c : Dev nD) (n : ℕ) : sProp 𝕄 :=
  iprop(Pipeline.prefHeld pre2 c (fun _ => fullShare) a.1
    ∗ (∃ x14 : Vec F S10240x128 .f32, ⌜n ≠ 0 → x14 = accAt2 V a c n⌝ ∗ owns (c : Thread nD τ) (Memref.whole cc2_scratch0) fullShare x14)
    ∗ (∃ d, owns (c : Thread nD τ) (Memref.whole cc2_scratch1) fullShare d)
    ∗ Pipeline.scopedRestBut spec2 c [cc2_scratch0, cc2_scratch1]
    ∗ (∃ r, prngReg c r))

/-- The proof data of pipeline 0 on core `c`: the arrays as the region finds them (`V`); after the body at point `t` each
    input's buffer at its block and the output's at the accumulator after the point, cast to the output's shape (read only
    where the block is written back); the invariant `Phi2`; nothing owed; full shares. -/
def dat2 (c : Dev nD) : Dat τ (Elt F) Unit ℕ (Pipeline.UD sig nD τ) ℕ (cfg2 a) c where
  A w := V c (Pipeline.arrRef spec2 w)
  after w t := match w with
    | ⟨0, _⟩ => iblk2 V a c (0 : Fin 10) t
    | ⟨1, _⟩ => iblk2 V a c (1 : Fin 10) t
    | ⟨2, _⟩ => iblk2 V a c (2 : Fin 10) t
    | ⟨3, _⟩ => iblk2 V a c (3 : Fin 10) t
    | ⟨4, _⟩ => iblk2 V a c (4 : Fin 10) t
    | ⟨5, _⟩ => iblk2 V a c (5 : Fin 10) t
    | ⟨6, _⟩ => iblk2 V a c (6 : Fin 10) t
    | ⟨7, _⟩ => iblk2 V a c (7 : Fin 10) t
    | ⟨8, _⟩ => iblk2 V a c (8 : Fin 10) t
    | ⟨9, _⟩ => k2_pay1 (accAt2 V a c (t.val + 1))
  Φ t := Phi2 V a c t.val
  q _ := fullShare
  owed _ := 0

theorem A_eq2 (c : Dev nD) (w : Fin (cfg2 a).W) : (dat2 V a c).A w = V c (Pipeline.arrRef spec2 w) := by
  dsimp only [dat2]

theorem after2_0 (c : Dev nD) (t : Fin (cfg2 a).N) : (dat2 V a c).after (0 : Fin 10) t = iblk2 V a c (0 : Fin 10) t := by dsimp only [dat2]
theorem after2_1 (c : Dev nD) (t : Fin (cfg2 a).N) : (dat2 V a c).after (1 : Fin 10) t = iblk2 V a c (1 : Fin 10) t := by dsimp only [dat2]
theorem after2_2 (c : Dev nD) (t : Fin (cfg2 a).N) : (dat2 V a c).after (2 : Fin 10) t = iblk2 V a c (2 : Fin 10) t := by dsimp only [dat2]
theorem after2_3 (c : Dev nD) (t : Fin (cfg2 a).N) : (dat2 V a c).after (3 : Fin 10) t = iblk2 V a c (3 : Fin 10) t := by dsimp only [dat2]
theorem after2_4 (c : Dev nD) (t : Fin (cfg2 a).N) : (dat2 V a c).after (4 : Fin 10) t = iblk2 V a c (4 : Fin 10) t := by dsimp only [dat2]
theorem after2_5 (c : Dev nD) (t : Fin (cfg2 a).N) : (dat2 V a c).after (5 : Fin 10) t = iblk2 V a c (5 : Fin 10) t := by dsimp only [dat2]
theorem after2_6 (c : Dev nD) (t : Fin (cfg2 a).N) : (dat2 V a c).after (6 : Fin 10) t = iblk2 V a c (6 : Fin 10) t := by dsimp only [dat2]
theorem after2_7 (c : Dev nD) (t : Fin (cfg2 a).N) : (dat2 V a c).after (7 : Fin 10) t = iblk2 V a c (7 : Fin 10) t := by dsimp only [dat2]
theorem after2_8 (c : Dev nD) (t : Fin (cfg2 a).N) : (dat2 V a c).after (8 : Fin 10) t = iblk2 V a c (8 : Fin 10) t := by dsimp only [dat2]
theorem after2_9 (c : Dev nD) (t : Fin (cfg2 a).N) : (dat2 V a c).after (9 : Fin 10) t = k2_pay1 (accAt2 V a c (t.val + 1)) := by dsimp only [dat2]

theorem before2_0 (c : Dev nD) (t : Fin (cfg2 a).N) (d) : (dat2 V a c).before (0 : Fin 10) t d = iblk2 V a c (0 : Fin 10) t :=
  before2_0_of V a (dat2 V a c) (A_eq2 V a c (0 : Fin 10)) (after2_0 V a c) t d
theorem before2_1 (c : Dev nD) (t : Fin (cfg2 a).N) (d) : (dat2 V a c).before (1 : Fin 10) t d = iblk2 V a c (1 : Fin 10) t :=
  before2_1_of V a (dat2 V a c) (A_eq2 V a c (1 : Fin 10)) (after2_1 V a c) t d
theorem before2_2 (c : Dev nD) (t : Fin (cfg2 a).N) (d) : (dat2 V a c).before (2 : Fin 10) t d = iblk2 V a c (2 : Fin 10) t :=
  before2_2_of V a (dat2 V a c) (A_eq2 V a c (2 : Fin 10)) (after2_2 V a c) t d
theorem before2_3 (c : Dev nD) (t : Fin (cfg2 a).N) (d) : (dat2 V a c).before (3 : Fin 10) t d = iblk2 V a c (3 : Fin 10) t :=
  before2_3_of V a (dat2 V a c) (A_eq2 V a c (3 : Fin 10)) (after2_3 V a c) t d
theorem before2_4 (c : Dev nD) (t : Fin (cfg2 a).N) (d) : (dat2 V a c).before (4 : Fin 10) t d = iblk2 V a c (4 : Fin 10) t :=
  before2_4_of V a (dat2 V a c) (A_eq2 V a c (4 : Fin 10)) (after2_4 V a c) t d
theorem before2_5 (c : Dev nD) (t : Fin (cfg2 a).N) (d) : (dat2 V a c).before (5 : Fin 10) t d = iblk2 V a c (5 : Fin 10) t :=
  before2_5_of V a (dat2 V a c) (A_eq2 V a c (5 : Fin 10)) (after2_5 V a c) t d
theorem before2_6 (c : Dev nD) (t : Fin (cfg2 a).N) (d) : (dat2 V a c).before (6 : Fin 10) t d = iblk2 V a c (6 : Fin 10) t :=
  before2_6_of V a (dat2 V a c) (A_eq2 V a c (6 : Fin 10)) (after2_6 V a c) t d
theorem before2_7 (c : Dev nD) (t : Fin (cfg2 a).N) (d) : (dat2 V a c).before (7 : Fin 10) t d = iblk2 V a c (7 : Fin 10) t :=
  before2_7_of V a (dat2 V a c) (A_eq2 V a c (7 : Fin 10)) (after2_7 V a c) t d
theorem before2_8 (c : Dev nD) (t : Fin (cfg2 a).N) (d) : (dat2 V a c).before (8 : Fin 10) t d = iblk2 V a c (8 : Fin 10) t :=
  before2_8_of V a (dat2 V a c) (A_eq2 V a c (8 : Fin 10)) (after2_8 V a c) t d

theorem Phi2_castSucc (c : Dev nD) (t : Fin (cfg2 a).N) : (dat2 V a c).Φ t.castSucc = Phi2 V a c t.val := by
  dsimp only [dat2]; simp only [Fin.coe_castSucc]
theorem Phi2_succ (c : Dev nD) (t : Fin (cfg2 a).N) : (dat2 V a c).Φ t.succ = Phi2 V a c (t.val + 1) := by
  dsimp only [dat2]; simp only [Fin.val_succ]

/-! ## The body's run at a point -/

/-- The body's run at point `t`: the tables, the point's staging memrefs and blocks, the two scratch buffers; over the
    accumulator's contents `x14` and the raw contents `f13`, `f15` of the two buffers it is handed at anything. -/
abbrev run2 (c : Dev nD) (t : Fin (cfg2 a).N) (x14 : Vec F S10240x128 .f32)
    (f13 : BufTy.Contents (Elt F) (ms2_9 a t).view.ty) (f15 : BufTy.Contents (Elt F) (Memref.whole cc2_scratch1 : Memref sig .tc _ _ _).view.ty) :=
  bodyRun2 (F := F) c (grid2.coords t) (Memref.whole main_v31) (Memref.isWhole_whole _) (Memref.whole main_v39) (Memref.isWhole_whole _) (ms2_0 a t) (hs2_0 a t) (ms2_1 a t) (hs2_1 a t) (ms2_2 a t) (hs2_2 a t) (ms2_3 a t) (hs2_3 a t) (ms2_4 a t) (hs2_4 a t) (ms2_5 a t) (hs2_5 a t) (ms2_6 a t) (hs2_6 a t) (ms2_7 a t) (hs2_7 a t) (ms2_8 a t) (hs2_8 a t) (ms2_9 a t) (hs2_9 a t) (Memref.whole cc2_scratch0) (Memref.isWhole_whole _) (Memref.whole cc2_scratch1) (Memref.isWhole_whole _) (tab2_0 a) (tab2_1 a) (iblk2 V a c (0 : Fin 10) t) (iblk2 V a c (1 : Fin 10) t) (iblk2 V a c (2 : Fin 10) t) (iblk2 V a c (3 : Fin 10) t) (iblk2 V a c (4 : Fin 10) t) (iblk2 V a c (5 : Fin 10) t) (iblk2 V a c (6 : Fin 10) t) (iblk2 V a c (7 : Fin 10) t) (iblk2 V a c (8 : Fin 10) t) x14 f13 f15

/-- One step from what the invariant knows of the accumulator lands on the next named contents: at the first point the
    step does not read what it finds. -/
theorem acc2_step (c : Dev nD) (t : Fin (cfg2 a).N) (x14 : Vec F S10240x128 .f32)
    (hx : t.val ≠ 0 → x14 = accAt2 V a c t.val) :
    stepAcc2 (grid2.coords t) (tab2_0 a) (tab2_1 a) (iblk2 V a c (0 : Fin 10) t) (iblk2 V a c (1 : Fin 10) t) (iblk2 V a c (2 : Fin 10) t) (iblk2 V a c (3 : Fin 10) t) (iblk2 V a c (4 : Fin 10) t) (iblk2 V a c (5 : Fin 10) t) (iblk2 V a c (6 : Fin 10) t) (iblk2 V a c (7 : Fin 10) t) (iblk2 V a c (8 : Fin 10) t) x14 = accAt2 V a c (t.val + 1) := by
  rw [accAt2_succ]
  by_cases h0 : t.val = 0
  · exact stepAcc2_first _ (coords2_first a t h0) _ _ _ _ _ _ _ _ _ _ _ _ _
  · rw [hx h0]

/-- What the body leaves in the output's staging buffer is what the obligation asks of it: where the block is written
    back, the accumulator after the point in the output's shape; elsewhere, the buffer as it was found. -/
theorem leaves2_9 (c : Dev nD) (t : Fin (cfg2 a).N) (x14 : Vec F S10240x128 .f32)
    (hx : t.val ≠ 0 → x14 = accAt2 V a c t.val) (d9) (f13 : BufTy.Contents (Elt F) (ms2_9 a t).view.ty)
    (hf13 : (ms2_9 a t).view.read (Elt F) f13 = (dat2 V a c).before (9 : Fin 10) t d9) (f15) :
    ((ms2_9 a t).view.loc (c : Thread nD τ) ↦[(ms2_9 a t).view.set]{fullShare} (run2 V a c t x14 f13 f15).2.2.1 : sProp 𝕄)
      ⊢ (dat2 V a c).leavesExact (9 : Fin 10) t := by
  by_cases hc : k2_cond22 (grid2.coords t) = 1#1
  · have hlive : (dat2 V a c).leavesExact (9 : Fin 10) t = owns (c : Thread nD τ) (ms2_9 a t) fullShare ((dat2 V a c).after (9 : Fin 10) t) := by
      unfold Dat.leavesExact; rw [idleLive2_9 a t hc]
    rw [hlive, after2_9]
    unfold owns
    iintro H; iexists _; isplitr
    swap; · iexact H
    ipureintro
    exact (bodyRun2_out_flush _ _ _ _ _ _ _ _ _ _ _ _ _ _ _ _ _ _ _ _ _ _ _ _ _ _ _ _ _ _ _ _ _ _ _ _ _ _ _ _ _ _ _ _ hc).trans (congrArg k2_pay1 (acc2_step V a c t x14 hx))
  · rw [Dat.leavesExact_idle _ (9 : Fin 10) t (idleNot2_9 a t hc) (flushNot2_9 a t hc),
      show (run2 V a c t x14 f13 f15).2.2.1 = f13 from bodyRun2_out_idle _ _ _ _ _ _ _ _ _ _ _ _ _ _ _ _ _ _ _ _ _ _ _ _ _ _ _ _ _ _ _ _ _ _ _ _ _ _ _ _ _ _ _ _ hc]
    unfold owns
    iintro H; iexists d9, f13; isplitr
    · ipureintro; exact hf13
    iexact H

/-- Owning a memref at contents `X` is holding its elements at some raw contents that read `X`. -/
theorem owns_open2 (c : Dev nD) {sp : Space} {sh : Shape} {e : EltTy} (M : Memref sig .tc sp sh e) (X : sh.Idx → Elt F e) :
    (owns (c : Thread nD τ) M fullShare X : sProp 𝕄)
      ⊢ iprop(∃ f, ⌜M.view.read (Elt F) f = X⌝ ∗ (M.view.loc (c : Thread nD τ) ↦[M.view.set]{fullShare} f)) := by
  unfold owns; exact .rfl

/-- The tables held whole are the body's two table arguments owned at their contents. -/
theorem prefHeld2_eq (c : Dev nD) :
    (Pipeline.prefHeld pre2 c (fun _ => fullShare) a.1 : sProp 𝕄)
      = iprop(owns (c : Thread nD τ) (Memref.whole main_v31) fullShare (tab2_0 a) ∗ owns (c : Thread nD τ) (Memref.whole main_v39) fullShare (tab2_1 a)) := by
  unfold Pipeline.prefHeld
  rw [bigSep_univ_eq_bigSepL [(0 : Fin 2), (1 : Fin 2)] (by decide) (by decide), owns_whole, owns_whole]
  rfl

/-! ## The body obligation, at a generic point -/

/-- What the body is called with at point `t` (the windows one by one), -/
def bodyPre2 (c : Dev nD) (t : Fin (cfg2 a).N) : sProp 𝕄 :=
  iprop((dat2 V a c).Φ t.castSucc ∗ (dat2 V a c).owesAt () t.castSucc
    ∗ (∃ d, owns (c : Thread nD τ) (ms2_0 a t) fullShare ((dat2 V a c).before (0 : Fin 10) t d))
    ∗ (∃ d, owns (c : Thread nD τ) (ms2_1 a t) fullShare ((dat2 V a c).before (1 : Fin 10) t d))
    ∗ (∃ d, owns (c : Thread nD τ) (ms2_2 a t) fullShare ((dat2 V a c).before (2 : Fin 10) t d))
    ∗ (∃ d, owns (c : Thread nD τ) (ms2_3 a t) fullShare ((dat2 V a c).before (3 : Fin 10) t d))
    ∗ (∃ d, owns (c : Thread nD τ) (ms2_4 a t) fullShare ((dat2 V a c).before (4 : Fin 10) t d))
    ∗ (∃ d, owns (c : Thread nD τ) (ms2_5 a t) fullShare ((dat2 V a c).before (5 : Fin 10) t d))
    ∗ (∃ d, owns (c : Thread nD τ) (ms2_6 a t) fullShare ((dat2 V a c).before (6 : Fin 10) t d))
    ∗ (∃ d, owns (c : Thread nD τ) (ms2_7 a t) fullShare ((dat2 V a c).before (7 : Fin 10) t d))
    ∗ (∃ d, owns (c : Thread nD τ) (ms2_8 a t) fullShare ((dat2 V a c).before (8 : Fin 10) t d))
    ∗ (∃ d, owns (c : Thread nD τ) (ms2_9 a t) fullShare ((dat2 V a c).before (9 : Fin 10) t d)))

/-- and what it returns: each input's buffer at its block; the output's as the obligation states it, live or idle. -/
def bodyPost2 (c : Dev nD) (t : Fin (cfg2 a).N) : sProp 𝕄 :=
  iprop((dat2 V a c).Φ t.succ ∗ (dat2 V a c).owesAt () t.succ
    ∗ owns (c : Thread nD τ) (ms2_0 a t) fullShare ((dat2 V a c).after (0 : Fin 10) t)
    ∗ owns (c : Thread nD τ) (ms2_1 a t) fullShare ((dat2 V a c).after (1 : Fin 10) t)
    ∗ owns (c : Thread nD τ) (ms2_2 a t) fullShare ((dat2 V a c).after (2 : Fin 10) t)
    ∗ owns (c : Thread nD τ) (ms2_3 a t) fullShare ((dat2 V a c).after (3 : Fin 10) t)
    ∗ owns (c : Thread nD τ) (ms2_4 a t) fullShare ((dat2 V a c).after (4 : Fin 10) t)
    ∗ owns (c : Thread nD τ) (ms2_5 a t) fullShare ((dat2 V a c).after (5 : Fin 10) t)
    ∗ owns (c : Thread nD τ) (ms2_6 a t) fullShare ((dat2 V a c).after (6 : Fin 10) t)
    ∗ owns (c : Thread nD τ) (ms2_7 a t) fullShare ((dat2 V a c).after (7 : Fin 10) t)
    ∗ owns (c : Thread nD τ) (ms2_8 a t) fullShare ((dat2 V a c).after (8 : Fin 10) t)
    ∗ (dat2 V a c).leavesExact (9 : Fin 10) t)

set_option maxHeartbeats 1600000 in
/-- The body at any point. The invariant hands it the two tables, the accumulator (at the named contents after the
    first point) and the target-row scratch; each input's memref holds its block; the output's holds anything. The run
    applies; the accumulator comes back one step on, the inputs and tables as they were, the output's buffer as the
    obligation states it; the core's `owes` passes through unread. -/
theorem sound_body2 (c : Dev nD) (t : Fin (cfg2 a).N) :
    bodyPre2 V a c t ⊢ wp frame (wpE (defs₀ (F := F)) Variants.none c none) Set.univ (bodyAt2 a t) (fun _ => bodyPost2 V a c t) := by
  unfold bodyPre2 bodyPost2
  simp only [before2_0, before2_1, before2_2, before2_3, before2_4, before2_5, before2_6, before2_7, before2_8]
  rw [Phi2_castSucc, Phi2_succ, show (dat2 V a c).owesAt () t.succ = (dat2 V a c).owesAt () t.castSucc from rfl,
    after2_0, after2_1, after2_2, after2_3, after2_4, after2_5, after2_6, after2_7, after2_8]
  unfold Phi2
  rw [prefHeld2_eq]
  iintro ⟨⟨⟨HT0, HT1⟩, ⟨%x14, %hx14, H14⟩, ⟨%d15, H15⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave H9' := (owns_open2 c (ms2_9 a t) _) $$ H9
  icases H9' with ⟨%f13, %hf13, H13⟩
  ihave H15' := (owns_open2 c (Memref.whole cc2_scratch1) _) $$ H15
  icases H15' with ⟨%f15, -, H15⟩
  iapply ((run2 V a c t x14 f13 f15).2.2.2 Set.univ _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H13]; · iexact H13
  isplitl [H14]; · iexact H14
  isplitl [H15]; · iexact H15
  iintro ⟨HT0, HT1, H0, H1, H2, H3, H4, H5, H6, H7, H8, H13, H14, H15⟩
  isplitl [HT0 HT1 H14 H15 HR Hg]
  · isplitl [HT0 HT1]
    · isplitl [HT0]; · iexact HT0
      iexact HT1
    isplitl [H14]
    · iexists _; isplitr; · ipureintro; exact fun _ => rfl
      unfold owns; iexists _; isplitr
      swap; · iexact H14
      ipureintro
      exact (bodyRun2_acc _ _ _ _ _ _ _ _ _ _ _ _ _ _ _ _ _ _ _ _ _ _ _ _ _ _ _ _ _ _ _ _ _ _ _ _ _ _ _ _ _ _ _ _).trans (acc2_step V a c t x14 hx14)
    isplitl [H15]
    · iexists _; unfold owns; iexists _; isplitr
      swap; · iexact H15
      ipureintro; rfl
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (leaves2_9 V a c t x14 hx14 d9 f13 hf13 f15)
  iexact H13

/-- The library's body obligation, at every point. -/
theorem body_obligation2 (c : Dev nD) : BodyObligation (dat2 (F := F) V a c) (defs₀ (F := F)) Variants.none () Set.univ := fun t => by
  rw [bigSep_W2, bigSep_W2]
  exact sound_body2 V a c t

end Region2

end Cert.Kernel.Gen

end
-- ==== Proof.RegionK2.lean ====
import proofs.«414286_j65627100283289_3_alg».proof.Proof.RegionDataK2
import proofs.«414286_j65627100283289_3_alg».proof.Proof.Gen.Kernel.Regions
import proofs.«414286_j65627100283289_3_alg».proof.Proof.FrameDefsK
import Idealize.ShloMosaic.Lib.Pipeline.RegionsLoop
import Idealize.ShloMosaic.Lib.Pipeline.FrameSuffix

/-!
# Region 2 as a segment of the program

On entry the region's arrays and its two tables are separated from the other unscoped buffers; the tables, the scoped
buffers that are no staging buffer and the generator register make the invariant before the first point. On exit the
invariant gives them back and the arrays are joined with the other buffers again, the output's array at what the
write-backs made of it. Nothing is owed at any point and the kernel has no semaphore of its own.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 2 as a segment of the program -/

section Seg2

variable (m : (ℓ : Loc nD τ sig) → Buf (Elt F) ℓ) (outs : Outs (F := F))

/-- The unscoped buffers' contents on core `c` when region 2 is entered, and when it is left. -/
abbrev Win2 : Dev nD → Valuation τ sig (Elt F) := fun c => V14 m outs c
abbrev Wout2 : Dev nD → Valuation τ sig (Elt F) := fun c => V15 m outs c
/-- The contents of the TensorCore's buffers when region 2 is entered, that is, after the host operations that precede it. -/
abbrev Vin2 : (c : Dev nD) → (b : Ref sig .tc) → Buf (Elt F) ((c : Thread nD τ).loc b) := fun c b => V14 m outs c b
/-- Their contents when the region is left: as entered, except the output's array, which holds what the region leaves in it. -/
abbrev Vout2 : (c : Dev nD) → (b : Ref sig .tc) → Buf (Elt F) ((c : Thread nD τ).loc b) := fun c b => V15 m outs c b

-- the tables' contents of all four pipelines, the family of proof data, and what ties region 2's members to this module
variable (a : (p : Fin 4) → (pcfgs (F := F) p).Adm)
variable (pdats : (p : Fin 4) → (c : Dev nD) → Dat τ (Elt F) Unit ℕ (Pipeline.UD sig nD τ) ℕ (Pipeline.pin (pcfgs (F := F)) a p) c)
-- the family's member at region 2 is this module's proof data, at the entry contents and region 2's tables
variable (hd2 : ∀ c, pdats 2 c = dat2 (Vin2 m outs) (a 2) c)
-- the tables' admissible contents are what the tables hold when the region is entered
variable (hpf2 : ∀ c : Dev nD, (fun k => Vin2 m outs c (pre2.ref k)) = (a 2).1)
-- what the region leaves in its output's array is what its write-backs make of it
variable (houts2 : ∀ c : Dev nD, outs 15 main_v60 c = (dat2 (Vin2 m outs) (a 2) c).arrAt (9 : Fin 10) (cfg2 (a 2)).N)

/-- The invariant with the two scratch buffers as plain points-tos. -/
theorem Phi2_eq (V : (c : Dev nD) → (b : Ref sig .tc) → Buf (Elt F) ((c : Thread nD τ).loc b)) (a0 : (pcfg2 (F := F)).Adm) (c : Dev nD) (n : ℕ) :
    Phi2 V a0 c n = iprop(Pipeline.prefHeld pre2 c (fun _ => fullShare) a0.1
      ∗ (∃ x14 : Vec F S10240x128 .f32, ⌜n ≠ 0 → x14 = accAt2 V a0 c n⌝ ∗ (((c : Thread nD τ).loc cc2_scratch0) ↦{fullShare} x14))
      ∗ (∃ d : Buf (Elt F) ((c : Thread nD τ).loc cc2_scratch1), ((c : Thread nD τ).loc cc2_scratch1) ↦{fullShare} d)
      ∗ Pipeline.scopedRestBut spec2 c [cc2_scratch0, cc2_scratch1]
      ∗ (∃ r, prngReg c r)) := by
  unfold Phi2; simp only [owns_whole]

/-- Entering: the tables, the scoped rest and the generator register make the invariant before the first point. -/
theorem hin2 (V : (c : Dev nD) → (b : Ref sig .tc) → Buf (Elt F) ((c : Thread nD τ).loc b)) (a0 : (pcfg2 (F := F)).Adm) (c : Dev nD) :
    iprop((∃ r, prngReg c r) ∗ Pipeline.prefHeld pre2 c (fun _ => fullShare) a0.1 ∗ Pipeline.scopedRest spec2 c)
      ⊢ (Phi2 V a0 c 0 : sProp 𝕄) := by
  rw [Phi2_eq, scopedRest2_split]
  iintro ⟨Hg, Hpf, ⟨⟨%f0, H0⟩, H1⟩, HR⟩
  isplitl [Hpf]; · iexact Hpf
  isplitl [H0]
  · iexists f0; isplitr; · ipureintro; exact fun h => absurd rfl h
    iexact H0
  isplitl [H1]; · iexact H1
  isplitl [HR]; · iexact HR
  iexact Hg

/-- Leaving: the invariant gives the register and the tables back, and the scoped rest with the scratch at anything. -/
theorem hout2 (V : (c : Dev nD) → (b : Ref sig .tc) → Buf (Elt F) ((c : Thread nD τ).loc b)) (a0 : (pcfg2 (F := F)).Adm) (c : Dev nD) (n : ℕ) :
    (Phi2 V a0 c n : sProp 𝕄)
      ⊢ iprop(((∃ r, prngReg c r) ∗ Pipeline.prefHeld pre2 c (fun _ => fullShare) a0.1) ∗ Pipeline.scopedRest spec2 c) := by
  rw [Phi2_eq, scopedRest2_split]
  iintro ⟨Hpf, ⟨%x14, -, H0⟩, H1, HR, Hg⟩
  isplitl [Hg Hpf]
  · isplitl [Hg]; · iexact Hg
    iexact Hpf
  isplitl [H0 H1]
  · isplitl [H0]; · iexists x14; iexact H0
    iexact H1
  iexact HR

/-- Every window but the last is an input, and no input's array is the output's. -/
theorem inputs2 : ∀ w : Fin 10, w ≠ (9 : Fin 10) → (spec2 w).isOut = false ∧ Pipeline.arrRef spec2 w ∉ ([main_v60] : List (Ref sig .tc)) := by
  decide

/-- At the region's exit each of its arrays holds what the pipeline leaves: an input its entry contents, the output what
    its write-backs make of it, which is the region's unknown `outs 15 main_v60`. -/
theorem hF2 (c : Dev nD) (houts2 : outs 15 main_v60 c = (dat2 (Vin2 m outs) (a 2) c).arrAt (9 : Fin 10) (cfg2 (a 2)).N) :
    ∀ w : Fin 10, (dat2 (Vin2 m outs) (a 2) c).arrAt w (cfg2 (a 2)).N = Vout2 m outs c (Pipeline.arrRef spec2 w) := by
  intro w
  by_cases hw : w = (9 : Fin 10)
  · subst hw
    refine houts2.symm.trans ?_
    show _ = Function.update (Win2 m outs c) _ _ _
    rw [Function.update_self]
  · obtain ⟨hin, hne⟩ := inputs2 w hw
    exact ((dat2 (Vin2 m outs) (a 2) c).arrAt_in w hin _).trans ((A_eq2 (Vin2 m outs) (a 2) c w).trans (V15_of m outs c _ hne).symm)

/-- Every buffer that is no array of the region is left as entered. -/
theorem hrest2 (c : Dev nD) : ∀ b, b ∉ Finset.univ.image (Pipeline.arrRef spec2) → Vout2 m outs c b = Vin2 m outs c b := fun b hb =>
  V15_of m outs c b fun hmem => hb (Finset.mem_image.mpr ⟨(9 : Fin 10), Finset.mem_univ _, (List.mem_singleton.mp hmem).symm⟩)

include hd2 hpf2 houts2 in
-- the entry and exit lemmas speak of the pinned configuration `pin pcs a p`, which is the printed configuration
-- `cfg2 a` by the definitions of both
set_option backward.isDefEq.respectTransparency.types false in
/-- REGION 2 as a segment. It is entered holding every unscoped buffer at its contents after the preceding host
    operations, together with the rest state (the generator register, nothing owed); it is left holding the same, the
    output's array now at the region's unknown. On entry the region's arrays and its two tables are separated from the
    other unscoped buffers, and on exit they are joined again; the generator register and the tables pass through the
    invariant; nothing is owed at any point; the kernel has no semaphore of its own. -/
def reg2 : Pipeline.RegionSeg (pcfgs (F := F)) a pdats () defs₀ Variants.none Lz lvz 2 where
  win := winFacts2.to₀
  block_pos := block_pos2
  stage_whole := stage_whole2
  K := PEmpty
  osem k := k.elim
  ho := Pipeline.OwnSemFacts.none _
  hbody c := by rw [hd2 c]; exact (body_obligation2 (Vin2 m outs) (a 2) c).loose
  hwaits := Pipeline.hwaits_of_owed_zero _ _ _ _ Lz lvz 2 fun c t => by rw [hd2 c]; rfl
  pre c := iprop(StableHlo.held (c : Thread nD τ) (Pipeline.ucRefs τ sig) (Win2 m outs c) ∗ Rest c)
  post c := iprop(StableHlo.held (c : Thread nD τ) (Pipeline.ucRefs τ sig) (Wout2 m outs c) ∗ Rest c)
  X c := iprop(∃ r, prngReg c r)
  Y c := iprop((∃ r, prngReg c r) ∗ Pipeline.prefHeld pre2 c (fun _ => fullShare) (a 2).1)
  Z c := Pipeline.unscopedRestP (Ix := Unit) (Name := ℕ) (U := Pipeline.UD sig nD τ) (Lvl := ℕ) pre2 spec2 c (Vin2 m outs c)
  hentry c := by
    rw [Pipeline.ownSems0_none]
    have hsplit := Pipeline.arrays_of_unscopedBufs (p := 2) (pcfgs (F := F)) a pdats winFacts2 arr_whole2 c
      ((pdats 2 c).share_full fun w => by rw [hd2 c]; rfl) (Vin2 m outs c) fun w => by rw [hd2 c]; rfl
    rw [Pipeline.unscopedBufs_held, Pipeline.unscopedRest_split (win := (Pipeline.pin (pcfgs (F := F)) a 2).spec) (pre := pre2) preFacts2 c (Vin2 m outs c), hpf2 c] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · rw [hd2 c]
      unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hd2 c, show (dat2 (Vin2 m outs) (a 2) c).Φ 0 = Phi2 (Vin2 m outs) (a 2) c 0 from by dsimp only [dat2]; simp only [Fin.val_zero]]
    exact hin2 (Vin2 m outs) (a 2) c
  hout c := by
    rw [hd2 c, Pipeline.ownSems0_none, show (dat2 (Vin2 m outs) (a 2) c).Φ (Fin.last (Pipeline.pin (pcfgs (F := F)) a 2).N) = Phi2 (Vin2 m outs) (a 2) c (Pipeline.pin (pcfgs (F := F)) a 2).N from by dsimp only [dat2]; simp only [Fin.val_last]]
    iintro H
    ihave H' := (hout2 (Vin2 m outs) (a 2) c _) $$ H
    icases H' with ⟨HY, HS⟩
    isplitl [HY]; · iexact HY
    isplitr; · iempintro
    iexact HS
  hexit c := by
    have hjoin := Pipeline.unscopedBufs_of_arrays (p := 2) (pcfgs (F := F)) a (Ix := Unit) (Name := ℕ) (U := Pipeline.UD sig nD τ) (Lvl := ℕ)
      winFacts2 arr_whole2 c pdats ((pdats 2 c).share_full fun w => by rw [hd2 c]; rfl)
      (Vin2 m outs c) (Vout2 m outs c) ((pdats 2 c).arrAt · (cfg2 (a 2)).N)
      (by rw [hd2 c]; exact hF2 m outs a c (houts2 c)) (hrest2 m outs c)
    rw [Pipeline.unscopedBufs_held, Pipeline.unscopedRest_split (win := (Pipeline.pin (pcfgs (F := F)) a 2).spec) (pre := pre2) preFacts2 c (Vin2 m outs c), hpf2 c] at hjoin
    iintro ⟨Ha, HO, ⟨HY, Hpf⟩, Hrest⟩
    imodintro
    isplitl [Ha Hpf Hrest]
    · iapply hjoin
      isplitl [Ha]; · iexact Ha
      isplitl [Hpf]; · iexact Hpf
      iexact Hrest
    isplitl [HY]; · iexact HY
    rw [hd2 c]
    unfold Pipeline.Dat.owesAt Pipeline.owesWithin
    icases HO with ⟨%W, -, HO⟩; iexists W; iexact HO

/-- The record is entered from, and left at, the program's thread states around region 2, as they stand. -/
theorem hpre2 (c : Dev nD) :
    iprop(StableHlo.held (c : Thread nD τ) (Pipeline.ucRefs τ sig) (Win2 m outs c) ∗ Rest (F := F) c)
      ⊢ (reg2 m outs a pdats hd2 hpf2 houts2).pre c := .rfl
theorem hpost2 (c : Dev nD) :
    (reg2 m outs a pdats hd2 hpf2 houts2).post c
      ⊢ iprop(StableHlo.held (c : Thread nD τ) (Pipeline.ucRefs τ sig) (Wout2 m outs c) ∗ Rest (F := F) c) := .rfl

end Seg2

end Cert.Kernel.Gen

end
-- ==== Proof.BodyK3.lean ====
import proofs.«414286_j65627100283289_3_alg».proof.Proof.Gen.Kernel.Skeleton
import proofs.«414286_j65627100283289_3_alg».proof.Proof.Gen.Kernel.Launch
import Idealize.ShloMosaic.Lib.Pipeline.Frame
import Idealize.ShloMosaic.Lib.Pipeline.FrameBody
import Idealize.ShloMosaic.Lib.Tactic

/-!
# Region 3's body at one grid point

The body of one EdgeConv layer's kernel on whole staging memrefs, at any grid point `i = (core, tile)`: from the two
chunk-range tables, the tile's source and target columns, the padded node table, the layer's six parameter blocks,
the accumulator as the tile before left it and the two other written buffers at any contents, the body runs to its
end, faults nowhere, hands the eleven buffers it only reads back as they were, and leaves the accumulator, the
target-row scratch and the output's staging buffer at contents that are FUNCTIONS of what it was handed. Those three
functions are not transcribed: they are what the run finds, each conditional taken both ways and its two outcomes
merged under its condition (the reset at the core's first tile, the ten chunk gates of the target-row gather, the
ten of the scatter, the write-out at the core's last tile).
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- What the body leaves in the accumulator (`.1`), in the target-row scratch (`.2.1`) and in the output's staging
    buffer (`.2.2.1`), with the proof that it runs to the continuation holding exactly that. -/
noncomputable def bodyRun3 (c : Dev nD) (i : grid3.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x16 .f32) (harg11 : arg11.IsWhole) (arg12 : Memref sig .tc .vmem S1x16 .f32) (harg12 : arg12.IsWhole) (arg13 : Memref sig .tc .vmem S1x10240x16 .f32) (harg13 : arg13.IsWhole) (arg14 : Memref sig .tc .vmem S10240x16 .f32) (harg14 : arg14.IsWhole) (arg15 : Memref sig .tc .vmem S256x128 .f32) (harg15 : arg15.IsWhole)
    (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x16 .f32) (x12 : Vec F S1x16 .f32) (x14 : Vec F S10240x16 .f32)
    (f13 : BufTy.Contents (Elt F) arg13.view.ty) (f15 : BufTy.Contents (Elt F) arg15.view.ty) :
    Σ' (g14 : BufTy.Contents (Elt F) arg14.view.ty) (g15 : BufTy.Contents (Elt F) arg15.view.ty),
      { g13 : BufTy.Contents (Elt F) arg13.view.ty //
        ∀ (E : Set ℕ) (K : PUnit → sProp 𝕄),
          iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ (arg13.view.loc (c : Thread nD τ) ↦[arg13.view.set]{fullShare} f13)
            ∗ owns (c : Thread nD τ) arg14 fullShare x14
            ∗ (arg15.view.loc (c : Thread nD τ) ↦[arg15.view.set]{fullShare} f15)
            ∗ (iprop(owns (c : Thread nD τ) arg2 fullShare x2
              ∗ owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ owns (c : Thread nD τ) arg11 fullShare x11
              ∗ owns (c : Thread nD τ) arg12 fullShare x12
              ∗ (arg13.view.loc (c : Thread nD τ) ↦[arg13.view.set]{fullShare} g13)
              ∗ (arg14.view.loc (c : Thread nD τ) ↦[arg14.view.set]{fullShare} g14)
              ∗ (arg15.view.loc (c : Thread nD τ) ↦[arg15.view.set]{fullShare} g15)) -∗ K ⟨⟩))
          ⊢ wp frame (wpE (defs₀ (F := F)) Variants.none c none) E (cc3__edgeconv_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc3__edgeconv_kernel_eq_skeleton]; unfold cc3__edgeconv_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, H13, ⟨%f14, %hf14, H14⟩, H15, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg14.eq_unread hf14
    sl_exec!
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexact H13
    isplitl [H14]; · iexact H14
    iexact H15

end Cert.Kernel.Gen

end
-- ==== Proof.StepDefsK3.lean ====
import proofs.«414286_j65627100283289_3_alg».proof.Proof.Gen.Kernel.Skeleton
import proofs.«414286_j65627100283289_3_alg».proof.Proof.GateWord
import proofs.«414286_j65627100283289_3_alg».proof.Proof.LibGatedRmw
import Idealize.ShloMosaic.Lib.Pipeline.FrameBody

/-!
# Region 3's body as functions of the values it is handed

What one run of the body at grid point `i = (core, tile)` leaves in the accumulator, written without a memref and without
any buffer's old raw contents: from the two chunk-range tables, the tile's source and target columns, the padded node
table, the six parameter blocks and the accumulator as the tile before left it.

* the two table words of the tile, `lo` and `hi`, and from them the ten gate words `lo ≤ k ≤ hi`;
* the target rows' gather `xi3`: zero, then for each chunk `k` of 1024 nodes, under its gate, the one-hot product of
  the target column against the chunk's rows added on;
* the source rows' gather `xj3`: the ten one-hot products added up, no gate;
* the perceptron's hidden row `hid3` and the messages `msg3`;
* the accumulator: reset to zero at the core's first tile, then for each chunk under its gate the chunk's rows replaced
  by themselves plus the transposed one-hot product with the messages.

Each step is spelt through the generated payload that computes it, so that the body's run and these functions meet
name by name.
-/

noncomputable section

namespace Cert.Kernel.Gen

open Idealize.ShloMosaic Idealize.ShloMosaic.GatedRmw

variable {F : FTy → Type} [FloatOps F]

/-- The tile's entry of the first table: the least chunk its targets fall in. -/
def loW3 (i : grid3.Coords) (x2 : Vec F S1250 .i32) : BitVec 32 :=
  View.ld x2 (Rect.unit (s := S1250) (k3_off1 i) S1.size (k3_off1_inb i))
    (Shape.Idx.first (lt_of_lt_of_eq Nat.one_pos numel1_S1.symm))

/-- The tile's entry of the second table: the greatest chunk its targets fall in. -/
def hiW3 (i : grid3.Coords) (x3 : Vec F S1250 .i32) : BitVec 32 :=
  View.ld x3 (Rect.unit (s := S1250) (k3_off1 i) S1.size (k3_off1_inb i))
    (Shape.Idx.first (lt_of_lt_of_eq Nat.one_pos numel1_S1.symm))

/-- The word "this is the core's first tile". -/
def firstW3 (i : grid3.Coords) : BitVec 1 :=
  Scalar.cmpi .ne (Scalar.extui (Scalar.cmpi .eq (BitVec.ofNat 32 (i 1).val) 0#32)) 0#32

/-- One gated step of the target rows' gather: under the gate the step's payload of the rows so far. -/
def xiStep3 (g : BitVec 1) (pay : Vec F S256x128 .f32 → FVec F S256x128 .f32) (X : Vec F S256x128 .f32) : Vec F S256x128 .f32 :=
  if g = 1#1 then pay X else X

/-- The target rows the tile gathers: zero, then chunk by chunk under the gates. -/
def xi3 (i : grid3.Coords) (x2 x3 : Vec F S1250 .i32) (x5 : Vec F S256x1 .i32) (x6 : Vec F S10240x128 .f32) :
    Vec F S256x128 .f32 :=
  (xiStep3 (Cert.Spec.gateWord (loW3 i x2) (hiW3 i x3) 9#32) (k3_pay22 (k3_pay3 x5) (View.ld x6 (Rect.unit (s := S10240x128) ![9216, 0] S1024x128.size inb_S10240x128_S1024x128_9216_0)))
      (xiStep3 (Cert.Spec.gateWord (loW3 i x2) (hiW3 i x3) 8#32) (k3_pay21 (k3_pay3 x5) (View.ld x6 (Rect.unit (s := S10240x128) ![8192, 0] S1024x128.size inb_S10240x128_S1024x128_8192_0)))
      (xiStep3 (Cert.Spec.gateWord (loW3 i x2) (hiW3 i x3) 7#32) (k3_pay20 (k3_pay3 x5) (View.ld x6 (Rect.unit (s := S10240x128) ![7168, 0] S1024x128.size inb_S10240x128_S1024x128_7168_0)))
      (xiStep3 (Cert.Spec.gateWord (loW3 i x2) (hiW3 i x3) 6#32) (k3_pay19 (k3_pay3 x5) (View.ld x6 (Rect.unit (s := S10240x128) ![6144, 0] S1024x128.size inb_S10240x128_S1024x128_6144_0)))
      (xiStep3 (Cert.Spec.gateWord (loW3 i x2) (hiW3 i x3) 5#32) (k3_pay18 (k3_pay3 x5) (View.ld x6 (Rect.unit (s := S10240x128) ![5120, 0] S1024x128.size inb_S10240x128_S1024x128_5120_0)))
      (xiStep3 (Cert.Spec.gateWord (loW3 i x2) (hiW3 i x3) 4#32) (k3_pay17 (k3_pay3 x5) (View.ld x6 (Rect.unit (s := S10240x128) ![4096, 0] S1024x128.size inb_S10240x128_S1024x128_4096_0)))
      (xiStep3 (Cert.Spec.gateWord (loW3 i x2) (hiW3 i x3) 3#32) (k3_pay16 (k3_pay3 x5) (View.ld x6 (Rect.unit (s := S10240x128) ![3072, 0] S1024x128.size inb_S10240x128_S1024x128_3072_0)))
      (xiStep3 (Cert.Spec.gateWord (loW3 i x2) (hiW3 i x3) 2#32) (k3_pay15 (k3_pay3 x5) (View.ld x6 (Rect.unit (s := S10240x128) ![2048, 0] S1024x128.size inb_S10240x128_S1024x128_2048_0)))
      (xiStep3 (Cert.Spec.gateWord (loW3 i x2) (hiW3 i x3) 1#32) (k3_pay14 (k3_pay3 x5) (View.ld x6 (Rect.unit (s := S10240x128) ![1024, 0] S1024x128.size inb_S10240x128_S1024x128_1024_0)))
      (xiStep3 (Cert.Spec.gateWord (loW3 i x2) (hiW3 i x3) 0#32) (k3_pay13 (k3_pay3 x5) (View.ld x6 (Rect.unit (s := S10240x128) ![0, 0] S1024x128.size inb_S10240x128_S1024x128_0_0)))
      (k3_pay12 (F := F))))))))))))

/-- The source rows the tile gathers: every chunk's one-hot product, added up. -/
def xj3 (x4 : Vec F S256x1 .i32) (x6 : Vec F S10240x128 .f32) : FVec F S256x128 .f32 :=
  k3_pay11
    (k3_pay9 (k3_pay4 x4)
      (k3_pay7 (k3_pay4 x4) (k3_pay5 x4 (View.ld x6 (Rect.unit (s := S10240x128) ![0, 0] S1024x128.size inb_S10240x128_S1024x128_0_0)) (View.ld x6 (Rect.unit (s := S10240x128) ![1024, 0] S1024x128.size inb_S10240x128_S1024x128_1024_0))) (k3_pay6 x4)
        (iota Kind.tc S256x1024 32 [1] iota_S256x1024_d1_w32) (2048#32)
        (View.ld x6 (Rect.unit (s := S10240x128) ![2048, 0] S1024x128.size inb_S10240x128_S1024x128_2048_0)) (View.ld x6 (Rect.unit (s := S10240x128) ![3072, 0] S1024x128.size inb_S10240x128_S1024x128_3072_0)) (View.ld x6 (Rect.unit (s := S10240x128) ![4096, 0] S1024x128.size inb_S10240x128_S1024x128_4096_0)))
      (k3_pay8 (k3_pay4 x4) (View.ld x6 (Rect.unit (s := S10240x128) ![5120, 0] S1024x128.size inb_S10240x128_S1024x128_5120_0)))
      (View.ld x6 (Rect.unit (s := S10240x128) ![6144, 0] S1024x128.size inb_S10240x128_S1024x128_6144_0)) (View.ld x6 (Rect.unit (s := S10240x128) ![7168, 0] S1024x128.size inb_S10240x128_S1024x128_7168_0)) (View.ld x6 (Rect.unit (s := S10240x128) ![8192, 0] S1024x128.size inb_S10240x128_S1024x128_8192_0)))
    (k3_pay10 (k3_pay4 x4))
    (View.ld x6 (Rect.unit (s := S10240x128) ![9216, 0] S1024x128.size inb_S10240x128_S1024x128_9216_0))

/-- The perceptron's first hidden row of every edge of the tile. -/
def hid3 (i : grid3.Coords) (x2 x3 : Vec F S1250 .i32) (x4 x5 : Vec F S256x1 .i32) (x6 : Vec F S10240x128 .f32)
    (x7 : Vec F S256x128 .f32) (x8 : Vec F S1x128 .f32) : FVec F S256x128 .f32 :=
  k3_pay23 (xj3 x4 x6) (xi3 i x2 x3 x5 x6) x7 x8

/-- The message of every edge of the tile. -/
def msg3 (i : grid3.Coords) (x2 x3 : Vec F S1250 .i32) (x4 x5 : Vec F S256x1 .i32) (x6 : Vec F S10240x128 .f32)
    (x7 : Vec F S256x128 .f32) (x8 : Vec F S1x128 .f32) (x9 : Vec F S128x128 .f32) (x10 : Vec F S1x128 .f32)
    (x11 : Vec F S128x16 .f32) (x12 : Vec F S1x16 .f32) : FVec F S256x16 .f32 :=
  k3_pay24 (hid3 i x2 x3 x4 x5 x6 x7 x8) (FloatOps.ofBits FTy.f32 0#32) x9 x10 x11 x12

/-- The accumulator the chunk steps start from: zero at the core's first tile, else what the tile before left. -/
def accReset3 (i : grid3.Coords) (x14 : Vec F S10240x16 .f32) : Vec F S10240x16 .f32 :=
  if firstW3 i = 1#1 then k3_pay2 else x14

/-- One gated chunk step of the scatter: under the gate the chunk's rows replaced by the step's payload of them. -/
def accStep3 (g : BitVec 1) (R : Rect S10240x16) (pay : (R.shape.Idx → Elt F .f32) → (R.shape.Idx → Elt F .f32))
    (A : Vec F S10240x16 .f32) : Vec F S10240x16 .f32 :=
  gatedVal g R pay A

/-- The accumulator after the body at point `i`. -/
def stepAcc3 (i : grid3.Coords) (x2 x3 : Vec F S1250 .i32) (x4 x5 : Vec F S256x1 .i32) (x6 : Vec F S10240x128 .f32)
    (x7 : Vec F S256x128 .f32) (x8 : Vec F S1x128 .f32) (x9 : Vec F S128x128 .f32) (x10 : Vec F S1x128 .f32)
    (x11 : Vec F S128x16 .f32) (x12 : Vec F S1x16 .f32) (x14 : Vec F S10240x16 .f32) : Vec F S10240x16 .f32 :=
  (accStep3 (Cert.Spec.gateWord (loW3 i x2) (hiW3 i x3) 9#32) (Rect.unit (s := S10240x16) ![9216, 0] S1024x16.size inb_S10240x16_S1024x16_9216_0)
      (k3_pay34 (k3_pay3 x5) (msg3 i x2 x3 x4 x5 x6 x7 x8 x9 x10 x11 x12))
      (accStep3 (Cert.Spec.gateWord (loW3 i x2) (hiW3 i x3) 8#32) (Rect.unit (s := S10240x16) ![8192, 0] S1024x16.size inb_S10240x16_S1024x16_8192_0)
      (k3_pay33 (k3_pay3 x5) (msg3 i x2 x3 x4 x5 x6 x7 x8 x9 x10 x11 x12))
      (accStep3 (Cert.Spec.gateWord (loW3 i x2) (hiW3 i x3) 7#32) (Rect.unit (s := S10240x16) ![7168, 0] S1024x16.size inb_S10240x16_S1024x16_7168_0)
      (k3_pay32 (k3_pay3 x5) (msg3 i x2 x3 x4 x5 x6 x7 x8 x9 x10 x11 x12))
      (accStep3 (Cert.Spec.gateWord (loW3 i x2) (hiW3 i x3) 6#32) (Rect.unit (s := S10240x16) ![6144, 0] S1024x16.size inb_S10240x16_S1024x16_6144_0)
      (k3_pay31 (k3_pay3 x5) (msg3 i x2 x3 x4 x5 x6 x7 x8 x9 x10 x11 x12))
      (accStep3 (Cert.Spec.gateWord (loW3 i x2) (hiW3 i x3) 5#32) (Rect.unit (s := S10240x16) ![5120, 0] S1024x16.size inb_S10240x16_S1024x16_5120_0)
      (k3_pay30 (k3_pay3 x5) (msg3 i x2 x3 x4 x5 x6 x7 x8 x9 x10 x11 x12))
      (accStep3 (Cert.Spec.gateWord (loW3 i x2) (hiW3 i x3) 4#32) (Rect.unit (s := S10240x16) ![4096, 0] S1024x16.size inb_S10240x16_S1024x16_4096_0)
      (k3_pay29 (k3_pay3 x5) (msg3 i x2 x3 x4 x5 x6 x7 x8 x9 x10 x11 x12))
      (accStep3 (Cert.Spec.gateWord (loW3 i x2) (hiW3 i x3) 3#32) (Rect.unit (s := S10240x16) ![3072, 0] S1024x16.size inb_S10240x16_S1024x16_3072_0)
      (k3_pay28 (k3_pay3 x5) (msg3 i x2 x3 x4 x5 x6 x7 x8 x9 x10 x11 x12))
      (accStep3 (Cert.Spec.gateWord (loW3 i x2) (hiW3 i x3) 2#32) (Rect.unit (s := S10240x16) ![2048, 0] S1024x16.size inb_S10240x16_S1024x16_2048_0)
      (k3_pay27 (k3_pay3 x5) (hid3 i x2 x3 x4 x5 x6 x7 x8) (FloatOps.ofBits FTy.f32 0#32) x9 x10 x11 x12)
      (accStep3 (Cert.Spec.gateWord (loW3 i x2) (hiW3 i x3) 1#32) (Rect.unit (s := S10240x16) ![1024, 0] S1024x16.size inb_S10240x16_S1024x16_1024_0)
      (k3_pay26 (k3_pay3 x5) (hid3 i x2 x3 x4 x5 x6 x7 x8) (FloatOps.ofBits FTy.f32 0#32) x9 x10 x11 x12)
      (accStep3 (Cert.Spec.gateWord (loW3 i x2) (hiW3 i x3) 0#32) (Rect.unit (s := S10240x16) ![0, 0] S1024x16.size inb_S10240x16_S1024x16_0_0)
      (k3_pay25 (k3_pay3 x5) (hid3 i x2 x3 x4 x5 x6 x7 x8) (FloatOps.ofBits FTy.f32 0#32) x9 x10 x11 x12)
      (accReset3 i x14)))))))))))

end Cert.Kernel.Gen

end
-- ==== Proof.StepK3.lean ====
import proofs.«414286_j65627100283289_3_alg».proof.Proof.BodyK3
import proofs.«414286_j65627100283289_3_alg».proof.Proof.StepDefsK3
import Idealize.ShloMosaic.Lib.Pipeline.Frame
import Idealize.ShloMosaic.Lib.Pipeline.FrameBody
import Idealize.ShloMosaic.Lib.Pipeline.Value
import Idealize.ShloMosaic.Lib.Writes

/-!
# What region 3's body leaves, as the functions of `StepDefsI3`

The run of the body found, for the accumulator, ten nested conditionals: under chunk `k`'s gate the contents so far with
chunk `k`'s rows overwritten by a payload of those same rows as loaded from the contents so far, else the contents so
far; at the bottom the reset under the first tile's condition. Each level is one gated read-modify-write of one
rectangle, and the found term IS that nest, by unfolding. What a gated read-modify-write reads is the gated step on
what the contents before read, so reading the nest gives the same nest on VALUES, each level now mentioning the level
below once: the accumulator step of `StepDefsI3`, once the run's names for the table words, the gates, the gathered
rows, the hidden row and the messages are rewritten as those functions. The target-row scratch is the same story with
the whole buffer as its one rectangle, which is why its old contents never show: every store covers it. The output's
staging buffer is stored once, whole, under the last tile's condition, with the accumulator read back whole.
-/

noncomputable section

namespace Cert.Kernel.Gen

open Idealize.ShloMosaic Idealize.ShloMosaic.TcCoe Idealize.ShloMosaic.GatedRmw

variable {F : FTy → Type} [FloatOps F]

/-! ## The run's contents, level by level, as gated read-modify-writes -/

set_option maxRecDepth 65536 in
/-- The accumulator's raw contents the run found are ten gated read-modify-writes over the reset. -/
theorem acc_raw3 (c : Dev nD) (i : grid3.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x16 .f32) (harg11 : arg11.IsWhole) (arg12 : Memref sig .tc .vmem S1x16 .f32) (harg12 : arg12.IsWhole) (arg13 : Memref sig .tc .vmem S1x10240x16 .f32) (harg13 : arg13.IsWhole) (arg14 : Memref sig .tc .vmem S10240x16 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x16 .f32) (x12 : Vec F S1x16 .f32) (x14 : Vec F S10240x16 .f32) (f13 : BufTy.Contents (Elt F) arg13.view.ty) (f15 : BufTy.Contents (Elt F) arg15.view.ty) :
    (bodyRun3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).1 = (gatedRmw arg14.view (bodyRun3.sl.v187 c i arg2 harg2 arg3 harg3 x2 x3) (Rect.unit (s := S10240x16) ![9216, 0] S1024x16.size inb_S10240x16_S1024x16_9216_0)
      (fun v => k3_pay34 (bodyRun3.sl.r_2 c arg5 harg5 x5) (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun3.sl.v182 c i arg2 harg2 arg3 harg3 x2 x3) (Rect.unit (s := S10240x16) ![8192, 0] S1024x16.size inb_S10240x16_S1024x16_8192_0)
      (fun v => k3_pay33 (bodyRun3.sl.r_2 c arg5 harg5 x5) (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun3.sl.v177 c i arg2 harg2 arg3 harg3 x2 x3) (Rect.unit (s := S10240x16) ![7168, 0] S1024x16.size inb_S10240x16_S1024x16_7168_0)
      (fun v => k3_pay32 (bodyRun3.sl.r_2 c arg5 harg5 x5) (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun3.sl.v172 c i arg2 harg2 arg3 harg3 x2 x3) (Rect.unit (s := S10240x16) ![6144, 0] S1024x16.size inb_S10240x16_S1024x16_6144_0)
      (fun v => k3_pay31 (bodyRun3.sl.r_2 c arg5 harg5 x5) (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun3.sl.v167 c i arg2 harg2 arg3 harg3 x2 x3) (Rect.unit (s := S10240x16) ![5120, 0] S1024x16.size inb_S10240x16_S1024x16_5120_0)
      (fun v => k3_pay30 (bodyRun3.sl.r_2 c arg5 harg5 x5) (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun3.sl.v162 c i arg2 harg2 arg3 harg3 x2 x3) (Rect.unit (s := S10240x16) ![4096, 0] S1024x16.size inb_S10240x16_S1024x16_4096_0)
      (fun v => k3_pay29 (bodyRun3.sl.r_2 c arg5 harg5 x5) (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun3.sl.v157 c i arg2 harg2 arg3 harg3 x2 x3) (Rect.unit (s := S10240x16) ![3072, 0] S1024x16.size inb_S10240x16_S1024x16_3072_0)
      (fun v => k3_pay28 (bodyRun3.sl.r_2 c arg5 harg5 x5) (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun3.sl.v152 c i arg2 harg2 arg3 harg3 x2 x3) (Rect.unit (s := S10240x16) ![2048, 0] S1024x16.size inb_S10240x16_S1024x16_2048_0)
      (fun v => k3_pay27 (bodyRun3.sl.r_2 c arg5 harg5 x5) (bodyRun3.sl.r_11 c i arg2 harg2 arg3 harg3 arg4 harg4 arg5 harg5 arg6 harg6 arg7 harg7 arg8 harg8 arg15 x2 x3 x4 x5 x6 x7 x8 f15) bodyRun3.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x16) ![0, 0] S128x16.size inb_S128x16_S128x16_0_0).toLoadRect (harg11.unread x11)) (View.readAt (Elt F) arg12.view (Rect.unit (s := S1x16) ![0, 0] S1x16.size inb_S1x16_S1x16_0_0).toLoadRect (harg12.unread x12)) v)
      (gatedRmw arg14.view (bodyRun3.sl.v147 c i arg2 harg2 arg3 harg3 x2 x3) (Rect.unit (s := S10240x16) ![1024, 0] S1024x16.size inb_S10240x16_S1024x16_1024_0)
      (fun v => k3_pay26 (bodyRun3.sl.r_2 c arg5 harg5 x5) (bodyRun3.sl.r_11 c i arg2 harg2 arg3 harg3 arg4 harg4 arg5 harg5 arg6 harg6 arg7 harg7 arg8 harg8 arg15 x2 x3 x4 x5 x6 x7 x8 f15) bodyRun3.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x16) ![0, 0] S128x16.size inb_S128x16_S128x16_0_0).toLoadRect (harg11.unread x11)) (View.readAt (Elt F) arg12.view (Rect.unit (s := S1x16) ![0, 0] S1x16.size inb_S1x16_S1x16_0_0).toLoadRect (harg12.unread x12)) v)
      (gatedRmw arg14.view (bodyRun3.sl.v142 c i arg2 harg2 arg3 harg3 x2 x3) (Rect.unit (s := S10240x16) ![0, 0] S1024x16.size inb_S10240x16_S1024x16_0_0)
      (fun v => k3_pay25 (bodyRun3.sl.r_2 c arg5 harg5 x5) (bodyRun3.sl.r_11 c i arg2 harg2 arg3 harg3 arg4 harg4 arg5 harg5 arg6 harg6 arg7 harg7 arg8 harg8 arg15 x2 x3 x4 x5 x6 x7 x8 f15) bodyRun3.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x16) ![0, 0] S128x16.size inb_S128x16_S128x16_0_0).toLoadRect (harg11.unread x11)) (View.readAt (Elt F) arg12.view (Rect.unit (s := S1x16) ![0, 0] S1x16.size inb_S1x16_S1x16_0_0).toLoadRect (harg12.unread x12)) v)
      (if _hc : bodyRun3.sl.v4 i = 1#1 then arg14.view.writes (Elt F) (harg14.unread x14) [⟨(Rect.unit (s := S10240x16) ![0, 0] S10240x16.size inb_S10240x16_S10240x16_0_0), k3_pay2⟩] else harg14.unread x14))))))))))) := rfl

set_option maxRecDepth 65536 in
/-- The target-row scratch as the hidden layer's load reads it: nine gated read-modify-writes over the first. -/
theorem xi_raw3 (c : Dev nD) (i : grid3.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x16 .f32) (harg11 : arg11.IsWhole) (arg12 : Memref sig .tc .vmem S1x16 .f32) (harg12 : arg12.IsWhole) (arg13 : Memref sig .tc .vmem S1x10240x16 .f32) (harg13 : arg13.IsWhole) (arg14 : Memref sig .tc .vmem S10240x16 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x16 .f32) (x12 : Vec F S1x16 .f32) (x14 : Vec F S10240x16 .f32) (f13 : BufTy.Contents (Elt F) arg13.view.ty) (f15 : BufTy.Contents (Elt F) arg15.view.ty) :
    (bodyRun3.sl.v188 c i arg2 harg2 arg3 harg3 arg5 harg5 arg6 harg6 arg15 x2 x3 x5 x6 f15) = View.readAt (Elt F) arg15.view (Rect.unit (s := S256x128) ![0, 0] S256x128.size inb_S256x128_S256x128_0_0).toLoadRect (gatedRmw arg15.view (bodyRun3.sl.v187 c i arg2 harg2 arg3 harg3 x2 x3) (Rect.unit (s := S256x128) ![0, 0] S256x128.size inb_S256x128_S256x128_0_0)
      (fun v => k3_pay22 (bodyRun3.sl.r_2 c arg5 harg5 x5) (View.readAt (Elt F) arg6.view (Rect.unit (s := S10240x128) ![9216, 0] S1024x128.size inb_S10240x128_S1024x128_9216_0).toLoadRect (harg6.unread x6)) v)
      (gatedRmw arg15.view (bodyRun3.sl.v182 c i arg2 harg2 arg3 harg3 x2 x3) (Rect.unit (s := S256x128) ![0, 0] S256x128.size inb_S256x128_S256x128_0_0)
      (fun v => k3_pay21 (bodyRun3.sl.r_2 c arg5 harg5 x5) (View.readAt (Elt F) arg6.view (Rect.unit (s := S10240x128) ![8192, 0] S1024x128.size inb_S10240x128_S1024x128_8192_0).toLoadRect (harg6.unread x6)) v)
      (gatedRmw arg15.view (bodyRun3.sl.v177 c i arg2 harg2 arg3 harg3 x2 x3) (Rect.unit (s := S256x128) ![0, 0] S256x128.size inb_S256x128_S256x128_0_0)
      (fun v => k3_pay20 (bodyRun3.sl.r_2 c arg5 harg5 x5) (View.readAt (Elt F) arg6.view (Rect.unit (s := S10240x128) ![7168, 0] S1024x128.size inb_S10240x128_S1024x128_7168_0).toLoadRect (harg6.unread x6)) v)
      (gatedRmw arg15.view (bodyRun3.sl.v172 c i arg2 harg2 arg3 harg3 x2 x3) (Rect.unit (s := S256x128) ![0, 0] S256x128.size inb_S256x128_S256x128_0_0)
      (fun v => k3_pay19 (bodyRun3.sl.r_2 c arg5 harg5 x5) (View.readAt (Elt F) arg6.view (Rect.unit (s := S10240x128) ![6144, 0] S1024x128.size inb_S10240x128_S1024x128_6144_0).toLoadRect (harg6.unread x6)) v)
      (gatedRmw arg15.view (bodyRun3.sl.v167 c i arg2 harg2 arg3 harg3 x2 x3) (Rect.unit (s := S256x128) ![0, 0] S256x128.size inb_S256x128_S256x128_0_0)
      (fun v => k3_pay18 (bodyRun3.sl.r_2 c arg5 harg5 x5) (View.readAt (Elt F) arg6.view (Rect.unit (s := S10240x128) ![5120, 0] S1024x128.size inb_S10240x128_S1024x128_5120_0).toLoadRect (harg6.unread x6)) v)
      (gatedRmw arg15.view (bodyRun3.sl.v162 c i arg2 harg2 arg3 harg3 x2 x3) (Rect.unit (s := S256x128) ![0, 0] S256x128.size inb_S256x128_S256x128_0_0)
      (fun v => k3_pay17 (bodyRun3.sl.r_2 c arg5 harg5 x5) (View.readAt (Elt F) arg6.view (Rect.unit (s := S10240x128) ![4096, 0] S1024x128.size inb_S10240x128_S1024x128_4096_0).toLoadRect (harg6.unread x6)) v)
      (gatedRmw arg15.view (bodyRun3.sl.v157 c i arg2 harg2 arg3 harg3 x2 x3) (Rect.unit (s := S256x128) ![0, 0] S256x128.size inb_S256x128_S256x128_0_0)
      (fun v => k3_pay16 (bodyRun3.sl.r_2 c arg5 harg5 x5) (View.readAt (Elt F) arg6.view (Rect.unit (s := S10240x128) ![3072, 0] S1024x128.size inb_S10240x128_S1024x128_3072_0).toLoadRect (harg6.unread x6)) v)
      (gatedRmw arg15.view (bodyRun3.sl.v152 c i arg2 harg2 arg3 harg3 x2 x3) (Rect.unit (s := S256x128) ![0, 0] S256x128.size inb_S256x128_S256x128_0_0)
      (fun v => k3_pay15 (bodyRun3.sl.r_2 c arg5 harg5 x5) (View.readAt (Elt F) arg6.view (Rect.unit (s := S10240x128) ![2048, 0] S1024x128.size inb_S10240x128_S1024x128_2048_0).toLoadRect (harg6.unread x6)) v)
      (gatedRmw arg15.view (bodyRun3.sl.v147 c i arg2 harg2 arg3 harg3 x2 x3) (Rect.unit (s := S256x128) ![0, 0] S256x128.size inb_S256x128_S256x128_0_0)
      (fun v => k3_pay14 (bodyRun3.sl.r_2 c arg5 harg5 x5) (View.readAt (Elt F) arg6.view (Rect.unit (s := S10240x128) ![1024, 0] S1024x128.size inb_S10240x128_S1024x128_1024_0).toLoadRect (harg6.unread x6)) v)
      (if _hc : (bodyRun3.sl.v142 c i arg2 harg2 arg3 harg3 x2 x3) = 1#1 then arg15.view.writes (Elt F) f15 (⟨(Rect.unit (s := S256x128) ![0, 0] S256x128.size inb_S256x128_S256x128_0_0), k3_pay13 (bodyRun3.sl.r_2 c arg5 harg5 x5) (View.readAt (Elt F) arg6.view (Rect.unit (s := S10240x128) ![0, 0] S1024x128.size inb_S10240x128_S1024x128_0_0).toLoadRect (harg6.unread x6)) (bodyRun3.sl.v277 arg15)⟩ :: bodyRun3.sl.H15_1) else arg15.view.writes (Elt F) f15 bodyRun3.sl.H15_1)))))))))) := rfl

set_option maxRecDepth 65536 in
/-- The write-out's load of the whole accumulator reads the same raw contents. -/
theorem v266_raw3 (c : Dev nD) (i : grid3.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x16 .f32) (harg11 : arg11.IsWhole) (arg12 : Memref sig .tc .vmem S1x16 .f32) (harg12 : arg12.IsWhole) (arg13 : Memref sig .tc .vmem S1x10240x16 .f32) (harg13 : arg13.IsWhole) (arg14 : Memref sig .tc .vmem S10240x16 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x16 .f32) (x12 : Vec F S1x16 .f32) (x14 : Vec F S10240x16 .f32) (f13 : BufTy.Contents (Elt F) arg13.view.ty) (f15 : BufTy.Contents (Elt F) arg15.view.ty) :
    (bodyRun3.sl.v266 c i arg2 harg2 arg3 harg3 arg4 harg4 arg5 harg5 arg6 harg6 arg7 harg7 arg8 harg8 arg9 harg9 arg10 harg10 arg11 harg11 arg12 harg12 arg14 harg14 arg15 x2 x3 x4 x5 x6 x7 x8 x9 x10 x11 x12 x14 f15) = View.readAt (Elt F) arg14.view (Rect.unit (s := S10240x16) ![0, 0] S10240x16.size inb_S10240x16_S10240x16_0_0).toLoadRect (gatedRmw arg14.view (bodyRun3.sl.v187 c i arg2 harg2 arg3 harg3 x2 x3) (Rect.unit (s := S10240x16) ![9216, 0] S1024x16.size inb_S10240x16_S1024x16_9216_0)
      (fun v => k3_pay34 (bodyRun3.sl.r_2 c arg5 harg5 x5) (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun3.sl.v182 c i arg2 harg2 arg3 harg3 x2 x3) (Rect.unit (s := S10240x16) ![8192, 0] S1024x16.size inb_S10240x16_S1024x16_8192_0)
      (fun v => k3_pay33 (bodyRun3.sl.r_2 c arg5 harg5 x5) (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun3.sl.v177 c i arg2 harg2 arg3 harg3 x2 x3) (Rect.unit (s := S10240x16) ![7168, 0] S1024x16.size inb_S10240x16_S1024x16_7168_0)
      (fun v => k3_pay32 (bodyRun3.sl.r_2 c arg5 harg5 x5) (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun3.sl.v172 c i arg2 harg2 arg3 harg3 x2 x3) (Rect.unit (s := S10240x16) ![6144, 0] S1024x16.size inb_S10240x16_S1024x16_6144_0)
      (fun v => k3_pay31 (bodyRun3.sl.r_2 c arg5 harg5 x5) (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun3.sl.v167 c i arg2 harg2 arg3 harg3 x2 x3) (Rect.unit (s := S10240x16) ![5120, 0] S1024x16.size inb_S10240x16_S1024x16_5120_0)
      (fun v => k3_pay30 (bodyRun3.sl.r_2 c arg5 harg5 x5) (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun3.sl.v162 c i arg2 harg2 arg3 harg3 x2 x3) (Rect.unit (s := S10240x16) ![4096, 0] S1024x16.size inb_S10240x16_S1024x16_4096_0)
      (fun v => k3_pay29 (bodyRun3.sl.r_2 c arg5 harg5 x5) (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun3.sl.v157 c i arg2 harg2 arg3 harg3 x2 x3) (Rect.unit (s := S10240x16) ![3072, 0] S1024x16.size inb_S10240x16_S1024x16_3072_0)
      (fun v => k3_pay28 (bodyRun3.sl.r_2 c arg5 harg5 x5) (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun3.sl.v152 c i arg2 harg2 arg3 harg3 x2 x3) (Rect.unit (s := S10240x16) ![2048, 0] S1024x16.size inb_S10240x16_S1024x16_2048_0)
      (fun v => k3_pay27 (bodyRun3.sl.r_2 c arg5 harg5 x5) (bodyRun3.sl.r_11 c i arg2 harg2 arg3 harg3 arg4 harg4 arg5 harg5 arg6 harg6 arg7 harg7 arg8 harg8 arg15 x2 x3 x4 x5 x6 x7 x8 f15) bodyRun3.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x16) ![0, 0] S128x16.size inb_S128x16_S128x16_0_0).toLoadRect (harg11.unread x11)) (View.readAt (Elt F) arg12.view (Rect.unit (s := S1x16) ![0, 0] S1x16.size inb_S1x16_S1x16_0_0).toLoadRect (harg12.unread x12)) v)
      (gatedRmw arg14.view (bodyRun3.sl.v147 c i arg2 harg2 arg3 harg3 x2 x3) (Rect.unit (s := S10240x16) ![1024, 0] S1024x16.size inb_S10240x16_S1024x16_1024_0)
      (fun v => k3_pay26 (bodyRun3.sl.r_2 c arg5 harg5 x5) (bodyRun3.sl.r_11 c i arg2 harg2 arg3 harg3 arg4 harg4 arg5 harg5 arg6 harg6 arg7 harg7 arg8 harg8 arg15 x2 x3 x4 x5 x6 x7 x8 f15) bodyRun3.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x16) ![0, 0] S128x16.size inb_S128x16_S128x16_0_0).toLoadRect (harg11.unread x11)) (View.readAt (Elt F) arg12.view (Rect.unit (s := S1x16) ![0, 0] S1x16.size inb_S1x16_S1x16_0_0).toLoadRect (harg12.unread x12)) v)
      (gatedRmw arg14.view (bodyRun3.sl.v142 c i arg2 harg2 arg3 harg3 x2 x3) (Rect.unit (s := S10240x16) ![0, 0] S1024x16.size inb_S10240x16_S1024x16_0_0)
      (fun v => k3_pay25 (bodyRun3.sl.r_2 c arg5 harg5 x5) (bodyRun3.sl.r_11 c i arg2 harg2 arg3 harg3 arg4 harg4 arg5 harg5 arg6 harg6 arg7 harg7 arg8 harg8 arg15 x2 x3 x4 x5 x6 x7 x8 f15) bodyRun3.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x16) ![0, 0] S128x16.size inb_S128x16_S128x16_0_0).toLoadRect (harg11.unread x11)) (View.readAt (Elt F) arg12.view (Rect.unit (s := S1x16) ![0, 0] S1x16.size inb_S1x16_S1x16_0_0).toLoadRect (harg12.unread x12)) v)
      (if _hc : bodyRun3.sl.v4 i = 1#1 then arg14.view.writes (Elt F) (harg14.unread x14) [⟨(Rect.unit (s := S10240x16) ![0, 0] S10240x16.size inb_S10240x16_S10240x16_0_0), k3_pay2⟩] else harg14.unread x14))))))))))) := rfl

set_option maxRecDepth 65536 in
/-- The output's staging buffer: one whole store under the last tile's condition. -/
theorem out_raw3 (c : Dev nD) (i : grid3.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x16 .f32) (harg11 : arg11.IsWhole) (arg12 : Memref sig .tc .vmem S1x16 .f32) (harg12 : arg12.IsWhole) (arg13 : Memref sig .tc .vmem S1x10240x16 .f32) (harg13 : arg13.IsWhole) (arg14 : Memref sig .tc .vmem S10240x16 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x16 .f32) (x12 : Vec F S1x16 .f32) (x14 : Vec F S10240x16 .f32) (f13 : BufTy.Contents (Elt F) arg13.view.ty) (f15 : BufTy.Contents (Elt F) arg15.view.ty) :
    (bodyRun3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).2.2.1 = (if _hc : k3_cond22 i = 1#1 then arg13.view.writes (Elt F) f13 [⟨(Rect.unit (s := S1x10240x16) ![0, 0, 0] S1x10240x16.size inb_S1x10240x16_S1x10240x16_0_0_0), k3_pay1 (bodyRun3.sl.v266 c i arg2 harg2 arg3 harg3 arg4 harg4 arg5 harg5 arg6 harg6 arg7 harg7 arg8 harg8 arg9 harg9 arg10 harg10 arg11 harg11 arg12 harg12 arg14 harg14 arg15 x2 x3 x4 x5 x6 x7 x8 x9 x10 x11 x12 x14 f15)⟩] else f13) := rfl

/-! ## Loads off whole buffers, and the run's names as the functions of `StepDefsI3` -/

/-- A load off a whole buffer held at the raw contents of `X` reads `X` through the rectangle. -/
private theorem readAt_unread_ld3 {sp : Space} {s : Shape} {e : EltTy} (m : Memref sig .tc sp s e) (h : m.IsWhole)
    (X : s.Idx → Elt F e) (R : Rect s) : View.readAt (Elt F) m.view R.toLoadRect (h.unread X) = View.ld X R := by
  rw [View.readAt_eq_ld, h.read_unread]

private theorem ld_w_col3 {Val : EltTy → Type} {e : EltTy} (X : S256x1.Idx → Val e) : View.ld X (Rect.unit (s := S256x1) ![0, 0] S256x1.size inb_S256x1_S256x1_0_0) = X :=
  View.ld_unit_zero (by funext j; fin_cases j <;> rfl) _ X
private theorem ld_w_wA3 {Val : EltTy → Type} {e : EltTy} (X : S256x128.Idx → Val e) : View.ld X (Rect.unit (s := S256x128) ![0, 0] S256x128.size inb_S256x128_S256x128_0_0) = X :=
  View.ld_unit_zero (by funext j; fin_cases j <;> rfl) _ X
private theorem ld_w_bA3 {Val : EltTy → Type} {e : EltTy} (X : S1x128.Idx → Val e) : View.ld X (Rect.unit (s := S1x128) ![0, 0] S1x128.size inb_S1x128_S1x128_0_0) = X :=
  View.ld_unit_zero (by funext j; fin_cases j <;> rfl) _ X
private theorem ld_w_wB3 {Val : EltTy → Type} {e : EltTy} (X : S128x128.Idx → Val e) : View.ld X (Rect.unit (s := S128x128) ![0, 0] S128x128.size inb_S128x128_S128x128_0_0) = X :=
  View.ld_unit_zero (by funext j; fin_cases j <;> rfl) _ X
private theorem ld_w_bB3 {Val : EltTy → Type} {e : EltTy} (X : S1x128.Idx → Val e) : View.ld X (Rect.unit (s := S1x128) ![0, 0] S1x128.size inb_S1x128_S1x128_0_0) = X :=
  View.ld_unit_zero (by funext j; fin_cases j <;> rfl) _ X
private theorem ld_w_wC3 {Val : EltTy → Type} {e : EltTy} (X : S128x16.Idx → Val e) : View.ld X (Rect.unit (s := S128x16) ![0, 0] S128x16.size inb_S128x16_S128x16_0_0) = X :=
  View.ld_unit_zero (by funext j; fin_cases j <;> rfl) _ X
private theorem ld_w_bC3 {Val : EltTy → Type} {e : EltTy} (X : S1x16.Idx → Val e) : View.ld X (Rect.unit (s := S1x16) ![0, 0] S1x16.size inb_S1x16_S1x16_0_0) = X :=
  View.ld_unit_zero (by funext j; fin_cases j <;> rfl) _ X
private theorem ld_w_rows3 {Val : EltTy → Type} {e : EltTy} (X : S256x128.Idx → Val e) : View.ld X (Rect.unit (s := S256x128) ![0, 0] S256x128.size inb_S256x128_S256x128_0_0) = X :=
  View.ld_unit_zero (by funext j; fin_cases j <;> rfl) _ X
private theorem ld_w_acc3 {Val : EltTy → Type} {e : EltTy} (X : S10240x16.Idx → Val e) : View.ld X (Rect.unit (s := S10240x16) ![0, 0] S10240x16.size inb_S10240x16_S10240x16_0_0) = X :=
  View.ld_unit_zero (by funext j; fin_cases j <;> rfl) _ X

/-- A store through the whole-shape rectangle, last, leaves its payload. -/
private theorem read_writes_cons_whole3 {sp : Space} {s : Shape} {e : EltTy} (v : View sig .tc sp s e)
    (f : v.ty.Contents (Elt F)) {off : Fin s.rank → Nat} (h0 : off = fun _ => 0) (inb : ∀ a, off a + s.size a ≤ s.size a)
    (w : (Rect.unit off s.size inb).shape.Idx → Elt F e) (L : List (View.Piece (Elt F) s e)) :
    v.read (Elt F) (v.writes (Elt F) f (⟨Rect.unit off s.size inb, w⟩ :: L)) = w := by
  subst h0
  funext y
  have e1 := View.read_writes_cons_emb v f (Rect.whole s) w L y
  rw [Rect.emb_whole_apply] at e1
  exact e1

private theorem lo_eq3 (c : Dev nD) (i : grid3.Coords) (arg2 : Memref sig .tc .smem S1250 .i32) (harg2 : arg2.IsWhole)
    (x2 : Vec F S1250 .i32) : bodyRun3.sl.r c i arg2 harg2 x2 = loW3 i x2 := by
  unfold bodyRun3.sl.r loW3
  rw [readAt_unread_ld3]

private theorem hi_eq3 (c : Dev nD) (i : grid3.Coords) (arg3 : Memref sig .tc .smem S1250 .i32) (harg3 : arg3.IsWhole)
    (x3 : Vec F S1250 .i32) : bodyRun3.sl.r_1 c i arg3 harg3 x3 = hiW3 i x3 := by
  unfold bodyRun3.sl.r_1 hiW3
  rw [readAt_unread_ld3]

private theorem gate3_0 (c : Dev nD) (i : grid3.Coords) (arg2 : Memref sig .tc .smem S1250 .i32) (harg2 : arg2.IsWhole) (arg3 : Memref sig .tc .smem S1250 .i32) (harg3 : arg3.IsWhole) (x2 x3 : Vec F S1250 .i32) :
    bodyRun3.sl.v142 c i arg2 harg2 arg3 harg3 x2 x3 = Cert.Spec.gateWord (loW3 i x2) (hiW3 i x3) 0#32 := by
  unfold bodyRun3.sl.v142 bodyRun3.sl.v141 bodyRun3.sl.v140 bodyRun3.sl.v138 bodyRun3.sl.v139
  rw [lo_eq3, hi_eq3]; rfl
private theorem gate3_1 (c : Dev nD) (i : grid3.Coords) (arg2 : Memref sig .tc .smem S1250 .i32) (harg2 : arg2.IsWhole) (arg3 : Memref sig .tc .smem S1250 .i32) (harg3 : arg3.IsWhole) (x2 x3 : Vec F S1250 .i32) :
    bodyRun3.sl.v147 c i arg2 harg2 arg3 harg3 x2 x3 = Cert.Spec.gateWord (loW3 i x2) (hiW3 i x3) 1#32 := by
  unfold bodyRun3.sl.v147 bodyRun3.sl.v146 bodyRun3.sl.v145 bodyRun3.sl.v143 bodyRun3.sl.v144
  rw [lo_eq3, hi_eq3]; rfl
private theorem gate3_2 (c : Dev nD) (i : grid3.Coords) (arg2 : Memref sig .tc .smem S1250 .i32) (harg2 : arg2.IsWhole) (arg3 : Memref sig .tc .smem S1250 .i32) (harg3 : arg3.IsWhole) (x2 x3 : Vec F S1250 .i32) :
    bodyRun3.sl.v152 c i arg2 harg2 arg3 harg3 x2 x3 = Cert.Spec.gateWord (loW3 i x2) (hiW3 i x3) 2#32 := by
  unfold bodyRun3.sl.v152 bodyRun3.sl.v151 bodyRun3.sl.v150 bodyRun3.sl.v148 bodyRun3.sl.v149
  rw [lo_eq3, hi_eq3]; rfl
private theorem gate3_3 (c : Dev nD) (i : grid3.Coords) (arg2 : Memref sig .tc .smem S1250 .i32) (harg2 : arg2.IsWhole) (arg3 : Memref sig .tc .smem S1250 .i32) (harg3 : arg3.IsWhole) (x2 x3 : Vec F S1250 .i32) :
    bodyRun3.sl.v157 c i arg2 harg2 arg3 harg3 x2 x3 = Cert.Spec.gateWord (loW3 i x2) (hiW3 i x3) 3#32 := by
  unfold bodyRun3.sl.v157 bodyRun3.sl.v156 bodyRun3.sl.v155 bodyRun3.sl.v153 bodyRun3.sl.v154
  rw [lo_eq3, hi_eq3]; rfl
private theorem gate3_4 (c : Dev nD) (i : grid3.Coords) (arg2 : Memref sig .tc .smem S1250 .i32) (harg2 : arg2.IsWhole) (arg3 : Memref sig .tc .smem S1250 .i32) (harg3 : arg3.IsWhole) (x2 x3 : Vec F S1250 .i32) :
    bodyRun3.sl.v162 c i arg2 harg2 arg3 harg3 x2 x3 = Cert.Spec.gateWord (loW3 i x2) (hiW3 i x3) 4#32 := by
  unfold bodyRun3.sl.v162 bodyRun3.sl.v161 bodyRun3.sl.v160 bodyRun3.sl.v158 bodyRun3.sl.v159
  rw [lo_eq3, hi_eq3]; rfl
private theorem gate3_5 (c : Dev nD) (i : grid3.Coords) (arg2 : Memref sig .tc .smem S1250 .i32) (harg2 : arg2.IsWhole) (arg3 : Memref sig .tc .smem S1250 .i32) (harg3 : arg3.IsWhole) (x2 x3 : Vec F S1250 .i32) :
    bodyRun3.sl.v167 c i arg2 harg2 arg3 harg3 x2 x3 = Cert.Spec.gateWord (loW3 i x2) (hiW3 i x3) 5#32 := by
  unfold bodyRun3.sl.v167 bodyRun3.sl.v166 bodyRun3.sl.v165 bodyRun3.sl.v163 bodyRun3.sl.v164
  rw [lo_eq3, hi_eq3]; rfl
private theorem gate3_6 (c : Dev nD) (i : grid3.Coords) (arg2 : Memref sig .tc .smem S1250 .i32) (harg2 : arg2.IsWhole) (arg3 : Memref sig .tc .smem S1250 .i32) (harg3 : arg3.IsWhole) (x2 x3 : Vec F S1250 .i32) :
    bodyRun3.sl.v172 c i arg2 harg2 arg3 harg3 x2 x3 = Cert.Spec.gateWord (loW3 i x2) (hiW3 i x3) 6#32 := by
  unfold bodyRun3.sl.v172 bodyRun3.sl.v171 bodyRun3.sl.v170 bodyRun3.sl.v168 bodyRun3.sl.v169
  rw [lo_eq3, hi_eq3]; rfl
private theorem gate3_7 (c : Dev nD) (i : grid3.Coords) (arg2 : Memref sig .tc .smem S1250 .i32) (harg2 : arg2.IsWhole) (arg3 : Memref sig .tc .smem S1250 .i32) (harg3 : arg3.IsWhole) (x2 x3 : Vec F S1250 .i32) :
    bodyRun3.sl.v177 c i arg2 harg2 arg3 harg3 x2 x3 = Cert.Spec.gateWord (loW3 i x2) (hiW3 i x3) 7#32 := by
  unfold bodyRun3.sl.v177 bodyRun3.sl.v176 bodyRun3.sl.v175 bodyRun3.sl.v173 bodyRun3.sl.v174
  rw [lo_eq3, hi_eq3]; rfl
private theorem gate3_8 (c : Dev nD) (i : grid3.Coords) (arg2 : Memref sig .tc .smem S1250 .i32) (harg2 : arg2.IsWhole) (arg3 : Memref sig .tc .smem S1250 .i32) (harg3 : arg3.IsWhole) (x2 x3 : Vec F S1250 .i32) :
    bodyRun3.sl.v182 c i arg2 harg2 arg3 harg3 x2 x3 = Cert.Spec.gateWord (loW3 i x2) (hiW3 i x3) 8#32 := by
  unfold bodyRun3.sl.v182 bodyRun3.sl.v181 bodyRun3.sl.v180 bodyRun3.sl.v178 bodyRun3.sl.v179
  rw [lo_eq3, hi_eq3]; rfl
private theorem gate3_9 (c : Dev nD) (i : grid3.Coords) (arg2 : Memref sig .tc .smem S1250 .i32) (harg2 : arg2.IsWhole) (arg3 : Memref sig .tc .smem S1250 .i32) (harg3 : arg3.IsWhole) (x2 x3 : Vec F S1250 .i32) :
    bodyRun3.sl.v187 c i arg2 harg2 arg3 harg3 x2 x3 = Cert.Spec.gateWord (loW3 i x2) (hiW3 i x3) 9#32 := by
  unfold bodyRun3.sl.v187 bodyRun3.sl.v186 bodyRun3.sl.v185 bodyRun3.sl.v183 bodyRun3.sl.v184
  rw [lo_eq3, hi_eq3]; rfl

private theorem first_eq3 (i : grid3.Coords) : bodyRun3.sl.v4 i = firstW3 i := rfl

private theorem r2_eq3 (c : Dev nD) (arg5 : Memref sig .tc .vmem S256x1 .i32) (harg5 : arg5.IsWhole) (x5 : Vec F S256x1 .i32) :
    bodyRun3.sl.r_2 c arg5 harg5 x5 = k3_pay3 x5 := by
  unfold bodyRun3.sl.r_2
  rw [readAt_unread_ld3, ld_w_col3]

private theorem xj_eq3 (c : Dev nD) (arg4 : Memref sig .tc .vmem S256x1 .i32) (harg4 : arg4.IsWhole)
    (arg6 : Memref sig .tc .vmem S10240x128 .f32) (harg6 : arg6.IsWhole) (x4 : Vec F S256x1 .i32) (x6 : Vec F S10240x128 .f32) :
    bodyRun3.sl.r_10 c arg4 harg4 arg6 harg6 x4 x6 = xj3 x4 x6 := by
  unfold bodyRun3.sl.r_10 bodyRun3.sl.r_9 bodyRun3.sl.r_8 bodyRun3.sl.r_7 bodyRun3.sl.r_6 bodyRun3.sl.r_5 bodyRun3.sl.r_4
    bodyRun3.sl.r_3 bodyRun3.sl.v39 xj3
  simp only [readAt_unread_ld3]
  rw [ld_w_col3 x4]

private theorem v277_eq3 (arg15 : Memref sig .tc .vmem S256x128 .f32) :
    bodyRun3.sl.v277 (F := F) arg15 = k3_pay12 := by
  unfold bodyRun3.sl.v277 bodyRun3.sl.H15_1
  exact View.readCov_unit_zero _ (by funext j; fin_cases j <;> rfl) _ _

/-- The first gated step of the target rows' gather, whose store the run listed with the zero fill. -/
private theorem read_xi_first3 (arg15 : Memref sig .tc .vmem S256x128 .f32) (g : BitVec 1)
    (f15 : BufTy.Contents (Elt F) arg15.view.ty) (w : ((Rect.unit (s := S256x128) ![0, 0] S256x128.size inb_S256x128_S256x128_0_0).shape.Idx → Elt F .f32) → ((Rect.unit (s := S256x128) ![0, 0] S256x128.size inb_S256x128_S256x128_0_0).shape.Idx → Elt F .f32)) :
    arg15.view.read (Elt F) (if _hc : g = 1#1 then arg15.view.writes (Elt F) f15 (⟨(Rect.unit (s := S256x128) ![0, 0] S256x128.size inb_S256x128_S256x128_0_0), w (bodyRun3.sl.v277 arg15)⟩ :: bodyRun3.sl.H15_1) else arg15.view.writes (Elt F) f15 bodyRun3.sl.H15_1)
      = xiStep3 g w k3_pay12 := by
  unfold xiStep3
  by_cases h : g = 1#1
  · rw [dif_pos h, if_pos h, read_writes_cons_whole3 _ _ (by funext j; fin_cases j <;> rfl), v277_eq3]
  · rw [dif_neg h, if_neg h]
    unfold bodyRun3.sl.H15_1
    rw [read_writes_cons_whole3 _ _ (by funext j; fin_cases j <;> rfl)]

/-- A later gated step of it. -/
private theorem read_xi_step3 (arg15 : Memref sig .tc .vmem S256x128 .f32) (g : BitVec 1)
    (w : ((Rect.unit (s := S256x128) ![0, 0] S256x128.size inb_S256x128_S256x128_0_0).shape.Idx → Elt F .f32) → ((Rect.unit (s := S256x128) ![0, 0] S256x128.size inb_S256x128_S256x128_0_0).shape.Idx → Elt F .f32)) (D : BufTy.Contents (Elt F) arg15.view.ty) :
    arg15.view.read (Elt F) (gatedRmw arg15.view g (Rect.unit (s := S256x128) ![0, 0] S256x128.size inb_S256x128_S256x128_0_0) w D) = xiStep3 g w (arg15.view.read (Elt F) D) := by
  rw [read_gatedRmw, gatedVal_whole (by funext j; fin_cases j <;> rfl)]
  rfl

theorem xi_eq3 (c : Dev nD) (i : grid3.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x16 .f32) (harg11 : arg11.IsWhole) (arg12 : Memref sig .tc .vmem S1x16 .f32) (harg12 : arg12.IsWhole) (arg13 : Memref sig .tc .vmem S1x10240x16 .f32) (harg13 : arg13.IsWhole) (arg14 : Memref sig .tc .vmem S10240x16 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x16 .f32) (x12 : Vec F S1x16 .f32) (x14 : Vec F S10240x16 .f32) (f13 : BufTy.Contents (Elt F) arg13.view.ty) (f15 : BufTy.Contents (Elt F) arg15.view.ty) : (bodyRun3.sl.v188 c i arg2 harg2 arg3 harg3 arg5 harg5 arg6 harg6 arg15 x2 x3 x5 x6 f15) = xi3 i x2 x3 x5 x6 := by
  rw [xi_raw3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, View.readAt_eq_ld, ld_w_rows3]
  rw [read_xi_step3, read_xi_step3, read_xi_step3, read_xi_step3, read_xi_step3, read_xi_step3, read_xi_step3, read_xi_step3, read_xi_step3, read_xi_first3]
  simp only [gate3_0, gate3_1, gate3_2, gate3_3, gate3_4, gate3_5, gate3_6, gate3_7, gate3_8, gate3_9, r2_eq3, readAt_unread_ld3]
  rfl

theorem hid_eq3 (c : Dev nD) (i : grid3.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x16 .f32) (harg11 : arg11.IsWhole) (arg12 : Memref sig .tc .vmem S1x16 .f32) (harg12 : arg12.IsWhole) (arg13 : Memref sig .tc .vmem S1x10240x16 .f32) (harg13 : arg13.IsWhole) (arg14 : Memref sig .tc .vmem S10240x16 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x16 .f32) (x12 : Vec F S1x16 .f32) (x14 : Vec F S10240x16 .f32) (f13 : BufTy.Contents (Elt F) arg13.view.ty) (f15 : BufTy.Contents (Elt F) arg15.view.ty) : (bodyRun3.sl.r_11 c i arg2 harg2 arg3 harg3 arg4 harg4 arg5 harg5 arg6 harg6 arg7 harg7 arg8 harg8 arg15 x2 x3 x4 x5 x6 x7 x8 f15) = hid3 i x2 x3 x4 x5 x6 x7 x8 := by
  unfold bodyRun3.sl.r_11 hid3
  rw [xi_eq3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, xj_eq3, readAt_unread_ld3, readAt_unread_ld3, ld_w_wA3 x7, ld_w_bA3 x8]

theorem msg_eq3 (c : Dev nD) (i : grid3.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x16 .f32) (harg11 : arg11.IsWhole) (arg12 : Memref sig .tc .vmem S1x16 .f32) (harg12 : arg12.IsWhole) (arg13 : Memref sig .tc .vmem S1x10240x16 .f32) (harg13 : arg13.IsWhole) (arg14 : Memref sig .tc .vmem S10240x16 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x16 .f32) (x12 : Vec F S1x16 .f32) (x14 : Vec F S10240x16 .f32) (f13 : BufTy.Contents (Elt F) arg13.view.ty) (f15 : BufTy.Contents (Elt F) arg15.view.ty) : (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) = msg3 i x2 x3 x4 x5 x6 x7 x8 x9 x10 x11 x12 := by
  unfold bodyRun3.sl.r_12 msg3
  rw [hid_eq3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15]
  simp only [readAt_unread_ld3]
  rw [ld_w_wB3 x9, ld_w_bB3 x10, ld_w_wC3 x11, ld_w_bC3 x12]
  rfl

private theorem read_accBase3 (i : grid3.Coords) (arg14 : Memref sig .tc .vmem S10240x16 .f32) (harg14 : arg14.IsWhole)
    (x14 : Vec F S10240x16 .f32) :
    arg14.view.read (Elt F) (if _hc : bodyRun3.sl.v4 i = 1#1 then arg14.view.writes (Elt F) (harg14.unread x14) [⟨(Rect.unit (s := S10240x16) ![0, 0] S10240x16.size inb_S10240x16_S10240x16_0_0), k3_pay2⟩] else harg14.unread x14) = accReset3 i x14 := by
  unfold accReset3
  rw [first_eq3]
  by_cases h : firstW3 i = 1#1
  · rw [dif_pos h, if_pos h, read_writes_cons_whole3 _ _ (by funext j; fin_cases j <;> rfl)]
  · rw [dif_neg h, if_neg h, harg14.read_unread]

/-! ## The four facts -/

/-- The accumulator the body leaves reads `stepAcc3` of what the body was handed. -/
theorem bodyRun3_acc (c : Dev nD) (i : grid3.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x16 .f32) (harg11 : arg11.IsWhole) (arg12 : Memref sig .tc .vmem S1x16 .f32) (harg12 : arg12.IsWhole) (arg13 : Memref sig .tc .vmem S1x10240x16 .f32) (harg13 : arg13.IsWhole) (arg14 : Memref sig .tc .vmem S10240x16 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x16 .f32) (x12 : Vec F S1x16 .f32) (x14 : Vec F S10240x16 .f32) (f13 : BufTy.Contents (Elt F) arg13.view.ty) (f15 : BufTy.Contents (Elt F) arg15.view.ty) :
    arg14.view.read (Elt F) (bodyRun3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).1 = stepAcc3 i x2 x3 x4 x5 x6 x7 x8 x9 x10 x11 x12 x14 := by
  rw [acc_raw3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15]
  simp only [read_gatedRmw]
  rw [read_accBase3]
  simp only [gate3_0, gate3_1, gate3_2, gate3_3, gate3_4, gate3_5, gate3_6, gate3_7, gate3_8, gate3_9, r2_eq3, hid_eq3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, msg_eq3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, readAt_unread_ld3]
  rw [ld_w_wB3 x9, ld_w_bB3 x10, ld_w_wC3 x11, ld_w_bC3 x12]
  rfl

/-- At the core's last tile the output's staging buffer holds the accumulator the body leaves, with a leading axis of one. -/
theorem bodyRun3_out_flush (c : Dev nD) (i : grid3.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x16 .f32) (harg11 : arg11.IsWhole) (arg12 : Memref sig .tc .vmem S1x16 .f32) (harg12 : arg12.IsWhole) (arg13 : Memref sig .tc .vmem S1x10240x16 .f32) (harg13 : arg13.IsWhole) (arg14 : Memref sig .tc .vmem S10240x16 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x16 .f32) (x12 : Vec F S1x16 .f32) (x14 : Vec F S10240x16 .f32) (f13 : BufTy.Contents (Elt F) arg13.view.ty) (f15 : BufTy.Contents (Elt F) arg15.view.ty) (h : k3_cond22 i = 1#1) :
    arg13.view.read (Elt F) (bodyRun3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).2.2.1 = k3_pay1 (stepAcc3 i x2 x3 x4 x5 x6 x7 x8 x9 x10 x11 x12 x14) := by
  rw [out_raw3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, dif_pos h, read_writes_cons_whole3 _ _ (by funext j; fin_cases j <;> rfl), v266_raw3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15,
    View.readAt_eq_ld, ld_w_acc3, ← acc_raw3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, bodyRun3_acc c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15]

/-- At any other tile the body leaves it as it was. -/
theorem bodyRun3_out_idle (c : Dev nD) (i : grid3.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x16 .f32) (harg11 : arg11.IsWhole) (arg12 : Memref sig .tc .vmem S1x16 .f32) (harg12 : arg12.IsWhole) (arg13 : Memref sig .tc .vmem S1x10240x16 .f32) (harg13 : arg13.IsWhole) (arg14 : Memref sig .tc .vmem S10240x16 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x16 .f32) (x12 : Vec F S1x16 .f32) (x14 : Vec F S10240x16 .f32) (f13 : BufTy.Contents (Elt F) arg13.view.ty) (f15 : BufTy.Contents (Elt F) arg15.view.ty) (h : ¬ k3_cond22 i = 1#1) :
    (bodyRun3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).2.2.1 = f13 := by
  rw [out_raw3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, dif_neg h]

/-- At a core's first tile the accumulator is reset before anything reads it: what the tile before left does not matter. -/
theorem stepAcc3_first (i : grid3.Coords) (h : (i 1).val = 0) (x2 x3 : Vec F S1250 .i32) (x4 x5 : Vec F S256x1 .i32) (x6 : Vec F S10240x128 .f32)
    (x7 : Vec F S256x128 .f32) (x8 : Vec F S1x128 .f32)
    (x9 : Vec F S128x128 .f32) (x10 : Vec F S1x128 .f32)
    (x11 : Vec F S128x16 .f32) (x12 : Vec F S1x16 .f32) (x14 x14' : Vec F S10240x16 .f32) :
    stepAcc3 i x2 x3 x4 x5 x6 x7 x8 x9 x10 x11 x12 x14 = stepAcc3 i x2 x3 x4 x5 x6 x7 x8 x9 x10 x11 x12 x14' := by
  have hf : firstW3 i = 1#1 := by
    unfold firstW3
    rw [h]
    rfl
  have e : ∀ x : Vec F S10240x16 .f32, accReset3 i x = k3_pay2 := fun x => if_pos hf
  unfold stepAcc3
  rw [e x14, e x14']

end Cert.Kernel.Gen

end
-- ==== Proof.RegionDataK3.lean ====
import proofs.«414286_j65627100283289_3_alg».proof.Proof.Gen.Kernel.Launch
import proofs.«414286_j65627100283289_3_alg».proof.Proof.Gen.Kernel.Skeleton
import proofs.«414286_j65627100283289_3_alg».proof.Proof.BodyK3
import proofs.«414286_j65627100283289_3_alg».proof.Proof.StepDefsK3
import proofs.«414286_j65627100283289_3_alg».proof.Proof.StepK3
import Idealize.ShloMosaic.Lib.Pipeline.Frame
import Idealize.ShloMosaic.Lib.Pipeline.FrameBody
import Idealize.ShloMosaic.Lib.Tactic

/-!
# Region 3's proof data and body obligation

Region 3 is the fourth EdgeConv layer's kernel: a grid of 2 cores × 625 tiles, two prefetched tables (each tile's lowest
and highest target chunk), ten windows (the tile's source and target columns, the padded node table, six parameter
blocks, and one output block per core) and two scratch buffers: the accumulator, carried from tile to tile within a
core, and the target rows, overwritten at every tile.

The proof data name what every staging buffer holds after the body at every point: an input its block; the output the
accumulator after the point, in the output's shape (read only at a core's last tile, where the block is written back;
at every other tile the body leaves the output's buffer as it found it). The invariant carries the accumulator at the
contents `accAt3 n`, the fold of the body's step `stepAcc3` over the points before `n`; the step at a core's first
tile does not read what it finds, so the fold's start is immaterial. The body's own run and the facts about what it
leaves come from the body's modules.

-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 3 (custom_call 0, pipeline 0): its proof data at the entry contents `V` and the tables' contents `a` -/

section Region3

-- the TensorCore's buffer contents when the region is entered, and the admissible contents of the two prefetched tables
variable (V : (c : Dev nD) → (b : Ref sig .tc) → Buf (Elt F) ((c : Thread nD τ).loc b))
variable (a : (pcfg3 (F := F)).Adm)

/-! ## The schedule: the staging memrefs at a point, and the body as the pipeline calls it -/

/-- Each window's current staging memref at point `t`, spelled as the pipeline passes it, and its wholeness. The index
    maps do not read the tables, so nothing here evaluates `a`. -/
abbrev ms3_0 (t : Fin (cfg3 a).N) := spec3_0.stage ((cfg3 a).slots t 0)
abbrev hs3_0 (t : Fin (cfg3 a).N) : (ms3_0 a t).IsWhole := hstage3_0 (((cfg3 a).slots t 0).cast nbuf3_0)
abbrev ms3_1 (t : Fin (cfg3 a).N) := spec3_1.stage ((cfg3 a).slots t 1)
abbrev hs3_1 (t : Fin (cfg3 a).N) : (ms3_1 a t).IsWhole := hstage3_1 (((cfg3 a).slots t 1).cast nbuf3_1)
abbrev ms3_2 (t : Fin (cfg3 a).N) := spec3_2.stage ((cfg3 a).slots t 2)
abbrev hs3_2 (t : Fin (cfg3 a).N) : (ms3_2 a t).IsWhole := hstage3_2 (((cfg3 a).slots t 2).cast nbuf3_2)
abbrev ms3_3 (t : Fin (cfg3 a).N) := spec3_3.stage ((cfg3 a).slots t 3)
abbrev hs3_3 (t : Fin (cfg3 a).N) : (ms3_3 a t).IsWhole := hstage3_3 (((cfg3 a).slots t 3).cast nbuf3_3)
abbrev ms3_4 (t : Fin (cfg3 a).N) := spec3_4.stage ((cfg3 a).slots t 4)
abbrev hs3_4 (t : Fin (cfg3 a).N) : (ms3_4 a t).IsWhole := hstage3_4 (((cfg3 a).slots t 4).cast nbuf3_4)
abbrev ms3_5 (t : Fin (cfg3 a).N) := spec3_5.stage ((cfg3 a).slots t 5)
abbrev hs3_5 (t : Fin (cfg3 a).N) : (ms3_5 a t).IsWhole := hstage3_5 (((cfg3 a).slots t 5).cast nbuf3_5)
abbrev ms3_6 (t : Fin (cfg3 a).N) := spec3_6.stage ((cfg3 a).slots t 6)
abbrev hs3_6 (t : Fin (cfg3 a).N) : (ms3_6 a t).IsWhole := hstage3_6 (((cfg3 a).slots t 6).cast nbuf3_6)
abbrev ms3_7 (t : Fin (cfg3 a).N) := spec3_7.stage ((cfg3 a).slots t 7)
abbrev hs3_7 (t : Fin (cfg3 a).N) : (ms3_7 a t).IsWhole := hstage3_7 (((cfg3 a).slots t 7).cast nbuf3_7)
abbrev ms3_8 (t : Fin (cfg3 a).N) := spec3_8.stage ((cfg3 a).slots t 8)
abbrev hs3_8 (t : Fin (cfg3 a).N) : (ms3_8 a t).IsWhole := hstage3_8 (((cfg3 a).slots t 8).cast nbuf3_8)
abbrev ms3_9 (t : Fin (cfg3 a).N) := spec3_9.stage ((cfg3 a).slots t 9)
abbrev hs3_9 (t : Fin (cfg3 a).N) : (ms3_9 a t).IsWhole := hstage3_9 (((cfg3 a).slots t 9).cast nbuf3_9)

/-- The body at point `t`: the two tables whole, the ten windows' current staging memrefs, the two scratch buffers whole. -/
abbrev bodyAt3 (t : Fin (cfg3 a).N) :=
  cc3__edgeconv_kernel (F := F) (grid3.coords t) (Memref.whole main_v31) (Memref.isWhole_whole _) (Memref.whole main_v39) (Memref.isWhole_whole _)
    (ms3_0 a t) (hs3_0 a t) (ms3_1 a t) (hs3_1 a t) (ms3_2 a t) (hs3_2 a t) (ms3_3 a t) (hs3_3 a t) (ms3_4 a t) (hs3_4 a t) (ms3_5 a t) (hs3_5 a t) (ms3_6 a t) (hs3_6 a t) (ms3_7 a t) (hs3_7 a t) (ms3_8 a t) (hs3_8 a t) (ms3_9 a t) (hs3_9 a t)
    (Memref.whole cc3_scratch0) (Memref.isWhole_whole _) (Memref.whole cc3_scratch1) (Memref.isWhole_whole _)

/-- It is what the body table runs at the pipeline's argument for the point. -/
theorem bodyAt3_eq (t : Fin (cfg3 a).N) :
    defs₀ (F := F) .tc (cfg3 a).body ((cfg3 a).bodyArgs t ((cfg3 a).slots t)) = bodyAt3 a t := rfl

/-- The output window is written back exactly where the body's last conditional fires: elsewhere no write-back. -/
theorem wbClosed3_9 : ∀ t : Fin grid3.N, k3_cond22 (grid3.coords t) = 1#1 ∨
    (t.val + 1 = grid3.N || decide (∃ h : t.val + 1 < grid3.N, cc3_transform_9 (grid3.coords ⟨t.val + 1, h⟩) ≠ cc3_transform_9 (grid3.coords t))) = false := by
  decide +kernel

theorem flushNot3_9 (t : Fin (cfg3 a).N) (h : ¬ k3_cond22 (grid3.coords t) = 1#1) : ((cfg3 a).win (9 : Fin 10)).flush t = false := by
  have := (wbClosed3_9 t).resolve_left h
  show (true && _) = false
  rw [Bool.true_and]; exact this

/-- Where the conditional fires the window is live, elsewhere idle. -/
theorem idleLive3_9 (t : Fin (cfg3 a).N) (h : k3_cond22 (grid3.coords t) = 1#1) : (cfg3 a).idle (9 : Fin 10) ((cfg3 a).grid.coords t) = false := by
  show (!(k3_cond22 (grid3.coords t) == 1#1)) = false
  rw [h]; rfl
theorem idleNot3_9 (t : Fin (cfg3 a).N) (h : ¬ k3_cond22 (grid3.coords t) = 1#1) : (cfg3 a).idle (9 : Fin 10) ((cfg3 a).grid.coords t) = true := by
  show (!(k3_cond22 (grid3.coords t) == 1#1)) = true
  rw [Bool.not_eq_true', beq_eq_false_iff_ne]; exact h

/-- At the first point of the grid the tile coordinate is zero. -/
theorem coords3_first (t : Fin (cfg3 a).N) (h : t.val = 0) : ((grid3.coords t) 1).val = 0 := by
  obtain ⟨n, hn⟩ := t
  simp only at h; subst h
  exact (by decide +kernel : ((grid3.coords (⟨0, by decide⟩ : Fin grid3.N)) 1).val = 0)

/-! ## The windows' blocks -/

/-- Window `w`'s block at point `t`, read off its array as the region finds it (`V`). -/
def iblk3 (c : Dev nD) (w : Fin (cfg3 a).W) (t : Fin (cfg3 a).N) : (((cfg3 a).win w).xblock ((cfg3 a).grid.coords t)).Idx → Elt F ((cfg3 a).win w).elt :=
  (((cfg3 a).win w).blk t).view.read (Elt F) (V c (Pipeline.arrRef spec3 w))

/-- An input window's current staging buffer holds its block at every point, fetched there or not, for ANY proof data
    whose array is `V`'s and whose body leaves the block in place: unfetched, the block index has not moved. -/
theorem before3_0_of {c : Dev nD} (dat : Dat τ (Elt F) Unit ℕ (Pipeline.UD sig nD τ) ℕ (cfg3 a) c) (hA : dat.A (0 : Fin 10) = V c (Pipeline.arrRef spec3 (0 : Fin 10)))
    (hafter : ∀ t, dat.after (0 : Fin 10) t = iblk3 V a c (0 : Fin 10) t) (t : Fin (cfg3 a).N) (d) : dat.before (0 : Fin 10) t d = iblk3 V a c (0 : Fin 10) t := by
  have hblk : ∀ t, dat.blockOf (0 : Fin 10) t = iblk3 V a c (0 : Fin 10) t := fun t => by unfold Dat.blockOf iblk3; rw [hA]
  have hkeep : ∀ t, ((cfg3 a).win (0 : Fin 10)).cut ((cfg3 a).grid.coords t) (dat.after (0 : Fin 10) t) = dat.blockOf (0 : Fin 10) t := fun t => by
    rw [hafter, hblk]
  rw [dat.before_in_eq_fetched (0 : Fin 10) rfl (fun _ => rfl) (fun _ _ _ => rfl) hkeep t d]
  show ((cfg3 a).win (0 : Fin 10)).fill _ d (dat.blockOf (0 : Fin 10) t) = _
  rw [hblk]; rfl
theorem before3_1_of {c : Dev nD} (dat : Dat τ (Elt F) Unit ℕ (Pipeline.UD sig nD τ) ℕ (cfg3 a) c) (hA : dat.A (1 : Fin 10) = V c (Pipeline.arrRef spec3 (1 : Fin 10)))
    (hafter : ∀ t, dat.after (1 : Fin 10) t = iblk3 V a c (1 : Fin 10) t) (t : Fin (cfg3 a).N) (d) : dat.before (1 : Fin 10) t d = iblk3 V a c (1 : Fin 10) t := by
  have hblk : ∀ t, dat.blockOf (1 : Fin 10) t = iblk3 V a c (1 : Fin 10) t := fun t => by unfold Dat.blockOf iblk3; rw [hA]
  have hkeep : ∀ t, ((cfg3 a).win (1 : Fin 10)).cut ((cfg3 a).grid.coords t) (dat.after (1 : Fin 10) t) = dat.blockOf (1 : Fin 10) t := fun t => by
    rw [hafter, hblk]
  rw [dat.before_in_eq_fetched (1 : Fin 10) rfl (fun _ => rfl) (fun _ _ _ => rfl) hkeep t d]
  show ((cfg3 a).win (1 : Fin 10)).fill _ d (dat.blockOf (1 : Fin 10) t) = _
  rw [hblk]; rfl
theorem before3_2_of {c : Dev nD} (dat : Dat τ (Elt F) Unit ℕ (Pipeline.UD sig nD τ) ℕ (cfg3 a) c) (hA : dat.A (2 : Fin 10) = V c (Pipeline.arrRef spec3 (2 : Fin 10)))
    (hafter : ∀ t, dat.after (2 : Fin 10) t = iblk3 V a c (2 : Fin 10) t) (t : Fin (cfg3 a).N) (d) : dat.before (2 : Fin 10) t d = iblk3 V a c (2 : Fin 10) t := by
  have hblk : ∀ t, dat.blockOf (2 : Fin 10) t = iblk3 V a c (2 : Fin 10) t := fun t => by unfold Dat.blockOf iblk3; rw [hA]
  have hkeep : ∀ t, ((cfg3 a).win (2 : Fin 10)).cut ((cfg3 a).grid.coords t) (dat.after (2 : Fin 10) t) = dat.blockOf (2 : Fin 10) t := fun t => by
    rw [hafter, hblk]
  rw [dat.before_in_eq_fetched (2 : Fin 10) rfl (fun _ => rfl) (fun _ _ _ => rfl) hkeep t d]
  show ((cfg3 a).win (2 : Fin 10)).fill _ d (dat.blockOf (2 : Fin 10) t) = _
  rw [hblk]; rfl
theorem before3_3_of {c : Dev nD} (dat : Dat τ (Elt F) Unit ℕ (Pipeline.UD sig nD τ) ℕ (cfg3 a) c) (hA : dat.A (3 : Fin 10) = V c (Pipeline.arrRef spec3 (3 : Fin 10)))
    (hafter : ∀ t, dat.after (3 : Fin 10) t = iblk3 V a c (3 : Fin 10) t) (t : Fin (cfg3 a).N) (d) : dat.before (3 : Fin 10) t d = iblk3 V a c (3 : Fin 10) t := by
  have hblk : ∀ t, dat.blockOf (3 : Fin 10) t = iblk3 V a c (3 : Fin 10) t := fun t => by unfold Dat.blockOf iblk3; rw [hA]
  have hkeep : ∀ t, ((cfg3 a).win (3 : Fin 10)).cut ((cfg3 a).grid.coords t) (dat.after (3 : Fin 10) t) = dat.blockOf (3 : Fin 10) t := fun t => by
    rw [hafter, hblk]
  rw [dat.before_in_eq_fetched (3 : Fin 10) rfl (fun _ => rfl) (fun _ _ _ => rfl) hkeep t d]
  show ((cfg3 a).win (3 : Fin 10)).fill _ d (dat.blockOf (3 : Fin 10) t) = _
  rw [hblk]; rfl
theorem before3_4_of {c : Dev nD} (dat : Dat τ (Elt F) Unit ℕ (Pipeline.UD sig nD τ) ℕ (cfg3 a) c) (hA : dat.A (4 : Fin 10) = V c (Pipeline.arrRef spec3 (4 : Fin 10)))
    (hafter : ∀ t, dat.after (4 : Fin 10) t = iblk3 V a c (4 : Fin 10) t) (t : Fin (cfg3 a).N) (d) : dat.before (4 : Fin 10) t d = iblk3 V a c (4 : Fin 10) t := by
  have hblk : ∀ t, dat.blockOf (4 : Fin 10) t = iblk3 V a c (4 : Fin 10) t := fun t => by unfold Dat.blockOf iblk3; rw [hA]
  have hkeep : ∀ t, ((cfg3 a).win (4 : Fin 10)).cut ((cfg3 a).grid.coords t) (dat.after (4 : Fin 10) t) = dat.blockOf (4 : Fin 10) t := fun t => by
    rw [hafter, hblk]
  rw [dat.before_in_eq_fetched (4 : Fin 10) rfl (fun _ => rfl) (fun _ _ _ => rfl) hkeep t d]
  show ((cfg3 a).win (4 : Fin 10)).fill _ d (dat.blockOf (4 : Fin 10) t) = _
  rw [hblk]; rfl
theorem before3_5_of {c : Dev nD} (dat : Dat τ (Elt F) Unit ℕ (Pipeline.UD sig nD τ) ℕ (cfg3 a) c) (hA : dat.A (5 : Fin 10) = V c (Pipeline.arrRef spec3 (5 : Fin 10)))
    (hafter : ∀ t, dat.after (5 : Fin 10) t = iblk3 V a c (5 : Fin 10) t) (t : Fin (cfg3 a).N) (d) : dat.before (5 : Fin 10) t d = iblk3 V a c (5 : Fin 10) t := by
  have hblk : ∀ t, dat.blockOf (5 : Fin 10) t = iblk3 V a c (5 : Fin 10) t := fun t => by unfold Dat.blockOf iblk3; rw [hA]
  have hkeep : ∀ t, ((cfg3 a).win (5 : Fin 10)).cut ((cfg3 a).grid.coords t) (dat.after (5 : Fin 10) t) = dat.blockOf (5 : Fin 10) t := fun t => by
    rw [hafter, hblk]
  rw [dat.before_in_eq_fetched (5 : Fin 10) rfl (fun _ => rfl) (fun _ _ _ => rfl) hkeep t d]
  show ((cfg3 a).win (5 : Fin 10)).fill _ d (dat.blockOf (5 : Fin 10) t) = _
  rw [hblk]; rfl
theorem before3_6_of {c : Dev nD} (dat : Dat τ (Elt F) Unit ℕ (Pipeline.UD sig nD τ) ℕ (cfg3 a) c) (hA : dat.A (6 : Fin 10) = V c (Pipeline.arrRef spec3 (6 : Fin 10)))
    (hafter : ∀ t, dat.after (6 : Fin 10) t = iblk3 V a c (6 : Fin 10) t) (t : Fin (cfg3 a).N) (d) : dat.before (6 : Fin 10) t d = iblk3 V a c (6 : Fin 10) t := by
  have hblk : ∀ t, dat.blockOf (6 : Fin 10) t = iblk3 V a c (6 : Fin 10) t := fun t => by unfold Dat.blockOf iblk3; rw [hA]
  have hkeep : ∀ t, ((cfg3 a).win (6 : Fin 10)).cut ((cfg3 a).grid.coords t) (dat.after (6 : Fin 10) t) = dat.blockOf (6 : Fin 10) t := fun t => by
    rw [hafter, hblk]
  rw [dat.before_in_eq_fetched (6 : Fin 10) rfl (fun _ => rfl) (fun _ _ _ => rfl) hkeep t d]
  show ((cfg3 a).win (6 : Fin 10)).fill _ d (dat.blockOf (6 : Fin 10) t) = _
  rw [hblk]; rfl
theorem before3_7_of {c : Dev nD} (dat : Dat τ (Elt F) Unit ℕ (Pipeline.UD sig nD τ) ℕ (cfg3 a) c) (hA : dat.A (7 : Fin 10) = V c (Pipeline.arrRef spec3 (7 : Fin 10)))
    (hafter : ∀ t, dat.after (7 : Fin 10) t = iblk3 V a c (7 : Fin 10) t) (t : Fin (cfg3 a).N) (d) : dat.before (7 : Fin 10) t d = iblk3 V a c (7 : Fin 10) t := by
  have hblk : ∀ t, dat.blockOf (7 : Fin 10) t = iblk3 V a c (7 : Fin 10) t := fun t => by unfold Dat.blockOf iblk3; rw [hA]
  have hkeep : ∀ t, ((cfg3 a).win (7 : Fin 10)).cut ((cfg3 a).grid.coords t) (dat.after (7 : Fin 10) t) = dat.blockOf (7 : Fin 10) t := fun t => by
    rw [hafter, hblk]
  rw [dat.before_in_eq_fetched (7 : Fin 10) rfl (fun _ => rfl) (fun _ _ _ => rfl) hkeep t d]
  show ((cfg3 a).win (7 : Fin 10)).fill _ d (dat.blockOf (7 : Fin 10) t) = _
  rw [hblk]; rfl
theorem before3_8_of {c : Dev nD} (dat : Dat τ (Elt F) Unit ℕ (Pipeline.UD sig nD τ) ℕ (cfg3 a) c) (hA : dat.A (8 : Fin 10) = V c (Pipeline.arrRef spec3 (8 : Fin 10)))
    (hafter : ∀ t, dat.after (8 : Fin 10) t = iblk3 V a c (8 : Fin 10) t) (t : Fin (cfg3 a).N) (d) : dat.before (8 : Fin 10) t d = iblk3 V a c (8 : Fin 10) t := by
  have hblk : ∀ t, dat.blockOf (8 : Fin 10) t = iblk3 V a c (8 : Fin 10) t := fun t => by unfold Dat.blockOf iblk3; rw [hA]
  have hkeep : ∀ t, ((cfg3 a).win (8 : Fin 10)).cut ((cfg3 a).grid.coords t) (dat.after (8 : Fin 10) t) = dat.blockOf (8 : Fin 10) t := fun t => by
    rw [hafter, hblk]
  rw [dat.before_in_eq_fetched (8 : Fin 10) rfl (fun _ => rfl) (fun _ _ _ => rfl) hkeep t d]
  show ((cfg3 a).win (8 : Fin 10)).fill _ d (dat.blockOf (8 : Fin 10) t) = _
  rw [hblk]; rfl

/-! ## The accumulator, point by point -/

/-- The two tables' contents as the body reads them. -/
abbrev tab3_0 : Vec F S1250 .i32 := a.1 0
abbrev tab3_1 : Vec F S1250 .i32 := a.1 1

/-- The accumulator before point `n` (after point `n - 1`): anything before the first point, then one body step per
    point over the point's blocks and what the point before left. -/
def accAt3 (c : Dev nD) : ℕ → Vec F S10240x16 .f32
  | 0 => (Memref.whole cc3_scratch0).view.read (Elt F) (V c cc3_scratch0)
  | n + 1 =>
    if h : n < (cfg3 a).N then
      stepAcc3 (grid3.coords ⟨n, h⟩) (tab3_0 a) (tab3_1 a) (iblk3 V a c (0 : Fin 10) ⟨n, h⟩) (iblk3 V a c (1 : Fin 10) ⟨n, h⟩) (iblk3 V a c (2 : Fin 10) ⟨n, h⟩) (iblk3 V a c (3 : Fin 10) ⟨n, h⟩) (iblk3 V a c (4 : Fin 10) ⟨n, h⟩) (iblk3 V a c (5 : Fin 10) ⟨n, h⟩) (iblk3 V a c (6 : Fin 10) ⟨n, h⟩) (iblk3 V a c (7 : Fin 10) ⟨n, h⟩) (iblk3 V a c (8 : Fin 10) ⟨n, h⟩) (accAt3 c n)
    else accAt3 c n

theorem accAt3_succ (c : Dev nD) (t : Fin (cfg3 a).N) :
    accAt3 V a c (t.val + 1)
      = stepAcc3 (grid3.coords t) (tab3_0 a) (tab3_1 a) (iblk3 V a c (0 : Fin 10) t) (iblk3 V a c (1 : Fin 10) t) (iblk3 V a c (2 : Fin 10) t) (iblk3 V a c (3 : Fin 10) t) (iblk3 V a c (4 : Fin 10) t) (iblk3 V a c (5 : Fin 10) t) (iblk3 V a c (6 : Fin 10) t) (iblk3 V a c (7 : Fin 10) t) (iblk3 V a c (8 : Fin 10) t) (accAt3 V a c t.val) := by
  obtain ⟨n, hn⟩ := t
  exact dif_pos hn

/-! ## The invariant and the proof data -/

/-- The invariant before point `n`: the two tables held whole at `a`; the accumulator scratch at some contents, which
    after the first point are `accAt3 n`; the target-row scratch at anything; every other scoped buffer that is no
    staging buffer, unopened; the generator register at some state. -/
def Phi3 (c : Dev nD) (n : ℕ) : sProp 𝕄 :=
  iprop(Pipeline.prefHeld pre3 c (fun _ => fullShare) a.1
    ∗ (∃ x14 : Vec F S10240x16 .f32, ⌜n ≠ 0 → x14 = accAt3 V a c n⌝ ∗ owns (c : Thread nD τ) (Memref.whole cc3_scratch0) fullShare x14)
    ∗ (∃ d, owns (c : Thread nD τ) (Memref.whole cc3_scratch1) fullShare d)
    ∗ Pipeline.scopedRestBut spec3 c [cc3_scratch0, cc3_scratch1]
    ∗ (∃ r, prngReg c r))

/-- The proof data of pipeline 0 on core `c`: the arrays as the region finds them (`V`); after the body at point `t` each
    input's buffer at its block and the output's at the accumulator after the point, cast to the output's shape (read only
    where the block is written back); the invariant `Phi3`; nothing owed; full shares. -/
def dat3 (c : Dev nD) : Dat τ (Elt F) Unit ℕ (Pipeline.UD sig nD τ) ℕ (cfg3 a) c where
  A w := V c (Pipeline.arrRef spec3 w)
  after w t := match w with
    | ⟨0, _⟩ => iblk3 V a c (0 : Fin 10) t
    | ⟨1, _⟩ => iblk3 V a c (1 : Fin 10) t
    | ⟨2, _⟩ => iblk3 V a c (2 : Fin 10) t
    | ⟨3, _⟩ => iblk3 V a c (3 : Fin 10) t
    | ⟨4, _⟩ => iblk3 V a c (4 : Fin 10) t
    | ⟨5, _⟩ => iblk3 V a c (5 : Fin 10) t
    | ⟨6, _⟩ => iblk3 V a c (6 : Fin 10) t
    | ⟨7, _⟩ => iblk3 V a c (7 : Fin 10) t
    | ⟨8, _⟩ => iblk3 V a c (8 : Fin 10) t
    | ⟨9, _⟩ => k3_pay1 (accAt3 V a c (t.val + 1))
  Φ t := Phi3 V a c t.val
  q _ := fullShare
  owed _ := 0

theorem A_eq3 (c : Dev nD) (w : Fin (cfg3 a).W) : (dat3 V a c).A w = V c (Pipeline.arrRef spec3 w) := by
  dsimp only [dat3]

theorem after3_0 (c : Dev nD) (t : Fin (cfg3 a).N) : (dat3 V a c).after (0 : Fin 10) t = iblk3 V a c (0 : Fin 10) t := by dsimp only [dat3]
theorem after3_1 (c : Dev nD) (t : Fin (cfg3 a).N) : (dat3 V a c).after (1 : Fin 10) t = iblk3 V a c (1 : Fin 10) t := by dsimp only [dat3]
theorem after3_2 (c : Dev nD) (t : Fin (cfg3 a).N) : (dat3 V a c).after (2 : Fin 10) t = iblk3 V a c (2 : Fin 10) t := by dsimp only [dat3]
theorem after3_3 (c : Dev nD) (t : Fin (cfg3 a).N) : (dat3 V a c).after (3 : Fin 10) t = iblk3 V a c (3 : Fin 10) t := by dsimp only [dat3]
theorem after3_4 (c : Dev nD) (t : Fin (cfg3 a).N) : (dat3 V a c).after (4 : Fin 10) t = iblk3 V a c (4 : Fin 10) t := by dsimp only [dat3]
theorem after3_5 (c : Dev nD) (t : Fin (cfg3 a).N) : (dat3 V a c).after (5 : Fin 10) t = iblk3 V a c (5 : Fin 10) t := by dsimp only [dat3]
theorem after3_6 (c : Dev nD) (t : Fin (cfg3 a).N) : (dat3 V a c).after (6 : Fin 10) t = iblk3 V a c (6 : Fin 10) t := by dsimp only [dat3]
theorem after3_7 (c : Dev nD) (t : Fin (cfg3 a).N) : (dat3 V a c).after (7 : Fin 10) t = iblk3 V a c (7 : Fin 10) t := by dsimp only [dat3]
theorem after3_8 (c : Dev nD) (t : Fin (cfg3 a).N) : (dat3 V a c).after (8 : Fin 10) t = iblk3 V a c (8 : Fin 10) t := by dsimp only [dat3]
theorem after3_9 (c : Dev nD) (t : Fin (cfg3 a).N) : (dat3 V a c).after (9 : Fin 10) t = k3_pay1 (accAt3 V a c (t.val + 1)) := by dsimp only [dat3]

theorem before3_0 (c : Dev nD) (t : Fin (cfg3 a).N) (d) : (dat3 V a c).before (0 : Fin 10) t d = iblk3 V a c (0 : Fin 10) t :=
  before3_0_of V a (dat3 V a c) (A_eq3 V a c (0 : Fin 10)) (after3_0 V a c) t d
theorem before3_1 (c : Dev nD) (t : Fin (cfg3 a).N) (d) : (dat3 V a c).before (1 : Fin 10) t d = iblk3 V a c (1 : Fin 10) t :=
  before3_1_of V a (dat3 V a c) (A_eq3 V a c (1 : Fin 10)) (after3_1 V a c) t d
theorem before3_2 (c : Dev nD) (t : Fin (cfg3 a).N) (d) : (dat3 V a c).before (2 : Fin 10) t d = iblk3 V a c (2 : Fin 10) t :=
  before3_2_of V a (dat3 V a c) (A_eq3 V a c (2 : Fin 10)) (after3_2 V a c) t d
theorem before3_3 (c : Dev nD) (t : Fin (cfg3 a).N) (d) : (dat3 V a c).before (3 : Fin 10) t d = iblk3 V a c (3 : Fin 10) t :=
  before3_3_of V a (dat3 V a c) (A_eq3 V a c (3 : Fin 10)) (after3_3 V a c) t d
theorem before3_4 (c : Dev nD) (t : Fin (cfg3 a).N) (d) : (dat3 V a c).before (4 : Fin 10) t d = iblk3 V a c (4 : Fin 10) t :=
  before3_4_of V a (dat3 V a c) (A_eq3 V a c (4 : Fin 10)) (after3_4 V a c) t d
theorem before3_5 (c : Dev nD) (t : Fin (cfg3 a).N) (d) : (dat3 V a c).before (5 : Fin 10) t d = iblk3 V a c (5 : Fin 10) t :=
  before3_5_of V a (dat3 V a c) (A_eq3 V a c (5 : Fin 10)) (after3_5 V a c) t d
theorem before3_6 (c : Dev nD) (t : Fin (cfg3 a).N) (d) : (dat3 V a c).before (6 : Fin 10) t d = iblk3 V a c (6 : Fin 10) t :=
  before3_6_of V a (dat3 V a c) (A_eq3 V a c (6 : Fin 10)) (after3_6 V a c) t d
theorem before3_7 (c : Dev nD) (t : Fin (cfg3 a).N) (d) : (dat3 V a c).before (7 : Fin 10) t d = iblk3 V a c (7 : Fin 10) t :=
  before3_7_of V a (dat3 V a c) (A_eq3 V a c (7 : Fin 10)) (after3_7 V a c) t d
theorem before3_8 (c : Dev nD) (t : Fin (cfg3 a).N) (d) : (dat3 V a c).before (8 : Fin 10) t d = iblk3 V a c (8 : Fin 10) t :=
  before3_8_of V a (dat3 V a c) (A_eq3 V a c (8 : Fin 10)) (after3_8 V a c) t d

theorem Phi3_castSucc (c : Dev nD) (t : Fin (cfg3 a).N) : (dat3 V a c).Φ t.castSucc = Phi3 V a c t.val := by
  dsimp only [dat3]; simp only [Fin.coe_castSucc]
theorem Phi3_succ (c : Dev nD) (t : Fin (cfg3 a).N) : (dat3 V a c).Φ t.succ = Phi3 V a c (t.val + 1) := by
  dsimp only [dat3]; simp only [Fin.val_succ]

/-! ## The body's run at a point -/

/-- The body's run at point `t`: the tables, the point's staging memrefs and blocks, the two scratch buffers; over the
    accumulator's contents `x14` and the raw contents `f13`, `f15` of the two buffers it is handed at anything. -/
abbrev run3 (c : Dev nD) (t : Fin (cfg3 a).N) (x14 : Vec F S10240x16 .f32)
    (f13 : BufTy.Contents (Elt F) (ms3_9 a t).view.ty) (f15 : BufTy.Contents (Elt F) (Memref.whole cc3_scratch1 : Memref sig .tc _ _ _).view.ty) :=
  bodyRun3 (F := F) c (grid3.coords t) (Memref.whole main_v31) (Memref.isWhole_whole _) (Memref.whole main_v39) (Memref.isWhole_whole _) (ms3_0 a t) (hs3_0 a t) (ms3_1 a t) (hs3_1 a t) (ms3_2 a t) (hs3_2 a t) (ms3_3 a t) (hs3_3 a t) (ms3_4 a t) (hs3_4 a t) (ms3_5 a t) (hs3_5 a t) (ms3_6 a t) (hs3_6 a t) (ms3_7 a t) (hs3_7 a t) (ms3_8 a t) (hs3_8 a t) (ms3_9 a t) (hs3_9 a t) (Memref.whole cc3_scratch0) (Memref.isWhole_whole _) (Memref.whole cc3_scratch1) (Memref.isWhole_whole _) (tab3_0 a) (tab3_1 a) (iblk3 V a c (0 : Fin 10) t) (iblk3 V a c (1 : Fin 10) t) (iblk3 V a c (2 : Fin 10) t) (iblk3 V a c (3 : Fin 10) t) (iblk3 V a c (4 : Fin 10) t) (iblk3 V a c (5 : Fin 10) t) (iblk3 V a c (6 : Fin 10) t) (iblk3 V a c (7 : Fin 10) t) (iblk3 V a c (8 : Fin 10) t) x14 f13 f15

/-- One step from what the invariant knows of the accumulator lands on the next named contents: at the first point the
    step does not read what it finds. -/
theorem acc3_step (c : Dev nD) (t : Fin (cfg3 a).N) (x14 : Vec F S10240x16 .f32)
    (hx : t.val ≠ 0 → x14 = accAt3 V a c t.val) :
    stepAcc3 (grid3.coords t) (tab3_0 a) (tab3_1 a) (iblk3 V a c (0 : Fin 10) t) (iblk3 V a c (1 : Fin 10) t) (iblk3 V a c (2 : Fin 10) t) (iblk3 V a c (3 : Fin 10) t) (iblk3 V a c (4 : Fin 10) t) (iblk3 V a c (5 : Fin 10) t) (iblk3 V a c (6 : Fin 10) t) (iblk3 V a c (7 : Fin 10) t) (iblk3 V a c (8 : Fin 10) t) x14 = accAt3 V a c (t.val + 1) := by
  rw [accAt3_succ]
  by_cases h0 : t.val = 0
  · exact stepAcc3_first _ (coords3_first a t h0) _ _ _ _ _ _ _ _ _ _ _ _ _
  · rw [hx h0]

/-- What the body leaves in the output's staging buffer is what the obligation asks of it: where the block is written
    back, the accumulator after the point in the output's shape; elsewhere, the buffer as it was found. -/
theorem leaves3_9 (c : Dev nD) (t : Fin (cfg3 a).N) (x14 : Vec F S10240x16 .f32)
    (hx : t.val ≠ 0 → x14 = accAt3 V a c t.val) (d9) (f13 : BufTy.Contents (Elt F) (ms3_9 a t).view.ty)
    (hf13 : (ms3_9 a t).view.read (Elt F) f13 = (dat3 V a c).before (9 : Fin 10) t d9) (f15) :
    ((ms3_9 a t).view.loc (c : Thread nD τ) ↦[(ms3_9 a t).view.set]{fullShare} (run3 V a c t x14 f13 f15).2.2.1 : sProp 𝕄)
      ⊢ (dat3 V a c).leavesExact (9 : Fin 10) t := by
  by_cases hc : k3_cond22 (grid3.coords t) = 1#1
  · have hlive : (dat3 V a c).leavesExact (9 : Fin 10) t = owns (c : Thread nD τ) (ms3_9 a t) fullShare ((dat3 V a c).after (9 : Fin 10) t) := by
      unfold Dat.leavesExact; rw [idleLive3_9 a t hc]
    rw [hlive, after3_9]
    unfold owns
    iintro H; iexists _; isplitr
    swap; · iexact H
    ipureintro
    exact (bodyRun3_out_flush _ _ _ _ _ _ _ _ _ _ _ _ _ _ _ _ _ _ _ _ _ _ _ _ _ _ _ _ _ _ _ _ _ _ _ _ _ _ _ _ _ _ _ _ hc).trans (congrArg k3_pay1 (acc3_step V a c t x14 hx))
  · rw [Dat.leavesExact_idle _ (9 : Fin 10) t (idleNot3_9 a t hc) (flushNot3_9 a t hc),
      show (run3 V a c t x14 f13 f15).2.2.1 = f13 from bodyRun3_out_idle _ _ _ _ _ _ _ _ _ _ _ _ _ _ _ _ _ _ _ _ _ _ _ _ _ _ _ _ _ _ _ _ _ _ _ _ _ _ _ _ _ _ _ _ hc]
    unfold owns
    iintro H; iexists d9, f13; isplitr
    · ipureintro; exact hf13
    iexact H

/-- Owning a memref at contents `X` is holding its elements at some raw contents that read `X`. -/
theorem owns_open3 (c : Dev nD) {sp : Space} {sh : Shape} {e : EltTy} (M : Memref sig .tc sp sh e) (X : sh.Idx → Elt F e) :
    (owns (c : Thread nD τ) M fullShare X : sProp 𝕄)
      ⊢ iprop(∃ f, ⌜M.view.read (Elt F) f = X⌝ ∗ (M.view.loc (c : Thread nD τ) ↦[M.view.set]{fullShare} f)) := by
  unfold owns; exact .rfl

/-- The tables held whole are the body's two table arguments owned at their contents. -/
theorem prefHeld3_eq (c : Dev nD) :
    (Pipeline.prefHeld pre3 c (fun _ => fullShare) a.1 : sProp 𝕄)
      = iprop(owns (c : Thread nD τ) (Memref.whole main_v31) fullShare (tab3_0 a) ∗ owns (c : Thread nD τ) (Memref.whole main_v39) fullShare (tab3_1 a)) := by
  unfold Pipeline.prefHeld
  rw [bigSep_univ_eq_bigSepL [(0 : Fin 2), (1 : Fin 2)] (by decide) (by decide), owns_whole, owns_whole]
  rfl

/-! ## The body obligation, at a generic point -/

/-- What the body is called with at point `t` (the windows one by one), -/
def bodyPre3 (c : Dev nD) (t : Fin (cfg3 a).N) : sProp 𝕄 :=
  iprop((dat3 V a c).Φ t.castSucc ∗ (dat3 V a c).owesAt () t.castSucc
    ∗ (∃ d, owns (c : Thread nD τ) (ms3_0 a t) fullShare ((dat3 V a c).before (0 : Fin 10) t d))
    ∗ (∃ d, owns (c : Thread nD τ) (ms3_1 a t) fullShare ((dat3 V a c).before (1 : Fin 10) t d))
    ∗ (∃ d, owns (c : Thread nD τ) (ms3_2 a t) fullShare ((dat3 V a c).before (2 : Fin 10) t d))
    ∗ (∃ d, owns (c : Thread nD τ) (ms3_3 a t) fullShare ((dat3 V a c).before (3 : Fin 10) t d))
    ∗ (∃ d, owns (c : Thread nD τ) (ms3_4 a t) fullShare ((dat3 V a c).before (4 : Fin 10) t d))
    ∗ (∃ d, owns (c : Thread nD τ) (ms3_5 a t) fullShare ((dat3 V a c).before (5 : Fin 10) t d))
    ∗ (∃ d, owns (c : Thread nD τ) (ms3_6 a t) fullShare ((dat3 V a c).before (6 : Fin 10) t d))
    ∗ (∃ d, owns (c : Thread nD τ) (ms3_7 a t) fullShare ((dat3 V a c).before (7 : Fin 10) t d))
    ∗ (∃ d, owns (c : Thread nD τ) (ms3_8 a t) fullShare ((dat3 V a c).before (8 : Fin 10) t d))
    ∗ (∃ d, owns (c : Thread nD τ) (ms3_9 a t) fullShare ((dat3 V a c).before (9 : Fin 10) t d)))

/-- and what it returns: each input's buffer at its block; the output's as the obligation states it, live or idle. -/
def bodyPost3 (c : Dev nD) (t : Fin (cfg3 a).N) : sProp 𝕄 :=
  iprop((dat3 V a c).Φ t.succ ∗ (dat3 V a c).owesAt () t.succ
    ∗ owns (c : Thread nD τ) (ms3_0 a t) fullShare ((dat3 V a c).after (0 : Fin 10) t)
    ∗ owns (c : Thread nD τ) (ms3_1 a t) fullShare ((dat3 V a c).after (1 : Fin 10) t)
    ∗ owns (c : Thread nD τ) (ms3_2 a t) fullShare ((dat3 V a c).after (2 : Fin 10) t)
    ∗ owns (c : Thread nD τ) (ms3_3 a t) fullShare ((dat3 V a c).after (3 : Fin 10) t)
    ∗ owns (c : Thread nD τ) (ms3_4 a t) fullShare ((dat3 V a c).after (4 : Fin 10) t)
    ∗ owns (c : Thread nD τ) (ms3_5 a t) fullShare ((dat3 V a c).after (5 : Fin 10) t)
    ∗ owns (c : Thread nD τ) (ms3_6 a t) fullShare ((dat3 V a c).after (6 : Fin 10) t)
    ∗ owns (c : Thread nD τ) (ms3_7 a t) fullShare ((dat3 V a c).after (7 : Fin 10) t)
    ∗ owns (c : Thread nD τ) (ms3_8 a t) fullShare ((dat3 V a c).after (8 : Fin 10) t)
    ∗ (dat3 V a c).leavesExact (9 : Fin 10) t)

set_option maxHeartbeats 1600000 in
/-- The body at any point. The invariant hands it the two tables, the accumulator (at the named contents after the
    first point) and the target-row scratch; each input's memref holds its block; the output's holds anything. The run
    applies; the accumulator comes back one step on, the inputs and tables as they were, the output's buffer as the
    obligation states it; the core's `owes` passes through unread. -/
theorem sound_body3 (c : Dev nD) (t : Fin (cfg3 a).N) :
    bodyPre3 V a c t ⊢ wp frame (wpE (defs₀ (F := F)) Variants.none c none) Set.univ (bodyAt3 a t) (fun _ => bodyPost3 V a c t) := by
  unfold bodyPre3 bodyPost3
  simp only [before3_0, before3_1, before3_2, before3_3, before3_4, before3_5, before3_6, before3_7, before3_8]
  rw [Phi3_castSucc, Phi3_succ, show (dat3 V a c).owesAt () t.succ = (dat3 V a c).owesAt () t.castSucc from rfl,
    after3_0, after3_1, after3_2, after3_3, after3_4, after3_5, after3_6, after3_7, after3_8]
  unfold Phi3
  rw [prefHeld3_eq]
  iintro ⟨⟨⟨HT0, HT1⟩, ⟨%x14, %hx14, H14⟩, ⟨%d15, H15⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave H9' := (owns_open3 c (ms3_9 a t) _) $$ H9
  icases H9' with ⟨%f13, %hf13, H13⟩
  ihave H15' := (owns_open3 c (Memref.whole cc3_scratch1) _) $$ H15
  icases H15' with ⟨%f15, -, H15⟩
  iapply ((run3 V a c t x14 f13 f15).2.2.2 Set.univ _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H13]; · iexact H13
  isplitl [H14]; · iexact H14
  isplitl [H15]; · iexact H15
  iintro ⟨HT0, HT1, H0, H1, H2, H3, H4, H5, H6, H7, H8, H13, H14, H15⟩
  isplitl [HT0 HT1 H14 H15 HR Hg]
  · isplitl [HT0 HT1]
    · isplitl [HT0]; · iexact HT0
      iexact HT1
    isplitl [H14]
    · iexists _; isplitr; · ipureintro; exact fun _ => rfl
      unfold owns; iexists _; isplitr
      swap; · iexact H14
      ipureintro
      exact (bodyRun3_acc _ _ _ _ _ _ _ _ _ _ _ _ _ _ _ _ _ _ _ _ _ _ _ _ _ _ _ _ _ _ _ _ _ _ _ _ _ _ _ _ _ _ _ _).trans (acc3_step V a c t x14 hx14)
    isplitl [H15]
    · iexists _; unfold owns; iexists _; isplitr
      swap; · iexact H15
      ipureintro; rfl
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (leaves3_9 V a c t x14 hx14 d9 f13 hf13 f15)
  iexact H13

/-- The library's body obligation, at every point. -/
theorem body_obligation3 (c : Dev nD) : BodyObligation (dat3 (F := F) V a c) (defs₀ (F := F)) Variants.none () Set.univ := fun t => by
  rw [bigSep_W3, bigSep_W3]
  exact sound_body3 V a c t

end Region3

end Cert.Kernel.Gen

end
-- ==== Proof.RegionK3.lean ====
import proofs.«414286_j65627100283289_3_alg».proof.Proof.RegionDataK3
import proofs.«414286_j65627100283289_3_alg».proof.Proof.Gen.Kernel.Regions
import proofs.«414286_j65627100283289_3_alg».proof.Proof.FrameDefsK
import Idealize.ShloMosaic.Lib.Pipeline.RegionsLoop
import Idealize.ShloMosaic.Lib.Pipeline.FrameSuffix

/-!
# Region 3 as a segment of the program

On entry the region's arrays and its two tables are separated from the other unscoped buffers; the tables, the scoped
buffers that are no staging buffer and the generator register make the invariant before the first point. On exit the
invariant gives them back and the arrays are joined with the other buffers again, the output's array at what the
write-backs made of it. Nothing is owed at any point and the kernel has no semaphore of its own.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 3 as a segment of the program -/

section Seg3

variable (m : (ℓ : Loc nD τ sig) → Buf (Elt F) ℓ) (outs : Outs (F := F))

/-- The unscoped buffers' contents on core `c` when region 3 is entered, and when it is left. -/
abbrev Win3 : Dev nD → Valuation τ sig (Elt F) := fun c => V17 m outs c
abbrev Wout3 : Dev nD → Valuation τ sig (Elt F) := fun c => V18 m outs c
/-- The contents of the TensorCore's buffers when region 3 is entered, that is, after the host operations that precede it. -/
abbrev Vin3 : (c : Dev nD) → (b : Ref sig .tc) → Buf (Elt F) ((c : Thread nD τ).loc b) := fun c b => V17 m outs c b
/-- Their contents when the region is left: as entered, except the output's array, which holds what the region leaves in it. -/
abbrev Vout3 : (c : Dev nD) → (b : Ref sig .tc) → Buf (Elt F) ((c : Thread nD τ).loc b) := fun c b => V18 m outs c b

-- the tables' contents of all four pipelines, the family of proof data, and what ties region 3's members to this module
variable (a : (p : Fin 4) → (pcfgs (F := F) p).Adm)
variable (pdats : (p : Fin 4) → (c : Dev nD) → Dat τ (Elt F) Unit ℕ (Pipeline.UD sig nD τ) ℕ (Pipeline.pin (pcfgs (F := F)) a p) c)
-- the family's member at region 3 is this module's proof data, at the entry contents and region 3's tables
variable (hd3 : ∀ c, pdats 3 c = dat3 (Vin3 m outs) (a 3) c)
-- the tables' admissible contents are what the tables hold when the region is entered
variable (hpf3 : ∀ c : Dev nD, (fun k => Vin3 m outs c (pre3.ref k)) = (a 3).1)
-- what the region leaves in its output's array is what its write-backs make of it
variable (houts3 : ∀ c : Dev nD, outs 18 main_v67 c = (dat3 (Vin3 m outs) (a 3) c).arrAt (9 : Fin 10) (cfg3 (a 3)).N)

/-- The invariant with the two scratch buffers as plain points-tos. -/
theorem Phi3_eq (V : (c : Dev nD) → (b : Ref sig .tc) → Buf (Elt F) ((c : Thread nD τ).loc b)) (a0 : (pcfg3 (F := F)).Adm) (c : Dev nD) (n : ℕ) :
    Phi3 V a0 c n = iprop(Pipeline.prefHeld pre3 c (fun _ => fullShare) a0.1
      ∗ (∃ x14 : Vec F S10240x16 .f32, ⌜n ≠ 0 → x14 = accAt3 V a0 c n⌝ ∗ (((c : Thread nD τ).loc cc3_scratch0) ↦{fullShare} x14))
      ∗ (∃ d : Buf (Elt F) ((c : Thread nD τ).loc cc3_scratch1), ((c : Thread nD τ).loc cc3_scratch1) ↦{fullShare} d)
      ∗ Pipeline.scopedRestBut spec3 c [cc3_scratch0, cc3_scratch1]
      ∗ (∃ r, prngReg c r)) := by
  unfold Phi3; simp only [owns_whole]

/-- Entering: the tables, the scoped rest and the generator register make the invariant before the first point. -/
theorem hin3 (V : (c : Dev nD) → (b : Ref sig .tc) → Buf (Elt F) ((c : Thread nD τ).loc b)) (a0 : (pcfg3 (F := F)).Adm) (c : Dev nD) :
    iprop((∃ r, prngReg c r) ∗ Pipeline.prefHeld pre3 c (fun _ => fullShare) a0.1 ∗ Pipeline.scopedRest spec3 c)
      ⊢ (Phi3 V a0 c 0 : sProp 𝕄) := by
  rw [Phi3_eq, scopedRest3_split]
  iintro ⟨Hg, Hpf, ⟨⟨%f0, H0⟩, H1⟩, HR⟩
  isplitl [Hpf]; · iexact Hpf
  isplitl [H0]
  · iexists f0; isplitr; · ipureintro; exact fun h => absurd rfl h
    iexact H0
  isplitl [H1]; · iexact H1
  isplitl [HR]; · iexact HR
  iexact Hg

/-- Leaving: the invariant gives the register and the tables back, and the scoped rest with the scratch at anything. -/
theorem hout3 (V : (c : Dev nD) → (b : Ref sig .tc) → Buf (Elt F) ((c : Thread nD τ).loc b)) (a0 : (pcfg3 (F := F)).Adm) (c : Dev nD) (n : ℕ) :
    (Phi3 V a0 c n : sProp 𝕄)
      ⊢ iprop(((∃ r, prngReg c r) ∗ Pipeline.prefHeld pre3 c (fun _ => fullShare) a0.1) ∗ Pipeline.scopedRest spec3 c) := by
  rw [Phi3_eq, scopedRest3_split]
  iintro ⟨Hpf, ⟨%x14, -, H0⟩, H1, HR, Hg⟩
  isplitl [Hg Hpf]
  · isplitl [Hg]; · iexact Hg
    iexact Hpf
  isplitl [H0 H1]
  · isplitl [H0]; · iexists x14; iexact H0
    iexact H1
  iexact HR

/-- Every window but the last is an input, and no input's array is the output's. -/
theorem inputs3 : ∀ w : Fin 10, w ≠ (9 : Fin 10) → (spec3 w).isOut = false ∧ Pipeline.arrRef spec3 w ∉ ([main_v67] : List (Ref sig .tc)) := by
  decide

/-- At the region's exit each of its arrays holds what the pipeline leaves: an input its entry contents, the output what
    its write-backs make of it, which is the region's unknown `outs 18 main_v67`. -/
theorem hF3 (c : Dev nD) (houts3 : outs 18 main_v67 c = (dat3 (Vin3 m outs) (a 3) c).arrAt (9 : Fin 10) (cfg3 (a 3)).N) :
    ∀ w : Fin 10, (dat3 (Vin3 m outs) (a 3) c).arrAt w (cfg3 (a 3)).N = Vout3 m outs c (Pipeline.arrRef spec3 w) := by
  intro w
  by_cases hw : w = (9 : Fin 10)
  · subst hw
    refine houts3.symm.trans ?_
    show _ = Function.update (Win3 m outs c) _ _ _
    rw [Function.update_self]
  · obtain ⟨hin, hne⟩ := inputs3 w hw
    exact ((dat3 (Vin3 m outs) (a 3) c).arrAt_in w hin _).trans ((A_eq3 (Vin3 m outs) (a 3) c w).trans (V18_of m outs c _ hne).symm)

/-- Every buffer that is no array of the region is left as entered. -/
theorem hrest3 (c : Dev nD) : ∀ b, b ∉ Finset.univ.image (Pipeline.arrRef spec3) → Vout3 m outs c b = Vin3 m outs c b := fun b hb =>
  V18_of m outs c b fun hmem => hb (Finset.mem_image.mpr ⟨(9 : Fin 10), Finset.mem_univ _, (List.mem_singleton.mp hmem).symm⟩)

include hd3 hpf3 houts3 in
-- the entry and exit lemmas speak of the pinned configuration `pin pcs a p`, which is the printed configuration
-- `cfg3 a` by the definitions of both
set_option backward.isDefEq.respectTransparency.types false in
/-- REGION 3 as a segment. It is entered holding every unscoped buffer at its contents after the preceding host
    operations, together with the rest state (the generator register, nothing owed); it is left holding the same, the
    output's array now at the region's unknown. On entry the region's arrays and its two tables are separated from the
    other unscoped buffers, and on exit they are joined again; the generator register and the tables pass through the
    invariant; nothing is owed at any point; the kernel has no semaphore of its own. -/
def reg3 : Pipeline.RegionSeg (pcfgs (F := F)) a pdats () defs₀ Variants.none Lz lvz 3 where
  win := winFacts3.to₀
  block_pos := block_pos3
  stage_whole := stage_whole3
  K := PEmpty
  osem k := k.elim
  ho := Pipeline.OwnSemFacts.none _
  hbody c := by rw [hd3 c]; exact (body_obligation3 (Vin3 m outs) (a 3) c).loose
  hwaits := Pipeline.hwaits_of_owed_zero _ _ _ _ Lz lvz 3 fun c t => by rw [hd3 c]; rfl
  pre c := iprop(StableHlo.held (c : Thread nD τ) (Pipeline.ucRefs τ sig) (Win3 m outs c) ∗ Rest c)
  post c := iprop(StableHlo.held (c : Thread nD τ) (Pipeline.ucRefs τ sig) (Wout3 m outs c) ∗ Rest c)
  X c := iprop(∃ r, prngReg c r)
  Y c := iprop((∃ r, prngReg c r) ∗ Pipeline.prefHeld pre3 c (fun _ => fullShare) (a 3).1)
  Z c := Pipeline.unscopedRestP (Ix := Unit) (Name := ℕ) (U := Pipeline.UD sig nD τ) (Lvl := ℕ) pre3 spec3 c (Vin3 m outs c)
  hentry c := by
    rw [Pipeline.ownSems0_none]
    have hsplit := Pipeline.arrays_of_unscopedBufs (p := 3) (pcfgs (F := F)) a pdats winFacts3 arr_whole3 c
      ((pdats 3 c).share_full fun w => by rw [hd3 c]; rfl) (Vin3 m outs c) fun w => by rw [hd3 c]; rfl
    rw [Pipeline.unscopedBufs_held, Pipeline.unscopedRest_split (win := (Pipeline.pin (pcfgs (F := F)) a 3).spec) (pre := pre3) preFacts3 c (Vin3 m outs c), hpf3 c] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · rw [hd3 c]
      unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hd3 c, show (dat3 (Vin3 m outs) (a 3) c).Φ 0 = Phi3 (Vin3 m outs) (a 3) c 0 from by dsimp only [dat3]; simp only [Fin.val_zero]]
    exact hin3 (Vin3 m outs) (a 3) c
  hout c := by
    rw [hd3 c, Pipeline.ownSems0_none, show (dat3 (Vin3 m outs) (a 3) c).Φ (Fin.last (Pipeline.pin (pcfgs (F := F)) a 3).N) = Phi3 (Vin3 m outs) (a 3) c (Pipeline.pin (pcfgs (F := F)) a 3).N from by dsimp only [dat3]; simp only [Fin.val_last]]
    iintro H
    ihave H' := (hout3 (Vin3 m outs) (a 3) c _) $$ H
    icases H' with ⟨HY, HS⟩
    isplitl [HY]; · iexact HY
    isplitr; · iempintro
    iexact HS
  hexit c := by
    have hjoin := Pipeline.unscopedBufs_of_arrays (p := 3) (pcfgs (F := F)) a (Ix := Unit) (Name := ℕ) (U := Pipeline.UD sig nD τ) (Lvl := ℕ)
      winFacts3 arr_whole3 c pdats ((pdats 3 c).share_full fun w => by rw [hd3 c]; rfl)
      (Vin3 m outs c) (Vout3 m outs c) ((pdats 3 c).arrAt · (cfg3 (a 3)).N)
      (by rw [hd3 c]; exact hF3 m outs a c (houts3 c)) (hrest3 m outs c)
    rw [Pipeline.unscopedBufs_held, Pipeline.unscopedRest_split (win := (Pipeline.pin (pcfgs (F := F)) a 3).spec) (pre := pre3) preFacts3 c (Vin3 m outs c), hpf3 c] at hjoin
    iintro ⟨Ha, HO, ⟨HY, Hpf⟩, Hrest⟩
    imodintro
    isplitl [Ha Hpf Hrest]
    · iapply hjoin
      isplitl [Ha]; · iexact Ha
      isplitl [Hpf]; · iexact Hpf
      iexact Hrest
    isplitl [HY]; · iexact HY
    rw [hd3 c]
    unfold Pipeline.Dat.owesAt Pipeline.owesWithin
    icases HO with ⟨%W, -, HO⟩; iexists W; iexact HO

/-- The record is entered from, and left at, the program's thread states around region 3, as they stand. -/
theorem hpre3 (c : Dev nD) :
    iprop(StableHlo.held (c : Thread nD τ) (Pipeline.ucRefs τ sig) (Win3 m outs c) ∗ Rest (F := F) c)
      ⊢ (reg3 m outs a pdats hd3 hpf3 houts3).pre c := .rfl
theorem hpost3 (c : Dev nD) :
    (reg3 m outs a pdats hd3 hpf3 houts3).post c
      ⊢ iprop(StableHlo.held (c : Thread nD τ) (Pipeline.ucRefs τ sig) (Wout3 m outs c) ∗ Rest (F := F) c) := .rfl

end Seg3

end Cert.Kernel.Gen

end
-- ==== Proof.RegionsK.lean ====
import proofs.«414286_j65627100283289_3_alg».proof.Proof.FrameK
import proofs.«414286_j65627100283289_3_alg».proof.Proof.OutsK
import proofs.«414286_j65627100283289_3_alg».proof.Proof.RegionK0
import proofs.«414286_j65627100283289_3_alg».proof.Proof.RegionK1
import proofs.«414286_j65627100283289_3_alg».proof.Proof.RegionK2
import proofs.«414286_j65627100283289_3_alg».proof.Proof.RegionK3

/-!
# The four regions joined into the program's run

Each region's record is stated against a family `outs` of contents that is not known before the regions run: region
`K` is entered from buffers that hold what regions `0 … K-1` left, and leaves its own array. Here the family is
CHOSEN, one array after the other: region 0's tables are read off the buffers the first host stretch leaves, its
proof data then says what it leaves in its array; with that array in the family the buffers region 1 is entered from
are determined, hence its tables and its array; and so on. The buffers a region is entered from depend on the
family only at the earlier regions' arrays, so they are the same under the finished family as under the stage that
chose them: that is all the three facts each record asks need. There is one core, so "on every core" is "on it".
The tables are never evaluated: they appear only as the names the stages give them.
-/

set_option maxRecDepth 1376

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-! ## One core -/

/-- The one core. -/
abbrev core0 : Dev nD := (0 : Fin 1)

theorem dev_eq (c : Dev nD) : c = core0 := Subsingleton.elim _ _

/-! ## The four stages: tables, then the array, then the family so far -/

/-- Region 0's two tables: what the buffers hold when it is entered. -/
def tbl0 : (pcfg0 (F := F)).Adm := ⟨fun k => V8 m core0 (pre0.ref k), trivial⟩
/-- What region 0 leaves in its output's array, from those tables and the buffers it is entered from. -/
def arr0 : ArrOn (F := F) main_v46 := fun c => (dat0 (Vin0 m) (tbl0 m) c).arrAt (9 : Fin 10) (cfg0 (tbl0 m)).N
/-- The family with regions 0's arrays chosen. -/
def o0 : Outs (F := F) := outsOf (arr0 m) (fun c => V0 m c main_v53) (fun c => V0 m c main_v60) (fun c => V0 m c main_v67) (fun _ r c => V0 m c r)

/-- Region 1's two tables: what the buffers hold when it is entered, the regions before it having left their arrays. -/
def tbl1 : (pcfg1 (F := F)).Adm := ⟨fun k => V11 m (o0 m) core0 (pre1.ref k), trivial⟩
/-- What region 1 leaves in its output's array, from those tables and the buffers it is entered from. -/
def arr1 : ArrOn (F := F) main_v53 := fun c => (dat1 (Vin1 m (o0 m)) (tbl1 m) c).arrAt (9 : Fin 10) (cfg1 (tbl1 m)).N
/-- The family with regions 0 to 1's arrays chosen. -/
def o1 : Outs (F := F) := outsOf (arr0 m) (arr1 m) (fun c => V0 m c main_v60) (fun c => V0 m c main_v67) (fun _ r c => V0 m c r)

/-- Region 2's two tables: what the buffers hold when it is entered, the regions before it having left their arrays. -/
def tbl2 : (pcfg2 (F := F)).Adm := ⟨fun k => V14 m (o1 m) core0 (pre2.ref k), trivial⟩
/-- What region 2 leaves in its output's array, from those tables and the buffers it is entered from. -/
def arr2 : ArrOn (F := F) main_v60 := fun c => (dat2 (Vin2 m (o1 m)) (tbl2 m) c).arrAt (9 : Fin 10) (cfg2 (tbl2 m)).N
/-- The family with regions 0 to 2's arrays chosen. -/
def o2 : Outs (F := F) := outsOf (arr0 m) (arr1 m) (arr2 m) (fun c => V0 m c main_v67) (fun _ r c => V0 m c r)

/-- Region 3's two tables: what the buffers hold when it is entered, the regions before it having left their arrays. -/
def tbl3 : (pcfg3 (F := F)).Adm := ⟨fun k => V17 m (o2 m) core0 (pre3.ref k), trivial⟩
/-- What region 3 leaves in its output's array, from those tables and the buffers it is entered from. -/
def arr3 : ArrOn (F := F) main_v67 := fun c => (dat3 (Vin3 m (o2 m)) (tbl3 m) c).arrAt (9 : Fin 10) (cfg3 (tbl3 m)).N
/-- THE FAMILY: all four arrays chosen, each from the buffers the regions before it leave. -/
def outsI : Outs (F := F) := outsOf (arr0 m) (arr1 m) (arr2 m) (arr3 m) (fun _ r c => V0 m c r)

/-! ## The tables and the proof data of all four pipelines, by literal cases -/

/-- Every pipeline's tables. -/
def adm : (p : Fin 4) → (pcfgs (F := F) p).Adm
  | ⟨0, _⟩ => tbl0 m
  | ⟨1, _⟩ => tbl1 m
  | ⟨2, _⟩ => tbl2 m
  | ⟨3, _⟩ => tbl3 m

/-- Every pipeline's proof data, each at the buffers its region is entered from under THE family. -/
def pdatsI : (p : Fin 4) → (c : Dev nD) → Dat τ (Elt F) Unit ℕ (Pipeline.UD sig nD τ) ℕ (Pipeline.pin (pcfgs (F := F)) (adm m) p) c
  | ⟨0, _⟩ => fun c => dat0 (Vin0 m) (tbl0 m) c
  | ⟨1, _⟩ => fun c => dat1 (Vin1 m (outsI m)) (tbl1 m) c
  | ⟨2, _⟩ => fun c => dat2 (Vin2 m (outsI m)) (tbl2 m) c
  | ⟨3, _⟩ => fun c => dat3 (Vin3 m (outsI m)) (tbl3 m) c

/-! ## Reading the stages back -/

theorem o0_at0 (c : Dev nD) : o0 m 9 main_v46 c = arr0 m c := by unfold o0; rw [outsOf_v46]
theorem o1_at0 (c : Dev nD) : o1 m 9 main_v46 c = arr0 m c := by unfold o1; rw [outsOf_v46]
theorem o1_at1 (c : Dev nD) : o1 m 12 main_v53 c = arr1 m c := by unfold o1; rw [outsOf_v53]
theorem o2_at0 (c : Dev nD) : o2 m 9 main_v46 c = arr0 m c := by unfold o2; rw [outsOf_v46]
theorem o2_at1 (c : Dev nD) : o2 m 12 main_v53 c = arr1 m c := by unfold o2; rw [outsOf_v53]
theorem o2_at2 (c : Dev nD) : o2 m 15 main_v60 c = arr2 m c := by unfold o2; rw [outsOf_v60]
theorem outsI_at0 (c : Dev nD) : outsI m 9 main_v46 c = arr0 m c := by unfold outsI; rw [outsOf_v46]
theorem outsI_at1 (c : Dev nD) : outsI m 12 main_v53 c = arr1 m c := by unfold outsI; rw [outsOf_v53]
theorem outsI_at2 (c : Dev nD) : outsI m 15 main_v60 c = arr2 m c := by unfold outsI; rw [outsOf_v60]
theorem outsI_at3 (c : Dev nD) : outsI m 18 main_v67 c = arr3 m c := by unfold outsI; rw [outsOf_v67]

/-- The buffers region 1 is entered from are the same under the final family as under the first stage's. -/
theorem Vin1_final : Vin1 m (outsI m) = Vin1 m (o0 m) :=
  funext fun c => funext fun b => congrFun (V11_congr m (outsI m) (o0 m) c (by rw [outsI_at0, o0_at0])) b
theorem Vin2_final : Vin2 m (outsI m) = Vin2 m (o1 m) :=
  funext fun c => funext fun b => congrFun (V14_congr m (outsI m) (o1 m) c (by rw [outsI_at0, o1_at0]) (by rw [outsI_at1, o1_at1])) b
theorem Vin3_final : Vin3 m (outsI m) = Vin3 m (o2 m) :=
  funext fun c => funext fun b => congrFun (V17_congr m (outsI m) (o2 m) c (by rw [outsI_at0, o2_at0]) (by rw [outsI_at1, o2_at1]) (by rw [outsI_at2, o2_at2])) b

/-! ## What ties each region's record to the family -/

theorem hd0 : ∀ c : Dev nD, pdatsI m 0 c = dat0 (Vin0 m) (adm m 0) c := fun _ => rfl
theorem hpf0 : ∀ c : Dev nD, (fun k => Vin0 m c (pre0.ref k)) = (adm m 0).1 := fun c => by
  rw [dev_eq c]
  rfl
/-- What the final family holds at region 0's output array is what region 0 leaves there. -/
theorem outsI_v46 (c : Dev nD) :
    outsI m 9 main_v46 c = (dat0 (Vin0 m) (tbl0 m) c).arrAt (9 : Fin 10) (cfg0 (tbl0 m)).N := by
  rw [outsI_at0]
  rfl
theorem houts0 : ∀ c : Dev nD, outsI m 9 main_v46 c = (dat0 (Vin0 m) (adm m 0) c).arrAt (9 : Fin 10) (cfg0 (adm m 0)).N :=
  fun c => outsI_v46 m c

theorem hd1 : ∀ c : Dev nD, pdatsI m 1 c = dat1 (Vin1 m (outsI m)) (adm m 1) c := fun _ => rfl
theorem hpf1 : ∀ c : Dev nD, (fun k => Vin1 m (outsI m) c (pre1.ref k)) = (adm m 1).1 := fun c => by
  rw [dev_eq c, Vin1_final]
  rfl
/-- What the final family holds at region 1's output array is what region 1 leaves there. -/
theorem outsI_v53 (c : Dev nD) :
    outsI m 12 main_v53 c = (dat1 (Vin1 m (outsI m)) (tbl1 m) c).arrAt (9 : Fin 10) (cfg1 (tbl1 m)).N := by
  rw [outsI_at1, Vin1_final]
  rfl
theorem houts1 : ∀ c : Dev nD, outsI m 12 main_v53 c = (dat1 (Vin1 m (outsI m)) (adm m 1) c).arrAt (9 : Fin 10) (cfg1 (adm m 1)).N :=
  fun c => outsI_v53 m c

theorem hd2 : ∀ c : Dev nD, pdatsI m 2 c = dat2 (Vin2 m (outsI m)) (adm m 2) c := fun _ => rfl
theorem hpf2 : ∀ c : Dev nD, (fun k => Vin2 m (outsI m) c (pre2.ref k)) = (adm m 2).1 := fun c => by
  rw [dev_eq c, Vin2_final]
  rfl
/-- What the final family holds at region 2's output array is what region 2 leaves there. -/
theorem outsI_v60 (c : Dev nD) :
    outsI m 15 main_v60 c = (dat2 (Vin2 m (outsI m)) (tbl2 m) c).arrAt (9 : Fin 10) (cfg2 (tbl2 m)).N := by
  rw [outsI_at2, Vin2_final]
  rfl
theorem houts2 : ∀ c : Dev nD, outsI m 15 main_v60 c = (dat2 (Vin2 m (outsI m)) (adm m 2) c).arrAt (9 : Fin 10) (cfg2 (adm m 2)).N :=
  fun c => outsI_v60 m c

theorem hd3 : ∀ c : Dev nD, pdatsI m 3 c = dat3 (Vin3 m (outsI m)) (adm m 3) c := fun _ => rfl
theorem hpf3 : ∀ c : Dev nD, (fun k => Vin3 m (outsI m) c (pre3.ref k)) = (adm m 3).1 := fun c => by
  rw [dev_eq c, Vin3_final]
  rfl
/-- What the final family holds at region 3's output array is what region 3 leaves there. -/
theorem outsI_v67 (c : Dev nD) :
    outsI m 18 main_v67 c = (dat3 (Vin3 m (outsI m)) (tbl3 m) c).arrAt (9 : Fin 10) (cfg3 (tbl3 m)).N := by
  rw [outsI_at3, Vin3_final]
  rfl
theorem houts3 : ∀ c : Dev nD, outsI m 18 main_v67 c = (dat3 (Vin3 m (outsI m)) (adm m 3) c).arrAt (9 : Fin 10) (cfg3 (adm m 3)).N :=
  fun c => outsI_v67 m c

/-! ## The run -/

/-- Every weakly fair execution of the program terminates, faults nowhere, leaves every argument array as launched and
    the result's buffer at what the last host stretch computes under the family the four regions determine. -/
theorem run (ρ : Dev nD → PrngReg) :
    θ_run defs (onTc (τ := τ) (main (F := F))) ⟨m, fun _ => 0, ρ⟩ (fun r => ∀ c : Dev nD,
      r.2.mem ((c.tc : Thread nD τ).loc main_v69) = V19 m (outsI m) c main_v69
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  run_of_regions m ρ (outsI m) (adm m) (pdatsI m)
    (reg0 m (outsI m) (adm m) (pdatsI m) (hd0 m) (hpf0 m) (houts0 m)) (hpre0 m (outsI m) (adm m) (pdatsI m) (hd0 m) (hpf0 m) (houts0 m)) (hpost0 m (outsI m) (adm m) (pdatsI m) (hd0 m) (hpf0 m) (houts0 m))
    (reg1 m (outsI m) (adm m) (pdatsI m) (hd1 m) (hpf1 m) (houts1 m)) (hpre1 m (outsI m) (adm m) (pdatsI m) (hd1 m) (hpf1 m) (houts1 m)) (hpost1 m (outsI m) (adm m) (pdatsI m) (hd1 m) (hpf1 m) (houts1 m))
    (reg2 m (outsI m) (adm m) (pdatsI m) (hd2 m) (hpf2 m) (houts2 m)) (hpre2 m (outsI m) (adm m) (pdatsI m) (hd2 m) (hpf2 m) (houts2 m)) (hpost2 m (outsI m) (adm m) (pdatsI m) (hd2 m) (hpf2 m) (houts2 m))
    (reg3 m (outsI m) (adm m) (pdatsI m) (hd3 m) (hpf3 m) (houts3 m)) (hpre3 m (outsI m) (adm m) (pdatsI m) (hd3 m) (hpf3 m) (houts3 m)) (hpost3 m (outsI m) (adm m) (pdatsI m) (hd3 m) (hpf3 m) (houts3 m))

end Cert.Kernel.Gen

end
-- ==== Proof.FrameDefsI.lean ====
import proofs.«414286_j65627100283289_3_alg».proof.Proof.Gen.KernelIdeal.Regions
import Idealize.ShloMosaic.Lib.Pipeline.Kit
import Idealize.ShloMosaic.Lib.Pipeline.Frame

/-!
# What rides between the items of the program

The program's items (host stretches and kernel regions) are chained over thread states; beside the unscoped buffers a
core carries only its random-generator register, at some state, and the record that it owes nothing. No core waits
for another, so no level is assigned.
-/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- No level is assigned: no core owes another anything. -/
abbrev Lz : GSem nD τ sig → Finset Unit := fun _ => ∅
abbrev lvz : GSem nD τ sig → Unit → ℕ := fun _ _ => 0

/-- Beside the buffers: the generator register at some state, the core owing nothing. -/
abbrev Rest (c : Dev nD) : sProp 𝕄 :=
  iprop((∃ r, prngReg c r) ∗ ∃ W, owes (c : Thread nD τ) (0 : CellTallies nD τ sig Unit) W)

end Cert.KernelIdeal.Gen

end
-- ==== Proof.FrameI.lean ====
import proofs.«414286_j65627100283289_3_alg».proof.Proof.FrameDefsI
import proofs.«414286_j65627100283289_3_alg».proof.Proof.RunI
import Idealize.ShloMosaic.Lib.Pipeline.Kit
import Idealize.ShloMosaic.Lib.Pipeline.Frame

/-!
# The program's run from its four regions

Given, for each of the four kernel regions, its segment record — entered from the thread state the host operations
before it leave, left at the one the host operations after it start from — every weakly fair execution of the
program terminates, faults nowhere, and ends with every argument array as launched and the result's buffer at what
the last host stretch computes from the last region's output. The host stretches, their chaining with the
regions and the launch are the generated conditional run's; what is chosen here is the algebra the regions are
stated in, the launch element, and what rides between the items.
-/

set_option maxRecDepth 1376

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (Pipeline.UD sig nD τ) ℕ

set_option backward.isDefEq.respectTransparency.types false in
theorem run_of_regions (m : (ℓ : Loc nD τ sig) → Buf (Elt F) ℓ) (ρ : Dev nD → PrngReg) (outs : Outs (F := F))
    (a : (p : Fin 4) → (pcfgs (F := F) p).Adm)
    (pdats : (p : Fin 4) → (c : Dev nD) → Dat τ (Elt F) Unit ℕ (Pipeline.UD sig nD τ) ℕ (Pipeline.pin (pcfgs (F := F)) a p) c)
    (R0 : RegionSeg (pcfgs (F := F)) a pdats () defs₀ Variants.none Lz lvz 0)
    (hpre0 : ∀ c : Dev nD, iprop(StableHlo.held (c : Thread nD τ) (Pipeline.ucRefs τ sig) (V8 m c) ∗ Rest c) ⊢ R0.pre c)
    (hpost0 : ∀ c : Dev nD, R0.post c ⊢ iprop(StableHlo.held (c : Thread nD τ) (Pipeline.ucRefs τ sig) (V9 m outs c) ∗ Rest c))
    (R1 : RegionSeg (pcfgs (F := F)) a pdats () defs₀ Variants.none Lz lvz 1)
    (hpre1 : ∀ c : Dev nD, iprop(StableHlo.held (c : Thread nD τ) (Pipeline.ucRefs τ sig) (V11 m outs c) ∗ Rest c) ⊢ R1.pre c)
    (hpost1 : ∀ c : Dev nD, R1.post c ⊢ iprop(StableHlo.held (c : Thread nD τ) (Pipeline.ucRefs τ sig) (V12 m outs c) ∗ Rest c))
    (R2 : RegionSeg (pcfgs (F := F)) a pdats () defs₀ Variants.none Lz lvz 2)
    (hpre2 : ∀ c : Dev nD, iprop(StableHlo.held (c : Thread nD τ) (Pipeline.ucRefs τ sig) (V14 m outs c) ∗ Rest c) ⊢ R2.pre c)
    (hpost2 : ∀ c : Dev nD, R2.post c ⊢ iprop(StableHlo.held (c : Thread nD τ) (Pipeline.ucRefs τ sig) (V15 m outs c) ∗ Rest c))
    (R3 : RegionSeg (pcfgs (F := F)) a pdats () defs₀ Variants.none Lz lvz 3)
    (hpre3 : ∀ c : Dev nD, iprop(StableHlo.held (c : Thread nD τ) (Pipeline.ucRefs τ sig) (V17 m outs c) ∗ Rest c) ⊢ R3.pre c)
    (hpost3 : ∀ c : Dev nD, R3.post c ⊢ iprop(StableHlo.held (c : Thread nD τ) (Pipeline.ucRefs τ sig) (V18 m outs c) ∗ Rest c)) :
    θ_run defs (onTc (τ := τ) (main (F := F))) ⟨m, fun _ => 0, ρ⟩ (fun r => ∀ c : Dev nD,
      r.2.mem ((c.tc : Thread nD τ).loc main_v69) = V19 m outs c main_v69
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  run_cond m (embL) () Variants.none Lz lvz (fun _ _ => rfl) ρ outs a pdats (fun _ => 0) (fun _ => iprop(emp))
      (initOf (Pipeline.cells (Pipeline.pin (pcfgs (F := F)) a) (cellOf_inj a)) (Pipeline.launchToks (Pipeline.pin (pcfgs (F := F)) a) (cellOf_inj a)), 1)
      (by
        iintro Hu
        ihave H := (ownU_pair _ _) $$ Hu
        icases H with ⟨HP, -⟩
        imodintro
        isplitl [HP]; · iexact HP
        iapply (show (BI.emp : sProp 𝕄) ⊢ bigSep Finset.univ (fun _ : Dev nD => (BI.emp : sProp 𝕄)) from by rw [BI.bigSep_emp_const])
        iempintro)
      (fun _ c => Rest c)
      (by
        have hstep : ∀ c : Dev nD, iprop(unscopedSems0 c ∗ owes (c : Thread nD τ) (0 : CellTallies nD τ sig Unit) ∅ ∗ Pipeline.launchCred (fun _ => (0 : CellTallies nD τ sig Unit)) c ∗ prngReg c (ρ c) ∗ iprop(emp)) ⊢ (Rest c : sProp 𝕄) := fun c => by
          iintro ⟨-, HO, -, Hp, -⟩
          isplitl [Hp]; · iexists _; iexact Hp
          iexists ∅; iexact HO
        have hbig : (bigSep Finset.univ fun c : Dev nD => iprop(unscopedSems0 c ∗ owes (c : Thread nD τ) (0 : CellTallies nD τ sig Unit) ∅ ∗ Pipeline.launchCred (fun _ => (0 : CellTallies nD τ sig Unit)) c ∗ prngReg c (ρ c) ∗ iprop(emp)))
            ⊢ (bigSep Finset.univ (fun c : Dev nD => Rest c) : sProp 𝕄) := bigSep_mono (fun c _ => hstep c)
        iintro ⟨H, -⟩
        imodintro
        ihave H' := hbig $$ H
        iexact H')
      (fun c => by iintro ⟨-, HO⟩; iexact HO)
      R0 hpre0 hpost0 R1 hpre1 hpost1 R2 hpre2 hpost2 R3 hpre3 hpost3

end Cert.KernelIdeal.Gen

end
-- ==== Proof.OutsI.lean ====
import proofs.«414286_j65627100283289_3_alg».proof.Proof.Gen.KernelIdeal.Regions

/-!
# What the four regions leave, as one family

The program's buffers between its items are written over ONE family `outs` of unknown contents, read only at the four
regions' output arrays. This module builds that family from four given arrays, reads it back at each of them, and
records that the buffers a region is entered from depend on the family only through the EARLIER regions' arrays —
so the four arrays can be chosen one after the other, each from the buffers the one before leaves.
-/

set_option maxRecDepth 1376

noncomputable section

namespace Cert.KernelIdeal.Gen

open Idealize.ShloMosaic Idealize.ShloMosaic.TcCoe
open Idealize.SL.Sem

variable {F : FTy → Type} [FloatOps F]

/-- An array's contents on every core. -/
abbrev ArrOn (r : Ref sig .tc) : Type := (c : Dev nD) → Buf (Elt F) ((c : Thread nD τ).loc r)

/-- The family that holds the four given arrays at the four regions' output arrays (and, elsewhere, `d`). -/
def outsOf (u0 : ArrOn (F := F) main_v46) (u1 : ArrOn (F := F) main_v53) (u2 : ArrOn (F := F) main_v60)
    (u3 : ArrOn (F := F) main_v67) (d : Outs (F := F)) : Outs (F := F) :=
  fun J r c =>
    if h : r = main_v46 then h ▸ u0 c
    else if h : r = main_v53 then h ▸ u1 c
    else if h : r = main_v60 then h ▸ u2 c
    else if h : r = main_v67 then h ▸ u3 c
    else d J r c

variable (u0 : ArrOn (F := F) main_v46) (u1 : ArrOn (F := F) main_v53) (u2 : ArrOn (F := F) main_v60)
  (u3 : ArrOn (F := F) main_v67) (d : Outs (F := F))

theorem outsOf_v46 (J : ℕ) (c : Dev nD) : outsOf u0 u1 u2 u3 d J main_v46 c = u0 c := by
  unfold outsOf; rw [dif_pos rfl]
theorem outsOf_v53 (J : ℕ) (c : Dev nD) : outsOf u0 u1 u2 u3 d J main_v53 c = u1 c := by
  unfold outsOf; rw [dif_neg (by decide), dif_pos rfl]
theorem outsOf_v60 (J : ℕ) (c : Dev nD) : outsOf u0 u1 u2 u3 d J main_v60 c = u2 c := by
  unfold outsOf; rw [dif_neg (by decide), dif_neg (by decide), dif_pos rfl]
theorem outsOf_v67 (J : ℕ) (c : Dev nD) : outsOf u0 u1 u2 u3 d J main_v67 c = u3 c := by
  unfold outsOf; rw [dif_neg (by decide), dif_neg (by decide), dif_neg (by decide), dif_pos rfl]

variable (m : (ℓ : Loc nD τ sig) → Buf (Elt F) ℓ)

/-- The buffers region 1 is entered from depend on the family only at region 0's array. -/
theorem V11_congr (o o' : Outs (F := F)) (c : Dev nD) (h0 : o 9 main_v46 c = o' 9 main_v46 c) : V11 m o c = V11 m o' c := by
  show StableHlo.after hostOps1_1 (StableHlo.after hostOps1 (Function.update (V8 m c) main_v46 (o 9 main_v46 c))) = _
  rw [h0]
/-- Those of region 2, only at regions 0 and 1's. -/
theorem V14_congr (o o' : Outs (F := F)) (c : Dev nD) (h0 : o 9 main_v46 c = o' 9 main_v46 c)
    (h1 : o 12 main_v53 c = o' 12 main_v53 c) : V14 m o c = V14 m o' c := by
  show StableHlo.after hostOps2_1 (StableHlo.after hostOps2 (Function.update (V11 m o c) main_v53 (o 12 main_v53 c))) = _
  rw [h1, V11_congr m o o' c h0]
/-- Those of region 3, only at regions 0, 1 and 2's. -/
theorem V17_congr (o o' : Outs (F := F)) (c : Dev nD) (h0 : o 9 main_v46 c = o' 9 main_v46 c)
    (h1 : o 12 main_v53 c = o' 12 main_v53 c) (h2 : o 15 main_v60 c = o' 15 main_v60 c) : V17 m o c = V17 m o' c := by
  show StableHlo.after hostOps3_1 (StableHlo.after hostOps3 (Function.update (V14 m o c) main_v60 (o 15 main_v60 c))) = _
  rw [h2, V14_congr m o o' c h0 h1]

end Cert.KernelIdeal.Gen

end
-- ==== Proof.BodyI0.lean ====
import proofs.«414286_j65627100283289_3_alg».proof.Proof.Gen.KernelIdeal.Skeleton
import proofs.«414286_j65627100283289_3_alg».proof.Proof.Gen.KernelIdeal.Launch
import Idealize.ShloMosaic.Lib.Pipeline.Frame
import Idealize.ShloMosaic.Lib.Pipeline.FrameBody
import Idealize.ShloMosaic.Lib.Tactic

/-!
# Region 0's body at one grid point

The body of one EdgeConv layer's kernel on whole staging memrefs, at any grid point `i = (core, tile)`: from the two
chunk-range tables, the tile's source and target columns, the padded node table, the layer's six parameter blocks,
the accumulator as the tile before left it and the two other written buffers at any contents, the body runs to its
end, faults nowhere, hands the eleven buffers it only reads back as they were, and leaves the accumulator, the
target-row scratch and the output's staging buffer at contents that are FUNCTIONS of what it was handed. Those three
functions are not transcribed: they are what the run finds, each conditional taken both ways and its two outcomes
merged under its condition (the reset at the core's first tile, the ten chunk gates of the target-row gather, the
ten of the scatter, the write-out at the core's last tile).
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- What the body leaves in the accumulator (`.1`), in the target-row scratch (`.2.1`) and in the output's staging
    buffer (`.2.2.1`), with the proof that it runs to the continuation holding exactly that. -/
noncomputable def bodyRun0 (c : Dev nD) (i : grid0.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x4 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x4 .f32) (harg15 : arg15.IsWhole)
    (x2 : Vec F S1250 .i32) (x3 : Vec F S1250 .i32) (x4 : Vec F S256x1 .i32) (x5 : Vec F S256x1 .i32) (x6 : Vec F S10240x4 .f32) (x7 : Vec F S8x128 .f32) (x8 : Vec F S1x128 .f32) (x9 : Vec F S128x128 .f32) (x10 : Vec F S1x128 .f32) (x11 : Vec F S128x128 .f32) (x12 : Vec F S1x128 .f32) (x14 : Vec F S10240x128 .f32)
    (f13 : BufTy.Contents (Elt F) arg13.view.ty) (f15 : BufTy.Contents (Elt F) arg15.view.ty) :
    Σ' (g14 : BufTy.Contents (Elt F) arg14.view.ty) (g15 : BufTy.Contents (Elt F) arg15.view.ty),
      { g13 : BufTy.Contents (Elt F) arg13.view.ty //
        ∀ (E : Set ℕ) (K : PUnit → sProp 𝕄),
          iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ (arg13.view.loc (c : Thread nD τ) ↦[arg13.view.set]{fullShare} f13)
            ∗ owns (c : Thread nD τ) arg14 fullShare x14
            ∗ (arg15.view.loc (c : Thread nD τ) ↦[arg15.view.set]{fullShare} f15)
            ∗ (iprop(owns (c : Thread nD τ) arg2 fullShare x2
              ∗ owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ owns (c : Thread nD τ) arg11 fullShare x11
              ∗ owns (c : Thread nD τ) arg12 fullShare x12
              ∗ (arg13.view.loc (c : Thread nD τ) ↦[arg13.view.set]{fullShare} g13)
              ∗ (arg14.view.loc (c : Thread nD τ) ↦[arg14.view.set]{fullShare} g14)
              ∗ (arg15.view.loc (c : Thread nD τ) ↦[arg15.view.set]{fullShare} g15)) -∗ K ⟨⟩))
          ⊢ wp frame (wpE (defs₀ (F := F)) Variants.none c none) E (cc0__edgeconv_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0__edgeconv_kernel_eq_skeleton]; unfold cc0__edgeconv_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, H13, ⟨%f14, %hf14, H14⟩, H15, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg14.eq_unread hf14
    sl_exec!
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexact H13
    isplitl [H14]; · iexact H14
    iexact H15

end Cert.KernelIdeal.Gen

end
-- ==== Proof.StepDefsI0.lean ====
import proofs.«414286_j65627100283289_3_alg».proof.Proof.Gen.KernelIdeal.Skeleton
import proofs.«414286_j65627100283289_3_alg».proof.Proof.GateWord
import proofs.«414286_j65627100283289_3_alg».proof.Proof.LibGatedRmw
import Idealize.ShloMosaic.Lib.Pipeline.FrameBody

/-!
# Region 0's body as functions of the values it is handed

What one run of the body at grid point `i = (core, tile)` leaves in the accumulator, written without a memref and without
any buffer's old raw contents: from the two chunk-range tables, the tile's source and target columns, the padded node
table, the six parameter blocks and the accumulator as the tile before left it.

* the two table words of the tile, `lo` and `hi`, and from them the ten gate words `lo ≤ k ≤ hi`;
* the target rows' gather `xi0`: zero, then for each chunk `k` of 1024 nodes, under its gate, the one-hot product of
  the target column against the chunk's rows added on;
* the source rows' gather `xj0`: the ten one-hot products added up, no gate;
* the perceptron's hidden row `hid0` and the messages `msg0`;
* the accumulator: reset to zero at the core's first tile, then for each chunk under its gate the chunk's rows replaced
  by themselves plus the transposed one-hot product with the messages.

Each step is spelt through the generated payload that computes it, so that the body's run and these functions meet
name by name.
-/

noncomputable section

namespace Cert.KernelIdeal.Gen

open Idealize.ShloMosaic Idealize.ShloMosaic.GatedRmw

variable {F : FTy → Type} [FloatOps F]

/-- The tile's entry of the first table: the least chunk its targets fall in. -/
def loW0 (i : grid0.Coords) (x2 : Vec F S1250 .i32) : BitVec 32 :=
  View.ld x2 (Rect.unit (s := S1250) (k0_off1 i) S1.size (k0_off1_inb i))
    (Shape.Idx.first (lt_of_lt_of_eq Nat.one_pos numel1_S1.symm))

/-- The tile's entry of the second table: the greatest chunk its targets fall in. -/
def hiW0 (i : grid0.Coords) (x3 : Vec F S1250 .i32) : BitVec 32 :=
  View.ld x3 (Rect.unit (s := S1250) (k0_off1 i) S1.size (k0_off1_inb i))
    (Shape.Idx.first (lt_of_lt_of_eq Nat.one_pos numel1_S1.symm))

/-- The word "this is the core's first tile". -/
def firstW0 (i : grid0.Coords) : BitVec 1 :=
  Scalar.cmpi .ne (Scalar.extui (Scalar.cmpi .eq (BitVec.ofNat 32 (i 1).val) 0#32)) 0#32

/-- One gated step of the target rows' gather: under the gate the step's payload of the rows so far. -/
def xiStep0 (g : BitVec 1) (pay : Vec F S256x4 .f32 → FVec F S256x4 .f32) (X : Vec F S256x4 .f32) : Vec F S256x4 .f32 :=
  if g = 1#1 then pay X else X

/-- The target rows the tile gathers: zero, then chunk by chunk under the gates. -/
def xi0 (i : grid0.Coords) (x2 x3 : Vec F S1250 .i32) (x5 : Vec F S256x1 .i32) (x6 : Vec F S10240x4 .f32) :
    Vec F S256x4 .f32 :=
  (xiStep0 (Cert.Spec.gateWord (loW0 i x2) (hiW0 i x3) 9#32) (k0_pay22 (k0_pay3 x5) (View.ld x6 (Rect.unit (s := S10240x4) ![9216, 0] S1024x4.size inb_S10240x4_S1024x4_9216_0)))
      (xiStep0 (Cert.Spec.gateWord (loW0 i x2) (hiW0 i x3) 8#32) (k0_pay21 (k0_pay3 x5) (View.ld x6 (Rect.unit (s := S10240x4) ![8192, 0] S1024x4.size inb_S10240x4_S1024x4_8192_0)))
      (xiStep0 (Cert.Spec.gateWord (loW0 i x2) (hiW0 i x3) 7#32) (k0_pay20 (k0_pay3 x5) (View.ld x6 (Rect.unit (s := S10240x4) ![7168, 0] S1024x4.size inb_S10240x4_S1024x4_7168_0)))
      (xiStep0 (Cert.Spec.gateWord (loW0 i x2) (hiW0 i x3) 6#32) (k0_pay19 (k0_pay3 x5) (View.ld x6 (Rect.unit (s := S10240x4) ![6144, 0] S1024x4.size inb_S10240x4_S1024x4_6144_0)))
      (xiStep0 (Cert.Spec.gateWord (loW0 i x2) (hiW0 i x3) 5#32) (k0_pay18 (k0_pay3 x5) (View.ld x6 (Rect.unit (s := S10240x4) ![5120, 0] S1024x4.size inb_S10240x4_S1024x4_5120_0)))
      (xiStep0 (Cert.Spec.gateWord (loW0 i x2) (hiW0 i x3) 4#32) (k0_pay17 (k0_pay3 x5) (View.ld x6 (Rect.unit (s := S10240x4) ![4096, 0] S1024x4.size inb_S10240x4_S1024x4_4096_0)))
      (xiStep0 (Cert.Spec.gateWord (loW0 i x2) (hiW0 i x3) 3#32) (k0_pay16 (k0_pay3 x5) (View.ld x6 (Rect.unit (s := S10240x4) ![3072, 0] S1024x4.size inb_S10240x4_S1024x4_3072_0)))
      (xiStep0 (Cert.Spec.gateWord (loW0 i x2) (hiW0 i x3) 2#32) (k0_pay15 (k0_pay3 x5) (View.ld x6 (Rect.unit (s := S10240x4) ![2048, 0] S1024x4.size inb_S10240x4_S1024x4_2048_0)))
      (xiStep0 (Cert.Spec.gateWord (loW0 i x2) (hiW0 i x3) 1#32) (k0_pay14 (k0_pay3 x5) (View.ld x6 (Rect.unit (s := S10240x4) ![1024, 0] S1024x4.size inb_S10240x4_S1024x4_1024_0)))
      (xiStep0 (Cert.Spec.gateWord (loW0 i x2) (hiW0 i x3) 0#32) (k0_pay13 (k0_pay3 x5) (View.ld x6 (Rect.unit (s := S10240x4) ![0, 0] S1024x4.size inb_S10240x4_S1024x4_0_0)))
      (k0_pay12 (F := F))))))))))))

/-- The source rows the tile gathers: every chunk's one-hot product, added up. -/
def xj0 (x4 : Vec F S256x1 .i32) (x6 : Vec F S10240x4 .f32) : FVec F S256x4 .f32 :=
  k0_pay11
    (k0_pay9 (k0_pay4 x4)
      (k0_pay7 (k0_pay4 x4) (k0_pay5 x4 (View.ld x6 (Rect.unit (s := S10240x4) ![0, 0] S1024x4.size inb_S10240x4_S1024x4_0_0)) (View.ld x6 (Rect.unit (s := S10240x4) ![1024, 0] S1024x4.size inb_S10240x4_S1024x4_1024_0))) (k0_pay6 x4)
        (iota Kind.tc S256x1024 32 [1] iota_S256x1024_d1_w32) (2048#32)
        (View.ld x6 (Rect.unit (s := S10240x4) ![2048, 0] S1024x4.size inb_S10240x4_S1024x4_2048_0)) (View.ld x6 (Rect.unit (s := S10240x4) ![3072, 0] S1024x4.size inb_S10240x4_S1024x4_3072_0)) (View.ld x6 (Rect.unit (s := S10240x4) ![4096, 0] S1024x4.size inb_S10240x4_S1024x4_4096_0)))
      (k0_pay8 (k0_pay4 x4) (View.ld x6 (Rect.unit (s := S10240x4) ![5120, 0] S1024x4.size inb_S10240x4_S1024x4_5120_0)))
      (View.ld x6 (Rect.unit (s := S10240x4) ![6144, 0] S1024x4.size inb_S10240x4_S1024x4_6144_0)) (View.ld x6 (Rect.unit (s := S10240x4) ![7168, 0] S1024x4.size inb_S10240x4_S1024x4_7168_0)) (View.ld x6 (Rect.unit (s := S10240x4) ![8192, 0] S1024x4.size inb_S10240x4_S1024x4_8192_0)))
    (k0_pay10 (k0_pay4 x4))
    (View.ld x6 (Rect.unit (s := S10240x4) ![9216, 0] S1024x4.size inb_S10240x4_S1024x4_9216_0))

/-- The perceptron's first hidden row of every edge of the tile. -/
def hid0 (i : grid0.Coords) (x2 x3 : Vec F S1250 .i32) (x4 x5 : Vec F S256x1 .i32) (x6 : Vec F S10240x4 .f32)
    (x7 : Vec F S8x128 .f32) (x8 : Vec F S1x128 .f32) : FVec F S256x128 .f32 :=
  k0_pay23 (xj0 x4 x6) (xi0 i x2 x3 x5 x6) x7 x8

/-- The message of every edge of the tile. -/
def msg0 (i : grid0.Coords) (x2 x3 : Vec F S1250 .i32) (x4 x5 : Vec F S256x1 .i32) (x6 : Vec F S10240x4 .f32)
    (x7 : Vec F S8x128 .f32) (x8 : Vec F S1x128 .f32) (x9 : Vec F S128x128 .f32) (x10 : Vec F S1x128 .f32)
    (x11 : Vec F S128x128 .f32) (x12 : Vec F S1x128 .f32) : FVec F S256x128 .f32 :=
  k0_pay24 (hid0 i x2 x3 x4 x5 x6 x7 x8) (FloatOps.ofBits FTy.f32 0#32) x9 x10 x11 x12

/-- The accumulator the chunk steps start from: zero at the core's first tile, else what the tile before left. -/
def accReset0 (i : grid0.Coords) (x14 : Vec F S10240x128 .f32) : Vec F S10240x128 .f32 :=
  if firstW0 i = 1#1 then k0_pay2 else x14

/-- One gated chunk step of the scatter: under the gate the chunk's rows replaced by the step's payload of them. -/
def accStep0 (g : BitVec 1) (R : Rect S10240x128) (pay : (R.shape.Idx → Elt F .f32) → (R.shape.Idx → Elt F .f32))
    (A : Vec F S10240x128 .f32) : Vec F S10240x128 .f32 :=
  gatedVal g R pay A

/-- The accumulator after the body at point `i`. -/
def stepAcc0 (i : grid0.Coords) (x2 x3 : Vec F S1250 .i32) (x4 x5 : Vec F S256x1 .i32) (x6 : Vec F S10240x4 .f32)
    (x7 : Vec F S8x128 .f32) (x8 : Vec F S1x128 .f32) (x9 : Vec F S128x128 .f32) (x10 : Vec F S1x128 .f32)
    (x11 : Vec F S128x128 .f32) (x12 : Vec F S1x128 .f32) (x14 : Vec F S10240x128 .f32) : Vec F S10240x128 .f32 :=
  (accStep0 (Cert.Spec.gateWord (loW0 i x2) (hiW0 i x3) 9#32) (Rect.unit (s := S10240x128) ![9216, 0] S1024x128.size inb_S10240x128_S1024x128_9216_0)
      (k0_pay34 (k0_pay3 x5) (msg0 i x2 x3 x4 x5 x6 x7 x8 x9 x10 x11 x12))
      (accStep0 (Cert.Spec.gateWord (loW0 i x2) (hiW0 i x3) 8#32) (Rect.unit (s := S10240x128) ![8192, 0] S1024x128.size inb_S10240x128_S1024x128_8192_0)
      (k0_pay33 (k0_pay3 x5) (msg0 i x2 x3 x4 x5 x6 x7 x8 x9 x10 x11 x12))
      (accStep0 (Cert.Spec.gateWord (loW0 i x2) (hiW0 i x3) 7#32) (Rect.unit (s := S10240x128) ![7168, 0] S1024x128.size inb_S10240x128_S1024x128_7168_0)
      (k0_pay32 (k0_pay3 x5) (msg0 i x2 x3 x4 x5 x6 x7 x8 x9 x10 x11 x12))
      (accStep0 (Cert.Spec.gateWord (loW0 i x2) (hiW0 i x3) 6#32) (Rect.unit (s := S10240x128) ![6144, 0] S1024x128.size inb_S10240x128_S1024x128_6144_0)
      (k0_pay31 (k0_pay3 x5) (msg0 i x2 x3 x4 x5 x6 x7 x8 x9 x10 x11 x12))
      (accStep0 (Cert.Spec.gateWord (loW0 i x2) (hiW0 i x3) 5#32) (Rect.unit (s := S10240x128) ![5120, 0] S1024x128.size inb_S10240x128_S1024x128_5120_0)
      (k0_pay30 (k0_pay3 x5) (msg0 i x2 x3 x4 x5 x6 x7 x8 x9 x10 x11 x12))
      (accStep0 (Cert.Spec.gateWord (loW0 i x2) (hiW0 i x3) 4#32) (Rect.unit (s := S10240x128) ![4096, 0] S1024x128.size inb_S10240x128_S1024x128_4096_0)
      (k0_pay29 (k0_pay3 x5) (msg0 i x2 x3 x4 x5 x6 x7 x8 x9 x10 x11 x12))
      (accStep0 (Cert.Spec.gateWord (loW0 i x2) (hiW0 i x3) 3#32) (Rect.unit (s := S10240x128) ![3072, 0] S1024x128.size inb_S10240x128_S1024x128_3072_0)
      (k0_pay28 (k0_pay3 x5) (msg0 i x2 x3 x4 x5 x6 x7 x8 x9 x10 x11 x12))
      (accStep0 (Cert.Spec.gateWord (loW0 i x2) (hiW0 i x3) 2#32) (Rect.unit (s := S10240x128) ![2048, 0] S1024x128.size inb_S10240x128_S1024x128_2048_0)
      (k0_pay27 (k0_pay3 x5) (hid0 i x2 x3 x4 x5 x6 x7 x8) (FloatOps.ofBits FTy.f32 0#32) x9 x10 x11 x12)
      (accStep0 (Cert.Spec.gateWord (loW0 i x2) (hiW0 i x3) 1#32) (Rect.unit (s := S10240x128) ![1024, 0] S1024x128.size inb_S10240x128_S1024x128_1024_0)
      (k0_pay26 (k0_pay3 x5) (hid0 i x2 x3 x4 x5 x6 x7 x8) (FloatOps.ofBits FTy.f32 0#32) x9 x10 x11 x12)
      (accStep0 (Cert.Spec.gateWord (loW0 i x2) (hiW0 i x3) 0#32) (Rect.unit (s := S10240x128) ![0, 0] S1024x128.size inb_S10240x128_S1024x128_0_0)
      (k0_pay25 (k0_pay3 x5) (hid0 i x2 x3 x4 x5 x6 x7 x8) (FloatOps.ofBits FTy.f32 0#32) x9 x10 x11 x12)
      (accReset0 i x14)))))))))))

end Cert.KernelIdeal.Gen

end
-- ==== Proof.StepI0.lean ====
import proofs.«414286_j65627100283289_3_alg».proof.Proof.BodyI0
import proofs.«414286_j65627100283289_3_alg».proof.Proof.StepDefsI0
import Idealize.ShloMosaic.Lib.Pipeline.Frame
import Idealize.ShloMosaic.Lib.Pipeline.FrameBody
import Idealize.ShloMosaic.Lib.Pipeline.Value
import Idealize.ShloMosaic.Lib.Writes

/-!
# What region 0's body leaves, as the functions of `StepDefsI0`

The run of the body found, for the accumulator, ten nested conditionals: under chunk `k`'s gate the contents so far with
chunk `k`'s rows overwritten by a payload of those same rows as loaded from the contents so far, else the contents so
far; at the bottom the reset under the first tile's condition. Each level is one gated read-modify-write of one
rectangle, and the found term IS that nest, by unfolding. What a gated read-modify-write reads is the gated step on
what the contents before read, so reading the nest gives the same nest on VALUES, each level now mentioning the level
below once: the accumulator step of `StepDefsI0`, once the run's names for the table words, the gates, the gathered
rows, the hidden row and the messages are rewritten as those functions. The target-row scratch is the same story with
the whole buffer as its one rectangle, which is why its old contents never show: every store covers it. The output's
staging buffer is stored once, whole, under the last tile's condition, with the accumulator read back whole.
-/

noncomputable section

namespace Cert.KernelIdeal.Gen

open Idealize.ShloMosaic Idealize.ShloMosaic.TcCoe Idealize.ShloMosaic.GatedRmw

variable {F : FTy → Type} [FloatOps F]

/-! ## The run's contents, level by level, as gated read-modify-writes -/

set_option maxRecDepth 65536 in
/-- The accumulator's raw contents the run found are ten gated read-modify-writes over the reset. -/
theorem acc_raw0 (c : Dev nD) (i : grid0.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x4 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x4 .f32) (harg15 : arg15.IsWhole) (x2 : Vec F S1250 .i32) (x3 : Vec F S1250 .i32) (x4 : Vec F S256x1 .i32) (x5 : Vec F S256x1 .i32) (x6 : Vec F S10240x4 .f32) (x7 : Vec F S8x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    (bodyRun0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).1 = (gatedRmw arg14.view (bodyRun0.sl.v187 c i arg2 harg2 arg3 harg3 x2 x3) (Rect.unit (s := S10240x128) ![9216, 0] S1024x128.size inb_S10240x128_S1024x128_9216_0)
      (fun v => k0_pay34 (bodyRun0.sl.r_2 c arg5 harg5 x5) (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun0.sl.v182 c i arg2 harg2 arg3 harg3 x2 x3) (Rect.unit (s := S10240x128) ![8192, 0] S1024x128.size inb_S10240x128_S1024x128_8192_0)
      (fun v => k0_pay33 (bodyRun0.sl.r_2 c arg5 harg5 x5) (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun0.sl.v177 c i arg2 harg2 arg3 harg3 x2 x3) (Rect.unit (s := S10240x128) ![7168, 0] S1024x128.size inb_S10240x128_S1024x128_7168_0)
      (fun v => k0_pay32 (bodyRun0.sl.r_2 c arg5 harg5 x5) (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun0.sl.v172 c i arg2 harg2 arg3 harg3 x2 x3) (Rect.unit (s := S10240x128) ![6144, 0] S1024x128.size inb_S10240x128_S1024x128_6144_0)
      (fun v => k0_pay31 (bodyRun0.sl.r_2 c arg5 harg5 x5) (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun0.sl.v167 c i arg2 harg2 arg3 harg3 x2 x3) (Rect.unit (s := S10240x128) ![5120, 0] S1024x128.size inb_S10240x128_S1024x128_5120_0)
      (fun v => k0_pay30 (bodyRun0.sl.r_2 c arg5 harg5 x5) (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun0.sl.v162 c i arg2 harg2 arg3 harg3 x2 x3) (Rect.unit (s := S10240x128) ![4096, 0] S1024x128.size inb_S10240x128_S1024x128_4096_0)
      (fun v => k0_pay29 (bodyRun0.sl.r_2 c arg5 harg5 x5) (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun0.sl.v157 c i arg2 harg2 arg3 harg3 x2 x3) (Rect.unit (s := S10240x128) ![3072, 0] S1024x128.size inb_S10240x128_S1024x128_3072_0)
      (fun v => k0_pay28 (bodyRun0.sl.r_2 c arg5 harg5 x5) (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun0.sl.v152 c i arg2 harg2 arg3 harg3 x2 x3) (Rect.unit (s := S10240x128) ![2048, 0] S1024x128.size inb_S10240x128_S1024x128_2048_0)
      (fun v => k0_pay27 (bodyRun0.sl.r_2 c arg5 harg5 x5) (bodyRun0.sl.r_11 c i arg2 harg2 arg3 harg3 arg4 harg4 arg5 harg5 arg6 harg6 arg7 harg7 arg8 harg8 arg15 x2 x3 x4 x5 x6 x7 x8 f15) bodyRun0.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (gatedRmw arg14.view (bodyRun0.sl.v147 c i arg2 harg2 arg3 harg3 x2 x3) (Rect.unit (s := S10240x128) ![1024, 0] S1024x128.size inb_S10240x128_S1024x128_1024_0)
      (fun v => k0_pay26 (bodyRun0.sl.r_2 c arg5 harg5 x5) (bodyRun0.sl.r_11 c i arg2 harg2 arg3 harg3 arg4 harg4 arg5 harg5 arg6 harg6 arg7 harg7 arg8 harg8 arg15 x2 x3 x4 x5 x6 x7 x8 f15) bodyRun0.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (gatedRmw arg14.view (bodyRun0.sl.v142 c i arg2 harg2 arg3 harg3 x2 x3) (Rect.unit (s := S10240x128) ![0, 0] S1024x128.size inb_S10240x128_S1024x128_0_0)
      (fun v => k0_pay25 (bodyRun0.sl.r_2 c arg5 harg5 x5) (bodyRun0.sl.r_11 c i arg2 harg2 arg3 harg3 arg4 harg4 arg5 harg5 arg6 harg6 arg7 harg7 arg8 harg8 arg15 x2 x3 x4 x5 x6 x7 x8 f15) bodyRun0.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (if _hc : bodyRun0.sl.v4 i = 1#1 then arg14.view.writes (Elt F) (harg14.unread x14) [⟨(Rect.unit (s := S10240x128) ![0, 0] S10240x128.size inb_S10240x128_S10240x128_0_0), k0_pay2⟩] else harg14.unread x14))))))))))) := rfl

set_option maxRecDepth 65536 in
/-- The target-row scratch as the hidden layer's load reads it: nine gated read-modify-writes over the first. -/
theorem xi_raw0 (c : Dev nD) (i : grid0.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x4 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x4 .f32) (harg15 : arg15.IsWhole) (x2 : Vec F S1250 .i32) (x3 : Vec F S1250 .i32) (x4 : Vec F S256x1 .i32) (x5 : Vec F S256x1 .i32) (x6 : Vec F S10240x4 .f32) (x7 : Vec F S8x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    (bodyRun0.sl.v188 c i arg2 harg2 arg3 harg3 arg5 harg5 arg6 harg6 arg15 x2 x3 x5 x6 f15) = View.readAt (Elt F) arg15.view (Rect.unit (s := S256x4) ![0, 0] S256x4.size inb_S256x4_S256x4_0_0).toLoadRect (gatedRmw arg15.view (bodyRun0.sl.v187 c i arg2 harg2 arg3 harg3 x2 x3) (Rect.unit (s := S256x4) ![0, 0] S256x4.size inb_S256x4_S256x4_0_0)
      (fun v => k0_pay22 (bodyRun0.sl.r_2 c arg5 harg5 x5) (View.readAt (Elt F) arg6.view (Rect.unit (s := S10240x4) ![9216, 0] S1024x4.size inb_S10240x4_S1024x4_9216_0).toLoadRect (harg6.unread x6)) v)
      (gatedRmw arg15.view (bodyRun0.sl.v182 c i arg2 harg2 arg3 harg3 x2 x3) (Rect.unit (s := S256x4) ![0, 0] S256x4.size inb_S256x4_S256x4_0_0)
      (fun v => k0_pay21 (bodyRun0.sl.r_2 c arg5 harg5 x5) (View.readAt (Elt F) arg6.view (Rect.unit (s := S10240x4) ![8192, 0] S1024x4.size inb_S10240x4_S1024x4_8192_0).toLoadRect (harg6.unread x6)) v)
      (gatedRmw arg15.view (bodyRun0.sl.v177 c i arg2 harg2 arg3 harg3 x2 x3) (Rect.unit (s := S256x4) ![0, 0] S256x4.size inb_S256x4_S256x4_0_0)
      (fun v => k0_pay20 (bodyRun0.sl.r_2 c arg5 harg5 x5) (View.readAt (Elt F) arg6.view (Rect.unit (s := S10240x4) ![7168, 0] S1024x4.size inb_S10240x4_S1024x4_7168_0).toLoadRect (harg6.unread x6)) v)
      (gatedRmw arg15.view (bodyRun0.sl.v172 c i arg2 harg2 arg3 harg3 x2 x3) (Rect.unit (s := S256x4) ![0, 0] S256x4.size inb_S256x4_S256x4_0_0)
      (fun v => k0_pay19 (bodyRun0.sl.r_2 c arg5 harg5 x5) (View.readAt (Elt F) arg6.view (Rect.unit (s := S10240x4) ![6144, 0] S1024x4.size inb_S10240x4_S1024x4_6144_0).toLoadRect (harg6.unread x6)) v)
      (gatedRmw arg15.view (bodyRun0.sl.v167 c i arg2 harg2 arg3 harg3 x2 x3) (Rect.unit (s := S256x4) ![0, 0] S256x4.size inb_S256x4_S256x4_0_0)
      (fun v => k0_pay18 (bodyRun0.sl.r_2 c arg5 harg5 x5) (View.readAt (Elt F) arg6.view (Rect.unit (s := S10240x4) ![5120, 0] S1024x4.size inb_S10240x4_S1024x4_5120_0).toLoadRect (harg6.unread x6)) v)
      (gatedRmw arg15.view (bodyRun0.sl.v162 c i arg2 harg2 arg3 harg3 x2 x3) (Rect.unit (s := S256x4) ![0, 0] S256x4.size inb_S256x4_S256x4_0_0)
      (fun v => k0_pay17 (bodyRun0.sl.r_2 c arg5 harg5 x5) (View.readAt (Elt F) arg6.view (Rect.unit (s := S10240x4) ![4096, 0] S1024x4.size inb_S10240x4_S1024x4_4096_0).toLoadRect (harg6.unread x6)) v)
      (gatedRmw arg15.view (bodyRun0.sl.v157 c i arg2 harg2 arg3 harg3 x2 x3) (Rect.unit (s := S256x4) ![0, 0] S256x4.size inb_S256x4_S256x4_0_0)
      (fun v => k0_pay16 (bodyRun0.sl.r_2 c arg5 harg5 x5) (View.readAt (Elt F) arg6.view (Rect.unit (s := S10240x4) ![3072, 0] S1024x4.size inb_S10240x4_S1024x4_3072_0).toLoadRect (harg6.unread x6)) v)
      (gatedRmw arg15.view (bodyRun0.sl.v152 c i arg2 harg2 arg3 harg3 x2 x3) (Rect.unit (s := S256x4) ![0, 0] S256x4.size inb_S256x4_S256x4_0_0)
      (fun v => k0_pay15 (bodyRun0.sl.r_2 c arg5 harg5 x5) (View.readAt (Elt F) arg6.view (Rect.unit (s := S10240x4) ![2048, 0] S1024x4.size inb_S10240x4_S1024x4_2048_0).toLoadRect (harg6.unread x6)) v)
      (gatedRmw arg15.view (bodyRun0.sl.v147 c i arg2 harg2 arg3 harg3 x2 x3) (Rect.unit (s := S256x4) ![0, 0] S256x4.size inb_S256x4_S256x4_0_0)
      (fun v => k0_pay14 (bodyRun0.sl.r_2 c arg5 harg5 x5) (View.readAt (Elt F) arg6.view (Rect.unit (s := S10240x4) ![1024, 0] S1024x4.size inb_S10240x4_S1024x4_1024_0).toLoadRect (harg6.unread x6)) v)
      (if _hc : (bodyRun0.sl.v142 c i arg2 harg2 arg3 harg3 x2 x3) = 1#1 then arg15.view.writes (Elt F) f15 (⟨(Rect.unit (s := S256x4) ![0, 0] S256x4.size inb_S256x4_S256x4_0_0), k0_pay13 (bodyRun0.sl.r_2 c arg5 harg5 x5) (View.readAt (Elt F) arg6.view (Rect.unit (s := S10240x4) ![0, 0] S1024x4.size inb_S10240x4_S1024x4_0_0).toLoadRect (harg6.unread x6)) (bodyRun0.sl.v277 arg15)⟩ :: bodyRun0.sl.H15_1) else arg15.view.writes (Elt F) f15 bodyRun0.sl.H15_1)))))))))) := rfl

set_option maxRecDepth 65536 in
/-- The write-out's load of the whole accumulator reads the same raw contents. -/
theorem v266_raw0 (c : Dev nD) (i : grid0.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x4 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x4 .f32) (harg15 : arg15.IsWhole) (x2 : Vec F S1250 .i32) (x3 : Vec F S1250 .i32) (x4 : Vec F S256x1 .i32) (x5 : Vec F S256x1 .i32) (x6 : Vec F S10240x4 .f32) (x7 : Vec F S8x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    (bodyRun0.sl.v266 c i arg2 harg2 arg3 harg3 arg4 harg4 arg5 harg5 arg6 harg6 arg7 harg7 arg8 harg8 arg9 harg9 arg10 harg10 arg11 harg11 arg12 harg12 arg14 harg14 arg15 x2 x3 x4 x5 x6 x7 x8 x9 x10 x11 x12 x14 f15) = View.readAt (Elt F) arg14.view (Rect.unit (s := S10240x128) ![0, 0] S10240x128.size inb_S10240x128_S10240x128_0_0).toLoadRect (gatedRmw arg14.view (bodyRun0.sl.v187 c i arg2 harg2 arg3 harg3 x2 x3) (Rect.unit (s := S10240x128) ![9216, 0] S1024x128.size inb_S10240x128_S1024x128_9216_0)
      (fun v => k0_pay34 (bodyRun0.sl.r_2 c arg5 harg5 x5) (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun0.sl.v182 c i arg2 harg2 arg3 harg3 x2 x3) (Rect.unit (s := S10240x128) ![8192, 0] S1024x128.size inb_S10240x128_S1024x128_8192_0)
      (fun v => k0_pay33 (bodyRun0.sl.r_2 c arg5 harg5 x5) (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun0.sl.v177 c i arg2 harg2 arg3 harg3 x2 x3) (Rect.unit (s := S10240x128) ![7168, 0] S1024x128.size inb_S10240x128_S1024x128_7168_0)
      (fun v => k0_pay32 (bodyRun0.sl.r_2 c arg5 harg5 x5) (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun0.sl.v172 c i arg2 harg2 arg3 harg3 x2 x3) (Rect.unit (s := S10240x128) ![6144, 0] S1024x128.size inb_S10240x128_S1024x128_6144_0)
      (fun v => k0_pay31 (bodyRun0.sl.r_2 c arg5 harg5 x5) (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun0.sl.v167 c i arg2 harg2 arg3 harg3 x2 x3) (Rect.unit (s := S10240x128) ![5120, 0] S1024x128.size inb_S10240x128_S1024x128_5120_0)
      (fun v => k0_pay30 (bodyRun0.sl.r_2 c arg5 harg5 x5) (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun0.sl.v162 c i arg2 harg2 arg3 harg3 x2 x3) (Rect.unit (s := S10240x128) ![4096, 0] S1024x128.size inb_S10240x128_S1024x128_4096_0)
      (fun v => k0_pay29 (bodyRun0.sl.r_2 c arg5 harg5 x5) (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun0.sl.v157 c i arg2 harg2 arg3 harg3 x2 x3) (Rect.unit (s := S10240x128) ![3072, 0] S1024x128.size inb_S10240x128_S1024x128_3072_0)
      (fun v => k0_pay28 (bodyRun0.sl.r_2 c arg5 harg5 x5) (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun0.sl.v152 c i arg2 harg2 arg3 harg3 x2 x3) (Rect.unit (s := S10240x128) ![2048, 0] S1024x128.size inb_S10240x128_S1024x128_2048_0)
      (fun v => k0_pay27 (bodyRun0.sl.r_2 c arg5 harg5 x5) (bodyRun0.sl.r_11 c i arg2 harg2 arg3 harg3 arg4 harg4 arg5 harg5 arg6 harg6 arg7 harg7 arg8 harg8 arg15 x2 x3 x4 x5 x6 x7 x8 f15) bodyRun0.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (gatedRmw arg14.view (bodyRun0.sl.v147 c i arg2 harg2 arg3 harg3 x2 x3) (Rect.unit (s := S10240x128) ![1024, 0] S1024x128.size inb_S10240x128_S1024x128_1024_0)
      (fun v => k0_pay26 (bodyRun0.sl.r_2 c arg5 harg5 x5) (bodyRun0.sl.r_11 c i arg2 harg2 arg3 harg3 arg4 harg4 arg5 harg5 arg6 harg6 arg7 harg7 arg8 harg8 arg15 x2 x3 x4 x5 x6 x7 x8 f15) bodyRun0.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (gatedRmw arg14.view (bodyRun0.sl.v142 c i arg2 harg2 arg3 harg3 x2 x3) (Rect.unit (s := S10240x128) ![0, 0] S1024x128.size inb_S10240x128_S1024x128_0_0)
      (fun v => k0_pay25 (bodyRun0.sl.r_2 c arg5 harg5 x5) (bodyRun0.sl.r_11 c i arg2 harg2 arg3 harg3 arg4 harg4 arg5 harg5 arg6 harg6 arg7 harg7 arg8 harg8 arg15 x2 x3 x4 x5 x6 x7 x8 f15) bodyRun0.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (if _hc : bodyRun0.sl.v4 i = 1#1 then arg14.view.writes (Elt F) (harg14.unread x14) [⟨(Rect.unit (s := S10240x128) ![0, 0] S10240x128.size inb_S10240x128_S10240x128_0_0), k0_pay2⟩] else harg14.unread x14))))))))))) := rfl

set_option maxRecDepth 65536 in
/-- The output's staging buffer: one whole store under the last tile's condition. -/
theorem out_raw0 (c : Dev nD) (i : grid0.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x4 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x4 .f32) (harg15 : arg15.IsWhole) (x2 : Vec F S1250 .i32) (x3 : Vec F S1250 .i32) (x4 : Vec F S256x1 .i32) (x5 : Vec F S256x1 .i32) (x6 : Vec F S10240x4 .f32) (x7 : Vec F S8x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    (bodyRun0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).2.2.1 = (if _hc : k0_cond22 i = 1#1 then arg13.view.writes (Elt F) f13 [⟨(Rect.unit (s := S1x10240x128) ![0, 0, 0] S1x10240x128.size inb_S1x10240x128_S1x10240x128_0_0_0), k0_pay1 (bodyRun0.sl.v266 c i arg2 harg2 arg3 harg3 arg4 harg4 arg5 harg5 arg6 harg6 arg7 harg7 arg8 harg8 arg9 harg9 arg10 harg10 arg11 harg11 arg12 harg12 arg14 harg14 arg15 x2 x3 x4 x5 x6 x7 x8 x9 x10 x11 x12 x14 f15)⟩] else f13) := rfl

/-! ## Loads off whole buffers, and the run's names as the functions of `StepDefsI0` -/

/-- A load off a whole buffer held at the raw contents of `X` reads `X` through the rectangle. -/
private theorem readAt_unread_ld0 {sp : Space} {s : Shape} {e : EltTy} (m : Memref sig .tc sp s e) (h : m.IsWhole)
    (X : s.Idx → Elt F e) (R : Rect s) : View.readAt (Elt F) m.view R.toLoadRect (h.unread X) = View.ld X R := by
  rw [View.readAt_eq_ld, h.read_unread]

private theorem ld_w_col0 {Val : EltTy → Type} {e : EltTy} (X : S256x1.Idx → Val e) : View.ld X (Rect.unit (s := S256x1) ![0, 0] S256x1.size inb_S256x1_S256x1_0_0) = X :=
  View.ld_unit_zero (by funext j; fin_cases j <;> rfl) _ X
private theorem ld_w_wA0 {Val : EltTy → Type} {e : EltTy} (X : S8x128.Idx → Val e) : View.ld X (Rect.unit (s := S8x128) ![0, 0] S8x128.size inb_S8x128_S8x128_0_0) = X :=
  View.ld_unit_zero (by funext j; fin_cases j <;> rfl) _ X
private theorem ld_w_bias0 {Val : EltTy → Type} {e : EltTy} (X : S1x128.Idx → Val e) : View.ld X (Rect.unit (s := S1x128) ![0, 0] S1x128.size inb_S1x128_S1x128_0_0) = X :=
  View.ld_unit_zero (by funext j; fin_cases j <;> rfl) _ X
private theorem ld_w_wB0 {Val : EltTy → Type} {e : EltTy} (X : S128x128.Idx → Val e) : View.ld X (Rect.unit (s := S128x128) ![0, 0] S128x128.size inb_S128x128_S128x128_0_0) = X :=
  View.ld_unit_zero (by funext j; fin_cases j <;> rfl) _ X
private theorem ld_w_rows0 {Val : EltTy → Type} {e : EltTy} (X : S256x4.Idx → Val e) : View.ld X (Rect.unit (s := S256x4) ![0, 0] S256x4.size inb_S256x4_S256x4_0_0) = X :=
  View.ld_unit_zero (by funext j; fin_cases j <;> rfl) _ X
private theorem ld_w_acc0 {Val : EltTy → Type} {e : EltTy} (X : S10240x128.Idx → Val e) : View.ld X (Rect.unit (s := S10240x128) ![0, 0] S10240x128.size inb_S10240x128_S10240x128_0_0) = X :=
  View.ld_unit_zero (by funext j; fin_cases j <;> rfl) _ X

/-- A store through the whole-shape rectangle, last, leaves its payload. -/
private theorem read_writes_cons_whole0 {sp : Space} {s : Shape} {e : EltTy} (v : View sig .tc sp s e)
    (f : v.ty.Contents (Elt F)) {off : Fin s.rank → Nat} (h0 : off = fun _ => 0) (inb : ∀ a, off a + s.size a ≤ s.size a)
    (w : (Rect.unit off s.size inb).shape.Idx → Elt F e) (L : List (View.Piece (Elt F) s e)) :
    v.read (Elt F) (v.writes (Elt F) f (⟨Rect.unit off s.size inb, w⟩ :: L)) = w := by
  subst h0
  funext y
  have e1 := View.read_writes_cons_emb v f (Rect.whole s) w L y
  rw [Rect.emb_whole_apply] at e1
  exact e1

private theorem lo_eq0 (c : Dev nD) (i : grid0.Coords) (arg2 : Memref sig .tc .smem S1250 .i32) (harg2 : arg2.IsWhole)
    (x2 : Vec F S1250 .i32) : bodyRun0.sl.r c i arg2 harg2 x2 = loW0 i x2 := by
  unfold bodyRun0.sl.r loW0
  rw [readAt_unread_ld0]

private theorem hi_eq0 (c : Dev nD) (i : grid0.Coords) (arg3 : Memref sig .tc .smem S1250 .i32) (harg3 : arg3.IsWhole)
    (x3 : Vec F S1250 .i32) : bodyRun0.sl.r_1 c i arg3 harg3 x3 = hiW0 i x3 := by
  unfold bodyRun0.sl.r_1 hiW0
  rw [readAt_unread_ld0]

private theorem gate0_0 (c : Dev nD) (i : grid0.Coords) (arg2 : Memref sig .tc .smem S1250 .i32) (harg2 : arg2.IsWhole) (arg3 : Memref sig .tc .smem S1250 .i32) (harg3 : arg3.IsWhole) (x2 x3 : Vec F S1250 .i32) :
    bodyRun0.sl.v142 c i arg2 harg2 arg3 harg3 x2 x3 = Cert.Spec.gateWord (loW0 i x2) (hiW0 i x3) 0#32 := by
  unfold bodyRun0.sl.v142 bodyRun0.sl.v141 bodyRun0.sl.v140 bodyRun0.sl.v138 bodyRun0.sl.v139
  rw [lo_eq0, hi_eq0]; rfl
private theorem gate0_1 (c : Dev nD) (i : grid0.Coords) (arg2 : Memref sig .tc .smem S1250 .i32) (harg2 : arg2.IsWhole) (arg3 : Memref sig .tc .smem S1250 .i32) (harg3 : arg3.IsWhole) (x2 x3 : Vec F S1250 .i32) :
    bodyRun0.sl.v147 c i arg2 harg2 arg3 harg3 x2 x3 = Cert.Spec.gateWord (loW0 i x2) (hiW0 i x3) 1#32 := by
  unfold bodyRun0.sl.v147 bodyRun0.sl.v146 bodyRun0.sl.v145 bodyRun0.sl.v143 bodyRun0.sl.v144
  rw [lo_eq0, hi_eq0]; rfl
private theorem gate0_2 (c : Dev nD) (i : grid0.Coords) (arg2 : Memref sig .tc .smem S1250 .i32) (harg2 : arg2.IsWhole) (arg3 : Memref sig .tc .smem S1250 .i32) (harg3 : arg3.IsWhole) (x2 x3 : Vec F S1250 .i32) :
    bodyRun0.sl.v152 c i arg2 harg2 arg3 harg3 x2 x3 = Cert.Spec.gateWord (loW0 i x2) (hiW0 i x3) 2#32 := by
  unfold bodyRun0.sl.v152 bodyRun0.sl.v151 bodyRun0.sl.v150 bodyRun0.sl.v148 bodyRun0.sl.v149
  rw [lo_eq0, hi_eq0]; rfl
private theorem gate0_3 (c : Dev nD) (i : grid0.Coords) (arg2 : Memref sig .tc .smem S1250 .i32) (harg2 : arg2.IsWhole) (arg3 : Memref sig .tc .smem S1250 .i32) (harg3 : arg3.IsWhole) (x2 x3 : Vec F S1250 .i32) :
    bodyRun0.sl.v157 c i arg2 harg2 arg3 harg3 x2 x3 = Cert.Spec.gateWord (loW0 i x2) (hiW0 i x3) 3#32 := by
  unfold bodyRun0.sl.v157 bodyRun0.sl.v156 bodyRun0.sl.v155 bodyRun0.sl.v153 bodyRun0.sl.v154
  rw [lo_eq0, hi_eq0]; rfl
private theorem gate0_4 (c : Dev nD) (i : grid0.Coords) (arg2 : Memref sig .tc .smem S1250 .i32) (harg2 : arg2.IsWhole) (arg3 : Memref sig .tc .smem S1250 .i32) (harg3 : arg3.IsWhole) (x2 x3 : Vec F S1250 .i32) :
    bodyRun0.sl.v162 c i arg2 harg2 arg3 harg3 x2 x3 = Cert.Spec.gateWord (loW0 i x2) (hiW0 i x3) 4#32 := by
  unfold bodyRun0.sl.v162 bodyRun0.sl.v161 bodyRun0.sl.v160 bodyRun0.sl.v158 bodyRun0.sl.v159
  rw [lo_eq0, hi_eq0]; rfl
private theorem gate0_5 (c : Dev nD) (i : grid0.Coords) (arg2 : Memref sig .tc .smem S1250 .i32) (harg2 : arg2.IsWhole) (arg3 : Memref sig .tc .smem S1250 .i32) (harg3 : arg3.IsWhole) (x2 x3 : Vec F S1250 .i32) :
    bodyRun0.sl.v167 c i arg2 harg2 arg3 harg3 x2 x3 = Cert.Spec.gateWord (loW0 i x2) (hiW0 i x3) 5#32 := by
  unfold bodyRun0.sl.v167 bodyRun0.sl.v166 bodyRun0.sl.v165 bodyRun0.sl.v163 bodyRun0.sl.v164
  rw [lo_eq0, hi_eq0]; rfl
private theorem gate0_6 (c : Dev nD) (i : grid0.Coords) (arg2 : Memref sig .tc .smem S1250 .i32) (harg2 : arg2.IsWhole) (arg3 : Memref sig .tc .smem S1250 .i32) (harg3 : arg3.IsWhole) (x2 x3 : Vec F S1250 .i32) :
    bodyRun0.sl.v172 c i arg2 harg2 arg3 harg3 x2 x3 = Cert.Spec.gateWord (loW0 i x2) (hiW0 i x3) 6#32 := by
  unfold bodyRun0.sl.v172 bodyRun0.sl.v171 bodyRun0.sl.v170 bodyRun0.sl.v168 bodyRun0.sl.v169
  rw [lo_eq0, hi_eq0]; rfl
private theorem gate0_7 (c : Dev nD) (i : grid0.Coords) (arg2 : Memref sig .tc .smem S1250 .i32) (harg2 : arg2.IsWhole) (arg3 : Memref sig .tc .smem S1250 .i32) (harg3 : arg3.IsWhole) (x2 x3 : Vec F S1250 .i32) :
    bodyRun0.sl.v177 c i arg2 harg2 arg3 harg3 x2 x3 = Cert.Spec.gateWord (loW0 i x2) (hiW0 i x3) 7#32 := by
  unfold bodyRun0.sl.v177 bodyRun0.sl.v176 bodyRun0.sl.v175 bodyRun0.sl.v173 bodyRun0.sl.v174
  rw [lo_eq0, hi_eq0]; rfl
private theorem gate0_8 (c : Dev nD) (i : grid0.Coords) (arg2 : Memref sig .tc .smem S1250 .i32) (harg2 : arg2.IsWhole) (arg3 : Memref sig .tc .smem S1250 .i32) (harg3 : arg3.IsWhole) (x2 x3 : Vec F S1250 .i32) :
    bodyRun0.sl.v182 c i arg2 harg2 arg3 harg3 x2 x3 = Cert.Spec.gateWord (loW0 i x2) (hiW0 i x3) 8#32 := by
  unfold bodyRun0.sl.v182 bodyRun0.sl.v181 bodyRun0.sl.v180 bodyRun0.sl.v178 bodyRun0.sl.v179
  rw [lo_eq0, hi_eq0]; rfl
private theorem gate0_9 (c : Dev nD) (i : grid0.Coords) (arg2 : Memref sig .tc .smem S1250 .i32) (harg2 : arg2.IsWhole) (arg3 : Memref sig .tc .smem S1250 .i32) (harg3 : arg3.IsWhole) (x2 x3 : Vec F S1250 .i32) :
    bodyRun0.sl.v187 c i arg2 harg2 arg3 harg3 x2 x3 = Cert.Spec.gateWord (loW0 i x2) (hiW0 i x3) 9#32 := by
  unfold bodyRun0.sl.v187 bodyRun0.sl.v186 bodyRun0.sl.v185 bodyRun0.sl.v183 bodyRun0.sl.v184
  rw [lo_eq0, hi_eq0]; rfl

private theorem first_eq0 (i : grid0.Coords) : bodyRun0.sl.v4 i = firstW0 i := rfl

private theorem r2_eq0 (c : Dev nD) (arg5 : Memref sig .tc .vmem S256x1 .i32) (harg5 : arg5.IsWhole) (x5 : Vec F S256x1 .i32) :
    bodyRun0.sl.r_2 c arg5 harg5 x5 = k0_pay3 x5 := by
  unfold bodyRun0.sl.r_2
  rw [readAt_unread_ld0, ld_w_col0]

private theorem xj_eq0 (c : Dev nD) (arg4 : Memref sig .tc .vmem S256x1 .i32) (harg4 : arg4.IsWhole)
    (arg6 : Memref sig .tc .vmem S10240x4 .f32) (harg6 : arg6.IsWhole) (x4 : Vec F S256x1 .i32) (x6 : Vec F S10240x4 .f32) :
    bodyRun0.sl.r_10 c arg4 harg4 arg6 harg6 x4 x6 = xj0 x4 x6 := by
  unfold bodyRun0.sl.r_10 bodyRun0.sl.r_9 bodyRun0.sl.r_8 bodyRun0.sl.r_7 bodyRun0.sl.r_6 bodyRun0.sl.r_5 bodyRun0.sl.r_4
    bodyRun0.sl.r_3 bodyRun0.sl.v39 xj0
  simp only [readAt_unread_ld0]
  rw [ld_w_col0 x4]

private theorem v277_eq0 (arg15 : Memref sig .tc .vmem S256x4 .f32) :
    bodyRun0.sl.v277 (F := F) arg15 = k0_pay12 := by
  unfold bodyRun0.sl.v277 bodyRun0.sl.H15_1
  exact View.readCov_unit_zero _ (by funext j; fin_cases j <;> rfl) _ _

/-- The first gated step of the target rows' gather, whose store the run listed with the zero fill. -/
private theorem read_xi_first0 (arg15 : Memref sig .tc .vmem S256x4 .f32) (g : BitVec 1)
    (f15 : BufTy.Contents (Elt F) arg15.view.ty) (w : ((Rect.unit (s := S256x4) ![0, 0] S256x4.size inb_S256x4_S256x4_0_0).shape.Idx → Elt F .f32) → ((Rect.unit (s := S256x4) ![0, 0] S256x4.size inb_S256x4_S256x4_0_0).shape.Idx → Elt F .f32)) :
    arg15.view.read (Elt F) (if _hc : g = 1#1 then arg15.view.writes (Elt F) f15 (⟨(Rect.unit (s := S256x4) ![0, 0] S256x4.size inb_S256x4_S256x4_0_0), w (bodyRun0.sl.v277 arg15)⟩ :: bodyRun0.sl.H15_1) else arg15.view.writes (Elt F) f15 bodyRun0.sl.H15_1)
      = xiStep0 g w k0_pay12 := by
  unfold xiStep0
  by_cases h : g = 1#1
  · rw [dif_pos h, if_pos h, read_writes_cons_whole0 _ _ (by funext j; fin_cases j <;> rfl), v277_eq0]
  · rw [dif_neg h, if_neg h]
    unfold bodyRun0.sl.H15_1
    rw [read_writes_cons_whole0 _ _ (by funext j; fin_cases j <;> rfl)]

/-- A later gated step of it. -/
private theorem read_xi_step0 (arg15 : Memref sig .tc .vmem S256x4 .f32) (g : BitVec 1)
    (w : ((Rect.unit (s := S256x4) ![0, 0] S256x4.size inb_S256x4_S256x4_0_0).shape.Idx → Elt F .f32) → ((Rect.unit (s := S256x4) ![0, 0] S256x4.size inb_S256x4_S256x4_0_0).shape.Idx → Elt F .f32)) (D : BufTy.Contents (Elt F) arg15.view.ty) :
    arg15.view.read (Elt F) (gatedRmw arg15.view g (Rect.unit (s := S256x4) ![0, 0] S256x4.size inb_S256x4_S256x4_0_0) w D) = xiStep0 g w (arg15.view.read (Elt F) D) := by
  rw [read_gatedRmw, gatedVal_whole (by funext j; fin_cases j <;> rfl)]
  rfl

theorem xi_eq0 (c : Dev nD) (i : grid0.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x4 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x4 .f32) (harg15 : arg15.IsWhole) (x2 : Vec F S1250 .i32) (x3 : Vec F S1250 .i32) (x4 : Vec F S256x1 .i32) (x5 : Vec F S256x1 .i32) (x6 : Vec F S10240x4 .f32) (x7 : Vec F S8x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) : (bodyRun0.sl.v188 c i arg2 harg2 arg3 harg3 arg5 harg5 arg6 harg6 arg15 x2 x3 x5 x6 f15) = xi0 i x2 x3 x5 x6 := by
  rw [xi_raw0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, View.readAt_eq_ld, ld_w_rows0]
  rw [read_xi_step0, read_xi_step0, read_xi_step0, read_xi_step0, read_xi_step0, read_xi_step0, read_xi_step0, read_xi_step0, read_xi_step0, read_xi_first0]
  simp only [gate0_0, gate0_1, gate0_2, gate0_3, gate0_4, gate0_5, gate0_6, gate0_7, gate0_8, gate0_9, r2_eq0, readAt_unread_ld0]
  rfl

theorem hid_eq0 (c : Dev nD) (i : grid0.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x4 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x4 .f32) (harg15 : arg15.IsWhole) (x2 : Vec F S1250 .i32) (x3 : Vec F S1250 .i32) (x4 : Vec F S256x1 .i32) (x5 : Vec F S256x1 .i32) (x6 : Vec F S10240x4 .f32) (x7 : Vec F S8x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) : (bodyRun0.sl.r_11 c i arg2 harg2 arg3 harg3 arg4 harg4 arg5 harg5 arg6 harg6 arg7 harg7 arg8 harg8 arg15 x2 x3 x4 x5 x6 x7 x8 f15) = hid0 i x2 x3 x4 x5 x6 x7 x8 := by
  unfold bodyRun0.sl.r_11 hid0
  rw [xi_eq0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, xj_eq0, readAt_unread_ld0, readAt_unread_ld0, ld_w_wA0 x7, ld_w_bias0 x8]

theorem msg_eq0 (c : Dev nD) (i : grid0.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x4 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x4 .f32) (harg15 : arg15.IsWhole) (x2 : Vec F S1250 .i32) (x3 : Vec F S1250 .i32) (x4 : Vec F S256x1 .i32) (x5 : Vec F S256x1 .i32) (x6 : Vec F S10240x4 .f32) (x7 : Vec F S8x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) : (bodyRun0.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) = msg0 i x2 x3 x4 x5 x6 x7 x8 x9 x10 x11 x12 := by
  unfold bodyRun0.sl.r_12 msg0
  rw [hid_eq0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15]
  simp only [readAt_unread_ld0]
  rw [ld_w_wB0 x9, ld_w_bias0 x10, ld_w_wB0 x11, ld_w_bias0 x12]
  rfl

private theorem read_accBase0 (i : grid0.Coords) (arg14 : Memref sig .tc .vmem S10240x128 .f32) (harg14 : arg14.IsWhole)
    (x14 : Vec F S10240x128 .f32) :
    arg14.view.read (Elt F) (if _hc : bodyRun0.sl.v4 i = 1#1 then arg14.view.writes (Elt F) (harg14.unread x14) [⟨(Rect.unit (s := S10240x128) ![0, 0] S10240x128.size inb_S10240x128_S10240x128_0_0), k0_pay2⟩] else harg14.unread x14) = accReset0 i x14 := by
  unfold accReset0
  rw [first_eq0]
  by_cases h : firstW0 i = 1#1
  · rw [dif_pos h, if_pos h, read_writes_cons_whole0 _ _ (by funext j; fin_cases j <;> rfl)]
  · rw [dif_neg h, if_neg h, harg14.read_unread]

/-! ## The four facts -/

/-- The accumulator the body leaves reads `stepAcc0` of what the body was handed. -/
theorem bodyRun0_acc (c : Dev nD) (i : grid0.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x4 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x4 .f32) (harg15 : arg15.IsWhole) (x2 : Vec F S1250 .i32) (x3 : Vec F S1250 .i32) (x4 : Vec F S256x1 .i32) (x5 : Vec F S256x1 .i32) (x6 : Vec F S10240x4 .f32) (x7 : Vec F S8x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    arg14.view.read (Elt F) (bodyRun0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).1 = stepAcc0 i x2 x3 x4 x5 x6 x7 x8 x9 x10 x11 x12 x14 := by
  rw [acc_raw0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15]
  simp only [read_gatedRmw]
  rw [read_accBase0]
  simp only [gate0_0, gate0_1, gate0_2, gate0_3, gate0_4, gate0_5, gate0_6, gate0_7, gate0_8, gate0_9, r2_eq0, hid_eq0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, msg_eq0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, readAt_unread_ld0]
  rw [ld_w_wB0 x9, ld_w_bias0 x10, ld_w_wB0 x11, ld_w_bias0 x12]
  rfl

/-- At the core's last tile the output's staging buffer holds the accumulator the body leaves, as a [1, 10240, 128] array. -/
theorem bodyRun0_out_flush (c : Dev nD) (i : grid0.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x4 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x4 .f32) (harg15 : arg15.IsWhole) (x2 : Vec F S1250 .i32) (x3 : Vec F S1250 .i32) (x4 : Vec F S256x1 .i32) (x5 : Vec F S256x1 .i32) (x6 : Vec F S10240x4 .f32) (x7 : Vec F S8x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) (h : k0_cond22 i = 1#1) :
    arg13.view.read (Elt F) (bodyRun0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).2.2.1 = k0_pay1 (stepAcc0 i x2 x3 x4 x5 x6 x7 x8 x9 x10 x11 x12 x14) := by
  rw [out_raw0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, dif_pos h, read_writes_cons_whole0 _ _ (by funext j; fin_cases j <;> rfl), v266_raw0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15,
    View.readAt_eq_ld, ld_w_acc0, ← acc_raw0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, bodyRun0_acc c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15]

/-- At any other tile the body leaves it as it was. -/
theorem bodyRun0_out_idle (c : Dev nD) (i : grid0.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x4 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x4 .f32) (harg15 : arg15.IsWhole) (x2 : Vec F S1250 .i32) (x3 : Vec F S1250 .i32) (x4 : Vec F S256x1 .i32) (x5 : Vec F S256x1 .i32) (x6 : Vec F S10240x4 .f32) (x7 : Vec F S8x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) (h : ¬ k0_cond22 i = 1#1) :
    (bodyRun0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).2.2.1 = f13 := by
  rw [out_raw0 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, dif_neg h]

/-- At a core's first tile the accumulator is reset before anything reads it: what the tile before left does not matter. -/
theorem stepAcc0_first (i : grid0.Coords) (h : (i 1).val = 0) (x2 x3 : Vec F S1250 .i32) (x4 x5 : Vec F S256x1 .i32)
    (x6 : Vec F S10240x4 .f32) (x7 : Vec F S8x128 .f32) (x8 : Vec F S1x128 .f32) (x9 : Vec F S128x128 .f32)
    (x10 : Vec F S1x128 .f32) (x11 : Vec F S128x128 .f32) (x12 : Vec F S1x128 .f32) (x14 x14' : Vec F S10240x128 .f32) :
    stepAcc0 i x2 x3 x4 x5 x6 x7 x8 x9 x10 x11 x12 x14 = stepAcc0 i x2 x3 x4 x5 x6 x7 x8 x9 x10 x11 x12 x14' := by
  have hf : firstW0 i = 1#1 := by
    unfold firstW0
    rw [h]
    rfl
  have e : ∀ x : Vec F S10240x128 .f32, accReset0 i x = k0_pay2 := fun x => if_pos hf
  unfold stepAcc0
  rw [e x14, e x14']

end Cert.KernelIdeal.Gen

end
-- ==== Proof.RegionDataI0.lean ====
import proofs.«414286_j65627100283289_3_alg».proof.Proof.Gen.KernelIdeal.Launch
import proofs.«414286_j65627100283289_3_alg».proof.Proof.Gen.KernelIdeal.Skeleton
import proofs.«414286_j65627100283289_3_alg».proof.Proof.BodyI0
import proofs.«414286_j65627100283289_3_alg».proof.Proof.StepDefsI0
import proofs.«414286_j65627100283289_3_alg».proof.Proof.StepI0
import Idealize.ShloMosaic.Lib.Pipeline.Frame
import Idealize.ShloMosaic.Lib.Pipeline.FrameBody
import Idealize.ShloMosaic.Lib.Tactic

/-!
# Region 0's proof data and body obligation

Region 0 is the first EdgeConv layer's kernel: a grid of 2 cores × 625 tiles, two prefetched tables (each tile's lowest
and highest target chunk), ten windows (the tile's source and target columns, the padded node table, six parameter
blocks, and one output block per core) and two scratch buffers: the accumulator, carried from tile to tile within a
core, and the target rows, overwritten at every tile.

The proof data name what every staging buffer holds after the body at every point: an input its block; the output the
accumulator after the point, in the output's shape (read only at a core's last tile, where the block is written back;
at every other tile the body leaves the output's buffer as it found it). The invariant carries the accumulator at the
contents `accAt0 n`, the fold of the body's step `stepAcc0` over the points before `n`; the step at a core's first
tile does not read what it finds, so the fold's start is immaterial. The body's own run and the facts about what it
leaves come from the body's modules.

-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 0 (custom_call 0, pipeline 0): its proof data at the entry contents `V` and the tables' contents `a` -/

section Region0

-- the TensorCore's buffer contents when the region is entered, and the admissible contents of the two prefetched tables
variable (V : (c : Dev nD) → (b : Ref sig .tc) → Buf (Elt F) ((c : Thread nD τ).loc b))
variable (a : (pcfg0 (F := F)).Adm)

/-! ## The schedule: the staging memrefs at a point, and the body as the pipeline calls it -/

/-- Each window's current staging memref at point `t`, spelled as the pipeline passes it, and its wholeness. The index
    maps do not read the tables, so nothing here evaluates `a`. -/
abbrev ms0_0 (t : Fin (cfg0 a).N) := spec0_0.stage ((cfg0 a).slots t 0)
abbrev hs0_0 (t : Fin (cfg0 a).N) : (ms0_0 a t).IsWhole := hstage0_0 (((cfg0 a).slots t 0).cast nbuf0_0)
abbrev ms0_1 (t : Fin (cfg0 a).N) := spec0_1.stage ((cfg0 a).slots t 1)
abbrev hs0_1 (t : Fin (cfg0 a).N) : (ms0_1 a t).IsWhole := hstage0_1 (((cfg0 a).slots t 1).cast nbuf0_1)
abbrev ms0_2 (t : Fin (cfg0 a).N) := spec0_2.stage ((cfg0 a).slots t 2)
abbrev hs0_2 (t : Fin (cfg0 a).N) : (ms0_2 a t).IsWhole := hstage0_2 (((cfg0 a).slots t 2).cast nbuf0_2)
abbrev ms0_3 (t : Fin (cfg0 a).N) := spec0_3.stage ((cfg0 a).slots t 3)
abbrev hs0_3 (t : Fin (cfg0 a).N) : (ms0_3 a t).IsWhole := hstage0_3 (((cfg0 a).slots t 3).cast nbuf0_3)
abbrev ms0_4 (t : Fin (cfg0 a).N) := spec0_4.stage ((cfg0 a).slots t 4)
abbrev hs0_4 (t : Fin (cfg0 a).N) : (ms0_4 a t).IsWhole := hstage0_4 (((cfg0 a).slots t 4).cast nbuf0_4)
abbrev ms0_5 (t : Fin (cfg0 a).N) := spec0_5.stage ((cfg0 a).slots t 5)
abbrev hs0_5 (t : Fin (cfg0 a).N) : (ms0_5 a t).IsWhole := hstage0_5 (((cfg0 a).slots t 5).cast nbuf0_5)
abbrev ms0_6 (t : Fin (cfg0 a).N) := spec0_6.stage ((cfg0 a).slots t 6)
abbrev hs0_6 (t : Fin (cfg0 a).N) : (ms0_6 a t).IsWhole := hstage0_6 (((cfg0 a).slots t 6).cast nbuf0_6)
abbrev ms0_7 (t : Fin (cfg0 a).N) := spec0_7.stage ((cfg0 a).slots t 7)
abbrev hs0_7 (t : Fin (cfg0 a).N) : (ms0_7 a t).IsWhole := hstage0_7 (((cfg0 a).slots t 7).cast nbuf0_7)
abbrev ms0_8 (t : Fin (cfg0 a).N) := spec0_8.stage ((cfg0 a).slots t 8)
abbrev hs0_8 (t : Fin (cfg0 a).N) : (ms0_8 a t).IsWhole := hstage0_8 (((cfg0 a).slots t 8).cast nbuf0_8)
abbrev ms0_9 (t : Fin (cfg0 a).N) := spec0_9.stage ((cfg0 a).slots t 9)
abbrev hs0_9 (t : Fin (cfg0 a).N) : (ms0_9 a t).IsWhole := hstage0_9 (((cfg0 a).slots t 9).cast nbuf0_9)

/-- The body at point `t`: the two tables whole, the ten windows' current staging memrefs, the two scratch buffers whole. -/
abbrev bodyAt0 (t : Fin (cfg0 a).N) :=
  cc0__edgeconv_kernel (F := F) (grid0.coords t) (Memref.whole main_v31) (Memref.isWhole_whole _) (Memref.whole main_v39) (Memref.isWhole_whole _)
    (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (ms0_8 a t) (hs0_8 a t) (ms0_9 a t) (hs0_9 a t)
    (Memref.whole cc0_scratch0) (Memref.isWhole_whole _) (Memref.whole cc0_scratch1) (Memref.isWhole_whole _)

/-- It is what the body table runs at the pipeline's argument for the point. -/
theorem bodyAt0_eq (t : Fin (cfg0 a).N) :
    defs₀ (F := F) .tc (cfg0 a).body ((cfg0 a).bodyArgs t ((cfg0 a).slots t)) = bodyAt0 a t := rfl

/-- The output window is written back exactly where the body's last conditional fires: elsewhere no write-back. -/
theorem wbClosed0_9 : ∀ t : Fin grid0.N, k0_cond22 (grid0.coords t) = 1#1 ∨
    (t.val + 1 = grid0.N || decide (∃ h : t.val + 1 < grid0.N, cc0_transform_9 (grid0.coords ⟨t.val + 1, h⟩) ≠ cc0_transform_9 (grid0.coords t))) = false := by
  decide +kernel

theorem flushNot0_9 (t : Fin (cfg0 a).N) (h : ¬ k0_cond22 (grid0.coords t) = 1#1) : ((cfg0 a).win (9 : Fin 10)).flush t = false := by
  have := (wbClosed0_9 t).resolve_left h
  show (true && _) = false
  rw [Bool.true_and]; exact this

/-- Where the conditional fires the window is live, elsewhere idle. -/
theorem idleLive0_9 (t : Fin (cfg0 a).N) (h : k0_cond22 (grid0.coords t) = 1#1) : (cfg0 a).idle (9 : Fin 10) ((cfg0 a).grid.coords t) = false := by
  show (!(k0_cond22 (grid0.coords t) == 1#1)) = false
  rw [h]; rfl
theorem idleNot0_9 (t : Fin (cfg0 a).N) (h : ¬ k0_cond22 (grid0.coords t) = 1#1) : (cfg0 a).idle (9 : Fin 10) ((cfg0 a).grid.coords t) = true := by
  show (!(k0_cond22 (grid0.coords t) == 1#1)) = true
  rw [Bool.not_eq_true', beq_eq_false_iff_ne]; exact h

/-- At the first point of the grid the tile coordinate is zero. -/
theorem coords0_first (t : Fin (cfg0 a).N) (h : t.val = 0) : ((grid0.coords t) 1).val = 0 := by
  obtain ⟨n, hn⟩ := t
  simp only at h; subst h
  exact (by decide +kernel : ((grid0.coords (⟨0, by decide⟩ : Fin grid0.N)) 1).val = 0)

/-! ## The windows' blocks -/

/-- Window `w`'s block at point `t`, read off its array as the region finds it (`V`). -/
def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

/-- An input window's current staging buffer holds its block at every point, fetched there or not, for ANY proof data
    whose array is `V`'s and whose body leaves the block in place: unfetched, the block index has not moved. -/
theorem before0_0_of {c : Dev nD} (dat : Dat τ (Elt F) Unit ℕ (Pipeline.UD sig nD τ) ℕ (cfg0 a) c) (hA : dat.A (0 : Fin 10) = V c (Pipeline.arrRef spec0 (0 : Fin 10)))
    (hafter : ∀ t, dat.after (0 : Fin 10) t = iblk0 V a c (0 : Fin 10) t) (t : Fin (cfg0 a).N) (d) : dat.before (0 : Fin 10) t d = iblk0 V a c (0 : Fin 10) t := by
  have hblk : ∀ t, dat.blockOf (0 : Fin 10) t = iblk0 V a c (0 : Fin 10) t := fun t => by unfold Dat.blockOf iblk0; rw [hA]
  have hkeep : ∀ t, ((cfg0 a).win (0 : Fin 10)).cut ((cfg0 a).grid.coords t) (dat.after (0 : Fin 10) t) = dat.blockOf (0 : Fin 10) t := fun t => by
    rw [hafter, hblk]
  rw [dat.before_in_eq_fetched (0 : Fin 10) rfl (fun _ => rfl) (fun _ _ _ => rfl) hkeep t d]
  show ((cfg0 a).win (0 : Fin 10)).fill _ d (dat.blockOf (0 : Fin 10) t) = _
  rw [hblk]; rfl
theorem before0_1_of {c : Dev nD} (dat : Dat τ (Elt F) Unit ℕ (Pipeline.UD sig nD τ) ℕ (cfg0 a) c) (hA : dat.A (1 : Fin 10) = V c (Pipeline.arrRef spec0 (1 : Fin 10)))
    (hafter : ∀ t, dat.after (1 : Fin 10) t = iblk0 V a c (1 : Fin 10) t) (t : Fin (cfg0 a).N) (d) : dat.before (1 : Fin 10) t d = iblk0 V a c (1 : Fin 10) t := by
  have hblk : ∀ t, dat.blockOf (1 : Fin 10) t = iblk0 V a c (1 : Fin 10) t := fun t => by unfold Dat.blockOf iblk0; rw [hA]
  have hkeep : ∀ t, ((cfg0 a).win (1 : Fin 10)).cut ((cfg0 a).grid.coords t) (dat.after (1 : Fin 10) t) = dat.blockOf (1 : Fin 10) t := fun t => by
    rw [hafter, hblk]
  rw [dat.before_in_eq_fetched (1 : Fin 10) rfl (fun _ => rfl) (fun _ _ _ => rfl) hkeep t d]
  show ((cfg0 a).win (1 : Fin 10)).fill _ d (dat.blockOf (1 : Fin 10) t) = _
  rw [hblk]; rfl
theorem before0_2_of {c : Dev nD} (dat : Dat τ (Elt F) Unit ℕ (Pipeline.UD sig nD τ) ℕ (cfg0 a) c) (hA : dat.A (2 : Fin 10) = V c (Pipeline.arrRef spec0 (2 : Fin 10)))
    (hafter : ∀ t, dat.after (2 : Fin 10) t = iblk0 V a c (2 : Fin 10) t) (t : Fin (cfg0 a).N) (d) : dat.before (2 : Fin 10) t d = iblk0 V a c (2 : Fin 10) t := by
  have hblk : ∀ t, dat.blockOf (2 : Fin 10) t = iblk0 V a c (2 : Fin 10) t := fun t => by unfold Dat.blockOf iblk0; rw [hA]
  have hkeep : ∀ t, ((cfg0 a).win (2 : Fin 10)).cut ((cfg0 a).grid.coords t) (dat.after (2 : Fin 10) t) = dat.blockOf (2 : Fin 10) t := fun t => by
    rw [hafter, hblk]
  rw [dat.before_in_eq_fetched (2 : Fin 10) rfl (fun _ => rfl) (fun _ _ _ => rfl) hkeep t d]
  show ((cfg0 a).win (2 : Fin 10)).fill _ d (dat.blockOf (2 : Fin 10) t) = _
  rw [hblk]; rfl
theorem before0_3_of {c : Dev nD} (dat : Dat τ (Elt F) Unit ℕ (Pipeline.UD sig nD τ) ℕ (cfg0 a) c) (hA : dat.A (3 : Fin 10) = V c (Pipeline.arrRef spec0 (3 : Fin 10)))
    (hafter : ∀ t, dat.after (3 : Fin 10) t = iblk0 V a c (3 : Fin 10) t) (t : Fin (cfg0 a).N) (d) : dat.before (3 : Fin 10) t d = iblk0 V a c (3 : Fin 10) t := by
  have hblk : ∀ t, dat.blockOf (3 : Fin 10) t = iblk0 V a c (3 : Fin 10) t := fun t => by unfold Dat.blockOf iblk0; rw [hA]
  have hkeep : ∀ t, ((cfg0 a).win (3 : Fin 10)).cut ((cfg0 a).grid.coords t) (dat.after (3 : Fin 10) t) = dat.blockOf (3 : Fin 10) t := fun t => by
    rw [hafter, hblk]
  rw [dat.before_in_eq_fetched (3 : Fin 10) rfl (fun _ => rfl) (fun _ _ _ => rfl) hkeep t d]
  show ((cfg0 a).win (3 : Fin 10)).fill _ d (dat.blockOf (3 : Fin 10) t) = _
  rw [hblk]; rfl
theorem before0_4_of {c : Dev nD} (dat : Dat τ (Elt F) Unit ℕ (Pipeline.UD sig nD τ) ℕ (cfg0 a) c) (hA : dat.A (4 : Fin 10) = V c (Pipeline.arrRef spec0 (4 : Fin 10)))
    (hafter : ∀ t, dat.after (4 : Fin 10) t = iblk0 V a c (4 : Fin 10) t) (t : Fin (cfg0 a).N) (d) : dat.before (4 : Fin 10) t d = iblk0 V a c (4 : Fin 10) t := by
  have hblk : ∀ t, dat.blockOf (4 : Fin 10) t = iblk0 V a c (4 : Fin 10) t := fun t => by unfold Dat.blockOf iblk0; rw [hA]
  have hkeep : ∀ t, ((cfg0 a).win (4 : Fin 10)).cut ((cfg0 a).grid.coords t) (dat.after (4 : Fin 10) t) = dat.blockOf (4 : Fin 10) t := fun t => by
    rw [hafter, hblk]
  rw [dat.before_in_eq_fetched (4 : Fin 10) rfl (fun _ => rfl) (fun _ _ _ => rfl) hkeep t d]
  show ((cfg0 a).win (4 : Fin 10)).fill _ d (dat.blockOf (4 : Fin 10) t) = _
  rw [hblk]; rfl
theorem before0_5_of {c : Dev nD} (dat : Dat τ (Elt F) Unit ℕ (Pipeline.UD sig nD τ) ℕ (cfg0 a) c) (hA : dat.A (5 : Fin 10) = V c (Pipeline.arrRef spec0 (5 : Fin 10)))
    (hafter : ∀ t, dat.after (5 : Fin 10) t = iblk0 V a c (5 : Fin 10) t) (t : Fin (cfg0 a).N) (d) : dat.before (5 : Fin 10) t d = iblk0 V a c (5 : Fin 10) t := by
  have hblk : ∀ t, dat.blockOf (5 : Fin 10) t = iblk0 V a c (5 : Fin 10) t := fun t => by unfold Dat.blockOf iblk0; rw [hA]
  have hkeep : ∀ t, ((cfg0 a).win (5 : Fin 10)).cut ((cfg0 a).grid.coords t) (dat.after (5 : Fin 10) t) = dat.blockOf (5 : Fin 10) t := fun t => by
    rw [hafter, hblk]
  rw [dat.before_in_eq_fetched (5 : Fin 10) rfl (fun _ => rfl) (fun _ _ _ => rfl) hkeep t d]
  show ((cfg0 a).win (5 : Fin 10)).fill _ d (dat.blockOf (5 : Fin 10) t) = _
  rw [hblk]; rfl
theorem before0_6_of {c : Dev nD} (dat : Dat τ (Elt F) Unit ℕ (Pipeline.UD sig nD τ) ℕ (cfg0 a) c) (hA : dat.A (6 : Fin 10) = V c (Pipeline.arrRef spec0 (6 : Fin 10)))
    (hafter : ∀ t, dat.after (6 : Fin 10) t = iblk0 V a c (6 : Fin 10) t) (t : Fin (cfg0 a).N) (d) : dat.before (6 : Fin 10) t d = iblk0 V a c (6 : Fin 10) t := by
  have hblk : ∀ t, dat.blockOf (6 : Fin 10) t = iblk0 V a c (6 : Fin 10) t := fun t => by unfold Dat.blockOf iblk0; rw [hA]
  have hkeep : ∀ t, ((cfg0 a).win (6 : Fin 10)).cut ((cfg0 a).grid.coords t) (dat.after (6 : Fin 10) t) = dat.blockOf (6 : Fin 10) t := fun t => by
    rw [hafter, hblk]
  rw [dat.before_in_eq_fetched (6 : Fin 10) rfl (fun _ => rfl) (fun _ _ _ => rfl) hkeep t d]
  show ((cfg0 a).win (6 : Fin 10)).fill _ d (dat.blockOf (6 : Fin 10) t) = _
  rw [hblk]; rfl
theorem before0_7_of {c : Dev nD} (dat : Dat τ (Elt F) Unit ℕ (Pipeline.UD sig nD τ) ℕ (cfg0 a) c) (hA : dat.A (7 : Fin 10) = V c (Pipeline.arrRef spec0 (7 : Fin 10)))
    (hafter : ∀ t, dat.after (7 : Fin 10) t = iblk0 V a c (7 : Fin 10) t) (t : Fin (cfg0 a).N) (d) : dat.before (7 : Fin 10) t d = iblk0 V a c (7 : Fin 10) t := by
  have hblk : ∀ t, dat.blockOf (7 : Fin 10) t = iblk0 V a c (7 : Fin 10) t := fun t => by unfold Dat.blockOf iblk0; rw [hA]
  have hkeep : ∀ t, ((cfg0 a).win (7 : Fin 10)).cut ((cfg0 a).grid.coords t) (dat.after (7 : Fin 10) t) = dat.blockOf (7 : Fin 10) t := fun t => by
    rw [hafter, hblk]
  rw [dat.before_in_eq_fetched (7 : Fin 10) rfl (fun _ => rfl) (fun _ _ _ => rfl) hkeep t d]
  show ((cfg0 a).win (7 : Fin 10)).fill _ d (dat.blockOf (7 : Fin 10) t) = _
  rw [hblk]; rfl
theorem before0_8_of {c : Dev nD} (dat : Dat τ (Elt F) Unit ℕ (Pipeline.UD sig nD τ) ℕ (cfg0 a) c) (hA : dat.A (8 : Fin 10) = V c (Pipeline.arrRef spec0 (8 : Fin 10)))
    (hafter : ∀ t, dat.after (8 : Fin 10) t = iblk0 V a c (8 : Fin 10) t) (t : Fin (cfg0 a).N) (d) : dat.before (8 : Fin 10) t d = iblk0 V a c (8 : Fin 10) t := by
  have hblk : ∀ t, dat.blockOf (8 : Fin 10) t = iblk0 V a c (8 : Fin 10) t := fun t => by unfold Dat.blockOf iblk0; rw [hA]
  have hkeep : ∀ t, ((cfg0 a).win (8 : Fin 10)).cut ((cfg0 a).grid.coords t) (dat.after (8 : Fin 10) t) = dat.blockOf (8 : Fin 10) t := fun t => by
    rw [hafter, hblk]
  rw [dat.before_in_eq_fetched (8 : Fin 10) rfl (fun _ => rfl) (fun _ _ _ => rfl) hkeep t d]
  show ((cfg0 a).win (8 : Fin 10)).fill _ d (dat.blockOf (8 : Fin 10) t) = _
  rw [hblk]; rfl

/-! ## The accumulator, point by point -/

/-- The two tables' contents as the body reads them. -/
abbrev tab0_0 : Vec F S1250 .i32 := a.1 0
abbrev tab0_1 : Vec F S1250 .i32 := a.1 1

/-- The accumulator before point `n` (after point `n - 1`): anything before the first point, then one body step per
    point over the point's blocks and what the point before left. -/
def accAt0 (c : Dev nD) : ℕ → Vec F S10240x128 .f32
  | 0 => (Memref.whole cc0_scratch0).view.read (Elt F) (V c cc0_scratch0)
  | n + 1 =>
    if h : n < (cfg0 a).N then
      stepAcc0 (grid0.coords ⟨n, h⟩) (tab0_0 a) (tab0_1 a) (iblk0 V a c (0 : Fin 10) ⟨n, h⟩) (iblk0 V a c (1 : Fin 10) ⟨n, h⟩) (iblk0 V a c (2 : Fin 10) ⟨n, h⟩) (iblk0 V a c (3 : Fin 10) ⟨n, h⟩) (iblk0 V a c (4 : Fin 10) ⟨n, h⟩) (iblk0 V a c (5 : Fin 10) ⟨n, h⟩) (iblk0 V a c (6 : Fin 10) ⟨n, h⟩) (iblk0 V a c (7 : Fin 10) ⟨n, h⟩) (iblk0 V a c (8 : Fin 10) ⟨n, h⟩) (accAt0 c n)
    else accAt0 c n

theorem accAt0_succ (c : Dev nD) (t : Fin (cfg0 a).N) :
    accAt0 V a c (t.val + 1)
      = stepAcc0 (grid0.coords t) (tab0_0 a) (tab0_1 a) (iblk0 V a c (0 : Fin 10) t) (iblk0 V a c (1 : Fin 10) t) (iblk0 V a c (2 : Fin 10) t) (iblk0 V a c (3 : Fin 10) t) (iblk0 V a c (4 : Fin 10) t) (iblk0 V a c (5 : Fin 10) t) (iblk0 V a c (6 : Fin 10) t) (iblk0 V a c (7 : Fin 10) t) (iblk0 V a c (8 : Fin 10) t) (accAt0 V a c t.val) := by
  obtain ⟨n, hn⟩ := t
  exact dif_pos hn

/-! ## The invariant and the proof data -/

/-- The invariant before point `n`: the two tables held whole at `a`; the accumulator scratch at some contents, which
    after the first point are `accAt0 n`; the target-row scratch at anything; every other scoped buffer that is no
    staging buffer, unopened; the generator register at some state. -/
def Phi0 (c : Dev nD) (n : ℕ) : sProp 𝕄 :=
  iprop(Pipeline.prefHeld pre0 c (fun _ => fullShare) a.1
    ∗ (∃ x14 : Vec F S10240x128 .f32, ⌜n ≠ 0 → x14 = accAt0 V a c n⌝ ∗ owns (c : Thread nD τ) (Memref.whole cc0_scratch0) fullShare x14)
    ∗ (∃ d, owns (c : Thread nD τ) (Memref.whole cc0_scratch1) fullShare d)
    ∗ Pipeline.scopedRestBut spec0 c [cc0_scratch0, cc0_scratch1]
    ∗ (∃ r, prngReg c r))

/-- The proof data of pipeline 0 on core `c`: the arrays as the region finds them (`V`); after the body at point `t` each
    input's buffer at its block and the output's at the accumulator after the point, cast to the output's shape (read only
    where the block is written back); the invariant `Phi0`; nothing owed; full shares. -/
def dat0 (c : Dev nD) : Dat τ (Elt F) Unit ℕ (Pipeline.UD sig nD τ) ℕ (cfg0 a) c where
  A w := V c (Pipeline.arrRef spec0 w)
  after w t := match w with
    | ⟨0, _⟩ => iblk0 V a c (0 : Fin 10) t
    | ⟨1, _⟩ => iblk0 V a c (1 : Fin 10) t
    | ⟨2, _⟩ => iblk0 V a c (2 : Fin 10) t
    | ⟨3, _⟩ => iblk0 V a c (3 : Fin 10) t
    | ⟨4, _⟩ => iblk0 V a c (4 : Fin 10) t
    | ⟨5, _⟩ => iblk0 V a c (5 : Fin 10) t
    | ⟨6, _⟩ => iblk0 V a c (6 : Fin 10) t
    | ⟨7, _⟩ => iblk0 V a c (7 : Fin 10) t
    | ⟨8, _⟩ => iblk0 V a c (8 : Fin 10) t
    | ⟨9, _⟩ => k0_pay1 (accAt0 V a c (t.val + 1))
  Φ t := Phi0 V a c t.val
  q _ := fullShare
  owed _ := 0

theorem A_eq0 (c : Dev nD) (w : Fin (cfg0 a).W) : (dat0 V a c).A w = V c (Pipeline.arrRef spec0 w) := by
  dsimp only [dat0]

theorem after0_0 (c : Dev nD) (t : Fin (cfg0 a).N) : (dat0 V a c).after (0 : Fin 10) t = iblk0 V a c (0 : Fin 10) t := by dsimp only [dat0]
theorem after0_1 (c : Dev nD) (t : Fin (cfg0 a).N) : (dat0 V a c).after (1 : Fin 10) t = iblk0 V a c (1 : Fin 10) t := by dsimp only [dat0]
theorem after0_2 (c : Dev nD) (t : Fin (cfg0 a).N) : (dat0 V a c).after (2 : Fin 10) t = iblk0 V a c (2 : Fin 10) t := by dsimp only [dat0]
theorem after0_3 (c : Dev nD) (t : Fin (cfg0 a).N) : (dat0 V a c).after (3 : Fin 10) t = iblk0 V a c (3 : Fin 10) t := by dsimp only [dat0]
theorem after0_4 (c : Dev nD) (t : Fin (cfg0 a).N) : (dat0 V a c).after (4 : Fin 10) t = iblk0 V a c (4 : Fin 10) t := by dsimp only [dat0]
theorem after0_5 (c : Dev nD) (t : Fin (cfg0 a).N) : (dat0 V a c).after (5 : Fin 10) t = iblk0 V a c (5 : Fin 10) t := by dsimp only [dat0]
theorem after0_6 (c : Dev nD) (t : Fin (cfg0 a).N) : (dat0 V a c).after (6 : Fin 10) t = iblk0 V a c (6 : Fin 10) t := by dsimp only [dat0]
theorem after0_7 (c : Dev nD) (t : Fin (cfg0 a).N) : (dat0 V a c).after (7 : Fin 10) t = iblk0 V a c (7 : Fin 10) t := by dsimp only [dat0]
theorem after0_8 (c : Dev nD) (t : Fin (cfg0 a).N) : (dat0 V a c).after (8 : Fin 10) t = iblk0 V a c (8 : Fin 10) t := by dsimp only [dat0]
theorem after0_9 (c : Dev nD) (t : Fin (cfg0 a).N) : (dat0 V a c).after (9 : Fin 10) t = k0_pay1 (accAt0 V a c (t.val + 1)) := by dsimp only [dat0]

theorem before0_0 (c : Dev nD) (t : Fin (cfg0 a).N) (d) : (dat0 V a c).before (0 : Fin 10) t d = iblk0 V a c (0 : Fin 10) t :=
  before0_0_of V a (dat0 V a c) (A_eq0 V a c (0 : Fin 10)) (after0_0 V a c) t d
theorem before0_1 (c : Dev nD) (t : Fin (cfg0 a).N) (d) : (dat0 V a c).before (1 : Fin 10) t d = iblk0 V a c (1 : Fin 10) t :=
  before0_1_of V a (dat0 V a c) (A_eq0 V a c (1 : Fin 10)) (after0_1 V a c) t d
theorem before0_2 (c : Dev nD) (t : Fin (cfg0 a).N) (d) : (dat0 V a c).before (2 : Fin 10) t d = iblk0 V a c (2 : Fin 10) t :=
  before0_2_of V a (dat0 V a c) (A_eq0 V a c (2 : Fin 10)) (after0_2 V a c) t d
theorem before0_3 (c : Dev nD) (t : Fin (cfg0 a).N) (d) : (dat0 V a c).before (3 : Fin 10) t d = iblk0 V a c (3 : Fin 10) t :=
  before0_3_of V a (dat0 V a c) (A_eq0 V a c (3 : Fin 10)) (after0_3 V a c) t d
theorem before0_4 (c : Dev nD) (t : Fin (cfg0 a).N) (d) : (dat0 V a c).before (4 : Fin 10) t d = iblk0 V a c (4 : Fin 10) t :=
  before0_4_of V a (dat0 V a c) (A_eq0 V a c (4 : Fin 10)) (after0_4 V a c) t d
theorem before0_5 (c : Dev nD) (t : Fin (cfg0 a).N) (d) : (dat0 V a c).before (5 : Fin 10) t d = iblk0 V a c (5 : Fin 10) t :=
  before0_5_of V a (dat0 V a c) (A_eq0 V a c (5 : Fin 10)) (after0_5 V a c) t d
theorem before0_6 (c : Dev nD) (t : Fin (cfg0 a).N) (d) : (dat0 V a c).before (6 : Fin 10) t d = iblk0 V a c (6 : Fin 10) t :=
  before0_6_of V a (dat0 V a c) (A_eq0 V a c (6 : Fin 10)) (after0_6 V a c) t d
theorem before0_7 (c : Dev nD) (t : Fin (cfg0 a).N) (d) : (dat0 V a c).before (7 : Fin 10) t d = iblk0 V a c (7 : Fin 10) t :=
  before0_7_of V a (dat0 V a c) (A_eq0 V a c (7 : Fin 10)) (after0_7 V a c) t d
theorem before0_8 (c : Dev nD) (t : Fin (cfg0 a).N) (d) : (dat0 V a c).before (8 : Fin 10) t d = iblk0 V a c (8 : Fin 10) t :=
  before0_8_of V a (dat0 V a c) (A_eq0 V a c (8 : Fin 10)) (after0_8 V a c) t d

theorem Phi0_castSucc (c : Dev nD) (t : Fin (cfg0 a).N) : (dat0 V a c).Φ t.castSucc = Phi0 V a c t.val := by
  dsimp only [dat0]; simp only [Fin.coe_castSucc]
theorem Phi0_succ (c : Dev nD) (t : Fin (cfg0 a).N) : (dat0 V a c).Φ t.succ = Phi0 V a c (t.val + 1) := by
  dsimp only [dat0]; simp only [Fin.val_succ]

/-! ## The body's run at a point -/

/-- The body's run at point `t`: the tables, the point's staging memrefs and blocks, the two scratch buffers; over the
    accumulator's contents `x14` and the raw contents `f13`, `f15` of the two buffers it is handed at anything. -/
abbrev run0 (c : Dev nD) (t : Fin (cfg0 a).N) (x14 : Vec F S10240x128 .f32)
    (f13 : BufTy.Contents (Elt F) (ms0_9 a t).view.ty) (f15 : BufTy.Contents (Elt F) (Memref.whole cc0_scratch1 : Memref sig .tc _ _ _).view.ty) :=
  bodyRun0 (F := F) c (grid0.coords t) (Memref.whole main_v31) (Memref.isWhole_whole _) (Memref.whole main_v39) (Memref.isWhole_whole _) (ms0_0 a t) (hs0_0 a t) (ms0_1 a t) (hs0_1 a t) (ms0_2 a t) (hs0_2 a t) (ms0_3 a t) (hs0_3 a t) (ms0_4 a t) (hs0_4 a t) (ms0_5 a t) (hs0_5 a t) (ms0_6 a t) (hs0_6 a t) (ms0_7 a t) (hs0_7 a t) (ms0_8 a t) (hs0_8 a t) (ms0_9 a t) (hs0_9 a t) (Memref.whole cc0_scratch0) (Memref.isWhole_whole _) (Memref.whole cc0_scratch1) (Memref.isWhole_whole _) (tab0_0 a) (tab0_1 a) (iblk0 V a c (0 : Fin 10) t) (iblk0 V a c (1 : Fin 10) t) (iblk0 V a c (2 : Fin 10) t) (iblk0 V a c (3 : Fin 10) t) (iblk0 V a c (4 : Fin 10) t) (iblk0 V a c (5 : Fin 10) t) (iblk0 V a c (6 : Fin 10) t) (iblk0 V a c (7 : Fin 10) t) (iblk0 V a c (8 : Fin 10) t) x14 f13 f15

/-- One step from what the invariant knows of the accumulator lands on the next named contents: at the first point the
    step does not read what it finds. -/
theorem acc0_step (c : Dev nD) (t : Fin (cfg0 a).N) (x14 : Vec F S10240x128 .f32)
    (hx : t.val ≠ 0 → x14 = accAt0 V a c t.val) :
    stepAcc0 (grid0.coords t) (tab0_0 a) (tab0_1 a) (iblk0 V a c (0 : Fin 10) t) (iblk0 V a c (1 : Fin 10) t) (iblk0 V a c (2 : Fin 10) t) (iblk0 V a c (3 : Fin 10) t) (iblk0 V a c (4 : Fin 10) t) (iblk0 V a c (5 : Fin 10) t) (iblk0 V a c (6 : Fin 10) t) (iblk0 V a c (7 : Fin 10) t) (iblk0 V a c (8 : Fin 10) t) x14 = accAt0 V a c (t.val + 1) := by
  rw [accAt0_succ]
  by_cases h0 : t.val = 0
  · exact stepAcc0_first _ (coords0_first a t h0) _ _ _ _ _ _ _ _ _ _ _ _ _
  · rw [hx h0]

/-- What the body leaves in the output's staging buffer is what the obligation asks of it: where the block is written
    back, the accumulator after the point in the output's shape; elsewhere, the buffer as it was found. -/
theorem leaves0_9 (c : Dev nD) (t : Fin (cfg0 a).N) (x14 : Vec F S10240x128 .f32)
    (hx : t.val ≠ 0 → x14 = accAt0 V a c t.val) (d9) (f13 : BufTy.Contents (Elt F) (ms0_9 a t).view.ty)
    (hf13 : (ms0_9 a t).view.read (Elt F) f13 = (dat0 V a c).before (9 : Fin 10) t d9) (f15) :
    ((ms0_9 a t).view.loc (c : Thread nD τ) ↦[(ms0_9 a t).view.set]{fullShare} (run0 V a c t x14 f13 f15).2.2.1 : sProp 𝕄)
      ⊢ (dat0 V a c).leavesExact (9 : Fin 10) t := by
  by_cases hc : k0_cond22 (grid0.coords t) = 1#1
  · have hlive : (dat0 V a c).leavesExact (9 : Fin 10) t = owns (c : Thread nD τ) (ms0_9 a t) fullShare ((dat0 V a c).after (9 : Fin 10) t) := by
      unfold Dat.leavesExact; rw [idleLive0_9 a t hc]
    rw [hlive, after0_9]
    unfold owns
    iintro H; iexists _; isplitr
    swap; · iexact H
    ipureintro
    exact (bodyRun0_out_flush _ _ _ _ _ _ _ _ _ _ _ _ _ _ _ _ _ _ _ _ _ _ _ _ _ _ _ _ _ _ _ _ _ _ _ _ _ _ _ _ _ _ _ _ hc).trans (congrArg k0_pay1 (acc0_step V a c t x14 hx))
  · rw [Dat.leavesExact_idle _ (9 : Fin 10) t (idleNot0_9 a t hc) (flushNot0_9 a t hc),
      show (run0 V a c t x14 f13 f15).2.2.1 = f13 from bodyRun0_out_idle _ _ _ _ _ _ _ _ _ _ _ _ _ _ _ _ _ _ _ _ _ _ _ _ _ _ _ _ _ _ _ _ _ _ _ _ _ _ _ _ _ _ _ _ hc]
    unfold owns
    iintro H; iexists d9, f13; isplitr
    · ipureintro; exact hf13
    iexact H

/-- Owning a memref at contents `X` is holding its elements at some raw contents that read `X`. -/
theorem owns_open0 (c : Dev nD) {sp : Space} {sh : Shape} {e : EltTy} (M : Memref sig .tc sp sh e) (X : sh.Idx → Elt F e) :
    (owns (c : Thread nD τ) M fullShare X : sProp 𝕄)
      ⊢ iprop(∃ f, ⌜M.view.read (Elt F) f = X⌝ ∗ (M.view.loc (c : Thread nD τ) ↦[M.view.set]{fullShare} f)) := by
  unfold owns; exact .rfl

/-- The tables held whole are the body's two table arguments owned at their contents. -/
theorem prefHeld0_eq (c : Dev nD) :
    (Pipeline.prefHeld pre0 c (fun _ => fullShare) a.1 : sProp 𝕄)
      = iprop(owns (c : Thread nD τ) (Memref.whole main_v31) fullShare (tab0_0 a) ∗ owns (c : Thread nD τ) (Memref.whole main_v39) fullShare (tab0_1 a)) := by
  unfold Pipeline.prefHeld
  rw [bigSep_univ_eq_bigSepL [(0 : Fin 2), (1 : Fin 2)] (by decide) (by decide), owns_whole, owns_whole]
  rfl

/-! ## The body obligation, at a generic point -/

/-- What the body is called with at point `t` (the windows one by one), -/
def bodyPre0 (c : Dev nD) (t : Fin (cfg0 a).N) : sProp 𝕄 :=
  iprop((dat0 V a c).Φ t.castSucc ∗ (dat0 V a c).owesAt () t.castSucc
    ∗ (∃ d, owns (c : Thread nD τ) (ms0_0 a t) fullShare ((dat0 V a c).before (0 : Fin 10) t d))
    ∗ (∃ d, owns (c : Thread nD τ) (ms0_1 a t) fullShare ((dat0 V a c).before (1 : Fin 10) t d))
    ∗ (∃ d, owns (c : Thread nD τ) (ms0_2 a t) fullShare ((dat0 V a c).before (2 : Fin 10) t d))
    ∗ (∃ d, owns (c : Thread nD τ) (ms0_3 a t) fullShare ((dat0 V a c).before (3 : Fin 10) t d))
    ∗ (∃ d, owns (c : Thread nD τ) (ms0_4 a t) fullShare ((dat0 V a c).before (4 : Fin 10) t d))
    ∗ (∃ d, owns (c : Thread nD τ) (ms0_5 a t) fullShare ((dat0 V a c).before (5 : Fin 10) t d))
    ∗ (∃ d, owns (c : Thread nD τ) (ms0_6 a t) fullShare ((dat0 V a c).before (6 : Fin 10) t d))
    ∗ (∃ d, owns (c : Thread nD τ) (ms0_7 a t) fullShare ((dat0 V a c).before (7 : Fin 10) t d))
    ∗ (∃ d, owns (c : Thread nD τ) (ms0_8 a t) fullShare ((dat0 V a c).before (8 : Fin 10) t d))
    ∗ (∃ d, owns (c : Thread nD τ) (ms0_9 a t) fullShare ((dat0 V a c).before (9 : Fin 10) t d)))

/-- and what it returns: each input's buffer at its block; the output's as the obligation states it, live or idle. -/
def bodyPost0 (c : Dev nD) (t : Fin (cfg0 a).N) : sProp 𝕄 :=
  iprop((dat0 V a c).Φ t.succ ∗ (dat0 V a c).owesAt () t.succ
    ∗ owns (c : Thread nD τ) (ms0_0 a t) fullShare ((dat0 V a c).after (0 : Fin 10) t)
    ∗ owns (c : Thread nD τ) (ms0_1 a t) fullShare ((dat0 V a c).after (1 : Fin 10) t)
    ∗ owns (c : Thread nD τ) (ms0_2 a t) fullShare ((dat0 V a c).after (2 : Fin 10) t)
    ∗ owns (c : Thread nD τ) (ms0_3 a t) fullShare ((dat0 V a c).after (3 : Fin 10) t)
    ∗ owns (c : Thread nD τ) (ms0_4 a t) fullShare ((dat0 V a c).after (4 : Fin 10) t)
    ∗ owns (c : Thread nD τ) (ms0_5 a t) fullShare ((dat0 V a c).after (5 : Fin 10) t)
    ∗ owns (c : Thread nD τ) (ms0_6 a t) fullShare ((dat0 V a c).after (6 : Fin 10) t)
    ∗ owns (c : Thread nD τ) (ms0_7 a t) fullShare ((dat0 V a c).after (7 : Fin 10) t)
    ∗ owns (c : Thread nD τ) (ms0_8 a t) fullShare ((dat0 V a c).after (8 : Fin 10) t)
    ∗ (dat0 V a c).leavesExact (9 : Fin 10) t)

set_option maxHeartbeats 1600000 in
/-- The body at any point. The invariant hands it the two tables, the accumulator (at the named contents after the
    first point) and the target-row scratch; each input's memref holds its block; the output's holds anything. The run
    applies; the accumulator comes back one step on, the inputs and tables as they were, the output's buffer as the
    obligation states it; the core's `owes` passes through unread. -/
theorem sound_body0 (c : Dev nD) (t : Fin (cfg0 a).N) :
    bodyPre0 V a c t ⊢ wp frame (wpE (defs₀ (F := F)) Variants.none c none) Set.univ (bodyAt0 a t) (fun _ => bodyPost0 V a c t) := by
  unfold bodyPre0 bodyPost0
  simp only [before0_0, before0_1, before0_2, before0_3, before0_4, before0_5, before0_6, before0_7, before0_8]
  rw [Phi0_castSucc, Phi0_succ, show (dat0 V a c).owesAt () t.succ = (dat0 V a c).owesAt () t.castSucc from rfl,
    after0_0, after0_1, after0_2, after0_3, after0_4, after0_5, after0_6, after0_7, after0_8]
  unfold Phi0
  rw [prefHeld0_eq]
  iintro ⟨⟨⟨HT0, HT1⟩, ⟨%x14, %hx14, H14⟩, ⟨%d15, H15⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave H9' := (owns_open0 c (ms0_9 a t) _) $$ H9
  icases H9' with ⟨%f13, %hf13, H13⟩
  ihave H15' := (owns_open0 c (Memref.whole cc0_scratch1) _) $$ H15
  icases H15' with ⟨%f15, -, H15⟩
  iapply ((run0 V a c t x14 f13 f15).2.2.2 Set.univ _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H13]; · iexact H13
  isplitl [H14]; · iexact H14
  isplitl [H15]; · iexact H15
  iintro ⟨HT0, HT1, H0, H1, H2, H3, H4, H5, H6, H7, H8, H13, H14, H15⟩
  isplitl [HT0 HT1 H14 H15 HR Hg]
  · isplitl [HT0 HT1]
    · isplitl [HT0]; · iexact HT0
      iexact HT1
    isplitl [H14]
    · iexists _; isplitr; · ipureintro; exact fun _ => rfl
      unfold owns; iexists _; isplitr
      swap; · iexact H14
      ipureintro
      exact (bodyRun0_acc _ _ _ _ _ _ _ _ _ _ _ _ _ _ _ _ _ _ _ _ _ _ _ _ _ _ _ _ _ _ _ _ _ _ _ _ _ _ _ _ _ _ _ _).trans (acc0_step V a c t x14 hx14)
    isplitl [H15]
    · iexists _; unfold owns; iexists _; isplitr
      swap; · iexact H15
      ipureintro; rfl
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (leaves0_9 V a c t x14 hx14 d9 f13 hf13 f15)
  iexact H13

/-- The library's body obligation, at every point. -/
theorem body_obligation0 (c : Dev nD) : BodyObligation (dat0 (F := F) V a c) (defs₀ (F := F)) Variants.none () Set.univ := fun t => by
  rw [bigSep_W0, bigSep_W0]
  exact sound_body0 V a c t

end Region0

end Cert.KernelIdeal.Gen

end
-- ==== Proof.RegionI0.lean ====
import proofs.«414286_j65627100283289_3_alg».proof.Proof.RegionDataI0
import proofs.«414286_j65627100283289_3_alg».proof.Proof.Gen.KernelIdeal.Regions
import proofs.«414286_j65627100283289_3_alg».proof.Proof.FrameDefsI
import Idealize.ShloMosaic.Lib.Pipeline.RegionsLoop
import Idealize.ShloMosaic.Lib.Pipeline.FrameSuffix

/-!
# Region 0 as a segment of the program

On entry the region's arrays and its two tables are separated from the other unscoped buffers; the tables, the scoped
buffers that are no staging buffer and the generator register make the invariant before the first point. On exit the
invariant gives them back and the arrays are joined with the other buffers again, the output's array at what the
write-backs made of it. Nothing is owed at any point and the kernel has no semaphore of its own.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 0 as a segment of the program -/

section Seg0

variable (m : (ℓ : Loc nD τ sig) → Buf (Elt F) ℓ) (outs : Outs (F := F))

/-- The unscoped buffers' contents on core `c` when region 0 is entered, and when it is left. -/
abbrev Win0 : Dev nD → Valuation τ sig (Elt F) := fun c => V8 m c
abbrev Wout0 : Dev nD → Valuation τ sig (Elt F) := fun c => V9 m outs c
/-- The contents of the TensorCore's buffers when region 0 is entered, that is, after the host operations that precede it. -/
abbrev Vin0 : (c : Dev nD) → (b : Ref sig .tc) → Buf (Elt F) ((c : Thread nD τ).loc b) := fun c b => V8 m c b
/-- Their contents when the region is left: as entered, except the output's array, which holds what the region leaves in it. -/
abbrev Vout0 : (c : Dev nD) → (b : Ref sig .tc) → Buf (Elt F) ((c : Thread nD τ).loc b) := fun c b => V9 m outs c b

-- the tables' contents of all four pipelines, the family of proof data, and what ties region 0's members to this module
variable (a : (p : Fin 4) → (pcfgs (F := F) p).Adm)
variable (pdats : (p : Fin 4) → (c : Dev nD) → Dat τ (Elt F) Unit ℕ (Pipeline.UD sig nD τ) ℕ (Pipeline.pin (pcfgs (F := F)) a p) c)
-- the family's member at region 0 is this module's proof data, at the entry contents and region 0's tables
variable (hd0 : ∀ c, pdats 0 c = dat0 (Vin0 m) (a 0) c)
-- the tables' admissible contents are what the tables hold when the region is entered
variable (hpf0 : ∀ c : Dev nD, (fun k => Vin0 m c (pre0.ref k)) = (a 0).1)
-- what the region leaves in its output's array is what its write-backs make of it
variable (houts0 : ∀ c : Dev nD, outs 9 main_v46 c = (dat0 (Vin0 m) (a 0) c).arrAt (9 : Fin 10) (cfg0 (a 0)).N)

/-- The invariant with the two scratch buffers as plain points-tos. -/
theorem Phi0_eq (V : (c : Dev nD) → (b : Ref sig .tc) → Buf (Elt F) ((c : Thread nD τ).loc b)) (a0 : (pcfg0 (F := F)).Adm) (c : Dev nD) (n : ℕ) :
    Phi0 V a0 c n = iprop(Pipeline.prefHeld pre0 c (fun _ => fullShare) a0.1
      ∗ (∃ x14 : Vec F S10240x128 .f32, ⌜n ≠ 0 → x14 = accAt0 V a0 c n⌝ ∗ (((c : Thread nD τ).loc cc0_scratch0) ↦{fullShare} x14))
      ∗ (∃ d : Buf (Elt F) ((c : Thread nD τ).loc cc0_scratch1), ((c : Thread nD τ).loc cc0_scratch1) ↦{fullShare} d)
      ∗ Pipeline.scopedRestBut spec0 c [cc0_scratch0, cc0_scratch1]
      ∗ (∃ r, prngReg c r)) := by
  unfold Phi0; simp only [owns_whole]

/-- Entering: the tables, the scoped rest and the generator register make the invariant before the first point. -/
theorem hin0 (V : (c : Dev nD) → (b : Ref sig .tc) → Buf (Elt F) ((c : Thread nD τ).loc b)) (a0 : (pcfg0 (F := F)).Adm) (c : Dev nD) :
    iprop((∃ r, prngReg c r) ∗ Pipeline.prefHeld pre0 c (fun _ => fullShare) a0.1 ∗ Pipeline.scopedRest spec0 c)
      ⊢ (Phi0 V a0 c 0 : sProp 𝕄) := by
  rw [Phi0_eq, scopedRest0_split]
  iintro ⟨Hg, Hpf, ⟨⟨%f0, H0⟩, H1⟩, HR⟩
  isplitl [Hpf]; · iexact Hpf
  isplitl [H0]
  · iexists f0; isplitr; · ipureintro; exact fun h => absurd rfl h
    iexact H0
  isplitl [H1]; · iexact H1
  isplitl [HR]; · iexact HR
  iexact Hg

/-- Leaving: the invariant gives the register and the tables back, and the scoped rest with the scratch at anything. -/
theorem hout0 (V : (c : Dev nD) → (b : Ref sig .tc) → Buf (Elt F) ((c : Thread nD τ).loc b)) (a0 : (pcfg0 (F := F)).Adm) (c : Dev nD) (n : ℕ) :
    (Phi0 V a0 c n : sProp 𝕄)
      ⊢ iprop(((∃ r, prngReg c r) ∗ Pipeline.prefHeld pre0 c (fun _ => fullShare) a0.1) ∗ Pipeline.scopedRest spec0 c) := by
  rw [Phi0_eq, scopedRest0_split]
  iintro ⟨Hpf, ⟨%x14, -, H0⟩, H1, HR, Hg⟩
  isplitl [Hg Hpf]
  · isplitl [Hg]; · iexact Hg
    iexact Hpf
  isplitl [H0 H1]
  · isplitl [H0]; · iexists x14; iexact H0
    iexact H1
  iexact HR

/-- Every window but the last is an input, and no input's array is the output's. -/
theorem inputs0 : ∀ w : Fin 10, w ≠ (9 : Fin 10) → (spec0 w).isOut = false ∧ Pipeline.arrRef spec0 w ∉ ([main_v46] : List (Ref sig .tc)) := by
  decide

/-- At the region's exit each of its arrays holds what the pipeline leaves: an input its entry contents, the output what
    its write-backs make of it, which is the region's unknown `outs 9 main_v46`. -/
theorem hF0 (c : Dev nD) (houts0 : outs 9 main_v46 c = (dat0 (Vin0 m) (a 0) c).arrAt (9 : Fin 10) (cfg0 (a 0)).N) :
    ∀ w : Fin 10, (dat0 (Vin0 m) (a 0) c).arrAt w (cfg0 (a 0)).N = Vout0 m outs c (Pipeline.arrRef spec0 w) := by
  intro w
  by_cases hw : w = (9 : Fin 10)
  · subst hw
    refine houts0.symm.trans ?_
    show _ = Function.update (Win0 m c) _ _ _
    rw [Function.update_self]
  · obtain ⟨hin, hne⟩ := inputs0 w hw
    exact ((dat0 (Vin0 m) (a 0) c).arrAt_in w hin _).trans ((A_eq0 (Vin0 m) (a 0) c w).trans (V9_of m outs c _ hne).symm)

/-- Every buffer that is no array of the region is left as entered. -/
theorem hrest0 (c : Dev nD) : ∀ b, b ∉ Finset.univ.image (Pipeline.arrRef spec0) → Vout0 m outs c b = Vin0 m c b := fun b hb =>
  V9_of m outs c b fun hmem => hb (Finset.mem_image.mpr ⟨(9 : Fin 10), Finset.mem_univ _, (List.mem_singleton.mp hmem).symm⟩)

include hd0 hpf0 houts0 in
-- the entry and exit lemmas speak of the pinned configuration `pin pcs a p`, which is the printed configuration
-- `cfg0 a` by the definitions of both
set_option backward.isDefEq.respectTransparency.types false in
/-- REGION 0 as a segment. It is entered holding every unscoped buffer at its contents after the preceding host
    operations, together with the rest state (the generator register, nothing owed); it is left holding the same, the
    output's array now at the region's unknown. On entry the region's arrays and its two tables are separated from the
    other unscoped buffers, and on exit they are joined again; the generator register and the tables pass through the
    invariant; nothing is owed at any point; the kernel has no semaphore of its own. -/
def reg0 : Pipeline.RegionSeg (pcfgs (F := F)) a pdats () defs₀ Variants.none Lz lvz 0 where
  win := winFacts0.to₀
  block_pos := block_pos0
  stage_whole := stage_whole0
  K := PEmpty
  osem k := k.elim
  ho := Pipeline.OwnSemFacts.none _
  hbody c := by rw [hd0 c]; exact (body_obligation0 (Vin0 m) (a 0) c).loose
  hwaits := Pipeline.hwaits_of_owed_zero _ _ _ _ Lz lvz 0 fun c t => by rw [hd0 c]; rfl
  pre c := iprop(StableHlo.held (c : Thread nD τ) (Pipeline.ucRefs τ sig) (Win0 m c) ∗ Rest c)
  post c := iprop(StableHlo.held (c : Thread nD τ) (Pipeline.ucRefs τ sig) (Wout0 m outs c) ∗ Rest c)
  X c := iprop(∃ r, prngReg c r)
  Y c := iprop((∃ r, prngReg c r) ∗ Pipeline.prefHeld pre0 c (fun _ => fullShare) (a 0).1)
  Z c := Pipeline.unscopedRestP (Ix := Unit) (Name := ℕ) (U := Pipeline.UD sig nD τ) (Lvl := ℕ) pre0 spec0 c (Vin0 m c)
  hentry c := by
    rw [Pipeline.ownSems0_none]
    have hsplit := Pipeline.arrays_of_unscopedBufs (p := 0) (pcfgs (F := F)) a pdats winFacts0 arr_whole0 c
      ((pdats 0 c).share_full fun w => by rw [hd0 c]; rfl) (Vin0 m c) fun w => by rw [hd0 c]; rfl
    rw [Pipeline.unscopedBufs_held, Pipeline.unscopedRest_split (win := (Pipeline.pin (pcfgs (F := F)) a 0).spec) (pre := pre0) preFacts0 c (Vin0 m c), hpf0 c] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · rw [hd0 c]
      unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hd0 c, show (dat0 (Vin0 m) (a 0) c).Φ 0 = Phi0 (Vin0 m) (a 0) c 0 from by dsimp only [dat0]; simp only [Fin.val_zero]]
    exact hin0 (Vin0 m) (a 0) c
  hout c := by
    rw [hd0 c, Pipeline.ownSems0_none, show (dat0 (Vin0 m) (a 0) c).Φ (Fin.last (Pipeline.pin (pcfgs (F := F)) a 0).N) = Phi0 (Vin0 m) (a 0) c (Pipeline.pin (pcfgs (F := F)) a 0).N from by dsimp only [dat0]; simp only [Fin.val_last]]
    iintro H
    ihave H' := (hout0 (Vin0 m) (a 0) c _) $$ H
    icases H' with ⟨HY, HS⟩
    isplitl [HY]; · iexact HY
    isplitr; · iempintro
    iexact HS
  hexit c := by
    have hjoin := Pipeline.unscopedBufs_of_arrays (p := 0) (pcfgs (F := F)) a (Ix := Unit) (Name := ℕ) (U := Pipeline.UD sig nD τ) (Lvl := ℕ)
      winFacts0 arr_whole0 c pdats ((pdats 0 c).share_full fun w => by rw [hd0 c]; rfl)
      (Vin0 m c) (Vout0 m outs c) ((pdats 0 c).arrAt · (cfg0 (a 0)).N)
      (by rw [hd0 c]; exact hF0 m outs a c (houts0 c)) (hrest0 m outs c)
    rw [Pipeline.unscopedBufs_held, Pipeline.unscopedRest_split (win := (Pipeline.pin (pcfgs (F := F)) a 0).spec) (pre := pre0) preFacts0 c (Vin0 m c), hpf0 c] at hjoin
    iintro ⟨Ha, HO, ⟨HY, Hpf⟩, Hrest⟩
    imodintro
    isplitl [Ha Hpf Hrest]
    · iapply hjoin
      isplitl [Ha]; · iexact Ha
      isplitl [Hpf]; · iexact Hpf
      iexact Hrest
    isplitl [HY]; · iexact HY
    rw [hd0 c]
    unfold Pipeline.Dat.owesAt Pipeline.owesWithin
    icases HO with ⟨%W, -, HO⟩; iexists W; iexact HO

/-- The record is entered from, and left at, the program's thread states around region 0, as they stand. -/
theorem hpre0 (c : Dev nD) :
    iprop(StableHlo.held (c : Thread nD τ) (Pipeline.ucRefs τ sig) (Win0 m c) ∗ Rest (F := F) c)
      ⊢ (reg0 m outs a pdats hd0 hpf0 houts0).pre c := .rfl
theorem hpost0 (c : Dev nD) :
    (reg0 m outs a pdats hd0 hpf0 houts0).post c
      ⊢ iprop(StableHlo.held (c : Thread nD τ) (Pipeline.ucRefs τ sig) (Wout0 m outs c) ∗ Rest (F := F) c) := .rfl

end Seg0

end Cert.KernelIdeal.Gen

end
-- ==== Proof.BodyI1.lean ====
import proofs.«414286_j65627100283289_3_alg».proof.Proof.Gen.KernelIdeal.Skeleton
import proofs.«414286_j65627100283289_3_alg».proof.Proof.Gen.KernelIdeal.Launch
import Idealize.ShloMosaic.Lib.Pipeline.Frame
import Idealize.ShloMosaic.Lib.Pipeline.FrameBody
import Idealize.ShloMosaic.Lib.Tactic

/-!
# Region 1's body at one grid point

The body of one EdgeConv layer's kernel on whole staging memrefs, at any grid point `i = (core, tile)`: from the two
chunk-range tables, the tile's source and target columns, the padded node table, the layer's six parameter blocks,
the accumulator as the tile before left it and the two other written buffers at any contents, the body runs to its
end, faults nowhere, hands the eleven buffers it only reads back as they were, and leaves the accumulator, the
target-row scratch and the output's staging buffer at contents that are FUNCTIONS of what it was handed. Those three
functions are not transcribed: they are what the run finds, each conditional taken both ways and its two outcomes
merged under its condition (the reset at the core's first tile, the ten chunk gates of the target-row gather, the
ten of the scatter, the write-out at the core's last tile).
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- What the body leaves in the accumulator (`.1`), in the target-row scratch (`.2.1`) and in the output's staging
    buffer (`.2.2.1`), with the proof that it runs to the continuation holding exactly that. -/
noncomputable def bodyRun1 (c : Dev nD) (i : grid1.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole)
    (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32)
    (f13 : BufTy.Contents (Elt F) arg13.view.ty) (f15 : BufTy.Contents (Elt F) arg15.view.ty) :
    Σ' (g14 : BufTy.Contents (Elt F) arg14.view.ty) (g15 : BufTy.Contents (Elt F) arg15.view.ty),
      { g13 : BufTy.Contents (Elt F) arg13.view.ty //
        ∀ (E : Set ℕ) (K : PUnit → sProp 𝕄),
          iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ (arg13.view.loc (c : Thread nD τ) ↦[arg13.view.set]{fullShare} f13)
            ∗ owns (c : Thread nD τ) arg14 fullShare x14
            ∗ (arg15.view.loc (c : Thread nD τ) ↦[arg15.view.set]{fullShare} f15)
            ∗ (iprop(owns (c : Thread nD τ) arg2 fullShare x2
              ∗ owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ owns (c : Thread nD τ) arg11 fullShare x11
              ∗ owns (c : Thread nD τ) arg12 fullShare x12
              ∗ (arg13.view.loc (c : Thread nD τ) ↦[arg13.view.set]{fullShare} g13)
              ∗ (arg14.view.loc (c : Thread nD τ) ↦[arg14.view.set]{fullShare} g14)
              ∗ (arg15.view.loc (c : Thread nD τ) ↦[arg15.view.set]{fullShare} g15)) -∗ K ⟨⟩))
          ⊢ wp frame (wpE (defs₀ (F := F)) Variants.none c none) E (cc1__edgeconv_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc1__edgeconv_kernel_eq_skeleton]; unfold cc1__edgeconv_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, H13, ⟨%f14, %hf14, H14⟩, H15, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg14.eq_unread hf14
    sl_exec!
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexact H13
    isplitl [H14]; · iexact H14
    iexact H15

end Cert.KernelIdeal.Gen

end
-- ==== Proof.StepDefsI1.lean ====
import proofs.«414286_j65627100283289_3_alg».proof.Proof.Gen.KernelIdeal.Skeleton
import proofs.«414286_j65627100283289_3_alg».proof.Proof.GateWord
import proofs.«414286_j65627100283289_3_alg».proof.Proof.LibGatedRmw
import Idealize.ShloMosaic.Lib.Pipeline.FrameBody

/-!
# Region 1's body as functions of the values it is handed

What one run of the body at grid point `i = (core, tile)` leaves in the accumulator, written without a memref and without
any buffer's old raw contents: from the two chunk-range tables, the tile's source and target columns, the padded node
table, the six parameter blocks and the accumulator as the tile before left it.

* the two table words of the tile, `lo` and `hi`, and from them the ten gate words `lo ≤ k ≤ hi`;
* the target rows' gather `xi1`: zero, then for each chunk `k` of 1024 nodes, under its gate, the one-hot product of
  the target column against the chunk's rows added on;
* the source rows' gather `xj1`: the ten one-hot products added up, no gate;
* the perceptron's hidden row `hid1` and the messages `msg1`;
* the accumulator: reset to zero at the core's first tile, then for each chunk under its gate the chunk's rows replaced
  by themselves plus the transposed one-hot product with the messages.

Each step is spelt through the generated payload that computes it, so that the body's run and these functions meet
name by name.
-/

noncomputable section

namespace Cert.KernelIdeal.Gen

open Idealize.ShloMosaic Idealize.ShloMosaic.GatedRmw

variable {F : FTy → Type} [FloatOps F]

/-- The tile's entry of the first table: the least chunk its targets fall in. -/
def loW1 (i : grid1.Coords) (x2 : Vec F S1250 .i32) : BitVec 32 :=
  View.ld x2 (Rect.unit (s := S1250) (k1_off1 i) S1.size (k1_off1_inb i))
    (Shape.Idx.first (lt_of_lt_of_eq Nat.one_pos numel1_S1.symm))

/-- The tile's entry of the second table: the greatest chunk its targets fall in. -/
def hiW1 (i : grid1.Coords) (x3 : Vec F S1250 .i32) : BitVec 32 :=
  View.ld x3 (Rect.unit (s := S1250) (k1_off1 i) S1.size (k1_off1_inb i))
    (Shape.Idx.first (lt_of_lt_of_eq Nat.one_pos numel1_S1.symm))

/-- The word "this is the core's first tile". -/
def firstW1 (i : grid1.Coords) : BitVec 1 :=
  Scalar.cmpi .ne (Scalar.extui (Scalar.cmpi .eq (BitVec.ofNat 32 (i 1).val) 0#32)) 0#32

/-- One gated step of the target rows' gather: under the gate the step's payload of the rows so far. -/
def xiStep1 (g : BitVec 1) (pay : Vec F S256x128 .f32 → FVec F S256x128 .f32) (X : Vec F S256x128 .f32) : Vec F S256x128 .f32 :=
  if g = 1#1 then pay X else X

/-- The target rows the tile gathers: zero, then chunk by chunk under the gates. -/
def xi1 (i : grid1.Coords) (x2 x3 : Vec F S1250 .i32) (x5 : Vec F S256x1 .i32) (x6 : Vec F S10240x128 .f32) :
    Vec F S256x128 .f32 :=
  (xiStep1 (Cert.Spec.gateWord (loW1 i x2) (hiW1 i x3) 9#32) (k1_pay22 (k1_pay3 x5) (View.ld x6 (Rect.unit (s := S10240x128) ![9216, 0] S1024x128.size inb_S10240x128_S1024x128_9216_0)))
      (xiStep1 (Cert.Spec.gateWord (loW1 i x2) (hiW1 i x3) 8#32) (k1_pay21 (k1_pay3 x5) (View.ld x6 (Rect.unit (s := S10240x128) ![8192, 0] S1024x128.size inb_S10240x128_S1024x128_8192_0)))
      (xiStep1 (Cert.Spec.gateWord (loW1 i x2) (hiW1 i x3) 7#32) (k1_pay20 (k1_pay3 x5) (View.ld x6 (Rect.unit (s := S10240x128) ![7168, 0] S1024x128.size inb_S10240x128_S1024x128_7168_0)))
      (xiStep1 (Cert.Spec.gateWord (loW1 i x2) (hiW1 i x3) 6#32) (k1_pay19 (k1_pay3 x5) (View.ld x6 (Rect.unit (s := S10240x128) ![6144, 0] S1024x128.size inb_S10240x128_S1024x128_6144_0)))
      (xiStep1 (Cert.Spec.gateWord (loW1 i x2) (hiW1 i x3) 5#32) (k1_pay18 (k1_pay3 x5) (View.ld x6 (Rect.unit (s := S10240x128) ![5120, 0] S1024x128.size inb_S10240x128_S1024x128_5120_0)))
      (xiStep1 (Cert.Spec.gateWord (loW1 i x2) (hiW1 i x3) 4#32) (k1_pay17 (k1_pay3 x5) (View.ld x6 (Rect.unit (s := S10240x128) ![4096, 0] S1024x128.size inb_S10240x128_S1024x128_4096_0)))
      (xiStep1 (Cert.Spec.gateWord (loW1 i x2) (hiW1 i x3) 3#32) (k1_pay16 (k1_pay3 x5) (View.ld x6 (Rect.unit (s := S10240x128) ![3072, 0] S1024x128.size inb_S10240x128_S1024x128_3072_0)))
      (xiStep1 (Cert.Spec.gateWord (loW1 i x2) (hiW1 i x3) 2#32) (k1_pay15 (k1_pay3 x5) (View.ld x6 (Rect.unit (s := S10240x128) ![2048, 0] S1024x128.size inb_S10240x128_S1024x128_2048_0)))
      (xiStep1 (Cert.Spec.gateWord (loW1 i x2) (hiW1 i x3) 1#32) (k1_pay14 (k1_pay3 x5) (View.ld x6 (Rect.unit (s := S10240x128) ![1024, 0] S1024x128.size inb_S10240x128_S1024x128_1024_0)))
      (xiStep1 (Cert.Spec.gateWord (loW1 i x2) (hiW1 i x3) 0#32) (k1_pay13 (k1_pay3 x5) (View.ld x6 (Rect.unit (s := S10240x128) ![0, 0] S1024x128.size inb_S10240x128_S1024x128_0_0)))
      (k1_pay12 (F := F))))))))))))

/-- The source rows the tile gathers: every chunk's one-hot product, added up. -/
def xj1 (x4 : Vec F S256x1 .i32) (x6 : Vec F S10240x128 .f32) : FVec F S256x128 .f32 :=
  k1_pay11
    (k1_pay9 (k1_pay4 x4)
      (k1_pay7 (k1_pay4 x4) (k1_pay5 x4 (View.ld x6 (Rect.unit (s := S10240x128) ![0, 0] S1024x128.size inb_S10240x128_S1024x128_0_0)) (View.ld x6 (Rect.unit (s := S10240x128) ![1024, 0] S1024x128.size inb_S10240x128_S1024x128_1024_0))) (k1_pay6 x4)
        (iota Kind.tc S256x1024 32 [1] iota_S256x1024_d1_w32) (2048#32)
        (View.ld x6 (Rect.unit (s := S10240x128) ![2048, 0] S1024x128.size inb_S10240x128_S1024x128_2048_0)) (View.ld x6 (Rect.unit (s := S10240x128) ![3072, 0] S1024x128.size inb_S10240x128_S1024x128_3072_0)) (View.ld x6 (Rect.unit (s := S10240x128) ![4096, 0] S1024x128.size inb_S10240x128_S1024x128_4096_0)))
      (k1_pay8 (k1_pay4 x4) (View.ld x6 (Rect.unit (s := S10240x128) ![5120, 0] S1024x128.size inb_S10240x128_S1024x128_5120_0)))
      (View.ld x6 (Rect.unit (s := S10240x128) ![6144, 0] S1024x128.size inb_S10240x128_S1024x128_6144_0)) (View.ld x6 (Rect.unit (s := S10240x128) ![7168, 0] S1024x128.size inb_S10240x128_S1024x128_7168_0)) (View.ld x6 (Rect.unit (s := S10240x128) ![8192, 0] S1024x128.size inb_S10240x128_S1024x128_8192_0)))
    (k1_pay10 (k1_pay4 x4))
    (View.ld x6 (Rect.unit (s := S10240x128) ![9216, 0] S1024x128.size inb_S10240x128_S1024x128_9216_0))

/-- The perceptron's first hidden row of every edge of the tile. -/
def hid1 (i : grid1.Coords) (x2 x3 : Vec F S1250 .i32) (x4 x5 : Vec F S256x1 .i32) (x6 : Vec F S10240x128 .f32)
    (x7 : Vec F S256x128 .f32) (x8 : Vec F S1x128 .f32) : FVec F S256x128 .f32 :=
  k1_pay23 (xj1 x4 x6) (xi1 i x2 x3 x5 x6) x7 x8

/-- The message of every edge of the tile. -/
def msg1 (i : grid1.Coords) (x2 x3 : Vec F S1250 .i32) (x4 x5 : Vec F S256x1 .i32) (x6 : Vec F S10240x128 .f32)
    (x7 : Vec F S256x128 .f32) (x8 : Vec F S1x128 .f32) (x9 : Vec F S128x128 .f32) (x10 : Vec F S1x128 .f32)
    (x11 : Vec F S128x128 .f32) (x12 : Vec F S1x128 .f32) : FVec F S256x128 .f32 :=
  k1_pay24 (hid1 i x2 x3 x4 x5 x6 x7 x8) (FloatOps.ofBits FTy.f32 0#32) x9 x10 x11 x12

/-- The accumulator the chunk steps start from: zero at the core's first tile, else what the tile before left. -/
def accReset1 (i : grid1.Coords) (x14 : Vec F S10240x128 .f32) : Vec F S10240x128 .f32 :=
  if firstW1 i = 1#1 then k1_pay2 else x14

/-- One gated chunk step of the scatter: under the gate the chunk's rows replaced by the step's payload of them. -/
def accStep1 (g : BitVec 1) (R : Rect S10240x128) (pay : (R.shape.Idx → Elt F .f32) → (R.shape.Idx → Elt F .f32))
    (A : Vec F S10240x128 .f32) : Vec F S10240x128 .f32 :=
  gatedVal g R pay A

/-- The accumulator after the body at point `i`. -/
def stepAcc1 (i : grid1.Coords) (x2 x3 : Vec F S1250 .i32) (x4 x5 : Vec F S256x1 .i32) (x6 : Vec F S10240x128 .f32)
    (x7 : Vec F S256x128 .f32) (x8 : Vec F S1x128 .f32) (x9 : Vec F S128x128 .f32) (x10 : Vec F S1x128 .f32)
    (x11 : Vec F S128x128 .f32) (x12 : Vec F S1x128 .f32) (x14 : Vec F S10240x128 .f32) : Vec F S10240x128 .f32 :=
  (accStep1 (Cert.Spec.gateWord (loW1 i x2) (hiW1 i x3) 9#32) (Rect.unit (s := S10240x128) ![9216, 0] S1024x128.size inb_S10240x128_S1024x128_9216_0)
      (k1_pay34 (k1_pay3 x5) (msg1 i x2 x3 x4 x5 x6 x7 x8 x9 x10 x11 x12))
      (accStep1 (Cert.Spec.gateWord (loW1 i x2) (hiW1 i x3) 8#32) (Rect.unit (s := S10240x128) ![8192, 0] S1024x128.size inb_S10240x128_S1024x128_8192_0)
      (k1_pay33 (k1_pay3 x5) (msg1 i x2 x3 x4 x5 x6 x7 x8 x9 x10 x11 x12))
      (accStep1 (Cert.Spec.gateWord (loW1 i x2) (hiW1 i x3) 7#32) (Rect.unit (s := S10240x128) ![7168, 0] S1024x128.size inb_S10240x128_S1024x128_7168_0)
      (k1_pay32 (k1_pay3 x5) (msg1 i x2 x3 x4 x5 x6 x7 x8 x9 x10 x11 x12))
      (accStep1 (Cert.Spec.gateWord (loW1 i x2) (hiW1 i x3) 6#32) (Rect.unit (s := S10240x128) ![6144, 0] S1024x128.size inb_S10240x128_S1024x128_6144_0)
      (k1_pay31 (k1_pay3 x5) (msg1 i x2 x3 x4 x5 x6 x7 x8 x9 x10 x11 x12))
      (accStep1 (Cert.Spec.gateWord (loW1 i x2) (hiW1 i x3) 5#32) (Rect.unit (s := S10240x128) ![5120, 0] S1024x128.size inb_S10240x128_S1024x128_5120_0)
      (k1_pay30 (k1_pay3 x5) (msg1 i x2 x3 x4 x5 x6 x7 x8 x9 x10 x11 x12))
      (accStep1 (Cert.Spec.gateWord (loW1 i x2) (hiW1 i x3) 4#32) (Rect.unit (s := S10240x128) ![4096, 0] S1024x128.size inb_S10240x128_S1024x128_4096_0)
      (k1_pay29 (k1_pay3 x5) (msg1 i x2 x3 x4 x5 x6 x7 x8 x9 x10 x11 x12))
      (accStep1 (Cert.Spec.gateWord (loW1 i x2) (hiW1 i x3) 3#32) (Rect.unit (s := S10240x128) ![3072, 0] S1024x128.size inb_S10240x128_S1024x128_3072_0)
      (k1_pay28 (k1_pay3 x5) (msg1 i x2 x3 x4 x5 x6 x7 x8 x9 x10 x11 x12))
      (accStep1 (Cert.Spec.gateWord (loW1 i x2) (hiW1 i x3) 2#32) (Rect.unit (s := S10240x128) ![2048, 0] S1024x128.size inb_S10240x128_S1024x128_2048_0)
      (k1_pay27 (k1_pay3 x5) (hid1 i x2 x3 x4 x5 x6 x7 x8) (FloatOps.ofBits FTy.f32 0#32) x9 x10 x11 x12)
      (accStep1 (Cert.Spec.gateWord (loW1 i x2) (hiW1 i x3) 1#32) (Rect.unit (s := S10240x128) ![1024, 0] S1024x128.size inb_S10240x128_S1024x128_1024_0)
      (k1_pay26 (k1_pay3 x5) (hid1 i x2 x3 x4 x5 x6 x7 x8) (FloatOps.ofBits FTy.f32 0#32) x9 x10 x11 x12)
      (accStep1 (Cert.Spec.gateWord (loW1 i x2) (hiW1 i x3) 0#32) (Rect.unit (s := S10240x128) ![0, 0] S1024x128.size inb_S10240x128_S1024x128_0_0)
      (k1_pay25 (k1_pay3 x5) (hid1 i x2 x3 x4 x5 x6 x7 x8) (FloatOps.ofBits FTy.f32 0#32) x9 x10 x11 x12)
      (accReset1 i x14)))))))))))

end Cert.KernelIdeal.Gen

end
-- ==== Proof.StepI1.lean ====
import proofs.«414286_j65627100283289_3_alg».proof.Proof.BodyI1
import proofs.«414286_j65627100283289_3_alg».proof.Proof.StepDefsI1
import Idealize.ShloMosaic.Lib.Pipeline.Frame
import Idealize.ShloMosaic.Lib.Pipeline.FrameBody
import Idealize.ShloMosaic.Lib.Pipeline.Value
import Idealize.ShloMosaic.Lib.Writes

/-!
# What region 1's body leaves, as the functions of `StepDefsI0`

The run of the body found, for the accumulator, ten nested conditionals: under chunk `k`'s gate the contents so far with
chunk `k`'s rows overwritten by a payload of those same rows as loaded from the contents so far, else the contents so
far; at the bottom the reset under the first tile's condition. Each level is one gated read-modify-write of one
rectangle, and the found term IS that nest, by unfolding. What a gated read-modify-write reads is the gated step on
what the contents before read, so reading the nest gives the same nest on VALUES, each level now mentioning the level
below once: the accumulator step of `StepDefsI0`, once the run's names for the table words, the gates, the gathered
rows, the hidden row and the messages are rewritten as those functions. The target-row scratch is the same story with
the whole buffer as its one rectangle, which is why its old contents never show: every store covers it. The output's
staging buffer is stored once, whole, under the last tile's condition, with the accumulator read back whole.
-/

noncomputable section

namespace Cert.KernelIdeal.Gen

open Idealize.ShloMosaic Idealize.ShloMosaic.TcCoe Idealize.ShloMosaic.GatedRmw

variable {F : FTy → Type} [FloatOps F]

/-! ## The run's contents, level by level, as gated read-modify-writes -/

set_option maxRecDepth 65536 in
/-- The accumulator's raw contents the run found are ten gated read-modify-writes over the reset. -/
theorem acc_raw1 (c : Dev nD) (i : grid1.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    (bodyRun1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).1 = (gatedRmw arg14.view (bodyRun1.sl.v187 c i arg2 harg2 arg3 harg3 x2 x3) (Rect.unit (s := S10240x128) ![9216, 0] S1024x128.size inb_S10240x128_S1024x128_9216_0)
      (fun v => k1_pay34 (bodyRun1.sl.r_2 c arg5 harg5 x5) (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun1.sl.v182 c i arg2 harg2 arg3 harg3 x2 x3) (Rect.unit (s := S10240x128) ![8192, 0] S1024x128.size inb_S10240x128_S1024x128_8192_0)
      (fun v => k1_pay33 (bodyRun1.sl.r_2 c arg5 harg5 x5) (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun1.sl.v177 c i arg2 harg2 arg3 harg3 x2 x3) (Rect.unit (s := S10240x128) ![7168, 0] S1024x128.size inb_S10240x128_S1024x128_7168_0)
      (fun v => k1_pay32 (bodyRun1.sl.r_2 c arg5 harg5 x5) (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun1.sl.v172 c i arg2 harg2 arg3 harg3 x2 x3) (Rect.unit (s := S10240x128) ![6144, 0] S1024x128.size inb_S10240x128_S1024x128_6144_0)
      (fun v => k1_pay31 (bodyRun1.sl.r_2 c arg5 harg5 x5) (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun1.sl.v167 c i arg2 harg2 arg3 harg3 x2 x3) (Rect.unit (s := S10240x128) ![5120, 0] S1024x128.size inb_S10240x128_S1024x128_5120_0)
      (fun v => k1_pay30 (bodyRun1.sl.r_2 c arg5 harg5 x5) (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun1.sl.v162 c i arg2 harg2 arg3 harg3 x2 x3) (Rect.unit (s := S10240x128) ![4096, 0] S1024x128.size inb_S10240x128_S1024x128_4096_0)
      (fun v => k1_pay29 (bodyRun1.sl.r_2 c arg5 harg5 x5) (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun1.sl.v157 c i arg2 harg2 arg3 harg3 x2 x3) (Rect.unit (s := S10240x128) ![3072, 0] S1024x128.size inb_S10240x128_S1024x128_3072_0)
      (fun v => k1_pay28 (bodyRun1.sl.r_2 c arg5 harg5 x5) (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun1.sl.v152 c i arg2 harg2 arg3 harg3 x2 x3) (Rect.unit (s := S10240x128) ![2048, 0] S1024x128.size inb_S10240x128_S1024x128_2048_0)
      (fun v => k1_pay27 (bodyRun1.sl.r_2 c arg5 harg5 x5) (bodyRun1.sl.r_11 c i arg2 harg2 arg3 harg3 arg4 harg4 arg5 harg5 arg6 harg6 arg7 harg7 arg8 harg8 arg15 x2 x3 x4 x5 x6 x7 x8 f15) bodyRun1.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (gatedRmw arg14.view (bodyRun1.sl.v147 c i arg2 harg2 arg3 harg3 x2 x3) (Rect.unit (s := S10240x128) ![1024, 0] S1024x128.size inb_S10240x128_S1024x128_1024_0)
      (fun v => k1_pay26 (bodyRun1.sl.r_2 c arg5 harg5 x5) (bodyRun1.sl.r_11 c i arg2 harg2 arg3 harg3 arg4 harg4 arg5 harg5 arg6 harg6 arg7 harg7 arg8 harg8 arg15 x2 x3 x4 x5 x6 x7 x8 f15) bodyRun1.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (gatedRmw arg14.view (bodyRun1.sl.v142 c i arg2 harg2 arg3 harg3 x2 x3) (Rect.unit (s := S10240x128) ![0, 0] S1024x128.size inb_S10240x128_S1024x128_0_0)
      (fun v => k1_pay25 (bodyRun1.sl.r_2 c arg5 harg5 x5) (bodyRun1.sl.r_11 c i arg2 harg2 arg3 harg3 arg4 harg4 arg5 harg5 arg6 harg6 arg7 harg7 arg8 harg8 arg15 x2 x3 x4 x5 x6 x7 x8 f15) bodyRun1.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (if _hc : bodyRun1.sl.v4 i = 1#1 then arg14.view.writes (Elt F) (harg14.unread x14) [⟨(Rect.unit (s := S10240x128) ![0, 0] S10240x128.size inb_S10240x128_S10240x128_0_0), k1_pay2⟩] else harg14.unread x14))))))))))) := rfl

set_option maxRecDepth 65536 in
/-- The target-row scratch as the hidden layer's load reads it: nine gated read-modify-writes over the first. -/
theorem xi_raw1 (c : Dev nD) (i : grid1.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    (bodyRun1.sl.v188 c i arg2 harg2 arg3 harg3 arg5 harg5 arg6 harg6 arg15 x2 x3 x5 x6 f15) = View.readAt (Elt F) arg15.view (Rect.unit (s := S256x128) ![0, 0] S256x128.size inb_S256x128_S256x128_0_0).toLoadRect (gatedRmw arg15.view (bodyRun1.sl.v187 c i arg2 harg2 arg3 harg3 x2 x3) (Rect.unit (s := S256x128) ![0, 0] S256x128.size inb_S256x128_S256x128_0_0)
      (fun v => k1_pay22 (bodyRun1.sl.r_2 c arg5 harg5 x5) (View.readAt (Elt F) arg6.view (Rect.unit (s := S10240x128) ![9216, 0] S1024x128.size inb_S10240x128_S1024x128_9216_0).toLoadRect (harg6.unread x6)) v)
      (gatedRmw arg15.view (bodyRun1.sl.v182 c i arg2 harg2 arg3 harg3 x2 x3) (Rect.unit (s := S256x128) ![0, 0] S256x128.size inb_S256x128_S256x128_0_0)
      (fun v => k1_pay21 (bodyRun1.sl.r_2 c arg5 harg5 x5) (View.readAt (Elt F) arg6.view (Rect.unit (s := S10240x128) ![8192, 0] S1024x128.size inb_S10240x128_S1024x128_8192_0).toLoadRect (harg6.unread x6)) v)
      (gatedRmw arg15.view (bodyRun1.sl.v177 c i arg2 harg2 arg3 harg3 x2 x3) (Rect.unit (s := S256x128) ![0, 0] S256x128.size inb_S256x128_S256x128_0_0)
      (fun v => k1_pay20 (bodyRun1.sl.r_2 c arg5 harg5 x5) (View.readAt (Elt F) arg6.view (Rect.unit (s := S10240x128) ![7168, 0] S1024x128.size inb_S10240x128_S1024x128_7168_0).toLoadRect (harg6.unread x6)) v)
      (gatedRmw arg15.view (bodyRun1.sl.v172 c i arg2 harg2 arg3 harg3 x2 x3) (Rect.unit (s := S256x128) ![0, 0] S256x128.size inb_S256x128_S256x128_0_0)
      (fun v => k1_pay19 (bodyRun1.sl.r_2 c arg5 harg5 x5) (View.readAt (Elt F) arg6.view (Rect.unit (s := S10240x128) ![6144, 0] S1024x128.size inb_S10240x128_S1024x128_6144_0).toLoadRect (harg6.unread x6)) v)
      (gatedRmw arg15.view (bodyRun1.sl.v167 c i arg2 harg2 arg3 harg3 x2 x3) (Rect.unit (s := S256x128) ![0, 0] S256x128.size inb_S256x128_S256x128_0_0)
      (fun v => k1_pay18 (bodyRun1.sl.r_2 c arg5 harg5 x5) (View.readAt (Elt F) arg6.view (Rect.unit (s := S10240x128) ![5120, 0] S1024x128.size inb_S10240x128_S1024x128_5120_0).toLoadRect (harg6.unread x6)) v)
      (gatedRmw arg15.view (bodyRun1.sl.v162 c i arg2 harg2 arg3 harg3 x2 x3) (Rect.unit (s := S256x128) ![0, 0] S256x128.size inb_S256x128_S256x128_0_0)
      (fun v => k1_pay17 (bodyRun1.sl.r_2 c arg5 harg5 x5) (View.readAt (Elt F) arg6.view (Rect.unit (s := S10240x128) ![4096, 0] S1024x128.size inb_S10240x128_S1024x128_4096_0).toLoadRect (harg6.unread x6)) v)
      (gatedRmw arg15.view (bodyRun1.sl.v157 c i arg2 harg2 arg3 harg3 x2 x3) (Rect.unit (s := S256x128) ![0, 0] S256x128.size inb_S256x128_S256x128_0_0)
      (fun v => k1_pay16 (bodyRun1.sl.r_2 c arg5 harg5 x5) (View.readAt (Elt F) arg6.view (Rect.unit (s := S10240x128) ![3072, 0] S1024x128.size inb_S10240x128_S1024x128_3072_0).toLoadRect (harg6.unread x6)) v)
      (gatedRmw arg15.view (bodyRun1.sl.v152 c i arg2 harg2 arg3 harg3 x2 x3) (Rect.unit (s := S256x128) ![0, 0] S256x128.size inb_S256x128_S256x128_0_0)
      (fun v => k1_pay15 (bodyRun1.sl.r_2 c arg5 harg5 x5) (View.readAt (Elt F) arg6.view (Rect.unit (s := S10240x128) ![2048, 0] S1024x128.size inb_S10240x128_S1024x128_2048_0).toLoadRect (harg6.unread x6)) v)
      (gatedRmw arg15.view (bodyRun1.sl.v147 c i arg2 harg2 arg3 harg3 x2 x3) (Rect.unit (s := S256x128) ![0, 0] S256x128.size inb_S256x128_S256x128_0_0)
      (fun v => k1_pay14 (bodyRun1.sl.r_2 c arg5 harg5 x5) (View.readAt (Elt F) arg6.view (Rect.unit (s := S10240x128) ![1024, 0] S1024x128.size inb_S10240x128_S1024x128_1024_0).toLoadRect (harg6.unread x6)) v)
      (if _hc : (bodyRun1.sl.v142 c i arg2 harg2 arg3 harg3 x2 x3) = 1#1 then arg15.view.writes (Elt F) f15 (⟨(Rect.unit (s := S256x128) ![0, 0] S256x128.size inb_S256x128_S256x128_0_0), k1_pay13 (bodyRun1.sl.r_2 c arg5 harg5 x5) (View.readAt (Elt F) arg6.view (Rect.unit (s := S10240x128) ![0, 0] S1024x128.size inb_S10240x128_S1024x128_0_0).toLoadRect (harg6.unread x6)) (bodyRun1.sl.v277 arg15)⟩ :: bodyRun1.sl.H15_1) else arg15.view.writes (Elt F) f15 bodyRun1.sl.H15_1)))))))))) := rfl

set_option maxRecDepth 65536 in
/-- The write-out's load of the whole accumulator reads the same raw contents. -/
theorem v266_raw1 (c : Dev nD) (i : grid1.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    (bodyRun1.sl.v266 c i arg2 harg2 arg3 harg3 arg4 harg4 arg5 harg5 arg6 harg6 arg7 harg7 arg8 harg8 arg9 harg9 arg10 harg10 arg11 harg11 arg12 harg12 arg14 harg14 arg15 x2 x3 x4 x5 x6 x7 x8 x9 x10 x11 x12 x14 f15) = View.readAt (Elt F) arg14.view (Rect.unit (s := S10240x128) ![0, 0] S10240x128.size inb_S10240x128_S10240x128_0_0).toLoadRect (gatedRmw arg14.view (bodyRun1.sl.v187 c i arg2 harg2 arg3 harg3 x2 x3) (Rect.unit (s := S10240x128) ![9216, 0] S1024x128.size inb_S10240x128_S1024x128_9216_0)
      (fun v => k1_pay34 (bodyRun1.sl.r_2 c arg5 harg5 x5) (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun1.sl.v182 c i arg2 harg2 arg3 harg3 x2 x3) (Rect.unit (s := S10240x128) ![8192, 0] S1024x128.size inb_S10240x128_S1024x128_8192_0)
      (fun v => k1_pay33 (bodyRun1.sl.r_2 c arg5 harg5 x5) (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun1.sl.v177 c i arg2 harg2 arg3 harg3 x2 x3) (Rect.unit (s := S10240x128) ![7168, 0] S1024x128.size inb_S10240x128_S1024x128_7168_0)
      (fun v => k1_pay32 (bodyRun1.sl.r_2 c arg5 harg5 x5) (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun1.sl.v172 c i arg2 harg2 arg3 harg3 x2 x3) (Rect.unit (s := S10240x128) ![6144, 0] S1024x128.size inb_S10240x128_S1024x128_6144_0)
      (fun v => k1_pay31 (bodyRun1.sl.r_2 c arg5 harg5 x5) (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun1.sl.v167 c i arg2 harg2 arg3 harg3 x2 x3) (Rect.unit (s := S10240x128) ![5120, 0] S1024x128.size inb_S10240x128_S1024x128_5120_0)
      (fun v => k1_pay30 (bodyRun1.sl.r_2 c arg5 harg5 x5) (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun1.sl.v162 c i arg2 harg2 arg3 harg3 x2 x3) (Rect.unit (s := S10240x128) ![4096, 0] S1024x128.size inb_S10240x128_S1024x128_4096_0)
      (fun v => k1_pay29 (bodyRun1.sl.r_2 c arg5 harg5 x5) (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun1.sl.v157 c i arg2 harg2 arg3 harg3 x2 x3) (Rect.unit (s := S10240x128) ![3072, 0] S1024x128.size inb_S10240x128_S1024x128_3072_0)
      (fun v => k1_pay28 (bodyRun1.sl.r_2 c arg5 harg5 x5) (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun1.sl.v152 c i arg2 harg2 arg3 harg3 x2 x3) (Rect.unit (s := S10240x128) ![2048, 0] S1024x128.size inb_S10240x128_S1024x128_2048_0)
      (fun v => k1_pay27 (bodyRun1.sl.r_2 c arg5 harg5 x5) (bodyRun1.sl.r_11 c i arg2 harg2 arg3 harg3 arg4 harg4 arg5 harg5 arg6 harg6 arg7 harg7 arg8 harg8 arg15 x2 x3 x4 x5 x6 x7 x8 f15) bodyRun1.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (gatedRmw arg14.view (bodyRun1.sl.v147 c i arg2 harg2 arg3 harg3 x2 x3) (Rect.unit (s := S10240x128) ![1024, 0] S1024x128.size inb_S10240x128_S1024x128_1024_0)
      (fun v => k1_pay26 (bodyRun1.sl.r_2 c arg5 harg5 x5) (bodyRun1.sl.r_11 c i arg2 harg2 arg3 harg3 arg4 harg4 arg5 harg5 arg6 harg6 arg7 harg7 arg8 harg8 arg15 x2 x3 x4 x5 x6 x7 x8 f15) bodyRun1.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (gatedRmw arg14.view (bodyRun1.sl.v142 c i arg2 harg2 arg3 harg3 x2 x3) (Rect.unit (s := S10240x128) ![0, 0] S1024x128.size inb_S10240x128_S1024x128_0_0)
      (fun v => k1_pay25 (bodyRun1.sl.r_2 c arg5 harg5 x5) (bodyRun1.sl.r_11 c i arg2 harg2 arg3 harg3 arg4 harg4 arg5 harg5 arg6 harg6 arg7 harg7 arg8 harg8 arg15 x2 x3 x4 x5 x6 x7 x8 f15) bodyRun1.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (if _hc : bodyRun1.sl.v4 i = 1#1 then arg14.view.writes (Elt F) (harg14.unread x14) [⟨(Rect.unit (s := S10240x128) ![0, 0] S10240x128.size inb_S10240x128_S10240x128_0_0), k1_pay2⟩] else harg14.unread x14))))))))))) := rfl

set_option maxRecDepth 65536 in
/-- The output's staging buffer: one whole store under the last tile's condition. -/
theorem out_raw1 (c : Dev nD) (i : grid1.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    (bodyRun1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).2.2.1 = (if _hc : k1_cond22 i = 1#1 then arg13.view.writes (Elt F) f13 [⟨(Rect.unit (s := S1x10240x128) ![0, 0, 0] S1x10240x128.size inb_S1x10240x128_S1x10240x128_0_0_0), k1_pay1 (bodyRun1.sl.v266 c i arg2 harg2 arg3 harg3 arg4 harg4 arg5 harg5 arg6 harg6 arg7 harg7 arg8 harg8 arg9 harg9 arg10 harg10 arg11 harg11 arg12 harg12 arg14 harg14 arg15 x2 x3 x4 x5 x6 x7 x8 x9 x10 x11 x12 x14 f15)⟩] else f13) := rfl

/-! ## Loads off whole buffers, and the run's names as the functions of `StepDefsI0` -/

/-- A load off a whole buffer held at the raw contents of `X` reads `X` through the rectangle. -/
private theorem readAt_unread_ld1 {sp : Space} {s : Shape} {e : EltTy} (m : Memref sig .tc sp s e) (h : m.IsWhole)
    (X : s.Idx → Elt F e) (R : Rect s) : View.readAt (Elt F) m.view R.toLoadRect (h.unread X) = View.ld X R := by
  rw [View.readAt_eq_ld, h.read_unread]

private theorem ld_w_col1 {Val : EltTy → Type} {e : EltTy} (X : S256x1.Idx → Val e) : View.ld X (Rect.unit (s := S256x1) ![0, 0] S256x1.size inb_S256x1_S256x1_0_0) = X :=
  View.ld_unit_zero (by funext j; fin_cases j <;> rfl) _ X
private theorem ld_w_wA1 {Val : EltTy → Type} {e : EltTy} (X : S256x128.Idx → Val e) : View.ld X (Rect.unit (s := S256x128) ![0, 0] S256x128.size inb_S256x128_S256x128_0_0) = X :=
  View.ld_unit_zero (by funext j; fin_cases j <;> rfl) _ X
private theorem ld_w_bias1 {Val : EltTy → Type} {e : EltTy} (X : S1x128.Idx → Val e) : View.ld X (Rect.unit (s := S1x128) ![0, 0] S1x128.size inb_S1x128_S1x128_0_0) = X :=
  View.ld_unit_zero (by funext j; fin_cases j <;> rfl) _ X
private theorem ld_w_wB1 {Val : EltTy → Type} {e : EltTy} (X : S128x128.Idx → Val e) : View.ld X (Rect.unit (s := S128x128) ![0, 0] S128x128.size inb_S128x128_S128x128_0_0) = X :=
  View.ld_unit_zero (by funext j; fin_cases j <;> rfl) _ X
private theorem ld_w_rows1 {Val : EltTy → Type} {e : EltTy} (X : S256x128.Idx → Val e) : View.ld X (Rect.unit (s := S256x128) ![0, 0] S256x128.size inb_S256x128_S256x128_0_0) = X :=
  View.ld_unit_zero (by funext j; fin_cases j <;> rfl) _ X
private theorem ld_w_acc1 {Val : EltTy → Type} {e : EltTy} (X : S10240x128.Idx → Val e) : View.ld X (Rect.unit (s := S10240x128) ![0, 0] S10240x128.size inb_S10240x128_S10240x128_0_0) = X :=
  View.ld_unit_zero (by funext j; fin_cases j <;> rfl) _ X

/-- A store through the whole-shape rectangle, last, leaves its payload. -/
private theorem read_writes_cons_whole1 {sp : Space} {s : Shape} {e : EltTy} (v : View sig .tc sp s e)
    (f : v.ty.Contents (Elt F)) {off : Fin s.rank → Nat} (h0 : off = fun _ => 0) (inb : ∀ a, off a + s.size a ≤ s.size a)
    (w : (Rect.unit off s.size inb).shape.Idx → Elt F e) (L : List (View.Piece (Elt F) s e)) :
    v.read (Elt F) (v.writes (Elt F) f (⟨Rect.unit off s.size inb, w⟩ :: L)) = w := by
  subst h0
  funext y
  have e1 := View.read_writes_cons_emb v f (Rect.whole s) w L y
  rw [Rect.emb_whole_apply] at e1
  exact e1

private theorem lo_eq1 (c : Dev nD) (i : grid1.Coords) (arg2 : Memref sig .tc .smem S1250 .i32) (harg2 : arg2.IsWhole)
    (x2 : Vec F S1250 .i32) : bodyRun1.sl.r c i arg2 harg2 x2 = loW1 i x2 := by
  unfold bodyRun1.sl.r loW1
  rw [readAt_unread_ld1]

private theorem hi_eq1 (c : Dev nD) (i : grid1.Coords) (arg3 : Memref sig .tc .smem S1250 .i32) (harg3 : arg3.IsWhole)
    (x3 : Vec F S1250 .i32) : bodyRun1.sl.r_1 c i arg3 harg3 x3 = hiW1 i x3 := by
  unfold bodyRun1.sl.r_1 hiW1
  rw [readAt_unread_ld1]

private theorem gate1_0 (c : Dev nD) (i : grid1.Coords) (arg2 : Memref sig .tc .smem S1250 .i32) (harg2 : arg2.IsWhole) (arg3 : Memref sig .tc .smem S1250 .i32) (harg3 : arg3.IsWhole) (x2 x3 : Vec F S1250 .i32) :
    bodyRun1.sl.v142 c i arg2 harg2 arg3 harg3 x2 x3 = Cert.Spec.gateWord (loW1 i x2) (hiW1 i x3) 0#32 := by
  unfold bodyRun1.sl.v142 bodyRun1.sl.v141 bodyRun1.sl.v140 bodyRun1.sl.v138 bodyRun1.sl.v139
  rw [lo_eq1, hi_eq1]; rfl
private theorem gate1_1 (c : Dev nD) (i : grid1.Coords) (arg2 : Memref sig .tc .smem S1250 .i32) (harg2 : arg2.IsWhole) (arg3 : Memref sig .tc .smem S1250 .i32) (harg3 : arg3.IsWhole) (x2 x3 : Vec F S1250 .i32) :
    bodyRun1.sl.v147 c i arg2 harg2 arg3 harg3 x2 x3 = Cert.Spec.gateWord (loW1 i x2) (hiW1 i x3) 1#32 := by
  unfold bodyRun1.sl.v147 bodyRun1.sl.v146 bodyRun1.sl.v145 bodyRun1.sl.v143 bodyRun1.sl.v144
  rw [lo_eq1, hi_eq1]; rfl
private theorem gate1_2 (c : Dev nD) (i : grid1.Coords) (arg2 : Memref sig .tc .smem S1250 .i32) (harg2 : arg2.IsWhole) (arg3 : Memref sig .tc .smem S1250 .i32) (harg3 : arg3.IsWhole) (x2 x3 : Vec F S1250 .i32) :
    bodyRun1.sl.v152 c i arg2 harg2 arg3 harg3 x2 x3 = Cert.Spec.gateWord (loW1 i x2) (hiW1 i x3) 2#32 := by
  unfold bodyRun1.sl.v152 bodyRun1.sl.v151 bodyRun1.sl.v150 bodyRun1.sl.v148 bodyRun1.sl.v149
  rw [lo_eq1, hi_eq1]; rfl
private theorem gate1_3 (c : Dev nD) (i : grid1.Coords) (arg2 : Memref sig .tc .smem S1250 .i32) (harg2 : arg2.IsWhole) (arg3 : Memref sig .tc .smem S1250 .i32) (harg3 : arg3.IsWhole) (x2 x3 : Vec F S1250 .i32) :
    bodyRun1.sl.v157 c i arg2 harg2 arg3 harg3 x2 x3 = Cert.Spec.gateWord (loW1 i x2) (hiW1 i x3) 3#32 := by
  unfold bodyRun1.sl.v157 bodyRun1.sl.v156 bodyRun1.sl.v155 bodyRun1.sl.v153 bodyRun1.sl.v154
  rw [lo_eq1, hi_eq1]; rfl
private theorem gate1_4 (c : Dev nD) (i : grid1.Coords) (arg2 : Memref sig .tc .smem S1250 .i32) (harg2 : arg2.IsWhole) (arg3 : Memref sig .tc .smem S1250 .i32) (harg3 : arg3.IsWhole) (x2 x3 : Vec F S1250 .i32) :
    bodyRun1.sl.v162 c i arg2 harg2 arg3 harg3 x2 x3 = Cert.Spec.gateWord (loW1 i x2) (hiW1 i x3) 4#32 := by
  unfold bodyRun1.sl.v162 bodyRun1.sl.v161 bodyRun1.sl.v160 bodyRun1.sl.v158 bodyRun1.sl.v159
  rw [lo_eq1, hi_eq1]; rfl
private theorem gate1_5 (c : Dev nD) (i : grid1.Coords) (arg2 : Memref sig .tc .smem S1250 .i32) (harg2 : arg2.IsWhole) (arg3 : Memref sig .tc .smem S1250 .i32) (harg3 : arg3.IsWhole) (x2 x3 : Vec F S1250 .i32) :
    bodyRun1.sl.v167 c i arg2 harg2 arg3 harg3 x2 x3 = Cert.Spec.gateWord (loW1 i x2) (hiW1 i x3) 5#32 := by
  unfold bodyRun1.sl.v167 bodyRun1.sl.v166 bodyRun1.sl.v165 bodyRun1.sl.v163 bodyRun1.sl.v164
  rw [lo_eq1, hi_eq1]; rfl
private theorem gate1_6 (c : Dev nD) (i : grid1.Coords) (arg2 : Memref sig .tc .smem S1250 .i32) (harg2 : arg2.IsWhole) (arg3 : Memref sig .tc .smem S1250 .i32) (harg3 : arg3.IsWhole) (x2 x3 : Vec F S1250 .i32) :
    bodyRun1.sl.v172 c i arg2 harg2 arg3 harg3 x2 x3 = Cert.Spec.gateWord (loW1 i x2) (hiW1 i x3) 6#32 := by
  unfold bodyRun1.sl.v172 bodyRun1.sl.v171 bodyRun1.sl.v170 bodyRun1.sl.v168 bodyRun1.sl.v169
  rw [lo_eq1, hi_eq1]; rfl
private theorem gate1_7 (c : Dev nD) (i : grid1.Coords) (arg2 : Memref sig .tc .smem S1250 .i32) (harg2 : arg2.IsWhole) (arg3 : Memref sig .tc .smem S1250 .i32) (harg3 : arg3.IsWhole) (x2 x3 : Vec F S1250 .i32) :
    bodyRun1.sl.v177 c i arg2 harg2 arg3 harg3 x2 x3 = Cert.Spec.gateWord (loW1 i x2) (hiW1 i x3) 7#32 := by
  unfold bodyRun1.sl.v177 bodyRun1.sl.v176 bodyRun1.sl.v175 bodyRun1.sl.v173 bodyRun1.sl.v174
  rw [lo_eq1, hi_eq1]; rfl
private theorem gate1_8 (c : Dev nD) (i : grid1.Coords) (arg2 : Memref sig .tc .smem S1250 .i32) (harg2 : arg2.IsWhole) (arg3 : Memref sig .tc .smem S1250 .i32) (harg3 : arg3.IsWhole) (x2 x3 : Vec F S1250 .i32) :
    bodyRun1.sl.v182 c i arg2 harg2 arg3 harg3 x2 x3 = Cert.Spec.gateWord (loW1 i x2) (hiW1 i x3) 8#32 := by
  unfold bodyRun1.sl.v182 bodyRun1.sl.v181 bodyRun1.sl.v180 bodyRun1.sl.v178 bodyRun1.sl.v179
  rw [lo_eq1, hi_eq1]; rfl
private theorem gate1_9 (c : Dev nD) (i : grid1.Coords) (arg2 : Memref sig .tc .smem S1250 .i32) (harg2 : arg2.IsWhole) (arg3 : Memref sig .tc .smem S1250 .i32) (harg3 : arg3.IsWhole) (x2 x3 : Vec F S1250 .i32) :
    bodyRun1.sl.v187 c i arg2 harg2 arg3 harg3 x2 x3 = Cert.Spec.gateWord (loW1 i x2) (hiW1 i x3) 9#32 := by
  unfold bodyRun1.sl.v187 bodyRun1.sl.v186 bodyRun1.sl.v185 bodyRun1.sl.v183 bodyRun1.sl.v184
  rw [lo_eq1, hi_eq1]; rfl

private theorem first_eq1 (i : grid1.Coords) : bodyRun1.sl.v4 i = firstW1 i := rfl

private theorem r2_eq1 (c : Dev nD) (arg5 : Memref sig .tc .vmem S256x1 .i32) (harg5 : arg5.IsWhole) (x5 : Vec F S256x1 .i32) :
    bodyRun1.sl.r_2 c arg5 harg5 x5 = k1_pay3 x5 := by
  unfold bodyRun1.sl.r_2
  rw [readAt_unread_ld1, ld_w_col1]

private theorem xj_eq1 (c : Dev nD) (arg4 : Memref sig .tc .vmem S256x1 .i32) (harg4 : arg4.IsWhole)
    (arg6 : Memref sig .tc .vmem S10240x128 .f32) (harg6 : arg6.IsWhole) (x4 : Vec F S256x1 .i32) (x6 : Vec F S10240x128 .f32) :
    bodyRun1.sl.r_10 c arg4 harg4 arg6 harg6 x4 x6 = xj1 x4 x6 := by
  unfold bodyRun1.sl.r_10 bodyRun1.sl.r_9 bodyRun1.sl.r_8 bodyRun1.sl.r_7 bodyRun1.sl.r_6 bodyRun1.sl.r_5 bodyRun1.sl.r_4
    bodyRun1.sl.r_3 bodyRun1.sl.v39 xj1
  simp only [readAt_unread_ld1]
  rw [ld_w_col1 x4]

private theorem v277_eq1 (arg15 : Memref sig .tc .vmem S256x128 .f32) :
    bodyRun1.sl.v277 (F := F) arg15 = k1_pay12 := by
  unfold bodyRun1.sl.v277 bodyRun1.sl.H15_1
  exact View.readCov_unit_zero _ (by funext j; fin_cases j <;> rfl) _ _

/-- The first gated step of the target rows' gather, whose store the run listed with the zero fill. -/
private theorem read_xi_first1 (arg15 : Memref sig .tc .vmem S256x128 .f32) (g : BitVec 1)
    (f15 : BufTy.Contents (Elt F) arg15.view.ty) (w : ((Rect.unit (s := S256x128) ![0, 0] S256x128.size inb_S256x128_S256x128_0_0).shape.Idx → Elt F .f32) → ((Rect.unit (s := S256x128) ![0, 0] S256x128.size inb_S256x128_S256x128_0_0).shape.Idx → Elt F .f32)) :
    arg15.view.read (Elt F) (if _hc : g = 1#1 then arg15.view.writes (Elt F) f15 (⟨(Rect.unit (s := S256x128) ![0, 0] S256x128.size inb_S256x128_S256x128_0_0), w (bodyRun1.sl.v277 arg15)⟩ :: bodyRun1.sl.H15_1) else arg15.view.writes (Elt F) f15 bodyRun1.sl.H15_1)
      = xiStep1 g w k1_pay12 := by
  unfold xiStep1
  by_cases h : g = 1#1
  · rw [dif_pos h, if_pos h, read_writes_cons_whole1 _ _ (by funext j; fin_cases j <;> rfl), v277_eq1]
  · rw [dif_neg h, if_neg h]
    unfold bodyRun1.sl.H15_1
    rw [read_writes_cons_whole1 _ _ (by funext j; fin_cases j <;> rfl)]

/-- A later gated step of it. -/
private theorem read_xi_step1 (arg15 : Memref sig .tc .vmem S256x128 .f32) (g : BitVec 1)
    (w : ((Rect.unit (s := S256x128) ![0, 0] S256x128.size inb_S256x128_S256x128_0_0).shape.Idx → Elt F .f32) → ((Rect.unit (s := S256x128) ![0, 0] S256x128.size inb_S256x128_S256x128_0_0).shape.Idx → Elt F .f32)) (D : BufTy.Contents (Elt F) arg15.view.ty) :
    arg15.view.read (Elt F) (gatedRmw arg15.view g (Rect.unit (s := S256x128) ![0, 0] S256x128.size inb_S256x128_S256x128_0_0) w D) = xiStep1 g w (arg15.view.read (Elt F) D) := by
  rw [read_gatedRmw, gatedVal_whole (by funext j; fin_cases j <;> rfl)]
  rfl

theorem xi_eq1 (c : Dev nD) (i : grid1.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) : (bodyRun1.sl.v188 c i arg2 harg2 arg3 harg3 arg5 harg5 arg6 harg6 arg15 x2 x3 x5 x6 f15) = xi1 i x2 x3 x5 x6 := by
  rw [xi_raw1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, View.readAt_eq_ld, ld_w_rows1]
  rw [read_xi_step1, read_xi_step1, read_xi_step1, read_xi_step1, read_xi_step1, read_xi_step1, read_xi_step1, read_xi_step1, read_xi_step1, read_xi_first1]
  simp only [gate1_0, gate1_1, gate1_2, gate1_3, gate1_4, gate1_5, gate1_6, gate1_7, gate1_8, gate1_9, r2_eq1, readAt_unread_ld1]
  rfl

theorem hid_eq1 (c : Dev nD) (i : grid1.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) : (bodyRun1.sl.r_11 c i arg2 harg2 arg3 harg3 arg4 harg4 arg5 harg5 arg6 harg6 arg7 harg7 arg8 harg8 arg15 x2 x3 x4 x5 x6 x7 x8 f15) = hid1 i x2 x3 x4 x5 x6 x7 x8 := by
  unfold bodyRun1.sl.r_11 hid1
  rw [xi_eq1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, xj_eq1, readAt_unread_ld1, readAt_unread_ld1, ld_w_wA1 x7, ld_w_bias1 x8]

theorem msg_eq1 (c : Dev nD) (i : grid1.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) : (bodyRun1.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) = msg1 i x2 x3 x4 x5 x6 x7 x8 x9 x10 x11 x12 := by
  unfold bodyRun1.sl.r_12 msg1
  rw [hid_eq1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15]
  simp only [readAt_unread_ld1]
  rw [ld_w_wB1 x9, ld_w_bias1 x10, ld_w_wB1 x11, ld_w_bias1 x12]
  rfl

private theorem read_accBase1 (i : grid1.Coords) (arg14 : Memref sig .tc .vmem S10240x128 .f32) (harg14 : arg14.IsWhole)
    (x14 : Vec F S10240x128 .f32) :
    arg14.view.read (Elt F) (if _hc : bodyRun1.sl.v4 i = 1#1 then arg14.view.writes (Elt F) (harg14.unread x14) [⟨(Rect.unit (s := S10240x128) ![0, 0] S10240x128.size inb_S10240x128_S10240x128_0_0), k1_pay2⟩] else harg14.unread x14) = accReset1 i x14 := by
  unfold accReset1
  rw [first_eq1]
  by_cases h : firstW1 i = 1#1
  · rw [dif_pos h, if_pos h, read_writes_cons_whole1 _ _ (by funext j; fin_cases j <;> rfl)]
  · rw [dif_neg h, if_neg h, harg14.read_unread]

/-! ## The four facts -/

/-- The accumulator the body leaves reads `stepAcc1` of what the body was handed. -/
theorem bodyRun1_acc (c : Dev nD) (i : grid1.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    arg14.view.read (Elt F) (bodyRun1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).1 = stepAcc1 i x2 x3 x4 x5 x6 x7 x8 x9 x10 x11 x12 x14 := by
  rw [acc_raw1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15]
  simp only [read_gatedRmw]
  rw [read_accBase1]
  simp only [gate1_0, gate1_1, gate1_2, gate1_3, gate1_4, gate1_5, gate1_6, gate1_7, gate1_8, gate1_9, r2_eq1, hid_eq1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, msg_eq1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, readAt_unread_ld1]
  rw [ld_w_wB1 x9, ld_w_bias1 x10, ld_w_wB1 x11, ld_w_bias1 x12]
  rfl

/-- At the core's last tile the output's staging buffer holds the accumulator the body leaves, as a [1, 10240, 128] array. -/
theorem bodyRun1_out_flush (c : Dev nD) (i : grid1.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) (h : k1_cond22 i = 1#1) :
    arg13.view.read (Elt F) (bodyRun1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).2.2.1 = k1_pay1 (stepAcc1 i x2 x3 x4 x5 x6 x7 x8 x9 x10 x11 x12 x14) := by
  rw [out_raw1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, dif_pos h, read_writes_cons_whole1 _ _ (by funext j; fin_cases j <;> rfl), v266_raw1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15,
    View.readAt_eq_ld, ld_w_acc1, ← acc_raw1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, bodyRun1_acc c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15]

/-- At any other tile the body leaves it as it was. -/
theorem bodyRun1_out_idle (c : Dev nD) (i : grid1.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) (h : ¬ k1_cond22 i = 1#1) :
    (bodyRun1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).2.2.1 = f13 := by
  rw [out_raw1 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, dif_neg h]

/-- At a core's first tile the accumulator is reset before anything reads it: what the tile before left does not matter. -/
theorem stepAcc1_first (i : grid1.Coords) (h : (i 1).val = 0) (x2 x3 : Vec F S1250 .i32) (x4 x5 : Vec F S256x1 .i32)
    (x6 : Vec F S10240x128 .f32) (x7 : Vec F S256x128 .f32) (x8 : Vec F S1x128 .f32) (x9 : Vec F S128x128 .f32)
    (x10 : Vec F S1x128 .f32) (x11 : Vec F S128x128 .f32) (x12 : Vec F S1x128 .f32) (x14 x14' : Vec F S10240x128 .f32) :
    stepAcc1 i x2 x3 x4 x5 x6 x7 x8 x9 x10 x11 x12 x14 = stepAcc1 i x2 x3 x4 x5 x6 x7 x8 x9 x10 x11 x12 x14' := by
  have hf : firstW1 i = 1#1 := by
    unfold firstW1
    rw [h]
    rfl
  have e : ∀ x : Vec F S10240x128 .f32, accReset1 i x = k1_pay2 := fun x => if_pos hf
  unfold stepAcc1
  rw [e x14, e x14']

end Cert.KernelIdeal.Gen

end
-- ==== Proof.RegionDataI1.lean ====
import proofs.«414286_j65627100283289_3_alg».proof.Proof.Gen.KernelIdeal.Launch
import proofs.«414286_j65627100283289_3_alg».proof.Proof.Gen.KernelIdeal.Skeleton
import proofs.«414286_j65627100283289_3_alg».proof.Proof.BodyI1
import proofs.«414286_j65627100283289_3_alg».proof.Proof.StepDefsI1
import proofs.«414286_j65627100283289_3_alg».proof.Proof.StepI1
import Idealize.ShloMosaic.Lib.Pipeline.Frame
import Idealize.ShloMosaic.Lib.Pipeline.FrameBody
import Idealize.ShloMosaic.Lib.Tactic

/-!
# Region 1's proof data and body obligation

Region 1 is the first EdgeConv layer's kernel: a grid of 2 cores × 625 tiles, two prefetched tables (each tile's lowest
and highest target chunk), ten windows (the tile's source and target columns, the padded node table, six parameter
blocks, and one output block per core) and two scratch buffers: the accumulator, carried from tile to tile within a
core, and the target rows, overwritten at every tile.

The proof data name what every staging buffer holds after the body at every point: an input its block; the output the
accumulator after the point, in the output's shape (read only at a core's last tile, where the block is written back;
at every other tile the body leaves the output's buffer as it found it). The invariant carries the accumulator at the
contents `accAt1 n`, the fold of the body's step `stepAcc1` over the points before `n`; the step at a core's first
tile does not read what it finds, so the fold's start is immaterial. The body's own run and the facts about what it
leaves come from the body's modules.

-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 1 (custom_call 0, pipeline 0): its proof data at the entry contents `V` and the tables' contents `a` -/

section Region1

-- the TensorCore's buffer contents when the region is entered, and the admissible contents of the two prefetched tables
variable (V : (c : Dev nD) → (b : Ref sig .tc) → Buf (Elt F) ((c : Thread nD τ).loc b))
variable (a : (pcfg1 (F := F)).Adm)

/-! ## The schedule: the staging memrefs at a point, and the body as the pipeline calls it -/

/-- Each window's current staging memref at point `t`, spelled as the pipeline passes it, and its wholeness. The index
    maps do not read the tables, so nothing here evaluates `a`. -/
abbrev ms1_0 (t : Fin (cfg1 a).N) := spec1_0.stage ((cfg1 a).slots t 0)
abbrev hs1_0 (t : Fin (cfg1 a).N) : (ms1_0 a t).IsWhole := hstage1_0 (((cfg1 a).slots t 0).cast nbuf1_0)
abbrev ms1_1 (t : Fin (cfg1 a).N) := spec1_1.stage ((cfg1 a).slots t 1)
abbrev hs1_1 (t : Fin (cfg1 a).N) : (ms1_1 a t).IsWhole := hstage1_1 (((cfg1 a).slots t 1).cast nbuf1_1)
abbrev ms1_2 (t : Fin (cfg1 a).N) := spec1_2.stage ((cfg1 a).slots t 2)
abbrev hs1_2 (t : Fin (cfg1 a).N) : (ms1_2 a t).IsWhole := hstage1_2 (((cfg1 a).slots t 2).cast nbuf1_2)
abbrev ms1_3 (t : Fin (cfg1 a).N) := spec1_3.stage ((cfg1 a).slots t 3)
abbrev hs1_3 (t : Fin (cfg1 a).N) : (ms1_3 a t).IsWhole := hstage1_3 (((cfg1 a).slots t 3).cast nbuf1_3)
abbrev ms1_4 (t : Fin (cfg1 a).N) := spec1_4.stage ((cfg1 a).slots t 4)
abbrev hs1_4 (t : Fin (cfg1 a).N) : (ms1_4 a t).IsWhole := hstage1_4 (((cfg1 a).slots t 4).cast nbuf1_4)
abbrev ms1_5 (t : Fin (cfg1 a).N) := spec1_5.stage ((cfg1 a).slots t 5)
abbrev hs1_5 (t : Fin (cfg1 a).N) : (ms1_5 a t).IsWhole := hstage1_5 (((cfg1 a).slots t 5).cast nbuf1_5)
abbrev ms1_6 (t : Fin (cfg1 a).N) := spec1_6.stage ((cfg1 a).slots t 6)
abbrev hs1_6 (t : Fin (cfg1 a).N) : (ms1_6 a t).IsWhole := hstage1_6 (((cfg1 a).slots t 6).cast nbuf1_6)
abbrev ms1_7 (t : Fin (cfg1 a).N) := spec1_7.stage ((cfg1 a).slots t 7)
abbrev hs1_7 (t : Fin (cfg1 a).N) : (ms1_7 a t).IsWhole := hstage1_7 (((cfg1 a).slots t 7).cast nbuf1_7)
abbrev ms1_8 (t : Fin (cfg1 a).N) := spec1_8.stage ((cfg1 a).slots t 8)
abbrev hs1_8 (t : Fin (cfg1 a).N) : (ms1_8 a t).IsWhole := hstage1_8 (((cfg1 a).slots t 8).cast nbuf1_8)
abbrev ms1_9 (t : Fin (cfg1 a).N) := spec1_9.stage ((cfg1 a).slots t 9)
abbrev hs1_9 (t : Fin (cfg1 a).N) : (ms1_9 a t).IsWhole := hstage1_9 (((cfg1 a).slots t 9).cast nbuf1_9)

/-- The body at point `t`: the two tables whole, the ten windows' current staging memrefs, the two scratch buffers whole. -/
abbrev bodyAt1 (t : Fin (cfg1 a).N) :=
  cc1__edgeconv_kernel (F := F) (grid1.coords t) (Memref.whole main_v31) (Memref.isWhole_whole _) (Memref.whole main_v39) (Memref.isWhole_whole _)
    (ms1_0 a t) (hs1_0 a t) (ms1_1 a t) (hs1_1 a t) (ms1_2 a t) (hs1_2 a t) (ms1_3 a t) (hs1_3 a t) (ms1_4 a t) (hs1_4 a t) (ms1_5 a t) (hs1_5 a t) (ms1_6 a t) (hs1_6 a t) (ms1_7 a t) (hs1_7 a t) (ms1_8 a t) (hs1_8 a t) (ms1_9 a t) (hs1_9 a t)
    (Memref.whole cc1_scratch0) (Memref.isWhole_whole _) (Memref.whole cc1_scratch1) (Memref.isWhole_whole _)

/-- It is what the body table runs at the pipeline's argument for the point. -/
theorem bodyAt1_eq (t : Fin (cfg1 a).N) :
    defs₀ (F := F) .tc (cfg1 a).body ((cfg1 a).bodyArgs t ((cfg1 a).slots t)) = bodyAt1 a t := rfl

/-- The output window is written back exactly where the body's last conditional fires: elsewhere no write-back. -/
theorem wbClosed1_9 : ∀ t : Fin grid1.N, k1_cond22 (grid1.coords t) = 1#1 ∨
    (t.val + 1 = grid1.N || decide (∃ h : t.val + 1 < grid1.N, cc1_transform_9 (grid1.coords ⟨t.val + 1, h⟩) ≠ cc1_transform_9 (grid1.coords t))) = false := by
  decide +kernel

theorem flushNot1_9 (t : Fin (cfg1 a).N) (h : ¬ k1_cond22 (grid1.coords t) = 1#1) : ((cfg1 a).win (9 : Fin 10)).flush t = false := by
  have := (wbClosed1_9 t).resolve_left h
  show (true && _) = false
  rw [Bool.true_and]; exact this

/-- Where the conditional fires the window is live, elsewhere idle. -/
theorem idleLive1_9 (t : Fin (cfg1 a).N) (h : k1_cond22 (grid1.coords t) = 1#1) : (cfg1 a).idle (9 : Fin 10) ((cfg1 a).grid.coords t) = false := by
  show (!(k1_cond22 (grid1.coords t) == 1#1)) = false
  rw [h]; rfl
theorem idleNot1_9 (t : Fin (cfg1 a).N) (h : ¬ k1_cond22 (grid1.coords t) = 1#1) : (cfg1 a).idle (9 : Fin 10) ((cfg1 a).grid.coords t) = true := by
  show (!(k1_cond22 (grid1.coords t) == 1#1)) = true
  rw [Bool.not_eq_true', beq_eq_false_iff_ne]; exact h

/-- At the first point of the grid the tile coordinate is zero. -/
theorem coords1_first (t : Fin (cfg1 a).N) (h : t.val = 0) : ((grid1.coords t) 1).val = 0 := by
  obtain ⟨n, hn⟩ := t
  simp only at h; subst h
  exact (by decide +kernel : ((grid1.coords (⟨0, by decide⟩ : Fin grid1.N)) 1).val = 0)

/-! ## The windows' blocks -/

/-- Window `w`'s block at point `t`, read off its array as the region finds it (`V`). -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- An input window's current staging buffer holds its block at every point, fetched there or not, for ANY proof data
    whose array is `V`'s and whose body leaves the block in place: unfetched, the block index has not moved. -/
theorem before1_0_of {c : Dev nD} (dat : Dat τ (Elt F) Unit ℕ (Pipeline.UD sig nD τ) ℕ (cfg1 a) c) (hA : dat.A (0 : Fin 10) = V c (Pipeline.arrRef spec1 (0 : Fin 10)))
    (hafter : ∀ t, dat.after (0 : Fin 10) t = iblk1 V a c (0 : Fin 10) t) (t : Fin (cfg1 a).N) (d) : dat.before (0 : Fin 10) t d = iblk1 V a c (0 : Fin 10) t := by
  have hblk : ∀ t, dat.blockOf (0 : Fin 10) t = iblk1 V a c (0 : Fin 10) t := fun t => by unfold Dat.blockOf iblk1; rw [hA]
  have hkeep : ∀ t, ((cfg1 a).win (0 : Fin 10)).cut ((cfg1 a).grid.coords t) (dat.after (0 : Fin 10) t) = dat.blockOf (0 : Fin 10) t := fun t => by
    rw [hafter, hblk]
  rw [dat.before_in_eq_fetched (0 : Fin 10) rfl (fun _ => rfl) (fun _ _ _ => rfl) hkeep t d]
  show ((cfg1 a).win (0 : Fin 10)).fill _ d (dat.blockOf (0 : Fin 10) t) = _
  rw [hblk]; rfl
theorem before1_1_of {c : Dev nD} (dat : Dat τ (Elt F) Unit ℕ (Pipeline.UD sig nD τ) ℕ (cfg1 a) c) (hA : dat.A (1 : Fin 10) = V c (Pipeline.arrRef spec1 (1 : Fin 10)))
    (hafter : ∀ t, dat.after (1 : Fin 10) t = iblk1 V a c (1 : Fin 10) t) (t : Fin (cfg1 a).N) (d) : dat.before (1 : Fin 10) t d = iblk1 V a c (1 : Fin 10) t := by
  have hblk : ∀ t, dat.blockOf (1 : Fin 10) t = iblk1 V a c (1 : Fin 10) t := fun t => by unfold Dat.blockOf iblk1; rw [hA]
  have hkeep : ∀ t, ((cfg1 a).win (1 : Fin 10)).cut ((cfg1 a).grid.coords t) (dat.after (1 : Fin 10) t) = dat.blockOf (1 : Fin 10) t := fun t => by
    rw [hafter, hblk]
  rw [dat.before_in_eq_fetched (1 : Fin 10) rfl (fun _ => rfl) (fun _ _ _ => rfl) hkeep t d]
  show ((cfg1 a).win (1 : Fin 10)).fill _ d (dat.blockOf (1 : Fin 10) t) = _
  rw [hblk]; rfl
theorem before1_2_of {c : Dev nD} (dat : Dat τ (Elt F) Unit ℕ (Pipeline.UD sig nD τ) ℕ (cfg1 a) c) (hA : dat.A (2 : Fin 10) = V c (Pipeline.arrRef spec1 (2 : Fin 10)))
    (hafter : ∀ t, dat.after (2 : Fin 10) t = iblk1 V a c (2 : Fin 10) t) (t : Fin (cfg1 a).N) (d) : dat.before (2 : Fin 10) t d = iblk1 V a c (2 : Fin 10) t := by
  have hblk : ∀ t, dat.blockOf (2 : Fin 10) t = iblk1 V a c (2 : Fin 10) t := fun t => by unfold Dat.blockOf iblk1; rw [hA]
  have hkeep : ∀ t, ((cfg1 a).win (2 : Fin 10)).cut ((cfg1 a).grid.coords t) (dat.after (2 : Fin 10) t) = dat.blockOf (2 : Fin 10) t := fun t => by
    rw [hafter, hblk]
  rw [dat.before_in_eq_fetched (2 : Fin 10) rfl (fun _ => rfl) (fun _ _ _ => rfl) hkeep t d]
  show ((cfg1 a).win (2 : Fin 10)).fill _ d (dat.blockOf (2 : Fin 10) t) = _
  rw [hblk]; rfl
theorem before1_3_of {c : Dev nD} (dat : Dat τ (Elt F) Unit ℕ (Pipeline.UD sig nD τ) ℕ (cfg1 a) c) (hA : dat.A (3 : Fin 10) = V c (Pipeline.arrRef spec1 (3 : Fin 10)))
    (hafter : ∀ t, dat.after (3 : Fin 10) t = iblk1 V a c (3 : Fin 10) t) (t : Fin (cfg1 a).N) (d) : dat.before (3 : Fin 10) t d = iblk1 V a c (3 : Fin 10) t := by
  have hblk : ∀ t, dat.blockOf (3 : Fin 10) t = iblk1 V a c (3 : Fin 10) t := fun t => by unfold Dat.blockOf iblk1; rw [hA]
  have hkeep : ∀ t, ((cfg1 a).win (3 : Fin 10)).cut ((cfg1 a).grid.coords t) (dat.after (3 : Fin 10) t) = dat.blockOf (3 : Fin 10) t := fun t => by
    rw [hafter, hblk]
  rw [dat.before_in_eq_fetched (3 : Fin 10) rfl (fun _ => rfl) (fun _ _ _ => rfl) hkeep t d]
  show ((cfg1 a).win (3 : Fin 10)).fill _ d (dat.blockOf (3 : Fin 10) t) = _
  rw [hblk]; rfl
theorem before1_4_of {c : Dev nD} (dat : Dat τ (Elt F) Unit ℕ (Pipeline.UD sig nD τ) ℕ (cfg1 a) c) (hA : dat.A (4 : Fin 10) = V c (Pipeline.arrRef spec1 (4 : Fin 10)))
    (hafter : ∀ t, dat.after (4 : Fin 10) t = iblk1 V a c (4 : Fin 10) t) (t : Fin (cfg1 a).N) (d) : dat.before (4 : Fin 10) t d = iblk1 V a c (4 : Fin 10) t := by
  have hblk : ∀ t, dat.blockOf (4 : Fin 10) t = iblk1 V a c (4 : Fin 10) t := fun t => by unfold Dat.blockOf iblk1; rw [hA]
  have hkeep : ∀ t, ((cfg1 a).win (4 : Fin 10)).cut ((cfg1 a).grid.coords t) (dat.after (4 : Fin 10) t) = dat.blockOf (4 : Fin 10) t := fun t => by
    rw [hafter, hblk]
  rw [dat.before_in_eq_fetched (4 : Fin 10) rfl (fun _ => rfl) (fun _ _ _ => rfl) hkeep t d]
  show ((cfg1 a).win (4 : Fin 10)).fill _ d (dat.blockOf (4 : Fin 10) t) = _
  rw [hblk]; rfl
theorem before1_5_of {c : Dev nD} (dat : Dat τ (Elt F) Unit ℕ (Pipeline.UD sig nD τ) ℕ (cfg1 a) c) (hA : dat.A (5 : Fin 10) = V c (Pipeline.arrRef spec1 (5 : Fin 10)))
    (hafter : ∀ t, dat.after (5 : Fin 10) t = iblk1 V a c (5 : Fin 10) t) (t : Fin (cfg1 a).N) (d) : dat.before (5 : Fin 10) t d = iblk1 V a c (5 : Fin 10) t := by
  have hblk : ∀ t, dat.blockOf (5 : Fin 10) t = iblk1 V a c (5 : Fin 10) t := fun t => by unfold Dat.blockOf iblk1; rw [hA]
  have hkeep : ∀ t, ((cfg1 a).win (5 : Fin 10)).cut ((cfg1 a).grid.coords t) (dat.after (5 : Fin 10) t) = dat.blockOf (5 : Fin 10) t := fun t => by
    rw [hafter, hblk]
  rw [dat.before_in_eq_fetched (5 : Fin 10) rfl (fun _ => rfl) (fun _ _ _ => rfl) hkeep t d]
  show ((cfg1 a).win (5 : Fin 10)).fill _ d (dat.blockOf (5 : Fin 10) t) = _
  rw [hblk]; rfl
theorem before1_6_of {c : Dev nD} (dat : Dat τ (Elt F) Unit ℕ (Pipeline.UD sig nD τ) ℕ (cfg1 a) c) (hA : dat.A (6 : Fin 10) = V c (Pipeline.arrRef spec1 (6 : Fin 10)))
    (hafter : ∀ t, dat.after (6 : Fin 10) t = iblk1 V a c (6 : Fin 10) t) (t : Fin (cfg1 a).N) (d) : dat.before (6 : Fin 10) t d = iblk1 V a c (6 : Fin 10) t := by
  have hblk : ∀ t, dat.blockOf (6 : Fin 10) t = iblk1 V a c (6 : Fin 10) t := fun t => by unfold Dat.blockOf iblk1; rw [hA]
  have hkeep : ∀ t, ((cfg1 a).win (6 : Fin 10)).cut ((cfg1 a).grid.coords t) (dat.after (6 : Fin 10) t) = dat.blockOf (6 : Fin 10) t := fun t => by
    rw [hafter, hblk]
  rw [dat.before_in_eq_fetched (6 : Fin 10) rfl (fun _ => rfl) (fun _ _ _ => rfl) hkeep t d]
  show ((cfg1 a).win (6 : Fin 10)).fill _ d (dat.blockOf (6 : Fin 10) t) = _
  rw [hblk]; rfl
theorem before1_7_of {c : Dev nD} (dat : Dat τ (Elt F) Unit ℕ (Pipeline.UD sig nD τ) ℕ (cfg1 a) c) (hA : dat.A (7 : Fin 10) = V c (Pipeline.arrRef spec1 (7 : Fin 10)))
    (hafter : ∀ t, dat.after (7 : Fin 10) t = iblk1 V a c (7 : Fin 10) t) (t : Fin (cfg1 a).N) (d) : dat.before (7 : Fin 10) t d = iblk1 V a c (7 : Fin 10) t := by
  have hblk : ∀ t, dat.blockOf (7 : Fin 10) t = iblk1 V a c (7 : Fin 10) t := fun t => by unfold Dat.blockOf iblk1; rw [hA]
  have hkeep : ∀ t, ((cfg1 a).win (7 : Fin 10)).cut ((cfg1 a).grid.coords t) (dat.after (7 : Fin 10) t) = dat.blockOf (7 : Fin 10) t := fun t => by
    rw [hafter, hblk]
  rw [dat.before_in_eq_fetched (7 : Fin 10) rfl (fun _ => rfl) (fun _ _ _ => rfl) hkeep t d]
  show ((cfg1 a).win (7 : Fin 10)).fill _ d (dat.blockOf (7 : Fin 10) t) = _
  rw [hblk]; rfl
theorem before1_8_of {c : Dev nD} (dat : Dat τ (Elt F) Unit ℕ (Pipeline.UD sig nD τ) ℕ (cfg1 a) c) (hA : dat.A (8 : Fin 10) = V c (Pipeline.arrRef spec1 (8 : Fin 10)))
    (hafter : ∀ t, dat.after (8 : Fin 10) t = iblk1 V a c (8 : Fin 10) t) (t : Fin (cfg1 a).N) (d) : dat.before (8 : Fin 10) t d = iblk1 V a c (8 : Fin 10) t := by
  have hblk : ∀ t, dat.blockOf (8 : Fin 10) t = iblk1 V a c (8 : Fin 10) t := fun t => by unfold Dat.blockOf iblk1; rw [hA]
  have hkeep : ∀ t, ((cfg1 a).win (8 : Fin 10)).cut ((cfg1 a).grid.coords t) (dat.after (8 : Fin 10) t) = dat.blockOf (8 : Fin 10) t := fun t => by
    rw [hafter, hblk]
  rw [dat.before_in_eq_fetched (8 : Fin 10) rfl (fun _ => rfl) (fun _ _ _ => rfl) hkeep t d]
  show ((cfg1 a).win (8 : Fin 10)).fill _ d (dat.blockOf (8 : Fin 10) t) = _
  rw [hblk]; rfl

/-! ## The accumulator, point by point -/

/-- The two tables' contents as the body reads them. -/
abbrev tab1_0 : Vec F S1250 .i32 := a.1 0
abbrev tab1_1 : Vec F S1250 .i32 := a.1 1

/-- The accumulator before point `n` (after point `n - 1`): anything before the first point, then one body step per
    point over the point's blocks and what the point before left. -/
def accAt1 (c : Dev nD) : ℕ → Vec F S10240x128 .f32
  | 0 => (Memref.whole cc1_scratch0).view.read (Elt F) (V c cc1_scratch0)
  | n + 1 =>
    if h : n < (cfg1 a).N then
      stepAcc1 (grid1.coords ⟨n, h⟩) (tab1_0 a) (tab1_1 a) (iblk1 V a c (0 : Fin 10) ⟨n, h⟩) (iblk1 V a c (1 : Fin 10) ⟨n, h⟩) (iblk1 V a c (2 : Fin 10) ⟨n, h⟩) (iblk1 V a c (3 : Fin 10) ⟨n, h⟩) (iblk1 V a c (4 : Fin 10) ⟨n, h⟩) (iblk1 V a c (5 : Fin 10) ⟨n, h⟩) (iblk1 V a c (6 : Fin 10) ⟨n, h⟩) (iblk1 V a c (7 : Fin 10) ⟨n, h⟩) (iblk1 V a c (8 : Fin 10) ⟨n, h⟩) (accAt1 c n)
    else accAt1 c n

theorem accAt1_succ (c : Dev nD) (t : Fin (cfg1 a).N) :
    accAt1 V a c (t.val + 1)
      = stepAcc1 (grid1.coords t) (tab1_0 a) (tab1_1 a) (iblk1 V a c (0 : Fin 10) t) (iblk1 V a c (1 : Fin 10) t) (iblk1 V a c (2 : Fin 10) t) (iblk1 V a c (3 : Fin 10) t) (iblk1 V a c (4 : Fin 10) t) (iblk1 V a c (5 : Fin 10) t) (iblk1 V a c (6 : Fin 10) t) (iblk1 V a c (7 : Fin 10) t) (iblk1 V a c (8 : Fin 10) t) (accAt1 V a c t.val) := by
  obtain ⟨n, hn⟩ := t
  exact dif_pos hn

/-! ## The invariant and the proof data -/

/-- The invariant before point `n`: the two tables held whole at `a`; the accumulator scratch at some contents, which
    after the first point are `accAt1 n`; the target-row scratch at anything; every other scoped buffer that is no
    staging buffer, unopened; the generator register at some state. -/
def Phi1 (c : Dev nD) (n : ℕ) : sProp 𝕄 :=
  iprop(Pipeline.prefHeld pre1 c (fun _ => fullShare) a.1
    ∗ (∃ x14 : Vec F S10240x128 .f32, ⌜n ≠ 0 → x14 = accAt1 V a c n⌝ ∗ owns (c : Thread nD τ) (Memref.whole cc1_scratch0) fullShare x14)
    ∗ (∃ d, owns (c : Thread nD τ) (Memref.whole cc1_scratch1) fullShare d)
    ∗ Pipeline.scopedRestBut spec1 c [cc1_scratch0, cc1_scratch1]
    ∗ (∃ r, prngReg c r))

/-- The proof data of pipeline 0 on core `c`: the arrays as the region finds them (`V`); after the body at point `t` each
    input's buffer at its block and the output's at the accumulator after the point, cast to the output's shape (read only
    where the block is written back); the invariant `Phi1`; nothing owed; full shares. -/
def dat1 (c : Dev nD) : Dat τ (Elt F) Unit ℕ (Pipeline.UD sig nD τ) ℕ (cfg1 a) c where
  A w := V c (Pipeline.arrRef spec1 w)
  after w t := match w with
    | ⟨0, _⟩ => iblk1 V a c (0 : Fin 10) t
    | ⟨1, _⟩ => iblk1 V a c (1 : Fin 10) t
    | ⟨2, _⟩ => iblk1 V a c (2 : Fin 10) t
    | ⟨3, _⟩ => iblk1 V a c (3 : Fin 10) t
    | ⟨4, _⟩ => iblk1 V a c (4 : Fin 10) t
    | ⟨5, _⟩ => iblk1 V a c (5 : Fin 10) t
    | ⟨6, _⟩ => iblk1 V a c (6 : Fin 10) t
    | ⟨7, _⟩ => iblk1 V a c (7 : Fin 10) t
    | ⟨8, _⟩ => iblk1 V a c (8 : Fin 10) t
    | ⟨9, _⟩ => k1_pay1 (accAt1 V a c (t.val + 1))
  Φ t := Phi1 V a c t.val
  q _ := fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after (0 : Fin 10) t = iblk1 V a c (0 : Fin 10) t := by dsimp only [dat1]
theorem after1_1 (c : Dev nD) (t : Fin (cfg1 a).N) : (dat1 V a c).after (1 : Fin 10) t = iblk1 V a c (1 : Fin 10) t := by dsimp only [dat1]
theorem after1_2 (c : Dev nD) (t : Fin (cfg1 a).N) : (dat1 V a c).after (2 : Fin 10) t = iblk1 V a c (2 : Fin 10) t := by dsimp only [dat1]
theorem after1_3 (c : Dev nD) (t : Fin (cfg1 a).N) : (dat1 V a c).after (3 : Fin 10) t = iblk1 V a c (3 : Fin 10) t := by dsimp only [dat1]
theorem after1_4 (c : Dev nD) (t : Fin (cfg1 a).N) : (dat1 V a c).after (4 : Fin 10) t = iblk1 V a c (4 : Fin 10) t := by dsimp only [dat1]
theorem after1_5 (c : Dev nD) (t : Fin (cfg1 a).N) : (dat1 V a c).after (5 : Fin 10) t = iblk1 V a c (5 : Fin 10) t := by dsimp only [dat1]
theorem after1_6 (c : Dev nD) (t : Fin (cfg1 a).N) : (dat1 V a c).after (6 : Fin 10) t = iblk1 V a c (6 : Fin 10) t := by dsimp only [dat1]
theorem after1_7 (c : Dev nD) (t : Fin (cfg1 a).N) : (dat1 V a c).after (7 : Fin 10) t = iblk1 V a c (7 : Fin 10) t := by dsimp only [dat1]
theorem after1_8 (c : Dev nD) (t : Fin (cfg1 a).N) : (dat1 V a c).after (8 : Fin 10) t = iblk1 V a c (8 : Fin 10) t := by dsimp only [dat1]
theorem after1_9 (c : Dev nD) (t : Fin (cfg1 a).N) : (dat1 V a c).after (9 : Fin 10) t = k1_pay1 (accAt1 V a c (t.val + 1)) := by dsimp only [dat1]

theorem before1_0 (c : Dev nD) (t : Fin (cfg1 a).N) (d) : (dat1 V a c).before (0 : Fin 10) t d = iblk1 V a c (0 : Fin 10) t :=
  before1_0_of V a (dat1 V a c) (A_eq1 V a c (0 : Fin 10)) (after1_0 V a c) t d
theorem before1_1 (c : Dev nD) (t : Fin (cfg1 a).N) (d) : (dat1 V a c).before (1 : Fin 10) t d = iblk1 V a c (1 : Fin 10) t :=
  before1_1_of V a (dat1 V a c) (A_eq1 V a c (1 : Fin 10)) (after1_1 V a c) t d
theorem before1_2 (c : Dev nD) (t : Fin (cfg1 a).N) (d) : (dat1 V a c).before (2 : Fin 10) t d = iblk1 V a c (2 : Fin 10) t :=
  before1_2_of V a (dat1 V a c) (A_eq1 V a c (2 : Fin 10)) (after1_2 V a c) t d
theorem before1_3 (c : Dev nD) (t : Fin (cfg1 a).N) (d) : (dat1 V a c).before (3 : Fin 10) t d = iblk1 V a c (3 : Fin 10) t :=
  before1_3_of V a (dat1 V a c) (A_eq1 V a c (3 : Fin 10)) (after1_3 V a c) t d
theorem before1_4 (c : Dev nD) (t : Fin (cfg1 a).N) (d) : (dat1 V a c).before (4 : Fin 10) t d = iblk1 V a c (4 : Fin 10) t :=
  before1_4_of V a (dat1 V a c) (A_eq1 V a c (4 : Fin 10)) (after1_4 V a c) t d
theorem before1_5 (c : Dev nD) (t : Fin (cfg1 a).N) (d) : (dat1 V a c).before (5 : Fin 10) t d = iblk1 V a c (5 : Fin 10) t :=
  before1_5_of V a (dat1 V a c) (A_eq1 V a c (5 : Fin 10)) (after1_5 V a c) t d
theorem before1_6 (c : Dev nD) (t : Fin (cfg1 a).N) (d) : (dat1 V a c).before (6 : Fin 10) t d = iblk1 V a c (6 : Fin 10) t :=
  before1_6_of V a (dat1 V a c) (A_eq1 V a c (6 : Fin 10)) (after1_6 V a c) t d
theorem before1_7 (c : Dev nD) (t : Fin (cfg1 a).N) (d) : (dat1 V a c).before (7 : Fin 10) t d = iblk1 V a c (7 : Fin 10) t :=
  before1_7_of V a (dat1 V a c) (A_eq1 V a c (7 : Fin 10)) (after1_7 V a c) t d
theorem before1_8 (c : Dev nD) (t : Fin (cfg1 a).N) (d) : (dat1 V a c).before (8 : Fin 10) t d = iblk1 V a c (8 : Fin 10) t :=
  before1_8_of V a (dat1 V a c) (A_eq1 V a c (8 : Fin 10)) (after1_8 V a c) t d

theorem Phi1_castSucc (c : Dev nD) (t : Fin (cfg1 a).N) : (dat1 V a c).Φ t.castSucc = Phi1 V a c t.val := by
  dsimp only [dat1]; simp only [Fin.coe_castSucc]
theorem Phi1_succ (c : Dev nD) (t : Fin (cfg1 a).N) : (dat1 V a c).Φ t.succ = Phi1 V a c (t.val + 1) := by
  dsimp only [dat1]; simp only [Fin.val_succ]

/-! ## The body's run at a point -/

/-- The body's run at point `t`: the tables, the point's staging memrefs and blocks, the two scratch buffers; over the
    accumulator's contents `x14` and the raw contents `f13`, `f15` of the two buffers it is handed at anything. -/
abbrev run1 (c : Dev nD) (t : Fin (cfg1 a).N) (x14 : Vec F S10240x128 .f32)
    (f13 : BufTy.Contents (Elt F) (ms1_9 a t).view.ty) (f15 : BufTy.Contents (Elt F) (Memref.whole cc1_scratch1 : Memref sig .tc _ _ _).view.ty) :=
  bodyRun1 (F := F) c (grid1.coords t) (Memref.whole main_v31) (Memref.isWhole_whole _) (Memref.whole main_v39) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (ms1_6 a t) (hs1_6 a t) (ms1_7 a t) (hs1_7 a t) (ms1_8 a t) (hs1_8 a t) (ms1_9 a t) (hs1_9 a t) (Memref.whole cc1_scratch0) (Memref.isWhole_whole _) (Memref.whole cc1_scratch1) (Memref.isWhole_whole _) (tab1_0 a) (tab1_1 a) (iblk1 V a c (0 : Fin 10) t) (iblk1 V a c (1 : Fin 10) t) (iblk1 V a c (2 : Fin 10) t) (iblk1 V a c (3 : Fin 10) t) (iblk1 V a c (4 : Fin 10) t) (iblk1 V a c (5 : Fin 10) t) (iblk1 V a c (6 : Fin 10) t) (iblk1 V a c (7 : Fin 10) t) (iblk1 V a c (8 : Fin 10) t) x14 f13 f15

/-- One step from what the invariant knows of the accumulator lands on the next named contents: at the first point the
    step does not read what it finds. -/
theorem acc1_step (c : Dev nD) (t : Fin (cfg1 a).N) (x14 : Vec F S10240x128 .f32)
    (hx : t.val ≠ 0 → x14 = accAt1 V a c t.val) :
    stepAcc1 (grid1.coords t) (tab1_0 a) (tab1_1 a) (iblk1 V a c (0 : Fin 10) t) (iblk1 V a c (1 : Fin 10) t) (iblk1 V a c (2 : Fin 10) t) (iblk1 V a c (3 : Fin 10) t) (iblk1 V a c (4 : Fin 10) t) (iblk1 V a c (5 : Fin 10) t) (iblk1 V a c (6 : Fin 10) t) (iblk1 V a c (7 : Fin 10) t) (iblk1 V a c (8 : Fin 10) t) x14 = accAt1 V a c (t.val + 1) := by
  rw [accAt1_succ]
  by_cases h0 : t.val = 0
  · exact stepAcc1_first _ (coords1_first a t h0) _ _ _ _ _ _ _ _ _ _ _ _ _
  · rw [hx h0]

/-- What the body leaves in the output's staging buffer is what the obligation asks of it: where the block is written
    back, the accumulator after the point in the output's shape; elsewhere, the buffer as it was found. -/
theorem leaves1_9 (c : Dev nD) (t : Fin (cfg1 a).N) (x14 : Vec F S10240x128 .f32)
    (hx : t.val ≠ 0 → x14 = accAt1 V a c t.val) (d9) (f13 : BufTy.Contents (Elt F) (ms1_9 a t).view.ty)
    (hf13 : (ms1_9 a t).view.read (Elt F) f13 = (dat1 V a c).before (9 : Fin 10) t d9) (f15) :
    ((ms1_9 a t).view.loc (c : Thread nD τ) ↦[(ms1_9 a t).view.set]{fullShare} (run1 V a c t x14 f13 f15).2.2.1 : sProp 𝕄)
      ⊢ (dat1 V a c).leavesExact (9 : Fin 10) t := by
  by_cases hc : k1_cond22 (grid1.coords t) = 1#1
  · have hlive : (dat1 V a c).leavesExact (9 : Fin 10) t = owns (c : Thread nD τ) (ms1_9 a t) fullShare ((dat1 V a c).after (9 : Fin 10) t) := by
      unfold Dat.leavesExact; rw [idleLive1_9 a t hc]
    rw [hlive, after1_9]
    unfold owns
    iintro H; iexists _; isplitr
    swap; · iexact H
    ipureintro
    exact (bodyRun1_out_flush _ _ _ _ _ _ _ _ _ _ _ _ _ _ _ _ _ _ _ _ _ _ _ _ _ _ _ _ _ _ _ _ _ _ _ _ _ _ _ _ _ _ _ _ hc).trans (congrArg k1_pay1 (acc1_step V a c t x14 hx))
  · rw [Dat.leavesExact_idle _ (9 : Fin 10) t (idleNot1_9 a t hc) (flushNot1_9 a t hc),
      show (run1 V a c t x14 f13 f15).2.2.1 = f13 from bodyRun1_out_idle _ _ _ _ _ _ _ _ _ _ _ _ _ _ _ _ _ _ _ _ _ _ _ _ _ _ _ _ _ _ _ _ _ _ _ _ _ _ _ _ _ _ _ _ hc]
    unfold owns
    iintro H; iexists d9, f13; isplitr
    · ipureintro; exact hf13
    iexact H

/-- Owning a memref at contents `X` is holding its elements at some raw contents that read `X`. -/
theorem owns_open1 (c : Dev nD) {sp : Space} {sh : Shape} {e : EltTy} (M : Memref sig .tc sp sh e) (X : sh.Idx → Elt F e) :
    (owns (c : Thread nD τ) M fullShare X : sProp 𝕄)
      ⊢ iprop(∃ f, ⌜M.view.read (Elt F) f = X⌝ ∗ (M.view.loc (c : Thread nD τ) ↦[M.view.set]{fullShare} f)) := by
  unfold owns; exact .rfl

/-- The tables held whole are the body's two table arguments owned at their contents. -/
theorem prefHeld1_eq (c : Dev nD) :
    (Pipeline.prefHeld pre1 c (fun _ => fullShare) a.1 : sProp 𝕄)
      = iprop(owns (c : Thread nD τ) (Memref.whole main_v31) fullShare (tab1_0 a) ∗ owns (c : Thread nD τ) (Memref.whole main_v39) fullShare (tab1_1 a)) := by
  unfold Pipeline.prefHeld
  rw [bigSep_univ_eq_bigSepL [(0 : Fin 2), (1 : Fin 2)] (by decide) (by decide), owns_whole, owns_whole]
  rfl

/-! ## The body obligation, at a generic point -/

/-- What the body is called with at point `t` (the windows one by one), -/
def bodyPre1 (c : Dev nD) (t : Fin (cfg1 a).N) : sProp 𝕄 :=
  iprop((dat1 V a c).Φ t.castSucc ∗ (dat1 V a c).owesAt () t.castSucc
    ∗ (∃ d, owns (c : Thread nD τ) (ms1_0 a t) fullShare ((dat1 V a c).before (0 : Fin 10) t d))
    ∗ (∃ d, owns (c : Thread nD τ) (ms1_1 a t) fullShare ((dat1 V a c).before (1 : Fin 10) t d))
    ∗ (∃ d, owns (c : Thread nD τ) (ms1_2 a t) fullShare ((dat1 V a c).before (2 : Fin 10) t d))
    ∗ (∃ d, owns (c : Thread nD τ) (ms1_3 a t) fullShare ((dat1 V a c).before (3 : Fin 10) t d))
    ∗ (∃ d, owns (c : Thread nD τ) (ms1_4 a t) fullShare ((dat1 V a c).before (4 : Fin 10) t d))
    ∗ (∃ d, owns (c : Thread nD τ) (ms1_5 a t) fullShare ((dat1 V a c).before (5 : Fin 10) t d))
    ∗ (∃ d, owns (c : Thread nD τ) (ms1_6 a t) fullShare ((dat1 V a c).before (6 : Fin 10) t d))
    ∗ (∃ d, owns (c : Thread nD τ) (ms1_7 a t) fullShare ((dat1 V a c).before (7 : Fin 10) t d))
    ∗ (∃ d, owns (c : Thread nD τ) (ms1_8 a t) fullShare ((dat1 V a c).before (8 : Fin 10) t d))
    ∗ (∃ d, owns (c : Thread nD τ) (ms1_9 a t) fullShare ((dat1 V a c).before (9 : Fin 10) t d)))

/-- and what it returns: each input's buffer at its block; the output's as the obligation states it, live or idle. -/
def bodyPost1 (c : Dev nD) (t : Fin (cfg1 a).N) : sProp 𝕄 :=
  iprop((dat1 V a c).Φ t.succ ∗ (dat1 V a c).owesAt () t.succ
    ∗ owns (c : Thread nD τ) (ms1_0 a t) fullShare ((dat1 V a c).after (0 : Fin 10) t)
    ∗ owns (c : Thread nD τ) (ms1_1 a t) fullShare ((dat1 V a c).after (1 : Fin 10) t)
    ∗ owns (c : Thread nD τ) (ms1_2 a t) fullShare ((dat1 V a c).after (2 : Fin 10) t)
    ∗ owns (c : Thread nD τ) (ms1_3 a t) fullShare ((dat1 V a c).after (3 : Fin 10) t)
    ∗ owns (c : Thread nD τ) (ms1_4 a t) fullShare ((dat1 V a c).after (4 : Fin 10) t)
    ∗ owns (c : Thread nD τ) (ms1_5 a t) fullShare ((dat1 V a c).after (5 : Fin 10) t)
    ∗ owns (c : Thread nD τ) (ms1_6 a t) fullShare ((dat1 V a c).after (6 : Fin 10) t)
    ∗ owns (c : Thread nD τ) (ms1_7 a t) fullShare ((dat1 V a c).after (7 : Fin 10) t)
    ∗ owns (c : Thread nD τ) (ms1_8 a t) fullShare ((dat1 V a c).after (8 : Fin 10) t)
    ∗ (dat1 V a c).leavesExact (9 : Fin 10) t)

set_option maxHeartbeats 1600000 in
/-- The body at any point. The invariant hands it the two tables, the accumulator (at the named contents after the
    first point) and the target-row scratch; each input's memref holds its block; the output's holds anything. The run
    applies; the accumulator comes back one step on, the inputs and tables as they were, the output's buffer as the
    obligation states it; the core's `owes` passes through unread. -/
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1
  simp only [before1_0, before1_1, before1_2, before1_3, before1_4, before1_5, before1_6, before1_7, before1_8]
  rw [Phi1_castSucc, Phi1_succ, show (dat1 V a c).owesAt () t.succ = (dat1 V a c).owesAt () t.castSucc from rfl,
    after1_0, after1_1, after1_2, after1_3, after1_4, after1_5, after1_6, after1_7, after1_8]
  unfold Phi1
  rw [prefHeld1_eq]
  iintro ⟨⟨⟨HT0, HT1⟩, ⟨%x14, %hx14, H14⟩, ⟨%d15, H15⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave H9' := (owns_open1 c (ms1_9 a t) _) $$ H9
  icases H9' with ⟨%f13, %hf13, H13⟩
  ihave H15' := (owns_open1 c (Memref.whole cc1_scratch1) _) $$ H15
  icases H15' with ⟨%f15, -, H15⟩
  iapply ((run1 V a c t x14 f13 f15).2.2.2 Set.univ _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H13]; · iexact H13
  isplitl [H14]; · iexact H14
  isplitl [H15]; · iexact H15
  iintro ⟨HT0, HT1, H0, H1, H2, H3, H4, H5, H6, H7, H8, H13, H14, H15⟩
  isplitl [HT0 HT1 H14 H15 HR Hg]
  · isplitl [HT0 HT1]
    · isplitl [HT0]; · iexact HT0
      iexact HT1
    isplitl [H14]
    · iexists _; isplitr; · ipureintro; exact fun _ => rfl
      unfold owns; iexists _; isplitr
      swap; · iexact H14
      ipureintro
      exact (bodyRun1_acc _ _ _ _ _ _ _ _ _ _ _ _ _ _ _ _ _ _ _ _ _ _ _ _ _ _ _ _ _ _ _ _ _ _ _ _ _ _ _ _ _ _ _ _).trans (acc1_step V a c t x14 hx14)
    isplitl [H15]
    · iexists _; unfold owns; iexists _; isplitr
      swap; · iexact H15
      ipureintro; rfl
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (leaves1_9 V a c t x14 hx14 d9 f13 hf13 f15)
  iexact H13

/-- The library's body obligation, at every point. -/
theorem body_obligation1 (c : Dev nD) : BodyObligation (dat1 (F := F) V a c) (defs₀ (F := F)) Variants.none () Set.univ := fun t => by
  rw [bigSep_W1, bigSep_W1]
  exact sound_body1 V a c t

end Region1

end Cert.KernelIdeal.Gen

end
-- ==== Proof.RegionI1.lean ====
import proofs.«414286_j65627100283289_3_alg».proof.Proof.RegionDataI1
import proofs.«414286_j65627100283289_3_alg».proof.Proof.Gen.KernelIdeal.Regions
import proofs.«414286_j65627100283289_3_alg».proof.Proof.FrameDefsI
import Idealize.ShloMosaic.Lib.Pipeline.RegionsLoop
import Idealize.ShloMosaic.Lib.Pipeline.FrameSuffix

/-!
# Region 1 as a segment of the program

On entry the region's arrays and its two tables are separated from the other unscoped buffers; the tables, the scoped
buffers that are no staging buffer and the generator register make the invariant before the first point. On exit the
invariant gives them back and the arrays are joined with the other buffers again, the output's array at what the
write-backs made of it. Nothing is owed at any point and the kernel has no semaphore of its own.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 1 as a segment of the program -/

section Seg1

variable (m : (ℓ : Loc nD τ sig) → Buf (Elt F) ℓ) (outs : Outs (F := F))

/-- The unscoped buffers' contents on core `c` when region 1 is entered, and when it is left. -/
abbrev Win1 : Dev nD → Valuation τ sig (Elt F) := fun c => V11 m outs c
abbrev Wout1 : Dev nD → Valuation τ sig (Elt F) := fun c => V12 m outs c
/-- The contents of the TensorCore's buffers when region 1 is entered, that is, after the host operations that precede it. -/
abbrev Vin1 : (c : Dev nD) → (b : Ref sig .tc) → Buf (Elt F) ((c : Thread nD τ).loc b) := fun c b => V11 m outs c b
/-- Their contents when the region is left: as entered, except the output's array, which holds what the region leaves in it. -/
abbrev Vout1 : (c : Dev nD) → (b : Ref sig .tc) → Buf (Elt F) ((c : Thread nD τ).loc b) := fun c b => V12 m outs c b

-- the tables' contents of all four pipelines, the family of proof data, and what ties region 1's members to this module
variable (a : (p : Fin 4) → (pcfgs (F := F) p).Adm)
variable (pdats : (p : Fin 4) → (c : Dev nD) → Dat τ (Elt F) Unit ℕ (Pipeline.UD sig nD τ) ℕ (Pipeline.pin (pcfgs (F := F)) a p) c)
-- the family's member at region 1 is this module's proof data, at the entry contents and region 1's tables
variable (hd1 : ∀ c, pdats 1 c = dat1 (Vin1 m outs) (a 1) c)
-- the tables' admissible contents are what the tables hold when the region is entered
variable (hpf1 : ∀ c : Dev nD, (fun k => Vin1 m outs c (pre1.ref k)) = (a 1).1)
-- what the region leaves in its output's array is what its write-backs make of it
variable (houts1 : ∀ c : Dev nD, outs 12 main_v53 c = (dat1 (Vin1 m outs) (a 1) c).arrAt (9 : Fin 10) (cfg1 (a 1)).N)

/-- The invariant with the two scratch buffers as plain points-tos. -/
theorem Phi1_eq (V : (c : Dev nD) → (b : Ref sig .tc) → Buf (Elt F) ((c : Thread nD τ).loc b)) (a0 : (pcfg1 (F := F)).Adm) (c : Dev nD) (n : ℕ) :
    Phi1 V a0 c n = iprop(Pipeline.prefHeld pre1 c (fun _ => fullShare) a0.1
      ∗ (∃ x14 : Vec F S10240x128 .f32, ⌜n ≠ 0 → x14 = accAt1 V a0 c n⌝ ∗ (((c : Thread nD τ).loc cc1_scratch0) ↦{fullShare} x14))
      ∗ (∃ d : Buf (Elt F) ((c : Thread nD τ).loc cc1_scratch1), ((c : Thread nD τ).loc cc1_scratch1) ↦{fullShare} d)
      ∗ Pipeline.scopedRestBut spec1 c [cc1_scratch0, cc1_scratch1]
      ∗ (∃ r, prngReg c r)) := by
  unfold Phi1; simp only [owns_whole]

/-- Entering: the tables, the scoped rest and the generator register make the invariant before the first point. -/
theorem hin1 (V : (c : Dev nD) → (b : Ref sig .tc) → Buf (Elt F) ((c : Thread nD τ).loc b)) (a0 : (pcfg1 (F := F)).Adm) (c : Dev nD) :
    iprop((∃ r, prngReg c r) ∗ Pipeline.prefHeld pre1 c (fun _ => fullShare) a0.1 ∗ Pipeline.scopedRest spec1 c)
      ⊢ (Phi1 V a0 c 0 : sProp 𝕄) := by
  rw [Phi1_eq, scopedRest1_split]
  iintro ⟨Hg, Hpf, ⟨⟨%f0, H0⟩, H1⟩, HR⟩
  isplitl [Hpf]; · iexact Hpf
  isplitl [H0]
  · iexists f0; isplitr; · ipureintro; exact fun h => absurd rfl h
    iexact H0
  isplitl [H1]; · iexact H1
  isplitl [HR]; · iexact HR
  iexact Hg

/-- Leaving: the invariant gives the register and the tables back, and the scoped rest with the scratch at anything. -/
theorem hout1 (V : (c : Dev nD) → (b : Ref sig .tc) → Buf (Elt F) ((c : Thread nD τ).loc b)) (a0 : (pcfg1 (F := F)).Adm) (c : Dev nD) (n : ℕ) :
    (Phi1 V a0 c n : sProp 𝕄)
      ⊢ iprop(((∃ r, prngReg c r) ∗ Pipeline.prefHeld pre1 c (fun _ => fullShare) a0.1) ∗ Pipeline.scopedRest spec1 c) := by
  rw [Phi1_eq, scopedRest1_split]
  iintro ⟨Hpf, ⟨%x14, -, H0⟩, H1, HR, Hg⟩
  isplitl [Hg Hpf]
  · isplitl [Hg]; · iexact Hg
    iexact Hpf
  isplitl [H0 H1]
  · isplitl [H0]; · iexists x14; iexact H0
    iexact H1
  iexact HR

/-- Every window but the last is an input, and no input's array is the output's. -/
theorem inputs1 : ∀ w : Fin 10, w ≠ (9 : Fin 10) → (spec1 w).isOut = false ∧ Pipeline.arrRef spec1 w ∉ ([main_v53] : List (Ref sig .tc)) := by
  decide

/-- At the region's exit each of its arrays holds what the pipeline leaves: an input its entry contents, the output what
    its write-backs make of it, which is the region's unknown `outs 12 main_v53`. -/
theorem hF1 (c : Dev nD) (houts1 : outs 12 main_v53 c = (dat1 (Vin1 m outs) (a 1) c).arrAt (9 : Fin 10) (cfg1 (a 1)).N) :
    ∀ w : Fin 10, (dat1 (Vin1 m outs) (a 1) c).arrAt w (cfg1 (a 1)).N = Vout1 m outs c (Pipeline.arrRef spec1 w) := by
  intro w
  by_cases hw : w = (9 : Fin 10)
  · subst hw
    refine houts1.symm.trans ?_
    show _ = Function.update (Win1 m outs c) _ _ _
    rw [Function.update_self]
  · obtain ⟨hin, hne⟩ := inputs1 w hw
    exact ((dat1 (Vin1 m outs) (a 1) c).arrAt_in w hin _).trans ((A_eq1 (Vin1 m outs) (a 1) c w).trans (V12_of m outs c _ hne).symm)

/-- Every buffer that is no array of the region is left as entered. -/
theorem hrest1 (c : Dev nD) : ∀ b, b ∉ Finset.univ.image (Pipeline.arrRef spec1) → Vout1 m outs c b = Vin1 m outs c b := fun b hb =>
  V12_of m outs c b fun hmem => hb (Finset.mem_image.mpr ⟨(9 : Fin 10), Finset.mem_univ _, (List.mem_singleton.mp hmem).symm⟩)

include hd1 hpf1 houts1 in
-- the entry and exit lemmas speak of the pinned configuration `pin pcs a p`, which is the printed configuration
-- `cfg1 a` by the definitions of both
set_option backward.isDefEq.respectTransparency.types false in
/-- REGION 1 as a segment. It is entered holding every unscoped buffer at its contents after the preceding host
    operations, together with the rest state (the generator register, nothing owed); it is left holding the same, the
    output's array now at the region's unknown. On entry the region's arrays and its two tables are separated from the
    other unscoped buffers, and on exit they are joined again; the generator register and the tables pass through the
    invariant; nothing is owed at any point; the kernel has no semaphore of its own. -/
def reg1 : Pipeline.RegionSeg (pcfgs (F := F)) a pdats () defs₀ Variants.none Lz lvz 1 where
  win := winFacts1.to₀
  block_pos := block_pos1
  stage_whole := stage_whole1
  K := PEmpty
  osem k := k.elim
  ho := Pipeline.OwnSemFacts.none _
  hbody c := by rw [hd1 c]; exact (body_obligation1 (Vin1 m outs) (a 1) c).loose
  hwaits := Pipeline.hwaits_of_owed_zero _ _ _ _ Lz lvz 1 fun c t => by rw [hd1 c]; rfl
  pre c := iprop(StableHlo.held (c : Thread nD τ) (Pipeline.ucRefs τ sig) (Win1 m outs c) ∗ Rest c)
  post c := iprop(StableHlo.held (c : Thread nD τ) (Pipeline.ucRefs τ sig) (Wout1 m outs c) ∗ Rest c)
  X c := iprop(∃ r, prngReg c r)
  Y c := iprop((∃ r, prngReg c r) ∗ Pipeline.prefHeld pre1 c (fun _ => fullShare) (a 1).1)
  Z c := Pipeline.unscopedRestP (Ix := Unit) (Name := ℕ) (U := Pipeline.UD sig nD τ) (Lvl := ℕ) pre1 spec1 c (Vin1 m outs c)
  hentry c := by
    rw [Pipeline.ownSems0_none]
    have hsplit := Pipeline.arrays_of_unscopedBufs (p := 1) (pcfgs (F := F)) a pdats winFacts1 arr_whole1 c
      ((pdats 1 c).share_full fun w => by rw [hd1 c]; rfl) (Vin1 m outs c) fun w => by rw [hd1 c]; rfl
    rw [Pipeline.unscopedBufs_held, Pipeline.unscopedRest_split (win := (Pipeline.pin (pcfgs (F := F)) a 1).spec) (pre := pre1) preFacts1 c (Vin1 m outs c), hpf1 c] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · rw [hd1 c]
      unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hd1 c, show (dat1 (Vin1 m outs) (a 1) c).Φ 0 = Phi1 (Vin1 m outs) (a 1) c 0 from by dsimp only [dat1]; simp only [Fin.val_zero]]
    exact hin1 (Vin1 m outs) (a 1) c
  hout c := by
    rw [hd1 c, Pipeline.ownSems0_none, show (dat1 (Vin1 m outs) (a 1) c).Φ (Fin.last (Pipeline.pin (pcfgs (F := F)) a 1).N) = Phi1 (Vin1 m outs) (a 1) c (Pipeline.pin (pcfgs (F := F)) a 1).N from by dsimp only [dat1]; simp only [Fin.val_last]]
    iintro H
    ihave H' := (hout1 (Vin1 m outs) (a 1) c _) $$ H
    icases H' with ⟨HY, HS⟩
    isplitl [HY]; · iexact HY
    isplitr; · iempintro
    iexact HS
  hexit c := by
    have hjoin := Pipeline.unscopedBufs_of_arrays (p := 1) (pcfgs (F := F)) a (Ix := Unit) (Name := ℕ) (U := Pipeline.UD sig nD τ) (Lvl := ℕ)
      winFacts1 arr_whole1 c pdats ((pdats 1 c).share_full fun w => by rw [hd1 c]; rfl)
      (Vin1 m outs c) (Vout1 m outs c) ((pdats 1 c).arrAt · (cfg1 (a 1)).N)
      (by rw [hd1 c]; exact hF1 m outs a c (houts1 c)) (hrest1 m outs c)
    rw [Pipeline.unscopedBufs_held, Pipeline.unscopedRest_split (win := (Pipeline.pin (pcfgs (F := F)) a 1).spec) (pre := pre1) preFacts1 c (Vin1 m outs c), hpf1 c] at hjoin
    iintro ⟨Ha, HO, ⟨HY, Hpf⟩, Hrest⟩
    imodintro
    isplitl [Ha Hpf Hrest]
    · iapply hjoin
      isplitl [Ha]; · iexact Ha
      isplitl [Hpf]; · iexact Hpf
      iexact Hrest
    isplitl [HY]; · iexact HY
    rw [hd1 c]
    unfold Pipeline.Dat.owesAt Pipeline.owesWithin
    icases HO with ⟨%W, -, HO⟩; iexists W; iexact HO

/-- The record is entered from, and left at, the program's thread states around region 1, as they stand. -/
theorem hpre1 (c : Dev nD) :
    iprop(StableHlo.held (c : Thread nD τ) (Pipeline.ucRefs τ sig) (Win1 m outs c) ∗ Rest (F := F) c)
      ⊢ (reg1 m outs a pdats hd1 hpf1 houts1).pre c := .rfl
theorem hpost1 (c : Dev nD) :
    (reg1 m outs a pdats hd1 hpf1 houts1).post c
      ⊢ iprop(StableHlo.held (c : Thread nD τ) (Pipeline.ucRefs τ sig) (Wout1 m outs c) ∗ Rest (F := F) c) := .rfl

end Seg1

end Cert.KernelIdeal.Gen

end
-- ==== Proof.BodyI2.lean ====
import proofs.«414286_j65627100283289_3_alg».proof.Proof.Gen.KernelIdeal.Skeleton
import proofs.«414286_j65627100283289_3_alg».proof.Proof.Gen.KernelIdeal.Launch
import Idealize.ShloMosaic.Lib.Pipeline.Frame
import Idealize.ShloMosaic.Lib.Pipeline.FrameBody
import Idealize.ShloMosaic.Lib.Tactic

/-!
# Region 2's body at one grid point

The body of one EdgeConv layer's kernel on whole staging memrefs, at any grid point `i = (core, tile)`: from the two
chunk-range tables, the tile's source and target columns, the padded node table, the layer's six parameter blocks,
the accumulator as the tile before left it and the two other written buffers at any contents, the body runs to its
end, faults nowhere, hands the eleven buffers it only reads back as they were, and leaves the accumulator, the
target-row scratch and the output's staging buffer at contents that are FUNCTIONS of what it was handed. Those three
functions are not transcribed: they are what the run finds, each conditional taken both ways and its two outcomes
merged under its condition (the reset at the core's first tile, the ten chunk gates of the target-row gather, the
ten of the scatter, the write-out at the core's last tile).
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- What the body leaves in the accumulator (`.1`), in the target-row scratch (`.2.1`) and in the output's staging
    buffer (`.2.2.1`), with the proof that it runs to the continuation holding exactly that. -/
noncomputable def bodyRun2 (c : Dev nD) (i : grid2.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole)
    (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32)
    (f13 : BufTy.Contents (Elt F) arg13.view.ty) (f15 : BufTy.Contents (Elt F) arg15.view.ty) :
    Σ' (g14 : BufTy.Contents (Elt F) arg14.view.ty) (g15 : BufTy.Contents (Elt F) arg15.view.ty),
      { g13 : BufTy.Contents (Elt F) arg13.view.ty //
        ∀ (E : Set ℕ) (K : PUnit → sProp 𝕄),
          iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ (arg13.view.loc (c : Thread nD τ) ↦[arg13.view.set]{fullShare} f13)
            ∗ owns (c : Thread nD τ) arg14 fullShare x14
            ∗ (arg15.view.loc (c : Thread nD τ) ↦[arg15.view.set]{fullShare} f15)
            ∗ (iprop(owns (c : Thread nD τ) arg2 fullShare x2
              ∗ owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ owns (c : Thread nD τ) arg11 fullShare x11
              ∗ owns (c : Thread nD τ) arg12 fullShare x12
              ∗ (arg13.view.loc (c : Thread nD τ) ↦[arg13.view.set]{fullShare} g13)
              ∗ (arg14.view.loc (c : Thread nD τ) ↦[arg14.view.set]{fullShare} g14)
              ∗ (arg15.view.loc (c : Thread nD τ) ↦[arg15.view.set]{fullShare} g15)) -∗ K ⟨⟩))
          ⊢ wp frame (wpE (defs₀ (F := F)) Variants.none c none) E (cc2__edgeconv_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc2__edgeconv_kernel_eq_skeleton]; unfold cc2__edgeconv_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, H13, ⟨%f14, %hf14, H14⟩, H15, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg14.eq_unread hf14
    sl_exec!
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexact H13
    isplitl [H14]; · iexact H14
    iexact H15

end Cert.KernelIdeal.Gen

end
-- ==== Proof.StepDefsI2.lean ====
import proofs.«414286_j65627100283289_3_alg».proof.Proof.Gen.KernelIdeal.Skeleton
import proofs.«414286_j65627100283289_3_alg».proof.Proof.GateWord
import proofs.«414286_j65627100283289_3_alg».proof.Proof.LibGatedRmw
import Idealize.ShloMosaic.Lib.Pipeline.FrameBody

/-!
# Region 2's body as functions of the values it is handed

What one run of the body at grid point `i = (core, tile)` leaves in the accumulator, written without a memref and without
any buffer's old raw contents: from the two chunk-range tables, the tile's source and target columns, the padded node
table, the six parameter blocks and the accumulator as the tile before left it.

* the two table words of the tile, `lo` and `hi`, and from them the ten gate words `lo ≤ k ≤ hi`;
* the target rows' gather `xi2`: zero, then for each chunk `k` of 1024 nodes, under its gate, the one-hot product of
  the target column against the chunk's rows added on;
* the source rows' gather `xj2`: the ten one-hot products added up, no gate;
* the perceptron's hidden row `hid2` and the messages `msg2`;
* the accumulator: reset to zero at the core's first tile, then for each chunk under its gate the chunk's rows replaced
  by themselves plus the transposed one-hot product with the messages.

Each step is spelt through the generated payload that computes it, so that the body's run and these functions meet
name by name.
-/

noncomputable section

namespace Cert.KernelIdeal.Gen

open Idealize.ShloMosaic Idealize.ShloMosaic.GatedRmw

variable {F : FTy → Type} [FloatOps F]

/-- The tile's entry of the first table: the least chunk its targets fall in. -/
def loW2 (i : grid2.Coords) (x2 : Vec F S1250 .i32) : BitVec 32 :=
  View.ld x2 (Rect.unit (s := S1250) (k2_off1 i) S1.size (k2_off1_inb i))
    (Shape.Idx.first (lt_of_lt_of_eq Nat.one_pos numel1_S1.symm))

/-- The tile's entry of the second table: the greatest chunk its targets fall in. -/
def hiW2 (i : grid2.Coords) (x3 : Vec F S1250 .i32) : BitVec 32 :=
  View.ld x3 (Rect.unit (s := S1250) (k2_off1 i) S1.size (k2_off1_inb i))
    (Shape.Idx.first (lt_of_lt_of_eq Nat.one_pos numel1_S1.symm))

/-- The word "this is the core's first tile". -/
def firstW2 (i : grid2.Coords) : BitVec 1 :=
  Scalar.cmpi .ne (Scalar.extui (Scalar.cmpi .eq (BitVec.ofNat 32 (i 1).val) 0#32)) 0#32

/-- One gated step of the target rows' gather: under the gate the step's payload of the rows so far. -/
def xiStep2 (g : BitVec 1) (pay : Vec F S256x128 .f32 → FVec F S256x128 .f32) (X : Vec F S256x128 .f32) : Vec F S256x128 .f32 :=
  if g = 1#1 then pay X else X

/-- The target rows the tile gathers: zero, then chunk by chunk under the gates. -/
def xi2 (i : grid2.Coords) (x2 x3 : Vec F S1250 .i32) (x5 : Vec F S256x1 .i32) (x6 : Vec F S10240x128 .f32) :
    Vec F S256x128 .f32 :=
  (xiStep2 (Cert.Spec.gateWord (loW2 i x2) (hiW2 i x3) 9#32) (k2_pay22 (k2_pay3 x5) (View.ld x6 (Rect.unit (s := S10240x128) ![9216, 0] S1024x128.size inb_S10240x128_S1024x128_9216_0)))
      (xiStep2 (Cert.Spec.gateWord (loW2 i x2) (hiW2 i x3) 8#32) (k2_pay21 (k2_pay3 x5) (View.ld x6 (Rect.unit (s := S10240x128) ![8192, 0] S1024x128.size inb_S10240x128_S1024x128_8192_0)))
      (xiStep2 (Cert.Spec.gateWord (loW2 i x2) (hiW2 i x3) 7#32) (k2_pay20 (k2_pay3 x5) (View.ld x6 (Rect.unit (s := S10240x128) ![7168, 0] S1024x128.size inb_S10240x128_S1024x128_7168_0)))
      (xiStep2 (Cert.Spec.gateWord (loW2 i x2) (hiW2 i x3) 6#32) (k2_pay19 (k2_pay3 x5) (View.ld x6 (Rect.unit (s := S10240x128) ![6144, 0] S1024x128.size inb_S10240x128_S1024x128_6144_0)))
      (xiStep2 (Cert.Spec.gateWord (loW2 i x2) (hiW2 i x3) 5#32) (k2_pay18 (k2_pay3 x5) (View.ld x6 (Rect.unit (s := S10240x128) ![5120, 0] S1024x128.size inb_S10240x128_S1024x128_5120_0)))
      (xiStep2 (Cert.Spec.gateWord (loW2 i x2) (hiW2 i x3) 4#32) (k2_pay17 (k2_pay3 x5) (View.ld x6 (Rect.unit (s := S10240x128) ![4096, 0] S1024x128.size inb_S10240x128_S1024x128_4096_0)))
      (xiStep2 (Cert.Spec.gateWord (loW2 i x2) (hiW2 i x3) 3#32) (k2_pay16 (k2_pay3 x5) (View.ld x6 (Rect.unit (s := S10240x128) ![3072, 0] S1024x128.size inb_S10240x128_S1024x128_3072_0)))
      (xiStep2 (Cert.Spec.gateWord (loW2 i x2) (hiW2 i x3) 2#32) (k2_pay15 (k2_pay3 x5) (View.ld x6 (Rect.unit (s := S10240x128) ![2048, 0] S1024x128.size inb_S10240x128_S1024x128_2048_0)))
      (xiStep2 (Cert.Spec.gateWord (loW2 i x2) (hiW2 i x3) 1#32) (k2_pay14 (k2_pay3 x5) (View.ld x6 (Rect.unit (s := S10240x128) ![1024, 0] S1024x128.size inb_S10240x128_S1024x128_1024_0)))
      (xiStep2 (Cert.Spec.gateWord (loW2 i x2) (hiW2 i x3) 0#32) (k2_pay13 (k2_pay3 x5) (View.ld x6 (Rect.unit (s := S10240x128) ![0, 0] S1024x128.size inb_S10240x128_S1024x128_0_0)))
      (k2_pay12 (F := F))))))))))))

/-- The source rows the tile gathers: every chunk's one-hot product, added up. -/
def xj2 (x4 : Vec F S256x1 .i32) (x6 : Vec F S10240x128 .f32) : FVec F S256x128 .f32 :=
  k2_pay11
    (k2_pay9 (k2_pay4 x4)
      (k2_pay7 (k2_pay4 x4) (k2_pay5 x4 (View.ld x6 (Rect.unit (s := S10240x128) ![0, 0] S1024x128.size inb_S10240x128_S1024x128_0_0)) (View.ld x6 (Rect.unit (s := S10240x128) ![1024, 0] S1024x128.size inb_S10240x128_S1024x128_1024_0))) (k2_pay6 x4)
        (iota Kind.tc S256x1024 32 [1] iota_S256x1024_d1_w32) (2048#32)
        (View.ld x6 (Rect.unit (s := S10240x128) ![2048, 0] S1024x128.size inb_S10240x128_S1024x128_2048_0)) (View.ld x6 (Rect.unit (s := S10240x128) ![3072, 0] S1024x128.size inb_S10240x128_S1024x128_3072_0)) (View.ld x6 (Rect.unit (s := S10240x128) ![4096, 0] S1024x128.size inb_S10240x128_S1024x128_4096_0)))
      (k2_pay8 (k2_pay4 x4) (View.ld x6 (Rect.unit (s := S10240x128) ![5120, 0] S1024x128.size inb_S10240x128_S1024x128_5120_0)))
      (View.ld x6 (Rect.unit (s := S10240x128) ![6144, 0] S1024x128.size inb_S10240x128_S1024x128_6144_0)) (View.ld x6 (Rect.unit (s := S10240x128) ![7168, 0] S1024x128.size inb_S10240x128_S1024x128_7168_0)) (View.ld x6 (Rect.unit (s := S10240x128) ![8192, 0] S1024x128.size inb_S10240x128_S1024x128_8192_0)))
    (k2_pay10 (k2_pay4 x4))
    (View.ld x6 (Rect.unit (s := S10240x128) ![9216, 0] S1024x128.size inb_S10240x128_S1024x128_9216_0))

/-- The perceptron's first hidden row of every edge of the tile. -/
def hid2 (i : grid2.Coords) (x2 x3 : Vec F S1250 .i32) (x4 x5 : Vec F S256x1 .i32) (x6 : Vec F S10240x128 .f32)
    (x7 : Vec F S256x128 .f32) (x8 : Vec F S1x128 .f32) : FVec F S256x128 .f32 :=
  k2_pay23 (xj2 x4 x6) (xi2 i x2 x3 x5 x6) x7 x8

/-- The message of every edge of the tile. -/
def msg2 (i : grid2.Coords) (x2 x3 : Vec F S1250 .i32) (x4 x5 : Vec F S256x1 .i32) (x6 : Vec F S10240x128 .f32)
    (x7 : Vec F S256x128 .f32) (x8 : Vec F S1x128 .f32) (x9 : Vec F S128x128 .f32) (x10 : Vec F S1x128 .f32)
    (x11 : Vec F S128x128 .f32) (x12 : Vec F S1x128 .f32) : FVec F S256x128 .f32 :=
  k2_pay24 (hid2 i x2 x3 x4 x5 x6 x7 x8) (FloatOps.ofBits FTy.f32 0#32) x9 x10 x11 x12

/-- The accumulator the chunk steps start from: zero at the core's first tile, else what the tile before left. -/
def accReset2 (i : grid2.Coords) (x14 : Vec F S10240x128 .f32) : Vec F S10240x128 .f32 :=
  if firstW2 i = 1#1 then k2_pay2 else x14

/-- One gated chunk step of the scatter: under the gate the chunk's rows replaced by the step's payload of them. -/
def accStep2 (g : BitVec 1) (R : Rect S10240x128) (pay : (R.shape.Idx → Elt F .f32) → (R.shape.Idx → Elt F .f32))
    (A : Vec F S10240x128 .f32) : Vec F S10240x128 .f32 :=
  gatedVal g R pay A

/-- The accumulator after the body at point `i`. -/
def stepAcc2 (i : grid2.Coords) (x2 x3 : Vec F S1250 .i32) (x4 x5 : Vec F S256x1 .i32) (x6 : Vec F S10240x128 .f32)
    (x7 : Vec F S256x128 .f32) (x8 : Vec F S1x128 .f32) (x9 : Vec F S128x128 .f32) (x10 : Vec F S1x128 .f32)
    (x11 : Vec F S128x128 .f32) (x12 : Vec F S1x128 .f32) (x14 : Vec F S10240x128 .f32) : Vec F S10240x128 .f32 :=
  (accStep2 (Cert.Spec.gateWord (loW2 i x2) (hiW2 i x3) 9#32) (Rect.unit (s := S10240x128) ![9216, 0] S1024x128.size inb_S10240x128_S1024x128_9216_0)
      (k2_pay34 (k2_pay3 x5) (msg2 i x2 x3 x4 x5 x6 x7 x8 x9 x10 x11 x12))
      (accStep2 (Cert.Spec.gateWord (loW2 i x2) (hiW2 i x3) 8#32) (Rect.unit (s := S10240x128) ![8192, 0] S1024x128.size inb_S10240x128_S1024x128_8192_0)
      (k2_pay33 (k2_pay3 x5) (msg2 i x2 x3 x4 x5 x6 x7 x8 x9 x10 x11 x12))
      (accStep2 (Cert.Spec.gateWord (loW2 i x2) (hiW2 i x3) 7#32) (Rect.unit (s := S10240x128) ![7168, 0] S1024x128.size inb_S10240x128_S1024x128_7168_0)
      (k2_pay32 (k2_pay3 x5) (msg2 i x2 x3 x4 x5 x6 x7 x8 x9 x10 x11 x12))
      (accStep2 (Cert.Spec.gateWord (loW2 i x2) (hiW2 i x3) 6#32) (Rect.unit (s := S10240x128) ![6144, 0] S1024x128.size inb_S10240x128_S1024x128_6144_0)
      (k2_pay31 (k2_pay3 x5) (msg2 i x2 x3 x4 x5 x6 x7 x8 x9 x10 x11 x12))
      (accStep2 (Cert.Spec.gateWord (loW2 i x2) (hiW2 i x3) 5#32) (Rect.unit (s := S10240x128) ![5120, 0] S1024x128.size inb_S10240x128_S1024x128_5120_0)
      (k2_pay30 (k2_pay3 x5) (msg2 i x2 x3 x4 x5 x6 x7 x8 x9 x10 x11 x12))
      (accStep2 (Cert.Spec.gateWord (loW2 i x2) (hiW2 i x3) 4#32) (Rect.unit (s := S10240x128) ![4096, 0] S1024x128.size inb_S10240x128_S1024x128_4096_0)
      (k2_pay29 (k2_pay3 x5) (msg2 i x2 x3 x4 x5 x6 x7 x8 x9 x10 x11 x12))
      (accStep2 (Cert.Spec.gateWord (loW2 i x2) (hiW2 i x3) 3#32) (Rect.unit (s := S10240x128) ![3072, 0] S1024x128.size inb_S10240x128_S1024x128_3072_0)
      (k2_pay28 (k2_pay3 x5) (msg2 i x2 x3 x4 x5 x6 x7 x8 x9 x10 x11 x12))
      (accStep2 (Cert.Spec.gateWord (loW2 i x2) (hiW2 i x3) 2#32) (Rect.unit (s := S10240x128) ![2048, 0] S1024x128.size inb_S10240x128_S1024x128_2048_0)
      (k2_pay27 (k2_pay3 x5) (hid2 i x2 x3 x4 x5 x6 x7 x8) (FloatOps.ofBits FTy.f32 0#32) x9 x10 x11 x12)
      (accStep2 (Cert.Spec.gateWord (loW2 i x2) (hiW2 i x3) 1#32) (Rect.unit (s := S10240x128) ![1024, 0] S1024x128.size inb_S10240x128_S1024x128_1024_0)
      (k2_pay26 (k2_pay3 x5) (hid2 i x2 x3 x4 x5 x6 x7 x8) (FloatOps.ofBits FTy.f32 0#32) x9 x10 x11 x12)
      (accStep2 (Cert.Spec.gateWord (loW2 i x2) (hiW2 i x3) 0#32) (Rect.unit (s := S10240x128) ![0, 0] S1024x128.size inb_S10240x128_S1024x128_0_0)
      (k2_pay25 (k2_pay3 x5) (hid2 i x2 x3 x4 x5 x6 x7 x8) (FloatOps.ofBits FTy.f32 0#32) x9 x10 x11 x12)
      (accReset2 i x14)))))))))))

end Cert.KernelIdeal.Gen

end
-- ==== Proof.StepI2.lean ====
import proofs.«414286_j65627100283289_3_alg».proof.Proof.BodyI2
import proofs.«414286_j65627100283289_3_alg».proof.Proof.StepDefsI2
import Idealize.ShloMosaic.Lib.Pipeline.Frame
import Idealize.ShloMosaic.Lib.Pipeline.FrameBody
import Idealize.ShloMosaic.Lib.Pipeline.Value
import Idealize.ShloMosaic.Lib.Writes

/-!
# What region 2's body leaves, as the functions of `StepDefsI0`

The run of the body found, for the accumulator, ten nested conditionals: under chunk `k`'s gate the contents so far with
chunk `k`'s rows overwritten by a payload of those same rows as loaded from the contents so far, else the contents so
far; at the bottom the reset under the first tile's condition. Each level is one gated read-modify-write of one
rectangle, and the found term IS that nest, by unfolding. What a gated read-modify-write reads is the gated step on
what the contents before read, so reading the nest gives the same nest on VALUES, each level now mentioning the level
below once: the accumulator step of `StepDefsI0`, once the run's names for the table words, the gates, the gathered
rows, the hidden row and the messages are rewritten as those functions. The target-row scratch is the same story with
the whole buffer as its one rectangle, which is why its old contents never show: every store covers it. The output's
staging buffer is stored once, whole, under the last tile's condition, with the accumulator read back whole.
-/

noncomputable section

namespace Cert.KernelIdeal.Gen

open Idealize.ShloMosaic Idealize.ShloMosaic.TcCoe Idealize.ShloMosaic.GatedRmw

variable {F : FTy → Type} [FloatOps F]

/-! ## The run's contents, level by level, as gated read-modify-writes -/

set_option maxRecDepth 65536 in
/-- The accumulator's raw contents the run found are ten gated read-modify-writes over the reset. -/
theorem acc_raw2 (c : Dev nD) (i : grid2.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    (bodyRun2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).1 = (gatedRmw arg14.view (bodyRun2.sl.v187 c i arg2 harg2 arg3 harg3 x2 x3) (Rect.unit (s := S10240x128) ![9216, 0] S1024x128.size inb_S10240x128_S1024x128_9216_0)
      (fun v => k2_pay34 (bodyRun2.sl.r_2 c arg5 harg5 x5) (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun2.sl.v182 c i arg2 harg2 arg3 harg3 x2 x3) (Rect.unit (s := S10240x128) ![8192, 0] S1024x128.size inb_S10240x128_S1024x128_8192_0)
      (fun v => k2_pay33 (bodyRun2.sl.r_2 c arg5 harg5 x5) (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun2.sl.v177 c i arg2 harg2 arg3 harg3 x2 x3) (Rect.unit (s := S10240x128) ![7168, 0] S1024x128.size inb_S10240x128_S1024x128_7168_0)
      (fun v => k2_pay32 (bodyRun2.sl.r_2 c arg5 harg5 x5) (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun2.sl.v172 c i arg2 harg2 arg3 harg3 x2 x3) (Rect.unit (s := S10240x128) ![6144, 0] S1024x128.size inb_S10240x128_S1024x128_6144_0)
      (fun v => k2_pay31 (bodyRun2.sl.r_2 c arg5 harg5 x5) (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun2.sl.v167 c i arg2 harg2 arg3 harg3 x2 x3) (Rect.unit (s := S10240x128) ![5120, 0] S1024x128.size inb_S10240x128_S1024x128_5120_0)
      (fun v => k2_pay30 (bodyRun2.sl.r_2 c arg5 harg5 x5) (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun2.sl.v162 c i arg2 harg2 arg3 harg3 x2 x3) (Rect.unit (s := S10240x128) ![4096, 0] S1024x128.size inb_S10240x128_S1024x128_4096_0)
      (fun v => k2_pay29 (bodyRun2.sl.r_2 c arg5 harg5 x5) (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun2.sl.v157 c i arg2 harg2 arg3 harg3 x2 x3) (Rect.unit (s := S10240x128) ![3072, 0] S1024x128.size inb_S10240x128_S1024x128_3072_0)
      (fun v => k2_pay28 (bodyRun2.sl.r_2 c arg5 harg5 x5) (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun2.sl.v152 c i arg2 harg2 arg3 harg3 x2 x3) (Rect.unit (s := S10240x128) ![2048, 0] S1024x128.size inb_S10240x128_S1024x128_2048_0)
      (fun v => k2_pay27 (bodyRun2.sl.r_2 c arg5 harg5 x5) (bodyRun2.sl.r_11 c i arg2 harg2 arg3 harg3 arg4 harg4 arg5 harg5 arg6 harg6 arg7 harg7 arg8 harg8 arg15 x2 x3 x4 x5 x6 x7 x8 f15) bodyRun2.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (gatedRmw arg14.view (bodyRun2.sl.v147 c i arg2 harg2 arg3 harg3 x2 x3) (Rect.unit (s := S10240x128) ![1024, 0] S1024x128.size inb_S10240x128_S1024x128_1024_0)
      (fun v => k2_pay26 (bodyRun2.sl.r_2 c arg5 harg5 x5) (bodyRun2.sl.r_11 c i arg2 harg2 arg3 harg3 arg4 harg4 arg5 harg5 arg6 harg6 arg7 harg7 arg8 harg8 arg15 x2 x3 x4 x5 x6 x7 x8 f15) bodyRun2.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (gatedRmw arg14.view (bodyRun2.sl.v142 c i arg2 harg2 arg3 harg3 x2 x3) (Rect.unit (s := S10240x128) ![0, 0] S1024x128.size inb_S10240x128_S1024x128_0_0)
      (fun v => k2_pay25 (bodyRun2.sl.r_2 c arg5 harg5 x5) (bodyRun2.sl.r_11 c i arg2 harg2 arg3 harg3 arg4 harg4 arg5 harg5 arg6 harg6 arg7 harg7 arg8 harg8 arg15 x2 x3 x4 x5 x6 x7 x8 f15) bodyRun2.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (if _hc : bodyRun2.sl.v4 i = 1#1 then arg14.view.writes (Elt F) (harg14.unread x14) [⟨(Rect.unit (s := S10240x128) ![0, 0] S10240x128.size inb_S10240x128_S10240x128_0_0), k2_pay2⟩] else harg14.unread x14))))))))))) := rfl

set_option maxRecDepth 65536 in
/-- The target-row scratch as the hidden layer's load reads it: nine gated read-modify-writes over the first. -/
theorem xi_raw2 (c : Dev nD) (i : grid2.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    (bodyRun2.sl.v188 c i arg2 harg2 arg3 harg3 arg5 harg5 arg6 harg6 arg15 x2 x3 x5 x6 f15) = View.readAt (Elt F) arg15.view (Rect.unit (s := S256x128) ![0, 0] S256x128.size inb_S256x128_S256x128_0_0).toLoadRect (gatedRmw arg15.view (bodyRun2.sl.v187 c i arg2 harg2 arg3 harg3 x2 x3) (Rect.unit (s := S256x128) ![0, 0] S256x128.size inb_S256x128_S256x128_0_0)
      (fun v => k2_pay22 (bodyRun2.sl.r_2 c arg5 harg5 x5) (View.readAt (Elt F) arg6.view (Rect.unit (s := S10240x128) ![9216, 0] S1024x128.size inb_S10240x128_S1024x128_9216_0).toLoadRect (harg6.unread x6)) v)
      (gatedRmw arg15.view (bodyRun2.sl.v182 c i arg2 harg2 arg3 harg3 x2 x3) (Rect.unit (s := S256x128) ![0, 0] S256x128.size inb_S256x128_S256x128_0_0)
      (fun v => k2_pay21 (bodyRun2.sl.r_2 c arg5 harg5 x5) (View.readAt (Elt F) arg6.view (Rect.unit (s := S10240x128) ![8192, 0] S1024x128.size inb_S10240x128_S1024x128_8192_0).toLoadRect (harg6.unread x6)) v)
      (gatedRmw arg15.view (bodyRun2.sl.v177 c i arg2 harg2 arg3 harg3 x2 x3) (Rect.unit (s := S256x128) ![0, 0] S256x128.size inb_S256x128_S256x128_0_0)
      (fun v => k2_pay20 (bodyRun2.sl.r_2 c arg5 harg5 x5) (View.readAt (Elt F) arg6.view (Rect.unit (s := S10240x128) ![7168, 0] S1024x128.size inb_S10240x128_S1024x128_7168_0).toLoadRect (harg6.unread x6)) v)
      (gatedRmw arg15.view (bodyRun2.sl.v172 c i arg2 harg2 arg3 harg3 x2 x3) (Rect.unit (s := S256x128) ![0, 0] S256x128.size inb_S256x128_S256x128_0_0)
      (fun v => k2_pay19 (bodyRun2.sl.r_2 c arg5 harg5 x5) (View.readAt (Elt F) arg6.view (Rect.unit (s := S10240x128) ![6144, 0] S1024x128.size inb_S10240x128_S1024x128_6144_0).toLoadRect (harg6.unread x6)) v)
      (gatedRmw arg15.view (bodyRun2.sl.v167 c i arg2 harg2 arg3 harg3 x2 x3) (Rect.unit (s := S256x128) ![0, 0] S256x128.size inb_S256x128_S256x128_0_0)
      (fun v => k2_pay18 (bodyRun2.sl.r_2 c arg5 harg5 x5) (View.readAt (Elt F) arg6.view (Rect.unit (s := S10240x128) ![5120, 0] S1024x128.size inb_S10240x128_S1024x128_5120_0).toLoadRect (harg6.unread x6)) v)
      (gatedRmw arg15.view (bodyRun2.sl.v162 c i arg2 harg2 arg3 harg3 x2 x3) (Rect.unit (s := S256x128) ![0, 0] S256x128.size inb_S256x128_S256x128_0_0)
      (fun v => k2_pay17 (bodyRun2.sl.r_2 c arg5 harg5 x5) (View.readAt (Elt F) arg6.view (Rect.unit (s := S10240x128) ![4096, 0] S1024x128.size inb_S10240x128_S1024x128_4096_0).toLoadRect (harg6.unread x6)) v)
      (gatedRmw arg15.view (bodyRun2.sl.v157 c i arg2 harg2 arg3 harg3 x2 x3) (Rect.unit (s := S256x128) ![0, 0] S256x128.size inb_S256x128_S256x128_0_0)
      (fun v => k2_pay16 (bodyRun2.sl.r_2 c arg5 harg5 x5) (View.readAt (Elt F) arg6.view (Rect.unit (s := S10240x128) ![3072, 0] S1024x128.size inb_S10240x128_S1024x128_3072_0).toLoadRect (harg6.unread x6)) v)
      (gatedRmw arg15.view (bodyRun2.sl.v152 c i arg2 harg2 arg3 harg3 x2 x3) (Rect.unit (s := S256x128) ![0, 0] S256x128.size inb_S256x128_S256x128_0_0)
      (fun v => k2_pay15 (bodyRun2.sl.r_2 c arg5 harg5 x5) (View.readAt (Elt F) arg6.view (Rect.unit (s := S10240x128) ![2048, 0] S1024x128.size inb_S10240x128_S1024x128_2048_0).toLoadRect (harg6.unread x6)) v)
      (gatedRmw arg15.view (bodyRun2.sl.v147 c i arg2 harg2 arg3 harg3 x2 x3) (Rect.unit (s := S256x128) ![0, 0] S256x128.size inb_S256x128_S256x128_0_0)
      (fun v => k2_pay14 (bodyRun2.sl.r_2 c arg5 harg5 x5) (View.readAt (Elt F) arg6.view (Rect.unit (s := S10240x128) ![1024, 0] S1024x128.size inb_S10240x128_S1024x128_1024_0).toLoadRect (harg6.unread x6)) v)
      (if _hc : (bodyRun2.sl.v142 c i arg2 harg2 arg3 harg3 x2 x3) = 1#1 then arg15.view.writes (Elt F) f15 (⟨(Rect.unit (s := S256x128) ![0, 0] S256x128.size inb_S256x128_S256x128_0_0), k2_pay13 (bodyRun2.sl.r_2 c arg5 harg5 x5) (View.readAt (Elt F) arg6.view (Rect.unit (s := S10240x128) ![0, 0] S1024x128.size inb_S10240x128_S1024x128_0_0).toLoadRect (harg6.unread x6)) (bodyRun2.sl.v277 arg15)⟩ :: bodyRun2.sl.H15_1) else arg15.view.writes (Elt F) f15 bodyRun2.sl.H15_1)))))))))) := rfl

set_option maxRecDepth 65536 in
/-- The write-out's load of the whole accumulator reads the same raw contents. -/
theorem v266_raw2 (c : Dev nD) (i : grid2.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    (bodyRun2.sl.v266 c i arg2 harg2 arg3 harg3 arg4 harg4 arg5 harg5 arg6 harg6 arg7 harg7 arg8 harg8 arg9 harg9 arg10 harg10 arg11 harg11 arg12 harg12 arg14 harg14 arg15 x2 x3 x4 x5 x6 x7 x8 x9 x10 x11 x12 x14 f15) = View.readAt (Elt F) arg14.view (Rect.unit (s := S10240x128) ![0, 0] S10240x128.size inb_S10240x128_S10240x128_0_0).toLoadRect (gatedRmw arg14.view (bodyRun2.sl.v187 c i arg2 harg2 arg3 harg3 x2 x3) (Rect.unit (s := S10240x128) ![9216, 0] S1024x128.size inb_S10240x128_S1024x128_9216_0)
      (fun v => k2_pay34 (bodyRun2.sl.r_2 c arg5 harg5 x5) (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun2.sl.v182 c i arg2 harg2 arg3 harg3 x2 x3) (Rect.unit (s := S10240x128) ![8192, 0] S1024x128.size inb_S10240x128_S1024x128_8192_0)
      (fun v => k2_pay33 (bodyRun2.sl.r_2 c arg5 harg5 x5) (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun2.sl.v177 c i arg2 harg2 arg3 harg3 x2 x3) (Rect.unit (s := S10240x128) ![7168, 0] S1024x128.size inb_S10240x128_S1024x128_7168_0)
      (fun v => k2_pay32 (bodyRun2.sl.r_2 c arg5 harg5 x5) (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun2.sl.v172 c i arg2 harg2 arg3 harg3 x2 x3) (Rect.unit (s := S10240x128) ![6144, 0] S1024x128.size inb_S10240x128_S1024x128_6144_0)
      (fun v => k2_pay31 (bodyRun2.sl.r_2 c arg5 harg5 x5) (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun2.sl.v167 c i arg2 harg2 arg3 harg3 x2 x3) (Rect.unit (s := S10240x128) ![5120, 0] S1024x128.size inb_S10240x128_S1024x128_5120_0)
      (fun v => k2_pay30 (bodyRun2.sl.r_2 c arg5 harg5 x5) (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun2.sl.v162 c i arg2 harg2 arg3 harg3 x2 x3) (Rect.unit (s := S10240x128) ![4096, 0] S1024x128.size inb_S10240x128_S1024x128_4096_0)
      (fun v => k2_pay29 (bodyRun2.sl.r_2 c arg5 harg5 x5) (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun2.sl.v157 c i arg2 harg2 arg3 harg3 x2 x3) (Rect.unit (s := S10240x128) ![3072, 0] S1024x128.size inb_S10240x128_S1024x128_3072_0)
      (fun v => k2_pay28 (bodyRun2.sl.r_2 c arg5 harg5 x5) (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun2.sl.v152 c i arg2 harg2 arg3 harg3 x2 x3) (Rect.unit (s := S10240x128) ![2048, 0] S1024x128.size inb_S10240x128_S1024x128_2048_0)
      (fun v => k2_pay27 (bodyRun2.sl.r_2 c arg5 harg5 x5) (bodyRun2.sl.r_11 c i arg2 harg2 arg3 harg3 arg4 harg4 arg5 harg5 arg6 harg6 arg7 harg7 arg8 harg8 arg15 x2 x3 x4 x5 x6 x7 x8 f15) bodyRun2.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (gatedRmw arg14.view (bodyRun2.sl.v147 c i arg2 harg2 arg3 harg3 x2 x3) (Rect.unit (s := S10240x128) ![1024, 0] S1024x128.size inb_S10240x128_S1024x128_1024_0)
      (fun v => k2_pay26 (bodyRun2.sl.r_2 c arg5 harg5 x5) (bodyRun2.sl.r_11 c i arg2 harg2 arg3 harg3 arg4 harg4 arg5 harg5 arg6 harg6 arg7 harg7 arg8 harg8 arg15 x2 x3 x4 x5 x6 x7 x8 f15) bodyRun2.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (gatedRmw arg14.view (bodyRun2.sl.v142 c i arg2 harg2 arg3 harg3 x2 x3) (Rect.unit (s := S10240x128) ![0, 0] S1024x128.size inb_S10240x128_S1024x128_0_0)
      (fun v => k2_pay25 (bodyRun2.sl.r_2 c arg5 harg5 x5) (bodyRun2.sl.r_11 c i arg2 harg2 arg3 harg3 arg4 harg4 arg5 harg5 arg6 harg6 arg7 harg7 arg8 harg8 arg15 x2 x3 x4 x5 x6 x7 x8 f15) bodyRun2.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x128) ![0, 0] S128x128.size inb_S128x128_S128x128_0_0).toLoadRect (harg11.unread x11)) (View.readAt (Elt F) arg12.view (Rect.unit (s := S1x128) ![0, 0] S1x128.size inb_S1x128_S1x128_0_0).toLoadRect (harg12.unread x12)) v)
      (if _hc : bodyRun2.sl.v4 i = 1#1 then arg14.view.writes (Elt F) (harg14.unread x14) [⟨(Rect.unit (s := S10240x128) ![0, 0] S10240x128.size inb_S10240x128_S10240x128_0_0), k2_pay2⟩] else harg14.unread x14))))))))))) := rfl

set_option maxRecDepth 65536 in
/-- The output's staging buffer: one whole store under the last tile's condition. -/
theorem out_raw2 (c : Dev nD) (i : grid2.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    (bodyRun2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).2.2.1 = (if _hc : k2_cond22 i = 1#1 then arg13.view.writes (Elt F) f13 [⟨(Rect.unit (s := S1x10240x128) ![0, 0, 0] S1x10240x128.size inb_S1x10240x128_S1x10240x128_0_0_0), k2_pay1 (bodyRun2.sl.v266 c i arg2 harg2 arg3 harg3 arg4 harg4 arg5 harg5 arg6 harg6 arg7 harg7 arg8 harg8 arg9 harg9 arg10 harg10 arg11 harg11 arg12 harg12 arg14 harg14 arg15 x2 x3 x4 x5 x6 x7 x8 x9 x10 x11 x12 x14 f15)⟩] else f13) := rfl

/-! ## Loads off whole buffers, and the run's names as the functions of `StepDefsI0` -/

/-- A load off a whole buffer held at the raw contents of `X` reads `X` through the rectangle. -/
private theorem readAt_unread_ld2 {sp : Space} {s : Shape} {e : EltTy} (m : Memref sig .tc sp s e) (h : m.IsWhole)
    (X : s.Idx → Elt F e) (R : Rect s) : View.readAt (Elt F) m.view R.toLoadRect (h.unread X) = View.ld X R := by
  rw [View.readAt_eq_ld, h.read_unread]

private theorem ld_w_col2 {Val : EltTy → Type} {e : EltTy} (X : S256x1.Idx → Val e) : View.ld X (Rect.unit (s := S256x1) ![0, 0] S256x1.size inb_S256x1_S256x1_0_0) = X :=
  View.ld_unit_zero (by funext j; fin_cases j <;> rfl) _ X
private theorem ld_w_wA2 {Val : EltTy → Type} {e : EltTy} (X : S256x128.Idx → Val e) : View.ld X (Rect.unit (s := S256x128) ![0, 0] S256x128.size inb_S256x128_S256x128_0_0) = X :=
  View.ld_unit_zero (by funext j; fin_cases j <;> rfl) _ X
private theorem ld_w_bias2 {Val : EltTy → Type} {e : EltTy} (X : S1x128.Idx → Val e) : View.ld X (Rect.unit (s := S1x128) ![0, 0] S1x128.size inb_S1x128_S1x128_0_0) = X :=
  View.ld_unit_zero (by funext j; fin_cases j <;> rfl) _ X
private theorem ld_w_wB2 {Val : EltTy → Type} {e : EltTy} (X : S128x128.Idx → Val e) : View.ld X (Rect.unit (s := S128x128) ![0, 0] S128x128.size inb_S128x128_S128x128_0_0) = X :=
  View.ld_unit_zero (by funext j; fin_cases j <;> rfl) _ X
private theorem ld_w_rows2 {Val : EltTy → Type} {e : EltTy} (X : S256x128.Idx → Val e) : View.ld X (Rect.unit (s := S256x128) ![0, 0] S256x128.size inb_S256x128_S256x128_0_0) = X :=
  View.ld_unit_zero (by funext j; fin_cases j <;> rfl) _ X
private theorem ld_w_acc2 {Val : EltTy → Type} {e : EltTy} (X : S10240x128.Idx → Val e) : View.ld X (Rect.unit (s := S10240x128) ![0, 0] S10240x128.size inb_S10240x128_S10240x128_0_0) = X :=
  View.ld_unit_zero (by funext j; fin_cases j <;> rfl) _ X

/-- A store through the whole-shape rectangle, last, leaves its payload. -/
private theorem read_writes_cons_whole2 {sp : Space} {s : Shape} {e : EltTy} (v : View sig .tc sp s e)
    (f : v.ty.Contents (Elt F)) {off : Fin s.rank → Nat} (h0 : off = fun _ => 0) (inb : ∀ a, off a + s.size a ≤ s.size a)
    (w : (Rect.unit off s.size inb).shape.Idx → Elt F e) (L : List (View.Piece (Elt F) s e)) :
    v.read (Elt F) (v.writes (Elt F) f (⟨Rect.unit off s.size inb, w⟩ :: L)) = w := by
  subst h0
  funext y
  have e1 := View.read_writes_cons_emb v f (Rect.whole s) w L y
  rw [Rect.emb_whole_apply] at e1
  exact e1

private theorem lo_eq2 (c : Dev nD) (i : grid2.Coords) (arg2 : Memref sig .tc .smem S1250 .i32) (harg2 : arg2.IsWhole)
    (x2 : Vec F S1250 .i32) : bodyRun2.sl.r c i arg2 harg2 x2 = loW2 i x2 := by
  unfold bodyRun2.sl.r loW2
  rw [readAt_unread_ld2]

private theorem hi_eq2 (c : Dev nD) (i : grid2.Coords) (arg3 : Memref sig .tc .smem S1250 .i32) (harg3 : arg3.IsWhole)
    (x3 : Vec F S1250 .i32) : bodyRun2.sl.r_1 c i arg3 harg3 x3 = hiW2 i x3 := by
  unfold bodyRun2.sl.r_1 hiW2
  rw [readAt_unread_ld2]

private theorem gate2_0 (c : Dev nD) (i : grid2.Coords) (arg2 : Memref sig .tc .smem S1250 .i32) (harg2 : arg2.IsWhole) (arg3 : Memref sig .tc .smem S1250 .i32) (harg3 : arg3.IsWhole) (x2 x3 : Vec F S1250 .i32) :
    bodyRun2.sl.v142 c i arg2 harg2 arg3 harg3 x2 x3 = Cert.Spec.gateWord (loW2 i x2) (hiW2 i x3) 0#32 := by
  unfold bodyRun2.sl.v142 bodyRun2.sl.v141 bodyRun2.sl.v140 bodyRun2.sl.v138 bodyRun2.sl.v139
  rw [lo_eq2, hi_eq2]; rfl
private theorem gate2_1 (c : Dev nD) (i : grid2.Coords) (arg2 : Memref sig .tc .smem S1250 .i32) (harg2 : arg2.IsWhole) (arg3 : Memref sig .tc .smem S1250 .i32) (harg3 : arg3.IsWhole) (x2 x3 : Vec F S1250 .i32) :
    bodyRun2.sl.v147 c i arg2 harg2 arg3 harg3 x2 x3 = Cert.Spec.gateWord (loW2 i x2) (hiW2 i x3) 1#32 := by
  unfold bodyRun2.sl.v147 bodyRun2.sl.v146 bodyRun2.sl.v145 bodyRun2.sl.v143 bodyRun2.sl.v144
  rw [lo_eq2, hi_eq2]; rfl
private theorem gate2_2 (c : Dev nD) (i : grid2.Coords) (arg2 : Memref sig .tc .smem S1250 .i32) (harg2 : arg2.IsWhole) (arg3 : Memref sig .tc .smem S1250 .i32) (harg3 : arg3.IsWhole) (x2 x3 : Vec F S1250 .i32) :
    bodyRun2.sl.v152 c i arg2 harg2 arg3 harg3 x2 x3 = Cert.Spec.gateWord (loW2 i x2) (hiW2 i x3) 2#32 := by
  unfold bodyRun2.sl.v152 bodyRun2.sl.v151 bodyRun2.sl.v150 bodyRun2.sl.v148 bodyRun2.sl.v149
  rw [lo_eq2, hi_eq2]; rfl
private theorem gate2_3 (c : Dev nD) (i : grid2.Coords) (arg2 : Memref sig .tc .smem S1250 .i32) (harg2 : arg2.IsWhole) (arg3 : Memref sig .tc .smem S1250 .i32) (harg3 : arg3.IsWhole) (x2 x3 : Vec F S1250 .i32) :
    bodyRun2.sl.v157 c i arg2 harg2 arg3 harg3 x2 x3 = Cert.Spec.gateWord (loW2 i x2) (hiW2 i x3) 3#32 := by
  unfold bodyRun2.sl.v157 bodyRun2.sl.v156 bodyRun2.sl.v155 bodyRun2.sl.v153 bodyRun2.sl.v154
  rw [lo_eq2, hi_eq2]; rfl
private theorem gate2_4 (c : Dev nD) (i : grid2.Coords) (arg2 : Memref sig .tc .smem S1250 .i32) (harg2 : arg2.IsWhole) (arg3 : Memref sig .tc .smem S1250 .i32) (harg3 : arg3.IsWhole) (x2 x3 : Vec F S1250 .i32) :
    bodyRun2.sl.v162 c i arg2 harg2 arg3 harg3 x2 x3 = Cert.Spec.gateWord (loW2 i x2) (hiW2 i x3) 4#32 := by
  unfold bodyRun2.sl.v162 bodyRun2.sl.v161 bodyRun2.sl.v160 bodyRun2.sl.v158 bodyRun2.sl.v159
  rw [lo_eq2, hi_eq2]; rfl
private theorem gate2_5 (c : Dev nD) (i : grid2.Coords) (arg2 : Memref sig .tc .smem S1250 .i32) (harg2 : arg2.IsWhole) (arg3 : Memref sig .tc .smem S1250 .i32) (harg3 : arg3.IsWhole) (x2 x3 : Vec F S1250 .i32) :
    bodyRun2.sl.v167 c i arg2 harg2 arg3 harg3 x2 x3 = Cert.Spec.gateWord (loW2 i x2) (hiW2 i x3) 5#32 := by
  unfold bodyRun2.sl.v167 bodyRun2.sl.v166 bodyRun2.sl.v165 bodyRun2.sl.v163 bodyRun2.sl.v164
  rw [lo_eq2, hi_eq2]; rfl
private theorem gate2_6 (c : Dev nD) (i : grid2.Coords) (arg2 : Memref sig .tc .smem S1250 .i32) (harg2 : arg2.IsWhole) (arg3 : Memref sig .tc .smem S1250 .i32) (harg3 : arg3.IsWhole) (x2 x3 : Vec F S1250 .i32) :
    bodyRun2.sl.v172 c i arg2 harg2 arg3 harg3 x2 x3 = Cert.Spec.gateWord (loW2 i x2) (hiW2 i x3) 6#32 := by
  unfold bodyRun2.sl.v172 bodyRun2.sl.v171 bodyRun2.sl.v170 bodyRun2.sl.v168 bodyRun2.sl.v169
  rw [lo_eq2, hi_eq2]; rfl
private theorem gate2_7 (c : Dev nD) (i : grid2.Coords) (arg2 : Memref sig .tc .smem S1250 .i32) (harg2 : arg2.IsWhole) (arg3 : Memref sig .tc .smem S1250 .i32) (harg3 : arg3.IsWhole) (x2 x3 : Vec F S1250 .i32) :
    bodyRun2.sl.v177 c i arg2 harg2 arg3 harg3 x2 x3 = Cert.Spec.gateWord (loW2 i x2) (hiW2 i x3) 7#32 := by
  unfold bodyRun2.sl.v177 bodyRun2.sl.v176 bodyRun2.sl.v175 bodyRun2.sl.v173 bodyRun2.sl.v174
  rw [lo_eq2, hi_eq2]; rfl
private theorem gate2_8 (c : Dev nD) (i : grid2.Coords) (arg2 : Memref sig .tc .smem S1250 .i32) (harg2 : arg2.IsWhole) (arg3 : Memref sig .tc .smem S1250 .i32) (harg3 : arg3.IsWhole) (x2 x3 : Vec F S1250 .i32) :
    bodyRun2.sl.v182 c i arg2 harg2 arg3 harg3 x2 x3 = Cert.Spec.gateWord (loW2 i x2) (hiW2 i x3) 8#32 := by
  unfold bodyRun2.sl.v182 bodyRun2.sl.v181 bodyRun2.sl.v180 bodyRun2.sl.v178 bodyRun2.sl.v179
  rw [lo_eq2, hi_eq2]; rfl
private theorem gate2_9 (c : Dev nD) (i : grid2.Coords) (arg2 : Memref sig .tc .smem S1250 .i32) (harg2 : arg2.IsWhole) (arg3 : Memref sig .tc .smem S1250 .i32) (harg3 : arg3.IsWhole) (x2 x3 : Vec F S1250 .i32) :
    bodyRun2.sl.v187 c i arg2 harg2 arg3 harg3 x2 x3 = Cert.Spec.gateWord (loW2 i x2) (hiW2 i x3) 9#32 := by
  unfold bodyRun2.sl.v187 bodyRun2.sl.v186 bodyRun2.sl.v185 bodyRun2.sl.v183 bodyRun2.sl.v184
  rw [lo_eq2, hi_eq2]; rfl

private theorem first_eq2 (i : grid2.Coords) : bodyRun2.sl.v4 i = firstW2 i := rfl

private theorem r2_eq2 (c : Dev nD) (arg5 : Memref sig .tc .vmem S256x1 .i32) (harg5 : arg5.IsWhole) (x5 : Vec F S256x1 .i32) :
    bodyRun2.sl.r_2 c arg5 harg5 x5 = k2_pay3 x5 := by
  unfold bodyRun2.sl.r_2
  rw [readAt_unread_ld2, ld_w_col2]

private theorem xj_eq2 (c : Dev nD) (arg4 : Memref sig .tc .vmem S256x1 .i32) (harg4 : arg4.IsWhole)
    (arg6 : Memref sig .tc .vmem S10240x128 .f32) (harg6 : arg6.IsWhole) (x4 : Vec F S256x1 .i32) (x6 : Vec F S10240x128 .f32) :
    bodyRun2.sl.r_10 c arg4 harg4 arg6 harg6 x4 x6 = xj2 x4 x6 := by
  unfold bodyRun2.sl.r_10 bodyRun2.sl.r_9 bodyRun2.sl.r_8 bodyRun2.sl.r_7 bodyRun2.sl.r_6 bodyRun2.sl.r_5 bodyRun2.sl.r_4
    bodyRun2.sl.r_3 bodyRun2.sl.v39 xj2
  simp only [readAt_unread_ld2]
  rw [ld_w_col2 x4]

private theorem v277_eq2 (arg15 : Memref sig .tc .vmem S256x128 .f32) :
    bodyRun2.sl.v277 (F := F) arg15 = k2_pay12 := by
  unfold bodyRun2.sl.v277 bodyRun2.sl.H15_1
  exact View.readCov_unit_zero _ (by funext j; fin_cases j <;> rfl) _ _

/-- The first gated step of the target rows' gather, whose store the run listed with the zero fill. -/
private theorem read_xi_first2 (arg15 : Memref sig .tc .vmem S256x128 .f32) (g : BitVec 1)
    (f15 : BufTy.Contents (Elt F) arg15.view.ty) (w : ((Rect.unit (s := S256x128) ![0, 0] S256x128.size inb_S256x128_S256x128_0_0).shape.Idx → Elt F .f32) → ((Rect.unit (s := S256x128) ![0, 0] S256x128.size inb_S256x128_S256x128_0_0).shape.Idx → Elt F .f32)) :
    arg15.view.read (Elt F) (if _hc : g = 1#1 then arg15.view.writes (Elt F) f15 (⟨(Rect.unit (s := S256x128) ![0, 0] S256x128.size inb_S256x128_S256x128_0_0), w (bodyRun2.sl.v277 arg15)⟩ :: bodyRun2.sl.H15_1) else arg15.view.writes (Elt F) f15 bodyRun2.sl.H15_1)
      = xiStep2 g w k2_pay12 := by
  unfold xiStep2
  by_cases h : g = 1#1
  · rw [dif_pos h, if_pos h, read_writes_cons_whole2 _ _ (by funext j; fin_cases j <;> rfl), v277_eq2]
  · rw [dif_neg h, if_neg h]
    unfold bodyRun2.sl.H15_1
    rw [read_writes_cons_whole2 _ _ (by funext j; fin_cases j <;> rfl)]

/-- A later gated step of it. -/
private theorem read_xi_step2 (arg15 : Memref sig .tc .vmem S256x128 .f32) (g : BitVec 1)
    (w : ((Rect.unit (s := S256x128) ![0, 0] S256x128.size inb_S256x128_S256x128_0_0).shape.Idx → Elt F .f32) → ((Rect.unit (s := S256x128) ![0, 0] S256x128.size inb_S256x128_S256x128_0_0).shape.Idx → Elt F .f32)) (D : BufTy.Contents (Elt F) arg15.view.ty) :
    arg15.view.read (Elt F) (gatedRmw arg15.view g (Rect.unit (s := S256x128) ![0, 0] S256x128.size inb_S256x128_S256x128_0_0) w D) = xiStep2 g w (arg15.view.read (Elt F) D) := by
  rw [read_gatedRmw, gatedVal_whole (by funext j; fin_cases j <;> rfl)]
  rfl

theorem xi_eq2 (c : Dev nD) (i : grid2.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) : (bodyRun2.sl.v188 c i arg2 harg2 arg3 harg3 arg5 harg5 arg6 harg6 arg15 x2 x3 x5 x6 f15) = xi2 i x2 x3 x5 x6 := by
  rw [xi_raw2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, View.readAt_eq_ld, ld_w_rows2]
  rw [read_xi_step2, read_xi_step2, read_xi_step2, read_xi_step2, read_xi_step2, read_xi_step2, read_xi_step2, read_xi_step2, read_xi_step2, read_xi_first2]
  simp only [gate2_0, gate2_1, gate2_2, gate2_3, gate2_4, gate2_5, gate2_6, gate2_7, gate2_8, gate2_9, r2_eq2, readAt_unread_ld2]
  rfl

theorem hid_eq2 (c : Dev nD) (i : grid2.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) : (bodyRun2.sl.r_11 c i arg2 harg2 arg3 harg3 arg4 harg4 arg5 harg5 arg6 harg6 arg7 harg7 arg8 harg8 arg15 x2 x3 x4 x5 x6 x7 x8 f15) = hid2 i x2 x3 x4 x5 x6 x7 x8 := by
  unfold bodyRun2.sl.r_11 hid2
  rw [xi_eq2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, xj_eq2, readAt_unread_ld2, readAt_unread_ld2, ld_w_wA2 x7, ld_w_bias2 x8]

theorem msg_eq2 (c : Dev nD) (i : grid2.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) : (bodyRun2.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) = msg2 i x2 x3 x4 x5 x6 x7 x8 x9 x10 x11 x12 := by
  unfold bodyRun2.sl.r_12 msg2
  rw [hid_eq2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15]
  simp only [readAt_unread_ld2]
  rw [ld_w_wB2 x9, ld_w_bias2 x10, ld_w_wB2 x11, ld_w_bias2 x12]
  rfl

private theorem read_accBase2 (i : grid2.Coords) (arg14 : Memref sig .tc .vmem S10240x128 .f32) (harg14 : arg14.IsWhole)
    (x14 : Vec F S10240x128 .f32) :
    arg14.view.read (Elt F) (if _hc : bodyRun2.sl.v4 i = 1#1 then arg14.view.writes (Elt F) (harg14.unread x14) [⟨(Rect.unit (s := S10240x128) ![0, 0] S10240x128.size inb_S10240x128_S10240x128_0_0), k2_pay2⟩] else harg14.unread x14) = accReset2 i x14 := by
  unfold accReset2
  rw [first_eq2]
  by_cases h : firstW2 i = 1#1
  · rw [dif_pos h, if_pos h, read_writes_cons_whole2 _ _ (by funext j; fin_cases j <;> rfl)]
  · rw [dif_neg h, if_neg h, harg14.read_unread]

/-! ## The four facts -/

/-- The accumulator the body leaves reads `stepAcc2` of what the body was handed. -/
theorem bodyRun2_acc (c : Dev nD) (i : grid2.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) :
    arg14.view.read (Elt F) (bodyRun2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).1 = stepAcc2 i x2 x3 x4 x5 x6 x7 x8 x9 x10 x11 x12 x14 := by
  rw [acc_raw2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15]
  simp only [read_gatedRmw]
  rw [read_accBase2]
  simp only [gate2_0, gate2_1, gate2_2, gate2_3, gate2_4, gate2_5, gate2_6, gate2_7, gate2_8, gate2_9, r2_eq2, hid_eq2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, msg_eq2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, readAt_unread_ld2]
  rw [ld_w_wB2 x9, ld_w_bias2 x10, ld_w_wB2 x11, ld_w_bias2 x12]
  rfl

/-- At the core's last tile the output's staging buffer holds the accumulator the body leaves, as a [1, 10240, 128] array. -/
theorem bodyRun2_out_flush (c : Dev nD) (i : grid2.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) (h : k2_cond22 i = 1#1) :
    arg13.view.read (Elt F) (bodyRun2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).2.2.1 = k2_pay1 (stepAcc2 i x2 x3 x4 x5 x6 x7 x8 x9 x10 x11 x12 x14) := by
  rw [out_raw2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, dif_pos h, read_writes_cons_whole2 _ _ (by funext j; fin_cases j <;> rfl), v266_raw2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15,
    View.readAt_eq_ld, ld_w_acc2, ← acc_raw2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, bodyRun2_acc c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15]

/-- At any other tile the body leaves it as it was. -/
theorem bodyRun2_out_idle (c : Dev nD) (i : grid2.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S1x10240x128 .f32) (harg13 : arg13.IsWhole) (arg14 : Memref sig .tc .vmem S10240x128 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x128 .f32) (x12 : Vec F S1x128 .f32) (x14 : Vec F S10240x128 .f32) (f13 : BufTy.Contents (Elt F) arg13.view.ty) (f15 : BufTy.Contents (Elt F) arg15.view.ty) (h : ¬ k2_cond22 i = 1#1) :
    (bodyRun2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).2.2.1 = f13 := by
  rw [out_raw2 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, dif_neg h]

/-- At a core's first tile the accumulator is reset before anything reads it: what the tile before left does not matter. -/
theorem stepAcc2_first (i : grid2.Coords) (h : (i 1).val = 0) (x2 x3 : Vec F S1250 .i32) (x4 x5 : Vec F S256x1 .i32)
    (x6 : Vec F S10240x128 .f32) (x7 : Vec F S256x128 .f32) (x8 : Vec F S1x128 .f32) (x9 : Vec F S128x128 .f32)
    (x10 : Vec F S1x128 .f32) (x11 : Vec F S128x128 .f32) (x12 : Vec F S1x128 .f32) (x14 x14' : Vec F S10240x128 .f32) :
    stepAcc2 i x2 x3 x4 x5 x6 x7 x8 x9 x10 x11 x12 x14 = stepAcc2 i x2 x3 x4 x5 x6 x7 x8 x9 x10 x11 x12 x14' := by
  have hf : firstW2 i = 1#1 := by
    unfold firstW2
    rw [h]
    rfl
  have e : ∀ x : Vec F S10240x128 .f32, accReset2 i x = k2_pay2 := fun x => if_pos hf
  unfold stepAcc2
  rw [e x14, e x14']

end Cert.KernelIdeal.Gen

end
-- ==== Proof.RegionDataI2.lean ====
import proofs.«414286_j65627100283289_3_alg».proof.Proof.Gen.KernelIdeal.Launch
import proofs.«414286_j65627100283289_3_alg».proof.Proof.Gen.KernelIdeal.Skeleton
import proofs.«414286_j65627100283289_3_alg».proof.Proof.BodyI2
import proofs.«414286_j65627100283289_3_alg».proof.Proof.StepDefsI2
import proofs.«414286_j65627100283289_3_alg».proof.Proof.StepI2
import Idealize.ShloMosaic.Lib.Pipeline.Frame
import Idealize.ShloMosaic.Lib.Pipeline.FrameBody
import Idealize.ShloMosaic.Lib.Tactic

/-!
# Region 2's proof data and body obligation

Region 2 is the first EdgeConv layer's kernel: a grid of 2 cores × 625 tiles, two prefetched tables (each tile's lowest
and highest target chunk), ten windows (the tile's source and target columns, the padded node table, six parameter
blocks, and one output block per core) and two scratch buffers: the accumulator, carried from tile to tile within a
core, and the target rows, overwritten at every tile.

The proof data name what every staging buffer holds after the body at every point: an input its block; the output the
accumulator after the point, in the output's shape (read only at a core's last tile, where the block is written back;
at every other tile the body leaves the output's buffer as it found it). The invariant carries the accumulator at the
contents `accAt2 n`, the fold of the body's step `stepAcc2` over the points before `n`; the step at a core's first
tile does not read what it finds, so the fold's start is immaterial. The body's own run and the facts about what it
leaves come from the body's modules.

-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 2 (custom_call 0, pipeline 0): its proof data at the entry contents `V` and the tables' contents `a` -/

section Region2

-- the TensorCore's buffer contents when the region is entered, and the admissible contents of the two prefetched tables
variable (V : (c : Dev nD) → (b : Ref sig .tc) → Buf (Elt F) ((c : Thread nD τ).loc b))
variable (a : (pcfg2 (F := F)).Adm)

/-! ## The schedule: the staging memrefs at a point, and the body as the pipeline calls it -/

/-- Each window's current staging memref at point `t`, spelled as the pipeline passes it, and its wholeness. The index
    maps do not read the tables, so nothing here evaluates `a`. -/
abbrev ms2_0 (t : Fin (cfg2 a).N) := spec2_0.stage ((cfg2 a).slots t 0)
abbrev hs2_0 (t : Fin (cfg2 a).N) : (ms2_0 a t).IsWhole := hstage2_0 (((cfg2 a).slots t 0).cast nbuf2_0)
abbrev ms2_1 (t : Fin (cfg2 a).N) := spec2_1.stage ((cfg2 a).slots t 1)
abbrev hs2_1 (t : Fin (cfg2 a).N) : (ms2_1 a t).IsWhole := hstage2_1 (((cfg2 a).slots t 1).cast nbuf2_1)
abbrev ms2_2 (t : Fin (cfg2 a).N) := spec2_2.stage ((cfg2 a).slots t 2)
abbrev hs2_2 (t : Fin (cfg2 a).N) : (ms2_2 a t).IsWhole := hstage2_2 (((cfg2 a).slots t 2).cast nbuf2_2)
abbrev ms2_3 (t : Fin (cfg2 a).N) := spec2_3.stage ((cfg2 a).slots t 3)
abbrev hs2_3 (t : Fin (cfg2 a).N) : (ms2_3 a t).IsWhole := hstage2_3 (((cfg2 a).slots t 3).cast nbuf2_3)
abbrev ms2_4 (t : Fin (cfg2 a).N) := spec2_4.stage ((cfg2 a).slots t 4)
abbrev hs2_4 (t : Fin (cfg2 a).N) : (ms2_4 a t).IsWhole := hstage2_4 (((cfg2 a).slots t 4).cast nbuf2_4)
abbrev ms2_5 (t : Fin (cfg2 a).N) := spec2_5.stage ((cfg2 a).slots t 5)
abbrev hs2_5 (t : Fin (cfg2 a).N) : (ms2_5 a t).IsWhole := hstage2_5 (((cfg2 a).slots t 5).cast nbuf2_5)
abbrev ms2_6 (t : Fin (cfg2 a).N) := spec2_6.stage ((cfg2 a).slots t 6)
abbrev hs2_6 (t : Fin (cfg2 a).N) : (ms2_6 a t).IsWhole := hstage2_6 (((cfg2 a).slots t 6).cast nbuf2_6)
abbrev ms2_7 (t : Fin (cfg2 a).N) := spec2_7.stage ((cfg2 a).slots t 7)
abbrev hs2_7 (t : Fin (cfg2 a).N) : (ms2_7 a t).IsWhole := hstage2_7 (((cfg2 a).slots t 7).cast nbuf2_7)
abbrev ms2_8 (t : Fin (cfg2 a).N) := spec2_8.stage ((cfg2 a).slots t 8)
abbrev hs2_8 (t : Fin (cfg2 a).N) : (ms2_8 a t).IsWhole := hstage2_8 (((cfg2 a).slots t 8).cast nbuf2_8)
abbrev ms2_9 (t : Fin (cfg2 a).N) := spec2_9.stage ((cfg2 a).slots t 9)
abbrev hs2_9 (t : Fin (cfg2 a).N) : (ms2_9 a t).IsWhole := hstage2_9 (((cfg2 a).slots t 9).cast nbuf2_9)

/-- The body at point `t`: the two tables whole, the ten windows' current staging memrefs, the two scratch buffers whole. -/
abbrev bodyAt2 (t : Fin (cfg2 a).N) :=
  cc2__edgeconv_kernel (F := F) (grid2.coords t) (Memref.whole main_v31) (Memref.isWhole_whole _) (Memref.whole main_v39) (Memref.isWhole_whole _)
    (ms2_0 a t) (hs2_0 a t) (ms2_1 a t) (hs2_1 a t) (ms2_2 a t) (hs2_2 a t) (ms2_3 a t) (hs2_3 a t) (ms2_4 a t) (hs2_4 a t) (ms2_5 a t) (hs2_5 a t) (ms2_6 a t) (hs2_6 a t) (ms2_7 a t) (hs2_7 a t) (ms2_8 a t) (hs2_8 a t) (ms2_9 a t) (hs2_9 a t)
    (Memref.whole cc2_scratch0) (Memref.isWhole_whole _) (Memref.whole cc2_scratch1) (Memref.isWhole_whole _)

/-- It is what the body table runs at the pipeline's argument for the point. -/
theorem bodyAt2_eq (t : Fin (cfg2 a).N) :
    defs₀ (F := F) .tc (cfg2 a).body ((cfg2 a).bodyArgs t ((cfg2 a).slots t)) = bodyAt2 a t := rfl

/-- The output window is written back exactly where the body's last conditional fires: elsewhere no write-back. -/
theorem wbClosed2_9 : ∀ t : Fin grid2.N, k2_cond22 (grid2.coords t) = 1#1 ∨
    (t.val + 1 = grid2.N || decide (∃ h : t.val + 1 < grid2.N, cc2_transform_9 (grid2.coords ⟨t.val + 1, h⟩) ≠ cc2_transform_9 (grid2.coords t))) = false := by
  decide +kernel

theorem flushNot2_9 (t : Fin (cfg2 a).N) (h : ¬ k2_cond22 (grid2.coords t) = 1#1) : ((cfg2 a).win (9 : Fin 10)).flush t = false := by
  have := (wbClosed2_9 t).resolve_left h
  show (true && _) = false
  rw [Bool.true_and]; exact this

/-- Where the conditional fires the window is live, elsewhere idle. -/
theorem idleLive2_9 (t : Fin (cfg2 a).N) (h : k2_cond22 (grid2.coords t) = 1#1) : (cfg2 a).idle (9 : Fin 10) ((cfg2 a).grid.coords t) = false := by
  show (!(k2_cond22 (grid2.coords t) == 1#1)) = false
  rw [h]; rfl
theorem idleNot2_9 (t : Fin (cfg2 a).N) (h : ¬ k2_cond22 (grid2.coords t) = 1#1) : (cfg2 a).idle (9 : Fin 10) ((cfg2 a).grid.coords t) = true := by
  show (!(k2_cond22 (grid2.coords t) == 1#1)) = true
  rw [Bool.not_eq_true', beq_eq_false_iff_ne]; exact h

/-- At the first point of the grid the tile coordinate is zero. -/
theorem coords2_first (t : Fin (cfg2 a).N) (h : t.val = 0) : ((grid2.coords t) 1).val = 0 := by
  obtain ⟨n, hn⟩ := t
  simp only at h; subst h
  exact (by decide +kernel : ((grid2.coords (⟨0, by decide⟩ : Fin grid2.N)) 1).val = 0)

/-! ## The windows' blocks -/

/-- Window `w`'s block at point `t`, read off its array as the region finds it (`V`). -/
def iblk2 (c : Dev nD) (w : Fin (cfg2 a).W) (t : Fin (cfg2 a).N) : (((cfg2 a).win w).xblock ((cfg2 a).grid.coords t)).Idx → Elt F ((cfg2 a).win w).elt :=
  (((cfg2 a).win w).blk t).view.read (Elt F) (V c (Pipeline.arrRef spec2 w))

/-- An input window's current staging buffer holds its block at every point, fetched there or not, for ANY proof data
    whose array is `V`'s and whose body leaves the block in place: unfetched, the block index has not moved. -/
theorem before2_0_of {c : Dev nD} (dat : Dat τ (Elt F) Unit ℕ (Pipeline.UD sig nD τ) ℕ (cfg2 a) c) (hA : dat.A (0 : Fin 10) = V c (Pipeline.arrRef spec2 (0 : Fin 10)))
    (hafter : ∀ t, dat.after (0 : Fin 10) t = iblk2 V a c (0 : Fin 10) t) (t : Fin (cfg2 a).N) (d) : dat.before (0 : Fin 10) t d = iblk2 V a c (0 : Fin 10) t := by
  have hblk : ∀ t, dat.blockOf (0 : Fin 10) t = iblk2 V a c (0 : Fin 10) t := fun t => by unfold Dat.blockOf iblk2; rw [hA]
  have hkeep : ∀ t, ((cfg2 a).win (0 : Fin 10)).cut ((cfg2 a).grid.coords t) (dat.after (0 : Fin 10) t) = dat.blockOf (0 : Fin 10) t := fun t => by
    rw [hafter, hblk]
  rw [dat.before_in_eq_fetched (0 : Fin 10) rfl (fun _ => rfl) (fun _ _ _ => rfl) hkeep t d]
  show ((cfg2 a).win (0 : Fin 10)).fill _ d (dat.blockOf (0 : Fin 10) t) = _
  rw [hblk]; rfl
theorem before2_1_of {c : Dev nD} (dat : Dat τ (Elt F) Unit ℕ (Pipeline.UD sig nD τ) ℕ (cfg2 a) c) (hA : dat.A (1 : Fin 10) = V c (Pipeline.arrRef spec2 (1 : Fin 10)))
    (hafter : ∀ t, dat.after (1 : Fin 10) t = iblk2 V a c (1 : Fin 10) t) (t : Fin (cfg2 a).N) (d) : dat.before (1 : Fin 10) t d = iblk2 V a c (1 : Fin 10) t := by
  have hblk : ∀ t, dat.blockOf (1 : Fin 10) t = iblk2 V a c (1 : Fin 10) t := fun t => by unfold Dat.blockOf iblk2; rw [hA]
  have hkeep : ∀ t, ((cfg2 a).win (1 : Fin 10)).cut ((cfg2 a).grid.coords t) (dat.after (1 : Fin 10) t) = dat.blockOf (1 : Fin 10) t := fun t => by
    rw [hafter, hblk]
  rw [dat.before_in_eq_fetched (1 : Fin 10) rfl (fun _ => rfl) (fun _ _ _ => rfl) hkeep t d]
  show ((cfg2 a).win (1 : Fin 10)).fill _ d (dat.blockOf (1 : Fin 10) t) = _
  rw [hblk]; rfl
theorem before2_2_of {c : Dev nD} (dat : Dat τ (Elt F) Unit ℕ (Pipeline.UD sig nD τ) ℕ (cfg2 a) c) (hA : dat.A (2 : Fin 10) = V c (Pipeline.arrRef spec2 (2 : Fin 10)))
    (hafter : ∀ t, dat.after (2 : Fin 10) t = iblk2 V a c (2 : Fin 10) t) (t : Fin (cfg2 a).N) (d) : dat.before (2 : Fin 10) t d = iblk2 V a c (2 : Fin 10) t := by
  have hblk : ∀ t, dat.blockOf (2 : Fin 10) t = iblk2 V a c (2 : Fin 10) t := fun t => by unfold Dat.blockOf iblk2; rw [hA]
  have hkeep : ∀ t, ((cfg2 a).win (2 : Fin 10)).cut ((cfg2 a).grid.coords t) (dat.after (2 : Fin 10) t) = dat.blockOf (2 : Fin 10) t := fun t => by
    rw [hafter, hblk]
  rw [dat.before_in_eq_fetched (2 : Fin 10) rfl (fun _ => rfl) (fun _ _ _ => rfl) hkeep t d]
  show ((cfg2 a).win (2 : Fin 10)).fill _ d (dat.blockOf (2 : Fin 10) t) = _
  rw [hblk]; rfl
theorem before2_3_of {c : Dev nD} (dat : Dat τ (Elt F) Unit ℕ (Pipeline.UD sig nD τ) ℕ (cfg2 a) c) (hA : dat.A (3 : Fin 10) = V c (Pipeline.arrRef spec2 (3 : Fin 10)))
    (hafter : ∀ t, dat.after (3 : Fin 10) t = iblk2 V a c (3 : Fin 10) t) (t : Fin (cfg2 a).N) (d) : dat.before (3 : Fin 10) t d = iblk2 V a c (3 : Fin 10) t := by
  have hblk : ∀ t, dat.blockOf (3 : Fin 10) t = iblk2 V a c (3 : Fin 10) t := fun t => by unfold Dat.blockOf iblk2; rw [hA]
  have hkeep : ∀ t, ((cfg2 a).win (3 : Fin 10)).cut ((cfg2 a).grid.coords t) (dat.after (3 : Fin 10) t) = dat.blockOf (3 : Fin 10) t := fun t => by
    rw [hafter, hblk]
  rw [dat.before_in_eq_fetched (3 : Fin 10) rfl (fun _ => rfl) (fun _ _ _ => rfl) hkeep t d]
  show ((cfg2 a).win (3 : Fin 10)).fill _ d (dat.blockOf (3 : Fin 10) t) = _
  rw [hblk]; rfl
theorem before2_4_of {c : Dev nD} (dat : Dat τ (Elt F) Unit ℕ (Pipeline.UD sig nD τ) ℕ (cfg2 a) c) (hA : dat.A (4 : Fin 10) = V c (Pipeline.arrRef spec2 (4 : Fin 10)))
    (hafter : ∀ t, dat.after (4 : Fin 10) t = iblk2 V a c (4 : Fin 10) t) (t : Fin (cfg2 a).N) (d) : dat.before (4 : Fin 10) t d = iblk2 V a c (4 : Fin 10) t := by
  have hblk : ∀ t, dat.blockOf (4 : Fin 10) t = iblk2 V a c (4 : Fin 10) t := fun t => by unfold Dat.blockOf iblk2; rw [hA]
  have hkeep : ∀ t, ((cfg2 a).win (4 : Fin 10)).cut ((cfg2 a).grid.coords t) (dat.after (4 : Fin 10) t) = dat.blockOf (4 : Fin 10) t := fun t => by
    rw [hafter, hblk]
  rw [dat.before_in_eq_fetched (4 : Fin 10) rfl (fun _ => rfl) (fun _ _ _ => rfl) hkeep t d]
  show ((cfg2 a).win (4 : Fin 10)).fill _ d (dat.blockOf (4 : Fin 10) t) = _
  rw [hblk]; rfl
theorem before2_5_of {c : Dev nD} (dat : Dat τ (Elt F) Unit ℕ (Pipeline.UD sig nD τ) ℕ (cfg2 a) c) (hA : dat.A (5 : Fin 10) = V c (Pipeline.arrRef spec2 (5 : Fin 10)))
    (hafter : ∀ t, dat.after (5 : Fin 10) t = iblk2 V a c (5 : Fin 10) t) (t : Fin (cfg2 a).N) (d) : dat.before (5 : Fin 10) t d = iblk2 V a c (5 : Fin 10) t := by
  have hblk : ∀ t, dat.blockOf (5 : Fin 10) t = iblk2 V a c (5 : Fin 10) t := fun t => by unfold Dat.blockOf iblk2; rw [hA]
  have hkeep : ∀ t, ((cfg2 a).win (5 : Fin 10)).cut ((cfg2 a).grid.coords t) (dat.after (5 : Fin 10) t) = dat.blockOf (5 : Fin 10) t := fun t => by
    rw [hafter, hblk]
  rw [dat.before_in_eq_fetched (5 : Fin 10) rfl (fun _ => rfl) (fun _ _ _ => rfl) hkeep t d]
  show ((cfg2 a).win (5 : Fin 10)).fill _ d (dat.blockOf (5 : Fin 10) t) = _
  rw [hblk]; rfl
theorem before2_6_of {c : Dev nD} (dat : Dat τ (Elt F) Unit ℕ (Pipeline.UD sig nD τ) ℕ (cfg2 a) c) (hA : dat.A (6 : Fin 10) = V c (Pipeline.arrRef spec2 (6 : Fin 10)))
    (hafter : ∀ t, dat.after (6 : Fin 10) t = iblk2 V a c (6 : Fin 10) t) (t : Fin (cfg2 a).N) (d) : dat.before (6 : Fin 10) t d = iblk2 V a c (6 : Fin 10) t := by
  have hblk : ∀ t, dat.blockOf (6 : Fin 10) t = iblk2 V a c (6 : Fin 10) t := fun t => by unfold Dat.blockOf iblk2; rw [hA]
  have hkeep : ∀ t, ((cfg2 a).win (6 : Fin 10)).cut ((cfg2 a).grid.coords t) (dat.after (6 : Fin 10) t) = dat.blockOf (6 : Fin 10) t := fun t => by
    rw [hafter, hblk]
  rw [dat.before_in_eq_fetched (6 : Fin 10) rfl (fun _ => rfl) (fun _ _ _ => rfl) hkeep t d]
  show ((cfg2 a).win (6 : Fin 10)).fill _ d (dat.blockOf (6 : Fin 10) t) = _
  rw [hblk]; rfl
theorem before2_7_of {c : Dev nD} (dat : Dat τ (Elt F) Unit ℕ (Pipeline.UD sig nD τ) ℕ (cfg2 a) c) (hA : dat.A (7 : Fin 10) = V c (Pipeline.arrRef spec2 (7 : Fin 10)))
    (hafter : ∀ t, dat.after (7 : Fin 10) t = iblk2 V a c (7 : Fin 10) t) (t : Fin (cfg2 a).N) (d) : dat.before (7 : Fin 10) t d = iblk2 V a c (7 : Fin 10) t := by
  have hblk : ∀ t, dat.blockOf (7 : Fin 10) t = iblk2 V a c (7 : Fin 10) t := fun t => by unfold Dat.blockOf iblk2; rw [hA]
  have hkeep : ∀ t, ((cfg2 a).win (7 : Fin 10)).cut ((cfg2 a).grid.coords t) (dat.after (7 : Fin 10) t) = dat.blockOf (7 : Fin 10) t := fun t => by
    rw [hafter, hblk]
  rw [dat.before_in_eq_fetched (7 : Fin 10) rfl (fun _ => rfl) (fun _ _ _ => rfl) hkeep t d]
  show ((cfg2 a).win (7 : Fin 10)).fill _ d (dat.blockOf (7 : Fin 10) t) = _
  rw [hblk]; rfl
theorem before2_8_of {c : Dev nD} (dat : Dat τ (Elt F) Unit ℕ (Pipeline.UD sig nD τ) ℕ (cfg2 a) c) (hA : dat.A (8 : Fin 10) = V c (Pipeline.arrRef spec2 (8 : Fin 10)))
    (hafter : ∀ t, dat.after (8 : Fin 10) t = iblk2 V a c (8 : Fin 10) t) (t : Fin (cfg2 a).N) (d) : dat.before (8 : Fin 10) t d = iblk2 V a c (8 : Fin 10) t := by
  have hblk : ∀ t, dat.blockOf (8 : Fin 10) t = iblk2 V a c (8 : Fin 10) t := fun t => by unfold Dat.blockOf iblk2; rw [hA]
  have hkeep : ∀ t, ((cfg2 a).win (8 : Fin 10)).cut ((cfg2 a).grid.coords t) (dat.after (8 : Fin 10) t) = dat.blockOf (8 : Fin 10) t := fun t => by
    rw [hafter, hblk]
  rw [dat.before_in_eq_fetched (8 : Fin 10) rfl (fun _ => rfl) (fun _ _ _ => rfl) hkeep t d]
  show ((cfg2 a).win (8 : Fin 10)).fill _ d (dat.blockOf (8 : Fin 10) t) = _
  rw [hblk]; rfl

/-! ## The accumulator, point by point -/

/-- The two tables' contents as the body reads them. -/
abbrev tab2_0 : Vec F S1250 .i32 := a.1 0
abbrev tab2_1 : Vec F S1250 .i32 := a.1 1

/-- The accumulator before point `n` (after point `n - 1`): anything before the first point, then one body step per
    point over the point's blocks and what the point before left. -/
def accAt2 (c : Dev nD) : ℕ → Vec F S10240x128 .f32
  | 0 => (Memref.whole cc2_scratch0).view.read (Elt F) (V c cc2_scratch0)
  | n + 1 =>
    if h : n < (cfg2 a).N then
      stepAcc2 (grid2.coords ⟨n, h⟩) (tab2_0 a) (tab2_1 a) (iblk2 V a c (0 : Fin 10) ⟨n, h⟩) (iblk2 V a c (1 : Fin 10) ⟨n, h⟩) (iblk2 V a c (2 : Fin 10) ⟨n, h⟩) (iblk2 V a c (3 : Fin 10) ⟨n, h⟩) (iblk2 V a c (4 : Fin 10) ⟨n, h⟩) (iblk2 V a c (5 : Fin 10) ⟨n, h⟩) (iblk2 V a c (6 : Fin 10) ⟨n, h⟩) (iblk2 V a c (7 : Fin 10) ⟨n, h⟩) (iblk2 V a c (8 : Fin 10) ⟨n, h⟩) (accAt2 c n)
    else accAt2 c n

theorem accAt2_succ (c : Dev nD) (t : Fin (cfg2 a).N) :
    accAt2 V a c (t.val + 1)
      = stepAcc2 (grid2.coords t) (tab2_0 a) (tab2_1 a) (iblk2 V a c (0 : Fin 10) t) (iblk2 V a c (1 : Fin 10) t) (iblk2 V a c (2 : Fin 10) t) (iblk2 V a c (3 : Fin 10) t) (iblk2 V a c (4 : Fin 10) t) (iblk2 V a c (5 : Fin 10) t) (iblk2 V a c (6 : Fin 10) t) (iblk2 V a c (7 : Fin 10) t) (iblk2 V a c (8 : Fin 10) t) (accAt2 V a c t.val) := by
  obtain ⟨n, hn⟩ := t
  exact dif_pos hn

/-! ## The invariant and the proof data -/

/-- The invariant before point `n`: the two tables held whole at `a`; the accumulator scratch at some contents, which
    after the first point are `accAt2 n`; the target-row scratch at anything; every other scoped buffer that is no
    staging buffer, unopened; the generator register at some state. -/
def Phi2 (c : Dev nD) (n : ℕ) : sProp 𝕄 :=
  iprop(Pipeline.prefHeld pre2 c (fun _ => fullShare) a.1
    ∗ (∃ x14 : Vec F S10240x128 .f32, ⌜n ≠ 0 → x14 = accAt2 V a c n⌝ ∗ owns (c : Thread nD τ) (Memref.whole cc2_scratch0) fullShare x14)
    ∗ (∃ d, owns (c : Thread nD τ) (Memref.whole cc2_scratch1) fullShare d)
    ∗ Pipeline.scopedRestBut spec2 c [cc2_scratch0, cc2_scratch1]
    ∗ (∃ r, prngReg c r))

/-- The proof data of pipeline 0 on core `c`: the arrays as the region finds them (`V`); after the body at point `t` each
    input's buffer at its block and the output's at the accumulator after the point, cast to the output's shape (read only
    where the block is written back); the invariant `Phi2`; nothing owed; full shares. -/
def dat2 (c : Dev nD) : Dat τ (Elt F) Unit ℕ (Pipeline.UD sig nD τ) ℕ (cfg2 a) c where
  A w := V c (Pipeline.arrRef spec2 w)
  after w t := match w with
    | ⟨0, _⟩ => iblk2 V a c (0 : Fin 10) t
    | ⟨1, _⟩ => iblk2 V a c (1 : Fin 10) t
    | ⟨2, _⟩ => iblk2 V a c (2 : Fin 10) t
    | ⟨3, _⟩ => iblk2 V a c (3 : Fin 10) t
    | ⟨4, _⟩ => iblk2 V a c (4 : Fin 10) t
    | ⟨5, _⟩ => iblk2 V a c (5 : Fin 10) t
    | ⟨6, _⟩ => iblk2 V a c (6 : Fin 10) t
    | ⟨7, _⟩ => iblk2 V a c (7 : Fin 10) t
    | ⟨8, _⟩ => iblk2 V a c (8 : Fin 10) t
    | ⟨9, _⟩ => k2_pay1 (accAt2 V a c (t.val + 1))
  Φ t := Phi2 V a c t.val
  q _ := fullShare
  owed _ := 0

theorem A_eq2 (c : Dev nD) (w : Fin (cfg2 a).W) : (dat2 V a c).A w = V c (Pipeline.arrRef spec2 w) := by
  dsimp only [dat2]

theorem after2_0 (c : Dev nD) (t : Fin (cfg2 a).N) : (dat2 V a c).after (0 : Fin 10) t = iblk2 V a c (0 : Fin 10) t := by dsimp only [dat2]
theorem after2_1 (c : Dev nD) (t : Fin (cfg2 a).N) : (dat2 V a c).after (1 : Fin 10) t = iblk2 V a c (1 : Fin 10) t := by dsimp only [dat2]
theorem after2_2 (c : Dev nD) (t : Fin (cfg2 a).N) : (dat2 V a c).after (2 : Fin 10) t = iblk2 V a c (2 : Fin 10) t := by dsimp only [dat2]
theorem after2_3 (c : Dev nD) (t : Fin (cfg2 a).N) : (dat2 V a c).after (3 : Fin 10) t = iblk2 V a c (3 : Fin 10) t := by dsimp only [dat2]
theorem after2_4 (c : Dev nD) (t : Fin (cfg2 a).N) : (dat2 V a c).after (4 : Fin 10) t = iblk2 V a c (4 : Fin 10) t := by dsimp only [dat2]
theorem after2_5 (c : Dev nD) (t : Fin (cfg2 a).N) : (dat2 V a c).after (5 : Fin 10) t = iblk2 V a c (5 : Fin 10) t := by dsimp only [dat2]
theorem after2_6 (c : Dev nD) (t : Fin (cfg2 a).N) : (dat2 V a c).after (6 : Fin 10) t = iblk2 V a c (6 : Fin 10) t := by dsimp only [dat2]
theorem after2_7 (c : Dev nD) (t : Fin (cfg2 a).N) : (dat2 V a c).after (7 : Fin 10) t = iblk2 V a c (7 : Fin 10) t := by dsimp only [dat2]
theorem after2_8 (c : Dev nD) (t : Fin (cfg2 a).N) : (dat2 V a c).after (8 : Fin 10) t = iblk2 V a c (8 : Fin 10) t := by dsimp only [dat2]
theorem after2_9 (c : Dev nD) (t : Fin (cfg2 a).N) : (dat2 V a c).after (9 : Fin 10) t = k2_pay1 (accAt2 V a c (t.val + 1)) := by dsimp only [dat2]

theorem before2_0 (c : Dev nD) (t : Fin (cfg2 a).N) (d) : (dat2 V a c).before (0 : Fin 10) t d = iblk2 V a c (0 : Fin 10) t :=
  before2_0_of V a (dat2 V a c) (A_eq2 V a c (0 : Fin 10)) (after2_0 V a c) t d
theorem before2_1 (c : Dev nD) (t : Fin (cfg2 a).N) (d) : (dat2 V a c).before (1 : Fin 10) t d = iblk2 V a c (1 : Fin 10) t :=
  before2_1_of V a (dat2 V a c) (A_eq2 V a c (1 : Fin 10)) (after2_1 V a c) t d
theorem before2_2 (c : Dev nD) (t : Fin (cfg2 a).N) (d) : (dat2 V a c).before (2 : Fin 10) t d = iblk2 V a c (2 : Fin 10) t :=
  before2_2_of V a (dat2 V a c) (A_eq2 V a c (2 : Fin 10)) (after2_2 V a c) t d
theorem before2_3 (c : Dev nD) (t : Fin (cfg2 a).N) (d) : (dat2 V a c).before (3 : Fin 10) t d = iblk2 V a c (3 : Fin 10) t :=
  before2_3_of V a (dat2 V a c) (A_eq2 V a c (3 : Fin 10)) (after2_3 V a c) t d
theorem before2_4 (c : Dev nD) (t : Fin (cfg2 a).N) (d) : (dat2 V a c).before (4 : Fin 10) t d = iblk2 V a c (4 : Fin 10) t :=
  before2_4_of V a (dat2 V a c) (A_eq2 V a c (4 : Fin 10)) (after2_4 V a c) t d
theorem before2_5 (c : Dev nD) (t : Fin (cfg2 a).N) (d) : (dat2 V a c).before (5 : Fin 10) t d = iblk2 V a c (5 : Fin 10) t :=
  before2_5_of V a (dat2 V a c) (A_eq2 V a c (5 : Fin 10)) (after2_5 V a c) t d
theorem before2_6 (c : Dev nD) (t : Fin (cfg2 a).N) (d) : (dat2 V a c).before (6 : Fin 10) t d = iblk2 V a c (6 : Fin 10) t :=
  before2_6_of V a (dat2 V a c) (A_eq2 V a c (6 : Fin 10)) (after2_6 V a c) t d
theorem before2_7 (c : Dev nD) (t : Fin (cfg2 a).N) (d) : (dat2 V a c).before (7 : Fin 10) t d = iblk2 V a c (7 : Fin 10) t :=
  before2_7_of V a (dat2 V a c) (A_eq2 V a c (7 : Fin 10)) (after2_7 V a c) t d
theorem before2_8 (c : Dev nD) (t : Fin (cfg2 a).N) (d) : (dat2 V a c).before (8 : Fin 10) t d = iblk2 V a c (8 : Fin 10) t :=
  before2_8_of V a (dat2 V a c) (A_eq2 V a c (8 : Fin 10)) (after2_8 V a c) t d

theorem Phi2_castSucc (c : Dev nD) (t : Fin (cfg2 a).N) : (dat2 V a c).Φ t.castSucc = Phi2 V a c t.val := by
  dsimp only [dat2]; simp only [Fin.coe_castSucc]
theorem Phi2_succ (c : Dev nD) (t : Fin (cfg2 a).N) : (dat2 V a c).Φ t.succ = Phi2 V a c (t.val + 1) := by
  dsimp only [dat2]; simp only [Fin.val_succ]

/-! ## The body's run at a point -/

/-- The body's run at point `t`: the tables, the point's staging memrefs and blocks, the two scratch buffers; over the
    accumulator's contents `x14` and the raw contents `f13`, `f15` of the two buffers it is handed at anything. -/
abbrev run2 (c : Dev nD) (t : Fin (cfg2 a).N) (x14 : Vec F S10240x128 .f32)
    (f13 : BufTy.Contents (Elt F) (ms2_9 a t).view.ty) (f15 : BufTy.Contents (Elt F) (Memref.whole cc2_scratch1 : Memref sig .tc _ _ _).view.ty) :=
  bodyRun2 (F := F) c (grid2.coords t) (Memref.whole main_v31) (Memref.isWhole_whole _) (Memref.whole main_v39) (Memref.isWhole_whole _) (ms2_0 a t) (hs2_0 a t) (ms2_1 a t) (hs2_1 a t) (ms2_2 a t) (hs2_2 a t) (ms2_3 a t) (hs2_3 a t) (ms2_4 a t) (hs2_4 a t) (ms2_5 a t) (hs2_5 a t) (ms2_6 a t) (hs2_6 a t) (ms2_7 a t) (hs2_7 a t) (ms2_8 a t) (hs2_8 a t) (ms2_9 a t) (hs2_9 a t) (Memref.whole cc2_scratch0) (Memref.isWhole_whole _) (Memref.whole cc2_scratch1) (Memref.isWhole_whole _) (tab2_0 a) (tab2_1 a) (iblk2 V a c (0 : Fin 10) t) (iblk2 V a c (1 : Fin 10) t) (iblk2 V a c (2 : Fin 10) t) (iblk2 V a c (3 : Fin 10) t) (iblk2 V a c (4 : Fin 10) t) (iblk2 V a c (5 : Fin 10) t) (iblk2 V a c (6 : Fin 10) t) (iblk2 V a c (7 : Fin 10) t) (iblk2 V a c (8 : Fin 10) t) x14 f13 f15

/-- One step from what the invariant knows of the accumulator lands on the next named contents: at the first point the
    step does not read what it finds. -/
theorem acc2_step (c : Dev nD) (t : Fin (cfg2 a).N) (x14 : Vec F S10240x128 .f32)
    (hx : t.val ≠ 0 → x14 = accAt2 V a c t.val) :
    stepAcc2 (grid2.coords t) (tab2_0 a) (tab2_1 a) (iblk2 V a c (0 : Fin 10) t) (iblk2 V a c (1 : Fin 10) t) (iblk2 V a c (2 : Fin 10) t) (iblk2 V a c (3 : Fin 10) t) (iblk2 V a c (4 : Fin 10) t) (iblk2 V a c (5 : Fin 10) t) (iblk2 V a c (6 : Fin 10) t) (iblk2 V a c (7 : Fin 10) t) (iblk2 V a c (8 : Fin 10) t) x14 = accAt2 V a c (t.val + 1) := by
  rw [accAt2_succ]
  by_cases h0 : t.val = 0
  · exact stepAcc2_first _ (coords2_first a t h0) _ _ _ _ _ _ _ _ _ _ _ _ _
  · rw [hx h0]

/-- What the body leaves in the output's staging buffer is what the obligation asks of it: where the block is written
    back, the accumulator after the point in the output's shape; elsewhere, the buffer as it was found. -/
theorem leaves2_9 (c : Dev nD) (t : Fin (cfg2 a).N) (x14 : Vec F S10240x128 .f32)
    (hx : t.val ≠ 0 → x14 = accAt2 V a c t.val) (d9) (f13 : BufTy.Contents (Elt F) (ms2_9 a t).view.ty)
    (hf13 : (ms2_9 a t).view.read (Elt F) f13 = (dat2 V a c).before (9 : Fin 10) t d9) (f15) :
    ((ms2_9 a t).view.loc (c : Thread nD τ) ↦[(ms2_9 a t).view.set]{fullShare} (run2 V a c t x14 f13 f15).2.2.1 : sProp 𝕄)
      ⊢ (dat2 V a c).leavesExact (9 : Fin 10) t := by
  by_cases hc : k2_cond22 (grid2.coords t) = 1#1
  · have hlive : (dat2 V a c).leavesExact (9 : Fin 10) t = owns (c : Thread nD τ) (ms2_9 a t) fullShare ((dat2 V a c).after (9 : Fin 10) t) := by
      unfold Dat.leavesExact; rw [idleLive2_9 a t hc]
    rw [hlive, after2_9]
    unfold owns
    iintro H; iexists _; isplitr
    swap; · iexact H
    ipureintro
    exact (bodyRun2_out_flush _ _ _ _ _ _ _ _ _ _ _ _ _ _ _ _ _ _ _ _ _ _ _ _ _ _ _ _ _ _ _ _ _ _ _ _ _ _ _ _ _ _ _ _ hc).trans (congrArg k2_pay1 (acc2_step V a c t x14 hx))
  · rw [Dat.leavesExact_idle _ (9 : Fin 10) t (idleNot2_9 a t hc) (flushNot2_9 a t hc),
      show (run2 V a c t x14 f13 f15).2.2.1 = f13 from bodyRun2_out_idle _ _ _ _ _ _ _ _ _ _ _ _ _ _ _ _ _ _ _ _ _ _ _ _ _ _ _ _ _ _ _ _ _ _ _ _ _ _ _ _ _ _ _ _ hc]
    unfold owns
    iintro H; iexists d9, f13; isplitr
    · ipureintro; exact hf13
    iexact H

/-- Owning a memref at contents `X` is holding its elements at some raw contents that read `X`. -/
theorem owns_open2 (c : Dev nD) {sp : Space} {sh : Shape} {e : EltTy} (M : Memref sig .tc sp sh e) (X : sh.Idx → Elt F e) :
    (owns (c : Thread nD τ) M fullShare X : sProp 𝕄)
      ⊢ iprop(∃ f, ⌜M.view.read (Elt F) f = X⌝ ∗ (M.view.loc (c : Thread nD τ) ↦[M.view.set]{fullShare} f)) := by
  unfold owns; exact .rfl

/-- The tables held whole are the body's two table arguments owned at their contents. -/
theorem prefHeld2_eq (c : Dev nD) :
    (Pipeline.prefHeld pre2 c (fun _ => fullShare) a.1 : sProp 𝕄)
      = iprop(owns (c : Thread nD τ) (Memref.whole main_v31) fullShare (tab2_0 a) ∗ owns (c : Thread nD τ) (Memref.whole main_v39) fullShare (tab2_1 a)) := by
  unfold Pipeline.prefHeld
  rw [bigSep_univ_eq_bigSepL [(0 : Fin 2), (1 : Fin 2)] (by decide) (by decide), owns_whole, owns_whole]
  rfl

/-! ## The body obligation, at a generic point -/

/-- What the body is called with at point `t` (the windows one by one), -/
def bodyPre2 (c : Dev nD) (t : Fin (cfg2 a).N) : sProp 𝕄 :=
  iprop((dat2 V a c).Φ t.castSucc ∗ (dat2 V a c).owesAt () t.castSucc
    ∗ (∃ d, owns (c : Thread nD τ) (ms2_0 a t) fullShare ((dat2 V a c).before (0 : Fin 10) t d))
    ∗ (∃ d, owns (c : Thread nD τ) (ms2_1 a t) fullShare ((dat2 V a c).before (1 : Fin 10) t d))
    ∗ (∃ d, owns (c : Thread nD τ) (ms2_2 a t) fullShare ((dat2 V a c).before (2 : Fin 10) t d))
    ∗ (∃ d, owns (c : Thread nD τ) (ms2_3 a t) fullShare ((dat2 V a c).before (3 : Fin 10) t d))
    ∗ (∃ d, owns (c : Thread nD τ) (ms2_4 a t) fullShare ((dat2 V a c).before (4 : Fin 10) t d))
    ∗ (∃ d, owns (c : Thread nD τ) (ms2_5 a t) fullShare ((dat2 V a c).before (5 : Fin 10) t d))
    ∗ (∃ d, owns (c : Thread nD τ) (ms2_6 a t) fullShare ((dat2 V a c).before (6 : Fin 10) t d))
    ∗ (∃ d, owns (c : Thread nD τ) (ms2_7 a t) fullShare ((dat2 V a c).before (7 : Fin 10) t d))
    ∗ (∃ d, owns (c : Thread nD τ) (ms2_8 a t) fullShare ((dat2 V a c).before (8 : Fin 10) t d))
    ∗ (∃ d, owns (c : Thread nD τ) (ms2_9 a t) fullShare ((dat2 V a c).before (9 : Fin 10) t d)))

/-- and what it returns: each input's buffer at its block; the output's as the obligation states it, live or idle. -/
def bodyPost2 (c : Dev nD) (t : Fin (cfg2 a).N) : sProp 𝕄 :=
  iprop((dat2 V a c).Φ t.succ ∗ (dat2 V a c).owesAt () t.succ
    ∗ owns (c : Thread nD τ) (ms2_0 a t) fullShare ((dat2 V a c).after (0 : Fin 10) t)
    ∗ owns (c : Thread nD τ) (ms2_1 a t) fullShare ((dat2 V a c).after (1 : Fin 10) t)
    ∗ owns (c : Thread nD τ) (ms2_2 a t) fullShare ((dat2 V a c).after (2 : Fin 10) t)
    ∗ owns (c : Thread nD τ) (ms2_3 a t) fullShare ((dat2 V a c).after (3 : Fin 10) t)
    ∗ owns (c : Thread nD τ) (ms2_4 a t) fullShare ((dat2 V a c).after (4 : Fin 10) t)
    ∗ owns (c : Thread nD τ) (ms2_5 a t) fullShare ((dat2 V a c).after (5 : Fin 10) t)
    ∗ owns (c : Thread nD τ) (ms2_6 a t) fullShare ((dat2 V a c).after (6 : Fin 10) t)
    ∗ owns (c : Thread nD τ) (ms2_7 a t) fullShare ((dat2 V a c).after (7 : Fin 10) t)
    ∗ owns (c : Thread nD τ) (ms2_8 a t) fullShare ((dat2 V a c).after (8 : Fin 10) t)
    ∗ (dat2 V a c).leavesExact (9 : Fin 10) t)

set_option maxHeartbeats 1600000 in
/-- The body at any point. The invariant hands it the two tables, the accumulator (at the named contents after the
    first point) and the target-row scratch; each input's memref holds its block; the output's holds anything. The run
    applies; the accumulator comes back one step on, the inputs and tables as they were, the output's buffer as the
    obligation states it; the core's `owes` passes through unread. -/
theorem sound_body2 (c : Dev nD) (t : Fin (cfg2 a).N) :
    bodyPre2 V a c t ⊢ wp frame (wpE (defs₀ (F := F)) Variants.none c none) Set.univ (bodyAt2 a t) (fun _ => bodyPost2 V a c t) := by
  unfold bodyPre2 bodyPost2
  simp only [before2_0, before2_1, before2_2, before2_3, before2_4, before2_5, before2_6, before2_7, before2_8]
  rw [Phi2_castSucc, Phi2_succ, show (dat2 V a c).owesAt () t.succ = (dat2 V a c).owesAt () t.castSucc from rfl,
    after2_0, after2_1, after2_2, after2_3, after2_4, after2_5, after2_6, after2_7, after2_8]
  unfold Phi2
  rw [prefHeld2_eq]
  iintro ⟨⟨⟨HT0, HT1⟩, ⟨%x14, %hx14, H14⟩, ⟨%d15, H15⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave H9' := (owns_open2 c (ms2_9 a t) _) $$ H9
  icases H9' with ⟨%f13, %hf13, H13⟩
  ihave H15' := (owns_open2 c (Memref.whole cc2_scratch1) _) $$ H15
  icases H15' with ⟨%f15, -, H15⟩
  iapply ((run2 V a c t x14 f13 f15).2.2.2 Set.univ _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H13]; · iexact H13
  isplitl [H14]; · iexact H14
  isplitl [H15]; · iexact H15
  iintro ⟨HT0, HT1, H0, H1, H2, H3, H4, H5, H6, H7, H8, H13, H14, H15⟩
  isplitl [HT0 HT1 H14 H15 HR Hg]
  · isplitl [HT0 HT1]
    · isplitl [HT0]; · iexact HT0
      iexact HT1
    isplitl [H14]
    · iexists _; isplitr; · ipureintro; exact fun _ => rfl
      unfold owns; iexists _; isplitr
      swap; · iexact H14
      ipureintro
      exact (bodyRun2_acc _ _ _ _ _ _ _ _ _ _ _ _ _ _ _ _ _ _ _ _ _ _ _ _ _ _ _ _ _ _ _ _ _ _ _ _ _ _ _ _ _ _ _ _).trans (acc2_step V a c t x14 hx14)
    isplitl [H15]
    · iexists _; unfold owns; iexists _; isplitr
      swap; · iexact H15
      ipureintro; rfl
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (leaves2_9 V a c t x14 hx14 d9 f13 hf13 f15)
  iexact H13

/-- The library's body obligation, at every point. -/
theorem body_obligation2 (c : Dev nD) : BodyObligation (dat2 (F := F) V a c) (defs₀ (F := F)) Variants.none () Set.univ := fun t => by
  rw [bigSep_W2, bigSep_W2]
  exact sound_body2 V a c t

end Region2

end Cert.KernelIdeal.Gen

end
-- ==== Proof.RegionI2.lean ====
import proofs.«414286_j65627100283289_3_alg».proof.Proof.RegionDataI2
import proofs.«414286_j65627100283289_3_alg».proof.Proof.Gen.KernelIdeal.Regions
import proofs.«414286_j65627100283289_3_alg».proof.Proof.FrameDefsI
import Idealize.ShloMosaic.Lib.Pipeline.RegionsLoop
import Idealize.ShloMosaic.Lib.Pipeline.FrameSuffix

/-!
# Region 2 as a segment of the program

On entry the region's arrays and its two tables are separated from the other unscoped buffers; the tables, the scoped
buffers that are no staging buffer and the generator register make the invariant before the first point. On exit the
invariant gives them back and the arrays are joined with the other buffers again, the output's array at what the
write-backs made of it. Nothing is owed at any point and the kernel has no semaphore of its own.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 2 as a segment of the program -/

section Seg2

variable (m : (ℓ : Loc nD τ sig) → Buf (Elt F) ℓ) (outs : Outs (F := F))

/-- The unscoped buffers' contents on core `c` when region 2 is entered, and when it is left. -/
abbrev Win2 : Dev nD → Valuation τ sig (Elt F) := fun c => V14 m outs c
abbrev Wout2 : Dev nD → Valuation τ sig (Elt F) := fun c => V15 m outs c
/-- The contents of the TensorCore's buffers when region 2 is entered, that is, after the host operations that precede it. -/
abbrev Vin2 : (c : Dev nD) → (b : Ref sig .tc) → Buf (Elt F) ((c : Thread nD τ).loc b) := fun c b => V14 m outs c b
/-- Their contents when the region is left: as entered, except the output's array, which holds what the region leaves in it. -/
abbrev Vout2 : (c : Dev nD) → (b : Ref sig .tc) → Buf (Elt F) ((c : Thread nD τ).loc b) := fun c b => V15 m outs c b

-- the tables' contents of all four pipelines, the family of proof data, and what ties region 2's members to this module
variable (a : (p : Fin 4) → (pcfgs (F := F) p).Adm)
variable (pdats : (p : Fin 4) → (c : Dev nD) → Dat τ (Elt F) Unit ℕ (Pipeline.UD sig nD τ) ℕ (Pipeline.pin (pcfgs (F := F)) a p) c)
-- the family's member at region 2 is this module's proof data, at the entry contents and region 2's tables
variable (hd2 : ∀ c, pdats 2 c = dat2 (Vin2 m outs) (a 2) c)
-- the tables' admissible contents are what the tables hold when the region is entered
variable (hpf2 : ∀ c : Dev nD, (fun k => Vin2 m outs c (pre2.ref k)) = (a 2).1)
-- what the region leaves in its output's array is what its write-backs make of it
variable (houts2 : ∀ c : Dev nD, outs 15 main_v60 c = (dat2 (Vin2 m outs) (a 2) c).arrAt (9 : Fin 10) (cfg2 (a 2)).N)

/-- The invariant with the two scratch buffers as plain points-tos. -/
theorem Phi2_eq (V : (c : Dev nD) → (b : Ref sig .tc) → Buf (Elt F) ((c : Thread nD τ).loc b)) (a0 : (pcfg2 (F := F)).Adm) (c : Dev nD) (n : ℕ) :
    Phi2 V a0 c n = iprop(Pipeline.prefHeld pre2 c (fun _ => fullShare) a0.1
      ∗ (∃ x14 : Vec F S10240x128 .f32, ⌜n ≠ 0 → x14 = accAt2 V a0 c n⌝ ∗ (((c : Thread nD τ).loc cc2_scratch0) ↦{fullShare} x14))
      ∗ (∃ d : Buf (Elt F) ((c : Thread nD τ).loc cc2_scratch1), ((c : Thread nD τ).loc cc2_scratch1) ↦{fullShare} d)
      ∗ Pipeline.scopedRestBut spec2 c [cc2_scratch0, cc2_scratch1]
      ∗ (∃ r, prngReg c r)) := by
  unfold Phi2; simp only [owns_whole]

/-- Entering: the tables, the scoped rest and the generator register make the invariant before the first point. -/
theorem hin2 (V : (c : Dev nD) → (b : Ref sig .tc) → Buf (Elt F) ((c : Thread nD τ).loc b)) (a0 : (pcfg2 (F := F)).Adm) (c : Dev nD) :
    iprop((∃ r, prngReg c r) ∗ Pipeline.prefHeld pre2 c (fun _ => fullShare) a0.1 ∗ Pipeline.scopedRest spec2 c)
      ⊢ (Phi2 V a0 c 0 : sProp 𝕄) := by
  rw [Phi2_eq, scopedRest2_split]
  iintro ⟨Hg, Hpf, ⟨⟨%f0, H0⟩, H1⟩, HR⟩
  isplitl [Hpf]; · iexact Hpf
  isplitl [H0]
  · iexists f0; isplitr; · ipureintro; exact fun h => absurd rfl h
    iexact H0
  isplitl [H1]; · iexact H1
  isplitl [HR]; · iexact HR
  iexact Hg

/-- Leaving: the invariant gives the register and the tables back, and the scoped rest with the scratch at anything. -/
theorem hout2 (V : (c : Dev nD) → (b : Ref sig .tc) → Buf (Elt F) ((c : Thread nD τ).loc b)) (a0 : (pcfg2 (F := F)).Adm) (c : Dev nD) (n : ℕ) :
    (Phi2 V a0 c n : sProp 𝕄)
      ⊢ iprop(((∃ r, prngReg c r) ∗ Pipeline.prefHeld pre2 c (fun _ => fullShare) a0.1) ∗ Pipeline.scopedRest spec2 c) := by
  rw [Phi2_eq, scopedRest2_split]
  iintro ⟨Hpf, ⟨%x14, -, H0⟩, H1, HR, Hg⟩
  isplitl [Hg Hpf]
  · isplitl [Hg]; · iexact Hg
    iexact Hpf
  isplitl [H0 H1]
  · isplitl [H0]; · iexists x14; iexact H0
    iexact H1
  iexact HR

/-- Every window but the last is an input, and no input's array is the output's. -/
theorem inputs2 : ∀ w : Fin 10, w ≠ (9 : Fin 10) → (spec2 w).isOut = false ∧ Pipeline.arrRef spec2 w ∉ ([main_v60] : List (Ref sig .tc)) := by
  decide

/-- At the region's exit each of its arrays holds what the pipeline leaves: an input its entry contents, the output what
    its write-backs make of it, which is the region's unknown `outs 15 main_v60`. -/
theorem hF2 (c : Dev nD) (houts2 : outs 15 main_v60 c = (dat2 (Vin2 m outs) (a 2) c).arrAt (9 : Fin 10) (cfg2 (a 2)).N) :
    ∀ w : Fin 10, (dat2 (Vin2 m outs) (a 2) c).arrAt w (cfg2 (a 2)).N = Vout2 m outs c (Pipeline.arrRef spec2 w) := by
  intro w
  by_cases hw : w = (9 : Fin 10)
  · subst hw
    refine houts2.symm.trans ?_
    show _ = Function.update (Win2 m outs c) _ _ _
    rw [Function.update_self]
  · obtain ⟨hin, hne⟩ := inputs2 w hw
    exact ((dat2 (Vin2 m outs) (a 2) c).arrAt_in w hin _).trans ((A_eq2 (Vin2 m outs) (a 2) c w).trans (V15_of m outs c _ hne).symm)

/-- Every buffer that is no array of the region is left as entered. -/
theorem hrest2 (c : Dev nD) : ∀ b, b ∉ Finset.univ.image (Pipeline.arrRef spec2) → Vout2 m outs c b = Vin2 m outs c b := fun b hb =>
  V15_of m outs c b fun hmem => hb (Finset.mem_image.mpr ⟨(9 : Fin 10), Finset.mem_univ _, (List.mem_singleton.mp hmem).symm⟩)

include hd2 hpf2 houts2 in
-- the entry and exit lemmas speak of the pinned configuration `pin pcs a p`, which is the printed configuration
-- `cfg2 a` by the definitions of both
set_option backward.isDefEq.respectTransparency.types false in
/-- REGION 2 as a segment. It is entered holding every unscoped buffer at its contents after the preceding host
    operations, together with the rest state (the generator register, nothing owed); it is left holding the same, the
    output's array now at the region's unknown. On entry the region's arrays and its two tables are separated from the
    other unscoped buffers, and on exit they are joined again; the generator register and the tables pass through the
    invariant; nothing is owed at any point; the kernel has no semaphore of its own. -/
def reg2 : Pipeline.RegionSeg (pcfgs (F := F)) a pdats () defs₀ Variants.none Lz lvz 2 where
  win := winFacts2.to₀
  block_pos := block_pos2
  stage_whole := stage_whole2
  K := PEmpty
  osem k := k.elim
  ho := Pipeline.OwnSemFacts.none _
  hbody c := by rw [hd2 c]; exact (body_obligation2 (Vin2 m outs) (a 2) c).loose
  hwaits := Pipeline.hwaits_of_owed_zero _ _ _ _ Lz lvz 2 fun c t => by rw [hd2 c]; rfl
  pre c := iprop(StableHlo.held (c : Thread nD τ) (Pipeline.ucRefs τ sig) (Win2 m outs c) ∗ Rest c)
  post c := iprop(StableHlo.held (c : Thread nD τ) (Pipeline.ucRefs τ sig) (Wout2 m outs c) ∗ Rest c)
  X c := iprop(∃ r, prngReg c r)
  Y c := iprop((∃ r, prngReg c r) ∗ Pipeline.prefHeld pre2 c (fun _ => fullShare) (a 2).1)
  Z c := Pipeline.unscopedRestP (Ix := Unit) (Name := ℕ) (U := Pipeline.UD sig nD τ) (Lvl := ℕ) pre2 spec2 c (Vin2 m outs c)
  hentry c := by
    rw [Pipeline.ownSems0_none]
    have hsplit := Pipeline.arrays_of_unscopedBufs (p := 2) (pcfgs (F := F)) a pdats winFacts2 arr_whole2 c
      ((pdats 2 c).share_full fun w => by rw [hd2 c]; rfl) (Vin2 m outs c) fun w => by rw [hd2 c]; rfl
    rw [Pipeline.unscopedBufs_held, Pipeline.unscopedRest_split (win := (Pipeline.pin (pcfgs (F := F)) a 2).spec) (pre := pre2) preFacts2 c (Vin2 m outs c), hpf2 c] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · rw [hd2 c]
      unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hd2 c, show (dat2 (Vin2 m outs) (a 2) c).Φ 0 = Phi2 (Vin2 m outs) (a 2) c 0 from by dsimp only [dat2]; simp only [Fin.val_zero]]
    exact hin2 (Vin2 m outs) (a 2) c
  hout c := by
    rw [hd2 c, Pipeline.ownSems0_none, show (dat2 (Vin2 m outs) (a 2) c).Φ (Fin.last (Pipeline.pin (pcfgs (F := F)) a 2).N) = Phi2 (Vin2 m outs) (a 2) c (Pipeline.pin (pcfgs (F := F)) a 2).N from by dsimp only [dat2]; simp only [Fin.val_last]]
    iintro H
    ihave H' := (hout2 (Vin2 m outs) (a 2) c _) $$ H
    icases H' with ⟨HY, HS⟩
    isplitl [HY]; · iexact HY
    isplitr; · iempintro
    iexact HS
  hexit c := by
    have hjoin := Pipeline.unscopedBufs_of_arrays (p := 2) (pcfgs (F := F)) a (Ix := Unit) (Name := ℕ) (U := Pipeline.UD sig nD τ) (Lvl := ℕ)
      winFacts2 arr_whole2 c pdats ((pdats 2 c).share_full fun w => by rw [hd2 c]; rfl)
      (Vin2 m outs c) (Vout2 m outs c) ((pdats 2 c).arrAt · (cfg2 (a 2)).N)
      (by rw [hd2 c]; exact hF2 m outs a c (houts2 c)) (hrest2 m outs c)
    rw [Pipeline.unscopedBufs_held, Pipeline.unscopedRest_split (win := (Pipeline.pin (pcfgs (F := F)) a 2).spec) (pre := pre2) preFacts2 c (Vin2 m outs c), hpf2 c] at hjoin
    iintro ⟨Ha, HO, ⟨HY, Hpf⟩, Hrest⟩
    imodintro
    isplitl [Ha Hpf Hrest]
    · iapply hjoin
      isplitl [Ha]; · iexact Ha
      isplitl [Hpf]; · iexact Hpf
      iexact Hrest
    isplitl [HY]; · iexact HY
    rw [hd2 c]
    unfold Pipeline.Dat.owesAt Pipeline.owesWithin
    icases HO with ⟨%W, -, HO⟩; iexists W; iexact HO

/-- The record is entered from, and left at, the program's thread states around region 2, as they stand. -/
theorem hpre2 (c : Dev nD) :
    iprop(StableHlo.held (c : Thread nD τ) (Pipeline.ucRefs τ sig) (Win2 m outs c) ∗ Rest (F := F) c)
      ⊢ (reg2 m outs a pdats hd2 hpf2 houts2).pre c := .rfl
theorem hpost2 (c : Dev nD) :
    (reg2 m outs a pdats hd2 hpf2 houts2).post c
      ⊢ iprop(StableHlo.held (c : Thread nD τ) (Pipeline.ucRefs τ sig) (Wout2 m outs c) ∗ Rest (F := F) c) := .rfl

end Seg2

end Cert.KernelIdeal.Gen

end
-- ==== Proof.BodyI3.lean ====
import proofs.«414286_j65627100283289_3_alg».proof.Proof.Gen.KernelIdeal.Skeleton
import proofs.«414286_j65627100283289_3_alg».proof.Proof.Gen.KernelIdeal.Launch
import Idealize.ShloMosaic.Lib.Pipeline.Frame
import Idealize.ShloMosaic.Lib.Pipeline.FrameBody
import Idealize.ShloMosaic.Lib.Tactic

/-!
# Region 3's body at one grid point

The body of one EdgeConv layer's kernel on whole staging memrefs, at any grid point `i = (core, tile)`: from the two
chunk-range tables, the tile's source and target columns, the padded node table, the layer's six parameter blocks,
the accumulator as the tile before left it and the two other written buffers at any contents, the body runs to its
end, faults nowhere, hands the eleven buffers it only reads back as they were, and leaves the accumulator, the
target-row scratch and the output's staging buffer at contents that are FUNCTIONS of what it was handed. Those three
functions are not transcribed: they are what the run finds, each conditional taken both ways and its two outcomes
merged under its condition (the reset at the core's first tile, the ten chunk gates of the target-row gather, the
ten of the scatter, the write-out at the core's last tile).
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- What the body leaves in the accumulator (`.1`), in the target-row scratch (`.2.1`) and in the output's staging
    buffer (`.2.2.1`), with the proof that it runs to the continuation holding exactly that. -/
noncomputable def bodyRun3 (c : Dev nD) (i : grid3.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x16 .f32) (harg11 : arg11.IsWhole) (arg12 : Memref sig .tc .vmem S1x16 .f32) (harg12 : arg12.IsWhole) (arg13 : Memref sig .tc .vmem S1x10240x16 .f32) (harg13 : arg13.IsWhole) (arg14 : Memref sig .tc .vmem S10240x16 .f32) (harg14 : arg14.IsWhole) (arg15 : Memref sig .tc .vmem S256x128 .f32) (harg15 : arg15.IsWhole)
    (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x16 .f32) (x12 : Vec F S1x16 .f32) (x14 : Vec F S10240x16 .f32)
    (f13 : BufTy.Contents (Elt F) arg13.view.ty) (f15 : BufTy.Contents (Elt F) arg15.view.ty) :
    Σ' (g14 : BufTy.Contents (Elt F) arg14.view.ty) (g15 : BufTy.Contents (Elt F) arg15.view.ty),
      { g13 : BufTy.Contents (Elt F) arg13.view.ty //
        ∀ (E : Set ℕ) (K : PUnit → sProp 𝕄),
          iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ (arg13.view.loc (c : Thread nD τ) ↦[arg13.view.set]{fullShare} f13)
            ∗ owns (c : Thread nD τ) arg14 fullShare x14
            ∗ (arg15.view.loc (c : Thread nD τ) ↦[arg15.view.set]{fullShare} f15)
            ∗ (iprop(owns (c : Thread nD τ) arg2 fullShare x2
              ∗ owns (c : Thread nD τ) arg3 fullShare x3
              ∗ owns (c : Thread nD τ) arg4 fullShare x4
              ∗ owns (c : Thread nD τ) arg5 fullShare x5
              ∗ owns (c : Thread nD τ) arg6 fullShare x6
              ∗ owns (c : Thread nD τ) arg7 fullShare x7
              ∗ owns (c : Thread nD τ) arg8 fullShare x8
              ∗ owns (c : Thread nD τ) arg9 fullShare x9
              ∗ owns (c : Thread nD τ) arg10 fullShare x10
              ∗ owns (c : Thread nD τ) arg11 fullShare x11
              ∗ owns (c : Thread nD τ) arg12 fullShare x12
              ∗ (arg13.view.loc (c : Thread nD τ) ↦[arg13.view.set]{fullShare} g13)
              ∗ (arg14.view.loc (c : Thread nD τ) ↦[arg14.view.set]{fullShare} g14)
              ∗ (arg15.view.loc (c : Thread nD τ) ↦[arg15.view.set]{fullShare} g15)) -∗ K ⟨⟩))
          ⊢ wp frame (wpE (defs₀ (F := F)) Variants.none c none) E (cc3__edgeconv_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc3__edgeconv_kernel_eq_skeleton]; unfold cc3__edgeconv_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, H13, ⟨%f14, %hf14, H14⟩, H15, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg14.eq_unread hf14
    sl_exec!
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexact H13
    isplitl [H14]; · iexact H14
    iexact H15

end Cert.KernelIdeal.Gen

end
-- ==== Proof.StepDefsI3.lean ====
import proofs.«414286_j65627100283289_3_alg».proof.Proof.Gen.KernelIdeal.Skeleton
import proofs.«414286_j65627100283289_3_alg».proof.Proof.GateWord
import proofs.«414286_j65627100283289_3_alg».proof.Proof.LibGatedRmw
import Idealize.ShloMosaic.Lib.Pipeline.FrameBody

/-!
# Region 3's body as functions of the values it is handed

What one run of the body at grid point `i = (core, tile)` leaves in the accumulator, written without a memref and without
any buffer's old raw contents: from the two chunk-range tables, the tile's source and target columns, the padded node
table, the six parameter blocks and the accumulator as the tile before left it.

* the two table words of the tile, `lo` and `hi`, and from them the ten gate words `lo ≤ k ≤ hi`;
* the target rows' gather `xi3`: zero, then for each chunk `k` of 1024 nodes, under its gate, the one-hot product of
  the target column against the chunk's rows added on;
* the source rows' gather `xj3`: the ten one-hot products added up, no gate;
* the perceptron's hidden row `hid3` and the messages `msg3`;
* the accumulator: reset to zero at the core's first tile, then for each chunk under its gate the chunk's rows replaced
  by themselves plus the transposed one-hot product with the messages.

Each step is spelt through the generated payload that computes it, so that the body's run and these functions meet
name by name.
-/

noncomputable section

namespace Cert.KernelIdeal.Gen

open Idealize.ShloMosaic Idealize.ShloMosaic.GatedRmw

variable {F : FTy → Type} [FloatOps F]

/-- The tile's entry of the first table: the least chunk its targets fall in. -/
def loW3 (i : grid3.Coords) (x2 : Vec F S1250 .i32) : BitVec 32 :=
  View.ld x2 (Rect.unit (s := S1250) (k3_off1 i) S1.size (k3_off1_inb i))
    (Shape.Idx.first (lt_of_lt_of_eq Nat.one_pos numel1_S1.symm))

/-- The tile's entry of the second table: the greatest chunk its targets fall in. -/
def hiW3 (i : grid3.Coords) (x3 : Vec F S1250 .i32) : BitVec 32 :=
  View.ld x3 (Rect.unit (s := S1250) (k3_off1 i) S1.size (k3_off1_inb i))
    (Shape.Idx.first (lt_of_lt_of_eq Nat.one_pos numel1_S1.symm))

/-- The word "this is the core's first tile". -/
def firstW3 (i : grid3.Coords) : BitVec 1 :=
  Scalar.cmpi .ne (Scalar.extui (Scalar.cmpi .eq (BitVec.ofNat 32 (i 1).val) 0#32)) 0#32

/-- One gated step of the target rows' gather: under the gate the step's payload of the rows so far. -/
def xiStep3 (g : BitVec 1) (pay : Vec F S256x128 .f32 → FVec F S256x128 .f32) (X : Vec F S256x128 .f32) : Vec F S256x128 .f32 :=
  if g = 1#1 then pay X else X

/-- The target rows the tile gathers: zero, then chunk by chunk under the gates. -/
def xi3 (i : grid3.Coords) (x2 x3 : Vec F S1250 .i32) (x5 : Vec F S256x1 .i32) (x6 : Vec F S10240x128 .f32) :
    Vec F S256x128 .f32 :=
  (xiStep3 (Cert.Spec.gateWord (loW3 i x2) (hiW3 i x3) 9#32) (k3_pay22 (k3_pay3 x5) (View.ld x6 (Rect.unit (s := S10240x128) ![9216, 0] S1024x128.size inb_S10240x128_S1024x128_9216_0)))
      (xiStep3 (Cert.Spec.gateWord (loW3 i x2) (hiW3 i x3) 8#32) (k3_pay21 (k3_pay3 x5) (View.ld x6 (Rect.unit (s := S10240x128) ![8192, 0] S1024x128.size inb_S10240x128_S1024x128_8192_0)))
      (xiStep3 (Cert.Spec.gateWord (loW3 i x2) (hiW3 i x3) 7#32) (k3_pay20 (k3_pay3 x5) (View.ld x6 (Rect.unit (s := S10240x128) ![7168, 0] S1024x128.size inb_S10240x128_S1024x128_7168_0)))
      (xiStep3 (Cert.Spec.gateWord (loW3 i x2) (hiW3 i x3) 6#32) (k3_pay19 (k3_pay3 x5) (View.ld x6 (Rect.unit (s := S10240x128) ![6144, 0] S1024x128.size inb_S10240x128_S1024x128_6144_0)))
      (xiStep3 (Cert.Spec.gateWord (loW3 i x2) (hiW3 i x3) 5#32) (k3_pay18 (k3_pay3 x5) (View.ld x6 (Rect.unit (s := S10240x128) ![5120, 0] S1024x128.size inb_S10240x128_S1024x128_5120_0)))
      (xiStep3 (Cert.Spec.gateWord (loW3 i x2) (hiW3 i x3) 4#32) (k3_pay17 (k3_pay3 x5) (View.ld x6 (Rect.unit (s := S10240x128) ![4096, 0] S1024x128.size inb_S10240x128_S1024x128_4096_0)))
      (xiStep3 (Cert.Spec.gateWord (loW3 i x2) (hiW3 i x3) 3#32) (k3_pay16 (k3_pay3 x5) (View.ld x6 (Rect.unit (s := S10240x128) ![3072, 0] S1024x128.size inb_S10240x128_S1024x128_3072_0)))
      (xiStep3 (Cert.Spec.gateWord (loW3 i x2) (hiW3 i x3) 2#32) (k3_pay15 (k3_pay3 x5) (View.ld x6 (Rect.unit (s := S10240x128) ![2048, 0] S1024x128.size inb_S10240x128_S1024x128_2048_0)))
      (xiStep3 (Cert.Spec.gateWord (loW3 i x2) (hiW3 i x3) 1#32) (k3_pay14 (k3_pay3 x5) (View.ld x6 (Rect.unit (s := S10240x128) ![1024, 0] S1024x128.size inb_S10240x128_S1024x128_1024_0)))
      (xiStep3 (Cert.Spec.gateWord (loW3 i x2) (hiW3 i x3) 0#32) (k3_pay13 (k3_pay3 x5) (View.ld x6 (Rect.unit (s := S10240x128) ![0, 0] S1024x128.size inb_S10240x128_S1024x128_0_0)))
      (k3_pay12 (F := F))))))))))))

/-- The source rows the tile gathers: every chunk's one-hot product, added up. -/
def xj3 (x4 : Vec F S256x1 .i32) (x6 : Vec F S10240x128 .f32) : FVec F S256x128 .f32 :=
  k3_pay11
    (k3_pay9 (k3_pay4 x4)
      (k3_pay7 (k3_pay4 x4) (k3_pay5 x4 (View.ld x6 (Rect.unit (s := S10240x128) ![0, 0] S1024x128.size inb_S10240x128_S1024x128_0_0)) (View.ld x6 (Rect.unit (s := S10240x128) ![1024, 0] S1024x128.size inb_S10240x128_S1024x128_1024_0))) (k3_pay6 x4)
        (iota Kind.tc S256x1024 32 [1] iota_S256x1024_d1_w32) (2048#32)
        (View.ld x6 (Rect.unit (s := S10240x128) ![2048, 0] S1024x128.size inb_S10240x128_S1024x128_2048_0)) (View.ld x6 (Rect.unit (s := S10240x128) ![3072, 0] S1024x128.size inb_S10240x128_S1024x128_3072_0)) (View.ld x6 (Rect.unit (s := S10240x128) ![4096, 0] S1024x128.size inb_S10240x128_S1024x128_4096_0)))
      (k3_pay8 (k3_pay4 x4) (View.ld x6 (Rect.unit (s := S10240x128) ![5120, 0] S1024x128.size inb_S10240x128_S1024x128_5120_0)))
      (View.ld x6 (Rect.unit (s := S10240x128) ![6144, 0] S1024x128.size inb_S10240x128_S1024x128_6144_0)) (View.ld x6 (Rect.unit (s := S10240x128) ![7168, 0] S1024x128.size inb_S10240x128_S1024x128_7168_0)) (View.ld x6 (Rect.unit (s := S10240x128) ![8192, 0] S1024x128.size inb_S10240x128_S1024x128_8192_0)))
    (k3_pay10 (k3_pay4 x4))
    (View.ld x6 (Rect.unit (s := S10240x128) ![9216, 0] S1024x128.size inb_S10240x128_S1024x128_9216_0))

/-- The perceptron's first hidden row of every edge of the tile. -/
def hid3 (i : grid3.Coords) (x2 x3 : Vec F S1250 .i32) (x4 x5 : Vec F S256x1 .i32) (x6 : Vec F S10240x128 .f32)
    (x7 : Vec F S256x128 .f32) (x8 : Vec F S1x128 .f32) : FVec F S256x128 .f32 :=
  k3_pay23 (xj3 x4 x6) (xi3 i x2 x3 x5 x6) x7 x8

/-- The message of every edge of the tile. -/
def msg3 (i : grid3.Coords) (x2 x3 : Vec F S1250 .i32) (x4 x5 : Vec F S256x1 .i32) (x6 : Vec F S10240x128 .f32)
    (x7 : Vec F S256x128 .f32) (x8 : Vec F S1x128 .f32) (x9 : Vec F S128x128 .f32) (x10 : Vec F S1x128 .f32)
    (x11 : Vec F S128x16 .f32) (x12 : Vec F S1x16 .f32) : FVec F S256x16 .f32 :=
  k3_pay24 (hid3 i x2 x3 x4 x5 x6 x7 x8) (FloatOps.ofBits FTy.f32 0#32) x9 x10 x11 x12

/-- The accumulator the chunk steps start from: zero at the core's first tile, else what the tile before left. -/
def accReset3 (i : grid3.Coords) (x14 : Vec F S10240x16 .f32) : Vec F S10240x16 .f32 :=
  if firstW3 i = 1#1 then k3_pay2 else x14

/-- One gated chunk step of the scatter: under the gate the chunk's rows replaced by the step's payload of them. -/
def accStep3 (g : BitVec 1) (R : Rect S10240x16) (pay : (R.shape.Idx → Elt F .f32) → (R.shape.Idx → Elt F .f32))
    (A : Vec F S10240x16 .f32) : Vec F S10240x16 .f32 :=
  gatedVal g R pay A

/-- The accumulator after the body at point `i`. -/
def stepAcc3 (i : grid3.Coords) (x2 x3 : Vec F S1250 .i32) (x4 x5 : Vec F S256x1 .i32) (x6 : Vec F S10240x128 .f32)
    (x7 : Vec F S256x128 .f32) (x8 : Vec F S1x128 .f32) (x9 : Vec F S128x128 .f32) (x10 : Vec F S1x128 .f32)
    (x11 : Vec F S128x16 .f32) (x12 : Vec F S1x16 .f32) (x14 : Vec F S10240x16 .f32) : Vec F S10240x16 .f32 :=
  (accStep3 (Cert.Spec.gateWord (loW3 i x2) (hiW3 i x3) 9#32) (Rect.unit (s := S10240x16) ![9216, 0] S1024x16.size inb_S10240x16_S1024x16_9216_0)
      (k3_pay34 (k3_pay3 x5) (msg3 i x2 x3 x4 x5 x6 x7 x8 x9 x10 x11 x12))
      (accStep3 (Cert.Spec.gateWord (loW3 i x2) (hiW3 i x3) 8#32) (Rect.unit (s := S10240x16) ![8192, 0] S1024x16.size inb_S10240x16_S1024x16_8192_0)
      (k3_pay33 (k3_pay3 x5) (msg3 i x2 x3 x4 x5 x6 x7 x8 x9 x10 x11 x12))
      (accStep3 (Cert.Spec.gateWord (loW3 i x2) (hiW3 i x3) 7#32) (Rect.unit (s := S10240x16) ![7168, 0] S1024x16.size inb_S10240x16_S1024x16_7168_0)
      (k3_pay32 (k3_pay3 x5) (msg3 i x2 x3 x4 x5 x6 x7 x8 x9 x10 x11 x12))
      (accStep3 (Cert.Spec.gateWord (loW3 i x2) (hiW3 i x3) 6#32) (Rect.unit (s := S10240x16) ![6144, 0] S1024x16.size inb_S10240x16_S1024x16_6144_0)
      (k3_pay31 (k3_pay3 x5) (msg3 i x2 x3 x4 x5 x6 x7 x8 x9 x10 x11 x12))
      (accStep3 (Cert.Spec.gateWord (loW3 i x2) (hiW3 i x3) 5#32) (Rect.unit (s := S10240x16) ![5120, 0] S1024x16.size inb_S10240x16_S1024x16_5120_0)
      (k3_pay30 (k3_pay3 x5) (msg3 i x2 x3 x4 x5 x6 x7 x8 x9 x10 x11 x12))
      (accStep3 (Cert.Spec.gateWord (loW3 i x2) (hiW3 i x3) 4#32) (Rect.unit (s := S10240x16) ![4096, 0] S1024x16.size inb_S10240x16_S1024x16_4096_0)
      (k3_pay29 (k3_pay3 x5) (msg3 i x2 x3 x4 x5 x6 x7 x8 x9 x10 x11 x12))
      (accStep3 (Cert.Spec.gateWord (loW3 i x2) (hiW3 i x3) 3#32) (Rect.unit (s := S10240x16) ![3072, 0] S1024x16.size inb_S10240x16_S1024x16_3072_0)
      (k3_pay28 (k3_pay3 x5) (msg3 i x2 x3 x4 x5 x6 x7 x8 x9 x10 x11 x12))
      (accStep3 (Cert.Spec.gateWord (loW3 i x2) (hiW3 i x3) 2#32) (Rect.unit (s := S10240x16) ![2048, 0] S1024x16.size inb_S10240x16_S1024x16_2048_0)
      (k3_pay27 (k3_pay3 x5) (hid3 i x2 x3 x4 x5 x6 x7 x8) (FloatOps.ofBits FTy.f32 0#32) x9 x10 x11 x12)
      (accStep3 (Cert.Spec.gateWord (loW3 i x2) (hiW3 i x3) 1#32) (Rect.unit (s := S10240x16) ![1024, 0] S1024x16.size inb_S10240x16_S1024x16_1024_0)
      (k3_pay26 (k3_pay3 x5) (hid3 i x2 x3 x4 x5 x6 x7 x8) (FloatOps.ofBits FTy.f32 0#32) x9 x10 x11 x12)
      (accStep3 (Cert.Spec.gateWord (loW3 i x2) (hiW3 i x3) 0#32) (Rect.unit (s := S10240x16) ![0, 0] S1024x16.size inb_S10240x16_S1024x16_0_0)
      (k3_pay25 (k3_pay3 x5) (hid3 i x2 x3 x4 x5 x6 x7 x8) (FloatOps.ofBits FTy.f32 0#32) x9 x10 x11 x12)
      (accReset3 i x14)))))))))))

end Cert.KernelIdeal.Gen

end
-- ==== Proof.StepI3.lean ====
import proofs.«414286_j65627100283289_3_alg».proof.Proof.BodyI3
import proofs.«414286_j65627100283289_3_alg».proof.Proof.StepDefsI3
import Idealize.ShloMosaic.Lib.Pipeline.Frame
import Idealize.ShloMosaic.Lib.Pipeline.FrameBody
import Idealize.ShloMosaic.Lib.Pipeline.Value
import Idealize.ShloMosaic.Lib.Writes

/-!
# What region 3's body leaves, as the functions of `StepDefsI3`

The run of the body found, for the accumulator, ten nested conditionals: under chunk `k`'s gate the contents so far with
chunk `k`'s rows overwritten by a payload of those same rows as loaded from the contents so far, else the contents so
far; at the bottom the reset under the first tile's condition. Each level is one gated read-modify-write of one
rectangle, and the found term IS that nest, by unfolding. What a gated read-modify-write reads is the gated step on
what the contents before read, so reading the nest gives the same nest on VALUES, each level now mentioning the level
below once: the accumulator step of `StepDefsI3`, once the run's names for the table words, the gates, the gathered
rows, the hidden row and the messages are rewritten as those functions. The target-row scratch is the same story with
the whole buffer as its one rectangle, which is why its old contents never show: every store covers it. The output's
staging buffer is stored once, whole, under the last tile's condition, with the accumulator read back whole.
-/

noncomputable section

namespace Cert.KernelIdeal.Gen

open Idealize.ShloMosaic Idealize.ShloMosaic.TcCoe Idealize.ShloMosaic.GatedRmw

variable {F : FTy → Type} [FloatOps F]

/-! ## The run's contents, level by level, as gated read-modify-writes -/

set_option maxRecDepth 65536 in
/-- The accumulator's raw contents the run found are ten gated read-modify-writes over the reset. -/
theorem acc_raw3 (c : Dev nD) (i : grid3.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x16 .f32) (harg11 : arg11.IsWhole) (arg12 : Memref sig .tc .vmem S1x16 .f32) (harg12 : arg12.IsWhole) (arg13 : Memref sig .tc .vmem S1x10240x16 .f32) (harg13 : arg13.IsWhole) (arg14 : Memref sig .tc .vmem S10240x16 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x16 .f32) (x12 : Vec F S1x16 .f32) (x14 : Vec F S10240x16 .f32) (f13 : BufTy.Contents (Elt F) arg13.view.ty) (f15 : BufTy.Contents (Elt F) arg15.view.ty) :
    (bodyRun3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).1 = (gatedRmw arg14.view (bodyRun3.sl.v187 c i arg2 harg2 arg3 harg3 x2 x3) (Rect.unit (s := S10240x16) ![9216, 0] S1024x16.size inb_S10240x16_S1024x16_9216_0)
      (fun v => k3_pay34 (bodyRun3.sl.r_2 c arg5 harg5 x5) (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun3.sl.v182 c i arg2 harg2 arg3 harg3 x2 x3) (Rect.unit (s := S10240x16) ![8192, 0] S1024x16.size inb_S10240x16_S1024x16_8192_0)
      (fun v => k3_pay33 (bodyRun3.sl.r_2 c arg5 harg5 x5) (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun3.sl.v177 c i arg2 harg2 arg3 harg3 x2 x3) (Rect.unit (s := S10240x16) ![7168, 0] S1024x16.size inb_S10240x16_S1024x16_7168_0)
      (fun v => k3_pay32 (bodyRun3.sl.r_2 c arg5 harg5 x5) (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun3.sl.v172 c i arg2 harg2 arg3 harg3 x2 x3) (Rect.unit (s := S10240x16) ![6144, 0] S1024x16.size inb_S10240x16_S1024x16_6144_0)
      (fun v => k3_pay31 (bodyRun3.sl.r_2 c arg5 harg5 x5) (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun3.sl.v167 c i arg2 harg2 arg3 harg3 x2 x3) (Rect.unit (s := S10240x16) ![5120, 0] S1024x16.size inb_S10240x16_S1024x16_5120_0)
      (fun v => k3_pay30 (bodyRun3.sl.r_2 c arg5 harg5 x5) (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun3.sl.v162 c i arg2 harg2 arg3 harg3 x2 x3) (Rect.unit (s := S10240x16) ![4096, 0] S1024x16.size inb_S10240x16_S1024x16_4096_0)
      (fun v => k3_pay29 (bodyRun3.sl.r_2 c arg5 harg5 x5) (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun3.sl.v157 c i arg2 harg2 arg3 harg3 x2 x3) (Rect.unit (s := S10240x16) ![3072, 0] S1024x16.size inb_S10240x16_S1024x16_3072_0)
      (fun v => k3_pay28 (bodyRun3.sl.r_2 c arg5 harg5 x5) (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun3.sl.v152 c i arg2 harg2 arg3 harg3 x2 x3) (Rect.unit (s := S10240x16) ![2048, 0] S1024x16.size inb_S10240x16_S1024x16_2048_0)
      (fun v => k3_pay27 (bodyRun3.sl.r_2 c arg5 harg5 x5) (bodyRun3.sl.r_11 c i arg2 harg2 arg3 harg3 arg4 harg4 arg5 harg5 arg6 harg6 arg7 harg7 arg8 harg8 arg15 x2 x3 x4 x5 x6 x7 x8 f15) bodyRun3.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x16) ![0, 0] S128x16.size inb_S128x16_S128x16_0_0).toLoadRect (harg11.unread x11)) (View.readAt (Elt F) arg12.view (Rect.unit (s := S1x16) ![0, 0] S1x16.size inb_S1x16_S1x16_0_0).toLoadRect (harg12.unread x12)) v)
      (gatedRmw arg14.view (bodyRun3.sl.v147 c i arg2 harg2 arg3 harg3 x2 x3) (Rect.unit (s := S10240x16) ![1024, 0] S1024x16.size inb_S10240x16_S1024x16_1024_0)
      (fun v => k3_pay26 (bodyRun3.sl.r_2 c arg5 harg5 x5) (bodyRun3.sl.r_11 c i arg2 harg2 arg3 harg3 arg4 harg4 arg5 harg5 arg6 harg6 arg7 harg7 arg8 harg8 arg15 x2 x3 x4 x5 x6 x7 x8 f15) bodyRun3.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x16) ![0, 0] S128x16.size inb_S128x16_S128x16_0_0).toLoadRect (harg11.unread x11)) (View.readAt (Elt F) arg12.view (Rect.unit (s := S1x16) ![0, 0] S1x16.size inb_S1x16_S1x16_0_0).toLoadRect (harg12.unread x12)) v)
      (gatedRmw arg14.view (bodyRun3.sl.v142 c i arg2 harg2 arg3 harg3 x2 x3) (Rect.unit (s := S10240x16) ![0, 0] S1024x16.size inb_S10240x16_S1024x16_0_0)
      (fun v => k3_pay25 (bodyRun3.sl.r_2 c arg5 harg5 x5) (bodyRun3.sl.r_11 c i arg2 harg2 arg3 harg3 arg4 harg4 arg5 harg5 arg6 harg6 arg7 harg7 arg8 harg8 arg15 x2 x3 x4 x5 x6 x7 x8 f15) bodyRun3.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x16) ![0, 0] S128x16.size inb_S128x16_S128x16_0_0).toLoadRect (harg11.unread x11)) (View.readAt (Elt F) arg12.view (Rect.unit (s := S1x16) ![0, 0] S1x16.size inb_S1x16_S1x16_0_0).toLoadRect (harg12.unread x12)) v)
      (if _hc : bodyRun3.sl.v4 i = 1#1 then arg14.view.writes (Elt F) (harg14.unread x14) [⟨(Rect.unit (s := S10240x16) ![0, 0] S10240x16.size inb_S10240x16_S10240x16_0_0), k3_pay2⟩] else harg14.unread x14))))))))))) := rfl

set_option maxRecDepth 65536 in
/-- The target-row scratch as the hidden layer's load reads it: nine gated read-modify-writes over the first. -/
theorem xi_raw3 (c : Dev nD) (i : grid3.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x16 .f32) (harg11 : arg11.IsWhole) (arg12 : Memref sig .tc .vmem S1x16 .f32) (harg12 : arg12.IsWhole) (arg13 : Memref sig .tc .vmem S1x10240x16 .f32) (harg13 : arg13.IsWhole) (arg14 : Memref sig .tc .vmem S10240x16 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x16 .f32) (x12 : Vec F S1x16 .f32) (x14 : Vec F S10240x16 .f32) (f13 : BufTy.Contents (Elt F) arg13.view.ty) (f15 : BufTy.Contents (Elt F) arg15.view.ty) :
    (bodyRun3.sl.v188 c i arg2 harg2 arg3 harg3 arg5 harg5 arg6 harg6 arg15 x2 x3 x5 x6 f15) = View.readAt (Elt F) arg15.view (Rect.unit (s := S256x128) ![0, 0] S256x128.size inb_S256x128_S256x128_0_0).toLoadRect (gatedRmw arg15.view (bodyRun3.sl.v187 c i arg2 harg2 arg3 harg3 x2 x3) (Rect.unit (s := S256x128) ![0, 0] S256x128.size inb_S256x128_S256x128_0_0)
      (fun v => k3_pay22 (bodyRun3.sl.r_2 c arg5 harg5 x5) (View.readAt (Elt F) arg6.view (Rect.unit (s := S10240x128) ![9216, 0] S1024x128.size inb_S10240x128_S1024x128_9216_0).toLoadRect (harg6.unread x6)) v)
      (gatedRmw arg15.view (bodyRun3.sl.v182 c i arg2 harg2 arg3 harg3 x2 x3) (Rect.unit (s := S256x128) ![0, 0] S256x128.size inb_S256x128_S256x128_0_0)
      (fun v => k3_pay21 (bodyRun3.sl.r_2 c arg5 harg5 x5) (View.readAt (Elt F) arg6.view (Rect.unit (s := S10240x128) ![8192, 0] S1024x128.size inb_S10240x128_S1024x128_8192_0).toLoadRect (harg6.unread x6)) v)
      (gatedRmw arg15.view (bodyRun3.sl.v177 c i arg2 harg2 arg3 harg3 x2 x3) (Rect.unit (s := S256x128) ![0, 0] S256x128.size inb_S256x128_S256x128_0_0)
      (fun v => k3_pay20 (bodyRun3.sl.r_2 c arg5 harg5 x5) (View.readAt (Elt F) arg6.view (Rect.unit (s := S10240x128) ![7168, 0] S1024x128.size inb_S10240x128_S1024x128_7168_0).toLoadRect (harg6.unread x6)) v)
      (gatedRmw arg15.view (bodyRun3.sl.v172 c i arg2 harg2 arg3 harg3 x2 x3) (Rect.unit (s := S256x128) ![0, 0] S256x128.size inb_S256x128_S256x128_0_0)
      (fun v => k3_pay19 (bodyRun3.sl.r_2 c arg5 harg5 x5) (View.readAt (Elt F) arg6.view (Rect.unit (s := S10240x128) ![6144, 0] S1024x128.size inb_S10240x128_S1024x128_6144_0).toLoadRect (harg6.unread x6)) v)
      (gatedRmw arg15.view (bodyRun3.sl.v167 c i arg2 harg2 arg3 harg3 x2 x3) (Rect.unit (s := S256x128) ![0, 0] S256x128.size inb_S256x128_S256x128_0_0)
      (fun v => k3_pay18 (bodyRun3.sl.r_2 c arg5 harg5 x5) (View.readAt (Elt F) arg6.view (Rect.unit (s := S10240x128) ![5120, 0] S1024x128.size inb_S10240x128_S1024x128_5120_0).toLoadRect (harg6.unread x6)) v)
      (gatedRmw arg15.view (bodyRun3.sl.v162 c i arg2 harg2 arg3 harg3 x2 x3) (Rect.unit (s := S256x128) ![0, 0] S256x128.size inb_S256x128_S256x128_0_0)
      (fun v => k3_pay17 (bodyRun3.sl.r_2 c arg5 harg5 x5) (View.readAt (Elt F) arg6.view (Rect.unit (s := S10240x128) ![4096, 0] S1024x128.size inb_S10240x128_S1024x128_4096_0).toLoadRect (harg6.unread x6)) v)
      (gatedRmw arg15.view (bodyRun3.sl.v157 c i arg2 harg2 arg3 harg3 x2 x3) (Rect.unit (s := S256x128) ![0, 0] S256x128.size inb_S256x128_S256x128_0_0)
      (fun v => k3_pay16 (bodyRun3.sl.r_2 c arg5 harg5 x5) (View.readAt (Elt F) arg6.view (Rect.unit (s := S10240x128) ![3072, 0] S1024x128.size inb_S10240x128_S1024x128_3072_0).toLoadRect (harg6.unread x6)) v)
      (gatedRmw arg15.view (bodyRun3.sl.v152 c i arg2 harg2 arg3 harg3 x2 x3) (Rect.unit (s := S256x128) ![0, 0] S256x128.size inb_S256x128_S256x128_0_0)
      (fun v => k3_pay15 (bodyRun3.sl.r_2 c arg5 harg5 x5) (View.readAt (Elt F) arg6.view (Rect.unit (s := S10240x128) ![2048, 0] S1024x128.size inb_S10240x128_S1024x128_2048_0).toLoadRect (harg6.unread x6)) v)
      (gatedRmw arg15.view (bodyRun3.sl.v147 c i arg2 harg2 arg3 harg3 x2 x3) (Rect.unit (s := S256x128) ![0, 0] S256x128.size inb_S256x128_S256x128_0_0)
      (fun v => k3_pay14 (bodyRun3.sl.r_2 c arg5 harg5 x5) (View.readAt (Elt F) arg6.view (Rect.unit (s := S10240x128) ![1024, 0] S1024x128.size inb_S10240x128_S1024x128_1024_0).toLoadRect (harg6.unread x6)) v)
      (if _hc : (bodyRun3.sl.v142 c i arg2 harg2 arg3 harg3 x2 x3) = 1#1 then arg15.view.writes (Elt F) f15 (⟨(Rect.unit (s := S256x128) ![0, 0] S256x128.size inb_S256x128_S256x128_0_0), k3_pay13 (bodyRun3.sl.r_2 c arg5 harg5 x5) (View.readAt (Elt F) arg6.view (Rect.unit (s := S10240x128) ![0, 0] S1024x128.size inb_S10240x128_S1024x128_0_0).toLoadRect (harg6.unread x6)) (bodyRun3.sl.v277 arg15)⟩ :: bodyRun3.sl.H15_1) else arg15.view.writes (Elt F) f15 bodyRun3.sl.H15_1)))))))))) := rfl

set_option maxRecDepth 65536 in
/-- The write-out's load of the whole accumulator reads the same raw contents. -/
theorem v266_raw3 (c : Dev nD) (i : grid3.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x16 .f32) (harg11 : arg11.IsWhole) (arg12 : Memref sig .tc .vmem S1x16 .f32) (harg12 : arg12.IsWhole) (arg13 : Memref sig .tc .vmem S1x10240x16 .f32) (harg13 : arg13.IsWhole) (arg14 : Memref sig .tc .vmem S10240x16 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x16 .f32) (x12 : Vec F S1x16 .f32) (x14 : Vec F S10240x16 .f32) (f13 : BufTy.Contents (Elt F) arg13.view.ty) (f15 : BufTy.Contents (Elt F) arg15.view.ty) :
    (bodyRun3.sl.v266 c i arg2 harg2 arg3 harg3 arg4 harg4 arg5 harg5 arg6 harg6 arg7 harg7 arg8 harg8 arg9 harg9 arg10 harg10 arg11 harg11 arg12 harg12 arg14 harg14 arg15 x2 x3 x4 x5 x6 x7 x8 x9 x10 x11 x12 x14 f15) = View.readAt (Elt F) arg14.view (Rect.unit (s := S10240x16) ![0, 0] S10240x16.size inb_S10240x16_S10240x16_0_0).toLoadRect (gatedRmw arg14.view (bodyRun3.sl.v187 c i arg2 harg2 arg3 harg3 x2 x3) (Rect.unit (s := S10240x16) ![9216, 0] S1024x16.size inb_S10240x16_S1024x16_9216_0)
      (fun v => k3_pay34 (bodyRun3.sl.r_2 c arg5 harg5 x5) (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun3.sl.v182 c i arg2 harg2 arg3 harg3 x2 x3) (Rect.unit (s := S10240x16) ![8192, 0] S1024x16.size inb_S10240x16_S1024x16_8192_0)
      (fun v => k3_pay33 (bodyRun3.sl.r_2 c arg5 harg5 x5) (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun3.sl.v177 c i arg2 harg2 arg3 harg3 x2 x3) (Rect.unit (s := S10240x16) ![7168, 0] S1024x16.size inb_S10240x16_S1024x16_7168_0)
      (fun v => k3_pay32 (bodyRun3.sl.r_2 c arg5 harg5 x5) (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun3.sl.v172 c i arg2 harg2 arg3 harg3 x2 x3) (Rect.unit (s := S10240x16) ![6144, 0] S1024x16.size inb_S10240x16_S1024x16_6144_0)
      (fun v => k3_pay31 (bodyRun3.sl.r_2 c arg5 harg5 x5) (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun3.sl.v167 c i arg2 harg2 arg3 harg3 x2 x3) (Rect.unit (s := S10240x16) ![5120, 0] S1024x16.size inb_S10240x16_S1024x16_5120_0)
      (fun v => k3_pay30 (bodyRun3.sl.r_2 c arg5 harg5 x5) (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun3.sl.v162 c i arg2 harg2 arg3 harg3 x2 x3) (Rect.unit (s := S10240x16) ![4096, 0] S1024x16.size inb_S10240x16_S1024x16_4096_0)
      (fun v => k3_pay29 (bodyRun3.sl.r_2 c arg5 harg5 x5) (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun3.sl.v157 c i arg2 harg2 arg3 harg3 x2 x3) (Rect.unit (s := S10240x16) ![3072, 0] S1024x16.size inb_S10240x16_S1024x16_3072_0)
      (fun v => k3_pay28 (bodyRun3.sl.r_2 c arg5 harg5 x5) (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) v)
      (gatedRmw arg14.view (bodyRun3.sl.v152 c i arg2 harg2 arg3 harg3 x2 x3) (Rect.unit (s := S10240x16) ![2048, 0] S1024x16.size inb_S10240x16_S1024x16_2048_0)
      (fun v => k3_pay27 (bodyRun3.sl.r_2 c arg5 harg5 x5) (bodyRun3.sl.r_11 c i arg2 harg2 arg3 harg3 arg4 harg4 arg5 harg5 arg6 harg6 arg7 harg7 arg8 harg8 arg15 x2 x3 x4 x5 x6 x7 x8 f15) bodyRun3.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x16) ![0, 0] S128x16.size inb_S128x16_S128x16_0_0).toLoadRect (harg11.unread x11)) (View.readAt (Elt F) arg12.view (Rect.unit (s := S1x16) ![0, 0] S1x16.size inb_S1x16_S1x16_0_0).toLoadRect (harg12.unread x12)) v)
      (gatedRmw arg14.view (bodyRun3.sl.v147 c i arg2 harg2 arg3 harg3 x2 x3) (Rect.unit (s := S10240x16) ![1024, 0] S1024x16.size inb_S10240x16_S1024x16_1024_0)
      (fun v => k3_pay26 (bodyRun3.sl.r_2 c arg5 harg5 x5) (bodyRun3.sl.r_11 c i arg2 harg2 arg3 harg3 arg4 harg4 arg5 harg5 arg6 harg6 arg7 harg7 arg8 harg8 arg15 x2 x3 x4 x5 x6 x7 x8 f15) bodyRun3.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x16) ![0, 0] S128x16.size inb_S128x16_S128x16_0_0).toLoadRect (harg11.unread x11)) (View.readAt (Elt F) arg12.view (Rect.unit (s := S1x16) ![0, 0] S1x16.size inb_S1x16_S1x16_0_0).toLoadRect (harg12.unread x12)) v)
      (gatedRmw arg14.view (bodyRun3.sl.v142 c i arg2 harg2 arg3 harg3 x2 x3) (Rect.unit (s := S10240x16) ![0, 0] S1024x16.size inb_S10240x16_S1024x16_0_0)
      (fun v => k3_pay25 (bodyRun3.sl.r_2 c arg5 harg5 x5) (bodyRun3.sl.r_11 c i arg2 harg2 arg3 harg3 arg4 harg4 arg5 harg5 arg6 harg6 arg7 harg7 arg8 harg8 arg15 x2 x3 x4 x5 x6 x7 x8 f15) bodyRun3.sl.cst_57 (View.readAt (Elt F) arg9.view (Rect.unit (s := S128x128) ![0, 0] S128x128.size inb_S128x128_S128x128_0_0).toLoadRect (harg9.unread x9)) (View.readAt (Elt F) arg10.view (Rect.unit (s := S1x128) ![0, 0] S1x128.size inb_S1x128_S1x128_0_0).toLoadRect (harg10.unread x10)) (View.readAt (Elt F) arg11.view (Rect.unit (s := S128x16) ![0, 0] S128x16.size inb_S128x16_S128x16_0_0).toLoadRect (harg11.unread x11)) (View.readAt (Elt F) arg12.view (Rect.unit (s := S1x16) ![0, 0] S1x16.size inb_S1x16_S1x16_0_0).toLoadRect (harg12.unread x12)) v)
      (if _hc : bodyRun3.sl.v4 i = 1#1 then arg14.view.writes (Elt F) (harg14.unread x14) [⟨(Rect.unit (s := S10240x16) ![0, 0] S10240x16.size inb_S10240x16_S10240x16_0_0), k3_pay2⟩] else harg14.unread x14))))))))))) := rfl

set_option maxRecDepth 65536 in
/-- The output's staging buffer: one whole store under the last tile's condition. -/
theorem out_raw3 (c : Dev nD) (i : grid3.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x16 .f32) (harg11 : arg11.IsWhole) (arg12 : Memref sig .tc .vmem S1x16 .f32) (harg12 : arg12.IsWhole) (arg13 : Memref sig .tc .vmem S1x10240x16 .f32) (harg13 : arg13.IsWhole) (arg14 : Memref sig .tc .vmem S10240x16 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x16 .f32) (x12 : Vec F S1x16 .f32) (x14 : Vec F S10240x16 .f32) (f13 : BufTy.Contents (Elt F) arg13.view.ty) (f15 : BufTy.Contents (Elt F) arg15.view.ty) :
    (bodyRun3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).2.2.1 = (if _hc : k3_cond22 i = 1#1 then arg13.view.writes (Elt F) f13 [⟨(Rect.unit (s := S1x10240x16) ![0, 0, 0] S1x10240x16.size inb_S1x10240x16_S1x10240x16_0_0_0), k3_pay1 (bodyRun3.sl.v266 c i arg2 harg2 arg3 harg3 arg4 harg4 arg5 harg5 arg6 harg6 arg7 harg7 arg8 harg8 arg9 harg9 arg10 harg10 arg11 harg11 arg12 harg12 arg14 harg14 arg15 x2 x3 x4 x5 x6 x7 x8 x9 x10 x11 x12 x14 f15)⟩] else f13) := rfl

/-! ## Loads off whole buffers, and the run's names as the functions of `StepDefsI3` -/

/-- A load off a whole buffer held at the raw contents of `X` reads `X` through the rectangle. -/
private theorem readAt_unread_ld3 {sp : Space} {s : Shape} {e : EltTy} (m : Memref sig .tc sp s e) (h : m.IsWhole)
    (X : s.Idx → Elt F e) (R : Rect s) : View.readAt (Elt F) m.view R.toLoadRect (h.unread X) = View.ld X R := by
  rw [View.readAt_eq_ld, h.read_unread]

private theorem ld_w_col3 {Val : EltTy → Type} {e : EltTy} (X : S256x1.Idx → Val e) : View.ld X (Rect.unit (s := S256x1) ![0, 0] S256x1.size inb_S256x1_S256x1_0_0) = X :=
  View.ld_unit_zero (by funext j; fin_cases j <;> rfl) _ X
private theorem ld_w_wA3 {Val : EltTy → Type} {e : EltTy} (X : S256x128.Idx → Val e) : View.ld X (Rect.unit (s := S256x128) ![0, 0] S256x128.size inb_S256x128_S256x128_0_0) = X :=
  View.ld_unit_zero (by funext j; fin_cases j <;> rfl) _ X
private theorem ld_w_bA3 {Val : EltTy → Type} {e : EltTy} (X : S1x128.Idx → Val e) : View.ld X (Rect.unit (s := S1x128) ![0, 0] S1x128.size inb_S1x128_S1x128_0_0) = X :=
  View.ld_unit_zero (by funext j; fin_cases j <;> rfl) _ X
private theorem ld_w_wB3 {Val : EltTy → Type} {e : EltTy} (X : S128x128.Idx → Val e) : View.ld X (Rect.unit (s := S128x128) ![0, 0] S128x128.size inb_S128x128_S128x128_0_0) = X :=
  View.ld_unit_zero (by funext j; fin_cases j <;> rfl) _ X
private theorem ld_w_bB3 {Val : EltTy → Type} {e : EltTy} (X : S1x128.Idx → Val e) : View.ld X (Rect.unit (s := S1x128) ![0, 0] S1x128.size inb_S1x128_S1x128_0_0) = X :=
  View.ld_unit_zero (by funext j; fin_cases j <;> rfl) _ X
private theorem ld_w_wC3 {Val : EltTy → Type} {e : EltTy} (X : S128x16.Idx → Val e) : View.ld X (Rect.unit (s := S128x16) ![0, 0] S128x16.size inb_S128x16_S128x16_0_0) = X :=
  View.ld_unit_zero (by funext j; fin_cases j <;> rfl) _ X
private theorem ld_w_bC3 {Val : EltTy → Type} {e : EltTy} (X : S1x16.Idx → Val e) : View.ld X (Rect.unit (s := S1x16) ![0, 0] S1x16.size inb_S1x16_S1x16_0_0) = X :=
  View.ld_unit_zero (by funext j; fin_cases j <;> rfl) _ X
private theorem ld_w_rows3 {Val : EltTy → Type} {e : EltTy} (X : S256x128.Idx → Val e) : View.ld X (Rect.unit (s := S256x128) ![0, 0] S256x128.size inb_S256x128_S256x128_0_0) = X :=
  View.ld_unit_zero (by funext j; fin_cases j <;> rfl) _ X
private theorem ld_w_acc3 {Val : EltTy → Type} {e : EltTy} (X : S10240x16.Idx → Val e) : View.ld X (Rect.unit (s := S10240x16) ![0, 0] S10240x16.size inb_S10240x16_S10240x16_0_0) = X :=
  View.ld_unit_zero (by funext j; fin_cases j <;> rfl) _ X

/-- A store through the whole-shape rectangle, last, leaves its payload. -/
private theorem read_writes_cons_whole3 {sp : Space} {s : Shape} {e : EltTy} (v : View sig .tc sp s e)
    (f : v.ty.Contents (Elt F)) {off : Fin s.rank → Nat} (h0 : off = fun _ => 0) (inb : ∀ a, off a + s.size a ≤ s.size a)
    (w : (Rect.unit off s.size inb).shape.Idx → Elt F e) (L : List (View.Piece (Elt F) s e)) :
    v.read (Elt F) (v.writes (Elt F) f (⟨Rect.unit off s.size inb, w⟩ :: L)) = w := by
  subst h0
  funext y
  have e1 := View.read_writes_cons_emb v f (Rect.whole s) w L y
  rw [Rect.emb_whole_apply] at e1
  exact e1

private theorem lo_eq3 (c : Dev nD) (i : grid3.Coords) (arg2 : Memref sig .tc .smem S1250 .i32) (harg2 : arg2.IsWhole)
    (x2 : Vec F S1250 .i32) : bodyRun3.sl.r c i arg2 harg2 x2 = loW3 i x2 := by
  unfold bodyRun3.sl.r loW3
  rw [readAt_unread_ld3]

private theorem hi_eq3 (c : Dev nD) (i : grid3.Coords) (arg3 : Memref sig .tc .smem S1250 .i32) (harg3 : arg3.IsWhole)
    (x3 : Vec F S1250 .i32) : bodyRun3.sl.r_1 c i arg3 harg3 x3 = hiW3 i x3 := by
  unfold bodyRun3.sl.r_1 hiW3
  rw [readAt_unread_ld3]

private theorem gate3_0 (c : Dev nD) (i : grid3.Coords) (arg2 : Memref sig .tc .smem S1250 .i32) (harg2 : arg2.IsWhole) (arg3 : Memref sig .tc .smem S1250 .i32) (harg3 : arg3.IsWhole) (x2 x3 : Vec F S1250 .i32) :
    bodyRun3.sl.v142 c i arg2 harg2 arg3 harg3 x2 x3 = Cert.Spec.gateWord (loW3 i x2) (hiW3 i x3) 0#32 := by
  unfold bodyRun3.sl.v142 bodyRun3.sl.v141 bodyRun3.sl.v140 bodyRun3.sl.v138 bodyRun3.sl.v139
  rw [lo_eq3, hi_eq3]; rfl
private theorem gate3_1 (c : Dev nD) (i : grid3.Coords) (arg2 : Memref sig .tc .smem S1250 .i32) (harg2 : arg2.IsWhole) (arg3 : Memref sig .tc .smem S1250 .i32) (harg3 : arg3.IsWhole) (x2 x3 : Vec F S1250 .i32) :
    bodyRun3.sl.v147 c i arg2 harg2 arg3 harg3 x2 x3 = Cert.Spec.gateWord (loW3 i x2) (hiW3 i x3) 1#32 := by
  unfold bodyRun3.sl.v147 bodyRun3.sl.v146 bodyRun3.sl.v145 bodyRun3.sl.v143 bodyRun3.sl.v144
  rw [lo_eq3, hi_eq3]; rfl
private theorem gate3_2 (c : Dev nD) (i : grid3.Coords) (arg2 : Memref sig .tc .smem S1250 .i32) (harg2 : arg2.IsWhole) (arg3 : Memref sig .tc .smem S1250 .i32) (harg3 : arg3.IsWhole) (x2 x3 : Vec F S1250 .i32) :
    bodyRun3.sl.v152 c i arg2 harg2 arg3 harg3 x2 x3 = Cert.Spec.gateWord (loW3 i x2) (hiW3 i x3) 2#32 := by
  unfold bodyRun3.sl.v152 bodyRun3.sl.v151 bodyRun3.sl.v150 bodyRun3.sl.v148 bodyRun3.sl.v149
  rw [lo_eq3, hi_eq3]; rfl
private theorem gate3_3 (c : Dev nD) (i : grid3.Coords) (arg2 : Memref sig .tc .smem S1250 .i32) (harg2 : arg2.IsWhole) (arg3 : Memref sig .tc .smem S1250 .i32) (harg3 : arg3.IsWhole) (x2 x3 : Vec F S1250 .i32) :
    bodyRun3.sl.v157 c i arg2 harg2 arg3 harg3 x2 x3 = Cert.Spec.gateWord (loW3 i x2) (hiW3 i x3) 3#32 := by
  unfold bodyRun3.sl.v157 bodyRun3.sl.v156 bodyRun3.sl.v155 bodyRun3.sl.v153 bodyRun3.sl.v154
  rw [lo_eq3, hi_eq3]; rfl
private theorem gate3_4 (c : Dev nD) (i : grid3.Coords) (arg2 : Memref sig .tc .smem S1250 .i32) (harg2 : arg2.IsWhole) (arg3 : Memref sig .tc .smem S1250 .i32) (harg3 : arg3.IsWhole) (x2 x3 : Vec F S1250 .i32) :
    bodyRun3.sl.v162 c i arg2 harg2 arg3 harg3 x2 x3 = Cert.Spec.gateWord (loW3 i x2) (hiW3 i x3) 4#32 := by
  unfold bodyRun3.sl.v162 bodyRun3.sl.v161 bodyRun3.sl.v160 bodyRun3.sl.v158 bodyRun3.sl.v159
  rw [lo_eq3, hi_eq3]; rfl
private theorem gate3_5 (c : Dev nD) (i : grid3.Coords) (arg2 : Memref sig .tc .smem S1250 .i32) (harg2 : arg2.IsWhole) (arg3 : Memref sig .tc .smem S1250 .i32) (harg3 : arg3.IsWhole) (x2 x3 : Vec F S1250 .i32) :
    bodyRun3.sl.v167 c i arg2 harg2 arg3 harg3 x2 x3 = Cert.Spec.gateWord (loW3 i x2) (hiW3 i x3) 5#32 := by
  unfold bodyRun3.sl.v167 bodyRun3.sl.v166 bodyRun3.sl.v165 bodyRun3.sl.v163 bodyRun3.sl.v164
  rw [lo_eq3, hi_eq3]; rfl
private theorem gate3_6 (c : Dev nD) (i : grid3.Coords) (arg2 : Memref sig .tc .smem S1250 .i32) (harg2 : arg2.IsWhole) (arg3 : Memref sig .tc .smem S1250 .i32) (harg3 : arg3.IsWhole) (x2 x3 : Vec F S1250 .i32) :
    bodyRun3.sl.v172 c i arg2 harg2 arg3 harg3 x2 x3 = Cert.Spec.gateWord (loW3 i x2) (hiW3 i x3) 6#32 := by
  unfold bodyRun3.sl.v172 bodyRun3.sl.v171 bodyRun3.sl.v170 bodyRun3.sl.v168 bodyRun3.sl.v169
  rw [lo_eq3, hi_eq3]; rfl
private theorem gate3_7 (c : Dev nD) (i : grid3.Coords) (arg2 : Memref sig .tc .smem S1250 .i32) (harg2 : arg2.IsWhole) (arg3 : Memref sig .tc .smem S1250 .i32) (harg3 : arg3.IsWhole) (x2 x3 : Vec F S1250 .i32) :
    bodyRun3.sl.v177 c i arg2 harg2 arg3 harg3 x2 x3 = Cert.Spec.gateWord (loW3 i x2) (hiW3 i x3) 7#32 := by
  unfold bodyRun3.sl.v177 bodyRun3.sl.v176 bodyRun3.sl.v175 bodyRun3.sl.v173 bodyRun3.sl.v174
  rw [lo_eq3, hi_eq3]; rfl
private theorem gate3_8 (c : Dev nD) (i : grid3.Coords) (arg2 : Memref sig .tc .smem S1250 .i32) (harg2 : arg2.IsWhole) (arg3 : Memref sig .tc .smem S1250 .i32) (harg3 : arg3.IsWhole) (x2 x3 : Vec F S1250 .i32) :
    bodyRun3.sl.v182 c i arg2 harg2 arg3 harg3 x2 x3 = Cert.Spec.gateWord (loW3 i x2) (hiW3 i x3) 8#32 := by
  unfold bodyRun3.sl.v182 bodyRun3.sl.v181 bodyRun3.sl.v180 bodyRun3.sl.v178 bodyRun3.sl.v179
  rw [lo_eq3, hi_eq3]; rfl
private theorem gate3_9 (c : Dev nD) (i : grid3.Coords) (arg2 : Memref sig .tc .smem S1250 .i32) (harg2 : arg2.IsWhole) (arg3 : Memref sig .tc .smem S1250 .i32) (harg3 : arg3.IsWhole) (x2 x3 : Vec F S1250 .i32) :
    bodyRun3.sl.v187 c i arg2 harg2 arg3 harg3 x2 x3 = Cert.Spec.gateWord (loW3 i x2) (hiW3 i x3) 9#32 := by
  unfold bodyRun3.sl.v187 bodyRun3.sl.v186 bodyRun3.sl.v185 bodyRun3.sl.v183 bodyRun3.sl.v184
  rw [lo_eq3, hi_eq3]; rfl

private theorem first_eq3 (i : grid3.Coords) : bodyRun3.sl.v4 i = firstW3 i := rfl

private theorem r2_eq3 (c : Dev nD) (arg5 : Memref sig .tc .vmem S256x1 .i32) (harg5 : arg5.IsWhole) (x5 : Vec F S256x1 .i32) :
    bodyRun3.sl.r_2 c arg5 harg5 x5 = k3_pay3 x5 := by
  unfold bodyRun3.sl.r_2
  rw [readAt_unread_ld3, ld_w_col3]

private theorem xj_eq3 (c : Dev nD) (arg4 : Memref sig .tc .vmem S256x1 .i32) (harg4 : arg4.IsWhole)
    (arg6 : Memref sig .tc .vmem S10240x128 .f32) (harg6 : arg6.IsWhole) (x4 : Vec F S256x1 .i32) (x6 : Vec F S10240x128 .f32) :
    bodyRun3.sl.r_10 c arg4 harg4 arg6 harg6 x4 x6 = xj3 x4 x6 := by
  unfold bodyRun3.sl.r_10 bodyRun3.sl.r_9 bodyRun3.sl.r_8 bodyRun3.sl.r_7 bodyRun3.sl.r_6 bodyRun3.sl.r_5 bodyRun3.sl.r_4
    bodyRun3.sl.r_3 bodyRun3.sl.v39 xj3
  simp only [readAt_unread_ld3]
  rw [ld_w_col3 x4]

private theorem v277_eq3 (arg15 : Memref sig .tc .vmem S256x128 .f32) :
    bodyRun3.sl.v277 (F := F) arg15 = k3_pay12 := by
  unfold bodyRun3.sl.v277 bodyRun3.sl.H15_1
  exact View.readCov_unit_zero _ (by funext j; fin_cases j <;> rfl) _ _

/-- The first gated step of the target rows' gather, whose store the run listed with the zero fill. -/
private theorem read_xi_first3 (arg15 : Memref sig .tc .vmem S256x128 .f32) (g : BitVec 1)
    (f15 : BufTy.Contents (Elt F) arg15.view.ty) (w : ((Rect.unit (s := S256x128) ![0, 0] S256x128.size inb_S256x128_S256x128_0_0).shape.Idx → Elt F .f32) → ((Rect.unit (s := S256x128) ![0, 0] S256x128.size inb_S256x128_S256x128_0_0).shape.Idx → Elt F .f32)) :
    arg15.view.read (Elt F) (if _hc : g = 1#1 then arg15.view.writes (Elt F) f15 (⟨(Rect.unit (s := S256x128) ![0, 0] S256x128.size inb_S256x128_S256x128_0_0), w (bodyRun3.sl.v277 arg15)⟩ :: bodyRun3.sl.H15_1) else arg15.view.writes (Elt F) f15 bodyRun3.sl.H15_1)
      = xiStep3 g w k3_pay12 := by
  unfold xiStep3
  by_cases h : g = 1#1
  · rw [dif_pos h, if_pos h, read_writes_cons_whole3 _ _ (by funext j; fin_cases j <;> rfl), v277_eq3]
  · rw [dif_neg h, if_neg h]
    unfold bodyRun3.sl.H15_1
    rw [read_writes_cons_whole3 _ _ (by funext j; fin_cases j <;> rfl)]

/-- A later gated step of it. -/
private theorem read_xi_step3 (arg15 : Memref sig .tc .vmem S256x128 .f32) (g : BitVec 1)
    (w : ((Rect.unit (s := S256x128) ![0, 0] S256x128.size inb_S256x128_S256x128_0_0).shape.Idx → Elt F .f32) → ((Rect.unit (s := S256x128) ![0, 0] S256x128.size inb_S256x128_S256x128_0_0).shape.Idx → Elt F .f32)) (D : BufTy.Contents (Elt F) arg15.view.ty) :
    arg15.view.read (Elt F) (gatedRmw arg15.view g (Rect.unit (s := S256x128) ![0, 0] S256x128.size inb_S256x128_S256x128_0_0) w D) = xiStep3 g w (arg15.view.read (Elt F) D) := by
  rw [read_gatedRmw, gatedVal_whole (by funext j; fin_cases j <;> rfl)]
  rfl

theorem xi_eq3 (c : Dev nD) (i : grid3.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x16 .f32) (harg11 : arg11.IsWhole) (arg12 : Memref sig .tc .vmem S1x16 .f32) (harg12 : arg12.IsWhole) (arg13 : Memref sig .tc .vmem S1x10240x16 .f32) (harg13 : arg13.IsWhole) (arg14 : Memref sig .tc .vmem S10240x16 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x16 .f32) (x12 : Vec F S1x16 .f32) (x14 : Vec F S10240x16 .f32) (f13 : BufTy.Contents (Elt F) arg13.view.ty) (f15 : BufTy.Contents (Elt F) arg15.view.ty) : (bodyRun3.sl.v188 c i arg2 harg2 arg3 harg3 arg5 harg5 arg6 harg6 arg15 x2 x3 x5 x6 f15) = xi3 i x2 x3 x5 x6 := by
  rw [xi_raw3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, View.readAt_eq_ld, ld_w_rows3]
  rw [read_xi_step3, read_xi_step3, read_xi_step3, read_xi_step3, read_xi_step3, read_xi_step3, read_xi_step3, read_xi_step3, read_xi_step3, read_xi_first3]
  simp only [gate3_0, gate3_1, gate3_2, gate3_3, gate3_4, gate3_5, gate3_6, gate3_7, gate3_8, gate3_9, r2_eq3, readAt_unread_ld3]
  rfl

theorem hid_eq3 (c : Dev nD) (i : grid3.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x16 .f32) (harg11 : arg11.IsWhole) (arg12 : Memref sig .tc .vmem S1x16 .f32) (harg12 : arg12.IsWhole) (arg13 : Memref sig .tc .vmem S1x10240x16 .f32) (harg13 : arg13.IsWhole) (arg14 : Memref sig .tc .vmem S10240x16 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x16 .f32) (x12 : Vec F S1x16 .f32) (x14 : Vec F S10240x16 .f32) (f13 : BufTy.Contents (Elt F) arg13.view.ty) (f15 : BufTy.Contents (Elt F) arg15.view.ty) : (bodyRun3.sl.r_11 c i arg2 harg2 arg3 harg3 arg4 harg4 arg5 harg5 arg6 harg6 arg7 harg7 arg8 harg8 arg15 x2 x3 x4 x5 x6 x7 x8 f15) = hid3 i x2 x3 x4 x5 x6 x7 x8 := by
  unfold bodyRun3.sl.r_11 hid3
  rw [xi_eq3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, xj_eq3, readAt_unread_ld3, readAt_unread_ld3, ld_w_wA3 x7, ld_w_bA3 x8]

theorem msg_eq3 (c : Dev nD) (i : grid3.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x16 .f32) (harg11 : arg11.IsWhole) (arg12 : Memref sig .tc .vmem S1x16 .f32) (harg12 : arg12.IsWhole) (arg13 : Memref sig .tc .vmem S1x10240x16 .f32) (harg13 : arg13.IsWhole) (arg14 : Memref sig .tc .vmem S10240x16 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x16 .f32) (x12 : Vec F S1x16 .f32) (x14 : Vec F S10240x16 .f32) (f13 : BufTy.Contents (Elt F) arg13.view.ty) (f15 : BufTy.Contents (Elt F) arg15.view.ty) : (bodyRun3.sl.r_12 c i arg2 harg2 arg3 harg3 arg4 harg4 arg5 harg5 arg6 harg6 arg7 harg7 arg8 harg8 arg9 harg9 arg10 harg10 arg11 harg11 arg12 harg12 arg15 x2 x3 x4 x5 x6 x7 x8 x9 x10 x11 x12 f15) = msg3 i x2 x3 x4 x5 x6 x7 x8 x9 x10 x11 x12 := by
  unfold bodyRun3.sl.r_12 msg3
  rw [hid_eq3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15]
  simp only [readAt_unread_ld3]
  rw [ld_w_wB3 x9, ld_w_bB3 x10, ld_w_wC3 x11, ld_w_bC3 x12]
  rfl

private theorem read_accBase3 (i : grid3.Coords) (arg14 : Memref sig .tc .vmem S10240x16 .f32) (harg14 : arg14.IsWhole)
    (x14 : Vec F S10240x16 .f32) :
    arg14.view.read (Elt F) (if _hc : bodyRun3.sl.v4 i = 1#1 then arg14.view.writes (Elt F) (harg14.unread x14) [⟨(Rect.unit (s := S10240x16) ![0, 0] S10240x16.size inb_S10240x16_S10240x16_0_0), k3_pay2⟩] else harg14.unread x14) = accReset3 i x14 := by
  unfold accReset3
  rw [first_eq3]
  by_cases h : firstW3 i = 1#1
  · rw [dif_pos h, if_pos h, read_writes_cons_whole3 _ _ (by funext j; fin_cases j <;> rfl)]
  · rw [dif_neg h, if_neg h, harg14.read_unread]

/-! ## The four facts -/

/-- The accumulator the body leaves reads `stepAcc3` of what the body was handed. -/
theorem bodyRun3_acc (c : Dev nD) (i : grid3.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x16 .f32) (harg11 : arg11.IsWhole) (arg12 : Memref sig .tc .vmem S1x16 .f32) (harg12 : arg12.IsWhole) (arg13 : Memref sig .tc .vmem S1x10240x16 .f32) (harg13 : arg13.IsWhole) (arg14 : Memref sig .tc .vmem S10240x16 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x16 .f32) (x12 : Vec F S1x16 .f32) (x14 : Vec F S10240x16 .f32) (f13 : BufTy.Contents (Elt F) arg13.view.ty) (f15 : BufTy.Contents (Elt F) arg15.view.ty) :
    arg14.view.read (Elt F) (bodyRun3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).1 = stepAcc3 i x2 x3 x4 x5 x6 x7 x8 x9 x10 x11 x12 x14 := by
  rw [acc_raw3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15]
  simp only [read_gatedRmw]
  rw [read_accBase3]
  simp only [gate3_0, gate3_1, gate3_2, gate3_3, gate3_4, gate3_5, gate3_6, gate3_7, gate3_8, gate3_9, r2_eq3, hid_eq3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, msg_eq3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, readAt_unread_ld3]
  rw [ld_w_wB3 x9, ld_w_bB3 x10, ld_w_wC3 x11, ld_w_bC3 x12]
  rfl

/-- At the core's last tile the output's staging buffer holds the accumulator the body leaves, with a leading axis of one. -/
theorem bodyRun3_out_flush (c : Dev nD) (i : grid3.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x16 .f32) (harg11 : arg11.IsWhole) (arg12 : Memref sig .tc .vmem S1x16 .f32) (harg12 : arg12.IsWhole) (arg13 : Memref sig .tc .vmem S1x10240x16 .f32) (harg13 : arg13.IsWhole) (arg14 : Memref sig .tc .vmem S10240x16 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x16 .f32) (x12 : Vec F S1x16 .f32) (x14 : Vec F S10240x16 .f32) (f13 : BufTy.Contents (Elt F) arg13.view.ty) (f15 : BufTy.Contents (Elt F) arg15.view.ty) (h : k3_cond22 i = 1#1) :
    arg13.view.read (Elt F) (bodyRun3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).2.2.1 = k3_pay1 (stepAcc3 i x2 x3 x4 x5 x6 x7 x8 x9 x10 x11 x12 x14) := by
  rw [out_raw3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, dif_pos h, read_writes_cons_whole3 _ _ (by funext j; fin_cases j <;> rfl), v266_raw3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15,
    View.readAt_eq_ld, ld_w_acc3, ← acc_raw3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, bodyRun3_acc c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15]

/-- At any other tile the body leaves it as it was. -/
theorem bodyRun3_out_idle (c : Dev nD) (i : grid3.Coords) (arg2 : Memref sig .tc .smem S1250 .i32) (harg2 : arg2.IsWhole) (arg3 : Memref sig .tc .smem S1250 .i32) (harg3 : arg3.IsWhole) (arg4 : Memref sig .tc .vmem S256x1 .i32) (harg4 : arg4.IsWhole) (arg5 : Memref sig .tc .vmem S256x1 .i32) (harg5 : arg5.IsWhole) (arg6 : Memref sig .tc .vmem S10240x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x16 .f32) (harg11 : arg11.IsWhole) (arg12 : Memref sig .tc .vmem S1x16 .f32) (harg12 : arg12.IsWhole) (arg13 : Memref sig .tc .vmem S1x10240x16 .f32) (harg13 : arg13.IsWhole) (arg14 : Memref sig .tc .vmem S10240x16 .f32) (harg14 : arg14.IsWhole) (arg15 : Memref sig .tc .vmem S256x128 .f32) (harg15 : arg15.IsWhole) (x2 : Vec F S1250 .i32) (x3 : Vec F S1250 .i32) (x4 : Vec F S256x1 .i32) (x5 : Vec F S256x1 .i32) (x6 : Vec F S10240x128 .f32) (x7 : Vec F S256x128 .f32) (x8 : Vec F S1x128 .f32) (x9 : Vec F S128x128 .f32) (x10 : Vec F S1x128 .f32) (x11 : Vec F S128x16 .f32) (x12 : Vec F S1x16 .f32) (x14 : Vec F S10240x16 .f32) (f13 : BufTy.Contents (Elt F) arg13.view.ty) (f15 : BufTy.Contents (Elt F) arg15.view.ty) (h : ¬ k3_cond22 i = 1#1) :
    (bodyRun3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15).2.2.1 = f13 := by
  rw [out_raw3 c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 x11 x12 x14 f13 f15, dif_neg h]

/-- At a core's first tile the accumulator is reset before anything reads it: what the tile before left does not matter. -/
theorem stepAcc3_first (i : grid3.Coords) (h : (i 1).val = 0) (x2 x3 : Vec F S1250 .i32) (x4 x5 : Vec F S256x1 .i32) (x6 : Vec F S10240x128 .f32)
    (x7 : Vec F S256x128 .f32) (x8 : Vec F S1x128 .f32)
    (x9 : Vec F S128x128 .f32) (x10 : Vec F S1x128 .f32)
    (x11 : Vec F S128x16 .f32) (x12 : Vec F S1x16 .f32) (x14 x14' : Vec F S10240x16 .f32) :
    stepAcc3 i x2 x3 x4 x5 x6 x7 x8 x9 x10 x11 x12 x14 = stepAcc3 i x2 x3 x4 x5 x6 x7 x8 x9 x10 x11 x12 x14' := by
  have hf : firstW3 i = 1#1 := by
    unfold firstW3
    rw [h]
    rfl
  have e : ∀ x : Vec F S10240x16 .f32, accReset3 i x = k3_pay2 := fun x => if_pos hf
  unfold stepAcc3
  rw [e x14, e x14']

end Cert.KernelIdeal.Gen

end
-- ==== Proof.RegionDataI3.lean ====
import proofs.«414286_j65627100283289_3_alg».proof.Proof.Gen.KernelIdeal.Launch
import proofs.«414286_j65627100283289_3_alg».proof.Proof.Gen.KernelIdeal.Skeleton
import proofs.«414286_j65627100283289_3_alg».proof.Proof.BodyI3
import proofs.«414286_j65627100283289_3_alg».proof.Proof.StepDefsI3
import proofs.«414286_j65627100283289_3_alg».proof.Proof.StepI3
import Idealize.ShloMosaic.Lib.Pipeline.Frame
import Idealize.ShloMosaic.Lib.Pipeline.FrameBody
import Idealize.ShloMosaic.Lib.Tactic

/-!
# Region 3's proof data and body obligation

Region 3 is the fourth EdgeConv layer's kernel: a grid of 2 cores × 625 tiles, two prefetched tables (each tile's lowest
and highest target chunk), ten windows (the tile's source and target columns, the padded node table, six parameter
blocks, and one output block per core) and two scratch buffers: the accumulator, carried from tile to tile within a
core, and the target rows, overwritten at every tile.

The proof data name what every staging buffer holds after the body at every point: an input its block; the output the
accumulator after the point, in the output's shape (read only at a core's last tile, where the block is written back;
at every other tile the body leaves the output's buffer as it found it). The invariant carries the accumulator at the
contents `accAt3 n`, the fold of the body's step `stepAcc3` over the points before `n`; the step at a core's first
tile does not read what it finds, so the fold's start is immaterial. The body's own run and the facts about what it
leaves come from the body's modules.

-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 3 (custom_call 0, pipeline 0): its proof data at the entry contents `V` and the tables' contents `a` -/

section Region3

-- the TensorCore's buffer contents when the region is entered, and the admissible contents of the two prefetched tables
variable (V : (c : Dev nD) → (b : Ref sig .tc) → Buf (Elt F) ((c : Thread nD τ).loc b))
variable (a : (pcfg3 (F := F)).Adm)

/-! ## The schedule: the staging memrefs at a point, and the body as the pipeline calls it -/

/-- Each window's current staging memref at point `t`, spelled as the pipeline passes it, and its wholeness. The index
    maps do not read the tables, so nothing here evaluates `a`. -/
abbrev ms3_0 (t : Fin (cfg3 a).N) := spec3_0.stage ((cfg3 a).slots t 0)
abbrev hs3_0 (t : Fin (cfg3 a).N) : (ms3_0 a t).IsWhole := hstage3_0 (((cfg3 a).slots t 0).cast nbuf3_0)
abbrev ms3_1 (t : Fin (cfg3 a).N) := spec3_1.stage ((cfg3 a).slots t 1)
abbrev hs3_1 (t : Fin (cfg3 a).N) : (ms3_1 a t).IsWhole := hstage3_1 (((cfg3 a).slots t 1).cast nbuf3_1)
abbrev ms3_2 (t : Fin (cfg3 a).N) := spec3_2.stage ((cfg3 a).slots t 2)
abbrev hs3_2 (t : Fin (cfg3 a).N) : (ms3_2 a t).IsWhole := hstage3_2 (((cfg3 a).slots t 2).cast nbuf3_2)
abbrev ms3_3 (t : Fin (cfg3 a).N) := spec3_3.stage ((cfg3 a).slots t 3)
abbrev hs3_3 (t : Fin (cfg3 a).N) : (ms3_3 a t).IsWhole := hstage3_3 (((cfg3 a).slots t 3).cast nbuf3_3)
abbrev ms3_4 (t : Fin (cfg3 a).N) := spec3_4.stage ((cfg3 a).slots t 4)
abbrev hs3_4 (t : Fin (cfg3 a).N) : (ms3_4 a t).IsWhole := hstage3_4 (((cfg3 a).slots t 4).cast nbuf3_4)
abbrev ms3_5 (t : Fin (cfg3 a).N) := spec3_5.stage ((cfg3 a).slots t 5)
abbrev hs3_5 (t : Fin (cfg3 a).N) : (ms3_5 a t).IsWhole := hstage3_5 (((cfg3 a).slots t 5).cast nbuf3_5)
abbrev ms3_6 (t : Fin (cfg3 a).N) := spec3_6.stage ((cfg3 a).slots t 6)
abbrev hs3_6 (t : Fin (cfg3 a).N) : (ms3_6 a t).IsWhole := hstage3_6 (((cfg3 a).slots t 6).cast nbuf3_6)
abbrev ms3_7 (t : Fin (cfg3 a).N) := spec3_7.stage ((cfg3 a).slots t 7)
abbrev hs3_7 (t : Fin (cfg3 a).N) : (ms3_7 a t).IsWhole := hstage3_7 (((cfg3 a).slots t 7).cast nbuf3_7)
abbrev ms3_8 (t : Fin (cfg3 a).N) := spec3_8.stage ((cfg3 a).slots t 8)
abbrev hs3_8 (t : Fin (cfg3 a).N) : (ms3_8 a t).IsWhole := hstage3_8 (((cfg3 a).slots t 8).cast nbuf3_8)
abbrev ms3_9 (t : Fin (cfg3 a).N) := spec3_9.stage ((cfg3 a).slots t 9)
abbrev hs3_9 (t : Fin (cfg3 a).N) : (ms3_9 a t).IsWhole := hstage3_9 (((cfg3 a).slots t 9).cast nbuf3_9)

/-- The body at point `t`: the two tables whole, the ten windows' current staging memrefs, the two scratch buffers whole. -/
abbrev bodyAt3 (t : Fin (cfg3 a).N) :=
  cc3__edgeconv_kernel (F := F) (grid3.coords t) (Memref.whole main_v31) (Memref.isWhole_whole _) (Memref.whole main_v39) (Memref.isWhole_whole _)
    (ms3_0 a t) (hs3_0 a t) (ms3_1 a t) (hs3_1 a t) (ms3_2 a t) (hs3_2 a t) (ms3_3 a t) (hs3_3 a t) (ms3_4 a t) (hs3_4 a t) (ms3_5 a t) (hs3_5 a t) (ms3_6 a t) (hs3_6 a t) (ms3_7 a t) (hs3_7 a t) (ms3_8 a t) (hs3_8 a t) (ms3_9 a t) (hs3_9 a t)
    (Memref.whole cc3_scratch0) (Memref.isWhole_whole _) (Memref.whole cc3_scratch1) (Memref.isWhole_whole _)

/-- It is what the body table runs at the pipeline's argument for the point. -/
theorem bodyAt3_eq (t : Fin (cfg3 a).N) :
    defs₀ (F := F) .tc (cfg3 a).body ((cfg3 a).bodyArgs t ((cfg3 a).slots t)) = bodyAt3 a t := rfl

/-- The output window is written back exactly where the body's last conditional fires: elsewhere no write-back. -/
theorem wbClosed3_9 : ∀ t : Fin grid3.N, k3_cond22 (grid3.coords t) = 1#1 ∨
    (t.val + 1 = grid3.N || decide (∃ h : t.val + 1 < grid3.N, cc3_transform_9 (grid3.coords ⟨t.val + 1, h⟩) ≠ cc3_transform_9 (grid3.coords t))) = false := by
  decide +kernel

theorem flushNot3_9 (t : Fin (cfg3 a).N) (h : ¬ k3_cond22 (grid3.coords t) = 1#1) : ((cfg3 a).win (9 : Fin 10)).flush t = false := by
  have := (wbClosed3_9 t).resolve_left h
  show (true && _) = false
  rw [Bool.true_and]; exact this

/-- Where the conditional fires the window is live, elsewhere idle. -/
theorem idleLive3_9 (t : Fin (cfg3 a).N) (h : k3_cond22 (grid3.coords t) = 1#1) : (cfg3 a).idle (9 : Fin 10) ((cfg3 a).grid.coords t) = false := by
  show (!(k3_cond22 (grid3.coords t) == 1#1)) = false
  rw [h]; rfl
theorem idleNot3_9 (t : Fin (cfg3 a).N) (h : ¬ k3_cond22 (grid3.coords t) = 1#1) : (cfg3 a).idle (9 : Fin 10) ((cfg3 a).grid.coords t) = true := by
  show (!(k3_cond22 (grid3.coords t) == 1#1)) = true
  rw [Bool.not_eq_true', beq_eq_false_iff_ne]; exact h

/-- At the first point of the grid the tile coordinate is zero. -/
theorem coords3_first (t : Fin (cfg3 a).N) (h : t.val = 0) : ((grid3.coords t) 1).val = 0 := by
  obtain ⟨n, hn⟩ := t
  simp only at h; subst h
  exact (by decide +kernel : ((grid3.coords (⟨0, by decide⟩ : Fin grid3.N)) 1).val = 0)

/-! ## The windows' blocks -/

/-- Window `w`'s block at point `t`, read off its array as the region finds it (`V`). -/
def iblk3 (c : Dev nD) (w : Fin (cfg3 a).W) (t : Fin (cfg3 a).N) : (((cfg3 a).win w).xblock ((cfg3 a).grid.coords t)).Idx → Elt F ((cfg3 a).win w).elt :=
  (((cfg3 a).win w).blk t).view.read (Elt F) (V c (Pipeline.arrRef spec3 w))

/-- An input window's current staging buffer holds its block at every point, fetched there or not, for ANY proof data
    whose array is `V`'s and whose body leaves the block in place: unfetched, the block index has not moved. -/
theorem before3_0_of {c : Dev nD} (dat : Dat τ (Elt F) Unit ℕ (Pipeline.UD sig nD τ) ℕ (cfg3 a) c) (hA : dat.A (0 : Fin 10) = V c (Pipeline.arrRef spec3 (0 : Fin 10)))
    (hafter : ∀ t, dat.after (0 : Fin 10) t = iblk3 V a c (0 : Fin 10) t) (t : Fin (cfg3 a).N) (d) : dat.before (0 : Fin 10) t d = iblk3 V a c (0 : Fin 10) t := by
  have hblk : ∀ t, dat.blockOf (0 : Fin 10) t = iblk3 V a c (0 : Fin 10) t := fun t => by unfold Dat.blockOf iblk3; rw [hA]
  have hkeep : ∀ t, ((cfg3 a).win (0 : Fin 10)).cut ((cfg3 a).grid.coords t) (dat.after (0 : Fin 10) t) = dat.blockOf (0 : Fin 10) t := fun t => by
    rw [hafter, hblk]
  rw [dat.before_in_eq_fetched (0 : Fin 10) rfl (fun _ => rfl) (fun _ _ _ => rfl) hkeep t d]
  show ((cfg3 a).win (0 : Fin 10)).fill _ d (dat.blockOf (0 : Fin 10) t) = _
  rw [hblk]; rfl
theorem before3_1_of {c : Dev nD} (dat : Dat τ (Elt F) Unit ℕ (Pipeline.UD sig nD τ) ℕ (cfg3 a) c) (hA : dat.A (1 : Fin 10) = V c (Pipeline.arrRef spec3 (1 : Fin 10)))
    (hafter : ∀ t, dat.after (1 : Fin 10) t = iblk3 V a c (1 : Fin 10) t) (t : Fin (cfg3 a).N) (d) : dat.before (1 : Fin 10) t d = iblk3 V a c (1 : Fin 10) t := by
  have hblk : ∀ t, dat.blockOf (1 : Fin 10) t = iblk3 V a c (1 : Fin 10) t := fun t => by unfold Dat.blockOf iblk3; rw [hA]
  have hkeep : ∀ t, ((cfg3 a).win (1 : Fin 10)).cut ((cfg3 a).grid.coords t) (dat.after (1 : Fin 10) t) = dat.blockOf (1 : Fin 10) t := fun t => by
    rw [hafter, hblk]
  rw [dat.before_in_eq_fetched (1 : Fin 10) rfl (fun _ => rfl) (fun _ _ _ => rfl) hkeep t d]
  show ((cfg3 a).win (1 : Fin 10)).fill _ d (dat.blockOf (1 : Fin 10) t) = _
  rw [hblk]; rfl
theorem before3_2_of {c : Dev nD} (dat : Dat τ (Elt F) Unit ℕ (Pipeline.UD sig nD τ) ℕ (cfg3 a) c) (hA : dat.A (2 : Fin 10) = V c (Pipeline.arrRef spec3 (2 : Fin 10)))
    (hafter : ∀ t, dat.after (2 : Fin 10) t = iblk3 V a c (2 : Fin 10) t) (t : Fin (cfg3 a).N) (d) : dat.before (2 : Fin 10) t d = iblk3 V a c (2 : Fin 10) t := by
  have hblk : ∀ t, dat.blockOf (2 : Fin 10) t = iblk3 V a c (2 : Fin 10) t := fun t => by unfold Dat.blockOf iblk3; rw [hA]
  have hkeep : ∀ t, ((cfg3 a).win (2 : Fin 10)).cut ((cfg3 a).grid.coords t) (dat.after (2 : Fin 10) t) = dat.blockOf (2 : Fin 10) t := fun t => by
    rw [hafter, hblk]
  rw [dat.before_in_eq_fetched (2 : Fin 10) rfl (fun _ => rfl) (fun _ _ _ => rfl) hkeep t d]
  show ((cfg3 a).win (2 : Fin 10)).fill _ d (dat.blockOf (2 : Fin 10) t) = _
  rw [hblk]; rfl
theorem before3_3_of {c : Dev nD} (dat : Dat τ (Elt F) Unit ℕ (Pipeline.UD sig nD τ) ℕ (cfg3 a) c) (hA : dat.A (3 : Fin 10) = V c (Pipeline.arrRef spec3 (3 : Fin 10)))
    (hafter : ∀ t, dat.after (3 : Fin 10) t = iblk3 V a c (3 : Fin 10) t) (t : Fin (cfg3 a).N) (d) : dat.before (3 : Fin 10) t d = iblk3 V a c (3 : Fin 10) t := by
  have hblk : ∀ t, dat.blockOf (3 : Fin 10) t = iblk3 V a c (3 : Fin 10) t := fun t => by unfold Dat.blockOf iblk3; rw [hA]
  have hkeep : ∀ t, ((cfg3 a).win (3 : Fin 10)).cut ((cfg3 a).grid.coords t) (dat.after (3 : Fin 10) t) = dat.blockOf (3 : Fin 10) t := fun t => by
    rw [hafter, hblk]
  rw [dat.before_in_eq_fetched (3 : Fin 10) rfl (fun _ => rfl) (fun _ _ _ => rfl) hkeep t d]
  show ((cfg3 a).win (3 : Fin 10)).fill _ d (dat.blockOf (3 : Fin 10) t) = _
  rw [hblk]; rfl
theorem before3_4_of {c : Dev nD} (dat : Dat τ (Elt F) Unit ℕ (Pipeline.UD sig nD τ) ℕ (cfg3 a) c) (hA : dat.A (4 : Fin 10) = V c (Pipeline.arrRef spec3 (4 : Fin 10)))
    (hafter : ∀ t, dat.after (4 : Fin 10) t = iblk3 V a c (4 : Fin 10) t) (t : Fin (cfg3 a).N) (d) : dat.before (4 : Fin 10) t d = iblk3 V a c (4 : Fin 10) t := by
  have hblk : ∀ t, dat.blockOf (4 : Fin 10) t = iblk3 V a c (4 : Fin 10) t := fun t => by unfold Dat.blockOf iblk3; rw [hA]
  have hkeep : ∀ t, ((cfg3 a).win (4 : Fin 10)).cut ((cfg3 a).grid.coords t) (dat.after (4 : Fin 10) t) = dat.blockOf (4 : Fin 10) t := fun t => by
    rw [hafter, hblk]
  rw [dat.before_in_eq_fetched (4 : Fin 10) rfl (fun _ => rfl) (fun _ _ _ => rfl) hkeep t d]
  show ((cfg3 a).win (4 : Fin 10)).fill _ d (dat.blockOf (4 : Fin 10) t) = _
  rw [hblk]; rfl
theorem before3_5_of {c : Dev nD} (dat : Dat τ (Elt F) Unit ℕ (Pipeline.UD sig nD τ) ℕ (cfg3 a) c) (hA : dat.A (5 : Fin 10) = V c (Pipeline.arrRef spec3 (5 : Fin 10)))
    (hafter : ∀ t, dat.after (5 : Fin 10) t = iblk3 V a c (5 : Fin 10) t) (t : Fin (cfg3 a).N) (d) : dat.before (5 : Fin 10) t d = iblk3 V a c (5 : Fin 10) t := by
  have hblk : ∀ t, dat.blockOf (5 : Fin 10) t = iblk3 V a c (5 : Fin 10) t := fun t => by unfold Dat.blockOf iblk3; rw [hA]
  have hkeep : ∀ t, ((cfg3 a).win (5 : Fin 10)).cut ((cfg3 a).grid.coords t) (dat.after (5 : Fin 10) t) = dat.blockOf (5 : Fin 10) t := fun t => by
    rw [hafter, hblk]
  rw [dat.before_in_eq_fetched (5 : Fin 10) rfl (fun _ => rfl) (fun _ _ _ => rfl) hkeep t d]
  show ((cfg3 a).win (5 : Fin 10)).fill _ d (dat.blockOf (5 : Fin 10) t) = _
  rw [hblk]; rfl
theorem before3_6_of {c : Dev nD} (dat : Dat τ (Elt F) Unit ℕ (Pipeline.UD sig nD τ) ℕ (cfg3 a) c) (hA : dat.A (6 : Fin 10) = V c (Pipeline.arrRef spec3 (6 : Fin 10)))
    (hafter : ∀ t, dat.after (6 : Fin 10) t = iblk3 V a c (6 : Fin 10) t) (t : Fin (cfg3 a).N) (d) : dat.before (6 : Fin 10) t d = iblk3 V a c (6 : Fin 10) t := by
  have hblk : ∀ t, dat.blockOf (6 : Fin 10) t = iblk3 V a c (6 : Fin 10) t := fun t => by unfold Dat.blockOf iblk3; rw [hA]
  have hkeep : ∀ t, ((cfg3 a).win (6 : Fin 10)).cut ((cfg3 a).grid.coords t) (dat.after (6 : Fin 10) t) = dat.blockOf (6 : Fin 10) t := fun t => by
    rw [hafter, hblk]
  rw [dat.before_in_eq_fetched (6 : Fin 10) rfl (fun _ => rfl) (fun _ _ _ => rfl) hkeep t d]
  show ((cfg3 a).win (6 : Fin 10)).fill _ d (dat.blockOf (6 : Fin 10) t) = _
  rw [hblk]; rfl
theorem before3_7_of {c : Dev nD} (dat : Dat τ (Elt F) Unit ℕ (Pipeline.UD sig nD τ) ℕ (cfg3 a) c) (hA : dat.A (7 : Fin 10) = V c (Pipeline.arrRef spec3 (7 : Fin 10)))
    (hafter : ∀ t, dat.after (7 : Fin 10) t = iblk3 V a c (7 : Fin 10) t) (t : Fin (cfg3 a).N) (d) : dat.before (7 : Fin 10) t d = iblk3 V a c (7 : Fin 10) t := by
  have hblk : ∀ t, dat.blockOf (7 : Fin 10) t = iblk3 V a c (7 : Fin 10) t := fun t => by unfold Dat.blockOf iblk3; rw [hA]
  have hkeep : ∀ t, ((cfg3 a).win (7 : Fin 10)).cut ((cfg3 a).grid.coords t) (dat.after (7 : Fin 10) t) = dat.blockOf (7 : Fin 10) t := fun t => by
    rw [hafter, hblk]
  rw [dat.before_in_eq_fetched (7 : Fin 10) rfl (fun _ => rfl) (fun _ _ _ => rfl) hkeep t d]
  show ((cfg3 a).win (7 : Fin 10)).fill _ d (dat.blockOf (7 : Fin 10) t) = _
  rw [hblk]; rfl
theorem before3_8_of {c : Dev nD} (dat : Dat τ (Elt F) Unit ℕ (Pipeline.UD sig nD τ) ℕ (cfg3 a) c) (hA : dat.A (8 : Fin 10) = V c (Pipeline.arrRef spec3 (8 : Fin 10)))
    (hafter : ∀ t, dat.after (8 : Fin 10) t = iblk3 V a c (8 : Fin 10) t) (t : Fin (cfg3 a).N) (d) : dat.before (8 : Fin 10) t d = iblk3 V a c (8 : Fin 10) t := by
  have hblk : ∀ t, dat.blockOf (8 : Fin 10) t = iblk3 V a c (8 : Fin 10) t := fun t => by unfold Dat.blockOf iblk3; rw [hA]
  have hkeep : ∀ t, ((cfg3 a).win (8 : Fin 10)).cut ((cfg3 a).grid.coords t) (dat.after (8 : Fin 10) t) = dat.blockOf (8 : Fin 10) t := fun t => by
    rw [hafter, hblk]
  rw [dat.before_in_eq_fetched (8 : Fin 10) rfl (fun _ => rfl) (fun _ _ _ => rfl) hkeep t d]
  show ((cfg3 a).win (8 : Fin 10)).fill _ d (dat.blockOf (8 : Fin 10) t) = _
  rw [hblk]; rfl

/-! ## The accumulator, point by point -/

/-- The two tables' contents as the body reads them. -/
abbrev tab3_0 : Vec F S1250 .i32 := a.1 0
abbrev tab3_1 : Vec F S1250 .i32 := a.1 1

/-- The accumulator before point `n` (after point `n - 1`): anything before the first point, then one body step per
    point over the point's blocks and what the point before left. -/
def accAt3 (c : Dev nD) : ℕ → Vec F S10240x16 .f32
  | 0 => (Memref.whole cc3_scratch0).view.read (Elt F) (V c cc3_scratch0)
  | n + 1 =>
    if h : n < (cfg3 a).N then
      stepAcc3 (grid3.coords ⟨n, h⟩) (tab3_0 a) (tab3_1 a) (iblk3 V a c (0 : Fin 10) ⟨n, h⟩) (iblk3 V a c (1 : Fin 10) ⟨n, h⟩) (iblk3 V a c (2 : Fin 10) ⟨n, h⟩) (iblk3 V a c (3 : Fin 10) ⟨n, h⟩) (iblk3 V a c (4 : Fin 10) ⟨n, h⟩) (iblk3 V a c (5 : Fin 10) ⟨n, h⟩) (iblk3 V a c (6 : Fin 10) ⟨n, h⟩) (iblk3 V a c (7 : Fin 10) ⟨n, h⟩) (iblk3 V a c (8 : Fin 10) ⟨n, h⟩) (accAt3 c n)
    else accAt3 c n

theorem accAt3_succ (c : Dev nD) (t : Fin (cfg3 a).N) :
    accAt3 V a c (t.val + 1)
      = stepAcc3 (grid3.coords t) (tab3_0 a) (tab3_1 a) (iblk3 V a c (0 : Fin 10) t) (iblk3 V a c (1 : Fin 10) t) (iblk3 V a c (2 : Fin 10) t) (iblk3 V a c (3 : Fin 10) t) (iblk3 V a c (4 : Fin 10) t) (iblk3 V a c (5 : Fin 10) t) (iblk3 V a c (6 : Fin 10) t) (iblk3 V a c (7 : Fin 10) t) (iblk3 V a c (8 : Fin 10) t) (accAt3 V a c t.val) := by
  obtain ⟨n, hn⟩ := t
  exact dif_pos hn

/-! ## The invariant and the proof data -/

/-- The invariant before point `n`: the two tables held whole at `a`; the accumulator scratch at some contents, which
    after the first point are `accAt3 n`; the target-row scratch at anything; every other scoped buffer that is no
    staging buffer, unopened; the generator register at some state. -/
def Phi3 (c : Dev nD) (n : ℕ) : sProp 𝕄 :=
  iprop(Pipeline.prefHeld pre3 c (fun _ => fullShare) a.1
    ∗ (∃ x14 : Vec F S10240x16 .f32, ⌜n ≠ 0 → x14 = accAt3 V a c n⌝ ∗ owns (c : Thread nD τ) (Memref.whole cc3_scratch0) fullShare x14)
    ∗ (∃ d, owns (c : Thread nD τ) (Memref.whole cc3_scratch1) fullShare d)
    ∗ Pipeline.scopedRestBut spec3 c [cc3_scratch0, cc3_scratch1]
    ∗ (∃ r, prngReg c r))

/-- The proof data of pipeline 0 on core `c`: the arrays as the region finds them (`V`); after the body at point `t` each
    input's buffer at its block and the output's at the accumulator after the point, cast to the output's shape (read only
    where the block is written back); the invariant `Phi3`; nothing owed; full shares. -/
def dat3 (c : Dev nD) : Dat τ (Elt F) Unit ℕ (Pipeline.UD sig nD τ) ℕ (cfg3 a) c where
  A w := V c (Pipeline.arrRef spec3 w)
  after w t := match w with
    | ⟨0, _⟩ => iblk3 V a c (0 : Fin 10) t
    | ⟨1, _⟩ => iblk3 V a c (1 : Fin 10) t
    | ⟨2, _⟩ => iblk3 V a c (2 : Fin 10) t
    | ⟨3, _⟩ => iblk3 V a c (3 : Fin 10) t
    | ⟨4, _⟩ => iblk3 V a c (4 : Fin 10) t
    | ⟨5, _⟩ => iblk3 V a c (5 : Fin 10) t
    | ⟨6, _⟩ => iblk3 V a c (6 : Fin 10) t
    | ⟨7, _⟩ => iblk3 V a c (7 : Fin 10) t
    | ⟨8, _⟩ => iblk3 V a c (8 : Fin 10) t
    | ⟨9, _⟩ => k3_pay1 (accAt3 V a c (t.val + 1))
  Φ t := Phi3 V a c t.val
  q _ := fullShare
  owed _ := 0

theorem A_eq3 (c : Dev nD) (w : Fin (cfg3 a).W) : (dat3 V a c).A w = V c (Pipeline.arrRef spec3 w) := by
  dsimp only [dat3]

theorem after3_0 (c : Dev nD) (t : Fin (cfg3 a).N) : (dat3 V a c).after (0 : Fin 10) t = iblk3 V a c (0 : Fin 10) t := by dsimp only [dat3]
theorem after3_1 (c : Dev nD) (t : Fin (cfg3 a).N) : (dat3 V a c).after (1 : Fin 10) t = iblk3 V a c (1 : Fin 10) t := by dsimp only [dat3]
theorem after3_2 (c : Dev nD) (t : Fin (cfg3 a).N) : (dat3 V a c).after (2 : Fin 10) t = iblk3 V a c (2 : Fin 10) t := by dsimp only [dat3]
theorem after3_3 (c : Dev nD) (t : Fin (cfg3 a).N) : (dat3 V a c).after (3 : Fin 10) t = iblk3 V a c (3 : Fin 10) t := by dsimp only [dat3]
theorem after3_4 (c : Dev nD) (t : Fin (cfg3 a).N) : (dat3 V a c).after (4 : Fin 10) t = iblk3 V a c (4 : Fin 10) t := by dsimp only [dat3]
theorem after3_5 (c : Dev nD) (t : Fin (cfg3 a).N) : (dat3 V a c).after (5 : Fin 10) t = iblk3 V a c (5 : Fin 10) t := by dsimp only [dat3]
theorem after3_6 (c : Dev nD) (t : Fin (cfg3 a).N) : (dat3 V a c).after (6 : Fin 10) t = iblk3 V a c (6 : Fin 10) t := by dsimp only [dat3]
theorem after3_7 (c : Dev nD) (t : Fin (cfg3 a).N) : (dat3 V a c).after (7 : Fin 10) t = iblk3 V a c (7 : Fin 10) t := by dsimp only [dat3]
theorem after3_8 (c : Dev nD) (t : Fin (cfg3 a).N) : (dat3 V a c).after (8 : Fin 10) t = iblk3 V a c (8 : Fin 10) t := by dsimp only [dat3]
theorem after3_9 (c : Dev nD) (t : Fin (cfg3 a).N) : (dat3 V a c).after (9 : Fin 10) t = k3_pay1 (accAt3 V a c (t.val + 1)) := by dsimp only [dat3]

theorem before3_0 (c : Dev nD) (t : Fin (cfg3 a).N) (d) : (dat3 V a c).before (0 : Fin 10) t d = iblk3 V a c (0 : Fin 10) t :=
  before3_0_of V a (dat3 V a c) (A_eq3 V a c (0 : Fin 10)) (after3_0 V a c) t d
theorem before3_1 (c : Dev nD) (t : Fin (cfg3 a).N) (d) : (dat3 V a c).before (1 : Fin 10) t d = iblk3 V a c (1 : Fin 10) t :=
  before3_1_of V a (dat3 V a c) (A_eq3 V a c (1 : Fin 10)) (after3_1 V a c) t d
theorem before3_2 (c : Dev nD) (t : Fin (cfg3 a).N) (d) : (dat3 V a c).before (2 : Fin 10) t d = iblk3 V a c (2 : Fin 10) t :=
  before3_2_of V a (dat3 V a c) (A_eq3 V a c (2 : Fin 10)) (after3_2 V a c) t d
theorem before3_3 (c : Dev nD) (t : Fin (cfg3 a).N) (d) : (dat3 V a c).before (3 : Fin 10) t d = iblk3 V a c (3 : Fin 10) t :=
  before3_3_of V a (dat3 V a c) (A_eq3 V a c (3 : Fin 10)) (after3_3 V a c) t d
theorem before3_4 (c : Dev nD) (t : Fin (cfg3 a).N) (d) : (dat3 V a c).before (4 : Fin 10) t d = iblk3 V a c (4 : Fin 10) t :=
  before3_4_of V a (dat3 V a c) (A_eq3 V a c (4 : Fin 10)) (after3_4 V a c) t d
theorem before3_5 (c : Dev nD) (t : Fin (cfg3 a).N) (d) : (dat3 V a c).before (5 : Fin 10) t d = iblk3 V a c (5 : Fin 10) t :=
  before3_5_of V a (dat3 V a c) (A_eq3 V a c (5 : Fin 10)) (after3_5 V a c) t d
theorem before3_6 (c : Dev nD) (t : Fin (cfg3 a).N) (d) : (dat3 V a c).before (6 : Fin 10) t d = iblk3 V a c (6 : Fin 10) t :=
  before3_6_of V a (dat3 V a c) (A_eq3 V a c (6 : Fin 10)) (after3_6 V a c) t d
theorem before3_7 (c : Dev nD) (t : Fin (cfg3 a).N) (d) : (dat3 V a c).before (7 : Fin 10) t d = iblk3 V a c (7 : Fin 10) t :=
  before3_7_of V a (dat3 V a c) (A_eq3 V a c (7 : Fin 10)) (after3_7 V a c) t d
theorem before3_8 (c : Dev nD) (t : Fin (cfg3 a).N) (d) : (dat3 V a c).before (8 : Fin 10) t d = iblk3 V a c (8 : Fin 10) t :=
  before3_8_of V a (dat3 V a c) (A_eq3 V a c (8 : Fin 10)) (after3_8 V a c) t d

theorem Phi3_castSucc (c : Dev nD) (t : Fin (cfg3 a).N) : (dat3 V a c).Φ t.castSucc = Phi3 V a c t.val := by
  dsimp only [dat3]; simp only [Fin.coe_castSucc]
theorem Phi3_succ (c : Dev nD) (t : Fin (cfg3 a).N) : (dat3 V a c).Φ t.succ = Phi3 V a c (t.val + 1) := by
  dsimp only [dat3]; simp only [Fin.val_succ]

/-! ## The body's run at a point -/

/-- The body's run at point `t`: the tables, the point's staging memrefs and blocks, the two scratch buffers; over the
    accumulator's contents `x14` and the raw contents `f13`, `f15` of the two buffers it is handed at anything. -/
abbrev run3 (c : Dev nD) (t : Fin (cfg3 a).N) (x14 : Vec F S10240x16 .f32)
    (f13 : BufTy.Contents (Elt F) (ms3_9 a t).view.ty) (f15 : BufTy.Contents (Elt F) (Memref.whole cc3_scratch1 : Memref sig .tc _ _ _).view.ty) :=
  bodyRun3 (F := F) c (grid3.coords t) (Memref.whole main_v31) (Memref.isWhole_whole _) (Memref.whole main_v39) (Memref.isWhole_whole _) (ms3_0 a t) (hs3_0 a t) (ms3_1 a t) (hs3_1 a t) (ms3_2 a t) (hs3_2 a t) (ms3_3 a t) (hs3_3 a t) (ms3_4 a t) (hs3_4 a t) (ms3_5 a t) (hs3_5 a t) (ms3_6 a t) (hs3_6 a t) (ms3_7 a t) (hs3_7 a t) (ms3_8 a t) (hs3_8 a t) (ms3_9 a t) (hs3_9 a t) (Memref.whole cc3_scratch0) (Memref.isWhole_whole _) (Memref.whole cc3_scratch1) (Memref.isWhole_whole _) (tab3_0 a) (tab3_1 a) (iblk3 V a c (0 : Fin 10) t) (iblk3 V a c (1 : Fin 10) t) (iblk3 V a c (2 : Fin 10) t) (iblk3 V a c (3 : Fin 10) t) (iblk3 V a c (4 : Fin 10) t) (iblk3 V a c (5 : Fin 10) t) (iblk3 V a c (6 : Fin 10) t) (iblk3 V a c (7 : Fin 10) t) (iblk3 V a c (8 : Fin 10) t) x14 f13 f15

/-- One step from what the invariant knows of the accumulator lands on the next named contents: at the first point the
    step does not read what it finds. -/
theorem acc3_step (c : Dev nD) (t : Fin (cfg3 a).N) (x14 : Vec F S10240x16 .f32)
    (hx : t.val ≠ 0 → x14 = accAt3 V a c t.val) :
    stepAcc3 (grid3.coords t) (tab3_0 a) (tab3_1 a) (iblk3 V a c (0 : Fin 10) t) (iblk3 V a c (1 : Fin 10) t) (iblk3 V a c (2 : Fin 10) t) (iblk3 V a c (3 : Fin 10) t) (iblk3 V a c (4 : Fin 10) t) (iblk3 V a c (5 : Fin 10) t) (iblk3 V a c (6 : Fin 10) t) (iblk3 V a c (7 : Fin 10) t) (iblk3 V a c (8 : Fin 10) t) x14 = accAt3 V a c (t.val + 1) := by
  rw [accAt3_succ]
  by_cases h0 : t.val = 0
  · exact stepAcc3_first _ (coords3_first a t h0) _ _ _ _ _ _ _ _ _ _ _ _ _
  · rw [hx h0]

/-- What the body leaves in the output's staging buffer is what the obligation asks of it: where the block is written
    back, the accumulator after the point in the output's shape; elsewhere, the buffer as it was found. -/
theorem leaves3_9 (c : Dev nD) (t : Fin (cfg3 a).N) (x14 : Vec F S10240x16 .f32)
    (hx : t.val ≠ 0 → x14 = accAt3 V a c t.val) (d9) (f13 : BufTy.Contents (Elt F) (ms3_9 a t).view.ty)
    (hf13 : (ms3_9 a t).view.read (Elt F) f13 = (dat3 V a c).before (9 : Fin 10) t d9) (f15) :
    ((ms3_9 a t).view.loc (c : Thread nD τ) ↦[(ms3_9 a t).view.set]{fullShare} (run3 V a c t x14 f13 f15).2.2.1 : sProp 𝕄)
      ⊢ (dat3 V a c).leavesExact (9 : Fin 10) t := by
  by_cases hc : k3_cond22 (grid3.coords t) = 1#1
  · have hlive : (dat3 V a c).leavesExact (9 : Fin 10) t = owns (c : Thread nD τ) (ms3_9 a t) fullShare ((dat3 V a c).after (9 : Fin 10) t) := by
      unfold Dat.leavesExact; rw [idleLive3_9 a t hc]
    rw [hlive, after3_9]
    unfold owns
    iintro H; iexists _; isplitr
    swap; · iexact H
    ipureintro
    exact (bodyRun3_out_flush _ _ _ _ _ _ _ _ _ _ _ _ _ _ _ _ _ _ _ _ _ _ _ _ _ _ _ _ _ _ _ _ _ _ _ _ _ _ _ _ _ _ _ _ hc).trans (congrArg k3_pay1 (acc3_step V a c t x14 hx))
  · rw [Dat.leavesExact_idle _ (9 : Fin 10) t (idleNot3_9 a t hc) (flushNot3_9 a t hc),
      show (run3 V a c t x14 f13 f15).2.2.1 = f13 from bodyRun3_out_idle _ _ _ _ _ _ _ _ _ _ _ _ _ _ _ _ _ _ _ _ _ _ _ _ _ _ _ _ _ _ _ _ _ _ _ _ _ _ _ _ _ _ _ _ hc]
    unfold owns
    iintro H; iexists d9, f13; isplitr
    · ipureintro; exact hf13
    iexact H

/-- Owning a memref at contents `X` is holding its elements at some raw contents that read `X`. -/
theorem owns_open3 (c : Dev nD) {sp : Space} {sh : Shape} {e : EltTy} (M : Memref sig .tc sp sh e) (X : sh.Idx → Elt F e) :
    (owns (c : Thread nD τ) M fullShare X : sProp 𝕄)
      ⊢ iprop(∃ f, ⌜M.view.read (Elt F) f = X⌝ ∗ (M.view.loc (c : Thread nD τ) ↦[M.view.set]{fullShare} f)) := by
  unfold owns; exact .rfl

/-- The tables held whole are the body's two table arguments owned at their contents. -/
theorem prefHeld3_eq (c : Dev nD) :
    (Pipeline.prefHeld pre3 c (fun _ => fullShare) a.1 : sProp 𝕄)
      = iprop(owns (c : Thread nD τ) (Memref.whole main_v31) fullShare (tab3_0 a) ∗ owns (c : Thread nD τ) (Memref.whole main_v39) fullShare (tab3_1 a)) := by
  unfold Pipeline.prefHeld
  rw [bigSep_univ_eq_bigSepL [(0 : Fin 2), (1 : Fin 2)] (by decide) (by decide), owns_whole, owns_whole]
  rfl

/-! ## The body obligation, at a generic point -/

/-- What the body is called with at point `t` (the windows one by one), -/
def bodyPre3 (c : Dev nD) (t : Fin (cfg3 a).N) : sProp 𝕄 :=
  iprop((dat3 V a c).Φ t.castSucc ∗ (dat3 V a c).owesAt () t.castSucc
    ∗ (∃ d, owns (c : Thread nD τ) (ms3_0 a t) fullShare ((dat3 V a c).before (0 : Fin 10) t d))
    ∗ (∃ d, owns (c : Thread nD τ) (ms3_1 a t) fullShare ((dat3 V a c).before (1 : Fin 10) t d))
    ∗ (∃ d, owns (c : Thread nD τ) (ms3_2 a t) fullShare ((dat3 V a c).before (2 : Fin 10) t d))
    ∗ (∃ d, owns (c : Thread nD τ) (ms3_3 a t) fullShare ((dat3 V a c).before (3 : Fin 10) t d))
    ∗ (∃ d, owns (c : Thread nD τ) (ms3_4 a t) fullShare ((dat3 V a c).before (4 : Fin 10) t d))
    ∗ (∃ d, owns (c : Thread nD τ) (ms3_5 a t) fullShare ((dat3 V a c).before (5 : Fin 10) t d))
    ∗ (∃ d, owns (c : Thread nD τ) (ms3_6 a t) fullShare ((dat3 V a c).before (6 : Fin 10) t d))
    ∗ (∃ d, owns (c : Thread nD τ) (ms3_7 a t) fullShare ((dat3 V a c).before (7 : Fin 10) t d))
    ∗ (∃ d, owns (c : Thread nD τ) (ms3_8 a t) fullShare ((dat3 V a c).before (8 : Fin 10) t d))
    ∗ (∃ d, owns (c : Thread nD τ) (ms3_9 a t) fullShare ((dat3 V a c).before (9 : Fin 10) t d)))

/-- and what it returns: each input's buffer at its block; the output's as the obligation states it, live or idle. -/
def bodyPost3 (c : Dev nD) (t : Fin (cfg3 a).N) : sProp 𝕄 :=
  iprop((dat3 V a c).Φ t.succ ∗ (dat3 V a c).owesAt () t.succ
    ∗ owns (c : Thread nD τ) (ms3_0 a t) fullShare ((dat3 V a c).after (0 : Fin 10) t)
    ∗ owns (c : Thread nD τ) (ms3_1 a t) fullShare ((dat3 V a c).after (1 : Fin 10) t)
    ∗ owns (c : Thread nD τ) (ms3_2 a t) fullShare ((dat3 V a c).after (2 : Fin 10) t)
    ∗ owns (c : Thread nD τ) (ms3_3 a t) fullShare ((dat3 V a c).after (3 : Fin 10) t)
    ∗ owns (c : Thread nD τ) (ms3_4 a t) fullShare ((dat3 V a c).after (4 : Fin 10) t)
    ∗ owns (c : Thread nD τ) (ms3_5 a t) fullShare ((dat3 V a c).after (5 : Fin 10) t)
    ∗ owns (c : Thread nD τ) (ms3_6 a t) fullShare ((dat3 V a c).after (6 : Fin 10) t)
    ∗ owns (c : Thread nD τ) (ms3_7 a t) fullShare ((dat3 V a c).after (7 : Fin 10) t)
    ∗ owns (c : Thread nD τ) (ms3_8 a t) fullShare ((dat3 V a c).after (8 : Fin 10) t)
    ∗ (dat3 V a c).leavesExact (9 : Fin 10) t)

set_option maxHeartbeats 1600000 in
/-- The body at any point. The invariant hands it the two tables, the accumulator (at the named contents after the
    first point) and the target-row scratch; each input's memref holds its block; the output's holds anything. The run
    applies; the accumulator comes back one step on, the inputs and tables as they were, the output's buffer as the
    obligation states it; the core's `owes` passes through unread. -/
theorem sound_body3 (c : Dev nD) (t : Fin (cfg3 a).N) :
    bodyPre3 V a c t ⊢ wp frame (wpE (defs₀ (F := F)) Variants.none c none) Set.univ (bodyAt3 a t) (fun _ => bodyPost3 V a c t) := by
  unfold bodyPre3 bodyPost3
  simp only [before3_0, before3_1, before3_2, before3_3, before3_4, before3_5, before3_6, before3_7, before3_8]
  rw [Phi3_castSucc, Phi3_succ, show (dat3 V a c).owesAt () t.succ = (dat3 V a c).owesAt () t.castSucc from rfl,
    after3_0, after3_1, after3_2, after3_3, after3_4, after3_5, after3_6, after3_7, after3_8]
  unfold Phi3
  rw [prefHeld3_eq]
  iintro ⟨⟨⟨HT0, HT1⟩, ⟨%x14, %hx14, H14⟩, ⟨%d15, H15⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave H9' := (owns_open3 c (ms3_9 a t) _) $$ H9
  icases H9' with ⟨%f13, %hf13, H13⟩
  ihave H15' := (owns_open3 c (Memref.whole cc3_scratch1) _) $$ H15
  icases H15' with ⟨%f15, -, H15⟩
  iapply ((run3 V a c t x14 f13 f15).2.2.2 Set.univ _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H13]; · iexact H13
  isplitl [H14]; · iexact H14
  isplitl [H15]; · iexact H15
  iintro ⟨HT0, HT1, H0, H1, H2, H3, H4, H5, H6, H7, H8, H13, H14, H15⟩
  isplitl [HT0 HT1 H14 H15 HR Hg]
  · isplitl [HT0 HT1]
    · isplitl [HT0]; · iexact HT0
      iexact HT1
    isplitl [H14]
    · iexists _; isplitr; · ipureintro; exact fun _ => rfl
      unfold owns; iexists _; isplitr
      swap; · iexact H14
      ipureintro
      exact (bodyRun3_acc _ _ _ _ _ _ _ _ _ _ _ _ _ _ _ _ _ _ _ _ _ _ _ _ _ _ _ _ _ _ _ _ _ _ _ _ _ _ _ _ _ _ _ _).trans (acc3_step V a c t x14 hx14)
    isplitl [H15]
    · iexists _; unfold owns; iexists _; isplitr
      swap; · iexact H15
      ipureintro; rfl
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (leaves3_9 V a c t x14 hx14 d9 f13 hf13 f15)
  iexact H13

/-- The library's body obligation, at every point. -/
theorem body_obligation3 (c : Dev nD) : BodyObligation (dat3 (F := F) V a c) (defs₀ (F := F)) Variants.none () Set.univ := fun t => by
  rw [bigSep_W3, bigSep_W3]
  exact sound_body3 V a c t

end Region3

end Cert.KernelIdeal.Gen

end
-- ==== Proof.RegionI3.lean ====
import proofs.«414286_j65627100283289_3_alg».proof.Proof.RegionDataI3
import proofs.«414286_j65627100283289_3_alg».proof.Proof.Gen.KernelIdeal.Regions
import proofs.«414286_j65627100283289_3_alg».proof.Proof.FrameDefsI
import Idealize.ShloMosaic.Lib.Pipeline.RegionsLoop
import Idealize.ShloMosaic.Lib.Pipeline.FrameSuffix

/-!
# Region 3 as a segment of the program

On entry the region's arrays and its two tables are separated from the other unscoped buffers; the tables, the scoped
buffers that are no staging buffer and the generator register make the invariant before the first point. On exit the
invariant gives them back and the arrays are joined with the other buffers again, the output's array at what the
write-backs made of it. Nothing is owed at any point and the kernel has no semaphore of its own.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 3 as a segment of the program -/

section Seg3

variable (m : (ℓ : Loc nD τ sig) → Buf (Elt F) ℓ) (outs : Outs (F := F))

/-- The unscoped buffers' contents on core `c` when region 3 is entered, and when it is left. -/
abbrev Win3 : Dev nD → Valuation τ sig (Elt F) := fun c => V17 m outs c
abbrev Wout3 : Dev nD → Valuation τ sig (Elt F) := fun c => V18 m outs c
/-- The contents of the TensorCore's buffers when region 3 is entered, that is, after the host operations that precede it. -/
abbrev Vin3 : (c : Dev nD) → (b : Ref sig .tc) → Buf (Elt F) ((c : Thread nD τ).loc b) := fun c b => V17 m outs c b
/-- Their contents when the region is left: as entered, except the output's array, which holds what the region leaves in it. -/
abbrev Vout3 : (c : Dev nD) → (b : Ref sig .tc) → Buf (Elt F) ((c : Thread nD τ).loc b) := fun c b => V18 m outs c b

-- the tables' contents of all four pipelines, the family of proof data, and what ties region 3's members to this module
variable (a : (p : Fin 4) → (pcfgs (F := F) p).Adm)
variable (pdats : (p : Fin 4) → (c : Dev nD) → Dat τ (Elt F) Unit ℕ (Pipeline.UD sig nD τ) ℕ (Pipeline.pin (pcfgs (F := F)) a p) c)
-- the family's member at region 3 is this module's proof data, at the entry contents and region 3's tables
variable (hd3 : ∀ c, pdats 3 c = dat3 (Vin3 m outs) (a 3) c)
-- the tables' admissible contents are what the tables hold when the region is entered
variable (hpf3 : ∀ c : Dev nD, (fun k => Vin3 m outs c (pre3.ref k)) = (a 3).1)
-- what the region leaves in its output's array is what its write-backs make of it
variable (houts3 : ∀ c : Dev nD, outs 18 main_v67 c = (dat3 (Vin3 m outs) (a 3) c).arrAt (9 : Fin 10) (cfg3 (a 3)).N)

/-- The invariant with the two scratch buffers as plain points-tos. -/
theorem Phi3_eq (V : (c : Dev nD) → (b : Ref sig .tc) → Buf (Elt F) ((c : Thread nD τ).loc b)) (a0 : (pcfg3 (F := F)).Adm) (c : Dev nD) (n : ℕ) :
    Phi3 V a0 c n = iprop(Pipeline.prefHeld pre3 c (fun _ => fullShare) a0.1
      ∗ (∃ x14 : Vec F S10240x16 .f32, ⌜n ≠ 0 → x14 = accAt3 V a0 c n⌝ ∗ (((c : Thread nD τ).loc cc3_scratch0) ↦{fullShare} x14))
      ∗ (∃ d : Buf (Elt F) ((c : Thread nD τ).loc cc3_scratch1), ((c : Thread nD τ).loc cc3_scratch1) ↦{fullShare} d)
      ∗ Pipeline.scopedRestBut spec3 c [cc3_scratch0, cc3_scratch1]
      ∗ (∃ r, prngReg c r)) := by
  unfold Phi3; simp only [owns_whole]

/-- Entering: the tables, the scoped rest and the generator register make the invariant before the first point. -/
theorem hin3 (V : (c : Dev nD) → (b : Ref sig .tc) → Buf (Elt F) ((c : Thread nD τ).loc b)) (a0 : (pcfg3 (F := F)).Adm) (c : Dev nD) :
    iprop((∃ r, prngReg c r) ∗ Pipeline.prefHeld pre3 c (fun _ => fullShare) a0.1 ∗ Pipeline.scopedRest spec3 c)
      ⊢ (Phi3 V a0 c 0 : sProp 𝕄) := by
  rw [Phi3_eq, scopedRest3_split]
  iintro ⟨Hg, Hpf, ⟨⟨%f0, H0⟩, H1⟩, HR⟩
  isplitl [Hpf]; · iexact Hpf
  isplitl [H0]
  · iexists f0; isplitr; · ipureintro; exact fun h => absurd rfl h
    iexact H0
  isplitl [H1]; · iexact H1
  isplitl [HR]; · iexact HR
  iexact Hg

/-- Leaving: the invariant gives the register and the tables back, and the scoped rest with the scratch at anything. -/
theorem hout3 (V : (c : Dev nD) → (b : Ref sig .tc) → Buf (Elt F) ((c : Thread nD τ).loc b)) (a0 : (pcfg3 (F := F)).Adm) (c : Dev nD) (n : ℕ) :
    (Phi3 V a0 c n : sProp 𝕄)
      ⊢ iprop(((∃ r, prngReg c r) ∗ Pipeline.prefHeld pre3 c (fun _ => fullShare) a0.1) ∗ Pipeline.scopedRest spec3 c) := by
  rw [Phi3_eq, scopedRest3_split]
  iintro ⟨Hpf, ⟨%x14, -, H0⟩, H1, HR, Hg⟩
  isplitl [Hg Hpf]
  · isplitl [Hg]; · iexact Hg
    iexact Hpf
  isplitl [H0 H1]
  · isplitl [H0]; · iexists x14; iexact H0
    iexact H1
  iexact HR

/-- Every window but the last is an input, and no input's array is the output's. -/
theorem inputs3 : ∀ w : Fin 10, w ≠ (9 : Fin 10) → (spec3 w).isOut = false ∧ Pipeline.arrRef spec3 w ∉ ([main_v67] : List (Ref sig .tc)) := by
  decide

/-- At the region's exit each of its arrays holds what the pipeline leaves: an input its entry contents, the output what
    its write-backs make of it, which is the region's unknown `outs 18 main_v67`. -/
theorem hF3 (c : Dev nD) (houts3 : outs 18 main_v67 c = (dat3 (Vin3 m outs) (a 3) c).arrAt (9 : Fin 10) (cfg3 (a 3)).N) :
    ∀ w : Fin 10, (dat3 (Vin3 m outs) (a 3) c).arrAt w (cfg3 (a 3)).N = Vout3 m outs c (Pipeline.arrRef spec3 w) := by
  intro w
  by_cases hw : w = (9 : Fin 10)
  · subst hw
    refine houts3.symm.trans ?_
    show _ = Function.update (Win3 m outs c) _ _ _
    rw [Function.update_self]
  · obtain ⟨hin, hne⟩ := inputs3 w hw
    exact ((dat3 (Vin3 m outs) (a 3) c).arrAt_in w hin _).trans ((A_eq3 (Vin3 m outs) (a 3) c w).trans (V18_of m outs c _ hne).symm)

/-- Every buffer that is no array of the region is left as entered. -/
theorem hrest3 (c : Dev nD) : ∀ b, b ∉ Finset.univ.image (Pipeline.arrRef spec3) → Vout3 m outs c b = Vin3 m outs c b := fun b hb =>
  V18_of m outs c b fun hmem => hb (Finset.mem_image.mpr ⟨(9 : Fin 10), Finset.mem_univ _, (List.mem_singleton.mp hmem).symm⟩)

include hd3 hpf3 houts3 in
-- the entry and exit lemmas speak of the pinned configuration `pin pcs a p`, which is the printed configuration
-- `cfg3 a` by the definitions of both
set_option backward.isDefEq.respectTransparency.types false in
/-- REGION 3 as a segment. It is entered holding every unscoped buffer at its contents after the preceding host
    operations, together with the rest state (the generator register, nothing owed); it is left holding the same, the
    output's array now at the region's unknown. On entry the region's arrays and its two tables are separated from the
    other unscoped buffers, and on exit they are joined again; the generator register and the tables pass through the
    invariant; nothing is owed at any point; the kernel has no semaphore of its own. -/
def reg3 : Pipeline.RegionSeg (pcfgs (F := F)) a pdats () defs₀ Variants.none Lz lvz 3 where
  win := winFacts3.to₀
  block_pos := block_pos3
  stage_whole := stage_whole3
  K := PEmpty
  osem k := k.elim
  ho := Pipeline.OwnSemFacts.none _
  hbody c := by rw [hd3 c]; exact (body_obligation3 (Vin3 m outs) (a 3) c).loose
  hwaits := Pipeline.hwaits_of_owed_zero _ _ _ _ Lz lvz 3 fun c t => by rw [hd3 c]; rfl
  pre c := iprop(StableHlo.held (c : Thread nD τ) (Pipeline.ucRefs τ sig) (Win3 m outs c) ∗ Rest c)
  post c := iprop(StableHlo.held (c : Thread nD τ) (Pipeline.ucRefs τ sig) (Wout3 m outs c) ∗ Rest c)
  X c := iprop(∃ r, prngReg c r)
  Y c := iprop((∃ r, prngReg c r) ∗ Pipeline.prefHeld pre3 c (fun _ => fullShare) (a 3).1)
  Z c := Pipeline.unscopedRestP (Ix := Unit) (Name := ℕ) (U := Pipeline.UD sig nD τ) (Lvl := ℕ) pre3 spec3 c (Vin3 m outs c)
  hentry c := by
    rw [Pipeline.ownSems0_none]
    have hsplit := Pipeline.arrays_of_unscopedBufs (p := 3) (pcfgs (F := F)) a pdats winFacts3 arr_whole3 c
      ((pdats 3 c).share_full fun w => by rw [hd3 c]; rfl) (Vin3 m outs c) fun w => by rw [hd3 c]; rfl
    rw [Pipeline.unscopedBufs_held, Pipeline.unscopedRest_split (win := (Pipeline.pin (pcfgs (F := F)) a 3).spec) (pre := pre3) preFacts3 c (Vin3 m outs c), hpf3 c] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · rw [hd3 c]
      unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [hd3 c, show (dat3 (Vin3 m outs) (a 3) c).Φ 0 = Phi3 (Vin3 m outs) (a 3) c 0 from by dsimp only [dat3]; simp only [Fin.val_zero]]
    exact hin3 (Vin3 m outs) (a 3) c
  hout c := by
    rw [hd3 c, Pipeline.ownSems0_none, show (dat3 (Vin3 m outs) (a 3) c).Φ (Fin.last (Pipeline.pin (pcfgs (F := F)) a 3).N) = Phi3 (Vin3 m outs) (a 3) c (Pipeline.pin (pcfgs (F := F)) a 3).N from by dsimp only [dat3]; simp only [Fin.val_last]]
    iintro H
    ihave H' := (hout3 (Vin3 m outs) (a 3) c _) $$ H
    icases H' with ⟨HY, HS⟩
    isplitl [HY]; · iexact HY
    isplitr; · iempintro
    iexact HS
  hexit c := by
    have hjoin := Pipeline.unscopedBufs_of_arrays (p := 3) (pcfgs (F := F)) a (Ix := Unit) (Name := ℕ) (U := Pipeline.UD sig nD τ) (Lvl := ℕ)
      winFacts3 arr_whole3 c pdats ((pdats 3 c).share_full fun w => by rw [hd3 c]; rfl)
      (Vin3 m outs c) (Vout3 m outs c) ((pdats 3 c).arrAt · (cfg3 (a 3)).N)
      (by rw [hd3 c]; exact hF3 m outs a c (houts3 c)) (hrest3 m outs c)
    rw [Pipeline.unscopedBufs_held, Pipeline.unscopedRest_split (win := (Pipeline.pin (pcfgs (F := F)) a 3).spec) (pre := pre3) preFacts3 c (Vin3 m outs c), hpf3 c] at hjoin
    iintro ⟨Ha, HO, ⟨HY, Hpf⟩, Hrest⟩
    imodintro
    isplitl [Ha Hpf Hrest]
    · iapply hjoin
      isplitl [Ha]; · iexact Ha
      isplitl [Hpf]; · iexact Hpf
      iexact Hrest
    isplitl [HY]; · iexact HY
    rw [hd3 c]
    unfold Pipeline.Dat.owesAt Pipeline.owesWithin
    icases HO with ⟨%W, -, HO⟩; iexists W; iexact HO

/-- The record is entered from, and left at, the program's thread states around region 3, as they stand. -/
theorem hpre3 (c : Dev nD) :
    iprop(StableHlo.held (c : Thread nD τ) (Pipeline.ucRefs τ sig) (Win3 m outs c) ∗ Rest (F := F) c)
      ⊢ (reg3 m outs a pdats hd3 hpf3 houts3).pre c := .rfl
theorem hpost3 (c : Dev nD) :
    (reg3 m outs a pdats hd3 hpf3 houts3).post c
      ⊢ iprop(StableHlo.held (c : Thread nD τ) (Pipeline.ucRefs τ sig) (Wout3 m outs c) ∗ Rest (F := F) c) := .rfl

end Seg3

end Cert.KernelIdeal.Gen

end
-- ==== Proof.RegionsI.lean ====
import proofs.«414286_j65627100283289_3_alg».proof.Proof.FrameI
import proofs.«414286_j65627100283289_3_alg».proof.Proof.OutsI
import proofs.«414286_j65627100283289_3_alg».proof.Proof.RegionI0
import proofs.«414286_j65627100283289_3_alg».proof.Proof.RegionI1
import proofs.«414286_j65627100283289_3_alg».proof.Proof.RegionI2
import proofs.«414286_j65627100283289_3_alg».proof.Proof.RegionI3

/-!
# The four regions joined into the program's run

Each region's record is stated against a family `outs` of contents that is not known before the regions run: region
`K` is entered from buffers that hold what regions `0 … K-1` left, and leaves its own array. Here the family is
CHOSEN, one array after the other: region 0's tables are read off the buffers the first host stretch leaves, its
proof data then says what it leaves in its array; with that array in the family the buffers region 1 is entered from
are determined, hence its tables and its array; and so on. The buffers a region is entered from depend on the
family only at the earlier regions' arrays, so they are the same under the finished family as under the stage that
chose them: that is all the three facts each record asks need. There is one core, so "on every core" is "on it".
The tables are never evaluated: they appear only as the names the stages give them.
-/

set_option maxRecDepth 1376

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-! ## One core -/

/-- The one core. -/
abbrev core0 : Dev nD := (0 : Fin 1)

theorem dev_eq (c : Dev nD) : c = core0 := Subsingleton.elim _ _

/-! ## The four stages: tables, then the array, then the family so far -/

/-- Region 0's two tables: what the buffers hold when it is entered. -/
def tbl0 : (pcfg0 (F := F)).Adm := ⟨fun k => V8 m core0 (pre0.ref k), trivial⟩
/-- What region 0 leaves in its output's array, from those tables and the buffers it is entered from. -/
def arr0 : ArrOn (F := F) main_v46 := fun c => (dat0 (Vin0 m) (tbl0 m) c).arrAt (9 : Fin 10) (cfg0 (tbl0 m)).N
/-- The family with regions 0's arrays chosen. -/
def o0 : Outs (F := F) := outsOf (arr0 m) (fun c => V0 m c main_v53) (fun c => V0 m c main_v60) (fun c => V0 m c main_v67) (fun _ r c => V0 m c r)

/-- Region 1's two tables: what the buffers hold when it is entered, the regions before it having left their arrays. -/
def tbl1 : (pcfg1 (F := F)).Adm := ⟨fun k => V11 m (o0 m) core0 (pre1.ref k), trivial⟩
/-- What region 1 leaves in its output's array, from those tables and the buffers it is entered from. -/
def arr1 : ArrOn (F := F) main_v53 := fun c => (dat1 (Vin1 m (o0 m)) (tbl1 m) c).arrAt (9 : Fin 10) (cfg1 (tbl1 m)).N
/-- The family with regions 0 to 1's arrays chosen. -/
def o1 : Outs (F := F) := outsOf (arr0 m) (arr1 m) (fun c => V0 m c main_v60) (fun c => V0 m c main_v67) (fun _ r c => V0 m c r)

/-- Region 2's two tables: what the buffers hold when it is entered, the regions before it having left their arrays. -/
def tbl2 : (pcfg2 (F := F)).Adm := ⟨fun k => V14 m (o1 m) core0 (pre2.ref k), trivial⟩
/-- What region 2 leaves in its output's array, from those tables and the buffers it is entered from. -/
def arr2 : ArrOn (F := F) main_v60 := fun c => (dat2 (Vin2 m (o1 m)) (tbl2 m) c).arrAt (9 : Fin 10) (cfg2 (tbl2 m)).N
/-- The family with regions 0 to 2's arrays chosen. -/
def o2 : Outs (F := F) := outsOf (arr0 m) (arr1 m) (arr2 m) (fun c => V0 m c main_v67) (fun _ r c => V0 m c r)

/-- Region 3's two tables: what the buffers hold when it is entered, the regions before it having left their arrays. -/
def tbl3 : (pcfg3 (F := F)).Adm := ⟨fun k => V17 m (o2 m) core0 (pre3.ref k), trivial⟩
/-- What region 3 leaves in its output's array, from those tables and the buffers it is entered from. -/
def arr3 : ArrOn (F := F) main_v67 := fun c => (dat3 (Vin3 m (o2 m)) (tbl3 m) c).arrAt (9 : Fin 10) (cfg3 (tbl3 m)).N
/-- THE FAMILY: all four arrays chosen, each from the buffers the regions before it leave. -/
def outsI : Outs (F := F) := outsOf (arr0 m) (arr1 m) (arr2 m) (arr3 m) (fun _ r c => V0 m c r)

/-! ## The tables and the proof data of all four pipelines, by literal cases -/

/-- Every pipeline's tables. -/
def adm : (p : Fin 4) → (pcfgs (F := F) p).Adm
  | ⟨0, _⟩ => tbl0 m
  | ⟨1, _⟩ => tbl1 m
  | ⟨2, _⟩ => tbl2 m
  | ⟨3, _⟩ => tbl3 m

/-- Every pipeline's proof data, each at the buffers its region is entered from under THE family. -/
def pdatsI : (p : Fin 4) → (c : Dev nD) → Dat τ (Elt F) Unit ℕ (Pipeline.UD sig nD τ) ℕ (Pipeline.pin (pcfgs (F := F)) (adm m) p) c
  | ⟨0, _⟩ => fun c => dat0 (Vin0 m) (tbl0 m) c
  | ⟨1, _⟩ => fun c => dat1 (Vin1 m (outsI m)) (tbl1 m) c
  | ⟨2, _⟩ => fun c => dat2 (Vin2 m (outsI m)) (tbl2 m) c
  | ⟨3, _⟩ => fun c => dat3 (Vin3 m (outsI m)) (tbl3 m) c

/-! ## Reading the stages back -/

theorem o0_at0 (c : Dev nD) : o0 m 9 main_v46 c = arr0 m c := by unfold o0; rw [outsOf_v46]
theorem o1_at0 (c : Dev nD) : o1 m 9 main_v46 c = arr0 m c := by unfold o1; rw [outsOf_v46]
theorem o1_at1 (c : Dev nD) : o1 m 12 main_v53 c = arr1 m c := by unfold o1; rw [outsOf_v53]
theorem o2_at0 (c : Dev nD) : o2 m 9 main_v46 c = arr0 m c := by unfold o2; rw [outsOf_v46]
theorem o2_at1 (c : Dev nD) : o2 m 12 main_v53 c = arr1 m c := by unfold o2; rw [outsOf_v53]
theorem o2_at2 (c : Dev nD) : o2 m 15 main_v60 c = arr2 m c := by unfold o2; rw [outsOf_v60]
theorem outsI_at0 (c : Dev nD) : outsI m 9 main_v46 c = arr0 m c := by unfold outsI; rw [outsOf_v46]
theorem outsI_at1 (c : Dev nD) : outsI m 12 main_v53 c = arr1 m c := by unfold outsI; rw [outsOf_v53]
theorem outsI_at2 (c : Dev nD) : outsI m 15 main_v60 c = arr2 m c := by unfold outsI; rw [outsOf_v60]
theorem outsI_at3 (c : Dev nD) : outsI m 18 main_v67 c = arr3 m c := by unfold outsI; rw [outsOf_v67]

/-- The buffers region 1 is entered from are the same under the final family as under the first stage's. -/
theorem Vin1_final : Vin1 m (outsI m) = Vin1 m (o0 m) :=
  funext fun c => funext fun b => congrFun (V11_congr m (outsI m) (o0 m) c (by rw [outsI_at0, o0_at0])) b
theorem Vin2_final : Vin2 m (outsI m) = Vin2 m (o1 m) :=
  funext fun c => funext fun b => congrFun (V14_congr m (outsI m) (o1 m) c (by rw [outsI_at0, o1_at0]) (by rw [outsI_at1, o1_at1])) b
theorem Vin3_final : Vin3 m (outsI m) = Vin3 m (o2 m) :=
  funext fun c => funext fun b => congrFun (V17_congr m (outsI m) (o2 m) c (by rw [outsI_at0, o2_at0]) (by rw [outsI_at1, o2_at1]) (by rw [outsI_at2, o2_at2])) b

/-! ## What ties each region's record to the family -/

theorem hd0 : ∀ c : Dev nD, pdatsI m 0 c = dat0 (Vin0 m) (adm m 0) c := fun _ => rfl
theorem hpf0 : ∀ c : Dev nD, (fun k => Vin0 m c (pre0.ref k)) = (adm m 0).1 := fun c => by
  rw [dev_eq c]
  rfl
/-- What the final family holds at region 0's output array is what region 0 leaves there. -/
theorem outsI_v46 (c : Dev nD) :
    outsI m 9 main_v46 c = (dat0 (Vin0 m) (tbl0 m) c).arrAt (9 : Fin 10) (cfg0 (tbl0 m)).N := by
  rw [outsI_at0]
  rfl
theorem houts0 : ∀ c : Dev nD, outsI m 9 main_v46 c = (dat0 (Vin0 m) (adm m 0) c).arrAt (9 : Fin 10) (cfg0 (adm m 0)).N :=
  fun c => outsI_v46 m c

theorem hd1 : ∀ c : Dev nD, pdatsI m 1 c = dat1 (Vin1 m (outsI m)) (adm m 1) c := fun _ => rfl
theorem hpf1 : ∀ c : Dev nD, (fun k => Vin1 m (outsI m) c (pre1.ref k)) = (adm m 1).1 := fun c => by
  rw [dev_eq c, Vin1_final]
  rfl
/-- What the final family holds at region 1's output array is what region 1 leaves there. -/
theorem outsI_v53 (c : Dev nD) :
    outsI m 12 main_v53 c = (dat1 (Vin1 m (outsI m)) (tbl1 m) c).arrAt (9 : Fin 10) (cfg1 (tbl1 m)).N := by
  rw [outsI_at1, Vin1_final]
  rfl
theorem houts1 : ∀ c : Dev nD, outsI m 12 main_v53 c = (dat1 (Vin1 m (outsI m)) (adm m 1) c).arrAt (9 : Fin 10) (cfg1 (adm m 1)).N :=
  fun c => outsI_v53 m c

theorem hd2 : ∀ c : Dev nD, pdatsI m 2 c = dat2 (Vin2 m (outsI m)) (adm m 2) c := fun _ => rfl
theorem hpf2 : ∀ c : Dev nD, (fun k => Vin2 m (outsI m) c (pre2.ref k)) = (adm m 2).1 := fun c => by
  rw [dev_eq c, Vin2_final]
  rfl
/-- What the final family holds at region 2's output array is what region 2 leaves there. -/
theorem outsI_v60 (c : Dev nD) :
    outsI m 15 main_v60 c = (dat2 (Vin2 m (outsI m)) (tbl2 m) c).arrAt (9 : Fin 10) (cfg2 (tbl2 m)).N := by
  rw [outsI_at2, Vin2_final]
  rfl
theorem houts2 : ∀ c : Dev nD, outsI m 15 main_v60 c = (dat2 (Vin2 m (outsI m)) (adm m 2) c).arrAt (9 : Fin 10) (cfg2 (adm m 2)).N :=
  fun c => outsI_v60 m c

theorem hd3 : ∀ c : Dev nD, pdatsI m 3 c = dat3 (Vin3 m (outsI m)) (adm m 3) c := fun _ => rfl
theorem hpf3 : ∀ c : Dev nD, (fun k => Vin3 m (outsI m) c (pre3.ref k)) = (adm m 3).1 := fun c => by
  rw [dev_eq c, Vin3_final]
  rfl
/-- What the final family holds at region 3's output array is what region 3 leaves there. -/
theorem outsI_v67 (c : Dev nD) :
    outsI m 18 main_v67 c = (dat3 (Vin3 m (outsI m)) (tbl3 m) c).arrAt (9 : Fin 10) (cfg3 (tbl3 m)).N := by
  rw [outsI_at3, Vin3_final]
  rfl
theorem houts3 : ∀ c : Dev nD, outsI m 18 main_v67 c = (dat3 (Vin3 m (outsI m)) (adm m 3) c).arrAt (9 : Fin 10) (cfg3 (adm m 3)).N :=
  fun c => outsI_v67 m c

/-! ## The run -/

/-- Every weakly fair execution of the program terminates, faults nowhere, leaves every argument array as launched and
    the result's buffer at what the last host stretch computes under the family the four regions determine. -/
theorem run (ρ : Dev nD → PrngReg) :
    θ_run defs (onTc (τ := τ) (main (F := F))) ⟨m, fun _ => 0, ρ⟩ (fun r => ∀ c : Dev nD,
      r.2.mem ((c.tc : Thread nD τ).loc main_v69) = V19 m (outsI m) c main_v69
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  run_of_regions m ρ (outsI m) (adm m) (pdatsI m)
    (reg0 m (outsI m) (adm m) (pdatsI m) (hd0 m) (hpf0 m) (houts0 m)) (hpre0 m (outsI m) (adm m) (pdatsI m) (hd0 m) (hpf0 m) (houts0 m)) (hpost0 m (outsI m) (adm m) (pdatsI m) (hd0 m) (hpf0 m) (houts0 m))
    (reg1 m (outsI m) (adm m) (pdatsI m) (hd1 m) (hpf1 m) (houts1 m)) (hpre1 m (outsI m) (adm m) (pdatsI m) (hd1 m) (hpf1 m) (houts1 m)) (hpost1 m (outsI m) (adm m) (pdatsI m) (hd1 m) (hpf1 m) (houts1 m))
    (reg2 m (outsI m) (adm m) (pdatsI m) (hd2 m) (hpf2 m) (houts2 m)) (hpre2 m (outsI m) (adm m) (pdatsI m) (hd2 m) (hpf2 m) (houts2 m)) (hpost2 m (outsI m) (adm m) (pdatsI m) (hd2 m) (hpf2 m) (houts2 m))
    (reg3 m (outsI m) (adm m) (pdatsI m) (hd3 m) (hpf3 m) (houts3 m)) (hpre3 m (outsI m) (adm m) (pdatsI m) (hd3 m) (hpf3 m) (houts3 m)) (hpost3 m (outsI m) (adm m) (pdatsI m) (hd3 m) (hpf3 m) (houts3 m))

end Cert.KernelIdeal.Gen

end
-- ==== Proof.Spec.lean ====
import Idealize.ShloMosaic.PureOps.Ideal
import Mathlib.Data.EReal.Basic
import Mathlib.Algebra.BigOperators.Fin

/-!
# The network both programs compute, over the extended reals

Four stacked EdgeConv layers on a graph of `n` nodes and `e` directed edges. In one layer every edge
`a` from `src a` to `dst a` sends the message `mlp (x (dst a) ++ (x (src a) - x (dst a)))`, a three-layer
perceptron with a rectifier after the first two layers, and node `v` receives the SUM of the messages of the edges
whose target is `v`. Nothing here mentions a program: the two printed programs are compared with these functions,
index by index.
-/

noncomputable section

namespace Cert.Spec

open scoped BigOperators

/-- A matrix of extended reals, `r` rows by `c` columns. -/
abbrev Mat (r c : ℕ) := Fin r → Fin c → EReal

/-- The rectifier. -/
def relu (v : EReal) : EReal := max v 0

/-- What an edge feeds its perceptron: the target's row followed by source minus target, entry by entry. -/
def feats {d : ℕ} (xi xj : Fin d → EReal) : Fin (d + d) → EReal := Fin.append xi (fun j => xj j - xi j)

/-- One layer's parameters: three weight matrices and three bias rows; the hidden width is 128. -/
structure Weights (d o : ℕ) where
  W0 : Mat (d + d) 128
  b0 : Fin 128 → EReal
  W1 : Mat 128 128
  b1 : Fin 128 → EReal
  W2 : Mat 128 o
  b2 : Fin o → EReal

/-- The perceptron on one feature row: two rectified affine layers, then a plain affine one. -/
def mlp {d o : ℕ} (P : Weights d o) (f : Fin (d + d) → EReal) : Fin o → EReal :=
  let h1 : Fin 128 → EReal := fun h => relu ((∑ k, f k * P.W0 k h) + P.b0 h)
  let h2 : Fin 128 → EReal := fun h => relu ((∑ k, h1 k * P.W1 k h) + P.b1 h)
  fun j => (∑ k, h2 k * P.W2 k j) + P.b2 j

/-- The message of an edge from node `s` to node `t`. -/
def message {n d o : ℕ} (P : Weights d o) (x : Mat n d) (s t : Fin n) : Fin o → EReal :=
  mlp P (feats (x t) (x s))

/-- One EdgeConv layer: node `v` receives the messages of the edges whose target is `v`, added up. -/
def edgeConv {n e d o : ℕ} (P : Weights d o) (x : Mat n d) (src dst : Fin e → Fin n) : Mat n o :=
  fun v j => ∑ a : Fin e, if dst a = v then message P x (src a) (dst a) j else 0

/-- The network: four layers over one edge list, widths `4 → 128 → 128 → 128 → 16`. -/
def net {n e : ℕ} (P0 : Weights 4 128) (P1 P2 : Weights 128 128) (P3 : Weights 128 16)
    (x : Mat n 4) (src dst : Fin e → Fin n) : Mat n 16 :=
  edgeConv P3 (edgeConv P2 (edgeConv P1 (edgeConv P0 x src dst) src dst) src dst) src dst

/-- A layer's sum does not depend on the order in which the edges are listed: relisting them along a
    permutation `σ` (both columns alike) leaves every node's sum as it was. -/
theorem edgeConv_perm {n e d o : ℕ} (P : Weights d o) (x : Mat n d) (src dst : Fin e → Fin n)
    (σ : Equiv.Perm (Fin e)) : edgeConv P x (src ∘ σ) (dst ∘ σ) = edgeConv P x src dst := by
  funext v j
  unfold edgeConv
  exact Equiv.sum_comp σ (fun a => if dst a = v then message P x (src a) (dst a) j else 0)

end Cert.Spec

end
-- ==== Proof.Args.lean ====
import proofs.«414286_j65627100283289_3_alg».proof.Proof.Spec
import Idealize.ShloMosaic.PureOps.Ideal
import Idealize.ShloMosaic.Lib.ValueIdx

/-!
# The programs' argument arrays as the network's data

Both programs take the same 28 arrays. This module reads them as what the network of `Spec` is a function of: the node
features as a matrix, the edge list's two rows as columns of node numbers (under the range fact the precondition
states: every entry is a node number, `0 ≤ w < 10000`), each layer's three weight matrices and three bias rows.
-/

noncomputable section

namespace Cert.Spec

open Idealize.ShloMosaic Idealize.ShloMosaic.ValueIdx

/-- The edge list's shape: row 0 the sources, row 1 the targets, 320000 edges. -/
abbrev SEdge : Shape := ⟨2, ![2, 320000]⟩

/-- Every entry of the edge list, read as a signed word, is a node number. -/
def InRange (ei : IVec SEdge 32) : Prop := ∀ i : SEdge.Idx, 0 ≤ (ei i).toInt ∧ (ei i).toInt < 10000

/-- Entry `a` of row `r` of the edge list as a node. -/
def nodeOf (ei : IVec SEdge 32) (h : InRange ei) (r : Fin 2) (a : Fin 320000) : Fin 10000 :=
  ⟨((ei (ix2 r a)).toInt).toNat, by have := h (ix2 r a); omega⟩

/-- The sources' column. -/
def srcOf (ei : IVec SEdge 32) (h : InRange ei) : Fin 320000 → Fin 10000 := nodeOf ei h 0
/-- The targets' column. -/
def dstOf (ei : IVec SEdge 32) (h : InRange ei) : Fin 320000 → Fin 10000 := nodeOf ei h 1

theorem nodeOf_val (ei : IVec SEdge 32) (h : InRange ei) (r : Fin 2) (a : Fin 320000) :
    ((nodeOf ei h r a).val : ℤ) = (ei (ix2 r a)).toInt := by
  have := h (ix2 r a); unfold nodeOf; simp only; omega

/-- A two-axis float array as a matrix. -/
def matOf {r c : ℕ} (v : FVec Ideal (⟨2, ![r, c]⟩ : Shape) .f32) : Mat r c := fun i j => v (ix2 i j)
/-- A one-axis float array as a row. -/
def rowOf {c : ℕ} (v : FVec Ideal (⟨1, ![c]⟩ : Shape) .f32) : Fin c → EReal := fun j => v (ix1 j)

/-- One layer's six arrays as its parameters. -/
def weightsOf {d o : ℕ} (W0 : FVec Ideal (⟨2, ![d + d, 128]⟩ : Shape) .f32) (b0 : FVec Ideal (⟨1, ![128]⟩ : Shape) .f32)
    (W1 : FVec Ideal (⟨2, ![128, 128]⟩ : Shape) .f32) (b1 : FVec Ideal (⟨1, ![128]⟩ : Shape) .f32)
    (W2 : FVec Ideal (⟨2, ![128, o]⟩ : Shape) .f32) (b2 : FVec Ideal (⟨1, ![o]⟩ : Shape) .f32) : Weights d o :=
  { W0 := matOf W0, b0 := rowOf b0, W1 := matOf W1, b1 := rowOf b1, W2 := matOf W2, b2 := rowOf b2 }

/-- The network's result as a function of the 26 arrays it reads (the positions and the batch vector are read by
    neither program), as an array of shape [10000, 16]. -/
def netOf (x : FVec Ideal (⟨2, ![10000, 4]⟩ : Shape) .f32) (ei : IVec SEdge 32) (h : InRange ei)
    (W00 : FVec Ideal (⟨2, ![4 + 4, 128]⟩ : Shape) .f32) (b00 : FVec Ideal (⟨1, ![128]⟩ : Shape) .f32)
    (W01 : FVec Ideal (⟨2, ![128, 128]⟩ : Shape) .f32) (b01 : FVec Ideal (⟨1, ![128]⟩ : Shape) .f32)
    (W02 : FVec Ideal (⟨2, ![128, 128]⟩ : Shape) .f32) (b02 : FVec Ideal (⟨1, ![128]⟩ : Shape) .f32)
    (W10 : FVec Ideal (⟨2, ![128 + 128, 128]⟩ : Shape) .f32) (b10 : FVec Ideal (⟨1, ![128]⟩ : Shape) .f32)
    (W11 : FVec Ideal (⟨2, ![128, 128]⟩ : Shape) .f32) (b11 : FVec Ideal (⟨1, ![128]⟩ : Shape) .f32)
    (W12 : FVec Ideal (⟨2, ![128, 128]⟩ : Shape) .f32) (b12 : FVec Ideal (⟨1, ![128]⟩ : Shape) .f32)
    (W20 : FVec Ideal (⟨2, ![128 + 128, 128]⟩ : Shape) .f32) (b20 : FVec Ideal (⟨1, ![128]⟩ : Shape) .f32)
    (W21 : FVec Ideal (⟨2, ![128, 128]⟩ : Shape) .f32) (b21 : FVec Ideal (⟨1, ![128]⟩ : Shape) .f32)
    (W22 : FVec Ideal (⟨2, ![128, 128]⟩ : Shape) .f32) (b22 : FVec Ideal (⟨1, ![128]⟩ : Shape) .f32)
    (W30 : FVec Ideal (⟨2, ![128 + 128, 128]⟩ : Shape) .f32) (b30 : FVec Ideal (⟨1, ![128]⟩ : Shape) .f32)
    (W31 : FVec Ideal (⟨2, ![128, 128]⟩ : Shape) .f32) (b31 : FVec Ideal (⟨1, ![128]⟩ : Shape) .f32)
    (W32 : FVec Ideal (⟨2, ![128, 16]⟩ : Shape) .f32) (b32 : FVec Ideal (⟨1, ![16]⟩ : Shape) .f32) :
    FVec Ideal (⟨2, ![10000, 16]⟩ : Shape) .f32 :=
  fun i => net (weightsOf W00 b00 W01 b01 W02 b02) (weightsOf W10 b10 W11 b11 W12 b12)
    (weightsOf W20 b20 W21 b21 W22 b22) (weightsOf W30 b30 W31 b31 W32 b32)
    (matOf x) (srcOf ei h) (dstOf ei h) (i 0) (i 1)

end Cert.Spec

end
-- ==== Proof.KHostMid.lean ====
import proofs.«414286_j65627100283289_3_alg».proof.Proof.Gen.KernelIdeal.Regions
import proofs.«414286_j65627100283289_3_alg».proof.Proof.Args
import Idealize.ShloMosaic.Lib.StableHlo.Run
import Idealize.ShloMosaic.Lib.ValueIdx
import Idealize.ShloMosaic.Lib.Pipeline.Value
import Idealize.ShloMosaic.PureOps.Ideal.Laws
import Idealize.ShloMosaic.Lib.IdealHost
import Idealize.ShloMosaic.Lib.KernelVsHost

/-!
# The host operations between the four layers and after the last

Each layer leaves its result as two slabs `[2, 10240, D]`, one per core: core `p`'s partial sums over the edges that core
handled. Between two layers the host adds the two slabs (a reduction over the leading axis from `0`), keeps the first
10000 rows (the nodes), pads them back to 10240 rows with zeros (the next layer's node table), and reshapes the next
layer's three bias vectors to rows `[1, ·]`. After the last layer it adds the slabs and keeps the first 10000 rows: the
network's result.

This module reads those buffers at an index, for arbitrary slabs `A = outs J ref c`:
* the next node table at `(n, j)` is `A (0, n, j) + A (1, n, j)` for `n < 10000` and `0` on the 240 padding rows;
* a bias row at `(0, j)` is the argument vector at `j`;
* the result at `(n, j)` is `A (0, n, j) + A (1, n, j)`;
* a buffer no host operation writes and no layer may change (every argument array; the edge tables made before the
  first layer) enters every layer as it was.

Inside this namespace `ix0 … ix3` name the programs' block-index maps, so the index constructors are written
`ValueIdx.ix1`, `ValueIdx.ix2`, `ValueIdx.ix3`.
-/

set_option maxRecDepth 1376

noncomputable section

namespace Cert.KernelIdeal.KHost

open Idealize.ShloMosaic Idealize.ShloMosaic.TcCoe Idealize.ShloMosaic.ValueIdx
open Idealize.SL.Sem
open Cert.KernelIdeal

/-! ## The operations read at an index, over arbitrary operands -/

/-- The two slabs added from `0`, at `(n, j)`: the sum of the slabs' entries there (128 columns). -/
theorem reduce128_apply (A : S2x10240x128.Idx → EReal) (hR' : S2x10240x128.ReducesTo [0] S10240x128) (hS : 0 < S_.numel)
    (n : Fin 10240) (j : Fin 128) :
    Host.reduceAdd (F := Ideal) A (constant (F := Ideal) S_ .f32 0x00000000#32) hR' hS (ValueIdx.ix2 n j)
      = A (ValueIdx.ix3 0 n j) + A (ValueIdx.ix3 1 n j) := by
  have hR : S2x10240x128.Reduces [0] S10240x128 := by decide
  refine (hostReduceAdd_apply A _ _ _ _).trans ?_
  refine (Ideal.hostReduceAdd_single hR' hR A _ (ValueIdx.ix2 n j)).trans ?_
  rw [constant_apply, Ideal.ofBits_zero_f32, zero_add]
  refine (Fin.sum_univ_two (f := fun k => A (hR.lift (ValueIdx.ix2 n j) k))).trans ?_
  have e0 : hR.lift (ValueIdx.ix2 n j) (0 : Fin 2) = ValueIdx.ix3 0 n j := funext fun a => by
    rcases a with ⟨a, ha⟩
    have ha' : a < 3 := ha
    interval_cases a <;> rfl
  have e1 : hR.lift (ValueIdx.ix2 n j) (1 : Fin 2) = ValueIdx.ix3 1 n j := funext fun a => by
    rcases a with ⟨a, ha⟩
    have ha' : a < 3 := ha
    interval_cases a <;> rfl
  exact congrArg₂ (· + ·) (congrArg A e0) (congrArg A e1)

/-- The same at 16 columns. -/
theorem reduce16_apply (A : S2x10240x16.Idx → EReal) (hR' : S2x10240x16.ReducesTo [0] S10240x16) (hS : 0 < S_.numel)
    (n : Fin 10240) (j : Fin 16) :
    Host.reduceAdd (F := Ideal) A (constant (F := Ideal) S_ .f32 0x00000000#32) hR' hS (ValueIdx.ix2 n j)
      = A (ValueIdx.ix3 0 n j) + A (ValueIdx.ix3 1 n j) := by
  have hR : S2x10240x16.Reduces [0] S10240x16 := by decide
  refine (hostReduceAdd_apply A _ _ _ _).trans ?_
  refine (Ideal.hostReduceAdd_single hR' hR A _ (ValueIdx.ix2 n j)).trans ?_
  rw [constant_apply, Ideal.ofBits_zero_f32, zero_add]
  refine (Fin.sum_univ_two (f := fun k => A (hR.lift (ValueIdx.ix2 n j) k))).trans ?_
  have e0 : hR.lift (ValueIdx.ix2 n j) (0 : Fin 2) = ValueIdx.ix3 0 n j := funext fun a => by
    rcases a with ⟨a, ha⟩
    have ha' : a < 3 := ha
    interval_cases a <;> rfl
  have e1 : hR.lift (ValueIdx.ix2 n j) (1 : Fin 2) = ValueIdx.ix3 1 n j := funext fun a => by
    rcases a with ⟨a, ha⟩
    have ha' : a < 3 := ha
    interval_cases a <;> rfl
  exact congrArg₂ (· + ·) (congrArg A e0) (congrArg A e1)

/-- The first 10000 rows of a 10240-row table, at `(n, j)`: the table there (128 columns). -/
theorem slice128_apply (x : S10240x128.Idx → EReal) (hs : S10240x128.Slices ![0, 0] S10000x128) (n : Fin 10000) (j : Fin 128) :
    extractStridedSlice S10000x128 ![0, 0] x hs (ValueIdx.ix2 n j)
      = x (ValueIdx.ix2 (Fin.castLE (by decide : 10000 ≤ 10240) n) j) := by
  refine extractStridedSlice_apply _ x hs _ _ fun a => ?_
  rcases a with ⟨a, ha⟩
  have ha' : a < 2 := ha
  interval_cases a
  · exact (Nat.zero_add _).symm
  · exact (Nat.zero_add _).symm

/-- The same at 16 columns. -/
theorem slice16_apply (x : S10240x16.Idx → EReal) (hs : S10240x16.Slices ![0, 0] S10000x16) (n : Fin 10000) (j : Fin 16) :
    extractStridedSlice S10000x16 ![0, 0] x hs (ValueIdx.ix2 n j)
      = x (ValueIdx.ix2 (Fin.castLE (by decide : 10000 ≤ 10240) n) j) := by
  refine extractStridedSlice_apply _ x hs _ _ fun a => ?_
  rcases a with ⟨a, ha⟩
  have ha' : a < 2 := ha
  interval_cases a
  · exact (Nat.zero_add _).symm
  · exact (Nat.zero_add _).symm

/-- A 10000-row table padded below with 240 rows of `v`, at `(n, j)`: the table on a node's row, `v` on a padding row. -/
theorem pad128_apply (x : S10000x128.Idx → EReal) (v : S_.Idx → EReal)
    (hp : S10000x128.Pads (![0, 0] : Fin 2 → Nat) ![240, 0] ![0, 0] S10240x128) (hS : 0 < S_.numel) (n : Fin 10240) (j : Fin 128) :
    pad S10240x128 ![0, 0] ![240, 0] ![0, 0] x v hp hS (ValueIdx.ix2 n j)
      = if h : n.val < 10000 then x (ValueIdx.ix2 ⟨n.val, h⟩ j) else v ValueIdx.ix0 := by
  by_cases h : n.val < 10000
  · rw [dif_pos h]
    refine pad_apply_of_inside _ _ _ x v hp hS _ _ fun a => ?_
    rcases a with ⟨a, ha⟩
    have ha' : a < 2 := ha
    interval_cases a
    · show n.val = 0 + n.val * (0 + 1); omega
    · show j.val = 0 + j.val * (0 + 1); omega
  · rw [dif_neg h]
    refine (pad_apply_of_not_inside _ _ _ x v hp hS _ (0 : Fin 2) ?_).trans (congrArg v (funext fun a => a.elim0))
    show ¬(0 ≤ n.val ∧ (n.val - 0) % (0 + 1) = 0 ∧ (n.val - 0) / (0 + 1) < 10000)
    omega

/-- The padding value, the integer word `0` converted to a float, is `0`. -/
theorem padval_apply (i : S_.Idx) : (sitofp (F := Ideal) .f32 (constantI S_ 32 0#32) : S_.Idx → EReal) i = 0 := by
  rw [sitofp_apply]
  show (((0#32 : BitVec 32).toInt : ℝ) : EReal) = 0
  simp

/-- The next layer's node table from the two slabs `A`, at `(n, j)`: the slabs' sum on a node's row, `0` on a padding row. -/
theorem table128_apply (A : S2x10240x128.Idx → EReal) (hR' : S2x10240x128.ReducesTo [0] S10240x128) (hS : 0 < S_.numel)
    (hs : S10240x128.Slices ![0, 0] S10000x128) (hp : S10000x128.Pads (![0, 0] : Fin 2 → Nat) ![240, 0] ![0, 0] S10240x128)
    (n : Fin 10240) (j : Fin 128) :
    pad S10240x128 ![0, 0] ![240, 0] ![0, 0]
        (extractStridedSlice S10000x128 ![0, 0]
          (Host.reduceAdd (F := Ideal) A (constant (F := Ideal) S_ .f32 0x00000000#32) hR' hS) hs)
        (sitofp (F := Ideal) .f32 (constantI S_ 32 0#32)) hp hS (ValueIdx.ix2 n j)
      = if n.val < 10000 then A (ValueIdx.ix3 0 n j) + A (ValueIdx.ix3 1 n j) else 0 := by
  rw [pad128_apply]
  by_cases h : n.val < 10000
  · rw [dif_pos h, if_pos h, slice128_apply, reduce128_apply]
    rfl
  · rw [dif_neg h, if_neg h, padval_apply]

/-- The network's result from the last layer's two slabs `A`, at `(n, j)`: the slabs' sum on that node's row. -/
theorem result16_apply (A : S2x10240x16.Idx → EReal) (hR' : S2x10240x16.ReducesTo [0] S10240x16) (hS : 0 < S_.numel)
    (hs : S10240x16.Slices ![0, 0] S10000x16) (n : Fin 10000) (j : Fin 16) :
    extractStridedSlice S10000x16 ![0, 0]
        (Host.reduceAdd (F := Ideal) A (constant (F := Ideal) S_ .f32 0x00000000#32) hR' hS) hs (ValueIdx.ix2 n j)
      = A (ValueIdx.ix3 0 (Fin.castLE (by decide : 10000 ≤ 10240) n) j)
        + A (ValueIdx.ix3 1 (Fin.castLE (by decide : 10000 ≤ 10240) n) j) := by
  rw [slice16_apply, reduce16_apply]

/-- A vector of 128 entries reshaped to one row, at `(0, j)`: the vector at `j`. -/
theorem row128_apply (b : S128.Idx → EReal) (h : S128.ShapeCasts S1x128) (j : Fin 128) :
    shapeCast S1x128 b h (ValueIdx.ix2 0 j) = b (ValueIdx.ix1 j) := by
  refine shapeCast_apply b h _ _ ?_
  rw [Shape.rowMajor_val_one, Shape.rowMajor_val_two]
  show j.val = 0 * 128 + j.val
  omega

/-- The same at 16 entries. -/
theorem row16_apply (b : S16.Idx → EReal) (h : S16.ShapeCasts S1x16) (j : Fin 16) :
    shapeCast S1x16 b h (ValueIdx.ix2 0 j) = b (ValueIdx.ix1 j) := by
  refine shapeCast_apply b h _ _ ?_
  rw [Shape.rowMajor_val_one, Shape.rowMajor_val_two]
  show j.val = 0 * 16 + j.val
  omega

/-! ## What no host stretch writes and no region may change -/

variable (m : (ℓ : Loc nD τ sig) → Buf (Elt Ideal) ℓ) (outs : Gen.Outs (F := Ideal))

/-- Every reference a host stretch before the first region writes. -/
abbrev W8 : List (Ref sig .tc) :=
  Gen.hostOps0_W ++ (Gen.hostOps0_1_W ++ (Gen.hostOps0_2_W ++ (Gen.hostOps0_3_W ++ (Gen.hostOps0_4_W ++ (Gen.hostOps0_5_W ++
    (Gen.hostOps0_6_W ++ Gen.hostOps0_7_W))))))

/-- A buffer none of those stretches writes enters the first region as launched. -/
theorem V8_of_not_mem (c : Dev nD) (r : Ref sig .tc) (h : r ∉ W8) : Gen.V8 m c r = m ((c : Thread nD τ).loc r) := by
  have h0 : r ∉ Gen.hostOps0_W := fun x => h (List.mem_append_left _ x)
  have t0 : r ∉ _ := fun x => h (List.mem_append_right _ x)
  have h1 : r ∉ Gen.hostOps0_1_W := fun x => t0 (List.mem_append_left _ x)
  have t1 : r ∉ _ := fun x => t0 (List.mem_append_right _ x)
  have h2 : r ∉ Gen.hostOps0_2_W := fun x => t1 (List.mem_append_left _ x)
  have t2 : r ∉ _ := fun x => t1 (List.mem_append_right _ x)
  have h3 : r ∉ Gen.hostOps0_3_W := fun x => t2 (List.mem_append_left _ x)
  have t3 : r ∉ _ := fun x => t2 (List.mem_append_right _ x)
  have h4 : r ∉ Gen.hostOps0_4_W := fun x => t3 (List.mem_append_left _ x)
  have t4 : r ∉ _ := fun x => t3 (List.mem_append_right _ x)
  have h5 : r ∉ Gen.hostOps0_5_W := fun x => t4 (List.mem_append_left _ x)
  have t5 : r ∉ _ := fun x => t4 (List.mem_append_right _ x)
  have h6 : r ∉ Gen.hostOps0_6_W := fun x => t5 (List.mem_append_left _ x)
  have h7 : r ∉ Gen.hostOps0_7_W := fun x => t5 (List.mem_append_right _ x)
  exact (Gen.V8_of m c r h7).trans <| (Gen.V7_of m c r h6).trans <| (Gen.V6_of m c r h5).trans <| (Gen.V5_of m c r h4).trans <|
    (Gen.V4_of m c r h3).trans <| (Gen.V3_of m c r h2).trans <| (Gen.V2_of m c r h1).trans <| (Gen.V1_of m c r h0).trans rfl

/-- What the first region may change and the two stretches after it write. -/
abbrev W11 : List (Ref sig .tc) := [main_v46] ++ (Gen.hostOps1_W ++ Gen.hostOps1_1_W)
/-- What the second region may change and the two stretches after it write. -/
abbrev W14 : List (Ref sig .tc) := [main_v53] ++ (Gen.hostOps2_W ++ Gen.hostOps2_1_W)
/-- What the third region may change and the two stretches after it write. -/
abbrev W17 : List (Ref sig .tc) := [main_v60] ++ (Gen.hostOps3_W ++ Gen.hostOps3_1_W)

/-- A buffer outside `W11` enters the second region as it entered the first. -/
theorem V11_eq_V8 (c : Dev nD) (r : Ref sig .tc) (h : r ∉ W11) : Gen.V11 m outs c r = Gen.V8 m c r := by
  have h0 : r ∉ ([main_v46] : List (Ref sig .tc)) := fun x => h (List.mem_append_left _ x)
  have t0 : r ∉ _ := fun x => h (List.mem_append_right _ x)
  have h1 : r ∉ Gen.hostOps1_W := fun x => t0 (List.mem_append_left _ x)
  have h2 : r ∉ Gen.hostOps1_1_W := fun x => t0 (List.mem_append_right _ x)
  exact (Gen.V11_of m outs c r h2).trans <| (Gen.V10_of m outs c r h1).trans (Gen.V9_of m outs c r h0)

/-- A buffer outside `W14` enters the third region as it entered the second. -/
theorem V14_eq_V11 (c : Dev nD) (r : Ref sig .tc) (h : r ∉ W14) : Gen.V14 m outs c r = Gen.V11 m outs c r := by
  have h0 : r ∉ ([main_v53] : List (Ref sig .tc)) := fun x => h (List.mem_append_left _ x)
  have t0 : r ∉ _ := fun x => h (List.mem_append_right _ x)
  have h1 : r ∉ Gen.hostOps2_W := fun x => t0 (List.mem_append_left _ x)
  have h2 : r ∉ Gen.hostOps2_1_W := fun x => t0 (List.mem_append_right _ x)
  exact (Gen.V14_of m outs c r h2).trans <| (Gen.V13_of m outs c r h1).trans (Gen.V12_of m outs c r h0)

/-- A buffer outside `W17` enters the fourth region as it entered the third. -/
theorem V17_eq_V14 (c : Dev nD) (r : Ref sig .tc) (h : r ∉ W17) : Gen.V17 m outs c r = Gen.V14 m outs c r := by
  have h0 : r ∉ ([main_v60] : List (Ref sig .tc)) := fun x => h (List.mem_append_left _ x)
  have t0 : r ∉ _ := fun x => h (List.mem_append_right _ x)
  have h1 : r ∉ Gen.hostOps3_W := fun x => t0 (List.mem_append_left _ x)
  have h2 : r ∉ Gen.hostOps3_1_W := fun x => t0 (List.mem_append_right _ x)
  exact (Gen.V17_of m outs c r h2).trans <| (Gen.V16_of m outs c r h1).trans (Gen.V15_of m outs c r h0)

/-- Every reference some host stretch up to the fourth region writes or some region before it may change. -/
abbrev Wall : List (Ref sig .tc) := W8 ++ (W11 ++ (W14 ++ W17))

theorem not_mem_W8 {r : Ref sig .tc} (h : r ∉ Wall) : r ∉ W8 := fun x => h (List.mem_append_left _ x)
theorem not_mem_W11 {r : Ref sig .tc} (h : r ∉ Wall) : r ∉ W11 :=
  fun x => h (List.mem_append_right _ (List.mem_append_left _ x))
theorem not_mem_W14 {r : Ref sig .tc} (h : r ∉ Wall) : r ∉ W14 :=
  fun x => h (List.mem_append_right _ (List.mem_append_right _ (List.mem_append_left _ x)))
theorem not_mem_W17 {r : Ref sig .tc} (h : r ∉ Wall) : r ∉ W17 :=
  fun x => h (List.mem_append_right _ (List.mem_append_right _ (List.mem_append_right _ x)))

/-- A buffer outside `Wall` (every argument array is one) enters each region as launched. -/
theorem V8_frozen (c : Dev nD) (r : Ref sig .tc) (h : r ∉ Wall) : Gen.V8 m c r = m ((c : Thread nD τ).loc r) :=
  V8_of_not_mem m c r (not_mem_W8 h)
theorem V11_frozen (c : Dev nD) (r : Ref sig .tc) (h : r ∉ Wall) : Gen.V11 m outs c r = m ((c : Thread nD τ).loc r) :=
  (V11_eq_V8 m outs c r (not_mem_W11 h)).trans (V8_frozen m c r h)
theorem V14_frozen (c : Dev nD) (r : Ref sig .tc) (h : r ∉ Wall) : Gen.V14 m outs c r = m ((c : Thread nD τ).loc r) :=
  (V14_eq_V11 m outs c r (not_mem_W14 h)).trans (V11_frozen m outs c r h)
theorem V17_frozen (c : Dev nD) (r : Ref sig .tc) (h : r ∉ Wall) : Gen.V17 m outs c r = m ((c : Thread nD τ).loc r) :=
  (V17_eq_V14 m outs c r (not_mem_W17 h)).trans (V14_frozen m outs c r h)

/-- The same between items: after the region and before its stretches. -/
theorem V9_frozen (c : Dev nD) (r : Ref sig .tc) (h : r ∉ Wall) : Gen.V9 m outs c r = m ((c : Thread nD τ).loc r) :=
  (Gen.V9_of m outs c r fun x => not_mem_W11 h (List.mem_append_left _ x)).trans (V8_frozen m c r h)
theorem V12_frozen (c : Dev nD) (r : Ref sig .tc) (h : r ∉ Wall) : Gen.V12 m outs c r = m ((c : Thread nD τ).loc r) :=
  (Gen.V12_of m outs c r fun x => not_mem_W14 h (List.mem_append_left _ x)).trans (V11_frozen m outs c r h)
theorem V15_frozen (c : Dev nD) (r : Ref sig .tc) (h : r ∉ Wall) : Gen.V15 m outs c r = m ((c : Thread nD τ).loc r) :=
  (Gen.V15_of m outs c r fun x => not_mem_W17 h (List.mem_append_left _ x)).trans (V14_frozen m outs c r h)

/-! ## The slabs the layers leave -/

/-- The two slabs the first layer leaves on core `c`, as a function of the index `(core, row, column)`. -/
abbrev slabs1 (c : Dev nD) : S2x10240x128.Idx → EReal := outs 9 main_v46 c
/-- The two slabs the second layer leaves. -/
abbrev slabs2 (c : Dev nD) : S2x10240x128.Idx → EReal := outs 12 main_v53 c
/-- The two slabs the third layer leaves. -/
abbrev slabs3 (c : Dev nD) : S2x10240x128.Idx → EReal := outs 15 main_v60 c
/-- The two slabs the fourth layer leaves (16 columns). -/
abbrev slabs4 (c : Dev nD) : S2x10240x16.Idx → EReal := outs 18 main_v67 c

/-! ## Into the first layer -/

/-- The first layer's three weight matrices, the node features and the edge list enter it as launched. -/
theorem V8_main_arg4 (c : Dev nD) : Gen.V8 m c main_arg4 = m ((c : Thread nD τ).loc main_arg4) :=
  V8_frozen m c main_arg4 (by decide)
theorem V8_main_arg6 (c : Dev nD) : Gen.V8 m c main_arg6 = m ((c : Thread nD τ).loc main_arg6) :=
  V8_frozen m c main_arg6 (by decide)
theorem V8_main_arg8 (c : Dev nD) : Gen.V8 m c main_arg8 = m ((c : Thread nD τ).loc main_arg8) :=
  V8_frozen m c main_arg8 (by decide)
theorem V8_main_arg0 (c : Dev nD) : Gen.V8 m c main_arg0 = m ((c : Thread nD τ).loc main_arg0) :=
  V8_frozen m c main_arg0 (by decide)
theorem V8_main_arg2 (c : Dev nD) : Gen.V8 m c main_arg2 = m ((c : Thread nD τ).loc main_arg2) :=
  V8_frozen m c main_arg2 (by decide)

/-! ## Into the second layer -/

/-- The second layer's node table as the host operations' term over the slabs the layer before left. -/
theorem V11_main_v52_eq (c : Dev nD) :
    (Gen.V11 m outs c main_v52 : S10240x128.Idx → EReal) =
      pad S10240x128 ![0, 0] ![240, 0] ![0, 0]
        (extractStridedSlice S10000x128 ![0, 0]
          (Host.reduceAdd (F := Ideal) (slabs1 outs c) (constant (F := Ideal) S_ .f32 0x00000000#32)
            Gen.reducesTo_S2x10240x128_S10240x128_d0 Gen.h_S_)
          Gen.slices_S10240x128_S10000x128_0_0)
        (sitofp (F := Ideal) .f32 (constantI S_ 32 0#32)) Gen.pads_S10000x128_S10240x128_02400_000 Gen.h_S_ := by
  dsimp only [Gen.V11, Gen.hostOps1_1]
  after_results
  simp only [StableHlo.TRef.ofBuf, StableHlo.TRef.toBuf, cast_eq]
  have e : Gen.V9 m outs c (Proc.devRef .tc main_v46) = outs 9 main_v46 c := Function.update_self _ _ _
  rw [e]

/-- The second layer's node table at `(n, j)`: the two slabs' sum on a node's row, `0` on a padding row. -/
theorem V11_main_v52_apply (c : Dev nD) (n : Fin 10240) (j : Fin 128) :
    (Gen.V11 m outs c main_v52 : S10240x128.Idx → EReal) (ValueIdx.ix2 n j) =
      if n.val < 10000 then slabs1 outs c (ValueIdx.ix3 0 n j) + slabs1 outs c (ValueIdx.ix3 1 n j) else 0 := by
  rw [V11_main_v52_eq]
  exact table128_apply _ _ _ _ _ n j

/-- The second layer's first bias row is its argument vector reshaped to one row. -/
theorem V11_main_v49_eq (c : Dev nD) :
    (Gen.V11 m outs c main_v49 : S1x128.Idx → EReal) =
      shapeCast S1x128 (m ((c : Thread nD τ).loc main_arg11) : S128.Idx → EReal) Gen.shapeCasts_S128_S1x128 := by
  refine (Gen.V11_of m outs c main_v49 (by decide)).trans ?_
  dsimp only [Gen.V10, Gen.hostOps1]
  after_results
  rw [show Gen.V9 m outs c (Proc.devRef .tc main_arg11) = m ((c : Thread nD τ).loc main_arg11) from
    V9_frozen m outs c main_arg11 (by decide)]
  rfl

/-- … and at `(0, j)` it is that vector at `j`. -/
theorem V11_main_v49_apply (c : Dev nD) (j : Fin 128) :
    (Gen.V11 m outs c main_v49 : S1x128.Idx → EReal) (ValueIdx.ix2 0 j) =
      (m ((c : Thread nD τ).loc main_arg11) : S128.Idx → EReal) (ValueIdx.ix1 j) := by
  rw [V11_main_v49_eq]
  exact row128_apply _ _ j

/-- The second layer's second bias row is its argument vector reshaped to one row. -/
theorem V11_main_v50_eq (c : Dev nD) :
    (Gen.V11 m outs c main_v50 : S1x128.Idx → EReal) =
      shapeCast S1x128 (m ((c : Thread nD τ).loc main_arg13) : S128.Idx → EReal) Gen.shapeCasts_S128_S1x128 := by
  refine (Gen.V11_of m outs c main_v50 (by decide)).trans ?_
  dsimp only [Gen.V10, Gen.hostOps1]
  after_results
  rw [show Gen.V9 m outs c (Proc.devRef .tc main_arg13) = m ((c : Thread nD τ).loc main_arg13) from
    V9_frozen m outs c main_arg13 (by decide)]
  rfl

/-- … and at `(0, j)` it is that vector at `j`. -/
theorem V11_main_v50_apply (c : Dev nD) (j : Fin 128) :
    (Gen.V11 m outs c main_v50 : S1x128.Idx → EReal) (ValueIdx.ix2 0 j) =
      (m ((c : Thread nD τ).loc main_arg13) : S128.Idx → EReal) (ValueIdx.ix1 j) := by
  rw [V11_main_v50_eq]
  exact row128_apply _ _ j

/-- The second layer's third bias row is its argument vector reshaped to one row. -/
theorem V11_main_v51_eq (c : Dev nD) :
    (Gen.V11 m outs c main_v51 : S1x128.Idx → EReal) =
      shapeCast S1x128 (m ((c : Thread nD τ).loc main_arg15) : S128.Idx → EReal) Gen.shapeCasts_S128_S1x128 := by
  refine (Gen.V11_of m outs c main_v51 (by decide)).trans ?_
  dsimp only [Gen.V10, Gen.hostOps1]
  after_results
  rw [show Gen.V9 m outs c (Proc.devRef .tc main_arg15) = m ((c : Thread nD τ).loc main_arg15) from
    V9_frozen m outs c main_arg15 (by decide)]
  rfl

/-- … and at `(0, j)` it is that vector at `j`. -/
theorem V11_main_v51_apply (c : Dev nD) (j : Fin 128) :
    (Gen.V11 m outs c main_v51 : S1x128.Idx → EReal) (ValueIdx.ix2 0 j) =
      (m ((c : Thread nD τ).loc main_arg15) : S128.Idx → EReal) (ValueIdx.ix1 j) := by
  rw [V11_main_v51_eq]
  exact row128_apply _ _ j

/-- The second layer's three weight matrices enter it as launched. -/
theorem V11_main_arg10 (c : Dev nD) : Gen.V11 m outs c main_arg10 = m ((c : Thread nD τ).loc main_arg10) :=
  V11_frozen m outs c main_arg10 (by decide)
theorem V11_main_arg12 (c : Dev nD) : Gen.V11 m outs c main_arg12 = m ((c : Thread nD τ).loc main_arg12) :=
  V11_frozen m outs c main_arg12 (by decide)
theorem V11_main_arg14 (c : Dev nD) : Gen.V11 m outs c main_arg14 = m ((c : Thread nD τ).loc main_arg14) :=
  V11_frozen m outs c main_arg14 (by decide)

/-- The edge tables made before the first layer enter the second layer as they entered the first. -/
theorem V11_main_v31 (c : Dev nD) : Gen.V11 m outs c main_v31 = Gen.V8 m c main_v31 :=
  V11_eq_V8 m outs c main_v31 (by decide)
theorem V11_main_v39 (c : Dev nD) : Gen.V11 m outs c main_v39 = Gen.V8 m c main_v39 :=
  V11_eq_V8 m outs c main_v39 (by decide)
theorem V11_main_v40 (c : Dev nD) : Gen.V11 m outs c main_v40 = Gen.V8 m c main_v40 :=
  V11_eq_V8 m outs c main_v40 (by decide)
theorem V11_main_v41 (c : Dev nD) : Gen.V11 m outs c main_v41 = Gen.V8 m c main_v41 :=
  V11_eq_V8 m outs c main_v41 (by decide)

/-! ## Into the third layer -/

/-- The third layer's node table as the host operations' term over the slabs the layer before left. -/
theorem V14_main_v59_eq (c : Dev nD) :
    (Gen.V14 m outs c main_v59 : S10240x128.Idx → EReal) =
      pad S10240x128 ![0, 0] ![240, 0] ![0, 0]
        (extractStridedSlice S10000x128 ![0, 0]
          (Host.reduceAdd (F := Ideal) (slabs2 outs c) (constant (F := Ideal) S_ .f32 0x00000000#32)
            Gen.reducesTo_S2x10240x128_S10240x128_d0 Gen.h_S_)
          Gen.slices_S10240x128_S10000x128_0_0)
        (sitofp (F := Ideal) .f32 (constantI S_ 32 0#32)) Gen.pads_S10000x128_S10240x128_02400_000 Gen.h_S_ := by
  dsimp only [Gen.V14, Gen.hostOps2_1]
  after_results
  simp only [StableHlo.TRef.ofBuf, StableHlo.TRef.toBuf, cast_eq]
  have e : Gen.V12 m outs c (Proc.devRef .tc main_v53) = outs 12 main_v53 c := Function.update_self _ _ _
  rw [e]

/-- The third layer's node table at `(n, j)`: the two slabs' sum on a node's row, `0` on a padding row. -/
theorem V14_main_v59_apply (c : Dev nD) (n : Fin 10240) (j : Fin 128) :
    (Gen.V14 m outs c main_v59 : S10240x128.Idx → EReal) (ValueIdx.ix2 n j) =
      if n.val < 10000 then slabs2 outs c (ValueIdx.ix3 0 n j) + slabs2 outs c (ValueIdx.ix3 1 n j) else 0 := by
  rw [V14_main_v59_eq]
  exact table128_apply _ _ _ _ _ n j

/-- The third layer's first bias row is its argument vector reshaped to one row. -/
theorem V14_main_v56_eq (c : Dev nD) :
    (Gen.V14 m outs c main_v56 : S1x128.Idx → EReal) =
      shapeCast S1x128 (m ((c : Thread nD τ).loc main_arg17) : S128.Idx → EReal) Gen.shapeCasts_S128_S1x128 := by
  refine (Gen.V14_of m outs c main_v56 (by decide)).trans ?_
  dsimp only [Gen.V13, Gen.hostOps2]
  after_results
  rw [show Gen.V12 m outs c (Proc.devRef .tc main_arg17) = m ((c : Thread nD τ).loc main_arg17) from
    V12_frozen m outs c main_arg17 (by decide)]
  rfl

/-- … and at `(0, j)` it is that vector at `j`. -/
theorem V14_main_v56_apply (c : Dev nD) (j : Fin 128) :
    (Gen.V14 m outs c main_v56 : S1x128.Idx → EReal) (ValueIdx.ix2 0 j) =
      (m ((c : Thread nD τ).loc main_arg17) : S128.Idx → EReal) (ValueIdx.ix1 j) := by
  rw [V14_main_v56_eq]
  exact row128_apply _ _ j

/-- The third layer's second bias row is its argument vector reshaped to one row. -/
theorem V14_main_v57_eq (c : Dev nD) :
    (Gen.V14 m outs c main_v57 : S1x128.Idx → EReal) =
      shapeCast S1x128 (m ((c : Thread nD τ).loc main_arg19) : S128.Idx → EReal) Gen.shapeCasts_S128_S1x128 := by
  refine (Gen.V14_of m outs c main_v57 (by decide)).trans ?_
  dsimp only [Gen.V13, Gen.hostOps2]
  after_results
  rw [show Gen.V12 m outs c (Proc.devRef .tc main_arg19) = m ((c : Thread nD τ).loc main_arg19) from
    V12_frozen m outs c main_arg19 (by decide)]
  rfl

/-- … and at `(0, j)` it is that vector at `j`. -/
theorem V14_main_v57_apply (c : Dev nD) (j : Fin 128) :
    (Gen.V14 m outs c main_v57 : S1x128.Idx → EReal) (ValueIdx.ix2 0 j) =
      (m ((c : Thread nD τ).loc main_arg19) : S128.Idx → EReal) (ValueIdx.ix1 j) := by
  rw [V14_main_v57_eq]
  exact row128_apply _ _ j

/-- The third layer's third bias row is its argument vector reshaped to one row. -/
theorem V14_main_v58_eq (c : Dev nD) :
    (Gen.V14 m outs c main_v58 : S1x128.Idx → EReal) =
      shapeCast S1x128 (m ((c : Thread nD τ).loc main_arg21) : S128.Idx → EReal) Gen.shapeCasts_S128_S1x128 := by
  refine (Gen.V14_of m outs c main_v58 (by decide)).trans ?_
  dsimp only [Gen.V13, Gen.hostOps2]
  after_results
  rw [show Gen.V12 m outs c (Proc.devRef .tc main_arg21) = m ((c : Thread nD τ).loc main_arg21) from
    V12_frozen m outs c main_arg21 (by decide)]
  rfl

/-- … and at `(0, j)` it is that vector at `j`. -/
theorem V14_main_v58_apply (c : Dev nD) (j : Fin 128) :
    (Gen.V14 m outs c main_v58 : S1x128.Idx → EReal) (ValueIdx.ix2 0 j) =
      (m ((c : Thread nD τ).loc main_arg21) : S128.Idx → EReal) (ValueIdx.ix1 j) := by
  rw [V14_main_v58_eq]
  exact row128_apply _ _ j

/-- The third layer's three weight matrices enter it as launched. -/
theorem V14_main_arg16 (c : Dev nD) : Gen.V14 m outs c main_arg16 = m ((c : Thread nD τ).loc main_arg16) :=
  V14_frozen m outs c main_arg16 (by decide)
theorem V14_main_arg18 (c : Dev nD) : Gen.V14 m outs c main_arg18 = m ((c : Thread nD τ).loc main_arg18) :=
  V14_frozen m outs c main_arg18 (by decide)
theorem V14_main_arg20 (c : Dev nD) : Gen.V14 m outs c main_arg20 = m ((c : Thread nD τ).loc main_arg20) :=
  V14_frozen m outs c main_arg20 (by decide)

/-- The edge tables made before the first layer enter the third layer as they entered the first. -/
theorem V14_main_v31 (c : Dev nD) : Gen.V14 m outs c main_v31 = Gen.V8 m c main_v31 :=
  (V14_eq_V11 m outs c main_v31 (by decide)).trans (V11_eq_V8 m outs c main_v31 (by decide))
theorem V14_main_v39 (c : Dev nD) : Gen.V14 m outs c main_v39 = Gen.V8 m c main_v39 :=
  (V14_eq_V11 m outs c main_v39 (by decide)).trans (V11_eq_V8 m outs c main_v39 (by decide))
theorem V14_main_v40 (c : Dev nD) : Gen.V14 m outs c main_v40 = Gen.V8 m c main_v40 :=
  (V14_eq_V11 m outs c main_v40 (by decide)).trans (V11_eq_V8 m outs c main_v40 (by decide))
theorem V14_main_v41 (c : Dev nD) : Gen.V14 m outs c main_v41 = Gen.V8 m c main_v41 :=
  (V14_eq_V11 m outs c main_v41 (by decide)).trans (V11_eq_V8 m outs c main_v41 (by decide))

/-! ## Into the fourth layer -/

/-- The fourth layer's node table as the host operations' term over the slabs the layer before left. -/
theorem V17_main_v66_eq (c : Dev nD) :
    (Gen.V17 m outs c main_v66 : S10240x128.Idx → EReal) =
      pad S10240x128 ![0, 0] ![240, 0] ![0, 0]
        (extractStridedSlice S10000x128 ![0, 0]
          (Host.reduceAdd (F := Ideal) (slabs3 outs c) (constant (F := Ideal) S_ .f32 0x00000000#32)
            Gen.reducesTo_S2x10240x128_S10240x128_d0 Gen.h_S_)
          Gen.slices_S10240x128_S10000x128_0_0)
        (sitofp (F := Ideal) .f32 (constantI S_ 32 0#32)) Gen.pads_S10000x128_S10240x128_02400_000 Gen.h_S_ := by
  dsimp only [Gen.V17, Gen.hostOps3_1]
  after_results
  simp only [StableHlo.TRef.ofBuf, StableHlo.TRef.toBuf, cast_eq]
  have e : Gen.V15 m outs c (Proc.devRef .tc main_v60) = outs 15 main_v60 c := Function.update_self _ _ _
  rw [e]

/-- The fourth layer's node table at `(n, j)`: the two slabs' sum on a node's row, `0` on a padding row. -/
theorem V17_main_v66_apply (c : Dev nD) (n : Fin 10240) (j : Fin 128) :
    (Gen.V17 m outs c main_v66 : S10240x128.Idx → EReal) (ValueIdx.ix2 n j) =
      if n.val < 10000 then slabs3 outs c (ValueIdx.ix3 0 n j) + slabs3 outs c (ValueIdx.ix3 1 n j) else 0 := by
  rw [V17_main_v66_eq]
  exact table128_apply _ _ _ _ _ n j

/-- The fourth layer's first bias row is its argument vector reshaped to one row. -/
theorem V17_main_v63_eq (c : Dev nD) :
    (Gen.V17 m outs c main_v63 : S1x128.Idx → EReal) =
      shapeCast S1x128 (m ((c : Thread nD τ).loc main_arg23) : S128.Idx → EReal) Gen.shapeCasts_S128_S1x128 := by
  refine (Gen.V17_of m outs c main_v63 (by decide)).trans ?_
  dsimp only [Gen.V16, Gen.hostOps3]
  after_results
  rw [show Gen.V15 m outs c (Proc.devRef .tc main_arg23) = m ((c : Thread nD τ).loc main_arg23) from
    V15_frozen m outs c main_arg23 (by decide)]
  rfl

/-- … and at `(0, j)` it is that vector at `j`. -/
theorem V17_main_v63_apply (c : Dev nD) (j : Fin 128) :
    (Gen.V17 m outs c main_v63 : S1x128.Idx → EReal) (ValueIdx.ix2 0 j) =
      (m ((c : Thread nD τ).loc main_arg23) : S128.Idx → EReal) (ValueIdx.ix1 j) := by
  rw [V17_main_v63_eq]
  exact row128_apply _ _ j

/-- The fourth layer's second bias row is its argument vector reshaped to one row. -/
theorem V17_main_v64_eq (c : Dev nD) :
    (Gen.V17 m outs c main_v64 : S1x128.Idx → EReal) =
      shapeCast S1x128 (m ((c : Thread nD τ).loc main_arg25) : S128.Idx → EReal) Gen.shapeCasts_S128_S1x128 := by
  refine (Gen.V17_of m outs c main_v64 (by decide)).trans ?_
  dsimp only [Gen.V16, Gen.hostOps3]
  after_results
  rw [show Gen.V15 m outs c (Proc.devRef .tc main_arg25) = m ((c : Thread nD τ).loc main_arg25) from
    V15_frozen m outs c main_arg25 (by decide)]
  rfl

/-- … and at `(0, j)` it is that vector at `j`. -/
theorem V17_main_v64_apply (c : Dev nD) (j : Fin 128) :
    (Gen.V17 m outs c main_v64 : S1x128.Idx → EReal) (ValueIdx.ix2 0 j) =
      (m ((c : Thread nD τ).loc main_arg25) : S128.Idx → EReal) (ValueIdx.ix1 j) := by
  rw [V17_main_v64_eq]
  exact row128_apply _ _ j

/-- The fourth layer's third bias row is its argument vector reshaped to one row. -/
theorem V17_main_v65_eq (c : Dev nD) :
    (Gen.V17 m outs c main_v65 : S1x16.Idx → EReal) =
      shapeCast S1x16 (m ((c : Thread nD τ).loc main_arg27) : S16.Idx → EReal) Gen.shapeCasts_S16_S1x16 := by
  refine (Gen.V17_of m outs c main_v65 (by decide)).trans ?_
  dsimp only [Gen.V16, Gen.hostOps3]
  after_results
  rw [show Gen.V15 m outs c (Proc.devRef .tc main_arg27) = m ((c : Thread nD τ).loc main_arg27) from
    V15_frozen m outs c main_arg27 (by decide)]
  rfl

/-- … and at `(0, j)` it is that vector at `j`. -/
theorem V17_main_v65_apply (c : Dev nD) (j : Fin 16) :
    (Gen.V17 m outs c main_v65 : S1x16.Idx → EReal) (ValueIdx.ix2 0 j) =
      (m ((c : Thread nD τ).loc main_arg27) : S16.Idx → EReal) (ValueIdx.ix1 j) := by
  rw [V17_main_v65_eq]
  exact row16_apply _ _ j

/-- The fourth layer's three weight matrices enter it as launched. -/
theorem V17_main_arg22 (c : Dev nD) : Gen.V17 m outs c main_arg22 = m ((c : Thread nD τ).loc main_arg22) :=
  V17_frozen m outs c main_arg22 (by decide)
theorem V17_main_arg24 (c : Dev nD) : Gen.V17 m outs c main_arg24 = m ((c : Thread nD τ).loc main_arg24) :=
  V17_frozen m outs c main_arg24 (by decide)
theorem V17_main_arg26 (c : Dev nD) : Gen.V17 m outs c main_arg26 = m ((c : Thread nD τ).loc main_arg26) :=
  V17_frozen m outs c main_arg26 (by decide)

/-- The edge tables made before the first layer enter the fourth layer as they entered the first. -/
theorem V17_main_v31 (c : Dev nD) : Gen.V17 m outs c main_v31 = Gen.V8 m c main_v31 :=
  (V17_eq_V14 m outs c main_v31 (by decide)).trans <|
    (V14_eq_V11 m outs c main_v31 (by decide)).trans (V11_eq_V8 m outs c main_v31 (by decide))
theorem V17_main_v39 (c : Dev nD) : Gen.V17 m outs c main_v39 = Gen.V8 m c main_v39 :=
  (V17_eq_V14 m outs c main_v39 (by decide)).trans <|
    (V14_eq_V11 m outs c main_v39 (by decide)).trans (V11_eq_V8 m outs c main_v39 (by decide))
theorem V17_main_v40 (c : Dev nD) : Gen.V17 m outs c main_v40 = Gen.V8 m c main_v40 :=
  (V17_eq_V14 m outs c main_v40 (by decide)).trans <|
    (V14_eq_V11 m outs c main_v40 (by decide)).trans (V11_eq_V8 m outs c main_v40 (by decide))
theorem V17_main_v41 (c : Dev nD) : Gen.V17 m outs c main_v41 = Gen.V8 m c main_v41 :=
  (V17_eq_V14 m outs c main_v41 (by decide)).trans <|
    (V14_eq_V11 m outs c main_v41 (by decide)).trans (V11_eq_V8 m outs c main_v41 (by decide))

/-! ## After the fourth layer -/

/-- The result as the host operations' term over the slabs the fourth layer left. -/
theorem V19_main_v69_eq (c : Dev nD) :
    (Gen.V19 m outs c main_v69 : S10000x16.Idx → EReal) =
      extractStridedSlice S10000x16 ![0, 0]
        (Host.reduceAdd (F := Ideal) (slabs4 outs c) (constant (F := Ideal) S_ .f32 0x00000000#32)
          Gen.reducesTo_S2x10240x16_S10240x16_d0 Gen.h_S_)
        Gen.slices_S10240x16_S10000x16_0_0 := by
  dsimp only [Gen.V19, Gen.hostOps4]
  after_results
  have e : Gen.V18 m outs c (Proc.devRef .tc main_v67) = outs 18 main_v67 c := Function.update_self _ _ _
  rw [e]

/-- The result at `(n, j)`: the two slabs' sum on node `n`'s row. -/
theorem V19_main_v69_apply (c : Dev nD) (n : Fin 10000) (j : Fin 16) :
    (Gen.V19 m outs c main_v69 : S10000x16.Idx → EReal) (ValueIdx.ix2 n j) =
      slabs4 outs c (ValueIdx.ix3 0 (Fin.castLE (by decide : 10000 ≤ 10240) n) j)
        + slabs4 outs c (ValueIdx.ix3 1 (Fin.castLE (by decide : 10000 ≤ 10240) n) j) := by
  rw [V19_main_v69_eq]
  exact result16_apply _ _ _ _ n j

end Cert.KernelIdeal.KHost

end
-- ==== Proof.Arrange.lean ====
import proofs.«414286_j65627100283289_3_alg».proof.Proof.Spec
import Mathlib.Data.EReal.Basic
import Mathlib.Algebra.BigOperators.Fin
import Mathlib.Algebra.BigOperators.Group.Finset.Piecewise
import Mathlib.Logic.Equiv.Fin.Basic

/-!
# The rearrangement algebra of one layer

One EdgeConv layer adds, at every node, the messages of the edges that point at it. The arrangement studied here
relists the 320000 edges along a permutation (a sort by target), cuts the list into 2 × 625 tiles of 256 edges,
reads every node row out of a table padded to 10240 = 10 × 1024 rows by multiplying with a 0/1 row, adds the
messages into the node rows by multiplying with a 0/1 column, and skips (gates) the chunks of 1024 rows that
cannot hold a target of the tile at hand. Each of these steps leaves the sums as they were; the facts below say so
one by one, over the extended reals, using only `0 * v = 0`, `1 * v = v`, `0 + v = v` and the commutative
monoid laws of `+`. No finiteness is assumed anywhere.
-/

noncomputable section

namespace Cert.Spec

open scoped BigOperators

/-! ## 1. The edge index split -/

/-- Edge number `(p*625+t)*256+r` of core `p`, tile `t`, row `r`. -/
def edgeAt (p : Fin 2) (t : Fin 625) (r : Fin 256) : Fin 320000 :=
  ⟨(p.val * 625 + t.val) * 256 + r.val, by omega⟩

@[simp] theorem edgeAt_val (p : Fin 2) (t : Fin 625) (r : Fin 256) :
    (edgeAt p t r).val = (p.val * 625 + t.val) * 256 + r.val := rfl

/-- The 320000 edges are the triples (core, tile, row). -/
def edgeSplit : Fin 2 × Fin 625 × Fin 256 ≃ Fin 320000 where
  toFun x := edgeAt x.1 x.2.1 x.2.2
  invFun a := (⟨a.val / 160000, by omega⟩, ⟨a.val / 256 % 625, by omega⟩, ⟨a.val % 256, by omega⟩)
  left_inv := by
    rintro ⟨p, t, r⟩
    ext <;> simp only [edgeAt_val] <;> omega
  right_inv := by
    intro a
    ext
    simp only [edgeAt_val]
    omega

theorem sum_edgeSplit {M : Type*} [AddCommMonoid M] (f : Fin 320000 → M) :
    ∑ a : Fin 320000, f a = ∑ p : Fin 2, ∑ t : Fin 625, ∑ r : Fin 256, f (edgeAt p t r) := by
  rw [← Equiv.sum_comp edgeSplit f, Fintype.sum_prod_type]
  refine Finset.sum_congr rfl fun p _ => ?_
  rw [Fintype.sum_prod_type]
  rfl

/-! ## 2. The padded node table in chunks, and the one-hot row pick -/

/-- Row `c*1024+k` of the padded table: row `k` of chunk `c`. -/
def rowAt (c : Fin 10) (k : Fin 1024) : Fin 10240 := ⟨c.val * 1024 + k.val, by omega⟩

@[simp] theorem rowAt_val (c : Fin 10) (k : Fin 1024) : (rowAt c k).val = c.val * 1024 + k.val := rfl

/-- The 10240 padded rows are the pairs (chunk, row in chunk). -/
def chunkSplit : Fin 10 × Fin 1024 ≃ Fin 10240 where
  toFun x := rowAt x.1 x.2
  invFun i := (⟨i.val / 1024, by omega⟩, ⟨i.val % 1024, by omega⟩)
  left_inv := by
    rintro ⟨c, k⟩
    ext <;> simp only [rowAt_val] <;> omega
  right_inv := by
    intro i
    ext
    simp only [rowAt_val]
    omega

theorem sum_chunkSplit {M : Type*} [AddCommMonoid M] (g : Fin 10240 → M) :
    ∑ i : Fin 10240, g i = ∑ c : Fin 10, ∑ k : Fin 1024, g (rowAt c k) := by
  rw [← Equiv.sum_comp chunkSplit g, Fintype.sum_prod_type]
  rfl

/-- A 0/1 row with its one at place `w` picks entry `w` (flat form). -/
theorem onehot_pick_flat (T : Fin 10240 → EReal) (w : ℕ) (hw : w < 10240) :
    ∑ i : Fin 10240, (if w = i.val then (1 : EReal) else 0) * T i = T ⟨w, hw⟩ := by
  rw [Finset.sum_eq_single (⟨w, hw⟩ : Fin 10240)]
  · simp
  · intro i _ hi
    have : ¬ w = i.val := fun h => hi (Fin.ext h.symm)
    simp [this]
  · intro h; exact absurd (Finset.mem_univ _) h

/-- A place outside the table picks nothing. -/
theorem onehot_pick_flat_out (T : Fin 10240 → EReal) (w : ℕ) (hw : ¬ w < 10240) :
    ∑ i : Fin 10240, (if w = i.val then (1 : EReal) else 0) * T i = 0 := by
  refine Finset.sum_eq_zero fun i _ => ?_
  have : ¬ w = i.val := fun h => hw (h ▸ i.isLt)
  simp [this]

/-- The one-hot row pick, chunk by chunk. -/
theorem onehot_pick (T : Fin 10240 → EReal) (w : ℕ) (hw : w < 10240) :
    ∑ c : Fin 10, ∑ k : Fin 1024,
      (if w = c.val * 1024 + k.val then (1 : EReal) else 0) * T ⟨c.val * 1024 + k.val, by omega⟩ = T ⟨w, hw⟩ := by
  rw [← onehot_pick_flat T w hw, sum_chunkSplit]
  rfl

/-- One chunk's share of the pick: the picked entry when the place lies in the chunk, zero otherwise. -/
theorem onehot_chunk (T : Fin 10240 → EReal) (w : ℕ) (c : Fin 10) :
    ∑ k : Fin 1024, (if w = c.val * 1024 + k.val then (1 : EReal) else 0) * T ⟨c.val * 1024 + k.val, by omega⟩
      = if h : w / 1024 = c.val then T ⟨w, by omega⟩ else 0 := by
  split_ifs with h
  · rw [Finset.sum_eq_single (⟨w % 1024, by omega⟩ : Fin 1024)]
    · have e : w = c.val * 1024 + w % 1024 := by omega
      have : (⟨c.val * 1024 + w % 1024, by omega⟩ : Fin 10240) = ⟨w, by omega⟩ := Fin.ext e.symm
      simp only [this]
      rw [if_pos e, one_mul]
    · intro k _ hk
      have : ¬ w = c.val * 1024 + k.val := fun e => hk (Fin.ext (by simp only; omega))
      rw [if_neg this, zero_mul]
    · intro h'; exact absurd (Finset.mem_univ _) h'
  · refine Finset.sum_eq_zero fun k _ => ?_
    have : ¬ w = c.val * 1024 + k.val := fun e => h (by omega)
    rw [if_neg this, zero_mul]

/-- A chunk that does not hold the place contributes zero. -/
theorem onehot_chunk_zero (T : Fin 10240 → EReal) (w : ℕ) (c : Fin 10) (h : w / 1024 ≠ c.val) :
    ∑ k : Fin 1024, (if w = c.val * 1024 + k.val then (1 : EReal) else 0) * T ⟨c.val * 1024 + k.val, by omega⟩ = 0 := by
  rw [onehot_chunk, dif_neg h]

/-- The left-nested fold of ten terms from zero is their sum. -/
theorem fold10 {M : Type*} [AddCommMonoid M] (S : Fin 10 → M) :
    0 + S 0 + S 1 + S 2 + S 3 + S 4 + S 5 + S 6 + S 7 + S 8 + S 9 = ∑ c : Fin 10, S c := by
  simp only [Fin.sum_univ_succ, Fin.sum_univ_zero, zero_add, add_zero, add_assoc]
  rfl

/-- The same fold without the leading zero. -/
theorem fold10' {M : Type*} [AddCommMonoid M] (S : Fin 10 → M) :
    S 0 + S 1 + S 2 + S 3 + S 4 + S 5 + S 6 + S 7 + S 8 + S 9 = ∑ c : Fin 10, S c := by
  rw [← fold10, zero_add]

/-- Every padded row is row `i % 1024` of chunk `i / 1024`. -/
theorem rowAt_div_mod (i : Fin 10240) : rowAt ⟨i.val / 1024, by omega⟩ ⟨i.val % 1024, by omega⟩ = i := by
  ext
  simp only [rowAt_val]
  omega

/-- The left-nested fold of two terms from zero is their sum. -/
theorem fold2 {M : Type*} [AddCommMonoid M] (S : Fin 2 → M) : 0 + S 0 + S 1 = ∑ p : Fin 2, S p := by
  rw [Fin.sum_univ_two, zero_add]

/-! ## 3. The one-hot column pick (the scatter) -/

/-- A 0/1 column times a column of values keeps exactly the marked values. -/
theorem onehot_mul_sum {ι : Type*} (s : Finset ι) (P : ι → Prop) [DecidablePred P] (M : ι → EReal) :
    ∑ r ∈ s, (if P r then (1 : EReal) else 0) * M r = ∑ r ∈ s, if P r then M r else 0 := by
  refine Finset.sum_congr rfl fun r _ => ?_
  split_ifs
  · rw [one_mul]
  · rw [zero_mul]

/-- The scatter of one tile into row `v`: the one-hot product is the sum of the rows whose target is `v`. -/
theorem onehot_scatter (d : Fin 256 → ℕ) (v : ℕ) (M : Fin 256 → EReal) :
    ∑ r : Fin 256, (if d r = v then (1 : EReal) else 0) * M r = ∑ r : Fin 256, if d r = v then M r else 0 :=
  onehot_mul_sum Finset.univ (fun r => d r = v) M

/-- The same with the comparison written the other way round. -/
theorem onehot_scatter' (d : Fin 256 → ℕ) (v : ℕ) (M : Fin 256 → EReal) :
    ∑ r : Fin 256, (if v = d r then (1 : EReal) else 0) * M r = ∑ r : Fin 256, if d r = v then M r else 0 := by
  rw [← onehot_scatter]
  refine Finset.sum_congr rfl fun r _ => ?_
  by_cases h : d r = v
  · rw [if_pos h, if_pos h.symm]
  · rw [if_neg h, if_neg (fun e => h e.symm)]

/-- A chunk that holds no target of the tile receives a zero block. -/
theorem scatter_chunk_zero (d : Fin 256 → ℕ) (c : Fin 10) (k : Fin 1024) (M : Fin 256 → EReal)
    (h : ∀ r : Fin 256, d r / 1024 ≠ c.val) :
    ∑ r : Fin 256, (if d r = c.val * 1024 + k.val then (1 : EReal) else 0) * M r = 0 := by
  refine Finset.sum_eq_zero fun r _ => ?_
  have : ¬ d r = c.val * 1024 + k.val := fun e => h r (by omega)
  rw [if_neg this, zero_mul]

/-! ## 4. The gate -/

/-- A gate whose closed side would have contributed zero anyway changes nothing. -/
theorem gate_eq {M : Type*} [Zero M] (P : Prop) [Decidable P] (s : M) (h : ¬ P → s = 0) :
    (if P then s else 0) = s := by
  split_ifs with hp
  · rfl
  · exact (h hp).symm

/-- One gated accumulation step is an unconditional step with a gated term. -/
theorem gate_step {M : Type*} [AddZeroClass M] (P : Prop) [Decidable P] (a s : M) :
    (if P then a + s else a) = a + (if P then s else 0) := by
  split_ifs
  · rfl
  · rw [add_zero]

/-- Gating the ten chunk terms on a range outside which they vanish leaves their sum as it was. -/
theorem gate_sum {M : Type*} [AddCommMonoid M] (P : Fin 10 → Prop) [DecidablePred P] (S : Fin 10 → M)
    (h : ∀ c : Fin 10, ¬ P c → S c = 0) :
    ∑ c : Fin 10, (if P c then S c else 0) = ∑ c : Fin 10, S c :=
  Finset.sum_congr rfl fun c _ => gate_eq (P c) (S c) (h c)

/-- The range gate over the naturals. -/
theorem gate_sum_nat {M : Type*} [AddCommMonoid M] (lo hi : ℕ) (S : Fin 10 → M)
    (h : ∀ c : Fin 10, ¬ (lo ≤ c.val ∧ c.val ≤ hi) → S c = 0) :
    ∑ c : Fin 10, (if lo ≤ c.val ∧ c.val ≤ hi then S c else 0) = ∑ c : Fin 10, S c :=
  gate_sum (fun c => lo ≤ c.val ∧ c.val ≤ hi) S h

/-- The range gate over the integers. -/
theorem gate_sum_int {M : Type*} [AddCommMonoid M] (lo hi : ℤ) (S : Fin 10 → M)
    (h : ∀ c : Fin 10, ¬ (lo ≤ (c.val : ℤ) ∧ (c.val : ℤ) ≤ hi) → S c = 0) :
    ∑ c : Fin 10, (if lo ≤ (c.val : ℤ) ∧ (c.val : ℤ) ≤ hi then S c else 0) = ∑ c : Fin 10, S c :=
  gate_sum (fun c => lo ≤ (c.val : ℤ) ∧ (c.val : ℤ) ≤ hi) S h

/-! ## 5. Sorted targets: a tile's targets lie in the chunks between its first and its last -/

/-- Edge `T*256+r` of tile `T` (tiles numbered through both cores). -/
def tileEdge (T : Fin 1250) (r : Fin 256) : Fin 320000 := ⟨T.val * 256 + r.val, by omega⟩

@[simp] theorem tileEdge_val (T : Fin 1250) (r : Fin 256) : (tileEdge T r).val = T.val * 256 + r.val := rfl

/-- Tile number `p*625+t`. -/
def tileOf (p : Fin 2) (t : Fin 625) : Fin 1250 := ⟨p.val * 625 + t.val, by omega⟩

@[simp] theorem tileOf_val (p : Fin 2) (t : Fin 625) : (tileOf p t).val = p.val * 625 + t.val := rfl

theorem edgeAt_eq_tileEdge (p : Fin 2) (t : Fin 625) (r : Fin 256) : edgeAt p t r = tileEdge (tileOf p t) r := rfl

/-- Along a sorted key the chunk numbers of a tile's entries lie between those of its first and last entry. -/
theorem tile_chunk_bounds (key : Fin 320000 → ℕ) (hmono : ∀ a b : Fin 320000, a ≤ b → key a ≤ key b)
    (T : Fin 1250) (r : Fin 256) :
    key (tileEdge T 0) / 1024 ≤ key (tileEdge T r) / 1024 ∧
      key (tileEdge T r) / 1024 ≤ key (tileEdge T 255) / 1024 := by
  constructor
  · refine Nat.div_le_div_right (hmono _ _ ?_)
    rw [Fin.le_def]; simp only [tileEdge_val]; have : ((0 : Fin 256) : ℕ) = 0 := rfl; omega
  · refine Nat.div_le_div_right (hmono _ _ ?_)
    rw [Fin.le_def]; simp only [tileEdge_val]; have : ((255 : Fin 256) : ℕ) = 255 := rfl; omega

/-- Hence an entry that sits at row `k` of chunk `c` forces `c` into the tile's chunk range. -/
theorem tile_chunk_range (key : Fin 320000 → ℕ) (hmono : ∀ a b : Fin 320000, a ≤ b → key a ≤ key b)
    (T : Fin 1250) (r : Fin 256) (c k : ℕ) (hk : k < 1024) (h : key (tileEdge T r) = c * 1024 + k) :
    key (tileEdge T 0) / 1024 ≤ c ∧ c ≤ key (tileEdge T 255) / 1024 := by
  have hb := tile_chunk_bounds key hmono T r
  have hc : key (tileEdge T r) / 1024 = c := by omega
  rw [hc] at hb
  exact hb

/-- Contrapositive: a chunk outside the tile's range holds none of the tile's entries. -/
theorem tile_chunk_outside (key : Fin 320000 → ℕ) (hmono : ∀ a b : Fin 320000, a ≤ b → key a ≤ key b)
    (T : Fin 1250) (c : Fin 10)
    (h : ¬ (key (tileEdge T 0) / 1024 ≤ c.val ∧ c.val ≤ key (tileEdge T 255) / 1024)) (r : Fin 256) :
    key (tileEdge T r) / 1024 ≠ c.val := by
  intro e
  have hb := tile_chunk_bounds key hmono T r
  rw [e] at hb
  exact h hb

/-- The gated row pick along a sorted key: any gate that is open on the tile's chunk range still picks the row. -/
theorem gated_pick (key : Fin 320000 → ℕ) (hmono : ∀ a b : Fin 320000, a ≤ b → key a ≤ key b)
    (T : Fin 1250) (r : Fin 256) (G : Fin 10 → Prop) [DecidablePred G]
    (hG : ∀ c : Fin 10, key (tileEdge T 0) / 1024 ≤ c.val → c.val ≤ key (tileEdge T 255) / 1024 → G c)
    (Tb : Fin 10240 → EReal) (hw : key (tileEdge T r) < 10240) :
    ∑ c : Fin 10, (if G c then
        ∑ k : Fin 1024, (if key (tileEdge T r) = c.val * 1024 + k.val then (1 : EReal) else 0)
          * Tb ⟨c.val * 1024 + k.val, by omega⟩
      else 0) = Tb ⟨key (tileEdge T r), hw⟩ := by
  rw [gate_sum]
  · exact onehot_pick Tb _ hw
  · intro c hc
    refine onehot_chunk_zero Tb _ c (tile_chunk_outside key hmono T c (fun hb => hc (hG c hb.1 hb.2)) r)

/-- The gated scatter along a sorted key: any gate that is open on the tile's chunk range still adds every
    row of the tile whose target is row `k` of chunk `c`. -/
theorem gated_scatter (key : Fin 320000 → ℕ) (hmono : ∀ a b : Fin 320000, a ≤ b → key a ≤ key b)
    (T : Fin 1250) (G : Fin 10 → Prop) [DecidablePred G]
    (hG : ∀ c : Fin 10, key (tileEdge T 0) / 1024 ≤ c.val → c.val ≤ key (tileEdge T 255) / 1024 → G c)
    (c : Fin 10) (k : Fin 1024) (M : Fin 256 → EReal) :
    (if G c then ∑ r : Fin 256, (if key (tileEdge T r) = c.val * 1024 + k.val then (1 : EReal) else 0) * M r else 0)
      = ∑ r : Fin 256, if key (tileEdge T r) = c.val * 1024 + k.val then M r else 0 := by
  rw [gate_eq]
  · exact onehot_scatter (fun r => key (tileEdge T r)) (c.val * 1024 + k.val) M
  · intro hc
    exact scatter_chunk_zero (fun r => key (tileEdge T r)) c k M
      (tile_chunk_outside key hmono T c (fun hb => hc (hG c hb.1 hb.2)))

/-! ## 6. The layer law -/

/-- One layer as the kernel arranges it: the edges relisted along `σ` (the sort by target), cut into
    2 cores × 625 tiles × 256 rows, every node adding the messages of the rows whose target it is. -/
def kernelLayer {d o : ℕ} (P : Weights d o) (x : Mat 10000 d) (src dst : Fin 320000 → Fin 10000)
    (σ : Equiv.Perm (Fin 320000)) : Mat 10000 o :=
  fun v j => ∑ p : Fin 2, ∑ t : Fin 625, ∑ r : Fin 256,
    if dst (σ (edgeAt p t r)) = v then message P x (src (σ (edgeAt p t r))) (dst (σ (edgeAt p t r))) j else 0

/-- The kernel's arrangement of a layer is the layer. -/
theorem kernelLayer_eq {d o : ℕ} (P : Weights d o) (x : Mat 10000 d) (src dst : Fin 320000 → Fin 10000)
    (σ : Equiv.Perm (Fin 320000)) : kernelLayer P x src dst σ = edgeConv P x src dst := by
  rw [← edgeConv_perm P x src dst σ]
  funext v j
  unfold kernelLayer edgeConv
  rw [sum_edgeSplit]
  rfl

/-- The row the one-hot products pick at place `w` of a padded table, column by column. -/
def pick {d : ℕ} (xp : Fin 10240 → Fin d → EReal) (w : ℕ) : Fin d → EReal :=
  fun j => ∑ c : Fin 10, ∑ k : Fin 1024,
    (if w = c.val * 1024 + k.val then (1 : EReal) else 0) * xp ⟨c.val * 1024 + k.val, by omega⟩ j

/-- On a table that carries `x` in its first 10000 rows the pick at a node is the node's row. -/
theorem pick_eq {d : ℕ} (x : Mat 10000 d) (xp : Fin 10240 → Fin d → EReal)
    (hx : ∀ i : Fin 10000, xp ⟨i.val, by omega⟩ = x i) (s : Fin 10000) : pick xp s.val = x s := by
  funext j
  unfold pick
  rw [onehot_pick (fun i => xp i j) s.val (by omega), hx s]

/-- The message computed from rows picked out of the padded table is the message. -/
theorem message_pick {d o : ℕ} (P : Weights d o) (x : Mat 10000 d) (xp : Fin 10240 → Fin d → EReal)
    (hx : ∀ i : Fin 10000, xp ⟨i.val, by omega⟩ = x i) (s t : Fin 10000) :
    mlp P (feats (pick xp t.val) (pick xp s.val)) = message P x s t := by
  rw [pick_eq x xp hx, pick_eq x xp hx]
  rfl

/-- The arranged layer with the target test written on node numbers. -/
theorem kernelLayer_apply_val {d o : ℕ} (P : Weights d o) (x : Mat 10000 d) (src dst : Fin 320000 → Fin 10000)
    (σ : Equiv.Perm (Fin 320000)) (v : Fin 10000) (j : Fin o) :
    kernelLayer P x src dst σ v j = ∑ p : Fin 2, ∑ t : Fin 625, ∑ r : Fin 256,
      if (dst (σ (edgeAt p t r))).val = v.val
        then message P x (src (σ (edgeAt p t r))) (dst (σ (edgeAt p t r))) j else 0 := by
  unfold kernelLayer
  refine Finset.sum_congr rfl fun p _ => Finset.sum_congr rfl fun t _ => Finset.sum_congr rfl fun r _ => ?_
  by_cases h : dst (σ (edgeAt p t r)) = v
  · rw [if_pos h, if_pos (congrArg Fin.val h)]
  · rw [if_neg h, if_neg (fun e => h (Fin.ext e))]

end Cert.Spec

end
-- ==== Proof.Accum.lean ====
import proofs.«414286_j65627100283289_3_alg».proof.Proof.Arrange
import Mathlib.Algebra.BigOperators.Fin
import Mathlib.Algebra.BigOperators.Pi

/-!
# The accumulation over a core's tiles

Each of the two cores keeps a running sum. The 1250 tiles are visited in order, tile `T = p * 625 + t` being tile
`t` of core `p`; at a core's first tile (`T % 625 = 0`) the running sum is set back to zero before the tile's
contribution is added, at every other tile the contribution is added to what is there. So after a core's last tile
the running sum holds exactly that core's 625 contributions, whatever it held before the core began; the two
cores' sums added give all 1250 contributions, and when a tile's contribution to a node row is the sum of the
messages of the tile's edges that point at the node, that total is the layer. The facts below say this for any
commutative monoid and any contributions; only the last section mentions messages.
-/

noncomputable section

namespace Cert.Spec

open scoped BigOperators

/-! ## 1. A running sum with resets -/

/-- A running sum that is set back at step `b` and at no later step up to `b + t` holds, after step `b + t`,
    the terms `b, …, b + t` added up, whatever it held before. -/
theorem accum_from_reset {M : Type*} [AddCommMonoid M] (R : ℕ → Prop) [DecidablePred R] (f A : ℕ → M)
    (hA : ∀ T, A (T + 1) = (if R T then 0 else A T) + f T) (b : ℕ) (hb : R b) (t : ℕ)
    (hR : ∀ s, 0 < s → s ≤ t → ¬ R (b + s)) :
    A (b + t + 1) = ∑ s ∈ Finset.range (t + 1), f (b + s) := by
  induction t with
  | zero => rw [Nat.add_zero, hA b, if_pos hb, zero_add, Finset.sum_range_one, Nat.add_zero]
  | succ t ih =>
    have h1 : ¬ R (b + t + 1) := hR (t + 1) (Nat.succ_pos t) le_rfl
    have h2 := ih (fun s h0 hs => hR s h0 (Nat.le_succ_of_le hs))
    have h3 : b + (t + 1) + 1 = (b + t + 1) + 1 := rfl
    rw [h3, hA (b + t + 1), if_neg h1, h2, Finset.sum_range_succ (fun s => f (b + s)) (t + 1)]
    rfl

/-- The running sum of core `p` after its tile `t`: the contributions of its tiles `0, …, t`. -/
theorem accum_core {M : Type*} [AddCommMonoid M] (f A : ℕ → M)
    (hA : ∀ T, A (T + 1) = (if T % 625 = 0 then 0 else A T) + f T) (p t : ℕ) (ht : t < 625) :
    A (p * 625 + t + 1) = ∑ s ∈ Finset.range (t + 1), f (p * 625 + s) :=
  accum_from_reset (fun T => T % 625 = 0) f A hA (p * 625) (Nat.mul_mod_left p 625) t
    (fun s h0 hs => by omega)

/-- After a core's last tile its running sum is the sum of its 625 contributions; the starting value `A 0` and
    the other core's contributions do not enter. -/
theorem accum_core_full {M : Type*} [AddCommMonoid M] (f A : ℕ → M)
    (hA : ∀ T, A (T + 1) = (if T % 625 = 0 then 0 else A T) + f T) (p : ℕ) :
    A (p * 625 + 625) = ∑ t : Fin 625, f (p * 625 + t.val) := by
  rw [← Finset.sum_range (fun s => f (p * 625 + s))]
  exact accum_core f A hA p 624 (by norm_num)

/-! ## 2. The step stated entry by entry, the reset inside -/

/-- The same for a family of running sums whose step is stated at every index, one index. -/
theorem accum_core_apply {ι : Type*} {M : Type*} [AddCommMonoid M] (f A : ℕ → ι → M)
    (hA : ∀ T x, A (T + 1) x = (if T % 625 = 0 then 0 else A T x) + f T x) (p t : ℕ) (ht : t < 625) (x : ι) :
    A (p * 625 + t + 1) x = ∑ s ∈ Finset.range (t + 1), f (p * 625 + s) x :=
  accum_core (fun T => f T x) (fun T => A T x) (fun T => hA T x) p t ht

theorem accum_core_full_apply {ι : Type*} {M : Type*} [AddCommMonoid M] (f A : ℕ → ι → M)
    (hA : ∀ T x, A (T + 1) x = (if T % 625 = 0 then 0 else A T x) + f T x) (p : ℕ) (x : ι) :
    A (p * 625 + 625) x = ∑ t : Fin 625, f (p * 625 + t.val) x :=
  accum_core_full (fun T => f T x) (fun T => A T x) (fun T => hA T x) p

/-- Two indices (node row and column). -/
theorem accum_core_apply₂ {ι κ : Type*} {M : Type*} [AddCommMonoid M] (f A : ℕ → ι → κ → M)
    (hA : ∀ T n j, A (T + 1) n j = (if T % 625 = 0 then 0 else A T n j) + f T n j) (p t : ℕ) (ht : t < 625)
    (n : ι) (j : κ) :
    A (p * 625 + t + 1) n j = ∑ s ∈ Finset.range (t + 1), f (p * 625 + s) n j :=
  accum_core (fun T => f T n j) (fun T => A T n j) (fun T => hA T n j) p t ht

theorem accum_core_full_apply₂ {ι κ : Type*} {M : Type*} [AddCommMonoid M] (f A : ℕ → ι → κ → M)
    (hA : ∀ T n j, A (T + 1) n j = (if T % 625 = 0 then 0 else A T n j) + f T n j) (p : ℕ) (n : ι) (j : κ) :
    A (p * 625 + 625) n j = ∑ t : Fin 625, f (p * 625 + t.val) n j :=
  accum_core_full (fun T => f T n j) (fun T => A T n j) (fun T => hA T n j) p

/-- A step stated on whole tables (zero table, tables added entry by entry) is a step at every entry. -/
theorem accum_step_apply₂ {ι κ : Type*} {M : Type*} [AddCommMonoid M] (f A : ℕ → ι → κ → M)
    (hA : ∀ T, A (T + 1) = (if T % 625 = 0 then 0 else A T) + f T) (T : ℕ) (n : ι) (j : κ) :
    A (T + 1) n j = (if T % 625 = 0 then 0 else A T n j) + f T n j := by
  rw [hA T]
  split_ifs <;> rfl

/-! ## 3. The contribution gated chunk by chunk -/

/-- A contribution gated on the chunk of the node row, zero anyway where the gate is shut, is the ungated one. -/
theorem gated_contribution_eq {κ : Type*} {M : Type*} [Zero M] (G : ℕ → Prop) [DecidablePred G]
    (g : Fin 10240 → κ → M) (hg : ∀ (n : Fin 10240) (j : κ), ¬ G (n.val / 1024) → g n j = 0) :
    (fun (n : Fin 10240) (j : κ) => if G (n.val / 1024) then g n j else 0) = g := by
  funext n j
  exact gate_eq (G (n.val / 1024)) (g n j) (hg n j)

/-- The same for a tile-indexed family given by an equation. -/
theorem gated_contribution_eq' {κ : Type*} {M : Type*} [Zero M] (G : ℕ → ℕ → Prop) [∀ T c, Decidable (G T c)]
    (f g : ℕ → Fin 10240 → κ → M) (T : ℕ)
    (hf : f T = fun (n : Fin 10240) (j : κ) => if G T (n.val / 1024) then g T n j else 0)
    (hg : ∀ (n : Fin 10240) (j : κ), ¬ G T (n.val / 1024) → g T n j = 0) : f T = g T := by
  rw [hf]
  exact gated_contribution_eq (G T) (g T) hg

/-- Along a sorted key, a tile's scatter into a node row whose chunk lies outside the tile's chunk range is zero:
    the hypothesis the two facts above ask for, for any gate that is open on that range. -/
theorem tile_scatter_zero_outside {M : Type*} [AddCommMonoid M] (key : Fin 320000 → ℕ)
    (hmono : ∀ a b : Fin 320000, a ≤ b → key a ≤ key b) (T : Fin 1250) (G : ℕ → Prop)
    (hG : ∀ c : ℕ, key (tileEdge T 0) / 1024 ≤ c → c ≤ key (tileEdge T 255) / 1024 → G c)
    (m : Fin 256 → M) (n : Fin 10240) (hn : ¬ G (n.val / 1024)) :
    ∑ r : Fin 256, (if key (tileEdge T r) = n.val then m r else 0) = 0 := by
  refine Finset.sum_eq_zero fun r _ => ?_
  have hb := tile_chunk_bounds key hmono T r
  have : ¬ key (tileEdge T r) = n.val := fun e => hn (hG _ (e ▸ hb.1) (e ▸ hb.2))
  rw [if_neg this]

/-! ## 4. The two cores added -/

/-- The two cores' final running sums, folded from zero, are all 1250 contributions added up. -/
theorem accum_two_cores {M : Type*} [AddCommMonoid M] (f A : ℕ → M)
    (hA : ∀ T, A (T + 1) = (if T % 625 = 0 then 0 else A T) + f T) :
    (0 + A 625) + A 1250 = ∑ p : Fin 2, ∑ t : Fin 625, f (p.val * 625 + t.val) := by
  have h0 := accum_core_full f A hA 0
  have h1 := accum_core_full f A hA 1
  rw [← fold2 (fun p : Fin 2 => ∑ t : Fin 625, f (p.val * 625 + t.val))]
  exact congrArg₂ (fun a b => (0 + a) + b) h0 h1

/-- The same at an entry, the step stated entry by entry. -/
theorem accum_two_cores_apply₂ {ι κ : Type*} {M : Type*} [AddCommMonoid M] (f A : ℕ → ι → κ → M)
    (hA : ∀ T n j, A (T + 1) n j = (if T % 625 = 0 then 0 else A T n j) + f T n j) (n : ι) (j : κ) :
    (0 + A 625 n j) + A 1250 n j = ∑ p : Fin 2, ∑ t : Fin 625, f (p.val * 625 + t.val) n j :=
  accum_two_cores (fun T => f T n j) (fun T => A T n j) (fun T => hA T n j)

/-! ## 5. The total is the layer -/

/-- When tile `T` contributes to node row `n` the values of its 256 edges whose key is `n`, the two cores' sums
    hold, at row `n`, the values of all edges whose key is `n`, listed by core, tile and row. -/
theorem accum_scatter {o : ℕ} (key : Fin 320000 → ℕ) (msg : Fin 320000 → Fin o → EReal)
    (f A : ℕ → Fin 10240 → Fin o → EReal)
    (hA : ∀ T n j, A (T + 1) n j = (if T % 625 = 0 then 0 else A T n j) + f T n j)
    (hf : ∀ (T : ℕ) (hT : T < 1250) (n : Fin 10240) (j : Fin o), f T n j =
      ∑ r : Fin 256, if key (tileEdge ⟨T, hT⟩ r) = n.val then msg (tileEdge ⟨T, hT⟩ r) j else 0)
    (n : Fin 10240) (j : Fin o) :
    (0 + A 625 n j) + A 1250 n j = ∑ p : Fin 2, ∑ t : Fin 625, ∑ r : Fin 256,
      if key (edgeAt p t r) = n.val then msg (edgeAt p t r) j else 0 := by
  rw [accum_two_cores_apply₂ f A hA n j]
  refine Finset.sum_congr rfl fun p _ => Finset.sum_congr rfl fun t _ => ?_
  rw [hf (p.val * 625 + t.val) (by omega) n j]
  rfl

/-- With the key the target of the relisted edge and the value its message, the two cores' sums at a node's row
    are the arranged layer, hence the layer. -/
theorem accum_eq_kernelLayer {d o : ℕ} (P : Weights d o) (x : Mat 10000 d) (src dst : Fin 320000 → Fin 10000)
    (σ : Equiv.Perm (Fin 320000)) (f A : ℕ → Fin 10240 → Fin o → EReal)
    (hA : ∀ T n j, A (T + 1) n j = (if T % 625 = 0 then 0 else A T n j) + f T n j)
    (hf : ∀ (T : ℕ) (hT : T < 1250) (n : Fin 10240) (j : Fin o), f T n j =
      ∑ r : Fin 256, if (dst (σ (tileEdge ⟨T, hT⟩ r))).val = n.val
        then message P x (src (σ (tileEdge ⟨T, hT⟩ r))) (dst (σ (tileEdge ⟨T, hT⟩ r))) j else 0)
    (v : Fin 10000) (j : Fin o) :
    (0 + A 625 ⟨v.val, by omega⟩ j) + A 1250 ⟨v.val, by omega⟩ j = kernelLayer P x src dst σ v j := by
  rw [kernelLayer_apply_val]
  exact accum_scatter (fun a => (dst (σ a)).val) (fun a => message P x (src (σ a)) (dst (σ a))) f A hA hf
    ⟨v.val, by omega⟩ j

theorem accum_eq_edgeConv {d o : ℕ} (P : Weights d o) (x : Mat 10000 d) (src dst : Fin 320000 → Fin 10000)
    (σ : Equiv.Perm (Fin 320000)) (f A : ℕ → Fin 10240 → Fin o → EReal)
    (hA : ∀ T n j, A (T + 1) n j = (if T % 625 = 0 then 0 else A T n j) + f T n j)
    (hf : ∀ (T : ℕ) (hT : T < 1250) (n : Fin 10240) (j : Fin o), f T n j =
      ∑ r : Fin 256, if (dst (σ (tileEdge ⟨T, hT⟩ r))).val = n.val
        then message P x (src (σ (tileEdge ⟨T, hT⟩ r))) (dst (σ (tileEdge ⟨T, hT⟩ r))) j else 0)
    (v : Fin 10000) (j : Fin o) :
    (0 + A 625 ⟨v.val, by omega⟩ j) + A 1250 ⟨v.val, by omega⟩ j = edgeConv P x src dst v j := by
  rw [accum_eq_kernelLayer P x src dst σ f A hA hf v j, kernelLayer_eq]

end Cert.Spec

end
-- ==== Proof.KLayersI.lean ====
import proofs.«414286_j65627100283289_3_alg».proof.Proof.KHostMid
import proofs.«414286_j65627100283289_3_alg».proof.Proof.Accum
import proofs.«414286_j65627100283289_3_alg».proof.Proof.Arrange
import proofs.«414286_j65627100283289_3_alg».proof.Proof.Args

/-!
# The four layers composed

A layer's run leaves two slabs, one per core. What the layer's own analysis shows of them is stated here once, as
`RegionLeaves`: the slab of core `p` is that core's running sum after its last tile, the running sum is set back at a
core's first tile and otherwise grows by the tile's contribution, and a tile's contribution to a node row is the sum
of the messages of the tile's edges, relisted along the sort's permutation, that point at the node. From that the
two slabs added give, on a node's row, the layer of `Spec` on the layer's input; the host's operations between the
layers make that sum the next layer's input and, after the last layer, the result. So four such facts, over ONE
permutation of the edges, make the result buffer the network of `Spec` on the argument arrays.
-/

set_option maxRecDepth 1376

noncomputable section

namespace Cert.KernelIdeal.KHost

open Idealize.ShloMosaic Idealize.ShloMosaic.TcCoe Idealize.ShloMosaic.ValueIdx
open Idealize.SL.Sem
open Cert.KernelIdeal
open Cert.Spec

/-! ## What a layer's run is shown to leave -/

/-- The slabs `S` (core, node row, column) of a layer with parameters `P` and input `x`, over the edge columns `src`,
    `dst` relisted along `σ`: there are a running sum `A` and tile contributions `f` such that core `p`'s slab is the
    running sum after that core's last tile, the running sum restarts at a core's first tile, and tile `T` contributes
    to row `n` the messages of its 256 edges whose target is `n`. -/
def RegionLeaves {d o : ℕ} (P : Weights d o) (x : Mat 10000 d) (src dst : Fin 320000 → Fin 10000)
    (σ : Equiv.Perm (Fin 320000)) (S : Fin 2 → Fin 10240 → Fin o → EReal) : Prop :=
  ∃ A f : ℕ → Fin 10240 → Fin o → EReal,
    (∀ (p : Fin 2) (n : Fin 10240) (j : Fin o), S p n j = A (p.val * 625 + 625) n j) ∧
    (∀ T n j, A (T + 1) n j = (if T % 625 = 0 then 0 else A T n j) + f T n j) ∧
    (∀ (T : ℕ) (hT : T < 1250) (n : Fin 10240) (j : Fin o), f T n j =
      ∑ r : Fin 256, if (dst (σ (tileEdge ⟨T, hT⟩ r))).val = n.val
        then message P x (src (σ (tileEdge ⟨T, hT⟩ r))) (dst (σ (tileEdge ⟨T, hT⟩ r))) j else 0)

/-- A node's row of a 10240-row table. -/
abbrev up (v : Fin 10000) : Fin 10240 := Fin.castLE (by decide : 10000 ≤ 10240) v

/-- Then the two slabs added are, on a node's row, the layer. -/
theorem RegionLeaves.sum_eq {d o : ℕ} {P : Weights d o} {x : Mat 10000 d} {src dst : Fin 320000 → Fin 10000}
    {σ : Equiv.Perm (Fin 320000)} {S : Fin 2 → Fin 10240 → Fin o → EReal} (hL : RegionLeaves P x src dst σ S)
    (v : Fin 10000) (j : Fin o) : S 0 (up v) j + S 1 (up v) j = edgeConv P x src dst v j := by
  obtain ⟨A, f, hS, hA, hf⟩ := hL
  have e := accum_eq_edgeConv P x src dst σ f A hA hf v j
  rw [zero_add] at e
  rw [hS 0, hS 1]
  exact e

/-! ## The layers' parameters and inputs as the buffers give them -/

variable (m : (ℓ : Loc nD τ sig) → Buf (Elt Ideal) ℓ) (outs : Gen.Outs (F := Ideal))

/-- The first layer's parameters. -/
abbrev par0 (c : Dev nD) : Weights 4 128 := weightsOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
/-- The second layer's parameters. -/
abbrev par1 (c : Dev nD) : Weights 128 128 := weightsOf (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
/-- The third layer's parameters. -/
abbrev par2 (c : Dev nD) : Weights 128 128 := weightsOf (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))
/-- The fourth layer's parameters. -/
abbrev par3 (c : Dev nD) : Weights 128 16 := weightsOf (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27))

/-- The first layer's input: the node features. -/
abbrev inp0 (c : Dev nD) : Mat 10000 4 := matOf (m ((c : Thread nD τ).loc main_arg0))
/-- The second layer's input: the nodes' rows of the table the host makes of the first layer's slabs. -/
def inp1 (c : Dev nD) : Mat 10000 128 := fun v j => (Gen.V11 m outs c main_v52 : S10240x128.Idx → EReal) (ValueIdx.ix2 (up v) j)
/-- The third layer's input. -/
def inp2 (c : Dev nD) : Mat 10000 128 := fun v j => (Gen.V14 m outs c main_v59 : S10240x128.Idx → EReal) (ValueIdx.ix2 (up v) j)
/-- The fourth layer's input. -/
def inp3 (c : Dev nD) : Mat 10000 128 := fun v j => (Gen.V17 m outs c main_v66 : S10240x128.Idx → EReal) (ValueIdx.ix2 (up v) j)

/-- The first layer's slabs by core, node row and column. -/
abbrev slabFn1 (c : Dev nD) : Fin 2 → Fin 10240 → Fin 128 → EReal := fun p n j => slabs1 outs c (ValueIdx.ix3 p n j)
/-- The second layer's slabs. -/
abbrev slabFn2 (c : Dev nD) : Fin 2 → Fin 10240 → Fin 128 → EReal := fun p n j => slabs2 outs c (ValueIdx.ix3 p n j)
/-- The third layer's slabs. -/
abbrev slabFn3 (c : Dev nD) : Fin 2 → Fin 10240 → Fin 128 → EReal := fun p n j => slabs3 outs c (ValueIdx.ix3 p n j)
/-- The fourth layer's slabs. -/
abbrev slabFn4 (c : Dev nD) : Fin 2 → Fin 10240 → Fin 16 → EReal := fun p n j => slabs4 outs c (ValueIdx.ix3 p n j)

/-- The sources' column of the edge list argument. -/
abbrev srcK (c : Dev nD) (h : InRange (m ((c : Thread nD τ).loc main_arg2))) : Fin 320000 → Fin 10000 :=
  srcOf (m ((c : Thread nD τ).loc main_arg2)) h
/-- The targets' column. -/
abbrev dstK (c : Dev nD) (h : InRange (m ((c : Thread nD τ).loc main_arg2))) : Fin 320000 → Fin 10000 :=
  dstOf (m ((c : Thread nD τ).loc main_arg2)) h

/-- A later layer's input at `(v, j)` is its node table at node `v`'s row. -/
theorem inp1_apply (c : Dev nD) (v : Fin 10000) (j : Fin 128) :
    inp1 m outs c v j = (Gen.V11 m outs c main_v52 : S10240x128.Idx → EReal) (ValueIdx.ix2 (up v) j) := rfl
theorem inp2_apply (c : Dev nD) (v : Fin 10000) (j : Fin 128) :
    inp2 m outs c v j = (Gen.V14 m outs c main_v59 : S10240x128.Idx → EReal) (ValueIdx.ix2 (up v) j) := rfl
theorem inp3_apply (c : Dev nD) (v : Fin 10000) (j : Fin 128) :
    inp3 m outs c v j = (Gen.V17 m outs c main_v66 : S10240x128.Idx → EReal) (ValueIdx.ix2 (up v) j) := rfl

/-! ## Each layer's input is the layer before -/

section Chain

variable (c : Dev nD) (h : InRange (m ((c : Thread nD τ).loc main_arg2))) (σ : Equiv.Perm (Fin 320000))

/-- The second layer's node table: the first layer on a node's row, `0` on a padding row. -/
theorem table1_apply (H0 : RegionLeaves (par0 m c) (inp0 m c) (srcK m c h) (dstK m c h) σ (slabFn1 outs c))
    (n : Fin 10240) (j : Fin 128) :
    (Gen.V11 m outs c main_v52 : S10240x128.Idx → EReal) (ValueIdx.ix2 n j) =
      if hn : n.val < 10000 then edgeConv (par0 m c) (inp0 m c) (srcK m c h) (dstK m c h) ⟨n.val, hn⟩ j else 0 := by
  rw [V11_main_v52_apply]
  by_cases hn : n.val < 10000
  · rw [if_pos hn, dif_pos hn]
    exact H0.sum_eq ⟨n.val, hn⟩ j
  · rw [if_neg hn, dif_neg hn]

/-- The second layer's input is the first layer. -/
theorem inp1_eq (H0 : RegionLeaves (par0 m c) (inp0 m c) (srcK m c h) (dstK m c h) σ (slabFn1 outs c)) :
    inp1 m outs c = edgeConv (par0 m c) (inp0 m c) (srcK m c h) (dstK m c h) := by
  funext v j
  unfold inp1
  rw [V11_main_v52_apply, if_pos (show (up v).val < 10000 from v.isLt)]
  exact H0.sum_eq v j

/-- The third layer's node table: the second layer on a node's row, `0` on a padding row. -/
theorem table2_apply (H1 : RegionLeaves (par1 m c) (inp1 m outs c) (srcK m c h) (dstK m c h) σ (slabFn2 outs c))
    (n : Fin 10240) (j : Fin 128) :
    (Gen.V14 m outs c main_v59 : S10240x128.Idx → EReal) (ValueIdx.ix2 n j) =
      if hn : n.val < 10000 then edgeConv (par1 m c) (inp1 m outs c) (srcK m c h) (dstK m c h) ⟨n.val, hn⟩ j else 0 := by
  rw [V14_main_v59_apply]
  by_cases hn : n.val < 10000
  · rw [if_pos hn, dif_pos hn]
    exact H1.sum_eq ⟨n.val, hn⟩ j
  · rw [if_neg hn, dif_neg hn]

/-- The third layer's input is the second layer on its input. -/
theorem inp2_eq (H1 : RegionLeaves (par1 m c) (inp1 m outs c) (srcK m c h) (dstK m c h) σ (slabFn2 outs c)) :
    inp2 m outs c = edgeConv (par1 m c) (inp1 m outs c) (srcK m c h) (dstK m c h) := by
  funext v j
  unfold inp2
  rw [V14_main_v59_apply, if_pos (show (up v).val < 10000 from v.isLt)]
  exact H1.sum_eq v j

/-- The fourth layer's node table: the third layer on a node's row, `0` on a padding row. -/
theorem table3_apply (H2 : RegionLeaves (par2 m c) (inp2 m outs c) (srcK m c h) (dstK m c h) σ (slabFn3 outs c))
    (n : Fin 10240) (j : Fin 128) :
    (Gen.V17 m outs c main_v66 : S10240x128.Idx → EReal) (ValueIdx.ix2 n j) =
      if hn : n.val < 10000 then edgeConv (par2 m c) (inp2 m outs c) (srcK m c h) (dstK m c h) ⟨n.val, hn⟩ j else 0 := by
  rw [V17_main_v66_apply]
  by_cases hn : n.val < 10000
  · rw [if_pos hn, dif_pos hn]
    exact H2.sum_eq ⟨n.val, hn⟩ j
  · rw [if_neg hn, dif_neg hn]

/-- The fourth layer's input is the third layer on its input. -/
theorem inp3_eq (H2 : RegionLeaves (par2 m c) (inp2 m outs c) (srcK m c h) (dstK m c h) σ (slabFn3 outs c)) :
    inp3 m outs c = edgeConv (par2 m c) (inp2 m outs c) (srcK m c h) (dstK m c h) := by
  funext v j
  unfold inp3
  rw [V17_main_v66_apply, if_pos (show (up v).val < 10000 from v.isLt)]
  exact H2.sum_eq v j

/-- The result buffer at `(n, j)` is the fourth layer on its input. -/
theorem result_apply (H3 : RegionLeaves (par3 m c) (inp3 m outs c) (srcK m c h) (dstK m c h) σ (slabFn4 outs c))
    (n : Fin 10000) (j : Fin 16) :
    (Gen.V19 m outs c main_v69 : S10000x16.Idx → EReal) (ValueIdx.ix2 n j) =
      edgeConv (par3 m c) (inp3 m outs c) (srcK m c h) (dstK m c h) n j := by
  rw [V19_main_v69_apply]
  exact H3.sum_eq n j

/-! ## The result is the network -/

/-- From the four layers' facts over one permutation of the edges: the result buffer holds the network of `Spec` on
    the argument arrays. -/
theorem result_eq_netOf
    (H0 : RegionLeaves (par0 m c) (inp0 m c) (srcK m c h) (dstK m c h) σ (slabFn1 outs c))
    (H1 : RegionLeaves (par1 m c) (inp1 m outs c) (srcK m c h) (dstK m c h) σ (slabFn2 outs c))
    (H2 : RegionLeaves (par2 m c) (inp2 m outs c) (srcK m c h) (dstK m c h) σ (slabFn3 outs c))
    (H3 : RegionLeaves (par3 m c) (inp3 m outs c) (srcK m c h) (dstK m c h) σ (slabFn4 outs c)) :
    (Gen.V19 m outs c main_v69 : S10000x16.Idx → EReal) =
      netOf (m ((c : Thread nD τ).loc main_arg0)) (m ((c : Thread nD τ).loc main_arg2)) h
        (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
        (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))
        (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) := by
  funext i
  obtain ⟨n, j, rfl⟩ : ∃ (n : Fin 10000) (j : Fin 16), i = ValueIdx.ix2 n j := ⟨i 0, i 1, eq_ix2 i⟩
  rw [result_apply m outs c h σ H3 n j, inp3_eq m outs c h σ H2, inp2_eq m outs c h σ H1, inp1_eq m outs c h σ H0]
  rfl

end Chain

end Cert.KernelIdeal.KHost

end
-- ==== Proof.LibGatherVec.lean ====
/-
  A gather of single entries of a vector, read at an index.

  A table `T : [N]` gathered at a column `idx : [R, 1]` of start indices with no offset axes, collapsed_slice_dims = [0],
  start_index_map = [0], index_vector_dim = 1 and slice sizes [1] has the result `[R]` whose entry `e` is an entry of the
  table. Read at `e` it is the table at `r`, where `r` is the start index `idx[e, 0]` read as a signed integer and clamped
  into `[0, N − 1]`: the table's one axis is start-indexed and collapsed, so its slice has extent one and the clamp's upper
  end is `N − 1`.

  The library states this for the index `Shape.Idx.ofFin e` and the column position `ixP e`
  (`StableHlo.Predicate.gather_take`); here it is restated over the coordinate constructors `ix1 e` and `ix2 e 0`, the form
  a value proof written with those constructors meets.
-/
import Idealize.ShloMosaic.PureOps.ShapeOps
import Idealize.ShloMosaic.Lib.ValueIdx
import Idealize.ShloMosaic.Lib.StableHlo.Predicate

namespace Idealize.ShloMosaic.GatherVec

open Idealize.ShloMosaic Idealize.ShloMosaic.ValueIdx

/-- The rank-1 index built from a coordinate is the same index however it is spelt. -/
theorem ix1_eq_ofFin {n : Nat} (e : Fin n) : (ix1 e : (⟨1, ![n]⟩ : Shape).Idx) = Shape.Idx.ofFin e := by
  funext a
  match a with
  | ⟨0, _⟩ => exact Fin.ext rfl

/-- Row `e` of an `[n, 1]` column is the index `(e, 0)`. -/
theorem ix2_zero_eq_ixP {n : Nat} (e : Fin n) :
    (ix2 e (0 : Fin 1) : (⟨2, ![n, 1]⟩ : Shape).Idx) = StableHlo.Predicate.ixP e := by
  funext a
  match a with
  | ⟨0, _⟩ => rfl
  | ⟨1, _⟩ => rfl

/-- THE ENTRY GATHER READ AT `e`. For dimension numbers over a table `[N]`, start indices `[R, 1]` and result `[R]` with
    collapsed axis 0, no batching axes, start index map `[0]` and the index vector on axis 1 (`hcoll` … `hivd`: the record's
    field values): the table at entry `idx[e, 0]`, read signed and clamped into `[0, N − 1]`. -/
theorem gather_vec {α : Type} {N R w : Nat} (d : GatherDims ⟨1, ![N]⟩ ⟨2, ![R, 1]⟩ ⟨1, ![R]⟩)
    (hcoll : d.collapsedSliceDims = [0]) (hob : d.operandBatchingDims = [])
    (hsim : d.startIndexMap = [0]) (hivd : d.indexVectorDim = 1)
    (T : (⟨1, ![N]⟩ : Shape).Idx → α) (idx : IVec ⟨2, ![R, 1]⟩ w) (e : Fin R) (hN : 0 < N) :
    Host.gather d T idx (ix1 e) = T (ix1 ⟨min (idx (ix2 e 0)).toInt.toNat (N - 1), by omega⟩) := by
  rw [ix1_eq_ofFin e, StableHlo.Predicate.gather_take d hcoll hob hsim hivd T idx e hN, ← ix1_eq_ofFin]
  refine congrArg (fun r => T (ix1 r)) (Fin.ext ?_)
  show min (idx (StableHlo.Predicate.ixP e)).toInt.toNat (N - 1) = min (idx (ix2 e 0)).toInt.toNat (N - 1)
  rw [ix2_zero_eq_ixP]

end Idealize.ShloMosaic.GatherVec
-- ==== Proof.LibHostReads.lean ====
/-
  Host broadcasts and an all-true mask, read at an index.

  A vector [n] laid out as a column [n, 1] keeps its entries; laid along the first axis of an [n, m] matrix it is constant
  along each row. A reduction by `and`, started from the bit 1, of an array of bits that are all 1 is the bit 1 at every
  result index, whatever the axes reduced.
-/
import Idealize.ShloMosaic.PureOps.Reduce
import Idealize.ShloMosaic.Lib.ValueIdx

namespace Idealize.ShloMosaic.HostReads

open Idealize.ShloMosaic Idealize.ShloMosaic.ValueIdx

variable {α : Type}

/-- A vector `[n]` broadcast to a column `[n, 1]` along axis 0 reads, at `(p, u)`, the vector at `p`. -/
theorem broadcastInDim_vec_col_apply {n : ℕ} (h : (⟨1, ![n]⟩ : Shape).BroadcastsInDim ⟨2, ![n, 1]⟩ ![0])
    (v : (⟨1, ![n]⟩ : Shape).Idx → α) (p : Fin n) (u : Fin 1) :
    broadcastInDim ⟨2, ![n, 1]⟩ ![0] h v (ix2 p u) = v (ix1 p) := by
  unfold broadcastInDim
  congr 1
  funext a
  match a with
  | ⟨0, _⟩ =>
    apply Fin.ext
    dsimp only
    split
    · rename_i h1
      have h1' : n = 1 := h1
      have := p.isLt
      show (0 : ℕ) = p.val
      omega
    · rfl

/-- A vector `[n]` broadcast along the first axis of an `[n, m]` matrix reads, at `(p, q)`, the vector at `p`. -/
theorem broadcastInDim_vec_rows_apply {n m : ℕ} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) := by
  unfold broadcastInDim
  congr 1
  funext a
  match a with
  | ⟨0, _⟩ =>
    apply Fin.ext
    dsimp only
    split
    · rename_i h1
      have h1' : n = 1 := h1
      have := p.isLt
      show (0 : ℕ) = p.val
      omega
    · rfl

/-- A left fold by `and` from the bit 1 over bits that are all 1 is 1. -/
theorem foldl_andi_one {ι : Type} (f : ι → BitVec 1) (hf : ∀ i, f i = 1#1) :
    ∀ (l : List ι) (r : BitVec 1), r = 1#1 → l.foldl (fun r n => IntOp.andi r (f n)) r = 1#1
  | [], r, hr => hr
  | a :: l, r, hr => by
    rw [List.foldl_cons]
    exact foldl_andi_one f hf l _ (by rw [hr, hf a]; decide)

/-- A reduction by `and` from an initial 1 of an array of bits that are all 1 is 1 at every result index. -/
theorem reduce_andi_of_forall_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  exact foldl_andi_one x hx _ _ hinit

end Idealize.ShloMosaic.HostReads
-- ==== Proof.KHostSort.lean ====
import proofs.«414286_j65627100283289_3_alg».proof.Proof.Gen.KernelIdeal.Regions
import proofs.«414286_j65627100283289_3_alg».proof.Proof.Args
import proofs.«414286_j65627100283289_3_alg».proof.Proof.LibGatherVec
import proofs.«414286_j65627100283289_3_alg».proof.Proof.LibHostReads
import Idealize.ShloMosaic.Lib.SortFacts
import Idealize.ShloMosaic.Lib.StableHlo.Run
import Idealize.ShloMosaic.Lib.ValueLayout
import Idealize.ShloMosaic.Lib.KernelVsHost
import Idealize.ShloMosaic.Lib.IdealHost
import Idealize.ShloMosaic.Lib.DynamicIndex

/-!
# The kernel program's host prelude: what the first kernel region is handed

Before its first kernel region the kernel program sorts the edge list by target on the host. It cuts the edge list's two
rows out (sources, targets), takes the argsort of the targets — a stable sort by the signed compare carrying the positions
—, takes both rows along that order and keeps them as columns `[320000, 1]`, reads the sorted targets at the first and the
last position of each of the 1250 tiles of 256 edges and divides them by 1024 (the two tables the region prefetches), keeps
three bias rows as `[1, 128]` arrays and pads the node table with 240 zero rows.

This module reads those buffers at an index. The order is a permutation `sortPerm` of the 320000 edges; position `a` of
the sorted columns holds the source and the target of edge `sortPerm a`; along the positions the targets do not decrease;
the tables hold the chunk numbers `target / 1024` of each tile's first and last edge.

The first part is about words and layouts only: a row cut out of a two-row array, a vector kept as a column, the argsort
of a vector of words as a permutation of its positions that orders the keys, a take along index words that are not
negative, the start and end positions of tiles, the floor quotient of a word that is not negative, and a table padded
below with rows of a constant.
-/

set_option maxRecDepth 4096

noncomputable section

namespace Cert.KernelIdeal.KHost

open Idealize.ShloMosaic Idealize.ShloMosaic.ValueIdx

section Layout
variable {α : Type}

/-- Row `r` of a two-row array, cut out as a `[1, n]` array and flattened, reads the array at `(r, a)`. -/
theorem row_apply {n : ℕ} (o : ℕ) (r : Fin 2) (hr : r.val = o) (X : (⟨2, ![2, n]⟩ : Shape).Idx → α)
    (hs : (⟨2, ![2, n]⟩ : Shape).Slices ![o, 0] ⟨2, ![1, n]⟩)
    (hc : (⟨2, ![1, n]⟩ : Shape).ShapeCasts ⟨1, ![n]⟩) (a : Fin n) :
    shapeCast ⟨1, ![n]⟩ (extractStridedSlice ⟨2, ![1, n]⟩ ![o, 0] X hs) hc (ValueIdx.ix1 a) = X (ValueIdx.ix2 r a) := by
  rw [shapeCast_1a_a_apply]
  exact slice2_axis0_apply o X hs 0 a r (by rw [hr]; rfl)

/-- A vector `[a]` kept as a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ValueIdx.ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The argsort of a vector of words -/

section Argsort

/-- Position `k`'s key sorts strictly before position `k'`'s: the signed compare. -/
def before {n : ℕ} (keys : IVec ⟨1, ![n]⟩ 32) (k k' : Fin n) : Bool := (keys (ValueIdx.ix1 k)).slt (keys (ValueIdx.ix1 k'))

/-- The position whose key the stable sort puts at `a`. -/
def perm {n : ℕ} (keys : IVec ⟨1, ![n]⟩ 32) (a : Fin n) : Fin n := sortedFrom (before keys) a

theorem perm_injective {n : ℕ} (keys : IVec ⟨1, ![n]⟩ 32) : Function.Injective (perm keys) :=
  sortedFrom_injective (before keys)

theorem perm_surjective {n : ℕ} (keys : IVec ⟨1, ![n]⟩ 32) : Function.Surjective (perm keys) :=
  sortedFrom_surjective (before keys)

/-- Along the sorted positions the keys, read signed, do not decrease. -/
theorem perm_sorted {n : ℕ} (keys : IVec ⟨1, ![n]⟩ 32) (i j : Fin n) (hij : i < j) :
    (keys (ValueIdx.ix1 (perm keys i))).toInt ≤ (keys (ValueIdx.ix1 (perm keys j))).toInt := by
  have h := sortedFrom_noInversion (before keys) (before keys)
    (fun a b hab => by
      simp only [before, BitVec.slt, decide_eq_true_eq, decide_eq_false_iff_not] at hab ⊢; omega)
    (fun _ _ h => h)
    (fun a b c hab hbc => by
      simp only [before, BitVec.slt, decide_eq_false_iff_not] at hab hbc ⊢; omega)
    i j hij
  simp only [before, BitVec.slt, decide_eq_false_iff_not] at h
  unfold perm
  omega

/-- An argsort — the stable sort of the keys carrying their positions, by the signed compare of the keys — reads, at
    `a`, the word of the position whose key lands at `a`. -/
theorem argsort_apply {n : ℕ} (cmp : BitVec 32 × BitVec 32 → BitVec 32 × BitVec 32 → BitVec 1)
    (hcmp : ∀ l r, cmp l r = IntOp.cmpi .slt l.1 r.1) (keys : IVec ⟨1, ![n]⟩ 32) (a : Fin n) :
    (Host.sort2 ⟨1, ![n]⟩ 0 cmp keys (iotaInDim ⟨1, ![n]⟩ 32 0)).2 (ValueIdx.ix1 a) = BitVec.ofNat 32 (perm keys a).val := by
  have hb : (fun k k' : Fin n => cmp (keys ((ValueIdx.ix1 a : (⟨1, ![n]⟩ : Shape).Idx).along (0 : Fin 1) k),
        iotaInDim ⟨1, ![n]⟩ 32 0 ((ValueIdx.ix1 a : (⟨1, ![n]⟩ : Shape).Idx).along (0 : Fin 1) k))
      (keys ((ValueIdx.ix1 a : (⟨1, ![n]⟩ : Shape).Idx).along (0 : Fin 1) k'),
        iotaInDim ⟨1, ![n]⟩ 32 0 ((ValueIdx.ix1 a : (⟨1, ![n]⟩ : Shape).Idx).along (0 : Fin 1) k')) == 1#1) = before keys := by
    funext k k'
    rw [hcmp, Shape.Idx.along_rank1, Shape.Idx.along_rank1, ← GatherVec.ix1_eq_ofFin, ← GatherVec.ix1_eq_ofFin]
    show (BitVec.ofBool ((keys (ValueIdx.ix1 k)).slt (keys (ValueIdx.ix1 k'))) == 1#1) = (keys (ValueIdx.ix1 k)).slt (keys (ValueIdx.ix1 k'))
    cases (keys (ValueIdx.ix1 k)).slt (keys (ValueIdx.ix1 k')) <;> rfl
  have key : ∀ B : Fin n → Fin n → Bool, B = before keys →
      iotaInDim ⟨1, ![n]⟩ 32 0 ((ValueIdx.ix1 a : (⟨1, ![n]⟩ : Shape).Idx).along (0 : Fin 1) (sortedFrom B a))
        = BitVec.ofNat 32 (perm keys a).val := by
    intro B hB
    subst hB
    have e : (Function.update (ValueIdx.ix1 a : (⟨1, ![n]⟩ : Shape).Idx) (0 : Fin 1) (sortedFrom (before keys) a)) (0 : Fin 1)
        = sortedFrom (before keys) a := Function.update_self ..
    exact congrArg (fun k : Fin n => BitVec.ofNat 32 k.val) e
  unfold Host.sort2
  rw [dif_pos (show (0 : ℕ) < (⟨1, ![n]⟩ : Shape).rank from Nat.one_pos)]
  exact key _ hb

end Argsort

attribute [irreducible] perm

/-! ## A take along index words that are not negative -/

section Take
variable {α : Type}

/-- "v + k where v is negative, else v" is v at an index where v is not negative. -/
theorem wrap_of_nonneg {s : Shape} (v z k : IVec s 32) (i : s.Idx) (hz : z i = 0#32) (h : 0 ≤ (v i).toInt) :
    select (cmpi .slt v z) (addi v k) v i = v i := by
  have hlt : (v i).slt (z i) = false := by
    rw [hz]
    simp only [BitVec.slt, BitVec.toInt_zero, decide_eq_false_iff_not, Int.not_lt]
    exact h
  show (if BitVec.ofBool ((v i).slt (z i)) = 1 then _ else _) = _
  rw [hlt]
  rfl

/-- A take of single entries of a table `[N]` at the wrapped column of a vector `[R]` of index words: where the word
    at `e`, read signed, is the position `p` of the table, the take reads the table at `p`. -/
theorem take_apply {N R : ℕ} (d : GatherDims ⟨1, ![N]⟩ ⟨2, ![R, 1]⟩ ⟨1, ![R]⟩)
    (hcoll : d.collapsedSliceDims = [0]) (hob : d.operandBatchingDims = [])
    (hsim : d.startIndexMap = [0]) (hivd : d.indexVectorDim = 1)
    (hb : (⟨1, ![R]⟩ : Shape).BroadcastsInDim ⟨2, ![R, 1]⟩ ![0])
    (T : (⟨1, ![N]⟩ : Shape).Idx → α) (v z k : IVec ⟨1, ![R]⟩ 32) (e : Fin R) (p : Fin N)
    (hz : z (ValueIdx.ix1 e) = 0#32) (hv : (v (ValueIdx.ix1 e)).toInt = (p.val : ℤ)) :
    Host.gather d T (broadcastInDim ⟨2, ![R, 1]⟩ ![0] hb (select (cmpi .slt v z) (addi v k) v)) (ValueIdx.ix1 e) = T (ValueIdx.ix1 p) := by
  rw [GatherVec.gather_vec d hcoll hob hsim hivd T _ e (Nat.lt_of_le_of_lt (Nat.zero_le _) p.isLt)]
  refine congrArg (fun r => T (ValueIdx.ix1 r)) (Fin.ext ?_)
  show min (broadcastInDim ⟨2, ![R, 1]⟩ ![0] hb (select (cmpi .slt v z) (addi v k) v) (ValueIdx.ix2 e 0)).toInt.toNat (N - 1) = p.val
  rw [HostReads.broadcastInDim_vec_col_apply, wrap_of_nonneg v z k (ValueIdx.ix1 e) hz (by rw [hv]; exact Int.natCast_nonneg _), hv]
  have := p.isLt
  omega

end Take

/-! ## Tile starts and ends -/

/-- The word of tile `T`'s first position, `T · 256`, read signed. -/
theorem tileStart_toInt (T : Fin 1250) : (IntOp.muli (BitVec.ofNat 32 T.val) 256#32).toInt = ((T.val * 256 : ℕ) : ℤ) := by
  have e : IntOp.muli (BitVec.ofNat 32 T.val) 256#32 = BitVec.ofNat 32 (T.val * 256) := by
    apply BitVec.eq_of_toNat_eq
    have := T.isLt
    simp only [IntOp.muli, BitVec.toNat_mul, BitVec.toNat_ofNat]
    omega
  rw [e]
  exact toInt_ofNat_of_lt (by have := T.isLt; omega)

/-- The word of tile `T`'s last position, `T · 256 + 255`, read signed. -/
theorem tileEnd_toInt (T : Fin 1250) :
    (IntOp.addi (IntOp.muli (BitVec.ofNat 32 T.val) 256#32) 255#32).toInt = ((T.val * 256 + 255 : ℕ) : ℤ) := by
  have e : IntOp.addi (IntOp.muli (BitVec.ofNat 32 T.val) 256#32) 255#32 = BitVec.ofNat 32 (T.val * 256 + 255) := by
    apply BitVec.eq_of_toNat_eq
    have := T.isLt
    simp only [IntOp.addi, IntOp.muli, BitVec.toNat_add, BitVec.toNat_mul, BitVec.toNat_ofNat]
    omega
  rw [e]
  exact toInt_ofNat_of_lt (by have := T.isLt; omega)

/-! ## The floor quotient by 1024 of a word that is not negative -/

/-- The sign word of a word: 0 at 0, all ones where the sign bit is set, else 1. -/
def sgn (x : BitVec 32) : BitVec 32 := if x = 0 then 0 else if x.msb then -1 else 1

/-- The floor division by 1024 as the host program spells it — the quotient rounded toward zero, less one where the
    signs differ and the remainder is not zero — of a word that is not negative is the plain quotient. -/
theorem floorDiv1024 (x : BitVec 32) (hx : 0 ≤ x.toInt) :
    (Scalar.select (IntOp.andi (IntOp.cmpi .ne (sgn x) (sgn 1024#32)) (IntOp.cmpi .ne (IntOp.remsi .host x 1024#32) 0#32))
      (IntOp.subi (IntOp.divsi .host x 1024#32) 1#32) (IntOp.divsi .host x 1024#32)).toInt = x.toInt / 1024 := by
  have hmsb : x.msb = false := by
    rw [BitVec.toInt_eq_msb_cond] at hx
    cases h : x.msb
    · rfl
    · rw [h] at hx
      have := x.isLt
      simp only [if_true] at hx
      omega
  have hcorner : ¬ IntOp.SDivCorner x 1024#32 := by
    rintro (h | ⟨_, h⟩)
    · exact absurd h (by decide)
    · exact absurd h (by decide)
  have hq : IntOp.divsi .host x 1024#32 = x.sdiv 1024#32 := by unfold IntOp.divsi; rw [if_neg hcorner]
  have hqi : (x.sdiv 1024#32).toInt = x.toInt / 1024 := by
    rw [BitVec.toInt_sdiv_of_ne_or_ne x _ (Or.inr (by decide)), Int.tdiv_eq_ediv_of_nonneg hx]
    rfl
  have hc : IntOp.andi (IntOp.cmpi .ne (sgn x) (sgn 1024#32)) (IntOp.cmpi .ne (IntOp.remsi .host x 1024#32) 0#32) = 0#1 := by
    by_cases h0 : x = 0
    · subst h0
      decide
    · have hs : sgn x = 1 := by unfold sgn; rw [if_neg h0, hmsb]; rfl
      have hd : sgn 1024#32 = 1 := by decide
      rw [hs, hd]
      show BitVec.ofBool ((1 : BitVec 32) != 1) &&& _ = 0#1
      simp
  rw [hc]
  show BitVec.toInt (if (0#1 : BitVec 1) = 1 then _ else _) = _
  rw [if_neg (by decide), hq, hqi]

/-! ## A table padded below with rows of a constant -/

/-- A table `[N, C]` padded below with `P` rows of a constant reads, at `(n, j)`, the table where `n < N` and the
    constant beyond. -/
theorem pad_rows_apply {α : Type} {N M C P : ℕ} (x : (⟨2, ![N, C]⟩ : Shape).Idx → α) {u : Shape} (v : u.Idx → α)
    (h : (⟨2, ![N, C]⟩ : Shape).Pads ![0, 0] ![P, 0] ![0, 0] ⟨2, ![M, C]⟩) (hu : 0 < u.numel) (n : Fin M) (j : Fin C) :
    pad ⟨2, ![M, C]⟩ ![0, 0] ![P, 0] ![0, 0] x v h hu (ValueIdx.ix2 n j)
      = if hn : n.val < N then x (ValueIdx.ix2 ⟨n.val, hn⟩ j) else v (Shape.Idx.first hu) := by
  split
  · rename_i hn
    exact pad_apply_of_inside _ _ _ x v h hu _ (ValueIdx.ix2 ⟨n.val, hn⟩ j) (fun a => by
      match a with
      | ⟨0, _⟩ => show n.val = 0 + n.val * (0 + 1); omega
      | ⟨1, _⟩ => show j.val = 0 + j.val * (0 + 1); omega)
  · rename_i hn
    exact pad_apply_of_not_inside _ _ _ x v h hu _ (0 : Fin 2) (by
      show ¬ (0 ≤ n.val ∧ (n.val - 0) % (0 + 1) = 0 ∧ (n.val - 0) / (0 + 1) < N)
      rintro ⟨_, _, h3⟩
      rw [Nat.sub_zero, Nat.zero_add, Nat.div_one] at h3
      exact hn h3)

/-! ## The host stretches before the first kernel region, each read at the buffers it writes

Every stretch is read from an arbitrary valuation `W` of the buffers, so that a reading stops at the stretch's own
operands. -/

section Stretches

open Idealize.ShloMosaic.StableHlo Idealize.ShloMosaic.TcCoe
open Cert.KernelIdeal Cert.KernelIdeal.Gen

variable {F : FTy → Type} [FloatOps F]

/-- Row 0 of the edge list as a vector. -/
def rowAt0 (ei : IVec S2x320000 32) : IVec S320000 32 :=
  shapeCast S320000 (extractStridedSlice S1x320000 ![0, 0] ei slices_S2x320000_S1x320000_0_0) shapeCasts_S1x320000_S320000
/-- Row 1 of the edge list as a vector. -/
def rowAt1 (ei : IVec S2x320000 32) : IVec S320000 32 :=
  shapeCast S320000 (extractStridedSlice S1x320000 ![1, 0] ei slices_S2x320000_S1x320000_1_0) shapeCasts_S1x320000_S320000
/-- The argsort of a vector of keys: the stable sort by the signed compare, carrying the positions. -/
def argsortOf (keys : IVec S320000 32) : IVec S320000 32 :=
  (Host.sort2 S320000 0 comparator_i32_i32_d0 keys (iotaInDim S320000 32 0)).2
/-- A vector taken along a vector of index words (each word wrapped where negative, then kept as a column). -/
def takeAt (T ord : IVec S320000 32) : IVec S320000 32 :=
  Host.gather gather_S320000_S320000x1_S320000_n_0_n_n_0_1_1 T
    (broadcastInDim S320000x1 ![0] bcast_S320000_S320000x1_0
      (select (cmpi .slt ord (broadcastInDim S320000 ![] bcast_S_S320000 (constantI S_ 32 0#32)))
        (addi ord (broadcastInDim S320000 ![] bcast_S_S320000 (constantI S_ 32 320000#32))) ord))
/-- The words of the tiles' first positions. -/
def tileStart : IVec S1250 32 :=
  muli (iotaInDim S1250 32 0) (broadcastInDim S1250 ![] bcast_S_S1250 (constantI S_ 32 256#32))
/-- The words of the tiles' last positions. -/
def tileEnd : IVec S1250 32 :=
  addi tileStart (broadcastInDim S1250 ![] bcast_S_S1250 (constantI S_ 32 255#32))
/-- A vector taken at one position word per tile. -/
def tileTake (T : IVec S320000 32) (pos : IVec S1250 32) : IVec S1250 32 :=
  Host.gather gather_S320000_S1250x1_S1250_n_0_n_n_0_1_1 T
    (broadcastInDim S1250x1 ![0] bcast_S1250_S1250x1_0
      (select (cmpi .slt pos (broadcastInDim S1250 ![] bcast_S_S1250 (constantI S_ 32 0#32)))
        (addi pos (broadcastInDim S1250 ![] bcast_S_S1250 (constantI S_ 32 320000#32))) pos))
/-- The floor division of a vector by a scalar word, as the host program spells it. -/
def floorDiv (x : IVec S1250 32) (d : IVec S_ 32) : IVec S1250 32 :=
  let q := Host.divsi x (broadcastInDim S1250 ![] bcast_S_S1250 d)
  let ne := cmpi .ne (signi x) (broadcastInDim S1250 ![] bcast_S_S1250 (signi d))
  let r := Host.remsi x (broadcastInDim S1250 ![] bcast_S_S1250 d)
  let rn := cmpi .ne r (broadcastInDim S1250 ![] bcast_S_S1250 (constantI S_ 32 0#32))
  select (andi ne rn) (subi q (broadcastInDim S1250 ![] bcast_S_S1250 (constantI S_ 32 1#32))) q

variable (W : Valuation τ sig (Elt F))

set_option maxHeartbeats 1000000 in
theorem s0_v1 : (after hostOps0 W (Proc.devRef .tc main_v1) : IVec S320000 32) = rowAt0 (W (Proc.devRef .tc main_arg2)) := by
  dsimp only [hostOps0]; after_results; all_goals rfl
set_option maxHeartbeats 1000000 in
theorem s0_v3 : (after hostOps0 W (Proc.devRef .tc main_v3) : IVec S320000 32) = rowAt1 (W (Proc.devRef .tc main_arg2)) := by
  dsimp only [hostOps0]; after_results; all_goals rfl
set_option maxHeartbeats 1000000 in
theorem s1_v4 : (after hostOps0_1 W (Proc.devRef .tc main_v4) : IVec S320000 32) = argsortOf (W (Proc.devRef .tc main_v3)) := by
  dsimp only [hostOps0_1]; after_results; all_goals rfl
set_option maxHeartbeats 1000000 in
theorem s2_v11 : (after hostOps0_2 W (Proc.devRef .tc main_v11) : IVec S320000 32)
    = takeAt (W (Proc.devRef .tc main_v1)) (W (Proc.devRef .tc main_v4)) := by
  dsimp only [hostOps0_2]; after_results; all_goals rfl
set_option maxHeartbeats 1000000 in
theorem s2_v18 : (after hostOps0_2 W (Proc.devRef .tc main_v18) : IVec S320000 32)
    = takeAt (W (Proc.devRef .tc main_v3)) (W (Proc.devRef .tc main_v4)) := by
  dsimp only [hostOps0_2]; after_results; all_goals rfl
set_option maxHeartbeats 1000000 in
theorem s2_v23 : (after hostOps0_2 W (Proc.devRef .tc main_v23) : IVec S1250 32) = tileEnd := by
  dsimp only [hostOps0_2]; after_results; all_goals rfl
set_option maxHeartbeats 1000000 in
theorem s2_c7 : (after hostOps0_2 W (Proc.devRef .tc main_c_7) : IVec S_ 32) = constantI S_ 32 1024#32 := by
  dsimp only [hostOps0_2]; after_results; all_goals rfl
set_option maxHeartbeats 2000000 in
theorem s2_v30 : (after hostOps0_2 W (Proc.devRef .tc main_v30) : IVec S1250 32)
    = tileTake (takeAt (W (Proc.devRef .tc main_v3)) (W (Proc.devRef .tc main_v4))) tileStart := by
  dsimp only [hostOps0_2]; after_results; all_goals rfl
set_option maxHeartbeats 1000000 in
theorem s3_v31 : (after hostOps0_3 W (Proc.devRef .tc main_v31) : IVec S1250 32)
    = floorDiv (W (Proc.devRef .tc main_v30)) (W (Proc.devRef .tc main_c_7)) := by
  dsimp only [hostOps0_3]; after_results; all_goals rfl
set_option maxHeartbeats 1000000 in
theorem s4_v38 : (after hostOps0_4 W (Proc.devRef .tc main_v38) : IVec S1250 32)
    = tileTake (W (Proc.devRef .tc main_v18)) (W (Proc.devRef .tc main_v23)) := by
  dsimp only [hostOps0_4]; after_results; all_goals rfl
set_option maxHeartbeats 1000000 in
theorem s4_c10 : (after hostOps0_4 W (Proc.devRef .tc main_c_10) : IVec S_ 32) = constantI S_ 32 1024#32 := by
  dsimp only [hostOps0_4]; after_results; all_goals rfl
set_option maxHeartbeats 1000000 in
theorem s5_v39 : (after hostOps0_5 W (Proc.devRef .tc main_v39) : IVec S1250 32)
    = floorDiv (W (Proc.devRef .tc main_v38)) (W (Proc.devRef .tc main_c_10)) := by
  dsimp only [hostOps0_5]; after_results; all_goals rfl
set_option maxHeartbeats 1000000 in
theorem s6_v40 : (after hostOps0_6 W (Proc.devRef .tc main_v40) : IVec S320000x1 32)
    = shapeCast S320000x1 (W (Proc.devRef .tc main_v11) : IVec S320000 32) shapeCasts_S320000_S320000x1 := by
  dsimp only [hostOps0_6]; after_results; all_goals rfl
set_option maxHeartbeats 1000000 in
theorem s6_v41 : (after hostOps0_6 W (Proc.devRef .tc main_v41) : IVec S320000x1 32)
    = shapeCast S320000x1 (W (Proc.devRef .tc main_v18) : IVec S320000 32) shapeCasts_S320000_S320000x1 := by
  dsimp only [hostOps0_6]; after_results; all_goals rfl
set_option maxHeartbeats 1000000 in
theorem s6_v42 : (after hostOps0_6 W (Proc.devRef .tc main_v42) : FVec F S1x128 .f32)
    = shapeCast S1x128 (W (Proc.devRef .tc main_arg5) : FVec F S128 .f32) shapeCasts_S128_S1x128 := by
  dsimp only [hostOps0_6]; after_results; all_goals rfl
set_option maxHeartbeats 1000000 in
theorem s6_v43 : (after hostOps0_6 W (Proc.devRef .tc main_v43) : FVec F S1x128 .f32)
    = shapeCast S1x128 (W (Proc.devRef .tc main_arg7) : FVec F S128 .f32) shapeCasts_S128_S1x128 := by
  dsimp only [hostOps0_6]; after_results; all_goals rfl
set_option maxHeartbeats 1000000 in
theorem s6_v44 : (after hostOps0_6 W (Proc.devRef .tc main_v44) : FVec F S1x128 .f32)
    = shapeCast S1x128 (W (Proc.devRef .tc main_arg9) : FVec F S128 .f32) shapeCasts_S128_S1x128 := by
  dsimp only [hostOps0_6]; after_results; all_goals rfl
set_option maxHeartbeats 1000000 in
theorem s6_c11 : (after hostOps0_6 W (Proc.devRef .tc main_c_11) : IVec S_ 32) = constantI S_ 32 0#32 := by
  dsimp only [hostOps0_6]; after_results; all_goals rfl
set_option maxHeartbeats 1000000 in
theorem s7_v45 : (after hostOps0_7 W (Proc.devRef .tc main_v45) : FVec F S10240x4 .f32)
    = pad S10240x4 ![0, 0] ![240, 0] ![0, 0] (W (Proc.devRef .tc main_arg0) : FVec F S10000x4 .f32)
        (sitofp .f32 (W (Proc.devRef .tc main_c_11) : IVec S_ 32) : FVec F S_ .f32) pads_S10000x4_S10240x4_02400_000 h_S_ := by
  dsimp only [hostOps0_7]; after_results; all_goals rfl

end Stretches

/-! ## What the first kernel region is handed -/

section Handed

open Idealize.ShloMosaic.StableHlo Idealize.ShloMosaic.TcCoe
open Cert.KernelIdeal Cert.KernelIdeal.Gen

variable {F : FTy → Type} [FloatOps F]
variable (m : (ℓ : Loc nD τ sig) → Buf (Elt F) ℓ) (c : Dev nD)

/-- Core `c`'s edge list at launch. -/
abbrev edges : IVec Cert.Spec.SEdge 32 := V0 m c main_arg2

/-- A buffer none of the first seven host stretches writes holds its launch contents when the seventh ends. -/
theorem V7_of_launch (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W) :
    V7 m c r = V0 m c r :=
  (V7_of m c r h6).trans <| (V6_of m c r h5).trans <| (V5_of m c r h4).trans <| (V4_of m c r h3).trans <|
    (V3_of m c r h2).trans <| (V2_of m c r h1).trans (V1_of m c r h0)

/-- The order: the argsort of the targets' row. -/
theorem V2_v4 : (V2 m c main_v4 : IVec S320000 32) = argsortOf (rowAt1 (edges m c)) :=
  (s1_v4 (V1 m c)).trans (congrArg argsortOf (s0_v3 (V0 m c)))

/-- The sources taken along the order. -/
theorem V3_v11 : (V3 m c main_v11 : IVec S320000 32) = takeAt (rowAt0 (edges m c)) (argsortOf (rowAt1 (edges m c))) :=
  (s2_v11 (V2 m c)).trans
    (congrArg₂ takeAt ((V2_of m c main_v1 (by decide)).trans (s0_v1 (V0 m c))) (V2_v4 m c))

/-- The targets taken along the order. -/
theorem V3_v18 : (V3 m c main_v18 : IVec S320000 32) = takeAt (rowAt1 (edges m c)) (argsortOf (rowAt1 (edges m c))) :=
  (s2_v18 (V2 m c)).trans
    (congrArg₂ takeAt ((V2_of m c main_v3 (by decide)).trans (s0_v3 (V0 m c))) (V2_v4 m c))

theorem V8_v40 : (V8 m c main_v40 : IVec S320000x1 32)
    = shapeCast S320000x1 (takeAt (rowAt0 (edges m c)) (argsortOf (rowAt1 (edges m c)))) shapeCasts_S320000_S320000x1 :=
  (V8_of m c main_v40 (by decide)).trans <| (s6_v40 (V6 m c)).trans <|
    congrArg (fun v : IVec S320000 32 => shapeCast S320000x1 v shapeCasts_S320000_S320000x1)
      ((V6_of m c main_v11 (by decide)).trans <| (V5_of m c main_v11 (by decide)).trans <|
        (V4_of m c main_v11 (by decide)).trans (V3_v11 m c))

theorem V8_v41 : (V8 m c main_v41 : IVec S320000x1 32)
    = shapeCast S320000x1 (takeAt (rowAt1 (edges m c)) (argsortOf (rowAt1 (edges m c)))) shapeCasts_S320000_S320000x1 :=
  (V8_of m c main_v41 (by decide)).trans <| (s6_v41 (V6 m c)).trans <|
    congrArg (fun v : IVec S320000 32 => shapeCast S320000x1 v shapeCasts_S320000_S320000x1)
      ((V6_of m c main_v18 (by decide)).trans <| (V5_of m c main_v18 (by decide)).trans <|
        (V4_of m c main_v18 (by decide)).trans (V3_v18 m c))

theorem V8_v31 : (V8 m c main_v31 : IVec S1250 32)
    = floorDiv (tileTake (takeAt (rowAt1 (edges m c)) (argsortOf (rowAt1 (edges m c)))) tileStart) (constantI S_ 32 1024#32) :=
  (V8_of m c main_v31 (by decide)).trans <| (V7_of m c main_v31 (by decide)).trans <|
    (V6_of m c main_v31 (by decide)).trans <| (V5_of m c main_v31 (by decide)).trans <| (s3_v31 (V3 m c)).trans <|
    congrArg₂ floorDiv
      ((s2_v30 (V2 m c)).trans (congrArg (fun t => tileTake t tileStart)
        (congrArg₂ takeAt ((V2_of m c main_v3 (by decide)).trans (s0_v3 (V0 m c))) (V2_v4 m c))))
      (s2_c7 (V2 m c))

theorem V8_v39 : (V8 m c main_v39 : IVec S1250 32)
    = floorDiv (tileTake (takeAt (rowAt1 (edges m c)) (argsortOf (rowAt1 (edges m c)))) tileEnd) (constantI S_ 32 1024#32) :=
  (V8_of m c main_v39 (by decide)).trans <| (V7_of m c main_v39 (by decide)).trans <| (s5_v39 (V5 m c)).trans <|
    congrArg₂ floorDiv
      ((s4_v38 (V4 m c)).trans (congrArg₂ tileTake
        ((V4_of m c main_v18 (by decide)).trans (V3_v18 m c))
        ((V4_of m c main_v23 (by decide)).trans (s2_v23 (V2 m c)))))
      (s4_c10 (V4 m c))

theorem V8_v45 : (V8 m c main_v45 : FVec F S10240x4 .f32)
    = pad S10240x4 ![0, 0] ![240, 0] ![0, 0] (V0 m c main_arg0 : FVec F S10000x4 .f32)
        (sitofp .f32 (constantI S_ 32 0#32) : FVec F S_ .f32) pads_S10000x4_S10240x4_02400_000 h_S_ :=
  (s7_v45 (V7 m c)).trans <|
    congrArg₂ (fun (x : FVec F S10000x4 .f32) (z : IVec S_ 32) =>
        pad S10240x4 ![0, 0] ![240, 0] ![0, 0] x (sitofp .f32 z : FVec F S_ .f32) pads_S10000x4_S10240x4_02400_000 h_S_)
      (V7_of_launch m c main_arg0 (by decide) (by decide) (by decide) (by decide) (by decide) (by decide) (by decide))
      (s6_c11 (V6 m c))

theorem V8_v42 : (V8 m c main_v42 : FVec F S1x128 .f32)
    = shapeCast S1x128 (V0 m c main_arg5 : FVec F S128 .f32) shapeCasts_S128_S1x128 :=
  (V8_of m c main_v42 (by decide)).trans <| (s6_v42 (V6 m c)).trans <|
    congrArg (fun v : FVec F S128 .f32 => shapeCast S1x128 v shapeCasts_S128_S1x128)
      ((V6_of m c main_arg5 (by decide)).trans <| (V5_of m c main_arg5 (by decide)).trans <|
        (V4_of m c main_arg5 (by decide)).trans <| (V3_of m c main_arg5 (by decide)).trans <|
        (V2_of m c main_arg5 (by decide)).trans (V1_of m c main_arg5 (by decide)))

theorem V8_v43 : (V8 m c main_v43 : FVec F S1x128 .f32)
    = shapeCast S1x128 (V0 m c main_arg7 : FVec F S128 .f32) shapeCasts_S128_S1x128 :=
  (V8_of m c main_v43 (by decide)).trans <| (s6_v43 (V6 m c)).trans <|
    congrArg (fun v : FVec F S128 .f32 => shapeCast S1x128 v shapeCasts_S128_S1x128)
      ((V6_of m c main_arg7 (by decide)).trans <| (V5_of m c main_arg7 (by decide)).trans <|
        (V4_of m c main_arg7 (by decide)).trans <| (V3_of m c main_arg7 (by decide)).trans <|
        (V2_of m c main_arg7 (by decide)).trans (V1_of m c main_arg7 (by decide)))

theorem V8_v44 : (V8 m c main_v44 : FVec F S1x128 .f32)
    = shapeCast S1x128 (V0 m c main_arg9 : FVec F S128 .f32) shapeCasts_S128_S1x128 :=
  (V8_of m c main_v44 (by decide)).trans <| (s6_v44 (V6 m c)).trans <|
    congrArg (fun v : FVec F S128 .f32 => shapeCast S1x128 v shapeCasts_S128_S1x128)
      ((V6_of m c main_arg9 (by decide)).trans <| (V5_of m c main_arg9 (by decide)).trans <|
        (V4_of m c main_arg9 (by decide)).trans <| (V3_of m c main_arg9 (by decide)).trans <|
        (V2_of m c main_arg9 (by decide)).trans (V1_of m c main_arg9 (by decide)))

end Handed

/-! ## The buffers read at an index -/

section Read

open Idealize.ShloMosaic.StableHlo Idealize.ShloMosaic.TcCoe
open Cert.KernelIdeal Cert.KernelIdeal.Gen

/-- The edges' order by target: position `a` of the sorted list holds edge `sortPerm ei a`. -/
def sortPerm (ei : IVec Cert.Spec.SEdge 32) : Equiv.Perm (Fin 320000) :=
  Equiv.ofBijective (perm (rowAt1 ei)) ⟨perm_injective _, perm_surjective _⟩

theorem sortPerm_apply (ei : IVec Cert.Spec.SEdge 32) (a : Fin 320000) : sortPerm ei a = perm (rowAt1 ei) a := rfl

theorem rowAt0_apply (ei : IVec S2x320000 32) (a : Fin 320000) : rowAt0 ei (ValueIdx.ix1 a) = ei (ValueIdx.ix2 0 a) :=
  row_apply 0 0 rfl ei _ _ a

theorem rowAt1_apply (ei : IVec S2x320000 32) (a : Fin 320000) : rowAt1 ei (ValueIdx.ix1 a) = ei (ValueIdx.ix2 1 a) :=
  row_apply 1 1 rfl ei _ _ a

/-- The order's word at `a` is the position whose target lands at `a`. -/
theorem argsortOf_apply (keys : IVec S320000 32) (a : Fin 320000) :
    argsortOf keys (ValueIdx.ix1 a) = BitVec.ofNat 32 (perm keys a).val :=
  argsort_apply comparator_i32_i32_d0 (fun _ _ => rfl) keys a

/-- A vector taken along the order reads, at `a`, the vector at the position that lands at `a`. -/
theorem takeAt_argsort_apply (T keys : IVec S320000 32) (a : Fin 320000) :
    takeAt T (argsortOf keys) (ValueIdx.ix1 a) = T (ValueIdx.ix1 (perm keys a)) :=
  take_apply gather_S320000_S320000x1_S320000_n_0_n_n_0_1_1 rfl rfl rfl rfl bcast_S320000_S320000x1_0 T (argsortOf keys) _ _ a
    (perm keys a) rfl
    (by rw [argsortOf_apply]; exact toInt_ofNat_of_lt (Nat.lt_trans (perm keys a).isLt (by norm_num)))

/-- A vector taken at one position word per tile reads, at tile `t`, the vector at the position the word names. -/
theorem tileTake_apply (T : IVec S320000 32) (pos : IVec S1250 32) (t : Fin 1250) (p : Fin 320000)
    (hp : (pos (ValueIdx.ix1 t)).toInt = (p.val : ℤ)) : tileTake T pos (ValueIdx.ix1 t) = T (ValueIdx.ix1 p) :=
  take_apply gather_S320000_S1250x1_S1250_n_0_n_n_0_1_1 rfl rfl rfl rfl bcast_S1250_S1250x1_0 T pos _ _ t p rfl hp

theorem tileStart_apply (t : Fin 1250) : (tileStart (ValueIdx.ix1 t)).toInt = ((t.val * 256 : ℕ) : ℤ) := tileStart_toInt t

theorem tileEnd_apply (t : Fin 1250) : (tileEnd (ValueIdx.ix1 t)).toInt = ((t.val * 256 + 255 : ℕ) : ℤ) := tileEnd_toInt t

/-- The floor division by the word 1024 of a vector, at an entry that is not negative: the plain quotient. -/
theorem floorDiv_apply (x : IVec S1250 32) (t : Fin 1250) (hx : 0 ≤ (x (ValueIdx.ix1 t)).toInt) :
    (floorDiv x (constantI S_ 32 1024#32) (ValueIdx.ix1 t)).toInt = (x (ValueIdx.ix1 t)).toInt / 1024 :=
  floorDiv1024 (x (ValueIdx.ix1 t)) hx

/-- The targets taken along the order: at `a`, the target of edge `sortPerm ei a`. -/
theorem sortedDst_apply (ei : IVec Cert.Spec.SEdge 32) (a : Fin 320000) :
    takeAt (rowAt1 ei) (argsortOf (rowAt1 ei)) (ValueIdx.ix1 a) = ei (ValueIdx.ix2 1 (sortPerm ei a)) :=
  (takeAt_argsort_apply _ _ a).trans (rowAt1_apply ei _)

/-- The sources taken along the order: at `a`, the source of edge `sortPerm ei a`. -/
theorem sortedSrc_apply (ei : IVec Cert.Spec.SEdge 32) (a : Fin 320000) :
    takeAt (rowAt0 ei) (argsortOf (rowAt1 ei)) (ValueIdx.ix1 a) = ei (ValueIdx.ix2 0 (sortPerm ei a)) :=
  (takeAt_argsort_apply _ _ a).trans (rowAt0_apply ei _)

/-- (b) Along the sorted positions the targets do not decrease. -/
theorem sorted_dst (ei : IVec Cert.Spec.SEdge 32) (h : Cert.Spec.InRange ei) (a b : Fin 320000) (hab : a ≤ b) :
    (Cert.Spec.dstOf ei h (sortPerm ei a)).val ≤ (Cert.Spec.dstOf ei h (sortPerm ei b)).val := by
  rcases lt_or_eq_of_le hab with hlt | rfl
  · have hs := perm_sorted (rowAt1 ei) a b hlt
    rw [rowAt1_apply, rowAt1_apply, ← Cert.Spec.nodeOf_val ei h 1, ← Cert.Spec.nodeOf_val ei h 1] at hs
    exact Int.ofNat_le.mp hs
  · exact le_rfl

variable {F : FTy → Type} [FloatOps F]
variable (m : (ℓ : Loc nD τ sig) → Buf (Elt F) ℓ) (c : Dev nD)

/-- (a) The sorted sources' column: at row `a`, the source of edge `sortPerm ei a`. -/
theorem v40_toInt (h : Cert.Spec.InRange (edges m c)) (a : Fin 320000) :
    ((V8 m c main_v40 : IVec S320000x1 32) (ValueIdx.ix2 a 0)).toInt
      = ((Cert.Spec.srcOf (edges m c) h (sortPerm (edges m c) a)).val : ℤ) := by
  have e : (V8 m c main_v40 : IVec S320000x1 32) (ValueIdx.ix2 a 0) = edges m c (ValueIdx.ix2 0 (sortPerm (edges m c) a)) :=
    (congrFun (V8_v40 m c) _).trans <| (shapeCast_a_a1_apply _ _ a 0).trans (sortedSrc_apply _ a)
  rw [e]
  exact (Cert.Spec.nodeOf_val _ h 0 _).symm

/-- (a) The sorted targets' column: at row `a`, the target of edge `sortPerm ei a`. -/
theorem v41_toInt (h : Cert.Spec.InRange (edges m c)) (a : Fin 320000) :
    ((V8 m c main_v41 : IVec S320000x1 32) (ValueIdx.ix2 a 0)).toInt
      = ((Cert.Spec.dstOf (edges m c) h (sortPerm (edges m c) a)).val : ℤ) := by
  have e : (V8 m c main_v41 : IVec S320000x1 32) (ValueIdx.ix2 a 0) = edges m c (ValueIdx.ix2 1 (sortPerm (edges m c) a)) :=
    (congrFun (V8_v41 m c) _).trans <| (shapeCast_a_a1_apply _ _ a 0).trans (sortedDst_apply _ a)
  rw [e]
  exact (Cert.Spec.nodeOf_val _ h 1 _).symm

/-- (c) The first table: tile `t`'s first sorted target, divided by 1024. -/
theorem v31_toInt (h : Cert.Spec.InRange (edges m c)) (t : Fin 1250) :
    ((V8 m c main_v31 : IVec S1250 32) (ValueIdx.ix1 t)).toInt
      = (((Cert.Spec.dstOf (edges m c) h (sortPerm (edges m c) ⟨t.val * 256, by have := t.isLt; omega⟩)).val / 1024 : ℕ) : ℤ) := by
  have hx : tileTake (takeAt (rowAt1 (edges m c)) (argsortOf (rowAt1 (edges m c)))) tileStart (ValueIdx.ix1 t)
      = edges m c (ValueIdx.ix2 1 (sortPerm (edges m c) ⟨t.val * 256, by have := t.isLt; omega⟩)) :=
    (tileTake_apply _ _ t ⟨t.val * 256, by have := t.isLt; omega⟩ (tileStart_apply t)).trans (sortedDst_apply _ _)
  have e := congrFun (V8_v31 m c) (ValueIdx.ix1 t)
  rw [e, floorDiv_apply _ t (by rw [hx, ← Cert.Spec.nodeOf_val _ h 1]; exact Int.natCast_nonneg _), hx,
    ← Cert.Spec.nodeOf_val _ h 1]
  exact (Int.natCast_ediv _ _).symm

/-- (c) The second table: tile `t`'s last sorted target, divided by 1024. -/
theorem v39_toInt (h : Cert.Spec.InRange (edges m c)) (t : Fin 1250) :
    ((V8 m c main_v39 : IVec S1250 32) (ValueIdx.ix1 t)).toInt
      = (((Cert.Spec.dstOf (edges m c) h (sortPerm (edges m c) ⟨t.val * 256 + 255, by have := t.isLt; omega⟩)).val / 1024 : ℕ) : ℤ) := by
  have hx : tileTake (takeAt (rowAt1 (edges m c)) (argsortOf (rowAt1 (edges m c)))) tileEnd (ValueIdx.ix1 t)
      = edges m c (ValueIdx.ix2 1 (sortPerm (edges m c) ⟨t.val * 256 + 255, by have := t.isLt; omega⟩)) :=
    (tileTake_apply _ _ t ⟨t.val * 256 + 255, by have := t.isLt; omega⟩ (tileEnd_apply t)).trans (sortedDst_apply _ _)
  have e := congrFun (V8_v39 m c) (ValueIdx.ix1 t)
  rw [e, floorDiv_apply _ t (by rw [hx, ← Cert.Spec.nodeOf_val _ h 1]; exact Int.natCast_nonneg _), hx,
    ← Cert.Spec.nodeOf_val _ h 1]
  exact (Int.natCast_ediv _ _).symm

/-- (d) The three bias rows kept as `[1, 128]` arrays. -/
theorem v42_apply (u : Fin 1) (j : Fin 128) :
    (V8 m c main_v42 : FVec F S1x128 .f32) (ValueIdx.ix2 u j) = (V0 m c main_arg5 : FVec F S128 .f32) (ValueIdx.ix1 j) :=
  (congrFun (V8_v42 m c) _).trans (shapeCast_a_1a_apply _ _ u j)

theorem v43_apply (u : Fin 1) (j : Fin 128) :
    (V8 m c main_v43 : FVec F S1x128 .f32) (ValueIdx.ix2 u j) = (V0 m c main_arg7 : FVec F S128 .f32) (ValueIdx.ix1 j) :=
  (congrFun (V8_v43 m c) _).trans (shapeCast_a_1a_apply _ _ u j)

theorem v44_apply (u : Fin 1) (j : Fin 128) :
    (V8 m c main_v44 : FVec F S1x128 .f32) (ValueIdx.ix2 u j) = (V0 m c main_arg9 : FVec F S128 .f32) (ValueIdx.ix1 j) :=
  (congrFun (V8_v44 m c) _).trans (shapeCast_a_1a_apply _ _ u j)

/-- (d) The node table padded to 10240 rows: the table on the first 10000 rows, zero below (over the extended reals). -/
theorem v45_apply (m : (ℓ : Loc nD τ sig) → Buf (Elt Ideal) ℓ) (c : Dev nD) (n : Fin 10240) (j : Fin 4) :
    (V8 m c main_v45 : FVec Ideal S10240x4 .f32) (ValueIdx.ix2 n j)
      = (if hn : n.val < 10000 then (V0 m c main_arg0 : FVec Ideal S10000x4 .f32) (ValueIdx.ix2 ⟨n.val, hn⟩ j) else 0 : EReal) := by
  have e := congrFun (V8_v45 m c) (ValueIdx.ix2 n j)
  rw [e, pad_rows_apply]
  split
  · rfl
  · show (((0#32 : BitVec 32).toInt : ℝ) : EReal) = 0
    simp

/-- The prelude's facts together: one permutation of the edges lists them by target, the two sorted columns, the two
    tables and (over the extended reals) the padded node table are what the first kernel region is handed. -/
theorem handed (m : (ℓ : Loc nD τ sig) → Buf (Elt Ideal) ℓ) (c : Dev nD) (h : Cert.Spec.InRange (edges m c)) :
    ∃ σ : Equiv.Perm (Fin 320000),
      (∀ a : Fin 320000, ((V8 m c main_v40 : IVec S320000x1 32) (ValueIdx.ix2 a 0)).toInt = ((Cert.Spec.srcOf (edges m c) h (σ a)).val : ℤ))
      ∧ (∀ a : Fin 320000, ((V8 m c main_v41 : IVec S320000x1 32) (ValueIdx.ix2 a 0)).toInt = ((Cert.Spec.dstOf (edges m c) h (σ a)).val : ℤ))
      ∧ (∀ a b : Fin 320000, a ≤ b → (Cert.Spec.dstOf (edges m c) h (σ a)).val ≤ (Cert.Spec.dstOf (edges m c) h (σ b)).val)
      ∧ (∀ t : Fin 1250, ((V8 m c main_v31 : IVec S1250 32) (ValueIdx.ix1 t)).toInt
          = (((Cert.Spec.dstOf (edges m c) h (σ ⟨t.val * 256, by have := t.isLt; omega⟩)).val / 1024 : ℕ) : ℤ))
      ∧ (∀ t : Fin 1250, ((V8 m c main_v39 : IVec S1250 32) (ValueIdx.ix1 t)).toInt
          = (((Cert.Spec.dstOf (edges m c) h (σ ⟨t.val * 256 + 255, by have := t.isLt; omega⟩)).val / 1024 : ℕ) : ℤ))
      ∧ (∀ (n : Fin 10240) (j : Fin 4), (V8 m c main_v45 : FVec Ideal S10240x4 .f32) (ValueIdx.ix2 n j)
          = (if hn : n.val < 10000 then (V0 m c main_arg0 : FVec Ideal S10000x4 .f32) (ValueIdx.ix2 ⟨n.val, hn⟩ j) else 0 : EReal))
      ∧ (∀ (u : Fin 1) (j : Fin 128), (V8 m c main_v42 : FVec Ideal S1x128 .f32) (ValueIdx.ix2 u j) = (V0 m c main_arg5 : FVec Ideal S128 .f32) (ValueIdx.ix1 j))
      ∧ (∀ (u : Fin 1) (j : Fin 128), (V8 m c main_v43 : FVec Ideal S1x128 .f32) (ValueIdx.ix2 u j) = (V0 m c main_arg7 : FVec Ideal S128 .f32) (ValueIdx.ix1 j))
      ∧ (∀ (u : Fin 1) (j : Fin 128), (V8 m c main_v44 : FVec Ideal S1x128 .f32) (ValueIdx.ix2 u j) = (V0 m c main_arg9 : FVec Ideal S128 .f32) (ValueIdx.ix1 j)) :=
  ⟨sortPerm (edges m c), v40_toInt m c h, v41_toInt m c h, sorted_dst _ h, v31_toInt m c h, v39_toInt m c h,
    v45_apply m c, v42_apply m c, v43_apply m c, v44_apply m c⟩

end Read

end Cert.KernelIdeal.KHost

end
-- ==== Proof.KHostTile.lean ====
import proofs.«414286_j65627100283289_3_alg».proof.Proof.KHostSort
import proofs.«414286_j65627100283289_3_alg».proof.Proof.Arrange
import proofs.«414286_j65627100283289_3_alg».proof.Proof.GateWord

/-!
# The sorted edge list by tiles: what one grid point's operands hold

The kernel regions walk the sorted edge list in 1250 tiles of 256 edges. This module restates the host prelude's facts at
the edge `tileEdge T r` of a tile, in the forms the arithmetic of the tiles consumes: the two sorted columns as natural
numbers, the two prefetched tables as the chunk numbers of the tile's first and last target, the chunk gate computed from
the two tables as the test "the chunk lies in the tile's chunk range", the sortedness of the targets, and the padded node
table on the real rows.
-/

set_option maxRecDepth 4096

noncomputable section

namespace Cert.KernelIdeal.KHost

open Idealize.ShloMosaic Idealize.ShloMosaic.ValueIdx
open Idealize.ShloMosaic.StableHlo Idealize.ShloMosaic.TcCoe
open Cert.KernelIdeal Cert.KernelIdeal.Gen

/-! ## A word that reads, signed, as a natural number -/

/-- A 32-bit word whose signed reading is the natural number `k` reads unsigned as `k` too. -/
theorem toNat_of_toInt_eq_natCast (w : BitVec 32) (k : ℕ) (h : w.toInt = (k : ℤ)) : w.toNat = k := by
  rw [BitVec.toInt_eq_toNat_cond] at h
  have := w.isLt
  split at h <;> omega

/-- … and is not negative. -/
theorem toInt_nonneg_of_eq_natCast (w : BitVec 32) (k : ℕ) (h : w.toInt = (k : ℤ)) : 0 ≤ w.toInt := by
  rw [h]; exact Int.natCast_nonneg k

section Tile

variable {F : FTy → Type} [FloatOps F]
variable (m : (ℓ : Loc nD τ sig) → Buf (Elt F) ℓ) (c : Dev nD)

/-- The target of the edge at position `a` of the sorted list, as a number. -/
def dstKey (h : Cert.Spec.InRange (edges m c)) (a : Fin 320000) : ℕ :=
  (Cert.Spec.dstOf (edges m c) h (sortPerm (edges m c) a)).val

/-- The source of the edge at position `a` of the sorted list, as a number. -/
def srcKey (h : Cert.Spec.InRange (edges m c)) (a : Fin 320000) : ℕ :=
  (Cert.Spec.srcOf (edges m c) h (sortPerm (edges m c) a)).val

theorem dstKey_def (h : Cert.Spec.InRange (edges m c)) (a : Fin 320000) :
    dstKey m c h a = (Cert.Spec.dstOf (edges m c) h (sortPerm (edges m c) a)).val := rfl

theorem srcKey_def (h : Cert.Spec.InRange (edges m c)) (a : Fin 320000) :
    srcKey m c h a = (Cert.Spec.srcOf (edges m c) h (sortPerm (edges m c) a)).val := rfl

/-! ## The sorted targets: monotone, and node numbers -/

/-- Along the sorted positions the targets do not decrease. -/
theorem dstKey_mono (h : Cert.Spec.InRange (edges m c)) : ∀ a b : Fin 320000, a ≤ b → dstKey m c h a ≤ dstKey m c h b :=
  sorted_dst (edges m c) h

theorem dstKey_lt (h : Cert.Spec.InRange (edges m c)) (a : Fin 320000) : dstKey m c h a < 10000 :=
  (Cert.Spec.dstOf (edges m c) h (sortPerm (edges m c) a)).isLt

theorem dstKey_lt_padded (h : Cert.Spec.InRange (edges m c)) (a : Fin 320000) : dstKey m c h a < 10240 :=
  Nat.lt_trans (dstKey_lt m c h a) (by norm_num)

theorem srcKey_lt (h : Cert.Spec.InRange (edges m c)) (a : Fin 320000) : srcKey m c h a < 10000 :=
  (Cert.Spec.srcOf (edges m c) h (sortPerm (edges m c) a)).isLt

theorem srcKey_lt_padded (h : Cert.Spec.InRange (edges m c)) (a : Fin 320000) : srcKey m c h a < 10240 :=
  Nat.lt_trans (srcKey_lt m c h a) (by norm_num)

/-! ## The two sorted columns at an edge of a tile -/

theorem v41_tile_toInt (h : Cert.Spec.InRange (edges m c)) (T : Fin 1250) (r : Fin 256) :
    ((V8 m c main_v41 : IVec S320000x1 32) (ValueIdx.ix2 (Cert.Spec.tileEdge T r) 0)).toInt
      = ((dstKey m c h (Cert.Spec.tileEdge T r) : ℕ) : ℤ) :=
  v41_toInt m c h _

theorem v40_tile_toInt (h : Cert.Spec.InRange (edges m c)) (T : Fin 1250) (r : Fin 256) :
    ((V8 m c main_v40 : IVec S320000x1 32) (ValueIdx.ix2 (Cert.Spec.tileEdge T r) 0)).toInt
      = ((srcKey m c h (Cert.Spec.tileEdge T r) : ℕ) : ℤ) :=
  v40_toInt m c h _

theorem v41_tile_toNat (h : Cert.Spec.InRange (edges m c)) (T : Fin 1250) (r : Fin 256) :
    ((V8 m c main_v41 : IVec S320000x1 32) (ValueIdx.ix2 (Cert.Spec.tileEdge T r) 0)).toNat
      = dstKey m c h (Cert.Spec.tileEdge T r) :=
  toNat_of_toInt_eq_natCast _ _ (v41_tile_toInt m c h T r)

theorem v40_tile_toNat (h : Cert.Spec.InRange (edges m c)) (T : Fin 1250) (r : Fin 256) :
    ((V8 m c main_v40 : IVec S320000x1 32) (ValueIdx.ix2 (Cert.Spec.tileEdge T r) 0)).toNat
      = srcKey m c h (Cert.Spec.tileEdge T r) :=
  toNat_of_toInt_eq_natCast _ _ (v40_tile_toInt m c h T r)

/-! ## The two tables: the chunk numbers of the tile's first and last target -/

theorem tileEdge_first (T : Fin 1250) : Cert.Spec.tileEdge T 0 = ⟨T.val * 256, by have := T.isLt; omega⟩ := rfl

theorem tileEdge_last (T : Fin 1250) : Cert.Spec.tileEdge T 255 = ⟨T.val * 256 + 255, by have := T.isLt; omega⟩ := rfl

theorem v31_tile_toInt (h : Cert.Spec.InRange (edges m c)) (T : Fin 1250) :
    ((V8 m c main_v31 : IVec S1250 32) (ValueIdx.ix1 T)).toInt
      = ((dstKey m c h (Cert.Spec.tileEdge T 0) / 1024 : ℕ) : ℤ) := by
  rw [dstKey_def, tileEdge_first]
  exact v31_toInt m c h T

theorem v39_tile_toInt (h : Cert.Spec.InRange (edges m c)) (T : Fin 1250) :
    ((V8 m c main_v39 : IVec S1250 32) (ValueIdx.ix1 T)).toInt
      = ((dstKey m c h (Cert.Spec.tileEdge T 255) / 1024 : ℕ) : ℤ) := by
  rw [dstKey_def, tileEdge_last]
  exact v39_toInt m c h T

theorem v31_tile_toNat (h : Cert.Spec.InRange (edges m c)) (T : Fin 1250) :
    ((V8 m c main_v31 : IVec S1250 32) (ValueIdx.ix1 T)).toNat = dstKey m c h (Cert.Spec.tileEdge T 0) / 1024 :=
  toNat_of_toInt_eq_natCast _ _ (v31_tile_toInt m c h T)

theorem v39_tile_toNat (h : Cert.Spec.InRange (edges m c)) (T : Fin 1250) :
    ((V8 m c main_v39 : IVec S1250 32) (ValueIdx.ix1 T)).toNat = dstKey m c h (Cert.Spec.tileEdge T 255) / 1024 :=
  toNat_of_toInt_eq_natCast _ _ (v39_tile_toInt m c h T)

/-! ## The chunk gate -/

/-- The gate computed from the tile's two table words at a chunk word `w` that reads as the number `k`: open exactly
    when `k` lies between the chunk numbers of the tile's first and last target. -/
theorem gate_iff_word (h : Cert.Spec.InRange (edges m c)) (T : Fin 1250) (w : BitVec 32) (k : ℕ) (hk : w.toInt = (k : ℤ)) :
    Cert.Spec.gateWord ((V8 m c main_v31 : IVec S1250 32) (ValueIdx.ix1 T)) ((V8 m c main_v39 : IVec S1250 32) (ValueIdx.ix1 T)) w = 1#1
      ↔ dstKey m c h (Cert.Spec.tileEdge T 0) / 1024 ≤ k ∧ k ≤ dstKey m c h (Cert.Spec.tileEdge T 255) / 1024 := by
  rw [Cert.Spec.gateWord_eq_one_iff, v31_tile_toInt m c h T, v39_tile_toInt m c h T, hk]
  exact ⟨fun ⟨a, b⟩ => ⟨Int.ofNat_le.mp a, Int.ofNat_le.mp b⟩, fun ⟨a, b⟩ => ⟨Int.ofNat_le.mpr a, Int.ofNat_le.mpr b⟩⟩

/-- The gate at chunk `k` of the ten. -/
theorem gate_iff (h : Cert.Spec.InRange (edges m c)) (T : Fin 1250) (k : Fin 10) :
    Cert.Spec.gateWord ((V8 m c main_v31 : IVec S1250 32) (ValueIdx.ix1 T)) ((V8 m c main_v39 : IVec S1250 32) (ValueIdx.ix1 T))
        (BitVec.ofNat 32 k.val) = 1#1
      ↔ dstKey m c h (Cert.Spec.tileEdge T 0) / 1024 ≤ k.val ∧ k.val ≤ dstKey m c h (Cert.Spec.tileEdge T 255) / 1024 :=
  gate_iff_word m c h T _ k.val (toInt_ofNat_of_lt (Nat.lt_trans k.isLt (by norm_num)))

/-- The gate is open on the tile's whole chunk range. -/
theorem gate_open (h : Cert.Spec.InRange (edges m c)) (T : Fin 1250) :
    ∀ k : Fin 10, dstKey m c h (Cert.Spec.tileEdge T 0) / 1024 ≤ k.val → k.val ≤ dstKey m c h (Cert.Spec.tileEdge T 255) / 1024 →
      Cert.Spec.gateWord ((V8 m c main_v31 : IVec S1250 32) (ValueIdx.ix1 T)) ((V8 m c main_v39 : IVec S1250 32) (ValueIdx.ix1 T))
        (BitVec.ofNat 32 k.val) = 1#1 :=
  fun k a b => (gate_iff m c h T k).mpr ⟨a, b⟩

/-! The ten chunks' gates at the literal chunk words. -/

theorem gate0 (h : Cert.Spec.InRange (edges m c)) (T : Fin 1250) :
    Cert.Spec.gateWord ((V8 m c main_v31 : IVec S1250 32) (ValueIdx.ix1 T)) ((V8 m c main_v39 : IVec S1250 32) (ValueIdx.ix1 T)) 0#32 = 1#1
      ↔ dstKey m c h (Cert.Spec.tileEdge T 0) / 1024 ≤ 0 ∧ 0 ≤ dstKey m c h (Cert.Spec.tileEdge T 255) / 1024 :=
  gate_iff_word m c h T 0#32 0 (by decide)
theorem gate1 (h : Cert.Spec.InRange (edges m c)) (T : Fin 1250) :
    Cert.Spec.gateWord ((V8 m c main_v31 : IVec S1250 32) (ValueIdx.ix1 T)) ((V8 m c main_v39 : IVec S1250 32) (ValueIdx.ix1 T)) 1#32 = 1#1
      ↔ dstKey m c h (Cert.Spec.tileEdge T 0) / 1024 ≤ 1 ∧ 1 ≤ dstKey m c h (Cert.Spec.tileEdge T 255) / 1024 :=
  gate_iff_word m c h T 1#32 1 (by decide)
theorem gate2 (h : Cert.Spec.InRange (edges m c)) (T : Fin 1250) :
    Cert.Spec.gateWord ((V8 m c main_v31 : IVec S1250 32) (ValueIdx.ix1 T)) ((V8 m c main_v39 : IVec S1250 32) (ValueIdx.ix1 T)) 2#32 = 1#1
      ↔ dstKey m c h (Cert.Spec.tileEdge T 0) / 1024 ≤ 2 ∧ 2 ≤ dstKey m c h (Cert.Spec.tileEdge T 255) / 1024 :=
  gate_iff_word m c h T 2#32 2 (by decide)
theorem gate3 (h : Cert.Spec.InRange (edges m c)) (T : Fin 1250) :
    Cert.Spec.gateWord ((V8 m c main_v31 : IVec S1250 32) (ValueIdx.ix1 T)) ((V8 m c main_v39 : IVec S1250 32) (ValueIdx.ix1 T)) 3#32 = 1#1
      ↔ dstKey m c h (Cert.Spec.tileEdge T 0) / 1024 ≤ 3 ∧ 3 ≤ dstKey m c h (Cert.Spec.tileEdge T 255) / 1024 :=
  gate_iff_word m c h T 3#32 3 (by decide)
theorem gate4 (h : Cert.Spec.InRange (edges m c)) (T : Fin 1250) :
    Cert.Spec.gateWord ((V8 m c main_v31 : IVec S1250 32) (ValueIdx.ix1 T)) ((V8 m c main_v39 : IVec S1250 32) (ValueIdx.ix1 T)) 4#32 = 1#1
      ↔ dstKey m c h (Cert.Spec.tileEdge T 0) / 1024 ≤ 4 ∧ 4 ≤ dstKey m c h (Cert.Spec.tileEdge T 255) / 1024 :=
  gate_iff_word m c h T 4#32 4 (by decide)
theorem gate5 (h : Cert.Spec.InRange (edges m c)) (T : Fin 1250) :
    Cert.Spec.gateWord ((V8 m c main_v31 : IVec S1250 32) (ValueIdx.ix1 T)) ((V8 m c main_v39 : IVec S1250 32) (ValueIdx.ix1 T)) 5#32 = 1#1
      ↔ dstKey m c h (Cert.Spec.tileEdge T 0) / 1024 ≤ 5 ∧ 5 ≤ dstKey m c h (Cert.Spec.tileEdge T 255) / 1024 :=
  gate_iff_word m c h T 5#32 5 (by decide)
theorem gate6 (h : Cert.Spec.InRange (edges m c)) (T : Fin 1250) :
    Cert.Spec.gateWord ((V8 m c main_v31 : IVec S1250 32) (ValueIdx.ix1 T)) ((V8 m c main_v39 : IVec S1250 32) (ValueIdx.ix1 T)) 6#32 = 1#1
      ↔ dstKey m c h (Cert.Spec.tileEdge T 0) / 1024 ≤ 6 ∧ 6 ≤ dstKey m c h (Cert.Spec.tileEdge T 255) / 1024 :=
  gate_iff_word m c h T 6#32 6 (by decide)
theorem gate7 (h : Cert.Spec.InRange (edges m c)) (T : Fin 1250) :
    Cert.Spec.gateWord ((V8 m c main_v31 : IVec S1250 32) (ValueIdx.ix1 T)) ((V8 m c main_v39 : IVec S1250 32) (ValueIdx.ix1 T)) 7#32 = 1#1
      ↔ dstKey m c h (Cert.Spec.tileEdge T 0) / 1024 ≤ 7 ∧ 7 ≤ dstKey m c h (Cert.Spec.tileEdge T 255) / 1024 :=
  gate_iff_word m c h T 7#32 7 (by decide)
theorem gate8 (h : Cert.Spec.InRange (edges m c)) (T : Fin 1250) :
    Cert.Spec.gateWord ((V8 m c main_v31 : IVec S1250 32) (ValueIdx.ix1 T)) ((V8 m c main_v39 : IVec S1250 32) (ValueIdx.ix1 T)) 8#32 = 1#1
      ↔ dstKey m c h (Cert.Spec.tileEdge T 0) / 1024 ≤ 8 ∧ 8 ≤ dstKey m c h (Cert.Spec.tileEdge T 255) / 1024 :=
  gate_iff_word m c h T 8#32 8 (by decide)
theorem gate9 (h : Cert.Spec.InRange (edges m c)) (T : Fin 1250) :
    Cert.Spec.gateWord ((V8 m c main_v31 : IVec S1250 32) (ValueIdx.ix1 T)) ((V8 m c main_v39 : IVec S1250 32) (ValueIdx.ix1 T)) 9#32 = 1#1
      ↔ dstKey m c h (Cert.Spec.tileEdge T 0) / 1024 ≤ 9 ∧ 9 ≤ dstKey m c h (Cert.Spec.tileEdge T 255) / 1024 :=
  gate_iff_word m c h T 9#32 9 (by decide)

end Tile

/-! ## The padded node table on the real rows -/

section Padded

variable (m : (ℓ : Loc nD τ sig) → Buf (Elt Ideal) ℓ) (c : Dev nD)

/-- The padded node table the first kernel region reads, row by row. -/
def paddedTable : Fin 10240 → Fin 4 → EReal :=
  fun n j => (V8 m c main_v45 : FVec Ideal S10240x4 .f32) (ValueIdx.ix2 n j)

/-- The node features at launch, as a matrix. -/
def nodeTable : Cert.Spec.Mat 10000 4 := Cert.Spec.matOf (V0 m c main_arg0 : FVec Ideal S10000x4 .f32)

/-- On the first 10000 rows the padded table is the node table. -/
theorem paddedTable_real (i : Fin 10000) : paddedTable m c ⟨i.val, by have := i.isLt; omega⟩ = nodeTable m c i := by
  funext j
  unfold paddedTable nodeTable Cert.Spec.matOf
  rw [v45_apply, dif_pos i.isLt]

/-- Below them it is zero. -/
theorem paddedTable_pad (n : Fin 10240) (hn : ¬ n.val < 10000) (j : Fin 4) : paddedTable m c n j = 0 := by
  unfold paddedTable
  rw [v45_apply, dif_neg hn]

end Padded

end Cert.KernelIdeal.KHost

end
-- ==== Proof.ValueCommon.lean ====
import proofs.«414286_j65627100283289_3_alg».proof.Proof.KLayersI
import proofs.«414286_j65627100283289_3_alg».proof.Proof.KHostTile

/-!
# What the four layers' regions share

A kernel region keeps a running sum over the tiles in an accumulator and stores it as a slab after each core's last tile.
If the running sum restarts at each core's first tile and otherwise grows, on every node row, by the messages of the tile's
edges that point at the row, then the slabs are what `RegionLeaves` asks of a layer's run. The statement speaks of the
running sum only, so it serves every layer alike. So do the facts about the sorted edge list, which every region reads
through the same four buffers: they are named here once.
-/

noncomputable section

/-! ## From a running sum to what a layer's run leaves -/

namespace Cert.KernelIdeal.KHost

open Idealize.ShloMosaic
open Cert.Spec
open scoped BigOperators

/-- A running sum that restarts at each core's first tile and otherwise grows by the messages of the tile's edges, read
    after each core's last tile, is what a layer's run is shown to leave. -/
theorem regionLeaves_of_acc {d o : ℕ} (P : Weights d o) (x : Mat 10000 d) (src dst : Fin 320000 → Fin 10000)
    (σ : Equiv.Perm (Fin 320000)) (S : Fin 2 → Fin 10240 → Fin o → EReal) (Acc : ℕ → Fin 10240 → Fin o → EReal)
    (hstep : ∀ (T : ℕ) (hT : T < 1250) (n : Fin 10240) (j : Fin o),
      Acc (T + 1) n j = (if T % 625 = 0 then 0 else Acc T n j)
        + ∑ r : Fin 256, if (dst (σ (tileEdge ⟨T, hT⟩ r))).val = n.val
            then message P x (src (σ (tileEdge ⟨T, hT⟩ r))) (dst (σ (tileEdge ⟨T, hT⟩ r))) j else 0)
    (hslab : ∀ (p : Fin 2) (n : Fin 10240) (j : Fin o), S p n j = Acc (p.val * 625 + 625) n j) :
    RegionLeaves P x src dst σ S := by
  let f : ℕ → Fin 10240 → Fin o → EReal := fun T n j =>
    if hT : T < 1250 then
      ∑ r : Fin 256, if (dst (σ (tileEdge ⟨T, hT⟩ r))).val = n.val
        then message P x (src (σ (tileEdge ⟨T, hT⟩ r))) (dst (σ (tileEdge ⟨T, hT⟩ r))) j else 0
    else 0
  let A : ℕ → Fin 10240 → Fin o → EReal := fun T =>
    Nat.rec (Acc 0) (fun T AT => fun n j => (if T % 625 = 0 then 0 else AT n j) + f T n j) T
  have hA : ∀ T, T ≤ 1250 → A T = Acc T := by
    intro T
    induction T with
    | zero => intro _; rfl
    | succ T ih =>
      intro hT
      have hT' : T < 1250 := hT
      funext n j
      show (if T % 625 = 0 then 0 else A T n j) + f T n j = Acc (T + 1) n j
      rw [ih (Nat.le_of_lt hT'), hstep T hT' n j]
      show _ + (if hT : T < 1250 then _ else _) = _
      rw [dif_pos hT']
  refine ⟨A, f, fun p n j => ?_, fun T n j => rfl, fun T hT n j => ?_⟩
  · rw [hslab p n j, hA (p.val * 625 + 625) (by have := p.isLt; omega)]
  · show (if hT : T < 1250 then _ else _) = _
    rw [dif_pos hT]

end Cert.KernelIdeal.KHost

/-! ## The sorted edge list: the keys and the two columns along the sort

Every layer's region reads the same two sorted columns and the same two tables; these are the facts about them, named once. -/

namespace Cert.KernelIdeal.KHost

open Idealize.ShloMosaic Idealize.ShloMosaic.TcCoe
open Idealize.SL.Sem
open Cert.KernelIdeal Cert.KernelIdeal.Gen
open Cert.Spec

section Along

variable (m : (ℓ : Loc nD τ sig) → Buf (Elt Ideal) ℓ) (c : Dev nD) (h : InRange (m ((c : Thread nD τ).loc main_arg2)))

/-- The sorted targets as numbers. -/
abbrev keyOf : Fin 320000 → ℕ := dstKey m c h
/-- The sources' column relisted along the sort. -/
abbrev srcAlong : Fin 320000 → Fin 10000 := fun a => srcK m c h (sortPerm (edges m c) a)
/-- The targets' column relisted along the sort. -/
abbrev dstAlong : Fin 320000 → Fin 10000 := fun a => dstK m c h (sortPerm (edges m c) a)

theorem along_key (a : Fin 320000) : keyOf m c h a = (dstAlong m c h a).val := rfl

theorem along_mono : ∀ a b : Fin 320000, a ≤ b → keyOf m c h a ≤ keyOf m c h b := dstKey_mono m c h

/-- The sorted targets' column at an edge of a tile. -/
theorem along_dst (T : Fin 1250) (r : Fin 256) :
    ((V8 m c main_v41 : Vec Ideal S320000x1 .i32) (ValueIdx.ix2 (tileEdge T r) (0 : Fin 1))).toNat = keyOf m c h (tileEdge T r) :=
  v41_tile_toNat m c h T r

/-- The sorted sources' column at an edge of a tile. -/
theorem along_src (T : Fin 1250) (r : Fin 256) :
    ((V8 m c main_v40 : Vec Ideal S320000x1 .i32) (ValueIdx.ix2 (tileEdge T r) (0 : Fin 1))).toNat
      = (srcAlong m c h (tileEdge T r)).val :=
  v40_tile_toNat m c h T r

/-- The chunk gate computed from the two tables is open on the tile's whole chunk range. -/
theorem along_gate (T : Fin 1250) :
    ∀ k : Fin 10, keyOf m c h (tileEdge T 0) / 1024 ≤ k.val → k.val ≤ keyOf m c h (tileEdge T 255) / 1024 →
      gateWord ((V8 m c main_v31 : Vec Ideal S1250 .i32) (ValueIdx.ix1 T)) ((V8 m c main_v39 : Vec Ideal S1250 .i32) (ValueIdx.ix1 T))
        (BitVec.ofNat 32 k.val) = 1#1 :=
  gate_open m c h T

end Along

end Cert.KernelIdeal.KHost

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.LibMatmulColsByCols.lean ====
/-
  The matrix product that contracts the FIRST axis of both operands, read at an index, at the ideal values.

  A k×m matrix A and a k×n matrix B, both contracted along their rows' axis, give the m×n matrix whose entry (r, h) is
  the sum over the contracted coordinate l of A(l, r)·B(l, h): the product of the transpose of A with B. Into a zero
  accumulator, and at the ideal values, where no rounding and no order of summation is left, the product read at (r, h)
  is exactly that sum. The four coordinate lemmas say where each operand is read: the contracted axis takes the
  contraction's one coordinate, the other axis the matching coordinate of the result.
-/
import Idealize.ShloMosaic.PureOps.Ideal.Laws
import Idealize.ShloMosaic.Lib.ValueIdx

noncomputable section

namespace Idealize.ShloMosaic.MatmulColsByCols

open Idealize.ShloMosaic Idealize.ShloMosaic.ValueIdx

variable {m k n : ℕ}

/-- The dimension numbers `[0] × [0]`, kept axes `[1]` and `[1]`, no batch axis. -/
abbrev dims (w : DotDims.WF ⟨2, ![k, m]⟩ ⟨2, ![k, n]⟩ ⟨2, ![m, n]⟩ [0] [0] [1] [1] [] []) :
    DotDims ⟨2, ![k, m]⟩ ⟨2, ![k, n]⟩ ⟨2, ![m, n]⟩ := ⟨[0], [0], [1], [1], [], [], w⟩

/-- The left operand's contracted axis reads the contraction's coordinate. -/
theorem lhs_0 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).lhsIdx j q 0).val = (q ⟨0, Nat.one_pos⟩).val :=
  (dims w).lhsIdx_val_of_single rfl j q

/-- The left operand's kept axis reads the result's first coordinate. -/
theorem lhs_1 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).lhsIdx j q 1).val = (j 0).val := by
  unfold DotDims.lhsIdx
  rw [dif_neg (show ¬(1 : Fin 2) ∈ (dims w).lhsBatch from List.not_mem_nil),
    dif_pos (show (1 : Fin 2) ∈ (dims w).lhsNonContracting from List.mem_singleton.mpr rfl)]
  rfl

/-- The right operand's contracted axis reads the contraction's coordinate. -/
theorem rhs_0 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- A kernel's product of the transpose of a k×m matrix with a k×n matrix into the zero accumulator, read at `(r, h)`. -/
theorem matmul_cols_apply {φ₁ φ₂ : FTy}
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (r : Fin m) (h : Fin n) :
    FloatOps.matmul (⟨[0], [0], [1], [1], [], [], w⟩ : DotDims _ _ _) prec A B
        (constant ⟨2, ![m, n]⟩ .f32 0x00000000#32) (ix2 r h)
      = ∑ l : Fin k, A (ix2 l r) * B (ix2 l h) := by
  rw [Ideal.matmul_constant_zero_apply, ← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 l r := by
    funext ax; apply Fin.ext
    match ax with
    | ⟨0, _⟩ => exact (lhs_0 w _ _).trans c2
    | ⟨1, _⟩ => exact lhs_1 w _ _
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

end Idealize.ShloMosaic.MatmulColsByCols

end
-- ==== Proof.LibRowOps.lean ====
/-
  Rows of a matrix read at an index: the keepdims column and the reductions over the columns.

  A vector [a] viewed as a column [a, 1] keeps its entries; a column [a, 1] broadcast to [a, b] repeats entry `p` along row
  `p`. A sum or a maximum over the second axis of an [a, b] matrix, read at row `i`, is the sum or the fold of `max` over the
  entries `(i, l)` of that row: for a kernel's reduction from its accumulator's value, and for the host's maximum from its
  initial value. The reductions are at the ideal values.
-/
import Idealize.ShloMosaic.PureOps.Ideal.Laws
import Idealize.ShloMosaic.Lib.ValueIdx
import Idealize.ShloMosaic.Lib.Pipeline.Value

noncomputable section

namespace Idealize.ShloMosaic.RowOps

open Idealize.ShloMosaic Idealize.ShloMosaic.ValueIdx

variable {α : Type}

/-! ## The keepdims column -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions over the columns, at the ideal values -/

/-- The index over row `i` with `l` put on the dropped second axis is `(i, l)`. -/
theorem lift_row {a b : ℕ} (h : (⟨2, ![a, b]⟩ : Shape).Reduces [1] ⟨1, ![a]⟩) (i : Fin a) (l : Fin b) :
    h.lift (ix1 i) l = ix2 i l := by
  funext ax; apply Fin.ext
  match ax with
  | ⟨0, _⟩ => rfl
  | ⟨1, _⟩ => rfl

/-- A kernel's sum over the columns, read at row `i`, is the sum of the row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ l : Fin b, src (ix2 i l) := by
  refine (Ideal.multiReduction_add_single src acc h hφ hacc (ix1 i)).trans ?_
  show ∑ l : Fin b, src (h.lift (ix1 i) l) = _
  exact Finset.sum_congr rfl fun l _ => congrArg src (lift_row h i l)

/-- A kernel's maximum over the columns, read at row `i`, is the fold of `max`, from the accumulator's value, over the
    row's entries. -/
theorem multiReduction_maximumf_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun l => src (ix2 i l)) := by
  refine (Ideal.multiReduction_maximumf_single src acc h hφ hacc (ix1 i)).trans ?_
  show (Finset.univ : Finset (Fin b)).fold max (Ideal.ofBits φ acc) (fun l => src (h.lift (ix1 i) l)) = _
  exact congrArg (fun f : Fin b → EReal => (Finset.univ : Finset (Fin b)).fold max (Ideal.ofBits φ acc) f)
    (funext fun l => congrArg src (lift_row h i l))

/-- The host's maximum over the columns, read at row `i`, is the fold of `max`, from the initial value, over the row's
    entries. -/
theorem hostReduce_maximumf_row {a b : ℕ} {φ : FTy} {u : Shape} (x : (⟨2, ![a, b]⟩ : Shape).Idx → Ideal φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (i : Fin a) :
    Host.reduce (FloatOps.maximumf (F := Ideal) (φ := φ)) x init h' hu (ix1 i)
      = (Finset.univ : Finset (Fin b)).fold max (init (Shape.Idx.first hu)) (fun l => x (ix2 i l)) := by
  refine (Host.reduce_eq_fold_single (FloatOps.maximumf (F := Ideal) (φ := φ)) x init h' h hu (ix1 i)).trans ?_
  show (Finset.univ : Finset (Fin b)).fold max (init (Shape.Idx.first hu)) (fun l => x (h.lift (ix1 i) l)) = _
  exact congrArg (fun f : Fin b → EReal => (Finset.univ : Finset (Fin b)).fold max (init (Shape.Idx.first hu)) f)
    (funext fun l => congrArg x (lift_row h i l))

end Idealize.ShloMosaic.RowOps

end
-- ==== Proof.PayMlpI0.lean ====
/-
  The perceptron and the scatter half of a layer's tile body (region 0 of the program), read at an index, at the ideal
  values.

  A tile holds 256 edges. Its messages are a three-layer perceptron of the feature rows (the target's row followed by
  source minus target): each layer is a matrix product plus a bias row repeated down the 256 rows, the first two followed by
  the rectifier max(·, 0). The scatter adds the messages into the accumulator chunk by chunk: for chunk c the 256×1024
  matrix with a one at (r, k) where the target word of row r is c·1024 + k, transposed, times the messages, is added to
  the chunk's 1024 rows. At the ideal values a product into a zero accumulator is the plain sum over the contracted
  coordinate, so at (k, j) the step adds exactly the messages of the rows whose word is c·1024 + k.
-/
import proofs.«414286_j65627100283289_3_alg».proof.Proof.Gen.KernelIdeal.Skeleton
import proofs.«414286_j65627100283289_3_alg».proof.Proof.Arrange
import proofs.«414286_j65627100283289_3_alg».proof.Proof.Args
import proofs.«414286_j65627100283289_3_alg».proof.Proof.LibDenseLayer
import proofs.«414286_j65627100283289_3_alg».proof.Proof.LibMatmulColsByCols
import proofs.«414286_j65627100283289_3_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayI0

open Idealize.ShloMosaic Idealize.ShloMosaic.ValueIdx
open scoped BigOperators

/-! ## The accumulator's two trivial payloads -/

/-- The node table stored as one block `[1, 10240, 128]`: entry `(0, n, j)` is entry `(n, j)` of the table. -/
theorem pay1_apply (v : Vec Ideal S10240x128 .f32) (n : Fin 10240) (j : Fin 128) :
    Gen.k0_pay1 v (ValueIdx.ix3 (0 : Fin 1) n j) = v (ValueIdx.ix2 n j) := by
  unfold Gen.k0_pay1
  exact shapeCast_ab_1ab_apply v _ 0 n j

/-- The accumulator's initial contents: every entry is zero. -/
theorem pay2_apply (n : Fin 10240) (j : Fin 128) : (Gen.k0_pay2 (F := Ideal)) (ValueIdx.ix2 n j) = 0 := by
  unfold Gen.k0_pay2
  rw [shapeCast_self]
  exact Ideal.ofBits_zero_f32

/-! ## The 0/1 matrix of one chunk -/

/-- Entry `(r, k)` of the 0/1 matrix that compares the word of row `r` with `base + k`: one where they are the
    same word, zero elsewhere. -/
theorem onehot_entry (v6 : IVec S256 32) (base : BitVec 32) (r : Fin 256) (k : Fin 1024) :
    (sitofp .f32 (extui 32 (cmpi .eq
        (broadcastTo S256x1024 (shapeCast S256x1 v6 Gen.shapeCasts_S256_S256x1) Gen.broadcasts_S256x1_S256x1024)
        (addi (broadcast S256x1024 base) (iota .tc S256x1024 32 [1] Gen.iota_S256x1024_d1_w32))) Gen.natLt_1_32)
      : FVec Ideal S256x1024 .f32) (ValueIdx.ix2 r k)
      = if v6 (ValueIdx.ix1 r) = base + BitVec.ofNat 32 k.val then (1 : EReal) else 0 := by
  rw [sitofp_apply, extui_apply]
  show FloatOps.sitofp FTy.f32 (BitVec.setWidth 32 (IntOp.cmpi .eq
    (broadcastTo S256x1024 (shapeCast S256x1 v6 Gen.shapeCasts_S256_S256x1) Gen.broadcasts_S256x1_S256x1024 (ValueIdx.ix2 r k))
    (IntOp.addi base (iota .tc S256x1024 32 [1] Gen.iota_S256x1024_d1_w32 (ValueIdx.ix2 r k))))) = _
  rw [RowOps.broadcastTo_a1_ab_apply, RowOps.shapeCast_a_a1_apply, iota_single_apply]
  show FloatOps.sitofp FTy.f32 (BitVec.setWidth 32 (IntOp.cmpi .eq (v6 (ValueIdx.ix1 r)) (base + BitVec.ofNat 32 k.val))) = _
  by_cases h : v6 (ValueIdx.ix1 r) = base + BitVec.ofNat 32 k.val
  · rw [if_pos h, IntOp.cmpi_eq.mpr h]
    show (((BitVec.setWidth 32 1#1).toInt : ℝ) : EReal) = 1
    have e : (BitVec.setWidth 32 1#1).toInt = 1 := by decide
    rw [e]; simp
  · rw [if_neg h, eq_zero_of_ne_one (fun e => h (IntOp.cmpi_eq.mp e))]
    show (((BitVec.setWidth 32 0#1).toInt : ℝ) : EReal) = 0
    have e : (BitVec.setWidth 32 0#1).toInt = 0 := by decide
    rw [e]; simp

/-- A 32-bit word is the word of `c*1024 + k` exactly when its unsigned value is that number. -/
theorem word_eq_chunk (x : BitVec 32) (c : Fin 10) (k : Fin 1024) :
    x = BitVec.ofNat 32 (c.val * 1024) + BitVec.ofNat 32 k.val ↔ x.toNat = c.val * 1024 + k.val := by
  have hc := c.isLt; have hk := k.isLt
  rw [← BitVec.ofNat_add]
  constructor
  · intro h; rw [h, BitVec.toNat_ofNat]; omega
  · intro h; rw [← h, BitVec.ofNat_toNat, BitVec.setWidth_eq]

/-- One accumulation step of the scatter into chunk `c`, for messages of any width `N`: the chunk's rows as loaded, plus
    the transpose of the 0/1 matrix of the chunk times the messages. At `(k, j)` it adds the messages of the rows whose
    word is `c*1024 + k`. -/
theorem scatter_core {N : ℕ} (w : DotDims.WF S256x1024 ⟨2, ![256, N]⟩ ⟨2, ![1024, N]⟩ [0] [0] [1] [1] [] [])
    (hs : (⟨2, ![1024, N]⟩ : Shape).ShapeCasts ⟨2, ![1024, N]⟩) (c : Fin 10) (v6 : IVec S256 32)
    (M : FVec Ideal ⟨2, ![256, N]⟩ .f32) (v275 : FVec Ideal ⟨2, ![1024, N]⟩ .f32) (k : Fin 1024) (j : Fin N) :
    shapeCast ⟨2, ![1024, N]⟩ (addf v275 (matmul (⟨[0], [0], [1], [1], [], [], w⟩ : DotDims _ _ _) none
        (sitofp .f32 (extui 32 (cmpi .eq
          (broadcastTo S256x1024 (shapeCast S256x1 v6 Gen.shapeCasts_S256_S256x1) Gen.broadcasts_S256x1_S256x1024)
          (addi (broadcast S256x1024 (BitVec.ofNat 32 (c.val * 1024))) (iota .tc S256x1024 32 [1] Gen.iota_S256x1024_d1_w32)))
          Gen.natLt_1_32) : FVec Ideal S256x1024 .f32)
        M (constant (F := Ideal) ⟨2, ![1024, N]⟩ .f32 0x00000000#32))) hs (ValueIdx.ix2 k j)
      = v275 (ValueIdx.ix2 k j) + ∑ r : Fin 256,
          (if (v6 (ValueIdx.ix1 r)).toNat = c.val * 1024 + k.val then (1 : EReal) else 0) * M (ValueIdx.ix2 r j) := by
  rw [shapeCast_self, addf_apply]
  refine congrArg (fun z => v275 (ValueIdx.ix2 k j) + z) ?_
  refine (MatmulColsByCols.matmul_cols_apply w none _ M k j).trans ?_
  refine Finset.sum_congr rfl fun r _ => ?_
  rw [onehot_entry]
  by_cases h : (v6 (ValueIdx.ix1 r)).toNat = c.val * 1024 + k.val
  · rw [if_pos h, if_pos ((word_eq_chunk _ c k).mpr h)]
  · rw [if_neg h, if_neg (fun e => h ((word_eq_chunk _ c k).mp e))]

/-! ## The scatter's ten steps -/

/-- The scatter's step into chunk 0, at `(k, j)`, the messages being the perceptron's payload: the chunk's entry as
    loaded plus the messages of the tile's rows whose word is `0*1024 + k`. -/
theorem pay25_apply (v6 : IVec S256 32) (v196 : FVec Ideal S256x128 .f32) (cst_57 : Ideal .f32)
    (v199 : Vec Ideal S128x128 .f32) (v201 : Vec Ideal S1x128 .f32) (v207 : Vec Ideal S128x128 .f32)
    (v209 : Vec Ideal S1x128 .f32) (v275 : Vec Ideal S1024x128 .f32) (k : Fin 1024) (j : Fin 128) :
    Gen.k0_pay25 v6 v196 cst_57 v199 v201 v207 v209 v275 (ValueIdx.ix2 k j) = v275 (ValueIdx.ix2 k j) + ∑ r : Fin 256,
      (if (v6 (ValueIdx.ix1 r)).toNat = (0 : Fin 10).val * 1024 + k.val then (1 : EReal) else 0)
        * Gen.k0_pay24 v196 cst_57 v199 v201 v207 v209 (ValueIdx.ix2 r j) := by
  unfold Gen.k0_pay25
  exact scatter_core Gen.dot_S256x1024_S256x128_S1024x128_0_0_1_1_n_n_wf Gen.shapeCasts_S1024x128_S1024x128 0 v6 (Gen.k0_pay24 v196 cst_57 v199 v201 v207 v209) v275 k j

/-- The scatter's step into chunk 1, at `(k, j)`, the messages being the perceptron's payload: the chunk's entry as
    loaded plus the messages of the tile's rows whose word is `1*1024 + k`. -/
theorem pay26_apply (v6 : IVec S256 32) (v196 : FVec Ideal S256x128 .f32) (cst_57 : Ideal .f32)
    (v199 : Vec Ideal S128x128 .f32) (v201 : Vec Ideal S1x128 .f32) (v207 : Vec Ideal S128x128 .f32)
    (v209 : Vec Ideal S1x128 .f32) (v275 : Vec Ideal S1024x128 .f32) (k : Fin 1024) (j : Fin 128) :
    Gen.k0_pay26 v6 v196 cst_57 v199 v201 v207 v209 v275 (ValueIdx.ix2 k j) = v275 (ValueIdx.ix2 k j) + ∑ r : Fin 256,
      (if (v6 (ValueIdx.ix1 r)).toNat = (1 : Fin 10).val * 1024 + k.val then (1 : EReal) else 0)
        * Gen.k0_pay24 v196 cst_57 v199 v201 v207 v209 (ValueIdx.ix2 r j) := by
  unfold Gen.k0_pay26
  exact scatter_core Gen.dot_S256x1024_S256x128_S1024x128_0_0_1_1_n_n_wf Gen.shapeCasts_S1024x128_S1024x128 1 v6 (Gen.k0_pay24 v196 cst_57 v199 v201 v207 v209) v275 k j

/-- The scatter's step into chunk 2, at `(k, j)`, the messages being the perceptron's payload: the chunk's entry as
    loaded plus the messages of the tile's rows whose word is `2*1024 + k`. -/
theorem pay27_apply (v6 : IVec S256 32) (v196 : FVec Ideal S256x128 .f32) (cst_57 : Ideal .f32)
    (v199 : Vec Ideal S128x128 .f32) (v201 : Vec Ideal S1x128 .f32) (v207 : Vec Ideal S128x128 .f32)
    (v209 : Vec Ideal S1x128 .f32) (v275 : Vec Ideal S1024x128 .f32) (k : Fin 1024) (j : Fin 128) :
    Gen.k0_pay27 v6 v196 cst_57 v199 v201 v207 v209 v275 (ValueIdx.ix2 k j) = v275 (ValueIdx.ix2 k j) + ∑ r : Fin 256,
      (if (v6 (ValueIdx.ix1 r)).toNat = (2 : Fin 10).val * 1024 + k.val then (1 : EReal) else 0)
        * Gen.k0_pay24 v196 cst_57 v199 v201 v207 v209 (ValueIdx.ix2 r j) := by
  unfold Gen.k0_pay27
  exact scatter_core Gen.dot_S256x1024_S256x128_S1024x128_0_0_1_1_n_n_wf Gen.shapeCasts_S1024x128_S1024x128 2 v6 (Gen.k0_pay24 v196 cst_57 v199 v201 v207 v209) v275 k j

/-- The scatter's step into chunk 3, at `(k, j)`: the chunk's entry as loaded plus the messages of the tile's rows
    whose word is `3*1024 + k`. -/
theorem pay28_apply (v6 : IVec S256 32) (v212 : FVec Ideal S256x128 .f32) (v275 : Vec Ideal S1024x128 .f32)
    (k : Fin 1024) (j : Fin 128) :
    Gen.k0_pay28 v6 v212 v275 (ValueIdx.ix2 k j) = v275 (ValueIdx.ix2 k j) + ∑ r : Fin 256,
      (if (v6 (ValueIdx.ix1 r)).toNat = (3 : Fin 10).val * 1024 + k.val then (1 : EReal) else 0) * v212 (ValueIdx.ix2 r j) := by
  unfold Gen.k0_pay28
  exact scatter_core Gen.dot_S256x1024_S256x128_S1024x128_0_0_1_1_n_n_wf Gen.shapeCasts_S1024x128_S1024x128 3 v6 v212 v275 k j

/-- The scatter's step into chunk 4, at `(k, j)`: the chunk's entry as loaded plus the messages of the tile's rows
    whose word is `4*1024 + k`. -/
theorem pay29_apply (v6 : IVec S256 32) (v212 : FVec Ideal S256x128 .f32) (v275 : Vec Ideal S1024x128 .f32)
    (k : Fin 1024) (j : Fin 128) :
    Gen.k0_pay29 v6 v212 v275 (ValueIdx.ix2 k j) = v275 (ValueIdx.ix2 k j) + ∑ r : Fin 256,
      (if (v6 (ValueIdx.ix1 r)).toNat = (4 : Fin 10).val * 1024 + k.val then (1 : EReal) else 0) * v212 (ValueIdx.ix2 r j) := by
  unfold Gen.k0_pay29
  exact scatter_core Gen.dot_S256x1024_S256x128_S1024x128_0_0_1_1_n_n_wf Gen.shapeCasts_S1024x128_S1024x128 4 v6 v212 v275 k j

/-- The scatter's step into chunk 5, at `(k, j)`: the chunk's entry as loaded plus the messages of the tile's rows
    whose word is `5*1024 + k`. -/
theorem pay30_apply (v6 : IVec S256 32) (v212 : FVec Ideal S256x128 .f32) (v275 : Vec Ideal S1024x128 .f32)
    (k : Fin 1024) (j : Fin 128) :
    Gen.k0_pay30 v6 v212 v275 (ValueIdx.ix2 k j) = v275 (ValueIdx.ix2 k j) + ∑ r : Fin 256,
      (if (v6 (ValueIdx.ix1 r)).toNat = (5 : Fin 10).val * 1024 + k.val then (1 : EReal) else 0) * v212 (ValueIdx.ix2 r j) := by
  unfold Gen.k0_pay30
  exact scatter_core Gen.dot_S256x1024_S256x128_S1024x128_0_0_1_1_n_n_wf Gen.shapeCasts_S1024x128_S1024x128 5 v6 v212 v275 k j

/-- The scatter's step into chunk 6, at `(k, j)`: the chunk's entry as loaded plus the messages of the tile's rows
    whose word is `6*1024 + k`. -/
theorem pay31_apply (v6 : IVec S256 32) (v212 : FVec Ideal S256x128 .f32) (v275 : Vec Ideal S1024x128 .f32)
    (k : Fin 1024) (j : Fin 128) :
    Gen.k0_pay31 v6 v212 v275 (ValueIdx.ix2 k j) = v275 (ValueIdx.ix2 k j) + ∑ r : Fin 256,
      (if (v6 (ValueIdx.ix1 r)).toNat = (6 : Fin 10).val * 1024 + k.val then (1 : EReal) else 0) * v212 (ValueIdx.ix2 r j) := by
  unfold Gen.k0_pay31
  exact scatter_core Gen.dot_S256x1024_S256x128_S1024x128_0_0_1_1_n_n_wf Gen.shapeCasts_S1024x128_S1024x128 6 v6 v212 v275 k j

/-- The scatter's step into chunk 7, at `(k, j)`: the chunk's entry as loaded plus the messages of the tile's rows
    whose word is `7*1024 + k`. -/
theorem pay32_apply (v6 : IVec S256 32) (v212 : FVec Ideal S256x128 .f32) (v275 : Vec Ideal S1024x128 .f32)
    (k : Fin 1024) (j : Fin 128) :
    Gen.k0_pay32 v6 v212 v275 (ValueIdx.ix2 k j) = v275 (ValueIdx.ix2 k j) + ∑ r : Fin 256,
      (if (v6 (ValueIdx.ix1 r)).toNat = (7 : Fin 10).val * 1024 + k.val then (1 : EReal) else 0) * v212 (ValueIdx.ix2 r j) := by
  unfold Gen.k0_pay32
  exact scatter_core Gen.dot_S256x1024_S256x128_S1024x128_0_0_1_1_n_n_wf Gen.shapeCasts_S1024x128_S1024x128 7 v6 v212 v275 k j

/-- The scatter's step into chunk 8, at `(k, j)`: the chunk's entry as loaded plus the messages of the tile's rows
    whose word is `8*1024 + k`. -/
theorem pay33_apply (v6 : IVec S256 32) (v212 : FVec Ideal S256x128 .f32) (v275 : Vec Ideal S1024x128 .f32)
    (k : Fin 1024) (j : Fin 128) :
    Gen.k0_pay33 v6 v212 v275 (ValueIdx.ix2 k j) = v275 (ValueIdx.ix2 k j) + ∑ r : Fin 256,
      (if (v6 (ValueIdx.ix1 r)).toNat = (8 : Fin 10).val * 1024 + k.val then (1 : EReal) else 0) * v212 (ValueIdx.ix2 r j) := by
  unfold Gen.k0_pay33
  exact scatter_core Gen.dot_S256x1024_S256x128_S1024x128_0_0_1_1_n_n_wf Gen.shapeCasts_S1024x128_S1024x128 8 v6 v212 v275 k j

/-- The scatter's step into chunk 9, at `(k, j)`: the chunk's entry as loaded plus the messages of the tile's rows
    whose word is `9*1024 + k`. -/
theorem pay34_apply (v6 : IVec S256 32) (v212 : FVec Ideal S256x128 .f32) (v275 : Vec Ideal S1024x128 .f32)
    (k : Fin 1024) (j : Fin 128) :
    Gen.k0_pay34 v6 v212 v275 (ValueIdx.ix2 k j) = v275 (ValueIdx.ix2 k j) + ∑ r : Fin 256,
      (if (v6 (ValueIdx.ix1 r)).toNat = (9 : Fin 10).val * 1024 + k.val then (1 : EReal) else 0) * v212 (ValueIdx.ix2 r j) := by
  unfold Gen.k0_pay34
  exact scatter_core Gen.dot_S256x1024_S256x128_S1024x128_0_0_1_1_n_n_wf Gen.shapeCasts_S1024x128_S1024x128 9 v6 v212 v275 k j

/-! ## The perceptron -/

/-- The first layer's parameters as the tile body reads them: three weight matrices, and three bias rows each laid out
    as a `[1, 128]` array. -/
def kWeights0 (W0 : Vec Ideal S8x128 .f32) (b0 : Vec Ideal S1x128 .f32) (W1 : Vec Ideal S128x128 .f32)
    (b1 : Vec Ideal S1x128 .f32) (W2 : Vec Ideal S128x128 .f32) (b2 : Vec Ideal S1x128 .f32) : Spec.Weights 4 128 where
  W0 := fun l h => W0 (ValueIdx.ix2 l h)
  b0 := fun h => b0 (ValueIdx.ix2 (0 : Fin 1) h)
  W1 := fun l h => W1 (ValueIdx.ix2 l h)
  b1 := fun h => b1 (ValueIdx.ix2 (0 : Fin 1) h)
  W2 := fun l h => W2 (ValueIdx.ix2 l h)
  b2 := fun h => b2 (ValueIdx.ix2 (0 : Fin 1) h)

/-- Row `r` of the feature matrix (the target's row, then source minus target, side by side) is the feature vector of
    the two rows. -/
theorem feats_entry (xi xj : FVec Ideal S256x4 .f32) (r : Fin 256) (l : Fin (4 + 4)) :
    concatenate S256x8 1 [⟨S256x4, xi⟩, ⟨S256x4, subf xj xi⟩] Gen.concatenates_S256x4_S256x4_S256x8_d1 (ValueIdx.ix2 r l)
      = Spec.feats (fun j => xi (ValueIdx.ix2 r j)) (fun j => xj (ValueIdx.ix2 r j)) l := by
  unfold Spec.feats
  refine Fin.addCases (fun a => ?_) (fun a => ?_) l
  · rw [Fin.append_left]
    refine concatenate_pair_apply_left (t := S256x8) 1 xi (subf xj xi) _ _ rfl (ValueIdx.ix2 r a) fun b => ?_
    match b with
    | ⟨0, _⟩ => rfl
    | ⟨1, _⟩ => rfl
  · rw [Fin.append_right]
    refine (concatenate_pair_apply_right (t := S256x8) 1 xi (subf xj xi) _ _ rfl rfl (ValueIdx.ix2 r a)
      (fun b hb => ?_) ?_).trans ?_
    · match b with
      | ⟨0, _⟩ => rfl
      | ⟨1, _⟩ => exact absurd rfl hb
    · exact Nat.add_comm _ _
    · rfl

/-- An affine layer on 256 rows, of any input width `K` and output width `N`: the product with a `K × N` matrix into a
    zero accumulator, plus a bias row repeated down the rows, read at `(r, h)`. -/
theorem dense_apply {K N : ℕ} (w : DotDims.WF ⟨2, ![256, K]⟩ ⟨2, ![K, N]⟩ ⟨2, ![256, N]⟩ [1] [0] [0] [1] [] [])
    (h1 : (⟨2, ![1, N]⟩ : Shape).ShapeCasts ⟨2, ![1, N]⟩) (hb : (⟨2, ![1, N]⟩ : Shape).Broadcasts ⟨2, ![256, N]⟩)
    (A : FVec Ideal ⟨2, ![256, K]⟩ .f32) (W : FVec Ideal ⟨2, ![K, N]⟩ .f32) (b : FVec Ideal ⟨2, ![1, N]⟩ .f32)
    (r : Fin 256) (h : Fin N) :
    addf (matmul (⟨[1], [0], [0], [1], [], [], w⟩ : DotDims _ _ _) none A W
          (constant (F := Ideal) ⟨2, ![256, N]⟩ .f32 0x00000000#32))
        (broadcastTo ⟨2, ![256, N]⟩ (shapeCast ⟨2, ![1, N]⟩ b h1) hb) (ValueIdx.ix2 r h)
      = (∑ l : Fin K, A (ValueIdx.ix2 r l) * W (ValueIdx.ix2 l h)) + b (ValueIdx.ix2 (0 : Fin 1) h) := by
  rw [addf_apply, shapeCast_self, broadcastTo_1b_ab_apply]
  refine congrArg (fun z => z + b (ValueIdx.ix2 (0 : Fin 1) h)) ?_
  exact DenseLayer.matmul_rows_apply w none A W r h

/-- The first affine layer of the tile, before the rectifier, at `(r, h)`. -/
theorem pay23_apply (v133 : FVec Ideal S256x4 .f32) (v188 : Vec Ideal S256x4 .f32) (v191 : Vec Ideal S8x128 .f32)
    (v193 : Vec Ideal S1x128 .f32) (r : Fin 256) (h : Fin 128) :
    Gen.k0_pay23 v133 v188 v191 v193 (ValueIdx.ix2 r h)
      = (∑ l : Fin (4 + 4), Spec.feats (fun j => v188 (ValueIdx.ix2 r j)) (fun j => v133 (ValueIdx.ix2 r j)) l * v191 (ValueIdx.ix2 l h))
        + v193 (ValueIdx.ix2 (0 : Fin 1) h) := by
  unfold Gen.k0_pay23
  refine (dense_apply Gen.dot_S256x8_S8x128_S256x128_1_0_0_1_n_n_wf Gen.shapeCasts_S1x128_S1x128
    Gen.broadcasts_S1x128_S256x128 _ v191 v193 r h).trans ?_
  refine congrArg (fun z => z + v193 (ValueIdx.ix2 (0 : Fin 1) h)) ?_
  refine Finset.sum_congr rfl fun l _ => ?_
  exact congrArg (fun z => z * v191 (ValueIdx.ix2 l h)) (feats_entry v188 v133 r l)

/-- The rest of the perceptron — rectifier, second affine layer, rectifier, third affine layer — at `(r, j)`, over the
    first layer's values `v196`; `cst_57` is the word the first rectifier compares with. -/
theorem pay24_apply (v196 : FVec Ideal S256x128 .f32) (cst_57 : Ideal .f32) (v199 : Vec Ideal S128x128 .f32)
    (v201 : Vec Ideal S1x128 .f32) (v207 : Vec Ideal S128x128 .f32) (v209 : Vec Ideal S1x128 .f32)
    (r : Fin 256) (j : Fin 128) :
    Gen.k0_pay24 v196 cst_57 v199 v201 v207 v209 (ValueIdx.ix2 r j)
      = (∑ k : Fin 128,
            max ((∑ l : Fin 128, max (v196 (ValueIdx.ix2 r l)) cst_57 * v199 (ValueIdx.ix2 l k)) + v201 (ValueIdx.ix2 (0 : Fin 1) k)) 0
              * v207 (ValueIdx.ix2 k j))
        + v209 (ValueIdx.ix2 (0 : Fin 1) j) := by
  unfold Gen.k0_pay24
  refine (dense_apply Gen.dot_S256x128_S128x128_S256x128_1_0_0_1_n_n_wf Gen.shapeCasts_S1x128_S1x128
    Gen.broadcasts_S1x128_S256x128 _ v207 v209 r j).trans ?_
  refine congrArg (fun z => z + v209 (ValueIdx.ix2 (0 : Fin 1) j)) ?_
  refine Finset.sum_congr rfl fun k _ => ?_
  refine congrArg (fun z => z * v207 (ValueIdx.ix2 k j)) ?_
  rw [maximumf_apply, broadcast_apply]
  refine congrArg₂ max ?_ Ideal.ofBits_zero_f32
  refine (dense_apply Gen.dot_S256x128_S128x128_S256x128_1_0_0_1_n_n_wf Gen.shapeCasts_S1x128_S1x128
    Gen.broadcasts_S1x128_S256x128 _ v199 v201 r k).trans ?_
  refine congrArg (fun z => z + v201 (ValueIdx.ix2 (0 : Fin 1) k)) ?_
  refine Finset.sum_congr rfl fun l _ => ?_
  rfl

/-- The zero word is the number zero. -/
theorem cst57_zero : (Scalar.ofBits .f32 0x00000000#32 : Ideal .f32) = 0 := Ideal.ofBits_zero_f32

/-- The tile's messages: row `r` of the composed payloads is the perceptron of the feature vector of row `r` of the
    two picked blocks (`xi` the targets' rows, `xj` the sources' rows). -/
theorem messages_apply (xj : FVec Ideal S256x4 .f32) (xi : Vec Ideal S256x4 .f32) (W0 : Vec Ideal S8x128 .f32)
    (b0 : Vec Ideal S1x128 .f32) (cst_57 : Ideal .f32) (hc : cst_57 = 0) (W1 : Vec Ideal S128x128 .f32)
    (b1 : Vec Ideal S1x128 .f32) (W2 : Vec Ideal S128x128 .f32) (b2 : Vec Ideal S1x128 .f32) (r : Fin 256) (j : Fin 128) :
    Gen.k0_pay24 (Gen.k0_pay23 xj xi W0 b0) cst_57 W1 b1 W2 b2 (ValueIdx.ix2 r j)
      = Spec.mlp (kWeights0 W0 b0 W1 b1 W2 b2) (Spec.feats (fun j => xi (ValueIdx.ix2 r j)) (fun j => xj (ValueIdx.ix2 r j))) j := by
  rw [pay24_apply, hc]
  unfold Spec.mlp Spec.relu kWeights0
  refine congrArg (fun z => z + b2 (ValueIdx.ix2 (0 : Fin 1) j)) ?_
  refine Finset.sum_congr rfl fun k _ => ?_
  refine congrArg (fun z => max z 0 * W2 (ValueIdx.ix2 k j)) ?_
  refine congrArg (fun z => z + b1 (ValueIdx.ix2 (0 : Fin 1) k)) ?_
  refine Finset.sum_congr rfl fun l _ => ?_
  refine congrArg (fun z => max z 0 * W1 (ValueIdx.ix2 l k)) ?_
  exact pay23_apply xj xi W0 b0 r l

/-- The same over named intermediate values: whenever `v196` is the first affine layer of the two blocks and the
    first rectifier's word is zero, the second payload at `(r, j)` is the perceptron of row `r`'s feature vector. -/
theorem messages_apply_of (xj : FVec Ideal S256x4 .f32) (xi : Vec Ideal S256x4 .f32) (W0 : Vec Ideal S8x128 .f32)
    (b0 : Vec Ideal S1x128 .f32) (v196 : FVec Ideal S256x128 .f32) (h196 : v196 = Gen.k0_pay23 xj xi W0 b0)
    (cst_57 : Ideal .f32) (hc : cst_57 = 0) (W1 : Vec Ideal S128x128 .f32)
    (b1 : Vec Ideal S1x128 .f32) (W2 : Vec Ideal S128x128 .f32) (b2 : Vec Ideal S1x128 .f32) (r : Fin 256) (j : Fin 128) :
    Gen.k0_pay24 v196 cst_57 W1 b1 W2 b2 (ValueIdx.ix2 r j)
      = Spec.mlp (kWeights0 W0 b0 W1 b1 W2 b2) (Spec.feats (fun j => xi (ValueIdx.ix2 r j)) (fun j => xj (ValueIdx.ix2 r j))) j := by
  subst h196
  exact messages_apply xj xi W0 b0 cst_57 hc W1 b1 W2 b2 r j

/-- The layer's parameters as the tile body reads them are the parameters read off the six arrays, the bias rows being
    the one-axis arrays laid out as one row. -/
theorem kWeights0_eq (W0 : Vec Ideal S8x128 .f32) (b0 : Vec Ideal S1x128 .f32) (W1 : Vec Ideal S128x128 .f32)
    (b1 : Vec Ideal S1x128 .f32) (W2 : Vec Ideal S128x128 .f32) (b2 : Vec Ideal S1x128 .f32)
    (c0 c1 c2 : FVec Ideal (⟨1, ![128]⟩ : Shape) .f32)
    (h0 : ∀ h : Fin 128, b0 (ValueIdx.ix2 (0 : Fin 1) h) = c0 (ValueIdx.ix1 h))
    (h1 : ∀ h : Fin 128, b1 (ValueIdx.ix2 (0 : Fin 1) h) = c1 (ValueIdx.ix1 h))
    (h2 : ∀ h : Fin 128, b2 (ValueIdx.ix2 (0 : Fin 1) h) = c2 (ValueIdx.ix1 h)) :
    kWeights0 W0 b0 W1 b1 W2 b2 = Spec.weightsOf W0 c0 W1 c1 W2 c2 := by
  unfold kWeights0 Spec.weightsOf Spec.matOf Spec.rowOf
  congr 1
  · exact funext h0
  · exact funext h1
  · exact funext h2

end Cert.KernelIdeal.PayI0

end
-- ==== Proof.HandedI0.lean ====
import proofs.«414286_j65627100283289_3_alg».proof.Proof.ValueCommon
import proofs.«414286_j65627100283289_3_alg».proof.Proof.PayMlpI0

/-!
# What region 0 is handed

The first kernel region's eleven operand arrays as values — the two prefetched tables, the two sorted columns, the
padded node table, the three weight blocks and the three bias rows —, the layer's parameters and input they carry, and
the facts about them the tile arithmetic consumes: the columns at an edge of a tile, the chunk gate on the tile's chunk
range, the node table on the real rows, the parameters. The region's own analysis speaks of these values only.
-/

set_option maxRecDepth 4096

noncomputable section

namespace Cert.KernelIdeal.KHost

open Idealize.ShloMosaic Idealize.ShloMosaic.TcCoe
open Idealize.SL.Sem
open Cert.KernelIdeal Cert.KernelIdeal.Gen
open Cert.Spec

section Handed0

/-- The buffers' contents when the region is entered. -/
abbrev ent0 (m : (ℓ : Loc nD τ sig) → Buf (Elt Ideal) ℓ) (outs : Gen.Outs (F := Ideal)) :
    (c : Dev nD) → (b : Ref sig .tc) → Buf (Elt Ideal) ((c : Thread nD τ).loc b) := fun c b => V8 m c b

/-- The two tables' contents as the region prefetches them. -/
def tbl0 (m : (ℓ : Loc nD τ sig) → Buf (Elt Ideal) ℓ) (outs : Gen.Outs (F := Ideal)) (c : Dev nD) : (pcfg0 (F := Ideal)).Adm :=
  ⟨fun k => V8 m c (pre0.ref k), trivial⟩

/-- The two prefetched tables. -/
abbrev opLo0 (m : (ℓ : Loc nD τ sig) → Buf (Elt Ideal) ℓ) (outs : Gen.Outs (F := Ideal)) (c : Dev nD) : Vec Ideal S1250 .i32 := V8 m c main_v31
abbrev opHi0 (m : (ℓ : Loc nD τ sig) → Buf (Elt Ideal) ℓ) (outs : Gen.Outs (F := Ideal)) (c : Dev nD) : Vec Ideal S1250 .i32 := V8 m c main_v39
/-- The sorted sources' and targets' columns. -/
abbrev opSrc0 (m : (ℓ : Loc nD τ sig) → Buf (Elt Ideal) ℓ) (outs : Gen.Outs (F := Ideal)) (c : Dev nD) : Vec Ideal S320000x1 .i32 := V8 m c main_v40
abbrev opDst0 (m : (ℓ : Loc nD τ sig) → Buf (Elt Ideal) ℓ) (outs : Gen.Outs (F := Ideal)) (c : Dev nD) : Vec Ideal S320000x1 .i32 := V8 m c main_v41
/-- The padded node table. -/
abbrev opX0 (m : (ℓ : Loc nD τ sig) → Buf (Elt Ideal) ℓ) (outs : Gen.Outs (F := Ideal)) (c : Dev nD) : Vec Ideal S10240x4 .f32 := V8 m c main_v45
/-- The three weight blocks and the three bias rows. -/
abbrev opWa0 (m : (ℓ : Loc nD τ sig) → Buf (Elt Ideal) ℓ) (outs : Gen.Outs (F := Ideal)) (c : Dev nD) : Vec Ideal S8x128 .f32 := V8 m c main_arg4
abbrev opBa0 (m : (ℓ : Loc nD τ sig) → Buf (Elt Ideal) ℓ) (outs : Gen.Outs (F := Ideal)) (c : Dev nD) : Vec Ideal S1x128 .f32 := V8 m c main_v42
abbrev opWb0 (m : (ℓ : Loc nD τ sig) → Buf (Elt Ideal) ℓ) (outs : Gen.Outs (F := Ideal)) (c : Dev nD) : Vec Ideal S128x128 .f32 := V8 m c main_arg6
abbrev opBb0 (m : (ℓ : Loc nD τ sig) → Buf (Elt Ideal) ℓ) (outs : Gen.Outs (F := Ideal)) (c : Dev nD) : Vec Ideal S1x128 .f32 := V8 m c main_v43
abbrev opWc0 (m : (ℓ : Loc nD τ sig) → Buf (Elt Ideal) ℓ) (outs : Gen.Outs (F := Ideal)) (c : Dev nD) : Vec Ideal S128x128 .f32 := V8 m c main_arg8
abbrev opBc0 (m : (ℓ : Loc nD τ sig) → Buf (Elt Ideal) ℓ) (outs : Gen.Outs (F := Ideal)) (c : Dev nD) : Vec Ideal S1x128 .f32 := V8 m c main_v44

/-- The layer's parameters and its input. -/
abbrev layerP0 (m : (ℓ : Loc nD τ sig) → Buf (Elt Ideal) ℓ) (outs : Gen.Outs (F := Ideal)) (c : Dev nD) : Weights 4 128 := par0 m c
abbrev layerX0 (m : (ℓ : Loc nD τ sig) → Buf (Elt Ideal) ℓ) (outs : Gen.Outs (F := Ideal)) (c : Dev nD) : Mat 10000 4 := inp0 m c

variable (m : (ℓ : Loc nD τ sig) → Buf (Elt Ideal) ℓ) (outs : Gen.Outs (F := Ideal)) (c : Dev nD)
variable (h : InRange (m ((c : Thread nD τ).loc main_arg2)))

theorem handed0_dst (T : Fin 1250) (r : Fin 256) :
    (opDst0 m outs c (ValueIdx.ix2 (tileEdge T r) (0 : Fin 1))).toNat = keyOf m c h (tileEdge T r) :=
  along_dst m c h T r

theorem handed0_src (T : Fin 1250) (r : Fin 256) :
    (opSrc0 m outs c (ValueIdx.ix2 (tileEdge T r) (0 : Fin 1))).toNat = (srcAlong m c h (tileEdge T r)).val :=
  along_src m c h T r

theorem handed0_gate (T : Fin 1250) :
    ∀ k : Fin 10, keyOf m c h (tileEdge T 0) / 1024 ≤ k.val → k.val ≤ keyOf m c h (tileEdge T 255) / 1024 →
      gateWord (opLo0 m outs c (ValueIdx.ix1 T)) (opHi0 m outs c (ValueIdx.ix1 T)) (BitVec.ofNat 32 k.val) = 1#1 :=
  along_gate m c h T

theorem handed0_x (v : Fin 10000) :
    (fun j : Fin 4 => opX0 m outs c (ValueIdx.ix2 (⟨v.val, Nat.lt_trans v.isLt (by norm_num)⟩ : Fin 10240) j)) = layerX0 m outs c v :=
  paddedTable_real m c v

theorem handed0_P :
    PayI0.kWeights0 (opWa0 m outs c) (opBa0 m outs c) (opWb0 m outs c) (opBb0 m outs c) (opWc0 m outs c) (opBc0 m outs c)
      = layerP0 m outs c := by
  rw [PayI0.kWeights0_eq (opWa0 m outs c) (opBa0 m outs c) (opWb0 m outs c) (opBb0 m outs c) (opWc0 m outs c) (opBc0 m outs c)
    (m ((c : Thread nD τ).loc main_arg5)) (m ((c : Thread nD τ).loc main_arg7)) (m ((c : Thread nD τ).loc main_arg9))
    (v42_apply m c 0) (v43_apply m c 0) (v44_apply m c 0)]
  show weightsOf (d := 4) (o := 128) (V8 m c main_arg4) _ (V8 m c main_arg6) _ (V8 m c main_arg8) _ = _
  rw [V8_main_arg4, V8_main_arg6, V8_main_arg8]

end Handed0

end Cert.KernelIdeal.KHost

end
-- ==== Proof.GeomI0.lean ====
import proofs.«414286_j65627100283289_3_alg».proof.Proof.Gen.KernelIdeal.Launch
import proofs.«414286_j65627100283289_3_alg».proof.Proof.Gen.KernelIdeal.Skeleton
import Idealize.ShloMosaic.Lib.Pipeline.Value
import Idealize.ShloMosaic.Lib.Pipeline.Frame
import Idealize.ShloMosaic.Lib.ValueIdx

/-!
# Region 0's window geometry

The region's grid is 2 × 625: point `t` is tile `t % 625` of core `t / 625`. Ten windows: the tile's two index
columns (blocks of 256 rows, the block at point `t` being block `t`), the padded node table and the six parameter
arrays (each one block, the whole array), and the output (one block per core). None of the index maps reads the
prefetched tables, so every fact here holds at any admissible contents `a` of them. The facts: each window's block
index at a point; when a block is fetched or written back and where the output's staging buffer is left alone; which
array element a block's element is; which array indices the output's block at a point holds, and that the blocks
written back hold every index.
-/

noncomputable section

namespace Cert.KernelIdeal.Gen

open Idealize.ShloMosaic Idealize.ShloMosaic.TcCoe

variable {F : FTy → Type} [FloatOps F]

/-! ## 1. The schedule: block indices, fetches, write-backs, idle points -/

/-- The grid has 1250 points; point `t` is core `t / 625`, tile `t % 625`. -/
theorem coords0_0 : ∀ t : Fin grid0.N, ((grid0.coords t) 0).val = t.val / 625 := (by decide +kernel : ∀ t : Fin grid0.N, _)
theorem coords0_1 : ∀ t : Fin grid0.N, ((grid0.coords t) 1).val = t.val % 625 := (by decide +kernel : ∀ t : Fin grid0.N, _)

theorem lt_N0 (a : (pcfg0 (F := F)).Adm) (t : Fin (cfg0 a).N) : t.val < 1250 := by
  have h : t.val < grid0.N := t.isLt
  rwa [N_0] at h

/-- Each window's block index at a point is its printed index map at the point's coordinates, whatever the tables hold. -/
theorem index0_0 (a : (pcfg0 (F := F)).Adm) (t : Fin (cfg0 a).N) : ((cfg0 a).win 0).index t = cc0_transform_0 (grid0.coords t) := rfl
theorem index0_1 (a : (pcfg0 (F := F)).Adm) (t : Fin (cfg0 a).N) : ((cfg0 a).win 1).index t = cc0_transform_1 (grid0.coords t) := rfl
theorem index0_2 (a : (pcfg0 (F := F)).Adm) (t : Fin (cfg0 a).N) : ((cfg0 a).win 2).index t = cc0_transform_2 (grid0.coords t) := rfl
theorem index0_3 (a : (pcfg0 (F := F)).Adm) (t : Fin (cfg0 a).N) : ((cfg0 a).win 3).index t = cc0_transform_3 (grid0.coords t) := rfl
theorem index0_4 (a : (pcfg0 (F := F)).Adm) (t : Fin (cfg0 a).N) : ((cfg0 a).win 4).index t = cc0_transform_4 (grid0.coords t) := rfl
theorem index0_5 (a : (pcfg0 (F := F)).Adm) (t : Fin (cfg0 a).N) : ((cfg0 a).win 5).index t = cc0_transform_5 (grid0.coords t) := rfl
theorem index0_6 (a : (pcfg0 (F := F)).Adm) (t : Fin (cfg0 a).N) : ((cfg0 a).win 6).index t = cc0_transform_6 (grid0.coords t) := rfl
theorem index0_7 (a : (pcfg0 (F := F)).Adm) (t : Fin (cfg0 a).N) : ((cfg0 a).win 7).index t = cc0_transform_7 (grid0.coords t) := rfl
theorem index0_8 (a : (pcfg0 (F := F)).Adm) (t : Fin (cfg0 a).N) : ((cfg0 a).win 8).index t = cc0_transform_8 (grid0.coords t) := rfl
theorem index0_9 (a : (pcfg0 (F := F)).Adm) (t : Fin (cfg0 a).N) : ((cfg0 a).win 9).index t = cc0_transform_9 (grid0.coords t) := rfl

/-- The printed index maps in closed form at every grid point: the two index columns' block is the point's own
    number, the whole-array windows sit at block zero, the output's block is the core's. -/
theorem cc0_transform_0_eq : ∀ t : Fin grid0.N, cc0_transform_0 (grid0.coords t) = ![t.val, 0] := (by decide +kernel : ∀ t : Fin grid0.N, _)
theorem cc0_transform_1_eq : ∀ t : Fin grid0.N, cc0_transform_1 (grid0.coords t) = ![t.val, 0] := (by decide +kernel : ∀ t : Fin grid0.N, _)
theorem cc0_transform_2_eq : ∀ t : Fin grid0.N, cc0_transform_2 (grid0.coords t) = ![0, 0] := (by decide +kernel : ∀ t : Fin grid0.N, _)
theorem cc0_transform_3_eq : ∀ t : Fin grid0.N, cc0_transform_3 (grid0.coords t) = ![0, 0] := (by decide +kernel : ∀ t : Fin grid0.N, _)
theorem cc0_transform_4_eq : ∀ t : Fin grid0.N, cc0_transform_4 (grid0.coords t) = ![0, 0] := (by decide +kernel : ∀ t : Fin grid0.N, _)
theorem cc0_transform_5_eq : ∀ t : Fin grid0.N, cc0_transform_5 (grid0.coords t) = ![0, 0] := (by decide +kernel : ∀ t : Fin grid0.N, _)
theorem cc0_transform_6_eq : ∀ t : Fin grid0.N, cc0_transform_6 (grid0.coords t) = ![0, 0] := (by decide +kernel : ∀ t : Fin grid0.N, _)
theorem cc0_transform_7_eq : ∀ t : Fin grid0.N, cc0_transform_7 (grid0.coords t) = ![0, 0] := (by decide +kernel : ∀ t : Fin grid0.N, _)
theorem cc0_transform_8_eq : ∀ t : Fin grid0.N, cc0_transform_8 (grid0.coords t) = ![0, 0] := (by decide +kernel : ∀ t : Fin grid0.N, _)
theorem cc0_transform_9_eq : ∀ t : Fin grid0.N, cc0_transform_9 (grid0.coords t) = ![t.val / 625, 0, 0] := (by decide +kernel : ∀ t : Fin grid0.N, _)

/-- The schedules of the closed index maps at every grid point. -/
theorem fetchOf0_0 : ∀ t : Fin grid0.N, Pipeline.Window.fetchOf grid0 false cc0_transform_0 t = true := (by decide +kernel : ∀ t : Fin grid0.N, _)
theorem fetchOf0_1 : ∀ t : Fin grid0.N, Pipeline.Window.fetchOf grid0 false cc0_transform_1 t = true := (by decide +kernel : ∀ t : Fin grid0.N, _)
theorem fetchOf0_2 : ∀ t : Fin grid0.N, Pipeline.Window.fetchOf grid0 false cc0_transform_2 t = decide (t.val = 0) := (by decide +kernel : ∀ t : Fin grid0.N, _)
theorem fetchOf0_3 : ∀ t : Fin grid0.N, Pipeline.Window.fetchOf grid0 false cc0_transform_3 t = decide (t.val = 0) := (by decide +kernel : ∀ t : Fin grid0.N, _)
theorem fetchOf0_4 : ∀ t : Fin grid0.N, Pipeline.Window.fetchOf grid0 false cc0_transform_4 t = decide (t.val = 0) := (by decide +kernel : ∀ t : Fin grid0.N, _)
theorem fetchOf0_5 : ∀ t : Fin grid0.N, Pipeline.Window.fetchOf grid0 false cc0_transform_5 t = decide (t.val = 0) := (by decide +kernel : ∀ t : Fin grid0.N, _)
theorem fetchOf0_6 : ∀ t : Fin grid0.N, Pipeline.Window.fetchOf grid0 false cc0_transform_6 t = decide (t.val = 0) := (by decide +kernel : ∀ t : Fin grid0.N, _)
theorem fetchOf0_7 : ∀ t : Fin grid0.N, Pipeline.Window.fetchOf grid0 false cc0_transform_7 t = decide (t.val = 0) := (by decide +kernel : ∀ t : Fin grid0.N, _)
theorem fetchOf0_8 : ∀ t : Fin grid0.N, Pipeline.Window.fetchOf grid0 false cc0_transform_8 t = decide (t.val = 0) := (by decide +kernel : ∀ t : Fin grid0.N, _)
theorem flushOf0_9 : ∀ t : Fin grid0.N, Pipeline.Window.flushOf grid0 true cc0_transform_9 t = (decide (t.val = 624) || decide (t.val = 1249)) :=
  (by decide +kernel : ∀ t : Fin grid0.N, _)

/-- The two index columns are fetched at every point. -/
theorem fetch0_0 (a : (pcfg0 (F := F)).Adm) (t : Fin (cfg0 a).N) : ((cfg0 a).win 0).fetch t = true := fetchOf0_0 t
theorem fetch0_1 (a : (pcfg0 (F := F)).Adm) (t : Fin (cfg0 a).N) : ((cfg0 a).win 1).fetch t = true := fetchOf0_1 t

/-- The whole-array windows are fetched at the first point only. -/
theorem fetch0_2 (a : (pcfg0 (F := F)).Adm) (t : Fin (cfg0 a).N) : ((cfg0 a).win 2).fetch t = decide (t.val = 0) := fetchOf0_2 t
theorem fetch0_3 (a : (pcfg0 (F := F)).Adm) (t : Fin (cfg0 a).N) : ((cfg0 a).win 3).fetch t = decide (t.val = 0) := fetchOf0_3 t
theorem fetch0_4 (a : (pcfg0 (F := F)).Adm) (t : Fin (cfg0 a).N) : ((cfg0 a).win 4).fetch t = decide (t.val = 0) := fetchOf0_4 t
theorem fetch0_5 (a : (pcfg0 (F := F)).Adm) (t : Fin (cfg0 a).N) : ((cfg0 a).win 5).fetch t = decide (t.val = 0) := fetchOf0_5 t
theorem fetch0_6 (a : (pcfg0 (F := F)).Adm) (t : Fin (cfg0 a).N) : ((cfg0 a).win 6).fetch t = decide (t.val = 0) := fetchOf0_6 t
theorem fetch0_7 (a : (pcfg0 (F := F)).Adm) (t : Fin (cfg0 a).N) : ((cfg0 a).win 7).fetch t = decide (t.val = 0) := fetchOf0_7 t
theorem fetch0_8 (a : (pcfg0 (F := F)).Adm) (t : Fin (cfg0 a).N) : ((cfg0 a).win 8).fetch t = decide (t.val = 0) := fetchOf0_8 t
/-- The output is never fetched, the inputs never written back. -/
theorem fetch0_9 (a : (pcfg0 (F := F)).Adm) (t : Fin (cfg0 a).N) : ((cfg0 a).win 9).fetch t = false := rfl
theorem flush0_in (a : (pcfg0 (F := F)).Adm) (w : Fin 10) (hw : w ≠ 9) (t : Fin (cfg0 a).N) : ((cfg0 a).win w).flush t = false := by
  match w, hw with
  | 0, _ => rfl | 1, _ => rfl | 2, _ => rfl | 3, _ => rfl | 4, _ => rfl | 5, _ => rfl | 6, _ => rfl | 7, _ => rfl | 8, _ => rfl
  | 9, h => exact absurd rfl h

/-- The output is written back at each core's last tile and nowhere else. -/
theorem flush0_9_eq (a : (pcfg0 (F := F)).Adm) (t : Fin (cfg0 a).N) :
    ((cfg0 a).win 9).flush t = (decide (t.val = 624) || decide (t.val = 1249)) := flushOf0_9 t

theorem flush0_9 (a : (pcfg0 (F := F)).Adm) (t : Fin (cfg0 a).N) : ((cfg0 a).win 9).flush t = true ↔ t.val = 624 ∨ t.val = 1249 := by
  rw [flush0_9_eq a t]
  simp

theorem flush0_9_iff_mod (a : (pcfg0 (F := F)).Adm) (t : Fin (cfg0 a).N) : ((cfg0 a).win 9).flush t = true ↔ t.val % 625 = 624 := by
  rw [flush0_9 a t]
  have := lt_N0 a t
  omega

/-- The body's store condition holds exactly at a core's last tile. -/
theorem k0_cond22_dec : ∀ t : Fin grid0.N, decide (k0_cond22 (grid0.coords t) = 1#1) = decide (t.val % 625 = 624) :=
  (by decide +kernel : ∀ t : Fin grid0.N, _)

theorem k0_cond22_iff (t : Fin grid0.N) : k0_cond22 (grid0.coords t) = 1#1 ↔ t.val % 625 = 624 := by
  have h := k0_cond22_dec t
  simpa using h

theorem k0_cond22_eq_one (t : Fin grid0.N) (h : t.val % 625 = 624) : k0_cond22 (grid0.coords t) = 1#1 := (k0_cond22_iff t).mpr h
theorem k0_cond22_ne_one (t : Fin grid0.N) (h : t.val % 625 ≠ 624) : ¬ k0_cond22 (grid0.coords t) = 1#1 := fun e => h ((k0_cond22_iff t).mp e)

/-- The output window is idle (its staging buffer not stored into) at every point but a core's last tile. -/
theorem idle0_9_dec : ∀ t : Fin grid0.N, idle0 9 (grid0.coords t) = !decide (t.val % 625 = 624) :=
  (by decide +kernel : ∀ t : Fin grid0.N, _)

theorem idle0_9_eq (a : (pcfg0 (F := F)).Adm) (t : Fin (cfg0 a).N) : (cfg0 a).idle 9 (grid0.coords t) = !decide (t.val % 625 = 624) :=
  idle0_9_dec t

theorem idle0_9 (a : (pcfg0 (F := F)).Adm) (t : Fin (cfg0 a).N) : (cfg0 a).idle 9 (grid0.coords t) = true ↔ t.val % 625 ≠ 624 := by
  rw [idle0_9_eq a t]
  simp

/-- No input window is ever idle. -/
theorem idle0_in (a : (pcfg0 (F := F)).Adm) (w : Fin 10) (hw : w ≠ 9) (i : grid0.Coords) : (cfg0 a).idle w i = false := by
  match w, hw with
  | 0, _ => rfl | 1, _ => rfl | 2, _ => rfl | 3, _ => rfl | 4, _ => rfl | 5, _ => rfl | 6, _ => rfl | 7, _ => rfl | 8, _ => rfl
  | 9, h => exact absurd rfl h

/-! ## 2. Which array element a block's element is

On each axis an element of the block at point `t` sits in the array at the block index times the block's size plus its
own coordinate. -/

/-- The block indices, coordinate by coordinate. -/
theorem index0_0_val (a : (pcfg0 (F := F)).Adm) (t : Fin (cfg0 a).N) :
    ((cfg0 a).win 0).index t (0 : Fin 2) = t.val ∧ ((cfg0 a).win 0).index t (1 : Fin 2) = 0 := by
  rw [index0_0, cc0_transform_0_eq]; exact ⟨rfl, rfl⟩
theorem index0_1_val (a : (pcfg0 (F := F)).Adm) (t : Fin (cfg0 a).N) :
    ((cfg0 a).win 1).index t (0 : Fin 2) = t.val ∧ ((cfg0 a).win 1).index t (1 : Fin 2) = 0 := by
  rw [index0_1, cc0_transform_1_eq]; exact ⟨rfl, rfl⟩
theorem index0_2_val (a : (pcfg0 (F := F)).Adm) (t : Fin (cfg0 a).N) :
    ((cfg0 a).win 2).index t (0 : Fin 2) = 0 ∧ ((cfg0 a).win 2).index t (1 : Fin 2) = 0 := by
  rw [index0_2, cc0_transform_2_eq]; exact ⟨rfl, rfl⟩
theorem index0_3_val (a : (pcfg0 (F := F)).Adm) (t : Fin (cfg0 a).N) :
    ((cfg0 a).win 3).index t (0 : Fin 2) = 0 ∧ ((cfg0 a).win 3).index t (1 : Fin 2) = 0 := by
  rw [index0_3, cc0_transform_3_eq]; exact ⟨rfl, rfl⟩
theorem index0_4_val (a : (pcfg0 (F := F)).Adm) (t : Fin (cfg0 a).N) :
    ((cfg0 a).win 4).index t (0 : Fin 2) = 0 ∧ ((cfg0 a).win 4).index t (1 : Fin 2) = 0 := by
  rw [index0_4, cc0_transform_4_eq]; exact ⟨rfl, rfl⟩
theorem index0_5_val (a : (pcfg0 (F := F)).Adm) (t : Fin (cfg0 a).N) :
    ((cfg0 a).win 5).index t (0 : Fin 2) = 0 ∧ ((cfg0 a).win 5).index t (1 : Fin 2) = 0 := by
  rw [index0_5, cc0_transform_5_eq]; exact ⟨rfl, rfl⟩
theorem index0_6_val (a : (pcfg0 (F := F)).Adm) (t : Fin (cfg0 a).N) :
    ((cfg0 a).win 6).index t (0 : Fin 2) = 0 ∧ ((cfg0 a).win 6).index t (1 : Fin 2) = 0 := by
  rw [index0_6, cc0_transform_6_eq]; exact ⟨rfl, rfl⟩
theorem index0_7_val (a : (pcfg0 (F := F)).Adm) (t : Fin (cfg0 a).N) :
    ((cfg0 a).win 7).index t (0 : Fin 2) = 0 ∧ ((cfg0 a).win 7).index t (1 : Fin 2) = 0 := by
  rw [index0_7, cc0_transform_7_eq]; exact ⟨rfl, rfl⟩
theorem index0_8_val (a : (pcfg0 (F := F)).Adm) (t : Fin (cfg0 a).N) :
    ((cfg0 a).win 8).index t (0 : Fin 2) = 0 ∧ ((cfg0 a).win 8).index t (1 : Fin 2) = 0 := by
  rw [index0_8, cc0_transform_8_eq]; exact ⟨rfl, rfl⟩
theorem index0_9_val (a : (pcfg0 (F := F)).Adm) (t : Fin (cfg0 a).N) :
    ((cfg0 a).win 9).index t (0 : Fin 3) = t.val / 625 ∧ ((cfg0 a).win 9).index t (1 : Fin 3) = 0 ∧ ((cfg0 a).win 9).index t (2 : Fin 3) = 0 := by
  rw [index0_9, cc0_transform_9_eq]; exact ⟨rfl, rfl, rfl⟩

/-- Row `r` of the index-column block at point `t` is row `t * 256 + r` of the column: the tile number is the point's. -/
theorem blk0_read_0 (a : (pcfg0 (F := F)).Adm) (t : Fin (cfg0 a).N) (G : S320000x1.Idx → Elt F .i32) (r : Fin 256) :
    (((cfg0 a).win 0).blk t).view.read (Elt F) G (ValueIdx.ix2 r 0)
      = G (ValueIdx.ix2 ⟨t.val * 256 + r.val, by have := lt_N0 a t; omega⟩ 0) := by
  obtain ⟨e0, e1⟩ := index0_0_val a t
  show G ((((cfg0 a).win 0).blk t).view.emb (ValueIdx.ix2 r 0)) = _
  refine congrArg G ?_
  funext d; apply Fin.ext
  match d with
  | ⟨0, _⟩ => show ((cfg0 a).win 0).index t (0 : Fin 2) * 256 + 1 * r.val = t.val * 256 + r.val; omega
  | ⟨1, _⟩ => show ((cfg0 a).win 0).index t (1 : Fin 2) * 1 + 1 * 0 = 0; omega

theorem blk0_read_1 (a : (pcfg0 (F := F)).Adm) (t : Fin (cfg0 a).N) (G : S320000x1.Idx → Elt F .i32) (r : Fin 256) :
    (((cfg0 a).win 1).blk t).view.read (Elt F) G (ValueIdx.ix2 r 0)
      = G (ValueIdx.ix2 ⟨t.val * 256 + r.val, by have := lt_N0 a t; omega⟩ 0) := by
  obtain ⟨e0, e1⟩ := index0_1_val a t
  show G ((((cfg0 a).win 1).blk t).view.emb (ValueIdx.ix2 r 0)) = _
  refine congrArg G ?_
  funext d; apply Fin.ext
  match d with
  | ⟨0, _⟩ => show ((cfg0 a).win 1).index t (0 : Fin 2) * 256 + 1 * r.val = t.val * 256 + r.val; omega
  | ⟨1, _⟩ => show ((cfg0 a).win 1).index t (1 : Fin 2) * 1 + 1 * 0 = 0; omega

/-- A window whose block is its whole array reads the array as it is. -/
theorem blk0_read_2 (a : (pcfg0 (F := F)).Adm) (t : Fin (cfg0 a).N) (G : S10240x4.Idx → Elt F .f32) (y : S10240x4.Idx) :
    (((cfg0 a).win 2).blk t).view.read (Elt F) G y = G y := by
  obtain ⟨e0, e1⟩ := index0_2_val a t
  show G ((((cfg0 a).win 2).blk t).view.emb y) = _
  refine congrArg G ?_
  funext d; apply Fin.ext
  match d with
  | ⟨0, _⟩ => show ((cfg0 a).win 2).index t (0 : Fin 2) * S10240x4.size 0 + 1 * (y 0).val = (y 0).val; rw [e0]; omega
  | ⟨1, _⟩ => show ((cfg0 a).win 2).index t (1 : Fin 2) * S10240x4.size 1 + 1 * (y 1).val = (y 1).val; rw [e1]; omega

theorem blk0_read_2_fun (a : (pcfg0 (F := F)).Adm) (t : Fin (cfg0 a).N) (G : S10240x4.Idx → Elt F .f32) :
    (((cfg0 a).win 2).blk t).view.read (Elt F) G = G := funext (blk0_read_2 a t G)

theorem blk0_read_3 (a : (pcfg0 (F := F)).Adm) (t : Fin (cfg0 a).N) (G : S8x128.Idx → Elt F .f32) (y : S8x128.Idx) :
    (((cfg0 a).win 3).blk t).view.read (Elt F) G y = G y := by
  obtain ⟨e0, e1⟩ := index0_3_val a t
  show G ((((cfg0 a).win 3).blk t).view.emb y) = _
  refine congrArg G ?_
  funext d; apply Fin.ext
  match d with
  | ⟨0, _⟩ => show ((cfg0 a).win 3).index t (0 : Fin 2) * S8x128.size 0 + 1 * (y 0).val = (y 0).val; rw [e0]; omega
  | ⟨1, _⟩ => show ((cfg0 a).win 3).index t (1 : Fin 2) * S8x128.size 1 + 1 * (y 1).val = (y 1).val; rw [e1]; omega

theorem blk0_read_3_fun (a : (pcfg0 (F := F)).Adm) (t : Fin (cfg0 a).N) (G : S8x128.Idx → Elt F .f32) :
    (((cfg0 a).win 3).blk t).view.read (Elt F) G = G := funext (blk0_read_3 a t G)

theorem blk0_read_4 (a : (pcfg0 (F := F)).Adm) (t : Fin (cfg0 a).N) (G : S1x128.Idx → Elt F .f32) (y : S1x128.Idx) :
    (((cfg0 a).win 4).blk t).view.read (Elt F) G y = G y := by
  obtain ⟨e0, e1⟩ := index0_4_val a t
  show G ((((cfg0 a).win 4).blk t).view.emb y) = _
  refine congrArg G ?_
  funext d; apply Fin.ext
  match d with
  | ⟨0, _⟩ => show ((cfg0 a).win 4).index t (0 : Fin 2) * S1x128.size 0 + 1 * (y 0).val = (y 0).val; rw [e0]; omega
  | ⟨1, _⟩ => show ((cfg0 a).win 4).index t (1 : Fin 2) * S1x128.size 1 + 1 * (y 1).val = (y 1).val; rw [e1]; omega

theorem blk0_read_4_fun (a : (pcfg0 (F := F)).Adm) (t : Fin (cfg0 a).N) (G : S1x128.Idx → Elt F .f32) :
    (((cfg0 a).win 4).blk t).view.read (Elt F) G = G := funext (blk0_read_4 a t G)

theorem blk0_read_5 (a : (pcfg0 (F := F)).Adm) (t : Fin (cfg0 a).N) (G : S128x128.Idx → Elt F .f32) (y : S128x128.Idx) :
    (((cfg0 a).win 5).blk t).view.read (Elt F) G y = G y := by
  obtain ⟨e0, e1⟩ := index0_5_val a t
  show G ((((cfg0 a).win 5).blk t).view.emb y) = _
  refine congrArg G ?_
  funext d; apply Fin.ext
  match d with
  | ⟨0, _⟩ => show ((cfg0 a).win 5).index t (0 : Fin 2) * S128x128.size 0 + 1 * (y 0).val = (y 0).val; rw [e0]; omega
  | ⟨1, _⟩ => show ((cfg0 a).win 5).index t (1 : Fin 2) * S128x128.size 1 + 1 * (y 1).val = (y 1).val; rw [e1]; omega

theorem blk0_read_5_fun (a : (pcfg0 (F := F)).Adm) (t : Fin (cfg0 a).N) (G : S128x128.Idx → Elt F .f32) :
    (((cfg0 a).win 5).blk t).view.read (Elt F) G = G := funext (blk0_read_5 a t G)

theorem blk0_read_6 (a : (pcfg0 (F := F)).Adm) (t : Fin (cfg0 a).N) (G : S1x128.Idx → Elt F .f32) (y : S1x128.Idx) :
    (((cfg0 a).win 6).blk t).view.read (Elt F) G y = G y := by
  obtain ⟨e0, e1⟩ := index0_6_val a t
  show G ((((cfg0 a).win 6).blk t).view.emb y) = _
  refine congrArg G ?_
  funext d; apply Fin.ext
  match d with
  | ⟨0, _⟩ => show ((cfg0 a).win 6).index t (0 : Fin 2) * S1x128.size 0 + 1 * (y 0).val = (y 0).val; rw [e0]; omega
  | ⟨1, _⟩ => show ((cfg0 a).win 6).index t (1 : Fin 2) * S1x128.size 1 + 1 * (y 1).val = (y 1).val; rw [e1]; omega

theorem blk0_read_6_fun (a : (pcfg0 (F := F)).Adm) (t : Fin (cfg0 a).N) (G : S1x128.Idx → Elt F .f32) :
    (((cfg0 a).win 6).blk t).view.read (Elt F) G = G := funext (blk0_read_6 a t G)

theorem blk0_read_7 (a : (pcfg0 (F := F)).Adm) (t : Fin (cfg0 a).N) (G : S128x128.Idx → Elt F .f32) (y : S128x128.Idx) :
    (((cfg0 a).win 7).blk t).view.read (Elt F) G y = G y := by
  obtain ⟨e0, e1⟩ := index0_7_val a t
  show G ((((cfg0 a).win 7).blk t).view.emb y) = _
  refine congrArg G ?_
  funext d; apply Fin.ext
  match d with
  | ⟨0, _⟩ => show ((cfg0 a).win 7).index t (0 : Fin 2) * S128x128.size 0 + 1 * (y 0).val = (y 0).val; rw [e0]; omega
  | ⟨1, _⟩ => show ((cfg0 a).win 7).index t (1 : Fin 2) * S128x128.size 1 + 1 * (y 1).val = (y 1).val; rw [e1]; omega

theorem blk0_read_7_fun (a : (pcfg0 (F := F)).Adm) (t : Fin (cfg0 a).N) (G : S128x128.Idx → Elt F .f32) :
    (((cfg0 a).win 7).blk t).view.read (Elt F) G = G := funext (blk0_read_7 a t G)

theorem blk0_read_8 (a : (pcfg0 (F := F)).Adm) (t : Fin (cfg0 a).N) (G : S1x128.Idx → Elt F .f32) (y : S1x128.Idx) :
    (((cfg0 a).win 8).blk t).view.read (Elt F) G y = G y := by
  obtain ⟨e0, e1⟩ := index0_8_val a t
  show G ((((cfg0 a).win 8).blk t).view.emb y) = _
  refine congrArg G ?_
  funext d; apply Fin.ext
  match d with
  | ⟨0, _⟩ => show ((cfg0 a).win 8).index t (0 : Fin 2) * S1x128.size 0 + 1 * (y 0).val = (y 0).val; rw [e0]; omega
  | ⟨1, _⟩ => show ((cfg0 a).win 8).index t (1 : Fin 2) * S1x128.size 1 + 1 * (y 1).val = (y 1).val; rw [e1]; omega

theorem blk0_read_8_fun (a : (pcfg0 (F := F)).Adm) (t : Fin (cfg0 a).N) (G : S1x128.Idx → Elt F .f32) :
    (((cfg0 a).win 8).blk t).view.read (Elt F) G = G := funext (blk0_read_8 a t G)

/-- The output's block at point `t` is the slab of the point's core `t / 625`. -/
theorem blk0_read_9 (a : (pcfg0 (F := F)).Adm) (t : Fin (cfg0 a).N) (G : S2x10240x128.Idx → Elt F .f32) (y : S1x10240x128.Idx) :
    (((cfg0 a).win 9).blk t).view.read (Elt F) G y
      = G (ValueIdx.ix3 ⟨t.val / 625, by have := lt_N0 a t; omega⟩ (y 1) (y 2)) := by
  obtain ⟨e0, e1, e2⟩ := index0_9_val a t
  show G ((((cfg0 a).win 9).blk t).view.emb y) = _
  refine congrArg G ?_
  funext d; apply Fin.ext
  have hy0 : (y 0).val < 1 := (y 0).isLt
  have hm : t.val / 625 * S1x10240x128.size 0 = t.val / 625 := Nat.mul_one _
  match d with
  | ⟨0, _⟩ => show ((cfg0 a).win 9).index t (0 : Fin 3) * S1x10240x128.size 0 + 1 * (y 0).val = t.val / 625; rw [e0]; omega
  | ⟨1, _⟩ => show ((cfg0 a).win 9).index t (1 : Fin 3) * S1x10240x128.size 1 + 1 * (y 1).val = (y 1).val; rw [e1]; omega
  | ⟨2, _⟩ => show ((cfg0 a).win 9).index t (2 : Fin 3) * S1x10240x128.size 2 + 1 * (y 2).val = (y 2).val; rw [e2]; omega

/-- The same at an index spelt by its coordinates. -/
theorem blk0_read_9' (a : (pcfg0 (F := F)).Adm) (t : Fin (cfg0 a).N) (G : S2x10240x128.Idx → Elt F .f32)
    (n : Fin (S1x10240x128.size 1)) (j : Fin (S1x10240x128.size 2)) :
    (((cfg0 a).win 9).blk t).view.read (Elt F) G (ValueIdx.ix3 0 n j)
      = G (ValueIdx.ix3 ⟨t.val / 625, by have := lt_N0 a t; omega⟩ n j) := blk0_read_9 a t G _

/-! ## 3. The output's blocks: which indices a block holds, and that the written blocks hold them all -/

/-- An index of the output array lies in the block at point `t` iff each coordinate lies in the block's range on its axis. -/
theorem mem_blk0_9_axes (a : (pcfg0 (F := F)).Adm) (t : Fin (cfg0 a).N) (i : S2x10240x128.Idx) :
    i ∈ (((cfg0 a).win 9).blk t).view.set ↔ ∀ d : Fin 3, ((cfg0 a).win 9).index t d * S1x10240x128.size d ≤ (i d).val
      ∧ (i d).val < ((cfg0 a).win 9).index t d * S1x10240x128.size d + S1x10240x128.size d := by
  have h1 : (((cfg0 a).win 9).blk t).view.set = (((cfg0 a).win 9).rect t).set := View.set_slice_whole _ _
  rw [h1]
  exact Rect.mem_set_unit

/-- That is: iff its leading coordinate is the point's core. -/
theorem mem_blk0_9 (a : (pcfg0 (F := F)).Adm) (t : Fin (cfg0 a).N) (i : S2x10240x128.Idx) :
    i ∈ (((cfg0 a).win 9).blk t).view.set ↔ (i 0).val = t.val / 625 := by
  obtain ⟨e0, e1, e2⟩ := index0_9_val a t
  rw [mem_blk0_9_axes]
  have h1 : (i 1).val < S2x10240x128.size 1 := (i 1).isLt
  have h2 : (i 2).val < S2x10240x128.size 2 := (i 2).isLt
  have hs0 : S1x10240x128.size 0 = 1 := rfl
  have hs1 : S1x10240x128.size 1 = S2x10240x128.size 1 := rfl
  have hs2 : S1x10240x128.size 2 = S2x10240x128.size 2 := rfl
  constructor
  · intro h
    have b0 := h 0
    rw [e0, hs0] at b0
    omega
  · intro h d
    match d with
    | ⟨0, _⟩ => show ((cfg0 a).win 9).index t (0 : Fin 3) * S1x10240x128.size 0 ≤ (i 0).val ∧ (i 0).val < ((cfg0 a).win 9).index t (0 : Fin 3) * S1x10240x128.size 0 + S1x10240x128.size 0; rw [e0, hs0]; omega
    | ⟨1, _⟩ => show ((cfg0 a).win 9).index t (1 : Fin 3) * S1x10240x128.size 1 ≤ (i 1).val ∧ (i 1).val < ((cfg0 a).win 9).index t (1 : Fin 3) * S1x10240x128.size 1 + S1x10240x128.size 1; rw [e1, hs1]; omega
    | ⟨2, _⟩ => show ((cfg0 a).win 9).index t (2 : Fin 3) * S1x10240x128.size 2 ≤ (i 2).val ∧ (i 2).val < ((cfg0 a).win 9).index t (2 : Fin 3) * S1x10240x128.size 2 + S1x10240x128.size 2; rw [e2, hs2]; omega

/-- Every index of the output array lies in a block that is written back: its core's, at the core's last tile. -/
theorem cover0_9 (a : (pcfg0 (F := F)).Adm) (i : S2x10240x128.Idx) :
    ∃ t : Fin (cfg0 a).N, ((cfg0 a).win 9).flush t = true ∧ i ∈ (((cfg0 a).win 9).blk t).view.set := by
  have h0 : (i 0).val < 2 := (i 0).isLt
  refine ⟨⟨(i 0).val * 625 + 624, by show _ < grid0.N; rw [N_0]; omega⟩, ?_, ?_⟩
  · rw [flush0_9]; show (i 0).val * 625 + 624 = 624 ∨ (i 0).val * 625 + 624 = 1249; omega
  · rw [mem_blk0_9]; show (i 0).val = ((i 0).val * 625 + 624) / 625; omega

/-- The point that writes index `i`'s block back, named. -/
def lastOf0 (a : (pcfg0 (F := F)).Adm) (p : Fin 2) : Fin (cfg0 a).N := ⟨p.val * 625 + 624, by show _ < grid0.N; rw [N_0]; omega⟩

@[simp] theorem lastOf0_val (a : (pcfg0 (F := F)).Adm) (p : Fin 2) : (lastOf0 a p).val = p.val * 625 + 624 := rfl

theorem flush0_9_last (a : (pcfg0 (F := F)).Adm) (p : Fin 2) : ((cfg0 a).win 9).flush (lastOf0 a p) = true := by
  rw [flush0_9, lastOf0_val]; omega

theorem mem_blk0_9_last (a : (pcfg0 (F := F)).Adm) (p : Fin 2) (i : S2x10240x128.Idx) :
    i ∈ (((cfg0 a).win 9).blk (lastOf0 a p)).view.set ↔ i 0 = p := by
  rw [mem_blk0_9, lastOf0_val]
  have h0 : (i 0).val < 2 := (i 0).isLt
  constructor
  · intro h; apply Fin.ext; omega
  · intro h; rw [h]; omega

/-- Two different points that both write back hold no index in common. -/
theorem disjoint0_9 (a : (pcfg0 (F := F)).Adm) (t t' : Fin (cfg0 a).N) (hf : ((cfg0 a).win 9).flush t = true)
    (hf' : ((cfg0 a).win 9).flush t' = true) (hne : t ≠ t') :
    Disjoint (((cfg0 a).win 9).blk t).view.set (((cfg0 a).win 9).blk t').view.set := by
  rw [Finset.disjoint_left]
  intro i hi hi'
  have h1 := (mem_blk0_9 a t i).mp hi
  have h2 := (mem_blk0_9 a t' i).mp hi'
  rw [flush0_9] at hf hf'
  exact hne (Fin.ext (by omega))

/-! ## 4. The output array after the region -/

/-- The stored block `[1, n, m]` made from a table `[n, m]`: entry `(0, n, j)` is the table's entry `(n, j)`. -/
theorem k0_pay1_apply (v : Vec F S10240x128 .f32) (y : S1x10240x128.Idx) :
    k0_pay1 v y = v (ValueIdx.ix2 (y 1) (y 2)) := by
  unfold k0_pay1
  rw [shapeCast_addUnit_apply]
  refine congrArg v ?_
  funext d
  match d with
  | ⟨0, _⟩ => rfl
  | ⟨1, _⟩ => rfl

section Arr

variable {Ix : Type} [DecidableEq Ix] {Name : Type} [DecidableEq Name] {U : Type} [Idealize.SL.RA.URA U] {Lvl : Type}

/-- When every point that writes the output back leaves in the staging buffer the table `Acc (t + 1)` as one block,
    the output array after the region holds, in core `p`'s slab, the table `Acc (p * 625 + 625)`: the table after
    that core's last tile. -/
theorem arrAt0_9 (a : (pcfg0 (F := F)).Adm) (c : Dev nD) (dat : Pipeline.Dat τ (Elt F) Ix Name U Lvl (cfg0 a) c)
    (Acc : ℕ → Vec F S10240x128 .f32)
    (hafter : ∀ t, ((cfg0 a).win 9).flush t = true → dat.after 9 t = k0_pay1 (Acc (t.val + 1))) :
    dat.arrAt 9 (cfg0 a).N
      = fun i : S2x10240x128.Idx => Acc ((i 0).val * 625 + 625) (ValueIdx.ix2 (i 1) (i 2)) := by
  refine dat.arrAt_eq_of_cover 9 _ (fun t hf => ?_) (cover0_9 a)
  have hfl : dat.flushed 9 t = dat.after 9 t := rfl
  rw [hfl, hafter t hf]
  funext y
  rw [blk0_read_9 a t _ y, k0_pay1_apply]
  have ht : t.val / 625 * 625 + 625 = t.val + 1 := by
    rcases (flush0_9 a t).mp hf with h | h <;> omega
  show _ = Acc (t.val / 625 * 625 + 625) (ValueIdx.ix2 (y 1) (y 2))
  rw [ht]

/-- The same at an index spelt by its coordinates: core, node row, column. -/
theorem arrAt0_9_apply (a : (pcfg0 (F := F)).Adm) (c : Dev nD) (dat : Pipeline.Dat τ (Elt F) Ix Name U Lvl (cfg0 a) c)
    (Acc : ℕ → Vec F S10240x128 .f32)
    (hafter : ∀ t, ((cfg0 a).win 9).flush t = true → dat.after 9 t = k0_pay1 (Acc (t.val + 1)))
    (p : Fin 2) (n : Fin (S1x10240x128.size 1)) (j : Fin (S1x10240x128.size 2)) :
    dat.arrAt 9 (cfg0 a).N (ValueIdx.ix3 p n j) = Acc (p.val * 625 + 625) (ValueIdx.ix2 n j) := by
  rw [arrAt0_9 a c dat Acc hafter]

end Arr

end Cert.KernelIdeal.Gen

end
-- ==== Proof.PayGatherI0.lean ====
import proofs.«414286_j65627100283289_3_alg».proof.Proof.Gen.KernelIdeal.Skeleton
import proofs.«414286_j65627100283289_3_alg».proof.Proof.Arrange
import proofs.«414286_j65627100283289_3_alg».proof.Proof.LibDenseLayer
import Idealize.ShloMosaic.Lib.ValueIdx
import Idealize.ShloMosaic.Lib.ValueLayout
import Idealize.ShloMosaic.Lib.Pipeline.Value
import Idealize.ShloMosaic.PureOps.Ideal.Laws

/-!
# The gather half of a layer's tile body, read at an index

One tile of 256 edges reads, for every edge, the row of its source node and the row of its target node out of a node
table padded to 10240 rows, which is held as ten chunks of 1024 rows. A row is not addressed: for chunk c the body
builds the 0/1 block whose entry (r, k) is one exactly when edge r's node word equals the word c·1024 + k, and
multiplies it with the chunk's 1024 rows; the ten products are added. Over the extended reals each product at (r, j)
is the sum over k of (0 or 1) times the chunk's entry (k, j), so the ten added products are the table's pick at the
edge's word. The comparison is equality of 32-bit words, that is equality of the words' unsigned values; below the
word is read by toNat.

The facts are stated for the values the body names, one per value, and then for the source gather as the body
composes it. The target gather runs the same ten steps, each adding one chunk's product to what a scratch block held.
-/

noncomputable section

namespace Cert.KernelIdeal.PayI0

open Idealize.ShloMosaic Idealize.SL.Sem Idealize.ShloMosaic.ValueIdx
open Cert.KernelIdeal Cert.KernelIdeal.Gen
open scoped BigOperators

/-- The 0/1 block of one chunk of 1024 rows: entry (r, k) compares row r's word with the word base + k. -/
def hot (v : IVec S256 32) (b : BitVec 32) : FVec Ideal S256x1024 .f32 :=
  sitofp .f32 (extui 32 (cmpi .eq
    (broadcastTo S256x1024 (shapeCast S256x1 v shapeCasts_S256_S256x1) broadcasts_S256x1_S256x1024)
    (addi (broadcast S256x1024 b) (iota .tc S256x1024 32 [1] iota_S256x1024_d1_w32))) natLt_1_32)

theorem col_apply (v : IVec S256 32) (r : Fin 256) (k : Fin 1024) :
    broadcastTo S256x1024 (shapeCast S256x1 v shapeCasts_S256_S256x1) broadcasts_S256x1_S256x1024 (ValueIdx.ix2 r k) = v (ValueIdx.ix1 r) := by
  rw [broadcastTo_apply _ _ (ValueIdx.ix2 r k) (ValueIdx.ix2 r (0 : Fin 1)) ?_, shapeCast_apply _ _ (ValueIdx.ix2 r (0 : Fin 1)) (ValueIdx.ix1 r) ?_]
  · rw [Shape.rowMajor_val_one, Shape.rowMajor_val_two]
    show r.val = r.val * 1 + 0
    omega
  · intro a
    match a with
    | ⟨0, _⟩ => rfl
    | ⟨1, _⟩ => rfl

theorem iota_apply (r : Fin 256) (k : Fin 1024) :
    iota .tc S256x1024 32 [1] iota_S256x1024_d1_w32 (ValueIdx.ix2 r k) = BitVec.ofNat 32 k.val :=
  iota_single_apply .tc S256x1024 32 1 iota_S256x1024_d1_w32 (ValueIdx.ix2 r k)

theorem hot_apply (v : IVec S256 32) (b : BitVec 32) (r : Fin 256) (k : Fin 1024) :
    hot v b (ValueIdx.ix2 r k) = if v (ValueIdx.ix1 r) = b + BitVec.ofNat 32 k.val then (1 : EReal) else 0 := by
  have e : hot v b (ValueIdx.ix2 r k)
      = ((((BitVec.ofBool (v (ValueIdx.ix1 r) == b + BitVec.ofNat 32 k.val)).setWidth 32).toInt : ℝ) : EReal) := by
    show ((((BitVec.ofBool
        (broadcastTo S256x1024 (shapeCast S256x1 v shapeCasts_S256_S256x1) broadcasts_S256x1_S256x1024 (ValueIdx.ix2 r k)
          == b + iota .tc S256x1024 32 [1] iota_S256x1024_d1_w32 (ValueIdx.ix2 r k))).setWidth 32).toInt : ℝ) : EReal) = _
    rw [col_apply, iota_apply]
  rw [e]
  by_cases h : v (ValueIdx.ix1 r) = b + BitVec.ofNat 32 k.val
  · rw [if_pos h, beq_iff_eq.mpr h]
    have : ((BitVec.ofBool true).setWidth 32).toInt = 1 := by decide
    rw [this, Int.cast_one, EReal.coe_one]
  · rw [if_neg h, beq_eq_false_iff_ne.mpr h]
    have : ((BitVec.ofBool false).setWidth 32).toInt = 0 := by decide
    rw [this, Int.cast_zero, EReal.coe_zero]

/-- The word base + k of chunk c is the number c·1024 + k, and a 32-bit word equals it exactly when its value does. -/
theorem word_eq_iff (w : BitVec 32) (c : Fin 10) (k : Fin 1024) :
    w = BitVec.ofNat 32 (c.val * 1024) + BitVec.ofNat 32 k.val ↔ w.toNat = c.val * 1024 + k.val := by
  have hc := c.isLt
  have hk := k.isLt
  rw [← BitVec.toNat_inj, BitVec.toNat_add, BitVec.toNat_ofNat, BitVec.toNat_ofNat]
  omega

/-- The 0/1 block of chunk c read at (r, k): one exactly when row r's word, as an unsigned number, is c·1024 + k. -/
theorem hot_chunk_apply (v : IVec S256 32) (c : Fin 10) (r : Fin 256) (k : Fin 1024) :
    hot v (BitVec.ofNat 32 (c.val * 1024)) (ValueIdx.ix2 r k)
      = if (v (ValueIdx.ix1 r)).toNat = c.val * 1024 + k.val then (1 : EReal) else 0 := by
  rw [hot_apply]
  by_cases h : (v (ValueIdx.ix1 r)).toNat = c.val * 1024 + k.val
  · rw [if_pos h, if_pos ((word_eq_iff _ c k).mpr h)]
  · rw [if_neg h, if_neg (fun e => h ((word_eq_iff _ c k).mp e))]

/-- One chunk's product: the 0/1 block of the chunk times the chunk's 1024 loaded rows, into a zero start. -/
def hotMul (v : IVec S256 32) (b : BitVec 32) (ch : Vec Ideal S1024x4 .f32) : FVec Ideal S256x4 .f32 :=
  matmul dot_S256x1024_S1024x4_S256x4_1_0_0_1_n_n none (hot v b)
    (shapeCast S1024x4 ch shapeCasts_S1024x4_S1024x4 : FVec Ideal S1024x4 .f32) (constant S256x4 .f32 0x00000000#32)

/-- One chunk's share of a row pick: the 0/1 row with its one at place w, restricted to chunk c, times column j of
    the chunk's rows. -/
def share (w : ℕ) (c : Fin 10) (ch : Vec Ideal S1024x4 .f32) (j : Fin 4) : EReal :=
  ∑ k : Fin 1024, (if w = c.val * 1024 + k.val then (1 : EReal) else 0) * ch (ValueIdx.ix2 k j)

/-- A chunk's product read at (r, j) is the chunk's share of the pick at row r's word (read unsigned). -/
theorem hotMul_apply (v : IVec S256 32) (b : BitVec 32) (c : Fin 10) (hb : b = BitVec.ofNat 32 (c.val * 1024))
    (ch : Vec Ideal S1024x4 .f32) (r : Fin 256) (j : Fin 4) :
    hotMul v b ch (ValueIdx.ix2 r j) = share (v (ValueIdx.ix1 r)).toNat c ch j := by
  subst hb
  unfold hotMul share
  rw [shapeCast_self]
  refine (DenseLayer.matmul_rows_apply dot_S256x1024_S1024x4_S256x4_1_0_0_1_n_n_wf none _ _ r j).trans ?_
  refine Finset.sum_congr rfl fun k _ => ?_
  rw [hot_chunk_apply]

/-! ## The payloads of region 0, one by one -/

/-- The target index column [256,1] as a vector [256]: entry r is the column's entry (r, 0). -/
theorem k0_pay3_apply (v5 : Vec Ideal S256x1 .i32) (r : Fin 256) :
    k0_pay3 (F := Ideal) v5 (ValueIdx.ix1 r) = v5 (ValueIdx.ix2 r (0 : Fin 1)) := by
  unfold k0_pay3
  refine shapeCast_apply _ _ (ValueIdx.ix1 r) (ValueIdx.ix2 r (0 : Fin 1)) ?_
  rw [Shape.rowMajor_val_one, Shape.rowMajor_val_two]
  show r.val * 1 + 0 = r.val
  omega

/-- The source index column [256,1] as a vector [256]: entry r is the column's entry (r, 0). -/
theorem k0_pay4_apply (v7 : Vec Ideal S256x1 .i32) (r : Fin 256) :
    k0_pay4 (F := Ideal) v7 (ValueIdx.ix1 r) = v7 (ValueIdx.ix2 r (0 : Fin 1)) := by
  unfold k0_pay4
  refine shapeCast_apply _ _ (ValueIdx.ix1 r) (ValueIdx.ix2 r (0 : Fin 1)) ?_
  rw [Shape.rowMajor_val_one, Shape.rowMajor_val_two]
  show r.val * 1 + 0 = r.val
  omega

/-- The source vector laid out as a column again: entry (r, 0) is the loaded column's entry (r, 0). -/
theorem k0_pay6_apply (v7 : Vec Ideal S256x1 .i32) (r : Fin 256) :
    k0_pay6 (F := Ideal) v7 (ValueIdx.ix2 r (0 : Fin 1)) = v7 (ValueIdx.ix2 r (0 : Fin 1)) := by
  unfold k0_pay6
  refine (shapeCast_apply _ _ (ValueIdx.ix2 r (0 : Fin 1)) (ValueIdx.ix1 r) ?_).trans (k0_pay4_apply v7 r)
  rw [Shape.rowMajor_val_one, Shape.rowMajor_val_two]
  show r.val = r.val * 1 + 0
  omega

/-- The 0/1 block of the last chunk (rows 9216 …) of the source gather. -/
theorem k0_pay10_eq (v8 : IVec S256 32) : k0_pay10 (F := Ideal) v8 = hot v8 9216#32 := rfl

/-- Its entry at (r, k): one exactly when row r's source word, read unsigned (the comparison is equality of 32-bit
    words), is 9·1024 + k. -/
theorem k0_pay10_apply (v8 : IVec S256 32) (r : Fin 256) (k : Fin 1024) :
    k0_pay10 (F := Ideal) v8 (ValueIdx.ix2 r k)
      = if (v8 (ValueIdx.ix1 r)).toNat = (9 : Fin 10).val * 1024 + k.val then (1 : EReal) else 0 := by
  rw [k0_pay10_eq]
  exact hot_chunk_apply v8 9 r k

/-- Chunks 0 and 1 of the source gather, added into a zero start. -/
theorem k0_pay5_eq (v7 : Vec Ideal S256x1 .i32) (v22 v34 : Vec Ideal S1024x4 .f32) :
    k0_pay5 (F := Ideal) v7 v22 v34
      = addf (addf (broadcast S256x4 (Scalar.ofBits (F := Ideal) .f32 0x00000000#32)) (hotMul (k0_pay4 (F := Ideal) v7) 0#32 v22))
          (hotMul (k0_pay4 (F := Ideal) v7) 1024#32 v34) := rfl

theorem k0_pay5_apply (v7 : Vec Ideal S256x1 .i32) (v22 v34 : Vec Ideal S1024x4 .f32) (r : Fin 256) (j : Fin 4) :
    k0_pay5 (F := Ideal) v7 v22 v34 (ValueIdx.ix2 r j)
      = 0 + share (v7 (ValueIdx.ix2 r (0 : Fin 1))).toNat 0 v22 j + share (v7 (ValueIdx.ix2 r (0 : Fin 1))).toNat 1 v34 j := by
  rw [k0_pay5_eq, addf_apply, addf_apply, broadcast_apply,
    hotMul_apply _ 0#32 0 rfl, hotMul_apply _ 1024#32 1 rfl, k0_pay4_apply]
  show Ideal.ofBits .f32 0x00000000#32 + _ + _ = _
  rw [Ideal.ofBits_zero_f32]

/-- Chunks 2, 3 and 4 of the source gather, added to what chunks 0 and 1 gave. The first of the three blocks is
    built from the column, the lane numbers and the base word handed on by the part before. -/
theorem k0_pay7_eq (v8 : IVec S256 32) (v37 : FVec Ideal S256x4 .f32) (v46 v58 v70 : Vec Ideal S1024x4 .f32) :
    k0_pay7 (F := Ideal) v8 v37 (shapeCast S256x1 v8 shapeCasts_S256_S256x1)
        (iota .tc S256x1024 32 [1] iota_S256x1024_d1_w32) 2048#32 v46 v58 v70
      = addf (addf (addf v37 (hotMul v8 2048#32 v46)) (hotMul v8 3072#32 v58)) (hotMul v8 4096#32 v70) := rfl

theorem k0_pay7_apply (v8 : IVec S256 32) (v37 : FVec Ideal S256x4 .f32) (v38 : IVec S256x1 32)
    (v39 : IVec S256x1024 32) (c2048_i32 : BitVec 32) (v46 v58 v70 : Vec Ideal S1024x4 .f32)
    (h38 : v38 = shapeCast S256x1 v8 shapeCasts_S256_S256x1)
    (h39 : v39 = iota .tc S256x1024 32 [1] iota_S256x1024_d1_w32) (hc : c2048_i32 = 2048#32)
    (r : Fin 256) (j : Fin 4) :
    k0_pay7 (F := Ideal) v8 v37 v38 v39 c2048_i32 v46 v58 v70 (ValueIdx.ix2 r j)
      = v37 (ValueIdx.ix2 r j) + share (v8 (ValueIdx.ix1 r)).toNat 2 v46 j + share (v8 (ValueIdx.ix1 r)).toNat 3 v58 j
          + share (v8 (ValueIdx.ix1 r)).toNat 4 v70 j := by
  subst h38 h39 hc
  rw [k0_pay7_eq, addf_apply, addf_apply, addf_apply,
    hotMul_apply _ 2048#32 2 rfl, hotMul_apply _ 3072#32 3 rfl, hotMul_apply _ 4096#32 4 rfl]

/-- Chunk 5's product of the source gather. -/
theorem k0_pay8_eq (v8 : IVec S256 32) (v82 : Vec Ideal S1024x4 .f32) :
    k0_pay8 (F := Ideal) v8 v82 = hotMul v8 5120#32 v82 := rfl

theorem k0_pay8_apply (v8 : IVec S256 32) (v82 : Vec Ideal S1024x4 .f32) (r : Fin 256) (j : Fin 4) :
    k0_pay8 (F := Ideal) v8 v82 (ValueIdx.ix2 r j) = share (v8 (ValueIdx.ix1 r)).toNat 5 v82 j := by
  rw [k0_pay8_eq, hotMul_apply _ 5120#32 5 rfl]

/-- Chunk 5's product and chunks 6, 7 and 8 of the source gather, added to what came before. -/
theorem k0_pay9_eq (v8 : IVec S256 32) (v73 v84 : FVec Ideal S256x4 .f32) (v94 v106 v118 : Vec Ideal S1024x4 .f32) :
    k0_pay9 (F := Ideal) v8 v73 v84 v94 v106 v118
      = addf (addf (addf (addf v73 v84) (hotMul v8 6144#32 v94)) (hotMul v8 7168#32 v106)) (hotMul v8 8192#32 v118) := rfl

theorem k0_pay9_apply (v8 : IVec S256 32) (v73 v84 : FVec Ideal S256x4 .f32) (v94 v106 v118 : Vec Ideal S1024x4 .f32)
    (r : Fin 256) (j : Fin 4) :
    k0_pay9 (F := Ideal) v8 v73 v84 v94 v106 v118 (ValueIdx.ix2 r j)
      = v73 (ValueIdx.ix2 r j) + v84 (ValueIdx.ix2 r j) + share (v8 (ValueIdx.ix1 r)).toNat 6 v94 j + share (v8 (ValueIdx.ix1 r)).toNat 7 v106 j
          + share (v8 (ValueIdx.ix1 r)).toNat 8 v118 j := by
  rw [k0_pay9_eq, addf_apply, addf_apply, addf_apply, addf_apply,
    hotMul_apply _ 6144#32 6 rfl, hotMul_apply _ 7168#32 7 rfl, hotMul_apply _ 8192#32 8 rfl]

/-- The last step of the source gather: the product of a [256,1024] block with chunk 9's rows, added on. -/
theorem k0_pay11_apply (v121 : FVec Ideal S256x4 .f32) (v129 : FVec Ideal S256x1024 .f32) (v130 : Vec Ideal S1024x4 .f32)
    (r : Fin 256) (j : Fin 4) :
    k0_pay11 (F := Ideal) v121 v129 v130 (ValueIdx.ix2 r j)
      = v121 (ValueIdx.ix2 r j) + ∑ k : Fin 1024, v129 (ValueIdx.ix2 r k) * v130 (ValueIdx.ix2 k j) := by
  unfold k0_pay11
  rw [addf_apply, shapeCast_self]
  exact congrArg (v121 (ValueIdx.ix2 r j) + ·)
    (DenseLayer.matmul_rows_apply dot_S256x1024_S1024x4_S256x4_1_0_0_1_n_n_wf none v129 v130 r j)

/-- With the block being chunk 9's 0/1 block: chunk 9's share is added. -/
theorem k0_pay11_hot_apply (v8 : IVec S256 32) (v121 : FVec Ideal S256x4 .f32) (v130 : Vec Ideal S1024x4 .f32)
    (r : Fin 256) (j : Fin 4) :
    k0_pay11 (F := Ideal) v121 (k0_pay10 (F := Ideal) v8) v130 (ValueIdx.ix2 r j)
      = v121 (ValueIdx.ix2 r j) + share (v8 (ValueIdx.ix1 r)).toNat 9 v130 j := by
  rw [k0_pay11_apply]
  unfold share
  exact congrArg (v121 (ValueIdx.ix2 r j) + ·) (Finset.sum_congr rfl fun k _ => by rw [k0_pay10_apply])

/-! ## The source-row gather, composed as the region's body composes it -/

/-- The ten loaded chunks as a family over the chunk number. -/
def chunks (v22 v34 v46 v58 v70 v82 v94 v106 v118 v130 : Vec Ideal S1024x4 .f32) : Fin 10 → Vec Ideal S1024x4 .f32 :=
  ![v22, v34, v46, v58, v70, v82, v94, v106, v118, v130]

/-- The gathered source block read at (r, j): the sum over the ten chunks and their 1024 rows of the 0/1 row of
    row r's source word (read unsigned) times column j of the loaded rows. -/
theorem srcGather_sum (v7 : Vec Ideal S256x1 .i32) (v22 v34 v46 v58 v70 v82 v94 v106 v118 v130 : Vec Ideal S1024x4 .f32)
    (r : Fin 256) (j : Fin 4) :
    k0_pay11 (F := Ideal)
        (k0_pay9 (F := Ideal) (k0_pay4 (F := Ideal) v7)
          (k0_pay7 (F := Ideal) (k0_pay4 (F := Ideal) v7) (k0_pay5 (F := Ideal) v7 v22 v34) (k0_pay6 (F := Ideal) v7)
            (iota .tc S256x1024 32 [1] iota_S256x1024_d1_w32) 2048#32 v46 v58 v70)
          (k0_pay8 (F := Ideal) (k0_pay4 (F := Ideal) v7) v82) v94 v106 v118)
        (k0_pay10 (F := Ideal) (k0_pay4 (F := Ideal) v7)) v130 (ValueIdx.ix2 r j)
      = ∑ c : Fin 10, ∑ k : Fin 1024,
          (if (v7 (ValueIdx.ix2 r (0 : Fin 1))).toNat = c.val * 1024 + k.val then (1 : EReal) else 0)
            * chunks v22 v34 v46 v58 v70 v82 v94 v106 v118 v130 c (ValueIdx.ix2 k j) := by
  rw [k0_pay11_hot_apply, k0_pay9_apply, k0_pay7_apply (k0_pay4 (F := Ideal) v7) (k0_pay5 (F := Ideal) v7 v22 v34) (k0_pay6 (F := Ideal) v7)
      (iota .tc S256x1024 32 [1] iota_S256x1024_d1_w32) 2048#32 v46 v58 v70 rfl rfl rfl, k0_pay5_apply, k0_pay8_apply,
    k0_pay4_apply]
  exact Cert.Spec.fold10 (fun c => share (v7 (ValueIdx.ix2 r (0 : Fin 1))).toNat c
    (chunks v22 v34 v46 v58 v70 v82 v94 v106 v118 v130 c) j)

/-- When the ten chunks are the ten blocks of 1024 rows of one padded table, the gathered source block at (r, j) is
    the table's pick at row r's source word. -/
theorem srcGather_pick (v7 : Vec Ideal S256x1 .i32) (x6 : Vec Ideal S10240x4 .f32)
    (v22 v34 v46 v58 v70 v82 v94 v106 v118 v130 : Vec Ideal S1024x4 .f32)
    (hch : ∀ (c : Fin 10) (k : Fin 1024) (j : Fin 4),
      chunks v22 v34 v46 v58 v70 v82 v94 v106 v118 v130 c (ValueIdx.ix2 k j) = x6 (ValueIdx.ix2 (Cert.Spec.rowAt c k) j))
    (r : Fin 256) (j : Fin 4) :
    k0_pay11 (F := Ideal)
        (k0_pay9 (F := Ideal) (k0_pay4 (F := Ideal) v7)
          (k0_pay7 (F := Ideal) (k0_pay4 (F := Ideal) v7) (k0_pay5 (F := Ideal) v7 v22 v34) (k0_pay6 (F := Ideal) v7)
            (iota .tc S256x1024 32 [1] iota_S256x1024_d1_w32) 2048#32 v46 v58 v70)
          (k0_pay8 (F := Ideal) (k0_pay4 (F := Ideal) v7) v82) v94 v106 v118)
        (k0_pay10 (F := Ideal) (k0_pay4 (F := Ideal) v7)) v130 (ValueIdx.ix2 r j)
      = Cert.Spec.pick (fun n j => x6 (ValueIdx.ix2 n j)) (v7 (ValueIdx.ix2 r (0 : Fin 1))).toNat j := by
  rw [srcGather_sum]
  unfold Cert.Spec.pick
  refine Finset.sum_congr rfl fun c _ => Finset.sum_congr rfl fun k _ => ?_
  rw [hch c k j]
  rfl

/-- The chunk family's hypothesis from the ten blocks one by one. -/
theorem chunks_of_blocks (x6 : Vec Ideal S10240x4 .f32)
    (v22 v34 v46 v58 v70 v82 v94 v106 v118 v130 : Vec Ideal S1024x4 .f32)
    (h0 : ∀ (k : Fin 1024) (j : Fin 4), v22 (ValueIdx.ix2 k j) = x6 (ValueIdx.ix2 (Cert.Spec.rowAt 0 k) j))
    (h1 : ∀ (k : Fin 1024) (j : Fin 4), v34 (ValueIdx.ix2 k j) = x6 (ValueIdx.ix2 (Cert.Spec.rowAt 1 k) j))
    (h2 : ∀ (k : Fin 1024) (j : Fin 4), v46 (ValueIdx.ix2 k j) = x6 (ValueIdx.ix2 (Cert.Spec.rowAt 2 k) j))
    (h3 : ∀ (k : Fin 1024) (j : Fin 4), v58 (ValueIdx.ix2 k j) = x6 (ValueIdx.ix2 (Cert.Spec.rowAt 3 k) j))
    (h4 : ∀ (k : Fin 1024) (j : Fin 4), v70 (ValueIdx.ix2 k j) = x6 (ValueIdx.ix2 (Cert.Spec.rowAt 4 k) j))
    (h5 : ∀ (k : Fin 1024) (j : Fin 4), v82 (ValueIdx.ix2 k j) = x6 (ValueIdx.ix2 (Cert.Spec.rowAt 5 k) j))
    (h6 : ∀ (k : Fin 1024) (j : Fin 4), v94 (ValueIdx.ix2 k j) = x6 (ValueIdx.ix2 (Cert.Spec.rowAt 6 k) j))
    (h7 : ∀ (k : Fin 1024) (j : Fin 4), v106 (ValueIdx.ix2 k j) = x6 (ValueIdx.ix2 (Cert.Spec.rowAt 7 k) j))
    (h8 : ∀ (k : Fin 1024) (j : Fin 4), v118 (ValueIdx.ix2 k j) = x6 (ValueIdx.ix2 (Cert.Spec.rowAt 8 k) j))
    (h9 : ∀ (k : Fin 1024) (j : Fin 4), v130 (ValueIdx.ix2 k j) = x6 (ValueIdx.ix2 (Cert.Spec.rowAt 9 k) j)) :
    ∀ (c : Fin 10) (k : Fin 1024) (j : Fin 4),
      chunks v22 v34 v46 v58 v70 v82 v94 v106 v118 v130 c (ValueIdx.ix2 k j) = x6 (ValueIdx.ix2 (Cert.Spec.rowAt c k) j) := by
  intro c k j
  match c with
  | ⟨0, _⟩ => exact h0 k j
  | ⟨1, _⟩ => exact h1 k j
  | ⟨2, _⟩ => exact h2 k j
  | ⟨3, _⟩ => exact h3 k j
  | ⟨4, _⟩ => exact h4 k j
  | ⟨5, _⟩ => exact h5 k j
  | ⟨6, _⟩ => exact h6 k j
  | ⟨7, _⟩ => exact h7 k j
  | ⟨8, _⟩ => exact h8 k j
  | ⟨9, _⟩ => exact h9 k j

/-! ## The target-row gather: a zero start and ten steps, each adding one chunk's product to the scratch block -/

/-- The zero block the target gather starts from. -/
theorem k0_pay12_apply (r : Fin 256) (j : Fin 4) : k0_pay12 (F := Ideal) (ValueIdx.ix2 r j) = 0 := by
  unfold k0_pay12
  rw [shapeCast_self, broadcast_apply]
  exact Ideal.ofBits_zero_f32

/-- A step of the target gather: what the scratch block held plus chunk c's product. -/
theorem step_apply (v6 : IVec S256 32) (b : BitVec 32) (c : Fin 10) (hb : b = BitVec.ofNat 32 (c.val * 1024))
    (v274 : Vec Ideal S1024x4 .f32) (v277 : Vec Ideal S256x4 .f32) (r : Fin 256) (j : Fin 4) :
    (shapeCast S256x4 (addf (φ := .f32) v277 (hotMul v6 b v274)) shapeCasts_S256x4_S256x4 : FVec Ideal S256x4 .f32) (ValueIdx.ix2 r j)
      = v277 (ValueIdx.ix2 r j) + ∑ k : Fin 1024,
          (if (v6 (ValueIdx.ix1 r)).toNat = c.val * 1024 + k.val then (1 : EReal) else 0) * v274 (ValueIdx.ix2 k j) := by
  rw [shapeCast_self, addf_apply, hotMul_apply v6 b c hb]
  rfl

/-- Step 0 of the target gather: chunk 0's product added to the scratch block. -/
theorem k0_pay13_eq (v6 : IVec S256 32) (v274 : Vec Ideal S1024x4 .f32) (v277 : Vec Ideal S256x4 .f32) :
    k0_pay13 (F := Ideal) v6 v274 v277
      = shapeCast S256x4 (addf (φ := .f32) v277 (hotMul v6 0#32 v274)) shapeCasts_S256x4_S256x4 := rfl

theorem k0_pay13_apply (v6 : IVec S256 32) (v274 : Vec Ideal S1024x4 .f32) (v277 : Vec Ideal S256x4 .f32)
    (r : Fin 256) (j : Fin 4) :
    k0_pay13 (F := Ideal) v6 v274 v277 (ValueIdx.ix2 r j)
      = v277 (ValueIdx.ix2 r j) + ∑ k : Fin 1024,
          (if (v6 (ValueIdx.ix1 r)).toNat = (0 : Fin 10).val * 1024 + k.val then (1 : EReal) else 0) * v274 (ValueIdx.ix2 k j) := by
  rw [k0_pay13_eq]
  exact step_apply v6 0#32 0 rfl v274 v277 r j

/-- Step 1 of the target gather: chunk 1's product added to the scratch block. -/
theorem k0_pay14_eq (v6 : IVec S256 32) (v274 : Vec Ideal S1024x4 .f32) (v277 : Vec Ideal S256x4 .f32) :
    k0_pay14 (F := Ideal) v6 v274 v277
      = shapeCast S256x4 (addf (φ := .f32) v277 (hotMul v6 1024#32 v274)) shapeCasts_S256x4_S256x4 := rfl

theorem k0_pay14_apply (v6 : IVec S256 32) (v274 : Vec Ideal S1024x4 .f32) (v277 : Vec Ideal S256x4 .f32)
    (r : Fin 256) (j : Fin 4) :
    k0_pay14 (F := Ideal) v6 v274 v277 (ValueIdx.ix2 r j)
      = v277 (ValueIdx.ix2 r j) + ∑ k : Fin 1024,
          (if (v6 (ValueIdx.ix1 r)).toNat = (1 : Fin 10).val * 1024 + k.val then (1 : EReal) else 0) * v274 (ValueIdx.ix2 k j) := by
  rw [k0_pay14_eq]
  exact step_apply v6 1024#32 1 rfl v274 v277 r j

/-- Step 2 of the target gather: chunk 2's product added to the scratch block. -/
theorem k0_pay15_eq (v6 : IVec S256 32) (v274 : Vec Ideal S1024x4 .f32) (v277 : Vec Ideal S256x4 .f32) :
    k0_pay15 (F := Ideal) v6 v274 v277
      = shapeCast S256x4 (addf (φ := .f32) v277 (hotMul v6 2048#32 v274)) shapeCasts_S256x4_S256x4 := rfl

theorem k0_pay15_apply (v6 : IVec S256 32) (v274 : Vec Ideal S1024x4 .f32) (v277 : Vec Ideal S256x4 .f32)
    (r : Fin 256) (j : Fin 4) :
    k0_pay15 (F := Ideal) v6 v274 v277 (ValueIdx.ix2 r j)
      = v277 (ValueIdx.ix2 r j) + ∑ k : Fin 1024,
          (if (v6 (ValueIdx.ix1 r)).toNat = (2 : Fin 10).val * 1024 + k.val then (1 : EReal) else 0) * v274 (ValueIdx.ix2 k j) := by
  rw [k0_pay15_eq]
  exact step_apply v6 2048#32 2 rfl v274 v277 r j

/-- Step 3 of the target gather: chunk 3's product added to the scratch block. -/
theorem k0_pay16_eq (v6 : IVec S256 32) (v274 : Vec Ideal S1024x4 .f32) (v277 : Vec Ideal S256x4 .f32) :
    k0_pay16 (F := Ideal) v6 v274 v277
      = shapeCast S256x4 (addf (φ := .f32) v277 (hotMul v6 3072#32 v274)) shapeCasts_S256x4_S256x4 := rfl

theorem k0_pay16_apply (v6 : IVec S256 32) (v274 : Vec Ideal S1024x4 .f32) (v277 : Vec Ideal S256x4 .f32)
    (r : Fin 256) (j : Fin 4) :
    k0_pay16 (F := Ideal) v6 v274 v277 (ValueIdx.ix2 r j)
      = v277 (ValueIdx.ix2 r j) + ∑ k : Fin 1024,
          (if (v6 (ValueIdx.ix1 r)).toNat = (3 : Fin 10).val * 1024 + k.val then (1 : EReal) else 0) * v274 (ValueIdx.ix2 k j) := by
  rw [k0_pay16_eq]
  exact step_apply v6 3072#32 3 rfl v274 v277 r j

/-- Step 4 of the target gather: chunk 4's product added to the scratch block. -/
theorem k0_pay17_eq (v6 : IVec S256 32) (v274 : Vec Ideal S1024x4 .f32) (v277 : Vec Ideal S256x4 .f32) :
    k0_pay17 (F := Ideal) v6 v274 v277
      = shapeCast S256x4 (addf (φ := .f32) v277 (hotMul v6 4096#32 v274)) shapeCasts_S256x4_S256x4 := rfl

theorem k0_pay17_apply (v6 : IVec S256 32) (v274 : Vec Ideal S1024x4 .f32) (v277 : Vec Ideal S256x4 .f32)
    (r : Fin 256) (j : Fin 4) :
    k0_pay17 (F := Ideal) v6 v274 v277 (ValueIdx.ix2 r j)
      = v277 (ValueIdx.ix2 r j) + ∑ k : Fin 1024,
          (if (v6 (ValueIdx.ix1 r)).toNat = (4 : Fin 10).val * 1024 + k.val then (1 : EReal) else 0) * v274 (ValueIdx.ix2 k j) := by
  rw [k0_pay17_eq]
  exact step_apply v6 4096#32 4 rfl v274 v277 r j

/-- Step 5 of the target gather: chunk 5's product added to the scratch block. -/
theorem k0_pay18_eq (v6 : IVec S256 32) (v274 : Vec Ideal S1024x4 .f32) (v277 : Vec Ideal S256x4 .f32) :
    k0_pay18 (F := Ideal) v6 v274 v277
      = shapeCast S256x4 (addf (φ := .f32) v277 (hotMul v6 5120#32 v274)) shapeCasts_S256x4_S256x4 := rfl

theorem k0_pay18_apply (v6 : IVec S256 32) (v274 : Vec Ideal S1024x4 .f32) (v277 : Vec Ideal S256x4 .f32)
    (r : Fin 256) (j : Fin 4) :
    k0_pay18 (F := Ideal) v6 v274 v277 (ValueIdx.ix2 r j)
      = v277 (ValueIdx.ix2 r j) + ∑ k : Fin 1024,
          (if (v6 (ValueIdx.ix1 r)).toNat = (5 : Fin 10).val * 1024 + k.val then (1 : EReal) else 0) * v274 (ValueIdx.ix2 k j) := by
  rw [k0_pay18_eq]
  exact step_apply v6 5120#32 5 rfl v274 v277 r j

/-- Step 6 of the target gather: chunk 6's product added to the scratch block. -/
theorem k0_pay19_eq (v6 : IVec S256 32) (v274 : Vec Ideal S1024x4 .f32) (v277 : Vec Ideal S256x4 .f32) :
    k0_pay19 (F := Ideal) v6 v274 v277
      = shapeCast S256x4 (addf (φ := .f32) v277 (hotMul v6 6144#32 v274)) shapeCasts_S256x4_S256x4 := rfl

theorem k0_pay19_apply (v6 : IVec S256 32) (v274 : Vec Ideal S1024x4 .f32) (v277 : Vec Ideal S256x4 .f32)
    (r : Fin 256) (j : Fin 4) :
    k0_pay19 (F := Ideal) v6 v274 v277 (ValueIdx.ix2 r j)
      = v277 (ValueIdx.ix2 r j) + ∑ k : Fin 1024,
          (if (v6 (ValueIdx.ix1 r)).toNat = (6 : Fin 10).val * 1024 + k.val then (1 : EReal) else 0) * v274 (ValueIdx.ix2 k j) := by
  rw [k0_pay19_eq]
  exact step_apply v6 6144#32 6 rfl v274 v277 r j

/-- Step 7 of the target gather: chunk 7's product added to the scratch block. -/
theorem k0_pay20_eq (v6 : IVec S256 32) (v274 : Vec Ideal S1024x4 .f32) (v277 : Vec Ideal S256x4 .f32) :
    k0_pay20 (F := Ideal) v6 v274 v277
      = shapeCast S256x4 (addf (φ := .f32) v277 (hotMul v6 7168#32 v274)) shapeCasts_S256x4_S256x4 := rfl

theorem k0_pay20_apply (v6 : IVec S256 32) (v274 : Vec Ideal S1024x4 .f32) (v277 : Vec Ideal S256x4 .f32)
    (r : Fin 256) (j : Fin 4) :
    k0_pay20 (F := Ideal) v6 v274 v277 (ValueIdx.ix2 r j)
      = v277 (ValueIdx.ix2 r j) + ∑ k : Fin 1024,
          (if (v6 (ValueIdx.ix1 r)).toNat = (7 : Fin 10).val * 1024 + k.val then (1 : EReal) else 0) * v274 (ValueIdx.ix2 k j) := by
  rw [k0_pay20_eq]
  exact step_apply v6 7168#32 7 rfl v274 v277 r j

/-- Step 8 of the target gather: chunk 8's product added to the scratch block. -/
theorem k0_pay21_eq (v6 : IVec S256 32) (v274 : Vec Ideal S1024x4 .f32) (v277 : Vec Ideal S256x4 .f32) :
    k0_pay21 (F := Ideal) v6 v274 v277
      = shapeCast S256x4 (addf (φ := .f32) v277 (hotMul v6 8192#32 v274)) shapeCasts_S256x4_S256x4 := rfl

theorem k0_pay21_apply (v6 : IVec S256 32) (v274 : Vec Ideal S1024x4 .f32) (v277 : Vec Ideal S256x4 .f32)
    (r : Fin 256) (j : Fin 4) :
    k0_pay21 (F := Ideal) v6 v274 v277 (ValueIdx.ix2 r j)
      = v277 (ValueIdx.ix2 r j) + ∑ k : Fin 1024,
          (if (v6 (ValueIdx.ix1 r)).toNat = (8 : Fin 10).val * 1024 + k.val then (1 : EReal) else 0) * v274 (ValueIdx.ix2 k j) := by
  rw [k0_pay21_eq]
  exact step_apply v6 8192#32 8 rfl v274 v277 r j

/-- Step 9 of the target gather: chunk 9's product added to the scratch block. -/
theorem k0_pay22_eq (v6 : IVec S256 32) (v274 : Vec Ideal S1024x4 .f32) (v277 : Vec Ideal S256x4 .f32) :
    k0_pay22 (F := Ideal) v6 v274 v277
      = shapeCast S256x4 (addf (φ := .f32) v277 (hotMul v6 9216#32 v274)) shapeCasts_S256x4_S256x4 := rfl

theorem k0_pay22_apply (v6 : IVec S256 32) (v274 : Vec Ideal S1024x4 .f32) (v277 : Vec Ideal S256x4 .f32)
    (r : Fin 256) (j : Fin 4) :
    k0_pay22 (F := Ideal) v6 v274 v277 (ValueIdx.ix2 r j)
      = v277 (ValueIdx.ix2 r j) + ∑ k : Fin 1024,
          (if (v6 (ValueIdx.ix1 r)).toNat = (9 : Fin 10).val * 1024 + k.val then (1 : EReal) else 0) * v274 (ValueIdx.ix2 k j) := by
  rw [k0_pay22_eq]
  exact step_apply v6 9216#32 9 rfl v274 v277 r j

/-! ## A chunk's share against the whole table -/

/-- The share spelled out. -/
theorem share_eq (w : ℕ) (c : Fin 10) (ch : Vec Ideal S1024x4 .f32) (j : Fin 4) :
    share w c ch j = ∑ k : Fin 1024, (if w = c.val * 1024 + k.val then (1 : EReal) else 0) * ch (ValueIdx.ix2 k j) := rfl

/-- When the chunk is block c of a padded table, its share is the table's row w where w lies in the block, and zero
    elsewhere. -/
theorem share_table (w : ℕ) (c : Fin 10) (x6 : Vec Ideal S10240x4 .f32) (ch : Vec Ideal S1024x4 .f32)
    (hch : ∀ (k : Fin 1024) (j : Fin 4), ch (ValueIdx.ix2 k j) = x6 (ValueIdx.ix2 (Cert.Spec.rowAt c k) j)) (j : Fin 4) :
    share w c ch j = if h : w / 1024 = c.val then x6 (ValueIdx.ix2 (⟨w, by omega⟩ : Fin 10240) j) else 0 := by
  rw [← Cert.Spec.onehot_chunk (fun i => x6 (ValueIdx.ix2 i j)) w c]
  unfold share
  refine Finset.sum_congr rfl fun k _ => ?_
  rw [hch k j]
  rfl

end Cert.KernelIdeal.PayI0

end
-- ==== Proof.StepMathI0.lean ====
import proofs.«414286_j65627100283289_3_alg».proof.Proof.Gen.KernelIdeal.Skeleton
import proofs.«414286_j65627100283289_3_alg».proof.Proof.StepDefsI0
import proofs.«414286_j65627100283289_3_alg».proof.Proof.GateWord
import proofs.«414286_j65627100283289_3_alg».proof.Proof.LibGatedRmw
import proofs.«414286_j65627100283289_3_alg».proof.Proof.PayGatherI0
import proofs.«414286_j65627100283289_3_alg».proof.Proof.PayMlpI0
import proofs.«414286_j65627100283289_3_alg».proof.Proof.Arrange
import proofs.«414286_j65627100283289_3_alg».proof.Proof.Args
import Idealize.ShloMosaic.Lib.Pipeline.FrameBody
import Idealize.ShloMosaic.Lib.ValueIdx
import Idealize.ShloMosaic.Lib.Pipeline.Value
import Idealize.ShloMosaic.PureOps.Ideal.Laws

/-!
# One tile's step of region 0's accumulator, as the layer's mathematics

The body of region 0's kernel, run at the grid point of tile `T`, leaves in the accumulator a function of what it was
handed (`stepAcc0`): a reset at a core's first tile, then ten gated chunk steps, each adding to one chunk of 1024 node
rows the transposed one-hot product of the tile's target column with the tile's messages. Read at an entry `(n, j)`,
only the step of the chunk that holds row `n` touches the entry; its gate is open whenever a target of the tile lies in
that chunk (the targets are sorted and the gates are open on the tile's chunk range), so the step adds the messages of
the tile's edges whose target is `n`, gate or no gate. Each message is the perceptron of the edge's feature row; the two
rows it is made of are picked out of the padded node table by one-hot products (the target rows again under the chunk
gates), and a pick at a node's number is the node's row. So the entry becomes what it was, or zero at a core's first
tile, plus the sum over the tile's edges with target `n` of the messages of `Spec`.
-/

noncomputable section

namespace Cert.KernelIdeal.StepI0

open Idealize.ShloMosaic Idealize.ShloMosaic.ValueIdx Idealize.ShloMosaic.GatedRmw
open Cert.KernelIdeal Cert.KernelIdeal.Gen Cert.KernelIdeal.PayI0
open Cert.Spec
open scoped BigOperators

/-! ## Reading a chunk of a table -/

/-- Chunk `c` of the padded node table, loaded as a block of 1024 rows, at `(k, j)`: the table at row `c * 1024 + k`. -/
theorem ld_chunk (x6 : Vec Ideal S10240x4 .f32) (c : Fin 10) (off : Fin 2 → ℕ) (h0 : off 0 = c.val * 1024) (h1 : off 1 = 0)
    (inb : ∀ a, off a + S1024x4.size a ≤ S10240x4.size a) (k : Fin 1024) (j : Fin 4) :
    View.ld x6 (Rect.unit (s := S10240x4) off S1024x4.size inb) (ValueIdx.ix2 k j) = x6 (ValueIdx.ix2 (rowAt c k) j) := by
  show x6 ((Rect.unit (s := S10240x4) off S1024x4.size inb).emb (ValueIdx.ix2 k j)) = _
  refine congrArg x6 (funext fun a => Fin.ext ?_)
  rcases a with ⟨a, ha⟩
  have ha' : a < 2 := ha
  interval_cases a
  · show off 0 + 1 * k.val = c.val * 1024 + k.val
    omega
  · show off 1 + 1 * j.val = j.val
    omega

/-! ## The reset word -/

/-- The word "the tile's number within its core is zero", computed on 32-bit words. -/
theorem first_word (v : ℕ) (hv : v < 625) :
    (Scalar.cmpi .ne (Scalar.extui (Scalar.cmpi .eq (BitVec.ofNat 32 v) 0#32)) 0#32 : BitVec 1) = 1#1 ↔ v = 0 := by
  unfold Scalar.cmpi Scalar.extui IntOp.cmpi
  simp only []
  by_cases h : v = 0
  · subst h
    simp
  · have hne : BitVec.ofNat 32 v ≠ 0#32 := fun e => h (by
      have := congrArg BitVec.toNat e
      rw [BitVec.toNat_ofNat, BitVec.toNat_ofNat] at this
      omega)
    have hb : (BitVec.ofNat 32 v == 0#32) = false := by simpa using hne
    rw [hb]
    simp [h]

theorem firstW0_iff (i : grid0.Coords) : firstW0 i = 1#1 ↔ (i 1).val = 0 :=
  first_word (i 1).val (i 1).isLt

/-- The accumulator the chunk steps start from, at an entry. -/
theorem accReset0_apply (i : grid0.Coords) (x14 : Vec Ideal S10240x128 .f32) (n : Fin 10240) (j : Fin 128) :
    accReset0 (F := Ideal) i x14 (ValueIdx.ix2 n j) = if (i 1).val = 0 then 0 else x14 (ValueIdx.ix2 n j) := by
  unfold accReset0
  by_cases h : (i 1).val = 0
  · rw [if_pos ((firstW0_iff i).mpr h), if_pos h]
    exact pay2_apply n j
  · rw [if_neg (fun e => h ((firstW0_iff i).mp e)), if_neg h]

/-! ## The target rows: a zero start and ten gated steps -/

/-- One gated step whose payload adds a term `S` to the rows so far adds the gated term. -/
theorem xiStep_add (g : BitVec 1) (pay : Vec Ideal S256x4 .f32 → FVec Ideal S256x4 .f32) (S : Fin 256 → Fin 4 → EReal)
    (hpay : ∀ (X : Vec Ideal S256x4 .f32) (r : Fin 256) (j : Fin 4), pay X (ValueIdx.ix2 r j) = X (ValueIdx.ix2 r j) + S r j)
    (X : Vec Ideal S256x4 .f32) (r : Fin 256) (j : Fin 4) :
    xiStep0 g pay X (ValueIdx.ix2 r j) = X (ValueIdx.ix2 r j) + (if g = 1#1 then S r j else 0) := by
  unfold xiStep0
  by_cases hg : g = 1#1
  · rw [if_pos hg, if_pos hg, hpay]
  · rw [if_neg hg, if_neg hg, add_zero]

/-- Chunk `c`'s share of the pick of the table's row at edge `r`'s target word, column `j`. -/
def Sxi (x5 : Vec Ideal S256x1 .i32) (x6 : Vec Ideal S10240x4 .f32) (c : Fin 10) (r : Fin 256) (j : Fin 4) : EReal :=
  ∑ k : Fin 1024, (if (x5 (ValueIdx.ix2 r (0 : Fin 1))).toNat = c.val * 1024 + k.val then (1 : EReal) else 0)
    * x6 (ValueIdx.ix2 (rowAt c k) j)

/-- A step's payload over the target column and chunk `c` of the table adds that share. -/
theorem xi_pay (c : Fin 10)
    (pay : IVec S256 32 → Vec Ideal S1024x4 .f32 → Vec Ideal S256x4 .f32 → FVec Ideal S256x4 .f32)
    (hp : ∀ (v6 : IVec S256 32) (v274 : Vec Ideal S1024x4 .f32) (v277 : Vec Ideal S256x4 .f32) (r : Fin 256) (j : Fin 4),
      pay v6 v274 v277 (ValueIdx.ix2 r j) = v277 (ValueIdx.ix2 r j) + ∑ k : Fin 1024,
        (if (v6 (ValueIdx.ix1 r)).toNat = c.val * 1024 + k.val then (1 : EReal) else 0) * v274 (ValueIdx.ix2 k j))
    (x5 : Vec Ideal S256x1 .i32) (x6 : Vec Ideal S10240x4 .f32) (off : Fin 2 → ℕ) (h0 : off 0 = c.val * 1024) (h1 : off 1 = 0)
    (inb : ∀ a, off a + S1024x4.size a ≤ S10240x4.size a) (X : Vec Ideal S256x4 .f32) (r : Fin 256) (j : Fin 4) :
    pay (k0_pay3 (F := Ideal) x5) (View.ld x6 (Rect.unit (s := S10240x4) off S1024x4.size inb)) X (ValueIdx.ix2 r j)
      = X (ValueIdx.ix2 r j) + Sxi x5 x6 c r j := by
  rw [hp, k0_pay3_apply]
  unfold Sxi
  refine congrArg (fun z => X (ValueIdx.ix2 r j) + z) (Finset.sum_congr rfl fun k _ => ?_)
  rw [ld_chunk x6 c off h0 h1 inb]

/-- The gathered target rows at `(r, j)`: the ten chunks' gated shares added up. -/
theorem xi0_apply (i : grid0.Coords) (x2 x3 : Vec Ideal S1250 .i32) (x5 : Vec Ideal S256x1 .i32) (x6 : Vec Ideal S10240x4 .f32)
    (r : Fin 256) (j : Fin 4) :
    xi0 (F := Ideal) i x2 x3 x5 x6 (ValueIdx.ix2 r j)
      = ∑ c : Fin 10, if gateWord (loW0 i x2) (hiW0 i x3) (BitVec.ofNat 32 c.val) = 1#1 then Sxi x5 x6 c r j else 0 := by
  unfold xi0
  rw [xiStep_add _ _ (Sxi x5 x6 9) (xi_pay 9 (k0_pay22 (F := Ideal)) k0_pay22_apply x5 x6 _ rfl rfl _),
    xiStep_add _ _ (Sxi x5 x6 8) (xi_pay 8 (k0_pay21 (F := Ideal)) k0_pay21_apply x5 x6 _ rfl rfl _),
    xiStep_add _ _ (Sxi x5 x6 7) (xi_pay 7 (k0_pay20 (F := Ideal)) k0_pay20_apply x5 x6 _ rfl rfl _),
    xiStep_add _ _ (Sxi x5 x6 6) (xi_pay 6 (k0_pay19 (F := Ideal)) k0_pay19_apply x5 x6 _ rfl rfl _),
    xiStep_add _ _ (Sxi x5 x6 5) (xi_pay 5 (k0_pay18 (F := Ideal)) k0_pay18_apply x5 x6 _ rfl rfl _),
    xiStep_add _ _ (Sxi x5 x6 4) (xi_pay 4 (k0_pay17 (F := Ideal)) k0_pay17_apply x5 x6 _ rfl rfl _),
    xiStep_add _ _ (Sxi x5 x6 3) (xi_pay 3 (k0_pay16 (F := Ideal)) k0_pay16_apply x5 x6 _ rfl rfl _),
    xiStep_add _ _ (Sxi x5 x6 2) (xi_pay 2 (k0_pay15 (F := Ideal)) k0_pay15_apply x5 x6 _ rfl rfl _),
    xiStep_add _ _ (Sxi x5 x6 1) (xi_pay 1 (k0_pay14 (F := Ideal)) k0_pay14_apply x5 x6 _ rfl rfl _),
    xiStep_add _ _ (Sxi x5 x6 0) (xi_pay 0 (k0_pay13 (F := Ideal)) k0_pay13_apply x5 x6 _ rfl rfl _),
    k0_pay12_apply]
  exact fold10 (fun c : Fin 10 =>
    if gateWord (loW0 i x2) (hiW0 i x3) (BitVec.ofNat 32 c.val) = 1#1 then Sxi x5 x6 c r j else 0)

/-! ## The two gathered rows of an edge are its nodes' rows -/

section Rows

variable (i : grid0.Coords) (x2 x3 : Vec Ideal S1250 .i32) (x4 x5 : Vec Ideal S256x1 .i32) (x6 : Vec Ideal S10240x4 .f32)
  (T : Fin 1250) (key : Fin 320000 → ℕ) (srcn dstn : Fin 320000 → Fin 10000) (x : Fin 10000 → Fin 4 → EReal)

/-- Along a sorted key with the gates open on the tile's chunk range, the gathered target row of edge `r` is the
    row of the edge's target node. -/
theorem xi0_row
    (hdst : ∀ r : Fin 256, (x5 (ValueIdx.ix2 r (0 : Fin 1))).toNat = key (tileEdge T r))
    (hkey : ∀ a : Fin 320000, key a = (dstn a).val)
    (hmono : ∀ a b : Fin 320000, a ≤ b → key a ≤ key b)
    (hgate : ∀ c : Fin 10, key (tileEdge T 0) / 1024 ≤ c.val → c.val ≤ key (tileEdge T 255) / 1024 →
      gateWord (loW0 i x2) (hiW0 i x3) (BitVec.ofNat 32 c.val) = 1#1)
    (hx : ∀ v : Fin 10000, (fun j : Fin 4 => x6 (ValueIdx.ix2 (⟨v.val, Nat.lt_trans v.isLt (by norm_num)⟩ : Fin 10240) j)) = x v)
    (r : Fin 256) (j : Fin 4) :
    xi0 (F := Ideal) i x2 x3 x5 x6 (ValueIdx.ix2 r j) = x (dstn (tileEdge T r)) j := by
  have hw : key (tileEdge T r) < 10240 := by
    rw [hkey]; exact Nat.lt_trans (dstn (tileEdge T r)).isLt (by norm_num)
  rw [xi0_apply]
  unfold Sxi
  simp only [hdst r]
  refine (gated_pick key hmono T r (fun c : Fin 10 => gateWord (loW0 i x2) (hiW0 i x3) (BitVec.ofNat 32 c.val) = 1#1)
    hgate (fun n : Fin 10240 => x6 (ValueIdx.ix2 n j)) hw).trans ?_
  have e : (⟨key (tileEdge T r), hw⟩ : Fin 10240)
      = ⟨(dstn (tileEdge T r)).val, Nat.lt_trans (dstn (tileEdge T r)).isLt (by norm_num)⟩ := Fin.ext (hkey _)
  show x6 (ValueIdx.ix2 (⟨key (tileEdge T r), hw⟩ : Fin 10240) j) = _
  rw [e]
  exact congrFun (hx (dstn (tileEdge T r))) j

/-- The gathered source row of edge `r` is the row of the edge's source node. -/
theorem xj0_row
    (hsrc : ∀ r : Fin 256, (x4 (ValueIdx.ix2 r (0 : Fin 1))).toNat = (srcn (tileEdge T r)).val)
    (hx : ∀ v : Fin 10000, (fun j : Fin 4 => x6 (ValueIdx.ix2 (⟨v.val, Nat.lt_trans v.isLt (by norm_num)⟩ : Fin 10240) j)) = x v)
    (r : Fin 256) (j : Fin 4) :
    xj0 (F := Ideal) x4 x6 (ValueIdx.ix2 r j) = x (srcn (tileEdge T r)) j := by
  unfold xj0
  rw [srcGather_pick x4 x6 _ _ _ _ _ _ _ _ _ _ (chunks_of_blocks x6 _ _ _ _ _ _ _ _ _ _
    (ld_chunk x6 0 _ rfl rfl _) (ld_chunk x6 1 _ rfl rfl _) (ld_chunk x6 2 _ rfl rfl _) (ld_chunk x6 3 _ rfl rfl _)
    (ld_chunk x6 4 _ rfl rfl _) (ld_chunk x6 5 _ rfl rfl _) (ld_chunk x6 6 _ rfl rfl _) (ld_chunk x6 7 _ rfl rfl _)
    (ld_chunk x6 8 _ rfl rfl _) (ld_chunk x6 9 _ rfl rfl _)) r j, hsrc r]
  exact congrFun (pick_eq x (fun n j => x6 (ValueIdx.ix2 n j)) hx (srcn (tileEdge T r))) j

end Rows

/-! ## The messages -/

section Messages

variable (i : grid0.Coords) (x2 x3 : Vec Ideal S1250 .i32) (x4 x5 : Vec Ideal S256x1 .i32) (x6 : Vec Ideal S10240x4 .f32)
  (x7 : Vec Ideal S8x128 .f32) (x8 : Vec Ideal S1x128 .f32) (x9 : Vec Ideal S128x128 .f32) (x10 : Vec Ideal S1x128 .f32)
  (x11 : Vec Ideal S128x128 .f32) (x12 : Vec Ideal S1x128 .f32)
  (T : Fin 1250) (key : Fin 320000 → ℕ) (srcn dstn : Fin 320000 → Fin 10000) (x : Fin 10000 → Fin 4 → EReal) (P : Weights 4 128)

/-- Row `r` of the tile's messages is the message of edge `r` of the tile. -/
theorem msg0_row
    (hdst : ∀ r : Fin 256, (x5 (ValueIdx.ix2 r (0 : Fin 1))).toNat = key (tileEdge T r))
    (hsrc : ∀ r : Fin 256, (x4 (ValueIdx.ix2 r (0 : Fin 1))).toNat = (srcn (tileEdge T r)).val)
    (hkey : ∀ a : Fin 320000, key a = (dstn a).val)
    (hmono : ∀ a b : Fin 320000, a ≤ b → key a ≤ key b)
    (hgate : ∀ c : Fin 10, key (tileEdge T 0) / 1024 ≤ c.val → c.val ≤ key (tileEdge T 255) / 1024 →
      gateWord (loW0 i x2) (hiW0 i x3) (BitVec.ofNat 32 c.val) = 1#1)
    (hx : ∀ v : Fin 10000, (fun j : Fin 4 => x6 (ValueIdx.ix2 (⟨v.val, Nat.lt_trans v.isLt (by norm_num)⟩ : Fin 10240) j)) = x v)
    (hP : kWeights0 x7 x8 x9 x10 x11 x12 = P) (r : Fin 256) (j : Fin 128) :
    msg0 (F := Ideal) i x2 x3 x4 x5 x6 x7 x8 x9 x10 x11 x12 (ValueIdx.ix2 r j)
      = message P x (srcn (tileEdge T r)) (dstn (tileEdge T r)) j := by
  unfold msg0 hid0
  refine (messages_apply (xj0 (F := Ideal) x4 x6) (xi0 (F := Ideal) i x2 x3 x5 x6) x7 x8
    (FloatOps.ofBits FTy.f32 0#32) Ideal.ofBits_zero_f32 x9 x10 x11 x12 r j).trans ?_
  rw [hP]
  have e1 : (fun j : Fin 4 => xi0 (F := Ideal) i x2 x3 x5 x6 (ValueIdx.ix2 r j)) = x (dstn (tileEdge T r)) :=
    funext (xi0_row i x2 x3 x5 x6 T key dstn x hdst hkey hmono hgate hx r)
  have e2 : (fun j : Fin 4 => xj0 (F := Ideal) x4 x6 (ValueIdx.ix2 r j)) = x (srcn (tileEdge T r)) :=
    funext (xj0_row x4 x6 T srcn x hsrc hx r)
  rw [e1, e2]
  rfl

end Messages

/-! ## The accumulator: ten gated chunk steps -/

/-- One gated chunk step whose payload adds a term `S` to the chunk's rows, at an entry: the entry as it was, plus the
    gated term when the entry's row lies in the chunk. -/
theorem accStep_apply (c : Fin 10) (g : BitVec 1) (off : Fin 2 → ℕ) (h0 : off 0 = c.val * 1024) (h1 : off 1 = 0)
    (inb : ∀ a, off a + S1024x128.size a ≤ S10240x128.size a)
    (pay : Vec Ideal S1024x128 .f32 → FVec Ideal S1024x128 .f32) (S : Fin 1024 → Fin 128 → EReal)
    (hpay : ∀ (V : Vec Ideal S1024x128 .f32) (k : Fin 1024) (j : Fin 128), pay V (ValueIdx.ix2 k j) = V (ValueIdx.ix2 k j) + S k j)
    (A : Vec Ideal S10240x128 .f32) (n : Fin 10240) (j : Fin 128) :
    accStep0 (F := Ideal) g (Rect.unit (s := S10240x128) off S1024x128.size inb) pay A (ValueIdx.ix2 n j)
      = A (ValueIdx.ix2 n j) + (if n.val / 1024 = c.val then
          (if g = 1#1 then S ⟨n.val % 1024, Nat.mod_lt _ (by norm_num)⟩ j else 0) else 0) := by
  unfold accStep0
  by_cases hc : n.val / 1024 = c.val
  · rw [if_pos hc]
    have hn : (ValueIdx.ix2 n j : S10240x128.Idx)
        = (Rect.unit (s := S10240x128) off S1024x128.size inb).emb
            (ValueIdx.ix2 (⟨n.val % 1024, Nat.mod_lt _ (by norm_num)⟩ : Fin 1024) j) := by
      funext a
      apply Fin.ext
      rcases a with ⟨a, ha⟩
      have ha' : a < 2 := ha
      interval_cases a
      · show n.val = off 0 + 1 * (n.val % 1024)
        omega
      · show j.val = off 1 + 1 * j.val
        omega
    by_cases hg : g = 1#1
    · rw [if_pos hg, hn, gatedVal_emb hg, hpay]
      rfl
    · rw [if_neg hg, add_zero, gatedVal_neg hg]
  · rw [if_neg hc, add_zero]
    refine gatedVal_of_not_mem g (Rect.unit (s := S10240x128) off S1024x128.size inb) pay A ?_
    rw [Rect.mem_set_unit]
    intro h
    have h' := h (0 : Fin 2)
    change off 0 ≤ n.val ∧ n.val < off 0 + 1024 at h'
    omega

/-- What chunk `c`'s step adds at row `k` of the chunk: the messages `M` of the tile's rows whose target word is
    `c * 1024 + k`. -/
def Sacc (x5 : Vec Ideal S256x1 .i32) (M : FVec Ideal S256x128 .f32) (c : Fin 10) (k : Fin 1024) (j : Fin 128) : EReal :=
  ∑ r : Fin 256, (if (x5 (ValueIdx.ix2 r (0 : Fin 1))).toNat = c.val * 1024 + k.val then (1 : EReal) else 0)
    * M (ValueIdx.ix2 r j)

/-- A scatter step's payload over the target column and the messages adds that. -/
theorem acc_pay (c : Fin 10)
    (pay : IVec S256 32 → FVec Ideal S256x128 .f32 → Vec Ideal S1024x128 .f32 → FVec Ideal S1024x128 .f32)
    (hp : ∀ (v6 : IVec S256 32) (v212 : FVec Ideal S256x128 .f32) (v275 : Vec Ideal S1024x128 .f32) (k : Fin 1024) (j : Fin 128),
      pay v6 v212 v275 (ValueIdx.ix2 k j) = v275 (ValueIdx.ix2 k j) + ∑ r : Fin 256,
        (if (v6 (ValueIdx.ix1 r)).toNat = c.val * 1024 + k.val then (1 : EReal) else 0) * v212 (ValueIdx.ix2 r j))
    (x5 : Vec Ideal S256x1 .i32) (M : FVec Ideal S256x128 .f32) (V : Vec Ideal S1024x128 .f32) (k : Fin 1024) (j : Fin 128) :
    pay (k0_pay3 (F := Ideal) x5) M V (ValueIdx.ix2 k j) = V (ValueIdx.ix2 k j) + Sacc x5 M c k j := by
  rw [hp]
  unfold Sacc
  refine congrArg (fun z => V (ValueIdx.ix2 k j) + z) (Finset.sum_congr rfl fun r _ => ?_)
  rw [k0_pay3_apply]

/-- The same for the steps whose payload computes the messages from the hidden rows itself. -/
theorem acc_pay' (c : Fin 10)
    (pay : IVec S256 32 → FVec Ideal S256x128 .f32 → Ideal .f32 → Vec Ideal S128x128 .f32 → Vec Ideal S1x128 .f32 →
      Vec Ideal S128x128 .f32 → Vec Ideal S1x128 .f32 → Vec Ideal S1024x128 .f32 → FVec Ideal S1024x128 .f32)
    (hp : ∀ (v6 : IVec S256 32) (v196 : FVec Ideal S256x128 .f32) (cst : Ideal .f32) (v199 : Vec Ideal S128x128 .f32)
        (v201 : Vec Ideal S1x128 .f32) (v207 : Vec Ideal S128x128 .f32) (v209 : Vec Ideal S1x128 .f32)
        (v275 : Vec Ideal S1024x128 .f32) (k : Fin 1024) (j : Fin 128),
      pay v6 v196 cst v199 v201 v207 v209 v275 (ValueIdx.ix2 k j) = v275 (ValueIdx.ix2 k j) + ∑ r : Fin 256,
        (if (v6 (ValueIdx.ix1 r)).toNat = c.val * 1024 + k.val then (1 : EReal) else 0)
          * k0_pay24 (F := Ideal) v196 cst v199 v201 v207 v209 (ValueIdx.ix2 r j))
    (x5 : Vec Ideal S256x1 .i32) (H : FVec Ideal S256x128 .f32) (cst : Ideal .f32) (x9 : Vec Ideal S128x128 .f32)
    (x10 : Vec Ideal S1x128 .f32) (x11 : Vec Ideal S128x128 .f32) (x12 : Vec Ideal S1x128 .f32)
    (V : Vec Ideal S1024x128 .f32) (k : Fin 1024) (j : Fin 128) :
    pay (k0_pay3 (F := Ideal) x5) H cst x9 x10 x11 x12 V (ValueIdx.ix2 k j)
      = V (ValueIdx.ix2 k j) + Sacc x5 (k0_pay24 (F := Ideal) H cst x9 x10 x11 x12) c k j := by
  rw [hp]
  unfold Sacc
  refine congrArg (fun z => V (ValueIdx.ix2 k j) + z) (Finset.sum_congr rfl fun r _ => ?_)
  rw [k0_pay3_apply]

/-- A start value and ten terms added one after the other. -/
theorem fold10_from {M : Type*} [AddCommMonoid M] (a : M) (S : Fin 10 → M) :
    a + S 0 + S 1 + S 2 + S 3 + S 4 + S 5 + S 6 + S 7 + S 8 + S 9 = a + ∑ c : Fin 10, S c := by
  rw [← fold10' S]
  simp only [add_assoc]

/-- The accumulator after the body at an entry: the reset value plus, chunk by chunk, the gated scatter into the
    entry's row when the row lies in the chunk. -/
theorem stepAcc0_sum (i : grid0.Coords) (x2 x3 : Vec Ideal S1250 .i32) (x4 x5 : Vec Ideal S256x1 .i32) (x6 : Vec Ideal S10240x4 .f32)
    (x7 : Vec Ideal S8x128 .f32) (x8 : Vec Ideal S1x128 .f32) (x9 : Vec Ideal S128x128 .f32) (x10 : Vec Ideal S1x128 .f32)
    (x11 : Vec Ideal S128x128 .f32) (x12 : Vec Ideal S1x128 .f32) (x14 : Vec Ideal S10240x128 .f32)
    (n : Fin 10240) (j : Fin 128) :
    stepAcc0 (F := Ideal) i x2 x3 x4 x5 x6 x7 x8 x9 x10 x11 x12 x14 (ValueIdx.ix2 n j)
      = accReset0 (F := Ideal) i x14 (ValueIdx.ix2 n j) + ∑ c : Fin 10,
          if n.val / 1024 = c.val then
            (if gateWord (loW0 i x2) (hiW0 i x3) (BitVec.ofNat 32 c.val) = 1#1 then
              Sacc x5 (msg0 (F := Ideal) i x2 x3 x4 x5 x6 x7 x8 x9 x10 x11 x12) c ⟨n.val % 1024, Nat.mod_lt _ (by norm_num)⟩ j
            else 0)
          else 0 := by
  unfold stepAcc0
  rw [accStep_apply 9 _ _ rfl rfl _ _ (Sacc x5 (msg0 (F := Ideal) i x2 x3 x4 x5 x6 x7 x8 x9 x10 x11 x12) 9)
      (acc_pay 9 (k0_pay34 (F := Ideal)) pay34_apply x5 _),
    accStep_apply 8 _ _ rfl rfl _ _ (Sacc x5 (msg0 (F := Ideal) i x2 x3 x4 x5 x6 x7 x8 x9 x10 x11 x12) 8)
      (acc_pay 8 (k0_pay33 (F := Ideal)) pay33_apply x5 _),
    accStep_apply 7 _ _ rfl rfl _ _ (Sacc x5 (msg0 (F := Ideal) i x2 x3 x4 x5 x6 x7 x8 x9 x10 x11 x12) 7)
      (acc_pay 7 (k0_pay32 (F := Ideal)) pay32_apply x5 _),
    accStep_apply 6 _ _ rfl rfl _ _ (Sacc x5 (msg0 (F := Ideal) i x2 x3 x4 x5 x6 x7 x8 x9 x10 x11 x12) 6)
      (acc_pay 6 (k0_pay31 (F := Ideal)) pay31_apply x5 _),
    accStep_apply 5 _ _ rfl rfl _ _ (Sacc x5 (msg0 (F := Ideal) i x2 x3 x4 x5 x6 x7 x8 x9 x10 x11 x12) 5)
      (acc_pay 5 (k0_pay30 (F := Ideal)) pay30_apply x5 _),
    accStep_apply 4 _ _ rfl rfl _ _ (Sacc x5 (msg0 (F := Ideal) i x2 x3 x4 x5 x6 x7 x8 x9 x10 x11 x12) 4)
      (acc_pay 4 (k0_pay29 (F := Ideal)) pay29_apply x5 _),
    accStep_apply 3 _ _ rfl rfl _ _ (Sacc x5 (msg0 (F := Ideal) i x2 x3 x4 x5 x6 x7 x8 x9 x10 x11 x12) 3)
      (acc_pay 3 (k0_pay28 (F := Ideal)) pay28_apply x5 _),
    accStep_apply 2 _ _ rfl rfl _ _ (Sacc x5 (msg0 (F := Ideal) i x2 x3 x4 x5 x6 x7 x8 x9 x10 x11 x12) 2)
      (acc_pay' 2 (k0_pay27 (F := Ideal)) pay27_apply x5 _ _ x9 x10 x11 x12),
    accStep_apply 1 _ _ rfl rfl _ _ (Sacc x5 (msg0 (F := Ideal) i x2 x3 x4 x5 x6 x7 x8 x9 x10 x11 x12) 1)
      (acc_pay' 1 (k0_pay26 (F := Ideal)) pay26_apply x5 _ _ x9 x10 x11 x12),
    accStep_apply 0 _ _ rfl rfl _ _ (Sacc x5 (msg0 (F := Ideal) i x2 x3 x4 x5 x6 x7 x8 x9 x10 x11 x12) 0)
      (acc_pay' 0 (k0_pay25 (F := Ideal)) pay25_apply x5 _ _ x9 x10 x11 x12)]
  exact fold10_from _ (fun c : Fin 10 =>
    if n.val / 1024 = c.val then
      (if gateWord (loW0 i x2) (hiW0 i x3) (BitVec.ofNat 32 c.val) = 1#1 then
        Sacc x5 (msg0 (F := Ideal) i x2 x3 x4 x5 x6 x7 x8 x9 x10 x11 x12) c ⟨n.val % 1024, Nat.mod_lt _ (by norm_num)⟩ j
      else 0)
    else 0)

/-! ## The step at an entry -/

/-- THE STEP: after the body at the grid point of tile `T`, the accumulator at `(n, j)` is what it was (zero at a core's
    first tile) plus the messages of the tile's edges whose target is row `n` — under hypotheses that say what the
    operands are: the two columns hold the tile's targets and sources, the targets are sorted, the gates are open on the
    tile's chunk range, the padded table carries the node features, the six blocks are the layer's parameters. -/
theorem stepAcc0_apply (i : grid0.Coords) (x2 x3 : Vec Ideal S1250 .i32) (x4 x5 : Vec Ideal S256x1 .i32) (x6 : Vec Ideal S10240x4 .f32)
    (x7 : Vec Ideal S8x128 .f32) (x8 : Vec Ideal S1x128 .f32) (x9 : Vec Ideal S128x128 .f32) (x10 : Vec Ideal S1x128 .f32)
    (x11 : Vec Ideal S128x128 .f32) (x12 : Vec Ideal S1x128 .f32) (x14 : Vec Ideal S10240x128 .f32)
    (T : Fin 1250) (key : Fin 320000 → ℕ) (srcn dstn : Fin 320000 → Fin 10000) (x : Fin 10000 → Fin 4 → EReal) (P : Cert.Spec.Weights 4 128)
    (hpt : (i 1).val = T.val % 625)
    (hdst : ∀ r : Fin 256, (x5 (ValueIdx.ix2 r (0 : Fin 1))).toNat = key (Cert.Spec.tileEdge T r))
    (hsrc : ∀ r : Fin 256, (x4 (ValueIdx.ix2 r (0 : Fin 1))).toNat = (srcn (Cert.Spec.tileEdge T r)).val)
    (hkey : ∀ a : Fin 320000, key a = (dstn a).val)
    (hmono : ∀ a b : Fin 320000, a ≤ b → key a ≤ key b)
    (hgate : ∀ c : Fin 10, key (Cert.Spec.tileEdge T 0) / 1024 ≤ c.val → c.val ≤ key (Cert.Spec.tileEdge T 255) / 1024 →
      Cert.Spec.gateWord (loW0 i x2) (hiW0 i x3) (BitVec.ofNat 32 c.val) = 1#1)
    (hx : ∀ v : Fin 10000, (fun j : Fin 4 => x6 (ValueIdx.ix2 (⟨v.val, Nat.lt_trans v.isLt (by norm_num)⟩ : Fin 10240) j)) = x v)
    (hP : Cert.KernelIdeal.PayI0.kWeights0 x7 x8 x9 x10 x11 x12 = P)
    (n : Fin 10240) (j : Fin 128) :
    stepAcc0 (F := Ideal) i x2 x3 x4 x5 x6 x7 x8 x9 x10 x11 x12 x14 (ValueIdx.ix2 n j)
      = (if T.val % 625 = 0 then 0 else x14 (ValueIdx.ix2 n j))
        + ∑ r : Fin 256, if key (Cert.Spec.tileEdge T r) = n.val
            then Cert.Spec.message P x (srcn (Cert.Spec.tileEdge T r)) (dstn (Cert.Spec.tileEdge T r)) j else 0 := by
  rw [stepAcc0_sum, accReset0_apply, hpt]
  refine congrArg (fun z => (if T.val % 625 = 0 then 0 else x14 (ValueIdx.ix2 n j)) + z) ?_
  have hc0 : n.val / 1024 < 10 := by have := n.isLt; omega
  rw [Finset.sum_eq_single (⟨n.val / 1024, hc0⟩ : Fin 10)]
  · rw [if_pos rfl]
    unfold Sacc
    simp only [hdst]
    refine (gated_scatter key hmono T
      (fun c : Fin 10 => gateWord (loW0 i x2) (hiW0 i x3) (BitVec.ofNat 32 c.val) = 1#1) hgate
      ⟨n.val / 1024, hc0⟩ ⟨n.val % 1024, Nat.mod_lt _ (by norm_num)⟩
      (fun r => msg0 (F := Ideal) i x2 x3 x4 x5 x6 x7 x8 x9 x10 x11 x12 (ValueIdx.ix2 r j))).trans ?_
    refine Finset.sum_congr rfl fun r _ => ?_
    have e : n.val / 1024 * 1024 + n.val % 1024 = n.val := Nat.div_add_mod' n.val 1024
    show (if key (tileEdge T r) = n.val / 1024 * 1024 + n.val % 1024 then _ else 0) = _
    rw [e, msg0_row i x2 x3 x4 x5 x6 x7 x8 x9 x10 x11 x12 T key srcn dstn x P hdst hsrc hkey hmono hgate hx hP r j]
  · intro c _ hc
    rw [if_neg (fun e => hc (Fin.ext e.symm))]
  · intro h
    exact absurd (Finset.mem_univ _) h

end Cert.KernelIdeal.StepI0

end
-- ==== Proof.ValueI0.lean ====
import proofs.«414286_j65627100283289_3_alg».proof.Proof.HandedI0
import proofs.«414286_j65627100283289_3_alg».proof.Proof.GeomI0
import proofs.«414286_j65627100283289_3_alg».proof.Proof.StepDefsI0
import proofs.«414286_j65627100283289_3_alg».proof.Proof.StepMathI0
import proofs.«414286_j65627100283289_3_alg».proof.Proof.RegionDataI0

/-!
# What region 0 leaves: its layer

The kernel region walks the sorted edge list tile by tile. At tile `T` its body turns the accumulator the tile before left
into that accumulator (nothing, at a core's first tile) plus, on every node row, the messages of the tile's edges whose
target is the row; after a core's last tile the accumulator is stored as the core's slab. This module puts the pieces
together over the operand values the region is handed: the tile's step, from the accumulator's recurrence over the tiles the
statement `RegionLeaves` of the layer, and last the region's own proof data — its accumulator tile by tile, its
windows' blocks, its output array after the run — put in.
-/

set_option maxRecDepth 16384

noncomputable section

namespace Cert.KernelIdeal.KHost

open Idealize.ShloMosaic Idealize.ShloMosaic.TcCoe
open Idealize.SL.Sem
open Cert.KernelIdeal Cert.KernelIdeal.Gen
open Cert.Spec
open scoped BigOperators

/-! ## The tile's two table words at a grid point -/

/-- Point `t` of the grid reads entry `t` of the first table. -/
theorem loW0_coords {F : FTy → Type} [FloatOps F] (t : Fin grid0.N) (x2 : Vec F S1250 .i32) :
    loW0 (grid0.coords t) x2 = x2 (ValueIdx.ix1 (Fin.cast N_0 t)) := by
  unfold loW0
  show x2 (Rect.emb _ _) = _
  refine congrArg x2 (funext fun a => ?_)
  match a with
  | ⟨0, _⟩ =>
    apply Fin.ext
    rw [Rect.emb_apply]
    show k0_off1 (grid0.coords t) 0 + 1 * 0 = t.val
    rw [k0_off1_eq]
    show 625 * ((grid0.coords t) 0).val + ((grid0.coords t) 1).val + 1 * 0 = t.val
    rw [coords0_0, coords0_1]
    omega

/-- … and entry `t` of the second. -/
theorem hiW0_coords {F : FTy → Type} [FloatOps F] (t : Fin grid0.N) (x3 : Vec F S1250 .i32) :
    hiW0 (grid0.coords t) x3 = x3 (ValueIdx.ix1 (Fin.cast N_0 t)) := by
  unfold hiW0
  show x3 (Rect.emb _ _) = _
  refine congrArg x3 (funext fun a => ?_)
  match a with
  | ⟨0, _⟩ =>
    apply Fin.ext
    rw [Rect.emb_apply]
    show k0_off1 (grid0.coords t) 0 + 1 * 0 = t.val
    rw [k0_off1_eq]
    show 625 * ((grid0.coords t) 0).val + ((grid0.coords t) 1).val + 1 * 0 = t.val
    rw [coords0_0, coords0_1]
    omega

/-! ## One tile's step, and the layer -/

section Layer0

variable (m : (ℓ : Loc nD τ sig) → Buf (Elt Ideal) ℓ) (outs : Gen.Outs (F := Ideal)) (c : Dev nD)
variable (h : InRange (m ((c : Thread nD τ).loc main_arg2)))

/-- The accumulator after the body at tile `T`, over the region's operands and the tile's two column blocks: what the
    tile before left (nothing at a core's first tile) plus, on row `n`, the messages of the tile's edges whose target is `n`. -/
theorem step0_apply (T : Fin 1250) (x4 x5 : Vec Ideal S256x1 .i32) (x14 : Vec Ideal S10240x128 .f32)
    (h4 : ∀ r : Fin 256, x4 (ValueIdx.ix2 r (0 : Fin 1)) = opSrc0 m outs c (ValueIdx.ix2 (tileEdge T r) (0 : Fin 1)))
    (h5 : ∀ r : Fin 256, x5 (ValueIdx.ix2 r (0 : Fin 1)) = opDst0 m outs c (ValueIdx.ix2 (tileEdge T r) (0 : Fin 1)))
    (n : Fin 10240) (j : Fin 128) :
    stepAcc0 (F := Ideal) (grid0.coords (Fin.cast N_0.symm T)) (opLo0 m outs c) (opHi0 m outs c) x4 x5 (opX0 m outs c)
        (opWa0 m outs c) (opBa0 m outs c) (opWb0 m outs c) (opBb0 m outs c) (opWc0 m outs c) (opBc0 m outs c) x14 (ValueIdx.ix2 n j)
      = (if T.val % 625 = 0 then 0 else x14 (ValueIdx.ix2 n j))
        + ∑ r : Fin 256, if (dstAlong m c h (tileEdge T r)).val = n.val
            then message (layerP0 m outs c) (layerX0 m outs c) (srcAlong m c h (tileEdge T r)) (dstAlong m c h (tileEdge T r)) j else 0 :=
  StepI0.stepAcc0_apply (grid0.coords (Fin.cast N_0.symm T)) (opLo0 m outs c) (opHi0 m outs c) x4 x5 (opX0 m outs c)
    (opWa0 m outs c) (opBa0 m outs c) (opWb0 m outs c) (opBb0 m outs c) (opWc0 m outs c) (opBc0 m outs c) x14
    T (keyOf m c h) (srcAlong m c h) (dstAlong m c h) (layerX0 m outs c) (layerP0 m outs c)
    (coords0_1 (Fin.cast N_0.symm T))
    (fun r => by rw [h5 r]; exact handed0_dst m outs c h T r)
    (fun r => by rw [h4 r]; exact handed0_src m outs c h T r)
    (along_key m c h) (along_mono m c h)
    (by rw [loW0_coords, hiW0_coords]; exact handed0_gate m outs c h T)
    (handed0_x m outs c) (handed0_P m outs c) n j

/-- From the accumulator's recurrence over the tiles and the slabs' read: the layer. `Acc T` is the accumulator before
    tile `T`; `B4 T`, `B5 T` are tile `T`'s blocks of the two sorted columns. -/
theorem leaves0_of_acc (Acc : ℕ → Vec Ideal S10240x128 .f32) (B4 B5 : Fin 1250 → Vec Ideal S256x1 .i32)
    (hB4 : ∀ (T : Fin 1250) (r : Fin 256),
      B4 T (ValueIdx.ix2 r (0 : Fin 1)) = opSrc0 m outs c (ValueIdx.ix2 (tileEdge T r) (0 : Fin 1)))
    (hB5 : ∀ (T : Fin 1250) (r : Fin 256),
      B5 T (ValueIdx.ix2 r (0 : Fin 1)) = opDst0 m outs c (ValueIdx.ix2 (tileEdge T r) (0 : Fin 1)))
    (hsucc : ∀ T : Fin 1250, Acc (T.val + 1)
      = stepAcc0 (F := Ideal) (grid0.coords (Fin.cast N_0.symm T)) (opLo0 m outs c) (opHi0 m outs c) (B4 T) (B5 T) (opX0 m outs c)
          (opWa0 m outs c) (opBa0 m outs c) (opWb0 m outs c) (opBb0 m outs c) (opWc0 m outs c) (opBc0 m outs c) (Acc T.val))
    (S : Fin 2 → Fin 10240 → Fin 128 → EReal)
    (hS : ∀ (p : Fin 2) (n : Fin 10240) (j : Fin 128), S p n j = Acc (p.val * 625 + 625) (ValueIdx.ix2 n j)) :
    RegionLeaves (layerP0 m outs c) (layerX0 m outs c) (srcK m c h) (dstK m c h) (sortPerm (edges m c)) S :=
  regionLeaves_of_acc (layerP0 m outs c) (layerX0 m outs c) (srcK m c h) (dstK m c h) (sortPerm (edges m c)) S
    (fun T n j => Acc T (ValueIdx.ix2 n j))
    (fun T hT n j => by
      show Acc (T + 1) (ValueIdx.ix2 n j) = _
      rw [hsucc ⟨T, hT⟩]
      exact step0_apply m outs c h ⟨T, hT⟩ (B4 ⟨T, hT⟩) (B5 ⟨T, hT⟩) (Acc T) (hB4 ⟨T, hT⟩) (hB5 ⟨T, hT⟩) n j)
    hS

end Layer0

/-! ## The region's proof data at what it is handed -/

section Final0

variable (m : (ℓ : Loc nD τ sig) → Buf (Elt Ideal) ℓ) (outs : Gen.Outs (F := Ideal)) (c : Dev nD)
variable (h : InRange (m ((c : Thread nD τ).loc main_arg2)))

/-- Tile `T` as a point of the region's grid. -/
abbrev pt0 (T : Fin 1250) : Fin (cfg0 (tbl0 m outs c)).N := Fin.cast N_0.symm T

/-- The accumulator before tile `n`. -/
abbrev acc0 : ℕ → Vec Ideal S10240x128 .f32 := accAt0 (ent0 m outs) (tbl0 m outs c) c

/-- What the region leaves in its output array is the layer. -/
theorem leaves0 : RegionLeaves (layerP0 m outs c) (layerX0 m outs c) (srcK m c h) (dstK m c h) (sortPerm (edges m c))
    (fun p n j => ((dat0 (ent0 m outs) (tbl0 m outs c) c).arrAt 9 (cfg0 (tbl0 m outs c)).N : S2x10240x128.Idx → EReal)
      (ValueIdx.ix3 p n j)) := by
  refine leaves0_of_acc m outs c h (acc0 m outs c)
    (fun T => iblk0 (ent0 m outs) (tbl0 m outs c) c (0 : Fin 10) (pt0 m outs c T)) (fun T => iblk0 (ent0 m outs) (tbl0 m outs c) c (1 : Fin 10) (pt0 m outs c T))
    (fun T r => ?_) (fun T r => ?_) (fun T => ?_) _ (fun p n j => ?_)
  · exact (blk0_read_0 (tbl0 m outs c) (pt0 m outs c T) (opSrc0 m outs c) r).trans
      (congrArg (fun e : Fin 320000 => opSrc0 m outs c (ValueIdx.ix2 e (0 : Fin 1))) (Fin.ext rfl))
  · exact (blk0_read_1 (tbl0 m outs c) (pt0 m outs c T) (opDst0 m outs c) r).trans
      (congrArg (fun e : Fin 320000 => opDst0 m outs c (ValueIdx.ix2 e (0 : Fin 1))) (Fin.ext rfl))
  · have e2 : iblk0 (ent0 m outs) (tbl0 m outs c) c (2 : Fin 10) (pt0 m outs c T) = opX0 m outs c :=
      funext fun y => blk0_read_2 (tbl0 m outs c) (pt0 m outs c T) (opX0 m outs c) y
    have e3 : iblk0 (ent0 m outs) (tbl0 m outs c) c (3 : Fin 10) (pt0 m outs c T) = opWa0 m outs c :=
      funext fun y => blk0_read_3 (tbl0 m outs c) (pt0 m outs c T) (opWa0 m outs c) y
    have e4 : iblk0 (ent0 m outs) (tbl0 m outs c) c (4 : Fin 10) (pt0 m outs c T) = opBa0 m outs c :=
      funext fun y => blk0_read_4 (tbl0 m outs c) (pt0 m outs c T) (opBa0 m outs c) y
    have e5 : iblk0 (ent0 m outs) (tbl0 m outs c) c (5 : Fin 10) (pt0 m outs c T) = opWb0 m outs c :=
      funext fun y => blk0_read_5 (tbl0 m outs c) (pt0 m outs c T) (opWb0 m outs c) y
    have e6 : iblk0 (ent0 m outs) (tbl0 m outs c) c (6 : Fin 10) (pt0 m outs c T) = opBb0 m outs c :=
      funext fun y => blk0_read_6 (tbl0 m outs c) (pt0 m outs c T) (opBb0 m outs c) y
    have e7 : iblk0 (ent0 m outs) (tbl0 m outs c) c (7 : Fin 10) (pt0 m outs c T) = opWc0 m outs c :=
      funext fun y => blk0_read_7 (tbl0 m outs c) (pt0 m outs c T) (opWc0 m outs c) y
    have e8 : iblk0 (ent0 m outs) (tbl0 m outs c) c (8 : Fin 10) (pt0 m outs c T) = opBc0 m outs c :=
      funext fun y => blk0_read_8 (tbl0 m outs c) (pt0 m outs c T) (opBc0 m outs c) y
    have e := accAt0_succ (ent0 m outs) (tbl0 m outs c) c (pt0 m outs c T)
    rw [e2, e3, e4, e5, e6, e7, e8] at e
    exact e
  · exact congrFun (arrAt0_9 (tbl0 m outs c) c (dat0 (ent0 m outs) (tbl0 m outs c) c) (acc0 m outs c)
      (fun t _ => after0_9 (ent0 m outs) (tbl0 m outs c) c t)) (ValueIdx.ix3 p n j)

end Final0

end Cert.KernelIdeal.KHost

end
-- ==== Proof.PayMlpI1.lean ====
/-
  The perceptron and the scatter half of a layer's tile body (region 1 of the program), read at an index, at the ideal
  values.

  A tile holds 256 edges. Its messages are a three-layer perceptron of the feature rows (the target's row followed by
  source minus target): each layer is a matrix product plus a bias row repeated down the 256 rows, the first two followed by
  the rectifier max(·, 0). The scatter adds the messages into the accumulator chunk by chunk: for chunk c the 256×1024
  matrix with a one at (r, k) where the target word of row r is c·1024 + k, transposed, times the messages, is added to
  the chunk's 1024 rows. At the ideal values a product into a zero accumulator is the plain sum over the contracted
  coordinate, so at (k, j) the step adds exactly the messages of the rows whose word is c·1024 + k.
-/
import proofs.«414286_j65627100283289_3_alg».proof.Proof.Gen.KernelIdeal.Skeleton
import proofs.«414286_j65627100283289_3_alg».proof.Proof.Arrange
import proofs.«414286_j65627100283289_3_alg».proof.Proof.Args
import proofs.«414286_j65627100283289_3_alg».proof.Proof.LibDenseLayer
import proofs.«414286_j65627100283289_3_alg».proof.Proof.LibMatmulColsByCols
import proofs.«414286_j65627100283289_3_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayI1

open Idealize.ShloMosaic Idealize.ShloMosaic.ValueIdx
open scoped BigOperators

/-! ## The accumulator's two trivial payloads -/

/-- The node table stored as one block `[1, 10240, 128]`: entry `(0, n, j)` is entry `(n, j)` of the table. -/
theorem pay1_apply (v : Vec Ideal S10240x128 .f32) (n : Fin 10240) (j : Fin 128) :
    Gen.k1_pay1 v (ValueIdx.ix3 (0 : Fin 1) n j) = v (ValueIdx.ix2 n j) := by
  unfold Gen.k1_pay1
  exact shapeCast_ab_1ab_apply v _ 0 n j

/-- The accumulator's initial contents: every entry is zero. -/
theorem pay2_apply (n : Fin 10240) (j : Fin 128) : (Gen.k1_pay2 (F := Ideal)) (ValueIdx.ix2 n j) = 0 := by
  unfold Gen.k1_pay2
  rw [shapeCast_self]
  exact Ideal.ofBits_zero_f32

/-! ## The 0/1 matrix of one chunk -/

/-- Entry `(r, k)` of the 0/1 matrix that compares the word of row `r` with `base + k`: one where they are the
    same word, zero elsewhere. -/
theorem onehot_entry (v6 : IVec S256 32) (base : BitVec 32) (r : Fin 256) (k : Fin 1024) :
    (sitofp .f32 (extui 32 (cmpi .eq
        (broadcastTo S256x1024 (shapeCast S256x1 v6 Gen.shapeCasts_S256_S256x1) Gen.broadcasts_S256x1_S256x1024)
        (addi (broadcast S256x1024 base) (iota .tc S256x1024 32 [1] Gen.iota_S256x1024_d1_w32))) Gen.natLt_1_32)
      : FVec Ideal S256x1024 .f32) (ValueIdx.ix2 r k)
      = if v6 (ValueIdx.ix1 r) = base + BitVec.ofNat 32 k.val then (1 : EReal) else 0 := by
  rw [sitofp_apply, extui_apply]
  show FloatOps.sitofp FTy.f32 (BitVec.setWidth 32 (IntOp.cmpi .eq
    (broadcastTo S256x1024 (shapeCast S256x1 v6 Gen.shapeCasts_S256_S256x1) Gen.broadcasts_S256x1_S256x1024 (ValueIdx.ix2 r k))
    (IntOp.addi base (iota .tc S256x1024 32 [1] Gen.iota_S256x1024_d1_w32 (ValueIdx.ix2 r k))))) = _
  rw [RowOps.broadcastTo_a1_ab_apply, RowOps.shapeCast_a_a1_apply, iota_single_apply]
  show FloatOps.sitofp FTy.f32 (BitVec.setWidth 32 (IntOp.cmpi .eq (v6 (ValueIdx.ix1 r)) (base + BitVec.ofNat 32 k.val))) = _
  by_cases h : v6 (ValueIdx.ix1 r) = base + BitVec.ofNat 32 k.val
  · rw [if_pos h, IntOp.cmpi_eq.mpr h]
    show (((BitVec.setWidth 32 1#1).toInt : ℝ) : EReal) = 1
    have e : (BitVec.setWidth 32 1#1).toInt = 1 := by decide
    rw [e]; simp
  · rw [if_neg h, eq_zero_of_ne_one (fun e => h (IntOp.cmpi_eq.mp e))]
    show (((BitVec.setWidth 32 0#1).toInt : ℝ) : EReal) = 0
    have e : (BitVec.setWidth 32 0#1).toInt = 0 := by decide
    rw [e]; simp

/-- A 32-bit word is the word of `c*1024 + k` exactly when its unsigned value is that number. -/
theorem word_eq_chunk (x : BitVec 32) (c : Fin 10) (k : Fin 1024) :
    x = BitVec.ofNat 32 (c.val * 1024) + BitVec.ofNat 32 k.val ↔ x.toNat = c.val * 1024 + k.val := by
  have hc := c.isLt; have hk := k.isLt
  rw [← BitVec.ofNat_add]
  constructor
  · intro h; rw [h, BitVec.toNat_ofNat]; omega
  · intro h; rw [← h, BitVec.ofNat_toNat, BitVec.setWidth_eq]

/-- One accumulation step of the scatter into chunk `c`, for messages of any width `N`: the chunk's rows as loaded, plus
    the transpose of the 0/1 matrix of the chunk times the messages. At `(k, j)` it adds the messages of the rows whose
    word is `c*1024 + k`. -/
theorem scatter_core {N : ℕ} (w : DotDims.WF S256x1024 ⟨2, ![256, N]⟩ ⟨2, ![1024, N]⟩ [0] [0] [1] [1] [] [])
    (hs : (⟨2, ![1024, N]⟩ : Shape).ShapeCasts ⟨2, ![1024, N]⟩) (c : Fin 10) (v6 : IVec S256 32)
    (M : FVec Ideal ⟨2, ![256, N]⟩ .f32) (v275 : FVec Ideal ⟨2, ![1024, N]⟩ .f32) (k : Fin 1024) (j : Fin N) :
    shapeCast ⟨2, ![1024, N]⟩ (addf v275 (matmul (⟨[0], [0], [1], [1], [], [], w⟩ : DotDims _ _ _) none
        (sitofp .f32 (extui 32 (cmpi .eq
          (broadcastTo S256x1024 (shapeCast S256x1 v6 Gen.shapeCasts_S256_S256x1) Gen.broadcasts_S256x1_S256x1024)
          (addi (broadcast S256x1024 (BitVec.ofNat 32 (c.val * 1024))) (iota .tc S256x1024 32 [1] Gen.iota_S256x1024_d1_w32)))
          Gen.natLt_1_32) : FVec Ideal S256x1024 .f32)
        M (constant (F := Ideal) ⟨2, ![1024, N]⟩ .f32 0x00000000#32))) hs (ValueIdx.ix2 k j)
      = v275 (ValueIdx.ix2 k j) + ∑ r : Fin 256,
          (if (v6 (ValueIdx.ix1 r)).toNat = c.val * 1024 + k.val then (1 : EReal) else 0) * M (ValueIdx.ix2 r j) := by
  rw [shapeCast_self, addf_apply]
  refine congrArg (fun z => v275 (ValueIdx.ix2 k j) + z) ?_
  refine (MatmulColsByCols.matmul_cols_apply w none _ M k j).trans ?_
  refine Finset.sum_congr rfl fun r _ => ?_
  rw [onehot_entry]
  by_cases h : (v6 (ValueIdx.ix1 r)).toNat = c.val * 1024 + k.val
  · rw [if_pos h, if_pos ((word_eq_chunk _ c k).mpr h)]
  · rw [if_neg h, if_neg (fun e => h ((word_eq_chunk _ c k).mp e))]

/-! ## The scatter's ten steps -/

/-- The scatter's step into chunk 0, at `(k, j)`, the messages being the perceptron's payload: the chunk's entry as
    loaded plus the messages of the tile's rows whose word is `0*1024 + k`. -/
theorem pay25_apply (v6 : IVec S256 32) (v196 : FVec Ideal S256x128 .f32) (cst_57 : Ideal .f32)
    (v199 : Vec Ideal S128x128 .f32) (v201 : Vec Ideal S1x128 .f32) (v207 : Vec Ideal S128x128 .f32)
    (v209 : Vec Ideal S1x128 .f32) (v275 : Vec Ideal S1024x128 .f32) (k : Fin 1024) (j : Fin 128) :
    Gen.k1_pay25 v6 v196 cst_57 v199 v201 v207 v209 v275 (ValueIdx.ix2 k j) = v275 (ValueIdx.ix2 k j) + ∑ r : Fin 256,
      (if (v6 (ValueIdx.ix1 r)).toNat = (0 : Fin 10).val * 1024 + k.val then (1 : EReal) else 0)
        * Gen.k1_pay24 v196 cst_57 v199 v201 v207 v209 (ValueIdx.ix2 r j) := by
  unfold Gen.k1_pay25
  exact scatter_core Gen.dot_S256x1024_S256x128_S1024x128_0_0_1_1_n_n_wf Gen.shapeCasts_S1024x128_S1024x128 0 v6 (Gen.k1_pay24 v196 cst_57 v199 v201 v207 v209) v275 k j

/-- The scatter's step into chunk 1, at `(k, j)`, the messages being the perceptron's payload: the chunk's entry as
    loaded plus the messages of the tile's rows whose word is `1*1024 + k`. -/
theorem pay26_apply (v6 : IVec S256 32) (v196 : FVec Ideal S256x128 .f32) (cst_57 : Ideal .f32)
    (v199 : Vec Ideal S128x128 .f32) (v201 : Vec Ideal S1x128 .f32) (v207 : Vec Ideal S128x128 .f32)
    (v209 : Vec Ideal S1x128 .f32) (v275 : Vec Ideal S1024x128 .f32) (k : Fin 1024) (j : Fin 128) :
    Gen.k1_pay26 v6 v196 cst_57 v199 v201 v207 v209 v275 (ValueIdx.ix2 k j) = v275 (ValueIdx.ix2 k j) + ∑ r : Fin 256,
      (if (v6 (ValueIdx.ix1 r)).toNat = (1 : Fin 10).val * 1024 + k.val then (1 : EReal) else 0)
        * Gen.k1_pay24 v196 cst_57 v199 v201 v207 v209 (ValueIdx.ix2 r j) := by
  unfold Gen.k1_pay26
  exact scatter_core Gen.dot_S256x1024_S256x128_S1024x128_0_0_1_1_n_n_wf Gen.shapeCasts_S1024x128_S1024x128 1 v6 (Gen.k1_pay24 v196 cst_57 v199 v201 v207 v209) v275 k j

/-- The scatter's step into chunk 2, at `(k, j)`, the messages being the perceptron's payload: the chunk's entry as
    loaded plus the messages of the tile's rows whose word is `2*1024 + k`. -/
theorem pay27_apply (v6 : IVec S256 32) (v196 : FVec Ideal S256x128 .f32) (cst_57 : Ideal .f32)
    (v199 : Vec Ideal S128x128 .f32) (v201 : Vec Ideal S1x128 .f32) (v207 : Vec Ideal S128x128 .f32)
    (v209 : Vec Ideal S1x128 .f32) (v275 : Vec Ideal S1024x128 .f32) (k : Fin 1024) (j : Fin 128) :
    Gen.k1_pay27 v6 v196 cst_57 v199 v201 v207 v209 v275 (ValueIdx.ix2 k j) = v275 (ValueIdx.ix2 k j) + ∑ r : Fin 256,
      (if (v6 (ValueIdx.ix1 r)).toNat = (2 : Fin 10).val * 1024 + k.val then (1 : EReal) else 0)
        * Gen.k1_pay24 v196 cst_57 v199 v201 v207 v209 (ValueIdx.ix2 r j) := by
  unfold Gen.k1_pay27
  exact scatter_core Gen.dot_S256x1024_S256x128_S1024x128_0_0_1_1_n_n_wf Gen.shapeCasts_S1024x128_S1024x128 2 v6 (Gen.k1_pay24 v196 cst_57 v199 v201 v207 v209) v275 k j

/-- The scatter's step into chunk 3, at `(k, j)`: the chunk's entry as loaded plus the messages of the tile's rows
    whose word is `3*1024 + k`. -/
theorem pay28_apply (v6 : IVec S256 32) (v212 : FVec Ideal S256x128 .f32) (v275 : Vec Ideal S1024x128 .f32)
    (k : Fin 1024) (j : Fin 128) :
    Gen.k1_pay28 v6 v212 v275 (ValueIdx.ix2 k j) = v275 (ValueIdx.ix2 k j) + ∑ r : Fin 256,
      (if (v6 (ValueIdx.ix1 r)).toNat = (3 : Fin 10).val * 1024 + k.val then (1 : EReal) else 0) * v212 (ValueIdx.ix2 r j) := by
  unfold Gen.k1_pay28
  exact scatter_core Gen.dot_S256x1024_S256x128_S1024x128_0_0_1_1_n_n_wf Gen.shapeCasts_S1024x128_S1024x128 3 v6 v212 v275 k j

/-- The scatter's step into chunk 4, at `(k, j)`: the chunk's entry as loaded plus the messages of the tile's rows
    whose word is `4*1024 + k`. -/
theorem pay29_apply (v6 : IVec S256 32) (v212 : FVec Ideal S256x128 .f32) (v275 : Vec Ideal S1024x128 .f32)
    (k : Fin 1024) (j : Fin 128) :
    Gen.k1_pay29 v6 v212 v275 (ValueIdx.ix2 k j) = v275 (ValueIdx.ix2 k j) + ∑ r : Fin 256,
      (if (v6 (ValueIdx.ix1 r)).toNat = (4 : Fin 10).val * 1024 + k.val then (1 : EReal) else 0) * v212 (ValueIdx.ix2 r j) := by
  unfold Gen.k1_pay29
  exact scatter_core Gen.dot_S256x1024_S256x128_S1024x128_0_0_1_1_n_n_wf Gen.shapeCasts_S1024x128_S1024x128 4 v6 v212 v275 k j

/-- The scatter's step into chunk 5, at `(k, j)`: the chunk's entry as loaded plus the messages of the tile's rows
    whose word is `5*1024 + k`. -/
theorem pay30_apply (v6 : IVec S256 32) (v212 : FVec Ideal S256x128 .f32) (v275 : Vec Ideal S1024x128 .f32)
    (k : Fin 1024) (j : Fin 128) :
    Gen.k1_pay30 v6 v212 v275 (ValueIdx.ix2 k j) = v275 (ValueIdx.ix2 k j) + ∑ r : Fin 256,
      (if (v6 (ValueIdx.ix1 r)).toNat = (5 : Fin 10).val * 1024 + k.val then (1 : EReal) else 0) * v212 (ValueIdx.ix2 r j) := by
  unfold Gen.k1_pay30
  exact scatter_core Gen.dot_S256x1024_S256x128_S1024x128_0_0_1_1_n_n_wf Gen.shapeCasts_S1024x128_S1024x128 5 v6 v212 v275 k j

/-- The scatter's step into chunk 6, at `(k, j)`: the chunk's entry as loaded plus the messages of the tile's rows
    whose word is `6*1024 + k`. -/
theorem pay31_apply (v6 : IVec S256 32) (v212 : FVec Ideal S256x128 .f32) (v275 : Vec Ideal S1024x128 .f32)
    (k : Fin 1024) (j : Fin 128) :
    Gen.k1_pay31 v6 v212 v275 (ValueIdx.ix2 k j) = v275 (ValueIdx.ix2 k j) + ∑ r : Fin 256,
      (if (v6 (ValueIdx.ix1 r)).toNat = (6 : Fin 10).val * 1024 + k.val then (1 : EReal) else 0) * v212 (ValueIdx.ix2 r j) := by
  unfold Gen.k1_pay31
  exact scatter_core Gen.dot_S256x1024_S256x128_S1024x128_0_0_1_1_n_n_wf Gen.shapeCasts_S1024x128_S1024x128 6 v6 v212 v275 k j

/-- The scatter's step into chunk 7, at `(k, j)`: the chunk's entry as loaded plus the messages of the tile's rows
    whose word is `7*1024 + k`. -/
theorem pay32_apply (v6 : IVec S256 32) (v212 : FVec Ideal S256x128 .f32) (v275 : Vec Ideal S1024x128 .f32)
    (k : Fin 1024) (j : Fin 128) :
    Gen.k1_pay32 v6 v212 v275 (ValueIdx.ix2 k j) = v275 (ValueIdx.ix2 k j) + ∑ r : Fin 256,
      (if (v6 (ValueIdx.ix1 r)).toNat = (7 : Fin 10).val * 1024 + k.val then (1 : EReal) else 0) * v212 (ValueIdx.ix2 r j) := by
  unfold Gen.k1_pay32
  exact scatter_core Gen.dot_S256x1024_S256x128_S1024x128_0_0_1_1_n_n_wf Gen.shapeCasts_S1024x128_S1024x128 7 v6 v212 v275 k j

/-- The scatter's step into chunk 8, at `(k, j)`: the chunk's entry as loaded plus the messages of the tile's rows
    whose word is `8*1024 + k`. -/
theorem pay33_apply (v6 : IVec S256 32) (v212 : FVec Ideal S256x128 .f32) (v275 : Vec Ideal S1024x128 .f32)
    (k : Fin 1024) (j : Fin 128) :
    Gen.k1_pay33 v6 v212 v275 (ValueIdx.ix2 k j) = v275 (ValueIdx.ix2 k j) + ∑ r : Fin 256,
      (if (v6 (ValueIdx.ix1 r)).toNat = (8 : Fin 10).val * 1024 + k.val then (1 : EReal) else 0) * v212 (ValueIdx.ix2 r j) := by
  unfold Gen.k1_pay33
  exact scatter_core Gen.dot_S256x1024_S256x128_S1024x128_0_0_1_1_n_n_wf Gen.shapeCasts_S1024x128_S1024x128 8 v6 v212 v275 k j

/-- The scatter's step into chunk 9, at `(k, j)`: the chunk's entry as loaded plus the messages of the tile's rows
    whose word is `9*1024 + k`. -/
theorem pay34_apply (v6 : IVec S256 32) (v212 : FVec Ideal S256x128 .f32) (v275 : Vec Ideal S1024x128 .f32)
    (k : Fin 1024) (j : Fin 128) :
    Gen.k1_pay34 v6 v212 v275 (ValueIdx.ix2 k j) = v275 (ValueIdx.ix2 k j) + ∑ r : Fin 256,
      (if (v6 (ValueIdx.ix1 r)).toNat = (9 : Fin 10).val * 1024 + k.val then (1 : EReal) else 0) * v212 (ValueIdx.ix2 r j) := by
  unfold Gen.k1_pay34
  exact scatter_core Gen.dot_S256x1024_S256x128_S1024x128_0_0_1_1_n_n_wf Gen.shapeCasts_S1024x128_S1024x128 9 v6 v212 v275 k j

/-! ## The perceptron -/

/-- The first layer's parameters as the tile body reads them: three weight matrices, and three bias rows each laid out
    as a `[1, 128]` array. -/
def kWeights1 (W0 : Vec Ideal S256x128 .f32) (b0 : Vec Ideal S1x128 .f32) (W1 : Vec Ideal S128x128 .f32)
    (b1 : Vec Ideal S1x128 .f32) (W2 : Vec Ideal S128x128 .f32) (b2 : Vec Ideal S1x128 .f32) : Spec.Weights 128 128 where
  W0 := fun l h => W0 (ValueIdx.ix2 l h)
  b0 := fun h => b0 (ValueIdx.ix2 (0 : Fin 1) h)
  W1 := fun l h => W1 (ValueIdx.ix2 l h)
  b1 := fun h => b1 (ValueIdx.ix2 (0 : Fin 1) h)
  W2 := fun l h => W2 (ValueIdx.ix2 l h)
  b2 := fun h => b2 (ValueIdx.ix2 (0 : Fin 1) h)

/-- Row `r` of the feature matrix (the target's row, then source minus target, side by side) is the feature vector of
    the two rows. -/
theorem feats_entry (xi xj : FVec Ideal S256x128 .f32) (r : Fin 256) (l : Fin (128 + 128)) :
    concatenate S256x256 1 [⟨S256x128, xi⟩, ⟨S256x128, subf xj xi⟩] Gen.concatenates_S256x128_S256x128_S256x256_d1 (ValueIdx.ix2 r l)
      = Spec.feats (fun j => xi (ValueIdx.ix2 r j)) (fun j => xj (ValueIdx.ix2 r j)) l := by
  unfold Spec.feats
  refine Fin.addCases (fun a => ?_) (fun a => ?_) l
  · rw [Fin.append_left]
    refine concatenate_pair_apply_left (t := S256x256) 1 xi (subf xj xi) _ _ rfl (ValueIdx.ix2 r a) fun b => ?_
    match b with
    | ⟨0, _⟩ => rfl
    | ⟨1, _⟩ => rfl
  · rw [Fin.append_right]
    refine (concatenate_pair_apply_right (t := S256x256) 1 xi (subf xj xi) _ _ rfl rfl (ValueIdx.ix2 r a)
      (fun b hb => ?_) ?_).trans ?_
    · match b with
      | ⟨0, _⟩ => rfl
      | ⟨1, _⟩ => exact absurd rfl hb
    · exact Nat.add_comm _ _
    · rfl

/-- An affine layer on 256 rows, of any input width `K` and output width `N`: the product with a `K × N` matrix into a
    zero accumulator, plus a bias row repeated down the rows, read at `(r, h)`. -/
theorem dense_apply {K N : ℕ} (w : DotDims.WF ⟨2, ![256, K]⟩ ⟨2, ![K, N]⟩ ⟨2, ![256, N]⟩ [1] [0] [0] [1] [] [])
    (h1 : (⟨2, ![1, N]⟩ : Shape).ShapeCasts ⟨2, ![1, N]⟩) (hb : (⟨2, ![1, N]⟩ : Shape).Broadcasts ⟨2, ![256, N]⟩)
    (A : FVec Ideal ⟨2, ![256, K]⟩ .f32) (W : FVec Ideal ⟨2, ![K, N]⟩ .f32) (b : FVec Ideal ⟨2, ![1, N]⟩ .f32)
    (r : Fin 256) (h : Fin N) :
    addf (matmul (⟨[1], [0], [0], [1], [], [], w⟩ : DotDims _ _ _) none A W
          (constant (F := Ideal) ⟨2, ![256, N]⟩ .f32 0x00000000#32))
        (broadcastTo ⟨2, ![256, N]⟩ (shapeCast ⟨2, ![1, N]⟩ b h1) hb) (ValueIdx.ix2 r h)
      = (∑ l : Fin K, A (ValueIdx.ix2 r l) * W (ValueIdx.ix2 l h)) + b (ValueIdx.ix2 (0 : Fin 1) h) := by
  rw [addf_apply, shapeCast_self, broadcastTo_1b_ab_apply]
  refine congrArg (fun z => z + b (ValueIdx.ix2 (0 : Fin 1) h)) ?_
  exact DenseLayer.matmul_rows_apply w none A W r h

/-- The first affine layer of the tile, before the rectifier, at `(r, h)`. -/
theorem pay23_apply (v133 : FVec Ideal S256x128 .f32) (v188 : Vec Ideal S256x128 .f32) (v191 : Vec Ideal S256x128 .f32)
    (v193 : Vec Ideal S1x128 .f32) (r : Fin 256) (h : Fin 128) :
    Gen.k1_pay23 v133 v188 v191 v193 (ValueIdx.ix2 r h)
      = (∑ l : Fin (128 + 128), Spec.feats (fun j => v188 (ValueIdx.ix2 r j)) (fun j => v133 (ValueIdx.ix2 r j)) l * v191 (ValueIdx.ix2 l h))
        + v193 (ValueIdx.ix2 (0 : Fin 1) h) := by
  unfold Gen.k1_pay23
  refine (dense_apply Gen.dot_S256x256_S256x128_S256x128_1_0_0_1_n_n_wf Gen.shapeCasts_S1x128_S1x128
    Gen.broadcasts_S1x128_S256x128 _ v191 v193 r h).trans ?_
  refine congrArg (fun z => z + v193 (ValueIdx.ix2 (0 : Fin 1) h)) ?_
  refine Finset.sum_congr rfl fun l _ => ?_
  exact congrArg (fun z => z * v191 (ValueIdx.ix2 l h)) (feats_entry v188 v133 r l)

/-- The rest of the perceptron — rectifier, second affine layer, rectifier, third affine layer — at `(r, j)`, over the
    first layer's values `v196`; `cst_57` is the word the first rectifier compares with. -/
theorem pay24_apply (v196 : FVec Ideal S256x128 .f32) (cst_57 : Ideal .f32) (v199 : Vec Ideal S128x128 .f32)
    (v201 : Vec Ideal S1x128 .f32) (v207 : Vec Ideal S128x128 .f32) (v209 : Vec Ideal S1x128 .f32)
    (r : Fin 256) (j : Fin 128) :
    Gen.k1_pay24 v196 cst_57 v199 v201 v207 v209 (ValueIdx.ix2 r j)
      = (∑ k : Fin 128,
            max ((∑ l : Fin 128, max (v196 (ValueIdx.ix2 r l)) cst_57 * v199 (ValueIdx.ix2 l k)) + v201 (ValueIdx.ix2 (0 : Fin 1) k)) 0
              * v207 (ValueIdx.ix2 k j))
        + v209 (ValueIdx.ix2 (0 : Fin 1) j) := by
  unfold Gen.k1_pay24
  refine (dense_apply Gen.dot_S256x128_S128x128_S256x128_1_0_0_1_n_n_wf Gen.shapeCasts_S1x128_S1x128
    Gen.broadcasts_S1x128_S256x128 _ v207 v209 r j).trans ?_
  refine congrArg (fun z => z + v209 (ValueIdx.ix2 (0 : Fin 1) j)) ?_
  refine Finset.sum_congr rfl fun k _ => ?_
  refine congrArg (fun z => z * v207 (ValueIdx.ix2 k j)) ?_
  rw [maximumf_apply, broadcast_apply]
  refine congrArg₂ max ?_ Ideal.ofBits_zero_f32
  refine (dense_apply Gen.dot_S256x128_S128x128_S256x128_1_0_0_1_n_n_wf Gen.shapeCasts_S1x128_S1x128
    Gen.broadcasts_S1x128_S256x128 _ v199 v201 r k).trans ?_
  refine congrArg (fun z => z + v201 (ValueIdx.ix2 (0 : Fin 1) k)) ?_
  refine Finset.sum_congr rfl fun l _ => ?_
  rfl

/-- The zero word is the number zero. -/
theorem cst57_zero : (Scalar.ofBits .f32 0x00000000#32 : Ideal .f32) = 0 := Ideal.ofBits_zero_f32

/-- The tile's messages: row `r` of the composed payloads is the perceptron of the feature vector of row `r` of the
    two picked blocks (`xi` the targets' rows, `xj` the sources' rows). -/
theorem messages_apply (xj : FVec Ideal S256x128 .f32) (xi : Vec Ideal S256x128 .f32) (W0 : Vec Ideal S256x128 .f32)
    (b0 : Vec Ideal S1x128 .f32) (cst_57 : Ideal .f32) (hc : cst_57 = 0) (W1 : Vec Ideal S128x128 .f32)
    (b1 : Vec Ideal S1x128 .f32) (W2 : Vec Ideal S128x128 .f32) (b2 : Vec Ideal S1x128 .f32) (r : Fin 256) (j : Fin 128) :
    Gen.k1_pay24 (Gen.k1_pay23 xj xi W0 b0) cst_57 W1 b1 W2 b2 (ValueIdx.ix2 r j)
      = Spec.mlp (kWeights1 W0 b0 W1 b1 W2 b2) (Spec.feats (fun j => xi (ValueIdx.ix2 r j)) (fun j => xj (ValueIdx.ix2 r j))) j := by
  rw [pay24_apply, hc]
  unfold Spec.mlp Spec.relu kWeights1
  refine congrArg (fun z => z + b2 (ValueIdx.ix2 (0 : Fin 1) j)) ?_
  refine Finset.sum_congr rfl fun k _ => ?_
  refine congrArg (fun z => max z 0 * W2 (ValueIdx.ix2 k j)) ?_
  refine congrArg (fun z => z + b1 (ValueIdx.ix2 (0 : Fin 1) k)) ?_
  refine Finset.sum_congr rfl fun l _ => ?_
  refine congrArg (fun z => max z 0 * W1 (ValueIdx.ix2 l k)) ?_
  exact pay23_apply xj xi W0 b0 r l

/-- The same over named intermediate values: whenever `v196` is the first affine layer of the two blocks and the
    first rectifier's word is zero, the second payload at `(r, j)` is the perceptron of row `r`'s feature vector. -/
theorem messages_apply_of (xj : FVec Ideal S256x128 .f32) (xi : Vec Ideal S256x128 .f32) (W0 : Vec Ideal S256x128 .f32)
    (b0 : Vec Ideal S1x128 .f32) (v196 : FVec Ideal S256x128 .f32) (h196 : v196 = Gen.k1_pay23 xj xi W0 b0)
    (cst_57 : Ideal .f32) (hc : cst_57 = 0) (W1 : Vec Ideal S128x128 .f32)
    (b1 : Vec Ideal S1x128 .f32) (W2 : Vec Ideal S128x128 .f32) (b2 : Vec Ideal S1x128 .f32) (r : Fin 256) (j : Fin 128) :
    Gen.k1_pay24 v196 cst_57 W1 b1 W2 b2 (ValueIdx.ix2 r j)
      = Spec.mlp (kWeights1 W0 b0 W1 b1 W2 b2) (Spec.feats (fun j => xi (ValueIdx.ix2 r j)) (fun j => xj (ValueIdx.ix2 r j))) j := by
  subst h196
  exact messages_apply xj xi W0 b0 cst_57 hc W1 b1 W2 b2 r j

/-- The layer's parameters as the tile body reads them are the parameters read off the six arrays, the bias rows being
    the one-axis arrays laid out as one row. -/
theorem kWeights1_eq (W0 : Vec Ideal S256x128 .f32) (b0 : Vec Ideal S1x128 .f32) (W1 : Vec Ideal S128x128 .f32)
    (b1 : Vec Ideal S1x128 .f32) (W2 : Vec Ideal S128x128 .f32) (b2 : Vec Ideal S1x128 .f32)
    (c0 c1 c2 : FVec Ideal (⟨1, ![128]⟩ : Shape) .f32)
    (h0 : ∀ h : Fin 128, b0 (ValueIdx.ix2 (0 : Fin 1) h) = c0 (ValueIdx.ix1 h))
    (h1 : ∀ h : Fin 128, b1 (ValueIdx.ix2 (0 : Fin 1) h) = c1 (ValueIdx.ix1 h))
    (h2 : ∀ h : Fin 128, b2 (ValueIdx.ix2 (0 : Fin 1) h) = c2 (ValueIdx.ix1 h)) :
    kWeights1 W0 b0 W1 b1 W2 b2 = Spec.weightsOf W0 c0 W1 c1 W2 c2 := by
  unfold kWeights1 Spec.weightsOf Spec.matOf Spec.rowOf
  congr 1
  · exact funext h0
  · exact funext h1
  · exact funext h2

end Cert.KernelIdeal.PayI1

end
-- ==== Proof.HandedI1.lean ====
import proofs.«414286_j65627100283289_3_alg».proof.Proof.ValueCommon
import proofs.«414286_j65627100283289_3_alg».proof.Proof.PayMlpI1

/-!
# What region 1 is handed

The second kernel region's eleven operand arrays as values — the two prefetched tables, the two sorted columns, the
padded node table, the three weight blocks and the three bias rows —, the layer's parameters and input they carry, and
the facts about them the tile arithmetic consumes: the columns at an edge of a tile, the chunk gate on the tile's chunk
range, the node table on the real rows, the parameters. The region's own analysis speaks of these values only.
-/

set_option maxRecDepth 4096

noncomputable section

namespace Cert.KernelIdeal.KHost

open Idealize.ShloMosaic Idealize.ShloMosaic.TcCoe
open Idealize.SL.Sem
open Cert.KernelIdeal Cert.KernelIdeal.Gen
open Cert.Spec

section Handed1

/-- The buffers' contents when the region is entered. -/
abbrev ent1 (m : (ℓ : Loc nD τ sig) → Buf (Elt Ideal) ℓ) (outs : Gen.Outs (F := Ideal)) :
    (c : Dev nD) → (b : Ref sig .tc) → Buf (Elt Ideal) ((c : Thread nD τ).loc b) := fun c b => V11 m outs c b

/-- The two tables' contents as the region prefetches them. -/
def tbl1 (m : (ℓ : Loc nD τ sig) → Buf (Elt Ideal) ℓ) (outs : Gen.Outs (F := Ideal)) (c : Dev nD) : (pcfg1 (F := Ideal)).Adm :=
  ⟨fun k => V11 m outs c (pre1.ref k), trivial⟩

/-- The two prefetched tables. -/
abbrev opLo1 (m : (ℓ : Loc nD τ sig) → Buf (Elt Ideal) ℓ) (outs : Gen.Outs (F := Ideal)) (c : Dev nD) : Vec Ideal S1250 .i32 := V11 m outs c main_v31
abbrev opHi1 (m : (ℓ : Loc nD τ sig) → Buf (Elt Ideal) ℓ) (outs : Gen.Outs (F := Ideal)) (c : Dev nD) : Vec Ideal S1250 .i32 := V11 m outs c main_v39
/-- The sorted sources' and targets' columns. -/
abbrev opSrc1 (m : (ℓ : Loc nD τ sig) → Buf (Elt Ideal) ℓ) (outs : Gen.Outs (F := Ideal)) (c : Dev nD) : Vec Ideal S320000x1 .i32 := V11 m outs c main_v40
abbrev opDst1 (m : (ℓ : Loc nD τ sig) → Buf (Elt Ideal) ℓ) (outs : Gen.Outs (F := Ideal)) (c : Dev nD) : Vec Ideal S320000x1 .i32 := V11 m outs c main_v41
/-- The padded node table. -/
abbrev opX1 (m : (ℓ : Loc nD τ sig) → Buf (Elt Ideal) ℓ) (outs : Gen.Outs (F := Ideal)) (c : Dev nD) : Vec Ideal S10240x128 .f32 := V11 m outs c main_v52
/-- The three weight blocks and the three bias rows. -/
abbrev opWa1 (m : (ℓ : Loc nD τ sig) → Buf (Elt Ideal) ℓ) (outs : Gen.Outs (F := Ideal)) (c : Dev nD) : Vec Ideal S256x128 .f32 := V11 m outs c main_arg10
abbrev opBa1 (m : (ℓ : Loc nD τ sig) → Buf (Elt Ideal) ℓ) (outs : Gen.Outs (F := Ideal)) (c : Dev nD) : Vec Ideal S1x128 .f32 := V11 m outs c main_v49
abbrev opWb1 (m : (ℓ : Loc nD τ sig) → Buf (Elt Ideal) ℓ) (outs : Gen.Outs (F := Ideal)) (c : Dev nD) : Vec Ideal S128x128 .f32 := V11 m outs c main_arg12
abbrev opBb1 (m : (ℓ : Loc nD τ sig) → Buf (Elt Ideal) ℓ) (outs : Gen.Outs (F := Ideal)) (c : Dev nD) : Vec Ideal S1x128 .f32 := V11 m outs c main_v50
abbrev opWc1 (m : (ℓ : Loc nD τ sig) → Buf (Elt Ideal) ℓ) (outs : Gen.Outs (F := Ideal)) (c : Dev nD) : Vec Ideal S128x128 .f32 := V11 m outs c main_arg14
abbrev opBc1 (m : (ℓ : Loc nD τ sig) → Buf (Elt Ideal) ℓ) (outs : Gen.Outs (F := Ideal)) (c : Dev nD) : Vec Ideal S1x128 .f32 := V11 m outs c main_v51

/-- The layer's parameters and its input. -/
abbrev layerP1 (m : (ℓ : Loc nD τ sig) → Buf (Elt Ideal) ℓ) (outs : Gen.Outs (F := Ideal)) (c : Dev nD) : Weights 128 128 := par1 m c
abbrev layerX1 (m : (ℓ : Loc nD τ sig) → Buf (Elt Ideal) ℓ) (outs : Gen.Outs (F := Ideal)) (c : Dev nD) : Mat 10000 128 := inp1 m outs c

variable (m : (ℓ : Loc nD τ sig) → Buf (Elt Ideal) ℓ) (outs : Gen.Outs (F := Ideal)) (c : Dev nD)
variable (h : InRange (m ((c : Thread nD τ).loc main_arg2)))

theorem handed1_dst (T : Fin 1250) (r : Fin 256) :
    (opDst1 m outs c (ValueIdx.ix2 (tileEdge T r) (0 : Fin 1))).toNat = keyOf m c h (tileEdge T r) :=
  (congrArg (fun v : Vec Ideal S320000x1 .i32 => (v (ValueIdx.ix2 (tileEdge T r) (0 : Fin 1))).toNat) (V11_main_v41 m outs c)).trans
    (along_dst m c h T r)

theorem handed1_src (T : Fin 1250) (r : Fin 256) :
    (opSrc1 m outs c (ValueIdx.ix2 (tileEdge T r) (0 : Fin 1))).toNat = (srcAlong m c h (tileEdge T r)).val :=
  (congrArg (fun v : Vec Ideal S320000x1 .i32 => (v (ValueIdx.ix2 (tileEdge T r) (0 : Fin 1))).toNat) (V11_main_v40 m outs c)).trans
    (along_src m c h T r)

theorem handed1_gate (T : Fin 1250) :
    ∀ k : Fin 10, keyOf m c h (tileEdge T 0) / 1024 ≤ k.val → k.val ≤ keyOf m c h (tileEdge T 255) / 1024 →
      gateWord (opLo1 m outs c (ValueIdx.ix1 T)) (opHi1 m outs c (ValueIdx.ix1 T)) (BitVec.ofNat 32 k.val) = 1#1 := by
  have e1 : opLo1 m outs c = (V8 m c main_v31 : Vec Ideal S1250 .i32) := V11_main_v31 m outs c
  have e2 : opHi1 m outs c = (V8 m c main_v39 : Vec Ideal S1250 .i32) := V11_main_v39 m outs c
  rw [e1, e2]
  exact along_gate m c h T

theorem handed1_x (v : Fin 10000) :
    (fun j : Fin 128 => opX1 m outs c (ValueIdx.ix2 (⟨v.val, Nat.lt_trans v.isLt (by norm_num)⟩ : Fin 10240) j)) = layerX1 m outs c v :=
  funext fun j => rfl

theorem handed1_P :
    PayI1.kWeights1 (opWa1 m outs c) (opBa1 m outs c) (opWb1 m outs c) (opBb1 m outs c) (opWc1 m outs c) (opBc1 m outs c)
      = layerP1 m outs c := by
  rw [PayI1.kWeights1_eq (opWa1 m outs c) (opBa1 m outs c) (opWb1 m outs c) (opBb1 m outs c) (opWc1 m outs c) (opBc1 m outs c)
    (m ((c : Thread nD τ).loc main_arg11)) (m ((c : Thread nD τ).loc main_arg13)) (m ((c : Thread nD τ).loc main_arg15))
    (V11_main_v49_apply m outs c) (V11_main_v50_apply m outs c) (V11_main_v51_apply m outs c)]
  show weightsOf (d := 128) (o := 128) (V11 m outs c main_arg10) _ (V11 m outs c main_arg12) _ (V11 m outs c main_arg14) _ = _
  rw [V11_main_arg10, V11_main_arg12, V11_main_arg14]

end Handed1

end Cert.KernelIdeal.KHost

end
-- ==== Proof.GeomI1.lean ====
import proofs.«414286_j65627100283289_3_alg».proof.Proof.Gen.KernelIdeal.Launch
import proofs.«414286_j65627100283289_3_alg».proof.Proof.Gen.KernelIdeal.Skeleton
import Idealize.ShloMosaic.Lib.Pipeline.Value
import Idealize.ShloMosaic.Lib.Pipeline.Frame
import Idealize.ShloMosaic.Lib.ValueIdx

/-!
# Region 1's window geometry

The region's grid is 2 × 625: point `t` is tile `t % 625` of core `t / 625`. Ten windows: the tile's two index
columns (blocks of 256 rows, the block at point `t` being block `t`), the padded node table and the six parameter
arrays (each one block, the whole array), and the output (one block per core). None of the index maps reads the
prefetched tables, so every fact here holds at any admissible contents `a` of them. The facts: each window's block
index at a point; when a block is fetched or written back and where the output's staging buffer is left alone; which
array element a block's element is; which array indices the output's block at a point holds, and that the blocks
written back hold every index.
-/

noncomputable section

namespace Cert.KernelIdeal.Gen

open Idealize.ShloMosaic Idealize.ShloMosaic.TcCoe

variable {F : FTy → Type} [FloatOps F]

/-! ## 1. The schedule: block indices, fetches, write-backs, idle points -/

/-- The grid has 1250 points; point `t` is core `t / 625`, tile `t % 625`. -/
theorem coords1_0 : ∀ t : Fin grid1.N, ((grid1.coords t) 0).val = t.val / 625 := (by decide +kernel : ∀ t : Fin grid1.N, _)
theorem coords1_1 : ∀ t : Fin grid1.N, ((grid1.coords t) 1).val = t.val % 625 := (by decide +kernel : ∀ t : Fin grid1.N, _)

theorem lt_N1 (a : (pcfg1 (F := F)).Adm) (t : Fin (cfg1 a).N) : t.val < 1250 := by
  have h : t.val < grid1.N := t.isLt
  rwa [N_1] at h

/-- Each window's block index at a point is its printed index map at the point's coordinates, whatever the tables hold. -/
theorem index1_0 (a : (pcfg1 (F := F)).Adm) (t : Fin (cfg1 a).N) : ((cfg1 a).win 0).index t = cc1_transform_0 (grid1.coords t) := rfl
theorem index1_1 (a : (pcfg1 (F := F)).Adm) (t : Fin (cfg1 a).N) : ((cfg1 a).win 1).index t = cc1_transform_1 (grid1.coords t) := rfl
theorem index1_2 (a : (pcfg1 (F := F)).Adm) (t : Fin (cfg1 a).N) : ((cfg1 a).win 2).index t = cc1_transform_2 (grid1.coords t) := rfl
theorem index1_3 (a : (pcfg1 (F := F)).Adm) (t : Fin (cfg1 a).N) : ((cfg1 a).win 3).index t = cc1_transform_3 (grid1.coords t) := rfl
theorem index1_4 (a : (pcfg1 (F := F)).Adm) (t : Fin (cfg1 a).N) : ((cfg1 a).win 4).index t = cc1_transform_4 (grid1.coords t) := rfl
theorem index1_5 (a : (pcfg1 (F := F)).Adm) (t : Fin (cfg1 a).N) : ((cfg1 a).win 5).index t = cc1_transform_5 (grid1.coords t) := rfl
theorem index1_6 (a : (pcfg1 (F := F)).Adm) (t : Fin (cfg1 a).N) : ((cfg1 a).win 6).index t = cc1_transform_6 (grid1.coords t) := rfl
theorem index1_7 (a : (pcfg1 (F := F)).Adm) (t : Fin (cfg1 a).N) : ((cfg1 a).win 7).index t = cc1_transform_7 (grid1.coords t) := rfl
theorem index1_8 (a : (pcfg1 (F := F)).Adm) (t : Fin (cfg1 a).N) : ((cfg1 a).win 8).index t = cc1_transform_8 (grid1.coords t) := rfl
theorem index1_9 (a : (pcfg1 (F := F)).Adm) (t : Fin (cfg1 a).N) : ((cfg1 a).win 9).index t = cc1_transform_9 (grid1.coords t) := rfl

/-- The printed index maps in closed form at every grid point: the two index columns' block is the point's own
    number, the whole-array windows sit at block zero, the output's block is the core's. -/
theorem cc1_transform_0_eq : ∀ t : Fin grid1.N, cc1_transform_0 (grid1.coords t) = ![t.val, 0] := (by decide +kernel : ∀ t : Fin grid1.N, _)
theorem cc1_transform_1_eq : ∀ t : Fin grid1.N, cc1_transform_1 (grid1.coords t) = ![t.val, 0] := (by decide +kernel : ∀ t : Fin grid1.N, _)
theorem cc1_transform_2_eq : ∀ t : Fin grid1.N, cc1_transform_2 (grid1.coords t) = ![0, 0] := (by decide +kernel : ∀ t : Fin grid1.N, _)
theorem cc1_transform_3_eq : ∀ t : Fin grid1.N, cc1_transform_3 (grid1.coords t) = ![0, 0] := (by decide +kernel : ∀ t : Fin grid1.N, _)
theorem cc1_transform_4_eq : ∀ t : Fin grid1.N, cc1_transform_4 (grid1.coords t) = ![0, 0] := (by decide +kernel : ∀ t : Fin grid1.N, _)
theorem cc1_transform_5_eq : ∀ t : Fin grid1.N, cc1_transform_5 (grid1.coords t) = ![0, 0] := (by decide +kernel : ∀ t : Fin grid1.N, _)
theorem cc1_transform_6_eq : ∀ t : Fin grid1.N, cc1_transform_6 (grid1.coords t) = ![0, 0] := (by decide +kernel : ∀ t : Fin grid1.N, _)
theorem cc1_transform_7_eq : ∀ t : Fin grid1.N, cc1_transform_7 (grid1.coords t) = ![0, 0] := (by decide +kernel : ∀ t : Fin grid1.N, _)
theorem cc1_transform_8_eq : ∀ t : Fin grid1.N, cc1_transform_8 (grid1.coords t) = ![0, 0] := (by decide +kernel : ∀ t : Fin grid1.N, _)
theorem cc1_transform_9_eq : ∀ t : Fin grid1.N, cc1_transform_9 (grid1.coords t) = ![t.val / 625, 0, 0] := (by decide +kernel : ∀ t : Fin grid1.N, _)

/-- The schedules of the closed index maps at every grid point. -/
theorem fetchOf1_0 : ∀ t : Fin grid1.N, Pipeline.Window.fetchOf grid1 false cc1_transform_0 t = true := (by decide +kernel : ∀ t : Fin grid1.N, _)
theorem fetchOf1_1 : ∀ t : Fin grid1.N, Pipeline.Window.fetchOf grid1 false cc1_transform_1 t = true := (by decide +kernel : ∀ t : Fin grid1.N, _)
theorem fetchOf1_2 : ∀ t : Fin grid1.N, Pipeline.Window.fetchOf grid1 false cc1_transform_2 t = decide (t.val = 0) := (by decide +kernel : ∀ t : Fin grid1.N, _)
theorem fetchOf1_3 : ∀ t : Fin grid1.N, Pipeline.Window.fetchOf grid1 false cc1_transform_3 t = decide (t.val = 0) := (by decide +kernel : ∀ t : Fin grid1.N, _)
theorem fetchOf1_4 : ∀ t : Fin grid1.N, Pipeline.Window.fetchOf grid1 false cc1_transform_4 t = decide (t.val = 0) := (by decide +kernel : ∀ t : Fin grid1.N, _)
theorem fetchOf1_5 : ∀ t : Fin grid1.N, Pipeline.Window.fetchOf grid1 false cc1_transform_5 t = decide (t.val = 0) := (by decide +kernel : ∀ t : Fin grid1.N, _)
theorem fetchOf1_6 : ∀ t : Fin grid1.N, Pipeline.Window.fetchOf grid1 false cc1_transform_6 t = decide (t.val = 0) := (by decide +kernel : ∀ t : Fin grid1.N, _)
theorem fetchOf1_7 : ∀ t : Fin grid1.N, Pipeline.Window.fetchOf grid1 false cc1_transform_7 t = decide (t.val = 0) := (by decide +kernel : ∀ t : Fin grid1.N, _)
theorem fetchOf1_8 : ∀ t : Fin grid1.N, Pipeline.Window.fetchOf grid1 false cc1_transform_8 t = decide (t.val = 0) := (by decide +kernel : ∀ t : Fin grid1.N, _)
theorem flushOf1_9 : ∀ t : Fin grid1.N, Pipeline.Window.flushOf grid1 true cc1_transform_9 t = (decide (t.val = 624) || decide (t.val = 1249)) :=
  (by decide +kernel : ∀ t : Fin grid1.N, _)

/-- The two index columns are fetched at every point. -/
theorem fetch1_0 (a : (pcfg1 (F := F)).Adm) (t : Fin (cfg1 a).N) : ((cfg1 a).win 0).fetch t = true := fetchOf1_0 t
theorem fetch1_1 (a : (pcfg1 (F := F)).Adm) (t : Fin (cfg1 a).N) : ((cfg1 a).win 1).fetch t = true := fetchOf1_1 t

/-- The whole-array windows are fetched at the first point only. -/
theorem fetch1_2 (a : (pcfg1 (F := F)).Adm) (t : Fin (cfg1 a).N) : ((cfg1 a).win 2).fetch t = decide (t.val = 0) := fetchOf1_2 t
theorem fetch1_3 (a : (pcfg1 (F := F)).Adm) (t : Fin (cfg1 a).N) : ((cfg1 a).win 3).fetch t = decide (t.val = 0) := fetchOf1_3 t
theorem fetch1_4 (a : (pcfg1 (F := F)).Adm) (t : Fin (cfg1 a).N) : ((cfg1 a).win 4).fetch t = decide (t.val = 0) := fetchOf1_4 t
theorem fetch1_5 (a : (pcfg1 (F := F)).Adm) (t : Fin (cfg1 a).N) : ((cfg1 a).win 5).fetch t = decide (t.val = 0) := fetchOf1_5 t
theorem fetch1_6 (a : (pcfg1 (F := F)).Adm) (t : Fin (cfg1 a).N) : ((cfg1 a).win 6).fetch t = decide (t.val = 0) := fetchOf1_6 t
theorem fetch1_7 (a : (pcfg1 (F := F)).Adm) (t : Fin (cfg1 a).N) : ((cfg1 a).win 7).fetch t = decide (t.val = 0) := fetchOf1_7 t
theorem fetch1_8 (a : (pcfg1 (F := F)).Adm) (t : Fin (cfg1 a).N) : ((cfg1 a).win 8).fetch t = decide (t.val = 0) := fetchOf1_8 t
/-- The output is never fetched, the inputs never written back. -/
theorem fetch1_9 (a : (pcfg1 (F := F)).Adm) (t : Fin (cfg1 a).N) : ((cfg1 a).win 9).fetch t = false := rfl
theorem flush1_in (a : (pcfg1 (F := F)).Adm) (w : Fin 10) (hw : w ≠ 9) (t : Fin (cfg1 a).N) : ((cfg1 a).win w).flush t = false := by
  match w, hw with
  | 0, _ => rfl | 1, _ => rfl | 2, _ => rfl | 3, _ => rfl | 4, _ => rfl | 5, _ => rfl | 6, _ => rfl | 7, _ => rfl | 8, _ => rfl
  | 9, h => exact absurd rfl h

/-- The output is written back at each core's last tile and nowhere else. -/
theorem flush1_9_eq (a : (pcfg1 (F := F)).Adm) (t : Fin (cfg1 a).N) :
    ((cfg1 a).win 9).flush t = (decide (t.val = 624) || decide (t.val = 1249)) := flushOf1_9 t

theorem flush1_9 (a : (pcfg1 (F := F)).Adm) (t : Fin (cfg1 a).N) : ((cfg1 a).win 9).flush t = true ↔ t.val = 624 ∨ t.val = 1249 := by
  rw [flush1_9_eq a t]
  simp

theorem flush1_9_iff_mod (a : (pcfg1 (F := F)).Adm) (t : Fin (cfg1 a).N) : ((cfg1 a).win 9).flush t = true ↔ t.val % 625 = 624 := by
  rw [flush1_9 a t]
  have := lt_N1 a t
  omega

/-- The body's store condition holds exactly at a core's last tile. -/
theorem k1_cond22_dec : ∀ t : Fin grid1.N, decide (k1_cond22 (grid1.coords t) = 1#1) = decide (t.val % 625 = 624) :=
  (by decide +kernel : ∀ t : Fin grid1.N, _)

theorem k1_cond22_iff (t : Fin grid1.N) : k1_cond22 (grid1.coords t) = 1#1 ↔ t.val % 625 = 624 := by
  have h := k1_cond22_dec t
  simpa using h

theorem k1_cond22_eq_one (t : Fin grid1.N) (h : t.val % 625 = 624) : k1_cond22 (grid1.coords t) = 1#1 := (k1_cond22_iff t).mpr h
theorem k1_cond22_ne_one (t : Fin grid1.N) (h : t.val % 625 ≠ 624) : ¬ k1_cond22 (grid1.coords t) = 1#1 := fun e => h ((k1_cond22_iff t).mp e)

/-- The output window is idle (its staging buffer not stored into) at every point but a core's last tile. -/
theorem idle1_9_dec : ∀ t : Fin grid1.N, idle1 9 (grid1.coords t) = !decide (t.val % 625 = 624) :=
  (by decide +kernel : ∀ t : Fin grid1.N, _)

theorem idle1_9_eq (a : (pcfg1 (F := F)).Adm) (t : Fin (cfg1 a).N) : (cfg1 a).idle 9 (grid1.coords t) = !decide (t.val % 625 = 624) :=
  idle1_9_dec t

theorem idle1_9 (a : (pcfg1 (F := F)).Adm) (t : Fin (cfg1 a).N) : (cfg1 a).idle 9 (grid1.coords t) = true ↔ t.val % 625 ≠ 624 := by
  rw [idle1_9_eq a t]
  simp

/-- No input window is ever idle. -/
theorem idle1_in (a : (pcfg1 (F := F)).Adm) (w : Fin 10) (hw : w ≠ 9) (i : grid1.Coords) : (cfg1 a).idle w i = false := by
  match w, hw with
  | 0, _ => rfl | 1, _ => rfl | 2, _ => rfl | 3, _ => rfl | 4, _ => rfl | 5, _ => rfl | 6, _ => rfl | 7, _ => rfl | 8, _ => rfl
  | 9, h => exact absurd rfl h

/-! ## 2. Which array element a block's element is

On each axis an element of the block at point `t` sits in the array at the block index times the block's size plus its
own coordinate. -/

/-- The block indices, coordinate by coordinate. -/
theorem index1_0_val (a : (pcfg1 (F := F)).Adm) (t : Fin (cfg1 a).N) :
    ((cfg1 a).win 0).index t (0 : Fin 2) = t.val ∧ ((cfg1 a).win 0).index t (1 : Fin 2) = 0 := by
  rw [index1_0, cc1_transform_0_eq]; exact ⟨rfl, rfl⟩
theorem index1_1_val (a : (pcfg1 (F := F)).Adm) (t : Fin (cfg1 a).N) :
    ((cfg1 a).win 1).index t (0 : Fin 2) = t.val ∧ ((cfg1 a).win 1).index t (1 : Fin 2) = 0 := by
  rw [index1_1, cc1_transform_1_eq]; exact ⟨rfl, rfl⟩
theorem index1_2_val (a : (pcfg1 (F := F)).Adm) (t : Fin (cfg1 a).N) :
    ((cfg1 a).win 2).index t (0 : Fin 2) = 0 ∧ ((cfg1 a).win 2).index t (1 : Fin 2) = 0 := by
  rw [index1_2, cc1_transform_2_eq]; exact ⟨rfl, rfl⟩
theorem index1_3_val (a : (pcfg1 (F := F)).Adm) (t : Fin (cfg1 a).N) :
    ((cfg1 a).win 3).index t (0 : Fin 2) = 0 ∧ ((cfg1 a).win 3).index t (1 : Fin 2) = 0 := by
  rw [index1_3, cc1_transform_3_eq]; exact ⟨rfl, rfl⟩
theorem index1_4_val (a : (pcfg1 (F := F)).Adm) (t : Fin (cfg1 a).N) :
    ((cfg1 a).win 4).index t (0 : Fin 2) = 0 ∧ ((cfg1 a).win 4).index t (1 : Fin 2) = 0 := by
  rw [index1_4, cc1_transform_4_eq]; exact ⟨rfl, rfl⟩
theorem index1_5_val (a : (pcfg1 (F := F)).Adm) (t : Fin (cfg1 a).N) :
    ((cfg1 a).win 5).index t (0 : Fin 2) = 0 ∧ ((cfg1 a).win 5).index t (1 : Fin 2) = 0 := by
  rw [index1_5, cc1_transform_5_eq]; exact ⟨rfl, rfl⟩
theorem index1_6_val (a : (pcfg1 (F := F)).Adm) (t : Fin (cfg1 a).N) :
    ((cfg1 a).win 6).index t (0 : Fin 2) = 0 ∧ ((cfg1 a).win 6).index t (1 : Fin 2) = 0 := by
  rw [index1_6, cc1_transform_6_eq]; exact ⟨rfl, rfl⟩
theorem index1_7_val (a : (pcfg1 (F := F)).Adm) (t : Fin (cfg1 a).N) :
    ((cfg1 a).win 7).index t (0 : Fin 2) = 0 ∧ ((cfg1 a).win 7).index t (1 : Fin 2) = 0 := by
  rw [index1_7, cc1_transform_7_eq]; exact ⟨rfl, rfl⟩
theorem index1_8_val (a : (pcfg1 (F := F)).Adm) (t : Fin (cfg1 a).N) :
    ((cfg1 a).win 8).index t (0 : Fin 2) = 0 ∧ ((cfg1 a).win 8).index t (1 : Fin 2) = 0 := by
  rw [index1_8, cc1_transform_8_eq]; exact ⟨rfl, rfl⟩
theorem index1_9_val (a : (pcfg1 (F := F)).Adm) (t : Fin (cfg1 a).N) :
    ((cfg1 a).win 9).index t (0 : Fin 3) = t.val / 625 ∧ ((cfg1 a).win 9).index t (1 : Fin 3) = 0 ∧ ((cfg1 a).win 9).index t (2 : Fin 3) = 0 := by
  rw [index1_9, cc1_transform_9_eq]; exact ⟨rfl, rfl, rfl⟩

/-- Row `r` of the index-column block at point `t` is row `t * 256 + r` of the column: the tile number is the point's. -/
theorem blk1_read_0 (a : (pcfg1 (F := F)).Adm) (t : Fin (cfg1 a).N) (G : S320000x1.Idx → Elt F .i32) (r : Fin 256) :
    (((cfg1 a).win 0).blk t).view.read (Elt F) G (ValueIdx.ix2 r 0)
      = G (ValueIdx.ix2 ⟨t.val * 256 + r.val, by have := lt_N1 a t; omega⟩ 0) := by
  obtain ⟨e0, e1⟩ := index1_0_val a t
  show G ((((cfg1 a).win 0).blk t).view.emb (ValueIdx.ix2 r 0)) = _
  refine congrArg G ?_
  funext d; apply Fin.ext
  match d with
  | ⟨0, _⟩ => show ((cfg1 a).win 0).index t (0 : Fin 2) * 256 + 1 * r.val = t.val * 256 + r.val; omega
  | ⟨1, _⟩ => show ((cfg1 a).win 0).index t (1 : Fin 2) * 1 + 1 * 0 = 0; omega

theorem blk1_read_1 (a : (pcfg1 (F := F)).Adm) (t : Fin (cfg1 a).N) (G : S320000x1.Idx → Elt F .i32) (r : Fin 256) :
    (((cfg1 a).win 1).blk t).view.read (Elt F) G (ValueIdx.ix2 r 0)
      = G (ValueIdx.ix2 ⟨t.val * 256 + r.val, by have := lt_N1 a t; omega⟩ 0) := by
  obtain ⟨e0, e1⟩ := index1_1_val a t
  show G ((((cfg1 a).win 1).blk t).view.emb (ValueIdx.ix2 r 0)) = _
  refine congrArg G ?_
  funext d; apply Fin.ext
  match d with
  | ⟨0, _⟩ => show ((cfg1 a).win 1).index t (0 : Fin 2) * 256 + 1 * r.val = t.val * 256 + r.val; omega
  | ⟨1, _⟩ => show ((cfg1 a).win 1).index t (1 : Fin 2) * 1 + 1 * 0 = 0; omega

/-- A window whose block is its whole array reads the array as it is. -/
theorem blk1_read_2 (a : (pcfg1 (F := F)).Adm) (t : Fin (cfg1 a).N) (G : S10240x128.Idx → Elt F .f32) (y : S10240x128.Idx) :
    (((cfg1 a).win 2).blk t).view.read (Elt F) G y = G y := by
  obtain ⟨e0, e1⟩ := index1_2_val a t
  show G ((((cfg1 a).win 2).blk t).view.emb y) = _
  refine congrArg G ?_
  funext d; apply Fin.ext
  match d with
  | ⟨0, _⟩ => show ((cfg1 a).win 2).index t (0 : Fin 2) * S10240x128.size 0 + 1 * (y 0).val = (y 0).val; rw [e0]; omega
  | ⟨1, _⟩ => show ((cfg1 a).win 2).index t (1 : Fin 2) * S10240x128.size 1 + 1 * (y 1).val = (y 1).val; rw [e1]; omega

theorem blk1_read_2_fun (a : (pcfg1 (F := F)).Adm) (t : Fin (cfg1 a).N) (G : S10240x128.Idx → Elt F .f32) :
    (((cfg1 a).win 2).blk t).view.read (Elt F) G = G := funext (blk1_read_2 a t G)

theorem blk1_read_3 (a : (pcfg1 (F := F)).Adm) (t : Fin (cfg1 a).N) (G : S256x128.Idx → Elt F .f32) (y : S256x128.Idx) :
    (((cfg1 a).win 3).blk t).view.read (Elt F) G y = G y := by
  obtain ⟨e0, e1⟩ := index1_3_val a t
  show G ((((cfg1 a).win 3).blk t).view.emb y) = _
  refine congrArg G ?_
  funext d; apply Fin.ext
  match d with
  | ⟨0, _⟩ => show ((cfg1 a).win 3).index t (0 : Fin 2) * S256x128.size 0 + 1 * (y 0).val = (y 0).val; rw [e0]; omega
  | ⟨1, _⟩ => show ((cfg1 a).win 3).index t (1 : Fin 2) * S256x128.size 1 + 1 * (y 1).val = (y 1).val; rw [e1]; omega

theorem blk1_read_3_fun (a : (pcfg1 (F := F)).Adm) (t : Fin (cfg1 a).N) (G : S256x128.Idx → Elt F .f32) :
    (((cfg1 a).win 3).blk t).view.read (Elt F) G = G := funext (blk1_read_3 a t G)

theorem blk1_read_4 (a : (pcfg1 (F := F)).Adm) (t : Fin (cfg1 a).N) (G : S1x128.Idx → Elt F .f32) (y : S1x128.Idx) :
    (((cfg1 a).win 4).blk t).view.read (Elt F) G y = G y := by
  obtain ⟨e0, e1⟩ := index1_4_val a t
  show G ((((cfg1 a).win 4).blk t).view.emb y) = _
  refine congrArg G ?_
  funext d; apply Fin.ext
  match d with
  | ⟨0, _⟩ => show ((cfg1 a).win 4).index t (0 : Fin 2) * S1x128.size 0 + 1 * (y 0).val = (y 0).val; rw [e0]; omega
  | ⟨1, _⟩ => show ((cfg1 a).win 4).index t (1 : Fin 2) * S1x128.size 1 + 1 * (y 1).val = (y 1).val; rw [e1]; omega

theorem blk1_read_4_fun (a : (pcfg1 (F := F)).Adm) (t : Fin (cfg1 a).N) (G : S1x128.Idx → Elt F .f32) :
    (((cfg1 a).win 4).blk t).view.read (Elt F) G = G := funext (blk1_read_4 a t G)

theorem blk1_read_5 (a : (pcfg1 (F := F)).Adm) (t : Fin (cfg1 a).N) (G : S128x128.Idx → Elt F .f32) (y : S128x128.Idx) :
    (((cfg1 a).win 5).blk t).view.read (Elt F) G y = G y := by
  obtain ⟨e0, e1⟩ := index1_5_val a t
  show G ((((cfg1 a).win 5).blk t).view.emb y) = _
  refine congrArg G ?_
  funext d; apply Fin.ext
  match d with
  | ⟨0, _⟩ => show ((cfg1 a).win 5).index t (0 : Fin 2) * S128x128.size 0 + 1 * (y 0).val = (y 0).val; rw [e0]; omega
  | ⟨1, _⟩ => show ((cfg1 a).win 5).index t (1 : Fin 2) * S128x128.size 1 + 1 * (y 1).val = (y 1).val; rw [e1]; omega

theorem blk1_read_5_fun (a : (pcfg1 (F := F)).Adm) (t : Fin (cfg1 a).N) (G : S128x128.Idx → Elt F .f32) :
    (((cfg1 a).win 5).blk t).view.read (Elt F) G = G := funext (blk1_read_5 a t G)

theorem blk1_read_6 (a : (pcfg1 (F := F)).Adm) (t : Fin (cfg1 a).N) (G : S1x128.Idx → Elt F .f32) (y : S1x128.Idx) :
    (((cfg1 a).win 6).blk t).view.read (Elt F) G y = G y := by
  obtain ⟨e0, e1⟩ := index1_6_val a t
  show G ((((cfg1 a).win 6).blk t).view.emb y) = _
  refine congrArg G ?_
  funext d; apply Fin.ext
  match d with
  | ⟨0, _⟩ => show ((cfg1 a).win 6).index t (0 : Fin 2) * S1x128.size 0 + 1 * (y 0).val = (y 0).val; rw [e0]; omega
  | ⟨1, _⟩ => show ((cfg1 a).win 6).index t (1 : Fin 2) * S1x128.size 1 + 1 * (y 1).val = (y 1).val; rw [e1]; omega

theorem blk1_read_6_fun (a : (pcfg1 (F := F)).Adm) (t : Fin (cfg1 a).N) (G : S1x128.Idx → Elt F .f32) :
    (((cfg1 a).win 6).blk t).view.read (Elt F) G = G := funext (blk1_read_6 a t G)

theorem blk1_read_7 (a : (pcfg1 (F := F)).Adm) (t : Fin (cfg1 a).N) (G : S128x128.Idx → Elt F .f32) (y : S128x128.Idx) :
    (((cfg1 a).win 7).blk t).view.read (Elt F) G y = G y := by
  obtain ⟨e0, e1⟩ := index1_7_val a t
  show G ((((cfg1 a).win 7).blk t).view.emb y) = _
  refine congrArg G ?_
  funext d; apply Fin.ext
  match d with
  | ⟨0, _⟩ => show ((cfg1 a).win 7).index t (0 : Fin 2) * S128x128.size 0 + 1 * (y 0).val = (y 0).val; rw [e0]; omega
  | ⟨1, _⟩ => show ((cfg1 a).win 7).index t (1 : Fin 2) * S128x128.size 1 + 1 * (y 1).val = (y 1).val; rw [e1]; omega

theorem blk1_read_7_fun (a : (pcfg1 (F := F)).Adm) (t : Fin (cfg1 a).N) (G : S128x128.Idx → Elt F .f32) :
    (((cfg1 a).win 7).blk t).view.read (Elt F) G = G := funext (blk1_read_7 a t G)

theorem blk1_read_8 (a : (pcfg1 (F := F)).Adm) (t : Fin (cfg1 a).N) (G : S1x128.Idx → Elt F .f32) (y : S1x128.Idx) :
    (((cfg1 a).win 8).blk t).view.read (Elt F) G y = G y := by
  obtain ⟨e0, e1⟩ := index1_8_val a t
  show G ((((cfg1 a).win 8).blk t).view.emb y) = _
  refine congrArg G ?_
  funext d; apply Fin.ext
  match d with
  | ⟨0, _⟩ => show ((cfg1 a).win 8).index t (0 : Fin 2) * S1x128.size 0 + 1 * (y 0).val = (y 0).val; rw [e0]; omega
  | ⟨1, _⟩ => show ((cfg1 a).win 8).index t (1 : Fin 2) * S1x128.size 1 + 1 * (y 1).val = (y 1).val; rw [e1]; omega

theorem blk1_read_8_fun (a : (pcfg1 (F := F)).Adm) (t : Fin (cfg1 a).N) (G : S1x128.Idx → Elt F .f32) :
    (((cfg1 a).win 8).blk t).view.read (Elt F) G = G := funext (blk1_read_8 a t G)

/-- The output's block at point `t` is the slab of the point's core `t / 625`. -/
theorem blk1_read_9 (a : (pcfg1 (F := F)).Adm) (t : Fin (cfg1 a).N) (G : S2x10240x128.Idx → Elt F .f32) (y : S1x10240x128.Idx) :
    (((cfg1 a).win 9).blk t).view.read (Elt F) G y
      = G (ValueIdx.ix3 ⟨t.val / 625, by have := lt_N1 a t; omega⟩ (y 1) (y 2)) := by
  obtain ⟨e0, e1, e2⟩ := index1_9_val a t
  show G ((((cfg1 a).win 9).blk t).view.emb y) = _
  refine congrArg G ?_
  funext d; apply Fin.ext
  have hy0 : (y 0).val < 1 := (y 0).isLt
  have hm : t.val / 625 * S1x10240x128.size 0 = t.val / 625 := Nat.mul_one _
  match d with
  | ⟨0, _⟩ => show ((cfg1 a).win 9).index t (0 : Fin 3) * S1x10240x128.size 0 + 1 * (y 0).val = t.val / 625; rw [e0]; omega
  | ⟨1, _⟩ => show ((cfg1 a).win 9).index t (1 : Fin 3) * S1x10240x128.size 1 + 1 * (y 1).val = (y 1).val; rw [e1]; omega
  | ⟨2, _⟩ => show ((cfg1 a).win 9).index t (2 : Fin 3) * S1x10240x128.size 2 + 1 * (y 2).val = (y 2).val; rw [e2]; omega

/-- The same at an index spelt by its coordinates. -/
theorem blk1_read_9' (a : (pcfg1 (F := F)).Adm) (t : Fin (cfg1 a).N) (G : S2x10240x128.Idx → Elt F .f32)
    (n : Fin (S1x10240x128.size 1)) (j : Fin (S1x10240x128.size 2)) :
    (((cfg1 a).win 9).blk t).view.read (Elt F) G (ValueIdx.ix3 0 n j)
      = G (ValueIdx.ix3 ⟨t.val / 625, by have := lt_N1 a t; omega⟩ n j) := blk1_read_9 a t G _

/-! ## 3. The output's blocks: which indices a block holds, and that the written blocks hold them all -/

/-- An index of the output array lies in the block at point `t` iff each coordinate lies in the block's range on its axis. -/
theorem mem_blk1_9_axes (a : (pcfg1 (F := F)).Adm) (t : Fin (cfg1 a).N) (i : S2x10240x128.Idx) :
    i ∈ (((cfg1 a).win 9).blk t).view.set ↔ ∀ d : Fin 3, ((cfg1 a).win 9).index t d * S1x10240x128.size d ≤ (i d).val
      ∧ (i d).val < ((cfg1 a).win 9).index t d * S1x10240x128.size d + S1x10240x128.size d := by
  have h1 : (((cfg1 a).win 9).blk t).view.set = (((cfg1 a).win 9).rect t).set := View.set_slice_whole _ _
  rw [h1]
  exact Rect.mem_set_unit

/-- That is: iff its leading coordinate is the point's core. -/
theorem mem_blk1_9 (a : (pcfg1 (F := F)).Adm) (t : Fin (cfg1 a).N) (i : S2x10240x128.Idx) :
    i ∈ (((cfg1 a).win 9).blk t).view.set ↔ (i 0).val = t.val / 625 := by
  obtain ⟨e0, e1, e2⟩ := index1_9_val a t
  rw [mem_blk1_9_axes]
  have h1 : (i 1).val < S2x10240x128.size 1 := (i 1).isLt
  have h2 : (i 2).val < S2x10240x128.size 2 := (i 2).isLt
  have hs0 : S1x10240x128.size 0 = 1 := rfl
  have hs1 : S1x10240x128.size 1 = S2x10240x128.size 1 := rfl
  have hs2 : S1x10240x128.size 2 = S2x10240x128.size 2 := rfl
  constructor
  · intro h
    have b0 := h 0
    rw [e0, hs0] at b0
    omega
  · intro h d
    match d with
    | ⟨0, _⟩ => show ((cfg1 a).win 9).index t (0 : Fin 3) * S1x10240x128.size 0 ≤ (i 0).val ∧ (i 0).val < ((cfg1 a).win 9).index t (0 : Fin 3) * S1x10240x128.size 0 + S1x10240x128.size 0; rw [e0, hs0]; omega
    | ⟨1, _⟩ => show ((cfg1 a).win 9).index t (1 : Fin 3) * S1x10240x128.size 1 ≤ (i 1).val ∧ (i 1).val < ((cfg1 a).win 9).index t (1 : Fin 3) * S1x10240x128.size 1 + S1x10240x128.size 1; rw [e1, hs1]; omega
    | ⟨2, _⟩ => show ((cfg1 a).win 9).index t (2 : Fin 3) * S1x10240x128.size 2 ≤ (i 2).val ∧ (i 2).val < ((cfg1 a).win 9).index t (2 : Fin 3) * S1x10240x128.size 2 + S1x10240x128.size 2; rw [e2, hs2]; omega

/-- Every index of the output array lies in a block that is written back: its core's, at the core's last tile. -/
theorem cover1_9 (a : (pcfg1 (F := F)).Adm) (i : S2x10240x128.Idx) :
    ∃ t : Fin (cfg1 a).N, ((cfg1 a).win 9).flush t = true ∧ i ∈ (((cfg1 a).win 9).blk t).view.set := by
  have h0 : (i 0).val < 2 := (i 0).isLt
  refine ⟨⟨(i 0).val * 625 + 624, by show _ < grid1.N; rw [N_1]; omega⟩, ?_, ?_⟩
  · rw [flush1_9]; show (i 0).val * 625 + 624 = 624 ∨ (i 0).val * 625 + 624 = 1249; omega
  · rw [mem_blk1_9]; show (i 0).val = ((i 0).val * 625 + 624) / 625; omega

/-- The point that writes index `i`'s block back, named. -/
def lastOf1 (a : (pcfg1 (F := F)).Adm) (p : Fin 2) : Fin (cfg1 a).N := ⟨p.val * 625 + 624, by show _ < grid1.N; rw [N_1]; omega⟩

@[simp] theorem lastOf1_val (a : (pcfg1 (F := F)).Adm) (p : Fin 2) : (lastOf1 a p).val = p.val * 625 + 624 := rfl

theorem flush1_9_last (a : (pcfg1 (F := F)).Adm) (p : Fin 2) : ((cfg1 a).win 9).flush (lastOf1 a p) = true := by
  rw [flush1_9, lastOf1_val]; omega

theorem mem_blk1_9_last (a : (pcfg1 (F := F)).Adm) (p : Fin 2) (i : S2x10240x128.Idx) :
    i ∈ (((cfg1 a).win 9).blk (lastOf1 a p)).view.set ↔ i 0 = p := by
  rw [mem_blk1_9, lastOf1_val]
  have h0 : (i 0).val < 2 := (i 0).isLt
  constructor
  · intro h; apply Fin.ext; omega
  · intro h; rw [h]; omega

/-- Two different points that both write back hold no index in common. -/
theorem disjoint1_9 (a : (pcfg1 (F := F)).Adm) (t t' : Fin (cfg1 a).N) (hf : ((cfg1 a).win 9).flush t = true)
    (hf' : ((cfg1 a).win 9).flush t' = true) (hne : t ≠ t') :
    Disjoint (((cfg1 a).win 9).blk t).view.set (((cfg1 a).win 9).blk t').view.set := by
  rw [Finset.disjoint_left]
  intro i hi hi'
  have h1 := (mem_blk1_9 a t i).mp hi
  have h2 := (mem_blk1_9 a t' i).mp hi'
  rw [flush1_9] at hf hf'
  exact hne (Fin.ext (by omega))

/-! ## 4. The output array after the region -/

/-- The stored block `[1, n, m]` made from a table `[n, m]`: entry `(0, n, j)` is the table's entry `(n, j)`. -/
theorem k1_pay1_apply (v : Vec F S10240x128 .f32) (y : S1x10240x128.Idx) :
    k1_pay1 v y = v (ValueIdx.ix2 (y 1) (y 2)) := by
  unfold k1_pay1
  rw [shapeCast_addUnit_apply]
  refine congrArg v ?_
  funext d
  match d with
  | ⟨0, _⟩ => rfl
  | ⟨1, _⟩ => rfl

section Arr

variable {Ix : Type} [DecidableEq Ix] {Name : Type} [DecidableEq Name] {U : Type} [Idealize.SL.RA.URA U] {Lvl : Type}

/-- When every point that writes the output back leaves in the staging buffer the table `Acc (t + 1)` as one block,
    the output array after the region holds, in core `p`'s slab, the table `Acc (p * 625 + 625)`: the table after
    that core's last tile. -/
theorem arrAt1_9 (a : (pcfg1 (F := F)).Adm) (c : Dev nD) (dat : Pipeline.Dat τ (Elt F) Ix Name U Lvl (cfg1 a) c)
    (Acc : ℕ → Vec F S10240x128 .f32)
    (hafter : ∀ t, ((cfg1 a).win 9).flush t = true → dat.after 9 t = k1_pay1 (Acc (t.val + 1))) :
    dat.arrAt 9 (cfg1 a).N
      = fun i : S2x10240x128.Idx => Acc ((i 0).val * 625 + 625) (ValueIdx.ix2 (i 1) (i 2)) := by
  refine dat.arrAt_eq_of_cover 9 _ (fun t hf => ?_) (cover1_9 a)
  have hfl : dat.flushed 9 t = dat.after 9 t := rfl
  rw [hfl, hafter t hf]
  funext y
  rw [blk1_read_9 a t _ y, k1_pay1_apply]
  have ht : t.val / 625 * 625 + 625 = t.val + 1 := by
    rcases (flush1_9 a t).mp hf with h | h <;> omega
  show _ = Acc (t.val / 625 * 625 + 625) (ValueIdx.ix2 (y 1) (y 2))
  rw [ht]

/-- The same at an index spelt by its coordinates: core, node row, column. -/
theorem arrAt1_9_apply (a : (pcfg1 (F := F)).Adm) (c : Dev nD) (dat : Pipeline.Dat τ (Elt F) Ix Name U Lvl (cfg1 a) c)
    (Acc : ℕ → Vec F S10240x128 .f32)
    (hafter : ∀ t, ((cfg1 a).win 9).flush t = true → dat.after 9 t = k1_pay1 (Acc (t.val + 1)))
    (p : Fin 2) (n : Fin (S1x10240x128.size 1)) (j : Fin (S1x10240x128.size 2)) :
    dat.arrAt 9 (cfg1 a).N (ValueIdx.ix3 p n j) = Acc (p.val * 625 + 625) (ValueIdx.ix2 n j) := by
  rw [arrAt1_9 a c dat Acc hafter]

end Arr

end Cert.KernelIdeal.Gen

end
-- ==== Proof.PayGatherI1.lean ====
import proofs.«414286_j65627100283289_3_alg».proof.Proof.Gen.KernelIdeal.Skeleton
import proofs.«414286_j65627100283289_3_alg».proof.Proof.Arrange
import proofs.«414286_j65627100283289_3_alg».proof.Proof.LibDenseLayer
import Idealize.ShloMosaic.Lib.ValueIdx
import Idealize.ShloMosaic.Lib.ValueLayout
import Idealize.ShloMosaic.Lib.Pipeline.Value
import Idealize.ShloMosaic.PureOps.Ideal.Laws

/-!
# The gather half of a layer's tile body, read at an index

One tile of 256 edges reads, for every edge, the row of its source node and the row of its target node out of a node
table padded to 10240 rows, which is held as ten chunks of 1024 rows. A row is not addressed: for chunk c the body
builds the 0/1 block whose entry (r, k) is one exactly when edge r's node word equals the word c·1024 + k, and
multiplies it with the chunk's 1024 rows; the ten products are added. Over the extended reals each product at (r, j)
is the sum over k of (0 or 1) times the chunk's entry (k, j), so the ten added products are the table's pick at the
edge's word. The comparison is equality of 32-bit words, that is equality of the words' unsigned values; below the
word is read by toNat.

The facts are stated for the values the body names, one per value, and then for the source gather as the body
composes it. The target gather runs the same ten steps, each adding one chunk's product to what a scratch block held.
-/

noncomputable section

namespace Cert.KernelIdeal.PayI1

open Idealize.ShloMosaic Idealize.SL.Sem Idealize.ShloMosaic.ValueIdx
open Cert.KernelIdeal Cert.KernelIdeal.Gen
open scoped BigOperators

/-- The 0/1 block of one chunk of 1024 rows: entry (r, k) compares row r's word with the word base + k. -/
def hot (v : IVec S256 32) (b : BitVec 32) : FVec Ideal S256x1024 .f32 :=
  sitofp .f32 (extui 32 (cmpi .eq
    (broadcastTo S256x1024 (shapeCast S256x1 v shapeCasts_S256_S256x1) broadcasts_S256x1_S256x1024)
    (addi (broadcast S256x1024 b) (iota .tc S256x1024 32 [1] iota_S256x1024_d1_w32))) natLt_1_32)

theorem col_apply (v : IVec S256 32) (r : Fin 256) (k : Fin 1024) :
    broadcastTo S256x1024 (shapeCast S256x1 v shapeCasts_S256_S256x1) broadcasts_S256x1_S256x1024 (ValueIdx.ix2 r k) = v (ValueIdx.ix1 r) := by
  rw [broadcastTo_apply _ _ (ValueIdx.ix2 r k) (ValueIdx.ix2 r (0 : Fin 1)) ?_, shapeCast_apply _ _ (ValueIdx.ix2 r (0 : Fin 1)) (ValueIdx.ix1 r) ?_]
  · rw [Shape.rowMajor_val_one, Shape.rowMajor_val_two]
    show r.val = r.val * 1 + 0
    omega
  · intro a
    match a with
    | ⟨0, _⟩ => rfl
    | ⟨1, _⟩ => rfl

theorem iota_apply (r : Fin 256) (k : Fin 1024) :
    iota .tc S256x1024 32 [1] iota_S256x1024_d1_w32 (ValueIdx.ix2 r k) = BitVec.ofNat 32 k.val :=
  iota_single_apply .tc S256x1024 32 1 iota_S256x1024_d1_w32 (ValueIdx.ix2 r k)

theorem hot_apply (v : IVec S256 32) (b : BitVec 32) (r : Fin 256) (k : Fin 1024) :
    hot v b (ValueIdx.ix2 r k) = if v (ValueIdx.ix1 r) = b + BitVec.ofNat 32 k.val then (1 : EReal) else 0 := by
  have e : hot v b (ValueIdx.ix2 r k)
      = ((((BitVec.ofBool (v (ValueIdx.ix1 r) == b + BitVec.ofNat 32 k.val)).setWidth 32).toInt : ℝ) : EReal) := by
    show ((((BitVec.ofBool
        (broadcastTo S256x1024 (shapeCast S256x1 v shapeCasts_S256_S256x1) broadcasts_S256x1_S256x1024 (ValueIdx.ix2 r k)
          == b + iota .tc S256x1024 32 [1] iota_S256x1024_d1_w32 (ValueIdx.ix2 r k))).setWidth 32).toInt : ℝ) : EReal) = _
    rw [col_apply, iota_apply]
  rw [e]
  by_cases h : v (ValueIdx.ix1 r) = b + BitVec.ofNat 32 k.val
  · rw [if_pos h, beq_iff_eq.mpr h]
    have : ((BitVec.ofBool true).setWidth 32).toInt = 1 := by decide
    rw [this, Int.cast_one, EReal.coe_one]
  · rw [if_neg h, beq_eq_false_iff_ne.mpr h]
    have : ((BitVec.ofBool false).setWidth 32).toInt = 0 := by decide
    rw [this, Int.cast_zero, EReal.coe_zero]

/-- The word base + k of chunk c is the number c·1024 + k, and a 32-bit word equals it exactly when its value does. -/
theorem word_eq_iff (w : BitVec 32) (c : Fin 10) (k : Fin 1024) :
    w = BitVec.ofNat 32 (c.val * 1024) + BitVec.ofNat 32 k.val ↔ w.toNat = c.val * 1024 + k.val := by
  have hc := c.isLt
  have hk := k.isLt
  rw [← BitVec.toNat_inj, BitVec.toNat_add, BitVec.toNat_ofNat, BitVec.toNat_ofNat]
  omega

/-- The 0/1 block of chunk c read at (r, k): one exactly when row r's word, as an unsigned number, is c·1024 + k. -/
theorem hot_chunk_apply (v : IVec S256 32) (c : Fin 10) (r : Fin 256) (k : Fin 1024) :
    hot v (BitVec.ofNat 32 (c.val * 1024)) (ValueIdx.ix2 r k)
      = if (v (ValueIdx.ix1 r)).toNat = c.val * 1024 + k.val then (1 : EReal) else 0 := by
  rw [hot_apply]
  by_cases h : (v (ValueIdx.ix1 r)).toNat = c.val * 1024 + k.val
  · rw [if_pos h, if_pos ((word_eq_iff _ c k).mpr h)]
  · rw [if_neg h, if_neg (fun e => h ((word_eq_iff _ c k).mp e))]

/-- One chunk's product: the 0/1 block of the chunk times the chunk's 1024 loaded rows, into a zero start. -/
def hotMul (v : IVec S256 32) (b : BitVec 32) (ch : Vec Ideal S1024x128 .f32) : FVec Ideal S256x128 .f32 :=
  matmul dot_S256x1024_S1024x128_S256x128_1_0_0_1_n_n none (hot v b)
    (shapeCast S1024x128 ch shapeCasts_S1024x128_S1024x128 : FVec Ideal S1024x128 .f32) (constant S256x128 .f32 0x00000000#32)

/-- One chunk's share of a row pick: the 0/1 row with its one at place w, restricted to chunk c, times column j of
    the chunk's rows. -/
def share (w : ℕ) (c : Fin 10) (ch : Vec Ideal S1024x128 .f32) (j : Fin 128) : EReal :=
  ∑ k : Fin 1024, (if w = c.val * 1024 + k.val then (1 : EReal) else 0) * ch (ValueIdx.ix2 k j)

/-- A chunk's product read at (r, j) is the chunk's share of the pick at row r's word (read unsigned). -/
theorem hotMul_apply (v : IVec S256 32) (b : BitVec 32) (c : Fin 10) (hb : b = BitVec.ofNat 32 (c.val * 1024))
    (ch : Vec Ideal S1024x128 .f32) (r : Fin 256) (j : Fin 128) :
    hotMul v b ch (ValueIdx.ix2 r j) = share (v (ValueIdx.ix1 r)).toNat c ch j := by
  subst hb
  unfold hotMul share
  rw [shapeCast_self]
  refine (DenseLayer.matmul_rows_apply dot_S256x1024_S1024x128_S256x128_1_0_0_1_n_n_wf none _ _ r j).trans ?_
  refine Finset.sum_congr rfl fun k _ => ?_
  rw [hot_chunk_apply]

/-! ## The payloads of region 1, one by one -/

/-- The target index column [256,1] as a vector [256]: entry r is the column's entry (r, 0). -/
theorem k1_pay3_apply (v5 : Vec Ideal S256x1 .i32) (r : Fin 256) :
    k1_pay3 (F := Ideal) v5 (ValueIdx.ix1 r) = v5 (ValueIdx.ix2 r (0 : Fin 1)) := by
  unfold k1_pay3
  refine shapeCast_apply _ _ (ValueIdx.ix1 r) (ValueIdx.ix2 r (0 : Fin 1)) ?_
  rw [Shape.rowMajor_val_one, Shape.rowMajor_val_two]
  show r.val * 1 + 0 = r.val
  omega

/-- The source index column [256,1] as a vector [256]: entry r is the column's entry (r, 0). -/
theorem k1_pay4_apply (v7 : Vec Ideal S256x1 .i32) (r : Fin 256) :
    k1_pay4 (F := Ideal) v7 (ValueIdx.ix1 r) = v7 (ValueIdx.ix2 r (0 : Fin 1)) := by
  unfold k1_pay4
  refine shapeCast_apply _ _ (ValueIdx.ix1 r) (ValueIdx.ix2 r (0 : Fin 1)) ?_
  rw [Shape.rowMajor_val_one, Shape.rowMajor_val_two]
  show r.val * 1 + 0 = r.val
  omega

/-- The source vector laid out as a column again: entry (r, 0) is the loaded column's entry (r, 0). -/
theorem k1_pay6_apply (v7 : Vec Ideal S256x1 .i32) (r : Fin 256) :
    k1_pay6 (F := Ideal) v7 (ValueIdx.ix2 r (0 : Fin 1)) = v7 (ValueIdx.ix2 r (0 : Fin 1)) := by
  unfold k1_pay6
  refine (shapeCast_apply _ _ (ValueIdx.ix2 r (0 : Fin 1)) (ValueIdx.ix1 r) ?_).trans (k1_pay4_apply v7 r)
  rw [Shape.rowMajor_val_one, Shape.rowMajor_val_two]
  show r.val = r.val * 1 + 0
  omega

/-- The 0/1 block of the last chunk (rows 9216 …) of the source gather. -/
theorem k1_pay10_eq (v8 : IVec S256 32) : k1_pay10 (F := Ideal) v8 = hot v8 9216#32 := rfl

/-- Its entry at (r, k): one exactly when row r's source word, read unsigned (the comparison is equality of 32-bit
    words), is 9·1024 + k. -/
theorem k1_pay10_apply (v8 : IVec S256 32) (r : Fin 256) (k : Fin 1024) :
    k1_pay10 (F := Ideal) v8 (ValueIdx.ix2 r k)
      = if (v8 (ValueIdx.ix1 r)).toNat = (9 : Fin 10).val * 1024 + k.val then (1 : EReal) else 0 := by
  rw [k1_pay10_eq]
  exact hot_chunk_apply v8 9 r k

/-- Chunks 0 and 1 of the source gather, added into a zero start. -/
theorem k1_pay5_eq (v7 : Vec Ideal S256x1 .i32) (v22 v34 : Vec Ideal S1024x128 .f32) :
    k1_pay5 (F := Ideal) v7 v22 v34
      = addf (addf (broadcast S256x128 (Scalar.ofBits (F := Ideal) .f32 0x00000000#32)) (hotMul (k1_pay4 (F := Ideal) v7) 0#32 v22))
          (hotMul (k1_pay4 (F := Ideal) v7) 1024#32 v34) := rfl

theorem k1_pay5_apply (v7 : Vec Ideal S256x1 .i32) (v22 v34 : Vec Ideal S1024x128 .f32) (r : Fin 256) (j : Fin 128) :
    k1_pay5 (F := Ideal) v7 v22 v34 (ValueIdx.ix2 r j)
      = 0 + share (v7 (ValueIdx.ix2 r (0 : Fin 1))).toNat 0 v22 j + share (v7 (ValueIdx.ix2 r (0 : Fin 1))).toNat 1 v34 j := by
  rw [k1_pay5_eq, addf_apply, addf_apply, broadcast_apply,
    hotMul_apply _ 0#32 0 rfl, hotMul_apply _ 1024#32 1 rfl, k1_pay4_apply]
  show Ideal.ofBits .f32 0x00000000#32 + _ + _ = _
  rw [Ideal.ofBits_zero_f32]

/-- Chunks 2, 3 and 4 of the source gather, added to what chunks 0 and 1 gave. The first of the three blocks is
    built from the column, the lane numbers and the base word handed on by the part before. -/
theorem k1_pay7_eq (v8 : IVec S256 32) (v37 : FVec Ideal S256x128 .f32) (v46 v58 v70 : Vec Ideal S1024x128 .f32) :
    k1_pay7 (F := Ideal) v8 v37 (shapeCast S256x1 v8 shapeCasts_S256_S256x1)
        (iota .tc S256x1024 32 [1] iota_S256x1024_d1_w32) 2048#32 v46 v58 v70
      = addf (addf (addf v37 (hotMul v8 2048#32 v46)) (hotMul v8 3072#32 v58)) (hotMul v8 4096#32 v70) := rfl

theorem k1_pay7_apply (v8 : IVec S256 32) (v37 : FVec Ideal S256x128 .f32) (v38 : IVec S256x1 32)
    (v39 : IVec S256x1024 32) (c2048_i32 : BitVec 32) (v46 v58 v70 : Vec Ideal S1024x128 .f32)
    (h38 : v38 = shapeCast S256x1 v8 shapeCasts_S256_S256x1)
    (h39 : v39 = iota .tc S256x1024 32 [1] iota_S256x1024_d1_w32) (hc : c2048_i32 = 2048#32)
    (r : Fin 256) (j : Fin 128) :
    k1_pay7 (F := Ideal) v8 v37 v38 v39 c2048_i32 v46 v58 v70 (ValueIdx.ix2 r j)
      = v37 (ValueIdx.ix2 r j) + share (v8 (ValueIdx.ix1 r)).toNat 2 v46 j + share (v8 (ValueIdx.ix1 r)).toNat 3 v58 j
          + share (v8 (ValueIdx.ix1 r)).toNat 4 v70 j := by
  subst h38 h39 hc
  rw [k1_pay7_eq, addf_apply, addf_apply, addf_apply,
    hotMul_apply _ 2048#32 2 rfl, hotMul_apply _ 3072#32 3 rfl, hotMul_apply _ 4096#32 4 rfl]

/-- Chunk 5's product of the source gather. -/
theorem k1_pay8_eq (v8 : IVec S256 32) (v82 : Vec Ideal S1024x128 .f32) :
    k1_pay8 (F := Ideal) v8 v82 = hotMul v8 5120#32 v82 := rfl

theorem k1_pay8_apply (v8 : IVec S256 32) (v82 : Vec Ideal S1024x128 .f32) (r : Fin 256) (j : Fin 128) :
    k1_pay8 (F := Ideal) v8 v82 (ValueIdx.ix2 r j) = share (v8 (ValueIdx.ix1 r)).toNat 5 v82 j := by
  rw [k1_pay8_eq, hotMul_apply _ 5120#32 5 rfl]

/-- Chunk 5's product and chunks 6, 7 and 8 of the source gather, added to what came before. -/
theorem k1_pay9_eq (v8 : IVec S256 32) (v73 v84 : FVec Ideal S256x128 .f32) (v94 v106 v118 : Vec Ideal S1024x128 .f32) :
    k1_pay9 (F := Ideal) v8 v73 v84 v94 v106 v118
      = addf (addf (addf (addf v73 v84) (hotMul v8 6144#32 v94)) (hotMul v8 7168#32 v106)) (hotMul v8 8192#32 v118) := rfl

theorem k1_pay9_apply (v8 : IVec S256 32) (v73 v84 : FVec Ideal S256x128 .f32) (v94 v106 v118 : Vec Ideal S1024x128 .f32)
    (r : Fin 256) (j : Fin 128) :
    k1_pay9 (F := Ideal) v8 v73 v84 v94 v106 v118 (ValueIdx.ix2 r j)
      = v73 (ValueIdx.ix2 r j) + v84 (ValueIdx.ix2 r j) + share (v8 (ValueIdx.ix1 r)).toNat 6 v94 j + share (v8 (ValueIdx.ix1 r)).toNat 7 v106 j
          + share (v8 (ValueIdx.ix1 r)).toNat 8 v118 j := by
  rw [k1_pay9_eq, addf_apply, addf_apply, addf_apply, addf_apply,
    hotMul_apply _ 6144#32 6 rfl, hotMul_apply _ 7168#32 7 rfl, hotMul_apply _ 8192#32 8 rfl]

/-- The last step of the source gather: the product of a [256,1024] block with chunk 9's rows, added on. -/
theorem k1_pay11_apply (v121 : FVec Ideal S256x128 .f32) (v129 : FVec Ideal S256x1024 .f32) (v130 : Vec Ideal S1024x128 .f32)
    (r : Fin 256) (j : Fin 128) :
    k1_pay11 (F := Ideal) v121 v129 v130 (ValueIdx.ix2 r j)
      = v121 (ValueIdx.ix2 r j) + ∑ k : Fin 1024, v129 (ValueIdx.ix2 r k) * v130 (ValueIdx.ix2 k j) := by
  unfold k1_pay11
  rw [addf_apply, shapeCast_self]
  exact congrArg (v121 (ValueIdx.ix2 r j) + ·)
    (DenseLayer.matmul_rows_apply dot_S256x1024_S1024x128_S256x128_1_0_0_1_n_n_wf none v129 v130 r j)

/-- With the block being chunk 9's 0/1 block: chunk 9's share is added. -/
theorem k1_pay11_hot_apply (v8 : IVec S256 32) (v121 : FVec Ideal S256x128 .f32) (v130 : Vec Ideal S1024x128 .f32)
    (r : Fin 256) (j : Fin 128) :
    k1_pay11 (F := Ideal) v121 (k1_pay10 (F := Ideal) v8) v130 (ValueIdx.ix2 r j)
      = v121 (ValueIdx.ix2 r j) + share (v8 (ValueIdx.ix1 r)).toNat 9 v130 j := by
  rw [k1_pay11_apply]
  unfold share
  exact congrArg (v121 (ValueIdx.ix2 r j) + ·) (Finset.sum_congr rfl fun k _ => by rw [k1_pay10_apply])

/-! ## The source-row gather, composed as the region's body composes it -/

/-- The ten loaded chunks as a family over the chunk number. -/
def chunks (v22 v34 v46 v58 v70 v82 v94 v106 v118 v130 : Vec Ideal S1024x128 .f32) : Fin 10 → Vec Ideal S1024x128 .f32 :=
  ![v22, v34, v46, v58, v70, v82, v94, v106, v118, v130]

/-- The gathered source block read at (r, j): the sum over the ten chunks and their 1024 rows of the 0/1 row of
    row r's source word (read unsigned) times column j of the loaded rows. -/
theorem srcGather_sum (v7 : Vec Ideal S256x1 .i32) (v22 v34 v46 v58 v70 v82 v94 v106 v118 v130 : Vec Ideal S1024x128 .f32)
    (r : Fin 256) (j : Fin 128) :
    k1_pay11 (F := Ideal)
        (k1_pay9 (F := Ideal) (k1_pay4 (F := Ideal) v7)
          (k1_pay7 (F := Ideal) (k1_pay4 (F := Ideal) v7) (k1_pay5 (F := Ideal) v7 v22 v34) (k1_pay6 (F := Ideal) v7)
            (iota .tc S256x1024 32 [1] iota_S256x1024_d1_w32) 2048#32 v46 v58 v70)
          (k1_pay8 (F := Ideal) (k1_pay4 (F := Ideal) v7) v82) v94 v106 v118)
        (k1_pay10 (F := Ideal) (k1_pay4 (F := Ideal) v7)) v130 (ValueIdx.ix2 r j)
      = ∑ c : Fin 10, ∑ k : Fin 1024,
          (if (v7 (ValueIdx.ix2 r (0 : Fin 1))).toNat = c.val * 1024 + k.val then (1 : EReal) else 0)
            * chunks v22 v34 v46 v58 v70 v82 v94 v106 v118 v130 c (ValueIdx.ix2 k j) := by
  rw [k1_pay11_hot_apply, k1_pay9_apply, k1_pay7_apply (k1_pay4 (F := Ideal) v7) (k1_pay5 (F := Ideal) v7 v22 v34) (k1_pay6 (F := Ideal) v7)
      (iota .tc S256x1024 32 [1] iota_S256x1024_d1_w32) 2048#32 v46 v58 v70 rfl rfl rfl, k1_pay5_apply, k1_pay8_apply,
    k1_pay4_apply]
  exact Cert.Spec.fold10 (fun c => share (v7 (ValueIdx.ix2 r (0 : Fin 1))).toNat c
    (chunks v22 v34 v46 v58 v70 v82 v94 v106 v118 v130 c) j)

/-- When the ten chunks are the ten blocks of 1024 rows of one padded table, the gathered source block at (r, j) is
    the table's pick at row r's source word. -/
theorem srcGather_pick (v7 : Vec Ideal S256x1 .i32) (x6 : Vec Ideal S10240x128 .f32)
    (v22 v34 v46 v58 v70 v82 v94 v106 v118 v130 : Vec Ideal S1024x128 .f32)
    (hch : ∀ (c : Fin 10) (k : Fin 1024) (j : Fin 128),
      chunks v22 v34 v46 v58 v70 v82 v94 v106 v118 v130 c (ValueIdx.ix2 k j) = x6 (ValueIdx.ix2 (Cert.Spec.rowAt c k) j))
    (r : Fin 256) (j : Fin 128) :
    k1_pay11 (F := Ideal)
        (k1_pay9 (F := Ideal) (k1_pay4 (F := Ideal) v7)
          (k1_pay7 (F := Ideal) (k1_pay4 (F := Ideal) v7) (k1_pay5 (F := Ideal) v7 v22 v34) (k1_pay6 (F := Ideal) v7)
            (iota .tc S256x1024 32 [1] iota_S256x1024_d1_w32) 2048#32 v46 v58 v70)
          (k1_pay8 (F := Ideal) (k1_pay4 (F := Ideal) v7) v82) v94 v106 v118)
        (k1_pay10 (F := Ideal) (k1_pay4 (F := Ideal) v7)) v130 (ValueIdx.ix2 r j)
      = Cert.Spec.pick (fun n j => x6 (ValueIdx.ix2 n j)) (v7 (ValueIdx.ix2 r (0 : Fin 1))).toNat j := by
  rw [srcGather_sum]
  unfold Cert.Spec.pick
  refine Finset.sum_congr rfl fun c _ => Finset.sum_congr rfl fun k _ => ?_
  rw [hch c k j]
  rfl

/-- The chunk family's hypothesis from the ten blocks one by one. -/
theorem chunks_of_blocks (x6 : Vec Ideal S10240x128 .f32)
    (v22 v34 v46 v58 v70 v82 v94 v106 v118 v130 : Vec Ideal S1024x128 .f32)
    (h0 : ∀ (k : Fin 1024) (j : Fin 128), v22 (ValueIdx.ix2 k j) = x6 (ValueIdx.ix2 (Cert.Spec.rowAt 0 k) j))
    (h1 : ∀ (k : Fin 1024) (j : Fin 128), v34 (ValueIdx.ix2 k j) = x6 (ValueIdx.ix2 (Cert.Spec.rowAt 1 k) j))
    (h2 : ∀ (k : Fin 1024) (j : Fin 128), v46 (ValueIdx.ix2 k j) = x6 (ValueIdx.ix2 (Cert.Spec.rowAt 2 k) j))
    (h3 : ∀ (k : Fin 1024) (j : Fin 128), v58 (ValueIdx.ix2 k j) = x6 (ValueIdx.ix2 (Cert.Spec.rowAt 3 k) j))
    (h4 : ∀ (k : Fin 1024) (j : Fin 128), v70 (ValueIdx.ix2 k j) = x6 (ValueIdx.ix2 (Cert.Spec.rowAt 4 k) j))
    (h5 : ∀ (k : Fin 1024) (j : Fin 128), v82 (ValueIdx.ix2 k j) = x6 (ValueIdx.ix2 (Cert.Spec.rowAt 5 k) j))
    (h6 : ∀ (k : Fin 1024) (j : Fin 128), v94 (ValueIdx.ix2 k j) = x6 (ValueIdx.ix2 (Cert.Spec.rowAt 6 k) j))
    (h7 : ∀ (k : Fin 1024) (j : Fin 128), v106 (ValueIdx.ix2 k j) = x6 (ValueIdx.ix2 (Cert.Spec.rowAt 7 k) j))
    (h8 : ∀ (k : Fin 1024) (j : Fin 128), v118 (ValueIdx.ix2 k j) = x6 (ValueIdx.ix2 (Cert.Spec.rowAt 8 k) j))
    (h9 : ∀ (k : Fin 1024) (j : Fin 128), v130 (ValueIdx.ix2 k j) = x6 (ValueIdx.ix2 (Cert.Spec.rowAt 9 k) j)) :
    ∀ (c : Fin 10) (k : Fin 1024) (j : Fin 128),
      chunks v22 v34 v46 v58 v70 v82 v94 v106 v118 v130 c (ValueIdx.ix2 k j) = x6 (ValueIdx.ix2 (Cert.Spec.rowAt c k) j) := by
  intro c k j
  match c with
  | ⟨0, _⟩ => exact h0 k j
  | ⟨1, _⟩ => exact h1 k j
  | ⟨2, _⟩ => exact h2 k j
  | ⟨3, _⟩ => exact h3 k j
  | ⟨4, _⟩ => exact h4 k j
  | ⟨5, _⟩ => exact h5 k j
  | ⟨6, _⟩ => exact h6 k j
  | ⟨7, _⟩ => exact h7 k j
  | ⟨8, _⟩ => exact h8 k j
  | ⟨9, _⟩ => exact h9 k j

/-! ## The target-row gather: a zero start and ten steps, each adding one chunk's product to the scratch block -/

/-- The zero block the target gather starts from. -/
theorem k1_pay12_apply (r : Fin 256) (j : Fin 128) : k1_pay12 (F := Ideal) (ValueIdx.ix2 r j) = 0 := by
  unfold k1_pay12
  rw [shapeCast_self, broadcast_apply]
  exact Ideal.ofBits_zero_f32

/-- A step of the target gather: what the scratch block held plus chunk c's product. -/
theorem step_apply (v6 : IVec S256 32) (b : BitVec 32) (c : Fin 10) (hb : b = BitVec.ofNat 32 (c.val * 1024))
    (v274 : Vec Ideal S1024x128 .f32) (v277 : Vec Ideal S256x128 .f32) (r : Fin 256) (j : Fin 128) :
    (shapeCast S256x128 (addf (φ := .f32) v277 (hotMul v6 b v274)) shapeCasts_S256x128_S256x128 : FVec Ideal S256x128 .f32) (ValueIdx.ix2 r j)
      = v277 (ValueIdx.ix2 r j) + ∑ k : Fin 1024,
          (if (v6 (ValueIdx.ix1 r)).toNat = c.val * 1024 + k.val then (1 : EReal) else 0) * v274 (ValueIdx.ix2 k j) := by
  rw [shapeCast_self, addf_apply, hotMul_apply v6 b c hb]
  rfl

/-- Step 0 of the target gather: chunk 0's product added to the scratch block. -/
theorem k1_pay13_eq (v6 : IVec S256 32) (v274 : Vec Ideal S1024x128 .f32) (v277 : Vec Ideal S256x128 .f32) :
    k1_pay13 (F := Ideal) v6 v274 v277
      = shapeCast S256x128 (addf (φ := .f32) v277 (hotMul v6 0#32 v274)) shapeCasts_S256x128_S256x128 := rfl

theorem k1_pay13_apply (v6 : IVec S256 32) (v274 : Vec Ideal S1024x128 .f32) (v277 : Vec Ideal S256x128 .f32)
    (r : Fin 256) (j : Fin 128) :
    k1_pay13 (F := Ideal) v6 v274 v277 (ValueIdx.ix2 r j)
      = v277 (ValueIdx.ix2 r j) + ∑ k : Fin 1024,
          (if (v6 (ValueIdx.ix1 r)).toNat = (0 : Fin 10).val * 1024 + k.val then (1 : EReal) else 0) * v274 (ValueIdx.ix2 k j) := by
  rw [k1_pay13_eq]
  exact step_apply v6 0#32 0 rfl v274 v277 r j

/-- Step 1 of the target gather: chunk 1's product added to the scratch block. -/
theorem k1_pay14_eq (v6 : IVec S256 32) (v274 : Vec Ideal S1024x128 .f32) (v277 : Vec Ideal S256x128 .f32) :
    k1_pay14 (F := Ideal) v6 v274 v277
      = shapeCast S256x128 (addf (φ := .f32) v277 (hotMul v6 1024#32 v274)) shapeCasts_S256x128_S256x128 := rfl

theorem k1_pay14_apply (v6 : IVec S256 32) (v274 : Vec Ideal S1024x128 .f32) (v277 : Vec Ideal S256x128 .f32)
    (r : Fin 256) (j : Fin 128) :
    k1_pay14 (F := Ideal) v6 v274 v277 (ValueIdx.ix2 r j)
      = v277 (ValueIdx.ix2 r j) + ∑ k : Fin 1024,
          (if (v6 (ValueIdx.ix1 r)).toNat = (1 : Fin 10).val * 1024 + k.val then (1 : EReal) else 0) * v274 (ValueIdx.ix2 k j) := by
  rw [k1_pay14_eq]
  exact step_apply v6 1024#32 1 rfl v274 v277 r j

/-- Step 2 of the target gather: chunk 2's product added to the scratch block. -/
theorem k1_pay15_eq (v6 : IVec S256 32) (v274 : Vec Ideal S1024x128 .f32) (v277 : Vec Ideal S256x128 .f32) :
    k1_pay15 (F := Ideal) v6 v274 v277
      = shapeCast S256x128 (addf (φ := .f32) v277 (hotMul v6 2048#32 v274)) shapeCasts_S256x128_S256x128 := rfl

theorem k1_pay15_apply (v6 : IVec S256 32) (v274 : Vec Ideal S1024x128 .f32) (v277 : Vec Ideal S256x128 .f32)
    (r : Fin 256) (j : Fin 128) :
    k1_pay15 (F := Ideal) v6 v274 v277 (ValueIdx.ix2 r j)
      = v277 (ValueIdx.ix2 r j) + ∑ k : Fin 1024,
          (if (v6 (ValueIdx.ix1 r)).toNat = (2 : Fin 10).val * 1024 + k.val then (1 : EReal) else 0) * v274 (ValueIdx.ix2 k j) := by
  rw [k1_pay15_eq]
  exact step_apply v6 2048#32 2 rfl v274 v277 r j

/-- Step 3 of the target gather: chunk 3's product added to the scratch block. -/
theorem k1_pay16_eq (v6 : IVec S256 32) (v274 : Vec Ideal S1024x128 .f32) (v277 : Vec Ideal S256x128 .f32) :
    k1_pay16 (F := Ideal) v6 v274 v277
      = shapeCast S256x128 (addf (φ := .f32) v277 (hotMul v6 3072#32 v274)) shapeCasts_S256x128_S256x128 := rfl

theorem k1_pay16_apply (v6 : IVec S256 32) (v274 : Vec Ideal S1024x128 .f32) (v277 : Vec Ideal S256x128 .f32)
    (r : Fin 256) (j : Fin 128) :
    k1_pay16 (F := Ideal) v6 v274 v277 (ValueIdx.ix2 r j)
      = v277 (ValueIdx.ix2 r j) + ∑ k : Fin 1024,
          (if (v6 (ValueIdx.ix1 r)).toNat = (3 : Fin 10).val * 1024 + k.val then (1 : EReal) else 0) * v274 (ValueIdx.ix2 k j) := by
  rw [k1_pay16_eq]
  exact step_apply v6 3072#32 3 rfl v274 v277 r j

/-- Step 4 of the target gather: chunk 4's product added to the scratch block. -/
theorem k1_pay17_eq (v6 : IVec S256 32) (v274 : Vec Ideal S1024x128 .f32) (v277 : Vec Ideal S256x128 .f32) :
    k1_pay17 (F := Ideal) v6 v274 v277
      = shapeCast S256x128 (addf (φ := .f32) v277 (hotMul v6 4096#32 v274)) shapeCasts_S256x128_S256x128 := rfl

theorem k1_pay17_apply (v6 : IVec S256 32) (v274 : Vec Ideal S1024x128 .f32) (v277 : Vec Ideal S256x128 .f32)
    (r : Fin 256) (j : Fin 128) :
    k1_pay17 (F := Ideal) v6 v274 v277 (ValueIdx.ix2 r j)
      = v277 (ValueIdx.ix2 r j) + ∑ k : Fin 1024,
          (if (v6 (ValueIdx.ix1 r)).toNat = (4 : Fin 10).val * 1024 + k.val then (1 : EReal) else 0) * v274 (ValueIdx.ix2 k j) := by
  rw [k1_pay17_eq]
  exact step_apply v6 4096#32 4 rfl v274 v277 r j

/-- Step 5 of the target gather: chunk 5's product added to the scratch block. -/
theorem k1_pay18_eq (v6 : IVec S256 32) (v274 : Vec Ideal S1024x128 .f32) (v277 : Vec Ideal S256x128 .f32) :
    k1_pay18 (F := Ideal) v6 v274 v277
      = shapeCast S256x128 (addf (φ := .f32) v277 (hotMul v6 5120#32 v274)) shapeCasts_S256x128_S256x128 := rfl

theorem k1_pay18_apply (v6 : IVec S256 32) (v274 : Vec Ideal S1024x128 .f32) (v277 : Vec Ideal S256x128 .f32)
    (r : Fin 256) (j : Fin 128) :
    k1_pay18 (F := Ideal) v6 v274 v277 (ValueIdx.ix2 r j)
      = v277 (ValueIdx.ix2 r j) + ∑ k : Fin 1024,
          (if (v6 (ValueIdx.ix1 r)).toNat = (5 : Fin 10).val * 1024 + k.val then (1 : EReal) else 0) * v274 (ValueIdx.ix2 k j) := by
  rw [k1_pay18_eq]
  exact step_apply v6 5120#32 5 rfl v274 v277 r j

/-- Step 6 of the target gather: chunk 6's product added to the scratch block. -/
theorem k1_pay19_eq (v6 : IVec S256 32) (v274 : Vec Ideal S1024x128 .f32) (v277 : Vec Ideal S256x128 .f32) :
    k1_pay19 (F := Ideal) v6 v274 v277
      = shapeCast S256x128 (addf (φ := .f32) v277 (hotMul v6 6144#32 v274)) shapeCasts_S256x128_S256x128 := rfl

theorem k1_pay19_apply (v6 : IVec S256 32) (v274 : Vec Ideal S1024x128 .f32) (v277 : Vec Ideal S256x128 .f32)
    (r : Fin 256) (j : Fin 128) :
    k1_pay19 (F := Ideal) v6 v274 v277 (ValueIdx.ix2 r j)
      = v277 (ValueIdx.ix2 r j) + ∑ k : Fin 1024,
          (if (v6 (ValueIdx.ix1 r)).toNat = (6 : Fin 10).val * 1024 + k.val then (1 : EReal) else 0) * v274 (ValueIdx.ix2 k j) := by
  rw [k1_pay19_eq]
  exact step_apply v6 6144#32 6 rfl v274 v277 r j

/-- Step 7 of the target gather: chunk 7's product added to the scratch block. -/
theorem k1_pay20_eq (v6 : IVec S256 32) (v274 : Vec Ideal S1024x128 .f32) (v277 : Vec Ideal S256x128 .f32) :
    k1_pay20 (F := Ideal) v6 v274 v277
      = shapeCast S256x128 (addf (φ := .f32) v277 (hotMul v6 7168#32 v274)) shapeCasts_S256x128_S256x128 := rfl

theorem k1_pay20_apply (v6 : IVec S256 32) (v274 : Vec Ideal S1024x128 .f32) (v277 : Vec Ideal S256x128 .f32)
    (r : Fin 256) (j : Fin 128) :
    k1_pay20 (F := Ideal) v6 v274 v277 (ValueIdx.ix2 r j)
      = v277 (ValueIdx.ix2 r j) + ∑ k : Fin 1024,
          (if (v6 (ValueIdx.ix1 r)).toNat = (7 : Fin 10).val * 1024 + k.val then (1 : EReal) else 0) * v274 (ValueIdx.ix2 k j) := by
  rw [k1_pay20_eq]
  exact step_apply v6 7168#32 7 rfl v274 v277 r j

/-- Step 8 of the target gather: chunk 8's product added to the scratch block. -/
theorem k1_pay21_eq (v6 : IVec S256 32) (v274 : Vec Ideal S1024x128 .f32) (v277 : Vec Ideal S256x128 .f32) :
    k1_pay21 (F := Ideal) v6 v274 v277
      = shapeCast S256x128 (addf (φ := .f32) v277 (hotMul v6 8192#32 v274)) shapeCasts_S256x128_S256x128 := rfl

theorem k1_pay21_apply (v6 : IVec S256 32) (v274 : Vec Ideal S1024x128 .f32) (v277 : Vec Ideal S256x128 .f32)
    (r : Fin 256) (j : Fin 128) :
    k1_pay21 (F := Ideal) v6 v274 v277 (ValueIdx.ix2 r j)
      = v277 (ValueIdx.ix2 r j) + ∑ k : Fin 1024,
          (if (v6 (ValueIdx.ix1 r)).toNat = (8 : Fin 10).val * 1024 + k.val then (1 : EReal) else 0) * v274 (ValueIdx.ix2 k j) := by
  rw [k1_pay21_eq]
  exact step_apply v6 8192#32 8 rfl v274 v277 r j

/-- Step 9 of the target gather: chunk 9's product added to the scratch block. -/
theorem k1_pay22_eq (v6 : IVec S256 32) (v274 : Vec Ideal S1024x128 .f32) (v277 : Vec Ideal S256x128 .f32) :
    k1_pay22 (F := Ideal) v6 v274 v277
      = shapeCast S256x128 (addf (φ := .f32) v277 (hotMul v6 9216#32 v274)) shapeCasts_S256x128_S256x128 := rfl

theorem k1_pay22_apply (v6 : IVec S256 32) (v274 : Vec Ideal S1024x128 .f32) (v277 : Vec Ideal S256x128 .f32)
    (r : Fin 256) (j : Fin 128) :
    k1_pay22 (F := Ideal) v6 v274 v277 (ValueIdx.ix2 r j)
      = v277 (ValueIdx.ix2 r j) + ∑ k : Fin 1024,
          (if (v6 (ValueIdx.ix1 r)).toNat = (9 : Fin 10).val * 1024 + k.val then (1 : EReal) else 0) * v274 (ValueIdx.ix2 k j) := by
  rw [k1_pay22_eq]
  exact step_apply v6 9216#32 9 rfl v274 v277 r j

/-! ## A chunk's share against the whole table -/

/-- The share spelled out. -/
theorem share_eq (w : ℕ) (c : Fin 10) (ch : Vec Ideal S1024x128 .f32) (j : Fin 128) :
    share w c ch j = ∑ k : Fin 1024, (if w = c.val * 1024 + k.val then (1 : EReal) else 0) * ch (ValueIdx.ix2 k j) := rfl

/-- When the chunk is block c of a padded table, its share is the table's row w where w lies in the block, and zero
    elsewhere. -/
theorem share_table (w : ℕ) (c : Fin 10) (x6 : Vec Ideal S10240x128 .f32) (ch : Vec Ideal S1024x128 .f32)
    (hch : ∀ (k : Fin 1024) (j : Fin 128), ch (ValueIdx.ix2 k j) = x6 (ValueIdx.ix2 (Cert.Spec.rowAt c k) j)) (j : Fin 128) :
    share w c ch j = if h : w / 1024 = c.val then x6 (ValueIdx.ix2 (⟨w, by omega⟩ : Fin 10240) j) else 0 := by
  rw [← Cert.Spec.onehot_chunk (fun i => x6 (ValueIdx.ix2 i j)) w c]
  unfold share
  refine Finset.sum_congr rfl fun k _ => ?_
  rw [hch k j]
  rfl

end Cert.KernelIdeal.PayI1

end
-- ==== Proof.StepMathI1.lean ====
import proofs.«414286_j65627100283289_3_alg».proof.Proof.Gen.KernelIdeal.Skeleton
import proofs.«414286_j65627100283289_3_alg».proof.Proof.StepDefsI1
import proofs.«414286_j65627100283289_3_alg».proof.Proof.GateWord
import proofs.«414286_j65627100283289_3_alg».proof.Proof.LibGatedRmw
import proofs.«414286_j65627100283289_3_alg».proof.Proof.PayGatherI1
import proofs.«414286_j65627100283289_3_alg».proof.Proof.PayMlpI1
import proofs.«414286_j65627100283289_3_alg».proof.Proof.Arrange
import proofs.«414286_j65627100283289_3_alg».proof.Proof.Args
import Idealize.ShloMosaic.Lib.Pipeline.FrameBody
import Idealize.ShloMosaic.Lib.ValueIdx
import Idealize.ShloMosaic.Lib.Pipeline.Value
import Idealize.ShloMosaic.PureOps.Ideal.Laws

/-!
# One tile's step of region 1's accumulator, as the layer's mathematics

The body of region 1's kernel, run at the grid point of tile `T`, leaves in the accumulator a function of what it was
handed (`stepAcc1`): a reset at a core's first tile, then ten gated chunk steps, each adding to one chunk of 1024 node
rows the transposed one-hot product of the tile's target column with the tile's messages. Read at an entry `(n, j)`,
only the step of the chunk that holds row `n` touches the entry; its gate is open whenever a target of the tile lies in
that chunk (the targets are sorted and the gates are open on the tile's chunk range), so the step adds the messages of
the tile's edges whose target is `n`, gate or no gate. Each message is the perceptron of the edge's feature row; the two
rows it is made of are picked out of the padded node table by one-hot products (the target rows again under the chunk
gates), and a pick at a node's number is the node's row. So the entry becomes what it was, or zero at a core's first
tile, plus the sum over the tile's edges with target `n` of the messages of `Spec`.
-/

noncomputable section

namespace Cert.KernelIdeal.StepI1

open Idealize.ShloMosaic Idealize.ShloMosaic.ValueIdx Idealize.ShloMosaic.GatedRmw
open Cert.KernelIdeal Cert.KernelIdeal.Gen Cert.KernelIdeal.PayI1
open Cert.Spec
open scoped BigOperators

/-! ## Reading a chunk of a table -/

/-- Chunk `c` of the padded node table, loaded as a block of 1024 rows, at `(k, j)`: the table at row `c * 1024 + k`. -/
theorem ld_chunk (x6 : Vec Ideal S10240x128 .f32) (c : Fin 10) (off : Fin 2 → ℕ) (h0 : off 0 = c.val * 1024) (h1 : off 1 = 0)
    (inb : ∀ a, off a + S1024x128.size a ≤ S10240x128.size a) (k : Fin 1024) (j : Fin 128) :
    View.ld x6 (Rect.unit (s := S10240x128) off S1024x128.size inb) (ValueIdx.ix2 k j) = x6 (ValueIdx.ix2 (rowAt c k) j) := by
  show x6 ((Rect.unit (s := S10240x128) off S1024x128.size inb).emb (ValueIdx.ix2 k j)) = _
  refine congrArg x6 (funext fun a => Fin.ext ?_)
  rcases a with ⟨a, ha⟩
  have ha' : a < 2 := ha
  interval_cases a
  · show off 0 + 1 * k.val = c.val * 1024 + k.val
    omega
  · show off 1 + 1 * j.val = j.val
    omega

/-! ## The reset word -/

/-- The word "the tile's number within its core is zero", computed on 32-bit words. -/
theorem first_word (v : ℕ) (hv : v < 625) :
    (Scalar.cmpi .ne (Scalar.extui (Scalar.cmpi .eq (BitVec.ofNat 32 v) 0#32)) 0#32 : BitVec 1) = 1#1 ↔ v = 0 := by
  unfold Scalar.cmpi Scalar.extui IntOp.cmpi
  simp only []
  by_cases h : v = 0
  · subst h
    simp
  · have hne : BitVec.ofNat 32 v ≠ 0#32 := fun e => h (by
      have := congrArg BitVec.toNat e
      rw [BitVec.toNat_ofNat, BitVec.toNat_ofNat] at this
      omega)
    have hb : (BitVec.ofNat 32 v == 0#32) = false := by simpa using hne
    rw [hb]
    simp [h]

theorem firstW1_iff (i : grid1.Coords) : firstW1 i = 1#1 ↔ (i 1).val = 0 :=
  first_word (i 1).val (i 1).isLt

/-- The accumulator the chunk steps start from, at an entry. -/
theorem accReset1_apply (i : grid1.Coords) (x14 : Vec Ideal S10240x128 .f32) (n : Fin 10240) (j : Fin 128) :
    accReset1 (F := Ideal) i x14 (ValueIdx.ix2 n j) = if (i 1).val = 0 then 0 else x14 (ValueIdx.ix2 n j) := by
  unfold accReset1
  by_cases h : (i 1).val = 0
  · rw [if_pos ((firstW1_iff i).mpr h), if_pos h]
    exact pay2_apply n j
  · rw [if_neg (fun e => h ((firstW1_iff i).mp e)), if_neg h]

/-! ## The target rows: a zero start and ten gated steps -/

/-- One gated step whose payload adds a term `S` to the rows so far adds the gated term. -/
theorem xiStep_add (g : BitVec 1) (pay : Vec Ideal S256x128 .f32 → FVec Ideal S256x128 .f32) (S : Fin 256 → Fin 128 → EReal)
    (hpay : ∀ (X : Vec Ideal S256x128 .f32) (r : Fin 256) (j : Fin 128), pay X (ValueIdx.ix2 r j) = X (ValueIdx.ix2 r j) + S r j)
    (X : Vec Ideal S256x128 .f32) (r : Fin 256) (j : Fin 128) :
    xiStep1 g pay X (ValueIdx.ix2 r j) = X (ValueIdx.ix2 r j) + (if g = 1#1 then S r j else 0) := by
  unfold xiStep1
  by_cases hg : g = 1#1
  · rw [if_pos hg, if_pos hg, hpay]
  · rw [if_neg hg, if_neg hg, add_zero]

/-- Chunk `c`'s share of the pick of the table's row at edge `r`'s target word, column `j`. -/
def Sxi (x5 : Vec Ideal S256x1 .i32) (x6 : Vec Ideal S10240x128 .f32) (c : Fin 10) (r : Fin 256) (j : Fin 128) : EReal :=
  ∑ k : Fin 1024, (if (x5 (ValueIdx.ix2 r (0 : Fin 1))).toNat = c.val * 1024 + k.val then (1 : EReal) else 0)
    * x6 (ValueIdx.ix2 (rowAt c k) j)

/-- A step's payload over the target column and chunk `c` of the table adds that share. -/
theorem xi_pay (c : Fin 10)
    (pay : IVec S256 32 → Vec Ideal S1024x128 .f32 → Vec Ideal S256x128 .f32 → FVec Ideal S256x128 .f32)
    (hp : ∀ (v6 : IVec S256 32) (v274 : Vec Ideal S1024x128 .f32) (v277 : Vec Ideal S256x128 .f32) (r : Fin 256) (j : Fin 128),
      pay v6 v274 v277 (ValueIdx.ix2 r j) = v277 (ValueIdx.ix2 r j) + ∑ k : Fin 1024,
        (if (v6 (ValueIdx.ix1 r)).toNat = c.val * 1024 + k.val then (1 : EReal) else 0) * v274 (ValueIdx.ix2 k j))
    (x5 : Vec Ideal S256x1 .i32) (x6 : Vec Ideal S10240x128 .f32) (off : Fin 2 → ℕ) (h0 : off 0 = c.val * 1024) (h1 : off 1 = 0)
    (inb : ∀ a, off a + S1024x128.size a ≤ S10240x128.size a) (X : Vec Ideal S256x128 .f32) (r : Fin 256) (j : Fin 128) :
    pay (k1_pay3 (F := Ideal) x5) (View.ld x6 (Rect.unit (s := S10240x128) off S1024x128.size inb)) X (ValueIdx.ix2 r j)
      = X (ValueIdx.ix2 r j) + Sxi x5 x6 c r j := by
  rw [hp, k1_pay3_apply]
  unfold Sxi
  refine congrArg (fun z => X (ValueIdx.ix2 r j) + z) (Finset.sum_congr rfl fun k _ => ?_)
  rw [ld_chunk x6 c off h0 h1 inb]

/-- The gathered target rows at `(r, j)`: the ten chunks' gated shares added up. -/
theorem xi1_apply (i : grid1.Coords) (x2 x3 : Vec Ideal S1250 .i32) (x5 : Vec Ideal S256x1 .i32) (x6 : Vec Ideal S10240x128 .f32)
    (r : Fin 256) (j : Fin 128) :
    xi1 (F := Ideal) i x2 x3 x5 x6 (ValueIdx.ix2 r j)
      = ∑ c : Fin 10, if gateWord (loW1 i x2) (hiW1 i x3) (BitVec.ofNat 32 c.val) = 1#1 then Sxi x5 x6 c r j else 0 := by
  unfold xi1
  rw [xiStep_add _ _ (Sxi x5 x6 9) (xi_pay 9 (k1_pay22 (F := Ideal)) k1_pay22_apply x5 x6 _ rfl rfl _),
    xiStep_add _ _ (Sxi x5 x6 8) (xi_pay 8 (k1_pay21 (F := Ideal)) k1_pay21_apply x5 x6 _ rfl rfl _),
    xiStep_add _ _ (Sxi x5 x6 7) (xi_pay 7 (k1_pay20 (F := Ideal)) k1_pay20_apply x5 x6 _ rfl rfl _),
    xiStep_add _ _ (Sxi x5 x6 6) (xi_pay 6 (k1_pay19 (F := Ideal)) k1_pay19_apply x5 x6 _ rfl rfl _),
    xiStep_add _ _ (Sxi x5 x6 5) (xi_pay 5 (k1_pay18 (F := Ideal)) k1_pay18_apply x5 x6 _ rfl rfl _),
    xiStep_add _ _ (Sxi x5 x6 4) (xi_pay 4 (k1_pay17 (F := Ideal)) k1_pay17_apply x5 x6 _ rfl rfl _),
    xiStep_add _ _ (Sxi x5 x6 3) (xi_pay 3 (k1_pay16 (F := Ideal)) k1_pay16_apply x5 x6 _ rfl rfl _),
    xiStep_add _ _ (Sxi x5 x6 2) (xi_pay 2 (k1_pay15 (F := Ideal)) k1_pay15_apply x5 x6 _ rfl rfl _),
    xiStep_add _ _ (Sxi x5 x6 1) (xi_pay 1 (k1_pay14 (F := Ideal)) k1_pay14_apply x5 x6 _ rfl rfl _),
    xiStep_add _ _ (Sxi x5 x6 0) (xi_pay 0 (k1_pay13 (F := Ideal)) k1_pay13_apply x5 x6 _ rfl rfl _),
    k1_pay12_apply]
  exact fold10 (fun c : Fin 10 =>
    if gateWord (loW1 i x2) (hiW1 i x3) (BitVec.ofNat 32 c.val) = 1#1 then Sxi x5 x6 c r j else 0)

/-! ## The two gathered rows of an edge are its nodes' rows -/

section Rows

variable (i : grid1.Coords) (x2 x3 : Vec Ideal S1250 .i32) (x4 x5 : Vec Ideal S256x1 .i32) (x6 : Vec Ideal S10240x128 .f32)
  (T : Fin 1250) (key : Fin 320000 → ℕ) (srcn dstn : Fin 320000 → Fin 10000) (x : Fin 10000 → Fin 128 → EReal)

/-- Along a sorted key with the gates open on the tile's chunk range, the gathered target row of edge `r` is the
    row of the edge's target node. -/
theorem xi1_row
    (hdst : ∀ r : Fin 256, (x5 (ValueIdx.ix2 r (0 : Fin 1))).toNat = key (tileEdge T r))
    (hkey : ∀ a : Fin 320000, key a = (dstn a).val)
    (hmono : ∀ a b : Fin 320000, a ≤ b → key a ≤ key b)
    (hgate : ∀ c : Fin 10, key (tileEdge T 0) / 1024 ≤ c.val → c.val ≤ key (tileEdge T 255) / 1024 →
      gateWord (loW1 i x2) (hiW1 i x3) (BitVec.ofNat 32 c.val) = 1#1)
    (hx : ∀ v : Fin 10000, (fun j : Fin 128 => x6 (ValueIdx.ix2 (⟨v.val, Nat.lt_trans v.isLt (by norm_num)⟩ : Fin 10240) j)) = x v)
    (r : Fin 256) (j : Fin 128) :
    xi1 (F := Ideal) i x2 x3 x5 x6 (ValueIdx.ix2 r j) = x (dstn (tileEdge T r)) j := by
  have hw : key (tileEdge T r) < 10240 := by
    rw [hkey]; exact Nat.lt_trans (dstn (tileEdge T r)).isLt (by norm_num)
  rw [xi1_apply]
  unfold Sxi
  simp only [hdst r]
  refine (gated_pick key hmono T r (fun c : Fin 10 => gateWord (loW1 i x2) (hiW1 i x3) (BitVec.ofNat 32 c.val) = 1#1)
    hgate (fun n : Fin 10240 => x6 (ValueIdx.ix2 n j)) hw).trans ?_
  have e : (⟨key (tileEdge T r), hw⟩ : Fin 10240)
      = ⟨(dstn (tileEdge T r)).val, Nat.lt_trans (dstn (tileEdge T r)).isLt (by norm_num)⟩ := Fin.ext (hkey _)
  show x6 (ValueIdx.ix2 (⟨key (tileEdge T r), hw⟩ : Fin 10240) j) = _
  rw [e]
  exact congrFun (hx (dstn (tileEdge T r))) j

/-- The gathered source row of edge `r` is the row of the edge's source node. -/
theorem xj1_row
    (hsrc : ∀ r : Fin 256, (x4 (ValueIdx.ix2 r (0 : Fin 1))).toNat = (srcn (tileEdge T r)).val)
    (hx : ∀ v : Fin 10000, (fun j : Fin 128 => x6 (ValueIdx.ix2 (⟨v.val, Nat.lt_trans v.isLt (by norm_num)⟩ : Fin 10240) j)) = x v)
    (r : Fin 256) (j : Fin 128) :
    xj1 (F := Ideal) x4 x6 (ValueIdx.ix2 r j) = x (srcn (tileEdge T r)) j := by
  unfold xj1
  rw [srcGather_pick x4 x6 _ _ _ _ _ _ _ _ _ _ (chunks_of_blocks x6 _ _ _ _ _ _ _ _ _ _
    (ld_chunk x6 0 _ rfl rfl _) (ld_chunk x6 1 _ rfl rfl _) (ld_chunk x6 2 _ rfl rfl _) (ld_chunk x6 3 _ rfl rfl _)
    (ld_chunk x6 4 _ rfl rfl _) (ld_chunk x6 5 _ rfl rfl _) (ld_chunk x6 6 _ rfl rfl _) (ld_chunk x6 7 _ rfl rfl _)
    (ld_chunk x6 8 _ rfl rfl _) (ld_chunk x6 9 _ rfl rfl _)) r j, hsrc r]
  exact congrFun (pick_eq x (fun n j => x6 (ValueIdx.ix2 n j)) hx (srcn (tileEdge T r))) j

end Rows

/-! ## The messages -/

section Messages

variable (i : grid1.Coords) (x2 x3 : Vec Ideal S1250 .i32) (x4 x5 : Vec Ideal S256x1 .i32) (x6 : Vec Ideal S10240x128 .f32)
  (x7 : Vec Ideal S256x128 .f32) (x8 : Vec Ideal S1x128 .f32) (x9 : Vec Ideal S128x128 .f32) (x10 : Vec Ideal S1x128 .f32)
  (x11 : Vec Ideal S128x128 .f32) (x12 : Vec Ideal S1x128 .f32)
  (T : Fin 1250) (key : Fin 320000 → ℕ) (srcn dstn : Fin 320000 → Fin 10000) (x : Fin 10000 → Fin 128 → EReal) (P : Weights 128 128)

/-- Row `r` of the tile's messages is the message of edge `r` of the tile. -/
theorem msg1_row
    (hdst : ∀ r : Fin 256, (x5 (ValueIdx.ix2 r (0 : Fin 1))).toNat = key (tileEdge T r))
    (hsrc : ∀ r : Fin 256, (x4 (ValueIdx.ix2 r (0 : Fin 1))).toNat = (srcn (tileEdge T r)).val)
    (hkey : ∀ a : Fin 320000, key a = (dstn a).val)
    (hmono : ∀ a b : Fin 320000, a ≤ b → key a ≤ key b)
    (hgate : ∀ c : Fin 10, key (tileEdge T 0) / 1024 ≤ c.val → c.val ≤ key (tileEdge T 255) / 1024 →
      gateWord (loW1 i x2) (hiW1 i x3) (BitVec.ofNat 32 c.val) = 1#1)
    (hx : ∀ v : Fin 10000, (fun j : Fin 128 => x6 (ValueIdx.ix2 (⟨v.val, Nat.lt_trans v.isLt (by norm_num)⟩ : Fin 10240) j)) = x v)
    (hP : kWeights1 x7 x8 x9 x10 x11 x12 = P) (r : Fin 256) (j : Fin 128) :
    msg1 (F := Ideal) i x2 x3 x4 x5 x6 x7 x8 x9 x10 x11 x12 (ValueIdx.ix2 r j)
      = message P x (srcn (tileEdge T r)) (dstn (tileEdge T r)) j := by
  unfold msg1 hid1
  refine (messages_apply (xj1 (F := Ideal) x4 x6) (xi1 (F := Ideal) i x2 x3 x5 x6) x7 x8
    (FloatOps.ofBits FTy.f32 0#32) Ideal.ofBits_zero_f32 x9 x10 x11 x12 r j).trans ?_
  rw [hP]
  have e1 : (fun j : Fin 128 => xi1 (F := Ideal) i x2 x3 x5 x6 (ValueIdx.ix2 r j)) = x (dstn (tileEdge T r)) :=
    funext (xi1_row i x2 x3 x5 x6 T key dstn x hdst hkey hmono hgate hx r)
  have e2 : (fun j : Fin 128 => xj1 (F := Ideal) x4 x6 (ValueIdx.ix2 r j)) = x (srcn (tileEdge T r)) :=
    funext (xj1_row x4 x6 T srcn x hsrc hx r)
  rw [e1, e2]
  rfl

end Messages

/-! ## The accumulator: ten gated chunk steps -/

/-- One gated chunk step whose payload adds a term `S` to the chunk's rows, at an entry: the entry as it was, plus the
    gated term when the entry's row lies in the chunk. -/
theorem accStep_apply (c : Fin 10) (g : BitVec 1) (off : Fin 2 → ℕ) (h0 : off 0 = c.val * 1024) (h1 : off 1 = 0)
    (inb : ∀ a, off a + S1024x128.size a ≤ S10240x128.size a)
    (pay : Vec Ideal S1024x128 .f32 → FVec Ideal S1024x128 .f32) (S : Fin 1024 → Fin 128 → EReal)
    (hpay : ∀ (V : Vec Ideal S1024x128 .f32) (k : Fin 1024) (j : Fin 128), pay V (ValueIdx.ix2 k j) = V (ValueIdx.ix2 k j) + S k j)
    (A : Vec Ideal S10240x128 .f32) (n : Fin 10240) (j : Fin 128) :
    accStep1 (F := Ideal) g (Rect.unit (s := S10240x128) off S1024x128.size inb) pay A (ValueIdx.ix2 n j)
      = A (ValueIdx.ix2 n j) + (if n.val / 1024 = c.val then
          (if g = 1#1 then S ⟨n.val % 1024, Nat.mod_lt _ (by norm_num)⟩ j else 0) else 0) := by
  unfold accStep1
  by_cases hc : n.val / 1024 = c.val
  · rw [if_pos hc]
    have hn : (ValueIdx.ix2 n j : S10240x128.Idx)
        = (Rect.unit (s := S10240x128) off S1024x128.size inb).emb
            (ValueIdx.ix2 (⟨n.val % 1024, Nat.mod_lt _ (by norm_num)⟩ : Fin 1024) j) := by
      funext a
      apply Fin.ext
      rcases a with ⟨a, ha⟩
      have ha' : a < 2 := ha
      interval_cases a
      · show n.val = off 0 + 1 * (n.val % 1024)
        omega
      · show j.val = off 1 + 1 * j.val
        omega
    by_cases hg : g = 1#1
    · rw [if_pos hg, hn, gatedVal_emb hg, hpay]
      rfl
    · rw [if_neg hg, add_zero, gatedVal_neg hg]
  · rw [if_neg hc, add_zero]
    refine gatedVal_of_not_mem g (Rect.unit (s := S10240x128) off S1024x128.size inb) pay A ?_
    rw [Rect.mem_set_unit]
    intro h
    have h' := h (0 : Fin 2)
    change off 0 ≤ n.val ∧ n.val < off 0 + 1024 at h'
    omega

/-- What chunk `c`'s step adds at row `k` of the chunk: the messages `M` of the tile's rows whose target word is
    `c * 1024 + k`. -/
def Sacc (x5 : Vec Ideal S256x1 .i32) (M : FVec Ideal S256x128 .f32) (c : Fin 10) (k : Fin 1024) (j : Fin 128) : EReal :=
  ∑ r : Fin 256, (if (x5 (ValueIdx.ix2 r (0 : Fin 1))).toNat = c.val * 1024 + k.val then (1 : EReal) else 0)
    * M (ValueIdx.ix2 r j)

/-- A scatter step's payload over the target column and the messages adds that. -/
theorem acc_pay (c : Fin 10)
    (pay : IVec S256 32 → FVec Ideal S256x128 .f32 → Vec Ideal S1024x128 .f32 → FVec Ideal S1024x128 .f32)
    (hp : ∀ (v6 : IVec S256 32) (v212 : FVec Ideal S256x128 .f32) (v275 : Vec Ideal S1024x128 .f32) (k : Fin 1024) (j : Fin 128),
      pay v6 v212 v275 (ValueIdx.ix2 k j) = v275 (ValueIdx.ix2 k j) + ∑ r : Fin 256,
        (if (v6 (ValueIdx.ix1 r)).toNat = c.val * 1024 + k.val then (1 : EReal) else 0) * v212 (ValueIdx.ix2 r j))
    (x5 : Vec Ideal S256x1 .i32) (M : FVec Ideal S256x128 .f32) (V : Vec Ideal S1024x128 .f32) (k : Fin 1024) (j : Fin 128) :
    pay (k1_pay3 (F := Ideal) x5) M V (ValueIdx.ix2 k j) = V (ValueIdx.ix2 k j) + Sacc x5 M c k j := by
  rw [hp]
  unfold Sacc
  refine congrArg (fun z => V (ValueIdx.ix2 k j) + z) (Finset.sum_congr rfl fun r _ => ?_)
  rw [k1_pay3_apply]

/-- The same for the steps whose payload computes the messages from the hidden rows itself. -/
theorem acc_pay' (c : Fin 10)
    (pay : IVec S256 32 → FVec Ideal S256x128 .f32 → Ideal .f32 → Vec Ideal S128x128 .f32 → Vec Ideal S1x128 .f32 →
      Vec Ideal S128x128 .f32 → Vec Ideal S1x128 .f32 → Vec Ideal S1024x128 .f32 → FVec Ideal S1024x128 .f32)
    (hp : ∀ (v6 : IVec S256 32) (v196 : FVec Ideal S256x128 .f32) (cst : Ideal .f32) (v199 : Vec Ideal S128x128 .f32)
        (v201 : Vec Ideal S1x128 .f32) (v207 : Vec Ideal S128x128 .f32) (v209 : Vec Ideal S1x128 .f32)
        (v275 : Vec Ideal S1024x128 .f32) (k : Fin 1024) (j : Fin 128),
      pay v6 v196 cst v199 v201 v207 v209 v275 (ValueIdx.ix2 k j) = v275 (ValueIdx.ix2 k j) + ∑ r : Fin 256,
        (if (v6 (ValueIdx.ix1 r)).toNat = c.val * 1024 + k.val then (1 : EReal) else 0)
          * k1_pay24 (F := Ideal) v196 cst v199 v201 v207 v209 (ValueIdx.ix2 r j))
    (x5 : Vec Ideal S256x1 .i32) (H : FVec Ideal S256x128 .f32) (cst : Ideal .f32) (x9 : Vec Ideal S128x128 .f32)
    (x10 : Vec Ideal S1x128 .f32) (x11 : Vec Ideal S128x128 .f32) (x12 : Vec Ideal S1x128 .f32)
    (V : Vec Ideal S1024x128 .f32) (k : Fin 1024) (j : Fin 128) :
    pay (k1_pay3 (F := Ideal) x5) H cst x9 x10 x11 x12 V (ValueIdx.ix2 k j)
      = V (ValueIdx.ix2 k j) + Sacc x5 (k1_pay24 (F := Ideal) H cst x9 x10 x11 x12) c k j := by
  rw [hp]
  unfold Sacc
  refine congrArg (fun z => V (ValueIdx.ix2 k j) + z) (Finset.sum_congr rfl fun r _ => ?_)
  rw [k1_pay3_apply]

/-- A start value and ten terms added one after the other. -/
theorem fold10_from {M : Type*} [AddCommMonoid M] (a : M) (S : Fin 10 → M) :
    a + S 0 + S 1 + S 2 + S 3 + S 4 + S 5 + S 6 + S 7 + S 8 + S 9 = a + ∑ c : Fin 10, S c := by
  rw [← fold10' S]
  simp only [add_assoc]

/-- The accumulator after the body at an entry: the reset value plus, chunk by chunk, the gated scatter into the
    entry's row when the row lies in the chunk. -/
theorem stepAcc1_sum (i : grid1.Coords) (x2 x3 : Vec Ideal S1250 .i32) (x4 x5 : Vec Ideal S256x1 .i32) (x6 : Vec Ideal S10240x128 .f32)
    (x7 : Vec Ideal S256x128 .f32) (x8 : Vec Ideal S1x128 .f32) (x9 : Vec Ideal S128x128 .f32) (x10 : Vec Ideal S1x128 .f32)
    (x11 : Vec Ideal S128x128 .f32) (x12 : Vec Ideal S1x128 .f32) (x14 : Vec Ideal S10240x128 .f32)
    (n : Fin 10240) (j : Fin 128) :
    stepAcc1 (F := Ideal) i x2 x3 x4 x5 x6 x7 x8 x9 x10 x11 x12 x14 (ValueIdx.ix2 n j)
      = accReset1 (F := Ideal) i x14 (ValueIdx.ix2 n j) + ∑ c : Fin 10,
          if n.val / 1024 = c.val then
            (if gateWord (loW1 i x2) (hiW1 i x3) (BitVec.ofNat 32 c.val) = 1#1 then
              Sacc x5 (msg1 (F := Ideal) i x2 x3 x4 x5 x6 x7 x8 x9 x10 x11 x12) c ⟨n.val % 1024, Nat.mod_lt _ (by norm_num)⟩ j
            else 0)
          else 0 := by
  unfold stepAcc1
  rw [accStep_apply 9 _ _ rfl rfl _ _ (Sacc x5 (msg1 (F := Ideal) i x2 x3 x4 x5 x6 x7 x8 x9 x10 x11 x12) 9)
      (acc_pay 9 (k1_pay34 (F := Ideal)) pay34_apply x5 _),
    accStep_apply 8 _ _ rfl rfl _ _ (Sacc x5 (msg1 (F := Ideal) i x2 x3 x4 x5 x6 x7 x8 x9 x10 x11 x12) 8)
      (acc_pay 8 (k1_pay33 (F := Ideal)) pay33_apply x5 _),
    accStep_apply 7 _ _ rfl rfl _ _ (Sacc x5 (msg1 (F := Ideal) i x2 x3 x4 x5 x6 x7 x8 x9 x10 x11 x12) 7)
      (acc_pay 7 (k1_pay32 (F := Ideal)) pay32_apply x5 _),
    accStep_apply 6 _ _ rfl rfl _ _ (Sacc x5 (msg1 (F := Ideal) i x2 x3 x4 x5 x6 x7 x8 x9 x10 x11 x12) 6)
      (acc_pay 6 (k1_pay31 (F := Ideal)) pay31_apply x5 _),
    accStep_apply 5 _ _ rfl rfl _ _ (Sacc x5 (msg1 (F := Ideal) i x2 x3 x4 x5 x6 x7 x8 x9 x10 x11 x12) 5)
      (acc_pay 5 (k1_pay30 (F := Ideal)) pay30_apply x5 _),
    accStep_apply 4 _ _ rfl rfl _ _ (Sacc x5 (msg1 (F := Ideal) i x2 x3 x4 x5 x6 x7 x8 x9 x10 x11 x12) 4)
      (acc_pay 4 (k1_pay29 (F := Ideal)) pay29_apply x5 _),
    accStep_apply 3 _ _ rfl rfl _ _ (Sacc x5 (msg1 (F := Ideal) i x2 x3 x4 x5 x6 x7 x8 x9 x10 x11 x12) 3)
      (acc_pay 3 (k1_pay28 (F := Ideal)) pay28_apply x5 _),
    accStep_apply 2 _ _ rfl rfl _ _ (Sacc x5 (msg1 (F := Ideal) i x2 x3 x4 x5 x6 x7 x8 x9 x10 x11 x12) 2)
      (acc_pay' 2 (k1_pay27 (F := Ideal)) pay27_apply x5 _ _ x9 x10 x11 x12),
    accStep_apply 1 _ _ rfl rfl _ _ (Sacc x5 (msg1 (F := Ideal) i x2 x3 x4 x5 x6 x7 x8 x9 x10 x11 x12) 1)
      (acc_pay' 1 (k1_pay26 (F := Ideal)) pay26_apply x5 _ _ x9 x10 x11 x12),
    accStep_apply 0 _ _ rfl rfl _ _ (Sacc x5 (msg1 (F := Ideal) i x2 x3 x4 x5 x6 x7 x8 x9 x10 x11 x12) 0)
      (acc_pay' 0 (k1_pay25 (F := Ideal)) pay25_apply x5 _ _ x9 x10 x11 x12)]
  exact fold10_from _ (fun c : Fin 10 =>
    if n.val / 1024 = c.val then
      (if gateWord (loW1 i x2) (hiW1 i x3) (BitVec.ofNat 32 c.val) = 1#1 then
        Sacc x5 (msg1 (F := Ideal) i x2 x3 x4 x5 x6 x7 x8 x9 x10 x11 x12) c ⟨n.val % 1024, Nat.mod_lt _ (by norm_num)⟩ j
      else 0)
    else 0)

/-! ## The step at an entry -/

/-- THE STEP: after the body at the grid point of tile `T`, the accumulator at `(n, j)` is what it was (zero at a core's
    first tile) plus the messages of the tile's edges whose target is row `n` — under hypotheses that say what the
    operands are: the two columns hold the tile's targets and sources, the targets are sorted, the gates are open on the
    tile's chunk range, the padded table carries the node features, the six blocks are the layer's parameters. -/
theorem stepAcc1_apply (i : grid1.Coords) (x2 x3 : Vec Ideal S1250 .i32) (x4 x5 : Vec Ideal S256x1 .i32) (x6 : Vec Ideal S10240x128 .f32)
    (x7 : Vec Ideal S256x128 .f32) (x8 : Vec Ideal S1x128 .f32) (x9 : Vec Ideal S128x128 .f32) (x10 : Vec Ideal S1x128 .f32)
    (x11 : Vec Ideal S128x128 .f32) (x12 : Vec Ideal S1x128 .f32) (x14 : Vec Ideal S10240x128 .f32)
    (T : Fin 1250) (key : Fin 320000 → ℕ) (srcn dstn : Fin 320000 → Fin 10000) (x : Fin 10000 → Fin 128 → EReal) (P : Cert.Spec.Weights 128 128)
    (hpt : (i 1).val = T.val % 625)
    (hdst : ∀ r : Fin 256, (x5 (ValueIdx.ix2 r (0 : Fin 1))).toNat = key (Cert.Spec.tileEdge T r))
    (hsrc : ∀ r : Fin 256, (x4 (ValueIdx.ix2 r (0 : Fin 1))).toNat = (srcn (Cert.Spec.tileEdge T r)).val)
    (hkey : ∀ a : Fin 320000, key a = (dstn a).val)
    (hmono : ∀ a b : Fin 320000, a ≤ b → key a ≤ key b)
    (hgate : ∀ c : Fin 10, key (Cert.Spec.tileEdge T 0) / 1024 ≤ c.val → c.val ≤ key (Cert.Spec.tileEdge T 255) / 1024 →
      Cert.Spec.gateWord (loW1 i x2) (hiW1 i x3) (BitVec.ofNat 32 c.val) = 1#1)
    (hx : ∀ v : Fin 10000, (fun j : Fin 128 => x6 (ValueIdx.ix2 (⟨v.val, Nat.lt_trans v.isLt (by norm_num)⟩ : Fin 10240) j)) = x v)
    (hP : Cert.KernelIdeal.PayI1.kWeights1 x7 x8 x9 x10 x11 x12 = P)
    (n : Fin 10240) (j : Fin 128) :
    stepAcc1 (F := Ideal) i x2 x3 x4 x5 x6 x7 x8 x9 x10 x11 x12 x14 (ValueIdx.ix2 n j)
      = (if T.val % 625 = 0 then 0 else x14 (ValueIdx.ix2 n j))
        + ∑ r : Fin 256, if key (Cert.Spec.tileEdge T r) = n.val
            then Cert.Spec.message P x (srcn (Cert.Spec.tileEdge T r)) (dstn (Cert.Spec.tileEdge T r)) j else 0 := by
  rw [stepAcc1_sum, accReset1_apply, hpt]
  refine congrArg (fun z => (if T.val % 625 = 0 then 0 else x14 (ValueIdx.ix2 n j)) + z) ?_
  have hc0 : n.val / 1024 < 10 := by have := n.isLt; omega
  rw [Finset.sum_eq_single (⟨n.val / 1024, hc0⟩ : Fin 10)]
  · rw [if_pos rfl]
    unfold Sacc
    simp only [hdst]
    refine (gated_scatter key hmono T
      (fun c : Fin 10 => gateWord (loW1 i x2) (hiW1 i x3) (BitVec.ofNat 32 c.val) = 1#1) hgate
      ⟨n.val / 1024, hc0⟩ ⟨n.val % 1024, Nat.mod_lt _ (by norm_num)⟩
      (fun r => msg1 (F := Ideal) i x2 x3 x4 x5 x6 x7 x8 x9 x10 x11 x12 (ValueIdx.ix2 r j))).trans ?_
    refine Finset.sum_congr rfl fun r _ => ?_
    have e : n.val / 1024 * 1024 + n.val % 1024 = n.val := Nat.div_add_mod' n.val 1024
    show (if key (tileEdge T r) = n.val / 1024 * 1024 + n.val % 1024 then _ else 0) = _
    rw [e, msg1_row i x2 x3 x4 x5 x6 x7 x8 x9 x10 x11 x12 T key srcn dstn x P hdst hsrc hkey hmono hgate hx hP r j]
  · intro c _ hc
    rw [if_neg (fun e => hc (Fin.ext e.symm))]
  · intro h
    exact absurd (Finset.mem_univ _) h

end Cert.KernelIdeal.StepI1

end
-- ==== Proof.ValueI1.lean ====
import proofs.«414286_j65627100283289_3_alg».proof.Proof.HandedI1
import proofs.«414286_j65627100283289_3_alg».proof.Proof.GeomI1
import proofs.«414286_j65627100283289_3_alg».proof.Proof.StepDefsI1
import proofs.«414286_j65627100283289_3_alg».proof.Proof.StepMathI1
import proofs.«414286_j65627100283289_3_alg».proof.Proof.RegionDataI1

/-!
# What region 1 leaves: its layer

The kernel region walks the sorted edge list tile by tile. At tile `T` its body turns the accumulator the tile before left
into that accumulator (nothing, at a core's first tile) plus, on every node row, the messages of the tile's edges whose
target is the row; after a core's last tile the accumulator is stored as the core's slab. This module puts the pieces
together over the operand values the region is handed: the tile's step, from the accumulator's recurrence over the tiles the
statement `RegionLeaves` of the layer, and last the region's own proof data — its accumulator tile by tile, its
windows' blocks, its output array after the run — put in.
-/

set_option maxRecDepth 16384

noncomputable section

namespace Cert.KernelIdeal.KHost

open Idealize.ShloMosaic Idealize.ShloMosaic.TcCoe
open Idealize.SL.Sem
open Cert.KernelIdeal Cert.KernelIdeal.Gen
open Cert.Spec
open scoped BigOperators

/-! ## The tile's two table words at a grid point -/

/-- Point `t` of the grid reads entry `t` of the first table. -/
theorem loW1_coords {F : FTy → Type} [FloatOps F] (t : Fin grid1.N) (x2 : Vec F S1250 .i32) :
    loW1 (grid1.coords t) x2 = x2 (ValueIdx.ix1 (Fin.cast N_1 t)) := by
  unfold loW1
  show x2 (Rect.emb _ _) = _
  refine congrArg x2 (funext fun a => ?_)
  match a with
  | ⟨0, _⟩ =>
    apply Fin.ext
    rw [Rect.emb_apply]
    show k1_off1 (grid1.coords t) 0 + 1 * 0 = t.val
    rw [k1_off1_eq]
    show 625 * ((grid1.coords t) 0).val + ((grid1.coords t) 1).val + 1 * 0 = t.val
    rw [coords1_0, coords1_1]
    omega

/-- … and entry `t` of the second. -/
theorem hiW1_coords {F : FTy → Type} [FloatOps F] (t : Fin grid1.N) (x3 : Vec F S1250 .i32) :
    hiW1 (grid1.coords t) x3 = x3 (ValueIdx.ix1 (Fin.cast N_1 t)) := by
  unfold hiW1
  show x3 (Rect.emb _ _) = _
  refine congrArg x3 (funext fun a => ?_)
  match a with
  | ⟨0, _⟩ =>
    apply Fin.ext
    rw [Rect.emb_apply]
    show k1_off1 (grid1.coords t) 0 + 1 * 0 = t.val
    rw [k1_off1_eq]
    show 625 * ((grid1.coords t) 0).val + ((grid1.coords t) 1).val + 1 * 0 = t.val
    rw [coords1_0, coords1_1]
    omega

/-! ## One tile's step, and the layer -/

section Layer1

variable (m : (ℓ : Loc nD τ sig) → Buf (Elt Ideal) ℓ) (outs : Gen.Outs (F := Ideal)) (c : Dev nD)
variable (h : InRange (m ((c : Thread nD τ).loc main_arg2)))

/-- The accumulator after the body at tile `T`, over the region's operands and the tile's two column blocks: what the
    tile before left (nothing at a core's first tile) plus, on row `n`, the messages of the tile's edges whose target is `n`. -/
theorem step1_apply (T : Fin 1250) (x4 x5 : Vec Ideal S256x1 .i32) (x14 : Vec Ideal S10240x128 .f32)
    (h4 : ∀ r : Fin 256, x4 (ValueIdx.ix2 r (0 : Fin 1)) = opSrc1 m outs c (ValueIdx.ix2 (tileEdge T r) (0 : Fin 1)))
    (h5 : ∀ r : Fin 256, x5 (ValueIdx.ix2 r (0 : Fin 1)) = opDst1 m outs c (ValueIdx.ix2 (tileEdge T r) (0 : Fin 1)))
    (n : Fin 10240) (j : Fin 128) :
    stepAcc1 (F := Ideal) (grid1.coords (Fin.cast N_1.symm T)) (opLo1 m outs c) (opHi1 m outs c) x4 x5 (opX1 m outs c)
        (opWa1 m outs c) (opBa1 m outs c) (opWb1 m outs c) (opBb1 m outs c) (opWc1 m outs c) (opBc1 m outs c) x14 (ValueIdx.ix2 n j)
      = (if T.val % 625 = 0 then 0 else x14 (ValueIdx.ix2 n j))
        + ∑ r : Fin 256, if (dstAlong m c h (tileEdge T r)).val = n.val
            then message (layerP1 m outs c) (layerX1 m outs c) (srcAlong m c h (tileEdge T r)) (dstAlong m c h (tileEdge T r)) j else 0 :=
  StepI1.stepAcc1_apply (grid1.coords (Fin.cast N_1.symm T)) (opLo1 m outs c) (opHi1 m outs c) x4 x5 (opX1 m outs c)
    (opWa1 m outs c) (opBa1 m outs c) (opWb1 m outs c) (opBb1 m outs c) (opWc1 m outs c) (opBc1 m outs c) x14
    T (keyOf m c h) (srcAlong m c h) (dstAlong m c h) (layerX1 m outs c) (layerP1 m outs c)
    (coords1_1 (Fin.cast N_1.symm T))
    (fun r => by rw [h5 r]; exact handed1_dst m outs c h T r)
    (fun r => by rw [h4 r]; exact handed1_src m outs c h T r)
    (along_key m c h) (along_mono m c h)
    (by rw [loW1_coords, hiW1_coords]; exact handed1_gate m outs c h T)
    (handed1_x m outs c) (handed1_P m outs c) n j

/-- From the accumulator's recurrence over the tiles and the slabs' read: the layer. `Acc T` is the accumulator before
    tile `T`; `B4 T`, `B5 T` are tile `T`'s blocks of the two sorted columns. -/
theorem leaves1_of_acc (Acc : ℕ → Vec Ideal S10240x128 .f32) (B4 B5 : Fin 1250 → Vec Ideal S256x1 .i32)
    (hB4 : ∀ (T : Fin 1250) (r : Fin 256),
      B4 T (ValueIdx.ix2 r (0 : Fin 1)) = opSrc1 m outs c (ValueIdx.ix2 (tileEdge T r) (0 : Fin 1)))
    (hB5 : ∀ (T : Fin 1250) (r : Fin 256),
      B5 T (ValueIdx.ix2 r (0 : Fin 1)) = opDst1 m outs c (ValueIdx.ix2 (tileEdge T r) (0 : Fin 1)))
    (hsucc : ∀ T : Fin 1250, Acc (T.val + 1)
      = stepAcc1 (F := Ideal) (grid1.coords (Fin.cast N_1.symm T)) (opLo1 m outs c) (opHi1 m outs c) (B4 T) (B5 T) (opX1 m outs c)
          (opWa1 m outs c) (opBa1 m outs c) (opWb1 m outs c) (opBb1 m outs c) (opWc1 m outs c) (opBc1 m outs c) (Acc T.val))
    (S : Fin 2 → Fin 10240 → Fin 128 → EReal)
    (hS : ∀ (p : Fin 2) (n : Fin 10240) (j : Fin 128), S p n j = Acc (p.val * 625 + 625) (ValueIdx.ix2 n j)) :
    RegionLeaves (layerP1 m outs c) (layerX1 m outs c) (srcK m c h) (dstK m c h) (sortPerm (edges m c)) S :=
  regionLeaves_of_acc (layerP1 m outs c) (layerX1 m outs c) (srcK m c h) (dstK m c h) (sortPerm (edges m c)) S
    (fun T n j => Acc T (ValueIdx.ix2 n j))
    (fun T hT n j => by
      show Acc (T + 1) (ValueIdx.ix2 n j) = _
      rw [hsucc ⟨T, hT⟩]
      exact step1_apply m outs c h ⟨T, hT⟩ (B4 ⟨T, hT⟩) (B5 ⟨T, hT⟩) (Acc T) (hB4 ⟨T, hT⟩) (hB5 ⟨T, hT⟩) n j)
    hS

end Layer1

/-! ## The region's proof data at what it is handed -/

section Final1

variable (m : (ℓ : Loc nD τ sig) → Buf (Elt Ideal) ℓ) (outs : Gen.Outs (F := Ideal)) (c : Dev nD)
variable (h : InRange (m ((c : Thread nD τ).loc main_arg2)))

/-- Tile `T` as a point of the region's grid. -/
abbrev pt1 (T : Fin 1250) : Fin (cfg1 (tbl1 m outs c)).N := Fin.cast N_1.symm T

/-- The accumulator before tile `n`. -/
abbrev acc1 : ℕ → Vec Ideal S10240x128 .f32 := accAt1 (ent1 m outs) (tbl1 m outs c) c

/-- What the region leaves in its output array is the layer. -/
theorem leaves1 : RegionLeaves (layerP1 m outs c) (layerX1 m outs c) (srcK m c h) (dstK m c h) (sortPerm (edges m c))
    (fun p n j => ((dat1 (ent1 m outs) (tbl1 m outs c) c).arrAt 9 (cfg1 (tbl1 m outs c)).N : S2x10240x128.Idx → EReal)
      (ValueIdx.ix3 p n j)) := by
  refine leaves1_of_acc m outs c h (acc1 m outs c)
    (fun T => iblk1 (ent1 m outs) (tbl1 m outs c) c (0 : Fin 10) (pt1 m outs c T)) (fun T => iblk1 (ent1 m outs) (tbl1 m outs c) c (1 : Fin 10) (pt1 m outs c T))
    (fun T r => ?_) (fun T r => ?_) (fun T => ?_) _ (fun p n j => ?_)
  · exact (blk1_read_0 (tbl1 m outs c) (pt1 m outs c T) (opSrc1 m outs c) r).trans
      (congrArg (fun e : Fin 320000 => opSrc1 m outs c (ValueIdx.ix2 e (0 : Fin 1))) (Fin.ext rfl))
  · exact (blk1_read_1 (tbl1 m outs c) (pt1 m outs c T) (opDst1 m outs c) r).trans
      (congrArg (fun e : Fin 320000 => opDst1 m outs c (ValueIdx.ix2 e (0 : Fin 1))) (Fin.ext rfl))
  · have e2 : iblk1 (ent1 m outs) (tbl1 m outs c) c (2 : Fin 10) (pt1 m outs c T) = opX1 m outs c :=
      funext fun y => blk1_read_2 (tbl1 m outs c) (pt1 m outs c T) (opX1 m outs c) y
    have e3 : iblk1 (ent1 m outs) (tbl1 m outs c) c (3 : Fin 10) (pt1 m outs c T) = opWa1 m outs c :=
      funext fun y => blk1_read_3 (tbl1 m outs c) (pt1 m outs c T) (opWa1 m outs c) y
    have e4 : iblk1 (ent1 m outs) (tbl1 m outs c) c (4 : Fin 10) (pt1 m outs c T) = opBa1 m outs c :=
      funext fun y => blk1_read_4 (tbl1 m outs c) (pt1 m outs c T) (opBa1 m outs c) y
    have e5 : iblk1 (ent1 m outs) (tbl1 m outs c) c (5 : Fin 10) (pt1 m outs c T) = opWb1 m outs c :=
      funext fun y => blk1_read_5 (tbl1 m outs c) (pt1 m outs c T) (opWb1 m outs c) y
    have e6 : iblk1 (ent1 m outs) (tbl1 m outs c) c (6 : Fin 10) (pt1 m outs c T) = opBb1 m outs c :=
      funext fun y => blk1_read_6 (tbl1 m outs c) (pt1 m outs c T) (opBb1 m outs c) y
    have e7 : iblk1 (ent1 m outs) (tbl1 m outs c) c (7 : Fin 10) (pt1 m outs c T) = opWc1 m outs c :=
      funext fun y => blk1_read_7 (tbl1 m outs c) (pt1 m outs c T) (opWc1 m outs c) y
    have e8 : iblk1 (ent1 m outs) (tbl1 m outs c) c (8 : Fin 10) (pt1 m outs c T) = opBc1 m outs c :=
      funext fun y => blk1_read_8 (tbl1 m outs c) (pt1 m outs c T) (opBc1 m outs c) y
    have e := accAt1_succ (ent1 m outs) (tbl1 m outs c) c (pt1 m outs c T)
    rw [e2, e3, e4, e5, e6, e7, e8] at e
    exact e
  · exact congrFun (arrAt1_9 (tbl1 m outs c) c (dat1 (ent1 m outs) (tbl1 m outs c) c) (acc1 m outs c)
      (fun t _ => after1_9 (ent1 m outs) (tbl1 m outs c) c t)) (ValueIdx.ix3 p n j)

end Final1

end Cert.KernelIdeal.KHost

end
-- ==== Proof.PayMlpI2.lean ====
/-
  The perceptron and the scatter half of a layer's tile body (region 2 of the program), read at an index, at the ideal
  values.

  A tile holds 256 edges. Its messages are a three-layer perceptron of the feature rows (the target's row followed by
  source minus target): each layer is a matrix product plus a bias row repeated down the 256 rows, the first two followed by
  the rectifier max(·, 0). The scatter adds the messages into the accumulator chunk by chunk: for chunk c the 256×1024
  matrix with a one at (r, k) where the target word of row r is c·1024 + k, transposed, times the messages, is added to
  the chunk's 1024 rows. At the ideal values a product into a zero accumulator is the plain sum over the contracted
  coordinate, so at (k, j) the step adds exactly the messages of the rows whose word is c·1024 + k.
-/
import proofs.«414286_j65627100283289_3_alg».proof.Proof.Gen.KernelIdeal.Skeleton
import proofs.«414286_j65627100283289_3_alg».proof.Proof.Arrange
import proofs.«414286_j65627100283289_3_alg».proof.Proof.Args
import proofs.«414286_j65627100283289_3_alg».proof.Proof.LibDenseLayer
import proofs.«414286_j65627100283289_3_alg».proof.Proof.LibMatmulColsByCols
import proofs.«414286_j65627100283289_3_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayI2

open Idealize.ShloMosaic Idealize.ShloMosaic.ValueIdx
open scoped BigOperators

/-! ## The accumulator's two trivial payloads -/

/-- The node table stored as one block `[1, 10240, 128]`: entry `(0, n, j)` is entry `(n, j)` of the table. -/
theorem pay1_apply (v : Vec Ideal S10240x128 .f32) (n : Fin 10240) (j : Fin 128) :
    Gen.k2_pay1 v (ValueIdx.ix3 (0 : Fin 1) n j) = v (ValueIdx.ix2 n j) := by
  unfold Gen.k2_pay1
  exact shapeCast_ab_1ab_apply v _ 0 n j

/-- The accumulator's initial contents: every entry is zero. -/
theorem pay2_apply (n : Fin 10240) (j : Fin 128) : (Gen.k2_pay2 (F := Ideal)) (ValueIdx.ix2 n j) = 0 := by
  unfold Gen.k2_pay2
  rw [shapeCast_self]
  exact Ideal.ofBits_zero_f32

/-! ## The 0/1 matrix of one chunk -/

/-- Entry `(r, k)` of the 0/1 matrix that compares the word of row `r` with `base + k`: one where they are the
    same word, zero elsewhere. -/
theorem onehot_entry (v6 : IVec S256 32) (base : BitVec 32) (r : Fin 256) (k : Fin 1024) :
    (sitofp .f32 (extui 32 (cmpi .eq
        (broadcastTo S256x1024 (shapeCast S256x1 v6 Gen.shapeCasts_S256_S256x1) Gen.broadcasts_S256x1_S256x1024)
        (addi (broadcast S256x1024 base) (iota .tc S256x1024 32 [1] Gen.iota_S256x1024_d1_w32))) Gen.natLt_1_32)
      : FVec Ideal S256x1024 .f32) (ValueIdx.ix2 r k)
      = if v6 (ValueIdx.ix1 r) = base + BitVec.ofNat 32 k.val then (1 : EReal) else 0 := by
  rw [sitofp_apply, extui_apply]
  show FloatOps.sitofp FTy.f32 (BitVec.setWidth 32 (IntOp.cmpi .eq
    (broadcastTo S256x1024 (shapeCast S256x1 v6 Gen.shapeCasts_S256_S256x1) Gen.broadcasts_S256x1_S256x1024 (ValueIdx.ix2 r k))
    (IntOp.addi base (iota .tc S256x1024 32 [1] Gen.iota_S256x1024_d1_w32 (ValueIdx.ix2 r k))))) = _
  rw [RowOps.broadcastTo_a1_ab_apply, RowOps.shapeCast_a_a1_apply, iota_single_apply]
  show FloatOps.sitofp FTy.f32 (BitVec.setWidth 32 (IntOp.cmpi .eq (v6 (ValueIdx.ix1 r)) (base + BitVec.ofNat 32 k.val))) = _
  by_cases h : v6 (ValueIdx.ix1 r) = base + BitVec.ofNat 32 k.val
  · rw [if_pos h, IntOp.cmpi_eq.mpr h]
    show (((BitVec.setWidth 32 1#1).toInt : ℝ) : EReal) = 1
    have e : (BitVec.setWidth 32 1#1).toInt = 1 := by decide
    rw [e]; simp
  · rw [if_neg h, eq_zero_of_ne_one (fun e => h (IntOp.cmpi_eq.mp e))]
    show (((BitVec.setWidth 32 0#1).toInt : ℝ) : EReal) = 0
    have e : (BitVec.setWidth 32 0#1).toInt = 0 := by decide
    rw [e]; simp

/-- A 32-bit word is the word of `c*1024 + k` exactly when its unsigned value is that number. -/
theorem word_eq_chunk (x : BitVec 32) (c : Fin 10) (k : Fin 1024) :
    x = BitVec.ofNat 32 (c.val * 1024) + BitVec.ofNat 32 k.val ↔ x.toNat = c.val * 1024 + k.val := by
  have hc := c.isLt; have hk := k.isLt
  rw [← BitVec.ofNat_add]
  constructor
  · intro h; rw [h, BitVec.toNat_ofNat]; omega
  · intro h; rw [← h, BitVec.ofNat_toNat, BitVec.setWidth_eq]

/-- One accumulation step of the scatter into chunk `c`, for messages of any width `N`: the chunk's rows as loaded, plus
    the transpose of the 0/1 matrix of the chunk times the messages. At `(k, j)` it adds the messages of the rows whose
    word is `c*1024 + k`. -/
theorem scatter_core {N : ℕ} (w : DotDims.WF S256x1024 ⟨2, ![256, N]⟩ ⟨2, ![1024, N]⟩ [0] [0] [1] [1] [] [])
    (hs : (⟨2, ![1024, N]⟩ : Shape).ShapeCasts ⟨2, ![1024, N]⟩) (c : Fin 10) (v6 : IVec S256 32)
    (M : FVec Ideal ⟨2, ![256, N]⟩ .f32) (v275 : FVec Ideal ⟨2, ![1024, N]⟩ .f32) (k : Fin 1024) (j : Fin N) :
    shapeCast ⟨2, ![1024, N]⟩ (addf v275 (matmul (⟨[0], [0], [1], [1], [], [], w⟩ : DotDims _ _ _) none
        (sitofp .f32 (extui 32 (cmpi .eq
          (broadcastTo S256x1024 (shapeCast S256x1 v6 Gen.shapeCasts_S256_S256x1) Gen.broadcasts_S256x1_S256x1024)
          (addi (broadcast S256x1024 (BitVec.ofNat 32 (c.val * 1024))) (iota .tc S256x1024 32 [1] Gen.iota_S256x1024_d1_w32)))
          Gen.natLt_1_32) : FVec Ideal S256x1024 .f32)
        M (constant (F := Ideal) ⟨2, ![1024, N]⟩ .f32 0x00000000#32))) hs (ValueIdx.ix2 k j)
      = v275 (ValueIdx.ix2 k j) + ∑ r : Fin 256,
          (if (v6 (ValueIdx.ix1 r)).toNat = c.val * 1024 + k.val then (1 : EReal) else 0) * M (ValueIdx.ix2 r j) := by
  rw [shapeCast_self, addf_apply]
  refine congrArg (fun z => v275 (ValueIdx.ix2 k j) + z) ?_
  refine (MatmulColsByCols.matmul_cols_apply w none _ M k j).trans ?_
  refine Finset.sum_congr rfl fun r _ => ?_
  rw [onehot_entry]
  by_cases h : (v6 (ValueIdx.ix1 r)).toNat = c.val * 1024 + k.val
  · rw [if_pos h, if_pos ((word_eq_chunk _ c k).mpr h)]
  · rw [if_neg h, if_neg (fun e => h ((word_eq_chunk _ c k).mp e))]

/-! ## The scatter's ten steps -/

/-- The scatter's step into chunk 0, at `(k, j)`, the messages being the perceptron's payload: the chunk's entry as
    loaded plus the messages of the tile's rows whose word is `0*1024 + k`. -/
theorem pay25_apply (v6 : IVec S256 32) (v196 : FVec Ideal S256x128 .f32) (cst_57 : Ideal .f32)
    (v199 : Vec Ideal S128x128 .f32) (v201 : Vec Ideal S1x128 .f32) (v207 : Vec Ideal S128x128 .f32)
    (v209 : Vec Ideal S1x128 .f32) (v275 : Vec Ideal S1024x128 .f32) (k : Fin 1024) (j : Fin 128) :
    Gen.k2_pay25 v6 v196 cst_57 v199 v201 v207 v209 v275 (ValueIdx.ix2 k j) = v275 (ValueIdx.ix2 k j) + ∑ r : Fin 256,
      (if (v6 (ValueIdx.ix1 r)).toNat = (0 : Fin 10).val * 1024 + k.val then (1 : EReal) else 0)
        * Gen.k2_pay24 v196 cst_57 v199 v201 v207 v209 (ValueIdx.ix2 r j) := by
  unfold Gen.k2_pay25
  exact scatter_core Gen.dot_S256x1024_S256x128_S1024x128_0_0_1_1_n_n_wf Gen.shapeCasts_S1024x128_S1024x128 0 v6 (Gen.k2_pay24 v196 cst_57 v199 v201 v207 v209) v275 k j

/-- The scatter's step into chunk 1, at `(k, j)`, the messages being the perceptron's payload: the chunk's entry as
    loaded plus the messages of the tile's rows whose word is `1*1024 + k`. -/
theorem pay26_apply (v6 : IVec S256 32) (v196 : FVec Ideal S256x128 .f32) (cst_57 : Ideal .f32)
    (v199 : Vec Ideal S128x128 .f32) (v201 : Vec Ideal S1x128 .f32) (v207 : Vec Ideal S128x128 .f32)
    (v209 : Vec Ideal S1x128 .f32) (v275 : Vec Ideal S1024x128 .f32) (k : Fin 1024) (j : Fin 128) :
    Gen.k2_pay26 v6 v196 cst_57 v199 v201 v207 v209 v275 (ValueIdx.ix2 k j) = v275 (ValueIdx.ix2 k j) + ∑ r : Fin 256,
      (if (v6 (ValueIdx.ix1 r)).toNat = (1 : Fin 10).val * 1024 + k.val then (1 : EReal) else 0)
        * Gen.k2_pay24 v196 cst_57 v199 v201 v207 v209 (ValueIdx.ix2 r j) := by
  unfold Gen.k2_pay26
  exact scatter_core Gen.dot_S256x1024_S256x128_S1024x128_0_0_1_1_n_n_wf Gen.shapeCasts_S1024x128_S1024x128 1 v6 (Gen.k2_pay24 v196 cst_57 v199 v201 v207 v209) v275 k j

/-- The scatter's step into chunk 2, at `(k, j)`, the messages being the perceptron's payload: the chunk's entry as
    loaded plus the messages of the tile's rows whose word is `2*1024 + k`. -/
theorem pay27_apply (v6 : IVec S256 32) (v196 : FVec Ideal S256x128 .f32) (cst_57 : Ideal .f32)
    (v199 : Vec Ideal S128x128 .f32) (v201 : Vec Ideal S1x128 .f32) (v207 : Vec Ideal S128x128 .f32)
    (v209 : Vec Ideal S1x128 .f32) (v275 : Vec Ideal S1024x128 .f32) (k : Fin 1024) (j : Fin 128) :
    Gen.k2_pay27 v6 v196 cst_57 v199 v201 v207 v209 v275 (ValueIdx.ix2 k j) = v275 (ValueIdx.ix2 k j) + ∑ r : Fin 256,
      (if (v6 (ValueIdx.ix1 r)).toNat = (2 : Fin 10).val * 1024 + k.val then (1 : EReal) else 0)
        * Gen.k2_pay24 v196 cst_57 v199 v201 v207 v209 (ValueIdx.ix2 r j) := by
  unfold Gen.k2_pay27
  exact scatter_core Gen.dot_S256x1024_S256x128_S1024x128_0_0_1_1_n_n_wf Gen.shapeCasts_S1024x128_S1024x128 2 v6 (Gen.k2_pay24 v196 cst_57 v199 v201 v207 v209) v275 k j

/-- The scatter's step into chunk 3, at `(k, j)`: the chunk's entry as loaded plus the messages of the tile's rows
    whose word is `3*1024 + k`. -/
theorem pay28_apply (v6 : IVec S256 32) (v212 : FVec Ideal S256x128 .f32) (v275 : Vec Ideal S1024x128 .f32)
    (k : Fin 1024) (j : Fin 128) :
    Gen.k2_pay28 v6 v212 v275 (ValueIdx.ix2 k j) = v275 (ValueIdx.ix2 k j) + ∑ r : Fin 256,
      (if (v6 (ValueIdx.ix1 r)).toNat = (3 : Fin 10).val * 1024 + k.val then (1 : EReal) else 0) * v212 (ValueIdx.ix2 r j) := by
  unfold Gen.k2_pay28
  exact scatter_core Gen.dot_S256x1024_S256x128_S1024x128_0_0_1_1_n_n_wf Gen.shapeCasts_S1024x128_S1024x128 3 v6 v212 v275 k j

/-- The scatter's step into chunk 4, at `(k, j)`: the chunk's entry as loaded plus the messages of the tile's rows
    whose word is `4*1024 + k`. -/
theorem pay29_apply (v6 : IVec S256 32) (v212 : FVec Ideal S256x128 .f32) (v275 : Vec Ideal S1024x128 .f32)
    (k : Fin 1024) (j : Fin 128) :
    Gen.k2_pay29 v6 v212 v275 (ValueIdx.ix2 k j) = v275 (ValueIdx.ix2 k j) + ∑ r : Fin 256,
      (if (v6 (ValueIdx.ix1 r)).toNat = (4 : Fin 10).val * 1024 + k.val then (1 : EReal) else 0) * v212 (ValueIdx.ix2 r j) := by
  unfold Gen.k2_pay29
  exact scatter_core Gen.dot_S256x1024_S256x128_S1024x128_0_0_1_1_n_n_wf Gen.shapeCasts_S1024x128_S1024x128 4 v6 v212 v275 k j

/-- The scatter's step into chunk 5, at `(k, j)`: the chunk's entry as loaded plus the messages of the tile's rows
    whose word is `5*1024 + k`. -/
theorem pay30_apply (v6 : IVec S256 32) (v212 : FVec Ideal S256x128 .f32) (v275 : Vec Ideal S1024x128 .f32)
    (k : Fin 1024) (j : Fin 128) :
    Gen.k2_pay30 v6 v212 v275 (ValueIdx.ix2 k j) = v275 (ValueIdx.ix2 k j) + ∑ r : Fin 256,
      (if (v6 (ValueIdx.ix1 r)).toNat = (5 : Fin 10).val * 1024 + k.val then (1 : EReal) else 0) * v212 (ValueIdx.ix2 r j) := by
  unfold Gen.k2_pay30
  exact scatter_core Gen.dot_S256x1024_S256x128_S1024x128_0_0_1_1_n_n_wf Gen.shapeCasts_S1024x128_S1024x128 5 v6 v212 v275 k j

/-- The scatter's step into chunk 6, at `(k, j)`: the chunk's entry as loaded plus the messages of the tile's rows
    whose word is `6*1024 + k`. -/
theorem pay31_apply (v6 : IVec S256 32) (v212 : FVec Ideal S256x128 .f32) (v275 : Vec Ideal S1024x128 .f32)
    (k : Fin 1024) (j : Fin 128) :
    Gen.k2_pay31 v6 v212 v275 (ValueIdx.ix2 k j) = v275 (ValueIdx.ix2 k j) + ∑ r : Fin 256,
      (if (v6 (ValueIdx.ix1 r)).toNat = (6 : Fin 10).val * 1024 + k.val then (1 : EReal) else 0) * v212 (ValueIdx.ix2 r j) := by
  unfold Gen.k2_pay31
  exact scatter_core Gen.dot_S256x1024_S256x128_S1024x128_0_0_1_1_n_n_wf Gen.shapeCasts_S1024x128_S1024x128 6 v6 v212 v275 k j

/-- The scatter's step into chunk 7, at `(k, j)`: the chunk's entry as loaded plus the messages of the tile's rows
    whose word is `7*1024 + k`. -/
theorem pay32_apply (v6 : IVec S256 32) (v212 : FVec Ideal S256x128 .f32) (v275 : Vec Ideal S1024x128 .f32)
    (k : Fin 1024) (j : Fin 128) :
    Gen.k2_pay32 v6 v212 v275 (ValueIdx.ix2 k j) = v275 (ValueIdx.ix2 k j) + ∑ r : Fin 256,
      (if (v6 (ValueIdx.ix1 r)).toNat = (7 : Fin 10).val * 1024 + k.val then (1 : EReal) else 0) * v212 (ValueIdx.ix2 r j) := by
  unfold Gen.k2_pay32
  exact scatter_core Gen.dot_S256x1024_S256x128_S1024x128_0_0_1_1_n_n_wf Gen.shapeCasts_S1024x128_S1024x128 7 v6 v212 v275 k j

/-- The scatter's step into chunk 8, at `(k, j)`: the chunk's entry as loaded plus the messages of the tile's rows
    whose word is `8*1024 + k`. -/
theorem pay33_apply (v6 : IVec S256 32) (v212 : FVec Ideal S256x128 .f32) (v275 : Vec Ideal S1024x128 .f32)
    (k : Fin 1024) (j : Fin 128) :
    Gen.k2_pay33 v6 v212 v275 (ValueIdx.ix2 k j) = v275 (ValueIdx.ix2 k j) + ∑ r : Fin 256,
      (if (v6 (ValueIdx.ix1 r)).toNat = (8 : Fin 10).val * 1024 + k.val then (1 : EReal) else 0) * v212 (ValueIdx.ix2 r j) := by
  unfold Gen.k2_pay33
  exact scatter_core Gen.dot_S256x1024_S256x128_S1024x128_0_0_1_1_n_n_wf Gen.shapeCasts_S1024x128_S1024x128 8 v6 v212 v275 k j

/-- The scatter's step into chunk 9, at `(k, j)`: the chunk's entry as loaded plus the messages of the tile's rows
    whose word is `9*1024 + k`. -/
theorem pay34_apply (v6 : IVec S256 32) (v212 : FVec Ideal S256x128 .f32) (v275 : Vec Ideal S1024x128 .f32)
    (k : Fin 1024) (j : Fin 128) :
    Gen.k2_pay34 v6 v212 v275 (ValueIdx.ix2 k j) = v275 (ValueIdx.ix2 k j) + ∑ r : Fin 256,
      (if (v6 (ValueIdx.ix1 r)).toNat = (9 : Fin 10).val * 1024 + k.val then (1 : EReal) else 0) * v212 (ValueIdx.ix2 r j) := by
  unfold Gen.k2_pay34
  exact scatter_core Gen.dot_S256x1024_S256x128_S1024x128_0_0_1_1_n_n_wf Gen.shapeCasts_S1024x128_S1024x128 9 v6 v212 v275 k j

/-! ## The perceptron -/

/-- The first layer's parameters as the tile body reads them: three weight matrices, and three bias rows each laid out
    as a `[1, 128]` array. -/
def kWeights2 (W0 : Vec Ideal S256x128 .f32) (b0 : Vec Ideal S1x128 .f32) (W1 : Vec Ideal S128x128 .f32)
    (b1 : Vec Ideal S1x128 .f32) (W2 : Vec Ideal S128x128 .f32) (b2 : Vec Ideal S1x128 .f32) : Spec.Weights 128 128 where
  W0 := fun l h => W0 (ValueIdx.ix2 l h)
  b0 := fun h => b0 (ValueIdx.ix2 (0 : Fin 1) h)
  W1 := fun l h => W1 (ValueIdx.ix2 l h)
  b1 := fun h => b1 (ValueIdx.ix2 (0 : Fin 1) h)
  W2 := fun l h => W2 (ValueIdx.ix2 l h)
  b2 := fun h => b2 (ValueIdx.ix2 (0 : Fin 1) h)

/-- Row `r` of the feature matrix (the target's row, then source minus target, side by side) is the feature vector of
    the two rows. -/
theorem feats_entry (xi xj : FVec Ideal S256x128 .f32) (r : Fin 256) (l : Fin (128 + 128)) :
    concatenate S256x256 1 [⟨S256x128, xi⟩, ⟨S256x128, subf xj xi⟩] Gen.concatenates_S256x128_S256x128_S256x256_d1 (ValueIdx.ix2 r l)
      = Spec.feats (fun j => xi (ValueIdx.ix2 r j)) (fun j => xj (ValueIdx.ix2 r j)) l := by
  unfold Spec.feats
  refine Fin.addCases (fun a => ?_) (fun a => ?_) l
  · rw [Fin.append_left]
    refine concatenate_pair_apply_left (t := S256x256) 1 xi (subf xj xi) _ _ rfl (ValueIdx.ix2 r a) fun b => ?_
    match b with
    | ⟨0, _⟩ => rfl
    | ⟨1, _⟩ => rfl
  · rw [Fin.append_right]
    refine (concatenate_pair_apply_right (t := S256x256) 1 xi (subf xj xi) _ _ rfl rfl (ValueIdx.ix2 r a)
      (fun b hb => ?_) ?_).trans ?_
    · match b with
      | ⟨0, _⟩ => rfl
      | ⟨1, _⟩ => exact absurd rfl hb
    · exact Nat.add_comm _ _
    · rfl

/-- An affine layer on 256 rows, of any input width `K` and output width `N`: the product with a `K × N` matrix into a
    zero accumulator, plus a bias row repeated down the rows, read at `(r, h)`. -/
theorem dense_apply {K N : ℕ} (w : DotDims.WF ⟨2, ![256, K]⟩ ⟨2, ![K, N]⟩ ⟨2, ![256, N]⟩ [1] [0] [0] [1] [] [])
    (h1 : (⟨2, ![1, N]⟩ : Shape).ShapeCasts ⟨2, ![1, N]⟩) (hb : (⟨2, ![1, N]⟩ : Shape).Broadcasts ⟨2, ![256, N]⟩)
    (A : FVec Ideal ⟨2, ![256, K]⟩ .f32) (W : FVec Ideal ⟨2, ![K, N]⟩ .f32) (b : FVec Ideal ⟨2, ![1, N]⟩ .f32)
    (r : Fin 256) (h : Fin N) :
    addf (matmul (⟨[1], [0], [0], [1], [], [], w⟩ : DotDims _ _ _) none A W
          (constant (F := Ideal) ⟨2, ![256, N]⟩ .f32 0x00000000#32))
        (broadcastTo ⟨2, ![256, N]⟩ (shapeCast ⟨2, ![1, N]⟩ b h1) hb) (ValueIdx.ix2 r h)
      = (∑ l : Fin K, A (ValueIdx.ix2 r l) * W (ValueIdx.ix2 l h)) + b (ValueIdx.ix2 (0 : Fin 1) h) := by
  rw [addf_apply, shapeCast_self, broadcastTo_1b_ab_apply]
  refine congrArg (fun z => z + b (ValueIdx.ix2 (0 : Fin 1) h)) ?_
  exact DenseLayer.matmul_rows_apply w none A W r h

/-- The first affine layer of the tile, before the rectifier, at `(r, h)`. -/
theorem pay23_apply (v133 : FVec Ideal S256x128 .f32) (v188 : Vec Ideal S256x128 .f32) (v191 : Vec Ideal S256x128 .f32)
    (v193 : Vec Ideal S1x128 .f32) (r : Fin 256) (h : Fin 128) :
    Gen.k2_pay23 v133 v188 v191 v193 (ValueIdx.ix2 r h)
      = (∑ l : Fin (128 + 128), Spec.feats (fun j => v188 (ValueIdx.ix2 r j)) (fun j => v133 (ValueIdx.ix2 r j)) l * v191 (ValueIdx.ix2 l h))
        + v193 (ValueIdx.ix2 (0 : Fin 1) h) := by
  unfold Gen.k2_pay23
  refine (dense_apply Gen.dot_S256x256_S256x128_S256x128_1_0_0_1_n_n_wf Gen.shapeCasts_S1x128_S1x128
    Gen.broadcasts_S1x128_S256x128 _ v191 v193 r h).trans ?_
  refine congrArg (fun z => z + v193 (ValueIdx.ix2 (0 : Fin 1) h)) ?_
  refine Finset.sum_congr rfl fun l _ => ?_
  exact congrArg (fun z => z * v191 (ValueIdx.ix2 l h)) (feats_entry v188 v133 r l)

/-- The rest of the perceptron — rectifier, second affine layer, rectifier, third affine layer — at `(r, j)`, over the
    first layer's values `v196`; `cst_57` is the word the first rectifier compares with. -/
theorem pay24_apply (v196 : FVec Ideal S256x128 .f32) (cst_57 : Ideal .f32) (v199 : Vec Ideal S128x128 .f32)
    (v201 : Vec Ideal S1x128 .f32) (v207 : Vec Ideal S128x128 .f32) (v209 : Vec Ideal S1x128 .f32)
    (r : Fin 256) (j : Fin 128) :
    Gen.k2_pay24 v196 cst_57 v199 v201 v207 v209 (ValueIdx.ix2 r j)
      = (∑ k : Fin 128,
            max ((∑ l : Fin 128, max (v196 (ValueIdx.ix2 r l)) cst_57 * v199 (ValueIdx.ix2 l k)) + v201 (ValueIdx.ix2 (0 : Fin 1) k)) 0
              * v207 (ValueIdx.ix2 k j))
        + v209 (ValueIdx.ix2 (0 : Fin 1) j) := by
  unfold Gen.k2_pay24
  refine (dense_apply Gen.dot_S256x128_S128x128_S256x128_1_0_0_1_n_n_wf Gen.shapeCasts_S1x128_S1x128
    Gen.broadcasts_S1x128_S256x128 _ v207 v209 r j).trans ?_
  refine congrArg (fun z => z + v209 (ValueIdx.ix2 (0 : Fin 1) j)) ?_
  refine Finset.sum_congr rfl fun k _ => ?_
  refine congrArg (fun z => z * v207 (ValueIdx.ix2 k j)) ?_
  rw [maximumf_apply, broadcast_apply]
  refine congrArg₂ max ?_ Ideal.ofBits_zero_f32
  refine (dense_apply Gen.dot_S256x128_S128x128_S256x128_1_0_0_1_n_n_wf Gen.shapeCasts_S1x128_S1x128
    Gen.broadcasts_S1x128_S256x128 _ v199 v201 r k).trans ?_
  refine congrArg (fun z => z + v201 (ValueIdx.ix2 (0 : Fin 1) k)) ?_
  refine Finset.sum_congr rfl fun l _ => ?_
  rfl

/-- The zero word is the number zero. -/
theorem cst57_zero : (Scalar.ofBits .f32 0x00000000#32 : Ideal .f32) = 0 := Ideal.ofBits_zero_f32

/-- The tile's messages: row `r` of the composed payloads is the perceptron of the feature vector of row `r` of the
    two picked blocks (`xi` the targets' rows, `xj` the sources' rows). -/
theorem messages_apply (xj : FVec Ideal S256x128 .f32) (xi : Vec Ideal S256x128 .f32) (W0 : Vec Ideal S256x128 .f32)
    (b0 : Vec Ideal S1x128 .f32) (cst_57 : Ideal .f32) (hc : cst_57 = 0) (W1 : Vec Ideal S128x128 .f32)
    (b1 : Vec Ideal S1x128 .f32) (W2 : Vec Ideal S128x128 .f32) (b2 : Vec Ideal S1x128 .f32) (r : Fin 256) (j : Fin 128) :
    Gen.k2_pay24 (Gen.k2_pay23 xj xi W0 b0) cst_57 W1 b1 W2 b2 (ValueIdx.ix2 r j)
      = Spec.mlp (kWeights2 W0 b0 W1 b1 W2 b2) (Spec.feats (fun j => xi (ValueIdx.ix2 r j)) (fun j => xj (ValueIdx.ix2 r j))) j := by
  rw [pay24_apply, hc]
  unfold Spec.mlp Spec.relu kWeights2
  refine congrArg (fun z => z + b2 (ValueIdx.ix2 (0 : Fin 1) j)) ?_
  refine Finset.sum_congr rfl fun k _ => ?_
  refine congrArg (fun z => max z 0 * W2 (ValueIdx.ix2 k j)) ?_
  refine congrArg (fun z => z + b1 (ValueIdx.ix2 (0 : Fin 1) k)) ?_
  refine Finset.sum_congr rfl fun l _ => ?_
  refine congrArg (fun z => max z 0 * W1 (ValueIdx.ix2 l k)) ?_
  exact pay23_apply xj xi W0 b0 r l

/-- The same over named intermediate values: whenever `v196` is the first affine layer of the two blocks and the
    first rectifier's word is zero, the second payload at `(r, j)` is the perceptron of row `r`'s feature vector. -/
theorem messages_apply_of (xj : FVec Ideal S256x128 .f32) (xi : Vec Ideal S256x128 .f32) (W0 : Vec Ideal S256x128 .f32)
    (b0 : Vec Ideal S1x128 .f32) (v196 : FVec Ideal S256x128 .f32) (h196 : v196 = Gen.k2_pay23 xj xi W0 b0)
    (cst_57 : Ideal .f32) (hc : cst_57 = 0) (W1 : Vec Ideal S128x128 .f32)
    (b1 : Vec Ideal S1x128 .f32) (W2 : Vec Ideal S128x128 .f32) (b2 : Vec Ideal S1x128 .f32) (r : Fin 256) (j : Fin 128) :
    Gen.k2_pay24 v196 cst_57 W1 b1 W2 b2 (ValueIdx.ix2 r j)
      = Spec.mlp (kWeights2 W0 b0 W1 b1 W2 b2) (Spec.feats (fun j => xi (ValueIdx.ix2 r j)) (fun j => xj (ValueIdx.ix2 r j))) j := by
  subst h196
  exact messages_apply xj xi W0 b0 cst_57 hc W1 b1 W2 b2 r j

/-- The layer's parameters as the tile body reads them are the parameters read off the six arrays, the bias rows being
    the one-axis arrays laid out as one row. -/
theorem kWeights2_eq (W0 : Vec Ideal S256x128 .f32) (b0 : Vec Ideal S1x128 .f32) (W1 : Vec Ideal S128x128 .f32)
    (b1 : Vec Ideal S1x128 .f32) (W2 : Vec Ideal S128x128 .f32) (b2 : Vec Ideal S1x128 .f32)
    (c0 c1 c2 : FVec Ideal (⟨1, ![128]⟩ : Shape) .f32)
    (h0 : ∀ h : Fin 128, b0 (ValueIdx.ix2 (0 : Fin 1) h) = c0 (ValueIdx.ix1 h))
    (h1 : ∀ h : Fin 128, b1 (ValueIdx.ix2 (0 : Fin 1) h) = c1 (ValueIdx.ix1 h))
    (h2 : ∀ h : Fin 128, b2 (ValueIdx.ix2 (0 : Fin 1) h) = c2 (ValueIdx.ix1 h)) :
    kWeights2 W0 b0 W1 b1 W2 b2 = Spec.weightsOf W0 c0 W1 c1 W2 c2 := by
  unfold kWeights2 Spec.weightsOf Spec.matOf Spec.rowOf
  congr 1
  · exact funext h0
  · exact funext h1
  · exact funext h2

end Cert.KernelIdeal.PayI2

end
-- ==== Proof.HandedI2.lean ====
import proofs.«414286_j65627100283289_3_alg».proof.Proof.ValueCommon
import proofs.«414286_j65627100283289_3_alg».proof.Proof.PayMlpI2

/-!
# What region 2 is handed

The third kernel region's eleven operand arrays as values — the two prefetched tables, the two sorted columns, the
padded node table, the three weight blocks and the three bias rows —, the layer's parameters and input they carry, and
the facts about them the tile arithmetic consumes: the columns at an edge of a tile, the chunk gate on the tile's chunk
range, the node table on the real rows, the parameters. The region's own analysis speaks of these values only.
-/

set_option maxRecDepth 4096

noncomputable section

namespace Cert.KernelIdeal.KHost

open Idealize.ShloMosaic Idealize.ShloMosaic.TcCoe
open Idealize.SL.Sem
open Cert.KernelIdeal Cert.KernelIdeal.Gen
open Cert.Spec

section Handed2

/-- The buffers' contents when the region is entered. -/
abbrev ent2 (m : (ℓ : Loc nD τ sig) → Buf (Elt Ideal) ℓ) (outs : Gen.Outs (F := Ideal)) :
    (c : Dev nD) → (b : Ref sig .tc) → Buf (Elt Ideal) ((c : Thread nD τ).loc b) := fun c b => V14 m outs c b

/-- The two tables' contents as the region prefetches them. -/
def tbl2 (m : (ℓ : Loc nD τ sig) → Buf (Elt Ideal) ℓ) (outs : Gen.Outs (F := Ideal)) (c : Dev nD) : (pcfg2 (F := Ideal)).Adm :=
  ⟨fun k => V14 m outs c (pre2.ref k), trivial⟩

/-- The two prefetched tables. -/
abbrev opLo2 (m : (ℓ : Loc nD τ sig) → Buf (Elt Ideal) ℓ) (outs : Gen.Outs (F := Ideal)) (c : Dev nD) : Vec Ideal S1250 .i32 := V14 m outs c main_v31
abbrev opHi2 (m : (ℓ : Loc nD τ sig) → Buf (Elt Ideal) ℓ) (outs : Gen.Outs (F := Ideal)) (c : Dev nD) : Vec Ideal S1250 .i32 := V14 m outs c main_v39
/-- The sorted sources' and targets' columns. -/
abbrev opSrc2 (m : (ℓ : Loc nD τ sig) → Buf (Elt Ideal) ℓ) (outs : Gen.Outs (F := Ideal)) (c : Dev nD) : Vec Ideal S320000x1 .i32 := V14 m outs c main_v40
abbrev opDst2 (m : (ℓ : Loc nD τ sig) → Buf (Elt Ideal) ℓ) (outs : Gen.Outs (F := Ideal)) (c : Dev nD) : Vec Ideal S320000x1 .i32 := V14 m outs c main_v41
/-- The padded node table. -/
abbrev opX2 (m : (ℓ : Loc nD τ sig) → Buf (Elt Ideal) ℓ) (outs : Gen.Outs (F := Ideal)) (c : Dev nD) : Vec Ideal S10240x128 .f32 := V14 m outs c main_v59
/-- The three weight blocks and the three bias rows. -/
abbrev opWa2 (m : (ℓ : Loc nD τ sig) → Buf (Elt Ideal) ℓ) (outs : Gen.Outs (F := Ideal)) (c : Dev nD) : Vec Ideal S256x128 .f32 := V14 m outs c main_arg16
abbrev opBa2 (m : (ℓ : Loc nD τ sig) → Buf (Elt Ideal) ℓ) (outs : Gen.Outs (F := Ideal)) (c : Dev nD) : Vec Ideal S1x128 .f32 := V14 m outs c main_v56
abbrev opWb2 (m : (ℓ : Loc nD τ sig) → Buf (Elt Ideal) ℓ) (outs : Gen.Outs (F := Ideal)) (c : Dev nD) : Vec Ideal S128x128 .f32 := V14 m outs c main_arg18
abbrev opBb2 (m : (ℓ : Loc nD τ sig) → Buf (Elt Ideal) ℓ) (outs : Gen.Outs (F := Ideal)) (c : Dev nD) : Vec Ideal S1x128 .f32 := V14 m outs c main_v57
abbrev opWc2 (m : (ℓ : Loc nD τ sig) → Buf (Elt Ideal) ℓ) (outs : Gen.Outs (F := Ideal)) (c : Dev nD) : Vec Ideal S128x128 .f32 := V14 m outs c main_arg20
abbrev opBc2 (m : (ℓ : Loc nD τ sig) → Buf (Elt Ideal) ℓ) (outs : Gen.Outs (F := Ideal)) (c : Dev nD) : Vec Ideal S1x128 .f32 := V14 m outs c main_v58

/-- The layer's parameters and its input. -/
abbrev layerP2 (m : (ℓ : Loc nD τ sig) → Buf (Elt Ideal) ℓ) (outs : Gen.Outs (F := Ideal)) (c : Dev nD) : Weights 128 128 := par2 m c
abbrev layerX2 (m : (ℓ : Loc nD τ sig) → Buf (Elt Ideal) ℓ) (outs : Gen.Outs (F := Ideal)) (c : Dev nD) : Mat 10000 128 := inp2 m outs c

variable (m : (ℓ : Loc nD τ sig) → Buf (Elt Ideal) ℓ) (outs : Gen.Outs (F := Ideal)) (c : Dev nD)
variable (h : InRange (m ((c : Thread nD τ).loc main_arg2)))

theorem handed2_dst (T : Fin 1250) (r : Fin 256) :
    (opDst2 m outs c (ValueIdx.ix2 (tileEdge T r) (0 : Fin 1))).toNat = keyOf m c h (tileEdge T r) :=
  (congrArg (fun v : Vec Ideal S320000x1 .i32 => (v (ValueIdx.ix2 (tileEdge T r) (0 : Fin 1))).toNat) (V14_main_v41 m outs c)).trans
    (along_dst m c h T r)

theorem handed2_src (T : Fin 1250) (r : Fin 256) :
    (opSrc2 m outs c (ValueIdx.ix2 (tileEdge T r) (0 : Fin 1))).toNat = (srcAlong m c h (tileEdge T r)).val :=
  (congrArg (fun v : Vec Ideal S320000x1 .i32 => (v (ValueIdx.ix2 (tileEdge T r) (0 : Fin 1))).toNat) (V14_main_v40 m outs c)).trans
    (along_src m c h T r)

theorem handed2_gate (T : Fin 1250) :
    ∀ k : Fin 10, keyOf m c h (tileEdge T 0) / 1024 ≤ k.val → k.val ≤ keyOf m c h (tileEdge T 255) / 1024 →
      gateWord (opLo2 m outs c (ValueIdx.ix1 T)) (opHi2 m outs c (ValueIdx.ix1 T)) (BitVec.ofNat 32 k.val) = 1#1 := by
  have e1 : opLo2 m outs c = (V8 m c main_v31 : Vec Ideal S1250 .i32) := V14_main_v31 m outs c
  have e2 : opHi2 m outs c = (V8 m c main_v39 : Vec Ideal S1250 .i32) := V14_main_v39 m outs c
  rw [e1, e2]
  exact along_gate m c h T

theorem handed2_x (v : Fin 10000) :
    (fun j : Fin 128 => opX2 m outs c (ValueIdx.ix2 (⟨v.val, Nat.lt_trans v.isLt (by norm_num)⟩ : Fin 10240) j)) = layerX2 m outs c v :=
  funext fun j => rfl

theorem handed2_P :
    PayI2.kWeights2 (opWa2 m outs c) (opBa2 m outs c) (opWb2 m outs c) (opBb2 m outs c) (opWc2 m outs c) (opBc2 m outs c)
      = layerP2 m outs c := by
  rw [PayI2.kWeights2_eq (opWa2 m outs c) (opBa2 m outs c) (opWb2 m outs c) (opBb2 m outs c) (opWc2 m outs c) (opBc2 m outs c)
    (m ((c : Thread nD τ).loc main_arg17)) (m ((c : Thread nD τ).loc main_arg19)) (m ((c : Thread nD τ).loc main_arg21))
    (V14_main_v56_apply m outs c) (V14_main_v57_apply m outs c) (V14_main_v58_apply m outs c)]
  show weightsOf (d := 128) (o := 128) (V14 m outs c main_arg16) _ (V14 m outs c main_arg18) _ (V14 m outs c main_arg20) _ = _
  rw [V14_main_arg16, V14_main_arg18, V14_main_arg20]

end Handed2

end Cert.KernelIdeal.KHost

end
-- ==== Proof.GeomI2.lean ====
import proofs.«414286_j65627100283289_3_alg».proof.Proof.Gen.KernelIdeal.Launch
import proofs.«414286_j65627100283289_3_alg».proof.Proof.Gen.KernelIdeal.Skeleton
import Idealize.ShloMosaic.Lib.Pipeline.Value
import Idealize.ShloMosaic.Lib.Pipeline.Frame
import Idealize.ShloMosaic.Lib.ValueIdx

/-!
# Region 2's window geometry

The region's grid is 2 × 625: point `t` is tile `t % 625` of core `t / 625`. Ten windows: the tile's two index
columns (blocks of 256 rows, the block at point `t` being block `t`), the padded node table and the six parameter
arrays (each one block, the whole array), and the output (one block per core). None of the index maps reads the
prefetched tables, so every fact here holds at any admissible contents `a` of them. The facts: each window's block
index at a point; when a block is fetched or written back and where the output's staging buffer is left alone; which
array element a block's element is; which array indices the output's block at a point holds, and that the blocks
written back hold every index.
-/

noncomputable section

namespace Cert.KernelIdeal.Gen

open Idealize.ShloMosaic Idealize.ShloMosaic.TcCoe

variable {F : FTy → Type} [FloatOps F]

/-! ## 1. The schedule: block indices, fetches, write-backs, idle points -/

/-- The grid has 1250 points; point `t` is core `t / 625`, tile `t % 625`. -/
theorem coords2_0 : ∀ t : Fin grid2.N, ((grid2.coords t) 0).val = t.val / 625 := (by decide +kernel : ∀ t : Fin grid2.N, _)
theorem coords2_1 : ∀ t : Fin grid2.N, ((grid2.coords t) 1).val = t.val % 625 := (by decide +kernel : ∀ t : Fin grid2.N, _)

theorem lt_N2 (a : (pcfg2 (F := F)).Adm) (t : Fin (cfg2 a).N) : t.val < 1250 := by
  have h : t.val < grid2.N := t.isLt
  rwa [N_2] at h

/-- Each window's block index at a point is its printed index map at the point's coordinates, whatever the tables hold. -/
theorem index2_0 (a : (pcfg2 (F := F)).Adm) (t : Fin (cfg2 a).N) : ((cfg2 a).win 0).index t = cc2_transform_0 (grid2.coords t) := rfl
theorem index2_1 (a : (pcfg2 (F := F)).Adm) (t : Fin (cfg2 a).N) : ((cfg2 a).win 1).index t = cc2_transform_1 (grid2.coords t) := rfl
theorem index2_2 (a : (pcfg2 (F := F)).Adm) (t : Fin (cfg2 a).N) : ((cfg2 a).win 2).index t = cc2_transform_2 (grid2.coords t) := rfl
theorem index2_3 (a : (pcfg2 (F := F)).Adm) (t : Fin (cfg2 a).N) : ((cfg2 a).win 3).index t = cc2_transform_3 (grid2.coords t) := rfl
theorem index2_4 (a : (pcfg2 (F := F)).Adm) (t : Fin (cfg2 a).N) : ((cfg2 a).win 4).index t = cc2_transform_4 (grid2.coords t) := rfl
theorem index2_5 (a : (pcfg2 (F := F)).Adm) (t : Fin (cfg2 a).N) : ((cfg2 a).win 5).index t = cc2_transform_5 (grid2.coords t) := rfl
theorem index2_6 (a : (pcfg2 (F := F)).Adm) (t : Fin (cfg2 a).N) : ((cfg2 a).win 6).index t = cc2_transform_6 (grid2.coords t) := rfl
theorem index2_7 (a : (pcfg2 (F := F)).Adm) (t : Fin (cfg2 a).N) : ((cfg2 a).win 7).index t = cc2_transform_7 (grid2.coords t) := rfl
theorem index2_8 (a : (pcfg2 (F := F)).Adm) (t : Fin (cfg2 a).N) : ((cfg2 a).win 8).index t = cc2_transform_8 (grid2.coords t) := rfl
theorem index2_9 (a : (pcfg2 (F := F)).Adm) (t : Fin (cfg2 a).N) : ((cfg2 a).win 9).index t = cc2_transform_9 (grid2.coords t) := rfl

/-- The printed index maps in closed form at every grid point: the two index columns' block is the point's own
    number, the whole-array windows sit at block zero, the output's block is the core's. -/
theorem cc2_transform_0_eq : ∀ t : Fin grid2.N, cc2_transform_0 (grid2.coords t) = ![t.val, 0] := (by decide +kernel : ∀ t : Fin grid2.N, _)
theorem cc2_transform_1_eq : ∀ t : Fin grid2.N, cc2_transform_1 (grid2.coords t) = ![t.val, 0] := (by decide +kernel : ∀ t : Fin grid2.N, _)
theorem cc2_transform_2_eq : ∀ t : Fin grid2.N, cc2_transform_2 (grid2.coords t) = ![0, 0] := (by decide +kernel : ∀ t : Fin grid2.N, _)
theorem cc2_transform_3_eq : ∀ t : Fin grid2.N, cc2_transform_3 (grid2.coords t) = ![0, 0] := (by decide +kernel : ∀ t : Fin grid2.N, _)
theorem cc2_transform_4_eq : ∀ t : Fin grid2.N, cc2_transform_4 (grid2.coords t) = ![0, 0] := (by decide +kernel : ∀ t : Fin grid2.N, _)
theorem cc2_transform_5_eq : ∀ t : Fin grid2.N, cc2_transform_5 (grid2.coords t) = ![0, 0] := (by decide +kernel : ∀ t : Fin grid2.N, _)
theorem cc2_transform_6_eq : ∀ t : Fin grid2.N, cc2_transform_6 (grid2.coords t) = ![0, 0] := (by decide +kernel : ∀ t : Fin grid2.N, _)
theorem cc2_transform_7_eq : ∀ t : Fin grid2.N, cc2_transform_7 (grid2.coords t) = ![0, 0] := (by decide +kernel : ∀ t : Fin grid2.N, _)
theorem cc2_transform_8_eq : ∀ t : Fin grid2.N, cc2_transform_8 (grid2.coords t) = ![0, 0] := (by decide +kernel : ∀ t : Fin grid2.N, _)
theorem cc2_transform_9_eq : ∀ t : Fin grid2.N, cc2_transform_9 (grid2.coords t) = ![t.val / 625, 0, 0] := (by decide +kernel : ∀ t : Fin grid2.N, _)

/-- The schedules of the closed index maps at every grid point. -/
theorem fetchOf2_0 : ∀ t : Fin grid2.N, Pipeline.Window.fetchOf grid2 false cc2_transform_0 t = true := (by decide +kernel : ∀ t : Fin grid2.N, _)
theorem fetchOf2_1 : ∀ t : Fin grid2.N, Pipeline.Window.fetchOf grid2 false cc2_transform_1 t = true := (by decide +kernel : ∀ t : Fin grid2.N, _)
theorem fetchOf2_2 : ∀ t : Fin grid2.N, Pipeline.Window.fetchOf grid2 false cc2_transform_2 t = decide (t.val = 0) := (by decide +kernel : ∀ t : Fin grid2.N, _)
theorem fetchOf2_3 : ∀ t : Fin grid2.N, Pipeline.Window.fetchOf grid2 false cc2_transform_3 t = decide (t.val = 0) := (by decide +kernel : ∀ t : Fin grid2.N, _)
theorem fetchOf2_4 : ∀ t : Fin grid2.N, Pipeline.Window.fetchOf grid2 false cc2_transform_4 t = decide (t.val = 0) := (by decide +kernel : ∀ t : Fin grid2.N, _)
theorem fetchOf2_5 : ∀ t : Fin grid2.N, Pipeline.Window.fetchOf grid2 false cc2_transform_5 t = decide (t.val = 0) := (by decide +kernel : ∀ t : Fin grid2.N, _)
theorem fetchOf2_6 : ∀ t : Fin grid2.N, Pipeline.Window.fetchOf grid2 false cc2_transform_6 t = decide (t.val = 0) := (by decide +kernel : ∀ t : Fin grid2.N, _)
theorem fetchOf2_7 : ∀ t : Fin grid2.N, Pipeline.Window.fetchOf grid2 false cc2_transform_7 t = decide (t.val = 0) := (by decide +kernel : ∀ t : Fin grid2.N, _)
theorem fetchOf2_8 : ∀ t : Fin grid2.N, Pipeline.Window.fetchOf grid2 false cc2_transform_8 t = decide (t.val = 0) := (by decide +kernel : ∀ t : Fin grid2.N, _)
theorem flushOf2_9 : ∀ t : Fin grid2.N, Pipeline.Window.flushOf grid2 true cc2_transform_9 t = (decide (t.val = 624) || decide (t.val = 1249)) :=
  (by decide +kernel : ∀ t : Fin grid2.N, _)

/-- The two index columns are fetched at every point. -/
theorem fetch2_0 (a : (pcfg2 (F := F)).Adm) (t : Fin (cfg2 a).N) : ((cfg2 a).win 0).fetch t = true := fetchOf2_0 t
theorem fetch2_1 (a : (pcfg2 (F := F)).Adm) (t : Fin (cfg2 a).N) : ((cfg2 a).win 1).fetch t = true := fetchOf2_1 t

/-- The whole-array windows are fetched at the first point only. -/
theorem fetch2_2 (a : (pcfg2 (F := F)).Adm) (t : Fin (cfg2 a).N) : ((cfg2 a).win 2).fetch t = decide (t.val = 0) := fetchOf2_2 t
theorem fetch2_3 (a : (pcfg2 (F := F)).Adm) (t : Fin (cfg2 a).N) : ((cfg2 a).win 3).fetch t = decide (t.val = 0) := fetchOf2_3 t
theorem fetch2_4 (a : (pcfg2 (F := F)).Adm) (t : Fin (cfg2 a).N) : ((cfg2 a).win 4).fetch t = decide (t.val = 0) := fetchOf2_4 t
theorem fetch2_5 (a : (pcfg2 (F := F)).Adm) (t : Fin (cfg2 a).N) : ((cfg2 a).win 5).fetch t = decide (t.val = 0) := fetchOf2_5 t
theorem fetch2_6 (a : (pcfg2 (F := F)).Adm) (t : Fin (cfg2 a).N) : ((cfg2 a).win 6).fetch t = decide (t.val = 0) := fetchOf2_6 t
theorem fetch2_7 (a : (pcfg2 (F := F)).Adm) (t : Fin (cfg2 a).N) : ((cfg2 a).win 7).fetch t = decide (t.val = 0) := fetchOf2_7 t
theorem fetch2_8 (a : (pcfg2 (F := F)).Adm) (t : Fin (cfg2 a).N) : ((cfg2 a).win 8).fetch t = decide (t.val = 0) := fetchOf2_8 t
/-- The output is never fetched, the inputs never written back. -/
theorem fetch2_9 (a : (pcfg2 (F := F)).Adm) (t : Fin (cfg2 a).N) : ((cfg2 a).win 9).fetch t = false := rfl
theorem flush2_in (a : (pcfg2 (F := F)).Adm) (w : Fin 10) (hw : w ≠ 9) (t : Fin (cfg2 a).N) : ((cfg2 a).win w).flush t = false := by
  match w, hw with
  | 0, _ => rfl | 1, _ => rfl | 2, _ => rfl | 3, _ => rfl | 4, _ => rfl | 5, _ => rfl | 6, _ => rfl | 7, _ => rfl | 8, _ => rfl
  | 9, h => exact absurd rfl h

/-- The output is written back at each core's last tile and nowhere else. -/
theorem flush2_9_eq (a : (pcfg2 (F := F)).Adm) (t : Fin (cfg2 a).N) :
    ((cfg2 a).win 9).flush t = (decide (t.val = 624) || decide (t.val = 1249)) := flushOf2_9 t

theorem flush2_9 (a : (pcfg2 (F := F)).Adm) (t : Fin (cfg2 a).N) : ((cfg2 a).win 9).flush t = true ↔ t.val = 624 ∨ t.val = 1249 := by
  rw [flush2_9_eq a t]
  simp

theorem flush2_9_iff_mod (a : (pcfg2 (F := F)).Adm) (t : Fin (cfg2 a).N) : ((cfg2 a).win 9).flush t = true ↔ t.val % 625 = 624 := by
  rw [flush2_9 a t]
  have := lt_N2 a t
  omega

/-- The body's store condition holds exactly at a core's last tile. -/
theorem k2_cond22_dec : ∀ t : Fin grid2.N, decide (k2_cond22 (grid2.coords t) = 1#1) = decide (t.val % 625 = 624) :=
  (by decide +kernel : ∀ t : Fin grid2.N, _)

theorem k2_cond22_iff (t : Fin grid2.N) : k2_cond22 (grid2.coords t) = 1#1 ↔ t.val % 625 = 624 := by
  have h := k2_cond22_dec t
  simpa using h

theorem k2_cond22_eq_one (t : Fin grid2.N) (h : t.val % 625 = 624) : k2_cond22 (grid2.coords t) = 1#1 := (k2_cond22_iff t).mpr h
theorem k2_cond22_ne_one (t : Fin grid2.N) (h : t.val % 625 ≠ 624) : ¬ k2_cond22 (grid2.coords t) = 1#1 := fun e => h ((k2_cond22_iff t).mp e)

/-- The output window is idle (its staging buffer not stored into) at every point but a core's last tile. -/
theorem idle2_9_dec : ∀ t : Fin grid2.N, idle2 9 (grid2.coords t) = !decide (t.val % 625 = 624) :=
  (by decide +kernel : ∀ t : Fin grid2.N, _)

theorem idle2_9_eq (a : (pcfg2 (F := F)).Adm) (t : Fin (cfg2 a).N) : (cfg2 a).idle 9 (grid2.coords t) = !decide (t.val % 625 = 624) :=
  idle2_9_dec t

theorem idle2_9 (a : (pcfg2 (F := F)).Adm) (t : Fin (cfg2 a).N) : (cfg2 a).idle 9 (grid2.coords t) = true ↔ t.val % 625 ≠ 624 := by
  rw [idle2_9_eq a t]
  simp

/-- No input window is ever idle. -/
theorem idle2_in (a : (pcfg2 (F := F)).Adm) (w : Fin 10) (hw : w ≠ 9) (i : grid2.Coords) : (cfg2 a).idle w i = false := by
  match w, hw with
  | 0, _ => rfl | 1, _ => rfl | 2, _ => rfl | 3, _ => rfl | 4, _ => rfl | 5, _ => rfl | 6, _ => rfl | 7, _ => rfl | 8, _ => rfl
  | 9, h => exact absurd rfl h

/-! ## 2. Which array element a block's element is

On each axis an element of the block at point `t` sits in the array at the block index times the block's size plus its
own coordinate. -/

/-- The block indices, coordinate by coordinate. -/
theorem index2_0_val (a : (pcfg2 (F := F)).Adm) (t : Fin (cfg2 a).N) :
    ((cfg2 a).win 0).index t (0 : Fin 2) = t.val ∧ ((cfg2 a).win 0).index t (1 : Fin 2) = 0 := by
  rw [index2_0, cc2_transform_0_eq]; exact ⟨rfl, rfl⟩
theorem index2_1_val (a : (pcfg2 (F := F)).Adm) (t : Fin (cfg2 a).N) :
    ((cfg2 a).win 1).index t (0 : Fin 2) = t.val ∧ ((cfg2 a).win 1).index t (1 : Fin 2) = 0 := by
  rw [index2_1, cc2_transform_1_eq]; exact ⟨rfl, rfl⟩
theorem index2_2_val (a : (pcfg2 (F := F)).Adm) (t : Fin (cfg2 a).N) :
    ((cfg2 a).win 2).index t (0 : Fin 2) = 0 ∧ ((cfg2 a).win 2).index t (1 : Fin 2) = 0 := by
  rw [index2_2, cc2_transform_2_eq]; exact ⟨rfl, rfl⟩
theorem index2_3_val (a : (pcfg2 (F := F)).Adm) (t : Fin (cfg2 a).N) :
    ((cfg2 a).win 3).index t (0 : Fin 2) = 0 ∧ ((cfg2 a).win 3).index t (1 : Fin 2) = 0 := by
  rw [index2_3, cc2_transform_3_eq]; exact ⟨rfl, rfl⟩
theorem index2_4_val (a : (pcfg2 (F := F)).Adm) (t : Fin (cfg2 a).N) :
    ((cfg2 a).win 4).index t (0 : Fin 2) = 0 ∧ ((cfg2 a).win 4).index t (1 : Fin 2) = 0 := by
  rw [index2_4, cc2_transform_4_eq]; exact ⟨rfl, rfl⟩
theorem index2_5_val (a : (pcfg2 (F := F)).Adm) (t : Fin (cfg2 a).N) :
    ((cfg2 a).win 5).index t (0 : Fin 2) = 0 ∧ ((cfg2 a).win 5).index t (1 : Fin 2) = 0 := by
  rw [index2_5, cc2_transform_5_eq]; exact ⟨rfl, rfl⟩
theorem index2_6_val (a : (pcfg2 (F := F)).Adm) (t : Fin (cfg2 a).N) :
    ((cfg2 a).win 6).index t (0 : Fin 2) = 0 ∧ ((cfg2 a).win 6).index t (1 : Fin 2) = 0 := by
  rw [index2_6, cc2_transform_6_eq]; exact ⟨rfl, rfl⟩
theorem index2_7_val (a : (pcfg2 (F := F)).Adm) (t : Fin (cfg2 a).N) :
    ((cfg2 a).win 7).index t (0 : Fin 2) = 0 ∧ ((cfg2 a).win 7).index t (1 : Fin 2) = 0 := by
  rw [index2_7, cc2_transform_7_eq]; exact ⟨rfl, rfl⟩
theorem index2_8_val (a : (pcfg2 (F := F)).Adm) (t : Fin (cfg2 a).N) :
    ((cfg2 a).win 8).index t (0 : Fin 2) = 0 ∧ ((cfg2 a).win 8).index t (1 : Fin 2) = 0 := by
  rw [index2_8, cc2_transform_8_eq]; exact ⟨rfl, rfl⟩
theorem index2_9_val (a : (pcfg2 (F := F)).Adm) (t : Fin (cfg2 a).N) :
    ((cfg2 a).win 9).index t (0 : Fin 3) = t.val / 625 ∧ ((cfg2 a).win 9).index t (1 : Fin 3) = 0 ∧ ((cfg2 a).win 9).index t (2 : Fin 3) = 0 := by
  rw [index2_9, cc2_transform_9_eq]; exact ⟨rfl, rfl, rfl⟩

/-- Row `r` of the index-column block at point `t` is row `t * 256 + r` of the column: the tile number is the point's. -/
theorem blk2_read_0 (a : (pcfg2 (F := F)).Adm) (t : Fin (cfg2 a).N) (G : S320000x1.Idx → Elt F .i32) (r : Fin 256) :
    (((cfg2 a).win 0).blk t).view.read (Elt F) G (ValueIdx.ix2 r 0)
      = G (ValueIdx.ix2 ⟨t.val * 256 + r.val, by have := lt_N2 a t; omega⟩ 0) := by
  obtain ⟨e0, e1⟩ := index2_0_val a t
  show G ((((cfg2 a).win 0).blk t).view.emb (ValueIdx.ix2 r 0)) = _
  refine congrArg G ?_
  funext d; apply Fin.ext
  match d with
  | ⟨0, _⟩ => show ((cfg2 a).win 0).index t (0 : Fin 2) * 256 + 1 * r.val = t.val * 256 + r.val; omega
  | ⟨1, _⟩ => show ((cfg2 a).win 0).index t (1 : Fin 2) * 1 + 1 * 0 = 0; omega

theorem blk2_read_1 (a : (pcfg2 (F := F)).Adm) (t : Fin (cfg2 a).N) (G : S320000x1.Idx → Elt F .i32) (r : Fin 256) :
    (((cfg2 a).win 1).blk t).view.read (Elt F) G (ValueIdx.ix2 r 0)
      = G (ValueIdx.ix2 ⟨t.val * 256 + r.val, by have := lt_N2 a t; omega⟩ 0) := by
  obtain ⟨e0, e1⟩ := index2_1_val a t
  show G ((((cfg2 a).win 1).blk t).view.emb (ValueIdx.ix2 r 0)) = _
  refine congrArg G ?_
  funext d; apply Fin.ext
  match d with
  | ⟨0, _⟩ => show ((cfg2 a).win 1).index t (0 : Fin 2) * 256 + 1 * r.val = t.val * 256 + r.val; omega
  | ⟨1, _⟩ => show ((cfg2 a).win 1).index t (1 : Fin 2) * 1 + 1 * 0 = 0; omega

/-- A window whose block is its whole array reads the array as it is. -/
theorem blk2_read_2 (a : (pcfg2 (F := F)).Adm) (t : Fin (cfg2 a).N) (G : S10240x128.Idx → Elt F .f32) (y : S10240x128.Idx) :
    (((cfg2 a).win 2).blk t).view.read (Elt F) G y = G y := by
  obtain ⟨e0, e1⟩ := index2_2_val a t
  show G ((((cfg2 a).win 2).blk t).view.emb y) = _
  refine congrArg G ?_
  funext d; apply Fin.ext
  match d with
  | ⟨0, _⟩ => show ((cfg2 a).win 2).index t (0 : Fin 2) * S10240x128.size 0 + 1 * (y 0).val = (y 0).val; rw [e0]; omega
  | ⟨1, _⟩ => show ((cfg2 a).win 2).index t (1 : Fin 2) * S10240x128.size 1 + 1 * (y 1).val = (y 1).val; rw [e1]; omega

theorem blk2_read_2_fun (a : (pcfg2 (F := F)).Adm) (t : Fin (cfg2 a).N) (G : S10240x128.Idx → Elt F .f32) :
    (((cfg2 a).win 2).blk t).view.read (Elt F) G = G := funext (blk2_read_2 a t G)

theorem blk2_read_3 (a : (pcfg2 (F := F)).Adm) (t : Fin (cfg2 a).N) (G : S256x128.Idx → Elt F .f32) (y : S256x128.Idx) :
    (((cfg2 a).win 3).blk t).view.read (Elt F) G y = G y := by
  obtain ⟨e0, e1⟩ := index2_3_val a t
  show G ((((cfg2 a).win 3).blk t).view.emb y) = _
  refine congrArg G ?_
  funext d; apply Fin.ext
  match d with
  | ⟨0, _⟩ => show ((cfg2 a).win 3).index t (0 : Fin 2) * S256x128.size 0 + 1 * (y 0).val = (y 0).val; rw [e0]; omega
  | ⟨1, _⟩ => show ((cfg2 a).win 3).index t (1 : Fin 2) * S256x128.size 1 + 1 * (y 1).val = (y 1).val; rw [e1]; omega

theorem blk2_read_3_fun (a : (pcfg2 (F := F)).Adm) (t : Fin (cfg2 a).N) (G : S256x128.Idx → Elt F .f32) :
    (((cfg2 a).win 3).blk t).view.read (Elt F) G = G := funext (blk2_read_3 a t G)

theorem blk2_read_4 (a : (pcfg2 (F := F)).Adm) (t : Fin (cfg2 a).N) (G : S1x128.Idx → Elt F .f32) (y : S1x128.Idx) :
    (((cfg2 a).win 4).blk t).view.read (Elt F) G y = G y := by
  obtain ⟨e0, e1⟩ := index2_4_val a t
  show G ((((cfg2 a).win 4).blk t).view.emb y) = _
  refine congrArg G ?_
  funext d; apply Fin.ext
  match d with
  | ⟨0, _⟩ => show ((cfg2 a).win 4).index t (0 : Fin 2) * S1x128.size 0 + 1 * (y 0).val = (y 0).val; rw [e0]; omega
  | ⟨1, _⟩ => show ((cfg2 a).win 4).index t (1 : Fin 2) * S1x128.size 1 + 1 * (y 1).val = (y 1).val; rw [e1]; omega

theorem blk2_read_4_fun (a : (pcfg2 (F := F)).Adm) (t : Fin (cfg2 a).N) (G : S1x128.Idx → Elt F .f32) :
    (((cfg2 a).win 4).blk t).view.read (Elt F) G = G := funext (blk2_read_4 a t G)

theorem blk2_read_5 (a : (pcfg2 (F := F)).Adm) (t : Fin (cfg2 a).N) (G : S128x128.Idx → Elt F .f32) (y : S128x128.Idx) :
    (((cfg2 a).win 5).blk t).view.read (Elt F) G y = G y := by
  obtain ⟨e0, e1⟩ := index2_5_val a t
  show G ((((cfg2 a).win 5).blk t).view.emb y) = _
  refine congrArg G ?_
  funext d; apply Fin.ext
  match d with
  | ⟨0, _⟩ => show ((cfg2 a).win 5).index t (0 : Fin 2) * S128x128.size 0 + 1 * (y 0).val = (y 0).val; rw [e0]; omega
  | ⟨1, _⟩ => show ((cfg2 a).win 5).index t (1 : Fin 2) * S128x128.size 1 + 1 * (y 1).val = (y 1).val; rw [e1]; omega

theorem blk2_read_5_fun (a : (pcfg2 (F := F)).Adm) (t : Fin (cfg2 a).N) (G : S128x128.Idx → Elt F .f32) :
    (((cfg2 a).win 5).blk t).view.read (Elt F) G = G := funext (blk2_read_5 a t G)

theorem blk2_read_6 (a : (pcfg2 (F := F)).Adm) (t : Fin (cfg2 a).N) (G : S1x128.Idx → Elt F .f32) (y : S1x128.Idx) :
    (((cfg2 a).win 6).blk t).view.read (Elt F) G y = G y := by
  obtain ⟨e0, e1⟩ := index2_6_val a t
  show G ((((cfg2 a).win 6).blk t).view.emb y) = _
  refine congrArg G ?_
  funext d; apply Fin.ext
  match d with
  | ⟨0, _⟩ => show ((cfg2 a).win 6).index t (0 : Fin 2) * S1x128.size 0 + 1 * (y 0).val = (y 0).val; rw [e0]; omega
  | ⟨1, _⟩ => show ((cfg2 a).win 6).index t (1 : Fin 2) * S1x128.size 1 + 1 * (y 1).val = (y 1).val; rw [e1]; omega

theorem blk2_read_6_fun (a : (pcfg2 (F := F)).Adm) (t : Fin (cfg2 a).N) (G : S1x128.Idx → Elt F .f32) :
    (((cfg2 a).win 6).blk t).view.read (Elt F) G = G := funext (blk2_read_6 a t G)

theorem blk2_read_7 (a : (pcfg2 (F := F)).Adm) (t : Fin (cfg2 a).N) (G : S128x128.Idx → Elt F .f32) (y : S128x128.Idx) :
    (((cfg2 a).win 7).blk t).view.read (Elt F) G y = G y := by
  obtain ⟨e0, e1⟩ := index2_7_val a t
  show G ((((cfg2 a).win 7).blk t).view.emb y) = _
  refine congrArg G ?_
  funext d; apply Fin.ext
  match d with
  | ⟨0, _⟩ => show ((cfg2 a).win 7).index t (0 : Fin 2) * S128x128.size 0 + 1 * (y 0).val = (y 0).val; rw [e0]; omega
  | ⟨1, _⟩ => show ((cfg2 a).win 7).index t (1 : Fin 2) * S128x128.size 1 + 1 * (y 1).val = (y 1).val; rw [e1]; omega

theorem blk2_read_7_fun (a : (pcfg2 (F := F)).Adm) (t : Fin (cfg2 a).N) (G : S128x128.Idx → Elt F .f32) :
    (((cfg2 a).win 7).blk t).view.read (Elt F) G = G := funext (blk2_read_7 a t G)

theorem blk2_read_8 (a : (pcfg2 (F := F)).Adm) (t : Fin (cfg2 a).N) (G : S1x128.Idx → Elt F .f32) (y : S1x128.Idx) :
    (((cfg2 a).win 8).blk t).view.read (Elt F) G y = G y := by
  obtain ⟨e0, e1⟩ := index2_8_val a t
  show G ((((cfg2 a).win 8).blk t).view.emb y) = _
  refine congrArg G ?_
  funext d; apply Fin.ext
  match d with
  | ⟨0, _⟩ => show ((cfg2 a).win 8).index t (0 : Fin 2) * S1x128.size 0 + 1 * (y 0).val = (y 0).val; rw [e0]; omega
  | ⟨1, _⟩ => show ((cfg2 a).win 8).index t (1 : Fin 2) * S1x128.size 1 + 1 * (y 1).val = (y 1).val; rw [e1]; omega

theorem blk2_read_8_fun (a : (pcfg2 (F := F)).Adm) (t : Fin (cfg2 a).N) (G : S1x128.Idx → Elt F .f32) :
    (((cfg2 a).win 8).blk t).view.read (Elt F) G = G := funext (blk2_read_8 a t G)

/-- The output's block at point `t` is the slab of the point's core `t / 625`. -/
theorem blk2_read_9 (a : (pcfg2 (F := F)).Adm) (t : Fin (cfg2 a).N) (G : S2x10240x128.Idx → Elt F .f32) (y : S1x10240x128.Idx) :
    (((cfg2 a).win 9).blk t).view.read (Elt F) G y
      = G (ValueIdx.ix3 ⟨t.val / 625, by have := lt_N2 a t; omega⟩ (y 1) (y 2)) := by
  obtain ⟨e0, e1, e2⟩ := index2_9_val a t
  show G ((((cfg2 a).win 9).blk t).view.emb y) = _
  refine congrArg G ?_
  funext d; apply Fin.ext
  have hy0 : (y 0).val < 1 := (y 0).isLt
  have hm : t.val / 625 * S1x10240x128.size 0 = t.val / 625 := Nat.mul_one _
  match d with
  | ⟨0, _⟩ => show ((cfg2 a).win 9).index t (0 : Fin 3) * S1x10240x128.size 0 + 1 * (y 0).val = t.val / 625; rw [e0]; omega
  | ⟨1, _⟩ => show ((cfg2 a).win 9).index t (1 : Fin 3) * S1x10240x128.size 1 + 1 * (y 1).val = (y 1).val; rw [e1]; omega
  | ⟨2, _⟩ => show ((cfg2 a).win 9).index t (2 : Fin 3) * S1x10240x128.size 2 + 1 * (y 2).val = (y 2).val; rw [e2]; omega

/-- The same at an index spelt by its coordinates. -/
theorem blk2_read_9' (a : (pcfg2 (F := F)).Adm) (t : Fin (cfg2 a).N) (G : S2x10240x128.Idx → Elt F .f32)
    (n : Fin (S1x10240x128.size 1)) (j : Fin (S1x10240x128.size 2)) :
    (((cfg2 a).win 9).blk t).view.read (Elt F) G (ValueIdx.ix3 0 n j)
      = G (ValueIdx.ix3 ⟨t.val / 625, by have := lt_N2 a t; omega⟩ n j) := blk2_read_9 a t G _

/-! ## 3. The output's blocks: which indices a block holds, and that the written blocks hold them all -/

/-- An index of the output array lies in the block at point `t` iff each coordinate lies in the block's range on its axis. -/
theorem mem_blk2_9_axes (a : (pcfg2 (F := F)).Adm) (t : Fin (cfg2 a).N) (i : S2x10240x128.Idx) :
    i ∈ (((cfg2 a).win 9).blk t).view.set ↔ ∀ d : Fin 3, ((cfg2 a).win 9).index t d * S1x10240x128.size d ≤ (i d).val
      ∧ (i d).val < ((cfg2 a).win 9).index t d * S1x10240x128.size d + S1x10240x128.size d := by
  have h1 : (((cfg2 a).win 9).blk t).view.set = (((cfg2 a).win 9).rect t).set := View.set_slice_whole _ _
  rw [h1]
  exact Rect.mem_set_unit

/-- That is: iff its leading coordinate is the point's core. -/
theorem mem_blk2_9 (a : (pcfg2 (F := F)).Adm) (t : Fin (cfg2 a).N) (i : S2x10240x128.Idx) :
    i ∈ (((cfg2 a).win 9).blk t).view.set ↔ (i 0).val = t.val / 625 := by
  obtain ⟨e0, e1, e2⟩ := index2_9_val a t
  rw [mem_blk2_9_axes]
  have h1 : (i 1).val < S2x10240x128.size 1 := (i 1).isLt
  have h2 : (i 2).val < S2x10240x128.size 2 := (i 2).isLt
  have hs0 : S1x10240x128.size 0 = 1 := rfl
  have hs1 : S1x10240x128.size 1 = S2x10240x128.size 1 := rfl
  have hs2 : S1x10240x128.size 2 = S2x10240x128.size 2 := rfl
  constructor
  · intro h
    have b0 := h 0
    rw [e0, hs0] at b0
    omega
  · intro h d
    match d with
    | ⟨0, _⟩ => show ((cfg2 a).win 9).index t (0 : Fin 3) * S1x10240x128.size 0 ≤ (i 0).val ∧ (i 0).val < ((cfg2 a).win 9).index t (0 : Fin 3) * S1x10240x128.size 0 + S1x10240x128.size 0; rw [e0, hs0]; omega
    | ⟨1, _⟩ => show ((cfg2 a).win 9).index t (1 : Fin 3) * S1x10240x128.size 1 ≤ (i 1).val ∧ (i 1).val < ((cfg2 a).win 9).index t (1 : Fin 3) * S1x10240x128.size 1 + S1x10240x128.size 1; rw [e1, hs1]; omega
    | ⟨2, _⟩ => show ((cfg2 a).win 9).index t (2 : Fin 3) * S1x10240x128.size 2 ≤ (i 2).val ∧ (i 2).val < ((cfg2 a).win 9).index t (2 : Fin 3) * S1x10240x128.size 2 + S1x10240x128.size 2; rw [e2, hs2]; omega

/-- Every index of the output array lies in a block that is written back: its core's, at the core's last tile. -/
theorem cover2_9 (a : (pcfg2 (F := F)).Adm) (i : S2x10240x128.Idx) :
    ∃ t : Fin (cfg2 a).N, ((cfg2 a).win 9).flush t = true ∧ i ∈ (((cfg2 a).win 9).blk t).view.set := by
  have h0 : (i 0).val < 2 := (i 0).isLt
  refine ⟨⟨(i 0).val * 625 + 624, by show _ < grid2.N; rw [N_2]; omega⟩, ?_, ?_⟩
  · rw [flush2_9]; show (i 0).val * 625 + 624 = 624 ∨ (i 0).val * 625 + 624 = 1249; omega
  · rw [mem_blk2_9]; show (i 0).val = ((i 0).val * 625 + 624) / 625; omega

/-- The point that writes index `i`'s block back, named. -/
def lastOf2 (a : (pcfg2 (F := F)).Adm) (p : Fin 2) : Fin (cfg2 a).N := ⟨p.val * 625 + 624, by show _ < grid2.N; rw [N_2]; omega⟩

@[simp] theorem lastOf2_val (a : (pcfg2 (F := F)).Adm) (p : Fin 2) : (lastOf2 a p).val = p.val * 625 + 624 := rfl

theorem flush2_9_last (a : (pcfg2 (F := F)).Adm) (p : Fin 2) : ((cfg2 a).win 9).flush (lastOf2 a p) = true := by
  rw [flush2_9, lastOf2_val]; omega

theorem mem_blk2_9_last (a : (pcfg2 (F := F)).Adm) (p : Fin 2) (i : S2x10240x128.Idx) :
    i ∈ (((cfg2 a).win 9).blk (lastOf2 a p)).view.set ↔ i 0 = p := by
  rw [mem_blk2_9, lastOf2_val]
  have h0 : (i 0).val < 2 := (i 0).isLt
  constructor
  · intro h; apply Fin.ext; omega
  · intro h; rw [h]; omega

/-- Two different points that both write back hold no index in common. -/
theorem disjoint2_9 (a : (pcfg2 (F := F)).Adm) (t t' : Fin (cfg2 a).N) (hf : ((cfg2 a).win 9).flush t = true)
    (hf' : ((cfg2 a).win 9).flush t' = true) (hne : t ≠ t') :
    Disjoint (((cfg2 a).win 9).blk t).view.set (((cfg2 a).win 9).blk t').view.set := by
  rw [Finset.disjoint_left]
  intro i hi hi'
  have h1 := (mem_blk2_9 a t i).mp hi
  have h2 := (mem_blk2_9 a t' i).mp hi'
  rw [flush2_9] at hf hf'
  exact hne (Fin.ext (by omega))

/-! ## 4. The output array after the region -/

/-- The stored block `[1, n, m]` made from a table `[n, m]`: entry `(0, n, j)` is the table's entry `(n, j)`. -/
theorem k2_pay1_apply (v : Vec F S10240x128 .f32) (y : S1x10240x128.Idx) :
    k2_pay1 v y = v (ValueIdx.ix2 (y 1) (y 2)) := by
  unfold k2_pay1
  rw [shapeCast_addUnit_apply]
  refine congrArg v ?_
  funext d
  match d with
  | ⟨0, _⟩ => rfl
  | ⟨1, _⟩ => rfl

section Arr

variable {Ix : Type} [DecidableEq Ix] {Name : Type} [DecidableEq Name] {U : Type} [Idealize.SL.RA.URA U] {Lvl : Type}

/-- When every point that writes the output back leaves in the staging buffer the table `Acc (t + 1)` as one block,
    the output array after the region holds, in core `p`'s slab, the table `Acc (p * 625 + 625)`: the table after
    that core's last tile. -/
theorem arrAt2_9 (a : (pcfg2 (F := F)).Adm) (c : Dev nD) (dat : Pipeline.Dat τ (Elt F) Ix Name U Lvl (cfg2 a) c)
    (Acc : ℕ → Vec F S10240x128 .f32)
    (hafter : ∀ t, ((cfg2 a).win 9).flush t = true → dat.after 9 t = k2_pay1 (Acc (t.val + 1))) :
    dat.arrAt 9 (cfg2 a).N
      = fun i : S2x10240x128.Idx => Acc ((i 0).val * 625 + 625) (ValueIdx.ix2 (i 1) (i 2)) := by
  refine dat.arrAt_eq_of_cover 9 _ (fun t hf => ?_) (cover2_9 a)
  have hfl : dat.flushed 9 t = dat.after 9 t := rfl
  rw [hfl, hafter t hf]
  funext y
  rw [blk2_read_9 a t _ y, k2_pay1_apply]
  have ht : t.val / 625 * 625 + 625 = t.val + 1 := by
    rcases (flush2_9 a t).mp hf with h | h <;> omega
  show _ = Acc (t.val / 625 * 625 + 625) (ValueIdx.ix2 (y 1) (y 2))
  rw [ht]

/-- The same at an index spelt by its coordinates: core, node row, column. -/
theorem arrAt2_9_apply (a : (pcfg2 (F := F)).Adm) (c : Dev nD) (dat : Pipeline.Dat τ (Elt F) Ix Name U Lvl (cfg2 a) c)
    (Acc : ℕ → Vec F S10240x128 .f32)
    (hafter : ∀ t, ((cfg2 a).win 9).flush t = true → dat.after 9 t = k2_pay1 (Acc (t.val + 1)))
    (p : Fin 2) (n : Fin (S1x10240x128.size 1)) (j : Fin (S1x10240x128.size 2)) :
    dat.arrAt 9 (cfg2 a).N (ValueIdx.ix3 p n j) = Acc (p.val * 625 + 625) (ValueIdx.ix2 n j) := by
  rw [arrAt2_9 a c dat Acc hafter]

end Arr

end Cert.KernelIdeal.Gen

end
-- ==== Proof.PayGatherI2.lean ====
import proofs.«414286_j65627100283289_3_alg».proof.Proof.Gen.KernelIdeal.Skeleton
import proofs.«414286_j65627100283289_3_alg».proof.Proof.Arrange
import proofs.«414286_j65627100283289_3_alg».proof.Proof.LibDenseLayer
import Idealize.ShloMosaic.Lib.ValueIdx
import Idealize.ShloMosaic.Lib.ValueLayout
import Idealize.ShloMosaic.Lib.Pipeline.Value
import Idealize.ShloMosaic.PureOps.Ideal.Laws

/-!
# The gather half of a layer's tile body, read at an index

One tile of 256 edges reads, for every edge, the row of its source node and the row of its target node out of a node
table padded to 10240 rows, which is held as ten chunks of 1024 rows. A row is not addressed: for chunk c the body
builds the 0/1 block whose entry (r, k) is one exactly when edge r's node word equals the word c·1024 + k, and
multiplies it with the chunk's 1024 rows; the ten products are added. Over the extended reals each product at (r, j)
is the sum over k of (0 or 1) times the chunk's entry (k, j), so the ten added products are the table's pick at the
edge's word. The comparison is equality of 32-bit words, that is equality of the words' unsigned values; below the
word is read by toNat.

The facts are stated for the values the body names, one per value, and then for the source gather as the body
composes it. The target gather runs the same ten steps, each adding one chunk's product to what a scratch block held.
-/

noncomputable section

namespace Cert.KernelIdeal.PayI2

open Idealize.ShloMosaic Idealize.SL.Sem Idealize.ShloMosaic.ValueIdx
open Cert.KernelIdeal Cert.KernelIdeal.Gen
open scoped BigOperators

/-- The 0/1 block of one chunk of 1024 rows: entry (r, k) compares row r's word with the word base + k. -/
def hot (v : IVec S256 32) (b : BitVec 32) : FVec Ideal S256x1024 .f32 :=
  sitofp .f32 (extui 32 (cmpi .eq
    (broadcastTo S256x1024 (shapeCast S256x1 v shapeCasts_S256_S256x1) broadcasts_S256x1_S256x1024)
    (addi (broadcast S256x1024 b) (iota .tc S256x1024 32 [1] iota_S256x1024_d1_w32))) natLt_1_32)

theorem col_apply (v : IVec S256 32) (r : Fin 256) (k : Fin 1024) :
    broadcastTo S256x1024 (shapeCast S256x1 v shapeCasts_S256_S256x1) broadcasts_S256x1_S256x1024 (ValueIdx.ix2 r k) = v (ValueIdx.ix1 r) := by
  rw [broadcastTo_apply _ _ (ValueIdx.ix2 r k) (ValueIdx.ix2 r (0 : Fin 1)) ?_, shapeCast_apply _ _ (ValueIdx.ix2 r (0 : Fin 1)) (ValueIdx.ix1 r) ?_]
  · rw [Shape.rowMajor_val_one, Shape.rowMajor_val_two]
    show r.val = r.val * 1 + 0
    omega
  · intro a
    match a with
    | ⟨0, _⟩ => rfl
    | ⟨1, _⟩ => rfl

theorem iota_apply (r : Fin 256) (k : Fin 1024) :
    iota .tc S256x1024 32 [1] iota_S256x1024_d1_w32 (ValueIdx.ix2 r k) = BitVec.ofNat 32 k.val :=
  iota_single_apply .tc S256x1024 32 1 iota_S256x1024_d1_w32 (ValueIdx.ix2 r k)

theorem hot_apply (v : IVec S256 32) (b : BitVec 32) (r : Fin 256) (k : Fin 1024) :
    hot v b (ValueIdx.ix2 r k) = if v (ValueIdx.ix1 r) = b + BitVec.ofNat 32 k.val then (1 : EReal) else 0 := by
  have e : hot v b (ValueIdx.ix2 r k)
      = ((((BitVec.ofBool (v (ValueIdx.ix1 r) == b + BitVec.ofNat 32 k.val)).setWidth 32).toInt : ℝ) : EReal) := by
    show ((((BitVec.ofBool
        (broadcastTo S256x1024 (shapeCast S256x1 v shapeCasts_S256_S256x1) broadcasts_S256x1_S256x1024 (ValueIdx.ix2 r k)
          == b + iota .tc S256x1024 32 [1] iota_S256x1024_d1_w32 (ValueIdx.ix2 r k))).setWidth 32).toInt : ℝ) : EReal) = _
    rw [col_apply, iota_apply]
  rw [e]
  by_cases h : v (ValueIdx.ix1 r) = b + BitVec.ofNat 32 k.val
  · rw [if_pos h, beq_iff_eq.mpr h]
    have : ((BitVec.ofBool true).setWidth 32).toInt = 1 := by decide
    rw [this, Int.cast_one, EReal.coe_one]
  · rw [if_neg h, beq_eq_false_iff_ne.mpr h]
    have : ((BitVec.ofBool false).setWidth 32).toInt = 0 := by decide
    rw [this, Int.cast_zero, EReal.coe_zero]

/-- The word base + k of chunk c is the number c·1024 + k, and a 32-bit word equals it exactly when its value does. -/
theorem word_eq_iff (w : BitVec 32) (c : Fin 10) (k : Fin 1024) :
    w = BitVec.ofNat 32 (c.val * 1024) + BitVec.ofNat 32 k.val ↔ w.toNat = c.val * 1024 + k.val := by
  have hc := c.isLt
  have hk := k.isLt
  rw [← BitVec.toNat_inj, BitVec.toNat_add, BitVec.toNat_ofNat, BitVec.toNat_ofNat]
  omega

/-- The 0/1 block of chunk c read at (r, k): one exactly when row r's word, as an unsigned number, is c·1024 + k. -/
theorem hot_chunk_apply (v : IVec S256 32) (c : Fin 10) (r : Fin 256) (k : Fin 1024) :
    hot v (BitVec.ofNat 32 (c.val * 1024)) (ValueIdx.ix2 r k)
      = if (v (ValueIdx.ix1 r)).toNat = c.val * 1024 + k.val then (1 : EReal) else 0 := by
  rw [hot_apply]
  by_cases h : (v (ValueIdx.ix1 r)).toNat = c.val * 1024 + k.val
  · rw [if_pos h, if_pos ((word_eq_iff _ c k).mpr h)]
  · rw [if_neg h, if_neg (fun e => h ((word_eq_iff _ c k).mp e))]

/-- One chunk's product: the 0/1 block of the chunk times the chunk's 1024 loaded rows, into a zero start. -/
def hotMul (v : IVec S256 32) (b : BitVec 32) (ch : Vec Ideal S1024x128 .f32) : FVec Ideal S256x128 .f32 :=
  matmul dot_S256x1024_S1024x128_S256x128_1_0_0_1_n_n none (hot v b)
    (shapeCast S1024x128 ch shapeCasts_S1024x128_S1024x128 : FVec Ideal S1024x128 .f32) (constant S256x128 .f32 0x00000000#32)

/-- One chunk's share of a row pick: the 0/1 row with its one at place w, restricted to chunk c, times column j of
    the chunk's rows. -/
def share (w : ℕ) (c : Fin 10) (ch : Vec Ideal S1024x128 .f32) (j : Fin 128) : EReal :=
  ∑ k : Fin 1024, (if w = c.val * 1024 + k.val then (1 : EReal) else 0) * ch (ValueIdx.ix2 k j)

/-- A chunk's product read at (r, j) is the chunk's share of the pick at row r's word (read unsigned). -/
theorem hotMul_apply (v : IVec S256 32) (b : BitVec 32) (c : Fin 10) (hb : b = BitVec.ofNat 32 (c.val * 1024))
    (ch : Vec Ideal S1024x128 .f32) (r : Fin 256) (j : Fin 128) :
    hotMul v b ch (ValueIdx.ix2 r j) = share (v (ValueIdx.ix1 r)).toNat c ch j := by
  subst hb
  unfold hotMul share
  rw [shapeCast_self]
  refine (DenseLayer.matmul_rows_apply dot_S256x1024_S1024x128_S256x128_1_0_0_1_n_n_wf none _ _ r j).trans ?_
  refine Finset.sum_congr rfl fun k _ => ?_
  rw [hot_chunk_apply]

/-! ## The payloads of region 2, one by one -/

/-- The target index column [256,1] as a vector [256]: entry r is the column's entry (r, 0). -/
theorem k2_pay3_apply (v5 : Vec Ideal S256x1 .i32) (r : Fin 256) :
    k2_pay3 (F := Ideal) v5 (ValueIdx.ix1 r) = v5 (ValueIdx.ix2 r (0 : Fin 1)) := by
  unfold k2_pay3
  refine shapeCast_apply _ _ (ValueIdx.ix1 r) (ValueIdx.ix2 r (0 : Fin 1)) ?_
  rw [Shape.rowMajor_val_one, Shape.rowMajor_val_two]
  show r.val * 1 + 0 = r.val
  omega

/-- The source index column [256,1] as a vector [256]: entry r is the column's entry (r, 0). -/
theorem k2_pay4_apply (v7 : Vec Ideal S256x1 .i32) (r : Fin 256) :
    k2_pay4 (F := Ideal) v7 (ValueIdx.ix1 r) = v7 (ValueIdx.ix2 r (0 : Fin 1)) := by
  unfold k2_pay4
  refine shapeCast_apply _ _ (ValueIdx.ix1 r) (ValueIdx.ix2 r (0 : Fin 1)) ?_
  rw [Shape.rowMajor_val_one, Shape.rowMajor_val_two]
  show r.val * 1 + 0 = r.val
  omega

/-- The source vector laid out as a column again: entry (r, 0) is the loaded column's entry (r, 0). -/
theorem k2_pay6_apply (v7 : Vec Ideal S256x1 .i32) (r : Fin 256) :
    k2_pay6 (F := Ideal) v7 (ValueIdx.ix2 r (0 : Fin 1)) = v7 (ValueIdx.ix2 r (0 : Fin 1)) := by
  unfold k2_pay6
  refine (shapeCast_apply _ _ (ValueIdx.ix2 r (0 : Fin 1)) (ValueIdx.ix1 r) ?_).trans (k2_pay4_apply v7 r)
  rw [Shape.rowMajor_val_one, Shape.rowMajor_val_two]
  show r.val = r.val * 1 + 0
  omega

/-- The 0/1 block of the last chunk (rows 9216 …) of the source gather. -/
theorem k2_pay10_eq (v8 : IVec S256 32) : k2_pay10 (F := Ideal) v8 = hot v8 9216#32 := rfl

/-- Its entry at (r, k): one exactly when row r's source word, read unsigned (the comparison is equality of 32-bit
    words), is 9·1024 + k. -/
theorem k2_pay10_apply (v8 : IVec S256 32) (r : Fin 256) (k : Fin 1024) :
    k2_pay10 (F := Ideal) v8 (ValueIdx.ix2 r k)
      = if (v8 (ValueIdx.ix1 r)).toNat = (9 : Fin 10).val * 1024 + k.val then (1 : EReal) else 0 := by
  rw [k2_pay10_eq]
  exact hot_chunk_apply v8 9 r k

/-- Chunks 0 and 1 of the source gather, added into a zero start. -/
theorem k2_pay5_eq (v7 : Vec Ideal S256x1 .i32) (v22 v34 : Vec Ideal S1024x128 .f32) :
    k2_pay5 (F := Ideal) v7 v22 v34
      = addf (addf (broadcast S256x128 (Scalar.ofBits (F := Ideal) .f32 0x00000000#32)) (hotMul (k2_pay4 (F := Ideal) v7) 0#32 v22))
          (hotMul (k2_pay4 (F := Ideal) v7) 1024#32 v34) := rfl

theorem k2_pay5_apply (v7 : Vec Ideal S256x1 .i32) (v22 v34 : Vec Ideal S1024x128 .f32) (r : Fin 256) (j : Fin 128) :
    k2_pay5 (F := Ideal) v7 v22 v34 (ValueIdx.ix2 r j)
      = 0 + share (v7 (ValueIdx.ix2 r (0 : Fin 1))).toNat 0 v22 j + share (v7 (ValueIdx.ix2 r (0 : Fin 1))).toNat 1 v34 j := by
  rw [k2_pay5_eq, addf_apply, addf_apply, broadcast_apply,
    hotMul_apply _ 0#32 0 rfl, hotMul_apply _ 1024#32 1 rfl, k2_pay4_apply]
  show Ideal.ofBits .f32 0x00000000#32 + _ + _ = _
  rw [Ideal.ofBits_zero_f32]

/-- Chunks 2, 3 and 4 of the source gather, added to what chunks 0 and 1 gave. The first of the three blocks is
    built from the column, the lane numbers and the base word handed on by the part before. -/
theorem k2_pay7_eq (v8 : IVec S256 32) (v37 : FVec Ideal S256x128 .f32) (v46 v58 v70 : Vec Ideal S1024x128 .f32) :
    k2_pay7 (F := Ideal) v8 v37 (shapeCast S256x1 v8 shapeCasts_S256_S256x1)
        (iota .tc S256x1024 32 [1] iota_S256x1024_d1_w32) 2048#32 v46 v58 v70
      = addf (addf (addf v37 (hotMul v8 2048#32 v46)) (hotMul v8 3072#32 v58)) (hotMul v8 4096#32 v70) := rfl

theorem k2_pay7_apply (v8 : IVec S256 32) (v37 : FVec Ideal S256x128 .f32) (v38 : IVec S256x1 32)
    (v39 : IVec S256x1024 32) (c2048_i32 : BitVec 32) (v46 v58 v70 : Vec Ideal S1024x128 .f32)
    (h38 : v38 = shapeCast S256x1 v8 shapeCasts_S256_S256x1)
    (h39 : v39 = iota .tc S256x1024 32 [1] iota_S256x1024_d1_w32) (hc : c2048_i32 = 2048#32)
    (r : Fin 256) (j : Fin 128) :
    k2_pay7 (F := Ideal) v8 v37 v38 v39 c2048_i32 v46 v58 v70 (ValueIdx.ix2 r j)
      = v37 (ValueIdx.ix2 r j) + share (v8 (ValueIdx.ix1 r)).toNat 2 v46 j + share (v8 (ValueIdx.ix1 r)).toNat 3 v58 j
          + share (v8 (ValueIdx.ix1 r)).toNat 4 v70 j := by
  subst h38 h39 hc
  rw [k2_pay7_eq, addf_apply, addf_apply, addf_apply,
    hotMul_apply _ 2048#32 2 rfl, hotMul_apply _ 3072#32 3 rfl, hotMul_apply _ 4096#32 4 rfl]

/-- Chunk 5's product of the source gather. -/
theorem k2_pay8_eq (v8 : IVec S256 32) (v82 : Vec Ideal S1024x128 .f32) :
    k2_pay8 (F := Ideal) v8 v82 = hotMul v8 5120#32 v82 := rfl

theorem k2_pay8_apply (v8 : IVec S256 32) (v82 : Vec Ideal S1024x128 .f32) (r : Fin 256) (j : Fin 128) :
    k2_pay8 (F := Ideal) v8 v82 (ValueIdx.ix2 r j) = share (v8 (ValueIdx.ix1 r)).toNat 5 v82 j := by
  rw [k2_pay8_eq, hotMul_apply _ 5120#32 5 rfl]

/-- Chunk 5's product and chunks 6, 7 and 8 of the source gather, added to what came before. -/
theorem k2_pay9_eq (v8 : IVec S256 32) (v73 v84 : FVec Ideal S256x128 .f32) (v94 v106 v118 : Vec Ideal S1024x128 .f32) :
    k2_pay9 (F := Ideal) v8 v73 v84 v94 v106 v118
      = addf (addf (addf (addf v73 v84) (hotMul v8 6144#32 v94)) (hotMul v8 7168#32 v106)) (hotMul v8 8192#32 v118) := rfl

theorem k2_pay9_apply (v8 : IVec S256 32) (v73 v84 : FVec Ideal S256x128 .f32) (v94 v106 v118 : Vec Ideal S1024x128 .f32)
    (r : Fin 256) (j : Fin 128) :
    k2_pay9 (F := Ideal) v8 v73 v84 v94 v106 v118 (ValueIdx.ix2 r j)
      = v73 (ValueIdx.ix2 r j) + v84 (ValueIdx.ix2 r j) + share (v8 (ValueIdx.ix1 r)).toNat 6 v94 j + share (v8 (ValueIdx.ix1 r)).toNat 7 v106 j
          + share (v8 (ValueIdx.ix1 r)).toNat 8 v118 j := by
  rw [k2_pay9_eq, addf_apply, addf_apply, addf_apply, addf_apply,
    hotMul_apply _ 6144#32 6 rfl, hotMul_apply _ 7168#32 7 rfl, hotMul_apply _ 8192#32 8 rfl]

/-- The last step of the source gather: the product of a [256,1024] block with chunk 9's rows, added on. -/
theorem k2_pay11_apply (v121 : FVec Ideal S256x128 .f32) (v129 : FVec Ideal S256x1024 .f32) (v130 : Vec Ideal S1024x128 .f32)
    (r : Fin 256) (j : Fin 128) :
    k2_pay11 (F := Ideal) v121 v129 v130 (ValueIdx.ix2 r j)
      = v121 (ValueIdx.ix2 r j) + ∑ k : Fin 1024, v129 (ValueIdx.ix2 r k) * v130 (ValueIdx.ix2 k j) := by
  unfold k2_pay11
  rw [addf_apply, shapeCast_self]
  exact congrArg (v121 (ValueIdx.ix2 r j) + ·)
    (DenseLayer.matmul_rows_apply dot_S256x1024_S1024x128_S256x128_1_0_0_1_n_n_wf none v129 v130 r j)

/-- With the block being chunk 9's 0/1 block: chunk 9's share is added. -/
theorem k2_pay11_hot_apply (v8 : IVec S256 32) (v121 : FVec Ideal S256x128 .f32) (v130 : Vec Ideal S1024x128 .f32)
    (r : Fin 256) (j : Fin 128) :
    k2_pay11 (F := Ideal) v121 (k2_pay10 (F := Ideal) v8) v130 (ValueIdx.ix2 r j)
      = v121 (ValueIdx.ix2 r j) + share (v8 (ValueIdx.ix1 r)).toNat 9 v130 j := by
  rw [k2_pay11_apply]
  unfold share
  exact congrArg (v121 (ValueIdx.ix2 r j) + ·) (Finset.sum_congr rfl fun k _ => by rw [k2_pay10_apply])

/-! ## The source-row gather, composed as the region's body composes it -/

/-- The ten loaded chunks as a family over the chunk number. -/
def chunks (v22 v34 v46 v58 v70 v82 v94 v106 v118 v130 : Vec Ideal S1024x128 .f32) : Fin 10 → Vec Ideal S1024x128 .f32 :=
  ![v22, v34, v46, v58, v70, v82, v94, v106, v118, v130]

/-- The gathered source block read at (r, j): the sum over the ten chunks and their 1024 rows of the 0/1 row of
    row r's source word (read unsigned) times column j of the loaded rows. -/
theorem srcGather_sum (v7 : Vec Ideal S256x1 .i32) (v22 v34 v46 v58 v70 v82 v94 v106 v118 v130 : Vec Ideal S1024x128 .f32)
    (r : Fin 256) (j : Fin 128) :
    k2_pay11 (F := Ideal)
        (k2_pay9 (F := Ideal) (k2_pay4 (F := Ideal) v7)
          (k2_pay7 (F := Ideal) (k2_pay4 (F := Ideal) v7) (k2_pay5 (F := Ideal) v7 v22 v34) (k2_pay6 (F := Ideal) v7)
            (iota .tc S256x1024 32 [1] iota_S256x1024_d1_w32) 2048#32 v46 v58 v70)
          (k2_pay8 (F := Ideal) (k2_pay4 (F := Ideal) v7) v82) v94 v106 v118)
        (k2_pay10 (F := Ideal) (k2_pay4 (F := Ideal) v7)) v130 (ValueIdx.ix2 r j)
      = ∑ c : Fin 10, ∑ k : Fin 1024,
          (if (v7 (ValueIdx.ix2 r (0 : Fin 1))).toNat = c.val * 1024 + k.val then (1 : EReal) else 0)
            * chunks v22 v34 v46 v58 v70 v82 v94 v106 v118 v130 c (ValueIdx.ix2 k j) := by
  rw [k2_pay11_hot_apply, k2_pay9_apply, k2_pay7_apply (k2_pay4 (F := Ideal) v7) (k2_pay5 (F := Ideal) v7 v22 v34) (k2_pay6 (F := Ideal) v7)
      (iota .tc S256x1024 32 [1] iota_S256x1024_d1_w32) 2048#32 v46 v58 v70 rfl rfl rfl, k2_pay5_apply, k2_pay8_apply,
    k2_pay4_apply]
  exact Cert.Spec.fold10 (fun c => share (v7 (ValueIdx.ix2 r (0 : Fin 1))).toNat c
    (chunks v22 v34 v46 v58 v70 v82 v94 v106 v118 v130 c) j)

/-- When the ten chunks are the ten blocks of 1024 rows of one padded table, the gathered source block at (r, j) is
    the table's pick at row r's source word. -/
theorem srcGather_pick (v7 : Vec Ideal S256x1 .i32) (x6 : Vec Ideal S10240x128 .f32)
    (v22 v34 v46 v58 v70 v82 v94 v106 v118 v130 : Vec Ideal S1024x128 .f32)
    (hch : ∀ (c : Fin 10) (k : Fin 1024) (j : Fin 128),
      chunks v22 v34 v46 v58 v70 v82 v94 v106 v118 v130 c (ValueIdx.ix2 k j) = x6 (ValueIdx.ix2 (Cert.Spec.rowAt c k) j))
    (r : Fin 256) (j : Fin 128) :
    k2_pay11 (F := Ideal)
        (k2_pay9 (F := Ideal) (k2_pay4 (F := Ideal) v7)
          (k2_pay7 (F := Ideal) (k2_pay4 (F := Ideal) v7) (k2_pay5 (F := Ideal) v7 v22 v34) (k2_pay6 (F := Ideal) v7)
            (iota .tc S256x1024 32 [1] iota_S256x1024_d1_w32) 2048#32 v46 v58 v70)
          (k2_pay8 (F := Ideal) (k2_pay4 (F := Ideal) v7) v82) v94 v106 v118)
        (k2_pay10 (F := Ideal) (k2_pay4 (F := Ideal) v7)) v130 (ValueIdx.ix2 r j)
      = Cert.Spec.pick (fun n j => x6 (ValueIdx.ix2 n j)) (v7 (ValueIdx.ix2 r (0 : Fin 1))).toNat j := by
  rw [srcGather_sum]
  unfold Cert.Spec.pick
  refine Finset.sum_congr rfl fun c _ => Finset.sum_congr rfl fun k _ => ?_
  rw [hch c k j]
  rfl

/-- The chunk family's hypothesis from the ten blocks one by one. -/
theorem chunks_of_blocks (x6 : Vec Ideal S10240x128 .f32)
    (v22 v34 v46 v58 v70 v82 v94 v106 v118 v130 : Vec Ideal S1024x128 .f32)
    (h0 : ∀ (k : Fin 1024) (j : Fin 128), v22 (ValueIdx.ix2 k j) = x6 (ValueIdx.ix2 (Cert.Spec.rowAt 0 k) j))
    (h1 : ∀ (k : Fin 1024) (j : Fin 128), v34 (ValueIdx.ix2 k j) = x6 (ValueIdx.ix2 (Cert.Spec.rowAt 1 k) j))
    (h2 : ∀ (k : Fin 1024) (j : Fin 128), v46 (ValueIdx.ix2 k j) = x6 (ValueIdx.ix2 (Cert.Spec.rowAt 2 k) j))
    (h3 : ∀ (k : Fin 1024) (j : Fin 128), v58 (ValueIdx.ix2 k j) = x6 (ValueIdx.ix2 (Cert.Spec.rowAt 3 k) j))
    (h4 : ∀ (k : Fin 1024) (j : Fin 128), v70 (ValueIdx.ix2 k j) = x6 (ValueIdx.ix2 (Cert.Spec.rowAt 4 k) j))
    (h5 : ∀ (k : Fin 1024) (j : Fin 128), v82 (ValueIdx.ix2 k j) = x6 (ValueIdx.ix2 (Cert.Spec.rowAt 5 k) j))
    (h6 : ∀ (k : Fin 1024) (j : Fin 128), v94 (ValueIdx.ix2 k j) = x6 (ValueIdx.ix2 (Cert.Spec.rowAt 6 k) j))
    (h7 : ∀ (k : Fin 1024) (j : Fin 128), v106 (ValueIdx.ix2 k j) = x6 (ValueIdx.ix2 (Cert.Spec.rowAt 7 k) j))
    (h8 : ∀ (k : Fin 1024) (j : Fin 128), v118 (ValueIdx.ix2 k j) = x6 (ValueIdx.ix2 (Cert.Spec.rowAt 8 k) j))
    (h9 : ∀ (k : Fin 1024) (j : Fin 128), v130 (ValueIdx.ix2 k j) = x6 (ValueIdx.ix2 (Cert.Spec.rowAt 9 k) j)) :
    ∀ (c : Fin 10) (k : Fin 1024) (j : Fin 128),
      chunks v22 v34 v46 v58 v70 v82 v94 v106 v118 v130 c (ValueIdx.ix2 k j) = x6 (ValueIdx.ix2 (Cert.Spec.rowAt c k) j) := by
  intro c k j
  match c with
  | ⟨0, _⟩ => exact h0 k j
  | ⟨1, _⟩ => exact h1 k j
  | ⟨2, _⟩ => exact h2 k j
  | ⟨3, _⟩ => exact h3 k j
  | ⟨4, _⟩ => exact h4 k j
  | ⟨5, _⟩ => exact h5 k j
  | ⟨6, _⟩ => exact h6 k j
  | ⟨7, _⟩ => exact h7 k j
  | ⟨8, _⟩ => exact h8 k j
  | ⟨9, _⟩ => exact h9 k j

/-! ## The target-row gather: a zero start and ten steps, each adding one chunk's product to the scratch block -/

/-- The zero block the target gather starts from. -/
theorem k2_pay12_apply (r : Fin 256) (j : Fin 128) : k2_pay12 (F := Ideal) (ValueIdx.ix2 r j) = 0 := by
  unfold k2_pay12
  rw [shapeCast_self, broadcast_apply]
  exact Ideal.ofBits_zero_f32

/-- A step of the target gather: what the scratch block held plus chunk c's product. -/
theorem step_apply (v6 : IVec S256 32) (b : BitVec 32) (c : Fin 10) (hb : b = BitVec.ofNat 32 (c.val * 1024))
    (v274 : Vec Ideal S1024x128 .f32) (v277 : Vec Ideal S256x128 .f32) (r : Fin 256) (j : Fin 128) :
    (shapeCast S256x128 (addf (φ := .f32) v277 (hotMul v6 b v274)) shapeCasts_S256x128_S256x128 : FVec Ideal S256x128 .f32) (ValueIdx.ix2 r j)
      = v277 (ValueIdx.ix2 r j) + ∑ k : Fin 1024,
          (if (v6 (ValueIdx.ix1 r)).toNat = c.val * 1024 + k.val then (1 : EReal) else 0) * v274 (ValueIdx.ix2 k j) := by
  rw [shapeCast_self, addf_apply, hotMul_apply v6 b c hb]
  rfl

/-- Step 0 of the target gather: chunk 0's product added to the scratch block. -/
theorem k2_pay13_eq (v6 : IVec S256 32) (v274 : Vec Ideal S1024x128 .f32) (v277 : Vec Ideal S256x128 .f32) :
    k2_pay13 (F := Ideal) v6 v274 v277
      = shapeCast S256x128 (addf (φ := .f32) v277 (hotMul v6 0#32 v274)) shapeCasts_S256x128_S256x128 := rfl

theorem k2_pay13_apply (v6 : IVec S256 32) (v274 : Vec Ideal S1024x128 .f32) (v277 : Vec Ideal S256x128 .f32)
    (r : Fin 256) (j : Fin 128) :
    k2_pay13 (F := Ideal) v6 v274 v277 (ValueIdx.ix2 r j)
      = v277 (ValueIdx.ix2 r j) + ∑ k : Fin 1024,
          (if (v6 (ValueIdx.ix1 r)).toNat = (0 : Fin 10).val * 1024 + k.val then (1 : EReal) else 0) * v274 (ValueIdx.ix2 k j) := by
  rw [k2_pay13_eq]
  exact step_apply v6 0#32 0 rfl v274 v277 r j

/-- Step 1 of the target gather: chunk 1's product added to the scratch block. -/
theorem k2_pay14_eq (v6 : IVec S256 32) (v274 : Vec Ideal S1024x128 .f32) (v277 : Vec Ideal S256x128 .f32) :
    k2_pay14 (F := Ideal) v6 v274 v277
      = shapeCast S256x128 (addf (φ := .f32) v277 (hotMul v6 1024#32 v274)) shapeCasts_S256x128_S256x128 := rfl

theorem k2_pay14_apply (v6 : IVec S256 32) (v274 : Vec Ideal S1024x128 .f32) (v277 : Vec Ideal S256x128 .f32)
    (r : Fin 256) (j : Fin 128) :
    k2_pay14 (F := Ideal) v6 v274 v277 (ValueIdx.ix2 r j)
      = v277 (ValueIdx.ix2 r j) + ∑ k : Fin 1024,
          (if (v6 (ValueIdx.ix1 r)).toNat = (1 : Fin 10).val * 1024 + k.val then (1 : EReal) else 0) * v274 (ValueIdx.ix2 k j) := by
  rw [k2_pay14_eq]
  exact step_apply v6 1024#32 1 rfl v274 v277 r j

/-- Step 2 of the target gather: chunk 2's product added to the scratch block. -/
theorem k2_pay15_eq (v6 : IVec S256 32) (v274 : Vec Ideal S1024x128 .f32) (v277 : Vec Ideal S256x128 .f32) :
    k2_pay15 (F := Ideal) v6 v274 v277
      = shapeCast S256x128 (addf (φ := .f32) v277 (hotMul v6 2048#32 v274)) shapeCasts_S256x128_S256x128 := rfl

theorem k2_pay15_apply (v6 : IVec S256 32) (v274 : Vec Ideal S1024x128 .f32) (v277 : Vec Ideal S256x128 .f32)
    (r : Fin 256) (j : Fin 128) :
    k2_pay15 (F := Ideal) v6 v274 v277 (ValueIdx.ix2 r j)
      = v277 (ValueIdx.ix2 r j) + ∑ k : Fin 1024,
          (if (v6 (ValueIdx.ix1 r)).toNat = (2 : Fin 10).val * 1024 + k.val then (1 : EReal) else 0) * v274 (ValueIdx.ix2 k j) := by
  rw [k2_pay15_eq]
  exact step_apply v6 2048#32 2 rfl v274 v277 r j

/-- Step 3 of the target gather: chunk 3's product added to the scratch block. -/
theorem k2_pay16_eq (v6 : IVec S256 32) (v274 : Vec Ideal S1024x128 .f32) (v277 : Vec Ideal S256x128 .f32) :
    k2_pay16 (F := Ideal) v6 v274 v277
      = shapeCast S256x128 (addf (φ := .f32) v277 (hotMul v6 3072#32 v274)) shapeCasts_S256x128_S256x128 := rfl

theorem k2_pay16_apply (v6 : IVec S256 32) (v274 : Vec Ideal S1024x128 .f32) (v277 : Vec Ideal S256x128 .f32)
    (r : Fin 256) (j : Fin 128) :
    k2_pay16 (F := Ideal) v6 v274 v277 (ValueIdx.ix2 r j)
      = v277 (ValueIdx.ix2 r j) + ∑ k : Fin 1024,
          (if (v6 (ValueIdx.ix1 r)).toNat = (3 : Fin 10).val * 1024 + k.val then (1 : EReal) else 0) * v274 (ValueIdx.ix2 k j) := by
  rw [k2_pay16_eq]
  exact step_apply v6 3072#32 3 rfl v274 v277 r j

/-- Step 4 of the target gather: chunk 4's product added to the scratch block. -/
theorem k2_pay17_eq (v6 : IVec S256 32) (v274 : Vec Ideal S1024x128 .f32) (v277 : Vec Ideal S256x128 .f32) :
    k2_pay17 (F := Ideal) v6 v274 v277
      = shapeCast S256x128 (addf (φ := .f32) v277 (hotMul v6 4096#32 v274)) shapeCasts_S256x128_S256x128 := rfl

theorem k2_pay17_apply (v6 : IVec S256 32) (v274 : Vec Ideal S1024x128 .f32) (v277 : Vec Ideal S256x128 .f32)
    (r : Fin 256) (j : Fin 128) :
    k2_pay17 (F := Ideal) v6 v274 v277 (ValueIdx.ix2 r j)
      = v277 (ValueIdx.ix2 r j) + ∑ k : Fin 1024,
          (if (v6 (ValueIdx.ix1 r)).toNat = (4 : Fin 10).val * 1024 + k.val then (1 : EReal) else 0) * v274 (ValueIdx.ix2 k j) := by
  rw [k2_pay17_eq]
  exact step_apply v6 4096#32 4 rfl v274 v277 r j

/-- Step 5 of the target gather: chunk 5's product added to the scratch block. -/
theorem k2_pay18_eq (v6 : IVec S256 32) (v274 : Vec Ideal S1024x128 .f32) (v277 : Vec Ideal S256x128 .f32) :
    k2_pay18 (F := Ideal) v6 v274 v277
      = shapeCast S256x128 (addf (φ := .f32) v277 (hotMul v6 5120#32 v274)) shapeCasts_S256x128_S256x128 := rfl

theorem k2_pay18_apply (v6 : IVec S256 32) (v274 : Vec Ideal S1024x128 .f32) (v277 : Vec Ideal S256x128 .f32)
    (r : Fin 256) (j : Fin 128) :
    k2_pay18 (F := Ideal) v6 v274 v277 (ValueIdx.ix2 r j)
      = v277 (ValueIdx.ix2 r j) + ∑ k : Fin 1024,
          (if (v6 (ValueIdx.ix1 r)).toNat = (5 : Fin 10).val * 1024 + k.val then (1 : EReal) else 0) * v274 (ValueIdx.ix2 k j) := by
  rw [k2_pay18_eq]
  exact step_apply v6 5120#32 5 rfl v274 v277 r j

/-- Step 6 of the target gather: chunk 6's product added to the scratch block. -/
theorem k2_pay19_eq (v6 : IVec S256 32) (v274 : Vec Ideal S1024x128 .f32) (v277 : Vec Ideal S256x128 .f32) :
    k2_pay19 (F := Ideal) v6 v274 v277
      = shapeCast S256x128 (addf (φ := .f32) v277 (hotMul v6 6144#32 v274)) shapeCasts_S256x128_S256x128 := rfl

theorem k2_pay19_apply (v6 : IVec S256 32) (v274 : Vec Ideal S1024x128 .f32) (v277 : Vec Ideal S256x128 .f32)
    (r : Fin 256) (j : Fin 128) :
    k2_pay19 (F := Ideal) v6 v274 v277 (ValueIdx.ix2 r j)
      = v277 (ValueIdx.ix2 r j) + ∑ k : Fin 1024,
          (if (v6 (ValueIdx.ix1 r)).toNat = (6 : Fin 10).val * 1024 + k.val then (1 : EReal) else 0) * v274 (ValueIdx.ix2 k j) := by
  rw [k2_pay19_eq]
  exact step_apply v6 6144#32 6 rfl v274 v277 r j

/-- Step 7 of the target gather: chunk 7's product added to the scratch block. -/
theorem k2_pay20_eq (v6 : IVec S256 32) (v274 : Vec Ideal S1024x128 .f32) (v277 : Vec Ideal S256x128 .f32) :
    k2_pay20 (F := Ideal) v6 v274 v277
      = shapeCast S256x128 (addf (φ := .f32) v277 (hotMul v6 7168#32 v274)) shapeCasts_S256x128_S256x128 := rfl

theorem k2_pay20_apply (v6 : IVec S256 32) (v274 : Vec Ideal S1024x128 .f32) (v277 : Vec Ideal S256x128 .f32)
    (r : Fin 256) (j : Fin 128) :
    k2_pay20 (F := Ideal) v6 v274 v277 (ValueIdx.ix2 r j)
      = v277 (ValueIdx.ix2 r j) + ∑ k : Fin 1024,
          (if (v6 (ValueIdx.ix1 r)).toNat = (7 : Fin 10).val * 1024 + k.val then (1 : EReal) else 0) * v274 (ValueIdx.ix2 k j) := by
  rw [k2_pay20_eq]
  exact step_apply v6 7168#32 7 rfl v274 v277 r j

/-- Step 8 of the target gather: chunk 8's product added to the scratch block. -/
theorem k2_pay21_eq (v6 : IVec S256 32) (v274 : Vec Ideal S1024x128 .f32) (v277 : Vec Ideal S256x128 .f32) :
    k2_pay21 (F := Ideal) v6 v274 v277
      = shapeCast S256x128 (addf (φ := .f32) v277 (hotMul v6 8192#32 v274)) shapeCasts_S256x128_S256x128 := rfl

theorem k2_pay21_apply (v6 : IVec S256 32) (v274 : Vec Ideal S1024x128 .f32) (v277 : Vec Ideal S256x128 .f32)
    (r : Fin 256) (j : Fin 128) :
    k2_pay21 (F := Ideal) v6 v274 v277 (ValueIdx.ix2 r j)
      = v277 (ValueIdx.ix2 r j) + ∑ k : Fin 1024,
          (if (v6 (ValueIdx.ix1 r)).toNat = (8 : Fin 10).val * 1024 + k.val then (1 : EReal) else 0) * v274 (ValueIdx.ix2 k j) := by
  rw [k2_pay21_eq]
  exact step_apply v6 8192#32 8 rfl v274 v277 r j

/-- Step 9 of the target gather: chunk 9's product added to the scratch block. -/
theorem k2_pay22_eq (v6 : IVec S256 32) (v274 : Vec Ideal S1024x128 .f32) (v277 : Vec Ideal S256x128 .f32) :
    k2_pay22 (F := Ideal) v6 v274 v277
      = shapeCast S256x128 (addf (φ := .f32) v277 (hotMul v6 9216#32 v274)) shapeCasts_S256x128_S256x128 := rfl

theorem k2_pay22_apply (v6 : IVec S256 32) (v274 : Vec Ideal S1024x128 .f32) (v277 : Vec Ideal S256x128 .f32)
    (r : Fin 256) (j : Fin 128) :
    k2_pay22 (F := Ideal) v6 v274 v277 (ValueIdx.ix2 r j)
      = v277 (ValueIdx.ix2 r j) + ∑ k : Fin 1024,
          (if (v6 (ValueIdx.ix1 r)).toNat = (9 : Fin 10).val * 1024 + k.val then (1 : EReal) else 0) * v274 (ValueIdx.ix2 k j) := by
  rw [k2_pay22_eq]
  exact step_apply v6 9216#32 9 rfl v274 v277 r j

/-! ## A chunk's share against the whole table -/

/-- The share spelled out. -/
theorem share_eq (w : ℕ) (c : Fin 10) (ch : Vec Ideal S1024x128 .f32) (j : Fin 128) :
    share w c ch j = ∑ k : Fin 1024, (if w = c.val * 1024 + k.val then (1 : EReal) else 0) * ch (ValueIdx.ix2 k j) := rfl

/-- When the chunk is block c of a padded table, its share is the table's row w where w lies in the block, and zero
    elsewhere. -/
theorem share_table (w : ℕ) (c : Fin 10) (x6 : Vec Ideal S10240x128 .f32) (ch : Vec Ideal S1024x128 .f32)
    (hch : ∀ (k : Fin 1024) (j : Fin 128), ch (ValueIdx.ix2 k j) = x6 (ValueIdx.ix2 (Cert.Spec.rowAt c k) j)) (j : Fin 128) :
    share w c ch j = if h : w / 1024 = c.val then x6 (ValueIdx.ix2 (⟨w, by omega⟩ : Fin 10240) j) else 0 := by
  rw [← Cert.Spec.onehot_chunk (fun i => x6 (ValueIdx.ix2 i j)) w c]
  unfold share
  refine Finset.sum_congr rfl fun k _ => ?_
  rw [hch k j]
  rfl

end Cert.KernelIdeal.PayI2

end
-- ==== Proof.StepMathI2.lean ====
import proofs.«414286_j65627100283289_3_alg».proof.Proof.Gen.KernelIdeal.Skeleton
import proofs.«414286_j65627100283289_3_alg».proof.Proof.StepDefsI2
import proofs.«414286_j65627100283289_3_alg».proof.Proof.GateWord
import proofs.«414286_j65627100283289_3_alg».proof.Proof.LibGatedRmw
import proofs.«414286_j65627100283289_3_alg».proof.Proof.PayGatherI2
import proofs.«414286_j65627100283289_3_alg».proof.Proof.PayMlpI2
import proofs.«414286_j65627100283289_3_alg».proof.Proof.Arrange
import proofs.«414286_j65627100283289_3_alg».proof.Proof.Args
import Idealize.ShloMosaic.Lib.Pipeline.FrameBody
import Idealize.ShloMosaic.Lib.ValueIdx
import Idealize.ShloMosaic.Lib.Pipeline.Value
import Idealize.ShloMosaic.PureOps.Ideal.Laws

/-!
# One tile's step of region 2's accumulator, as the layer's mathematics

The body of region 2's kernel, run at the grid point of tile `T`, leaves in the accumulator a function of what it was
handed (`stepAcc2`): a reset at a core's first tile, then ten gated chunk steps, each adding to one chunk of 1024 node
rows the transposed one-hot product of the tile's target column with the tile's messages. Read at an entry `(n, j)`,
only the step of the chunk that holds row `n` touches the entry; its gate is open whenever a target of the tile lies in
that chunk (the targets are sorted and the gates are open on the tile's chunk range), so the step adds the messages of
the tile's edges whose target is `n`, gate or no gate. Each message is the perceptron of the edge's feature row; the two
rows it is made of are picked out of the padded node table by one-hot products (the target rows again under the chunk
gates), and a pick at a node's number is the node's row. So the entry becomes what it was, or zero at a core's first
tile, plus the sum over the tile's edges with target `n` of the messages of `Spec`.
-/

noncomputable section

namespace Cert.KernelIdeal.StepI2

open Idealize.ShloMosaic Idealize.ShloMosaic.ValueIdx Idealize.ShloMosaic.GatedRmw
open Cert.KernelIdeal Cert.KernelIdeal.Gen Cert.KernelIdeal.PayI2
open Cert.Spec
open scoped BigOperators

/-! ## Reading a chunk of a table -/

/-- Chunk `c` of the padded node table, loaded as a block of 1024 rows, at `(k, j)`: the table at row `c * 1024 + k`. -/
theorem ld_chunk (x6 : Vec Ideal S10240x128 .f32) (c : Fin 10) (off : Fin 2 → ℕ) (h0 : off 0 = c.val * 1024) (h1 : off 1 = 0)
    (inb : ∀ a, off a + S1024x128.size a ≤ S10240x128.size a) (k : Fin 1024) (j : Fin 128) :
    View.ld x6 (Rect.unit (s := S10240x128) off S1024x128.size inb) (ValueIdx.ix2 k j) = x6 (ValueIdx.ix2 (rowAt c k) j) := by
  show x6 ((Rect.unit (s := S10240x128) off S1024x128.size inb).emb (ValueIdx.ix2 k j)) = _
  refine congrArg x6 (funext fun a => Fin.ext ?_)
  rcases a with ⟨a, ha⟩
  have ha' : a < 2 := ha
  interval_cases a
  · show off 0 + 1 * k.val = c.val * 1024 + k.val
    omega
  · show off 1 + 1 * j.val = j.val
    omega

/-! ## The reset word -/

/-- The word "the tile's number within its core is zero", computed on 32-bit words. -/
theorem first_word (v : ℕ) (hv : v < 625) :
    (Scalar.cmpi .ne (Scalar.extui (Scalar.cmpi .eq (BitVec.ofNat 32 v) 0#32)) 0#32 : BitVec 1) = 1#1 ↔ v = 0 := by
  unfold Scalar.cmpi Scalar.extui IntOp.cmpi
  simp only []
  by_cases h : v = 0
  · subst h
    simp
  · have hne : BitVec.ofNat 32 v ≠ 0#32 := fun e => h (by
      have := congrArg BitVec.toNat e
      rw [BitVec.toNat_ofNat, BitVec.toNat_ofNat] at this
      omega)
    have hb : (BitVec.ofNat 32 v == 0#32) = false := by simpa using hne
    rw [hb]
    simp [h]

theorem firstW2_iff (i : grid2.Coords) : firstW2 i = 1#1 ↔ (i 1).val = 0 :=
  first_word (i 1).val (i 1).isLt

/-- The accumulator the chunk steps start from, at an entry. -/
theorem accReset2_apply (i : grid2.Coords) (x14 : Vec Ideal S10240x128 .f32) (n : Fin 10240) (j : Fin 128) :
    accReset2 (F := Ideal) i x14 (ValueIdx.ix2 n j) = if (i 1).val = 0 then 0 else x14 (ValueIdx.ix2 n j) := by
  unfold accReset2
  by_cases h : (i 1).val = 0
  · rw [if_pos ((firstW2_iff i).mpr h), if_pos h]
    exact pay2_apply n j
  · rw [if_neg (fun e => h ((firstW2_iff i).mp e)), if_neg h]

/-! ## The target rows: a zero start and ten gated steps -/

/-- One gated step whose payload adds a term `S` to the rows so far adds the gated term. -/
theorem xiStep_add (g : BitVec 1) (pay : Vec Ideal S256x128 .f32 → FVec Ideal S256x128 .f32) (S : Fin 256 → Fin 128 → EReal)
    (hpay : ∀ (X : Vec Ideal S256x128 .f32) (r : Fin 256) (j : Fin 128), pay X (ValueIdx.ix2 r j) = X (ValueIdx.ix2 r j) + S r j)
    (X : Vec Ideal S256x128 .f32) (r : Fin 256) (j : Fin 128) :
    xiStep2 g pay X (ValueIdx.ix2 r j) = X (ValueIdx.ix2 r j) + (if g = 1#1 then S r j else 0) := by
  unfold xiStep2
  by_cases hg : g = 1#1
  · rw [if_pos hg, if_pos hg, hpay]
  · rw [if_neg hg, if_neg hg, add_zero]

/-- Chunk `c`'s share of the pick of the table's row at edge `r`'s target word, column `j`. -/
def Sxi (x5 : Vec Ideal S256x1 .i32) (x6 : Vec Ideal S10240x128 .f32) (c : Fin 10) (r : Fin 256) (j : Fin 128) : EReal :=
  ∑ k : Fin 1024, (if (x5 (ValueIdx.ix2 r (0 : Fin 1))).toNat = c.val * 1024 + k.val then (1 : EReal) else 0)
    * x6 (ValueIdx.ix2 (rowAt c k) j)

/-- A step's payload over the target column and chunk `c` of the table adds that share. -/
theorem xi_pay (c : Fin 10)
    (pay : IVec S256 32 → Vec Ideal S1024x128 .f32 → Vec Ideal S256x128 .f32 → FVec Ideal S256x128 .f32)
    (hp : ∀ (v6 : IVec S256 32) (v274 : Vec Ideal S1024x128 .f32) (v277 : Vec Ideal S256x128 .f32) (r : Fin 256) (j : Fin 128),
      pay v6 v274 v277 (ValueIdx.ix2 r j) = v277 (ValueIdx.ix2 r j) + ∑ k : Fin 1024,
        (if (v6 (ValueIdx.ix1 r)).toNat = c.val * 1024 + k.val then (1 : EReal) else 0) * v274 (ValueIdx.ix2 k j))
    (x5 : Vec Ideal S256x1 .i32) (x6 : Vec Ideal S10240x128 .f32) (off : Fin 2 → ℕ) (h0 : off 0 = c.val * 1024) (h1 : off 1 = 0)
    (inb : ∀ a, off a + S1024x128.size a ≤ S10240x128.size a) (X : Vec Ideal S256x128 .f32) (r : Fin 256) (j : Fin 128) :
    pay (k2_pay3 (F := Ideal) x5) (View.ld x6 (Rect.unit (s := S10240x128) off S1024x128.size inb)) X (ValueIdx.ix2 r j)
      = X (ValueIdx.ix2 r j) + Sxi x5 x6 c r j := by
  rw [hp, k2_pay3_apply]
  unfold Sxi
  refine congrArg (fun z => X (ValueIdx.ix2 r j) + z) (Finset.sum_congr rfl fun k _ => ?_)
  rw [ld_chunk x6 c off h0 h1 inb]

/-- The gathered target rows at `(r, j)`: the ten chunks' gated shares added up. -/
theorem xi2_apply (i : grid2.Coords) (x2 x3 : Vec Ideal S1250 .i32) (x5 : Vec Ideal S256x1 .i32) (x6 : Vec Ideal S10240x128 .f32)
    (r : Fin 256) (j : Fin 128) :
    xi2 (F := Ideal) i x2 x3 x5 x6 (ValueIdx.ix2 r j)
      = ∑ c : Fin 10, if gateWord (loW2 i x2) (hiW2 i x3) (BitVec.ofNat 32 c.val) = 1#1 then Sxi x5 x6 c r j else 0 := by
  unfold xi2
  rw [xiStep_add _ _ (Sxi x5 x6 9) (xi_pay 9 (k2_pay22 (F := Ideal)) k2_pay22_apply x5 x6 _ rfl rfl _),
    xiStep_add _ _ (Sxi x5 x6 8) (xi_pay 8 (k2_pay21 (F := Ideal)) k2_pay21_apply x5 x6 _ rfl rfl _),
    xiStep_add _ _ (Sxi x5 x6 7) (xi_pay 7 (k2_pay20 (F := Ideal)) k2_pay20_apply x5 x6 _ rfl rfl _),
    xiStep_add _ _ (Sxi x5 x6 6) (xi_pay 6 (k2_pay19 (F := Ideal)) k2_pay19_apply x5 x6 _ rfl rfl _),
    xiStep_add _ _ (Sxi x5 x6 5) (xi_pay 5 (k2_pay18 (F := Ideal)) k2_pay18_apply x5 x6 _ rfl rfl _),
    xiStep_add _ _ (Sxi x5 x6 4) (xi_pay 4 (k2_pay17 (F := Ideal)) k2_pay17_apply x5 x6 _ rfl rfl _),
    xiStep_add _ _ (Sxi x5 x6 3) (xi_pay 3 (k2_pay16 (F := Ideal)) k2_pay16_apply x5 x6 _ rfl rfl _),
    xiStep_add _ _ (Sxi x5 x6 2) (xi_pay 2 (k2_pay15 (F := Ideal)) k2_pay15_apply x5 x6 _ rfl rfl _),
    xiStep_add _ _ (Sxi x5 x6 1) (xi_pay 1 (k2_pay14 (F := Ideal)) k2_pay14_apply x5 x6 _ rfl rfl _),
    xiStep_add _ _ (Sxi x5 x6 0) (xi_pay 0 (k2_pay13 (F := Ideal)) k2_pay13_apply x5 x6 _ rfl rfl _),
    k2_pay12_apply]
  exact fold10 (fun c : Fin 10 =>
    if gateWord (loW2 i x2) (hiW2 i x3) (BitVec.ofNat 32 c.val) = 1#1 then Sxi x5 x6 c r j else 0)

/-! ## The two gathered rows of an edge are its nodes' rows -/

section Rows

variable (i : grid2.Coords) (x2 x3 : Vec Ideal S1250 .i32) (x4 x5 : Vec Ideal S256x1 .i32) (x6 : Vec Ideal S10240x128 .f32)
  (T : Fin 1250) (key : Fin 320000 → ℕ) (srcn dstn : Fin 320000 → Fin 10000) (x : Fin 10000 → Fin 128 → EReal)

/-- Along a sorted key with the gates open on the tile's chunk range, the gathered target row of edge `r` is the
    row of the edge's target node. -/
theorem xi2_row
    (hdst : ∀ r : Fin 256, (x5 (ValueIdx.ix2 r (0 : Fin 1))).toNat = key (tileEdge T r))
    (hkey : ∀ a : Fin 320000, key a = (dstn a).val)
    (hmono : ∀ a b : Fin 320000, a ≤ b → key a ≤ key b)
    (hgate : ∀ c : Fin 10, key (tileEdge T 0) / 1024 ≤ c.val → c.val ≤ key (tileEdge T 255) / 1024 →
      gateWord (loW2 i x2) (hiW2 i x3) (BitVec.ofNat 32 c.val) = 1#1)
    (hx : ∀ v : Fin 10000, (fun j : Fin 128 => x6 (ValueIdx.ix2 (⟨v.val, Nat.lt_trans v.isLt (by norm_num)⟩ : Fin 10240) j)) = x v)
    (r : Fin 256) (j : Fin 128) :
    xi2 (F := Ideal) i x2 x3 x5 x6 (ValueIdx.ix2 r j) = x (dstn (tileEdge T r)) j := by
  have hw : key (tileEdge T r) < 10240 := by
    rw [hkey]; exact Nat.lt_trans (dstn (tileEdge T r)).isLt (by norm_num)
  rw [xi2_apply]
  unfold Sxi
  simp only [hdst r]
  refine (gated_pick key hmono T r (fun c : Fin 10 => gateWord (loW2 i x2) (hiW2 i x3) (BitVec.ofNat 32 c.val) = 1#1)
    hgate (fun n : Fin 10240 => x6 (ValueIdx.ix2 n j)) hw).trans ?_
  have e : (⟨key (tileEdge T r), hw⟩ : Fin 10240)
      = ⟨(dstn (tileEdge T r)).val, Nat.lt_trans (dstn (tileEdge T r)).isLt (by norm_num)⟩ := Fin.ext (hkey _)
  show x6 (ValueIdx.ix2 (⟨key (tileEdge T r), hw⟩ : Fin 10240) j) = _
  rw [e]
  exact congrFun (hx (dstn (tileEdge T r))) j

/-- The gathered source row of edge `r` is the row of the edge's source node. -/
theorem xj2_row
    (hsrc : ∀ r : Fin 256, (x4 (ValueIdx.ix2 r (0 : Fin 1))).toNat = (srcn (tileEdge T r)).val)
    (hx : ∀ v : Fin 10000, (fun j : Fin 128 => x6 (ValueIdx.ix2 (⟨v.val, Nat.lt_trans v.isLt (by norm_num)⟩ : Fin 10240) j)) = x v)
    (r : Fin 256) (j : Fin 128) :
    xj2 (F := Ideal) x4 x6 (ValueIdx.ix2 r j) = x (srcn (tileEdge T r)) j := by
  unfold xj2
  rw [srcGather_pick x4 x6 _ _ _ _ _ _ _ _ _ _ (chunks_of_blocks x6 _ _ _ _ _ _ _ _ _ _
    (ld_chunk x6 0 _ rfl rfl _) (ld_chunk x6 1 _ rfl rfl _) (ld_chunk x6 2 _ rfl rfl _) (ld_chunk x6 3 _ rfl rfl _)
    (ld_chunk x6 4 _ rfl rfl _) (ld_chunk x6 5 _ rfl rfl _) (ld_chunk x6 6 _ rfl rfl _) (ld_chunk x6 7 _ rfl rfl _)
    (ld_chunk x6 8 _ rfl rfl _) (ld_chunk x6 9 _ rfl rfl _)) r j, hsrc r]
  exact congrFun (pick_eq x (fun n j => x6 (ValueIdx.ix2 n j)) hx (srcn (tileEdge T r))) j

end Rows

/-! ## The messages -/

section Messages

variable (i : grid2.Coords) (x2 x3 : Vec Ideal S1250 .i32) (x4 x5 : Vec Ideal S256x1 .i32) (x6 : Vec Ideal S10240x128 .f32)
  (x7 : Vec Ideal S256x128 .f32) (x8 : Vec Ideal S1x128 .f32) (x9 : Vec Ideal S128x128 .f32) (x10 : Vec Ideal S1x128 .f32)
  (x11 : Vec Ideal S128x128 .f32) (x12 : Vec Ideal S1x128 .f32)
  (T : Fin 1250) (key : Fin 320000 → ℕ) (srcn dstn : Fin 320000 → Fin 10000) (x : Fin 10000 → Fin 128 → EReal) (P : Weights 128 128)

/-- Row `r` of the tile's messages is the message of edge `r` of the tile. -/
theorem msg2_row
    (hdst : ∀ r : Fin 256, (x5 (ValueIdx.ix2 r (0 : Fin 1))).toNat = key (tileEdge T r))
    (hsrc : ∀ r : Fin 256, (x4 (ValueIdx.ix2 r (0 : Fin 1))).toNat = (srcn (tileEdge T r)).val)
    (hkey : ∀ a : Fin 320000, key a = (dstn a).val)
    (hmono : ∀ a b : Fin 320000, a ≤ b → key a ≤ key b)
    (hgate : ∀ c : Fin 10, key (tileEdge T 0) / 1024 ≤ c.val → c.val ≤ key (tileEdge T 255) / 1024 →
      gateWord (loW2 i x2) (hiW2 i x3) (BitVec.ofNat 32 c.val) = 1#1)
    (hx : ∀ v : Fin 10000, (fun j : Fin 128 => x6 (ValueIdx.ix2 (⟨v.val, Nat.lt_trans v.isLt (by norm_num)⟩ : Fin 10240) j)) = x v)
    (hP : kWeights2 x7 x8 x9 x10 x11 x12 = P) (r : Fin 256) (j : Fin 128) :
    msg2 (F := Ideal) i x2 x3 x4 x5 x6 x7 x8 x9 x10 x11 x12 (ValueIdx.ix2 r j)
      = message P x (srcn (tileEdge T r)) (dstn (tileEdge T r)) j := by
  unfold msg2 hid2
  refine (messages_apply (xj2 (F := Ideal) x4 x6) (xi2 (F := Ideal) i x2 x3 x5 x6) x7 x8
    (FloatOps.ofBits FTy.f32 0#32) Ideal.ofBits_zero_f32 x9 x10 x11 x12 r j).trans ?_
  rw [hP]
  have e1 : (fun j : Fin 128 => xi2 (F := Ideal) i x2 x3 x5 x6 (ValueIdx.ix2 r j)) = x (dstn (tileEdge T r)) :=
    funext (xi2_row i x2 x3 x5 x6 T key dstn x hdst hkey hmono hgate hx r)
  have e2 : (fun j : Fin 128 => xj2 (F := Ideal) x4 x6 (ValueIdx.ix2 r j)) = x (srcn (tileEdge T r)) :=
    funext (xj2_row x4 x6 T srcn x hsrc hx r)
  rw [e1, e2]
  rfl

end Messages

/-! ## The accumulator: ten gated chunk steps -/

/-- One gated chunk step whose payload adds a term `S` to the chunk's rows, at an entry: the entry as it was, plus the
    gated term when the entry's row lies in the chunk. -/
theorem accStep_apply (c : Fin 10) (g : BitVec 1) (off : Fin 2 → ℕ) (h0 : off 0 = c.val * 1024) (h1 : off 1 = 0)
    (inb : ∀ a, off a + S1024x128.size a ≤ S10240x128.size a)
    (pay : Vec Ideal S1024x128 .f32 → FVec Ideal S1024x128 .f32) (S : Fin 1024 → Fin 128 → EReal)
    (hpay : ∀ (V : Vec Ideal S1024x128 .f32) (k : Fin 1024) (j : Fin 128), pay V (ValueIdx.ix2 k j) = V (ValueIdx.ix2 k j) + S k j)
    (A : Vec Ideal S10240x128 .f32) (n : Fin 10240) (j : Fin 128) :
    accStep2 (F := Ideal) g (Rect.unit (s := S10240x128) off S1024x128.size inb) pay A (ValueIdx.ix2 n j)
      = A (ValueIdx.ix2 n j) + (if n.val / 1024 = c.val then
          (if g = 1#1 then S ⟨n.val % 1024, Nat.mod_lt _ (by norm_num)⟩ j else 0) else 0) := by
  unfold accStep2
  by_cases hc : n.val / 1024 = c.val
  · rw [if_pos hc]
    have hn : (ValueIdx.ix2 n j : S10240x128.Idx)
        = (Rect.unit (s := S10240x128) off S1024x128.size inb).emb
            (ValueIdx.ix2 (⟨n.val % 1024, Nat.mod_lt _ (by norm_num)⟩ : Fin 1024) j) := by
      funext a
      apply Fin.ext
      rcases a with ⟨a, ha⟩
      have ha' : a < 2 := ha
      interval_cases a
      · show n.val = off 0 + 1 * (n.val % 1024)
        omega
      · show j.val = off 1 + 1 * j.val
        omega
    by_cases hg : g = 1#1
    · rw [if_pos hg, hn, gatedVal_emb hg, hpay]
      rfl
    · rw [if_neg hg, add_zero, gatedVal_neg hg]
  · rw [if_neg hc, add_zero]
    refine gatedVal_of_not_mem g (Rect.unit (s := S10240x128) off S1024x128.size inb) pay A ?_
    rw [Rect.mem_set_unit]
    intro h
    have h' := h (0 : Fin 2)
    change off 0 ≤ n.val ∧ n.val < off 0 + 1024 at h'
    omega

/-- What chunk `c`'s step adds at row `k` of the chunk: the messages `M` of the tile's rows whose target word is
    `c * 1024 + k`. -/
def Sacc (x5 : Vec Ideal S256x1 .i32) (M : FVec Ideal S256x128 .f32) (c : Fin 10) (k : Fin 1024) (j : Fin 128) : EReal :=
  ∑ r : Fin 256, (if (x5 (ValueIdx.ix2 r (0 : Fin 1))).toNat = c.val * 1024 + k.val then (1 : EReal) else 0)
    * M (ValueIdx.ix2 r j)

/-- A scatter step's payload over the target column and the messages adds that. -/
theorem acc_pay (c : Fin 10)
    (pay : IVec S256 32 → FVec Ideal S256x128 .f32 → Vec Ideal S1024x128 .f32 → FVec Ideal S1024x128 .f32)
    (hp : ∀ (v6 : IVec S256 32) (v212 : FVec Ideal S256x128 .f32) (v275 : Vec Ideal S1024x128 .f32) (k : Fin 1024) (j : Fin 128),
      pay v6 v212 v275 (ValueIdx.ix2 k j) = v275 (ValueIdx.ix2 k j) + ∑ r : Fin 256,
        (if (v6 (ValueIdx.ix1 r)).toNat = c.val * 1024 + k.val then (1 : EReal) else 0) * v212 (ValueIdx.ix2 r j))
    (x5 : Vec Ideal S256x1 .i32) (M : FVec Ideal S256x128 .f32) (V : Vec Ideal S1024x128 .f32) (k : Fin 1024) (j : Fin 128) :
    pay (k2_pay3 (F := Ideal) x5) M V (ValueIdx.ix2 k j) = V (ValueIdx.ix2 k j) + Sacc x5 M c k j := by
  rw [hp]
  unfold Sacc
  refine congrArg (fun z => V (ValueIdx.ix2 k j) + z) (Finset.sum_congr rfl fun r _ => ?_)
  rw [k2_pay3_apply]

/-- The same for the steps whose payload computes the messages from the hidden rows itself. -/
theorem acc_pay' (c : Fin 10)
    (pay : IVec S256 32 → FVec Ideal S256x128 .f32 → Ideal .f32 → Vec Ideal S128x128 .f32 → Vec Ideal S1x128 .f32 →
      Vec Ideal S128x128 .f32 → Vec Ideal S1x128 .f32 → Vec Ideal S1024x128 .f32 → FVec Ideal S1024x128 .f32)
    (hp : ∀ (v6 : IVec S256 32) (v196 : FVec Ideal S256x128 .f32) (cst : Ideal .f32) (v199 : Vec Ideal S128x128 .f32)
        (v201 : Vec Ideal S1x128 .f32) (v207 : Vec Ideal S128x128 .f32) (v209 : Vec Ideal S1x128 .f32)
        (v275 : Vec Ideal S1024x128 .f32) (k : Fin 1024) (j : Fin 128),
      pay v6 v196 cst v199 v201 v207 v209 v275 (ValueIdx.ix2 k j) = v275 (ValueIdx.ix2 k j) + ∑ r : Fin 256,
        (if (v6 (ValueIdx.ix1 r)).toNat = c.val * 1024 + k.val then (1 : EReal) else 0)
          * k2_pay24 (F := Ideal) v196 cst v199 v201 v207 v209 (ValueIdx.ix2 r j))
    (x5 : Vec Ideal S256x1 .i32) (H : FVec Ideal S256x128 .f32) (cst : Ideal .f32) (x9 : Vec Ideal S128x128 .f32)
    (x10 : Vec Ideal S1x128 .f32) (x11 : Vec Ideal S128x128 .f32) (x12 : Vec Ideal S1x128 .f32)
    (V : Vec Ideal S1024x128 .f32) (k : Fin 1024) (j : Fin 128) :
    pay (k2_pay3 (F := Ideal) x5) H cst x9 x10 x11 x12 V (ValueIdx.ix2 k j)
      = V (ValueIdx.ix2 k j) + Sacc x5 (k2_pay24 (F := Ideal) H cst x9 x10 x11 x12) c k j := by
  rw [hp]
  unfold Sacc
  refine congrArg (fun z => V (ValueIdx.ix2 k j) + z) (Finset.sum_congr rfl fun r _ => ?_)
  rw [k2_pay3_apply]

/-- A start value and ten terms added one after the other. -/
theorem fold10_from {M : Type*} [AddCommMonoid M] (a : M) (S : Fin 10 → M) :
    a + S 0 + S 1 + S 2 + S 3 + S 4 + S 5 + S 6 + S 7 + S 8 + S 9 = a + ∑ c : Fin 10, S c := by
  rw [← fold10' S]
  simp only [add_assoc]

/-- The accumulator after the body at an entry: the reset value plus, chunk by chunk, the gated scatter into the
    entry's row when the row lies in the chunk. -/
theorem stepAcc2_sum (i : grid2.Coords) (x2 x3 : Vec Ideal S1250 .i32) (x4 x5 : Vec Ideal S256x1 .i32) (x6 : Vec Ideal S10240x128 .f32)
    (x7 : Vec Ideal S256x128 .f32) (x8 : Vec Ideal S1x128 .f32) (x9 : Vec Ideal S128x128 .f32) (x10 : Vec Ideal S1x128 .f32)
    (x11 : Vec Ideal S128x128 .f32) (x12 : Vec Ideal S1x128 .f32) (x14 : Vec Ideal S10240x128 .f32)
    (n : Fin 10240) (j : Fin 128) :
    stepAcc2 (F := Ideal) i x2 x3 x4 x5 x6 x7 x8 x9 x10 x11 x12 x14 (ValueIdx.ix2 n j)
      = accReset2 (F := Ideal) i x14 (ValueIdx.ix2 n j) + ∑ c : Fin 10,
          if n.val / 1024 = c.val then
            (if gateWord (loW2 i x2) (hiW2 i x3) (BitVec.ofNat 32 c.val) = 1#1 then
              Sacc x5 (msg2 (F := Ideal) i x2 x3 x4 x5 x6 x7 x8 x9 x10 x11 x12) c ⟨n.val % 1024, Nat.mod_lt _ (by norm_num)⟩ j
            else 0)
          else 0 := by
  unfold stepAcc2
  rw [accStep_apply 9 _ _ rfl rfl _ _ (Sacc x5 (msg2 (F := Ideal) i x2 x3 x4 x5 x6 x7 x8 x9 x10 x11 x12) 9)
      (acc_pay 9 (k2_pay34 (F := Ideal)) pay34_apply x5 _),
    accStep_apply 8 _ _ rfl rfl _ _ (Sacc x5 (msg2 (F := Ideal) i x2 x3 x4 x5 x6 x7 x8 x9 x10 x11 x12) 8)
      (acc_pay 8 (k2_pay33 (F := Ideal)) pay33_apply x5 _),
    accStep_apply 7 _ _ rfl rfl _ _ (Sacc x5 (msg2 (F := Ideal) i x2 x3 x4 x5 x6 x7 x8 x9 x10 x11 x12) 7)
      (acc_pay 7 (k2_pay32 (F := Ideal)) pay32_apply x5 _),
    accStep_apply 6 _ _ rfl rfl _ _ (Sacc x5 (msg2 (F := Ideal) i x2 x3 x4 x5 x6 x7 x8 x9 x10 x11 x12) 6)
      (acc_pay 6 (k2_pay31 (F := Ideal)) pay31_apply x5 _),
    accStep_apply 5 _ _ rfl rfl _ _ (Sacc x5 (msg2 (F := Ideal) i x2 x3 x4 x5 x6 x7 x8 x9 x10 x11 x12) 5)
      (acc_pay 5 (k2_pay30 (F := Ideal)) pay30_apply x5 _),
    accStep_apply 4 _ _ rfl rfl _ _ (Sacc x5 (msg2 (F := Ideal) i x2 x3 x4 x5 x6 x7 x8 x9 x10 x11 x12) 4)
      (acc_pay 4 (k2_pay29 (F := Ideal)) pay29_apply x5 _),
    accStep_apply 3 _ _ rfl rfl _ _ (Sacc x5 (msg2 (F := Ideal) i x2 x3 x4 x5 x6 x7 x8 x9 x10 x11 x12) 3)
      (acc_pay 3 (k2_pay28 (F := Ideal)) pay28_apply x5 _),
    accStep_apply 2 _ _ rfl rfl _ _ (Sacc x5 (msg2 (F := Ideal) i x2 x3 x4 x5 x6 x7 x8 x9 x10 x11 x12) 2)
      (acc_pay' 2 (k2_pay27 (F := Ideal)) pay27_apply x5 _ _ x9 x10 x11 x12),
    accStep_apply 1 _ _ rfl rfl _ _ (Sacc x5 (msg2 (F := Ideal) i x2 x3 x4 x5 x6 x7 x8 x9 x10 x11 x12) 1)
      (acc_pay' 1 (k2_pay26 (F := Ideal)) pay26_apply x5 _ _ x9 x10 x11 x12),
    accStep_apply 0 _ _ rfl rfl _ _ (Sacc x5 (msg2 (F := Ideal) i x2 x3 x4 x5 x6 x7 x8 x9 x10 x11 x12) 0)
      (acc_pay' 0 (k2_pay25 (F := Ideal)) pay25_apply x5 _ _ x9 x10 x11 x12)]
  exact fold10_from _ (fun c : Fin 10 =>
    if n.val / 1024 = c.val then
      (if gateWord (loW2 i x2) (hiW2 i x3) (BitVec.ofNat 32 c.val) = 1#1 then
        Sacc x5 (msg2 (F := Ideal) i x2 x3 x4 x5 x6 x7 x8 x9 x10 x11 x12) c ⟨n.val % 1024, Nat.mod_lt _ (by norm_num)⟩ j
      else 0)
    else 0)

/-! ## The step at an entry -/

/-- THE STEP: after the body at the grid point of tile `T`, the accumulator at `(n, j)` is what it was (zero at a core's
    first tile) plus the messages of the tile's edges whose target is row `n` — under hypotheses that say what the
    operands are: the two columns hold the tile's targets and sources, the targets are sorted, the gates are open on the
    tile's chunk range, the padded table carries the node features, the six blocks are the layer's parameters. -/
theorem stepAcc2_apply (i : grid2.Coords) (x2 x3 : Vec Ideal S1250 .i32) (x4 x5 : Vec Ideal S256x1 .i32) (x6 : Vec Ideal S10240x128 .f32)
    (x7 : Vec Ideal S256x128 .f32) (x8 : Vec Ideal S1x128 .f32) (x9 : Vec Ideal S128x128 .f32) (x10 : Vec Ideal S1x128 .f32)
    (x11 : Vec Ideal S128x128 .f32) (x12 : Vec Ideal S1x128 .f32) (x14 : Vec Ideal S10240x128 .f32)
    (T : Fin 1250) (key : Fin 320000 → ℕ) (srcn dstn : Fin 320000 → Fin 10000) (x : Fin 10000 → Fin 128 → EReal) (P : Cert.Spec.Weights 128 128)
    (hpt : (i 1).val = T.val % 625)
    (hdst : ∀ r : Fin 256, (x5 (ValueIdx.ix2 r (0 : Fin 1))).toNat = key (Cert.Spec.tileEdge T r))
    (hsrc : ∀ r : Fin 256, (x4 (ValueIdx.ix2 r (0 : Fin 1))).toNat = (srcn (Cert.Spec.tileEdge T r)).val)
    (hkey : ∀ a : Fin 320000, key a = (dstn a).val)
    (hmono : ∀ a b : Fin 320000, a ≤ b → key a ≤ key b)
    (hgate : ∀ c : Fin 10, key (Cert.Spec.tileEdge T 0) / 1024 ≤ c.val → c.val ≤ key (Cert.Spec.tileEdge T 255) / 1024 →
      Cert.Spec.gateWord (loW2 i x2) (hiW2 i x3) (BitVec.ofNat 32 c.val) = 1#1)
    (hx : ∀ v : Fin 10000, (fun j : Fin 128 => x6 (ValueIdx.ix2 (⟨v.val, Nat.lt_trans v.isLt (by norm_num)⟩ : Fin 10240) j)) = x v)
    (hP : Cert.KernelIdeal.PayI2.kWeights2 x7 x8 x9 x10 x11 x12 = P)
    (n : Fin 10240) (j : Fin 128) :
    stepAcc2 (F := Ideal) i x2 x3 x4 x5 x6 x7 x8 x9 x10 x11 x12 x14 (ValueIdx.ix2 n j)
      = (if T.val % 625 = 0 then 0 else x14 (ValueIdx.ix2 n j))
        + ∑ r : Fin 256, if key (Cert.Spec.tileEdge T r) = n.val
            then Cert.Spec.message P x (srcn (Cert.Spec.tileEdge T r)) (dstn (Cert.Spec.tileEdge T r)) j else 0 := by
  rw [stepAcc2_sum, accReset2_apply, hpt]
  refine congrArg (fun z => (if T.val % 625 = 0 then 0 else x14 (ValueIdx.ix2 n j)) + z) ?_
  have hc0 : n.val / 1024 < 10 := by have := n.isLt; omega
  rw [Finset.sum_eq_single (⟨n.val / 1024, hc0⟩ : Fin 10)]
  · rw [if_pos rfl]
    unfold Sacc
    simp only [hdst]
    refine (gated_scatter key hmono T
      (fun c : Fin 10 => gateWord (loW2 i x2) (hiW2 i x3) (BitVec.ofNat 32 c.val) = 1#1) hgate
      ⟨n.val / 1024, hc0⟩ ⟨n.val % 1024, Nat.mod_lt _ (by norm_num)⟩
      (fun r => msg2 (F := Ideal) i x2 x3 x4 x5 x6 x7 x8 x9 x10 x11 x12 (ValueIdx.ix2 r j))).trans ?_
    refine Finset.sum_congr rfl fun r _ => ?_
    have e : n.val / 1024 * 1024 + n.val % 1024 = n.val := Nat.div_add_mod' n.val 1024
    show (if key (tileEdge T r) = n.val / 1024 * 1024 + n.val % 1024 then _ else 0) = _
    rw [e, msg2_row i x2 x3 x4 x5 x6 x7 x8 x9 x10 x11 x12 T key srcn dstn x P hdst hsrc hkey hmono hgate hx hP r j]
  · intro c _ hc
    rw [if_neg (fun e => hc (Fin.ext e.symm))]
  · intro h
    exact absurd (Finset.mem_univ _) h

end Cert.KernelIdeal.StepI2

end
-- ==== Proof.ValueI2.lean ====
import proofs.«414286_j65627100283289_3_alg».proof.Proof.HandedI2
import proofs.«414286_j65627100283289_3_alg».proof.Proof.GeomI2
import proofs.«414286_j65627100283289_3_alg».proof.Proof.StepDefsI2
import proofs.«414286_j65627100283289_3_alg».proof.Proof.StepMathI2
import proofs.«414286_j65627100283289_3_alg».proof.Proof.RegionDataI2

/-!
# What region 2 leaves: its layer

The kernel region walks the sorted edge list tile by tile. At tile `T` its body turns the accumulator the tile before left
into that accumulator (nothing, at a core's first tile) plus, on every node row, the messages of the tile's edges whose
target is the row; after a core's last tile the accumulator is stored as the core's slab. This module puts the pieces
together over the operand values the region is handed: the tile's step, from the accumulator's recurrence over the tiles the
statement `RegionLeaves` of the layer, and last the region's own proof data — its accumulator tile by tile, its
windows' blocks, its output array after the run — put in.
-/

set_option maxRecDepth 16384

noncomputable section

namespace Cert.KernelIdeal.KHost

open Idealize.ShloMosaic Idealize.ShloMosaic.TcCoe
open Idealize.SL.Sem
open Cert.KernelIdeal Cert.KernelIdeal.Gen
open Cert.Spec
open scoped BigOperators

/-! ## The tile's two table words at a grid point -/

/-- Point `t` of the grid reads entry `t` of the first table. -/
theorem loW2_coords {F : FTy → Type} [FloatOps F] (t : Fin grid2.N) (x2 : Vec F S1250 .i32) :
    loW2 (grid2.coords t) x2 = x2 (ValueIdx.ix1 (Fin.cast N_2 t)) := by
  unfold loW2
  show x2 (Rect.emb _ _) = _
  refine congrArg x2 (funext fun a => ?_)
  match a with
  | ⟨0, _⟩ =>
    apply Fin.ext
    rw [Rect.emb_apply]
    show k2_off1 (grid2.coords t) 0 + 1 * 0 = t.val
    rw [k2_off1_eq]
    show 625 * ((grid2.coords t) 0).val + ((grid2.coords t) 1).val + 1 * 0 = t.val
    rw [coords2_0, coords2_1]
    omega

/-- … and entry `t` of the second. -/
theorem hiW2_coords {F : FTy → Type} [FloatOps F] (t : Fin grid2.N) (x3 : Vec F S1250 .i32) :
    hiW2 (grid2.coords t) x3 = x3 (ValueIdx.ix1 (Fin.cast N_2 t)) := by
  unfold hiW2
  show x3 (Rect.emb _ _) = _
  refine congrArg x3 (funext fun a => ?_)
  match a with
  | ⟨0, _⟩ =>
    apply Fin.ext
    rw [Rect.emb_apply]
    show k2_off1 (grid2.coords t) 0 + 1 * 0 = t.val
    rw [k2_off1_eq]
    show 625 * ((grid2.coords t) 0).val + ((grid2.coords t) 1).val + 1 * 0 = t.val
    rw [coords2_0, coords2_1]
    omega

/-! ## One tile's step, and the layer -/

section Layer2

variable (m : (ℓ : Loc nD τ sig) → Buf (Elt Ideal) ℓ) (outs : Gen.Outs (F := Ideal)) (c : Dev nD)
variable (h : InRange (m ((c : Thread nD τ).loc main_arg2)))

/-- The accumulator after the body at tile `T`, over the region's operands and the tile's two column blocks: what the
    tile before left (nothing at a core's first tile) plus, on row `n`, the messages of the tile's edges whose target is `n`. -/
theorem step2_apply (T : Fin 1250) (x4 x5 : Vec Ideal S256x1 .i32) (x14 : Vec Ideal S10240x128 .f32)
    (h4 : ∀ r : Fin 256, x4 (ValueIdx.ix2 r (0 : Fin 1)) = opSrc2 m outs c (ValueIdx.ix2 (tileEdge T r) (0 : Fin 1)))
    (h5 : ∀ r : Fin 256, x5 (ValueIdx.ix2 r (0 : Fin 1)) = opDst2 m outs c (ValueIdx.ix2 (tileEdge T r) (0 : Fin 1)))
    (n : Fin 10240) (j : Fin 128) :
    stepAcc2 (F := Ideal) (grid2.coords (Fin.cast N_2.symm T)) (opLo2 m outs c) (opHi2 m outs c) x4 x5 (opX2 m outs c)
        (opWa2 m outs c) (opBa2 m outs c) (opWb2 m outs c) (opBb2 m outs c) (opWc2 m outs c) (opBc2 m outs c) x14 (ValueIdx.ix2 n j)
      = (if T.val % 625 = 0 then 0 else x14 (ValueIdx.ix2 n j))
        + ∑ r : Fin 256, if (dstAlong m c h (tileEdge T r)).val = n.val
            then message (layerP2 m outs c) (layerX2 m outs c) (srcAlong m c h (tileEdge T r)) (dstAlong m c h (tileEdge T r)) j else 0 :=
  StepI2.stepAcc2_apply (grid2.coords (Fin.cast N_2.symm T)) (opLo2 m outs c) (opHi2 m outs c) x4 x5 (opX2 m outs c)
    (opWa2 m outs c) (opBa2 m outs c) (opWb2 m outs c) (opBb2 m outs c) (opWc2 m outs c) (opBc2 m outs c) x14
    T (keyOf m c h) (srcAlong m c h) (dstAlong m c h) (layerX2 m outs c) (layerP2 m outs c)
    (coords2_1 (Fin.cast N_2.symm T))
    (fun r => by rw [h5 r]; exact handed2_dst m outs c h T r)
    (fun r => by rw [h4 r]; exact handed2_src m outs c h T r)
    (along_key m c h) (along_mono m c h)
    (by rw [loW2_coords, hiW2_coords]; exact handed2_gate m outs c h T)
    (handed2_x m outs c) (handed2_P m outs c) n j

/-- From the accumulator's recurrence over the tiles and the slabs' read: the layer. `Acc T` is the accumulator before
    tile `T`; `B4 T`, `B5 T` are tile `T`'s blocks of the two sorted columns. -/
theorem leaves2_of_acc (Acc : ℕ → Vec Ideal S10240x128 .f32) (B4 B5 : Fin 1250 → Vec Ideal S256x1 .i32)
    (hB4 : ∀ (T : Fin 1250) (r : Fin 256),
      B4 T (ValueIdx.ix2 r (0 : Fin 1)) = opSrc2 m outs c (ValueIdx.ix2 (tileEdge T r) (0 : Fin 1)))
    (hB5 : ∀ (T : Fin 1250) (r : Fin 256),
      B5 T (ValueIdx.ix2 r (0 : Fin 1)) = opDst2 m outs c (ValueIdx.ix2 (tileEdge T r) (0 : Fin 1)))
    (hsucc : ∀ T : Fin 1250, Acc (T.val + 1)
      = stepAcc2 (F := Ideal) (grid2.coords (Fin.cast N_2.symm T)) (opLo2 m outs c) (opHi2 m outs c) (B4 T) (B5 T) (opX2 m outs c)
          (opWa2 m outs c) (opBa2 m outs c) (opWb2 m outs c) (opBb2 m outs c) (opWc2 m outs c) (opBc2 m outs c) (Acc T.val))
    (S : Fin 2 → Fin 10240 → Fin 128 → EReal)
    (hS : ∀ (p : Fin 2) (n : Fin 10240) (j : Fin 128), S p n j = Acc (p.val * 625 + 625) (ValueIdx.ix2 n j)) :
    RegionLeaves (layerP2 m outs c) (layerX2 m outs c) (srcK m c h) (dstK m c h) (sortPerm (edges m c)) S :=
  regionLeaves_of_acc (layerP2 m outs c) (layerX2 m outs c) (srcK m c h) (dstK m c h) (sortPerm (edges m c)) S
    (fun T n j => Acc T (ValueIdx.ix2 n j))
    (fun T hT n j => by
      show Acc (T + 1) (ValueIdx.ix2 n j) = _
      rw [hsucc ⟨T, hT⟩]
      exact step2_apply m outs c h ⟨T, hT⟩ (B4 ⟨T, hT⟩) (B5 ⟨T, hT⟩) (Acc T) (hB4 ⟨T, hT⟩) (hB5 ⟨T, hT⟩) n j)
    hS

end Layer2

/-! ## The region's proof data at what it is handed -/

section Final2

variable (m : (ℓ : Loc nD τ sig) → Buf (Elt Ideal) ℓ) (outs : Gen.Outs (F := Ideal)) (c : Dev nD)
variable (h : InRange (m ((c : Thread nD τ).loc main_arg2)))

/-- Tile `T` as a point of the region's grid. -/
abbrev pt2 (T : Fin 1250) : Fin (cfg2 (tbl2 m outs c)).N := Fin.cast N_2.symm T

/-- The accumulator before tile `n`. -/
abbrev acc2 : ℕ → Vec Ideal S10240x128 .f32 := accAt2 (ent2 m outs) (tbl2 m outs c) c

/-- What the region leaves in its output array is the layer. -/
theorem leaves2 : RegionLeaves (layerP2 m outs c) (layerX2 m outs c) (srcK m c h) (dstK m c h) (sortPerm (edges m c))
    (fun p n j => ((dat2 (ent2 m outs) (tbl2 m outs c) c).arrAt 9 (cfg2 (tbl2 m outs c)).N : S2x10240x128.Idx → EReal)
      (ValueIdx.ix3 p n j)) := by
  refine leaves2_of_acc m outs c h (acc2 m outs c)
    (fun T => iblk2 (ent2 m outs) (tbl2 m outs c) c (0 : Fin 10) (pt2 m outs c T)) (fun T => iblk2 (ent2 m outs) (tbl2 m outs c) c (1 : Fin 10) (pt2 m outs c T))
    (fun T r => ?_) (fun T r => ?_) (fun T => ?_) _ (fun p n j => ?_)
  · exact (blk2_read_0 (tbl2 m outs c) (pt2 m outs c T) (opSrc2 m outs c) r).trans
      (congrArg (fun e : Fin 320000 => opSrc2 m outs c (ValueIdx.ix2 e (0 : Fin 1))) (Fin.ext rfl))
  · exact (blk2_read_1 (tbl2 m outs c) (pt2 m outs c T) (opDst2 m outs c) r).trans
      (congrArg (fun e : Fin 320000 => opDst2 m outs c (ValueIdx.ix2 e (0 : Fin 1))) (Fin.ext rfl))
  · have e2 : iblk2 (ent2 m outs) (tbl2 m outs c) c (2 : Fin 10) (pt2 m outs c T) = opX2 m outs c :=
      funext fun y => blk2_read_2 (tbl2 m outs c) (pt2 m outs c T) (opX2 m outs c) y
    have e3 : iblk2 (ent2 m outs) (tbl2 m outs c) c (3 : Fin 10) (pt2 m outs c T) = opWa2 m outs c :=
      funext fun y => blk2_read_3 (tbl2 m outs c) (pt2 m outs c T) (opWa2 m outs c) y
    have e4 : iblk2 (ent2 m outs) (tbl2 m outs c) c (4 : Fin 10) (pt2 m outs c T) = opBa2 m outs c :=
      funext fun y => blk2_read_4 (tbl2 m outs c) (pt2 m outs c T) (opBa2 m outs c) y
    have e5 : iblk2 (ent2 m outs) (tbl2 m outs c) c (5 : Fin 10) (pt2 m outs c T) = opWb2 m outs c :=
      funext fun y => blk2_read_5 (tbl2 m outs c) (pt2 m outs c T) (opWb2 m outs c) y
    have e6 : iblk2 (ent2 m outs) (tbl2 m outs c) c (6 : Fin 10) (pt2 m outs c T) = opBb2 m outs c :=
      funext fun y => blk2_read_6 (tbl2 m outs c) (pt2 m outs c T) (opBb2 m outs c) y
    have e7 : iblk2 (ent2 m outs) (tbl2 m outs c) c (7 : Fin 10) (pt2 m outs c T) = opWc2 m outs c :=
      funext fun y => blk2_read_7 (tbl2 m outs c) (pt2 m outs c T) (opWc2 m outs c) y
    have e8 : iblk2 (ent2 m outs) (tbl2 m outs c) c (8 : Fin 10) (pt2 m outs c T) = opBc2 m outs c :=
      funext fun y => blk2_read_8 (tbl2 m outs c) (pt2 m outs c T) (opBc2 m outs c) y
    have e := accAt2_succ (ent2 m outs) (tbl2 m outs c) c (pt2 m outs c T)
    rw [e2, e3, e4, e5, e6, e7, e8] at e
    exact e
  · exact congrFun (arrAt2_9 (tbl2 m outs c) c (dat2 (ent2 m outs) (tbl2 m outs c) c) (acc2 m outs c)
      (fun t _ => after2_9 (ent2 m outs) (tbl2 m outs c) c t)) (ValueIdx.ix3 p n j)

end Final2

end Cert.KernelIdeal.KHost

end
-- ==== Proof.PayMlpI3.lean ====
/-
  The perceptron and the scatter half of a layer's tile body (region 3 of the program), read at an index, at the ideal
  values.

  A tile holds 256 edges. Its messages are a three-layer perceptron of the feature rows (the target's row followed by
  source minus target): each layer is a matrix product plus a bias row repeated down the 256 rows, the first two followed by
  the rectifier max(·, 0). The scatter adds the messages into the accumulator chunk by chunk: for chunk c the 256×1024
  matrix with a one at (r, k) where the target word of row r is c·1024 + k, transposed, times the 256×16 messages, is added to
  the chunk's 1024 rows. At the ideal values a product into a zero accumulator is the plain sum over the contracted
  coordinate, so at (k, j) the step adds exactly the messages of the rows whose word is c·1024 + k.
-/
import proofs.«414286_j65627100283289_3_alg».proof.Proof.Gen.KernelIdeal.Skeleton
import proofs.«414286_j65627100283289_3_alg».proof.Proof.Arrange
import proofs.«414286_j65627100283289_3_alg».proof.Proof.Args
import proofs.«414286_j65627100283289_3_alg».proof.Proof.LibDenseLayer
import proofs.«414286_j65627100283289_3_alg».proof.Proof.LibMatmulColsByCols
import proofs.«414286_j65627100283289_3_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayI3

open Idealize.ShloMosaic Idealize.ShloMosaic.ValueIdx
open scoped BigOperators

/-! ## The accumulator's two trivial payloads -/

/-- The node table stored as one block `[1, 10240, 16]`: entry `(0, n, j)` is entry `(n, j)` of the table. -/
theorem pay1_apply (v : Vec Ideal S10240x16 .f32) (n : Fin 10240) (j : Fin 16) :
    Gen.k3_pay1 v (ValueIdx.ix3 (0 : Fin 1) n j) = v (ValueIdx.ix2 n j) := by
  unfold Gen.k3_pay1
  exact shapeCast_ab_1ab_apply v _ 0 n j

/-- The accumulator's initial contents: every entry is zero. -/
theorem pay2_apply (n : Fin 10240) (j : Fin 16) : (Gen.k3_pay2 (F := Ideal)) (ValueIdx.ix2 n j) = 0 := by
  unfold Gen.k3_pay2
  rw [shapeCast_self]
  exact Ideal.ofBits_zero_f32

/-! ## The 0/1 matrix of one chunk -/

/-- Entry `(r, k)` of the 0/1 matrix that compares the word of row `r` with `base + k`: one where they are the
    same word, zero elsewhere. -/
theorem onehot_entry (v6 : IVec S256 32) (base : BitVec 32) (r : Fin 256) (k : Fin 1024) :
    (sitofp .f32 (extui 32 (cmpi .eq
        (broadcastTo S256x1024 (shapeCast S256x1 v6 Gen.shapeCasts_S256_S256x1) Gen.broadcasts_S256x1_S256x1024)
        (addi (broadcast S256x1024 base) (iota .tc S256x1024 32 [1] Gen.iota_S256x1024_d1_w32))) Gen.natLt_1_32)
      : FVec Ideal S256x1024 .f32) (ValueIdx.ix2 r k)
      = if v6 (ValueIdx.ix1 r) = base + BitVec.ofNat 32 k.val then (1 : EReal) else 0 := by
  rw [sitofp_apply, extui_apply]
  show FloatOps.sitofp FTy.f32 (BitVec.setWidth 32 (IntOp.cmpi .eq
    (broadcastTo S256x1024 (shapeCast S256x1 v6 Gen.shapeCasts_S256_S256x1) Gen.broadcasts_S256x1_S256x1024 (ValueIdx.ix2 r k))
    (IntOp.addi base (iota .tc S256x1024 32 [1] Gen.iota_S256x1024_d1_w32 (ValueIdx.ix2 r k))))) = _
  rw [RowOps.broadcastTo_a1_ab_apply, RowOps.shapeCast_a_a1_apply, iota_single_apply]
  show FloatOps.sitofp FTy.f32 (BitVec.setWidth 32 (IntOp.cmpi .eq (v6 (ValueIdx.ix1 r)) (base + BitVec.ofNat 32 k.val))) = _
  by_cases h : v6 (ValueIdx.ix1 r) = base + BitVec.ofNat 32 k.val
  · rw [if_pos h, IntOp.cmpi_eq.mpr h]
    show (((BitVec.setWidth 32 1#1).toInt : ℝ) : EReal) = 1
    have e : (BitVec.setWidth 32 1#1).toInt = 1 := by decide
    rw [e]; simp
  · rw [if_neg h, eq_zero_of_ne_one (fun e => h (IntOp.cmpi_eq.mp e))]
    show (((BitVec.setWidth 32 0#1).toInt : ℝ) : EReal) = 0
    have e : (BitVec.setWidth 32 0#1).toInt = 0 := by decide
    rw [e]; simp

/-- A 32-bit word is the word of `c*1024 + k` exactly when its unsigned value is that number. -/
theorem word_eq_chunk (x : BitVec 32) (c : Fin 10) (k : Fin 1024) :
    x = BitVec.ofNat 32 (c.val * 1024) + BitVec.ofNat 32 k.val ↔ x.toNat = c.val * 1024 + k.val := by
  have hc := c.isLt; have hk := k.isLt
  rw [← BitVec.ofNat_add]
  constructor
  · intro h; rw [h, BitVec.toNat_ofNat]; omega
  · intro h; rw [← h, BitVec.ofNat_toNat, BitVec.setWidth_eq]

/-- One accumulation step of the scatter into chunk `c`, for messages of any width `N`: the chunk's rows as loaded, plus
    the transpose of the 0/1 matrix of the chunk times the messages. At `(k, j)` it adds the messages of the rows whose
    word is `c*1024 + k`. -/
theorem scatter_core {N : ℕ} (w : DotDims.WF S256x1024 ⟨2, ![256, N]⟩ ⟨2, ![1024, N]⟩ [0] [0] [1] [1] [] [])
    (hs : (⟨2, ![1024, N]⟩ : Shape).ShapeCasts ⟨2, ![1024, N]⟩) (c : Fin 10) (v6 : IVec S256 32)
    (M : FVec Ideal ⟨2, ![256, N]⟩ .f32) (v275 : FVec Ideal ⟨2, ![1024, N]⟩ .f32) (k : Fin 1024) (j : Fin N) :
    shapeCast ⟨2, ![1024, N]⟩ (addf v275 (matmul (⟨[0], [0], [1], [1], [], [], w⟩ : DotDims _ _ _) none
        (sitofp .f32 (extui 32 (cmpi .eq
          (broadcastTo S256x1024 (shapeCast S256x1 v6 Gen.shapeCasts_S256_S256x1) Gen.broadcasts_S256x1_S256x1024)
          (addi (broadcast S256x1024 (BitVec.ofNat 32 (c.val * 1024))) (iota .tc S256x1024 32 [1] Gen.iota_S256x1024_d1_w32)))
          Gen.natLt_1_32) : FVec Ideal S256x1024 .f32)
        M (constant (F := Ideal) ⟨2, ![1024, N]⟩ .f32 0x00000000#32))) hs (ValueIdx.ix2 k j)
      = v275 (ValueIdx.ix2 k j) + ∑ r : Fin 256,
          (if (v6 (ValueIdx.ix1 r)).toNat = c.val * 1024 + k.val then (1 : EReal) else 0) * M (ValueIdx.ix2 r j) := by
  rw [shapeCast_self, addf_apply]
  refine congrArg (fun z => v275 (ValueIdx.ix2 k j) + z) ?_
  refine (MatmulColsByCols.matmul_cols_apply w none _ M k j).trans ?_
  refine Finset.sum_congr rfl fun r _ => ?_
  rw [onehot_entry]
  by_cases h : (v6 (ValueIdx.ix1 r)).toNat = c.val * 1024 + k.val
  · rw [if_pos h, if_pos ((word_eq_chunk _ c k).mpr h)]
  · rw [if_neg h, if_neg (fun e => h ((word_eq_chunk _ c k).mp e))]

/-! ## The scatter's ten steps -/

/-- The scatter's step into chunk 0, at `(k, j)`, the messages being the perceptron's payload: the chunk's entry as
    loaded plus the messages of the tile's rows whose word is `0*1024 + k`. -/
theorem pay25_apply (v6 : IVec S256 32) (v196 : FVec Ideal S256x128 .f32) (cst_57 : Ideal .f32)
    (v199 : Vec Ideal S128x128 .f32) (v201 : Vec Ideal S1x128 .f32) (v207 : Vec Ideal S128x16 .f32)
    (v209 : Vec Ideal S1x16 .f32) (v275 : Vec Ideal S1024x16 .f32) (k : Fin 1024) (j : Fin 16) :
    Gen.k3_pay25 v6 v196 cst_57 v199 v201 v207 v209 v275 (ValueIdx.ix2 k j) = v275 (ValueIdx.ix2 k j) + ∑ r : Fin 256,
      (if (v6 (ValueIdx.ix1 r)).toNat = (0 : Fin 10).val * 1024 + k.val then (1 : EReal) else 0)
        * Gen.k3_pay24 v196 cst_57 v199 v201 v207 v209 (ValueIdx.ix2 r j) := by
  unfold Gen.k3_pay25
  exact scatter_core Gen.dot_S256x1024_S256x16_S1024x16_0_0_1_1_n_n_wf Gen.shapeCasts_S1024x16_S1024x16 0 v6 (Gen.k3_pay24 v196 cst_57 v199 v201 v207 v209) v275 k j

/-- The scatter's step into chunk 1, at `(k, j)`, the messages being the perceptron's payload: the chunk's entry as
    loaded plus the messages of the tile's rows whose word is `1*1024 + k`. -/
theorem pay26_apply (v6 : IVec S256 32) (v196 : FVec Ideal S256x128 .f32) (cst_57 : Ideal .f32)
    (v199 : Vec Ideal S128x128 .f32) (v201 : Vec Ideal S1x128 .f32) (v207 : Vec Ideal S128x16 .f32)
    (v209 : Vec Ideal S1x16 .f32) (v275 : Vec Ideal S1024x16 .f32) (k : Fin 1024) (j : Fin 16) :
    Gen.k3_pay26 v6 v196 cst_57 v199 v201 v207 v209 v275 (ValueIdx.ix2 k j) = v275 (ValueIdx.ix2 k j) + ∑ r : Fin 256,
      (if (v6 (ValueIdx.ix1 r)).toNat = (1 : Fin 10).val * 1024 + k.val then (1 : EReal) else 0)
        * Gen.k3_pay24 v196 cst_57 v199 v201 v207 v209 (ValueIdx.ix2 r j) := by
  unfold Gen.k3_pay26
  exact scatter_core Gen.dot_S256x1024_S256x16_S1024x16_0_0_1_1_n_n_wf Gen.shapeCasts_S1024x16_S1024x16 1 v6 (Gen.k3_pay24 v196 cst_57 v199 v201 v207 v209) v275 k j

/-- The scatter's step into chunk 2, at `(k, j)`, the messages being the perceptron's payload: the chunk's entry as
    loaded plus the messages of the tile's rows whose word is `2*1024 + k`. -/
theorem pay27_apply (v6 : IVec S256 32) (v196 : FVec Ideal S256x128 .f32) (cst_57 : Ideal .f32)
    (v199 : Vec Ideal S128x128 .f32) (v201 : Vec Ideal S1x128 .f32) (v207 : Vec Ideal S128x16 .f32)
    (v209 : Vec Ideal S1x16 .f32) (v275 : Vec Ideal S1024x16 .f32) (k : Fin 1024) (j : Fin 16) :
    Gen.k3_pay27 v6 v196 cst_57 v199 v201 v207 v209 v275 (ValueIdx.ix2 k j) = v275 (ValueIdx.ix2 k j) + ∑ r : Fin 256,
      (if (v6 (ValueIdx.ix1 r)).toNat = (2 : Fin 10).val * 1024 + k.val then (1 : EReal) else 0)
        * Gen.k3_pay24 v196 cst_57 v199 v201 v207 v209 (ValueIdx.ix2 r j) := by
  unfold Gen.k3_pay27
  exact scatter_core Gen.dot_S256x1024_S256x16_S1024x16_0_0_1_1_n_n_wf Gen.shapeCasts_S1024x16_S1024x16 2 v6 (Gen.k3_pay24 v196 cst_57 v199 v201 v207 v209) v275 k j

/-- The scatter's step into chunk 3, at `(k, j)`: the chunk's entry as loaded plus the messages of the tile's rows
    whose word is `3*1024 + k`. -/
theorem pay28_apply (v6 : IVec S256 32) (v212 : FVec Ideal S256x16 .f32) (v275 : Vec Ideal S1024x16 .f32)
    (k : Fin 1024) (j : Fin 16) :
    Gen.k3_pay28 v6 v212 v275 (ValueIdx.ix2 k j) = v275 (ValueIdx.ix2 k j) + ∑ r : Fin 256,
      (if (v6 (ValueIdx.ix1 r)).toNat = (3 : Fin 10).val * 1024 + k.val then (1 : EReal) else 0) * v212 (ValueIdx.ix2 r j) := by
  unfold Gen.k3_pay28
  exact scatter_core Gen.dot_S256x1024_S256x16_S1024x16_0_0_1_1_n_n_wf Gen.shapeCasts_S1024x16_S1024x16 3 v6 v212 v275 k j

/-- The scatter's step into chunk 4, at `(k, j)`: the chunk's entry as loaded plus the messages of the tile's rows
    whose word is `4*1024 + k`. -/
theorem pay29_apply (v6 : IVec S256 32) (v212 : FVec Ideal S256x16 .f32) (v275 : Vec Ideal S1024x16 .f32)
    (k : Fin 1024) (j : Fin 16) :
    Gen.k3_pay29 v6 v212 v275 (ValueIdx.ix2 k j) = v275 (ValueIdx.ix2 k j) + ∑ r : Fin 256,
      (if (v6 (ValueIdx.ix1 r)).toNat = (4 : Fin 10).val * 1024 + k.val then (1 : EReal) else 0) * v212 (ValueIdx.ix2 r j) := by
  unfold Gen.k3_pay29
  exact scatter_core Gen.dot_S256x1024_S256x16_S1024x16_0_0_1_1_n_n_wf Gen.shapeCasts_S1024x16_S1024x16 4 v6 v212 v275 k j

/-- The scatter's step into chunk 5, at `(k, j)`: the chunk's entry as loaded plus the messages of the tile's rows
    whose word is `5*1024 + k`. -/
theorem pay30_apply (v6 : IVec S256 32) (v212 : FVec Ideal S256x16 .f32) (v275 : Vec Ideal S1024x16 .f32)
    (k : Fin 1024) (j : Fin 16) :
    Gen.k3_pay30 v6 v212 v275 (ValueIdx.ix2 k j) = v275 (ValueIdx.ix2 k j) + ∑ r : Fin 256,
      (if (v6 (ValueIdx.ix1 r)).toNat = (5 : Fin 10).val * 1024 + k.val then (1 : EReal) else 0) * v212 (ValueIdx.ix2 r j) := by
  unfold Gen.k3_pay30
  exact scatter_core Gen.dot_S256x1024_S256x16_S1024x16_0_0_1_1_n_n_wf Gen.shapeCasts_S1024x16_S1024x16 5 v6 v212 v275 k j

/-- The scatter's step into chunk 6, at `(k, j)`: the chunk's entry as loaded plus the messages of the tile's rows
    whose word is `6*1024 + k`. -/
theorem pay31_apply (v6 : IVec S256 32) (v212 : FVec Ideal S256x16 .f32) (v275 : Vec Ideal S1024x16 .f32)
    (k : Fin 1024) (j : Fin 16) :
    Gen.k3_pay31 v6 v212 v275 (ValueIdx.ix2 k j) = v275 (ValueIdx.ix2 k j) + ∑ r : Fin 256,
      (if (v6 (ValueIdx.ix1 r)).toNat = (6 : Fin 10).val * 1024 + k.val then (1 : EReal) else 0) * v212 (ValueIdx.ix2 r j) := by
  unfold Gen.k3_pay31
  exact scatter_core Gen.dot_S256x1024_S256x16_S1024x16_0_0_1_1_n_n_wf Gen.shapeCasts_S1024x16_S1024x16 6 v6 v212 v275 k j

/-- The scatter's step into chunk 7, at `(k, j)`: the chunk's entry as loaded plus the messages of the tile's rows
    whose word is `7*1024 + k`. -/
theorem pay32_apply (v6 : IVec S256 32) (v212 : FVec Ideal S256x16 .f32) (v275 : Vec Ideal S1024x16 .f32)
    (k : Fin 1024) (j : Fin 16) :
    Gen.k3_pay32 v6 v212 v275 (ValueIdx.ix2 k j) = v275 (ValueIdx.ix2 k j) + ∑ r : Fin 256,
      (if (v6 (ValueIdx.ix1 r)).toNat = (7 : Fin 10).val * 1024 + k.val then (1 : EReal) else 0) * v212 (ValueIdx.ix2 r j) := by
  unfold Gen.k3_pay32
  exact scatter_core Gen.dot_S256x1024_S256x16_S1024x16_0_0_1_1_n_n_wf Gen.shapeCasts_S1024x16_S1024x16 7 v6 v212 v275 k j

/-- The scatter's step into chunk 8, at `(k, j)`: the chunk's entry as loaded plus the messages of the tile's rows
    whose word is `8*1024 + k`. -/
theorem pay33_apply (v6 : IVec S256 32) (v212 : FVec Ideal S256x16 .f32) (v275 : Vec Ideal S1024x16 .f32)
    (k : Fin 1024) (j : Fin 16) :
    Gen.k3_pay33 v6 v212 v275 (ValueIdx.ix2 k j) = v275 (ValueIdx.ix2 k j) + ∑ r : Fin 256,
      (if (v6 (ValueIdx.ix1 r)).toNat = (8 : Fin 10).val * 1024 + k.val then (1 : EReal) else 0) * v212 (ValueIdx.ix2 r j) := by
  unfold Gen.k3_pay33
  exact scatter_core Gen.dot_S256x1024_S256x16_S1024x16_0_0_1_1_n_n_wf Gen.shapeCasts_S1024x16_S1024x16 8 v6 v212 v275 k j

/-- The scatter's step into chunk 9, at `(k, j)`: the chunk's entry as loaded plus the messages of the tile's rows
    whose word is `9*1024 + k`. -/
theorem pay34_apply (v6 : IVec S256 32) (v212 : FVec Ideal S256x16 .f32) (v275 : Vec Ideal S1024x16 .f32)
    (k : Fin 1024) (j : Fin 16) :
    Gen.k3_pay34 v6 v212 v275 (ValueIdx.ix2 k j) = v275 (ValueIdx.ix2 k j) + ∑ r : Fin 256,
      (if (v6 (ValueIdx.ix1 r)).toNat = (9 : Fin 10).val * 1024 + k.val then (1 : EReal) else 0) * v212 (ValueIdx.ix2 r j) := by
  unfold Gen.k3_pay34
  exact scatter_core Gen.dot_S256x1024_S256x16_S1024x16_0_0_1_1_n_n_wf Gen.shapeCasts_S1024x16_S1024x16 9 v6 v212 v275 k j

/-! ## The perceptron -/

/-- The first layer's parameters as the tile body reads them: three weight matrices, and three bias rows each laid out
    as a one-row array (`[1, 128]`, `[1, 128]`, `[1, 16]`). -/
def kWeights3 (W0 : Vec Ideal S256x128 .f32) (b0 : Vec Ideal S1x128 .f32) (W1 : Vec Ideal S128x128 .f32)
    (b1 : Vec Ideal S1x128 .f32) (W2 : Vec Ideal S128x16 .f32) (b2 : Vec Ideal S1x16 .f32) : Spec.Weights 128 16 where
  W0 := fun l h => W0 (ValueIdx.ix2 l h)
  b0 := fun h => b0 (ValueIdx.ix2 (0 : Fin 1) h)
  W1 := fun l h => W1 (ValueIdx.ix2 l h)
  b1 := fun h => b1 (ValueIdx.ix2 (0 : Fin 1) h)
  W2 := fun l h => W2 (ValueIdx.ix2 l h)
  b2 := fun h => b2 (ValueIdx.ix2 (0 : Fin 1) h)

/-- Row `r` of the feature matrix (the target's row, then source minus target, side by side) is the feature vector of
    the two rows. -/
theorem feats_entry (xi xj : FVec Ideal S256x128 .f32) (r : Fin 256) (l : Fin (128 + 128)) :
    concatenate S256x256 1 [⟨S256x128, xi⟩, ⟨S256x128, subf xj xi⟩] Gen.concatenates_S256x128_S256x128_S256x256_d1 (ValueIdx.ix2 r l)
      = Spec.feats (fun j => xi (ValueIdx.ix2 r j)) (fun j => xj (ValueIdx.ix2 r j)) l := by
  unfold Spec.feats
  refine Fin.addCases (fun a => ?_) (fun a => ?_) l
  · rw [Fin.append_left]
    refine concatenate_pair_apply_left (t := S256x256) 1 xi (subf xj xi) _ _ rfl (ValueIdx.ix2 r a) fun b => ?_
    match b with
    | ⟨0, _⟩ => rfl
    | ⟨1, _⟩ => rfl
  · rw [Fin.append_right]
    refine (concatenate_pair_apply_right (t := S256x256) 1 xi (subf xj xi) _ _ rfl rfl (ValueIdx.ix2 r a)
      (fun b hb => ?_) ?_).trans ?_
    · match b with
      | ⟨0, _⟩ => rfl
      | ⟨1, _⟩ => exact absurd rfl hb
    · exact Nat.add_comm _ _
    · rfl

/-- An affine layer on 256 rows, of any input width `K` and output width `N`: the product with a `K × N` matrix into a
    zero accumulator, plus a bias row repeated down the rows, read at `(r, h)`. -/
theorem dense_apply {K N : ℕ} (w : DotDims.WF ⟨2, ![256, K]⟩ ⟨2, ![K, N]⟩ ⟨2, ![256, N]⟩ [1] [0] [0] [1] [] [])
    (h1 : (⟨2, ![1, N]⟩ : Shape).ShapeCasts ⟨2, ![1, N]⟩) (hb : (⟨2, ![1, N]⟩ : Shape).Broadcasts ⟨2, ![256, N]⟩)
    (A : FVec Ideal ⟨2, ![256, K]⟩ .f32) (W : FVec Ideal ⟨2, ![K, N]⟩ .f32) (b : FVec Ideal ⟨2, ![1, N]⟩ .f32)
    (r : Fin 256) (h : Fin N) :
    addf (matmul (⟨[1], [0], [0], [1], [], [], w⟩ : DotDims _ _ _) none A W
          (constant (F := Ideal) ⟨2, ![256, N]⟩ .f32 0x00000000#32))
        (broadcastTo ⟨2, ![256, N]⟩ (shapeCast ⟨2, ![1, N]⟩ b h1) hb) (ValueIdx.ix2 r h)
      = (∑ l : Fin K, A (ValueIdx.ix2 r l) * W (ValueIdx.ix2 l h)) + b (ValueIdx.ix2 (0 : Fin 1) h) := by
  rw [addf_apply, shapeCast_self, broadcastTo_1b_ab_apply]
  refine congrArg (fun z => z + b (ValueIdx.ix2 (0 : Fin 1) h)) ?_
  exact DenseLayer.matmul_rows_apply w none A W r h

/-- The first affine layer of the tile, before the rectifier, at `(r, h)`. -/
theorem pay23_apply (v133 : FVec Ideal S256x128 .f32) (v188 : Vec Ideal S256x128 .f32) (v191 : Vec Ideal S256x128 .f32)
    (v193 : Vec Ideal S1x128 .f32) (r : Fin 256) (h : Fin 128) :
    Gen.k3_pay23 v133 v188 v191 v193 (ValueIdx.ix2 r h)
      = (∑ l : Fin (128 + 128), Spec.feats (fun j => v188 (ValueIdx.ix2 r j)) (fun j => v133 (ValueIdx.ix2 r j)) l * v191 (ValueIdx.ix2 l h))
        + v193 (ValueIdx.ix2 (0 : Fin 1) h) := by
  unfold Gen.k3_pay23
  refine (dense_apply Gen.dot_S256x256_S256x128_S256x128_1_0_0_1_n_n_wf Gen.shapeCasts_S1x128_S1x128
    Gen.broadcasts_S1x128_S256x128 _ v191 v193 r h).trans ?_
  refine congrArg (fun z => z + v193 (ValueIdx.ix2 (0 : Fin 1) h)) ?_
  refine Finset.sum_congr rfl fun l _ => ?_
  exact congrArg (fun z => z * v191 (ValueIdx.ix2 l h)) (feats_entry v188 v133 r l)

/-- The rest of the perceptron — rectifier, second affine layer, rectifier, third affine layer — at `(r, j)`, over the
    first layer's values `v196`; `cst_57` is the word the first rectifier compares with. -/
theorem pay24_apply (v196 : FVec Ideal S256x128 .f32) (cst_57 : Ideal .f32) (v199 : Vec Ideal S128x128 .f32)
    (v201 : Vec Ideal S1x128 .f32) (v207 : Vec Ideal S128x16 .f32) (v209 : Vec Ideal S1x16 .f32)
    (r : Fin 256) (j : Fin 16) :
    Gen.k3_pay24 v196 cst_57 v199 v201 v207 v209 (ValueIdx.ix2 r j)
      = (∑ k : Fin 128,
            max ((∑ l : Fin 128, max (v196 (ValueIdx.ix2 r l)) cst_57 * v199 (ValueIdx.ix2 l k)) + v201 (ValueIdx.ix2 (0 : Fin 1) k)) 0
              * v207 (ValueIdx.ix2 k j))
        + v209 (ValueIdx.ix2 (0 : Fin 1) j) := by
  unfold Gen.k3_pay24
  refine (dense_apply Gen.dot_S256x128_S128x16_S256x16_1_0_0_1_n_n_wf Gen.shapeCasts_S1x16_S1x16
    Gen.broadcasts_S1x16_S256x16 _ v207 v209 r j).trans ?_
  refine congrArg (fun z => z + v209 (ValueIdx.ix2 (0 : Fin 1) j)) ?_
  refine Finset.sum_congr rfl fun k _ => ?_
  refine congrArg (fun z => z * v207 (ValueIdx.ix2 k j)) ?_
  rw [maximumf_apply, broadcast_apply]
  refine congrArg₂ max ?_ Ideal.ofBits_zero_f32
  refine (dense_apply Gen.dot_S256x128_S128x128_S256x128_1_0_0_1_n_n_wf Gen.shapeCasts_S1x128_S1x128
    Gen.broadcasts_S1x128_S256x128 _ v199 v201 r k).trans ?_
  refine congrArg (fun z => z + v201 (ValueIdx.ix2 (0 : Fin 1) k)) ?_
  refine Finset.sum_congr rfl fun l _ => ?_
  rfl

/-- The zero word is the number zero. -/
theorem cst57_zero : (Scalar.ofBits .f32 0x00000000#32 : Ideal .f32) = 0 := Ideal.ofBits_zero_f32

/-- The tile's messages: row `r` of the composed payloads is the perceptron of the feature vector of row `r` of the
    two picked blocks (`xi` the targets' rows, `xj` the sources' rows). -/
theorem messages_apply (xj : FVec Ideal S256x128 .f32) (xi : Vec Ideal S256x128 .f32) (W0 : Vec Ideal S256x128 .f32)
    (b0 : Vec Ideal S1x128 .f32) (cst_57 : Ideal .f32) (hc : cst_57 = 0) (W1 : Vec Ideal S128x128 .f32)
    (b1 : Vec Ideal S1x128 .f32) (W2 : Vec Ideal S128x16 .f32) (b2 : Vec Ideal S1x16 .f32) (r : Fin 256) (j : Fin 16) :
    Gen.k3_pay24 (Gen.k3_pay23 xj xi W0 b0) cst_57 W1 b1 W2 b2 (ValueIdx.ix2 r j)
      = Spec.mlp (kWeights3 W0 b0 W1 b1 W2 b2) (Spec.feats (fun j => xi (ValueIdx.ix2 r j)) (fun j => xj (ValueIdx.ix2 r j))) j := by
  rw [pay24_apply, hc]
  unfold Spec.mlp Spec.relu kWeights3
  refine congrArg (fun z => z + b2 (ValueIdx.ix2 (0 : Fin 1) j)) ?_
  refine Finset.sum_congr rfl fun k _ => ?_
  refine congrArg (fun z => max z 0 * W2 (ValueIdx.ix2 k j)) ?_
  refine congrArg (fun z => z + b1 (ValueIdx.ix2 (0 : Fin 1) k)) ?_
  refine Finset.sum_congr rfl fun l _ => ?_
  refine congrArg (fun z => max z 0 * W1 (ValueIdx.ix2 l k)) ?_
  exact pay23_apply xj xi W0 b0 r l

/-- The same over named intermediate values: whenever `v196` is the first affine layer of the two blocks and the
    first rectifier's word is zero, the second payload at `(r, j)` is the perceptron of row `r`'s feature vector. -/
theorem messages_apply_of (xj : FVec Ideal S256x128 .f32) (xi : Vec Ideal S256x128 .f32) (W0 : Vec Ideal S256x128 .f32)
    (b0 : Vec Ideal S1x128 .f32) (v196 : FVec Ideal S256x128 .f32) (h196 : v196 = Gen.k3_pay23 xj xi W0 b0)
    (cst_57 : Ideal .f32) (hc : cst_57 = 0) (W1 : Vec Ideal S128x128 .f32)
    (b1 : Vec Ideal S1x128 .f32) (W2 : Vec Ideal S128x16 .f32) (b2 : Vec Ideal S1x16 .f32) (r : Fin 256) (j : Fin 16) :
    Gen.k3_pay24 v196 cst_57 W1 b1 W2 b2 (ValueIdx.ix2 r j)
      = Spec.mlp (kWeights3 W0 b0 W1 b1 W2 b2) (Spec.feats (fun j => xi (ValueIdx.ix2 r j)) (fun j => xj (ValueIdx.ix2 r j))) j := by
  subst h196
  exact messages_apply xj xi W0 b0 cst_57 hc W1 b1 W2 b2 r j

/-- The layer's parameters as the tile body reads them are the parameters read off the six arrays, the bias rows being
    the one-axis arrays laid out as one row. -/
theorem kWeights3_eq (W0 : Vec Ideal S256x128 .f32) (b0 : Vec Ideal S1x128 .f32) (W1 : Vec Ideal S128x128 .f32)
    (b1 : Vec Ideal S1x128 .f32) (W2 : Vec Ideal S128x16 .f32) (b2 : Vec Ideal S1x16 .f32)
    (c0 c1 : FVec Ideal (⟨1, ![128]⟩ : Shape) .f32) (c2 : FVec Ideal (⟨1, ![16]⟩ : Shape) .f32)
    (h0 : ∀ h : Fin 128, b0 (ValueIdx.ix2 (0 : Fin 1) h) = c0 (ValueIdx.ix1 h))
    (h1 : ∀ h : Fin 128, b1 (ValueIdx.ix2 (0 : Fin 1) h) = c1 (ValueIdx.ix1 h))
    (h2 : ∀ h : Fin 16, b2 (ValueIdx.ix2 (0 : Fin 1) h) = c2 (ValueIdx.ix1 h)) :
    kWeights3 W0 b0 W1 b1 W2 b2 = Spec.weightsOf W0 c0 W1 c1 W2 c2 := by
  unfold kWeights3 Spec.weightsOf Spec.matOf Spec.rowOf
  congr 1
  · exact funext h0
  · exact funext h1
  · exact funext h2

end Cert.KernelIdeal.PayI3

end
-- ==== Proof.HandedI3.lean ====
import proofs.«414286_j65627100283289_3_alg».proof.Proof.ValueCommon
import proofs.«414286_j65627100283289_3_alg».proof.Proof.PayMlpI3

/-!
# What region 3 is handed

The fourth kernel region's eleven operand arrays as values — the two prefetched tables, the two sorted columns, the
padded node table, the three weight blocks and the three bias rows —, the layer's parameters and input they carry, and
the facts about them the tile arithmetic consumes: the columns at an edge of a tile, the chunk gate on the tile's chunk
range, the node table on the real rows, the parameters. The region's own analysis speaks of these values only.
-/

set_option maxRecDepth 4096

noncomputable section

namespace Cert.KernelIdeal.KHost

open Idealize.ShloMosaic Idealize.ShloMosaic.TcCoe
open Idealize.SL.Sem
open Cert.KernelIdeal Cert.KernelIdeal.Gen
open Cert.Spec

section Handed3

/-- The buffers' contents when the region is entered. -/
abbrev ent3 (m : (ℓ : Loc nD τ sig) → Buf (Elt Ideal) ℓ) (outs : Gen.Outs (F := Ideal)) :
    (c : Dev nD) → (b : Ref sig .tc) → Buf (Elt Ideal) ((c : Thread nD τ).loc b) := fun c b => V17 m outs c b

/-- The two tables' contents as the region prefetches them. -/
def tbl3 (m : (ℓ : Loc nD τ sig) → Buf (Elt Ideal) ℓ) (outs : Gen.Outs (F := Ideal)) (c : Dev nD) : (pcfg3 (F := Ideal)).Adm :=
  ⟨fun k => V17 m outs c (pre3.ref k), trivial⟩

/-- The two prefetched tables. -/
abbrev opLo3 (m : (ℓ : Loc nD τ sig) → Buf (Elt Ideal) ℓ) (outs : Gen.Outs (F := Ideal)) (c : Dev nD) : Vec Ideal S1250 .i32 := V17 m outs c main_v31
abbrev opHi3 (m : (ℓ : Loc nD τ sig) → Buf (Elt Ideal) ℓ) (outs : Gen.Outs (F := Ideal)) (c : Dev nD) : Vec Ideal S1250 .i32 := V17 m outs c main_v39
/-- The sorted sources' and targets' columns. -/
abbrev opSrc3 (m : (ℓ : Loc nD τ sig) → Buf (Elt Ideal) ℓ) (outs : Gen.Outs (F := Ideal)) (c : Dev nD) : Vec Ideal S320000x1 .i32 := V17 m outs c main_v40
abbrev opDst3 (m : (ℓ : Loc nD τ sig) → Buf (Elt Ideal) ℓ) (outs : Gen.Outs (F := Ideal)) (c : Dev nD) : Vec Ideal S320000x1 .i32 := V17 m outs c main_v41
/-- The padded node table. -/
abbrev opX3 (m : (ℓ : Loc nD τ sig) → Buf (Elt Ideal) ℓ) (outs : Gen.Outs (F := Ideal)) (c : Dev nD) : Vec Ideal S10240x128 .f32 := V17 m outs c main_v66
/-- The three weight blocks and the three bias rows. -/
abbrev opWa3 (m : (ℓ : Loc nD τ sig) → Buf (Elt Ideal) ℓ) (outs : Gen.Outs (F := Ideal)) (c : Dev nD) : Vec Ideal S256x128 .f32 := V17 m outs c main_arg22
abbrev opBa3 (m : (ℓ : Loc nD τ sig) → Buf (Elt Ideal) ℓ) (outs : Gen.Outs (F := Ideal)) (c : Dev nD) : Vec Ideal S1x128 .f32 := V17 m outs c main_v63
abbrev opWb3 (m : (ℓ : Loc nD τ sig) → Buf (Elt Ideal) ℓ) (outs : Gen.Outs (F := Ideal)) (c : Dev nD) : Vec Ideal S128x128 .f32 := V17 m outs c main_arg24
abbrev opBb3 (m : (ℓ : Loc nD τ sig) → Buf (Elt Ideal) ℓ) (outs : Gen.Outs (F := Ideal)) (c : Dev nD) : Vec Ideal S1x128 .f32 := V17 m outs c main_v64
abbrev opWc3 (m : (ℓ : Loc nD τ sig) → Buf (Elt Ideal) ℓ) (outs : Gen.Outs (F := Ideal)) (c : Dev nD) : Vec Ideal S128x16 .f32 := V17 m outs c main_arg26
abbrev opBc3 (m : (ℓ : Loc nD τ sig) → Buf (Elt Ideal) ℓ) (outs : Gen.Outs (F := Ideal)) (c : Dev nD) : Vec Ideal S1x16 .f32 := V17 m outs c main_v65

/-- The layer's parameters and its input. -/
abbrev layerP3 (m : (ℓ : Loc nD τ sig) → Buf (Elt Ideal) ℓ) (outs : Gen.Outs (F := Ideal)) (c : Dev nD) : Weights 128 16 := par3 m c
abbrev layerX3 (m : (ℓ : Loc nD τ sig) → Buf (Elt Ideal) ℓ) (outs : Gen.Outs (F := Ideal)) (c : Dev nD) : Mat 10000 128 := inp3 m outs c

variable (m : (ℓ : Loc nD τ sig) → Buf (Elt Ideal) ℓ) (outs : Gen.Outs (F := Ideal)) (c : Dev nD)
variable (h : InRange (m ((c : Thread nD τ).loc main_arg2)))

theorem handed3_dst (T : Fin 1250) (r : Fin 256) :
    (opDst3 m outs c (ValueIdx.ix2 (tileEdge T r) (0 : Fin 1))).toNat = keyOf m c h (tileEdge T r) :=
  (congrArg (fun v : Vec Ideal S320000x1 .i32 => (v (ValueIdx.ix2 (tileEdge T r) (0 : Fin 1))).toNat) (V17_main_v41 m outs c)).trans
    (along_dst m c h T r)

theorem handed3_src (T : Fin 1250) (r : Fin 256) :
    (opSrc3 m outs c (ValueIdx.ix2 (tileEdge T r) (0 : Fin 1))).toNat = (srcAlong m c h (tileEdge T r)).val :=
  (congrArg (fun v : Vec Ideal S320000x1 .i32 => (v (ValueIdx.ix2 (tileEdge T r) (0 : Fin 1))).toNat) (V17_main_v40 m outs c)).trans
    (along_src m c h T r)

theorem handed3_gate (T : Fin 1250) :
    ∀ k : Fin 10, keyOf m c h (tileEdge T 0) / 1024 ≤ k.val → k.val ≤ keyOf m c h (tileEdge T 255) / 1024 →
      gateWord (opLo3 m outs c (ValueIdx.ix1 T)) (opHi3 m outs c (ValueIdx.ix1 T)) (BitVec.ofNat 32 k.val) = 1#1 := by
  have e1 : opLo3 m outs c = (V8 m c main_v31 : Vec Ideal S1250 .i32) := V17_main_v31 m outs c
  have e2 : opHi3 m outs c = (V8 m c main_v39 : Vec Ideal S1250 .i32) := V17_main_v39 m outs c
  rw [e1, e2]
  exact along_gate m c h T

theorem handed3_x (v : Fin 10000) :
    (fun j : Fin 128 => opX3 m outs c (ValueIdx.ix2 (⟨v.val, Nat.lt_trans v.isLt (by norm_num)⟩ : Fin 10240) j)) = layerX3 m outs c v :=
  funext fun j => rfl

theorem handed3_P :
    PayI3.kWeights3 (opWa3 m outs c) (opBa3 m outs c) (opWb3 m outs c) (opBb3 m outs c) (opWc3 m outs c) (opBc3 m outs c)
      = layerP3 m outs c := by
  rw [PayI3.kWeights3_eq (opWa3 m outs c) (opBa3 m outs c) (opWb3 m outs c) (opBb3 m outs c) (opWc3 m outs c) (opBc3 m outs c)
    (m ((c : Thread nD τ).loc main_arg23)) (m ((c : Thread nD τ).loc main_arg25)) (m ((c : Thread nD τ).loc main_arg27))
    (V17_main_v63_apply m outs c) (V17_main_v64_apply m outs c) (V17_main_v65_apply m outs c)]
  show weightsOf (d := 128) (o := 16) (V17 m outs c main_arg22) _ (V17 m outs c main_arg24) _ (V17 m outs c main_arg26) _ = _
  rw [V17_main_arg22, V17_main_arg24, V17_main_arg26]

end Handed3

end Cert.KernelIdeal.KHost

end
-- ==== Proof.GeomI3.lean ====
import proofs.«414286_j65627100283289_3_alg».proof.Proof.Gen.KernelIdeal.Launch
import proofs.«414286_j65627100283289_3_alg».proof.Proof.Gen.KernelIdeal.Skeleton
import Idealize.ShloMosaic.Lib.Pipeline.Value
import Idealize.ShloMosaic.Lib.Pipeline.Frame
import Idealize.ShloMosaic.Lib.ValueIdx

/-!
# Region 3's window geometry

The region's grid is 2 × 625: point `t` is tile `t % 625` of core `t / 625`. Ten windows: the tile's two index
columns (blocks of 256 rows, the block at point `t` being block `t`), the padded node table and the six parameter
arrays (each one block, the whole array), and the output (one block per core). None of the index maps reads the
prefetched tables, so every fact here holds at any admissible contents `a` of them. The facts: each window's block
index at a point; when a block is fetched or written back and where the output's staging buffer is left alone; which
array element a block's element is; which array indices the output's block at a point holds, and that the blocks
written back hold every index.
-/

noncomputable section

namespace Cert.KernelIdeal.Gen

open Idealize.ShloMosaic Idealize.ShloMosaic.TcCoe

variable {F : FTy → Type} [FloatOps F]

/-! ## 1. The schedule: block indices, fetches, write-backs, idle points -/

/-- The grid has 1250 points; point `t` is core `t / 625`, tile `t % 625`. -/
theorem coords3_0 : ∀ t : Fin grid3.N, ((grid3.coords t) 0).val = t.val / 625 := (by decide +kernel : ∀ t : Fin grid3.N, _)
theorem coords3_1 : ∀ t : Fin grid3.N, ((grid3.coords t) 1).val = t.val % 625 := (by decide +kernel : ∀ t : Fin grid3.N, _)

theorem lt_N3 (a : (pcfg3 (F := F)).Adm) (t : Fin (cfg3 a).N) : t.val < 1250 := by
  have h : t.val < grid3.N := t.isLt
  rwa [N_3] at h

/-- Each window's block index at a point is its printed index map at the point's coordinates, whatever the tables hold. -/
theorem index3_0 (a : (pcfg3 (F := F)).Adm) (t : Fin (cfg3 a).N) : ((cfg3 a).win 0).index t = cc3_transform_0 (grid3.coords t) := rfl
theorem index3_1 (a : (pcfg3 (F := F)).Adm) (t : Fin (cfg3 a).N) : ((cfg3 a).win 1).index t = cc3_transform_1 (grid3.coords t) := rfl
theorem index3_2 (a : (pcfg3 (F := F)).Adm) (t : Fin (cfg3 a).N) : ((cfg3 a).win 2).index t = cc3_transform_2 (grid3.coords t) := rfl
theorem index3_3 (a : (pcfg3 (F := F)).Adm) (t : Fin (cfg3 a).N) : ((cfg3 a).win 3).index t = cc3_transform_3 (grid3.coords t) := rfl
theorem index3_4 (a : (pcfg3 (F := F)).Adm) (t : Fin (cfg3 a).N) : ((cfg3 a).win 4).index t = cc3_transform_4 (grid3.coords t) := rfl
theorem index3_5 (a : (pcfg3 (F := F)).Adm) (t : Fin (cfg3 a).N) : ((cfg3 a).win 5).index t = cc3_transform_5 (grid3.coords t) := rfl
theorem index3_6 (a : (pcfg3 (F := F)).Adm) (t : Fin (cfg3 a).N) : ((cfg3 a).win 6).index t = cc3_transform_6 (grid3.coords t) := rfl
theorem index3_7 (a : (pcfg3 (F := F)).Adm) (t : Fin (cfg3 a).N) : ((cfg3 a).win 7).index t = cc3_transform_7 (grid3.coords t) := rfl
theorem index3_8 (a : (pcfg3 (F := F)).Adm) (t : Fin (cfg3 a).N) : ((cfg3 a).win 8).index t = cc3_transform_8 (grid3.coords t) := rfl
theorem index3_9 (a : (pcfg3 (F := F)).Adm) (t : Fin (cfg3 a).N) : ((cfg3 a).win 9).index t = cc3_transform_9 (grid3.coords t) := rfl

/-- The printed index maps in closed form at every grid point: the two index columns' block is the point's own
    number, the whole-array windows sit at block zero, the output's block is the core's. -/
theorem cc3_transform_0_eq : ∀ t : Fin grid3.N, cc3_transform_0 (grid3.coords t) = ![t.val, 0] := (by decide +kernel : ∀ t : Fin grid3.N, _)
theorem cc3_transform_1_eq : ∀ t : Fin grid3.N, cc3_transform_1 (grid3.coords t) = ![t.val, 0] := (by decide +kernel : ∀ t : Fin grid3.N, _)
theorem cc3_transform_2_eq : ∀ t : Fin grid3.N, cc3_transform_2 (grid3.coords t) = ![0, 0] := (by decide +kernel : ∀ t : Fin grid3.N, _)
theorem cc3_transform_3_eq : ∀ t : Fin grid3.N, cc3_transform_3 (grid3.coords t) = ![0, 0] := (by decide +kernel : ∀ t : Fin grid3.N, _)
theorem cc3_transform_4_eq : ∀ t : Fin grid3.N, cc3_transform_4 (grid3.coords t) = ![0, 0] := (by decide +kernel : ∀ t : Fin grid3.N, _)
theorem cc3_transform_5_eq : ∀ t : Fin grid3.N, cc3_transform_5 (grid3.coords t) = ![0, 0] := (by decide +kernel : ∀ t : Fin grid3.N, _)
theorem cc3_transform_6_eq : ∀ t : Fin grid3.N, cc3_transform_6 (grid3.coords t) = ![0, 0] := (by decide +kernel : ∀ t : Fin grid3.N, _)
theorem cc3_transform_7_eq : ∀ t : Fin grid3.N, cc3_transform_7 (grid3.coords t) = ![0, 0] := (by decide +kernel : ∀ t : Fin grid3.N, _)
theorem cc3_transform_8_eq : ∀ t : Fin grid3.N, cc3_transform_8 (grid3.coords t) = ![0, 0] := (by decide +kernel : ∀ t : Fin grid3.N, _)
theorem cc3_transform_9_eq : ∀ t : Fin grid3.N, cc3_transform_9 (grid3.coords t) = ![t.val / 625, 0, 0] := (by decide +kernel : ∀ t : Fin grid3.N, _)

/-- The schedules of the closed index maps at every grid point. -/
theorem fetchOf3_0 : ∀ t : Fin grid3.N, Pipeline.Window.fetchOf grid3 false cc3_transform_0 t = true := (by decide +kernel : ∀ t : Fin grid3.N, _)
theorem fetchOf3_1 : ∀ t : Fin grid3.N, Pipeline.Window.fetchOf grid3 false cc3_transform_1 t = true := (by decide +kernel : ∀ t : Fin grid3.N, _)
theorem fetchOf3_2 : ∀ t : Fin grid3.N, Pipeline.Window.fetchOf grid3 false cc3_transform_2 t = decide (t.val = 0) := (by decide +kernel : ∀ t : Fin grid3.N, _)
theorem fetchOf3_3 : ∀ t : Fin grid3.N, Pipeline.Window.fetchOf grid3 false cc3_transform_3 t = decide (t.val = 0) := (by decide +kernel : ∀ t : Fin grid3.N, _)
theorem fetchOf3_4 : ∀ t : Fin grid3.N, Pipeline.Window.fetchOf grid3 false cc3_transform_4 t = decide (t.val = 0) := (by decide +kernel : ∀ t : Fin grid3.N, _)
theorem fetchOf3_5 : ∀ t : Fin grid3.N, Pipeline.Window.fetchOf grid3 false cc3_transform_5 t = decide (t.val = 0) := (by decide +kernel : ∀ t : Fin grid3.N, _)
theorem fetchOf3_6 : ∀ t : Fin grid3.N, Pipeline.Window.fetchOf grid3 false cc3_transform_6 t = decide (t.val = 0) := (by decide +kernel : ∀ t : Fin grid3.N, _)
theorem fetchOf3_7 : ∀ t : Fin grid3.N, Pipeline.Window.fetchOf grid3 false cc3_transform_7 t = decide (t.val = 0) := (by decide +kernel : ∀ t : Fin grid3.N, _)
theorem fetchOf3_8 : ∀ t : Fin grid3.N, Pipeline.Window.fetchOf grid3 false cc3_transform_8 t = decide (t.val = 0) := (by decide +kernel : ∀ t : Fin grid3.N, _)
theorem flushOf3_9 : ∀ t : Fin grid3.N, Pipeline.Window.flushOf grid3 true cc3_transform_9 t = (decide (t.val = 624) || decide (t.val = 1249)) :=
  (by decide +kernel : ∀ t : Fin grid3.N, _)

/-- The two index columns are fetched at every point. -/
theorem fetch3_0 (a : (pcfg3 (F := F)).Adm) (t : Fin (cfg3 a).N) : ((cfg3 a).win 0).fetch t = true := fetchOf3_0 t
theorem fetch3_1 (a : (pcfg3 (F := F)).Adm) (t : Fin (cfg3 a).N) : ((cfg3 a).win 1).fetch t = true := fetchOf3_1 t

/-- The whole-array windows are fetched at the first point only. -/
theorem fetch3_2 (a : (pcfg3 (F := F)).Adm) (t : Fin (cfg3 a).N) : ((cfg3 a).win 2).fetch t = decide (t.val = 0) := fetchOf3_2 t
theorem fetch3_3 (a : (pcfg3 (F := F)).Adm) (t : Fin (cfg3 a).N) : ((cfg3 a).win 3).fetch t = decide (t.val = 0) := fetchOf3_3 t
theorem fetch3_4 (a : (pcfg3 (F := F)).Adm) (t : Fin (cfg3 a).N) : ((cfg3 a).win 4).fetch t = decide (t.val = 0) := fetchOf3_4 t
theorem fetch3_5 (a : (pcfg3 (F := F)).Adm) (t : Fin (cfg3 a).N) : ((cfg3 a).win 5).fetch t = decide (t.val = 0) := fetchOf3_5 t
theorem fetch3_6 (a : (pcfg3 (F := F)).Adm) (t : Fin (cfg3 a).N) : ((cfg3 a).win 6).fetch t = decide (t.val = 0) := fetchOf3_6 t
theorem fetch3_7 (a : (pcfg3 (F := F)).Adm) (t : Fin (cfg3 a).N) : ((cfg3 a).win 7).fetch t = decide (t.val = 0) := fetchOf3_7 t
theorem fetch3_8 (a : (pcfg3 (F := F)).Adm) (t : Fin (cfg3 a).N) : ((cfg3 a).win 8).fetch t = decide (t.val = 0) := fetchOf3_8 t
/-- The output is never fetched, the inputs never written back. -/
theorem fetch3_9 (a : (pcfg3 (F := F)).Adm) (t : Fin (cfg3 a).N) : ((cfg3 a).win 9).fetch t = false := rfl
theorem flush3_in (a : (pcfg3 (F := F)).Adm) (w : Fin 10) (hw : w ≠ 9) (t : Fin (cfg3 a).N) : ((cfg3 a).win w).flush t = false := by
  match w, hw with
  | 0, _ => rfl | 1, _ => rfl | 2, _ => rfl | 3, _ => rfl | 4, _ => rfl | 5, _ => rfl | 6, _ => rfl | 7, _ => rfl | 8, _ => rfl
  | 9, h => exact absurd rfl h

/-- The output is written back at each core's last tile and nowhere else. -/
theorem flush3_9_eq (a : (pcfg3 (F := F)).Adm) (t : Fin (cfg3 a).N) :
    ((cfg3 a).win 9).flush t = (decide (t.val = 624) || decide (t.val = 1249)) := flushOf3_9 t

theorem flush3_9 (a : (pcfg3 (F := F)).Adm) (t : Fin (cfg3 a).N) : ((cfg3 a).win 9).flush t = true ↔ t.val = 624 ∨ t.val = 1249 := by
  rw [flush3_9_eq a t]
  simp

theorem flush3_9_iff_mod (a : (pcfg3 (F := F)).Adm) (t : Fin (cfg3 a).N) : ((cfg3 a).win 9).flush t = true ↔ t.val % 625 = 624 := by
  rw [flush3_9 a t]
  have := lt_N3 a t
  omega

/-- The body's store condition holds exactly at a core's last tile. -/
theorem k3_cond22_dec : ∀ t : Fin grid3.N, decide (k3_cond22 (grid3.coords t) = 1#1) = decide (t.val % 625 = 624) :=
  (by decide +kernel : ∀ t : Fin grid3.N, _)

theorem k3_cond22_iff (t : Fin grid3.N) : k3_cond22 (grid3.coords t) = 1#1 ↔ t.val % 625 = 624 := by
  have h := k3_cond22_dec t
  simpa using h

theorem k3_cond22_eq_one (t : Fin grid3.N) (h : t.val % 625 = 624) : k3_cond22 (grid3.coords t) = 1#1 := (k3_cond22_iff t).mpr h
theorem k3_cond22_ne_one (t : Fin grid3.N) (h : t.val % 625 ≠ 624) : ¬ k3_cond22 (grid3.coords t) = 1#1 := fun e => h ((k3_cond22_iff t).mp e)

/-- The output window is idle (its staging buffer not stored into) at every point but a core's last tile. -/
theorem idle3_9_dec : ∀ t : Fin grid3.N, idle3 9 (grid3.coords t) = !decide (t.val % 625 = 624) :=
  (by decide +kernel : ∀ t : Fin grid3.N, _)

theorem idle3_9_eq (a : (pcfg3 (F := F)).Adm) (t : Fin (cfg3 a).N) : (cfg3 a).idle 9 (grid3.coords t) = !decide (t.val % 625 = 624) :=
  idle3_9_dec t

theorem idle3_9 (a : (pcfg3 (F := F)).Adm) (t : Fin (cfg3 a).N) : (cfg3 a).idle 9 (grid3.coords t) = true ↔ t.val % 625 ≠ 624 := by
  rw [idle3_9_eq a t]
  simp

/-- No input window is ever idle. -/
theorem idle3_in (a : (pcfg3 (F := F)).Adm) (w : Fin 10) (hw : w ≠ 9) (i : grid3.Coords) : (cfg3 a).idle w i = false := by
  match w, hw with
  | 0, _ => rfl | 1, _ => rfl | 2, _ => rfl | 3, _ => rfl | 4, _ => rfl | 5, _ => rfl | 6, _ => rfl | 7, _ => rfl | 8, _ => rfl
  | 9, h => exact absurd rfl h

/-! ## 2. Which array element a block's element is

On each axis an element of the block at point `t` sits in the array at the block index times the block's size plus its
own coordinate. -/

/-- The block indices, coordinate by coordinate. -/
theorem index3_0_val (a : (pcfg3 (F := F)).Adm) (t : Fin (cfg3 a).N) :
    ((cfg3 a).win 0).index t (0 : Fin 2) = t.val ∧ ((cfg3 a).win 0).index t (1 : Fin 2) = 0 := by
  rw [index3_0, cc3_transform_0_eq]; exact ⟨rfl, rfl⟩
theorem index3_1_val (a : (pcfg3 (F := F)).Adm) (t : Fin (cfg3 a).N) :
    ((cfg3 a).win 1).index t (0 : Fin 2) = t.val ∧ ((cfg3 a).win 1).index t (1 : Fin 2) = 0 := by
  rw [index3_1, cc3_transform_1_eq]; exact ⟨rfl, rfl⟩
theorem index3_2_val (a : (pcfg3 (F := F)).Adm) (t : Fin (cfg3 a).N) :
    ((cfg3 a).win 2).index t (0 : Fin 2) = 0 ∧ ((cfg3 a).win 2).index t (1 : Fin 2) = 0 := by
  rw [index3_2, cc3_transform_2_eq]; exact ⟨rfl, rfl⟩
theorem index3_3_val (a : (pcfg3 (F := F)).Adm) (t : Fin (cfg3 a).N) :
    ((cfg3 a).win 3).index t (0 : Fin 2) = 0 ∧ ((cfg3 a).win 3).index t (1 : Fin 2) = 0 := by
  rw [index3_3, cc3_transform_3_eq]; exact ⟨rfl, rfl⟩
theorem index3_4_val (a : (pcfg3 (F := F)).Adm) (t : Fin (cfg3 a).N) :
    ((cfg3 a).win 4).index t (0 : Fin 2) = 0 ∧ ((cfg3 a).win 4).index t (1 : Fin 2) = 0 := by
  rw [index3_4, cc3_transform_4_eq]; exact ⟨rfl, rfl⟩
theorem index3_5_val (a : (pcfg3 (F := F)).Adm) (t : Fin (cfg3 a).N) :
    ((cfg3 a).win 5).index t (0 : Fin 2) = 0 ∧ ((cfg3 a).win 5).index t (1 : Fin 2) = 0 := by
  rw [index3_5, cc3_transform_5_eq]; exact ⟨rfl, rfl⟩
theorem index3_6_val (a : (pcfg3 (F := F)).Adm) (t : Fin (cfg3 a).N) :
    ((cfg3 a).win 6).index t (0 : Fin 2) = 0 ∧ ((cfg3 a).win 6).index t (1 : Fin 2) = 0 := by
  rw [index3_6, cc3_transform_6_eq]; exact ⟨rfl, rfl⟩
theorem index3_7_val (a : (pcfg3 (F := F)).Adm) (t : Fin (cfg3 a).N) :
    ((cfg3 a).win 7).index t (0 : Fin 2) = 0 ∧ ((cfg3 a).win 7).index t (1 : Fin 2) = 0 := by
  rw [index3_7, cc3_transform_7_eq]; exact ⟨rfl, rfl⟩
theorem index3_8_val (a : (pcfg3 (F := F)).Adm) (t : Fin (cfg3 a).N) :
    ((cfg3 a).win 8).index t (0 : Fin 2) = 0 ∧ ((cfg3 a).win 8).index t (1 : Fin 2) = 0 := by
  rw [index3_8, cc3_transform_8_eq]; exact ⟨rfl, rfl⟩
theorem index3_9_val (a : (pcfg3 (F := F)).Adm) (t : Fin (cfg3 a).N) :
    ((cfg3 a).win 9).index t (0 : Fin 3) = t.val / 625 ∧ ((cfg3 a).win 9).index t (1 : Fin 3) = 0 ∧ ((cfg3 a).win 9).index t (2 : Fin 3) = 0 := by
  rw [index3_9, cc3_transform_9_eq]; exact ⟨rfl, rfl, rfl⟩

/-- Row `r` of the index-column block at point `t` is row `t * 256 + r` of the column: the tile number is the point's. -/
theorem blk3_read_0 (a : (pcfg3 (F := F)).Adm) (t : Fin (cfg3 a).N) (G : S320000x1.Idx → Elt F .i32) (r : Fin 256) :
    (((cfg3 a).win 0).blk t).view.read (Elt F) G (ValueIdx.ix2 r 0)
      = G (ValueIdx.ix2 ⟨t.val * 256 + r.val, by have := lt_N3 a t; omega⟩ 0) := by
  obtain ⟨e0, e1⟩ := index3_0_val a t
  show G ((((cfg3 a).win 0).blk t).view.emb (ValueIdx.ix2 r 0)) = _
  refine congrArg G ?_
  funext d; apply Fin.ext
  match d with
  | ⟨0, _⟩ => show ((cfg3 a).win 0).index t (0 : Fin 2) * 256 + 1 * r.val = t.val * 256 + r.val; omega
  | ⟨1, _⟩ => show ((cfg3 a).win 0).index t (1 : Fin 2) * 1 + 1 * 0 = 0; omega

theorem blk3_read_1 (a : (pcfg3 (F := F)).Adm) (t : Fin (cfg3 a).N) (G : S320000x1.Idx → Elt F .i32) (r : Fin 256) :
    (((cfg3 a).win 1).blk t).view.read (Elt F) G (ValueIdx.ix2 r 0)
      = G (ValueIdx.ix2 ⟨t.val * 256 + r.val, by have := lt_N3 a t; omega⟩ 0) := by
  obtain ⟨e0, e1⟩ := index3_1_val a t
  show G ((((cfg3 a).win 1).blk t).view.emb (ValueIdx.ix2 r 0)) = _
  refine congrArg G ?_
  funext d; apply Fin.ext
  match d with
  | ⟨0, _⟩ => show ((cfg3 a).win 1).index t (0 : Fin 2) * 256 + 1 * r.val = t.val * 256 + r.val; omega
  | ⟨1, _⟩ => show ((cfg3 a).win 1).index t (1 : Fin 2) * 1 + 1 * 0 = 0; omega

/-- A window whose block is its whole array reads the array as it is. -/
theorem blk3_read_2 (a : (pcfg3 (F := F)).Adm) (t : Fin (cfg3 a).N) (G : S10240x128.Idx → Elt F .f32) (y : S10240x128.Idx) :
    (((cfg3 a).win 2).blk t).view.read (Elt F) G y = G y := by
  obtain ⟨e0, e1⟩ := index3_2_val a t
  show G ((((cfg3 a).win 2).blk t).view.emb y) = _
  refine congrArg G ?_
  funext d; apply Fin.ext
  match d with
  | ⟨0, _⟩ => show ((cfg3 a).win 2).index t (0 : Fin 2) * S10240x128.size 0 + 1 * (y 0).val = (y 0).val; rw [e0]; omega
  | ⟨1, _⟩ => show ((cfg3 a).win 2).index t (1 : Fin 2) * S10240x128.size 1 + 1 * (y 1).val = (y 1).val; rw [e1]; omega

theorem blk3_read_2_fun (a : (pcfg3 (F := F)).Adm) (t : Fin (cfg3 a).N) (G : S10240x128.Idx → Elt F .f32) :
    (((cfg3 a).win 2).blk t).view.read (Elt F) G = G := funext (blk3_read_2 a t G)

theorem blk3_read_3 (a : (pcfg3 (F := F)).Adm) (t : Fin (cfg3 a).N) (G : S256x128.Idx → Elt F .f32) (y : S256x128.Idx) :
    (((cfg3 a).win 3).blk t).view.read (Elt F) G y = G y := by
  obtain ⟨e0, e1⟩ := index3_3_val a t
  show G ((((cfg3 a).win 3).blk t).view.emb y) = _
  refine congrArg G ?_
  funext d; apply Fin.ext
  match d with
  | ⟨0, _⟩ => show ((cfg3 a).win 3).index t (0 : Fin 2) * S256x128.size 0 + 1 * (y 0).val = (y 0).val; rw [e0]; omega
  | ⟨1, _⟩ => show ((cfg3 a).win 3).index t (1 : Fin 2) * S256x128.size 1 + 1 * (y 1).val = (y 1).val; rw [e1]; omega

theorem blk3_read_3_fun (a : (pcfg3 (F := F)).Adm) (t : Fin (cfg3 a).N) (G : S256x128.Idx → Elt F .f32) :
    (((cfg3 a).win 3).blk t).view.read (Elt F) G = G := funext (blk3_read_3 a t G)

theorem blk3_read_4 (a : (pcfg3 (F := F)).Adm) (t : Fin (cfg3 a).N) (G : S1x128.Idx → Elt F .f32) (y : S1x128.Idx) :
    (((cfg3 a).win 4).blk t).view.read (Elt F) G y = G y := by
  obtain ⟨e0, e1⟩ := index3_4_val a t
  show G ((((cfg3 a).win 4).blk t).view.emb y) = _
  refine congrArg G ?_
  funext d; apply Fin.ext
  match d with
  | ⟨0, _⟩ => show ((cfg3 a).win 4).index t (0 : Fin 2) * S1x128.size 0 + 1 * (y 0).val = (y 0).val; rw [e0]; omega
  | ⟨1, _⟩ => show ((cfg3 a).win 4).index t (1 : Fin 2) * S1x128.size 1 + 1 * (y 1).val = (y 1).val; rw [e1]; omega

theorem blk3_read_4_fun (a : (pcfg3 (F := F)).Adm) (t : Fin (cfg3 a).N) (G : S1x128.Idx → Elt F .f32) :
    (((cfg3 a).win 4).blk t).view.read (Elt F) G = G := funext (blk3_read_4 a t G)

theorem blk3_read_5 (a : (pcfg3 (F := F)).Adm) (t : Fin (cfg3 a).N) (G : S128x128.Idx → Elt F .f32) (y : S128x128.Idx) :
    (((cfg3 a).win 5).blk t).view.read (Elt F) G y = G y := by
  obtain ⟨e0, e1⟩ := index3_5_val a t
  show G ((((cfg3 a).win 5).blk t).view.emb y) = _
  refine congrArg G ?_
  funext d; apply Fin.ext
  match d with
  | ⟨0, _⟩ => show ((cfg3 a).win 5).index t (0 : Fin 2) * S128x128.size 0 + 1 * (y 0).val = (y 0).val; rw [e0]; omega
  | ⟨1, _⟩ => show ((cfg3 a).win 5).index t (1 : Fin 2) * S128x128.size 1 + 1 * (y 1).val = (y 1).val; rw [e1]; omega

theorem blk3_read_5_fun (a : (pcfg3 (F := F)).Adm) (t : Fin (cfg3 a).N) (G : S128x128.Idx → Elt F .f32) :
    (((cfg3 a).win 5).blk t).view.read (Elt F) G = G := funext (blk3_read_5 a t G)

theorem blk3_read_6 (a : (pcfg3 (F := F)).Adm) (t : Fin (cfg3 a).N) (G : S1x128.Idx → Elt F .f32) (y : S1x128.Idx) :
    (((cfg3 a).win 6).blk t).view.read (Elt F) G y = G y := by
  obtain ⟨e0, e1⟩ := index3_6_val a t
  show G ((((cfg3 a).win 6).blk t).view.emb y) = _
  refine congrArg G ?_
  funext d; apply Fin.ext
  match d with
  | ⟨0, _⟩ => show ((cfg3 a).win 6).index t (0 : Fin 2) * S1x128.size 0 + 1 * (y 0).val = (y 0).val; rw [e0]; omega
  | ⟨1, _⟩ => show ((cfg3 a).win 6).index t (1 : Fin 2) * S1x128.size 1 + 1 * (y 1).val = (y 1).val; rw [e1]; omega

theorem blk3_read_6_fun (a : (pcfg3 (F := F)).Adm) (t : Fin (cfg3 a).N) (G : S1x128.Idx → Elt F .f32) :
    (((cfg3 a).win 6).blk t).view.read (Elt F) G = G := funext (blk3_read_6 a t G)

theorem blk3_read_7 (a : (pcfg3 (F := F)).Adm) (t : Fin (cfg3 a).N) (G : S128x16.Idx → Elt F .f32) (y : S128x16.Idx) :
    (((cfg3 a).win 7).blk t).view.read (Elt F) G y = G y := by
  obtain ⟨e0, e1⟩ := index3_7_val a t
  show G ((((cfg3 a).win 7).blk t).view.emb y) = _
  refine congrArg G ?_
  funext d; apply Fin.ext
  match d with
  | ⟨0, _⟩ => show ((cfg3 a).win 7).index t (0 : Fin 2) * S128x16.size 0 + 1 * (y 0).val = (y 0).val; rw [e0]; omega
  | ⟨1, _⟩ => show ((cfg3 a).win 7).index t (1 : Fin 2) * S128x16.size 1 + 1 * (y 1).val = (y 1).val; rw [e1]; omega

theorem blk3_read_7_fun (a : (pcfg3 (F := F)).Adm) (t : Fin (cfg3 a).N) (G : S128x16.Idx → Elt F .f32) :
    (((cfg3 a).win 7).blk t).view.read (Elt F) G = G := funext (blk3_read_7 a t G)

theorem blk3_read_8 (a : (pcfg3 (F := F)).Adm) (t : Fin (cfg3 a).N) (G : S1x16.Idx → Elt F .f32) (y : S1x16.Idx) :
    (((cfg3 a).win 8).blk t).view.read (Elt F) G y = G y := by
  obtain ⟨e0, e1⟩ := index3_8_val a t
  show G ((((cfg3 a).win 8).blk t).view.emb y) = _
  refine congrArg G ?_
  funext d; apply Fin.ext
  match d with
  | ⟨0, _⟩ => show ((cfg3 a).win 8).index t (0 : Fin 2) * S1x16.size 0 + 1 * (y 0).val = (y 0).val; rw [e0]; omega
  | ⟨1, _⟩ => show ((cfg3 a).win 8).index t (1 : Fin 2) * S1x16.size 1 + 1 * (y 1).val = (y 1).val; rw [e1]; omega

theorem blk3_read_8_fun (a : (pcfg3 (F := F)).Adm) (t : Fin (cfg3 a).N) (G : S1x16.Idx → Elt F .f32) :
    (((cfg3 a).win 8).blk t).view.read (Elt F) G = G := funext (blk3_read_8 a t G)

/-- The output's block at point `t` is the slab of the point's core `t / 625`. -/
theorem blk3_read_9 (a : (pcfg3 (F := F)).Adm) (t : Fin (cfg3 a).N) (G : S2x10240x16.Idx → Elt F .f32) (y : S1x10240x16.Idx) :
    (((cfg3 a).win 9).blk t).view.read (Elt F) G y
      = G (ValueIdx.ix3 ⟨t.val / 625, by have := lt_N3 a t; omega⟩ (y 1) (y 2)) := by
  obtain ⟨e0, e1, e2⟩ := index3_9_val a t
  show G ((((cfg3 a).win 9).blk t).view.emb y) = _
  refine congrArg G ?_
  funext d; apply Fin.ext
  have hy0 : (y 0).val < 1 := (y 0).isLt
  have hm : t.val / 625 * S1x10240x16.size 0 = t.val / 625 := Nat.mul_one _
  match d with
  | ⟨0, _⟩ => show ((cfg3 a).win 9).index t (0 : Fin 3) * S1x10240x16.size 0 + 1 * (y 0).val = t.val / 625; rw [e0]; omega
  | ⟨1, _⟩ => show ((cfg3 a).win 9).index t (1 : Fin 3) * S1x10240x16.size 1 + 1 * (y 1).val = (y 1).val; rw [e1]; omega
  | ⟨2, _⟩ => show ((cfg3 a).win 9).index t (2 : Fin 3) * S1x10240x16.size 2 + 1 * (y 2).val = (y 2).val; rw [e2]; omega

/-- The same at an index spelt by its coordinates. -/
theorem blk3_read_9' (a : (pcfg3 (F := F)).Adm) (t : Fin (cfg3 a).N) (G : S2x10240x16.Idx → Elt F .f32)
    (n : Fin (S1x10240x16.size 1)) (j : Fin (S1x10240x16.size 2)) :
    (((cfg3 a).win 9).blk t).view.read (Elt F) G (ValueIdx.ix3 0 n j)
      = G (ValueIdx.ix3 ⟨t.val / 625, by have := lt_N3 a t; omega⟩ n j) := blk3_read_9 a t G _

/-! ## 3. The output's blocks: which indices a block holds, and that the written blocks hold them all -/

/-- An index of the output array lies in the block at point `t` iff each coordinate lies in the block's range on its axis. -/
theorem mem_blk3_9_axes (a : (pcfg3 (F := F)).Adm) (t : Fin (cfg3 a).N) (i : S2x10240x16.Idx) :
    i ∈ (((cfg3 a).win 9).blk t).view.set ↔ ∀ d : Fin 3, ((cfg3 a).win 9).index t d * S1x10240x16.size d ≤ (i d).val
      ∧ (i d).val < ((cfg3 a).win 9).index t d * S1x10240x16.size d + S1x10240x16.size d := by
  have h1 : (((cfg3 a).win 9).blk t).view.set = (((cfg3 a).win 9).rect t).set := View.set_slice_whole _ _
  rw [h1]
  exact Rect.mem_set_unit

/-- That is: iff its leading coordinate is the point's core. -/
theorem mem_blk3_9 (a : (pcfg3 (F := F)).Adm) (t : Fin (cfg3 a).N) (i : S2x10240x16.Idx) :
    i ∈ (((cfg3 a).win 9).blk t).view.set ↔ (i 0).val = t.val / 625 := by
  obtain ⟨e0, e1, e2⟩ := index3_9_val a t
  rw [mem_blk3_9_axes]
  have h1 : (i 1).val < S2x10240x16.size 1 := (i 1).isLt
  have h2 : (i 2).val < S2x10240x16.size 2 := (i 2).isLt
  have hs0 : S1x10240x16.size 0 = 1 := rfl
  have hs1 : S1x10240x16.size 1 = S2x10240x16.size 1 := rfl
  have hs2 : S1x10240x16.size 2 = S2x10240x16.size 2 := rfl
  constructor
  · intro h
    have b0 := h 0
    rw [e0, hs0] at b0
    omega
  · intro h d
    match d with
    | ⟨0, _⟩ => show ((cfg3 a).win 9).index t (0 : Fin 3) * S1x10240x16.size 0 ≤ (i 0).val ∧ (i 0).val < ((cfg3 a).win 9).index t (0 : Fin 3) * S1x10240x16.size 0 + S1x10240x16.size 0; rw [e0, hs0]; omega
    | ⟨1, _⟩ => show ((cfg3 a).win 9).index t (1 : Fin 3) * S1x10240x16.size 1 ≤ (i 1).val ∧ (i 1).val < ((cfg3 a).win 9).index t (1 : Fin 3) * S1x10240x16.size 1 + S1x10240x16.size 1; rw [e1, hs1]; omega
    | ⟨2, _⟩ => show ((cfg3 a).win 9).index t (2 : Fin 3) * S1x10240x16.size 2 ≤ (i 2).val ∧ (i 2).val < ((cfg3 a).win 9).index t (2 : Fin 3) * S1x10240x16.size 2 + S1x10240x16.size 2; rw [e2, hs2]; omega

/-- Every index of the output array lies in a block that is written back: its core's, at the core's last tile. -/
theorem cover3_9 (a : (pcfg3 (F := F)).Adm) (i : S2x10240x16.Idx) :
    ∃ t : Fin (cfg3 a).N, ((cfg3 a).win 9).flush t = true ∧ i ∈ (((cfg3 a).win 9).blk t).view.set := by
  have h0 : (i 0).val < 2 := (i 0).isLt
  refine ⟨⟨(i 0).val * 625 + 624, by show _ < grid3.N; rw [N_3]; omega⟩, ?_, ?_⟩
  · rw [flush3_9]; show (i 0).val * 625 + 624 = 624 ∨ (i 0).val * 625 + 624 = 1249; omega
  · rw [mem_blk3_9]; show (i 0).val = ((i 0).val * 625 + 624) / 625; omega

/-- The point that writes index `i`'s block back, named. -/
def lastOf3 (a : (pcfg3 (F := F)).Adm) (p : Fin 2) : Fin (cfg3 a).N := ⟨p.val * 625 + 624, by show _ < grid3.N; rw [N_3]; omega⟩

@[simp] theorem lastOf3_val (a : (pcfg3 (F := F)).Adm) (p : Fin 2) : (lastOf3 a p).val = p.val * 625 + 624 := rfl

theorem flush3_9_last (a : (pcfg3 (F := F)).Adm) (p : Fin 2) : ((cfg3 a).win 9).flush (lastOf3 a p) = true := by
  rw [flush3_9, lastOf3_val]; omega

theorem mem_blk3_9_last (a : (pcfg3 (F := F)).Adm) (p : Fin 2) (i : S2x10240x16.Idx) :
    i ∈ (((cfg3 a).win 9).blk (lastOf3 a p)).view.set ↔ i 0 = p := by
  rw [mem_blk3_9, lastOf3_val]
  have h0 : (i 0).val < 2 := (i 0).isLt
  constructor
  · intro h; apply Fin.ext; omega
  · intro h; rw [h]; omega

/-- Two different points that both write back hold no index in common. -/
theorem disjoint3_9 (a : (pcfg3 (F := F)).Adm) (t t' : Fin (cfg3 a).N) (hf : ((cfg3 a).win 9).flush t = true)
    (hf' : ((cfg3 a).win 9).flush t' = true) (hne : t ≠ t') :
    Disjoint (((cfg3 a).win 9).blk t).view.set (((cfg3 a).win 9).blk t').view.set := by
  rw [Finset.disjoint_left]
  intro i hi hi'
  have h1 := (mem_blk3_9 a t i).mp hi
  have h2 := (mem_blk3_9 a t' i).mp hi'
  rw [flush3_9] at hf hf'
  exact hne (Fin.ext (by omega))

/-! ## 4. The output array after the region -/

/-- The stored block `[1, n, m]` made from a table `[n, m]`: entry `(0, n, j)` is the table's entry `(n, j)`. -/
theorem k3_pay1_apply (v : Vec F S10240x16 .f32) (y : S1x10240x16.Idx) :
    k3_pay1 v y = v (ValueIdx.ix2 (y 1) (y 2)) := by
  unfold k3_pay1
  rw [shapeCast_addUnit_apply]
  refine congrArg v ?_
  funext d
  match d with
  | ⟨0, _⟩ => rfl
  | ⟨1, _⟩ => rfl

section Arr

variable {Ix : Type} [DecidableEq Ix] {Name : Type} [DecidableEq Name] {U : Type} [Idealize.SL.RA.URA U] {Lvl : Type}

/-- When every point that writes the output back leaves in the staging buffer the table `Acc (t + 1)` as one block,
    the output array after the region holds, in core `p`'s slab, the table `Acc (p * 625 + 625)`: the table after
    that core's last tile. -/
theorem arrAt3_9 (a : (pcfg3 (F := F)).Adm) (c : Dev nD) (dat : Pipeline.Dat τ (Elt F) Ix Name U Lvl (cfg3 a) c)
    (Acc : ℕ → Vec F S10240x16 .f32)
    (hafter : ∀ t, ((cfg3 a).win 9).flush t = true → dat.after 9 t = k3_pay1 (Acc (t.val + 1))) :
    dat.arrAt 9 (cfg3 a).N
      = fun i : S2x10240x16.Idx => Acc ((i 0).val * 625 + 625) (ValueIdx.ix2 (i 1) (i 2)) := by
  refine dat.arrAt_eq_of_cover 9 _ (fun t hf => ?_) (cover3_9 a)
  have hfl : dat.flushed 9 t = dat.after 9 t := rfl
  rw [hfl, hafter t hf]
  funext y
  rw [blk3_read_9 a t _ y, k3_pay1_apply]
  have ht : t.val / 625 * 625 + 625 = t.val + 1 := by
    rcases (flush3_9 a t).mp hf with h | h <;> omega
  show _ = Acc (t.val / 625 * 625 + 625) (ValueIdx.ix2 (y 1) (y 2))
  rw [ht]

/-- The same at an index spelt by its coordinates: core, node row, column. -/
theorem arrAt3_9_apply (a : (pcfg3 (F := F)).Adm) (c : Dev nD) (dat : Pipeline.Dat τ (Elt F) Ix Name U Lvl (cfg3 a) c)
    (Acc : ℕ → Vec F S10240x16 .f32)
    (hafter : ∀ t, ((cfg3 a).win 9).flush t = true → dat.after 9 t = k3_pay1 (Acc (t.val + 1)))
    (p : Fin 2) (n : Fin (S1x10240x16.size 1)) (j : Fin (S1x10240x16.size 2)) :
    dat.arrAt 9 (cfg3 a).N (ValueIdx.ix3 p n j) = Acc (p.val * 625 + 625) (ValueIdx.ix2 n j) := by
  rw [arrAt3_9 a c dat Acc hafter]

end Arr

end Cert.KernelIdeal.Gen

end
-- ==== Proof.PayGatherI3.lean ====
import proofs.«414286_j65627100283289_3_alg».proof.Proof.Gen.KernelIdeal.Skeleton
import proofs.«414286_j65627100283289_3_alg».proof.Proof.Arrange
import proofs.«414286_j65627100283289_3_alg».proof.Proof.LibDenseLayer
import Idealize.ShloMosaic.Lib.ValueIdx
import Idealize.ShloMosaic.Lib.ValueLayout
import Idealize.ShloMosaic.Lib.Pipeline.Value
import Idealize.ShloMosaic.PureOps.Ideal.Laws

/-!
# The gather half of a layer's tile body, read at an index

One tile of 256 edges reads, for every edge, the row of its source node and the row of its target node out of a node
table padded to 10240 rows, which is held as ten chunks of 1024 rows. A row is not addressed: for chunk c the body
builds the 0/1 block whose entry (r, k) is one exactly when edge r's node word equals the word c·1024 + k, and
multiplies it with the chunk's 1024 rows; the ten products are added. Over the extended reals each product at (r, j)
is the sum over k of (0 or 1) times the chunk's entry (k, j), so the ten added products are the table's pick at the
edge's word. The comparison is equality of 32-bit words, that is equality of the words' unsigned values; below the
word is read by toNat.

The facts are stated for the values the body names, one per value, and then for the source gather as the body
composes it. The target gather runs the same ten steps, each adding one chunk's product to what a scratch block held.
-/

noncomputable section

namespace Cert.KernelIdeal.PayI3

open Idealize.ShloMosaic Idealize.SL.Sem Idealize.ShloMosaic.ValueIdx
open Cert.KernelIdeal Cert.KernelIdeal.Gen
open scoped BigOperators

/-- The 0/1 block of one chunk of 1024 rows: entry (r, k) compares row r's word with the word base + k. -/
def hot (v : IVec S256 32) (b : BitVec 32) : FVec Ideal S256x1024 .f32 :=
  sitofp .f32 (extui 32 (cmpi .eq
    (broadcastTo S256x1024 (shapeCast S256x1 v shapeCasts_S256_S256x1) broadcasts_S256x1_S256x1024)
    (addi (broadcast S256x1024 b) (iota .tc S256x1024 32 [1] iota_S256x1024_d1_w32))) natLt_1_32)

theorem col_apply (v : IVec S256 32) (r : Fin 256) (k : Fin 1024) :
    broadcastTo S256x1024 (shapeCast S256x1 v shapeCasts_S256_S256x1) broadcasts_S256x1_S256x1024 (ValueIdx.ix2 r k) = v (ValueIdx.ix1 r) := by
  rw [broadcastTo_apply _ _ (ValueIdx.ix2 r k) (ValueIdx.ix2 r (0 : Fin 1)) ?_, shapeCast_apply _ _ (ValueIdx.ix2 r (0 : Fin 1)) (ValueIdx.ix1 r) ?_]
  · rw [Shape.rowMajor_val_one, Shape.rowMajor_val_two]
    show r.val = r.val * 1 + 0
    omega
  · intro a
    match a with
    | ⟨0, _⟩ => rfl
    | ⟨1, _⟩ => rfl

theorem iota_apply (r : Fin 256) (k : Fin 1024) :
    iota .tc S256x1024 32 [1] iota_S256x1024_d1_w32 (ValueIdx.ix2 r k) = BitVec.ofNat 32 k.val :=
  iota_single_apply .tc S256x1024 32 1 iota_S256x1024_d1_w32 (ValueIdx.ix2 r k)

theorem hot_apply (v : IVec S256 32) (b : BitVec 32) (r : Fin 256) (k : Fin 1024) :
    hot v b (ValueIdx.ix2 r k) = if v (ValueIdx.ix1 r) = b + BitVec.ofNat 32 k.val then (1 : EReal) else 0 := by
  have e : hot v b (ValueIdx.ix2 r k)
      = ((((BitVec.ofBool (v (ValueIdx.ix1 r) == b + BitVec.ofNat 32 k.val)).setWidth 32).toInt : ℝ) : EReal) := by
    show ((((BitVec.ofBool
        (broadcastTo S256x1024 (shapeCast S256x1 v shapeCasts_S256_S256x1) broadcasts_S256x1_S256x1024 (ValueIdx.ix2 r k)
          == b + iota .tc S256x1024 32 [1] iota_S256x1024_d1_w32 (ValueIdx.ix2 r k))).setWidth 32).toInt : ℝ) : EReal) = _
    rw [col_apply, iota_apply]
  rw [e]
  by_cases h : v (ValueIdx.ix1 r) = b + BitVec.ofNat 32 k.val
  · rw [if_pos h, beq_iff_eq.mpr h]
    have : ((BitVec.ofBool true).setWidth 32).toInt = 1 := by decide
    rw [this, Int.cast_one, EReal.coe_one]
  · rw [if_neg h, beq_eq_false_iff_ne.mpr h]
    have : ((BitVec.ofBool false).setWidth 32).toInt = 0 := by decide
    rw [this, Int.cast_zero, EReal.coe_zero]

/-- The word base + k of chunk c is the number c·1024 + k, and a 32-bit word equals it exactly when its value does. -/
theorem word_eq_iff (w : BitVec 32) (c : Fin 10) (k : Fin 1024) :
    w = BitVec.ofNat 32 (c.val * 1024) + BitVec.ofNat 32 k.val ↔ w.toNat = c.val * 1024 + k.val := by
  have hc := c.isLt
  have hk := k.isLt
  rw [← BitVec.toNat_inj, BitVec.toNat_add, BitVec.toNat_ofNat, BitVec.toNat_ofNat]
  omega

/-- The 0/1 block of chunk c read at (r, k): one exactly when row r's word, as an unsigned number, is c·1024 + k. -/
theorem hot_chunk_apply (v : IVec S256 32) (c : Fin 10) (r : Fin 256) (k : Fin 1024) :
    hot v (BitVec.ofNat 32 (c.val * 1024)) (ValueIdx.ix2 r k)
      = if (v (ValueIdx.ix1 r)).toNat = c.val * 1024 + k.val then (1 : EReal) else 0 := by
  rw [hot_apply]
  by_cases h : (v (ValueIdx.ix1 r)).toNat = c.val * 1024 + k.val
  · rw [if_pos h, if_pos ((word_eq_iff _ c k).mpr h)]
  · rw [if_neg h, if_neg (fun e => h ((word_eq_iff _ c k).mp e))]

/-- One chunk's product: the 0/1 block of the chunk times the chunk's 1024 loaded rows, into a zero start. -/
def hotMul (v : IVec S256 32) (b : BitVec 32) (ch : Vec Ideal S1024x128 .f32) : FVec Ideal S256x128 .f32 :=
  matmul dot_S256x1024_S1024x128_S256x128_1_0_0_1_n_n none (hot v b)
    (shapeCast S1024x128 ch shapeCasts_S1024x128_S1024x128 : FVec Ideal S1024x128 .f32) (constant S256x128 .f32 0x00000000#32)

/-- One chunk's share of a row pick: the 0/1 row with its one at place w, restricted to chunk c, times column j of
    the chunk's rows. -/
def share (w : ℕ) (c : Fin 10) (ch : Vec Ideal S1024x128 .f32) (j : Fin 128) : EReal :=
  ∑ k : Fin 1024, (if w = c.val * 1024 + k.val then (1 : EReal) else 0) * ch (ValueIdx.ix2 k j)

/-- A chunk's product read at (r, j) is the chunk's share of the pick at row r's word (read unsigned). -/
theorem hotMul_apply (v : IVec S256 32) (b : BitVec 32) (c : Fin 10) (hb : b = BitVec.ofNat 32 (c.val * 1024))
    (ch : Vec Ideal S1024x128 .f32) (r : Fin 256) (j : Fin 128) :
    hotMul v b ch (ValueIdx.ix2 r j) = share (v (ValueIdx.ix1 r)).toNat c ch j := by
  subst hb
  unfold hotMul share
  rw [shapeCast_self]
  refine (DenseLayer.matmul_rows_apply dot_S256x1024_S1024x128_S256x128_1_0_0_1_n_n_wf none _ _ r j).trans ?_
  refine Finset.sum_congr rfl fun k _ => ?_
  rw [hot_chunk_apply]

/-! ## The payloads of region 3, one by one -/

/-- The target index column [256,1] as a vector [256]: entry r is the column's entry (r, 0). -/
theorem k3_pay3_apply (v5 : Vec Ideal S256x1 .i32) (r : Fin 256) :
    k3_pay3 (F := Ideal) v5 (ValueIdx.ix1 r) = v5 (ValueIdx.ix2 r (0 : Fin 1)) := by
  unfold k3_pay3
  refine shapeCast_apply _ _ (ValueIdx.ix1 r) (ValueIdx.ix2 r (0 : Fin 1)) ?_
  rw [Shape.rowMajor_val_one, Shape.rowMajor_val_two]
  show r.val * 1 + 0 = r.val
  omega

/-- The source index column [256,1] as a vector [256]: entry r is the column's entry (r, 0). -/
theorem k3_pay4_apply (v7 : Vec Ideal S256x1 .i32) (r : Fin 256) :
    k3_pay4 (F := Ideal) v7 (ValueIdx.ix1 r) = v7 (ValueIdx.ix2 r (0 : Fin 1)) := by
  unfold k3_pay4
  refine shapeCast_apply _ _ (ValueIdx.ix1 r) (ValueIdx.ix2 r (0 : Fin 1)) ?_
  rw [Shape.rowMajor_val_one, Shape.rowMajor_val_two]
  show r.val * 1 + 0 = r.val
  omega

/-- The source vector laid out as a column again: entry (r, 0) is the loaded column's entry (r, 0). -/
theorem k3_pay6_apply (v7 : Vec Ideal S256x1 .i32) (r : Fin 256) :
    k3_pay6 (F := Ideal) v7 (ValueIdx.ix2 r (0 : Fin 1)) = v7 (ValueIdx.ix2 r (0 : Fin 1)) := by
  unfold k3_pay6
  refine (shapeCast_apply _ _ (ValueIdx.ix2 r (0 : Fin 1)) (ValueIdx.ix1 r) ?_).trans (k3_pay4_apply v7 r)
  rw [Shape.rowMajor_val_one, Shape.rowMajor_val_two]
  show r.val = r.val * 1 + 0
  omega

/-- The 0/1 block of the last chunk (rows 9216 …) of the source gather. -/
theorem k3_pay10_eq (v8 : IVec S256 32) : k3_pay10 (F := Ideal) v8 = hot v8 9216#32 := rfl

/-- Its entry at (r, k): one exactly when row r's source word, read unsigned (the comparison is equality of 32-bit
    words), is 9·1024 + k. -/
theorem k3_pay10_apply (v8 : IVec S256 32) (r : Fin 256) (k : Fin 1024) :
    k3_pay10 (F := Ideal) v8 (ValueIdx.ix2 r k)
      = if (v8 (ValueIdx.ix1 r)).toNat = (9 : Fin 10).val * 1024 + k.val then (1 : EReal) else 0 := by
  rw [k3_pay10_eq]
  exact hot_chunk_apply v8 9 r k

/-- Chunks 0 and 1 of the source gather, added into a zero start. -/
theorem k3_pay5_eq (v7 : Vec Ideal S256x1 .i32) (v22 v34 : Vec Ideal S1024x128 .f32) :
    k3_pay5 (F := Ideal) v7 v22 v34
      = addf (addf (broadcast S256x128 (Scalar.ofBits (F := Ideal) .f32 0x00000000#32)) (hotMul (k3_pay4 (F := Ideal) v7) 0#32 v22))
          (hotMul (k3_pay4 (F := Ideal) v7) 1024#32 v34) := rfl

theorem k3_pay5_apply (v7 : Vec Ideal S256x1 .i32) (v22 v34 : Vec Ideal S1024x128 .f32) (r : Fin 256) (j : Fin 128) :
    k3_pay5 (F := Ideal) v7 v22 v34 (ValueIdx.ix2 r j)
      = 0 + share (v7 (ValueIdx.ix2 r (0 : Fin 1))).toNat 0 v22 j + share (v7 (ValueIdx.ix2 r (0 : Fin 1))).toNat 1 v34 j := by
  rw [k3_pay5_eq, addf_apply, addf_apply, broadcast_apply,
    hotMul_apply _ 0#32 0 rfl, hotMul_apply _ 1024#32 1 rfl, k3_pay4_apply]
  show Ideal.ofBits .f32 0x00000000#32 + _ + _ = _
  rw [Ideal.ofBits_zero_f32]

/-- Chunks 2, 3 and 4 of the source gather, added to what chunks 0 and 1 gave. The first of the three blocks is
    built from the column, the lane numbers and the base word handed on by the part before. -/
theorem k3_pay7_eq (v8 : IVec S256 32) (v37 : FVec Ideal S256x128 .f32) (v46 v58 v70 : Vec Ideal S1024x128 .f32) :
    k3_pay7 (F := Ideal) v8 v37 (shapeCast S256x1 v8 shapeCasts_S256_S256x1)
        (iota .tc S256x1024 32 [1] iota_S256x1024_d1_w32) 2048#32 v46 v58 v70
      = addf (addf (addf v37 (hotMul v8 2048#32 v46)) (hotMul v8 3072#32 v58)) (hotMul v8 4096#32 v70) := rfl

theorem k3_pay7_apply (v8 : IVec S256 32) (v37 : FVec Ideal S256x128 .f32) (v38 : IVec S256x1 32)
    (v39 : IVec S256x1024 32) (c2048_i32 : BitVec 32) (v46 v58 v70 : Vec Ideal S1024x128 .f32)
    (h38 : v38 = shapeCast S256x1 v8 shapeCasts_S256_S256x1)
    (h39 : v39 = iota .tc S256x1024 32 [1] iota_S256x1024_d1_w32) (hc : c2048_i32 = 2048#32)
    (r : Fin 256) (j : Fin 128) :
    k3_pay7 (F := Ideal) v8 v37 v38 v39 c2048_i32 v46 v58 v70 (ValueIdx.ix2 r j)
      = v37 (ValueIdx.ix2 r j) + share (v8 (ValueIdx.ix1 r)).toNat 2 v46 j + share (v8 (ValueIdx.ix1 r)).toNat 3 v58 j
          + share (v8 (ValueIdx.ix1 r)).toNat 4 v70 j := by
  subst h38 h39 hc
  rw [k3_pay7_eq, addf_apply, addf_apply, addf_apply,
    hotMul_apply _ 2048#32 2 rfl, hotMul_apply _ 3072#32 3 rfl, hotMul_apply _ 4096#32 4 rfl]

/-- Chunk 5's product of the source gather. -/
theorem k3_pay8_eq (v8 : IVec S256 32) (v82 : Vec Ideal S1024x128 .f32) :
    k3_pay8 (F := Ideal) v8 v82 = hotMul v8 5120#32 v82 := rfl

theorem k3_pay8_apply (v8 : IVec S256 32) (v82 : Vec Ideal S1024x128 .f32) (r : Fin 256) (j : Fin 128) :
    k3_pay8 (F := Ideal) v8 v82 (ValueIdx.ix2 r j) = share (v8 (ValueIdx.ix1 r)).toNat 5 v82 j := by
  rw [k3_pay8_eq, hotMul_apply _ 5120#32 5 rfl]

/-- Chunk 5's product and chunks 6, 7 and 8 of the source gather, added to what came before. -/
theorem k3_pay9_eq (v8 : IVec S256 32) (v73 v84 : FVec Ideal S256x128 .f32) (v94 v106 v118 : Vec Ideal S1024x128 .f32) :
    k3_pay9 (F := Ideal) v8 v73 v84 v94 v106 v118
      = addf (addf (addf (addf v73 v84) (hotMul v8 6144#32 v94)) (hotMul v8 7168#32 v106)) (hotMul v8 8192#32 v118) := rfl

theorem k3_pay9_apply (v8 : IVec S256 32) (v73 v84 : FVec Ideal S256x128 .f32) (v94 v106 v118 : Vec Ideal S1024x128 .f32)
    (r : Fin 256) (j : Fin 128) :
    k3_pay9 (F := Ideal) v8 v73 v84 v94 v106 v118 (ValueIdx.ix2 r j)
      = v73 (ValueIdx.ix2 r j) + v84 (ValueIdx.ix2 r j) + share (v8 (ValueIdx.ix1 r)).toNat 6 v94 j + share (v8 (ValueIdx.ix1 r)).toNat 7 v106 j
          + share (v8 (ValueIdx.ix1 r)).toNat 8 v118 j := by
  rw [k3_pay9_eq, addf_apply, addf_apply, addf_apply, addf_apply,
    hotMul_apply _ 6144#32 6 rfl, hotMul_apply _ 7168#32 7 rfl, hotMul_apply _ 8192#32 8 rfl]

/-- The last step of the source gather: the product of a [256,1024] block with chunk 9's rows, added on. -/
theorem k3_pay11_apply (v121 : FVec Ideal S256x128 .f32) (v129 : FVec Ideal S256x1024 .f32) (v130 : Vec Ideal S1024x128 .f32)
    (r : Fin 256) (j : Fin 128) :
    k3_pay11 (F := Ideal) v121 v129 v130 (ValueIdx.ix2 r j)
      = v121 (ValueIdx.ix2 r j) + ∑ k : Fin 1024, v129 (ValueIdx.ix2 r k) * v130 (ValueIdx.ix2 k j) := by
  unfold k3_pay11
  rw [addf_apply, shapeCast_self]
  exact congrArg (v121 (ValueIdx.ix2 r j) + ·)
    (DenseLayer.matmul_rows_apply dot_S256x1024_S1024x128_S256x128_1_0_0_1_n_n_wf none v129 v130 r j)

/-- With the block being chunk 9's 0/1 block: chunk 9's share is added. -/
theorem k3_pay11_hot_apply (v8 : IVec S256 32) (v121 : FVec Ideal S256x128 .f32) (v130 : Vec Ideal S1024x128 .f32)
    (r : Fin 256) (j : Fin 128) :
    k3_pay11 (F := Ideal) v121 (k3_pay10 (F := Ideal) v8) v130 (ValueIdx.ix2 r j)
      = v121 (ValueIdx.ix2 r j) + share (v8 (ValueIdx.ix1 r)).toNat 9 v130 j := by
  rw [k3_pay11_apply]
  unfold share
  exact congrArg (v121 (ValueIdx.ix2 r j) + ·) (Finset.sum_congr rfl fun k _ => by rw [k3_pay10_apply])

/-! ## The source-row gather, composed as the region's body composes it -/

/-- The ten loaded chunks as a family over the chunk number. -/
def chunks (v22 v34 v46 v58 v70 v82 v94 v106 v118 v130 : Vec Ideal S1024x128 .f32) : Fin 10 → Vec Ideal S1024x128 .f32 :=
  ![v22, v34, v46, v58, v70, v82, v94, v106, v118, v130]

/-- The gathered source block read at (r, j): the sum over the ten chunks and their 1024 rows of the 0/1 row of
    row r's source word (read unsigned) times column j of the loaded rows. -/
theorem srcGather_sum (v7 : Vec Ideal S256x1 .i32) (v22 v34 v46 v58 v70 v82 v94 v106 v118 v130 : Vec Ideal S1024x128 .f32)
    (r : Fin 256) (j : Fin 128) :
    k3_pay11 (F := Ideal)
        (k3_pay9 (F := Ideal) (k3_pay4 (F := Ideal) v7)
          (k3_pay7 (F := Ideal) (k3_pay4 (F := Ideal) v7) (k3_pay5 (F := Ideal) v7 v22 v34) (k3_pay6 (F := Ideal) v7)
            (iota .tc S256x1024 32 [1] iota_S256x1024_d1_w32) 2048#32 v46 v58 v70)
          (k3_pay8 (F := Ideal) (k3_pay4 (F := Ideal) v7) v82) v94 v106 v118)
        (k3_pay10 (F := Ideal) (k3_pay4 (F := Ideal) v7)) v130 (ValueIdx.ix2 r j)
      = ∑ c : Fin 10, ∑ k : Fin 1024,
          (if (v7 (ValueIdx.ix2 r (0 : Fin 1))).toNat = c.val * 1024 + k.val then (1 : EReal) else 0)
            * chunks v22 v34 v46 v58 v70 v82 v94 v106 v118 v130 c (ValueIdx.ix2 k j) := by
  rw [k3_pay11_hot_apply, k3_pay9_apply, k3_pay7_apply (k3_pay4 (F := Ideal) v7) (k3_pay5 (F := Ideal) v7 v22 v34) (k3_pay6 (F := Ideal) v7)
      (iota .tc S256x1024 32 [1] iota_S256x1024_d1_w32) 2048#32 v46 v58 v70 rfl rfl rfl, k3_pay5_apply, k3_pay8_apply,
    k3_pay4_apply]
  exact Cert.Spec.fold10 (fun c => share (v7 (ValueIdx.ix2 r (0 : Fin 1))).toNat c
    (chunks v22 v34 v46 v58 v70 v82 v94 v106 v118 v130 c) j)

/-- When the ten chunks are the ten blocks of 1024 rows of one padded table, the gathered source block at (r, j) is
    the table's pick at row r's source word. -/
theorem srcGather_pick (v7 : Vec Ideal S256x1 .i32) (x6 : Vec Ideal S10240x128 .f32)
    (v22 v34 v46 v58 v70 v82 v94 v106 v118 v130 : Vec Ideal S1024x128 .f32)
    (hch : ∀ (c : Fin 10) (k : Fin 1024) (j : Fin 128),
      chunks v22 v34 v46 v58 v70 v82 v94 v106 v118 v130 c (ValueIdx.ix2 k j) = x6 (ValueIdx.ix2 (Cert.Spec.rowAt c k) j))
    (r : Fin 256) (j : Fin 128) :
    k3_pay11 (F := Ideal)
        (k3_pay9 (F := Ideal) (k3_pay4 (F := Ideal) v7)
          (k3_pay7 (F := Ideal) (k3_pay4 (F := Ideal) v7) (k3_pay5 (F := Ideal) v7 v22 v34) (k3_pay6 (F := Ideal) v7)
            (iota .tc S256x1024 32 [1] iota_S256x1024_d1_w32) 2048#32 v46 v58 v70)
          (k3_pay8 (F := Ideal) (k3_pay4 (F := Ideal) v7) v82) v94 v106 v118)
        (k3_pay10 (F := Ideal) (k3_pay4 (F := Ideal) v7)) v130 (ValueIdx.ix2 r j)
      = Cert.Spec.pick (fun n j => x6 (ValueIdx.ix2 n j)) (v7 (ValueIdx.ix2 r (0 : Fin 1))).toNat j := by
  rw [srcGather_sum]
  unfold Cert.Spec.pick
  refine Finset.sum_congr rfl fun c _ => Finset.sum_congr rfl fun k _ => ?_
  rw [hch c k j]
  rfl

/-- The chunk family's hypothesis from the ten blocks one by one. -/
theorem chunks_of_blocks (x6 : Vec Ideal S10240x128 .f32)
    (v22 v34 v46 v58 v70 v82 v94 v106 v118 v130 : Vec Ideal S1024x128 .f32)
    (h0 : ∀ (k : Fin 1024) (j : Fin 128), v22 (ValueIdx.ix2 k j) = x6 (ValueIdx.ix2 (Cert.Spec.rowAt 0 k) j))
    (h1 : ∀ (k : Fin 1024) (j : Fin 128), v34 (ValueIdx.ix2 k j) = x6 (ValueIdx.ix2 (Cert.Spec.rowAt 1 k) j))
    (h2 : ∀ (k : Fin 1024) (j : Fin 128), v46 (ValueIdx.ix2 k j) = x6 (ValueIdx.ix2 (Cert.Spec.rowAt 2 k) j))
    (h3 : ∀ (k : Fin 1024) (j : Fin 128), v58 (ValueIdx.ix2 k j) = x6 (ValueIdx.ix2 (Cert.Spec.rowAt 3 k) j))
    (h4 : ∀ (k : Fin 1024) (j : Fin 128), v70 (ValueIdx.ix2 k j) = x6 (ValueIdx.ix2 (Cert.Spec.rowAt 4 k) j))
    (h5 : ∀ (k : Fin 1024) (j : Fin 128), v82 (ValueIdx.ix2 k j) = x6 (ValueIdx.ix2 (Cert.Spec.rowAt 5 k) j))
    (h6 : ∀ (k : Fin 1024) (j : Fin 128), v94 (ValueIdx.ix2 k j) = x6 (ValueIdx.ix2 (Cert.Spec.rowAt 6 k) j))
    (h7 : ∀ (k : Fin 1024) (j : Fin 128), v106 (ValueIdx.ix2 k j) = x6 (ValueIdx.ix2 (Cert.Spec.rowAt 7 k) j))
    (h8 : ∀ (k : Fin 1024) (j : Fin 128), v118 (ValueIdx.ix2 k j) = x6 (ValueIdx.ix2 (Cert.Spec.rowAt 8 k) j))
    (h9 : ∀ (k : Fin 1024) (j : Fin 128), v130 (ValueIdx.ix2 k j) = x6 (ValueIdx.ix2 (Cert.Spec.rowAt 9 k) j)) :
    ∀ (c : Fin 10) (k : Fin 1024) (j : Fin 128),
      chunks v22 v34 v46 v58 v70 v82 v94 v106 v118 v130 c (ValueIdx.ix2 k j) = x6 (ValueIdx.ix2 (Cert.Spec.rowAt c k) j) := by
  intro c k j
  match c with
  | ⟨0, _⟩ => exact h0 k j
  | ⟨1, _⟩ => exact h1 k j
  | ⟨2, _⟩ => exact h2 k j
  | ⟨3, _⟩ => exact h3 k j
  | ⟨4, _⟩ => exact h4 k j
  | ⟨5, _⟩ => exact h5 k j
  | ⟨6, _⟩ => exact h6 k j
  | ⟨7, _⟩ => exact h7 k j
  | ⟨8, _⟩ => exact h8 k j
  | ⟨9, _⟩ => exact h9 k j

/-! ## The target-row gather: a zero start and ten steps, each adding one chunk's product to the scratch block -/

/-- The zero block the target gather starts from. -/
theorem k3_pay12_apply (r : Fin 256) (j : Fin 128) : k3_pay12 (F := Ideal) (ValueIdx.ix2 r j) = 0 := by
  unfold k3_pay12
  rw [shapeCast_self, broadcast_apply]
  exact Ideal.ofBits_zero_f32

/-- A step of the target gather: what the scratch block held plus chunk c's product. -/
theorem step_apply (v6 : IVec S256 32) (b : BitVec 32) (c : Fin 10) (hb : b = BitVec.ofNat 32 (c.val * 1024))
    (v274 : Vec Ideal S1024x128 .f32) (v277 : Vec Ideal S256x128 .f32) (r : Fin 256) (j : Fin 128) :
    (shapeCast S256x128 (addf (φ := .f32) v277 (hotMul v6 b v274)) shapeCasts_S256x128_S256x128 : FVec Ideal S256x128 .f32) (ValueIdx.ix2 r j)
      = v277 (ValueIdx.ix2 r j) + ∑ k : Fin 1024,
          (if (v6 (ValueIdx.ix1 r)).toNat = c.val * 1024 + k.val then (1 : EReal) else 0) * v274 (ValueIdx.ix2 k j) := by
  rw [shapeCast_self, addf_apply, hotMul_apply v6 b c hb]
  rfl

/-- Step 0 of the target gather: chunk 0's product added to the scratch block. -/
theorem k3_pay13_eq (v6 : IVec S256 32) (v274 : Vec Ideal S1024x128 .f32) (v277 : Vec Ideal S256x128 .f32) :
    k3_pay13 (F := Ideal) v6 v274 v277
      = shapeCast S256x128 (addf (φ := .f32) v277 (hotMul v6 0#32 v274)) shapeCasts_S256x128_S256x128 := rfl

theorem k3_pay13_apply (v6 : IVec S256 32) (v274 : Vec Ideal S1024x128 .f32) (v277 : Vec Ideal S256x128 .f32)
    (r : Fin 256) (j : Fin 128) :
    k3_pay13 (F := Ideal) v6 v274 v277 (ValueIdx.ix2 r j)
      = v277 (ValueIdx.ix2 r j) + ∑ k : Fin 1024,
          (if (v6 (ValueIdx.ix1 r)).toNat = (0 : Fin 10).val * 1024 + k.val then (1 : EReal) else 0) * v274 (ValueIdx.ix2 k j) := by
  rw [k3_pay13_eq]
  exact step_apply v6 0#32 0 rfl v274 v277 r j

/-- Step 1 of the target gather: chunk 1's product added to the scratch block. -/
theorem k3_pay14_eq (v6 : IVec S256 32) (v274 : Vec Ideal S1024x128 .f32) (v277 : Vec Ideal S256x128 .f32) :
    k3_pay14 (F := Ideal) v6 v274 v277
      = shapeCast S256x128 (addf (φ := .f32) v277 (hotMul v6 1024#32 v274)) shapeCasts_S256x128_S256x128 := rfl

theorem k3_pay14_apply (v6 : IVec S256 32) (v274 : Vec Ideal S1024x128 .f32) (v277 : Vec Ideal S256x128 .f32)
    (r : Fin 256) (j : Fin 128) :
    k3_pay14 (F := Ideal) v6 v274 v277 (ValueIdx.ix2 r j)
      = v277 (ValueIdx.ix2 r j) + ∑ k : Fin 1024,
          (if (v6 (ValueIdx.ix1 r)).toNat = (1 : Fin 10).val * 1024 + k.val then (1 : EReal) else 0) * v274 (ValueIdx.ix2 k j) := by
  rw [k3_pay14_eq]
  exact step_apply v6 1024#32 1 rfl v274 v277 r j

/-- Step 2 of the target gather: chunk 2's product added to the scratch block. -/
theorem k3_pay15_eq (v6 : IVec S256 32) (v274 : Vec Ideal S1024x128 .f32) (v277 : Vec Ideal S256x128 .f32) :
    k3_pay15 (F := Ideal) v6 v274 v277
      = shapeCast S256x128 (addf (φ := .f32) v277 (hotMul v6 2048#32 v274)) shapeCasts_S256x128_S256x128 := rfl

theorem k3_pay15_apply (v6 : IVec S256 32) (v274 : Vec Ideal S1024x128 .f32) (v277 : Vec Ideal S256x128 .f32)
    (r : Fin 256) (j : Fin 128) :
    k3_pay15 (F := Ideal) v6 v274 v277 (ValueIdx.ix2 r j)
      = v277 (ValueIdx.ix2 r j) + ∑ k : Fin 1024,
          (if (v6 (ValueIdx.ix1 r)).toNat = (2 : Fin 10).val * 1024 + k.val then (1 : EReal) else 0) * v274 (ValueIdx.ix2 k j) := by
  rw [k3_pay15_eq]
  exact step_apply v6 2048#32 2 rfl v274 v277 r j

/-- Step 3 of the target gather: chunk 3's product added to the scratch block. -/
theorem k3_pay16_eq (v6 : IVec S256 32) (v274 : Vec Ideal S1024x128 .f32) (v277 : Vec Ideal S256x128 .f32) :
    k3_pay16 (F := Ideal) v6 v274 v277
      = shapeCast S256x128 (addf (φ := .f32) v277 (hotMul v6 3072#32 v274)) shapeCasts_S256x128_S256x128 := rfl

theorem k3_pay16_apply (v6 : IVec S256 32) (v274 : Vec Ideal S1024x128 .f32) (v277 : Vec Ideal S256x128 .f32)
    (r : Fin 256) (j : Fin 128) :
    k3_pay16 (F := Ideal) v6 v274 v277 (ValueIdx.ix2 r j)
      = v277 (ValueIdx.ix2 r j) + ∑ k : Fin 1024,
          (if (v6 (ValueIdx.ix1 r)).toNat = (3 : Fin 10).val * 1024 + k.val then (1 : EReal) else 0) * v274 (ValueIdx.ix2 k j) := by
  rw [k3_pay16_eq]
  exact step_apply v6 3072#32 3 rfl v274 v277 r j

/-- Step 4 of the target gather: chunk 4's product added to the scratch block. -/
theorem k3_pay17_eq (v6 : IVec S256 32) (v274 : Vec Ideal S1024x128 .f32) (v277 : Vec Ideal S256x128 .f32) :
    k3_pay17 (F := Ideal) v6 v274 v277
      = shapeCast S256x128 (addf (φ := .f32) v277 (hotMul v6 4096#32 v274)) shapeCasts_S256x128_S256x128 := rfl

theorem k3_pay17_apply (v6 : IVec S256 32) (v274 : Vec Ideal S1024x128 .f32) (v277 : Vec Ideal S256x128 .f32)
    (r : Fin 256) (j : Fin 128) :
    k3_pay17 (F := Ideal) v6 v274 v277 (ValueIdx.ix2 r j)
      = v277 (ValueIdx.ix2 r j) + ∑ k : Fin 1024,
          (if (v6 (ValueIdx.ix1 r)).toNat = (4 : Fin 10).val * 1024 + k.val then (1 : EReal) else 0) * v274 (ValueIdx.ix2 k j) := by
  rw [k3_pay17_eq]
  exact step_apply v6 4096#32 4 rfl v274 v277 r j

/-- Step 5 of the target gather: chunk 5's product added to the scratch block. -/
theorem k3_pay18_eq (v6 : IVec S256 32) (v274 : Vec Ideal S1024x128 .f32) (v277 : Vec Ideal S256x128 .f32) :
    k3_pay18 (F := Ideal) v6 v274 v277
      = shapeCast S256x128 (addf (φ := .f32) v277 (hotMul v6 5120#32 v274)) shapeCasts_S256x128_S256x128 := rfl

theorem k3_pay18_apply (v6 : IVec S256 32) (v274 : Vec Ideal S1024x128 .f32) (v277 : Vec Ideal S256x128 .f32)
    (r : Fin 256) (j : Fin 128) :
    k3_pay18 (F := Ideal) v6 v274 v277 (ValueIdx.ix2 r j)
      = v277 (ValueIdx.ix2 r j) + ∑ k : Fin 1024,
          (if (v6 (ValueIdx.ix1 r)).toNat = (5 : Fin 10).val * 1024 + k.val then (1 : EReal) else 0) * v274 (ValueIdx.ix2 k j) := by
  rw [k3_pay18_eq]
  exact step_apply v6 5120#32 5 rfl v274 v277 r j

/-- Step 6 of the target gather: chunk 6's product added to the scratch block. -/
theorem k3_pay19_eq (v6 : IVec S256 32) (v274 : Vec Ideal S1024x128 .f32) (v277 : Vec Ideal S256x128 .f32) :
    k3_pay19 (F := Ideal) v6 v274 v277
      = shapeCast S256x128 (addf (φ := .f32) v277 (hotMul v6 6144#32 v274)) shapeCasts_S256x128_S256x128 := rfl

theorem k3_pay19_apply (v6 : IVec S256 32) (v274 : Vec Ideal S1024x128 .f32) (v277 : Vec Ideal S256x128 .f32)
    (r : Fin 256) (j : Fin 128) :
    k3_pay19 (F := Ideal) v6 v274 v277 (ValueIdx.ix2 r j)
      = v277 (ValueIdx.ix2 r j) + ∑ k : Fin 1024,
          (if (v6 (ValueIdx.ix1 r)).toNat = (6 : Fin 10).val * 1024 + k.val then (1 : EReal) else 0) * v274 (ValueIdx.ix2 k j) := by
  rw [k3_pay19_eq]
  exact step_apply v6 6144#32 6 rfl v274 v277 r j

/-- Step 7 of the target gather: chunk 7's product added to the scratch block. -/
theorem k3_pay20_eq (v6 : IVec S256 32) (v274 : Vec Ideal S1024x128 .f32) (v277 : Vec Ideal S256x128 .f32) :
    k3_pay20 (F := Ideal) v6 v274 v277
      = shapeCast S256x128 (addf (φ := .f32) v277 (hotMul v6 7168#32 v274)) shapeCasts_S256x128_S256x128 := rfl

theorem k3_pay20_apply (v6 : IVec S256 32) (v274 : Vec Ideal S1024x128 .f32) (v277 : Vec Ideal S256x128 .f32)
    (r : Fin 256) (j : Fin 128) :
    k3_pay20 (F := Ideal) v6 v274 v277 (ValueIdx.ix2 r j)
      = v277 (ValueIdx.ix2 r j) + ∑ k : Fin 1024,
          (if (v6 (ValueIdx.ix1 r)).toNat = (7 : Fin 10).val * 1024 + k.val then (1 : EReal) else 0) * v274 (ValueIdx.ix2 k j) := by
  rw [k3_pay20_eq]
  exact step_apply v6 7168#32 7 rfl v274 v277 r j

/-- Step 8 of the target gather: chunk 8's product added to the scratch block. -/
theorem k3_pay21_eq (v6 : IVec S256 32) (v274 : Vec Ideal S1024x128 .f32) (v277 : Vec Ideal S256x128 .f32) :
    k3_pay21 (F := Ideal) v6 v274 v277
      = shapeCast S256x128 (addf (φ := .f32) v277 (hotMul v6 8192#32 v274)) shapeCasts_S256x128_S256x128 := rfl

theorem k3_pay21_apply (v6 : IVec S256 32) (v274 : Vec Ideal S1024x128 .f32) (v277 : Vec Ideal S256x128 .f32)
    (r : Fin 256) (j : Fin 128) :
    k3_pay21 (F := Ideal) v6 v274 v277 (ValueIdx.ix2 r j)
      = v277 (ValueIdx.ix2 r j) + ∑ k : Fin 1024,
          (if (v6 (ValueIdx.ix1 r)).toNat = (8 : Fin 10).val * 1024 + k.val then (1 : EReal) else 0) * v274 (ValueIdx.ix2 k j) := by
  rw [k3_pay21_eq]
  exact step_apply v6 8192#32 8 rfl v274 v277 r j

/-- Step 9 of the target gather: chunk 9's product added to the scratch block. -/
theorem k3_pay22_eq (v6 : IVec S256 32) (v274 : Vec Ideal S1024x128 .f32) (v277 : Vec Ideal S256x128 .f32) :
    k3_pay22 (F := Ideal) v6 v274 v277
      = shapeCast S256x128 (addf (φ := .f32) v277 (hotMul v6 9216#32 v274)) shapeCasts_S256x128_S256x128 := rfl

theorem k3_pay22_apply (v6 : IVec S256 32) (v274 : Vec Ideal S1024x128 .f32) (v277 : Vec Ideal S256x128 .f32)
    (r : Fin 256) (j : Fin 128) :
    k3_pay22 (F := Ideal) v6 v274 v277 (ValueIdx.ix2 r j)
      = v277 (ValueIdx.ix2 r j) + ∑ k : Fin 1024,
          (if (v6 (ValueIdx.ix1 r)).toNat = (9 : Fin 10).val * 1024 + k.val then (1 : EReal) else 0) * v274 (ValueIdx.ix2 k j) := by
  rw [k3_pay22_eq]
  exact step_apply v6 9216#32 9 rfl v274 v277 r j

/-! ## A chunk's share against the whole table -/

/-- The share spelled out. -/
theorem share_eq (w : ℕ) (c : Fin 10) (ch : Vec Ideal S1024x128 .f32) (j : Fin 128) :
    share w c ch j = ∑ k : Fin 1024, (if w = c.val * 1024 + k.val then (1 : EReal) else 0) * ch (ValueIdx.ix2 k j) := rfl

/-- When the chunk is block c of a padded table, its share is the table's row w where w lies in the block, and zero
    elsewhere. -/
theorem share_table (w : ℕ) (c : Fin 10) (x6 : Vec Ideal S10240x128 .f32) (ch : Vec Ideal S1024x128 .f32)
    (hch : ∀ (k : Fin 1024) (j : Fin 128), ch (ValueIdx.ix2 k j) = x6 (ValueIdx.ix2 (Cert.Spec.rowAt c k) j)) (j : Fin 128) :
    share w c ch j = if h : w / 1024 = c.val then x6 (ValueIdx.ix2 (⟨w, by omega⟩ : Fin 10240) j) else 0 := by
  rw [← Cert.Spec.onehot_chunk (fun i => x6 (ValueIdx.ix2 i j)) w c]
  unfold share
  refine Finset.sum_congr rfl fun k _ => ?_
  rw [hch k j]
  rfl

end Cert.KernelIdeal.PayI3

end
-- ==== Proof.StepMathI3.lean ====
import proofs.«414286_j65627100283289_3_alg».proof.Proof.Gen.KernelIdeal.Skeleton
import proofs.«414286_j65627100283289_3_alg».proof.Proof.StepDefsI3
import proofs.«414286_j65627100283289_3_alg».proof.Proof.GateWord
import proofs.«414286_j65627100283289_3_alg».proof.Proof.LibGatedRmw
import proofs.«414286_j65627100283289_3_alg».proof.Proof.PayGatherI3
import proofs.«414286_j65627100283289_3_alg».proof.Proof.PayMlpI3
import proofs.«414286_j65627100283289_3_alg».proof.Proof.Arrange
import proofs.«414286_j65627100283289_3_alg».proof.Proof.Args
import Idealize.ShloMosaic.Lib.Pipeline.FrameBody
import Idealize.ShloMosaic.Lib.ValueIdx
import Idealize.ShloMosaic.Lib.Pipeline.Value
import Idealize.ShloMosaic.PureOps.Ideal.Laws

/-!
# One tile's step of region 3's accumulator, as the layer's mathematics

The body of region 3's kernel, run at the grid point of tile `T`, leaves in the accumulator a function of what it was
handed (`stepAcc3`): a reset at a core's first tile, then ten gated chunk steps, each adding to one chunk of 1024 node
rows the transposed one-hot product of the tile's target column with the tile's messages. Read at an entry `(n, j)`,
only the step of the chunk that holds row `n` touches the entry; its gate is open whenever a target of the tile lies in
that chunk (the targets are sorted and the gates are open on the tile's chunk range), so the step adds the messages of
the tile's edges whose target is `n`, gate or no gate. Each message is the perceptron of the edge's feature row; the two
rows it is made of are picked out of the padded node table by one-hot products (the target rows again under the chunk
gates), and a pick at a node's number is the node's row. So the entry becomes what it was, or zero at a core's first
tile, plus the sum over the tile's edges with target `n` of the messages of `Spec`.
-/

noncomputable section

namespace Cert.KernelIdeal.StepI3

open Idealize.ShloMosaic Idealize.ShloMosaic.ValueIdx Idealize.ShloMosaic.GatedRmw
open Cert.KernelIdeal Cert.KernelIdeal.Gen Cert.KernelIdeal.PayI3
open Cert.Spec
open scoped BigOperators

/-! ## Reading a chunk of a table -/

/-- Chunk `c` of the padded node table, loaded as a block of 1024 rows, at `(k, j)`: the table at row `c * 1024 + k`. -/
theorem ld_chunk (x6 : Vec Ideal S10240x128 .f32) (c : Fin 10) (off : Fin 2 → ℕ) (h0 : off 0 = c.val * 1024) (h1 : off 1 = 0)
    (inb : ∀ a, off a + S1024x128.size a ≤ S10240x128.size a) (k : Fin 1024) (j : Fin 128) :
    View.ld x6 (Rect.unit (s := S10240x128) off S1024x128.size inb) (ValueIdx.ix2 k j) = x6 (ValueIdx.ix2 (rowAt c k) j) := by
  show x6 ((Rect.unit (s := S10240x128) off S1024x128.size inb).emb (ValueIdx.ix2 k j)) = _
  refine congrArg x6 (funext fun a => Fin.ext ?_)
  rcases a with ⟨a, ha⟩
  have ha' : a < 2 := ha
  interval_cases a
  · show off 0 + 1 * k.val = c.val * 1024 + k.val
    omega
  · show off 1 + 1 * j.val = j.val
    omega

/-! ## The reset word -/

/-- The word "the tile's number within its core is zero", computed on 32-bit words. -/
theorem first_word (v : ℕ) (hv : v < 625) :
    (Scalar.cmpi .ne (Scalar.extui (Scalar.cmpi .eq (BitVec.ofNat 32 v) 0#32)) 0#32 : BitVec 1) = 1#1 ↔ v = 0 := by
  unfold Scalar.cmpi Scalar.extui IntOp.cmpi
  simp only []
  by_cases h : v = 0
  · subst h
    simp
  · have hne : BitVec.ofNat 32 v ≠ 0#32 := fun e => h (by
      have := congrArg BitVec.toNat e
      rw [BitVec.toNat_ofNat, BitVec.toNat_ofNat] at this
      omega)
    have hb : (BitVec.ofNat 32 v == 0#32) = false := by simpa using hne
    rw [hb]
    simp [h]

theorem firstW3_iff (i : grid3.Coords) : firstW3 i = 1#1 ↔ (i 1).val = 0 :=
  first_word (i 1).val (i 1).isLt

/-- The accumulator the chunk steps start from, at an entry. -/
theorem accReset3_apply (i : grid3.Coords) (x14 : Vec Ideal S10240x16 .f32) (n : Fin 10240) (j : Fin 16) :
    accReset3 (F := Ideal) i x14 (ValueIdx.ix2 n j) = if (i 1).val = 0 then 0 else x14 (ValueIdx.ix2 n j) := by
  unfold accReset3
  by_cases h : (i 1).val = 0
  · rw [if_pos ((firstW3_iff i).mpr h), if_pos h]
    exact pay2_apply n j
  · rw [if_neg (fun e => h ((firstW3_iff i).mp e)), if_neg h]

/-! ## The target rows: a zero start and ten gated steps -/

/-- One gated step whose payload adds a term `S` to the rows so far adds the gated term. -/
theorem xiStep_add (g : BitVec 1) (pay : Vec Ideal S256x128 .f32 → FVec Ideal S256x128 .f32) (S : Fin 256 → Fin 128 → EReal)
    (hpay : ∀ (X : Vec Ideal S256x128 .f32) (r : Fin 256) (j : Fin 128), pay X (ValueIdx.ix2 r j) = X (ValueIdx.ix2 r j) + S r j)
    (X : Vec Ideal S256x128 .f32) (r : Fin 256) (j : Fin 128) :
    xiStep3 g pay X (ValueIdx.ix2 r j) = X (ValueIdx.ix2 r j) + (if g = 1#1 then S r j else 0) := by
  unfold xiStep3
  by_cases hg : g = 1#1
  · rw [if_pos hg, if_pos hg, hpay]
  · rw [if_neg hg, if_neg hg, add_zero]

/-- Chunk `c`'s share of the pick of the table's row at edge `r`'s target word, column `j`. -/
def Sxi (x5 : Vec Ideal S256x1 .i32) (x6 : Vec Ideal S10240x128 .f32) (c : Fin 10) (r : Fin 256) (j : Fin 128) : EReal :=
  ∑ k : Fin 1024, (if (x5 (ValueIdx.ix2 r (0 : Fin 1))).toNat = c.val * 1024 + k.val then (1 : EReal) else 0)
    * x6 (ValueIdx.ix2 (rowAt c k) j)

/-- A step's payload over the target column and chunk `c` of the table adds that share. -/
theorem xi_pay (c : Fin 10)
    (pay : IVec S256 32 → Vec Ideal S1024x128 .f32 → Vec Ideal S256x128 .f32 → FVec Ideal S256x128 .f32)
    (hp : ∀ (v6 : IVec S256 32) (v274 : Vec Ideal S1024x128 .f32) (v277 : Vec Ideal S256x128 .f32) (r : Fin 256) (j : Fin 128),
      pay v6 v274 v277 (ValueIdx.ix2 r j) = v277 (ValueIdx.ix2 r j) + ∑ k : Fin 1024,
        (if (v6 (ValueIdx.ix1 r)).toNat = c.val * 1024 + k.val then (1 : EReal) else 0) * v274 (ValueIdx.ix2 k j))
    (x5 : Vec Ideal S256x1 .i32) (x6 : Vec Ideal S10240x128 .f32) (off : Fin 2 → ℕ) (h0 : off 0 = c.val * 1024) (h1 : off 1 = 0)
    (inb : ∀ a, off a + S1024x128.size a ≤ S10240x128.size a) (X : Vec Ideal S256x128 .f32) (r : Fin 256) (j : Fin 128) :
    pay (k3_pay3 (F := Ideal) x5) (View.ld x6 (Rect.unit (s := S10240x128) off S1024x128.size inb)) X (ValueIdx.ix2 r j)
      = X (ValueIdx.ix2 r j) + Sxi x5 x6 c r j := by
  rw [hp, k3_pay3_apply]
  unfold Sxi
  refine congrArg (fun z => X (ValueIdx.ix2 r j) + z) (Finset.sum_congr rfl fun k _ => ?_)
  rw [ld_chunk x6 c off h0 h1 inb]

/-- The gathered target rows at `(r, j)`: the ten chunks' gated shares added up. -/
theorem xi3_apply (i : grid3.Coords) (x2 x3 : Vec Ideal S1250 .i32) (x5 : Vec Ideal S256x1 .i32) (x6 : Vec Ideal S10240x128 .f32)
    (r : Fin 256) (j : Fin 128) :
    xi3 (F := Ideal) i x2 x3 x5 x6 (ValueIdx.ix2 r j)
      = ∑ c : Fin 10, if gateWord (loW3 i x2) (hiW3 i x3) (BitVec.ofNat 32 c.val) = 1#1 then Sxi x5 x6 c r j else 0 := by
  unfold xi3
  rw [xiStep_add _ _ (Sxi x5 x6 9) (xi_pay 9 (k3_pay22 (F := Ideal)) k3_pay22_apply x5 x6 _ rfl rfl _),
    xiStep_add _ _ (Sxi x5 x6 8) (xi_pay 8 (k3_pay21 (F := Ideal)) k3_pay21_apply x5 x6 _ rfl rfl _),
    xiStep_add _ _ (Sxi x5 x6 7) (xi_pay 7 (k3_pay20 (F := Ideal)) k3_pay20_apply x5 x6 _ rfl rfl _),
    xiStep_add _ _ (Sxi x5 x6 6) (xi_pay 6 (k3_pay19 (F := Ideal)) k3_pay19_apply x5 x6 _ rfl rfl _),
    xiStep_add _ _ (Sxi x5 x6 5) (xi_pay 5 (k3_pay18 (F := Ideal)) k3_pay18_apply x5 x6 _ rfl rfl _),
    xiStep_add _ _ (Sxi x5 x6 4) (xi_pay 4 (k3_pay17 (F := Ideal)) k3_pay17_apply x5 x6 _ rfl rfl _),
    xiStep_add _ _ (Sxi x5 x6 3) (xi_pay 3 (k3_pay16 (F := Ideal)) k3_pay16_apply x5 x6 _ rfl rfl _),
    xiStep_add _ _ (Sxi x5 x6 2) (xi_pay 2 (k3_pay15 (F := Ideal)) k3_pay15_apply x5 x6 _ rfl rfl _),
    xiStep_add _ _ (Sxi x5 x6 1) (xi_pay 1 (k3_pay14 (F := Ideal)) k3_pay14_apply x5 x6 _ rfl rfl _),
    xiStep_add _ _ (Sxi x5 x6 0) (xi_pay 0 (k3_pay13 (F := Ideal)) k3_pay13_apply x5 x6 _ rfl rfl _),
    k3_pay12_apply]
  exact fold10 (fun c : Fin 10 =>
    if gateWord (loW3 i x2) (hiW3 i x3) (BitVec.ofNat 32 c.val) = 1#1 then Sxi x5 x6 c r j else 0)

/-! ## The two gathered rows of an edge are its nodes' rows -/

section Rows

variable (i : grid3.Coords) (x2 x3 : Vec Ideal S1250 .i32) (x4 x5 : Vec Ideal S256x1 .i32) (x6 : Vec Ideal S10240x128 .f32)
  (T : Fin 1250) (key : Fin 320000 → ℕ) (srcn dstn : Fin 320000 → Fin 10000) (x : Fin 10000 → Fin 128 → EReal)

/-- Along a sorted key with the gates open on the tile's chunk range, the gathered target row of edge `r` is the
    row of the edge's target node. -/
theorem xi3_row
    (hdst : ∀ r : Fin 256, (x5 (ValueIdx.ix2 r (0 : Fin 1))).toNat = key (tileEdge T r))
    (hkey : ∀ a : Fin 320000, key a = (dstn a).val)
    (hmono : ∀ a b : Fin 320000, a ≤ b → key a ≤ key b)
    (hgate : ∀ c : Fin 10, key (tileEdge T 0) / 1024 ≤ c.val → c.val ≤ key (tileEdge T 255) / 1024 →
      gateWord (loW3 i x2) (hiW3 i x3) (BitVec.ofNat 32 c.val) = 1#1)
    (hx : ∀ v : Fin 10000, (fun j : Fin 128 => x6 (ValueIdx.ix2 (⟨v.val, Nat.lt_trans v.isLt (by norm_num)⟩ : Fin 10240) j)) = x v)
    (r : Fin 256) (j : Fin 128) :
    xi3 (F := Ideal) i x2 x3 x5 x6 (ValueIdx.ix2 r j) = x (dstn (tileEdge T r)) j := by
  have hw : key (tileEdge T r) < 10240 := by
    rw [hkey]; exact Nat.lt_trans (dstn (tileEdge T r)).isLt (by norm_num)
  rw [xi3_apply]
  unfold Sxi
  simp only [hdst r]
  refine (gated_pick key hmono T r (fun c : Fin 10 => gateWord (loW3 i x2) (hiW3 i x3) (BitVec.ofNat 32 c.val) = 1#1)
    hgate (fun n : Fin 10240 => x6 (ValueIdx.ix2 n j)) hw).trans ?_
  have e : (⟨key (tileEdge T r), hw⟩ : Fin 10240)
      = ⟨(dstn (tileEdge T r)).val, Nat.lt_trans (dstn (tileEdge T r)).isLt (by norm_num)⟩ := Fin.ext (hkey _)
  show x6 (ValueIdx.ix2 (⟨key (tileEdge T r), hw⟩ : Fin 10240) j) = _
  rw [e]
  exact congrFun (hx (dstn (tileEdge T r))) j

/-- The gathered source row of edge `r` is the row of the edge's source node. -/
theorem xj3_row
    (hsrc : ∀ r : Fin 256, (x4 (ValueIdx.ix2 r (0 : Fin 1))).toNat = (srcn (tileEdge T r)).val)
    (hx : ∀ v : Fin 10000, (fun j : Fin 128 => x6 (ValueIdx.ix2 (⟨v.val, Nat.lt_trans v.isLt (by norm_num)⟩ : Fin 10240) j)) = x v)
    (r : Fin 256) (j : Fin 128) :
    xj3 (F := Ideal) x4 x6 (ValueIdx.ix2 r j) = x (srcn (tileEdge T r)) j := by
  unfold xj3
  rw [srcGather_pick x4 x6 _ _ _ _ _ _ _ _ _ _ (chunks_of_blocks x6 _ _ _ _ _ _ _ _ _ _
    (ld_chunk x6 0 _ rfl rfl _) (ld_chunk x6 1 _ rfl rfl _) (ld_chunk x6 2 _ rfl rfl _) (ld_chunk x6 3 _ rfl rfl _)
    (ld_chunk x6 4 _ rfl rfl _) (ld_chunk x6 5 _ rfl rfl _) (ld_chunk x6 6 _ rfl rfl _) (ld_chunk x6 7 _ rfl rfl _)
    (ld_chunk x6 8 _ rfl rfl _) (ld_chunk x6 9 _ rfl rfl _)) r j, hsrc r]
  exact congrFun (pick_eq x (fun n j => x6 (ValueIdx.ix2 n j)) hx (srcn (tileEdge T r))) j

end Rows

/-! ## The messages -/

section Messages

variable (i : grid3.Coords) (x2 x3 : Vec Ideal S1250 .i32) (x4 x5 : Vec Ideal S256x1 .i32) (x6 : Vec Ideal S10240x128 .f32)
  (x7 : Vec Ideal S256x128 .f32) (x8 : Vec Ideal S1x128 .f32) (x9 : Vec Ideal S128x128 .f32) (x10 : Vec Ideal S1x128 .f32)
  (x11 : Vec Ideal S128x16 .f32) (x12 : Vec Ideal S1x16 .f32)
  (T : Fin 1250) (key : Fin 320000 → ℕ) (srcn dstn : Fin 320000 → Fin 10000) (x : Fin 10000 → Fin 128 → EReal) (P : Weights 128 16)

/-- Row `r` of the tile's messages is the message of edge `r` of the tile. -/
theorem msg3_row
    (hdst : ∀ r : Fin 256, (x5 (ValueIdx.ix2 r (0 : Fin 1))).toNat = key (tileEdge T r))
    (hsrc : ∀ r : Fin 256, (x4 (ValueIdx.ix2 r (0 : Fin 1))).toNat = (srcn (tileEdge T r)).val)
    (hkey : ∀ a : Fin 320000, key a = (dstn a).val)
    (hmono : ∀ a b : Fin 320000, a ≤ b → key a ≤ key b)
    (hgate : ∀ c : Fin 10, key (tileEdge T 0) / 1024 ≤ c.val → c.val ≤ key (tileEdge T 255) / 1024 →
      gateWord (loW3 i x2) (hiW3 i x3) (BitVec.ofNat 32 c.val) = 1#1)
    (hx : ∀ v : Fin 10000, (fun j : Fin 128 => x6 (ValueIdx.ix2 (⟨v.val, Nat.lt_trans v.isLt (by norm_num)⟩ : Fin 10240) j)) = x v)
    (hP : kWeights3 x7 x8 x9 x10 x11 x12 = P) (r : Fin 256) (j : Fin 16) :
    msg3 (F := Ideal) i x2 x3 x4 x5 x6 x7 x8 x9 x10 x11 x12 (ValueIdx.ix2 r j)
      = message P x (srcn (tileEdge T r)) (dstn (tileEdge T r)) j := by
  unfold msg3 hid3
  refine (messages_apply (xj3 (F := Ideal) x4 x6) (xi3 (F := Ideal) i x2 x3 x5 x6) x7 x8
    (FloatOps.ofBits FTy.f32 0#32) Ideal.ofBits_zero_f32 x9 x10 x11 x12 r j).trans ?_
  rw [hP]
  have e1 : (fun j : Fin 128 => xi3 (F := Ideal) i x2 x3 x5 x6 (ValueIdx.ix2 r j)) = x (dstn (tileEdge T r)) :=
    funext (xi3_row i x2 x3 x5 x6 T key dstn x hdst hkey hmono hgate hx r)
  have e2 : (fun j : Fin 128 => xj3 (F := Ideal) x4 x6 (ValueIdx.ix2 r j)) = x (srcn (tileEdge T r)) :=
    funext (xj3_row x4 x6 T srcn x hsrc hx r)
  rw [e1, e2]
  rfl

end Messages

/-! ## The accumulator: ten gated chunk steps -/

/-- One gated chunk step whose payload adds a term `S` to the chunk's rows, at an entry: the entry as it was, plus the
    gated term when the entry's row lies in the chunk. -/
theorem accStep_apply (c : Fin 10) (g : BitVec 1) (off : Fin 2 → ℕ) (h0 : off 0 = c.val * 1024) (h1 : off 1 = 0)
    (inb : ∀ a, off a + S1024x16.size a ≤ S10240x16.size a)
    (pay : Vec Ideal S1024x16 .f32 → FVec Ideal S1024x16 .f32) (S : Fin 1024 → Fin 16 → EReal)
    (hpay : ∀ (V : Vec Ideal S1024x16 .f32) (k : Fin 1024) (j : Fin 16), pay V (ValueIdx.ix2 k j) = V (ValueIdx.ix2 k j) + S k j)
    (A : Vec Ideal S10240x16 .f32) (n : Fin 10240) (j : Fin 16) :
    accStep3 (F := Ideal) g (Rect.unit (s := S10240x16) off S1024x16.size inb) pay A (ValueIdx.ix2 n j)
      = A (ValueIdx.ix2 n j) + (if n.val / 1024 = c.val then
          (if g = 1#1 then S ⟨n.val % 1024, Nat.mod_lt _ (by norm_num)⟩ j else 0) else 0) := by
  unfold accStep3
  by_cases hc : n.val / 1024 = c.val
  · rw [if_pos hc]
    have hn : (ValueIdx.ix2 n j : S10240x16.Idx)
        = (Rect.unit (s := S10240x16) off S1024x16.size inb).emb
            (ValueIdx.ix2 (⟨n.val % 1024, Nat.mod_lt _ (by norm_num)⟩ : Fin 1024) j) := by
      funext a
      apply Fin.ext
      rcases a with ⟨a, ha⟩
      have ha' : a < 2 := ha
      interval_cases a
      · show n.val = off 0 + 1 * (n.val % 1024)
        omega
      · show j.val = off 1 + 1 * j.val
        omega
    by_cases hg : g = 1#1
    · rw [if_pos hg, hn, gatedVal_emb hg, hpay]
      rfl
    · rw [if_neg hg, add_zero, gatedVal_neg hg]
  · rw [if_neg hc, add_zero]
    refine gatedVal_of_not_mem g (Rect.unit (s := S10240x16) off S1024x16.size inb) pay A ?_
    rw [Rect.mem_set_unit]
    intro h
    have h' := h (0 : Fin 2)
    change off 0 ≤ n.val ∧ n.val < off 0 + 1024 at h'
    omega

/-- What chunk `c`'s step adds at row `k` of the chunk: the messages `M` of the tile's rows whose target word is
    `c * 1024 + k`. -/
def Sacc (x5 : Vec Ideal S256x1 .i32) (M : FVec Ideal S256x16 .f32) (c : Fin 10) (k : Fin 1024) (j : Fin 16) : EReal :=
  ∑ r : Fin 256, (if (x5 (ValueIdx.ix2 r (0 : Fin 1))).toNat = c.val * 1024 + k.val then (1 : EReal) else 0)
    * M (ValueIdx.ix2 r j)

/-- A scatter step's payload over the target column and the messages adds that. -/
theorem acc_pay (c : Fin 10)
    (pay : IVec S256 32 → FVec Ideal S256x16 .f32 → Vec Ideal S1024x16 .f32 → FVec Ideal S1024x16 .f32)
    (hp : ∀ (v6 : IVec S256 32) (v212 : FVec Ideal S256x16 .f32) (v275 : Vec Ideal S1024x16 .f32) (k : Fin 1024) (j : Fin 16),
      pay v6 v212 v275 (ValueIdx.ix2 k j) = v275 (ValueIdx.ix2 k j) + ∑ r : Fin 256,
        (if (v6 (ValueIdx.ix1 r)).toNat = c.val * 1024 + k.val then (1 : EReal) else 0) * v212 (ValueIdx.ix2 r j))
    (x5 : Vec Ideal S256x1 .i32) (M : FVec Ideal S256x16 .f32) (V : Vec Ideal S1024x16 .f32) (k : Fin 1024) (j : Fin 16) :
    pay (k3_pay3 (F := Ideal) x5) M V (ValueIdx.ix2 k j) = V (ValueIdx.ix2 k j) + Sacc x5 M c k j := by
  rw [hp]
  unfold Sacc
  refine congrArg (fun z => V (ValueIdx.ix2 k j) + z) (Finset.sum_congr rfl fun r _ => ?_)
  rw [k3_pay3_apply]

/-- The same for the steps whose payload computes the messages from the hidden rows itself. -/
theorem acc_pay' (c : Fin 10)
    (pay : IVec S256 32 → FVec Ideal S256x128 .f32 → Ideal .f32 → Vec Ideal S128x128 .f32 → Vec Ideal S1x128 .f32 →
      Vec Ideal S128x16 .f32 → Vec Ideal S1x16 .f32 → Vec Ideal S1024x16 .f32 → FVec Ideal S1024x16 .f32)
    (hp : ∀ (v6 : IVec S256 32) (v196 : FVec Ideal S256x128 .f32) (cst : Ideal .f32) (v199 : Vec Ideal S128x128 .f32)
        (v201 : Vec Ideal S1x128 .f32) (v207 : Vec Ideal S128x16 .f32) (v209 : Vec Ideal S1x16 .f32)
        (v275 : Vec Ideal S1024x16 .f32) (k : Fin 1024) (j : Fin 16),
      pay v6 v196 cst v199 v201 v207 v209 v275 (ValueIdx.ix2 k j) = v275 (ValueIdx.ix2 k j) + ∑ r : Fin 256,
        (if (v6 (ValueIdx.ix1 r)).toNat = c.val * 1024 + k.val then (1 : EReal) else 0)
          * k3_pay24 (F := Ideal) v196 cst v199 v201 v207 v209 (ValueIdx.ix2 r j))
    (x5 : Vec Ideal S256x1 .i32) (H : FVec Ideal S256x128 .f32) (cst : Ideal .f32) (x9 : Vec Ideal S128x128 .f32)
    (x10 : Vec Ideal S1x128 .f32) (x11 : Vec Ideal S128x16 .f32) (x12 : Vec Ideal S1x16 .f32)
    (V : Vec Ideal S1024x16 .f32) (k : Fin 1024) (j : Fin 16) :
    pay (k3_pay3 (F := Ideal) x5) H cst x9 x10 x11 x12 V (ValueIdx.ix2 k j)
      = V (ValueIdx.ix2 k j) + Sacc x5 (k3_pay24 (F := Ideal) H cst x9 x10 x11 x12) c k j := by
  rw [hp]
  unfold Sacc
  refine congrArg (fun z => V (ValueIdx.ix2 k j) + z) (Finset.sum_congr rfl fun r _ => ?_)
  rw [k3_pay3_apply]

/-- A start value and ten terms added one after the other. -/
theorem fold10_from {M : Type*} [AddCommMonoid M] (a : M) (S : Fin 10 → M) :
    a + S 0 + S 1 + S 2 + S 3 + S 4 + S 5 + S 6 + S 7 + S 8 + S 9 = a + ∑ c : Fin 10, S c := by
  rw [← fold10' S]
  simp only [add_assoc]

/-- The accumulator after the body at an entry: the reset value plus, chunk by chunk, the gated scatter into the
    entry's row when the row lies in the chunk. -/
theorem stepAcc3_sum (i : grid3.Coords) (x2 x3 : Vec Ideal S1250 .i32) (x4 x5 : Vec Ideal S256x1 .i32) (x6 : Vec Ideal S10240x128 .f32)
    (x7 : Vec Ideal S256x128 .f32) (x8 : Vec Ideal S1x128 .f32) (x9 : Vec Ideal S128x128 .f32) (x10 : Vec Ideal S1x128 .f32)
    (x11 : Vec Ideal S128x16 .f32) (x12 : Vec Ideal S1x16 .f32) (x14 : Vec Ideal S10240x16 .f32)
    (n : Fin 10240) (j : Fin 16) :
    stepAcc3 (F := Ideal) i x2 x3 x4 x5 x6 x7 x8 x9 x10 x11 x12 x14 (ValueIdx.ix2 n j)
      = accReset3 (F := Ideal) i x14 (ValueIdx.ix2 n j) + ∑ c : Fin 10,
          if n.val / 1024 = c.val then
            (if gateWord (loW3 i x2) (hiW3 i x3) (BitVec.ofNat 32 c.val) = 1#1 then
              Sacc x5 (msg3 (F := Ideal) i x2 x3 x4 x5 x6 x7 x8 x9 x10 x11 x12) c ⟨n.val % 1024, Nat.mod_lt _ (by norm_num)⟩ j
            else 0)
          else 0 := by
  unfold stepAcc3
  rw [accStep_apply 9 _ _ rfl rfl _ _ (Sacc x5 (msg3 (F := Ideal) i x2 x3 x4 x5 x6 x7 x8 x9 x10 x11 x12) 9)
      (acc_pay 9 (k3_pay34 (F := Ideal)) pay34_apply x5 _),
    accStep_apply 8 _ _ rfl rfl _ _ (Sacc x5 (msg3 (F := Ideal) i x2 x3 x4 x5 x6 x7 x8 x9 x10 x11 x12) 8)
      (acc_pay 8 (k3_pay33 (F := Ideal)) pay33_apply x5 _),
    accStep_apply 7 _ _ rfl rfl _ _ (Sacc x5 (msg3 (F := Ideal) i x2 x3 x4 x5 x6 x7 x8 x9 x10 x11 x12) 7)
      (acc_pay 7 (k3_pay32 (F := Ideal)) pay32_apply x5 _),
    accStep_apply 6 _ _ rfl rfl _ _ (Sacc x5 (msg3 (F := Ideal) i x2 x3 x4 x5 x6 x7 x8 x9 x10 x11 x12) 6)
      (acc_pay 6 (k3_pay31 (F := Ideal)) pay31_apply x5 _),
    accStep_apply 5 _ _ rfl rfl _ _ (Sacc x5 (msg3 (F := Ideal) i x2 x3 x4 x5 x6 x7 x8 x9 x10 x11 x12) 5)
      (acc_pay 5 (k3_pay30 (F := Ideal)) pay30_apply x5 _),
    accStep_apply 4 _ _ rfl rfl _ _ (Sacc x5 (msg3 (F := Ideal) i x2 x3 x4 x5 x6 x7 x8 x9 x10 x11 x12) 4)
      (acc_pay 4 (k3_pay29 (F := Ideal)) pay29_apply x5 _),
    accStep_apply 3 _ _ rfl rfl _ _ (Sacc x5 (msg3 (F := Ideal) i x2 x3 x4 x5 x6 x7 x8 x9 x10 x11 x12) 3)
      (acc_pay 3 (k3_pay28 (F := Ideal)) pay28_apply x5 _),
    accStep_apply 2 _ _ rfl rfl _ _ (Sacc x5 (msg3 (F := Ideal) i x2 x3 x4 x5 x6 x7 x8 x9 x10 x11 x12) 2)
      (acc_pay' 2 (k3_pay27 (F := Ideal)) pay27_apply x5 _ _ x9 x10 x11 x12),
    accStep_apply 1 _ _ rfl rfl _ _ (Sacc x5 (msg3 (F := Ideal) i x2 x3 x4 x5 x6 x7 x8 x9 x10 x11 x12) 1)
      (acc_pay' 1 (k3_pay26 (F := Ideal)) pay26_apply x5 _ _ x9 x10 x11 x12),
    accStep_apply 0 _ _ rfl rfl _ _ (Sacc x5 (msg3 (F := Ideal) i x2 x3 x4 x5 x6 x7 x8 x9 x10 x11 x12) 0)
      (acc_pay' 0 (k3_pay25 (F := Ideal)) pay25_apply x5 _ _ x9 x10 x11 x12)]
  exact fold10_from _ (fun c : Fin 10 =>
    if n.val / 1024 = c.val then
      (if gateWord (loW3 i x2) (hiW3 i x3) (BitVec.ofNat 32 c.val) = 1#1 then
        Sacc x5 (msg3 (F := Ideal) i x2 x3 x4 x5 x6 x7 x8 x9 x10 x11 x12) c ⟨n.val % 1024, Nat.mod_lt _ (by norm_num)⟩ j
      else 0)
    else 0)

/-! ## The step at an entry -/

/-- THE STEP: after the body at the grid point of tile `T`, the accumulator at `(n, j)` is what it was (zero at a core's
    first tile) plus the messages of the tile's edges whose target is row `n` — under hypotheses that say what the
    operands are: the two columns hold the tile's targets and sources, the targets are sorted, the gates are open on the
    tile's chunk range, the padded table carries the node features, the six blocks are the layer's parameters. -/
theorem stepAcc3_apply (i : grid3.Coords) (x2 x3 : Vec Ideal S1250 .i32) (x4 x5 : Vec Ideal S256x1 .i32) (x6 : Vec Ideal S10240x128 .f32)
    (x7 : Vec Ideal S256x128 .f32) (x8 : Vec Ideal S1x128 .f32) (x9 : Vec Ideal S128x128 .f32) (x10 : Vec Ideal S1x128 .f32)
    (x11 : Vec Ideal S128x16 .f32) (x12 : Vec Ideal S1x16 .f32) (x14 : Vec Ideal S10240x16 .f32)
    (T : Fin 1250) (key : Fin 320000 → ℕ) (srcn dstn : Fin 320000 → Fin 10000) (x : Fin 10000 → Fin 128 → EReal) (P : Cert.Spec.Weights 128 16)
    (hpt : (i 1).val = T.val % 625)
    (hdst : ∀ r : Fin 256, (x5 (ValueIdx.ix2 r (0 : Fin 1))).toNat = key (Cert.Spec.tileEdge T r))
    (hsrc : ∀ r : Fin 256, (x4 (ValueIdx.ix2 r (0 : Fin 1))).toNat = (srcn (Cert.Spec.tileEdge T r)).val)
    (hkey : ∀ a : Fin 320000, key a = (dstn a).val)
    (hmono : ∀ a b : Fin 320000, a ≤ b → key a ≤ key b)
    (hgate : ∀ c : Fin 10, key (Cert.Spec.tileEdge T 0) / 1024 ≤ c.val → c.val ≤ key (Cert.Spec.tileEdge T 255) / 1024 →
      Cert.Spec.gateWord (loW3 i x2) (hiW3 i x3) (BitVec.ofNat 32 c.val) = 1#1)
    (hx : ∀ v : Fin 10000, (fun j : Fin 128 => x6 (ValueIdx.ix2 (⟨v.val, Nat.lt_trans v.isLt (by norm_num)⟩ : Fin 10240) j)) = x v)
    (hP : Cert.KernelIdeal.PayI3.kWeights3 x7 x8 x9 x10 x11 x12 = P)
    (n : Fin 10240) (j : Fin 16) :
    stepAcc3 (F := Ideal) i x2 x3 x4 x5 x6 x7 x8 x9 x10 x11 x12 x14 (ValueIdx.ix2 n j)
      = (if T.val % 625 = 0 then 0 else x14 (ValueIdx.ix2 n j))
        + ∑ r : Fin 256, if key (Cert.Spec.tileEdge T r) = n.val
            then Cert.Spec.message P x (srcn (Cert.Spec.tileEdge T r)) (dstn (Cert.Spec.tileEdge T r)) j else 0 := by
  rw [stepAcc3_sum, accReset3_apply, hpt]
  refine congrArg (fun z => (if T.val % 625 = 0 then 0 else x14 (ValueIdx.ix2 n j)) + z) ?_
  have hc0 : n.val / 1024 < 10 := by have := n.isLt; omega
  rw [Finset.sum_eq_single (⟨n.val / 1024, hc0⟩ : Fin 10)]
  · rw [if_pos rfl]
    unfold Sacc
    simp only [hdst]
    refine (gated_scatter key hmono T
      (fun c : Fin 10 => gateWord (loW3 i x2) (hiW3 i x3) (BitVec.ofNat 32 c.val) = 1#1) hgate
      ⟨n.val / 1024, hc0⟩ ⟨n.val % 1024, Nat.mod_lt _ (by norm_num)⟩
      (fun r => msg3 (F := Ideal) i x2 x3 x4 x5 x6 x7 x8 x9 x10 x11 x12 (ValueIdx.ix2 r j))).trans ?_
    refine Finset.sum_congr rfl fun r _ => ?_
    have e : n.val / 1024 * 1024 + n.val % 1024 = n.val := Nat.div_add_mod' n.val 1024
    show (if key (tileEdge T r) = n.val / 1024 * 1024 + n.val % 1024 then _ else 0) = _
    rw [e, msg3_row i x2 x3 x4 x5 x6 x7 x8 x9 x10 x11 x12 T key srcn dstn x P hdst hsrc hkey hmono hgate hx hP r j]
  · intro c _ hc
    rw [if_neg (fun e => hc (Fin.ext e.symm))]
  · intro h
    exact absurd (Finset.mem_univ _) h

end Cert.KernelIdeal.StepI3

end
-- ==== Proof.ValueI3.lean ====
import proofs.«414286_j65627100283289_3_alg».proof.Proof.HandedI3
import proofs.«414286_j65627100283289_3_alg».proof.Proof.GeomI3
import proofs.«414286_j65627100283289_3_alg».proof.Proof.StepDefsI3
import proofs.«414286_j65627100283289_3_alg».proof.Proof.StepMathI3
import proofs.«414286_j65627100283289_3_alg».proof.Proof.RegionDataI3

/-!
# What region 3 leaves: its layer

The kernel region walks the sorted edge list tile by tile. At tile `T` its body turns the accumulator the tile before left
into that accumulator (nothing, at a core's first tile) plus, on every node row, the messages of the tile's edges whose
target is the row; after a core's last tile the accumulator is stored as the core's slab. This module puts the pieces
together over the operand values the region is handed: the tile's step, from the accumulator's recurrence over the tiles the
statement `RegionLeaves` of the layer, and last the region's own proof data — its accumulator tile by tile, its
windows' blocks, its output array after the run — put in.
-/

set_option maxRecDepth 16384

noncomputable section

namespace Cert.KernelIdeal.KHost

open Idealize.ShloMosaic Idealize.ShloMosaic.TcCoe
open Idealize.SL.Sem
open Cert.KernelIdeal Cert.KernelIdeal.Gen
open Cert.Spec
open scoped BigOperators

/-! ## The tile's two table words at a grid point -/

/-- Point `t` of the grid reads entry `t` of the first table. -/
theorem loW3_coords {F : FTy → Type} [FloatOps F] (t : Fin grid3.N) (x2 : Vec F S1250 .i32) :
    loW3 (grid3.coords t) x2 = x2 (ValueIdx.ix1 (Fin.cast N_3 t)) := by
  unfold loW3
  show x2 (Rect.emb _ _) = _
  refine congrArg x2 (funext fun a => ?_)
  match a with
  | ⟨0, _⟩ =>
    apply Fin.ext
    rw [Rect.emb_apply]
    show k3_off1 (grid3.coords t) 0 + 1 * 0 = t.val
    rw [k3_off1_eq]
    show 625 * ((grid3.coords t) 0).val + ((grid3.coords t) 1).val + 1 * 0 = t.val
    rw [coords3_0, coords3_1]
    omega

/-- … and entry `t` of the second. -/
theorem hiW3_coords {F : FTy → Type} [FloatOps F] (t : Fin grid3.N) (x3 : Vec F S1250 .i32) :
    hiW3 (grid3.coords t) x3 = x3 (ValueIdx.ix1 (Fin.cast N_3 t)) := by
  unfold hiW3
  show x3 (Rect.emb _ _) = _
  refine congrArg x3 (funext fun a => ?_)
  match a with
  | ⟨0, _⟩ =>
    apply Fin.ext
    rw [Rect.emb_apply]
    show k3_off1 (grid3.coords t) 0 + 1 * 0 = t.val
    rw [k3_off1_eq]
    show 625 * ((grid3.coords t) 0).val + ((grid3.coords t) 1).val + 1 * 0 = t.val
    rw [coords3_0, coords3_1]
    omega

/-! ## One tile's step, and the layer -/

section Layer3

variable (m : (ℓ : Loc nD τ sig) → Buf (Elt Ideal) ℓ) (outs : Gen.Outs (F := Ideal)) (c : Dev nD)
variable (h : InRange (m ((c : Thread nD τ).loc main_arg2)))

/-- The accumulator after the body at tile `T`, over the region's operands and the tile's two column blocks: what the
    tile before left (nothing at a core's first tile) plus, on row `n`, the messages of the tile's edges whose target is `n`. -/
theorem step3_apply (T : Fin 1250) (x4 x5 : Vec Ideal S256x1 .i32) (x14 : Vec Ideal S10240x16 .f32)
    (h4 : ∀ r : Fin 256, x4 (ValueIdx.ix2 r (0 : Fin 1)) = opSrc3 m outs c (ValueIdx.ix2 (tileEdge T r) (0 : Fin 1)))
    (h5 : ∀ r : Fin 256, x5 (ValueIdx.ix2 r (0 : Fin 1)) = opDst3 m outs c (ValueIdx.ix2 (tileEdge T r) (0 : Fin 1)))
    (n : Fin 10240) (j : Fin 16) :
    stepAcc3 (F := Ideal) (grid3.coords (Fin.cast N_3.symm T)) (opLo3 m outs c) (opHi3 m outs c) x4 x5 (opX3 m outs c)
        (opWa3 m outs c) (opBa3 m outs c) (opWb3 m outs c) (opBb3 m outs c) (opWc3 m outs c) (opBc3 m outs c) x14 (ValueIdx.ix2 n j)
      = (if T.val % 625 = 0 then 0 else x14 (ValueIdx.ix2 n j))
        + ∑ r : Fin 256, if (dstAlong m c h (tileEdge T r)).val = n.val
            then message (layerP3 m outs c) (layerX3 m outs c) (srcAlong m c h (tileEdge T r)) (dstAlong m c h (tileEdge T r)) j else 0 :=
  StepI3.stepAcc3_apply (grid3.coords (Fin.cast N_3.symm T)) (opLo3 m outs c) (opHi3 m outs c) x4 x5 (opX3 m outs c)
    (opWa3 m outs c) (opBa3 m outs c) (opWb3 m outs c) (opBb3 m outs c) (opWc3 m outs c) (opBc3 m outs c) x14
    T (keyOf m c h) (srcAlong m c h) (dstAlong m c h) (layerX3 m outs c) (layerP3 m outs c)
    (coords3_1 (Fin.cast N_3.symm T))
    (fun r => by rw [h5 r]; exact handed3_dst m outs c h T r)
    (fun r => by rw [h4 r]; exact handed3_src m outs c h T r)
    (along_key m c h) (along_mono m c h)
    (by rw [loW3_coords, hiW3_coords]; exact handed3_gate m outs c h T)
    (handed3_x m outs c) (handed3_P m outs c) n j

/-- From the accumulator's recurrence over the tiles and the slabs' read: the layer. `Acc T` is the accumulator before
    tile `T`; `B4 T`, `B5 T` are tile `T`'s blocks of the two sorted columns. -/
theorem leaves3_of_acc (Acc : ℕ → Vec Ideal S10240x16 .f32) (B4 B5 : Fin 1250 → Vec Ideal S256x1 .i32)
    (hB4 : ∀ (T : Fin 1250) (r : Fin 256),
      B4 T (ValueIdx.ix2 r (0 : Fin 1)) = opSrc3 m outs c (ValueIdx.ix2 (tileEdge T r) (0 : Fin 1)))
    (hB5 : ∀ (T : Fin 1250) (r : Fin 256),
      B5 T (ValueIdx.ix2 r (0 : Fin 1)) = opDst3 m outs c (ValueIdx.ix2 (tileEdge T r) (0 : Fin 1)))
    (hsucc : ∀ T : Fin 1250, Acc (T.val + 1)
      = stepAcc3 (F := Ideal) (grid3.coords (Fin.cast N_3.symm T)) (opLo3 m outs c) (opHi3 m outs c) (B4 T) (B5 T) (opX3 m outs c)
          (opWa3 m outs c) (opBa3 m outs c) (opWb3 m outs c) (opBb3 m outs c) (opWc3 m outs c) (opBc3 m outs c) (Acc T.val))
    (S : Fin 2 → Fin 10240 → Fin 16 → EReal)
    (hS : ∀ (p : Fin 2) (n : Fin 10240) (j : Fin 16), S p n j = Acc (p.val * 625 + 625) (ValueIdx.ix2 n j)) :
    RegionLeaves (layerP3 m outs c) (layerX3 m outs c) (srcK m c h) (dstK m c h) (sortPerm (edges m c)) S :=
  regionLeaves_of_acc (layerP3 m outs c) (layerX3 m outs c) (srcK m c h) (dstK m c h) (sortPerm (edges m c)) S
    (fun T n j => Acc T (ValueIdx.ix2 n j))
    (fun T hT n j => by
      show Acc (T + 1) (ValueIdx.ix2 n j) = _
      rw [hsucc ⟨T, hT⟩]
      exact step3_apply m outs c h ⟨T, hT⟩ (B4 ⟨T, hT⟩) (B5 ⟨T, hT⟩) (Acc T) (hB4 ⟨T, hT⟩) (hB5 ⟨T, hT⟩) n j)
    hS

end Layer3

/-! ## The region's proof data at what it is handed -/

section Final3

variable (m : (ℓ : Loc nD τ sig) → Buf (Elt Ideal) ℓ) (outs : Gen.Outs (F := Ideal)) (c : Dev nD)
variable (h : InRange (m ((c : Thread nD τ).loc main_arg2)))

/-- Tile `T` as a point of the region's grid. -/
abbrev pt3 (T : Fin 1250) : Fin (cfg3 (tbl3 m outs c)).N := Fin.cast N_3.symm T

/-- The accumulator before tile `n`. -/
abbrev acc3 : ℕ → Vec Ideal S10240x16 .f32 := accAt3 (ent3 m outs) (tbl3 m outs c) c

/-- What the region leaves in its output array is the layer. -/
theorem leaves3 : RegionLeaves (layerP3 m outs c) (layerX3 m outs c) (srcK m c h) (dstK m c h) (sortPerm (edges m c))
    (fun p n j => ((dat3 (ent3 m outs) (tbl3 m outs c) c).arrAt 9 (cfg3 (tbl3 m outs c)).N : S2x10240x16.Idx → EReal)
      (ValueIdx.ix3 p n j)) := by
  refine leaves3_of_acc m outs c h (acc3 m outs c)
    (fun T => iblk3 (ent3 m outs) (tbl3 m outs c) c (0 : Fin 10) (pt3 m outs c T)) (fun T => iblk3 (ent3 m outs) (tbl3 m outs c) c (1 : Fin 10) (pt3 m outs c T))
    (fun T r => ?_) (fun T r => ?_) (fun T => ?_) _ (fun p n j => ?_)
  · exact (blk3_read_0 (tbl3 m outs c) (pt3 m outs c T) (opSrc3 m outs c) r).trans
      (congrArg (fun e : Fin 320000 => opSrc3 m outs c (ValueIdx.ix2 e (0 : Fin 1))) (Fin.ext rfl))
  · exact (blk3_read_1 (tbl3 m outs c) (pt3 m outs c T) (opDst3 m outs c) r).trans
      (congrArg (fun e : Fin 320000 => opDst3 m outs c (ValueIdx.ix2 e (0 : Fin 1))) (Fin.ext rfl))
  · have e2 : iblk3 (ent3 m outs) (tbl3 m outs c) c (2 : Fin 10) (pt3 m outs c T) = opX3 m outs c :=
      funext fun y => blk3_read_2 (tbl3 m outs c) (pt3 m outs c T) (opX3 m outs c) y
    have e3 : iblk3 (ent3 m outs) (tbl3 m outs c) c (3 : Fin 10) (pt3 m outs c T) = opWa3 m outs c :=
      funext fun y => blk3_read_3 (tbl3 m outs c) (pt3 m outs c T) (opWa3 m outs c) y
    have e4 : iblk3 (ent3 m outs) (tbl3 m outs c) c (4 : Fin 10) (pt3 m outs c T) = opBa3 m outs c :=
      funext fun y => blk3_read_4 (tbl3 m outs c) (pt3 m outs c T) (opBa3 m outs c) y
    have e5 : iblk3 (ent3 m outs) (tbl3 m outs c) c (5 : Fin 10) (pt3 m outs c T) = opWb3 m outs c :=
      funext fun y => blk3_read_5 (tbl3 m outs c) (pt3 m outs c T) (opWb3 m outs c) y
    have e6 : iblk3 (ent3 m outs) (tbl3 m outs c) c (6 : Fin 10) (pt3 m outs c T) = opBb3 m outs c :=
      funext fun y => blk3_read_6 (tbl3 m outs c) (pt3 m outs c T) (opBb3 m outs c) y
    have e7 : iblk3 (ent3 m outs) (tbl3 m outs c) c (7 : Fin 10) (pt3 m outs c T) = opWc3 m outs c :=
      funext fun y => blk3_read_7 (tbl3 m outs c) (pt3 m outs c T) (opWc3 m outs c) y
    have e8 : iblk3 (ent3 m outs) (tbl3 m outs c) c (8 : Fin 10) (pt3 m outs c T) = opBc3 m outs c :=
      funext fun y => blk3_read_8 (tbl3 m outs c) (pt3 m outs c T) (opBc3 m outs c) y
    have e := accAt3_succ (ent3 m outs) (tbl3 m outs c) c (pt3 m outs c T)
    rw [e2, e3, e4, e5, e6, e7, e8] at e
    exact e
  · exact congrFun (arrAt3_9 (tbl3 m outs c) c (dat3 (ent3 m outs) (tbl3 m outs c) c) (acc3 m outs c)
      (fun t _ => after3_9 (ent3 m outs) (tbl3 m outs c) c t)) (ValueIdx.ix3 p n j)

end Final3

end Cert.KernelIdeal.KHost

end
-- ==== Proof.KValueI.lean ====
import proofs.«414286_j65627100283289_3_alg».proof.Proof.RegionsI
import proofs.«414286_j65627100283289_3_alg».proof.Proof.ValueI0
import proofs.«414286_j65627100283289_3_alg».proof.Proof.ValueI1
import proofs.«414286_j65627100283289_3_alg».proof.Proof.ValueI2
import proofs.«414286_j65627100283289_3_alg».proof.Proof.ValueI3
import proofs.«414286_j65627100283289_3_alg».proof.Proof.KLayersI

/-!
# The kernel program's result is the network

Each of the four regions leaves its layer in its two slabs, whatever family of contents the earlier regions' arrays are
taken from. The program's run fixes that family: each region's array is what the region leaves, from the tables it reads
off the buffers it is entered from. At that family the four facts chain — every layer's input is the layer before — and
the result buffer holds the network of the specification on the argument arrays.

The one care: a region's proof data is indexed by the tables' contents, and the type of the output array's final contents
depends on them; two spellings of the same tables are exchanged under a function of the tables whose value has a fixed
type, never under the array's own type.
-/

set_option maxRecDepth 16384

noncomputable section

namespace Cert.KernelIdeal.KHost

open Idealize.ShloMosaic Idealize.ShloMosaic.TcCoe
open Idealize.SL.Sem
open Cert.KernelIdeal
open Cert.Spec

section Glue

variable (c : Dev nD)

/-- The slabs read off region 0's output array depend on the tables' contents only through their value. -/
theorem slabs0_congr (V : (c : Dev nD) → (b : Ref sig .tc) → Buf (Elt Ideal) ((c : Thread nD τ).loc b))
    (a a' : (pcfg0 (F := Ideal)).Adm) (e : a = a') :
    (fun (p : Fin 2) (n : Fin 10240) (j : Fin 128) =>
        ((Gen.dat0 V a c).arrAt (9 : Fin 10) (cfg0 a).N : S2x10240x128.Idx → EReal) (ValueIdx.ix3 p n j))
      = fun p n j => ((Gen.dat0 V a' c).arrAt (9 : Fin 10) (cfg0 a').N : S2x10240x128.Idx → EReal) (ValueIdx.ix3 p n j) := by
  subst e
  rfl

/-- The slabs read off region 1's output array depend on the tables' contents only through their value. -/
theorem slabs1_congr (V : (c : Dev nD) → (b : Ref sig .tc) → Buf (Elt Ideal) ((c : Thread nD τ).loc b))
    (a a' : (pcfg1 (F := Ideal)).Adm) (e : a = a') :
    (fun (p : Fin 2) (n : Fin 10240) (j : Fin 128) =>
        ((Gen.dat1 V a c).arrAt (9 : Fin 10) (cfg1 a).N : S2x10240x128.Idx → EReal) (ValueIdx.ix3 p n j))
      = fun p n j => ((Gen.dat1 V a' c).arrAt (9 : Fin 10) (cfg1 a').N : S2x10240x128.Idx → EReal) (ValueIdx.ix3 p n j) := by
  subst e
  rfl

/-- The slabs read off region 2's output array depend on the tables' contents only through their value. -/
theorem slabs2_congr (V : (c : Dev nD) → (b : Ref sig .tc) → Buf (Elt Ideal) ((c : Thread nD τ).loc b))
    (a a' : (pcfg2 (F := Ideal)).Adm) (e : a = a') :
    (fun (p : Fin 2) (n : Fin 10240) (j : Fin 128) =>
        ((Gen.dat2 V a c).arrAt (9 : Fin 10) (cfg2 a).N : S2x10240x128.Idx → EReal) (ValueIdx.ix3 p n j))
      = fun p n j => ((Gen.dat2 V a' c).arrAt (9 : Fin 10) (cfg2 a').N : S2x10240x128.Idx → EReal) (ValueIdx.ix3 p n j) := by
  subst e
  rfl

/-- The slabs read off region 3's output array depend on the tables' contents only through their value. -/
theorem slabs3_congr (V : (c : Dev nD) → (b : Ref sig .tc) → Buf (Elt Ideal) ((c : Thread nD τ).loc b))
    (a a' : (pcfg3 (F := Ideal)).Adm) (e : a = a') :
    (fun (p : Fin 2) (n : Fin 10240) (j : Fin 16) =>
        ((Gen.dat3 V a c).arrAt (9 : Fin 10) (cfg3 a).N : S2x10240x16.Idx → EReal) (ValueIdx.ix3 p n j))
      = fun p n j => ((Gen.dat3 V a' c).arrAt (9 : Fin 10) (cfg3 a').N : S2x10240x16.Idx → EReal) (ValueIdx.ix3 p n j) := by
  subst e
  rfl

end Glue

section Result

variable (m : (ℓ : Loc nD τ sig) → Buf (Elt Ideal) ℓ) (c : Dev nD) (h : InRange (m ((c : Thread nD τ).loc main_arg2)))

/-- Region 0, under the family of contents the four regions determine, leaves layer 1 in its two slabs. -/
theorem leavesI0 : RegionLeaves (par0 m c) (inp0 m c) (srcK m c h) (dstK m c h) (sortPerm (edges m c))
    (slabFn1 (Gen.outsI m) c) := by
  have et : KHost.tbl0 m (Gen.outsI m) c = Gen.tbl0 m := Subtype.ext (Gen.hpf0 m c)
  have e1 : (Gen.outsI m 9 main_v46 c : S2x10240x128.Idx → EReal)
      = ((Gen.dat0 (Gen.Vin0 m) (Gen.tbl0 m) c).arrAt (9 : Fin 10) (cfg0 (Gen.tbl0 m)).N : S2x10240x128.Idx → EReal) :=
    Gen.outsI_v46 m c
  have eS : slabFn1 (Gen.outsI m) c
      = fun p n j => ((Gen.dat0 (ent0 m (Gen.outsI m)) (KHost.tbl0 m (Gen.outsI m) c) c).arrAt (9 : Fin 10)
          (cfg0 (KHost.tbl0 m (Gen.outsI m) c)).N : S2x10240x128.Idx → EReal) (ValueIdx.ix3 p n j) := by
    refine Eq.trans ?_ (slabs0_congr c (ent0 m (Gen.outsI m)) _ _ et.symm)
    funext p n j
    exact congrFun e1 (ValueIdx.ix3 p n j)
  rw [eS]
  exact leaves0 m (Gen.outsI m) c h

/-- Region 1, under the family of contents the four regions determine, leaves layer 2 in its two slabs. -/
theorem leavesI1 : RegionLeaves (par1 m c) (inp1 m (Gen.outsI m) c) (srcK m c h) (dstK m c h) (sortPerm (edges m c))
    (slabFn2 (Gen.outsI m) c) := by
  have et : KHost.tbl1 m (Gen.outsI m) c = Gen.tbl1 m := Subtype.ext (Gen.hpf1 m c)
  have e1 : (Gen.outsI m 12 main_v53 c : S2x10240x128.Idx → EReal)
      = ((Gen.dat1 (Gen.Vin1 m (Gen.outsI m)) (Gen.tbl1 m) c).arrAt (9 : Fin 10) (cfg1 (Gen.tbl1 m)).N : S2x10240x128.Idx → EReal) :=
    Gen.outsI_v53 m c
  have eS : slabFn2 (Gen.outsI m) c
      = fun p n j => ((Gen.dat1 (ent1 m (Gen.outsI m)) (KHost.tbl1 m (Gen.outsI m) c) c).arrAt (9 : Fin 10)
          (cfg1 (KHost.tbl1 m (Gen.outsI m) c)).N : S2x10240x128.Idx → EReal) (ValueIdx.ix3 p n j) := by
    refine Eq.trans ?_ (slabs1_congr c (ent1 m (Gen.outsI m)) _ _ et.symm)
    funext p n j
    exact congrFun e1 (ValueIdx.ix3 p n j)
  rw [eS]
  exact leaves1 m (Gen.outsI m) c h

/-- Region 2, under the family of contents the four regions determine, leaves layer 3 in its two slabs. -/
theorem leavesI2 : RegionLeaves (par2 m c) (inp2 m (Gen.outsI m) c) (srcK m c h) (dstK m c h) (sortPerm (edges m c))
    (slabFn3 (Gen.outsI m) c) := by
  have et : KHost.tbl2 m (Gen.outsI m) c = Gen.tbl2 m := Subtype.ext (Gen.hpf2 m c)
  have e1 : (Gen.outsI m 15 main_v60 c : S2x10240x128.Idx → EReal)
      = ((Gen.dat2 (Gen.Vin2 m (Gen.outsI m)) (Gen.tbl2 m) c).arrAt (9 : Fin 10) (cfg2 (Gen.tbl2 m)).N : S2x10240x128.Idx → EReal) :=
    Gen.outsI_v60 m c
  have eS : slabFn3 (Gen.outsI m) c
      = fun p n j => ((Gen.dat2 (ent2 m (Gen.outsI m)) (KHost.tbl2 m (Gen.outsI m) c) c).arrAt (9 : Fin 10)
          (cfg2 (KHost.tbl2 m (Gen.outsI m) c)).N : S2x10240x128.Idx → EReal) (ValueIdx.ix3 p n j) := by
    refine Eq.trans ?_ (slabs2_congr c (ent2 m (Gen.outsI m)) _ _ et.symm)
    funext p n j
    exact congrFun e1 (ValueIdx.ix3 p n j)
  rw [eS]
  exact leaves2 m (Gen.outsI m) c h

/-- Region 3, under the family of contents the four regions determine, leaves layer 4 in its two slabs. -/
theorem leavesI3 : RegionLeaves (par3 m c) (inp3 m (Gen.outsI m) c) (srcK m c h) (dstK m c h) (sortPerm (edges m c))
    (slabFn4 (Gen.outsI m) c) := by
  have et : KHost.tbl3 m (Gen.outsI m) c = Gen.tbl3 m := Subtype.ext (Gen.hpf3 m c)
  have e1 : (Gen.outsI m 18 main_v67 c : S2x10240x16.Idx → EReal)
      = ((Gen.dat3 (Gen.Vin3 m (Gen.outsI m)) (Gen.tbl3 m) c).arrAt (9 : Fin 10) (cfg3 (Gen.tbl3 m)).N : S2x10240x16.Idx → EReal) :=
    Gen.outsI_v67 m c
  have eS : slabFn4 (Gen.outsI m) c
      = fun p n j => ((Gen.dat3 (ent3 m (Gen.outsI m)) (KHost.tbl3 m (Gen.outsI m) c) c).arrAt (9 : Fin 10)
          (cfg3 (KHost.tbl3 m (Gen.outsI m) c)).N : S2x10240x16.Idx → EReal) (ValueIdx.ix3 p n j) := by
    refine Eq.trans ?_ (slabs3_congr c (ent3 m (Gen.outsI m)) _ _ et.symm)
    funext p n j
    exact congrFun e1 (ValueIdx.ix3 p n j)
  rw [eS]
  exact leaves3 m (Gen.outsI m) c h

/-- The kernel program's result buffer, under the family of contents its four regions determine, is the network of the
    specification on the argument arrays. -/
theorem kvalue : (Gen.V19 m (Gen.outsI m) c main_v69 : S10000x16.Idx → EReal) =
    netOf (m ((c : Thread nD τ).loc main_arg0)) (m ((c : Thread nD τ).loc main_arg2)) h
      (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) :=
  result_eq_netOf m (Gen.outsI m) c h (sortPerm (edges m c)) (leavesI0 m c h) (leavesI1 m c h) (leavesI2 m c h) (leavesI3 m c h)

end Result

end Cert.KernelIdeal.KHost

end
-- ==== Proof.LibGatherRows.lean ====
/-
  A gather of whole rows of a table, read at an index.

  A table `T : [N, C]` gathered at a column `idx : [R, 1]` of start indices with offset_dims = [1],
  collapsed_slice_dims = [0], start_index_map = [0], index_vector_dim = 1 and slice sizes [1, C] has the result `[R, C]`
  whose row `e` is a row of the table. Read at `(e, j)` it is the table at `(r, j)`, where `r` is the start index
  `idx[e, 0]` read as a signed integer and clamped into `[0, N − 1]`: the one start-indexed axis is collapsed, so its
  slice has extent one and the clamp's upper end is `N − 1`; the column axis is the one offset axis, not start-indexed, so
  its slice starts at column 0 and the result's column coordinate is the table's.

  Stated for any dimension-numbers record with those field values (`gather_rows`), and for the record built from the
  extents and the well-formedness witness alone (`rowDims`, `gather_rowDims_apply`).
-/
import Idealize.ShloMosaic.PureOps.ShapeOps
import Idealize.ShloMosaic.Lib.ValueIdx

namespace Idealize.ShloMosaic.GatherRows

open Idealize.ShloMosaic Idealize.ShloMosaic.ValueIdx

/-- A list that is one entry long has that entry at every position it has. -/
theorem getElem_of_eq_singleton {β : Type} (l : List β) (b : β) (n : Nat) (h : n < l.length) (hl : l = [b]) : l[n] = b := by
  subst hl
  have : n = 0 := by simpa using h
  subst this; rfl

/-- THE ROW GATHER READ AT `(e, j)`. For dimension numbers over a table `[N, C]`, start indices `[R, 1]` and result
    `[R, C]` with offset axis 1, collapsed axis 0, no batching axes, start index map `[0]` and the index vector on axis 1
    (`hoff` … `hivd`: the record's field values; its conditions give the slice sizes `[1, C]`): the table at row
    `idx[e, 0]`, read signed and clamped into `[0, N − 1]`, column `j`. -/
theorem gather_rows {α : Type} {N R C w : Nat} (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (T : (⟨2, ![N, C]⟩ : Shape).Idx → α) (idx : IVec ⟨2, ![R, 1]⟩ w) (e : Fin R) (j : Fin C) (hN : 0 < N) :
    Host.gather d T idx (ix2 e j) = T (ix2 ⟨min (idx (ix2 e 0)).toInt.toNat (N - 1), by omega⟩ j) := by
  unfold Host.gather
  congr 1
  funext a
  apply Fin.ext
  have hb : ∀ a, a ∉ d.operandBatchingDims := fun a => by rw [hob]; exact List.not_mem_nil
  match a with
  | ⟨0, _⟩ =>
    -- the row axis: start-indexed and collapsed, so the coordinate is the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e j) idx 0 + d.batchCoord (ix2 e j) 0 + d.offCoord (ix2 e j) 0 = _
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 e 0)).toInt.toNat (N - 1)
    rw [hsl]
    congr 3
    congr 1
    -- the start-indices index of result index (e, j), component 0, is (e, 0)
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = _
        rw [hoff]; rfl
      rw [getElem_of_eq_singleton d.batchDims 0 _ _ hbd]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column axis: the one offset axis, not start-indexed, so the coordinate is the result's column
    have hk : (1 : Fin 2) ∈ d.sKept := by rw [GatherDims.mem_sKept, hcoll]; exact ⟨by simp, hb 1⟩
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1)]
    unfold GatherDims.start GatherDims.offCoord
    rw [dif_neg hm, dif_pos hk]
    simp only [Nat.add_zero, Nat.zero_add]
    rw [getElem_of_eq_singleton d.offsetDims 1 _ _ hoff]
    rfl

/-- Those dimension numbers for a table `[N, C]`, start indices `[R, 1]` and result `[R, C]`; their conditions `wf` are
    decided on literal extents. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather by `rowDims` read at `(e, j)`. -/
theorem gather_rowDims_apply {α : Type} {N R C w : Nat} (hN : 0 < N)
    (wf : GatherDims.WF ⟨2, ![N, C]⟩ ⟨2, ![R, 1]⟩ ⟨2, ![R, C]⟩ [1] [0] [] [0] [] 1 ![1, C])
    (T : (⟨2, ![N, C]⟩ : Shape).Idx → α) (idx : IVec ⟨2, ![R, 1]⟩ w) (e : Fin R) (j : Fin C) :
    Host.gather (rowDims N R C wf) T idx (ix2 e j) = T (ix2 ⟨min (idx (ix2 e 0)).toInt.toNat (N - 1), by omega⟩ j) :=
  gather_rows (rowDims N R C wf) rfl rfl rfl rfl rfl T idx e j hN

end Idealize.ShloMosaic.GatherRows
-- ==== Proof.LibScatterAddRows.lean ====
/-
  A row-wise accumulating scatter read at an entry, at the ideal values.

  The host's accumulating scatter of an [N, D] array of update rows into a [C, D] operand by an [N, 1] column of row
  indices (the update's second axis the window, the operand's first axis inserted and scattered to, the index vector
  on the indices' second axis) sends update row n whole to operand row idx(n), the index word read as a signed integer and
  not clamped; a row whose index is below 0 or not below C is dropped. So entry (k, e) of the result is the operand's
  entry plus the sum over the rows n of: update entry (n, e) when idx(n) is k, zero otherwise. The scatter of an [N]
  vector of updates into a [C] operand by the same column of indices reads the same way at entry k.

  The road: an update index lands at a given operand index exactly when, on every operand axis, the window's start plus
  the window coordinate is that index's coordinate (`resultIdx?_eq_some_iff`, for any dimension numbers). For these
  dimension numbers the start is the index word on the scattered axis and zero on the window axis, and the window
  coordinate is zero on the inserted axis and the update's column on the window axis; so update (n, e') lands at (k, e)
  exactly when idx(n) reads k and e' is e. The filtered sum over the update indices is then the double sum over rows and
  columns of an `if`, and the inner sum over the columns has one term.
-/
import Idealize.ShloMosaic.PureOps.Ideal.Laws
import Idealize.ShloMosaic.Lib.ValueIdx

noncomputable section

open scoped BigOperators

namespace Idealize.ShloMosaic.ScatterAddRows

open Idealize.ShloMosaic Idealize.ShloMosaic.ValueIdx

/-- An update index lands at i exactly when, on every operand axis, the window's start plus the window coordinate is
    i's coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hc
      have h' := Option.some.inj h
      intro a
      have h1 := congrArg (fun f => (f a).val) h'
      simp only at h1
      have h2 := hc a
      omega
    · exact absurd h (by simp)
  · intro h
    have hc : ∀ a, 0 ≤ d.start j idx a + d.window j a ∧ d.start j idx a + d.window j a < s.size a := by
      intro a
      have h1 := h a
      have h2 := (i a).isLt
      omega
    rw [dif_pos hc]
    congr 1
    funext a
    apply Fin.ext
    have h1 := h a
    simp only
    omega

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

section Rows
variable {C D N : ℕ} (wf : ScatterDims.WF ⟨2, ![C, D]⟩ ⟨2, ![N, 1]⟩ ⟨2, ![N, D]⟩ [1] [0] [0] 1)

/-- The index word an update row reads: the column of indices at (row, 0). -/
private theorem rows_siIdx (j : (⟨2, ![N, D]⟩ : Shape).Idx) (c) :
    (⟨[1], [0], [0], 1, wf⟩ : ScatterDims ⟨2, ![C, D]⟩ ⟨2, ![N, 1]⟩ ⟨2, ![N, D]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the scattered axis the window starts at the row's index word, read signed. -/
private theorem rows_start0 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 0
      = (idx (ix2 (j 0) (0 : Fin 1))).toInt := by
  unfold ScatterDims.start
  rw [dif_pos (List.mem_cons_self ..), rows_siIdx]
  rfl

/-- On the window axis the window starts at zero. -/
private theorem rows_start1 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 1 = 0 := by
  unfold ScatterDims.start
  rw [dif_neg (by simp)]

/-- The inserted axis has window coordinate zero. -/
private theorem rows_window0 (j : (⟨2, ![N, D]⟩ : Shape).Idx) :
    (⟨[1], [0], [0], 1, wf⟩ : ScatterDims ⟨2, ![C, D]⟩ ⟨2, ![N, 1]⟩ ⟨2, ![N, D]⟩).window j 0 = 0 := by
  rfl

/-- The window axis has the update's column as window coordinate. -/
private theorem rows_window1 (j : (⟨2, ![N, D]⟩ : Shape).Idx) :
    (⟨[1], [0], [0], 1, wf⟩ : ScatterDims ⟨2, ![C, D]⟩ ⟨2, ![N, 1]⟩ ⟨2, ![N, D]⟩).window j 1 = (j 1).val := by
  rfl

/-- Update index j lands at (k, e) exactly when its row's index word reads k and its column is e. -/
theorem rows_resultIdx?_iff {w : ℕ} (j : (⟨2, ![N, D]⟩ : Shape).Idx) (idx : IVec ⟨2, ![N, 1]⟩ w) (k : Fin C) (e : Fin D) :
    (⟨[1], [0], [0], 1, wf⟩ : ScatterDims ⟨2, ![C, D]⟩ ⟨2, ![N, 1]⟩ ⟨2, ![N, D]⟩).resultIdx? j idx = some (ix2 k e)
      ↔ (idx (ix2 (j 0) (0 : Fin 1))).toInt = (k.val : ℤ) ∧ j 1 = e := by
  rw [resultIdx?_eq_some_iff, Fin.forall_fin_two, rows_start0, rows_start1, rows_window0, rows_window1]
  constructor
  · rintro ⟨h0, h1⟩
    refine ⟨?_, Fin.ext ?_⟩
    · simpa using h0
    · have : ((j 1).val : ℤ) = (e.val : ℤ) := by simpa using h1
      exact_mod_cast this
  · rintro ⟨h0, h1⟩
    refine ⟨?_, ?_⟩
    · simpa using h0
    · subst h1; simp

end Rows

section Vec
variable {C N : ℕ} (wf : ScatterDims.WF ⟨1, ![C]⟩ ⟨2, ![N, 1]⟩ ⟨1, ![N]⟩ [] [0] [0] 1)

/-- The index word an update reads: the column of indices at (its position, 0). -/
private theorem vec_siIdx (j : (⟨1, ![N]⟩ : Shape).Idx) (c) :
    (⟨[], [0], [0], 1, wf⟩ : ScatterDims ⟨1, ![C]⟩ ⟨2, ![N, 1]⟩ ⟨1, ![N]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the operand's one axis the window starts at the update's index word, read signed. -/
private theorem vec_start0 {w : ℕ} (j : (⟨1, ![N]⟩ : Shape).Idx) (idx : IVec ⟨2, ![N, 1]⟩ w) :
    (⟨[], [0], [0], 1, wf⟩ : ScatterDims ⟨1, ![C]⟩ ⟨2, ![N, 1]⟩ ⟨1, ![N]⟩).start j idx 0
      = (idx (ix2 (j 0) (0 : Fin 1))).toInt := by
  unfold ScatterDims.start
  rw [dif_pos (List.mem_cons_self ..), vec_siIdx]
  rfl

/-- The operand's one axis is inserted: its window coordinate is zero. -/
private theorem vec_window0 (j : (⟨1, ![N]⟩ : Shape).Idx) :
    (⟨[], [0], [0], 1, wf⟩ : ScatterDims ⟨1, ![C]⟩ ⟨2, ![N, 1]⟩ ⟨1, ![N]⟩).window j 0 = 0 := by
  rfl

/-- Update index j lands at k exactly when its index word reads k. -/
theorem vec_resultIdx?_iff {w : ℕ} (j : (⟨1, ![N]⟩ : Shape).Idx) (idx : IVec ⟨2, ![N, 1]⟩ w) (k : Fin C) :
    (⟨[], [0], [0], 1, wf⟩ : ScatterDims ⟨1, ![C]⟩ ⟨2, ![N, 1]⟩ ⟨1, ![N]⟩).resultIdx? j idx = some (ix1 k)
      ↔ (idx (ix2 (j 0) (0 : Fin 1))).toInt = (k.val : ℤ) := by
  rw [resultIdx?_eq_some_iff, Fin.forall_fin_one, vec_start0, vec_window0]
  constructor
  · intro h0
    simpa using h0
  · intro h0
    simpa using h0

end Vec

/-- Rows of width D accumulated into a [C, D] operand by an [N, 1] column of row indices, read at (k, e). -/
theorem scatterAdd_rows_apply {C D N w : ℕ}
    (wf : ScatterDims.WF ⟨2, ![C, D]⟩ ⟨2, ![N, 1]⟩ ⟨2, ![N, D]⟩ [1] [0] [0] 1)
    (x : (⟨2, ![C, D]⟩ : Shape).Idx → EReal) (idx : IVec ⟨2, ![N, 1]⟩ w) (upd : (⟨2, ![N, D]⟩ : Shape).Idx → EReal)
    (k : Fin C) (e : Fin D) :
    Ideal.hostScatterAdd (⟨[1], [0], [0], 1, wf⟩ : ScatterDims ⟨2, ![C, D]⟩ ⟨2, ![N, 1]⟩ ⟨2, ![N, D]⟩) x idx upd (ix2 k e)
      = x (ix2 k e) + ∑ n : Fin N, if (idx (ix2 n (0 : Fin 1))).toInt = (k.val : ℤ) then upd (ix2 n e) else 0 := by
  unfold Ideal.hostScatterAdd
  congr 1
  rw [Finset.sum_filter, sum_idx2]
  refine Finset.sum_congr rfl fun n _ => ?_
  have hiff : ∀ b : Fin D,
      ((⟨[1], [0], [0], 1, wf⟩ : ScatterDims ⟨2, ![C, D]⟩ ⟨2, ![N, 1]⟩ ⟨2, ![N, D]⟩).resultIdx? (ix2 n b) idx = some (ix2 k e))
        ↔ ((idx (ix2 n (0 : Fin 1))).toInt = (k.val : ℤ) ∧ b = e) := fun b => rows_resultIdx?_iff wf (ix2 n b) idx k e
  simp only [hiff]
  by_cases hc : (idx (ix2 n (0 : Fin 1))).toInt = (k.val : ℤ)
  · simp [hc]
  · simp [hc]

/-- Scalars accumulated into a [C] operand by an [N, 1] column of indices, read at k. -/
theorem scatterAdd_vec_apply {C N w : ℕ}
    (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w) (upd : (⟨1, ![N]⟩ : Shape).Idx → EReal)
    (k : Fin C) :
    Ideal.hostScatterAdd (⟨[], [0], [0], 1, wf⟩ : ScatterDims ⟨1, ![C]⟩ ⟨2, ![N, 1]⟩ ⟨1, ![N]⟩) x idx upd (ix1 k)
      = x (ix1 k) + ∑ n : Fin N, if (idx (ix2 n (0 : Fin 1))).toInt = (k.val : ℤ) then upd (ix1 n) else 0 := by
  unfold Ideal.hostScatterAdd
  congr 1
  rw [Finset.sum_filter, sum_idx1]
  refine Finset.sum_congr rfl fun n _ => ?_
  exact if_congr (vec_resultIdx?_iff wf (ix1 n) idx k) rfl rfl

end Idealize.ShloMosaic.ScatterAddRows

end
-- ==== Proof.RefLayer.lean ====
import Idealize.ShloMosaic.PureOps.Ideal.Laws
import Idealize.ShloMosaic.Lib.ValueIdx
import Idealize.ShloMosaic.Lib.Pipeline.Value
import Idealize.ShloMosaic.Lib.IdealHost
import proofs.«414286_j65627100283289_3_alg».proof.Proof.LibGatherRows
import proofs.«414286_j65627100283289_3_alg».proof.Proof.LibScatterAddRows
import proofs.«414286_j65627100283289_3_alg».proof.Proof.LibDenseLayer
import proofs.«414286_j65627100283289_3_alg».proof.Proof.Args

/-!
# One EdgeConv layer as the host program spells it, read at an entry

The host program computes a layer over a node table `x : [10000, d]` and the edge list `ei : [2, 320000]` as: cut
each row of the edge list out and flatten it to a vector; wrap every word (`w + 10000` where `w < 0`, else `w`); gather
the table's rows at the wrapped target column (`xi`) and source column (`xj`); join `xi` and `xj - xi` side by side;
three affine maps, the first two followed by a maximum with zero; and add every edge's result row into row
`target` of a zero table. Under the range fact every word is a node number, so the wrap is the identity, the gather
reads row `word`, and the accumulation drops no row: entry `(v, j)` of the result is the sum over the edges whose
target is `v` of the perceptron's output `j` on that edge, which is `Spec.edgeConv`.
-/

noncomputable section

open scoped BigOperators

namespace Cert.ReferenceIdeal.RefValue

open Idealize.ShloMosaic Idealize.ShloMosaic.ValueIdx Cert.Spec

/-- A row of the edge list kept as a matrix of one row. -/
abbrev S1E : Shape := ⟨2, ![1, 320000]⟩
/-- A row of the edge list as a vector. -/
abbrev SV : Shape := ⟨1, ![320000]⟩
/-- A row of the edge list as a column. -/
abbrev SC : Shape := ⟨2, ![320000, 1]⟩
/-- The scalar shape. -/
abbrev S0 : Shape := ⟨0, ![]⟩

/-! ## The edge list's rows -/

/-- Row `off 0` of the edge list, cut out and flattened. -/
def edgeRow (off : Fin 2 → ℕ) (hs : SEdge.Slices off S1E) (hc : S1E.ShapeCasts SV) (ei : IVec SEdge 32) : IVec SV 32 :=
  shapeCast _ (extractStridedSlice S1E off ei hs) hc

/-- The flattened row `r` reads the edge list at `(r, a)`. -/
theorem edgeRow_apply (off : Fin 2 → ℕ) (hs : SEdge.Slices off S1E) (hc : S1E.ShapeCasts SV) (ei : IVec SEdge 32)
    (r : Fin 2) (h0 : off 0 = r.val) (h1 : off 1 = 0) (a : Fin 320000) :
    edgeRow off hs hc ei (ix1 a) = ei (ix2 r a) := by
  unfold edgeRow
  refine (shapeCast_apply _ hc (ix1 a) (ix2 (0 : Fin 1) a) ?_).trans ?_
  · rw [Shape.rowMajor_val_two, Shape.rowMajor_val_one]
    show 0 * 320000 + a.val = a.val
    omega
  · refine extractStridedSlice_apply off ei hs (ix2 (0 : Fin 1) a) (ix2 r a) fun b => ?_
    match b with
    | ⟨0, _⟩ => show r.val = off 0 + 0; omega
    | ⟨1, _⟩ => show a.val = off 1 + a.val; omega

/-- The wrap of an index vector: `w + 10000` where `w < 0`, else `w`. -/
def wrap (hb : S0.BroadcastsInDim SV ![]) (v : IVec SV 32) : IVec SV 32 :=
  select (cmpi .slt v (broadcastInDim SV ![] hb (constantI S0 32 0#32)))
    (addi v (broadcastInDim SV ![] hb (constantI S0 32 10000#32))) v

/-- Where the word is not negative the wrap leaves it. -/
theorem wrap_apply (hb : S0.BroadcastsInDim SV ![]) (v : IVec SV 32) (i : SV.Idx) (h : 0 ≤ (v i).toInt) :
    wrap hb v i = v i := by
  unfold wrap
  have hz : broadcastInDim SV ![] hb (constantI S0 32 0#32) i = 0#32 := by
    rw [broadcastInDim_scalar_apply]; rfl
  have hlt : (v i).slt (broadcastInDim SV ![] hb (constantI S0 32 0#32) i) = false := by
    rw [hz]
    simp only [BitVec.slt, BitVec.toInt_zero, decide_eq_false_iff_not, Int.not_lt]
    exact h
  show (if BitVec.ofBool ((v i).slt (broadcastInDim SV ![] hb (constantI S0 32 0#32) i)) = 1 then _ else _) = _
  rw [hlt]
  rfl

/-- A vector as a column reads the vector. -/
theorem col_apply {α : Type} (hb : SV.BroadcastsInDim SC ![0]) (v : SV.Idx → α) (a : Fin 320000) (u : Fin 1) :
    broadcastInDim SC ![0] hb v (ix2 a u) = v (ix1 a) := by
  refine broadcastInDim_apply ![0] hb v (ix2 a u) (ix1 a) fun b => ?_
  match b with
  | ⟨0, _⟩ => show a.val = if (320000 : ℕ) = 1 then 0 else a.val; rw [if_neg (by decide)]

/-! ## A gather of the table's rows at a column of node numbers -/

section Layer
variable {d o : ℕ}

/-- The table's rows gathered at the wrapped row `r` of the edge list: at `(n, p)` the table's row
    `nodeOf ei h r n`, entry `p`. -/
theorem gather_node (off : Fin 2 → ℕ) (hs : SEdge.Slices off S1E) (hc : S1E.ShapeCasts SV)
    (hb0 : S0.BroadcastsInDim SV ![]) (hbc : SV.BroadcastsInDim SC ![0])
    (wg : GatherDims.WF ⟨2, ![10000, d]⟩ SC ⟨2, ![320000, d]⟩ [1] [0] [] [0] [] 1 ![1, d])
    (x : FVec Ideal ⟨2, ![10000, d]⟩ .f32) (ei : IVec SEdge 32) (h : InRange ei)
    (r : Fin 2) (h0 : off 0 = r.val) (h1 : off 1 = 0) (n : Fin 320000) (p : Fin d) :
    Host.gather (GatherRows.rowDims 10000 320000 d wg) x
        (broadcastInDim SC ![0] hbc (wrap hb0 (edgeRow off hs hc ei))) (ix2 n p)
      = matOf x (nodeOf ei h r n) p := by
  have hr := h (ix2 r n)
  have he : edgeRow off hs hc ei (ix1 n) = ei (ix2 r n) := edgeRow_apply off hs hc ei r h0 h1 n
  have hw : broadcastInDim SC ![0] hbc (wrap hb0 (edgeRow off hs hc ei)) (ix2 n (0 : Fin 1)) = ei (ix2 r n) := by
    rw [col_apply, wrap_apply _ _ _ (by rw [he]; exact hr.1), he]
  rw [GatherRows.gather_rowDims_apply (by decide : 0 < 10000)]
  unfold matOf
  refine congrArg (fun q : Fin 10000 => x (ix2 q p)) (Fin.ext ?_)
  show min (broadcastInDim SC ![0] hbc (wrap hb0 (edgeRow off hs hc ei)) (ix2 n (0 : Fin 1))).toInt.toNat (10000 - 1)
    = ((ei (ix2 r n)).toInt).toNat
  rw [hw]
  omega

/-! ## The perceptron's input row -/

/-- `A` beside `B - A`, read on row `n`, is `feats` of the two rows. -/
theorem feats_apply (hcc : Shape.Concatenates [(⟨2, ![320000, d]⟩ : Shape), ⟨2, ![320000, d]⟩] ⟨2, ![320000, d + d]⟩ 1)
    (A B : FVec Ideal ⟨2, ![320000, d]⟩ .f32) (xi xj : Fin d → EReal) (n : Fin 320000)
    (hA : ∀ p, A (ix2 n p) = xi p) (hB : ∀ p, B (ix2 n p) = xj p) (k : Fin (d + d)) :
    concatenate ⟨2, ![320000, d + d]⟩ 1 [⟨⟨2, ![320000, d]⟩, A⟩, ⟨⟨2, ![320000, d]⟩, subf B A⟩] hcc (ix2 n k)
      = feats xi xj k := by
  unfold feats
  refine Fin.addCases (fun p => ?_) (fun p => ?_) k
  · rw [Fin.append_left]
    refine (concatenate_pair_apply_left (t := ⟨2, ![320000, d + d]⟩) (s₁ := ⟨2, ![320000, d]⟩)
      (s₂ := ⟨2, ![320000, d]⟩) 1 A (subf B A) hcc (ix2 n (Fin.castAdd d p)) rfl (ix2 n p) (fun b => ?_)).trans (hA p)
    match b with
    | ⟨0, _⟩ => rfl
    | ⟨1, _⟩ => rfl
  · rw [Fin.append_right]
    refine (concatenate_pair_apply_right (t := ⟨2, ![320000, d + d]⟩) (s₁ := ⟨2, ![320000, d]⟩)
      (s₂ := ⟨2, ![320000, d]⟩) 1 A (subf B A) hcc (ix2 n (Fin.natAdd d p)) rfl rfl (ix2 n p) (fun b hb => ?_) ?_).trans ?_
    · match b with
      | ⟨0, _⟩ => rfl
      | ⟨1, _⟩ => exact absurd rfl hb
    · show p.val + d = d + p.val
      omega
    · show B (ix2 n p) - A (ix2 n p) = xj p - xi p
      rw [hA, hB]

end Layer

/-! ## An affine map and the rectifier -/

/-- A product plus a bias row, read at `(r, c)`. -/
theorem dense_apply {m k n : ℕ} (w : DotDims.WF ⟨2, ![m, k]⟩ ⟨2, ![k, n]⟩ ⟨2, ![m, n]⟩ [1] [0] [0] [1] [] [])
    (h1 : (⟨1, ![n]⟩ : Shape).BroadcastsInDim ⟨2, ![1, n]⟩ ![1])
    (h2 : (⟨2, ![1, n]⟩ : Shape).BroadcastsInDim ⟨2, ![m, n]⟩ ![0, 1])
    (A : FVec Ideal ⟨2, ![m, k]⟩ .f32) (W : FVec Ideal ⟨2, ![k, n]⟩ .f32) (b : FVec Ideal ⟨1, ![n]⟩ .f32)
    (r : Fin m) (c : Fin n) :
    addf (Host.dotGeneral (DenseLayer.dims w) none A W)
        (broadcastInDim ⟨2, ![m, n]⟩ ![0, 1] h2 (broadcastInDim ⟨2, ![1, n]⟩ ![1] h1 b)) (ix2 r c)
      = (∑ l : Fin k, A (ix2 r l) * W (ix2 l c)) + b (ix1 c) := by
  show FloatOps.dotGeneral (DenseLayer.dims w) none .single A W (ix2 r c)
      + broadcastInDim ⟨2, ![m, n]⟩ ![0, 1] h2 (broadcastInDim ⟨2, ![1, n]⟩ ![1] h1 b) (ix2 r c) = _
  rw [DenseLayer.bias_inDim_apply, DenseLayer.dotGeneral_rows_apply]

/-- The maximum with a table of zeros is the rectifier, entry by entry. -/
theorem relu_apply {s : Shape} (hz : S0.BroadcastsInDim s ![]) (Y : FVec Ideal s .f32) (i : s.Idx) :
    maximumf Y (broadcastInDim s ![] hz (constant S0 .f32 0x00000000#32)) i = relu (Y i) := by
  show max (Y i) (broadcastInDim s ![] hz (constant S0 .f32 0x00000000#32) i) = max (Y i) 0
  rw [broadcastInDim_scalar_apply]
  show max (Y i) (Ideal.ofBits .f32 0x00000000#32) = _
  rw [Ideal.ofBits_zero_f32]

/-! ## The layer -/

section LayerDef
variable {d o : ℕ}
  (hs0 : SEdge.Slices ![0, 0] S1E) (hs1 : SEdge.Slices ![1, 0] S1E) (hc : S1E.ShapeCasts SV)
  (hb0 : S0.BroadcastsInDim SV ![]) (hbc : SV.BroadcastsInDim SC ![0])
  (wg : GatherDims.WF ⟨2, ![10000, d]⟩ SC ⟨2, ![320000, d]⟩ [1] [0] [] [0] [] 1 ![1, d])
  (hcc : Shape.Concatenates [(⟨2, ![320000, d]⟩ : Shape), ⟨2, ![320000, d]⟩] ⟨2, ![320000, d + d]⟩ 1)
  (wd0 : DotDims.WF ⟨2, ![320000, d + d]⟩ ⟨2, ![d + d, 128]⟩ ⟨2, ![320000, 128]⟩ [1] [0] [0] [1] [] [])
  (wd1 : DotDims.WF ⟨2, ![320000, 128]⟩ ⟨2, ![128, 128]⟩ ⟨2, ![320000, 128]⟩ [1] [0] [0] [1] [] [])
  (wd2 : DotDims.WF ⟨2, ![320000, 128]⟩ ⟨2, ![128, o]⟩ ⟨2, ![320000, o]⟩ [1] [0] [0] [1] [] [])
  (hh1 : (⟨1, ![128]⟩ : Shape).BroadcastsInDim ⟨2, ![1, 128]⟩ ![1])
  (hh2 : (⟨2, ![1, 128]⟩ : Shape).BroadcastsInDim ⟨2, ![320000, 128]⟩ ![0, 1])
  (ho1 : (⟨1, ![o]⟩ : Shape).BroadcastsInDim ⟨2, ![1, o]⟩ ![1])
  (ho2 : (⟨2, ![1, o]⟩ : Shape).BroadcastsInDim ⟨2, ![320000, o]⟩ ![0, 1])
  (hzh : S0.BroadcastsInDim ⟨2, ![320000, 128]⟩ ![])
  (hzo : S0.BroadcastsInDim ⟨2, ![10000, o]⟩ ![])
  (ws : ScatterDims.WF ⟨2, ![10000, o]⟩ SC ⟨2, ![320000, o]⟩ [1] [0] [0] 1)

/-- The table's rows at the wrapped row `off 0` of the edge list. -/
def gathered (off : Fin 2 → ℕ) (hs : SEdge.Slices off S1E) (x : FVec Ideal ⟨2, ![10000, d]⟩ .f32) (ei : IVec SEdge 32) :
    FVec Ideal ⟨2, ![320000, d]⟩ .f32 :=
  Host.gather (GatherRows.rowDims 10000 320000 d wg) x (broadcastInDim SC ![0] hbc (wrap hb0 (edgeRow off hs hc ei)))

/-- The 320000 message rows: the perceptron on every edge's input row. -/
def messages (x : FVec Ideal ⟨2, ![10000, d]⟩ .f32) (ei : IVec SEdge 32)
    (W0 : FVec Ideal ⟨2, ![d + d, 128]⟩ .f32) (b0 : FVec Ideal ⟨1, ![128]⟩ .f32)
    (W1 : FVec Ideal ⟨2, ![128, 128]⟩ .f32) (b1 : FVec Ideal ⟨1, ![128]⟩ .f32)
    (W2 : FVec Ideal ⟨2, ![128, o]⟩ .f32) (b2 : FVec Ideal ⟨1, ![o]⟩ .f32) : FVec Ideal ⟨2, ![320000, o]⟩ .f32 :=
  addf (Host.dotGeneral (DenseLayer.dims wd2) none
      (maximumf (addf (Host.dotGeneral (DenseLayer.dims wd1) none
          (maximumf (addf (Host.dotGeneral (DenseLayer.dims wd0) none
              (concatenate ⟨2, ![320000, d + d]⟩ 1
                [⟨⟨2, ![320000, d]⟩, gathered hc hb0 hbc wg ![1, 0] hs1 x ei⟩,
                 ⟨⟨2, ![320000, d]⟩, subf (gathered hc hb0 hbc wg ![0, 0] hs0 x ei) (gathered hc hb0 hbc wg ![1, 0] hs1 x ei)⟩] hcc)
              W0)
            (broadcastInDim ⟨2, ![320000, 128]⟩ ![0, 1] hh2 (broadcastInDim ⟨2, ![1, 128]⟩ ![1] hh1 b0)))
          (broadcastInDim ⟨2, ![320000, 128]⟩ ![] hzh (constant S0 .f32 0x00000000#32)))
          W1)
        (broadcastInDim ⟨2, ![320000, 128]⟩ ![0, 1] hh2 (broadcastInDim ⟨2, ![1, 128]⟩ ![1] hh1 b1)))
      (broadcastInDim ⟨2, ![320000, 128]⟩ ![] hzh (constant S0 .f32 0x00000000#32)))
      W2)
    (broadcastInDim ⟨2, ![320000, o]⟩ ![0, 1] ho2 (broadcastInDim ⟨2, ![1, o]⟩ ![1] ho1 b2))

/-- The layer as the host program spells it: the message rows added into a zero table at the target column. -/
def layer (x : FVec Ideal ⟨2, ![10000, d]⟩ .f32) (ei : IVec SEdge 32)
    (W0 : FVec Ideal ⟨2, ![d + d, 128]⟩ .f32) (b0 : FVec Ideal ⟨1, ![128]⟩ .f32)
    (W1 : FVec Ideal ⟨2, ![128, 128]⟩ .f32) (b1 : FVec Ideal ⟨1, ![128]⟩ .f32)
    (W2 : FVec Ideal ⟨2, ![128, o]⟩ .f32) (b2 : FVec Ideal ⟨1, ![o]⟩ .f32) : FVec Ideal ⟨2, ![10000, o]⟩ .f32 :=
  Host.scatterAdd (⟨[1], [0], [0], 1, ws⟩ : ScatterDims ⟨2, ![10000, o]⟩ SC ⟨2, ![320000, o]⟩)
    (broadcastInDim ⟨2, ![10000, o]⟩ ![] hzo (constant S0 .f32 0x00000000#32))
    (broadcastInDim SC ![0] hbc (edgeRow ![1, 0] hs1 hc ei))
    (messages hs0 hs1 hc hb0 hbc wg hcc wd0 wd1 wd2 hh1 hh2 ho1 ho2 hzh x ei W0 b0 W1 b1 W2 b2)

/-- Edge `n`'s message row is the perceptron on its input row. -/
theorem messages_apply (x : FVec Ideal ⟨2, ![10000, d]⟩ .f32) (ei : IVec SEdge 32) (h : InRange ei)
    (W0 : FVec Ideal ⟨2, ![d + d, 128]⟩ .f32) (b0 : FVec Ideal ⟨1, ![128]⟩ .f32)
    (W1 : FVec Ideal ⟨2, ![128, 128]⟩ .f32) (b1 : FVec Ideal ⟨1, ![128]⟩ .f32)
    (W2 : FVec Ideal ⟨2, ![128, o]⟩ .f32) (b2 : FVec Ideal ⟨1, ![o]⟩ .f32) (n : Fin 320000) (j : Fin o) :
    messages hs0 hs1 hc hb0 hbc wg hcc wd0 wd1 wd2 hh1 hh2 ho1 ho2 hzh x ei W0 b0 W1 b1 W2 b2 (ix2 n j)
      = message (weightsOf W0 b0 W1 b1 W2 b2) (matOf x) (srcOf ei h n) (dstOf ei h n) j := by
  unfold messages message mlp weightsOf
  simp only
  rw [dense_apply]
  refine congrArg (· + rowOf b2 j) (Finset.sum_congr rfl fun k2 _ => congrArg (· * matOf W2 k2 j) ?_)
  rw [relu_apply, dense_apply]
  refine congrArg relu (congrArg (· + rowOf b1 k2) (Finset.sum_congr rfl fun k1 _ => congrArg (· * matOf W1 k1 k2) ?_))
  rw [relu_apply, dense_apply]
  refine congrArg relu (congrArg (· + rowOf b0 k1) (Finset.sum_congr rfl fun k0 _ => congrArg (· * matOf W0 k0 k1) ?_))
  exact feats_apply hcc _ _ _ _ n
    (fun p => gather_node ![1, 0] hs1 hc hb0 hbc wg x ei h 1 rfl rfl n p)
    (fun p => gather_node ![0, 0] hs0 hc hb0 hbc wg x ei h 0 rfl rfl n p) k0

/-- THE LAYER READ AT `(v, j)`: `Spec.edgeConv` of the table, the two columns of node numbers and the six arrays. -/
theorem layer_apply (x : FVec Ideal ⟨2, ![10000, d]⟩ .f32) (ei : IVec SEdge 32) (h : InRange ei)
    (W0 : FVec Ideal ⟨2, ![d + d, 128]⟩ .f32) (b0 : FVec Ideal ⟨1, ![128]⟩ .f32)
    (W1 : FVec Ideal ⟨2, ![128, 128]⟩ .f32) (b1 : FVec Ideal ⟨1, ![128]⟩ .f32)
    (W2 : FVec Ideal ⟨2, ![128, o]⟩ .f32) (b2 : FVec Ideal ⟨1, ![o]⟩ .f32) (v : Fin 10000) (j : Fin o) :
    layer hs0 hs1 hc hb0 hbc wg hcc wd0 wd1 wd2 hh1 hh2 ho1 ho2 hzh hzo ws x ei W0 b0 W1 b1 W2 b2 (ix2 v j)
      = edgeConv (weightsOf W0 b0 W1 b1 W2 b2) (matOf x) (srcOf ei h) (dstOf ei h) v j := by
  unfold layer edgeConv
  show Ideal.hostScatterAdd _ _ _ _ (ix2 v j) = _
  rw [ScatterAddRows.scatterAdd_rows_apply, broadcastInDim_scalar_apply]
  have hz : (constant S0 .f32 0x00000000#32 : FVec Ideal S0 .f32) ix0 = 0 := by
    show Ideal.ofBits .f32 0x00000000#32 = 0
    exact Ideal.ofBits_zero_f32
  rw [hz, zero_add]
  refine Finset.sum_congr rfl fun n _ => ?_
  have hcol : broadcastInDim SC ![0] hbc (edgeRow ![1, 0] hs1 hc ei) (ix2 n (0 : Fin 1)) = ei (ix2 1 n) := by
    rw [col_apply, edgeRow_apply ![1, 0] hs1 hc ei 1 rfl rfl]
  rw [hcol, messages_apply hs0 hs1 hc hb0 hbc wg hcc wd0 wd1 wd2 hh1 hh2 ho1 ho2 hzh x ei h]
  have hv : (((dstOf ei h n).val : ℕ) : ℤ) = (ei (ix2 1 n)).toInt := nodeOf_val ei h 1 n
  refine if_congr ?_ rfl rfl
  rw [← hv]
  constructor
  · intro e
    exact Fin.ext (by exact_mod_cast e)
  · intro e
    rw [e]

/-- The layer's result as a matrix is `Spec.edgeConv` of the table as a matrix. -/
theorem layer_mat (x : FVec Ideal ⟨2, ![10000, d]⟩ .f32) (ei : IVec SEdge 32) (h : InRange ei)
    (W0 : FVec Ideal ⟨2, ![d + d, 128]⟩ .f32) (b0 : FVec Ideal ⟨1, ![128]⟩ .f32)
    (W1 : FVec Ideal ⟨2, ![128, 128]⟩ .f32) (b1 : FVec Ideal ⟨1, ![128]⟩ .f32)
    (W2 : FVec Ideal ⟨2, ![128, o]⟩ .f32) (b2 : FVec Ideal ⟨1, ![o]⟩ .f32) :
    matOf (layer hs0 hs1 hc hb0 hbc wg hcc wd0 wd1 wd2 hh1 hh2 ho1 ho2 hzh hzo ws x ei W0 b0 W1 b1 W2 b2)
      = edgeConv (weightsOf W0 b0 W1 b1 W2 b2) (matOf x) (srcOf ei h) (dstOf ei h) :=
  funext fun v => funext fun j =>
    layer_apply hs0 hs1 hc hb0 hbc wg hcc wd0 wd1 wd2 hh1 hh2 ho1 ho2 hzh hzo ws x ei h W0 b0 W1 b1 W2 b2 v j

end LayerDef

end Cert.ReferenceIdeal.RefValue

end
-- ==== Proof.RefRun.lean ====
import proofs.«414286_j65627100283289_3_alg».proof.Proof.RefRunOps
import proofs.«414286_j65627100283289_3_alg».proof.Proof.RefLayer
import Idealize.ShloMosaic.Lib.Pipeline.Frame

/-!
# The host program's run, layer by layer

The host program is a straight line of 172 operations, 46 + 42 + 42 + 42: one stretch per layer. Over ANY contents
of the buffers, a stretch's operations leave in its last buffer the layer's term `layerV` of the contents of the
buffers the stretch reads (the previous layer's result, the edge list's two flattened rows, six parameter arrays) and
leave every buffer they do not write as it was. Folding the four stretches one after the other, the program leaves
`hval` — four layers in a row — of the argument buffers' contents in its result buffer and the arguments unchanged;
and every weakly fair execution of the program ends in such a state.
-/

noncomputable section

namespace Cert.ReferenceIdeal.HandRun

open Cert.ReferenceIdeal Cert.ReferenceIdeal.Gen Idealize.ShloMosaic Idealize.ShloMosaic.TcCoe Idealize.SL.Sem
  Idealize.ShloMosaic.StableHlo Cert.ReferenceIdeal.RefValue Cert.Spec

variable {F : FTy → Type} [FloatOps F]

/-! ## The layer at any float values, over given rows of the edge list -/

section LayerV
variable {d o : ℕ}
  (hb0 : S0.BroadcastsInDim SV ![]) (hbc : SV.BroadcastsInDim SC ![0])
  (wg : GatherDims.WF ⟨2, ![10000, d]⟩ SC ⟨2, ![320000, d]⟩ [1] [0] [] [0] [] 1 ![1, d])
  (hcc : Shape.Concatenates [(⟨2, ![320000, d]⟩ : Shape), ⟨2, ![320000, d]⟩] ⟨2, ![320000, d + d]⟩ 1)
  (wd0 : DotDims.WF ⟨2, ![320000, d + d]⟩ ⟨2, ![d + d, 128]⟩ ⟨2, ![320000, 128]⟩ [1] [0] [0] [1] [] [])
  (wd1 : DotDims.WF ⟨2, ![320000, 128]⟩ ⟨2, ![128, 128]⟩ ⟨2, ![320000, 128]⟩ [1] [0] [0] [1] [] [])
  (wd2 : DotDims.WF ⟨2, ![320000, 128]⟩ ⟨2, ![128, o]⟩ ⟨2, ![320000, o]⟩ [1] [0] [0] [1] [] [])
  (hh1 : (⟨1, ![128]⟩ : Shape).BroadcastsInDim ⟨2, ![1, 128]⟩ ![1])
  (hh2 : (⟨2, ![1, 128]⟩ : Shape).BroadcastsInDim ⟨2, ![320000, 128]⟩ ![0, 1])
  (ho1 : (⟨1, ![o]⟩ : Shape).BroadcastsInDim ⟨2, ![1, o]⟩ ![1])
  (ho2 : (⟨2, ![1, o]⟩ : Shape).BroadcastsInDim ⟨2, ![320000, o]⟩ ![0, 1])
  (hzh : S0.BroadcastsInDim ⟨2, ![320000, 128]⟩ ![])
  (hzo : S0.BroadcastsInDim ⟨2, ![10000, o]⟩ ![])
  (ws : ScatterDims.WF ⟨2, ![10000, o]⟩ SC ⟨2, ![320000, o]⟩ [1] [0] [0] 1)

/-- The table's rows at the wrapped words of a row of the edge list. -/
def gatheredV (x : FVec F ⟨2, ![10000, d]⟩ .f32) (row : IVec SV 32) : FVec F ⟨2, ![320000, d]⟩ .f32 :=
  Host.gather (GatherRows.rowDims 10000 320000 d wg) x (broadcastInDim SC ![0] hbc (wrap hb0 row))

/-- One layer of the host program over the sources' row `srow` and the targets' row `drow`, operation for operation. -/
def layerV (x : FVec F ⟨2, ![10000, d]⟩ .f32) (srow drow : IVec SV 32)
    (W0 : FVec F ⟨2, ![d + d, 128]⟩ .f32) (b0 : FVec F ⟨1, ![128]⟩ .f32)
    (W1 : FVec F ⟨2, ![128, 128]⟩ .f32) (b1 : FVec F ⟨1, ![128]⟩ .f32)
    (W2 : FVec F ⟨2, ![128, o]⟩ .f32) (b2 : FVec F ⟨1, ![o]⟩ .f32) : FVec F ⟨2, ![10000, o]⟩ .f32 :=
  Host.scatterAdd (⟨[1], [0], [0], 1, ws⟩ : ScatterDims ⟨2, ![10000, o]⟩ SC ⟨2, ![320000, o]⟩)
    (broadcastInDim ⟨2, ![10000, o]⟩ ![] hzo (constant S0 .f32 0x00000000#32))
    (broadcastInDim SC ![0] hbc drow)
    (addf (Host.dotGeneral (DenseLayer.dims wd2) none
        (maximumf (addf (Host.dotGeneral (DenseLayer.dims wd1) none
            (maximumf (addf (Host.dotGeneral (DenseLayer.dims wd0) none
                (concatenate ⟨2, ![320000, d + d]⟩ 1
                  [⟨⟨2, ![320000, d]⟩, gatheredV hb0 hbc wg x drow⟩,
                   ⟨⟨2, ![320000, d]⟩, subf (gatheredV hb0 hbc wg x srow) (gatheredV hb0 hbc wg x drow)⟩] hcc)
                W0)
              (broadcastInDim ⟨2, ![320000, 128]⟩ ![0, 1] hh2 (broadcastInDim ⟨2, ![1, 128]⟩ ![1] hh1 b0)))
            (broadcastInDim ⟨2, ![320000, 128]⟩ ![] hzh (constant S0 .f32 0x00000000#32)))
            W1)
          (broadcastInDim ⟨2, ![320000, 128]⟩ ![0, 1] hh2 (broadcastInDim ⟨2, ![1, 128]⟩ ![1] hh1 b1)))
        (broadcastInDim ⟨2, ![320000, 128]⟩ ![] hzh (constant S0 .f32 0x00000000#32)))
        W2)
      (broadcastInDim ⟨2, ![320000, o]⟩ ![0, 1] ho2 (broadcastInDim ⟨2, ![1, o]⟩ ![1] ho1 b2)))

/-- At the ideal values and over the edge list's two rows this is `layer`. -/
theorem layer_eq_layerV (hs0 : SEdge.Slices ![0, 0] S1E) (hs1 : SEdge.Slices ![1, 0] S1E) (hc : S1E.ShapeCasts SV)
    (x : FVec Ideal ⟨2, ![10000, d]⟩ .f32) (ei : IVec SEdge 32)
    (W0 : FVec Ideal ⟨2, ![d + d, 128]⟩ .f32) (b0 : FVec Ideal ⟨1, ![128]⟩ .f32)
    (W1 : FVec Ideal ⟨2, ![128, 128]⟩ .f32) (b1 : FVec Ideal ⟨1, ![128]⟩ .f32)
    (W2 : FVec Ideal ⟨2, ![128, o]⟩ .f32) (b2 : FVec Ideal ⟨1, ![o]⟩ .f32) :
    layer hs0 hs1 hc hb0 hbc wg hcc wd0 wd1 wd2 hh1 hh2 ho1 ho2 hzh hzo ws x ei W0 b0 W1 b1 W2 b2
      = layerV (F := Ideal) hb0 hbc wg hcc wd0 wd1 wd2 hh1 hh2 ho1 ho2 hzh hzo ws x
          (edgeRow ![0, 0] hs0 hc ei) (edgeRow ![1, 0] hs1 hc ei) W0 b0 W1 b1 W2 b2 := rfl

end LayerV

/-! ## The four chunks' results over any contents -/

section Chunks
variable (V : Valuation τ sig (Elt F))

/-- After layer 0's operations the sources' row is the edge list's row 0, flattened. -/
theorem c0_v1 : after ops0 V (Proc.devRef .tc main_v1) = edgeRow ![0, 0] slices_S2x320000_S1x320000_0_0 shapeCasts_S1x320000_S320000 (V (Proc.devRef .tc main_arg2)) := by
  simp only [ops0]
  after_results_simp
  rfl

/-- After layer 0's operations the targets' row is the edge list's row 1, flattened. -/
theorem c0_v3 : after ops0 V (Proc.devRef .tc main_v3) = edgeRow ![1, 0] slices_S2x320000_S1x320000_1_0 shapeCasts_S1x320000_S320000 (V (Proc.devRef .tc main_arg2)) := by
  simp only [ops0]
  after_results_simp
  rfl

set_option maxHeartbeats 4000000 in
/-- Layer 0's operations leave `layerV` of the node features, the edge list's two rows and the first six arrays. -/
theorem c0_out : after ops0 V (Proc.devRef .tc main_v36)
    = layerV (F := F) (d := 4) (o := 128) bcast_S_S320000 bcast_S320000_S320000x1_0 gather_S10000x4_S320000x1_S320000x4_1_0_n_n_0_1_14_wf concatenates_S320000x4_S320000x4_S320000x8_d1 dot_S320000x8_S8x128_S320000x128_1_0_0_1_n_n_wf dot_S320000x128_S128x128_S320000x128_1_0_0_1_n_n_wf dot_S320000x128_S128x128_S320000x128_1_0_0_1_n_n_wf bcast_S128_S1x128_1 bcast_S1x128_S320000x128_0_1 bcast_S128_S1x128_1 bcast_S1x128_S320000x128_0_1 bcast_S_S320000x128 bcast_S_S10000x128 scatter_S10000x128_S320000x1_S320000x128_1_0_0_1_wf (V (Proc.devRef .tc main_arg0)) (edgeRow ![0, 0] slices_S2x320000_S1x320000_0_0 shapeCasts_S1x320000_S320000 (V (Proc.devRef .tc main_arg2))) (edgeRow ![1, 0] slices_S2x320000_S1x320000_1_0 shapeCasts_S1x320000_S320000 (V (Proc.devRef .tc main_arg2))) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  simp only [ops0]
  after_results_simp
  rfl

set_option maxHeartbeats 4000000 in
/-- Layer 1's operations leave `layerV` of layer 0's result, the two rows and the next six arrays. -/
theorem c1_out : after ops1 V (Proc.devRef .tc main_v69)
    = layerV (F := F) (d := 128) (o := 128) bcast_S_S320000 bcast_S320000_S320000x1_0 gather_S10000x128_S320000x1_S320000x128_1_0_n_n_0_1_1128_wf concatenates_S320000x128_S320000x128_S320000x256_d1 dot_S320000x256_S256x128_S320000x128_1_0_0_1_n_n_wf dot_S320000x128_S128x128_S320000x128_1_0_0_1_n_n_wf dot_S320000x128_S128x128_S320000x128_1_0_0_1_n_n_wf bcast_S128_S1x128_1 bcast_S1x128_S320000x128_0_1 bcast_S128_S1x128_1 bcast_S1x128_S320000x128_0_1 bcast_S_S320000x128 bcast_S_S10000x128 scatter_S10000x128_S320000x1_S320000x128_1_0_0_1_wf (V (Proc.devRef .tc main_v36)) (V (Proc.devRef .tc main_v1)) (V (Proc.devRef .tc main_v3)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  simp only [ops1]
  after_results_simp
  rfl

set_option maxHeartbeats 4000000 in
/-- Layer 2's operations leave `layerV` of layer 1's result, the two rows and the next six arrays. -/
theorem c2_out : after ops2 V (Proc.devRef .tc main_v102)
    = layerV (F := F) (d := 128) (o := 128) bcast_S_S320000 bcast_S320000_S320000x1_0 gather_S10000x128_S320000x1_S320000x128_1_0_n_n_0_1_1128_wf concatenates_S320000x128_S320000x128_S320000x256_d1 dot_S320000x256_S256x128_S320000x128_1_0_0_1_n_n_wf dot_S320000x128_S128x128_S320000x128_1_0_0_1_n_n_wf dot_S320000x128_S128x128_S320000x128_1_0_0_1_n_n_wf bcast_S128_S1x128_1 bcast_S1x128_S320000x128_0_1 bcast_S128_S1x128_1 bcast_S1x128_S320000x128_0_1 bcast_S_S320000x128 bcast_S_S10000x128 scatter_S10000x128_S320000x1_S320000x128_1_0_0_1_wf (V (Proc.devRef .tc main_v69)) (V (Proc.devRef .tc main_v1)) (V (Proc.devRef .tc main_v3)) (V (Proc.devRef .tc main_arg16)) (V (Proc.devRef .tc main_arg17)) (V (Proc.devRef .tc main_arg18)) (V (Proc.devRef .tc main_arg19)) (V (Proc.devRef .tc main_arg20)) (V (Proc.devRef .tc main_arg21)) := by
  simp only [ops2]
  after_results_simp
  rfl

set_option maxHeartbeats 4000000 in
/-- Layer 3's operations leave `layerV` of layer 2's result, the two rows and the last six arrays. -/
theorem c3_out : after ops3 V (Proc.devRef .tc main_v135)
    = layerV (F := F) (d := 128) (o := 16) bcast_S_S320000 bcast_S320000_S320000x1_0 gather_S10000x128_S320000x1_S320000x128_1_0_n_n_0_1_1128_wf concatenates_S320000x128_S320000x128_S320000x256_d1 dot_S320000x256_S256x128_S320000x128_1_0_0_1_n_n_wf dot_S320000x128_S128x128_S320000x128_1_0_0_1_n_n_wf dot_S320000x128_S128x16_S320000x16_1_0_0_1_n_n_wf bcast_S128_S1x128_1 bcast_S1x128_S320000x128_0_1 bcast_S16_S1x16_1 bcast_S1x16_S320000x16_0_1 bcast_S_S320000x128 bcast_S_S10000x16 scatter_S10000x16_S320000x1_S320000x16_1_0_0_1_wf (V (Proc.devRef .tc main_v102)) (V (Proc.devRef .tc main_v1)) (V (Proc.devRef .tc main_v3)) (V (Proc.devRef .tc main_arg22)) (V (Proc.devRef .tc main_arg23)) (V (Proc.devRef .tc main_arg24)) (V (Proc.devRef .tc main_arg25)) (V (Proc.devRef .tc main_arg26)) (V (Proc.devRef .tc main_arg27)) := by
  simp only [ops3]
  after_results_simp
  rfl

/-- A buffer a chunk does not write keeps its contents through it. -/
theorem keep0 (r : Ref sig .tc) (h : r ∉ ops0_W) : after ops0 V (Proc.devRef .tc r) = V (Proc.devRef .tc r) :=
  after_of_writes_sub ops0 V ops0_writes h
theorem keep1 (r : Ref sig .tc) (h : r ∉ ops1_W) : after ops1 V (Proc.devRef .tc r) = V (Proc.devRef .tc r) :=
  after_of_writes_sub ops1 V ops1_writes h
theorem keep2 (r : Ref sig .tc) (h : r ∉ ops2_W) : after ops2 V (Proc.devRef .tc r) = V (Proc.devRef .tc r) :=
  after_of_writes_sub ops2 V ops2_writes h
theorem keep3 (r : Ref sig .tc) (h : r ∉ ops3_W) : after ops3 V (Proc.devRef .tc r) = V (Proc.devRef .tc r) :=
  after_of_writes_sub ops3 V ops3_writes h

/-- A buffer no operation writes keeps its contents through the whole program. -/
theorem keep_all (r : Ref sig .tc) (h0 : r ∉ ops0_W) (h1 : r ∉ ops1_W) (h2 : r ∉ ops2_W) (h3 : r ∉ ops3_W) :
    after ops V (Proc.devRef .tc r) = V (Proc.devRef .tc r) := by
  simp only [ops, StableHlo.after_append]
  rw [keep3 _ r h3, keep2 _ r h2, keep1 _ r h1, keep0 _ r h0]

end Chunks

/-! ## The program's result as a function of its argument arrays -/

/-- Four layers in a row over the edge list's two rows: what the host program leaves in its result buffer. -/
def hval (x0 : (⟨S10000x4, .f32⟩ : BufTy).Contents (Elt F)) (x2 : (⟨S2x320000, .i32⟩ : BufTy).Contents (Elt F)) (x4 : (⟨S8x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S256x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) (x14 : (⟨S128x128, .f32⟩ : BufTy).Contents (Elt F)) (x15 : (⟨S128, .f32⟩ : BufTy).Contents (Elt F)) (x16 : (⟨S256x128, .f32⟩ : BufTy).Contents (Elt F)) (x17 : (⟨S128, .f32⟩ : BufTy).Contents (Elt F)) (x18 : (⟨S128x128, .f32⟩ : BufTy).Contents (Elt F)) (x19 : (⟨S128, .f32⟩ : BufTy).Contents (Elt F)) (x20 : (⟨S128x128, .f32⟩ : BufTy).Contents (Elt F)) (x21 : (⟨S128, .f32⟩ : BufTy).Contents (Elt F)) (x22 : (⟨S256x128, .f32⟩ : BufTy).Contents (Elt F)) (x23 : (⟨S128, .f32⟩ : BufTy).Contents (Elt F)) (x24 : (⟨S128x128, .f32⟩ : BufTy).Contents (Elt F)) (x25 : (⟨S128, .f32⟩ : BufTy).Contents (Elt F)) (x26 : (⟨S128x16, .f32⟩ : BufTy).Contents (Elt F)) (x27 : (⟨S16, .f32⟩ : BufTy).Contents (Elt F)) : (⟨S10000x16, .f32⟩ : BufTy).Contents (Elt F) :=
  layerV (d := 128) (o := 16) bcast_S_S320000 bcast_S320000_S320000x1_0 gather_S10000x128_S320000x1_S320000x128_1_0_n_n_0_1_1128_wf concatenates_S320000x128_S320000x128_S320000x256_d1 dot_S320000x256_S256x128_S320000x128_1_0_0_1_n_n_wf dot_S320000x128_S128x128_S320000x128_1_0_0_1_n_n_wf dot_S320000x128_S128x16_S320000x16_1_0_0_1_n_n_wf bcast_S128_S1x128_1 bcast_S1x128_S320000x128_0_1 bcast_S16_S1x16_1 bcast_S1x16_S320000x16_0_1 bcast_S_S320000x128 bcast_S_S10000x16 scatter_S10000x16_S320000x1_S320000x16_1_0_0_1_wf
    (layerV (d := 128) (o := 128) bcast_S_S320000 bcast_S320000_S320000x1_0 gather_S10000x128_S320000x1_S320000x128_1_0_n_n_0_1_1128_wf concatenates_S320000x128_S320000x128_S320000x256_d1 dot_S320000x256_S256x128_S320000x128_1_0_0_1_n_n_wf dot_S320000x128_S128x128_S320000x128_1_0_0_1_n_n_wf dot_S320000x128_S128x128_S320000x128_1_0_0_1_n_n_wf bcast_S128_S1x128_1 bcast_S1x128_S320000x128_0_1 bcast_S128_S1x128_1 bcast_S1x128_S320000x128_0_1 bcast_S_S320000x128 bcast_S_S10000x128 scatter_S10000x128_S320000x1_S320000x128_1_0_0_1_wf
      (layerV (d := 128) (o := 128) bcast_S_S320000 bcast_S320000_S320000x1_0 gather_S10000x128_S320000x1_S320000x128_1_0_n_n_0_1_1128_wf concatenates_S320000x128_S320000x128_S320000x256_d1 dot_S320000x256_S256x128_S320000x128_1_0_0_1_n_n_wf dot_S320000x128_S128x128_S320000x128_1_0_0_1_n_n_wf dot_S320000x128_S128x128_S320000x128_1_0_0_1_n_n_wf bcast_S128_S1x128_1 bcast_S1x128_S320000x128_0_1 bcast_S128_S1x128_1 bcast_S1x128_S320000x128_0_1 bcast_S_S320000x128 bcast_S_S10000x128 scatter_S10000x128_S320000x1_S320000x128_1_0_0_1_wf
        (layerV (d := 4) (o := 128) bcast_S_S320000 bcast_S320000_S320000x1_0 gather_S10000x4_S320000x1_S320000x4_1_0_n_n_0_1_14_wf concatenates_S320000x4_S320000x4_S320000x8_d1 dot_S320000x8_S8x128_S320000x128_1_0_0_1_n_n_wf dot_S320000x128_S128x128_S320000x128_1_0_0_1_n_n_wf dot_S320000x128_S128x128_S320000x128_1_0_0_1_n_n_wf bcast_S128_S1x128_1 bcast_S1x128_S320000x128_0_1 bcast_S128_S1x128_1 bcast_S1x128_S320000x128_0_1 bcast_S_S320000x128 bcast_S_S10000x128 scatter_S10000x128_S320000x1_S320000x128_1_0_0_1_wf x0 (edgeRow ![0, 0] slices_S2x320000_S1x320000_0_0 shapeCasts_S1x320000_S320000 x2) (edgeRow ![1, 0] slices_S2x320000_S1x320000_1_0 shapeCasts_S1x320000_S320000 x2) x4 x5 x6 x7 x8 x9)
        (edgeRow ![0, 0] slices_S2x320000_S1x320000_0_0 shapeCasts_S1x320000_S320000 x2) (edgeRow ![1, 0] slices_S2x320000_S1x320000_1_0 shapeCasts_S1x320000_S320000 x2) x10 x11 x12 x13 x14 x15)
      (edgeRow ![0, 0] slices_S2x320000_S1x320000_0_0 shapeCasts_S1x320000_S320000 x2) (edgeRow ![1, 0] slices_S2x320000_S1x320000_1_0 shapeCasts_S1x320000_S320000 x2) x16 x17 x18 x19 x20 x21)
    (edgeRow ![0, 0] slices_S2x320000_S1x320000_0_0 shapeCasts_S1x320000_S320000 x2) (edgeRow ![1, 0] slices_S2x320000_S1x320000_1_0 shapeCasts_S1x320000_S320000 x2) x22 x23 x24 x25 x26 x27

/-- The whole program's operations leave `hval` of the argument buffers' contents in the result buffer. -/
theorem after_ops_out (V : Valuation τ sig (Elt F)) : after ops V (Proc.devRef .tc main_v135)
    = hval (F := F) (V (Proc.devRef .tc main_arg0)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27)) := by
  simp only [ops, StableHlo.after_append]
  rw [c3_out]
  rw [c2_out, keep2 _ main_v1 (by decide), keep2 _ main_v3 (by decide), keep2 _ main_arg22 (by decide), keep2 _ main_arg23 (by decide), keep2 _ main_arg24 (by decide), keep2 _ main_arg25 (by decide), keep2 _ main_arg26 (by decide), keep2 _ main_arg27 (by decide)]
  rw [c1_out, keep1 _ main_v1 (by decide), keep1 _ main_v3 (by decide), keep1 _ main_arg16 (by decide), keep1 _ main_arg17 (by decide), keep1 _ main_arg18 (by decide), keep1 _ main_arg19 (by decide), keep1 _ main_arg20 (by decide), keep1 _ main_arg21 (by decide), keep1 _ main_arg22 (by decide), keep1 _ main_arg23 (by decide), keep1 _ main_arg24 (by decide), keep1 _ main_arg25 (by decide), keep1 _ main_arg26 (by decide), keep1 _ main_arg27 (by decide)]
  rw [c0_out, c0_v1, c0_v3, keep0 _ main_arg10 (by decide), keep0 _ main_arg11 (by decide), keep0 _ main_arg12 (by decide), keep0 _ main_arg13 (by decide), keep0 _ main_arg14 (by decide), keep0 _ main_arg15 (by decide), keep0 _ main_arg16 (by decide), keep0 _ main_arg17 (by decide), keep0 _ main_arg18 (by decide), keep0 _ main_arg19 (by decide), keep0 _ main_arg20 (by decide), keep0 _ main_arg21 (by decide), keep0 _ main_arg22 (by decide), keep0 _ main_arg23 (by decide), keep0 _ main_arg24 (by decide), keep0 _ main_arg25 (by decide), keep0 _ main_arg26 (by decide), keep0 _ main_arg27 (by decide)]
  rfl

/-- The program's result term of a memory: `hval` of the argument buffers' contents on device `c`. -/
def hres (m : (ℓ : Loc nD τ sig) → Buf (Elt F) ℓ) (c : Dev nD) : Buf (Elt F) ((c.tc : Thread nD τ).loc main_v135) :=
  hval (F := F) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))

/-! ## The run -/

/-- On every device, for any float values, from any memory with zero counters: every weakly fair execution of
    @main terminates with the result buffer at `hres` (`hval` of the arguments' launch contents) and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v135) = hres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run defs _ _).mono (fun _ h c => ⟨(h c main_v135).trans (after_ops_out (launchContents m c)),
      (h c main_arg0).trans (keep_all (launchContents m c) main_arg0 (by decide) (by decide) (by decide) (by decide)),
      (h c main_arg1).trans (keep_all (launchContents m c) main_arg1 (by decide) (by decide) (by decide) (by decide)),
      (h c main_arg2).trans (keep_all (launchContents m c) main_arg2 (by decide) (by decide) (by decide) (by decide)),
      (h c main_arg3).trans (keep_all (launchContents m c) main_arg3 (by decide) (by decide) (by decide) (by decide)),
      (h c main_arg4).trans (keep_all (launchContents m c) main_arg4 (by decide) (by decide) (by decide) (by decide)),
      (h c main_arg5).trans (keep_all (launchContents m c) main_arg5 (by decide) (by decide) (by decide) (by decide)),
      (h c main_arg6).trans (keep_all (launchContents m c) main_arg6 (by decide) (by decide) (by decide) (by decide)),
      (h c main_arg7).trans (keep_all (launchContents m c) main_arg7 (by decide) (by decide) (by decide) (by decide)),
      (h c main_arg8).trans (keep_all (launchContents m c) main_arg8 (by decide) (by decide) (by decide) (by decide)),
      (h c main_arg9).trans (keep_all (launchContents m c) main_arg9 (by decide) (by decide) (by decide) (by decide)),
      (h c main_arg10).trans (keep_all (launchContents m c) main_arg10 (by decide) (by decide) (by decide) (by decide)),
      (h c main_arg11).trans (keep_all (launchContents m c) main_arg11 (by decide) (by decide) (by decide) (by decide)),
      (h c main_arg12).trans (keep_all (launchContents m c) main_arg12 (by decide) (by decide) (by decide) (by decide)),
      (h c main_arg13).trans (keep_all (launchContents m c) main_arg13 (by decide) (by decide) (by decide) (by decide)),
      (h c main_arg14).trans (keep_all (launchContents m c) main_arg14 (by decide) (by decide) (by decide) (by decide)),
      (h c main_arg15).trans (keep_all (launchContents m c) main_arg15 (by decide) (by decide) (by decide) (by decide)),
      (h c main_arg16).trans (keep_all (launchContents m c) main_arg16 (by decide) (by decide) (by decide) (by decide)),
      (h c main_arg17).trans (keep_all (launchContents m c) main_arg17 (by decide) (by decide) (by decide) (by decide)),
      (h c main_arg18).trans (keep_all (launchContents m c) main_arg18 (by decide) (by decide) (by decide) (by decide)),
      (h c main_arg19).trans (keep_all (launchContents m c) main_arg19 (by decide) (by decide) (by decide) (by decide)),
      (h c main_arg20).trans (keep_all (launchContents m c) main_arg20 (by decide) (by decide) (by decide) (by decide)),
      (h c main_arg21).trans (keep_all (launchContents m c) main_arg21 (by decide) (by decide) (by decide) (by decide)),
      (h c main_arg22).trans (keep_all (launchContents m c) main_arg22 (by decide) (by decide) (by decide) (by decide)),
      (h c main_arg23).trans (keep_all (launchContents m c) main_arg23 (by decide) (by decide) (by decide) (by decide)),
      (h c main_arg24).trans (keep_all (launchContents m c) main_arg24 (by decide) (by decide) (by decide) (by decide)),
      (h c main_arg25).trans (keep_all (launchContents m c) main_arg25 (by decide) (by decide) (by decide) (by decide)),
      (h c main_arg26).trans (keep_all (launchContents m c) main_arg26 (by decide) (by decide) (by decide) (by decide)),
      (h c main_arg27).trans (keep_all (launchContents m c) main_arg27 (by decide) (by decide) (by decide) (by decide))⟩)
    (run_seq scopedRefs_eq scopedSems_eq defs main (fun _ => ops) main_eq (fun _ => ops_sub) m ρ (fun _ => ops_fresh))

end Cert.ReferenceIdeal.HandRun

end
-- ==== Proof.RefValueH.lean ====
import proofs.«414286_j65627100283289_3_alg».proof.Proof.RefRun

/-!
# The host program computes the network

The host program leaves `hval` of its argument arrays in its result buffer: four layers in a row over the edge list's
two flattened rows. At the ideal values each of the four is the layer of `RefLayer` at its widths (4 → 128, 128 → 128
twice, 128 → 16) applied to the one before, and a layer read as a matrix is `Spec.edgeConv` of its input as a matrix:
so `hval` is `Spec.net` of the node features, the two columns of node numbers and the 24 parameter arrays.
-/

noncomputable section

namespace Cert.ReferenceIdeal.HandRun

open Cert.ReferenceIdeal Cert.ReferenceIdeal.Gen Idealize.ShloMosaic Idealize.ShloMosaic.TcCoe Idealize.SL.Sem
  Idealize.ShloMosaic.StableHlo Cert.ReferenceIdeal.RefValue Cert.Spec

/-- At the ideal values the program's result is four layers of `RefLayer` in a row. -/
theorem hval_eq_layers (x0 : (⟨S10000x4, .f32⟩ : BufTy).Contents (Elt Ideal)) (x2 : (⟨S2x320000, .i32⟩ : BufTy).Contents (Elt Ideal)) (x4 : (⟨S8x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S256x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S256x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) (x20 : (⟨S128x128, .f32⟩ : BufTy).Contents (Elt Ideal)) (x21 : (⟨S128, .f32⟩ : BufTy).Contents (Elt Ideal)) (x22 : (⟨S256x128, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal)) (x26 : (⟨S128x16, .f32⟩ : BufTy).Contents (Elt Ideal)) (x27 : (⟨S16, .f32⟩ : BufTy).Contents (Elt Ideal)) :
    hval (F := Ideal) x0 x2 x4 x5 x6 x7 x8 x9 x10 x11 x12 x13 x14 x15 x16 x17 x18 x19 x20 x21 x22 x23 x24 x25 x26 x27
      = layer (d := 128) (o := 16) slices_S2x320000_S1x320000_0_0 slices_S2x320000_S1x320000_1_0 shapeCasts_S1x320000_S320000 bcast_S_S320000 bcast_S320000_S320000x1_0 gather_S10000x128_S320000x1_S320000x128_1_0_n_n_0_1_1128_wf concatenates_S320000x128_S320000x128_S320000x256_d1 dot_S320000x256_S256x128_S320000x128_1_0_0_1_n_n_wf dot_S320000x128_S128x128_S320000x128_1_0_0_1_n_n_wf dot_S320000x128_S128x16_S320000x16_1_0_0_1_n_n_wf bcast_S128_S1x128_1 bcast_S1x128_S320000x128_0_1 bcast_S16_S1x16_1 bcast_S1x16_S320000x16_0_1 bcast_S_S320000x128 bcast_S_S10000x16 scatter_S10000x16_S320000x1_S320000x16_1_0_0_1_wf
        (layer (d := 128) (o := 128) slices_S2x320000_S1x320000_0_0 slices_S2x320000_S1x320000_1_0 shapeCasts_S1x320000_S320000 bcast_S_S320000 bcast_S320000_S320000x1_0 gather_S10000x128_S320000x1_S320000x128_1_0_n_n_0_1_1128_wf concatenates_S320000x128_S320000x128_S320000x256_d1 dot_S320000x256_S256x128_S320000x128_1_0_0_1_n_n_wf dot_S320000x128_S128x128_S320000x128_1_0_0_1_n_n_wf dot_S320000x128_S128x128_S320000x128_1_0_0_1_n_n_wf bcast_S128_S1x128_1 bcast_S1x128_S320000x128_0_1 bcast_S128_S1x128_1 bcast_S1x128_S320000x128_0_1 bcast_S_S320000x128 bcast_S_S10000x128 scatter_S10000x128_S320000x1_S320000x128_1_0_0_1_wf
          (layer (d := 128) (o := 128) slices_S2x320000_S1x320000_0_0 slices_S2x320000_S1x320000_1_0 shapeCasts_S1x320000_S320000 bcast_S_S320000 bcast_S320000_S320000x1_0 gather_S10000x128_S320000x1_S320000x128_1_0_n_n_0_1_1128_wf concatenates_S320000x128_S320000x128_S320000x256_d1 dot_S320000x256_S256x128_S320000x128_1_0_0_1_n_n_wf dot_S320000x128_S128x128_S320000x128_1_0_0_1_n_n_wf dot_S320000x128_S128x128_S320000x128_1_0_0_1_n_n_wf bcast_S128_S1x128_1 bcast_S1x128_S320000x128_0_1 bcast_S128_S1x128_1 bcast_S1x128_S320000x128_0_1 bcast_S_S320000x128 bcast_S_S10000x128 scatter_S10000x128_S320000x1_S320000x128_1_0_0_1_wf
            (layer (d := 4) (o := 128) slices_S2x320000_S1x320000_0_0 slices_S2x320000_S1x320000_1_0 shapeCasts_S1x320000_S320000 bcast_S_S320000 bcast_S320000_S320000x1_0 gather_S10000x4_S320000x1_S320000x4_1_0_n_n_0_1_14_wf concatenates_S320000x4_S320000x4_S320000x8_d1 dot_S320000x8_S8x128_S320000x128_1_0_0_1_n_n_wf dot_S320000x128_S128x128_S320000x128_1_0_0_1_n_n_wf dot_S320000x128_S128x128_S320000x128_1_0_0_1_n_n_wf bcast_S128_S1x128_1 bcast_S1x128_S320000x128_0_1 bcast_S128_S1x128_1 bcast_S1x128_S320000x128_0_1 bcast_S_S320000x128 bcast_S_S10000x128 scatter_S10000x128_S320000x1_S320000x128_1_0_0_1_wf x0 x2 x4 x5 x6 x7 x8 x9)
            x2 x10 x11 x12 x13 x14 x15)
          x2 x16 x17 x18 x19 x20 x21)
        x2 x22 x23 x24 x25 x26 x27 := rfl

/-- The host program's result, as a function of its arguments, is the network. -/
theorem hval_eq (x0 : (⟨S10000x4, .f32⟩ : BufTy).Contents (Elt Ideal)) (x2 : (⟨S2x320000, .i32⟩ : BufTy).Contents (Elt Ideal)) (x4 : (⟨S8x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S256x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S256x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) (x20 : (⟨S128x128, .f32⟩ : BufTy).Contents (Elt Ideal)) (x21 : (⟨S128, .f32⟩ : BufTy).Contents (Elt Ideal)) (x22 : (⟨S256x128, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal)) (x26 : (⟨S128x16, .f32⟩ : BufTy).Contents (Elt Ideal)) (x27 : (⟨S16, .f32⟩ : BufTy).Contents (Elt Ideal)) (h : InRange x2) :
    hval (F := Ideal) x0 x2 x4 x5 x6 x7 x8 x9 x10 x11 x12 x13 x14 x15 x16 x17 x18 x19 x20 x21 x22 x23 x24 x25 x26 x27
      = netOf x0 x2 h x4 x5 x6 x7 x8 x9 x10 x11 x12 x13 x14 x15 x16 x17 x18 x19 x20 x21 x22 x23 x24 x25 x26 x27 := by
  funext i
  obtain ⟨v, j, rfl⟩ : ∃ (v : Fin 10000) (j : Fin 16), i = ValueIdx.ix2 v j := ⟨i 0, i 1, ValueIdx.eq_ix2 i⟩
  rw [hval_eq_layers, layer_apply (h := h), layer_mat (h := h), layer_mat (h := h), layer_mat (h := h)]
  rfl

/-- THE REFERENCE IS THE NETWORK: on every device the host program's result term is `Spec.netOf` of the argument
    buffers' contents, the edge list's entries being node numbers. -/
theorem result_eq' (m : (ℓ : Loc nD τ sig) → Buf (Elt Ideal) ℓ) (c : Dev nD)
    (h : InRange (m ((c.tc : Thread nD τ).loc main_arg2))) :
    hres (F := Ideal) m c
      = netOf (m ((c.tc : Thread nD τ).loc main_arg0)) (m ((c.tc : Thread nD τ).loc main_arg2)) h
          (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) :=
  hval_eq (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) h

end Cert.ReferenceIdeal.HandRun

end
-- ==== Proof.PreRange.lean ====
import proofs.«414286_j65627100283289_3_alg».proof.Proof.Args
import proofs.«414286_j65627100283289_3_alg».proof.Pre_finite_inputs
import Idealize.ShloMosaic.Lib.ReduceAll
import Idealize.ShloMosaic.Lib.StableHlo.Predicate

/-!
# The range fact, out of the printed precondition

The printed precondition is one conjunction, a chain of `and`s over one-bit words: 26 tests that a float array
holds finite numbers only, then two tests on the edge list `ei`: "every entry is `≥ 0`" and "every entry is
`< 10000`", both read signed, each an `and` over all `2 × 320000` entries of an entrywise comparison with a
constant. If the whole conjunction is 1 then so is each of its last two conjuncts; an `and` over all entries that
is 1 met a 1 at every entry; and a signed comparison that is 1 says the order of the two words read as integers.
That is `Cert.Spec.InRange ei`: every entry of the edge list is a node number. The 26 float conjuncts are never
opened: the walk keeps the right-hand conjunct at each `and`.
-/

namespace Cert.Proof

open Idealize.ShloMosaic Cert.Pre_finite_inputs

/-- The shape with no axes has one index. -/
instance subsingleton_scalarIdx : Subsingleton S_.Idx := ⟨fun a b => funext fun d => d.elim0⟩

/-- The last two conjuncts alone: if `p ∧ all (ei ≥ 0) ∧ all (ei < 10000)` is 1, whatever `p` is, every entry of
    `ei` is a node number. -/
theorem inRange_of_tail [Facts] (ei : IVec S2x320000 32) (p : IVec S_ 1)
    (h : andi (andi p
            (Host.reduce IntOp.andi
              (cmpi .sge ei (broadcastInDim S2x320000 ![] Facts.bcast_S_S2x320000 (constantI S_ 32 0#32)))
              (constantI S_ 1 1#1) Facts.reducesTo_S2x320000_S_d0_1 Facts.h_S_))
          (Host.reduce IntOp.andi
              (cmpi .slt ei (broadcastInDim S2x320000 ![] Facts.bcast_S_S2x320000 (constantI S_ 32 10000#32)))
              (constantI S_ 1 1#1) Facts.reducesTo_S2x320000_S_d0_1 Facts.h_S_)
        = (fun _ => 1#1)) : Cert.Spec.InRange ei := by
  have h0 := congrFun h ValueIdx.ix0
  simp only [andi] at h0
  obtain ⟨h1, hlt⟩ := IntOp.andi_eq_one.1 h0
  obtain ⟨-, hge⟩ := IntOp.andi_eq_one.1 h1
  intro i
  -- at entry `i` the comparison's right operand, a broadcast constant, is that constant
  have hge' : IntOp.cmpi .sge (ei i) 0#32 = 1#1 := Host.reduce_andi_all _ _ _ _ _ hge i
  have hlt' : IntOp.cmpi .slt (ei i) 10000#32 = 1#1 := Host.reduce_andi_all _ _ _ _ _ hlt i
  rw [IntOp.cmpi_sge] at hge'
  rw [IntOp.cmpi_slt] at hlt'
  have e0 : (0#32 : BitVec 32).toInt = 0 := by decide
  have e1 : (10000#32 : BitVec 32).toInt = 10000 := by decide
  rw [e0] at hge'
  rw [e1] at hlt'
  exact ⟨hge', hlt'⟩

/-- The same from the seventh part of the printed chain, which holds the two conjuncts: its other three arguments
    only feed the float conjuncts. -/
theorem inRange_of_part7 {F : FTy → Type} [FloatOps F] [Facts] (ei : IVec S2x320000 32) (b : FVec F S16 .f32)
    (p : IVec S_ 1) (w : FVec F S128x16 .f32)
    (h : fn_part7 (F := F) ei b p w = (fun _ => 1#1)) : Cert.Spec.InRange ei :=
  inRange_of_tail ei _ h

/-- The printed precondition gives the range fact: if it is 1 on the 28 argument arrays, every entry of the edge
    list (the third of them) is a node number. -/
theorem inRange_of_fn {F : FTy → Type} [FloatOps F] [Facts] (a0 : FVec F S10000x4 .f32) (a1 : FVec F S10000x3 .f32) (a2 : IVec S2x320000 32) (a3 : IVec S10000 32) (a4 : FVec F S8x128 .f32) (a5 : FVec F S128 .f32) (a6 : FVec F S128x128 .f32) (a7 : FVec F S128 .f32) (a8 : FVec F S128x128 .f32) (a9 : FVec F S128 .f32) (a10 : FVec F S256x128 .f32) (a11 : FVec F S128 .f32) (a12 : FVec F S128x128 .f32) (a13 : FVec F S128 .f32) (a14 : FVec F S128x128 .f32) (a15 : FVec F S128 .f32) (a16 : FVec F S256x128 .f32) (a17 : FVec F S128 .f32) (a18 : FVec F S128x128 .f32) (a19 : FVec F S128 .f32) (a20 : FVec F S128x128 .f32) (a21 : FVec F S128 .f32) (a22 : FVec F S256x128 .f32) (a23 : FVec F S128 .f32) (a24 : FVec F S128x128 .f32) (a25 : FVec F S128 .f32) (a26 : FVec F S128x16 .f32) (a27 : FVec F S16 .f32)
    (h : Cert.Pre_finite_inputs.fn (F := F) a0 a1 a2 a3 a4 a5 a6 a7 a8 a9 a10 a11 a12 a13 a14 a15 a16 a17 a18 a19 a20 a21 a22 a23 a24 a25 a26 a27 = (fun _ => 1#1)) : Cert.Spec.InRange a2 :=
  inRange_of_part7 (F := F) a2 _ _ _ h

end Cert.Proof
-- ==== Proof.AlgebraicI.lean ====
/-
  The last conjunct's assembly: both programs, at the ideal values, end with the same array.

  The kernel program's run ends with its result buffer at what its last host stretch computes, and that array is the
  network of the specification on the argument arrays; the reference program's run ends with its result at its own composed
  term, and that term is the same network on its own argument arrays. The two memories agree on the arguments, so the two
  networks are one function applied to equal arrays: the common value is the network on the kernel program's arguments.
  The edge list's range fact, which the network's definition takes, comes out of the printed precondition. The module takes
  the two runs and the two value facts as hypotheses and states what follows from them: the equality of the results, and the
  two runs with the result dropped.
-/
import proofs.«414286_j65627100283289_3_alg».proof.Defs
import proofs.«414286_j65627100283289_3_alg».proof.Proof.Args
import proofs.«414286_j65627100283289_3_alg».proof.Proof.PreRange
import proofs.«414286_j65627100283289_3_alg».proof.Proof.Gen.KernelIdeal
import proofs.«414286_j65627100283289_3_alg».proof.Proof.Gen.KernelIdeal.Regions
import proofs.«414286_j65627100283289_3_alg».proof.Proof.Gen.ReferenceIdeal
import proofs.«414286_j65627100283289_3_alg».proof.Proof.Gen.Pre_finite_inputs

noncomputable section

namespace Cert.Proof

open Idealize.ShloMosaic Idealize.ShloMosaic.TcCoe Idealize.SL.Sem

/-- A memory of the kernel program at the ideal values. -/
abbrev KMem : Type := (ℓ : Loc Cert.KernelIdeal.nD Cert.KernelIdeal.τ Cert.KernelIdeal.sig) → Buf (Elt Ideal) ℓ
/-- A memory of the reference program at the ideal values. -/
abbrev RMem : Type := (ℓ : Loc Cert.ReferenceIdeal.nD Cert.ReferenceIdeal.τ Cert.ReferenceIdeal.sig) → Buf (Elt Ideal) ℓ

/-- The network on equal arrays is the same array, whichever proofs of the range fact it is given. -/
theorem netOf_congr {x x' : FVec Ideal (⟨2, ![10000, 4]⟩ : Shape) .f32} (hx : x' = x)
    {ei ei' : IVec Cert.Spec.SEdge 32} (he : ei' = ei) (h : Cert.Spec.InRange ei) (h' : Cert.Spec.InRange ei')
    {W00 W00' : FVec Ideal (⟨2, ![4 + 4, 128]⟩ : Shape) .f32} (eW00 : W00' = W00)
    {b00 b00' : FVec Ideal (⟨1, ![128]⟩ : Shape) .f32} (eb00 : b00' = b00)
    {W01 W01' : FVec Ideal (⟨2, ![128, 128]⟩ : Shape) .f32} (eW01 : W01' = W01)
    {b01 b01' : FVec Ideal (⟨1, ![128]⟩ : Shape) .f32} (eb01 : b01' = b01)
    {W02 W02' : FVec Ideal (⟨2, ![128, 128]⟩ : Shape) .f32} (eW02 : W02' = W02)
    {b02 b02' : FVec Ideal (⟨1, ![128]⟩ : Shape) .f32} (eb02 : b02' = b02)
    {W10 W10' : FVec Ideal (⟨2, ![128 + 128, 128]⟩ : Shape) .f32} (eW10 : W10' = W10)
    {b10 b10' : FVec Ideal (⟨1, ![128]⟩ : Shape) .f32} (eb10 : b10' = b10)
    {W11 W11' : FVec Ideal (⟨2, ![128, 128]⟩ : Shape) .f32} (eW11 : W11' = W11)
    {b11 b11' : FVec Ideal (⟨1, ![128]⟩ : Shape) .f32} (eb11 : b11' = b11)
    {W12 W12' : FVec Ideal (⟨2, ![128, 128]⟩ : Shape) .f32} (eW12 : W12' = W12)
    {b12 b12' : FVec Ideal (⟨1, ![128]⟩ : Shape) .f32} (eb12 : b12' = b12)
    {W20 W20' : FVec Ideal (⟨2, ![128 + 128, 128]⟩ : Shape) .f32} (eW20 : W20' = W20)
    {b20 b20' : FVec Ideal (⟨1, ![128]⟩ : Shape) .f32} (eb20 : b20' = b20)
    {W21 W21' : FVec Ideal (⟨2, ![128, 128]⟩ : Shape) .f32} (eW21 : W21' = W21)
    {b21 b21' : FVec Ideal (⟨1, ![128]⟩ : Shape) .f32} (eb21 : b21' = b21)
    {W22 W22' : FVec Ideal (⟨2, ![128, 128]⟩ : Shape) .f32} (eW22 : W22' = W22)
    {b22 b22' : FVec Ideal (⟨1, ![128]⟩ : Shape) .f32} (eb22 : b22' = b22)
    {W30 W30' : FVec Ideal (⟨2, ![128 + 128, 128]⟩ : Shape) .f32} (eW30 : W30' = W30)
    {b30 b30' : FVec Ideal (⟨1, ![128]⟩ : Shape) .f32} (eb30 : b30' = b30)
    {W31 W31' : FVec Ideal (⟨2, ![128, 128]⟩ : Shape) .f32} (eW31 : W31' = W31)
    {b31 b31' : FVec Ideal (⟨1, ![128]⟩ : Shape) .f32} (eb31 : b31' = b31)
    {W32 W32' : FVec Ideal (⟨2, ![128, 16]⟩ : Shape) .f32} (eW32 : W32' = W32)
    {b32 b32' : FVec Ideal (⟨1, ![16]⟩ : Shape) .f32} (eb32 : b32' = b32) :
    Cert.Spec.netOf x' ei' h' W00' b00' W01' b01' W02' b02' W10' b10' W11' b11' W12' b12' W20' b20' W21' b21' W22' b22' W30' b30' W31' b31' W32' b32'
      = Cert.Spec.netOf x ei h W00 b00 W01 b01 W02 b02 W10 b10 W11 b11 W12 b12 W20 b20 W21 b21 W22 b22 W30 b30 W31 b31 W32 b32 := by
  subst hx he eW00 eb00 eW01 eb01 eW02 eb02 eW10 eb10 eW11 eb11 eW12 eb12 eW20 eb20 eW21 eb21 eW22 eb22 eW30 eb30 eW31 eb31 eW32 eb32
  rfl

/-- The printed precondition gives the edge list's range fact on every device. -/
theorem inRange_of_pre (m : KMem) (hpre : Cert.Pre_KernelIdeal m) (c : Dev Cert.KernelIdeal.nD) :
    Cert.Spec.InRange (m ((c.tc : Thread Cert.KernelIdeal.nD Cert.KernelIdeal.τ).loc Cert.KernelIdeal.main_arg2)) :=
  inRange_of_fn (F := Ideal) _ _ _ _ _ _ _ _ _ _ _ _ _ _ _ _ _ _ _ _ _ _ _ _ _ _ _ _ (hpre c)

/-- Both programs end with the network of the specification on the kernel program's argument arrays, given: the kernel
    program's run to its last host stretch's value (`hrun`), that value being the network (`hval`), the reference
    program's run to its composed term (`R1`), and that term being the network on its own arguments (`R2`). -/
theorem algebraic_of (outs : KMem → Cert.KernelIdeal.Gen.Outs (F := Ideal))
    (hrun : ∀ (m : KMem) (ρ : Dev Cert.KernelIdeal.nD → PrngReg),
      (∀ c : Dev Cert.KernelIdeal.nD, Cert.Spec.InRange (m ((c.tc : Thread Cert.KernelIdeal.nD Cert.KernelIdeal.τ).loc Cert.KernelIdeal.main_arg2))) →
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v69) = Cert.KernelIdeal.Gen.V19 m (outs m) c Cert.KernelIdeal.main_v69
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)))
    (hval : ∀ (m : KMem) (c : Dev Cert.KernelIdeal.nD) (h : Cert.Spec.InRange (m ((c.tc : Thread Cert.KernelIdeal.nD Cert.KernelIdeal.τ).loc Cert.KernelIdeal.main_arg2))),
      (Cert.KernelIdeal.Gen.V19 m (outs m) c Cert.KernelIdeal.main_v69 : Cert.KernelIdeal.S10000x16.Idx → EReal)
        = Cert.Spec.netOf
            (m ((c.tc : Thread Cert.KernelIdeal.nD Cert.KernelIdeal.τ).loc Cert.KernelIdeal.main_arg0))
            (m ((c.tc : Thread Cert.KernelIdeal.nD Cert.KernelIdeal.τ).loc Cert.KernelIdeal.main_arg2)) h
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7))
            (m ((c.tc : Thread Cert.KernelIdeal.nD Cert.KernelIdeal.τ).loc Cert.KernelIdeal.main_arg8))
            (m ((c.tc : Thread Cert.KernelIdeal.nD Cert.KernelIdeal.τ).loc Cert.KernelIdeal.main_arg9))
            (m ((c.tc : Thread Cert.KernelIdeal.nD Cert.KernelIdeal.τ).loc Cert.KernelIdeal.main_arg10))
            (m ((c.tc : Thread Cert.KernelIdeal.nD Cert.KernelIdeal.τ).loc Cert.KernelIdeal.main_arg11))
            (m ((c.tc : Thread Cert.KernelIdeal.nD Cert.KernelIdeal.τ).loc Cert.KernelIdeal.main_arg12))
            (m ((c.tc : Thread Cert.KernelIdeal.nD Cert.KernelIdeal.τ).loc Cert.KernelIdeal.main_arg13))
            (m ((c.tc : Thread Cert.KernelIdeal.nD Cert.KernelIdeal.τ).loc Cert.KernelIdeal.main_arg14))
            (m ((c.tc : Thread Cert.KernelIdeal.nD Cert.KernelIdeal.τ).loc Cert.KernelIdeal.main_arg15))
            (m ((c.tc : Thread Cert.KernelIdeal.nD Cert.KernelIdeal.τ).loc Cert.KernelIdeal.main_arg16))
            (m ((c.tc : Thread Cert.KernelIdeal.nD Cert.KernelIdeal.τ).loc Cert.KernelIdeal.main_arg17))
            (m ((c.tc : Thread Cert.KernelIdeal.nD Cert.KernelIdeal.τ).loc Cert.KernelIdeal.main_arg18))
            (m ((c.tc : Thread Cert.KernelIdeal.nD Cert.KernelIdeal.τ).loc Cert.KernelIdeal.main_arg19))
            (m ((c.tc : Thread Cert.KernelIdeal.nD Cert.KernelIdeal.τ).loc Cert.KernelIdeal.main_arg20))
            (m ((c.tc : Thread Cert.KernelIdeal.nD Cert.KernelIdeal.τ).loc Cert.KernelIdeal.main_arg21))
            (m ((c.tc : Thread Cert.KernelIdeal.nD Cert.KernelIdeal.τ).loc Cert.KernelIdeal.main_arg22))
            (m ((c.tc : Thread Cert.KernelIdeal.nD Cert.KernelIdeal.τ).loc Cert.KernelIdeal.main_arg23))
            (m ((c.tc : Thread Cert.KernelIdeal.nD Cert.KernelIdeal.τ).loc Cert.KernelIdeal.main_arg24))
            (m ((c.tc : Thread Cert.KernelIdeal.nD Cert.KernelIdeal.τ).loc Cert.KernelIdeal.main_arg25))
            (m ((c.tc : Thread Cert.KernelIdeal.nD Cert.KernelIdeal.τ).loc Cert.KernelIdeal.main_arg26))
            (m ((c.tc : Thread Cert.KernelIdeal.nD Cert.KernelIdeal.τ).loc Cert.KernelIdeal.main_arg27)))
    (res : (m' : RMem) → (c : Dev Cert.ReferenceIdeal.nD) → Buf (Elt Ideal) ((c.tc : Thread Cert.ReferenceIdeal.nD Cert.ReferenceIdeal.τ).loc Cert.ReferenceIdeal.main_v135))
    (R1 : ∀ (m' : RMem) (ρ' : Dev Cert.ReferenceIdeal.nD → PrngReg),
      θ_run (Cert.ReferenceIdeal.defs (F := Ideal)) (onTc (τ := Cert.ReferenceIdeal.τ) (Cert.ReferenceIdeal.main (F := Ideal))) ⟨m', fun _ => 0, ρ'⟩
        (fun r => ∀ c : Dev Cert.ReferenceIdeal.nD,
          r.2.mem ((c.tc : Thread Cert.ReferenceIdeal.nD Cert.ReferenceIdeal.τ).loc Cert.ReferenceIdeal.main_v135) = res m' c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)))
    (R2 : ∀ (m' : RMem) (c : Dev Cert.ReferenceIdeal.nD) (h' : Cert.Spec.InRange (m' ((c.tc : Thread Cert.ReferenceIdeal.nD Cert.ReferenceIdeal.τ).loc Cert.ReferenceIdeal.main_arg2))),
      res m' c
        = Cert.Spec.netOf
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg2)) h'
            (m' ((c.tc : Thread Cert.ReferenceIdeal.nD Cert.ReferenceIdeal.τ).loc Cert.ReferenceIdeal.main_arg4))
            (m' ((c.tc : Thread Cert.ReferenceIdeal.nD Cert.ReferenceIdeal.τ).loc Cert.ReferenceIdeal.main_arg5))
            (m' ((c.tc : Thread Cert.ReferenceIdeal.nD Cert.ReferenceIdeal.τ).loc Cert.ReferenceIdeal.main_arg6))
            (m' ((c.tc : Thread Cert.ReferenceIdeal.nD Cert.ReferenceIdeal.τ).loc Cert.ReferenceIdeal.main_arg7))
            (m' ((c.tc : Thread Cert.ReferenceIdeal.nD Cert.ReferenceIdeal.τ).loc Cert.ReferenceIdeal.main_arg8))
            (m' ((c.tc : Thread Cert.ReferenceIdeal.nD Cert.ReferenceIdeal.τ).loc Cert.ReferenceIdeal.main_arg9))
            (m' ((c.tc : Thread Cert.ReferenceIdeal.nD Cert.ReferenceIdeal.τ).loc Cert.ReferenceIdeal.main_arg10))
            (m' ((c.tc : Thread Cert.ReferenceIdeal.nD Cert.ReferenceIdeal.τ).loc Cert.ReferenceIdeal.main_arg11))
            (m' ((c.tc : Thread Cert.ReferenceIdeal.nD Cert.ReferenceIdeal.τ).loc Cert.ReferenceIdeal.main_arg12))
            (m' ((c.tc : Thread Cert.ReferenceIdeal.nD Cert.ReferenceIdeal.τ).loc Cert.ReferenceIdeal.main_arg13))
            (m' ((c.tc : Thread Cert.ReferenceIdeal.nD Cert.ReferenceIdeal.τ).loc Cert.ReferenceIdeal.main_arg14))
            (m' ((c.tc : Thread Cert.ReferenceIdeal.nD Cert.ReferenceIdeal.τ).loc Cert.ReferenceIdeal.main_arg15))
            (m' ((c.tc : Thread Cert.ReferenceIdeal.nD Cert.ReferenceIdeal.τ).loc Cert.ReferenceIdeal.main_arg16))
            (m' ((c.tc : Thread Cert.ReferenceIdeal.nD Cert.ReferenceIdeal.τ).loc Cert.ReferenceIdeal.main_arg17))
            (m' ((c.tc : Thread Cert.ReferenceIdeal.nD Cert.ReferenceIdeal.τ).loc Cert.ReferenceIdeal.main_arg18))
            (m' ((c.tc : Thread Cert.ReferenceIdeal.nD Cert.ReferenceIdeal.τ).loc Cert.ReferenceIdeal.main_arg19))
            (m' ((c.tc : Thread Cert.ReferenceIdeal.nD Cert.ReferenceIdeal.τ).loc Cert.ReferenceIdeal.main_arg20))
            (m' ((c.tc : Thread Cert.ReferenceIdeal.nD Cert.ReferenceIdeal.τ).loc Cert.ReferenceIdeal.main_arg21))
            (m' ((c.tc : Thread Cert.ReferenceIdeal.nD Cert.ReferenceIdeal.τ).loc Cert.ReferenceIdeal.main_arg22))
            (m' ((c.tc : Thread Cert.ReferenceIdeal.nD Cert.ReferenceIdeal.τ).loc Cert.ReferenceIdeal.main_arg23))
            (m' ((c.tc : Thread Cert.ReferenceIdeal.nD Cert.ReferenceIdeal.τ).loc Cert.ReferenceIdeal.main_arg24))
            (m' ((c.tc : Thread Cert.ReferenceIdeal.nD Cert.ReferenceIdeal.τ).loc Cert.ReferenceIdeal.main_arg25))
            (m' ((c.tc : Thread Cert.ReferenceIdeal.nD Cert.ReferenceIdeal.τ).loc Cert.ReferenceIdeal.main_arg26))
            (m' ((c.tc : Thread Cert.ReferenceIdeal.nD Cert.ReferenceIdeal.τ).loc Cert.ReferenceIdeal.main_arg27))) :
    Cert.algebraic_KernelIdeal_ReferenceIdeal := by
  intro m ρ m' ρ' hpre hagree
  have hin := inRange_of_pre m hpre
  refine ⟨fun c => Cert.Spec.netOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) (hin c)
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23))
      (m ((c.tc : Thread Cert.KernelIdeal.nD Cert.KernelIdeal.τ).loc Cert.KernelIdeal.main_arg24))
      (m ((c.tc : Thread Cert.KernelIdeal.nD Cert.KernelIdeal.τ).loc Cert.KernelIdeal.main_arg25))
      (m ((c.tc : Thread Cert.KernelIdeal.nD Cert.KernelIdeal.τ).loc Cert.KernelIdeal.main_arg26))
      (m ((c.tc : Thread Cert.KernelIdeal.nD Cert.KernelIdeal.τ).loc Cert.KernelIdeal.main_arg27)), ?_, ?_⟩
  · exact (θ_run Cert.KernelIdeal.defs _ _).mono (fun _ h c => ⟨(h c).1.trans (hval m c (hin c)), (h c).2⟩) (hrun m ρ hin)
  · have hin' : ∀ c : Dev Cert.ReferenceIdeal.nD, Cert.Spec.InRange (m' ((c.tc : Thread Cert.ReferenceIdeal.nD Cert.ReferenceIdeal.τ).loc Cert.ReferenceIdeal.main_arg2)) := fun c => by
      rw [(hagree c).2.2.1]; exact hin c
    refine (θ_run Cert.ReferenceIdeal.defs _ _).mono (fun _ h c => ⟨(h c).1.trans ((R2 m' c (hin' c)).trans ?_), (h c).2⟩) (R1 m' ρ')
    have a := hagree c
    exact netOf_congr a.1 a.2.2.1 (hin c) (hin' c)
      a.2.2.2.2.1
      a.2.2.2.2.2.1
      a.2.2.2.2.2.2.1
      a.2.2.2.2.2.2.2.1
      a.2.2.2.2.2.2.2.2.1
      a.2.2.2.2.2.2.2.2.2.1
      a.2.2.2.2.2.2.2.2.2.2.1
      a.2.2.2.2.2.2.2.2.2.2.2.1
      a.2.2.2.2.2.2.2.2.2.2.2.2.1
      a.2.2.2.2.2.2.2.2.2.2.2.2.2.1
      a.2.2.2.2.2.2.2.2.2.2.2.2.2.2.1
      a.2.2.2.2.2.2.2.2.2.2.2.2.2.2.2.1
      a.2.2.2.2.2.2.2.2.2.2.2.2.2.2.2.2.1
      a.2.2.2.2.2.2.2.2.2.2.2.2.2.2.2.2.2.1
      a.2.2.2.2.2.2.2.2.2.2.2.2.2.2.2.2.2.2.1
      a.2.2.2.2.2.2.2.2.2.2.2.2.2.2.2.2.2.2.2.1
      a.2.2.2.2.2.2.2.2.2.2.2.2.2.2.2.2.2.2.2.2.1
      a.2.2.2.2.2.2.2.2.2.2.2.2.2.2.2.2.2.2.2.2.2.1
      a.2.2.2.2.2.2.2.2.2.2.2.2.2.2.2.2.2.2.2.2.2.2.1
      a.2.2.2.2.2.2.2.2.2.2.2.2.2.2.2.2.2.2.2.2.2.2.2.1
      a.2.2.2.2.2.2.2.2.2.2.2.2.2.2.2.2.2.2.2.2.2.2.2.2.1
      a.2.2.2.2.2.2.2.2.2.2.2.2.2.2.2.2.2.2.2.2.2.2.2.2.2.1
      a.2.2.2.2.2.2.2.2.2.2.2.2.2.2.2.2.2.2.2.2.2.2.2.2.2.2.1
      a.2.2.2.2.2.2.2.2.2.2.2.2.2.2.2.2.2.2.2.2.2.2.2.2.2.2.2

/-- The idealization rewrote no operation: its ledger is empty. -/
theorem preserves : Cert.preserves_Kernel_KernelIdeal := trivial

/-- The kernel program at the ideal values runs and leaves its arguments as they were: its run with the result dropped. -/
theorem frame_ki_of (outs : KMem → Cert.KernelIdeal.Gen.Outs (F := Ideal))
    (hrun : ∀ (m : KMem) (ρ : Dev Cert.KernelIdeal.nD → PrngReg),
      (∀ c : Dev Cert.KernelIdeal.nD, Cert.Spec.InRange (m ((c.tc : Thread Cert.KernelIdeal.nD Cert.KernelIdeal.τ).loc Cert.KernelIdeal.main_arg2))) →
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v69) = Cert.KernelIdeal.Gen.V19 m (outs m) c Cert.KernelIdeal.main_v69
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))) :
    Cert.frame_KernelIdeal := fun m ρ hpre =>
  (θ_run Cert.KernelIdeal.defs _ _).mono (fun _ h c => (h c).2) (hrun m ρ (inRange_of_pre m hpre))

/-- The reference program at the ideal values runs and leaves its arguments as they were: its run with the result
    dropped. -/
theorem frame_ri_of
    (res : (m' : RMem) → (c : Dev Cert.ReferenceIdeal.nD) → Buf (Elt Ideal) ((c.tc : Thread Cert.ReferenceIdeal.nD Cert.ReferenceIdeal.τ).loc Cert.ReferenceIdeal.main_v135))
    (R1 : ∀ (m' : RMem) (ρ' : Dev Cert.ReferenceIdeal.nD → PrngReg),
      θ_run (Cert.ReferenceIdeal.defs (F := Ideal)) (onTc (τ := Cert.ReferenceIdeal.τ) (Cert.ReferenceIdeal.main (F := Ideal))) ⟨m', fun _ => 0, ρ'⟩
        (fun r => ∀ c : Dev Cert.ReferenceIdeal.nD,
          r.2.mem ((c.tc : Thread Cert.ReferenceIdeal.nD Cert.ReferenceIdeal.τ).loc Cert.ReferenceIdeal.main_v135) = res m' c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))) :
    Cert.frame_ReferenceIdeal := fun m ρ _ =>
  (θ_run Cert.ReferenceIdeal.defs _ _).mono (fun _ h c => (h c).2) (R1 m ρ)

end Cert.Proof

end
-- ==== Proof.lean ====
/-
  The certificate of one four-layer EdgeConv network kernel against its reference.

  Both programs compute, over a graph of 10000 nodes and 320000 directed edges, four stacked layers in each of which
  every edge sends its target the value of a three-layer perceptron at (target's row, source's row minus target's
  row) and every node receives the sum of what is sent to it. The reference gathers the two rows per edge, applies the
  perceptron to all edges at once and scatter-adds by target. The kernel sorts the edges by target once, cuts them
  into 2 cores x 625 tiles of 256 edges, and spells both gathers and the scatter as products with 0/1 matrices against
  a node table padded with zero rows to 10 chunks of 1024, entering a chunk's product for the target-keyed ones only
  when the chunk lies between the chunks of the tile's first and last target; each core accumulates its tiles'
  contributions, and the two cores' sums are added.

  Under the precondition (every float input finite — never used — and every entry of the edge list a node number)
  the two results are equal entry by entry over the extended reals: a 0/1 product picks one row or one message
  (0 * v = 0 and 1 * v = v hold at the infinities too), a chunk outside the gate holds no target of the tile because
  the targets are sorted, and a sum over the edges does not depend on their order or on how they are cut into tiles.

  The three frames: the reference's run is four chunks of host operations; each kernel program's run is its host
  stretches and four pipelined regions, each region's body run once at a symbolic grid point with every conditional
  taken both ways, the accumulator named from tile to tile by the step function the run finds. The idealization
  rewrote nothing, so its ledger is empty.
-/
import proofs.«414286_j65627100283289_3_alg».proof.Defs
import proofs.«414286_j65627100283289_3_alg».proof.Proof.Gen.Kernel
import proofs.«414286_j65627100283289_3_alg».proof.Proof.Gen.KernelIdeal
import proofs.«414286_j65627100283289_3_alg».proof.Proof.Gen.ReferenceIdeal
import proofs.«414286_j65627100283289_3_alg».proof.Proof.Gen.Pre_finite_inputs
import proofs.«414286_j65627100283289_3_alg».proof.Proof.RegionsK
import proofs.«414286_j65627100283289_3_alg».proof.Proof.RegionsI
import proofs.«414286_j65627100283289_3_alg».proof.Proof.KValueI
import proofs.«414286_j65627100283289_3_alg».proof.Proof.RefRun
import proofs.«414286_j65627100283289_3_alg».proof.Proof.RefValueH
import proofs.«414286_j65627100283289_3_alg».proof.Proof.AlgebraicI
import Idealize.ShloMosaic.Adequacy
import Idealize.ShloMosaic.Init

noncomputable section

namespace Cert.Proof

open Idealize.ShloMosaic Idealize.SL.Sem

/-- The word-level kernel program runs to its end and leaves its arguments as they were: its run with the result
    dropped. -/
theorem frame_k : Cert.frame_Kernel := fun m ρ _ =>
  (θ_run (Cert.Kernel.defs (F := Bits)) _ _).mono (fun _ h c => (h c).2) (Cert.Kernel.Gen.run (F := Bits) m ρ)

theorem claim : Cert.Claim :=
  ⟨Cert.Kernel.Gen.facts, Cert.KernelIdeal.Gen.facts, Cert.ReferenceIdeal.Gen.facts, Cert.Pre_finite_inputs.Gen.facts,
    frame_k,
    frame_ki_of (fun m => Cert.KernelIdeal.Gen.outsI (F := Ideal) m) (fun m ρ _ => Cert.KernelIdeal.Gen.run (F := Ideal) m ρ),
    frame_ri_of (Cert.ReferenceIdeal.HandRun.hres (F := Ideal)) (Cert.ReferenceIdeal.HandRun.run (F := Ideal)),
    preserves,
    algebraic_of (fun m => Cert.KernelIdeal.Gen.outsI (F := Ideal) m) (fun m ρ _ => Cert.KernelIdeal.Gen.run (F := Ideal) m ρ) Cert.KernelIdeal.KHost.kvalue
      (Cert.ReferenceIdeal.HandRun.hres (F := Ideal)) (Cert.ReferenceIdeal.HandRun.run (F := Ideal))
      Cert.ReferenceIdeal.HandRun.result_eq'⟩

end Cert.Proof

end
